-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  IdealRules.truncf_extf.Statement Cert.KernelIdeal.S5200x256 .f32 .bf16
  ∧ IdealRules.truncf_extf.Statement Cert.KernelIdeal.S256 .f32 .bf16

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16x24x325 : Shape := ⟨3, ![16, 24, 325]⟩
abbrev S5200x5 : Shape := ⟨2, ![5200, 5]⟩
abbrev S5200 : Shape := ⟨1, ![5200]⟩
abbrev S325 : Shape := ⟨1, ![325]⟩
abbrev S325x16 : Shape := ⟨2, ![325, 16]⟩
abbrev S40x5x256 : Shape := ⟨3, ![40, 5, 256]⟩
abbrev S40x256 : Shape := ⟨2, ![40, 256]⟩
abbrev S40x256x1 : Shape := ⟨3, ![40, 256, 1]⟩
abbrev S40x1 : Shape := ⟨2, ![40, 1]⟩
abbrev S4x160x64 : Shape := ⟨3, ![4, 160, 64]⟩
abbrev S64 : Shape := ⟨1, ![64]⟩
abbrev S9x4x64x64 : Shape := ⟨4, ![9, 4, 64, 64]⟩
abbrev S9x64 : Shape := ⟨2, ![9, 64]⟩
abbrev S10x64 : Shape := ⟨2, ![10, 64]⟩
abbrev S64x512 : Shape := ⟨2, ![64, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S16x24x325 : S_.BroadcastsInDim S16x24x325 (![] : Fin 0 → Fin S16x24x325.rank)
  reducesTo_S16x24x325_S_d0_1_2 : S16x24x325.ReducesTo [0, 1, 2] S_
  h_S_ : 0 < S_.numel
  bcast_S_S5200x5 : S_.BroadcastsInDim S5200x5 (![] : Fin 0 → Fin S5200x5.rank)
  reducesTo_S5200x5_S_d0_1 : S5200x5.ReducesTo [0, 1] S_
  bcast_S_S325x16 : S_.BroadcastsInDim S325x16 (![] : Fin 0 → Fin S325x16.rank)
  reducesTo_S325x16_S_d0_1 : S325x16.ReducesTo [0, 1] S_
  bcast_S_S40x5x256 : S_.BroadcastsInDim S40x5x256 (![] : Fin 0 → Fin S40x5x256.rank)
  reducesTo_S40x5x256_S_d0_1_2 : S40x5x256.ReducesTo [0, 1, 2] S_
  bcast_S_S40x256 : S_.BroadcastsInDim S40x256 (![] : Fin 0 → Fin S40x256.rank)
  reducesTo_S40x256_S_d0_1 : S40x256.ReducesTo [0, 1] S_
  bcast_S_S40x256x1 : S_.BroadcastsInDim S40x256x1 (![] : Fin 0 → Fin S40x256x1.rank)
  reducesTo_S40x256x1_S_d0_1_2 : S40x256x1.ReducesTo [0, 1, 2] S_
  bcast_S_S40x1 : S_.BroadcastsInDim S40x1 (![] : Fin 0 → Fin S40x1.rank)
  reducesTo_S40x1_S_d0_1 : S40x1.ReducesTo [0, 1] S_
  bcast_S_S4x160x64 : S_.BroadcastsInDim S4x160x64 (![] : Fin 0 → Fin S4x160x64.rank)
  reducesTo_S4x160x64_S_d0_1_2 : S4x160x64.ReducesTo [0, 1, 2] S_
  bcast_S_S64 : S_.BroadcastsInDim S64 (![] : Fin 0 → Fin S64.rank)
  reducesTo_S64_S_d0 : S64.ReducesTo [0] S_
  bcast_S_S9x4x64x64 : S_.BroadcastsInDim S9x4x64x64 (![] : Fin 0 → Fin S9x4x64x64.rank)
  reducesTo_S9x4x64x64_S_d0_1_2_3 : S9x4x64x64.ReducesTo [0, 1, 2, 3] S_
  bcast_S_S9x64 : S_.BroadcastsInDim S9x64 (![] : Fin 0 → Fin S9x64.rank)
  reducesTo_S9x64_S_d0_1 : S9x64.ReducesTo [0, 1] S_
  bcast_S_S10x64 : S_.BroadcastsInDim S10x64 (![] : Fin 0 → Fin S10x64.rank)
  reducesTo_S10x64_S_d0_1 : S10x64.ReducesTo [0, 1] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S5200 : S_.BroadcastsInDim S5200 (![] : Fin 0 → Fin S5200.rank)
  reducesTo_S5200_S_d0 : S5200.ReducesTo [0] S_
  bcast_S_S325 : S_.BroadcastsInDim S325 (![] : Fin 0 → Fin S325.rank)
  reducesTo_S325_S_d0 : S325.ReducesTo [0] S_

variable [Facts]

def fn_part5 {F : FTy → Type} [FloatOps F] (main_arg2 : IVec S5200 32) (main_arg3 : IVec S325 32) (main_v83 : IVec S_ 1) (main_v84 : IVec S5200 32) : IVec S_ 1 :=
  let main_v85 : IVec S5200 1 := cmpi .sge main_arg2 main_v84
  let main_c_33 : IVec S_ 32 := constantI S_ 32 105624#32
  let main_v86 : IVec S5200 32 := broadcastInDim S5200 ![] bcast_S_S5200 main_c_33
  let main_v87 : IVec S5200 1 := cmpi .sle main_arg2 main_v86
  let main_v88 : IVec S5200 1 := andi main_v85 main_v87
  let main_c_34 : IVec S_ 1 := constantI S_ 1 1#1
  let main_v89 : IVec S_ 1 := (fun x v => Host.reduce IntOp.andi x v reducesTo_S5200_S_d0 h_S_) main_v88 main_c_34
  let main_v90 : IVec S_ 1 := andi main_v83 main_v89
  let main_c_35 : IVec S_ 32 := constantI S_ 32 0#32
  let main_v91 : IVec S325 32 := broadcastInDim S325 ![] bcast_S_S325 main_c_35
  let main_v92 : IVec S325 1 := cmpi .sge main_arg3 main_v91
  let main_c_36 : IVec S_ 32 := constantI S_ 32 324#32
  let main_v93 : IVec S325 32 := broadcastInDim S325 ![] bcast_S_S325 main_c_36
  let main_v94 : IVec S325 1 := cmpi .sle main_arg3 main_v93
  let main_v95 : IVec S325 1 := andi main_v92 main_v94
  let main_c_37 : IVec S_ 1 := constantI S_ 1 1#1
  let main_v96 : IVec S_ 1 := (fun x v => Host.reduce IntOp.andi x v reducesTo_S325_S_d0 h_S_) main_v95 main_c_37
  let main_v97 : IVec S_ 1 := andi main_v90 main_v96
  main_v97

def fn_part4 {F : FTy → Type} [FloatOps F] (main_arg2 : IVec S5200 32) (main_arg3 : IVec S325 32) (main_arg16 : FVec F S512 .f32) (main_arg17 : FVec F S512x1 .f32) (main_arg18 : FVec F S1 .f32) (main_v63 : IVec S_ 1) (main_v67 : IVec S_ 1) : IVec S_ 1 :=
  let main_v68 : IVec S_ 1 := andi main_v63 main_v67
  let main_v69 : FVec F S512 .f32 := Host.absf main_arg16
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x1 .f32 := Host.absf main_arg17
  let main_cst_28 : FVec F S_ .f32 := constant S_ .f32 0x7F800000#32
  let main_v75 : FVec F S512x1 .f32 := broadcastInDim S512x1 ![] bcast_S_S512x1 main_cst_28
  let main_v76 : IVec S512x1 1 := cmpf .olt main_v74 main_v75
  let main_c_29 : IVec S_ 1 := constantI S_ 1 1#1
  let main_v77 : IVec S_ 1 := (fun x v => Host.reduce IntOp.andi x v reducesTo_S512x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_c_32 : IVec S_ 32 := constantI S_ 32 0#32
  let main_v84 : IVec S5200 32 := broadcastInDim S5200 ![] bcast_S_S5200 main_c_32
  fn_part5 (F := F) main_arg2 main_arg3 main_v83 main_v84

def fn_part3 {F : FTy → Type} [FloatOps F] (main_arg2 : IVec S5200 32) (main_arg3 : IVec S325 32) (main_arg13 : FVec F S10x64 .f32) (main_arg14 : FVec F S10x64 .f32) (main_arg15 : FVec F S64x512 .f32) (main_arg16 : FVec F S512 .f32) (main_arg17 : FVec F S512x1 .f32) (main_arg18 : FVec F S1 .f32) (main_v48 : IVec S_ 1) (main_v49 : FVec F S9x64 .f32) (main_v50 : FVec F S9x64 .f32) : IVec S_ 1 :=
  let main_v51 : IVec S9x64 1 := cmpf .olt main_v49 main_v50
  let main_c_19 : IVec S_ 1 := constantI S_ 1 1#1
  let main_v52 : IVec S_ 1 := (fun x v => Host.reduce IntOp.andi x v reducesTo_S9x64_S_d0_1 h_S_) main_v51 main_c_19
  let main_v53 : IVec S_ 1 := andi main_v48 main_v52
  let main_v54 : FVec F S10x64 .f32 := Host.absf main_arg13
  let main_cst_20 : FVec F S_ .f32 := constant S_ .f32 0x7F800000#32
  let main_v55 : FVec F S10x64 .f32 := broadcastInDim S10x64 ![] bcast_S_S10x64 main_cst_20
  let main_v56 : IVec S10x64 1 := cmpf .olt main_v54 main_v55
  let main_c_21 : IVec S_ 1 := constantI S_ 1 1#1
  let main_v57 : IVec S_ 1 := (fun x v => Host.reduce IntOp.andi x v reducesTo_S10x64_S_d0_1 h_S_) main_v56 main_c_21
  let main_v58 : IVec S_ 1 := andi main_v53 main_v57
  let main_v59 : FVec F S10x64 .f32 := Host.absf main_arg14
  let main_cst_22 : FVec F S_ .f32 := constant S_ .f32 0x7F800000#32
  let main_v60 : FVec F S10x64 .f32 := broadcastInDim S10x64 ![] bcast_S_S10x64 main_cst_22
  let main_v61 : IVec S10x64 1 := cmpf .olt main_v59 main_v60
  let main_c_23 : IVec S_ 1 := constantI S_ 1 1#1
  let main_v62 : IVec S_ 1 := (fun x v => Host.reduce IntOp.andi x v reducesTo_S10x64_S_d0_1 h_S_) main_v61 main_c_23
  let main_v63 : IVec S_ 1 := andi main_v58 main_v62
  let main_v64 : FVec F S64x512 .f32 := Host.absf main_arg15
  let main_cst_24 : FVec F S_ .f32 := constant S_ .f32 0x7F800000#32
  let main_v65 : FVec F S64x512 .f32 := broadcastInDim S64x512 ![] bcast_S_S64x512 main_cst_24
  let main_v66 : IVec S64x512 1 := cmpf .olt main_v64 main_v65
  let main_c_25 : IVec S_ 1 := constantI S_ 1 1#1
  let main_v67 : IVec S_ 1 := (fun x v => Host.reduce IntOp.andi x v reducesTo_S64x512_S_d0_1 h_S_) main_v66 main_c_25
  fn_part4 (F := F) main_arg2 main_arg3 main_arg16 main_arg17 main_arg18 main_v63 main_v67

def fn_part2 {F : FTy → Type} [FloatOps F] (main_arg2 : IVec S5200 32) (main_arg3 : IVec S325 32) (main_arg9 : FVec F S4x160x64 .f32) (main_arg10 : FVec F S64 .f32) (main_arg11 : FVec F S9x4x64x64 .f32) (main_arg12 : FVec F S9x64 .f32) (main_arg13 : FVec F S10x64 .f32) (main_arg14 : FVec F S10x64 .f32) (main_arg15 : FVec F S64x512 .f32) (main_arg16 : FVec F S512 .f32) (main_arg17 : FVec F S512x1 .f32) (main_arg18 : FVec F S1 .f32) (main_v33 : IVec S_ 1) : IVec S_ 1 :=
  let main_v34 : FVec F S4x160x64 .f32 := Host.absf main_arg9
  let main_cst_12 : FVec F S_ .f32 := constant S_ .f32 0x7F800000#32
  let main_v35 : FVec F S4x160x64 .f32 := broadcastInDim S4x160x64 ![] bcast_S_S4x160x64 main_cst_12
  let main_v36 : IVec S4x160x64 1 := cmpf .olt main_v34 main_v35
  let main_c_13 : IVec S_ 1 := constantI S_ 1 1#1
  let main_v37 : IVec S_ 1 := (fun x v => Host.reduce IntOp.andi x v reducesTo_S4x160x64_S_d0_1_2 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S9x4x64x64 .f32 := Host.absf main_arg11
  let main_cst_16 : FVec F S_ .f32 := constant S_ .f32 0x7F800000#32
  let main_v45 : FVec F S9x4x64x64 .f32 := broadcastInDim S9x4x64x64 ![] bcast_S_S9x4x64x64 main_cst_16
  let main_v46 : IVec S9x4x64x64 1 := cmpf .olt main_v44 main_v45
  let main_c_17 : IVec S_ 1 := constantI S_ 1 1#1
  let main_v47 : IVec S_ 1 := (fun x v => Host.reduce IntOp.andi x v reducesTo_S9x4x64x64_S_d0_1_2_3 h_S_) main_v46 main_c_17
  let main_v48 : IVec S_ 1 := andi main_v43 main_v47
  let main_v49 : FVec F S9x64 .f32 := Host.absf main_arg12
  let main_cst_18 : FVec F S_ .f32 := constant S_ .f32 0x7F800000#32
  let main_v50 : FVec F S9x64 .f32 := broadcastInDim S9x64 ![] bcast_S_S9x64 main_cst_18
  fn_part3 (F := F) main_arg2 main_arg3 main_arg13 main_arg14 main_arg15 main_arg16 main_arg17 main_arg18 main_v48 main_v49 main_v50

def fn_part1 {F : FTy → Type} [FloatOps F] (main_arg2 : IVec S5200 32) (main_arg3 : IVec S325 32) (main_arg6 : FVec F S40x256 .f32) (main_arg7 : FVec F S40x256x1 .f32) (main_arg8 : FVec F S40x1 .f32) (main_arg9 : FVec F S4x160x64 .f32) (main_arg10 : FVec F S64 .f32) (main_arg11 : FVec F S9x4x64x64 .f32) (main_arg12 : FVec F S9x64 .f32) (main_arg13 : FVec F S10x64 .f32) (main_arg14 : FVec F S10x64 .f32) (main_arg15 : FVec F S64x512 .f32) (main_arg16 : FVec F S512 .f32) (main_arg17 : FVec F S512x1 .f32) (main_arg18 : FVec F S1 .f32) (main_v13 : IVec S_ 1) (main_v16 : IVec S40x5x256 1) : IVec S_ 1 :=
  let main_c_5 : IVec S_ 1 := constantI S_ 1 1#1
  let main_v17 : IVec S_ 1 := (fun x v => Host.reduce IntOp.andi x v reducesTo_S40x5x256_S_d0_1_2 h_S_) main_v16 main_c_5
  let main_v18 : IVec S_ 1 := andi main_v13 main_v17
  let main_v19 : FVec F S40x256 .f32 := Host.absf main_arg6
  let main_cst_6 : FVec F S_ .f32 := constant S_ .f32 0x7F800000#32
  let main_v20 : FVec F S40x256 .f32 := broadcastInDim S40x256 ![] bcast_S_S40x256 main_cst_6
  let main_v21 : IVec S40x256 1 := cmpf .olt main_v19 main_v20
  let main_c_7 : IVec S_ 1 := constantI S_ 1 1#1
  let main_v22 : IVec S_ 1 := (fun x v => Host.reduce IntOp.andi x v reducesTo_S40x256_S_d0_1 h_S_) main_v21 main_c_7
  let main_v23 : IVec S_ 1 := andi main_v18 main_v22
  let main_v24 : FVec F S40x256x1 .f32 := Host.absf main_arg7
  let main_cst_8 : FVec F S_ .f32 := constant S_ .f32 0x7F800000#32
  let main_v25 : FVec F S40x256x1 .f32 := broadcastInDim S40x256x1 ![] bcast_S_S40x256x1 main_cst_8
  let main_v26 : IVec S40x256x1 1 := cmpf .olt main_v24 main_v25
  let main_c_9 : IVec S_ 1 := constantI S_ 1 1#1
  let main_v27 : IVec S_ 1 := (fun x v => Host.reduce IntOp.andi x v reducesTo_S40x256x1_S_d0_1_2 h_S_) main_v26 main_c_9
  let main_v28 : IVec S_ 1 := andi main_v23 main_v27
  let main_v29 : FVec F S40x1 .f32 := Host.absf main_arg8
  let main_cst_10 : FVec F S_ .f32 := constant S_ .f32 0x7F800000#32
  let main_v30 : FVec F S40x1 .f32 := broadcastInDim S40x1 ![] bcast_S_S40x1 main_cst_10
  let main_v31 : IVec S40x1 1 := cmpf .olt main_v29 main_v30
  let main_c_11 : IVec S_ 1 := constantI S_ 1 1#1
  let main_v32 : IVec S_ 1 := (fun x v => Host.reduce IntOp.andi x v reducesTo_S40x1_S_d0_1 h_S_) main_v31 main_c_11
  let main_v33 : IVec S_ 1 := andi main_v28 main_v32
  fn_part2 (F := F) main_arg2 main_arg3 main_arg9 main_arg10 main_arg11 main_arg12 main_arg13 main_arg14 main_arg15 main_arg16 main_arg17 main_arg18 main_v33

def fn {F : FTy → Type} [FloatOps F] (main_arg0 : FVec F S16x24x325 .f32) (main_arg1 : FVec F S5200x5 .f32) (main_arg2 : IVec S5200 32) (main_arg3 : IVec S325 32) (main_arg4 : FVec F S325x16 .f32) (main_arg5 : FVec F S40x5x256 .f32) (main_arg6 : FVec F S40x256 .f32) (main_arg7 : FVec F S40x256x1 .f32) (main_arg8 : FVec F S40x1 .f32) (main_arg9 : FVec F S4x160x64 .f32) (main_arg10 : FVec F S64 .f32) (main_arg11 : FVec F S9x4x64x64 .f32) (main_arg12 : FVec F S9x64 .f32) (main_arg13 : FVec F S10x64 .f32) (main_arg14 : FVec F S10x64 .f32) (main_arg15 : FVec F S64x512 .f32) (main_arg16 : FVec F S512 .f32) (main_arg17 : FVec F S512x1 .f32) (main_arg18 : FVec F S1 .f32) : IVec S_ 1 :=
  let main_v0 : FVec F S16x24x325 .f32 := Host.absf main_arg0
  let main_cst : FVec F S_ .f32 := constant S_ .f32 0x7F800000#32
  let main_v1 : FVec F S16x24x325 .f32 := broadcastInDim S16x24x325 ![] bcast_S_S16x24x325 main_cst
  let main_v2 : IVec S16x24x325 1 := cmpf .olt main_v0 main_v1
  let main_c : IVec S_ 1 := constantI S_ 1 1#1
  let main_v3 : IVec S_ 1 := (fun x v => Host.reduce IntOp.andi x v reducesTo_S16x24x325_S_d0_1_2 h_S_) main_v2 main_c
  let main_v4 : FVec F S5200x5 .f32 := Host.absf main_arg1
  let main_cst_0 : FVec F S_ .f32 := constant S_ .f32 0x7F800000#32
  let main_v5 : FVec F S5200x5 .f32 := broadcastInDim S5200x5 ![] bcast_S_S5200x5 main_cst_0
  let main_v6 : IVec S5200x5 1 := cmpf .olt main_v4 main_v5
  let main_c_1 : IVec S_ 1 := constantI S_ 1 1#1
  let main_v7 : IVec S_ 1 := (fun x v => Host.reduce IntOp.andi x v reducesTo_S5200x5_S_d0_1 h_S_) main_v6 main_c_1
  let main_v8 : IVec S_ 1 := andi main_v3 main_v7
  let main_v9 : FVec F S325x16 .f32 := Host.absf main_arg4
  let main_cst_2 : FVec F S_ .f32 := constant S_ .f32 0x7F800000#32
  let main_v10 : FVec F S325x16 .f32 := broadcastInDim S325x16 ![] bcast_S_S325x16 main_cst_2
  let main_v11 : IVec S325x16 1 := cmpf .olt main_v9 main_v10
  let main_c_3 : IVec S_ 1 := constantI S_ 1 1#1
  let main_v12 : IVec S_ 1 := (fun x v => Host.reduce IntOp.andi x v reducesTo_S325x16_S_d0_1 h_S_) main_v11 main_c_3
  let main_v13 : IVec S_ 1 := andi main_v8 main_v12
  let main_v14 : FVec F S40x5x256 .f32 := Host.absf main_arg5
  let main_cst_4 : FVec F S_ .f32 := constant S_ .f32 0x7F800000#32
  let main_v15 : FVec F S40x5x256 .f32 := broadcastInDim S40x5x256 ![] bcast_S_S40x5x256 main_cst_4
  let main_v16 : IVec S40x5x256 1 := cmpf .olt main_v14 main_v15
  fn_part1 (F := F) main_arg2 main_arg3 main_arg6 main_arg7 main_arg8 main_arg9 main_arg10 main_arg11 main_arg12 main_arg13 main_arg14 main_arg15 main_arg16 main_arg17 main_arg18 main_v13 main_v16
-- ==== Kernel.lean ====
abbrev S16x24x325 : Shape := ⟨3, ![16, 24, 325]⟩
abbrev S5200x5 : Shape := ⟨2, ![5200, 5]⟩
abbrev S5200 : Shape := ⟨1, ![5200]⟩
abbrev S325 : Shape := ⟨1, ![325]⟩
abbrev S325x16 : Shape := ⟨2, ![325, 16]⟩
abbrev S40x5x256 : Shape := ⟨3, ![40, 5, 256]⟩
abbrev S40x256 : Shape := ⟨2, ![40, 256]⟩
abbrev S40x256x1 : Shape := ⟨3, ![40, 256, 1]⟩
abbrev S40x1 : Shape := ⟨2, ![40, 1]⟩
abbrev S4x160x64 : Shape := ⟨3, ![4, 160, 64]⟩
abbrev S64 : Shape := ⟨1, ![64]⟩
abbrev S9x4x64x64 : Shape := ⟨4, ![9, 4, 64, 64]⟩
abbrev S9x64 : Shape := ⟨2, ![9, 64]⟩
abbrev S10x64 : Shape := ⟨2, ![10, 64]⟩
abbrev S64x512 : Shape := ⟨2, ![64, 512]⟩
abbrev S512 : Shape := ⟨1, ![512]⟩
abbrev S512x1 : Shape := ⟨2, ![512, 1]⟩
abbrev S1 : Shape := ⟨1, ![1]⟩
abbrev S16x325x24 : Shape := ⟨3, ![16, 325, 24]⟩
abbrev S_ : Shape := ⟨0, ![]⟩
abbrev S325x1 : Shape := ⟨2, ![325, 1]⟩
abbrev S1x325x16 : Shape := ⟨3, ![1, 325, 16]⟩
abbrev S16x325x16 : Shape := ⟨3, ![16, 325, 16]⟩
abbrev S16x325x40 : Shape := ⟨3, ![16, 325, 40]⟩
abbrev S105625 : Shape := ⟨1, ![105625]⟩
abbrev S5200x1 : Shape := ⟨2, ![5200, 1]⟩
abbrev S40x1x256 : Shape := ⟨3, ![40, 1, 256]⟩
abbrev S40x325x16 : Shape := ⟨3, ![40, 325, 16]⟩
abbrev S1x5x256 : Shape := ⟨3, ![1, 5, 256]⟩
abbrev S1x1x256 : Shape := ⟨3, ![1, 1, 256]⟩
abbrev S5x256 : Shape := ⟨2, ![5, 256]⟩
abbrev S5200x256 : Shape := ⟨2, ![5200, 256]⟩
abbrev S256 : Shape := ⟨1, ![256]⟩
abbrev S1x256 : Shape := ⟨2, ![1, 256]⟩
abbrev S325x16x256 : Shape := ⟨3, ![325, 16, 256]⟩
abbrev S40x5200 : Shape := ⟨2, ![40, 5200]⟩
abbrev S40x105856 : Shape := ⟨2, ![40, 105856]⟩
abbrev S105856 : Shape := ⟨1, ![105856]⟩
abbrev S16 : Shape := ⟨1, ![16]⟩
abbrev S1x5200 : Shape := ⟨2, ![1, 5200]⟩
abbrev S1x105856 : Shape := ⟨2, ![1, 105856]⟩
abbrev S40x105625 : Shape := ⟨2, ![40, 105625]⟩
abbrev S10x4x325x325 : Shape := ⟨4, ![10, 4, 325, 325]⟩
abbrev S1x1 : Shape := ⟨2, ![1, 1]⟩
abbrev S16x325x1 : Shape := ⟨3, ![16, 325, 1]⟩
abbrev S16x325x160 : Shape := ⟨3, ![16, 325, 160]⟩
abbrev S1x325x160 : Shape := ⟨3, ![1, 325, 160]⟩
abbrev S325x160 : Shape := ⟨2, ![325, 160]⟩
abbrev S1x1x325x325 : Shape := ⟨4, ![1, 1, 325, 325]⟩
abbrev S325x325 : Shape := ⟨2, ![325, 325]⟩
abbrev S1x160x64 : Shape := ⟨3, ![1, 160, 64]⟩
abbrev S160x64 : Shape := ⟨2, ![160, 64]⟩
abbrev S325x64 : Shape := ⟨2, ![325, 64]⟩
abbrev S1x325x64 : Shape := ⟨3, ![1, 325, 64]⟩
abbrev S16x325x64 : Shape := ⟨3, ![16, 325, 64]⟩
abbrev S16x64 : Shape := ⟨2, ![16, 64]⟩
abbrev S1x1x64 : Shape := ⟨3, ![1, 1, 64]⟩
abbrev S1x64 : Shape := ⟨2, ![1, 64]⟩
abbrev S1x1x64x64 : Shape := ⟨4, ![1, 1, 64, 64]⟩
abbrev S64x64 : Shape := ⟨2, ![64, 64]⟩
abbrev S325x512 : Shape := ⟨2, ![325, 512]⟩
abbrev S1x512 : Shape := ⟨2, ![1, 512]⟩
abbrev S1x325x1 : Shape := ⟨3, ![1, 325, 1]⟩
abbrev S16x325 : Shape := ⟨2, ![16, 325]⟩

abbrev nBuf : Table → Nat
  | .hbm => 71
  | .local .tc .vmem => 20
  | .local .scVector .vmem => 3
  | _ => 0

abbrev bufTy : (tb : Table) → Fin (nBuf tb) → BufTy
  | .hbm, ⟨0, _⟩ => ⟨S16x24x325, .f32⟩
  | .hbm, ⟨1, _⟩ => ⟨S5200x5, .f32⟩
  | .hbm, ⟨2, _⟩ => ⟨S5200, .i32⟩
  | .hbm, ⟨3, _⟩ => ⟨S325, .i32⟩
  | .hbm, ⟨4, _⟩ => ⟨S325x16, .f32⟩
  | .hbm, ⟨5, _⟩ => ⟨S40x5x256, .f32⟩
  | .hbm, ⟨6, _⟩ => ⟨S40x256, .f32⟩
  | .hbm, ⟨7, _⟩ => ⟨S40x256x1, .f32⟩
  | .hbm, ⟨8, _⟩ => ⟨S40x1, .f32⟩
  | .hbm, ⟨9, _⟩ => ⟨S4x160x64, .f32⟩
  | .hbm, ⟨10, _⟩ => ⟨S64, .f32⟩
  | .hbm, ⟨11, _⟩ => ⟨S9x4x64x64, .f32⟩
  | .hbm, ⟨12, _⟩ => ⟨S9x64, .f32⟩
  | .hbm, ⟨13, _⟩ => ⟨S10x64, .f32⟩
  | .hbm, ⟨14, _⟩ => ⟨S10x64, .f32⟩
  | .hbm, ⟨15, _⟩ => ⟨S64x512, .f32⟩
  | .hbm, ⟨16, _⟩ => ⟨S512, .f32⟩
  | .hbm, ⟨17, _⟩ => ⟨S512x1, .f32⟩
  | .hbm, ⟨18, _⟩ => ⟨S1, .f32⟩
  | .hbm, ⟨19, _⟩ => ⟨S16x325x24, .f32⟩
  | .hbm, ⟨20, _⟩ => ⟨S_, .i32⟩
  | .hbm, ⟨21, _⟩ => ⟨S325, .i32⟩
  | .hbm, ⟨22, _⟩ => ⟨S325, .i1⟩
  | .hbm, ⟨23, _⟩ => ⟨S_, .i32⟩
  | .hbm, ⟨24, _⟩ => ⟨S325, .i32⟩
  | .hbm, ⟨25, _⟩ => ⟨S325, .i32⟩
  | .hbm, ⟨26, _⟩ => ⟨S325, .i32⟩
  | .hbm, ⟨27, _⟩ => ⟨S325x1, .i32⟩
  | .hbm, ⟨28, _⟩ => ⟨S325x16, .f32⟩
  | .hbm, ⟨29, _⟩ => ⟨S1x325x16, .f32⟩
  | .hbm, ⟨30, _⟩ => ⟨S16x325x16, .f32⟩
  | .hbm, ⟨31, _⟩ => ⟨S16x325x40, .f32⟩
  | .hbm, ⟨32, _⟩ => ⟨S5200, .i32⟩
  | .hbm, ⟨33, _⟩ => ⟨S_, .i32⟩
  | .hbm, ⟨34, _⟩ => ⟨S105625, .i32⟩
  | .hbm, ⟨35, _⟩ => ⟨S_, .i32⟩
  | .hbm, ⟨36, _⟩ => ⟨S5200, .i32⟩
  | .hbm, ⟨37, _⟩ => ⟨S5200, .i1⟩
  | .hbm, ⟨38, _⟩ => ⟨S_, .i32⟩
  | .hbm, ⟨39, _⟩ => ⟨S5200, .i32⟩
  | .hbm, ⟨40, _⟩ => ⟨S5200, .i32⟩
  | .hbm, ⟨41, _⟩ => ⟨S5200, .i32⟩
  | .hbm, ⟨42, _⟩ => ⟨S5200x1, .i32⟩
  | .hbm, ⟨43, _⟩ => ⟨S105625, .i32⟩
  | .hbm, ⟨44, _⟩ => ⟨S_, .i32⟩
  | .hbm, ⟨45, _⟩ => ⟨S5200, .i32⟩
  | .hbm, ⟨46, _⟩ => ⟨S5200, .i1⟩
  | .hbm, ⟨47, _⟩ => ⟨S_, .i32⟩
  | .hbm, ⟨48, _⟩ => ⟨S5200, .i32⟩
  | .hbm, ⟨49, _⟩ => ⟨S5200, .i32⟩
  | .hbm, ⟨50, _⟩ => ⟨S5200, .i32⟩
  | .hbm, ⟨51, _⟩ => ⟨S5200x1, .i32⟩
  | .hbm, ⟨52, _⟩ => ⟨S5200, .i32⟩
  | .hbm, ⟨53, _⟩ => ⟨S5200, .i1⟩
  | .hbm, ⟨54, _⟩ => ⟨S_, .i32⟩
  | .hbm, ⟨55, _⟩ => ⟨S5200, .i32⟩
  | .hbm, ⟨56, _⟩ => ⟨S5200, .i32⟩
  | .hbm, ⟨57, _⟩ => ⟨S_, .i32⟩
  | .hbm, ⟨58, _⟩ => ⟨S5200, .i32⟩
  | .hbm, ⟨59, _⟩ => ⟨S5200, .i32⟩
  | .hbm, ⟨60, _⟩ => ⟨S5200, .i32⟩
  | .hbm, ⟨61, _⟩ => ⟨S40x1x256, .f32⟩
  | .hbm, ⟨62, _⟩ => ⟨S40x1x256, .f32⟩
  | .hbm, ⟨63, _⟩ => ⟨S40x325x16, .f32⟩
  | .hbm, ⟨64, _⟩ => ⟨S40x5200, .f32⟩
  | .hbm, ⟨65, _⟩ => ⟨S40x105856, .f32⟩
  | .hbm, ⟨66, _⟩ => ⟨S40x105625, .f32⟩
  | .hbm, ⟨67, _⟩ => ⟨S10x4x325x325, .f32⟩
  | .hbm, ⟨68, _⟩ => ⟨S1x1, .f32⟩
  | .hbm, ⟨69, _⟩ => ⟨S16x325x1, .f32⟩
  | .hbm, ⟨70, _⟩ => ⟨S16x325, .f32⟩
  | .local .tc .vmem, ⟨0, _⟩ => ⟨S5200x5, .f32⟩
  | .local .tc .vmem, ⟨1, _⟩ => ⟨S1x5x256, .f32⟩
  | .local .tc .vmem, ⟨2, _⟩ => ⟨S1x5x256, .f32⟩
  | .local .tc .vmem, ⟨3, _⟩ => ⟨S1x1x256, .f32⟩
  | .local .tc .vmem, ⟨4, _⟩ => ⟨S1x1x256, .f32⟩
  | .local .tc .vmem, ⟨5, _⟩ => ⟨S1x1x256, .f32⟩
  | .local .tc .vmem, ⟨6, _⟩ => ⟨S1x1x256, .f32⟩
  | .local .tc .vmem, ⟨7, _⟩ => ⟨S1x325x16, .f32⟩
  | .local .tc .vmem, ⟨8, _⟩ => ⟨S1x325x16, .f32⟩
  | .local .tc .vmem, ⟨9, _⟩ => ⟨S16x325x40, .f32⟩
  | .local .tc .vmem, ⟨10, _⟩ => ⟨S10x4x325x325, .f32⟩
  | .local .tc .vmem, ⟨11, _⟩ => ⟨S4x160x64, .f32⟩
  | .local .tc .vmem, ⟨12, _⟩ => ⟨S9x4x64x64, .f32⟩
  | .local .tc .vmem, ⟨13, _⟩ => ⟨S10x64, .f32⟩
  | .local .tc .vmem, ⟨14, _⟩ => ⟨S10x64, .f32⟩
  | .local .tc .vmem, ⟨15, _⟩ => ⟨S64x512, .f32⟩
  | .local .tc .vmem, ⟨16, _⟩ => ⟨S512, .f32⟩
  | .local .tc .vmem, ⟨17, _⟩ => ⟨S512x1, .f32⟩
  | .local .tc .vmem, ⟨18, _⟩ => ⟨S1x1, .f32⟩
  | .local .tc .vmem, ⟨19, _⟩ => ⟨S16x325x1, .f32⟩
  | .local .scVector .vmem, ⟨0, _⟩ => ⟨S5200, .i32⟩
  | .local .scVector .vmem, ⟨1, _⟩ => ⟨S5200, .f32⟩
  | .local .scVector .vmem, ⟨2, _⟩ => ⟨S105856, .f32⟩
  | _, _ => ⟨S16x24x325, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_1 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_c_5 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_6 : Ref sig .tc := ⟨.hbm, 54, rfl⟩
abbrev main_v28 : Ref sig .tc := ⟨.hbm, 55, rfl⟩
abbrev main_v29 : Ref sig .tc := ⟨.hbm, 56, rfl⟩
abbrev main_c_7 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v36_scv : Ref sig .scVector := ⟨.hbm, 64, rfl⟩
abbrev main_v32_scv : Ref sig .scVector := ⟨.hbm, 60, rfl⟩
abbrev main_v37_scv : Ref sig .scVector := ⟨.hbm, 65, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg6_0 : Ref sig .tc := ⟨.vmem, 15, rfl⟩
abbrev cc2_stg7_0 : Ref sig .tc := ⟨.vmem, 16, rfl⟩
abbrev cc2_stg8_0 : Ref sig .tc := ⟨.vmem, 17, rfl⟩
abbrev cc2_stg9_0 : Ref sig .tc := ⟨.vmem, 18, rfl⟩
abbrev cc2_stg10_0 : Ref sig .tc := ⟨.vmem, 19, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem10_0 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S5200x5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x5x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x325x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 32 := Scalar.addi v1 c0_i32
  let c40_i32 : BitVec 32 := 40#32
  let v4 : BitVec 1 := Scalar.cmpi .slt v3 c40_i32
  let v5 : BitVec 32 := Scalar.extui v4
  let c0_i32_0 : BitVec 32 := 0#32
  let v6 : BitVec 1 := Scalar.cmpi .ne v5 c0_i32_0
  v6

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 32 := Scalar.addi v1 c0_i32
  let c0_i32_10_r1 : BitVec 32 := 0#32
  ![v3.toNat, 0]
@[reducible] def k1_t1_loop : Scf.Loop 32 :=
  let c0_i32_4 : BitVec 32 := 0#32
  let c6616_i32 : BitVec 32 := 6616#32
  let v11 : BitVec 32 := Scalar.addi c0_i32_4 c6616_i32
  let c1_i32 : BitVec 32 := 1#32
  ⟨c0_i32_4, v11, c1_i32⟩
def k1_off2 (k1_t1 : Fin k1_t1_loop.trips) : Fin 1 → Nat :=
  let c0_i32_4 : BitVec 32 := 0#32
  let c1_i32 : BitVec 32 := 1#32
  let arg8 : BitVec 32 := Scf.iv c0_i32_4 c1_i32 k1_t1
  let c16_i32 : BitVec 32 := 16#32
  let v13 : BitVec 32 := Scalar.muli arg8 c16_i32
  let v14 : Index := Scalar.indexCast v13
  ![v14.toNat]
@[reducible] def k1_t2_loop : Scf.Loop 32 :=
  let c0_i32_7 : BitVec 32 := 0#32
  let c325_i32 : BitVec 32 := 325#32
  let v12 : BitVec 32 := Scalar.addi c0_i32_7 c325_i32
  let c1_i32_8 : BitVec 32 := 1#32
  ⟨c0_i32_7, v12, c1_i32_8⟩
def k1_off3 (k1_t2 : Fin k1_t2_loop.trips) : Fin 1 → Nat :=
  let c0_i32_7 : BitVec 32 := 0#32
  let c1_i32_8 : BitVec 32 := 1#32
  let arg8 : BitVec 32 := Scf.iv c0_i32_7 c1_i32_8 k1_t2
  let c16_i32 : BitVec 32 := 16#32
  let v13 : BitVec 32 := Scalar.muli arg8 c16_i32
  let v14 : Index := Scalar.indexCast v13
  ![v14.toNat]

def k1_chk1 (i : grid1.Coords) (v15 : IVec S16 32) : Prop :=
  (∀ (k1_h1 : k1_cond1 i = 1#1), ∀ a x, ((![v15] : Fin 1 → IVec S16 32) a x).toNat < S105856.size a)
instance k1_chk1.dec : ∀ (i : grid1.Coords) (v15 : IVec S16 32), Decidable (k1_chk1 i v15) := fun i v15 => decidable_of_iff' _ (Iff.of_eq (k1_chk1.eq_1 i v15))
theorem k1_idx1_inb : ∀ (i : grid1.Coords) (v15 : IVec S16 32) (k1_hw1 : k1_chk1 i v15), ∀ (k1_h1 : k1_cond1 i = 1#1), ∀ a x, ((![v15] : Fin 1 → IVec S16 32) a x).toNat < S105856.size a := fun i v15 k1_hw1 k1_h1 => k1_hw1 k1_h1
def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 32 := Scalar.addi v1 c0_i32
  let c0_i32_10_r2 : BitVec 32 := 0#32
  ![v3.toNat, 0]
def k1_cond2 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v7 : BitVec 32 := Scalar.addi v1 c32_i32
  let c40_i32_1 : BitVec 32 := 40#32
  let v8 : BitVec 1 := Scalar.cmpi .slt v7 c40_i32_1
  let v9 : BitVec 32 := Scalar.extui v8
  let c0_i32_2 : BitVec 32 := 0#32
  let v10 : BitVec 1 := Scalar.cmpi .ne v9 c0_i32_2
  v10

def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v7 : BitVec 32 := Scalar.addi v1 c32_i32
  let c0_i32_10_r3 : BitVec 32 := 0#32
  ![v7.toNat, 0]
@[reducible] def k1_t3_loop : Scf.Loop 32 :=
  let c0_i32_4 : BitVec 32 := 0#32
  let c6616_i32 : BitVec 32 := 6616#32
  let v11 : BitVec 32 := Scalar.addi c0_i32_4 c6616_i32
  let c1_i32 : BitVec 32 := 1#32
  ⟨c0_i32_4, v11, c1_i32⟩
def k1_off6 (k1_t3 : Fin k1_t3_loop.trips) : Fin 1 → Nat :=
  let c0_i32_4 : BitVec 32 := 0#32
  let c1_i32 : BitVec 32 := 1#32
  let arg8 : BitVec 32 := Scf.iv c0_i32_4 c1_i32 k1_t3
  let c16_i32 : BitVec 32 := 16#32
  let v13 : BitVec 32 := Scalar.muli arg8 c16_i32
  let v14 : Index := Scalar.indexCast v13
  ![v14.toNat]
@[reducible] def k1_t4_loop : Scf.Loop 32 :=
  let c0_i32_7 : BitVec 32 := 0#32
  let c325_i32 : BitVec 32 := 325#32
  let v12 : BitVec 32 := Scalar.addi c0_i32_7 c325_i32
  let c1_i32_8 : BitVec 32 := 1#32
  ⟨c0_i32_7, v12, c1_i32_8⟩
def k1_off7 (k1_t4 : Fin k1_t4_loop.trips) : Fin 1 → Nat :=
  let c0_i32_7 : BitVec 32 := 0#32
  let c1_i32_8 : BitVec 32 := 1#32
  let arg8 : BitVec 32 := Scf.iv c0_i32_7 c1_i32_8 k1_t4
  let c16_i32 : BitVec 32 := 16#32
  let v13 : BitVec 32 := Scalar.muli arg8 c16_i32
  let v14 : Index := Scalar.indexCast v13
  ![v14.toNat]

def k1_chk2 (i : grid1.Coords) (v15 : IVec S16 32) : Prop :=
  (∀ (k1_h2 : k1_cond2 i = 1#1), ∀ a x, ((![v15] : Fin 1 → IVec S16 32) a x).toNat < S105856.size a)
instance k1_chk2.dec : ∀ (i : grid1.Coords) (v15 : IVec S16 32), Decidable (k1_chk2 i v15) := fun i v15 => decidable_of_iff' _ (Iff.of_eq (k1_chk2.eq_1 i v15))
theorem k1_idx2_inb : ∀ (i : grid1.Coords) (v15 : IVec S16 32) (k1_hw2 : k1_chk2 i v15), ∀ (k1_h2 : k1_cond2 i = 1#1), ∀ a x, ((![v15] : Fin 1 → IVec S16 32) a x).toNat < S105856.size a := fun i v15 k1_hw2 k1_h2 => k1_hw2 k1_h2
def k1_off8 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v7 : BitVec 32 := Scalar.addi v1 c32_i32
  let c0_i32_10_r4 : BitVec 32 := 0#32
  ![v7.toNat, 0]
abbrev grid2 : Pipeline.Grid := .none

abbrev stage2_0 : Fin 1 → Memref sig .tc .vmem S16x325x40 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S10x4x325x325 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S4x160x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S9x4x64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S10x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S10x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S64x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S512x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S16x325x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16x24x325_S16x325x24_0_2_1 : S16x24x325.Transposes [0, 2, 1] S16x325x24
  bcast_S_S325 : S_.BroadcastsInDim S325 (![] : Fin 0 → Fin S325.rank)
  bcast_S325_S325x1_0 : S325.BroadcastsInDim S325x1 (![0] : Fin 1 → Fin S325x1.rank)
  bcast_S325x16_S1x325x16_1_2 : S325x16.BroadcastsInDim S1x325x16 (![1, 2] : Fin 2 → Fin S1x325x16.rank)
  bcast_S1x325x16_S16x325x16_0_1_2 : S1x325x16.BroadcastsInDim S16x325x16 (![0, 1, 2] : Fin 3 → Fin S16x325x16.rank)
  concatenates_S16x325x24_S16x325x16_S16x325x40_d2 : Shape.Concatenates [S16x325x24, S16x325x16] S16x325x40 2
  bcast_S_S105625 : S_.BroadcastsInDim S105625 (![] : Fin 0 → Fin S105625.rank)
  bcast_S_S5200 : S_.BroadcastsInDim S5200 (![] : Fin 0 → Fin S5200.rank)
  bcast_S5200_S5200x1_0 : S5200.BroadcastsInDim S5200x1 (![0] : Fin 1 → Fin S5200x1.rank)
  shapeCasts_S40x256_S40x1x256 : S40x256.ShapeCasts S40x1x256
  shapeCasts_S40x256x1_S40x1x256 : S40x256x1.ShapeCasts S40x1x256
  inb_S5200x5_S5200x5_0_0 : ∀ a, (![0, 0] : Fin 2 → Nat) a + S5200x5.size a ≤ S5200x5.size a
  h_S5200x5 : 0 < S5200x5.numel
  inb_S1x5x256_S1x5x256_0_0_0 : ∀ a, (![0, 0, 0] : Fin 3 → Nat) a + S1x5x256.size a ≤ S1x5x256.size a
  h_S1x5x256 : 0 < S1x5x256.numel
  shapeCasts_S1x5x256_S5x256 : S1x5x256.ShapeCasts S5x256
  bitsLt_bf16_f32 : FTy.bits .bf16 < FTy.bits .f32
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  shapeCasts_S256_S1x256 : S256.ShapeCasts S1x256
  broadcasts_S1x256_S5200x256 : S1x256.Broadcasts S5200x256
  shapeCasts_S5200x256_S325x16x256 : S5200x256.ShapeCasts S325x16x256
  shapeCasts_S256_S1x1x256 : S256.ShapeCasts S1x1x256
  broadcasts_S1x1x256_S325x16x256 : S1x1x256.Broadcasts S325x16x256
  reduces_S325x16x256_S325x16 : S325x16x256.Reduces [2] S325x16
  reduces_S325x16_S325 : S325x16.Reduces [1] S325
  shapeCasts_S325_S325x1 : S325.ShapeCasts S325x1
  broadcasts_S325x1_S325x16 : S325x1.Broadcasts S325x16
  inb_S1x325x16_S1x325x16_0_0_0 : ∀ a, (![0, 0, 0] : Fin 3 → Nat) a + S1x325x16.size a ≤ S1x325x16.size a
  h_S1x325x16 : 0 < S1x325x16.numel
  shapeCasts_S1x325x16_S325x16 : S1x325x16.ShapeCasts S325x16
  shapeCasts_S325x16_S1x325x16 : S325x16.ShapeCasts S1x325x16
  shapeCasts_S40x325x16_S40x5200 : S40x325x16.ShapeCasts S40x5200
  squeezes_S1x5200_S5200 : S1x5200.Squeezes S5200
  h_S16 : 0 < S16.numel
  h_S105856 : 0 < S105856.numel
  squeezes_S1x105856_S105856 : S1x105856.Squeezes S105856
  slices_S40x105856_S40x105625_0_0 : S40x105856.Slices ![0, 0] S40x105625
  shapeCasts_S40x105625_S10x4x325x325 : S40x105625.ShapeCasts S10x4x325x325
  shapeCasts_S1_S1x1 : S1.ShapeCasts S1x1
  inb_S16x325x40_S16x325x40_0_0_0 : ∀ a, (![0, 0, 0] : Fin 3 → Nat) a + S16x325x40.size a ≤ S16x325x40.size a
  h_S16x325x40 : 0 < S16x325x40.numel
  shapeCasts_S16x325x40_S16x325x40 : S16x325x40.ShapeCasts S16x325x40
  concatenates_S16x325x40_S16x325x40_S16x325x40_S16x325x40_S16x325x160_d2 : Shape.Concatenates [S16x325x40, S16x325x40, S16x325x40, S16x325x40] S16x325x160 2
  slices_S16x325x160_o0_0_0_S1x325x160 : S16x325x160.Slices ![0, 0, 0] S1x325x160
  shapeCasts_S1x325x160_S325x160 : S1x325x160.ShapeCasts S325x160
  inb_S10x4x325x325_S1x1x325x325_0_0_0_0 : ∀ a, (![0, 0, 0, 0] : Fin 4 → Nat) a + S1x1x325x325.size a ≤ S10x4x325x325.size a
  h_S1x1x325x325 : 0 < S1x1x325x325.numel
  shapeCasts_S1x1x325x325_S325x325 : S1x1x325x325.ShapeCasts S325x325
  inb_S4x160x64_S1x160x64_0_0_0 : ∀ a, (![0, 0, 0] : Fin 3 → Nat) a + S1x160x64.size a ≤ S4x160x64.size a
  h_S1x160x64 : 0 < S1x160x64.numel
  shapeCasts_S1x160x64_S160x64 : S1x160x64.ShapeCasts S160x64
  inb_S10x4x325x325_S1x1x325x325_0_1_0_0 : ∀ a, (![0, 1, 0, 0] : Fin 4 → Nat) a + S1x1x325x325.size a ≤ S10x4x325x325.size a
  inb_S4x160x64_S1x160x64_1_0_0 : ∀ a, (![1, 0, 0] : Fin 3 → Nat) a + S1x160x64.size a ≤ S4x160x64.size a
  inb_S10x4x325x325_S1x1x325x325_0_2_0_0 : ∀ a, (![0, 2, 0, 0] : Fin 4 → Nat) a + S1x1x325x325.size a ≤ S10x4x325x325.size a
  inb_S4x160x64_S1x160x64_2_0_0 : ∀ a, (![2, 0, 0] : Fin 3 → Nat) a + S1x160x64.size a ≤ S4x160x64.size a
  inb_S10x4x325x325_S1x1x325x325_0_3_0_0 : ∀ a, (![0, 3, 0, 0] : Fin 4 → Nat) a + S1x1x325x325.size a ≤ S10x4x325x325.size a
  inb_S4x160x64_S1x160x64_3_0_0 : ∀ a, (![3, 0, 0] : Fin 3 → Nat) a + S1x160x64.size a ≤ S4x160x64.size a
  slices_S16x325x160_o1_0_0_S1x325x160 : S16x325x160.Slices ![1, 0, 0] S1x325x160
  slices_S16x325x160_o2_0_0_S1x325x160 : S16x325x160.Slices ![2, 0, 0] S1x325x160
  slices_S16x325x160_o3_0_0_S1x325x160 : S16x325x160.Slices ![3, 0, 0] S1x325x160
  slices_S16x325x160_o4_0_0_S1x325x160 : S16x325x160.Slices ![4, 0, 0] S1x325x160
  slices_S16x325x160_o5_0_0_S1x325x160 : S16x325x160.Slices ![5, 0, 0] S1x325x160
  slices_S16x325x160_o6_0_0_S1x325x160 : S16x325x160.Slices ![6, 0, 0] S1x325x160
  slices_S16x325x160_o7_0_0_S1x325x160 : S16x325x160.Slices ![7, 0, 0] S1x325x160
  slices_S16x325x160_o8_0_0_S1x325x160 : S16x325x160.Slices ![8, 0, 0] S1x325x160
  slices_S16x325x160_o9_0_0_S1x325x160 : S16x325x160.Slices ![9, 0, 0] S1x325x160
  slices_S16x325x160_o10_0_0_S1x325x160 : S16x325x160.Slices ![10, 0, 0] S1x325x160
  slices_S16x325x160_o11_0_0_S1x325x160 : S16x325x160.Slices ![11, 0, 0] S1x325x160
  slices_S16x325x160_o12_0_0_S1x325x160 : S16x325x160.Slices ![12, 0, 0] S1x325x160
  slices_S16x325x160_o13_0_0_S1x325x160 : S16x325x160.Slices ![13, 0, 0] S1x325x160
  slices_S16x325x160_o14_0_0_S1x325x160 : S16x325x160.Slices ![14, 0, 0] S1x325x160
  slices_S16x325x160_o15_0_0_S1x325x160 : S16x325x160.Slices ![15, 0, 0] S1x325x160
  shapeCasts_S325x64_S1x325x64 : S325x64.ShapeCasts S1x325x64
  concatenates_S1x325x64_S1x325x64_S1x325x64_S1x325x64_S1x325x64_S1x325x64_S1x325x64_S1x325x64_S1x325x64_S1x325x64_S1x325x64_S1x325x64_S1x325x64_S1x325x64_S1x325x64_S1x325x64_S16x325x64_d0 : Shape.Concatenates [S1x325x64, S1x325x64, S1x325x64, S1x325x64, S1x325x64, S1x325x64, S1x325x64, S1x325x64, S1x325x64, S1x325x64, S1x325x64, S1x325x64, S1x325x64, S1x325x64, S1x325x64, S1x325x64] S16x325x64 0
  reduces_S16x325x64_S16x64 : S16x325x64.Reduces [1] S16x64
  reduces_S16x64_S64 : S16x64.Reduces [0] S64
  shapeCasts_S64_S1x1x64 : S64.ShapeCasts S1x1x64
  broadcasts_S1x1x64_S16x325x64 : S1x1x64.Broadcasts S16x325x64
  inb_S10x64_S1x64_0_0 : ∀ a, (![0, 0] : Fin 2 → Nat) a + S1x64.size a ≤ S10x64.size a
  h_S1x64 : 0 < S1x64.numel
  shapeCasts_S1x64_S64 : S1x64.ShapeCasts S64
  slices_S16x325x64_o0_0_0_S1x325x64 : S16x325x64.Slices ![0, 0, 0] S1x325x64
  shapeCasts_S1x325x64_S325x64 : S1x325x64.ShapeCasts S325x64
  inb_S10x4x325x325_S1x1x325x325_1_0_0_0 : ∀ a, (![1, 0, 0, 0] : Fin 4 → Nat) a + S1x1x325x325.size a ≤ S10x4x325x325.size a
  inb_S9x4x64x64_S1x1x64x64_0_0_0_0 : ∀ a, (![0, 0, 0, 0] : Fin 4 → Nat) a + S1x1x64x64.size a ≤ S9x4x64x64.size a
  h_S1x1x64x64 : 0 < S1x1x64x64.numel
  shapeCasts_S1x1x64x64_S64x64 : S1x1x64x64.ShapeCasts S64x64
  inb_S10x4x325x325_S1x1x325x325_1_1_0_0 : ∀ a, (![1, 1, 0, 0] : Fin 4 → Nat) a + S1x1x325x325.size a ≤ S10x4x325x325.size a
  inb_S9x4x64x64_S1x1x64x64_0_1_0_0 : ∀ a, (![0, 1, 0, 0] : Fin 4 → Nat) a + S1x1x64x64.size a ≤ S9x4x64x64.size a
  inb_S10x4x325x325_S1x1x325x325_1_2_0_0 : ∀ a, (![1, 2, 0, 0] : Fin 4 → Nat) a + S1x1x325x325.size a ≤ S10x4x325x325.size a
  inb_S9x4x64x64_S1x1x64x64_0_2_0_0 : ∀ a, (![0, 2, 0, 0] : Fin 4 → Nat) a + S1x1x64x64.size a ≤ S9x4x64x64.size a
  inb_S10x4x325x325_S1x1x325x325_1_3_0_0 : ∀ a, (![1, 3, 0, 0] : Fin 4 → Nat) a + S1x1x325x325.size a ≤ S10x4x325x325.size a
  inb_S9x4x64x64_S1x1x64x64_0_3_0_0 : ∀ a, (![0, 3, 0, 0] : Fin 4 → Nat) a + S1x1x64x64.size a ≤ S9x4x64x64.size a
  slices_S16x325x64_o1_0_0_S1x325x64 : S16x325x64.Slices ![1, 0, 0] S1x325x64
  slices_S16x325x64_o2_0_0_S1x325x64 : S16x325x64.Slices ![2, 0, 0] S1x325x64
  slices_S16x325x64_o3_0_0_S1x325x64 : S16x325x64.Slices ![3, 0, 0] S1x325x64
  slices_S16x325x64_o4_0_0_S1x325x64 : S16x325x64.Slices ![4, 0, 0] S1x325x64
  slices_S16x325x64_o5_0_0_S1x325x64 : S16x325x64.Slices ![5, 0, 0] S1x325x64
  slices_S16x325x64_o6_0_0_S1x325x64 : S16x325x64.Slices ![6, 0, 0] S1x325x64
  slices_S16x325x64_o7_0_0_S1x325x64 : S16x325x64.Slices ![7, 0, 0] S1x325x64
  slices_S16x325x64_o8_0_0_S1x325x64 : S16x325x64.Slices ![8, 0, 0] S1x325x64
  slices_S16x325x64_o9_0_0_S1x325x64 : S16x325x64.Slices ![9, 0, 0] S1x325x64
  slices_S16x325x64_o10_0_0_S1x325x64 : S16x325x64.Slices ![10, 0, 0] S1x325x64
  slices_S16x325x64_o11_0_0_S1x325x64 : S16x325x64.Slices ![11, 0, 0] S1x325x64
  slices_S16x325x64_o12_0_0_S1x325x64 : S16x325x64.Slices ![12, 0, 0] S1x325x64
  slices_S16x325x64_o13_0_0_S1x325x64 : S16x325x64.Slices ![13, 0, 0] S1x325x64
  slices_S16x325x64_o14_0_0_S1x325x64 : S16x325x64.Slices ![14, 0, 0] S1x325x64
  slices_S16x325x64_o15_0_0_S1x325x64 : S16x325x64.Slices ![15, 0, 0] S1x325x64
  inb_S10x64_S1x64_1_0 : ∀ a, (![1, 0] : Fin 2 → Nat) a + S1x64.size a ≤ S10x64.size a
  inb_S10x4x325x325_S1x1x325x325_2_0_0_0 : ∀ a, (![2, 0, 0, 0] : Fin 4 → Nat) a + S1x1x325x325.size a ≤ S10x4x325x325.size a
  inb_S9x4x64x64_S1x1x64x64_1_0_0_0 : ∀ a, (![1, 0, 0, 0] : Fin 4 → Nat) a + S1x1x64x64.size a ≤ S9x4x64x64.size a
  inb_S10x4x325x325_S1x1x325x325_2_1_0_0 : ∀ a, (![2, 1, 0, 0] : Fin 4 → Nat) a + S1x1x325x325.size a ≤ S10x4x325x325.size a
  inb_S9x4x64x64_S1x1x64x64_1_1_0_0 : ∀ a, (![1, 1, 0, 0] : Fin 4 → Nat) a + S1x1x64x64.size a ≤ S9x4x64x64.size a
  inb_S10x4x325x325_S1x1x325x325_2_2_0_0 : ∀ a, (![2, 2, 0, 0] : Fin 4 → Nat) a + S1x1x325x325.size a ≤ S10x4x325x325.size a
  inb_S9x4x64x64_S1x1x64x64_1_2_0_0 : ∀ a, (![1, 2, 0, 0] : Fin 4 → Nat) a + S1x1x64x64.size a ≤ S9x4x64x64.size a
  inb_S10x4x325x325_S1x1x325x325_2_3_0_0 : ∀ a, (![2, 3, 0, 0] : Fin 4 → Nat) a + S1x1x325x325.size a ≤ S10x4x325x325.size a
  inb_S9x4x64x64_S1x1x64x64_1_3_0_0 : ∀ a, (![1, 3, 0, 0] : Fin 4 → Nat) a + S1x1x64x64.size a ≤ S9x4x64x64.size a
  inb_S10x64_S1x64_2_0 : ∀ a, (![2, 0] : Fin 2 → Nat) a + S1x64.size a ≤ S10x64.size a
  inb_S10x4x325x325_S1x1x325x325_3_0_0_0 : ∀ a, (![3, 0, 0, 0] : Fin 4 → Nat) a + S1x1x325x325.size a ≤ S10x4x325x325.size a
  inb_S9x4x64x64_S1x1x64x64_2_0_0_0 : ∀ a, (![2, 0, 0, 0] : Fin 4 → Nat) a + S1x1x64x64.size a ≤ S9x4x64x64.size a
  inb_S10x4x325x325_S1x1x325x325_3_1_0_0 : ∀ a, (![3, 1, 0, 0] : Fin 4 → Nat) a + S1x1x325x325.size a ≤ S10x4x325x325.size a
  inb_S9x4x64x64_S1x1x64x64_2_1_0_0 : ∀ a, (![2, 1, 0, 0] : Fin 4 → Nat) a + S1x1x64x64.size a ≤ S9x4x64x64.size a
  inb_S10x4x325x325_S1x1x325x325_3_2_0_0 : ∀ a, (![3, 2, 0, 0] : Fin 4 → Nat) a + S1x1x325x325.size a ≤ S10x4x325x325.size a
  inb_S9x4x64x64_S1x1x64x64_2_2_0_0 : ∀ a, (![2, 2, 0, 0] : Fin 4 → Nat) a + S1x1x64x64.size a ≤ S9x4x64x64.size a
  inb_S10x4x325x325_S1x1x325x325_3_3_0_0 : ∀ a, (![3, 3, 0, 0] : Fin 4 → Nat) a + S1x1x325x325.size a ≤ S10x4x325x325.size a
  inb_S9x4x64x64_S1x1x64x64_2_3_0_0 : ∀ a, (![2, 3, 0, 0] : Fin 4 → Nat) a + S1x1x64x64.size a ≤ S9x4x64x64.size a
  inb_S10x64_S1x64_3_0 : ∀ a, (![3, 0] : Fin 2 → Nat) a + S1x64.size a ≤ S10x64.size a
  inb_S10x4x325x325_S1x1x325x325_4_0_0_0 : ∀ a, (![4, 0, 0, 0] : Fin 4 → Nat) a + S1x1x325x325.size a ≤ S10x4x325x325.size a
  inb_S9x4x64x64_S1x1x64x64_3_0_0_0 : ∀ a, (![3, 0, 0, 0] : Fin 4 → Nat) a + S1x1x64x64.size a ≤ S9x4x64x64.size a
  inb_S10x4x325x325_S1x1x325x325_4_1_0_0 : ∀ a, (![4, 1, 0, 0] : Fin 4 → Nat) a + S1x1x325x325.size a ≤ S10x4x325x325.size a
  inb_S9x4x64x64_S1x1x64x64_3_1_0_0 : ∀ a, (![3, 1, 0, 0] : Fin 4 → Nat) a + S1x1x64x64.size a ≤ S9x4x64x64.size a
  inb_S10x4x325x325_S1x1x325x325_4_2_0_0 : ∀ a, (![4, 2, 0, 0] : Fin 4 → Nat) a + S1x1x325x325.size a ≤ S10x4x325x325.size a
  inb_S9x4x64x64_S1x1x64x64_3_2_0_0 : ∀ a, (![3, 2, 0, 0] : Fin 4 → Nat) a + S1x1x64x64.size a ≤ S9x4x64x64.size a
  inb_S10x4x325x325_S1x1x325x325_4_3_0_0 : ∀ a, (![4, 3, 0, 0] : Fin 4 → Nat) a + S1x1x325x325.size a ≤ S10x4x325x325.size a
  inb_S9x4x64x64_S1x1x64x64_3_3_0_0 : ∀ a, (![3, 3, 0, 0] : Fin 4 → Nat) a + S1x1x64x64.size a ≤ S9x4x64x64.size a
  inb_S10x64_S1x64_4_0 : ∀ a, (![4, 0] : Fin 2 → Nat) a + S1x64.size a ≤ S10x64.size a
  inb_S10x4x325x325_S1x1x325x325_5_0_0_0 : ∀ a, (![5, 0, 0, 0] : Fin 4 → Nat) a + S1x1x325x325.size a ≤ S10x4x325x325.size a
  inb_S9x4x64x64_S1x1x64x64_4_0_0_0 : ∀ a, (![4, 0, 0, 0] : Fin 4 → Nat) a + S1x1x64x64.size a ≤ S9x4x64x64.size a
  inb_S10x4x325x325_S1x1x325x325_5_1_0_0 : ∀ a, (![5, 1, 0, 0] : Fin 4 → Nat) a + S1x1x325x325.size a ≤ S10x4x325x325.size a
  inb_S9x4x64x64_S1x1x64x64_4_1_0_0 : ∀ a, (![4, 1, 0, 0] : Fin 4 → Nat) a + S1x1x64x64.size a ≤ S9x4x64x64.size a
  inb_S10x4x325x325_S1x1x325x325_5_2_0_0 : ∀ a, (![5, 2, 0, 0] : Fin 4 → Nat) a + S1x1x325x325.size a ≤ S10x4x325x325.size a
  inb_S9x4x64x64_S1x1x64x64_4_2_0_0 : ∀ a, (![4, 2, 0, 0] : Fin 4 → Nat) a + S1x1x64x64.size a ≤ S9x4x64x64.size a
  inb_S10x4x325x325_S1x1x325x325_5_3_0_0 : ∀ a, (![5, 3, 0, 0] : Fin 4 → Nat) a + S1x1x325x325.size a ≤ S10x4x325x325.size a
  inb_S9x4x64x64_S1x1x64x64_4_3_0_0 : ∀ a, (![4, 3, 0, 0] : Fin 4 → Nat) a + S1x1x64x64.size a ≤ S9x4x64x64.size a
  inb_S10x64_S1x64_5_0 : ∀ a, (![5, 0] : Fin 2 → Nat) a + S1x64.size a ≤ S10x64.size a
  inb_S10x4x325x325_S1x1x325x325_6_0_0_0 : ∀ a, (![6, 0, 0, 0] : Fin 4 → Nat) a + S1x1x325x325.size a ≤ S10x4x325x325.size a
  inb_S9x4x64x64_S1x1x64x64_5_0_0_0 : ∀ a, (![5, 0, 0, 0] : Fin 4 → Nat) a + S1x1x64x64.size a ≤ S9x4x64x64.size a
  inb_S10x4x325x325_S1x1x325x325_6_1_0_0 : ∀ a, (![6, 1, 0, 0] : Fin 4 → Nat) a + S1x1x325x325.size a ≤ S10x4x325x325.size a
  inb_S9x4x64x64_S1x1x64x64_5_1_0_0 : ∀ a, (![5, 1, 0, 0] : Fin 4 → Nat) a + S1x1x64x64.size a ≤ S9x4x64x64.size a
  inb_S10x4x325x325_S1x1x325x325_6_2_0_0 : ∀ a, (![6, 2, 0, 0] : Fin 4 → Nat) a + S1x1x325x325.size a ≤ S10x4x325x325.size a
  inb_S9x4x64x64_S1x1x64x64_5_2_0_0 : ∀ a, (![5, 2, 0, 0] : Fin 4 → Nat) a + S1x1x64x64.size a ≤ S9x4x64x64.size a
  inb_S10x4x325x325_S1x1x325x325_6_3_0_0 : ∀ a, (![6, 3, 0, 0] : Fin 4 → Nat) a + S1x1x325x325.size a ≤ S10x4x325x325.size a
  inb_S9x4x64x64_S1x1x64x64_5_3_0_0 : ∀ a, (![5, 3, 0, 0] : Fin 4 → Nat) a + S1x1x64x64.size a ≤ S9x4x64x64.size a
  inb_S10x64_S1x64_6_0 : ∀ a, (![6, 0] : Fin 2 → Nat) a + S1x64.size a ≤ S10x64.size a
  inb_S10x4x325x325_S1x1x325x325_7_0_0_0 : ∀ a, (![7, 0, 0, 0] : Fin 4 → Nat) a + S1x1x325x325.size a ≤ S10x4x325x325.size a
  inb_S9x4x64x64_S1x1x64x64_6_0_0_0 : ∀ a, (![6, 0, 0, 0] : Fin 4 → Nat) a + S1x1x64x64.size a ≤ S9x4x64x64.size a
  inb_S10x4x325x325_S1x1x325x325_7_1_0_0 : ∀ a, (![7, 1, 0, 0] : Fin 4 → Nat) a + S1x1x325x325.size a ≤ S10x4x325x325.size a
  inb_S9x4x64x64_S1x1x64x64_6_1_0_0 : ∀ a, (![6, 1, 0, 0] : Fin 4 → Nat) a + S1x1x64x64.size a ≤ S9x4x64x64.size a
  inb_S10x4x325x325_S1x1x325x325_7_2_0_0 : ∀ a, (![7, 2, 0, 0] : Fin 4 → Nat) a + S1x1x325x325.size a ≤ S10x4x325x325.size a
  inb_S9x4x64x64_S1x1x64x64_6_2_0_0 : ∀ a, (![6, 2, 0, 0] : Fin 4 → Nat) a + S1x1x64x64.size a ≤ S9x4x64x64.size a
  inb_S10x4x325x325_S1x1x325x325_7_3_0_0 : ∀ a, (![7, 3, 0, 0] : Fin 4 → Nat) a + S1x1x325x325.size a ≤ S10x4x325x325.size a
  inb_S9x4x64x64_S1x1x64x64_6_3_0_0 : ∀ a, (![6, 3, 0, 0] : Fin 4 → Nat) a + S1x1x64x64.size a ≤ S9x4x64x64.size a
  inb_S10x64_S1x64_7_0 : ∀ a, (![7, 0] : Fin 2 → Nat) a + S1x64.size a ≤ S10x64.size a
  inb_S10x4x325x325_S1x1x325x325_8_0_0_0 : ∀ a, (![8, 0, 0, 0] : Fin 4 → Nat) a + S1x1x325x325.size a ≤ S10x4x325x325.size a
  inb_S9x4x64x64_S1x1x64x64_7_0_0_0 : ∀ a, (![7, 0, 0, 0] : Fin 4 → Nat) a + S1x1x64x64.size a ≤ S9x4x64x64.size a
  inb_S10x4x325x325_S1x1x325x325_8_1_0_0 : ∀ a, (![8, 1, 0, 0] : Fin 4 → Nat) a + S1x1x325x325.size a ≤ S10x4x325x325.size a
  inb_S9x4x64x64_S1x1x64x64_7_1_0_0 : ∀ a, (![7, 1, 0, 0] : Fin 4 → Nat) a + S1x1x64x64.size a ≤ S9x4x64x64.size a
  inb_S10x4x325x325_S1x1x325x325_8_2_0_0 : ∀ a, (![8, 2, 0, 0] : Fin 4 → Nat) a + S1x1x325x325.size a ≤ S10x4x325x325.size a
  inb_S9x4x64x64_S1x1x64x64_7_2_0_0 : ∀ a, (![7, 2, 0, 0] : Fin 4 → Nat) a + S1x1x64x64.size a ≤ S9x4x64x64.size a
  inb_S10x4x325x325_S1x1x325x325_8_3_0_0 : ∀ a, (![8, 3, 0, 0] : Fin 4 → Nat) a + S1x1x325x325.size a ≤ S10x4x325x325.size a
  inb_S9x4x64x64_S1x1x64x64_7_3_0_0 : ∀ a, (![7, 3, 0, 0] : Fin 4 → Nat) a + S1x1x64x64.size a ≤ S9x4x64x64.size a
  inb_S10x64_S1x64_8_0 : ∀ a, (![8, 0] : Fin 2 → Nat) a + S1x64.size a ≤ S10x64.size a
  inb_S10x4x325x325_S1x1x325x325_9_0_0_0 : ∀ a, (![9, 0, 0, 0] : Fin 4 → Nat) a + S1x1x325x325.size a ≤ S10x4x325x325.size a
  inb_S9x4x64x64_S1x1x64x64_8_0_0_0 : ∀ a, (![8, 0, 0, 0] : Fin 4 → Nat) a + S1x1x64x64.size a ≤ S9x4x64x64.size a
  inb_S10x4x325x325_S1x1x325x325_9_1_0_0 : ∀ a, (![9, 1, 0, 0] : Fin 4 → Nat) a + S1x1x325x325.size a ≤ S10x4x325x325.size a
  inb_S9x4x64x64_S1x1x64x64_8_1_0_0 : ∀ a, (![8, 1, 0, 0] : Fin 4 → Nat) a + S1x1x64x64.size a ≤ S9x4x64x64.size a
  inb_S10x4x325x325_S1x1x325x325_9_2_0_0 : ∀ a, (![9, 2, 0, 0] : Fin 4 → Nat) a + S1x1x325x325.size a ≤ S10x4x325x325.size a
  inb_S9x4x64x64_S1x1x64x64_8_2_0_0 : ∀ a, (![8, 2, 0, 0] : Fin 4 → Nat) a + S1x1x64x64.size a ≤ S9x4x64x64.size a
  inb_S10x4x325x325_S1x1x325x325_9_3_0_0 : ∀ a, (![9, 3, 0, 0] : Fin 4 → Nat) a + S1x1x325x325.size a ≤ S10x4x325x325.size a
  inb_S9x4x64x64_S1x1x64x64_8_3_0_0 : ∀ a, (![8, 3, 0, 0] : Fin 4 → Nat) a + S1x1x64x64.size a ≤ S9x4x64x64.size a
  inb_S10x64_S1x64_9_0 : ∀ a, (![9, 0] : Fin 2 → Nat) a + S1x64.size a ≤ S10x64.size a
  inb_S64x512_S64x512_0_0 : ∀ a, (![0, 0] : Fin 2 → Nat) a + S64x512.size a ≤ S64x512.size a
  h_S64x512 : 0 < S64x512.numel
  inb_S512_S512_0 : ∀ a, (![0] : Fin 1 → Nat) a + S512.size a ≤ S512.size a
  h_S512 : 0 < S512.numel
  shapeCasts_S512_S1x512 : S512.ShapeCasts S1x512
  broadcasts_S1x512_S325x512 : S1x512.Broadcasts S325x512
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1 : S1x1.ShapeCasts S1
  broadcasts_S1x1_S325x1 : S1x1.Broadcasts S325x1
  shapeCasts_S325x1_S1x325x1 : S325x1.ShapeCasts S1x325x1
  concatenates_S1x325x1_S1x325x1_S1x325x1_S1x325x1_S1x325x1_S1x325x1_S1x325x1_S1x325x1_S1x325x1_S1x325x1_S1x325x1_S1x325x1_S1x325x1_S1x325x1_S1x325x1_S1x325x1_S16x325x1_d0 : Shape.Concatenates [S1x325x1, S1x325x1, S1x325x1, S1x325x1, S1x325x1, S1x325x1, S1x325x1, S1x325x1, S1x325x1, S1x325x1, S1x325x1, S1x325x1, S1x325x1, S1x325x1, S1x325x1, S1x325x1] S16x325x1 0
  inb_S16x325x1_S16x325x1_0_0_0 : ∀ a, (![0, 0, 0] : Fin 3 → Nat) a + S16x325x1.size a ≤ S16x325x1.size a
  h_S16x325x1 : 0 < S16x325x1.numel
  shapeCasts_S16x325x1_S16x325 : S16x325x1.ShapeCasts S16x325
  gather_S325x16_S325x1_S325x16_1_0_n_n_0_1_116_wf : GatherDims.WF S325x16 S325x1 S325x16 [1] [0] [] [0] [] 1 ![1, 16]
  scatter_S105625_S5200x1_S5200_n_0_0_1_wf : ScatterDims.WF S105625 S5200x1 S5200 [] [0] [0] 1
  gather_S105625_S5200x1_S5200_n_0_n_n_0_1_1_wf : GatherDims.WF S105625 S5200x1 S5200 [] [0] [] [0] [] 1 ![1]
  dot_S5200x5_S5x256_S5200x256_1_0_0_1_n_n_wf : DotDims.WF S5200x5 S5x256 S5200x256 [1] [0] [0] [1] [] []
  dot_S325x325_S325x160_S325x160_1_0_0_1_n_n_wf : DotDims.WF S325x325 S325x160 S325x160 [1] [0] [0] [1] [] []
  dot_S325x160_S160x64_S325x64_1_0_0_1_n_n_wf : DotDims.WF S325x160 S160x64 S325x64 [1] [0] [0] [1] [] []
  dot_S325x325_S325x64_S325x64_1_0_0_1_n_n_wf : DotDims.WF S325x325 S325x64 S325x64 [1] [0] [0] [1] [] []
  dot_S325x64_S64x64_S325x64_1_0_0_1_n_n_wf : DotDims.WF S325x64 S64x64 S325x64 [1] [0] [0] [1] [] []
  dot_S325x64_S64x512_S325x512_1_0_0_1_n_n_wf : DotDims.WF S325x64 S64x512 S325x512 [1] [0] [0] [1] [] []
  dot_S325x512_S512x1_S325x1_1_0_0_1_n_n_wf : DotDims.WF S325x512 S512x1 S325x1 [1] [0] [0] [1] [] []
  hcc1_scoped0 : 9 + S_.numel ≤ 25
  hcc1_scoped1 : 10 + S_.numel ≤ 25
  hcc1_scoped2 : 11 + S_.numel ≤ 25
  hcc1_scoped3 : 12 + S_.numel ≤ 25
  hcc1_scoped4 : 13 + S_.numel ≤ 25
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S5200x5.size a ≤ S5200x5.size a
  hwx0_0 : ∀ i : grid0.Coords, EltTy.bits .f32 = 32 ∨ (Rect.block (s := S5200x5) S5200x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5x256.size a ≤ S40x5x256.size a
  hwx0_1 : ∀ i : grid0.Coords, EltTy.bits .f32 = 32 ∨ (Rect.block (s := S40x5x256) S1x5x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S40x1x256.size a
  hwx0_2 : ∀ i : grid0.Coords, EltTy.bits .f32 = 32 ∨ (Rect.block (s := S40x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S40x1x256.size a
  hwx0_3 : ∀ i : grid0.Coords, EltTy.bits .f32 = 32 ∨ (Rect.block (s := S40x1x256) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x325x16.size a ≤ S40x325x16.size a
  hwx0_4 : ∀ i : grid0.Coords, EltTy.bits .f32 = 32 ∨ (Rect.block (s := S40x325x16) S1x325x16.size (cc0_transform_4 i) (hinb0_4 i)).WholeWords (EltTy.packing .f32)
  hcore1 : grid1.bound 0 ≤ τ.nSC
  hsub1 : grid1.bound 1 ≤ τ.nSub
  k1_off1_inb : ∀ i : grid1.Coords, ∀ (k1_h1 : k1_cond1 i = 1#1), ∀ a, (k1_off1 i) a + S1x5200.size a ≤ S40x5200.size a
  k1_t1_ok : ∀ i : grid1.Coords, ∀ (k1_h1 : k1_cond1 i = 1#1), k1_t1_loop.OK
  k1_off2_inb : ∀ (i : grid1.Coords) (k1_t1 : Fin k1_t1_loop.trips), ∀ (k1_h1 : k1_cond1 i = 1#1), ∀ a, (k1_off2 k1_t1) a + S16.size a ≤ S105856.size a
  k1_t2_ok : ∀ i : grid1.Coords, ∀ (k1_h1 : k1_cond1 i = 1#1), k1_t2_loop.OK
  k1_off3_inb : ∀ (i : grid1.Coords) (k1_t2 : Fin k1_t2_loop.trips), ∀ (k1_h1 : k1_cond1 i = 1#1), ∀ a, (k1_off3 k1_t2) a + S16.size a ≤ S5200.size a
  k1_off4_inb : ∀ i : grid1.Coords, ∀ (k1_h1 : k1_cond1 i = 1#1), ∀ a, (k1_off4 i) a + S1x105856.size a ≤ S40x105856.size a
  k1_off5_inb : ∀ i : grid1.Coords, ∀ (k1_h2 : k1_cond2 i = 1#1), ∀ a, (k1_off5 i) a + S1x5200.size a ≤ S40x5200.size a
  k1_t3_ok : ∀ i : grid1.Coords, ∀ (k1_h2 : k1_cond2 i = 1#1), k1_t3_loop.OK
  k1_off6_inb : ∀ (i : grid1.Coords) (k1_t3 : Fin k1_t3_loop.trips), ∀ (k1_h2 : k1_cond2 i = 1#1), ∀ a, (k1_off6 k1_t3) a + S16.size a ≤ S105856.size a
  k1_t4_ok : ∀ i : grid1.Coords, ∀ (k1_h2 : k1_cond2 i = 1#1), k1_t4_loop.OK
  k1_off7_inb : ∀ (i : grid1.Coords) (k1_t4 : Fin k1_t4_loop.trips), ∀ (k1_h2 : k1_cond2 i = 1#1), ∀ a, (k1_off7 k1_t4) a + S16.size a ≤ S5200.size a
  k1_off8_inb : ∀ i : grid1.Coords, ∀ (k1_h2 : k1_cond2 i = 1#1), ∀ a, (k1_off8 i) a + S1x105856.size a ≤ S40x105856.size a
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage2_4 : ∀ j, (stage2_4 j).IsWhole
  hstage2_5 : ∀ j, (stage2_5 j).IsWhole
  hstage2_6 : ∀ j, (stage2_6 j).IsWhole
  hstage2_7 : ∀ j, (stage2_7 j).IsWhole
  hstage2_8 : ∀ j, (stage2_8 j).IsWhole
  hstage2_9 : ∀ j, (stage2_9 j).IsWhole
  hstage2_10 : ∀ j, (stage2_10 j).IsWhole

variable [Facts₀]

abbrev cc1_scoped0 : DmaSems sig S_ := SemArray.consecutive 9 S_ hcc1_scoped0
abbrev cc1_scoped1 : DmaSems sig S_ := SemArray.consecutive 10 S_ hcc1_scoped1
abbrev cc1_scoped2 : DmaSems sig S_ := SemArray.consecutive 11 S_ hcc1_scoped2
abbrev cc1_scoped3 : DmaSems sig S_ := SemArray.consecutive 12 S_ hcc1_scoped3
abbrev cc1_scoped4 : DmaSems sig S_ := SemArray.consecutive 13 S_ hcc1_scoped4
def gather_S325x16_S325x1_S325x16_1_0_n_n_0_1_116 : GatherDims S325x16 S325x1 S325x16 where
  offsetDims := [1]
  collapsedSliceDims := [0]
  operandBatchingDims := []
  startIndicesBatchingDims := []
  startIndexMap := [0]
  indexVectorDim := 1
  sliceSizes := ![1, 16]
  wf := gather_S325x16_S325x1_S325x16_1_0_n_n_0_1_116_wf
def scatter_S105625_S5200x1_S5200_n_0_0_1 : ScatterDims S105625 S5200x1 S5200 where
  updateWindowDims := []
  insertedWindowDims := [0]
  scatterDimsToOperandDims := [0]
  indexVectorDim := 1
  wf := scatter_S105625_S5200x1_S5200_n_0_0_1_wf
def gather_S105625_S5200x1_S5200_n_0_n_n_0_1_1 : GatherDims S105625 S5200x1 S5200 where
  offsetDims := []
  collapsedSliceDims := [0]
  operandBatchingDims := []
  startIndicesBatchingDims := []
  startIndexMap := [0]
  indexVectorDim := 1
  sliceSizes := ![1]
  wf := gather_S105625_S5200x1_S5200_n_0_n_n_0_1_1_wf
def dot_S5200x5_S5x256_S5200x256_1_0_0_1_n_n : DotDims S5200x5 S5x256 S5200x256 where
  lhsContracting := [1]
  rhsContracting := [0]
  lhsNonContracting := [0]
  rhsNonContracting := [1]
  lhsBatch := []
  rhsBatch := []
  wf := dot_S5200x5_S5x256_S5200x256_1_0_0_1_n_n_wf
def dot_S325x325_S325x160_S325x160_1_0_0_1_n_n : DotDims S325x325 S325x160 S325x160 where
  lhsContracting := [1]
  rhsContracting := [0]
  lhsNonContracting := [0]
  rhsNonContracting := [1]
  lhsBatch := []
  rhsBatch := []
  wf := dot_S325x325_S325x160_S325x160_1_0_0_1_n_n_wf
def dot_S325x160_S160x64_S325x64_1_0_0_1_n_n : DotDims S325x160 S160x64 S325x64 where
  lhsContracting := [1]
  rhsContracting := [0]
  lhsNonContracting := [0]
  rhsNonContracting := [1]
  lhsBatch := []
  rhsBatch := []
  wf := dot_S325x160_S160x64_S325x64_1_0_0_1_n_n_wf
def dot_S325x325_S325x64_S325x64_1_0_0_1_n_n : DotDims S325x325 S325x64 S325x64 where
  lhsContracting := [1]
  rhsContracting := [0]
  lhsNonContracting := [0]
  rhsNonContracting := [1]
  lhsBatch := []
  rhsBatch := []
  wf := dot_S325x325_S325x64_S325x64_1_0_0_1_n_n_wf
def dot_S325x64_S64x64_S325x64_1_0_0_1_n_n : DotDims S325x64 S64x64 S325x64 where
  lhsContracting := [1]
  rhsContracting := [0]
  lhsNonContracting := [0]
  rhsNonContracting := [1]
  lhsBatch := []
  rhsBatch := []
  wf := dot_S325x64_S64x64_S325x64_1_0_0_1_n_n_wf
def dot_S325x64_S64x512_S325x512_1_0_0_1_n_n : DotDims S325x64 S64x512 S325x512 where
  lhsContracting := [1]
  rhsContracting := [0]
  lhsNonContracting := [0]
  rhsNonContracting := [1]
  lhsBatch := []
  rhsBatch := []
  wf := dot_S325x64_S64x512_S325x512_1_0_0_1_n_n_wf
def dot_S325x512_S512x1_S325x1_1_0_0_1_n_n : DotDims S325x512 S512x1 S325x1 where
  lhsContracting := [1]
  rhsContracting := [0]
  lhsNonContracting := [0]
  rhsNonContracting := [1]
  lhsBatch := []
  rhsBatch := []
  wf := dot_S325x512_S512x1_S325x1_1_0_0_1_n_n_wf

abbrev win0_0 : Pipeline.Window sig grid0 :=
  Pipeline.Window.ofSpec (Memref.whole main_arg1) S5200x5.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1x5x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x325x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win2_0 : Pipeline.Window sig grid2 :=
  Pipeline.Window.whole (Memref.whole main_v10) false false (stage2_0 0) (sem2_0 0) (Memref.isWhole_whole _) (hstage2_0 0)

abbrev win2_1 : Pipeline.Window sig grid2 :=
  Pipeline.Window.whole (Memref.whole main_v39) false false (stage2_1 0) (sem2_1 0) (Memref.isWhole_whole _) (hstage2_1 0)

abbrev win2_2 : Pipeline.Window sig grid2 :=
  Pipeline.Window.whole (Memref.whole main_arg9) false false (stage2_2 0) (sem2_2 0) (Memref.isWhole_whole _) (hstage2_2 0)

abbrev win2_3 : Pipeline.Window sig grid2 :=
  Pipeline.Window.whole (Memref.whole main_arg11) false false (stage2_3 0) (sem2_3 0) (Memref.isWhole_whole _) (hstage2_3 0)

abbrev win2_4 : Pipeline.Window sig grid2 :=
  Pipeline.Window.whole (Memref.whole main_arg13) false false (stage2_4 0) (sem2_4 0) (Memref.isWhole_whole _) (hstage2_4 0)

abbrev win2_5 : Pipeline.Window sig grid2 :=
  Pipeline.Window.whole (Memref.whole main_arg14) false false (stage2_5 0) (sem2_5 0) (Memref.isWhole_whole _) (hstage2_5 0)

abbrev win2_6 : Pipeline.Window sig grid2 :=
  Pipeline.Window.whole (Memref.whole main_arg15) false false (stage2_6 0) (sem2_6 0) (Memref.isWhole_whole _) (hstage2_6 0)

abbrev win2_7 : Pipeline.Window sig grid2 :=
  Pipeline.Window.whole (Memref.whole main_arg16) false false (stage2_7 0) (sem2_7 0) (Memref.isWhole_whole _) (hstage2_7 0)

abbrev win2_8 : Pipeline.Window sig grid2 :=
  Pipeline.Window.whole (Memref.whole main_arg17) false false (stage2_8 0) (sem2_8 0) (Memref.isWhole_whole _) (hstage2_8 0)

abbrev win2_9 : Pipeline.Window sig grid2 :=
  Pipeline.Window.whole (Memref.whole main_v40) false false (stage2_9 0) (sem2_9 0) (Memref.isWhole_whole _) (hstage2_9 0)

abbrev win2_10 : Pipeline.Window sig grid2 :=
  Pipeline.Window.whole (Memref.whole main_v41) true false (stage2_10 0) (sem2_10 0) (Memref.isWhole_whole _) (hstage2_10 0)

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S16x24x325 : Shape := ⟨3, ![16, 24, 325]⟩
abbrev S5200x5 : Shape := ⟨2, ![5200, 5]⟩
abbrev S5200 : Shape := ⟨1, ![5200]⟩
abbrev S325 : Shape := ⟨1, ![325]⟩
abbrev S325x16 : Shape := ⟨2, ![325, 16]⟩
abbrev S40x5x256 : Shape := ⟨3, ![40, 5, 256]⟩
abbrev S40x256 : Shape := ⟨2, ![40, 256]⟩
abbrev S40x256x1 : Shape := ⟨3, ![40, 256, 1]⟩
abbrev S40x1 : Shape := ⟨2, ![40, 1]⟩
abbrev S4x160x64 : Shape := ⟨3, ![4, 160, 64]⟩
abbrev S64 : Shape := ⟨1, ![64]⟩
abbrev S9x4x64x64 : Shape := ⟨4, ![9, 4, 64, 64]⟩
abbrev S9x64 : Shape := ⟨2, ![9, 64]⟩
abbrev S10x64 : Shape := ⟨2, ![10, 64]⟩
abbrev S64x512 : Shape := ⟨2, ![64, 512]⟩
abbrev S512 : Shape := ⟨1, ![512]⟩
abbrev S512x1 : Shape := ⟨2, ![512, 1]⟩
abbrev S1 : Shape := ⟨1, ![1]⟩
abbrev S16x325x24 : Shape := ⟨3, ![16, 325, 24]⟩
abbrev S_ : Shape := ⟨0, ![]⟩
abbrev S325x1 : Shape := ⟨2, ![325, 1]⟩
abbrev S1x325x16 : Shape := ⟨3, ![1, 325, 16]⟩
abbrev S16x325x16 : Shape := ⟨3, ![16, 325, 16]⟩
abbrev S16x325x40 : Shape := ⟨3, ![16, 325, 40]⟩
abbrev S1x5x256 : Shape := ⟨3, ![1, 5, 256]⟩
abbrev S5x256 : Shape := ⟨2, ![5, 256]⟩
abbrev S5200x256 : Shape := ⟨2, ![5200, 256]⟩
abbrev S1x256 : Shape := ⟨2, ![1, 256]⟩
abbrev S256 : Shape := ⟨1, ![256]⟩
abbrev S1x256x1 : Shape := ⟨3, ![1, 256, 1]⟩
abbrev S256x1 : Shape := ⟨2, ![256, 1]⟩
abbrev S5200x1 : Shape := ⟨2, ![5200, 1]⟩
abbrev S1x1 : Shape := ⟨2, ![1, 1]⟩
abbrev S105625 : Shape := ⟨1, ![105625]⟩
abbrev S325x325 : Shape := ⟨2, ![325, 325]⟩
abbrev S16x325x160 : Shape := ⟨3, ![16, 325, 160]⟩
abbrev S16x325x64 : Shape := ⟨3, ![16, 325, 64]⟩
abbrev S16x160x325 : Shape := ⟨3, ![16, 160, 325]⟩
abbrev S1x160x64 : Shape := ⟨3, ![1, 160, 64]⟩
abbrev S160x64 : Shape := ⟨2, ![160, 64]⟩
abbrev S1x1x64 : Shape := ⟨3, ![1, 1, 64]⟩
abbrev S1x64 : Shape := ⟨2, ![1, 64]⟩
abbrev S1x4x64x64 : Shape := ⟨4, ![1, 4, 64, 64]⟩
abbrev S4x64x64 : Shape := ⟨3, ![4, 64, 64]⟩
abbrev S16x64x325 : Shape := ⟨3, ![16, 64, 325]⟩
abbrev S1x64x64 : Shape := ⟨3, ![1, 64, 64]⟩
abbrev S64x64 : Shape := ⟨2, ![64, 64]⟩
abbrev S5200x64 : Shape := ⟨2, ![5200, 64]⟩
abbrev S5200x512 : Shape := ⟨2, ![5200, 512]⟩
abbrev S1x512 : Shape := ⟨2, ![1, 512]⟩
abbrev S16x325 : Shape := ⟨2, ![16, 325]⟩

abbrev nBuf : Space → Nat
  | .hbm => 2682
  | .vmem => 0
  | .smem => 0
  | _ => 0

abbrev hbmTy0_0 (i : Nat) : BufTy := match i % 128 with
  | 0 => ⟨S16x24x325, .f32⟩
  | 1 => ⟨S5200x5, .f32⟩
  | 2 => ⟨S5200, .i32⟩
  | 3 => ⟨S325, .i32⟩
  | 4 => ⟨S325x16, .f32⟩
  | 5 => ⟨S40x5x256, .f32⟩
  | 6 => ⟨S40x256, .f32⟩
  | 7 => ⟨S40x256x1, .f32⟩
  | 8 => ⟨S40x1, .f32⟩
  | 9 => ⟨S4x160x64, .f32⟩
  | 10 => ⟨S64, .f32⟩
  | 11 => ⟨S9x4x64x64, .f32⟩
  | 12 => ⟨S9x64, .f32⟩
  | 13 => ⟨S10x64, .f32⟩
  | 14 => ⟨S10x64, .f32⟩
  | 15 => ⟨S64x512, .f32⟩
  | 16 => ⟨S512, .f32⟩
  | 17 => ⟨S512x1, .f32⟩
  | 18 => ⟨S1, .f32⟩
  | 19 => ⟨S16x325x24, .f32⟩
  | 20 => ⟨S_, .i32⟩
  | 21 => ⟨S325, .i32⟩
  | 22 => ⟨S325, .i1⟩
  | 23 => ⟨S_, .i32⟩
  | 24 => ⟨S325, .i32⟩
  | 25 => ⟨S325, .i32⟩
  | 26 => ⟨S325, .i32⟩
  | 27 => ⟨S325x1, .i32⟩
  | 28 => ⟨S325x16, .f32⟩
  | 29 => ⟨S1x325x16, .f32⟩
  | 30 => ⟨S16x325x16, .f32⟩
  | 31 => ⟨S16x325x40, .f32⟩
  | 32 => ⟨S1x5x256, .f32⟩
  | 33 => ⟨S5x256, .f32⟩
  | 34 => ⟨S5200x256, .f32⟩
  | 35 => ⟨S1x256, .f32⟩
  | 36 => ⟨S256, .f32⟩
  | 37 => ⟨S1x256, .f32⟩
  | 38 => ⟨S5200x256, .f32⟩
  | 39 => ⟨S5200x256, .f32⟩
  | 40 => ⟨S5200x256, .f32⟩
  | 41 => ⟨S1x256x1, .f32⟩
  | 42 => ⟨S256x1, .f32⟩
  | 43 => ⟨S5200x1, .f32⟩
  | 44 => ⟨S1x1, .f32⟩
  | 45 => ⟨S1, .f32⟩
  | 46 => ⟨S1x1, .f32⟩
  | 47 => ⟨S5200x1, .f32⟩
  | 48 => ⟨S5200x1, .f32⟩
  | 49 => ⟨S325x16, .f32⟩
  | 50 => ⟨S_, .f32⟩
  | 51 => ⟨S325, .f32⟩
  | 52 => ⟨S_, .f32⟩
  | 53 => ⟨S325, .f32⟩
  | 54 => ⟨S325, .f32⟩
  | 55 => ⟨S325x1, .f32⟩
  | 56 => ⟨S325x16, .f32⟩
  | 57 => ⟨S325x16, .f32⟩
  | 58 => ⟨S325x16, .f32⟩
  | 59 => ⟨S_, .f32⟩
  | 60 => ⟨S325, .f32⟩
  | 61 => ⟨S325x1, .f32⟩
  | 62 => ⟨S325x16, .f32⟩
  | 63 => ⟨S325x16, .f32⟩
  | 64 => ⟨S5200, .f32⟩
  | 65 => ⟨S_, .f32⟩
  | 66 => ⟨S105625, .f32⟩
  | 67 => ⟨S_, .i32⟩
  | 68 => ⟨S5200, .i32⟩
  | 69 => ⟨S5200, .i1⟩
  | 70 => ⟨S_, .i32⟩
  | 71 => ⟨S5200, .i32⟩
  | 72 => ⟨S5200, .i32⟩
  | 73 => ⟨S5200, .i32⟩
  | 74 => ⟨S5200x1, .i32⟩
  | 75 => ⟨S105625, .f32⟩
  | 76 => ⟨S325x325, .f32⟩
  | 77 => ⟨S1x5x256, .f32⟩
  | 78 => ⟨S5x256, .f32⟩
  | 79 => ⟨S5200x256, .f32⟩
  | 80 => ⟨S1x256, .f32⟩
  | 81 => ⟨S256, .f32⟩
  | 82 => ⟨S1x256, .f32⟩
  | 83 => ⟨S5200x256, .f32⟩
  | 84 => ⟨S5200x256, .f32⟩
  | 85 => ⟨S5200x256, .f32⟩
  | 86 => ⟨S1x256x1, .f32⟩
  | 87 => ⟨S256x1, .f32⟩
  | 88 => ⟨S5200x1, .f32⟩
  | 89 => ⟨S1x1, .f32⟩
  | 90 => ⟨S1, .f32⟩
  | 91 => ⟨S1x1, .f32⟩
  | 92 => ⟨S5200x1, .f32⟩
  | 93 => ⟨S5200x1, .f32⟩
  | 94 => ⟨S325x16, .f32⟩
  | 95 => ⟨S_, .f32⟩
  | 96 => ⟨S325, .f32⟩
  | 97 => ⟨S_, .f32⟩
  | 98 => ⟨S325, .f32⟩
  | 99 => ⟨S325, .f32⟩
  | 100 => ⟨S325x1, .f32⟩
  | 101 => ⟨S325x16, .f32⟩
  | 102 => ⟨S325x16, .f32⟩
  | 103 => ⟨S325x16, .f32⟩
  | 104 => ⟨S_, .f32⟩
  | 105 => ⟨S325, .f32⟩
  | 106 => ⟨S325x1, .f32⟩
  | 107 => ⟨S325x16, .f32⟩
  | 108 => ⟨S325x16, .f32⟩
  | 109 => ⟨S5200, .f32⟩
  | 110 => ⟨S_, .f32⟩
  | 111 => ⟨S105625, .f32⟩
  | 112 => ⟨S_, .i32⟩
  | 113 => ⟨S5200, .i32⟩
  | 114 => ⟨S5200, .i1⟩
  | 115 => ⟨S_, .i32⟩
  | 116 => ⟨S5200, .i32⟩
  | 117 => ⟨S5200, .i32⟩
  | 118 => ⟨S5200, .i32⟩
  | 119 => ⟨S5200x1, .i32⟩
  | 120 => ⟨S105625, .f32⟩
  | 121 => ⟨S325x325, .f32⟩
  | 122 => ⟨S1x5x256, .f32⟩
  | 123 => ⟨S5x256, .f32⟩
  | 124 => ⟨S5200x256, .f32⟩
  | 125 => ⟨S1x256, .f32⟩
  | 126 => ⟨S256, .f32⟩
  | 127 => ⟨S1x256, .f32⟩
  | _ => ⟨S16x24x325, .f32⟩

abbrev hbmTy0_1 (i : Nat) : BufTy := match i % 128 with
  | 0 => ⟨S5200x256, .f32⟩
  | 1 => ⟨S5200x256, .f32⟩
  | 2 => ⟨S5200x256, .f32⟩
  | 3 => ⟨S1x256x1, .f32⟩
  | 4 => ⟨S256x1, .f32⟩
  | 5 => ⟨S5200x1, .f32⟩
  | 6 => ⟨S1x1, .f32⟩
  | 7 => ⟨S1, .f32⟩
  | 8 => ⟨S1x1, .f32⟩
  | 9 => ⟨S5200x1, .f32⟩
  | 10 => ⟨S5200x1, .f32⟩
  | 11 => ⟨S325x16, .f32⟩
  | 12 => ⟨S_, .f32⟩
  | 13 => ⟨S325, .f32⟩
  | 14 => ⟨S_, .f32⟩
  | 15 => ⟨S325, .f32⟩
  | 16 => ⟨S325, .f32⟩
  | 17 => ⟨S325x1, .f32⟩
  | 18 => ⟨S325x16, .f32⟩
  | 19 => ⟨S325x16, .f32⟩
  | 20 => ⟨S325x16, .f32⟩
  | 21 => ⟨S_, .f32⟩
  | 22 => ⟨S325, .f32⟩
  | 23 => ⟨S325x1, .f32⟩
  | 24 => ⟨S325x16, .f32⟩
  | 25 => ⟨S325x16, .f32⟩
  | 26 => ⟨S5200, .f32⟩
  | 27 => ⟨S_, .f32⟩
  | 28 => ⟨S105625, .f32⟩
  | 29 => ⟨S_, .i32⟩
  | 30 => ⟨S5200, .i32⟩
  | 31 => ⟨S5200, .i1⟩
  | 32 => ⟨S_, .i32⟩
  | 33 => ⟨S5200, .i32⟩
  | 34 => ⟨S5200, .i32⟩
  | 35 => ⟨S5200, .i32⟩
  | 36 => ⟨S5200x1, .i32⟩
  | 37 => ⟨S105625, .f32⟩
  | 38 => ⟨S325x325, .f32⟩
  | 39 => ⟨S1x5x256, .f32⟩
  | 40 => ⟨S5x256, .f32⟩
  | 41 => ⟨S5200x256, .f32⟩
  | 42 => ⟨S1x256, .f32⟩
  | 43 => ⟨S256, .f32⟩
  | 44 => ⟨S1x256, .f32⟩
  | 45 => ⟨S5200x256, .f32⟩
  | 46 => ⟨S5200x256, .f32⟩
  | 47 => ⟨S5200x256, .f32⟩
  | 48 => ⟨S1x256x1, .f32⟩
  | 49 => ⟨S256x1, .f32⟩
  | 50 => ⟨S5200x1, .f32⟩
  | 51 => ⟨S1x1, .f32⟩
  | 52 => ⟨S1, .f32⟩
  | 53 => ⟨S1x1, .f32⟩
  | 54 => ⟨S5200x1, .f32⟩
  | 55 => ⟨S5200x1, .f32⟩
  | 56 => ⟨S325x16, .f32⟩
  | 57 => ⟨S_, .f32⟩
  | 58 => ⟨S325, .f32⟩
  | 59 => ⟨S_, .f32⟩
  | 60 => ⟨S325, .f32⟩
  | 61 => ⟨S325, .f32⟩
  | 62 => ⟨S325x1, .f32⟩
  | 63 => ⟨S325x16, .f32⟩
  | 64 => ⟨S325x16, .f32⟩
  | 65 => ⟨S325x16, .f32⟩
  | 66 => ⟨S_, .f32⟩
  | 67 => ⟨S325, .f32⟩
  | 68 => ⟨S325x1, .f32⟩
  | 69 => ⟨S325x16, .f32⟩
  | 70 => ⟨S325x16, .f32⟩
  | 71 => ⟨S5200, .f32⟩
  | 72 => ⟨S_, .f32⟩
  | 73 => ⟨S105625, .f32⟩
  | 74 => ⟨S_, .i32⟩
  | 75 => ⟨S5200, .i32⟩
  | 76 => ⟨S5200, .i1⟩
  | 77 => ⟨S_, .i32⟩
  | 78 => ⟨S5200, .i32⟩
  | 79 => ⟨S5200, .i32⟩
  | 80 => ⟨S5200, .i32⟩
  | 81 => ⟨S5200x1, .i32⟩
  | 82 => ⟨S105625, .f32⟩
  | 83 => ⟨S325x325, .f32⟩
  | 84 => ⟨S1x5x256, .f32⟩
  | 85 => ⟨S5x256, .f32⟩
  | 86 => ⟨S5200x256, .f32⟩
  | 87 => ⟨S1x256, .f32⟩
  | 88 => ⟨S256, .f32⟩
  | 89 => ⟨S1x256, .f32⟩
  | 90 => ⟨S5200x256, .f32⟩
  | 91 => ⟨S5200x256, .f32⟩
  | 92 => ⟨S5200x256, .f32⟩
  | 93 => ⟨S1x256x1, .f32⟩
  | 94 => ⟨S256x1, .f32⟩
  | 95 => ⟨S5200x1, .f32⟩
  | 96 => ⟨S1x1, .f32⟩
  | 97 => ⟨S1, .f32⟩
  | 98 => ⟨S1x1, .f32⟩
  | 99 => ⟨S5200x1, .f32⟩
  | 100 => ⟨S5200x1, .f32⟩
  | 101 => ⟨S325x16, .f32⟩
  | 102 => ⟨S_, .f32⟩
  | 103 => ⟨S325, .f32⟩
  | 104 => ⟨S_, .f32⟩
  | 105 => ⟨S325, .f32⟩
  | 106 => ⟨S325, .f32⟩
  | 107 => ⟨S325x1, .f32⟩
  | 108 => ⟨S325x16, .f32⟩
  | 109 => ⟨S325x16, .f32⟩
  | 110 => ⟨S325x16, .f32⟩
  | 111 => ⟨S_, .f32⟩
  | 112 => ⟨S325, .f32⟩
  | 113 => ⟨S325x1, .f32⟩
  | 114 => ⟨S325x16, .f32⟩
  | 115 => ⟨S325x16, .f32⟩
  | 116 => ⟨S5200, .f32⟩
  | 117 => ⟨S_, .f32⟩
  | 118 => ⟨S105625, .f32⟩
  | 119 => ⟨S_, .i32⟩
  | 120 => ⟨S5200, .i32⟩
  | 121 => ⟨S5200, .i1⟩
  | 122 => ⟨S_, .i32⟩
  | 123 => ⟨S5200, .i32⟩
  | 124 => ⟨S5200, .i32⟩
  | 125 => ⟨S5200, .i32⟩
  | 126 => ⟨S5200x1, .i32⟩
  | 127 => ⟨S105625, .f32⟩
  | _ => ⟨S16x24x325, .f32⟩

abbrev hbmTy0_2 (i : Nat) : BufTy := match i % 128 with
  | 0 => ⟨S325x325, .f32⟩
  | 1 => ⟨S1x5x256, .f32⟩
  | 2 => ⟨S5x256, .f32⟩
  | 3 => ⟨S5200x256, .f32⟩
  | 4 => ⟨S1x256, .f32⟩
  | 5 => ⟨S256, .f32⟩
  | 6 => ⟨S1x256, .f32⟩
  | 7 => ⟨S5200x256, .f32⟩
  | 8 => ⟨S5200x256, .f32⟩
  | 9 => ⟨S5200x256, .f32⟩
  | 10 => ⟨S1x256x1, .f32⟩
  | 11 => ⟨S256x1, .f32⟩
  | 12 => ⟨S5200x1, .f32⟩
  | 13 => ⟨S1x1, .f32⟩
  | 14 => ⟨S1, .f32⟩
  | 15 => ⟨S1x1, .f32⟩
  | 16 => ⟨S5200x1, .f32⟩
  | 17 => ⟨S5200x1, .f32⟩
  | 18 => ⟨S325x16, .f32⟩
  | 19 => ⟨S_, .f32⟩
  | 20 => ⟨S325, .f32⟩
  | 21 => ⟨S_, .f32⟩
  | 22 => ⟨S325, .f32⟩
  | 23 => ⟨S325, .f32⟩
  | 24 => ⟨S325x1, .f32⟩
  | 25 => ⟨S325x16, .f32⟩
  | 26 => ⟨S325x16, .f32⟩
  | 27 => ⟨S325x16, .f32⟩
  | 28 => ⟨S_, .f32⟩
  | 29 => ⟨S325, .f32⟩
  | 30 => ⟨S325x1, .f32⟩
  | 31 => ⟨S325x16, .f32⟩
  | 32 => ⟨S325x16, .f32⟩
  | 33 => ⟨S5200, .f32⟩
  | 34 => ⟨S_, .f32⟩
  | 35 => ⟨S105625, .f32⟩
  | 36 => ⟨S_, .i32⟩
  | 37 => ⟨S5200, .i32⟩
  | 38 => ⟨S5200, .i1⟩
  | 39 => ⟨S_, .i32⟩
  | 40 => ⟨S5200, .i32⟩
  | 41 => ⟨S5200, .i32⟩
  | 42 => ⟨S5200, .i32⟩
  | 43 => ⟨S5200x1, .i32⟩
  | 44 => ⟨S105625, .f32⟩
  | 45 => ⟨S325x325, .f32⟩
  | 46 => ⟨S1x5x256, .f32⟩
  | 47 => ⟨S5x256, .f32⟩
  | 48 => ⟨S5200x256, .f32⟩
  | 49 => ⟨S1x256, .f32⟩
  | 50 => ⟨S256, .f32⟩
  | 51 => ⟨S1x256, .f32⟩
  | 52 => ⟨S5200x256, .f32⟩
  | 53 => ⟨S5200x256, .f32⟩
  | 54 => ⟨S5200x256, .f32⟩
  | 55 => ⟨S1x256x1, .f32⟩
  | 56 => ⟨S256x1, .f32⟩
  | 57 => ⟨S5200x1, .f32⟩
  | 58 => ⟨S1x1, .f32⟩
  | 59 => ⟨S1, .f32⟩
  | 60 => ⟨S1x1, .f32⟩
  | 61 => ⟨S5200x1, .f32⟩
  | 62 => ⟨S5200x1, .f32⟩
  | 63 => ⟨S325x16, .f32⟩
  | 64 => ⟨S_, .f32⟩
  | 65 => ⟨S325, .f32⟩
  | 66 => ⟨S_, .f32⟩
  | 67 => ⟨S325, .f32⟩
  | 68 => ⟨S325, .f32⟩
  | 69 => ⟨S325x1, .f32⟩
  | 70 => ⟨S325x16, .f32⟩
  | 71 => ⟨S325x16, .f32⟩
  | 72 => ⟨S325x16, .f32⟩
  | 73 => ⟨S_, .f32⟩
  | 74 => ⟨S325, .f32⟩
  | 75 => ⟨S325x1, .f32⟩
  | 76 => ⟨S325x16, .f32⟩
  | 77 => ⟨S325x16, .f32⟩
  | 78 => ⟨S5200, .f32⟩
  | 79 => ⟨S_, .f32⟩
  | 80 => ⟨S105625, .f32⟩
  | 81 => ⟨S_, .i32⟩
  | 82 => ⟨S5200, .i32⟩
  | 83 => ⟨S5200, .i1⟩
  | 84 => ⟨S_, .i32⟩
  | 85 => ⟨S5200, .i32⟩
  | 86 => ⟨S5200, .i32⟩
  | 87 => ⟨S5200, .i32⟩
  | 88 => ⟨S5200x1, .i32⟩
  | 89 => ⟨S105625, .f32⟩
  | 90 => ⟨S325x325, .f32⟩
  | 91 => ⟨S1x5x256, .f32⟩
  | 92 => ⟨S5x256, .f32⟩
  | 93 => ⟨S5200x256, .f32⟩
  | 94 => ⟨S1x256, .f32⟩
  | 95 => ⟨S256, .f32⟩
  | 96 => ⟨S1x256, .f32⟩
  | 97 => ⟨S5200x256, .f32⟩
  | 98 => ⟨S5200x256, .f32⟩
  | 99 => ⟨S5200x256, .f32⟩
  | 100 => ⟨S1x256x1, .f32⟩
  | 101 => ⟨S256x1, .f32⟩
  | 102 => ⟨S5200x1, .f32⟩
  | 103 => ⟨S1x1, .f32⟩
  | 104 => ⟨S1, .f32⟩
  | 105 => ⟨S1x1, .f32⟩
  | 106 => ⟨S5200x1, .f32⟩
  | 107 => ⟨S5200x1, .f32⟩
  | 108 => ⟨S325x16, .f32⟩
  | 109 => ⟨S_, .f32⟩
  | 110 => ⟨S325, .f32⟩
  | 111 => ⟨S_, .f32⟩
  | 112 => ⟨S325, .f32⟩
  | 113 => ⟨S325, .f32⟩
  | 114 => ⟨S325x1, .f32⟩
  | 115 => ⟨S325x16, .f32⟩
  | 116 => ⟨S325x16, .f32⟩
  | 117 => ⟨S325x16, .f32⟩
  | 118 => ⟨S_, .f32⟩
  | 119 => ⟨S325, .f32⟩
  | 120 => ⟨S325x1, .f32⟩
  | 121 => ⟨S325x16, .f32⟩
  | 122 => ⟨S325x16, .f32⟩
  | 123 => ⟨S5200, .f32⟩
  | 124 => ⟨S_, .f32⟩
  | 125 => ⟨S105625, .f32⟩
  | 126 => ⟨S_, .i32⟩
  | 127 => ⟨S5200, .i32⟩
  | _ => ⟨S16x24x325, .f32⟩

abbrev hbmTy0_3 (i : Nat) : BufTy := match i % 128 with
  | 0 => ⟨S5200, .i1⟩
  | 1 => ⟨S_, .i32⟩
  | 2 => ⟨S5200, .i32⟩
  | 3 => ⟨S5200, .i32⟩
  | 4 => ⟨S5200, .i32⟩
  | 5 => ⟨S5200x1, .i32⟩
  | 6 => ⟨S105625, .f32⟩
  | 7 => ⟨S325x325, .f32⟩
  | 8 => ⟨S1x5x256, .f32⟩
  | 9 => ⟨S5x256, .f32⟩
  | 10 => ⟨S5200x256, .f32⟩
  | 11 => ⟨S1x256, .f32⟩
  | 12 => ⟨S256, .f32⟩
  | 13 => ⟨S1x256, .f32⟩
  | 14 => ⟨S5200x256, .f32⟩
  | 15 => ⟨S5200x256, .f32⟩
  | 16 => ⟨S5200x256, .f32⟩
  | 17 => ⟨S1x256x1, .f32⟩
  | 18 => ⟨S256x1, .f32⟩
  | 19 => ⟨S5200x1, .f32⟩
  | 20 => ⟨S1x1, .f32⟩
  | 21 => ⟨S1, .f32⟩
  | 22 => ⟨S1x1, .f32⟩
  | 23 => ⟨S5200x1, .f32⟩
  | 24 => ⟨S5200x1, .f32⟩
  | 25 => ⟨S325x16, .f32⟩
  | 26 => ⟨S_, .f32⟩
  | 27 => ⟨S325, .f32⟩
  | 28 => ⟨S_, .f32⟩
  | 29 => ⟨S325, .f32⟩
  | 30 => ⟨S325, .f32⟩
  | 31 => ⟨S325x1, .f32⟩
  | 32 => ⟨S325x16, .f32⟩
  | 33 => ⟨S325x16, .f32⟩
  | 34 => ⟨S325x16, .f32⟩
  | 35 => ⟨S_, .f32⟩
  | 36 => ⟨S325, .f32⟩
  | 37 => ⟨S325x1, .f32⟩
  | 38 => ⟨S325x16, .f32⟩
  | 39 => ⟨S325x16, .f32⟩
  | 40 => ⟨S5200, .f32⟩
  | 41 => ⟨S_, .f32⟩
  | 42 => ⟨S105625, .f32⟩
  | 43 => ⟨S_, .i32⟩
  | 44 => ⟨S5200, .i32⟩
  | 45 => ⟨S5200, .i1⟩
  | 46 => ⟨S_, .i32⟩
  | 47 => ⟨S5200, .i32⟩
  | 48 => ⟨S5200, .i32⟩
  | 49 => ⟨S5200, .i32⟩
  | 50 => ⟨S5200x1, .i32⟩
  | 51 => ⟨S105625, .f32⟩
  | 52 => ⟨S325x325, .f32⟩
  | 53 => ⟨S1x5x256, .f32⟩
  | 54 => ⟨S5x256, .f32⟩
  | 55 => ⟨S5200x256, .f32⟩
  | 56 => ⟨S1x256, .f32⟩
  | 57 => ⟨S256, .f32⟩
  | 58 => ⟨S1x256, .f32⟩
  | 59 => ⟨S5200x256, .f32⟩
  | 60 => ⟨S5200x256, .f32⟩
  | 61 => ⟨S5200x256, .f32⟩
  | 62 => ⟨S1x256x1, .f32⟩
  | 63 => ⟨S256x1, .f32⟩
  | 64 => ⟨S5200x1, .f32⟩
  | 65 => ⟨S1x1, .f32⟩
  | 66 => ⟨S1, .f32⟩
  | 67 => ⟨S1x1, .f32⟩
  | 68 => ⟨S5200x1, .f32⟩
  | 69 => ⟨S5200x1, .f32⟩
  | 70 => ⟨S325x16, .f32⟩
  | 71 => ⟨S_, .f32⟩
  | 72 => ⟨S325, .f32⟩
  | 73 => ⟨S_, .f32⟩
  | 74 => ⟨S325, .f32⟩
  | 75 => ⟨S325, .f32⟩
  | 76 => ⟨S325x1, .f32⟩
  | 77 => ⟨S325x16, .f32⟩
  | 78 => ⟨S325x16, .f32⟩
  | 79 => ⟨S325x16, .f32⟩
  | 80 => ⟨S_, .f32⟩
  | 81 => ⟨S325, .f32⟩
  | 82 => ⟨S325x1, .f32⟩
  | 83 => ⟨S325x16, .f32⟩
  | 84 => ⟨S325x16, .f32⟩
  | 85 => ⟨S5200, .f32⟩
  | 86 => ⟨S_, .f32⟩
  | 87 => ⟨S105625, .f32⟩
  | 88 => ⟨S_, .i32⟩
  | 89 => ⟨S5200, .i32⟩
  | 90 => ⟨S5200, .i1⟩
  | 91 => ⟨S_, .i32⟩
  | 92 => ⟨S5200, .i32⟩
  | 93 => ⟨S5200, .i32⟩
  | 94 => ⟨S5200, .i32⟩
  | 95 => ⟨S5200x1, .i32⟩
  | 96 => ⟨S105625, .f32⟩
  | 97 => ⟨S325x325, .f32⟩
  | 98 => ⟨S1x5x256, .f32⟩
  | 99 => ⟨S5x256, .f32⟩
  | 100 => ⟨S5200x256, .f32⟩
  | 101 => ⟨S1x256, .f32⟩
  | 102 => ⟨S256, .f32⟩
  | 103 => ⟨S1x256, .f32⟩
  | 104 => ⟨S5200x256, .f32⟩
  | 105 => ⟨S5200x256, .f32⟩
  | 106 => ⟨S5200x256, .f32⟩
  | 107 => ⟨S1x256x1, .f32⟩
  | 108 => ⟨S256x1, .f32⟩
  | 109 => ⟨S5200x1, .f32⟩
  | 110 => ⟨S1x1, .f32⟩
  | 111 => ⟨S1, .f32⟩
  | 112 => ⟨S1x1, .f32⟩
  | 113 => ⟨S5200x1, .f32⟩
  | 114 => ⟨S5200x1, .f32⟩
  | 115 => ⟨S325x16, .f32⟩
  | 116 => ⟨S_, .f32⟩
  | 117 => ⟨S325, .f32⟩
  | 118 => ⟨S_, .f32⟩
  | 119 => ⟨S325, .f32⟩
  | 120 => ⟨S325, .f32⟩
  | 121 => ⟨S325x1, .f32⟩
  | 122 => ⟨S325x16, .f32⟩
  | 123 => ⟨S325x16, .f32⟩
  | 124 => ⟨S325x16, .f32⟩
  | 125 => ⟨S_, .f32⟩
  | 126 => ⟨S325, .f32⟩
  | 127 => ⟨S325x1, .f32⟩
  | _ => ⟨S16x24x325, .f32⟩

abbrev hbmTy0_4 (i : Nat) : BufTy := match i % 128 with
  | 0 => ⟨S325x16, .f32⟩
  | 1 => ⟨S325x16, .f32⟩
  | 2 => ⟨S5200, .f32⟩
  | 3 => ⟨S_, .f32⟩
  | 4 => ⟨S105625, .f32⟩
  | 5 => ⟨S_, .i32⟩
  | 6 => ⟨S5200, .i32⟩
  | 7 => ⟨S5200, .i1⟩
  | 8 => ⟨S_, .i32⟩
  | 9 => ⟨S5200, .i32⟩
  | 10 => ⟨S5200, .i32⟩
  | 11 => ⟨S5200, .i32⟩
  | 12 => ⟨S5200x1, .i32⟩
  | 13 => ⟨S105625, .f32⟩
  | 14 => ⟨S325x325, .f32⟩
  | 15 => ⟨S1x5x256, .f32⟩
  | 16 => ⟨S5x256, .f32⟩
  | 17 => ⟨S5200x256, .f32⟩
  | 18 => ⟨S1x256, .f32⟩
  | 19 => ⟨S256, .f32⟩
  | 20 => ⟨S1x256, .f32⟩
  | 21 => ⟨S5200x256, .f32⟩
  | 22 => ⟨S5200x256, .f32⟩
  | 23 => ⟨S5200x256, .f32⟩
  | 24 => ⟨S1x256x1, .f32⟩
  | 25 => ⟨S256x1, .f32⟩
  | 26 => ⟨S5200x1, .f32⟩
  | 27 => ⟨S1x1, .f32⟩
  | 28 => ⟨S1, .f32⟩
  | 29 => ⟨S1x1, .f32⟩
  | 30 => ⟨S5200x1, .f32⟩
  | 31 => ⟨S5200x1, .f32⟩
  | 32 => ⟨S325x16, .f32⟩
  | 33 => ⟨S_, .f32⟩
  | 34 => ⟨S325, .f32⟩
  | 35 => ⟨S_, .f32⟩
  | 36 => ⟨S325, .f32⟩
  | 37 => ⟨S325, .f32⟩
  | 38 => ⟨S325x1, .f32⟩
  | 39 => ⟨S325x16, .f32⟩
  | 40 => ⟨S325x16, .f32⟩
  | 41 => ⟨S325x16, .f32⟩
  | 42 => ⟨S_, .f32⟩
  | 43 => ⟨S325, .f32⟩
  | 44 => ⟨S325x1, .f32⟩
  | 45 => ⟨S325x16, .f32⟩
  | 46 => ⟨S325x16, .f32⟩
  | 47 => ⟨S5200, .f32⟩
  | 48 => ⟨S_, .f32⟩
  | 49 => ⟨S105625, .f32⟩
  | 50 => ⟨S_, .i32⟩
  | 51 => ⟨S5200, .i32⟩
  | 52 => ⟨S5200, .i1⟩
  | 53 => ⟨S_, .i32⟩
  | 54 => ⟨S5200, .i32⟩
  | 55 => ⟨S5200, .i32⟩
  | 56 => ⟨S5200, .i32⟩
  | 57 => ⟨S5200x1, .i32⟩
  | 58 => ⟨S105625, .f32⟩
  | 59 => ⟨S325x325, .f32⟩
  | 60 => ⟨S1x5x256, .f32⟩
  | 61 => ⟨S5x256, .f32⟩
  | 62 => ⟨S5200x256, .f32⟩
  | 63 => ⟨S1x256, .f32⟩
  | 64 => ⟨S256, .f32⟩
  | 65 => ⟨S1x256, .f32⟩
  | 66 => ⟨S5200x256, .f32⟩
  | 67 => ⟨S5200x256, .f32⟩
  | 68 => ⟨S5200x256, .f32⟩
  | 69 => ⟨S1x256x1, .f32⟩
  | 70 => ⟨S256x1, .f32⟩
  | 71 => ⟨S5200x1, .f32⟩
  | 72 => ⟨S1x1, .f32⟩
  | 73 => ⟨S1, .f32⟩
  | 74 => ⟨S1x1, .f32⟩
  | 75 => ⟨S5200x1, .f32⟩
  | 76 => ⟨S5200x1, .f32⟩
  | 77 => ⟨S325x16, .f32⟩
  | 78 => ⟨S_, .f32⟩
  | 79 => ⟨S325, .f32⟩
  | 80 => ⟨S_, .f32⟩
  | 81 => ⟨S325, .f32⟩
  | 82 => ⟨S325, .f32⟩
  | 83 => ⟨S325x1, .f32⟩
  | 84 => ⟨S325x16, .f32⟩
  | 85 => ⟨S325x16, .f32⟩
  | 86 => ⟨S325x16, .f32⟩
  | 87 => ⟨S_, .f32⟩
  | 88 => ⟨S325, .f32⟩
  | 89 => ⟨S325x1, .f32⟩
  | 90 => ⟨S325x16, .f32⟩
  | 91 => ⟨S325x16, .f32⟩
  | 92 => ⟨S5200, .f32⟩
  | 93 => ⟨S_, .f32⟩
  | 94 => ⟨S105625, .f32⟩
  | 95 => ⟨S_, .i32⟩
  | 96 => ⟨S5200, .i32⟩
  | 97 => ⟨S5200, .i1⟩
  | 98 => ⟨S_, .i32⟩
  | 99 => ⟨S5200, .i32⟩
  | 100 => ⟨S5200, .i32⟩
  | 101 => ⟨S5200, .i32⟩
  | 102 => ⟨S5200x1, .i32⟩
  | 103 => ⟨S105625, .f32⟩
  | 104 => ⟨S325x325, .f32⟩
  | 105 => ⟨S1x5x256, .f32⟩
  | 106 => ⟨S5x256, .f32⟩
  | 107 => ⟨S5200x256, .f32⟩
  | 108 => ⟨S1x256, .f32⟩
  | 109 => ⟨S256, .f32⟩
  | 110 => ⟨S1x256, .f32⟩
  | 111 => ⟨S5200x256, .f32⟩
  | 112 => ⟨S5200x256, .f32⟩
  | 113 => ⟨S5200x256, .f32⟩
  | 114 => ⟨S1x256x1, .f32⟩
  | 115 => ⟨S256x1, .f32⟩
  | 116 => ⟨S5200x1, .f32⟩
  | 117 => ⟨S1x1, .f32⟩
  | 118 => ⟨S1, .f32⟩
  | 119 => ⟨S1x1, .f32⟩
  | 120 => ⟨S5200x1, .f32⟩
  | 121 => ⟨S5200x1, .f32⟩
  | 122 => ⟨S325x16, .f32⟩
  | 123 => ⟨S_, .f32⟩
  | 124 => ⟨S325, .f32⟩
  | 125 => ⟨S_, .f32⟩
  | 126 => ⟨S325, .f32⟩
  | 127 => ⟨S325, .f32⟩
  | _ => ⟨S16x24x325, .f32⟩

abbrev hbmTy0_5 (i : Nat) : BufTy := match i % 128 with
  | 0 => ⟨S325x1, .f32⟩
  | 1 => ⟨S325x16, .f32⟩
  | 2 => ⟨S325x16, .f32⟩
  | 3 => ⟨S325x16, .f32⟩
  | 4 => ⟨S_, .f32⟩
  | 5 => ⟨S325, .f32⟩
  | 6 => ⟨S325x1, .f32⟩
  | 7 => ⟨S325x16, .f32⟩
  | 8 => ⟨S325x16, .f32⟩
  | 9 => ⟨S5200, .f32⟩
  | 10 => ⟨S_, .f32⟩
  | 11 => ⟨S105625, .f32⟩
  | 12 => ⟨S_, .i32⟩
  | 13 => ⟨S5200, .i32⟩
  | 14 => ⟨S5200, .i1⟩
  | 15 => ⟨S_, .i32⟩
  | 16 => ⟨S5200, .i32⟩
  | 17 => ⟨S5200, .i32⟩
  | 18 => ⟨S5200, .i32⟩
  | 19 => ⟨S5200x1, .i32⟩
  | 20 => ⟨S105625, .f32⟩
  | 21 => ⟨S325x325, .f32⟩
  | 22 => ⟨S1x5x256, .f32⟩
  | 23 => ⟨S5x256, .f32⟩
  | 24 => ⟨S5200x256, .f32⟩
  | 25 => ⟨S1x256, .f32⟩
  | 26 => ⟨S256, .f32⟩
  | 27 => ⟨S1x256, .f32⟩
  | 28 => ⟨S5200x256, .f32⟩
  | 29 => ⟨S5200x256, .f32⟩
  | 30 => ⟨S5200x256, .f32⟩
  | 31 => ⟨S1x256x1, .f32⟩
  | 32 => ⟨S256x1, .f32⟩
  | 33 => ⟨S5200x1, .f32⟩
  | 34 => ⟨S1x1, .f32⟩
  | 35 => ⟨S1, .f32⟩
  | 36 => ⟨S1x1, .f32⟩
  | 37 => ⟨S5200x1, .f32⟩
  | 38 => ⟨S5200x1, .f32⟩
  | 39 => ⟨S325x16, .f32⟩
  | 40 => ⟨S_, .f32⟩
  | 41 => ⟨S325, .f32⟩
  | 42 => ⟨S_, .f32⟩
  | 43 => ⟨S325, .f32⟩
  | 44 => ⟨S325, .f32⟩
  | 45 => ⟨S325x1, .f32⟩
  | 46 => ⟨S325x16, .f32⟩
  | 47 => ⟨S325x16, .f32⟩
  | 48 => ⟨S325x16, .f32⟩
  | 49 => ⟨S_, .f32⟩
  | 50 => ⟨S325, .f32⟩
  | 51 => ⟨S325x1, .f32⟩
  | 52 => ⟨S325x16, .f32⟩
  | 53 => ⟨S325x16, .f32⟩
  | 54 => ⟨S5200, .f32⟩
  | 55 => ⟨S_, .f32⟩
  | 56 => ⟨S105625, .f32⟩
  | 57 => ⟨S_, .i32⟩
  | 58 => ⟨S5200, .i32⟩
  | 59 => ⟨S5200, .i1⟩
  | 60 => ⟨S_, .i32⟩
  | 61 => ⟨S5200, .i32⟩
  | 62 => ⟨S5200, .i32⟩
  | 63 => ⟨S5200, .i32⟩
  | 64 => ⟨S5200x1, .i32⟩
  | 65 => ⟨S105625, .f32⟩
  | 66 => ⟨S325x325, .f32⟩
  | 67 => ⟨S1x5x256, .f32⟩
  | 68 => ⟨S5x256, .f32⟩
  | 69 => ⟨S5200x256, .f32⟩
  | 70 => ⟨S1x256, .f32⟩
  | 71 => ⟨S256, .f32⟩
  | 72 => ⟨S1x256, .f32⟩
  | 73 => ⟨S5200x256, .f32⟩
  | 74 => ⟨S5200x256, .f32⟩
  | 75 => ⟨S5200x256, .f32⟩
  | 76 => ⟨S1x256x1, .f32⟩
  | 77 => ⟨S256x1, .f32⟩
  | 78 => ⟨S5200x1, .f32⟩
  | 79 => ⟨S1x1, .f32⟩
  | 80 => ⟨S1, .f32⟩
  | 81 => ⟨S1x1, .f32⟩
  | 82 => ⟨S5200x1, .f32⟩
  | 83 => ⟨S5200x1, .f32⟩
  | 84 => ⟨S325x16, .f32⟩
  | 85 => ⟨S_, .f32⟩
  | 86 => ⟨S325, .f32⟩
  | 87 => ⟨S_, .f32⟩
  | 88 => ⟨S325, .f32⟩
  | 89 => ⟨S325, .f32⟩
  | 90 => ⟨S325x1, .f32⟩
  | 91 => ⟨S325x16, .f32⟩
  | 92 => ⟨S325x16, .f32⟩
  | 93 => ⟨S325x16, .f32⟩
  | 94 => ⟨S_, .f32⟩
  | 95 => ⟨S325, .f32⟩
  | 96 => ⟨S325x1, .f32⟩
  | 97 => ⟨S325x16, .f32⟩
  | 98 => ⟨S325x16, .f32⟩
  | 99 => ⟨S5200, .f32⟩
  | 100 => ⟨S_, .f32⟩
  | 101 => ⟨S105625, .f32⟩
  | 102 => ⟨S_, .i32⟩
  | 103 => ⟨S5200, .i32⟩
  | 104 => ⟨S5200, .i1⟩
  | 105 => ⟨S_, .i32⟩
  | 106 => ⟨S5200, .i32⟩
  | 107 => ⟨S5200, .i32⟩
  | 108 => ⟨S5200, .i32⟩
  | 109 => ⟨S5200x1, .i32⟩
  | 110 => ⟨S105625, .f32⟩
  | 111 => ⟨S325x325, .f32⟩
  | 112 => ⟨S1x5x256, .f32⟩
  | 113 => ⟨S5x256, .f32⟩
  | 114 => ⟨S5200x256, .f32⟩
  | 115 => ⟨S1x256, .f32⟩
  | 116 => ⟨S256, .f32⟩
  | 117 => ⟨S1x256, .f32⟩
  | 118 => ⟨S5200x256, .f32⟩
  | 119 => ⟨S5200x256, .f32⟩
  | 120 => ⟨S5200x256, .f32⟩
  | 121 => ⟨S1x256x1, .f32⟩
  | 122 => ⟨S256x1, .f32⟩
  | 123 => ⟨S5200x1, .f32⟩
  | 124 => ⟨S1x1, .f32⟩
  | 125 => ⟨S1, .f32⟩
  | 126 => ⟨S1x1, .f32⟩
  | 127 => ⟨S5200x1, .f32⟩
  | _ => ⟨S16x24x325, .f32⟩

abbrev hbmTy0_6 (i : Nat) : BufTy := match i % 128 with
  | 0 => ⟨S5200x1, .f32⟩
  | 1 => ⟨S325x16, .f32⟩
  | 2 => ⟨S_, .f32⟩
  | 3 => ⟨S325, .f32⟩
  | 4 => ⟨S_, .f32⟩
  | 5 => ⟨S325, .f32⟩
  | 6 => ⟨S325, .f32⟩
  | 7 => ⟨S325x1, .f32⟩
  | 8 => ⟨S325x16, .f32⟩
  | 9 => ⟨S325x16, .f32⟩
  | 10 => ⟨S325x16, .f32⟩
  | 11 => ⟨S_, .f32⟩
  | 12 => ⟨S325, .f32⟩
  | 13 => ⟨S325x1, .f32⟩
  | 14 => ⟨S325x16, .f32⟩
  | 15 => ⟨S325x16, .f32⟩
  | 16 => ⟨S5200, .f32⟩
  | 17 => ⟨S_, .f32⟩
  | 18 => ⟨S105625, .f32⟩
  | 19 => ⟨S_, .i32⟩
  | 20 => ⟨S5200, .i32⟩
  | 21 => ⟨S5200, .i1⟩
  | 22 => ⟨S_, .i32⟩
  | 23 => ⟨S5200, .i32⟩
  | 24 => ⟨S5200, .i32⟩
  | 25 => ⟨S5200, .i32⟩
  | 26 => ⟨S5200x1, .i32⟩
  | 27 => ⟨S105625, .f32⟩
  | 28 => ⟨S325x325, .f32⟩
  | 29 => ⟨S1x5x256, .f32⟩
  | 30 => ⟨S5x256, .f32⟩
  | 31 => ⟨S5200x256, .f32⟩
  | 32 => ⟨S1x256, .f32⟩
  | 33 => ⟨S256, .f32⟩
  | 34 => ⟨S1x256, .f32⟩
  | 35 => ⟨S5200x256, .f32⟩
  | 36 => ⟨S5200x256, .f32⟩
  | 37 => ⟨S5200x256, .f32⟩
  | 38 => ⟨S1x256x1, .f32⟩
  | 39 => ⟨S256x1, .f32⟩
  | 40 => ⟨S5200x1, .f32⟩
  | 41 => ⟨S1x1, .f32⟩
  | 42 => ⟨S1, .f32⟩
  | 43 => ⟨S1x1, .f32⟩
  | 44 => ⟨S5200x1, .f32⟩
  | 45 => ⟨S5200x1, .f32⟩
  | 46 => ⟨S325x16, .f32⟩
  | 47 => ⟨S_, .f32⟩
  | 48 => ⟨S325, .f32⟩
  | 49 => ⟨S_, .f32⟩
  | 50 => ⟨S325, .f32⟩
  | 51 => ⟨S325, .f32⟩
  | 52 => ⟨S325x1, .f32⟩
  | 53 => ⟨S325x16, .f32⟩
  | 54 => ⟨S325x16, .f32⟩
  | 55 => ⟨S325x16, .f32⟩
  | 56 => ⟨S_, .f32⟩
  | 57 => ⟨S325, .f32⟩
  | 58 => ⟨S325x1, .f32⟩
  | 59 => ⟨S325x16, .f32⟩
  | 60 => ⟨S325x16, .f32⟩
  | 61 => ⟨S5200, .f32⟩
  | 62 => ⟨S_, .f32⟩
  | 63 => ⟨S105625, .f32⟩
  | 64 => ⟨S_, .i32⟩
  | 65 => ⟨S5200, .i32⟩
  | 66 => ⟨S5200, .i1⟩
  | 67 => ⟨S_, .i32⟩
  | 68 => ⟨S5200, .i32⟩
  | 69 => ⟨S5200, .i32⟩
  | 70 => ⟨S5200, .i32⟩
  | 71 => ⟨S5200x1, .i32⟩
  | 72 => ⟨S105625, .f32⟩
  | 73 => ⟨S325x325, .f32⟩
  | 74 => ⟨S1x5x256, .f32⟩
  | 75 => ⟨S5x256, .f32⟩
  | 76 => ⟨S5200x256, .f32⟩
  | 77 => ⟨S1x256, .f32⟩
  | 78 => ⟨S256, .f32⟩
  | 79 => ⟨S1x256, .f32⟩
  | 80 => ⟨S5200x256, .f32⟩
  | 81 => ⟨S5200x256, .f32⟩
  | 82 => ⟨S5200x256, .f32⟩
  | 83 => ⟨S1x256x1, .f32⟩
  | 84 => ⟨S256x1, .f32⟩
  | 85 => ⟨S5200x1, .f32⟩
  | 86 => ⟨S1x1, .f32⟩
  | 87 => ⟨S1, .f32⟩
  | 88 => ⟨S1x1, .f32⟩
  | 89 => ⟨S5200x1, .f32⟩
  | 90 => ⟨S5200x1, .f32⟩
  | 91 => ⟨S325x16, .f32⟩
  | 92 => ⟨S_, .f32⟩
  | 93 => ⟨S325, .f32⟩
  | 94 => ⟨S_, .f32⟩
  | 95 => ⟨S325, .f32⟩
  | 96 => ⟨S325, .f32⟩
  | 97 => ⟨S325x1, .f32⟩
  | 98 => ⟨S325x16, .f32⟩
  | 99 => ⟨S325x16, .f32⟩
  | 100 => ⟨S325x16, .f32⟩
  | 101 => ⟨S_, .f32⟩
  | 102 => ⟨S325, .f32⟩
  | 103 => ⟨S325x1, .f32⟩
  | 104 => ⟨S325x16, .f32⟩
  | 105 => ⟨S325x16, .f32⟩
  | 106 => ⟨S5200, .f32⟩
  | 107 => ⟨S_, .f32⟩
  | 108 => ⟨S105625, .f32⟩
  | 109 => ⟨S_, .i32⟩
  | 110 => ⟨S5200, .i32⟩
  | 111 => ⟨S5200, .i1⟩
  | 112 => ⟨S_, .i32⟩
  | 113 => ⟨S5200, .i32⟩
  | 114 => ⟨S5200, .i32⟩
  | 115 => ⟨S5200, .i32⟩
  | 116 => ⟨S5200x1, .i32⟩
  | 117 => ⟨S105625, .f32⟩
  | 118 => ⟨S325x325, .f32⟩
  | 119 => ⟨S1x5x256, .f32⟩
  | 120 => ⟨S5x256, .f32⟩
  | 121 => ⟨S5200x256, .f32⟩
  | 122 => ⟨S1x256, .f32⟩
  | 123 => ⟨S256, .f32⟩
  | 124 => ⟨S1x256, .f32⟩
  | 125 => ⟨S5200x256, .f32⟩
  | 126 => ⟨S5200x256, .f32⟩
  | 127 => ⟨S5200x256, .f32⟩
  | _ => ⟨S16x24x325, .f32⟩

abbrev hbmTy0_7 (i : Nat) : BufTy := match i % 128 with
  | 0 => ⟨S1x256x1, .f32⟩
  | 1 => ⟨S256x1, .f32⟩
  | 2 => ⟨S5200x1, .f32⟩
  | 3 => ⟨S1x1, .f32⟩
  | 4 => ⟨S1, .f32⟩
  | 5 => ⟨S1x1, .f32⟩
  | 6 => ⟨S5200x1, .f32⟩
  | 7 => ⟨S5200x1, .f32⟩
  | 8 => ⟨S325x16, .f32⟩
  | 9 => ⟨S_, .f32⟩
  | 10 => ⟨S325, .f32⟩
  | 11 => ⟨S_, .f32⟩
  | 12 => ⟨S325, .f32⟩
  | 13 => ⟨S325, .f32⟩
  | 14 => ⟨S325x1, .f32⟩
  | 15 => ⟨S325x16, .f32⟩
  | 16 => ⟨S325x16, .f32⟩
  | 17 => ⟨S325x16, .f32⟩
  | 18 => ⟨S_, .f32⟩
  | 19 => ⟨S325, .f32⟩
  | 20 => ⟨S325x1, .f32⟩
  | 21 => ⟨S325x16, .f32⟩
  | 22 => ⟨S325x16, .f32⟩
  | 23 => ⟨S5200, .f32⟩
  | 24 => ⟨S_, .f32⟩
  | 25 => ⟨S105625, .f32⟩
  | 26 => ⟨S_, .i32⟩
  | 27 => ⟨S5200, .i32⟩
  | 28 => ⟨S5200, .i1⟩
  | 29 => ⟨S_, .i32⟩
  | 30 => ⟨S5200, .i32⟩
  | 31 => ⟨S5200, .i32⟩
  | 32 => ⟨S5200, .i32⟩
  | 33 => ⟨S5200x1, .i32⟩
  | 34 => ⟨S105625, .f32⟩
  | 35 => ⟨S325x325, .f32⟩
  | 36 => ⟨S1x5x256, .f32⟩
  | 37 => ⟨S5x256, .f32⟩
  | 38 => ⟨S5200x256, .f32⟩
  | 39 => ⟨S1x256, .f32⟩
  | 40 => ⟨S256, .f32⟩
  | 41 => ⟨S1x256, .f32⟩
  | 42 => ⟨S5200x256, .f32⟩
  | 43 => ⟨S5200x256, .f32⟩
  | 44 => ⟨S5200x256, .f32⟩
  | 45 => ⟨S1x256x1, .f32⟩
  | 46 => ⟨S256x1, .f32⟩
  | 47 => ⟨S5200x1, .f32⟩
  | 48 => ⟨S1x1, .f32⟩
  | 49 => ⟨S1, .f32⟩
  | 50 => ⟨S1x1, .f32⟩
  | 51 => ⟨S5200x1, .f32⟩
  | 52 => ⟨S5200x1, .f32⟩
  | 53 => ⟨S325x16, .f32⟩
  | 54 => ⟨S_, .f32⟩
  | 55 => ⟨S325, .f32⟩
  | 56 => ⟨S_, .f32⟩
  | 57 => ⟨S325, .f32⟩
  | 58 => ⟨S325, .f32⟩
  | 59 => ⟨S325x1, .f32⟩
  | 60 => ⟨S325x16, .f32⟩
  | 61 => ⟨S325x16, .f32⟩
  | 62 => ⟨S325x16, .f32⟩
  | 63 => ⟨S_, .f32⟩
  | 64 => ⟨S325, .f32⟩
  | 65 => ⟨S325x1, .f32⟩
  | 66 => ⟨S325x16, .f32⟩
  | 67 => ⟨S325x16, .f32⟩
  | 68 => ⟨S5200, .f32⟩
  | 69 => ⟨S_, .f32⟩
  | 70 => ⟨S105625, .f32⟩
  | 71 => ⟨S_, .i32⟩
  | 72 => ⟨S5200, .i32⟩
  | 73 => ⟨S5200, .i1⟩
  | 74 => ⟨S_, .i32⟩
  | 75 => ⟨S5200, .i32⟩
  | 76 => ⟨S5200, .i32⟩
  | 77 => ⟨S5200, .i32⟩
  | 78 => ⟨S5200x1, .i32⟩
  | 79 => ⟨S105625, .f32⟩
  | 80 => ⟨S325x325, .f32⟩
  | 81 => ⟨S1x5x256, .f32⟩
  | 82 => ⟨S5x256, .f32⟩
  | 83 => ⟨S5200x256, .f32⟩
  | 84 => ⟨S1x256, .f32⟩
  | 85 => ⟨S256, .f32⟩
  | 86 => ⟨S1x256, .f32⟩
  | 87 => ⟨S5200x256, .f32⟩
  | 88 => ⟨S5200x256, .f32⟩
  | 89 => ⟨S5200x256, .f32⟩
  | 90 => ⟨S1x256x1, .f32⟩
  | 91 => ⟨S256x1, .f32⟩
  | 92 => ⟨S5200x1, .f32⟩
  | 93 => ⟨S1x1, .f32⟩
  | 94 => ⟨S1, .f32⟩
  | 95 => ⟨S1x1, .f32⟩
  | 96 => ⟨S5200x1, .f32⟩
  | 97 => ⟨S5200x1, .f32⟩
  | 98 => ⟨S325x16, .f32⟩
  | 99 => ⟨S_, .f32⟩
  | 100 => ⟨S325, .f32⟩
  | 101 => ⟨S_, .f32⟩
  | 102 => ⟨S325, .f32⟩
  | 103 => ⟨S325, .f32⟩
  | 104 => ⟨S325x1, .f32⟩
  | 105 => ⟨S325x16, .f32⟩
  | 106 => ⟨S325x16, .f32⟩
  | 107 => ⟨S325x16, .f32⟩
  | 108 => ⟨S_, .f32⟩
  | 109 => ⟨S325, .f32⟩
  | 110 => ⟨S325x1, .f32⟩
  | 111 => ⟨S325x16, .f32⟩
  | 112 => ⟨S325x16, .f32⟩
  | 113 => ⟨S5200, .f32⟩
  | 114 => ⟨S_, .f32⟩
  | 115 => ⟨S105625, .f32⟩
  | 116 => ⟨S_, .i32⟩
  | 117 => ⟨S5200, .i32⟩
  | 118 => ⟨S5200, .i1⟩
  | 119 => ⟨S_, .i32⟩
  | 120 => ⟨S5200, .i32⟩
  | 121 => ⟨S5200, .i32⟩
  | 122 => ⟨S5200, .i32⟩
  | 123 => ⟨S5200x1, .i32⟩
  | 124 => ⟨S105625, .f32⟩
  | 125 => ⟨S325x325, .f32⟩
  | 126 => ⟨S1x5x256, .f32⟩
  | 127 => ⟨S5x256, .f32⟩
  | _ => ⟨S16x24x325, .f32⟩

abbrev hbmTy0_8 (i : Nat) : BufTy := match i % 128 with
  | 0 => ⟨S5200x256, .f32⟩
  | 1 => ⟨S1x256, .f32⟩
  | 2 => ⟨S256, .f32⟩
  | 3 => ⟨S1x256, .f32⟩
  | 4 => ⟨S5200x256, .f32⟩
  | 5 => ⟨S5200x256, .f32⟩
  | 6 => ⟨S5200x256, .f32⟩
  | 7 => ⟨S1x256x1, .f32⟩
  | 8 => ⟨S256x1, .f32⟩
  | 9 => ⟨S5200x1, .f32⟩
  | 10 => ⟨S1x1, .f32⟩
  | 11 => ⟨S1, .f32⟩
  | 12 => ⟨S1x1, .f32⟩
  | 13 => ⟨S5200x1, .f32⟩
  | 14 => ⟨S5200x1, .f32⟩
  | 15 => ⟨S325x16, .f32⟩
  | 16 => ⟨S_, .f32⟩
  | 17 => ⟨S325, .f32⟩
  | 18 => ⟨S_, .f32⟩
  | 19 => ⟨S325, .f32⟩
  | 20 => ⟨S325, .f32⟩
  | 21 => ⟨S325x1, .f32⟩
  | 22 => ⟨S325x16, .f32⟩
  | 23 => ⟨S325x16, .f32⟩
  | 24 => ⟨S325x16, .f32⟩
  | 25 => ⟨S_, .f32⟩
  | 26 => ⟨S325, .f32⟩
  | 27 => ⟨S325x1, .f32⟩
  | 28 => ⟨S325x16, .f32⟩
  | 29 => ⟨S325x16, .f32⟩
  | 30 => ⟨S5200, .f32⟩
  | 31 => ⟨S_, .f32⟩
  | 32 => ⟨S105625, .f32⟩
  | 33 => ⟨S_, .i32⟩
  | 34 => ⟨S5200, .i32⟩
  | 35 => ⟨S5200, .i1⟩
  | 36 => ⟨S_, .i32⟩
  | 37 => ⟨S5200, .i32⟩
  | 38 => ⟨S5200, .i32⟩
  | 39 => ⟨S5200, .i32⟩
  | 40 => ⟨S5200x1, .i32⟩
  | 41 => ⟨S105625, .f32⟩
  | 42 => ⟨S325x325, .f32⟩
  | 43 => ⟨S1x5x256, .f32⟩
  | 44 => ⟨S5x256, .f32⟩
  | 45 => ⟨S5200x256, .f32⟩
  | 46 => ⟨S1x256, .f32⟩
  | 47 => ⟨S256, .f32⟩
  | 48 => ⟨S1x256, .f32⟩
  | 49 => ⟨S5200x256, .f32⟩
  | 50 => ⟨S5200x256, .f32⟩
  | 51 => ⟨S5200x256, .f32⟩
  | 52 => ⟨S1x256x1, .f32⟩
  | 53 => ⟨S256x1, .f32⟩
  | 54 => ⟨S5200x1, .f32⟩
  | 55 => ⟨S1x1, .f32⟩
  | 56 => ⟨S1, .f32⟩
  | 57 => ⟨S1x1, .f32⟩
  | 58 => ⟨S5200x1, .f32⟩
  | 59 => ⟨S5200x1, .f32⟩
  | 60 => ⟨S325x16, .f32⟩
  | 61 => ⟨S_, .f32⟩
  | 62 => ⟨S325, .f32⟩
  | 63 => ⟨S_, .f32⟩
  | 64 => ⟨S325, .f32⟩
  | 65 => ⟨S325, .f32⟩
  | 66 => ⟨S325x1, .f32⟩
  | 67 => ⟨S325x16, .f32⟩
  | 68 => ⟨S325x16, .f32⟩
  | 69 => ⟨S325x16, .f32⟩
  | 70 => ⟨S_, .f32⟩
  | 71 => ⟨S325, .f32⟩
  | 72 => ⟨S325x1, .f32⟩
  | 73 => ⟨S325x16, .f32⟩
  | 74 => ⟨S325x16, .f32⟩
  | 75 => ⟨S5200, .f32⟩
  | 76 => ⟨S_, .f32⟩
  | 77 => ⟨S105625, .f32⟩
  | 78 => ⟨S_, .i32⟩
  | 79 => ⟨S5200, .i32⟩
  | 80 => ⟨S5200, .i1⟩
  | 81 => ⟨S_, .i32⟩
  | 82 => ⟨S5200, .i32⟩
  | 83 => ⟨S5200, .i32⟩
  | 84 => ⟨S5200, .i32⟩
  | 85 => ⟨S5200x1, .i32⟩
  | 86 => ⟨S105625, .f32⟩
  | 87 => ⟨S325x325, .f32⟩
  | 88 => ⟨S1x5x256, .f32⟩
  | 89 => ⟨S5x256, .f32⟩
  | 90 => ⟨S5200x256, .f32⟩
  | 91 => ⟨S1x256, .f32⟩
  | 92 => ⟨S256, .f32⟩
  | 93 => ⟨S1x256, .f32⟩
  | 94 => ⟨S5200x256, .f32⟩
  | 95 => ⟨S5200x256, .f32⟩
  | 96 => ⟨S5200x256, .f32⟩
  | 97 => ⟨S1x256x1, .f32⟩
  | 98 => ⟨S256x1, .f32⟩
  | 99 => ⟨S5200x1, .f32⟩
  | 100 => ⟨S1x1, .f32⟩
  | 101 => ⟨S1, .f32⟩
  | 102 => ⟨S1x1, .f32⟩
  | 103 => ⟨S5200x1, .f32⟩
  | 104 => ⟨S5200x1, .f32⟩
  | 105 => ⟨S325x16, .f32⟩
  | 106 => ⟨S_, .f32⟩
  | 107 => ⟨S325, .f32⟩
  | 108 => ⟨S_, .f32⟩
  | 109 => ⟨S325, .f32⟩
  | 110 => ⟨S325, .f32⟩
  | 111 => ⟨S325x1, .f32⟩
  | 112 => ⟨S325x16, .f32⟩
  | 113 => ⟨S325x16, .f32⟩
  | 114 => ⟨S325x16, .f32⟩
  | 115 => ⟨S_, .f32⟩
  | 116 => ⟨S325, .f32⟩
  | 117 => ⟨S325x1, .f32⟩
  | 118 => ⟨S325x16, .f32⟩
  | 119 => ⟨S325x16, .f32⟩
  | 120 => ⟨S5200, .f32⟩
  | 121 => ⟨S_, .f32⟩
  | 122 => ⟨S105625, .f32⟩
  | 123 => ⟨S_, .i32⟩
  | 124 => ⟨S5200, .i32⟩
  | 125 => ⟨S5200, .i1⟩
  | 126 => ⟨S_, .i32⟩
  | 127 => ⟨S5200, .i32⟩
  | _ => ⟨S16x24x325, .f32⟩

abbrev hbmTy0_9 (i : Nat) : BufTy := match i % 128 with
  | 0 => ⟨S5200, .i32⟩
  | 1 => ⟨S5200, .i32⟩
  | 2 => ⟨S5200x1, .i32⟩
  | 3 => ⟨S105625, .f32⟩
  | 4 => ⟨S325x325, .f32⟩
  | 5 => ⟨S1x5x256, .f32⟩
  | 6 => ⟨S5x256, .f32⟩
  | 7 => ⟨S5200x256, .f32⟩
  | 8 => ⟨S1x256, .f32⟩
  | 9 => ⟨S256, .f32⟩
  | 10 => ⟨S1x256, .f32⟩
  | 11 => ⟨S5200x256, .f32⟩
  | 12 => ⟨S5200x256, .f32⟩
  | 13 => ⟨S5200x256, .f32⟩
  | 14 => ⟨S1x256x1, .f32⟩
  | 15 => ⟨S256x1, .f32⟩
  | 16 => ⟨S5200x1, .f32⟩
  | 17 => ⟨S1x1, .f32⟩
  | 18 => ⟨S1, .f32⟩
  | 19 => ⟨S1x1, .f32⟩
  | 20 => ⟨S5200x1, .f32⟩
  | 21 => ⟨S5200x1, .f32⟩
  | 22 => ⟨S325x16, .f32⟩
  | 23 => ⟨S_, .f32⟩
  | 24 => ⟨S325, .f32⟩
  | 25 => ⟨S_, .f32⟩
  | 26 => ⟨S325, .f32⟩
  | 27 => ⟨S325, .f32⟩
  | 28 => ⟨S325x1, .f32⟩
  | 29 => ⟨S325x16, .f32⟩
  | 30 => ⟨S325x16, .f32⟩
  | 31 => ⟨S325x16, .f32⟩
  | 32 => ⟨S_, .f32⟩
  | 33 => ⟨S325, .f32⟩
  | 34 => ⟨S325x1, .f32⟩
  | 35 => ⟨S325x16, .f32⟩
  | 36 => ⟨S325x16, .f32⟩
  | 37 => ⟨S5200, .f32⟩
  | 38 => ⟨S_, .f32⟩
  | 39 => ⟨S105625, .f32⟩
  | 40 => ⟨S_, .i32⟩
  | 41 => ⟨S5200, .i32⟩
  | 42 => ⟨S5200, .i1⟩
  | 43 => ⟨S_, .i32⟩
  | 44 => ⟨S5200, .i32⟩
  | 45 => ⟨S5200, .i32⟩
  | 46 => ⟨S5200, .i32⟩
  | 47 => ⟨S5200x1, .i32⟩
  | 48 => ⟨S105625, .f32⟩
  | 49 => ⟨S325x325, .f32⟩
  | 50 => ⟨S1x5x256, .f32⟩
  | 51 => ⟨S5x256, .f32⟩
  | 52 => ⟨S5200x256, .f32⟩
  | 53 => ⟨S1x256, .f32⟩
  | 54 => ⟨S256, .f32⟩
  | 55 => ⟨S1x256, .f32⟩
  | 56 => ⟨S5200x256, .f32⟩
  | 57 => ⟨S5200x256, .f32⟩
  | 58 => ⟨S5200x256, .f32⟩
  | 59 => ⟨S1x256x1, .f32⟩
  | 60 => ⟨S256x1, .f32⟩
  | 61 => ⟨S5200x1, .f32⟩
  | 62 => ⟨S1x1, .f32⟩
  | 63 => ⟨S1, .f32⟩
  | 64 => ⟨S1x1, .f32⟩
  | 65 => ⟨S5200x1, .f32⟩
  | 66 => ⟨S5200x1, .f32⟩
  | 67 => ⟨S325x16, .f32⟩
  | 68 => ⟨S_, .f32⟩
  | 69 => ⟨S325, .f32⟩
  | 70 => ⟨S_, .f32⟩
  | 71 => ⟨S325, .f32⟩
  | 72 => ⟨S325, .f32⟩
  | 73 => ⟨S325x1, .f32⟩
  | 74 => ⟨S325x16, .f32⟩
  | 75 => ⟨S325x16, .f32⟩
  | 76 => ⟨S325x16, .f32⟩
  | 77 => ⟨S_, .f32⟩
  | 78 => ⟨S325, .f32⟩
  | 79 => ⟨S325x1, .f32⟩
  | 80 => ⟨S325x16, .f32⟩
  | 81 => ⟨S325x16, .f32⟩
  | 82 => ⟨S5200, .f32⟩
  | 83 => ⟨S_, .f32⟩
  | 84 => ⟨S105625, .f32⟩
  | 85 => ⟨S_, .i32⟩
  | 86 => ⟨S5200, .i32⟩
  | 87 => ⟨S5200, .i1⟩
  | 88 => ⟨S_, .i32⟩
  | 89 => ⟨S5200, .i32⟩
  | 90 => ⟨S5200, .i32⟩
  | 91 => ⟨S5200, .i32⟩
  | 92 => ⟨S5200x1, .i32⟩
  | 93 => ⟨S105625, .f32⟩
  | 94 => ⟨S325x325, .f32⟩
  | 95 => ⟨S1x5x256, .f32⟩
  | 96 => ⟨S5x256, .f32⟩
  | 97 => ⟨S5200x256, .f32⟩
  | 98 => ⟨S1x256, .f32⟩
  | 99 => ⟨S256, .f32⟩
  | 100 => ⟨S1x256, .f32⟩
  | 101 => ⟨S5200x256, .f32⟩
  | 102 => ⟨S5200x256, .f32⟩
  | 103 => ⟨S5200x256, .f32⟩
  | 104 => ⟨S1x256x1, .f32⟩
  | 105 => ⟨S256x1, .f32⟩
  | 106 => ⟨S5200x1, .f32⟩
  | 107 => ⟨S1x1, .f32⟩
  | 108 => ⟨S1, .f32⟩
  | 109 => ⟨S1x1, .f32⟩
  | 110 => ⟨S5200x1, .f32⟩
  | 111 => ⟨S5200x1, .f32⟩
  | 112 => ⟨S325x16, .f32⟩
  | 113 => ⟨S_, .f32⟩
  | 114 => ⟨S325, .f32⟩
  | 115 => ⟨S_, .f32⟩
  | 116 => ⟨S325, .f32⟩
  | 117 => ⟨S325, .f32⟩
  | 118 => ⟨S325x1, .f32⟩
  | 119 => ⟨S325x16, .f32⟩
  | 120 => ⟨S325x16, .f32⟩
  | 121 => ⟨S325x16, .f32⟩
  | 122 => ⟨S_, .f32⟩
  | 123 => ⟨S325, .f32⟩
  | 124 => ⟨S325x1, .f32⟩
  | 125 => ⟨S325x16, .f32⟩
  | 126 => ⟨S325x16, .f32⟩
  | 127 => ⟨S5200, .f32⟩
  | _ => ⟨S16x24x325, .f32⟩

abbrev hbmTy0_10 (i : Nat) : BufTy := match i % 128 with
  | 0 => ⟨S_, .f32⟩
  | 1 => ⟨S105625, .f32⟩
  | 2 => ⟨S_, .i32⟩
  | 3 => ⟨S5200, .i32⟩
  | 4 => ⟨S5200, .i1⟩
  | 5 => ⟨S_, .i32⟩
  | 6 => ⟨S5200, .i32⟩
  | 7 => ⟨S5200, .i32⟩
  | 8 => ⟨S5200, .i32⟩
  | 9 => ⟨S5200x1, .i32⟩
  | 10 => ⟨S105625, .f32⟩
  | 11 => ⟨S325x325, .f32⟩
  | 12 => ⟨S1x5x256, .f32⟩
  | 13 => ⟨S5x256, .f32⟩
  | 14 => ⟨S5200x256, .f32⟩
  | 15 => ⟨S1x256, .f32⟩
  | 16 => ⟨S256, .f32⟩
  | 17 => ⟨S1x256, .f32⟩
  | 18 => ⟨S5200x256, .f32⟩
  | 19 => ⟨S5200x256, .f32⟩
  | 20 => ⟨S5200x256, .f32⟩
  | 21 => ⟨S1x256x1, .f32⟩
  | 22 => ⟨S256x1, .f32⟩
  | 23 => ⟨S5200x1, .f32⟩
  | 24 => ⟨S1x1, .f32⟩
  | 25 => ⟨S1, .f32⟩
  | 26 => ⟨S1x1, .f32⟩
  | 27 => ⟨S5200x1, .f32⟩
  | 28 => ⟨S5200x1, .f32⟩
  | 29 => ⟨S325x16, .f32⟩
  | 30 => ⟨S_, .f32⟩
  | 31 => ⟨S325, .f32⟩
  | 32 => ⟨S_, .f32⟩
  | 33 => ⟨S325, .f32⟩
  | 34 => ⟨S325, .f32⟩
  | 35 => ⟨S325x1, .f32⟩
  | 36 => ⟨S325x16, .f32⟩
  | 37 => ⟨S325x16, .f32⟩
  | 38 => ⟨S325x16, .f32⟩
  | 39 => ⟨S_, .f32⟩
  | 40 => ⟨S325, .f32⟩
  | 41 => ⟨S325x1, .f32⟩
  | 42 => ⟨S325x16, .f32⟩
  | 43 => ⟨S325x16, .f32⟩
  | 44 => ⟨S5200, .f32⟩
  | 45 => ⟨S_, .f32⟩
  | 46 => ⟨S105625, .f32⟩
  | 47 => ⟨S_, .i32⟩
  | 48 => ⟨S5200, .i32⟩
  | 49 => ⟨S5200, .i1⟩
  | 50 => ⟨S_, .i32⟩
  | 51 => ⟨S5200, .i32⟩
  | 52 => ⟨S5200, .i32⟩
  | 53 => ⟨S5200, .i32⟩
  | 54 => ⟨S5200x1, .i32⟩
  | 55 => ⟨S105625, .f32⟩
  | 56 => ⟨S325x325, .f32⟩
  | 57 => ⟨S1x5x256, .f32⟩
  | 58 => ⟨S5x256, .f32⟩
  | 59 => ⟨S5200x256, .f32⟩
  | 60 => ⟨S1x256, .f32⟩
  | 61 => ⟨S256, .f32⟩
  | 62 => ⟨S1x256, .f32⟩
  | 63 => ⟨S5200x256, .f32⟩
  | 64 => ⟨S5200x256, .f32⟩
  | 65 => ⟨S5200x256, .f32⟩
  | 66 => ⟨S1x256x1, .f32⟩
  | 67 => ⟨S256x1, .f32⟩
  | 68 => ⟨S5200x1, .f32⟩
  | 69 => ⟨S1x1, .f32⟩
  | 70 => ⟨S1, .f32⟩
  | 71 => ⟨S1x1, .f32⟩
  | 72 => ⟨S5200x1, .f32⟩
  | 73 => ⟨S5200x1, .f32⟩
  | 74 => ⟨S325x16, .f32⟩
  | 75 => ⟨S_, .f32⟩
  | 76 => ⟨S325, .f32⟩
  | 77 => ⟨S_, .f32⟩
  | 78 => ⟨S325, .f32⟩
  | 79 => ⟨S325, .f32⟩
  | 80 => ⟨S325x1, .f32⟩
  | 81 => ⟨S325x16, .f32⟩
  | 82 => ⟨S325x16, .f32⟩
  | 83 => ⟨S325x16, .f32⟩
  | 84 => ⟨S_, .f32⟩
  | 85 => ⟨S325, .f32⟩
  | 86 => ⟨S325x1, .f32⟩
  | 87 => ⟨S325x16, .f32⟩
  | 88 => ⟨S325x16, .f32⟩
  | 89 => ⟨S5200, .f32⟩
  | 90 => ⟨S_, .f32⟩
  | 91 => ⟨S105625, .f32⟩
  | 92 => ⟨S_, .i32⟩
  | 93 => ⟨S5200, .i32⟩
  | 94 => ⟨S5200, .i1⟩
  | 95 => ⟨S_, .i32⟩
  | 96 => ⟨S5200, .i32⟩
  | 97 => ⟨S5200, .i32⟩
  | 98 => ⟨S5200, .i32⟩
  | 99 => ⟨S5200x1, .i32⟩
  | 100 => ⟨S105625, .f32⟩
  | 101 => ⟨S325x325, .f32⟩
  | 102 => ⟨S1x5x256, .f32⟩
  | 103 => ⟨S5x256, .f32⟩
  | 104 => ⟨S5200x256, .f32⟩
  | 105 => ⟨S1x256, .f32⟩
  | 106 => ⟨S256, .f32⟩
  | 107 => ⟨S1x256, .f32⟩
  | 108 => ⟨S5200x256, .f32⟩
  | 109 => ⟨S5200x256, .f32⟩
  | 110 => ⟨S5200x256, .f32⟩
  | 111 => ⟨S1x256x1, .f32⟩
  | 112 => ⟨S256x1, .f32⟩
  | 113 => ⟨S5200x1, .f32⟩
  | 114 => ⟨S1x1, .f32⟩
  | 115 => ⟨S1, .f32⟩
  | 116 => ⟨S1x1, .f32⟩
  | 117 => ⟨S5200x1, .f32⟩
  | 118 => ⟨S5200x1, .f32⟩
  | 119 => ⟨S325x16, .f32⟩
  | 120 => ⟨S_, .f32⟩
  | 121 => ⟨S325, .f32⟩
  | 122 => ⟨S_, .f32⟩
  | 123 => ⟨S325, .f32⟩
  | 124 => ⟨S325, .f32⟩
  | 125 => ⟨S325x1, .f32⟩
  | 126 => ⟨S325x16, .f32⟩
  | 127 => ⟨S325x16, .f32⟩
  | _ => ⟨S16x24x325, .f32⟩

abbrev hbmTy0_11 (i : Nat) : BufTy := match i % 128 with
  | 0 => ⟨S325x16, .f32⟩
  | 1 => ⟨S_, .f32⟩
  | 2 => ⟨S325, .f32⟩
  | 3 => ⟨S325x1, .f32⟩
  | 4 => ⟨S325x16, .f32⟩
  | 5 => ⟨S325x16, .f32⟩
  | 6 => ⟨S5200, .f32⟩
  | 7 => ⟨S_, .f32⟩
  | 8 => ⟨S105625, .f32⟩
  | 9 => ⟨S_, .i32⟩
  | 10 => ⟨S5200, .i32⟩
  | 11 => ⟨S5200, .i1⟩
  | 12 => ⟨S_, .i32⟩
  | 13 => ⟨S5200, .i32⟩
  | 14 => ⟨S5200, .i32⟩
  | 15 => ⟨S5200, .i32⟩
  | 16 => ⟨S5200x1, .i32⟩
  | 17 => ⟨S105625, .f32⟩
  | 18 => ⟨S325x325, .f32⟩
  | 19 => ⟨S1x5x256, .f32⟩
  | 20 => ⟨S5x256, .f32⟩
  | 21 => ⟨S5200x256, .f32⟩
  | 22 => ⟨S1x256, .f32⟩
  | 23 => ⟨S256, .f32⟩
  | 24 => ⟨S1x256, .f32⟩
  | 25 => ⟨S5200x256, .f32⟩
  | 26 => ⟨S5200x256, .f32⟩
  | 27 => ⟨S5200x256, .f32⟩
  | 28 => ⟨S1x256x1, .f32⟩
  | 29 => ⟨S256x1, .f32⟩
  | 30 => ⟨S5200x1, .f32⟩
  | 31 => ⟨S1x1, .f32⟩
  | 32 => ⟨S1, .f32⟩
  | 33 => ⟨S1x1, .f32⟩
  | 34 => ⟨S5200x1, .f32⟩
  | 35 => ⟨S5200x1, .f32⟩
  | 36 => ⟨S325x16, .f32⟩
  | 37 => ⟨S_, .f32⟩
  | 38 => ⟨S325, .f32⟩
  | 39 => ⟨S_, .f32⟩
  | 40 => ⟨S325, .f32⟩
  | 41 => ⟨S325, .f32⟩
  | 42 => ⟨S325x1, .f32⟩
  | 43 => ⟨S325x16, .f32⟩
  | 44 => ⟨S325x16, .f32⟩
  | 45 => ⟨S325x16, .f32⟩
  | 46 => ⟨S_, .f32⟩
  | 47 => ⟨S325, .f32⟩
  | 48 => ⟨S325x1, .f32⟩
  | 49 => ⟨S325x16, .f32⟩
  | 50 => ⟨S325x16, .f32⟩
  | 51 => ⟨S5200, .f32⟩
  | 52 => ⟨S_, .f32⟩
  | 53 => ⟨S105625, .f32⟩
  | 54 => ⟨S_, .i32⟩
  | 55 => ⟨S5200, .i32⟩
  | 56 => ⟨S5200, .i1⟩
  | 57 => ⟨S_, .i32⟩
  | 58 => ⟨S5200, .i32⟩
  | 59 => ⟨S5200, .i32⟩
  | 60 => ⟨S5200, .i32⟩
  | 61 => ⟨S5200x1, .i32⟩
  | 62 => ⟨S105625, .f32⟩
  | 63 => ⟨S325x325, .f32⟩
  | 64 => ⟨S1x5x256, .f32⟩
  | 65 => ⟨S5x256, .f32⟩
  | 66 => ⟨S5200x256, .f32⟩
  | 67 => ⟨S1x256, .f32⟩
  | 68 => ⟨S256, .f32⟩
  | 69 => ⟨S1x256, .f32⟩
  | 70 => ⟨S5200x256, .f32⟩
  | 71 => ⟨S5200x256, .f32⟩
  | 72 => ⟨S5200x256, .f32⟩
  | 73 => ⟨S1x256x1, .f32⟩
  | 74 => ⟨S256x1, .f32⟩
  | 75 => ⟨S5200x1, .f32⟩
  | 76 => ⟨S1x1, .f32⟩
  | 77 => ⟨S1, .f32⟩
  | 78 => ⟨S1x1, .f32⟩
  | 79 => ⟨S5200x1, .f32⟩
  | 80 => ⟨S5200x1, .f32⟩
  | 81 => ⟨S325x16, .f32⟩
  | 82 => ⟨S_, .f32⟩
  | 83 => ⟨S325, .f32⟩
  | 84 => ⟨S_, .f32⟩
  | 85 => ⟨S325, .f32⟩
  | 86 => ⟨S325, .f32⟩
  | 87 => ⟨S325x1, .f32⟩
  | 88 => ⟨S325x16, .f32⟩
  | 89 => ⟨S325x16, .f32⟩
  | 90 => ⟨S325x16, .f32⟩
  | 91 => ⟨S_, .f32⟩
  | 92 => ⟨S325, .f32⟩
  | 93 => ⟨S325x1, .f32⟩
  | 94 => ⟨S325x16, .f32⟩
  | 95 => ⟨S325x16, .f32⟩
  | 96 => ⟨S5200, .f32⟩
  | 97 => ⟨S_, .f32⟩
  | 98 => ⟨S105625, .f32⟩
  | 99 => ⟨S_, .i32⟩
  | 100 => ⟨S5200, .i32⟩
  | 101 => ⟨S5200, .i1⟩
  | 102 => ⟨S_, .i32⟩
  | 103 => ⟨S5200, .i32⟩
  | 104 => ⟨S5200, .i32⟩
  | 105 => ⟨S5200, .i32⟩
  | 106 => ⟨S5200x1, .i32⟩
  | 107 => ⟨S105625, .f32⟩
  | 108 => ⟨S325x325, .f32⟩
  | 109 => ⟨S1x5x256, .f32⟩
  | 110 => ⟨S5x256, .f32⟩
  | 111 => ⟨S5200x256, .f32⟩
  | 112 => ⟨S1x256, .f32⟩
  | 113 => ⟨S256, .f32⟩
  | 114 => ⟨S1x256, .f32⟩
  | 115 => ⟨S5200x256, .f32⟩
  | 116 => ⟨S5200x256, .f32⟩
  | 117 => ⟨S5200x256, .f32⟩
  | 118 => ⟨S1x256x1, .f32⟩
  | 119 => ⟨S256x1, .f32⟩
  | 120 => ⟨S5200x1, .f32⟩
  | 121 => ⟨S1x1, .f32⟩
  | 122 => ⟨S1, .f32⟩
  | 123 => ⟨S1x1, .f32⟩
  | 124 => ⟨S5200x1, .f32⟩
  | 125 => ⟨S5200x1, .f32⟩
  | 126 => ⟨S325x16, .f32⟩
  | 127 => ⟨S_, .f32⟩
  | _ => ⟨S16x24x325, .f32⟩

abbrev hbmTy0_12 (i : Nat) : BufTy := match i % 128 with
  | 0 => ⟨S325, .f32⟩
  | 1 => ⟨S_, .f32⟩
  | 2 => ⟨S325, .f32⟩
  | 3 => ⟨S325, .f32⟩
  | 4 => ⟨S325x1, .f32⟩
  | 5 => ⟨S325x16, .f32⟩
  | 6 => ⟨S325x16, .f32⟩
  | 7 => ⟨S325x16, .f32⟩
  | 8 => ⟨S_, .f32⟩
  | 9 => ⟨S325, .f32⟩
  | 10 => ⟨S325x1, .f32⟩
  | 11 => ⟨S325x16, .f32⟩
  | 12 => ⟨S325x16, .f32⟩
  | 13 => ⟨S5200, .f32⟩
  | 14 => ⟨S_, .f32⟩
  | 15 => ⟨S105625, .f32⟩
  | 16 => ⟨S_, .i32⟩
  | 17 => ⟨S5200, .i32⟩
  | 18 => ⟨S5200, .i1⟩
  | 19 => ⟨S_, .i32⟩
  | 20 => ⟨S5200, .i32⟩
  | 21 => ⟨S5200, .i32⟩
  | 22 => ⟨S5200, .i32⟩
  | 23 => ⟨S5200x1, .i32⟩
  | 24 => ⟨S105625, .f32⟩
  | 25 => ⟨S325x325, .f32⟩
  | 26 => ⟨S1x5x256, .f32⟩
  | 27 => ⟨S5x256, .f32⟩
  | 28 => ⟨S5200x256, .f32⟩
  | 29 => ⟨S1x256, .f32⟩
  | 30 => ⟨S256, .f32⟩
  | 31 => ⟨S1x256, .f32⟩
  | 32 => ⟨S5200x256, .f32⟩
  | 33 => ⟨S5200x256, .f32⟩
  | 34 => ⟨S5200x256, .f32⟩
  | 35 => ⟨S1x256x1, .f32⟩
  | 36 => ⟨S256x1, .f32⟩
  | 37 => ⟨S5200x1, .f32⟩
  | 38 => ⟨S1x1, .f32⟩
  | 39 => ⟨S1, .f32⟩
  | 40 => ⟨S1x1, .f32⟩
  | 41 => ⟨S5200x1, .f32⟩
  | 42 => ⟨S5200x1, .f32⟩
  | 43 => ⟨S325x16, .f32⟩
  | 44 => ⟨S_, .f32⟩
  | 45 => ⟨S325, .f32⟩
  | 46 => ⟨S_, .f32⟩
  | 47 => ⟨S325, .f32⟩
  | 48 => ⟨S325, .f32⟩
  | 49 => ⟨S325x1, .f32⟩
  | 50 => ⟨S325x16, .f32⟩
  | 51 => ⟨S325x16, .f32⟩
  | 52 => ⟨S325x16, .f32⟩
  | 53 => ⟨S_, .f32⟩
  | 54 => ⟨S325, .f32⟩
  | 55 => ⟨S325x1, .f32⟩
  | 56 => ⟨S325x16, .f32⟩
  | 57 => ⟨S325x16, .f32⟩
  | 58 => ⟨S5200, .f32⟩
  | 59 => ⟨S_, .f32⟩
  | 60 => ⟨S105625, .f32⟩
  | 61 => ⟨S_, .i32⟩
  | 62 => ⟨S5200, .i32⟩
  | 63 => ⟨S5200, .i1⟩
  | 64 => ⟨S_, .i32⟩
  | 65 => ⟨S5200, .i32⟩
  | 66 => ⟨S5200, .i32⟩
  | 67 => ⟨S5200, .i32⟩
  | 68 => ⟨S5200x1, .i32⟩
  | 69 => ⟨S105625, .f32⟩
  | 70 => ⟨S325x325, .f32⟩
  | 71 => ⟨S1x5x256, .f32⟩
  | 72 => ⟨S5x256, .f32⟩
  | 73 => ⟨S5200x256, .f32⟩
  | 74 => ⟨S1x256, .f32⟩
  | 75 => ⟨S256, .f32⟩
  | 76 => ⟨S1x256, .f32⟩
  | 77 => ⟨S5200x256, .f32⟩
  | 78 => ⟨S5200x256, .f32⟩
  | 79 => ⟨S5200x256, .f32⟩
  | 80 => ⟨S1x256x1, .f32⟩
  | 81 => ⟨S256x1, .f32⟩
  | 82 => ⟨S5200x1, .f32⟩
  | 83 => ⟨S1x1, .f32⟩
  | 84 => ⟨S1, .f32⟩
  | 85 => ⟨S1x1, .f32⟩
  | 86 => ⟨S5200x1, .f32⟩
  | 87 => ⟨S5200x1, .f32⟩
  | 88 => ⟨S325x16, .f32⟩
  | 89 => ⟨S_, .f32⟩
  | 90 => ⟨S325, .f32⟩
  | 91 => ⟨S_, .f32⟩
  | 92 => ⟨S325, .f32⟩
  | 93 => ⟨S325, .f32⟩
  | 94 => ⟨S325x1, .f32⟩
  | 95 => ⟨S325x16, .f32⟩
  | 96 => ⟨S325x16, .f32⟩
  | 97 => ⟨S325x16, .f32⟩
  | 98 => ⟨S_, .f32⟩
  | 99 => ⟨S325, .f32⟩
  | 100 => ⟨S325x1, .f32⟩
  | 101 => ⟨S325x16, .f32⟩
  | 102 => ⟨S325x16, .f32⟩
  | 103 => ⟨S5200, .f32⟩
  | 104 => ⟨S_, .f32⟩
  | 105 => ⟨S105625, .f32⟩
  | 106 => ⟨S_, .i32⟩
  | 107 => ⟨S5200, .i32⟩
  | 108 => ⟨S5200, .i1⟩
  | 109 => ⟨S_, .i32⟩
  | 110 => ⟨S5200, .i32⟩
  | 111 => ⟨S5200, .i32⟩
  | 112 => ⟨S5200, .i32⟩
  | 113 => ⟨S5200x1, .i32⟩
  | 114 => ⟨S105625, .f32⟩
  | 115 => ⟨S325x325, .f32⟩
  | 116 => ⟨S1x5x256, .f32⟩
  | 117 => ⟨S5x256, .f32⟩
  | 118 => ⟨S5200x256, .f32⟩
  | 119 => ⟨S1x256, .f32⟩
  | 120 => ⟨S256, .f32⟩
  | 121 => ⟨S1x256, .f32⟩
  | 122 => ⟨S5200x256, .f32⟩
  | 123 => ⟨S5200x256, .f32⟩
  | 124 => ⟨S5200x256, .f32⟩
  | 125 => ⟨S1x256x1, .f32⟩
  | 126 => ⟨S256x1, .f32⟩
  | 127 => ⟨S5200x1, .f32⟩
  | _ => ⟨S16x24x325, .f32⟩

abbrev hbmTy0_13 (i : Nat) : BufTy := match i % 128 with
  | 0 => ⟨S1x1, .f32⟩
  | 1 => ⟨S1, .f32⟩
  | 2 => ⟨S1x1, .f32⟩
  | 3 => ⟨S5200x1, .f32⟩
  | 4 => ⟨S5200x1, .f32⟩
  | 5 => ⟨S325x16, .f32⟩
  | 6 => ⟨S_, .f32⟩
  | 7 => ⟨S325, .f32⟩
  | 8 => ⟨S_, .f32⟩
  | 9 => ⟨S325, .f32⟩
  | 10 => ⟨S325, .f32⟩
  | 11 => ⟨S325x1, .f32⟩
  | 12 => ⟨S325x16, .f32⟩
  | 13 => ⟨S325x16, .f32⟩
  | 14 => ⟨S325x16, .f32⟩
  | 15 => ⟨S_, .f32⟩
  | 16 => ⟨S325, .f32⟩
  | 17 => ⟨S325x1, .f32⟩
  | 18 => ⟨S325x16, .f32⟩
  | 19 => ⟨S325x16, .f32⟩
  | 20 => ⟨S5200, .f32⟩
  | 21 => ⟨S_, .f32⟩
  | 22 => ⟨S105625, .f32⟩
  | 23 => ⟨S_, .i32⟩
  | 24 => ⟨S5200, .i32⟩
  | 25 => ⟨S5200, .i1⟩
  | 26 => ⟨S_, .i32⟩
  | 27 => ⟨S5200, .i32⟩
  | 28 => ⟨S5200, .i32⟩
  | 29 => ⟨S5200, .i32⟩
  | 30 => ⟨S5200x1, .i32⟩
  | 31 => ⟨S105625, .f32⟩
  | 32 => ⟨S325x325, .f32⟩
  | 33 => ⟨S1x5x256, .f32⟩
  | 34 => ⟨S5x256, .f32⟩
  | 35 => ⟨S5200x256, .f32⟩
  | 36 => ⟨S1x256, .f32⟩
  | 37 => ⟨S256, .f32⟩
  | 38 => ⟨S1x256, .f32⟩
  | 39 => ⟨S5200x256, .f32⟩
  | 40 => ⟨S5200x256, .f32⟩
  | 41 => ⟨S5200x256, .f32⟩
  | 42 => ⟨S1x256x1, .f32⟩
  | 43 => ⟨S256x1, .f32⟩
  | 44 => ⟨S5200x1, .f32⟩
  | 45 => ⟨S1x1, .f32⟩
  | 46 => ⟨S1, .f32⟩
  | 47 => ⟨S1x1, .f32⟩
  | 48 => ⟨S5200x1, .f32⟩
  | 49 => ⟨S5200x1, .f32⟩
  | 50 => ⟨S325x16, .f32⟩
  | 51 => ⟨S_, .f32⟩
  | 52 => ⟨S325, .f32⟩
  | 53 => ⟨S_, .f32⟩
  | 54 => ⟨S325, .f32⟩
  | 55 => ⟨S325, .f32⟩
  | 56 => ⟨S325x1, .f32⟩
  | 57 => ⟨S325x16, .f32⟩
  | 58 => ⟨S325x16, .f32⟩
  | 59 => ⟨S325x16, .f32⟩
  | 60 => ⟨S_, .f32⟩
  | 61 => ⟨S325, .f32⟩
  | 62 => ⟨S325x1, .f32⟩
  | 63 => ⟨S325x16, .f32⟩
  | 64 => ⟨S325x16, .f32⟩
  | 65 => ⟨S5200, .f32⟩
  | 66 => ⟨S_, .f32⟩
  | 67 => ⟨S105625, .f32⟩
  | 68 => ⟨S_, .i32⟩
  | 69 => ⟨S5200, .i32⟩
  | 70 => ⟨S5200, .i1⟩
  | 71 => ⟨S_, .i32⟩
  | 72 => ⟨S5200, .i32⟩
  | 73 => ⟨S5200, .i32⟩
  | 74 => ⟨S5200, .i32⟩
  | 75 => ⟨S5200x1, .i32⟩
  | 76 => ⟨S105625, .f32⟩
  | 77 => ⟨S325x325, .f32⟩
  | 78 => ⟨S1x5x256, .f32⟩
  | 79 => ⟨S5x256, .f32⟩
  | 80 => ⟨S5200x256, .f32⟩
  | 81 => ⟨S1x256, .f32⟩
  | 82 => ⟨S256, .f32⟩
  | 83 => ⟨S1x256, .f32⟩
  | 84 => ⟨S5200x256, .f32⟩
  | 85 => ⟨S5200x256, .f32⟩
  | 86 => ⟨S5200x256, .f32⟩
  | 87 => ⟨S1x256x1, .f32⟩
  | 88 => ⟨S256x1, .f32⟩
  | 89 => ⟨S5200x1, .f32⟩
  | 90 => ⟨S1x1, .f32⟩
  | 91 => ⟨S1, .f32⟩
  | 92 => ⟨S1x1, .f32⟩
  | 93 => ⟨S5200x1, .f32⟩
  | 94 => ⟨S5200x1, .f32⟩
  | 95 => ⟨S325x16, .f32⟩
  | 96 => ⟨S_, .f32⟩
  | 97 => ⟨S325, .f32⟩
  | 98 => ⟨S_, .f32⟩
  | 99 => ⟨S325, .f32⟩
  | 100 => ⟨S325, .f32⟩
  | 101 => ⟨S325x1, .f32⟩
  | 102 => ⟨S325x16, .f32⟩
  | 103 => ⟨S325x16, .f32⟩
  | 104 => ⟨S325x16, .f32⟩
  | 105 => ⟨S_, .f32⟩
  | 106 => ⟨S325, .f32⟩
  | 107 => ⟨S325x1, .f32⟩
  | 108 => ⟨S325x16, .f32⟩
  | 109 => ⟨S325x16, .f32⟩
  | 110 => ⟨S5200, .f32⟩
  | 111 => ⟨S_, .f32⟩
  | 112 => ⟨S105625, .f32⟩
  | 113 => ⟨S_, .i32⟩
  | 114 => ⟨S5200, .i32⟩
  | 115 => ⟨S5200, .i1⟩
  | 116 => ⟨S_, .i32⟩
  | 117 => ⟨S5200, .i32⟩
  | 118 => ⟨S5200, .i32⟩
  | 119 => ⟨S5200, .i32⟩
  | 120 => ⟨S5200x1, .i32⟩
  | 121 => ⟨S105625, .f32⟩
  | 122 => ⟨S325x325, .f32⟩
  | 123 => ⟨S1x5x256, .f32⟩
  | 124 => ⟨S5x256, .f32⟩
  | 125 => ⟨S5200x256, .f32⟩
  | 126 => ⟨S1x256, .f32⟩
  | 127 => ⟨S256, .f32⟩
  | _ => ⟨S16x24x325, .f32⟩

abbrev hbmTy0_14 (i : Nat) : BufTy := match i % 128 with
  | 0 => ⟨S1x256, .f32⟩
  | 1 => ⟨S5200x256, .f32⟩
  | 2 => ⟨S5200x256, .f32⟩
  | 3 => ⟨S5200x256, .f32⟩
  | 4 => ⟨S1x256x1, .f32⟩
  | 5 => ⟨S256x1, .f32⟩
  | 6 => ⟨S5200x1, .f32⟩
  | 7 => ⟨S1x1, .f32⟩
  | 8 => ⟨S1, .f32⟩
  | 9 => ⟨S1x1, .f32⟩
  | 10 => ⟨S5200x1, .f32⟩
  | 11 => ⟨S5200x1, .f32⟩
  | 12 => ⟨S325x16, .f32⟩
  | 13 => ⟨S_, .f32⟩
  | 14 => ⟨S325, .f32⟩
  | 15 => ⟨S_, .f32⟩
  | 16 => ⟨S325, .f32⟩
  | 17 => ⟨S325, .f32⟩
  | 18 => ⟨S325x1, .f32⟩
  | 19 => ⟨S325x16, .f32⟩
  | 20 => ⟨S325x16, .f32⟩
  | 21 => ⟨S325x16, .f32⟩
  | 22 => ⟨S_, .f32⟩
  | 23 => ⟨S325, .f32⟩
  | 24 => ⟨S325x1, .f32⟩
  | 25 => ⟨S325x16, .f32⟩
  | 26 => ⟨S325x16, .f32⟩
  | 27 => ⟨S5200, .f32⟩
  | 28 => ⟨S_, .f32⟩
  | 29 => ⟨S105625, .f32⟩
  | 30 => ⟨S_, .i32⟩
  | 31 => ⟨S5200, .i32⟩
  | 32 => ⟨S5200, .i1⟩
  | 33 => ⟨S_, .i32⟩
  | 34 => ⟨S5200, .i32⟩
  | 35 => ⟨S5200, .i32⟩
  | 36 => ⟨S5200, .i32⟩
  | 37 => ⟨S5200x1, .i32⟩
  | 38 => ⟨S105625, .f32⟩
  | 39 => ⟨S325x325, .f32⟩
  | 40 => ⟨S16x325x160, .f32⟩
  | 41 => ⟨S_, .f32⟩
  | 42 => ⟨S16x325x64, .f32⟩
  | 43 => ⟨S16x160x325, .f32⟩
  | 44 => ⟨S16x325x160, .f32⟩
  | 45 => ⟨S1x160x64, .f32⟩
  | 46 => ⟨S160x64, .f32⟩
  | 47 => ⟨S16x325x64, .f32⟩
  | 48 => ⟨S16x325x64, .f32⟩
  | 49 => ⟨S16x160x325, .f32⟩
  | 50 => ⟨S16x325x160, .f32⟩
  | 51 => ⟨S1x160x64, .f32⟩
  | 52 => ⟨S160x64, .f32⟩
  | 53 => ⟨S16x325x64, .f32⟩
  | 54 => ⟨S16x325x64, .f32⟩
  | 55 => ⟨S16x160x325, .f32⟩
  | 56 => ⟨S16x325x160, .f32⟩
  | 57 => ⟨S1x160x64, .f32⟩
  | 58 => ⟨S160x64, .f32⟩
  | 59 => ⟨S16x325x64, .f32⟩
  | 60 => ⟨S16x325x64, .f32⟩
  | 61 => ⟨S16x160x325, .f32⟩
  | 62 => ⟨S16x325x160, .f32⟩
  | 63 => ⟨S1x160x64, .f32⟩
  | 64 => ⟨S160x64, .f32⟩
  | 65 => ⟨S16x325x64, .f32⟩
  | 66 => ⟨S16x325x64, .f32⟩
  | 67 => ⟨S1x1x64, .f32⟩
  | 68 => ⟨S16x325x64, .f32⟩
  | 69 => ⟨S16x325x64, .f32⟩
  | 70 => ⟨S_, .f32⟩
  | 71 => ⟨S64, .f32⟩
  | 72 => ⟨S_, .f32⟩
  | 73 => ⟨S64, .f32⟩
  | 74 => ⟨S64, .f32⟩
  | 75 => ⟨S_, .i32⟩
  | 76 => ⟨S_, .f32⟩
  | 77 => ⟨S64, .f32⟩
  | 78 => ⟨S1x1x64, .f32⟩
  | 79 => ⟨S_, .f32⟩
  | 80 => ⟨S1x1x64, .f32⟩
  | 81 => ⟨S1x1x64, .f32⟩
  | 82 => ⟨S16x325x64, .f32⟩
  | 83 => ⟨S16x325x64, .f32⟩
  | 84 => ⟨S16x325x64, .f32⟩
  | 85 => ⟨S_, .f32⟩
  | 86 => ⟨S_, .f32⟩
  | 87 => ⟨S_, .f32⟩
  | 88 => ⟨S_, .f32⟩
  | 89 => ⟨S64, .f32⟩
  | 90 => ⟨S64, .f32⟩
  | 91 => ⟨S64, .f32⟩
  | 92 => ⟨S_, .f32⟩
  | 93 => ⟨S_, .i1⟩
  | 94 => ⟨S_, .f32⟩
  | 95 => ⟨S_, .f32⟩
  | 96 => ⟨S64, .f32⟩
  | 97 => ⟨S64, .f32⟩
  | 98 => ⟨S1x1x64, .f32⟩
  | 99 => ⟨S16x325x64, .f32⟩
  | 100 => ⟨S16x325x64, .f32⟩
  | 101 => ⟨S_, .f32⟩
  | 102 => ⟨S64, .f32⟩
  | 103 => ⟨S64, .f32⟩
  | 104 => ⟨S64, .f32⟩
  | 105 => ⟨S1x1x64, .f32⟩
  | 106 => ⟨S16x325x64, .f32⟩
  | 107 => ⟨S16x325x64, .f32⟩
  | 108 => ⟨S1x64, .f32⟩
  | 109 => ⟨S64, .f32⟩
  | 110 => ⟨S1x1x64, .f32⟩
  | 111 => ⟨S16x325x64, .f32⟩
  | 112 => ⟨S16x325x64, .f32⟩
  | 113 => ⟨S1x64, .f32⟩
  | 114 => ⟨S64, .f32⟩
  | 115 => ⟨S1x1x64, .f32⟩
  | 116 => ⟨S16x325x64, .f32⟩
  | 117 => ⟨S16x325x64, .f32⟩
  | 118 => ⟨S_, .f32⟩
  | 119 => ⟨S16x325x64, .f32⟩
  | 120 => ⟨S16x325x64, .f32⟩
  | 121 => ⟨S1x4x64x64, .f32⟩
  | 122 => ⟨S4x64x64, .f32⟩
  | 123 => ⟨S1x64, .f32⟩
  | 124 => ⟨S64, .f32⟩
  | 125 => ⟨S_, .f32⟩
  | 126 => ⟨S16x325x64, .f32⟩
  | 127 => ⟨S16x64x325, .f32⟩
  | _ => ⟨S16x24x325, .f32⟩

abbrev hbmTy0_15 (i : Nat) : BufTy := match i % 128 with
  | 0 => ⟨S16x325x64, .f32⟩
  | 1 => ⟨S1x64x64, .f32⟩
  | 2 => ⟨S64x64, .f32⟩
  | 3 => ⟨S16x325x64, .f32⟩
  | 4 => ⟨S16x325x64, .f32⟩
  | 5 => ⟨S16x64x325, .f32⟩
  | 6 => ⟨S16x325x64, .f32⟩
  | 7 => ⟨S1x64x64, .f32⟩
  | 8 => ⟨S64x64, .f32⟩
  | 9 => ⟨S16x325x64, .f32⟩
  | 10 => ⟨S16x325x64, .f32⟩
  | 11 => ⟨S16x64x325, .f32⟩
  | 12 => ⟨S16x325x64, .f32⟩
  | 13 => ⟨S1x64x64, .f32⟩
  | 14 => ⟨S64x64, .f32⟩
  | 15 => ⟨S16x325x64, .f32⟩
  | 16 => ⟨S16x325x64, .f32⟩
  | 17 => ⟨S16x64x325, .f32⟩
  | 18 => ⟨S16x325x64, .f32⟩
  | 19 => ⟨S1x64x64, .f32⟩
  | 20 => ⟨S64x64, .f32⟩
  | 21 => ⟨S16x325x64, .f32⟩
  | 22 => ⟨S16x325x64, .f32⟩
  | 23 => ⟨S1x1x64, .f32⟩
  | 24 => ⟨S16x325x64, .f32⟩
  | 25 => ⟨S16x325x64, .f32⟩
  | 26 => ⟨S_, .f32⟩
  | 27 => ⟨S64, .f32⟩
  | 28 => ⟨S_, .f32⟩
  | 29 => ⟨S64, .f32⟩
  | 30 => ⟨S64, .f32⟩
  | 31 => ⟨S_, .i32⟩
  | 32 => ⟨S_, .f32⟩
  | 33 => ⟨S64, .f32⟩
  | 34 => ⟨S1x1x64, .f32⟩
  | 35 => ⟨S_, .f32⟩
  | 36 => ⟨S1x1x64, .f32⟩
  | 37 => ⟨S1x1x64, .f32⟩
  | 38 => ⟨S16x325x64, .f32⟩
  | 39 => ⟨S16x325x64, .f32⟩
  | 40 => ⟨S16x325x64, .f32⟩
  | 41 => ⟨S_, .f32⟩
  | 42 => ⟨S_, .f32⟩
  | 43 => ⟨S_, .f32⟩
  | 44 => ⟨S_, .f32⟩
  | 45 => ⟨S64, .f32⟩
  | 46 => ⟨S64, .f32⟩
  | 47 => ⟨S64, .f32⟩
  | 48 => ⟨S_, .f32⟩
  | 49 => ⟨S_, .i1⟩
  | 50 => ⟨S_, .f32⟩
  | 51 => ⟨S_, .f32⟩
  | 52 => ⟨S64, .f32⟩
  | 53 => ⟨S64, .f32⟩
  | 54 => ⟨S1x1x64, .f32⟩
  | 55 => ⟨S16x325x64, .f32⟩
  | 56 => ⟨S16x325x64, .f32⟩
  | 57 => ⟨S_, .f32⟩
  | 58 => ⟨S64, .f32⟩
  | 59 => ⟨S64, .f32⟩
  | 60 => ⟨S64, .f32⟩
  | 61 => ⟨S1x1x64, .f32⟩
  | 62 => ⟨S16x325x64, .f32⟩
  | 63 => ⟨S16x325x64, .f32⟩
  | 64 => ⟨S1x64, .f32⟩
  | 65 => ⟨S64, .f32⟩
  | 66 => ⟨S1x1x64, .f32⟩
  | 67 => ⟨S16x325x64, .f32⟩
  | 68 => ⟨S16x325x64, .f32⟩
  | 69 => ⟨S1x64, .f32⟩
  | 70 => ⟨S64, .f32⟩
  | 71 => ⟨S1x1x64, .f32⟩
  | 72 => ⟨S16x325x64, .f32⟩
  | 73 => ⟨S16x325x64, .f32⟩
  | 74 => ⟨S_, .f32⟩
  | 75 => ⟨S16x325x64, .f32⟩
  | 76 => ⟨S16x325x64, .f32⟩
  | 77 => ⟨S1x4x64x64, .f32⟩
  | 78 => ⟨S4x64x64, .f32⟩
  | 79 => ⟨S1x64, .f32⟩
  | 80 => ⟨S64, .f32⟩
  | 81 => ⟨S_, .f32⟩
  | 82 => ⟨S16x325x64, .f32⟩
  | 83 => ⟨S16x64x325, .f32⟩
  | 84 => ⟨S16x325x64, .f32⟩
  | 85 => ⟨S1x64x64, .f32⟩
  | 86 => ⟨S64x64, .f32⟩
  | 87 => ⟨S16x325x64, .f32⟩
  | 88 => ⟨S16x325x64, .f32⟩
  | 89 => ⟨S16x64x325, .f32⟩
  | 90 => ⟨S16x325x64, .f32⟩
  | 91 => ⟨S1x64x64, .f32⟩
  | 92 => ⟨S64x64, .f32⟩
  | 93 => ⟨S16x325x64, .f32⟩
  | 94 => ⟨S16x325x64, .f32⟩
  | 95 => ⟨S16x64x325, .f32⟩
  | 96 => ⟨S16x325x64, .f32⟩
  | 97 => ⟨S1x64x64, .f32⟩
  | 98 => ⟨S64x64, .f32⟩
  | 99 => ⟨S16x325x64, .f32⟩
  | 100 => ⟨S16x325x64, .f32⟩
  | 101 => ⟨S16x64x325, .f32⟩
  | 102 => ⟨S16x325x64, .f32⟩
  | 103 => ⟨S1x64x64, .f32⟩
  | 104 => ⟨S64x64, .f32⟩
  | 105 => ⟨S16x325x64, .f32⟩
  | 106 => ⟨S16x325x64, .f32⟩
  | 107 => ⟨S1x1x64, .f32⟩
  | 108 => ⟨S16x325x64, .f32⟩
  | 109 => ⟨S16x325x64, .f32⟩
  | 110 => ⟨S_, .f32⟩
  | 111 => ⟨S64, .f32⟩
  | 112 => ⟨S_, .f32⟩
  | 113 => ⟨S64, .f32⟩
  | 114 => ⟨S64, .f32⟩
  | 115 => ⟨S_, .i32⟩
  | 116 => ⟨S_, .f32⟩
  | 117 => ⟨S64, .f32⟩
  | 118 => ⟨S1x1x64, .f32⟩
  | 119 => ⟨S_, .f32⟩
  | 120 => ⟨S1x1x64, .f32⟩
  | 121 => ⟨S1x1x64, .f32⟩
  | 122 => ⟨S16x325x64, .f32⟩
  | 123 => ⟨S16x325x64, .f32⟩
  | 124 => ⟨S16x325x64, .f32⟩
  | 125 => ⟨S_, .f32⟩
  | 126 => ⟨S_, .f32⟩
  | 127 => ⟨S_, .f32⟩
  | _ => ⟨S16x24x325, .f32⟩

abbrev hbmTy0_16 (i : Nat) : BufTy := match i % 128 with
  | 0 => ⟨S_, .f32⟩
  | 1 => ⟨S64, .f32⟩
  | 2 => ⟨S64, .f32⟩
  | 3 => ⟨S64, .f32⟩
  | 4 => ⟨S_, .f32⟩
  | 5 => ⟨S_, .i1⟩
  | 6 => ⟨S_, .f32⟩
  | 7 => ⟨S_, .f32⟩
  | 8 => ⟨S64, .f32⟩
  | 9 => ⟨S64, .f32⟩
  | 10 => ⟨S1x1x64, .f32⟩
  | 11 => ⟨S16x325x64, .f32⟩
  | 12 => ⟨S16x325x64, .f32⟩
  | 13 => ⟨S_, .f32⟩
  | 14 => ⟨S64, .f32⟩
  | 15 => ⟨S64, .f32⟩
  | 16 => ⟨S64, .f32⟩
  | 17 => ⟨S1x1x64, .f32⟩
  | 18 => ⟨S16x325x64, .f32⟩
  | 19 => ⟨S16x325x64, .f32⟩
  | 20 => ⟨S1x64, .f32⟩
  | 21 => ⟨S64, .f32⟩
  | 22 => ⟨S1x1x64, .f32⟩
  | 23 => ⟨S16x325x64, .f32⟩
  | 24 => ⟨S16x325x64, .f32⟩
  | 25 => ⟨S1x64, .f32⟩
  | 26 => ⟨S64, .f32⟩
  | 27 => ⟨S1x1x64, .f32⟩
  | 28 => ⟨S16x325x64, .f32⟩
  | 29 => ⟨S16x325x64, .f32⟩
  | 30 => ⟨S_, .f32⟩
  | 31 => ⟨S16x325x64, .f32⟩
  | 32 => ⟨S16x325x64, .f32⟩
  | 33 => ⟨S1x4x64x64, .f32⟩
  | 34 => ⟨S4x64x64, .f32⟩
  | 35 => ⟨S1x64, .f32⟩
  | 36 => ⟨S64, .f32⟩
  | 37 => ⟨S_, .f32⟩
  | 38 => ⟨S16x325x64, .f32⟩
  | 39 => ⟨S16x64x325, .f32⟩
  | 40 => ⟨S16x325x64, .f32⟩
  | 41 => ⟨S1x64x64, .f32⟩
  | 42 => ⟨S64x64, .f32⟩
  | 43 => ⟨S16x325x64, .f32⟩
  | 44 => ⟨S16x325x64, .f32⟩
  | 45 => ⟨S16x64x325, .f32⟩
  | 46 => ⟨S16x325x64, .f32⟩
  | 47 => ⟨S1x64x64, .f32⟩
  | 48 => ⟨S64x64, .f32⟩
  | 49 => ⟨S16x325x64, .f32⟩
  | 50 => ⟨S16x325x64, .f32⟩
  | 51 => ⟨S16x64x325, .f32⟩
  | 52 => ⟨S16x325x64, .f32⟩
  | 53 => ⟨S1x64x64, .f32⟩
  | 54 => ⟨S64x64, .f32⟩
  | 55 => ⟨S16x325x64, .f32⟩
  | 56 => ⟨S16x325x64, .f32⟩
  | 57 => ⟨S16x64x325, .f32⟩
  | 58 => ⟨S16x325x64, .f32⟩
  | 59 => ⟨S1x64x64, .f32⟩
  | 60 => ⟨S64x64, .f32⟩
  | 61 => ⟨S16x325x64, .f32⟩
  | 62 => ⟨S16x325x64, .f32⟩
  | 63 => ⟨S1x1x64, .f32⟩
  | 64 => ⟨S16x325x64, .f32⟩
  | 65 => ⟨S16x325x64, .f32⟩
  | 66 => ⟨S_, .f32⟩
  | 67 => ⟨S64, .f32⟩
  | 68 => ⟨S_, .f32⟩
  | 69 => ⟨S64, .f32⟩
  | 70 => ⟨S64, .f32⟩
  | 71 => ⟨S_, .i32⟩
  | 72 => ⟨S_, .f32⟩
  | 73 => ⟨S64, .f32⟩
  | 74 => ⟨S1x1x64, .f32⟩
  | 75 => ⟨S_, .f32⟩
  | 76 => ⟨S1x1x64, .f32⟩
  | 77 => ⟨S1x1x64, .f32⟩
  | 78 => ⟨S16x325x64, .f32⟩
  | 79 => ⟨S16x325x64, .f32⟩
  | 80 => ⟨S16x325x64, .f32⟩
  | 81 => ⟨S_, .f32⟩
  | 82 => ⟨S_, .f32⟩
  | 83 => ⟨S_, .f32⟩
  | 84 => ⟨S_, .f32⟩
  | 85 => ⟨S64, .f32⟩
  | 86 => ⟨S64, .f32⟩
  | 87 => ⟨S64, .f32⟩
  | 88 => ⟨S_, .f32⟩
  | 89 => ⟨S_, .i1⟩
  | 90 => ⟨S_, .f32⟩
  | 91 => ⟨S_, .f32⟩
  | 92 => ⟨S64, .f32⟩
  | 93 => ⟨S64, .f32⟩
  | 94 => ⟨S1x1x64, .f32⟩
  | 95 => ⟨S16x325x64, .f32⟩
  | 96 => ⟨S16x325x64, .f32⟩
  | 97 => ⟨S_, .f32⟩
  | 98 => ⟨S64, .f32⟩
  | 99 => ⟨S64, .f32⟩
  | 100 => ⟨S64, .f32⟩
  | 101 => ⟨S1x1x64, .f32⟩
  | 102 => ⟨S16x325x64, .f32⟩
  | 103 => ⟨S16x325x64, .f32⟩
  | 104 => ⟨S1x64, .f32⟩
  | 105 => ⟨S64, .f32⟩
  | 106 => ⟨S1x1x64, .f32⟩
  | 107 => ⟨S16x325x64, .f32⟩
  | 108 => ⟨S16x325x64, .f32⟩
  | 109 => ⟨S1x64, .f32⟩
  | 110 => ⟨S64, .f32⟩
  | 111 => ⟨S1x1x64, .f32⟩
  | 112 => ⟨S16x325x64, .f32⟩
  | 113 => ⟨S16x325x64, .f32⟩
  | 114 => ⟨S_, .f32⟩
  | 115 => ⟨S16x325x64, .f32⟩
  | 116 => ⟨S16x325x64, .f32⟩
  | 117 => ⟨S1x4x64x64, .f32⟩
  | 118 => ⟨S4x64x64, .f32⟩
  | 119 => ⟨S1x64, .f32⟩
  | 120 => ⟨S64, .f32⟩
  | 121 => ⟨S_, .f32⟩
  | 122 => ⟨S16x325x64, .f32⟩
  | 123 => ⟨S16x64x325, .f32⟩
  | 124 => ⟨S16x325x64, .f32⟩
  | 125 => ⟨S1x64x64, .f32⟩
  | 126 => ⟨S64x64, .f32⟩
  | 127 => ⟨S16x325x64, .f32⟩
  | _ => ⟨S16x24x325, .f32⟩

abbrev hbmTy0_17 (i : Nat) : BufTy := match i % 128 with
  | 0 => ⟨S16x325x64, .f32⟩
  | 1 => ⟨S16x64x325, .f32⟩
  | 2 => ⟨S16x325x64, .f32⟩
  | 3 => ⟨S1x64x64, .f32⟩
  | 4 => ⟨S64x64, .f32⟩
  | 5 => ⟨S16x325x64, .f32⟩
  | 6 => ⟨S16x325x64, .f32⟩
  | 7 => ⟨S16x64x325, .f32⟩
  | 8 => ⟨S16x325x64, .f32⟩
  | 9 => ⟨S1x64x64, .f32⟩
  | 10 => ⟨S64x64, .f32⟩
  | 11 => ⟨S16x325x64, .f32⟩
  | 12 => ⟨S16x325x64, .f32⟩
  | 13 => ⟨S16x64x325, .f32⟩
  | 14 => ⟨S16x325x64, .f32⟩
  | 15 => ⟨S1x64x64, .f32⟩
  | 16 => ⟨S64x64, .f32⟩
  | 17 => ⟨S16x325x64, .f32⟩
  | 18 => ⟨S16x325x64, .f32⟩
  | 19 => ⟨S1x1x64, .f32⟩
  | 20 => ⟨S16x325x64, .f32⟩
  | 21 => ⟨S16x325x64, .f32⟩
  | 22 => ⟨S_, .f32⟩
  | 23 => ⟨S64, .f32⟩
  | 24 => ⟨S_, .f32⟩
  | 25 => ⟨S64, .f32⟩
  | 26 => ⟨S64, .f32⟩
  | 27 => ⟨S_, .i32⟩
  | 28 => ⟨S_, .f32⟩
  | 29 => ⟨S64, .f32⟩
  | 30 => ⟨S1x1x64, .f32⟩
  | 31 => ⟨S_, .f32⟩
  | 32 => ⟨S1x1x64, .f32⟩
  | 33 => ⟨S1x1x64, .f32⟩
  | 34 => ⟨S16x325x64, .f32⟩
  | 35 => ⟨S16x325x64, .f32⟩
  | 36 => ⟨S16x325x64, .f32⟩
  | 37 => ⟨S_, .f32⟩
  | 38 => ⟨S_, .f32⟩
  | 39 => ⟨S_, .f32⟩
  | 40 => ⟨S_, .f32⟩
  | 41 => ⟨S64, .f32⟩
  | 42 => ⟨S64, .f32⟩
  | 43 => ⟨S64, .f32⟩
  | 44 => ⟨S_, .f32⟩
  | 45 => ⟨S_, .i1⟩
  | 46 => ⟨S_, .f32⟩
  | 47 => ⟨S_, .f32⟩
  | 48 => ⟨S64, .f32⟩
  | 49 => ⟨S64, .f32⟩
  | 50 => ⟨S1x1x64, .f32⟩
  | 51 => ⟨S16x325x64, .f32⟩
  | 52 => ⟨S16x325x64, .f32⟩
  | 53 => ⟨S_, .f32⟩
  | 54 => ⟨S64, .f32⟩
  | 55 => ⟨S64, .f32⟩
  | 56 => ⟨S64, .f32⟩
  | 57 => ⟨S1x1x64, .f32⟩
  | 58 => ⟨S16x325x64, .f32⟩
  | 59 => ⟨S16x325x64, .f32⟩
  | 60 => ⟨S1x64, .f32⟩
  | 61 => ⟨S64, .f32⟩
  | 62 => ⟨S1x1x64, .f32⟩
  | 63 => ⟨S16x325x64, .f32⟩
  | 64 => ⟨S16x325x64, .f32⟩
  | 65 => ⟨S1x64, .f32⟩
  | 66 => ⟨S64, .f32⟩
  | 67 => ⟨S1x1x64, .f32⟩
  | 68 => ⟨S16x325x64, .f32⟩
  | 69 => ⟨S16x325x64, .f32⟩
  | 70 => ⟨S_, .f32⟩
  | 71 => ⟨S16x325x64, .f32⟩
  | 72 => ⟨S16x325x64, .f32⟩
  | 73 => ⟨S1x4x64x64, .f32⟩
  | 74 => ⟨S4x64x64, .f32⟩
  | 75 => ⟨S1x64, .f32⟩
  | 76 => ⟨S64, .f32⟩
  | 77 => ⟨S_, .f32⟩
  | 78 => ⟨S16x325x64, .f32⟩
  | 79 => ⟨S16x64x325, .f32⟩
  | 80 => ⟨S16x325x64, .f32⟩
  | 81 => ⟨S1x64x64, .f32⟩
  | 82 => ⟨S64x64, .f32⟩
  | 83 => ⟨S16x325x64, .f32⟩
  | 84 => ⟨S16x325x64, .f32⟩
  | 85 => ⟨S16x64x325, .f32⟩
  | 86 => ⟨S16x325x64, .f32⟩
  | 87 => ⟨S1x64x64, .f32⟩
  | 88 => ⟨S64x64, .f32⟩
  | 89 => ⟨S16x325x64, .f32⟩
  | 90 => ⟨S16x325x64, .f32⟩
  | 91 => ⟨S16x64x325, .f32⟩
  | 92 => ⟨S16x325x64, .f32⟩
  | 93 => ⟨S1x64x64, .f32⟩
  | 94 => ⟨S64x64, .f32⟩
  | 95 => ⟨S16x325x64, .f32⟩
  | 96 => ⟨S16x325x64, .f32⟩
  | 97 => ⟨S16x64x325, .f32⟩
  | 98 => ⟨S16x325x64, .f32⟩
  | 99 => ⟨S1x64x64, .f32⟩
  | 100 => ⟨S64x64, .f32⟩
  | 101 => ⟨S16x325x64, .f32⟩
  | 102 => ⟨S16x325x64, .f32⟩
  | 103 => ⟨S1x1x64, .f32⟩
  | 104 => ⟨S16x325x64, .f32⟩
  | 105 => ⟨S16x325x64, .f32⟩
  | 106 => ⟨S_, .f32⟩
  | 107 => ⟨S64, .f32⟩
  | 108 => ⟨S_, .f32⟩
  | 109 => ⟨S64, .f32⟩
  | 110 => ⟨S64, .f32⟩
  | 111 => ⟨S_, .i32⟩
  | 112 => ⟨S_, .f32⟩
  | 113 => ⟨S64, .f32⟩
  | 114 => ⟨S1x1x64, .f32⟩
  | 115 => ⟨S_, .f32⟩
  | 116 => ⟨S1x1x64, .f32⟩
  | 117 => ⟨S1x1x64, .f32⟩
  | 118 => ⟨S16x325x64, .f32⟩
  | 119 => ⟨S16x325x64, .f32⟩
  | 120 => ⟨S16x325x64, .f32⟩
  | 121 => ⟨S_, .f32⟩
  | 122 => ⟨S_, .f32⟩
  | 123 => ⟨S_, .f32⟩
  | 124 => ⟨S_, .f32⟩
  | 125 => ⟨S64, .f32⟩
  | 126 => ⟨S64, .f32⟩
  | 127 => ⟨S64, .f32⟩
  | _ => ⟨S16x24x325, .f32⟩

abbrev hbmTy0_18 (i : Nat) : BufTy := match i % 128 with
  | 0 => ⟨S_, .f32⟩
  | 1 => ⟨S_, .i1⟩
  | 2 => ⟨S_, .f32⟩
  | 3 => ⟨S_, .f32⟩
  | 4 => ⟨S64, .f32⟩
  | 5 => ⟨S64, .f32⟩
  | 6 => ⟨S1x1x64, .f32⟩
  | 7 => ⟨S16x325x64, .f32⟩
  | 8 => ⟨S16x325x64, .f32⟩
  | 9 => ⟨S_, .f32⟩
  | 10 => ⟨S64, .f32⟩
  | 11 => ⟨S64, .f32⟩
  | 12 => ⟨S64, .f32⟩
  | 13 => ⟨S1x1x64, .f32⟩
  | 14 => ⟨S16x325x64, .f32⟩
  | 15 => ⟨S16x325x64, .f32⟩
  | 16 => ⟨S1x64, .f32⟩
  | 17 => ⟨S64, .f32⟩
  | 18 => ⟨S1x1x64, .f32⟩
  | 19 => ⟨S16x325x64, .f32⟩
  | 20 => ⟨S16x325x64, .f32⟩
  | 21 => ⟨S1x64, .f32⟩
  | 22 => ⟨S64, .f32⟩
  | 23 => ⟨S1x1x64, .f32⟩
  | 24 => ⟨S16x325x64, .f32⟩
  | 25 => ⟨S16x325x64, .f32⟩
  | 26 => ⟨S_, .f32⟩
  | 27 => ⟨S16x325x64, .f32⟩
  | 28 => ⟨S16x325x64, .f32⟩
  | 29 => ⟨S1x4x64x64, .f32⟩
  | 30 => ⟨S4x64x64, .f32⟩
  | 31 => ⟨S1x64, .f32⟩
  | 32 => ⟨S64, .f32⟩
  | 33 => ⟨S_, .f32⟩
  | 34 => ⟨S16x325x64, .f32⟩
  | 35 => ⟨S16x64x325, .f32⟩
  | 36 => ⟨S16x325x64, .f32⟩
  | 37 => ⟨S1x64x64, .f32⟩
  | 38 => ⟨S64x64, .f32⟩
  | 39 => ⟨S16x325x64, .f32⟩
  | 40 => ⟨S16x325x64, .f32⟩
  | 41 => ⟨S16x64x325, .f32⟩
  | 42 => ⟨S16x325x64, .f32⟩
  | 43 => ⟨S1x64x64, .f32⟩
  | 44 => ⟨S64x64, .f32⟩
  | 45 => ⟨S16x325x64, .f32⟩
  | 46 => ⟨S16x325x64, .f32⟩
  | 47 => ⟨S16x64x325, .f32⟩
  | 48 => ⟨S16x325x64, .f32⟩
  | 49 => ⟨S1x64x64, .f32⟩
  | 50 => ⟨S64x64, .f32⟩
  | 51 => ⟨S16x325x64, .f32⟩
  | 52 => ⟨S16x325x64, .f32⟩
  | 53 => ⟨S16x64x325, .f32⟩
  | 54 => ⟨S16x325x64, .f32⟩
  | 55 => ⟨S1x64x64, .f32⟩
  | 56 => ⟨S64x64, .f32⟩
  | 57 => ⟨S16x325x64, .f32⟩
  | 58 => ⟨S16x325x64, .f32⟩
  | 59 => ⟨S1x1x64, .f32⟩
  | 60 => ⟨S16x325x64, .f32⟩
  | 61 => ⟨S16x325x64, .f32⟩
  | 62 => ⟨S_, .f32⟩
  | 63 => ⟨S64, .f32⟩
  | 64 => ⟨S_, .f32⟩
  | 65 => ⟨S64, .f32⟩
  | 66 => ⟨S64, .f32⟩
  | 67 => ⟨S_, .i32⟩
  | 68 => ⟨S_, .f32⟩
  | 69 => ⟨S64, .f32⟩
  | 70 => ⟨S1x1x64, .f32⟩
  | 71 => ⟨S_, .f32⟩
  | 72 => ⟨S1x1x64, .f32⟩
  | 73 => ⟨S1x1x64, .f32⟩
  | 74 => ⟨S16x325x64, .f32⟩
  | 75 => ⟨S16x325x64, .f32⟩
  | 76 => ⟨S16x325x64, .f32⟩
  | 77 => ⟨S_, .f32⟩
  | 78 => ⟨S_, .f32⟩
  | 79 => ⟨S_, .f32⟩
  | 80 => ⟨S_, .f32⟩
  | 81 => ⟨S64, .f32⟩
  | 82 => ⟨S64, .f32⟩
  | 83 => ⟨S64, .f32⟩
  | 84 => ⟨S_, .f32⟩
  | 85 => ⟨S_, .i1⟩
  | 86 => ⟨S_, .f32⟩
  | 87 => ⟨S_, .f32⟩
  | 88 => ⟨S64, .f32⟩
  | 89 => ⟨S64, .f32⟩
  | 90 => ⟨S1x1x64, .f32⟩
  | 91 => ⟨S16x325x64, .f32⟩
  | 92 => ⟨S16x325x64, .f32⟩
  | 93 => ⟨S_, .f32⟩
  | 94 => ⟨S64, .f32⟩
  | 95 => ⟨S64, .f32⟩
  | 96 => ⟨S64, .f32⟩
  | 97 => ⟨S1x1x64, .f32⟩
  | 98 => ⟨S16x325x64, .f32⟩
  | 99 => ⟨S16x325x64, .f32⟩
  | 100 => ⟨S1x64, .f32⟩
  | 101 => ⟨S64, .f32⟩
  | 102 => ⟨S1x1x64, .f32⟩
  | 103 => ⟨S16x325x64, .f32⟩
  | 104 => ⟨S16x325x64, .f32⟩
  | 105 => ⟨S1x64, .f32⟩
  | 106 => ⟨S64, .f32⟩
  | 107 => ⟨S1x1x64, .f32⟩
  | 108 => ⟨S16x325x64, .f32⟩
  | 109 => ⟨S16x325x64, .f32⟩
  | 110 => ⟨S_, .f32⟩
  | 111 => ⟨S16x325x64, .f32⟩
  | 112 => ⟨S16x325x64, .f32⟩
  | 113 => ⟨S1x4x64x64, .f32⟩
  | 114 => ⟨S4x64x64, .f32⟩
  | 115 => ⟨S1x64, .f32⟩
  | 116 => ⟨S64, .f32⟩
  | 117 => ⟨S_, .f32⟩
  | 118 => ⟨S16x325x64, .f32⟩
  | 119 => ⟨S16x64x325, .f32⟩
  | 120 => ⟨S16x325x64, .f32⟩
  | 121 => ⟨S1x64x64, .f32⟩
  | 122 => ⟨S64x64, .f32⟩
  | 123 => ⟨S16x325x64, .f32⟩
  | 124 => ⟨S16x325x64, .f32⟩
  | 125 => ⟨S16x64x325, .f32⟩
  | 126 => ⟨S16x325x64, .f32⟩
  | 127 => ⟨S1x64x64, .f32⟩
  | _ => ⟨S16x24x325, .f32⟩

abbrev hbmTy0_19 (i : Nat) : BufTy := match i % 128 with
  | 0 => ⟨S64x64, .f32⟩
  | 1 => ⟨S16x325x64, .f32⟩
  | 2 => ⟨S16x325x64, .f32⟩
  | 3 => ⟨S16x64x325, .f32⟩
  | 4 => ⟨S16x325x64, .f32⟩
  | 5 => ⟨S1x64x64, .f32⟩
  | 6 => ⟨S64x64, .f32⟩
  | 7 => ⟨S16x325x64, .f32⟩
  | 8 => ⟨S16x325x64, .f32⟩
  | 9 => ⟨S16x64x325, .f32⟩
  | 10 => ⟨S16x325x64, .f32⟩
  | 11 => ⟨S1x64x64, .f32⟩
  | 12 => ⟨S64x64, .f32⟩
  | 13 => ⟨S16x325x64, .f32⟩
  | 14 => ⟨S16x325x64, .f32⟩
  | 15 => ⟨S1x1x64, .f32⟩
  | 16 => ⟨S16x325x64, .f32⟩
  | 17 => ⟨S16x325x64, .f32⟩
  | 18 => ⟨S_, .f32⟩
  | 19 => ⟨S64, .f32⟩
  | 20 => ⟨S_, .f32⟩
  | 21 => ⟨S64, .f32⟩
  | 22 => ⟨S64, .f32⟩
  | 23 => ⟨S_, .i32⟩
  | 24 => ⟨S_, .f32⟩
  | 25 => ⟨S64, .f32⟩
  | 26 => ⟨S1x1x64, .f32⟩
  | 27 => ⟨S_, .f32⟩
  | 28 => ⟨S1x1x64, .f32⟩
  | 29 => ⟨S1x1x64, .f32⟩
  | 30 => ⟨S16x325x64, .f32⟩
  | 31 => ⟨S16x325x64, .f32⟩
  | 32 => ⟨S16x325x64, .f32⟩
  | 33 => ⟨S_, .f32⟩
  | 34 => ⟨S_, .f32⟩
  | 35 => ⟨S_, .f32⟩
  | 36 => ⟨S_, .f32⟩
  | 37 => ⟨S64, .f32⟩
  | 38 => ⟨S64, .f32⟩
  | 39 => ⟨S64, .f32⟩
  | 40 => ⟨S_, .f32⟩
  | 41 => ⟨S_, .i1⟩
  | 42 => ⟨S_, .f32⟩
  | 43 => ⟨S_, .f32⟩
  | 44 => ⟨S64, .f32⟩
  | 45 => ⟨S64, .f32⟩
  | 46 => ⟨S1x1x64, .f32⟩
  | 47 => ⟨S16x325x64, .f32⟩
  | 48 => ⟨S16x325x64, .f32⟩
  | 49 => ⟨S_, .f32⟩
  | 50 => ⟨S64, .f32⟩
  | 51 => ⟨S64, .f32⟩
  | 52 => ⟨S64, .f32⟩
  | 53 => ⟨S1x1x64, .f32⟩
  | 54 => ⟨S16x325x64, .f32⟩
  | 55 => ⟨S16x325x64, .f32⟩
  | 56 => ⟨S1x64, .f32⟩
  | 57 => ⟨S64, .f32⟩
  | 58 => ⟨S1x1x64, .f32⟩
  | 59 => ⟨S16x325x64, .f32⟩
  | 60 => ⟨S16x325x64, .f32⟩
  | 61 => ⟨S1x64, .f32⟩
  | 62 => ⟨S64, .f32⟩
  | 63 => ⟨S1x1x64, .f32⟩
  | 64 => ⟨S16x325x64, .f32⟩
  | 65 => ⟨S16x325x64, .f32⟩
  | 66 => ⟨S_, .f32⟩
  | 67 => ⟨S16x325x64, .f32⟩
  | 68 => ⟨S16x325x64, .f32⟩
  | 69 => ⟨S1x4x64x64, .f32⟩
  | 70 => ⟨S4x64x64, .f32⟩
  | 71 => ⟨S1x64, .f32⟩
  | 72 => ⟨S64, .f32⟩
  | 73 => ⟨S_, .f32⟩
  | 74 => ⟨S16x325x64, .f32⟩
  | 75 => ⟨S16x64x325, .f32⟩
  | 76 => ⟨S16x325x64, .f32⟩
  | 77 => ⟨S1x64x64, .f32⟩
  | 78 => ⟨S64x64, .f32⟩
  | 79 => ⟨S16x325x64, .f32⟩
  | 80 => ⟨S16x325x64, .f32⟩
  | 81 => ⟨S16x64x325, .f32⟩
  | 82 => ⟨S16x325x64, .f32⟩
  | 83 => ⟨S1x64x64, .f32⟩
  | 84 => ⟨S64x64, .f32⟩
  | 85 => ⟨S16x325x64, .f32⟩
  | 86 => ⟨S16x325x64, .f32⟩
  | 87 => ⟨S16x64x325, .f32⟩
  | 88 => ⟨S16x325x64, .f32⟩
  | 89 => ⟨S1x64x64, .f32⟩
  | 90 => ⟨S64x64, .f32⟩
  | 91 => ⟨S16x325x64, .f32⟩
  | 92 => ⟨S16x325x64, .f32⟩
  | 93 => ⟨S16x64x325, .f32⟩
  | 94 => ⟨S16x325x64, .f32⟩
  | 95 => ⟨S1x64x64, .f32⟩
  | 96 => ⟨S64x64, .f32⟩
  | 97 => ⟨S16x325x64, .f32⟩
  | 98 => ⟨S16x325x64, .f32⟩
  | 99 => ⟨S1x1x64, .f32⟩
  | 100 => ⟨S16x325x64, .f32⟩
  | 101 => ⟨S16x325x64, .f32⟩
  | 102 => ⟨S_, .f32⟩
  | 103 => ⟨S64, .f32⟩
  | 104 => ⟨S_, .f32⟩
  | 105 => ⟨S64, .f32⟩
  | 106 => ⟨S64, .f32⟩
  | 107 => ⟨S_, .i32⟩
  | 108 => ⟨S_, .f32⟩
  | 109 => ⟨S64, .f32⟩
  | 110 => ⟨S1x1x64, .f32⟩
  | 111 => ⟨S_, .f32⟩
  | 112 => ⟨S1x1x64, .f32⟩
  | 113 => ⟨S1x1x64, .f32⟩
  | 114 => ⟨S16x325x64, .f32⟩
  | 115 => ⟨S16x325x64, .f32⟩
  | 116 => ⟨S16x325x64, .f32⟩
  | 117 => ⟨S_, .f32⟩
  | 118 => ⟨S_, .f32⟩
  | 119 => ⟨S_, .f32⟩
  | 120 => ⟨S_, .f32⟩
  | 121 => ⟨S64, .f32⟩
  | 122 => ⟨S64, .f32⟩
  | 123 => ⟨S64, .f32⟩
  | 124 => ⟨S_, .f32⟩
  | 125 => ⟨S_, .i1⟩
  | 126 => ⟨S_, .f32⟩
  | 127 => ⟨S_, .f32⟩
  | _ => ⟨S16x24x325, .f32⟩

abbrev hbmTy0_20 (i : Nat) : BufTy := match i % 128 with
  | 0 => ⟨S64, .f32⟩
  | 1 => ⟨S64, .f32⟩
  | 2 => ⟨S1x1x64, .f32⟩
  | 3 => ⟨S16x325x64, .f32⟩
  | 4 => ⟨S16x325x64, .f32⟩
  | 5 => ⟨S_, .f32⟩
  | 6 => ⟨S64, .f32⟩
  | 7 => ⟨S64, .f32⟩
  | 8 => ⟨S64, .f32⟩
  | 9 => ⟨S1x1x64, .f32⟩
  | 10 => ⟨S16x325x64, .f32⟩
  | 11 => ⟨S16x325x64, .f32⟩
  | 12 => ⟨S1x64, .f32⟩
  | 13 => ⟨S64, .f32⟩
  | 14 => ⟨S1x1x64, .f32⟩
  | 15 => ⟨S16x325x64, .f32⟩
  | 16 => ⟨S16x325x64, .f32⟩
  | 17 => ⟨S1x64, .f32⟩
  | 18 => ⟨S64, .f32⟩
  | 19 => ⟨S1x1x64, .f32⟩
  | 20 => ⟨S16x325x64, .f32⟩
  | 21 => ⟨S16x325x64, .f32⟩
  | 22 => ⟨S_, .f32⟩
  | 23 => ⟨S16x325x64, .f32⟩
  | 24 => ⟨S16x325x64, .f32⟩
  | 25 => ⟨S1x4x64x64, .f32⟩
  | 26 => ⟨S4x64x64, .f32⟩
  | 27 => ⟨S1x64, .f32⟩
  | 28 => ⟨S64, .f32⟩
  | 29 => ⟨S_, .f32⟩
  | 30 => ⟨S16x325x64, .f32⟩
  | 31 => ⟨S16x64x325, .f32⟩
  | 32 => ⟨S16x325x64, .f32⟩
  | 33 => ⟨S1x64x64, .f32⟩
  | 34 => ⟨S64x64, .f32⟩
  | 35 => ⟨S16x325x64, .f32⟩
  | 36 => ⟨S16x325x64, .f32⟩
  | 37 => ⟨S16x64x325, .f32⟩
  | 38 => ⟨S16x325x64, .f32⟩
  | 39 => ⟨S1x64x64, .f32⟩
  | 40 => ⟨S64x64, .f32⟩
  | 41 => ⟨S16x325x64, .f32⟩
  | 42 => ⟨S16x325x64, .f32⟩
  | 43 => ⟨S16x64x325, .f32⟩
  | 44 => ⟨S16x325x64, .f32⟩
  | 45 => ⟨S1x64x64, .f32⟩
  | 46 => ⟨S64x64, .f32⟩
  | 47 => ⟨S16x325x64, .f32⟩
  | 48 => ⟨S16x325x64, .f32⟩
  | 49 => ⟨S16x64x325, .f32⟩
  | 50 => ⟨S16x325x64, .f32⟩
  | 51 => ⟨S1x64x64, .f32⟩
  | 52 => ⟨S64x64, .f32⟩
  | 53 => ⟨S16x325x64, .f32⟩
  | 54 => ⟨S16x325x64, .f32⟩
  | 55 => ⟨S1x1x64, .f32⟩
  | 56 => ⟨S16x325x64, .f32⟩
  | 57 => ⟨S16x325x64, .f32⟩
  | 58 => ⟨S_, .f32⟩
  | 59 => ⟨S64, .f32⟩
  | 60 => ⟨S_, .f32⟩
  | 61 => ⟨S64, .f32⟩
  | 62 => ⟨S64, .f32⟩
  | 63 => ⟨S_, .i32⟩
  | 64 => ⟨S_, .f32⟩
  | 65 => ⟨S64, .f32⟩
  | 66 => ⟨S1x1x64, .f32⟩
  | 67 => ⟨S_, .f32⟩
  | 68 => ⟨S1x1x64, .f32⟩
  | 69 => ⟨S1x1x64, .f32⟩
  | 70 => ⟨S16x325x64, .f32⟩
  | 71 => ⟨S16x325x64, .f32⟩
  | 72 => ⟨S16x325x64, .f32⟩
  | 73 => ⟨S_, .f32⟩
  | 74 => ⟨S_, .f32⟩
  | 75 => ⟨S_, .f32⟩
  | 76 => ⟨S_, .f32⟩
  | 77 => ⟨S64, .f32⟩
  | 78 => ⟨S64, .f32⟩
  | 79 => ⟨S64, .f32⟩
  | 80 => ⟨S_, .f32⟩
  | 81 => ⟨S_, .i1⟩
  | 82 => ⟨S_, .f32⟩
  | 83 => ⟨S_, .f32⟩
  | 84 => ⟨S64, .f32⟩
  | 85 => ⟨S64, .f32⟩
  | 86 => ⟨S1x1x64, .f32⟩
  | 87 => ⟨S16x325x64, .f32⟩
  | 88 => ⟨S16x325x64, .f32⟩
  | 89 => ⟨S_, .f32⟩
  | 90 => ⟨S64, .f32⟩
  | 91 => ⟨S64, .f32⟩
  | 92 => ⟨S64, .f32⟩
  | 93 => ⟨S1x1x64, .f32⟩
  | 94 => ⟨S16x325x64, .f32⟩
  | 95 => ⟨S16x325x64, .f32⟩
  | 96 => ⟨S1x64, .f32⟩
  | 97 => ⟨S64, .f32⟩
  | 98 => ⟨S1x1x64, .f32⟩
  | 99 => ⟨S16x325x64, .f32⟩
  | 100 => ⟨S16x325x64, .f32⟩
  | 101 => ⟨S1x64, .f32⟩
  | 102 => ⟨S64, .f32⟩
  | 103 => ⟨S1x1x64, .f32⟩
  | 104 => ⟨S16x325x64, .f32⟩
  | 105 => ⟨S16x325x64, .f32⟩
  | 106 => ⟨S_, .f32⟩
  | 107 => ⟨S16x325x64, .f32⟩
  | 108 => ⟨S16x325x64, .f32⟩
  | 109 => ⟨S5200x64, .f32⟩
  | 110 => ⟨S5200x512, .f32⟩
  | 111 => ⟨S1x512, .f32⟩
  | 112 => ⟨S5200x512, .f32⟩
  | 113 => ⟨S5200x512, .f32⟩
  | 114 => ⟨S_, .f32⟩
  | 115 => ⟨S5200x512, .f32⟩
  | 116 => ⟨S5200x512, .f32⟩
  | 117 => ⟨S5200x1, .f32⟩
  | 118 => ⟨S1x1, .f32⟩
  | 119 => ⟨S5200x1, .f32⟩
  | 120 => ⟨S5200x1, .f32⟩
  | 121 => ⟨S16x325, .f32⟩
  | _ => ⟨S16x24x325, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | _ => ⟨S16x24x325, .f32⟩

abbrev bufTy : (tb : Table) → Fin (tcTables nBuf tb) → BufTy
  | .hbm, ⟨i, _⟩ => hbmTy i
  | _, _ => ⟨S16x24x325, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst : Ref sig .tc := ⟨.hbm, 50, rfl⟩
abbrev main_v29 : Ref sig .tc := ⟨.hbm, 51, rfl⟩
abbrev main_cst_1 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_2 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_3 : Ref sig .tc := ⟨.hbm, 65, rfl⟩
abbrev main_v41 : Ref sig .tc := ⟨.hbm, 66, rfl⟩
abbrev main_c_4 : Ref sig .tc := ⟨.hbm, 67, rfl⟩
abbrev main_v42 : Ref sig .tc := ⟨.hbm, 68, rfl⟩
abbrev main_v43 : Ref sig .tc := ⟨.hbm, 69, rfl⟩
abbrev main_c_5 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_6 : Ref sig .tc := ⟨.hbm, 95, rfl⟩
abbrev main_v68 : Ref sig .tc := ⟨.hbm, 96, rfl⟩
abbrev main_cst_7 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_8 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_9 : Ref sig .tc := ⟨.hbm, 110, rfl⟩
abbrev main_v80 : Ref sig .tc := ⟨.hbm, 111, rfl⟩
abbrev main_c_10 : Ref sig .tc := ⟨.hbm, 112, rfl⟩
abbrev main_v81 : Ref sig .tc := ⟨.hbm, 113, rfl⟩
abbrev main_v82 : Ref sig .tc := ⟨.hbm, 114, rfl⟩
abbrev main_c_11 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_12 : Ref sig .tc := ⟨.hbm, 140, rfl⟩
abbrev main_v107 : Ref sig .tc := ⟨.hbm, 141, rfl⟩
abbrev main_cst_13 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_14 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_15 : Ref sig .tc := ⟨.hbm, 155, rfl⟩
abbrev main_v119 : Ref sig .tc := ⟨.hbm, 156, rfl⟩
abbrev main_c_16 : Ref sig .tc := ⟨.hbm, 157, rfl⟩
abbrev main_v120 : Ref sig .tc := ⟨.hbm, 158, rfl⟩
abbrev main_v121 : Ref sig .tc := ⟨.hbm, 159, rfl⟩
abbrev main_c_17 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_cst_18 : Ref sig .tc := ⟨.hbm, 185, rfl⟩
abbrev main_v146 : Ref sig .tc := ⟨.hbm, 186, rfl⟩
abbrev main_cst_19 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_cst_20 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_cst_21 : Ref sig .tc := ⟨.hbm, 200, rfl⟩
abbrev main_v158 : Ref sig .tc := ⟨.hbm, 201, rfl⟩
abbrev main_c_22 : Ref sig .tc := ⟨.hbm, 202, rfl⟩
abbrev main_v159 : Ref sig .tc := ⟨.hbm, 203, rfl⟩
abbrev main_v160 : Ref sig .tc := ⟨.hbm, 204, rfl⟩
abbrev main_c_23 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_cst_24 : Ref sig .tc := ⟨.hbm, 230, rfl⟩
abbrev main_v185 : Ref sig .tc := ⟨.hbm, 231, rfl⟩
abbrev main_cst_25 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_cst_26 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_cst_27 : Ref sig .tc := ⟨.hbm, 245, rfl⟩
abbrev main_v197 : Ref sig .tc := ⟨.hbm, 246, rfl⟩
abbrev main_c_28 : Ref sig .tc := ⟨.hbm, 247, rfl⟩
abbrev main_v198 : Ref sig .tc := ⟨.hbm, 248, rfl⟩
abbrev main_v199 : Ref sig .tc := ⟨.hbm, 249, rfl⟩
abbrev main_c_29 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_cst_30 : Ref sig .tc := ⟨.hbm, 275, rfl⟩
abbrev main_v224 : Ref sig .tc := ⟨.hbm, 276, rfl⟩
abbrev main_cst_31 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_cst_32 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_cst_33 : Ref sig .tc := ⟨.hbm, 290, rfl⟩
abbrev main_v236 : Ref sig .tc := ⟨.hbm, 291, rfl⟩
abbrev main_c_34 : Ref sig .tc := ⟨.hbm, 292, rfl⟩
abbrev main_v237 : Ref sig .tc := ⟨.hbm, 293, rfl⟩
abbrev main_v238 : Ref sig .tc := ⟨.hbm, 294, rfl⟩
abbrev main_c_35 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_v242 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_cst_36 : Ref sig .tc := ⟨.hbm, 320, rfl⟩
abbrev main_v263 : Ref sig .tc := ⟨.hbm, 321, rfl⟩
abbrev main_cst_37 : Ref sig .tc := ⟨.hbm, 322, rfl⟩
abbrev main_v264 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_cst_38 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_v274 : Ref sig .tc := ⟨.hbm, 334, rfl⟩
abbrev main_cst_39 : Ref sig .tc := ⟨.hbm, 335, rfl⟩
abbrev main_v275 : Ref sig .tc := ⟨.hbm, 336, rfl⟩
abbrev main_c_40 : Ref sig .tc := ⟨.hbm, 337, rfl⟩
abbrev main_v276 : Ref sig .tc := ⟨.hbm, 338, rfl⟩
abbrev main_v277 : Ref sig .tc := ⟨.hbm, 339, rfl⟩
abbrev main_c_41 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_v283 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_v289 : Ref sig .tc := ⟨.hbm, 352, rfl⟩
abbrev main_v290 : Ref sig .tc := ⟨.hbm, 353, rfl⟩
abbrev main_v291 : Ref sig .tc := ⟨.hbm, 354, rfl⟩
abbrev main_v292 : Ref sig .tc := ⟨.hbm, 355, rfl⟩
abbrev main_v293 : Ref sig .tc := ⟨.hbm, 356, rfl⟩
abbrev main_v294 : Ref sig .tc := ⟨.hbm, 357, rfl⟩
abbrev main_v295 : Ref sig .tc := ⟨.hbm, 358, rfl⟩
abbrev main_v296 : Ref sig .tc := ⟨.hbm, 359, rfl⟩
abbrev main_v297 : Ref sig .tc := ⟨.hbm, 360, rfl⟩
abbrev main_v298 : Ref sig .tc := ⟨.hbm, 361, rfl⟩
abbrev main_v299 : Ref sig .tc := ⟨.hbm, 362, rfl⟩
abbrev main_v300 : Ref sig .tc := ⟨.hbm, 363, rfl⟩
abbrev main_v301 : Ref sig .tc := ⟨.hbm, 364, rfl⟩
abbrev main_cst_42 : Ref sig .tc := ⟨.hbm, 365, rfl⟩
abbrev main_v302 : Ref sig .tc := ⟨.hbm, 366, rfl⟩
abbrev main_cst_43 : Ref sig .tc := ⟨.hbm, 367, rfl⟩
abbrev main_v303 : Ref sig .tc := ⟨.hbm, 368, rfl⟩
abbrev main_v304 : Ref sig .tc := ⟨.hbm, 369, rfl⟩
abbrev main_v305 : Ref sig .tc := ⟨.hbm, 370, rfl⟩
abbrev main_v306 : Ref sig .tc := ⟨.hbm, 371, rfl⟩
abbrev main_v307 : Ref sig .tc := ⟨.hbm, 372, rfl⟩
abbrev main_v308 : Ref sig .tc := ⟨.hbm, 373, rfl⟩
abbrev main_cst_44 : Ref sig .tc := ⟨.hbm, 374, rfl⟩
abbrev main_v309 : Ref sig .tc := ⟨.hbm, 375, rfl⟩
abbrev main_v310 : Ref sig .tc := ⟨.hbm, 376, rfl⟩
abbrev main_v311 : Ref sig .tc := ⟨.hbm, 377, rfl⟩
abbrev main_v312 : Ref sig .tc := ⟨.hbm, 378, rfl⟩
abbrev main_v313 : Ref sig .tc := ⟨.hbm, 379, rfl⟩
abbrev main_cst_45 : Ref sig .tc := ⟨.hbm, 380, rfl⟩
abbrev main_v314 : Ref sig .tc := ⟨.hbm, 381, rfl⟩
abbrev main_c_46 : Ref sig .tc := ⟨.hbm, 382, rfl⟩
abbrev main_v315 : Ref sig .tc := ⟨.hbm, 383, rfl⟩
abbrev main_v316 : Ref sig .tc := ⟨.hbm, 384, rfl⟩
abbrev main_c_47 : Ref sig .tc := ⟨.hbm, 385, rfl⟩
abbrev main_v317 : Ref sig .tc := ⟨.hbm, 386, rfl⟩
abbrev main_v318 : Ref sig .tc := ⟨.hbm, 387, rfl⟩
abbrev main_v319 : Ref sig .tc := ⟨.hbm, 388, rfl⟩
abbrev main_v320 : Ref sig .tc := ⟨.hbm, 389, rfl⟩
abbrev main_v321 : Ref sig .tc := ⟨.hbm, 390, rfl⟩
abbrev main_v322 : Ref sig .tc := ⟨.hbm, 391, rfl⟩
abbrev main_v323 : Ref sig .tc := ⟨.hbm, 392, rfl⟩
abbrev main_v324 : Ref sig .tc := ⟨.hbm, 393, rfl⟩
abbrev main_v325 : Ref sig .tc := ⟨.hbm, 394, rfl⟩
abbrev main_v326 : Ref sig .tc := ⟨.hbm, 395, rfl⟩
abbrev main_v327 : Ref sig .tc := ⟨.hbm, 396, rfl⟩
abbrev main_v328 : Ref sig .tc := ⟨.hbm, 397, rfl⟩
abbrev main_v329 : Ref sig .tc := ⟨.hbm, 398, rfl⟩
abbrev main_v330 : Ref sig .tc := ⟨.hbm, 399, rfl⟩
abbrev main_v331 : Ref sig .tc := ⟨.hbm, 400, rfl⟩
abbrev main_v332 : Ref sig .tc := ⟨.hbm, 401, rfl⟩
abbrev main_v333 : Ref sig .tc := ⟨.hbm, 402, rfl⟩
abbrev main_v334 : Ref sig .tc := ⟨.hbm, 403, rfl⟩
abbrev main_v335 : Ref sig .tc := ⟨.hbm, 404, rfl⟩
abbrev main_v336 : Ref sig .tc := ⟨.hbm, 405, rfl⟩
abbrev main_v337 : Ref sig .tc := ⟨.hbm, 406, rfl⟩
abbrev main_v338 : Ref sig .tc := ⟨.hbm, 407, rfl⟩
abbrev main_v339 : Ref sig .tc := ⟨.hbm, 408, rfl⟩
abbrev main_v340 : Ref sig .tc := ⟨.hbm, 409, rfl⟩
abbrev main_cst_48 : Ref sig .tc := ⟨.hbm, 410, rfl⟩
abbrev main_v341 : Ref sig .tc := ⟨.hbm, 411, rfl⟩
abbrev main_cst_49 : Ref sig .tc := ⟨.hbm, 412, rfl⟩
abbrev main_v342 : Ref sig .tc := ⟨.hbm, 413, rfl⟩
abbrev main_v343 : Ref sig .tc := ⟨.hbm, 414, rfl⟩
abbrev main_v344 : Ref sig .tc := ⟨.hbm, 415, rfl⟩
abbrev main_v345 : Ref sig .tc := ⟨.hbm, 416, rfl⟩
abbrev main_v346 : Ref sig .tc := ⟨.hbm, 417, rfl⟩
abbrev main_v347 : Ref sig .tc := ⟨.hbm, 418, rfl⟩
abbrev main_cst_50 : Ref sig .tc := ⟨.hbm, 419, rfl⟩
abbrev main_v348 : Ref sig .tc := ⟨.hbm, 420, rfl⟩
abbrev main_v349 : Ref sig .tc := ⟨.hbm, 421, rfl⟩
abbrev main_v350 : Ref sig .tc := ⟨.hbm, 422, rfl⟩
abbrev main_v351 : Ref sig .tc := ⟨.hbm, 423, rfl⟩
abbrev main_v352 : Ref sig .tc := ⟨.hbm, 424, rfl⟩
abbrev main_cst_51 : Ref sig .tc := ⟨.hbm, 425, rfl⟩
abbrev main_v353 : Ref sig .tc := ⟨.hbm, 426, rfl⟩
abbrev main_c_52 : Ref sig .tc := ⟨.hbm, 427, rfl⟩
abbrev main_v354 : Ref sig .tc := ⟨.hbm, 428, rfl⟩
abbrev main_v355 : Ref sig .tc := ⟨.hbm, 429, rfl⟩
abbrev main_c_53 : Ref sig .tc := ⟨.hbm, 430, rfl⟩
abbrev main_v356 : Ref sig .tc := ⟨.hbm, 431, rfl⟩
abbrev main_v357 : Ref sig .tc := ⟨.hbm, 432, rfl⟩
abbrev main_v358 : Ref sig .tc := ⟨.hbm, 433, rfl⟩
abbrev main_v359 : Ref sig .tc := ⟨.hbm, 434, rfl⟩
abbrev main_v360 : Ref sig .tc := ⟨.hbm, 435, rfl⟩
abbrev main_v361 : Ref sig .tc := ⟨.hbm, 436, rfl⟩
abbrev main_v362 : Ref sig .tc := ⟨.hbm, 437, rfl⟩
abbrev main_v363 : Ref sig .tc := ⟨.hbm, 438, rfl⟩
abbrev main_v364 : Ref sig .tc := ⟨.hbm, 439, rfl⟩
abbrev main_v365 : Ref sig .tc := ⟨.hbm, 440, rfl⟩
abbrev main_v366 : Ref sig .tc := ⟨.hbm, 441, rfl⟩
abbrev main_v367 : Ref sig .tc := ⟨.hbm, 442, rfl⟩
abbrev main_v368 : Ref sig .tc := ⟨.hbm, 443, rfl⟩
abbrev main_v369 : Ref sig .tc := ⟨.hbm, 444, rfl⟩
abbrev main_v370 : Ref sig .tc := ⟨.hbm, 445, rfl⟩
abbrev main_v371 : Ref sig .tc := ⟨.hbm, 446, rfl⟩
abbrev main_v372 : Ref sig .tc := ⟨.hbm, 447, rfl⟩
abbrev main_v373 : Ref sig .tc := ⟨.hbm, 448, rfl⟩
abbrev main_v374 : Ref sig .tc := ⟨.hbm, 449, rfl⟩
abbrev main_v375 : Ref sig .tc := ⟨.hbm, 450, rfl⟩
abbrev main_v376 : Ref sig .tc := ⟨.hbm, 451, rfl⟩
abbrev main_v377 : Ref sig .tc := ⟨.hbm, 452, rfl⟩
abbrev main_v378 : Ref sig .tc := ⟨.hbm, 453, rfl⟩
abbrev main_v379 : Ref sig .tc := ⟨.hbm, 454, rfl⟩
abbrev main_cst_54 : Ref sig .tc := ⟨.hbm, 455, rfl⟩
abbrev main_v380 : Ref sig .tc := ⟨.hbm, 456, rfl⟩
abbrev main_cst_55 : Ref sig .tc := ⟨.hbm, 457, rfl⟩
abbrev main_v381 : Ref sig .tc := ⟨.hbm, 458, rfl⟩
abbrev main_v382 : Ref sig .tc := ⟨.hbm, 459, rfl⟩
abbrev main_v383 : Ref sig .tc := ⟨.hbm, 460, rfl⟩
abbrev main_v384 : Ref sig .tc := ⟨.hbm, 461, rfl⟩
abbrev main_v385 : Ref sig .tc := ⟨.hbm, 462, rfl⟩
abbrev main_v386 : Ref sig .tc := ⟨.hbm, 463, rfl⟩
abbrev main_cst_56 : Ref sig .tc := ⟨.hbm, 464, rfl⟩
abbrev main_v387 : Ref sig .tc := ⟨.hbm, 465, rfl⟩
abbrev main_v388 : Ref sig .tc := ⟨.hbm, 466, rfl⟩
abbrev main_v389 : Ref sig .tc := ⟨.hbm, 467, rfl⟩
abbrev main_v390 : Ref sig .tc := ⟨.hbm, 468, rfl⟩
abbrev main_v391 : Ref sig .tc := ⟨.hbm, 469, rfl⟩
abbrev main_cst_57 : Ref sig .tc := ⟨.hbm, 470, rfl⟩
abbrev main_v392 : Ref sig .tc := ⟨.hbm, 471, rfl⟩
abbrev main_c_58 : Ref sig .tc := ⟨.hbm, 472, rfl⟩
abbrev main_v393 : Ref sig .tc := ⟨.hbm, 473, rfl⟩
abbrev main_v394 : Ref sig .tc := ⟨.hbm, 474, rfl⟩
abbrev main_c_59 : Ref sig .tc := ⟨.hbm, 475, rfl⟩
abbrev main_v395 : Ref sig .tc := ⟨.hbm, 476, rfl⟩
abbrev main_v396 : Ref sig .tc := ⟨.hbm, 477, rfl⟩
abbrev main_v397 : Ref sig .tc := ⟨.hbm, 478, rfl⟩
abbrev main_v398 : Ref sig .tc := ⟨.hbm, 479, rfl⟩
abbrev main_v399 : Ref sig .tc := ⟨.hbm, 480, rfl⟩
abbrev main_v400 : Ref sig .tc := ⟨.hbm, 481, rfl⟩
abbrev main_v401 : Ref sig .tc := ⟨.hbm, 482, rfl⟩
abbrev main_v402 : Ref sig .tc := ⟨.hbm, 483, rfl⟩
abbrev main_v403 : Ref sig .tc := ⟨.hbm, 484, rfl⟩
abbrev main_v404 : Ref sig .tc := ⟨.hbm, 485, rfl⟩
abbrev main_v405 : Ref sig .tc := ⟨.hbm, 486, rfl⟩
abbrev main_v406 : Ref sig .tc := ⟨.hbm, 487, rfl⟩
abbrev main_v407 : Ref sig .tc := ⟨.hbm, 488, rfl⟩
abbrev main_v408 : Ref sig .tc := ⟨.hbm, 489, rfl⟩
abbrev main_v409 : Ref sig .tc := ⟨.hbm, 490, rfl⟩
abbrev main_v410 : Ref sig .tc := ⟨.hbm, 491, rfl⟩
abbrev main_v411 : Ref sig .tc := ⟨.hbm, 492, rfl⟩
abbrev main_v412 : Ref sig .tc := ⟨.hbm, 493, rfl⟩
abbrev main_v413 : Ref sig .tc := ⟨.hbm, 494, rfl⟩
abbrev main_v414 : Ref sig .tc := ⟨.hbm, 495, rfl⟩
abbrev main_v415 : Ref sig .tc := ⟨.hbm, 496, rfl⟩
abbrev main_v416 : Ref sig .tc := ⟨.hbm, 497, rfl⟩
abbrev main_v417 : Ref sig .tc := ⟨.hbm, 498, rfl⟩
abbrev main_v418 : Ref sig .tc := ⟨.hbm, 499, rfl⟩
abbrev main_cst_60 : Ref sig .tc := ⟨.hbm, 500, rfl⟩
abbrev main_v419 : Ref sig .tc := ⟨.hbm, 501, rfl⟩
abbrev main_cst_61 : Ref sig .tc := ⟨.hbm, 502, rfl⟩
abbrev main_v420 : Ref sig .tc := ⟨.hbm, 503, rfl⟩
abbrev main_v421 : Ref sig .tc := ⟨.hbm, 504, rfl⟩
abbrev main_v422 : Ref sig .tc := ⟨.hbm, 505, rfl⟩
abbrev main_v423 : Ref sig .tc := ⟨.hbm, 506, rfl⟩
abbrev main_v424 : Ref sig .tc := ⟨.hbm, 507, rfl⟩
abbrev main_v425 : Ref sig .tc := ⟨.hbm, 508, rfl⟩
abbrev main_cst_62 : Ref sig .tc := ⟨.hbm, 509, rfl⟩
abbrev main_v426 : Ref sig .tc := ⟨.hbm, 510, rfl⟩
abbrev main_v427 : Ref sig .tc := ⟨.hbm, 511, rfl⟩
abbrev main_v428 : Ref sig .tc := ⟨.hbm, 512, rfl⟩
abbrev main_v429 : Ref sig .tc := ⟨.hbm, 513, rfl⟩
abbrev main_v430 : Ref sig .tc := ⟨.hbm, 514, rfl⟩
abbrev main_cst_63 : Ref sig .tc := ⟨.hbm, 515, rfl⟩
abbrev main_v431 : Ref sig .tc := ⟨.hbm, 516, rfl⟩
abbrev main_c_64 : Ref sig .tc := ⟨.hbm, 517, rfl⟩
abbrev main_v432 : Ref sig .tc := ⟨.hbm, 518, rfl⟩
abbrev main_v433 : Ref sig .tc := ⟨.hbm, 519, rfl⟩
abbrev main_c_65 : Ref sig .tc := ⟨.hbm, 520, rfl⟩
abbrev main_v434 : Ref sig .tc := ⟨.hbm, 521, rfl⟩
abbrev main_v435 : Ref sig .tc := ⟨.hbm, 522, rfl⟩
abbrev main_v436 : Ref sig .tc := ⟨.hbm, 523, rfl⟩
abbrev main_v437 : Ref sig .tc := ⟨.hbm, 524, rfl⟩
abbrev main_v438 : Ref sig .tc := ⟨.hbm, 525, rfl⟩
abbrev main_v439 : Ref sig .tc := ⟨.hbm, 526, rfl⟩
abbrev main_v440 : Ref sig .tc := ⟨.hbm, 527, rfl⟩
abbrev main_v441 : Ref sig .tc := ⟨.hbm, 528, rfl⟩
abbrev main_v442 : Ref sig .tc := ⟨.hbm, 529, rfl⟩
abbrev main_v443 : Ref sig .tc := ⟨.hbm, 530, rfl⟩
abbrev main_v444 : Ref sig .tc := ⟨.hbm, 531, rfl⟩
abbrev main_v445 : Ref sig .tc := ⟨.hbm, 532, rfl⟩
abbrev main_v446 : Ref sig .tc := ⟨.hbm, 533, rfl⟩
abbrev main_v447 : Ref sig .tc := ⟨.hbm, 534, rfl⟩
abbrev main_v448 : Ref sig .tc := ⟨.hbm, 535, rfl⟩
abbrev main_v449 : Ref sig .tc := ⟨.hbm, 536, rfl⟩
abbrev main_v450 : Ref sig .tc := ⟨.hbm, 537, rfl⟩
abbrev main_v451 : Ref sig .tc := ⟨.hbm, 538, rfl⟩
abbrev main_v452 : Ref sig .tc := ⟨.hbm, 539, rfl⟩
abbrev main_v453 : Ref sig .tc := ⟨.hbm, 540, rfl⟩
abbrev main_v454 : Ref sig .tc := ⟨.hbm, 541, rfl⟩
abbrev main_v455 : Ref sig .tc := ⟨.hbm, 542, rfl⟩
abbrev main_v456 : Ref sig .tc := ⟨.hbm, 543, rfl⟩
abbrev main_v457 : Ref sig .tc := ⟨.hbm, 544, rfl⟩
abbrev main_cst_66 : Ref sig .tc := ⟨.hbm, 545, rfl⟩
abbrev main_v458 : Ref sig .tc := ⟨.hbm, 546, rfl⟩
abbrev main_cst_67 : Ref sig .tc := ⟨.hbm, 547, rfl⟩
abbrev main_v459 : Ref sig .tc := ⟨.hbm, 548, rfl⟩
abbrev main_v460 : Ref sig .tc := ⟨.hbm, 549, rfl⟩
abbrev main_v461 : Ref sig .tc := ⟨.hbm, 550, rfl⟩
abbrev main_v462 : Ref sig .tc := ⟨.hbm, 551, rfl⟩
abbrev main_v463 : Ref sig .tc := ⟨.hbm, 552, rfl⟩
abbrev main_v464 : Ref sig .tc := ⟨.hbm, 553, rfl⟩
abbrev main_cst_68 : Ref sig .tc := ⟨.hbm, 554, rfl⟩
abbrev main_v465 : Ref sig .tc := ⟨.hbm, 555, rfl⟩
abbrev main_v466 : Ref sig .tc := ⟨.hbm, 556, rfl⟩
abbrev main_v467 : Ref sig .tc := ⟨.hbm, 557, rfl⟩
abbrev main_v468 : Ref sig .tc := ⟨.hbm, 558, rfl⟩
abbrev main_v469 : Ref sig .tc := ⟨.hbm, 559, rfl⟩
abbrev main_cst_69 : Ref sig .tc := ⟨.hbm, 560, rfl⟩
abbrev main_v470 : Ref sig .tc := ⟨.hbm, 561, rfl⟩
abbrev main_c_70 : Ref sig .tc := ⟨.hbm, 562, rfl⟩
abbrev main_v471 : Ref sig .tc := ⟨.hbm, 563, rfl⟩
abbrev main_v472 : Ref sig .tc := ⟨.hbm, 564, rfl⟩
abbrev main_c_71 : Ref sig .tc := ⟨.hbm, 565, rfl⟩
abbrev main_v473 : Ref sig .tc := ⟨.hbm, 566, rfl⟩
abbrev main_v474 : Ref sig .tc := ⟨.hbm, 567, rfl⟩
abbrev main_v475 : Ref sig .tc := ⟨.hbm, 568, rfl⟩
abbrev main_v476 : Ref sig .tc := ⟨.hbm, 569, rfl⟩
abbrev main_v477 : Ref sig .tc := ⟨.hbm, 570, rfl⟩
abbrev main_v478 : Ref sig .tc := ⟨.hbm, 571, rfl⟩
abbrev main_v479 : Ref sig .tc := ⟨.hbm, 572, rfl⟩
abbrev main_v480 : Ref sig .tc := ⟨.hbm, 573, rfl⟩
abbrev main_v481 : Ref sig .tc := ⟨.hbm, 574, rfl⟩
abbrev main_v482 : Ref sig .tc := ⟨.hbm, 575, rfl⟩
abbrev main_v483 : Ref sig .tc := ⟨.hbm, 576, rfl⟩
abbrev main_v484 : Ref sig .tc := ⟨.hbm, 577, rfl⟩
abbrev main_v485 : Ref sig .tc := ⟨.hbm, 578, rfl⟩
abbrev main_v486 : Ref sig .tc := ⟨.hbm, 579, rfl⟩
abbrev main_v487 : Ref sig .tc := ⟨.hbm, 580, rfl⟩
abbrev main_v488 : Ref sig .tc := ⟨.hbm, 581, rfl⟩
abbrev main_v489 : Ref sig .tc := ⟨.hbm, 582, rfl⟩
abbrev main_v490 : Ref sig .tc := ⟨.hbm, 583, rfl⟩
abbrev main_v491 : Ref sig .tc := ⟨.hbm, 584, rfl⟩
abbrev main_v492 : Ref sig .tc := ⟨.hbm, 585, rfl⟩
abbrev main_v493 : Ref sig .tc := ⟨.hbm, 586, rfl⟩
abbrev main_v494 : Ref sig .tc := ⟨.hbm, 587, rfl⟩
abbrev main_v495 : Ref sig .tc := ⟨.hbm, 588, rfl⟩
abbrev main_v496 : Ref sig .tc := ⟨.hbm, 589, rfl⟩
abbrev main_cst_72 : Ref sig .tc := ⟨.hbm, 590, rfl⟩
abbrev main_v497 : Ref sig .tc := ⟨.hbm, 591, rfl⟩
abbrev main_cst_73 : Ref sig .tc := ⟨.hbm, 592, rfl⟩
abbrev main_v498 : Ref sig .tc := ⟨.hbm, 593, rfl⟩
abbrev main_v499 : Ref sig .tc := ⟨.hbm, 594, rfl⟩
abbrev main_v500 : Ref sig .tc := ⟨.hbm, 595, rfl⟩
abbrev main_v501 : Ref sig .tc := ⟨.hbm, 596, rfl⟩
abbrev main_v502 : Ref sig .tc := ⟨.hbm, 597, rfl⟩
abbrev main_v503 : Ref sig .tc := ⟨.hbm, 598, rfl⟩
abbrev main_cst_74 : Ref sig .tc := ⟨.hbm, 599, rfl⟩
abbrev main_v504 : Ref sig .tc := ⟨.hbm, 600, rfl⟩
abbrev main_v505 : Ref sig .tc := ⟨.hbm, 601, rfl⟩
abbrev main_v506 : Ref sig .tc := ⟨.hbm, 602, rfl⟩
abbrev main_v507 : Ref sig .tc := ⟨.hbm, 603, rfl⟩
abbrev main_v508 : Ref sig .tc := ⟨.hbm, 604, rfl⟩
abbrev main_cst_75 : Ref sig .tc := ⟨.hbm, 605, rfl⟩
abbrev main_v509 : Ref sig .tc := ⟨.hbm, 606, rfl⟩
abbrev main_c_76 : Ref sig .tc := ⟨.hbm, 607, rfl⟩
abbrev main_v510 : Ref sig .tc := ⟨.hbm, 608, rfl⟩
abbrev main_v511 : Ref sig .tc := ⟨.hbm, 609, rfl⟩
abbrev main_c_77 : Ref sig .tc := ⟨.hbm, 610, rfl⟩
abbrev main_v512 : Ref sig .tc := ⟨.hbm, 611, rfl⟩
abbrev main_v513 : Ref sig .tc := ⟨.hbm, 612, rfl⟩
abbrev main_v514 : Ref sig .tc := ⟨.hbm, 613, rfl⟩
abbrev main_v515 : Ref sig .tc := ⟨.hbm, 614, rfl⟩
abbrev main_v516 : Ref sig .tc := ⟨.hbm, 615, rfl⟩
abbrev main_v517 : Ref sig .tc := ⟨.hbm, 616, rfl⟩
abbrev main_v518 : Ref sig .tc := ⟨.hbm, 617, rfl⟩
abbrev main_v519 : Ref sig .tc := ⟨.hbm, 618, rfl⟩
abbrev main_v520 : Ref sig .tc := ⟨.hbm, 619, rfl⟩
abbrev main_v521 : Ref sig .tc := ⟨.hbm, 620, rfl⟩
abbrev main_v522 : Ref sig .tc := ⟨.hbm, 621, rfl⟩
abbrev main_v523 : Ref sig .tc := ⟨.hbm, 622, rfl⟩
abbrev main_v524 : Ref sig .tc := ⟨.hbm, 623, rfl⟩
abbrev main_v525 : Ref sig .tc := ⟨.hbm, 624, rfl⟩
abbrev main_v526 : Ref sig .tc := ⟨.hbm, 625, rfl⟩
abbrev main_v527 : Ref sig .tc := ⟨.hbm, 626, rfl⟩
abbrev main_v528 : Ref sig .tc := ⟨.hbm, 627, rfl⟩
abbrev main_v529 : Ref sig .tc := ⟨.hbm, 628, rfl⟩
abbrev main_v530 : Ref sig .tc := ⟨.hbm, 629, rfl⟩
abbrev main_v531 : Ref sig .tc := ⟨.hbm, 630, rfl⟩
abbrev main_v532 : Ref sig .tc := ⟨.hbm, 631, rfl⟩
abbrev main_v533 : Ref sig .tc := ⟨.hbm, 632, rfl⟩
abbrev main_v534 : Ref sig .tc := ⟨.hbm, 633, rfl⟩
abbrev main_v535 : Ref sig .tc := ⟨.hbm, 634, rfl⟩
abbrev main_cst_78 : Ref sig .tc := ⟨.hbm, 635, rfl⟩
abbrev main_v536 : Ref sig .tc := ⟨.hbm, 636, rfl⟩
abbrev main_cst_79 : Ref sig .tc := ⟨.hbm, 637, rfl⟩
abbrev main_v537 : Ref sig .tc := ⟨.hbm, 638, rfl⟩
abbrev main_v538 : Ref sig .tc := ⟨.hbm, 639, rfl⟩
abbrev main_v539 : Ref sig .tc := ⟨.hbm, 640, rfl⟩
abbrev main_v540 : Ref sig .tc := ⟨.hbm, 641, rfl⟩
abbrev main_v541 : Ref sig .tc := ⟨.hbm, 642, rfl⟩
abbrev main_v542 : Ref sig .tc := ⟨.hbm, 643, rfl⟩
abbrev main_cst_80 : Ref sig .tc := ⟨.hbm, 644, rfl⟩
abbrev main_v543 : Ref sig .tc := ⟨.hbm, 645, rfl⟩
abbrev main_v544 : Ref sig .tc := ⟨.hbm, 646, rfl⟩
abbrev main_v545 : Ref sig .tc := ⟨.hbm, 647, rfl⟩
abbrev main_v546 : Ref sig .tc := ⟨.hbm, 648, rfl⟩
abbrev main_v547 : Ref sig .tc := ⟨.hbm, 649, rfl⟩
abbrev main_cst_81 : Ref sig .tc := ⟨.hbm, 650, rfl⟩
abbrev main_v548 : Ref sig .tc := ⟨.hbm, 651, rfl⟩
abbrev main_c_82 : Ref sig .tc := ⟨.hbm, 652, rfl⟩
abbrev main_v549 : Ref sig .tc := ⟨.hbm, 653, rfl⟩
abbrev main_v550 : Ref sig .tc := ⟨.hbm, 654, rfl⟩
abbrev main_c_83 : Ref sig .tc := ⟨.hbm, 655, rfl⟩
abbrev main_v551 : Ref sig .tc := ⟨.hbm, 656, rfl⟩
abbrev main_v552 : Ref sig .tc := ⟨.hbm, 657, rfl⟩
abbrev main_v553 : Ref sig .tc := ⟨.hbm, 658, rfl⟩
abbrev main_v554 : Ref sig .tc := ⟨.hbm, 659, rfl⟩
abbrev main_v555 : Ref sig .tc := ⟨.hbm, 660, rfl⟩
abbrev main_v556 : Ref sig .tc := ⟨.hbm, 661, rfl⟩
abbrev main_v557 : Ref sig .tc := ⟨.hbm, 662, rfl⟩
abbrev main_v558 : Ref sig .tc := ⟨.hbm, 663, rfl⟩
abbrev main_v559 : Ref sig .tc := ⟨.hbm, 664, rfl⟩
abbrev main_v560 : Ref sig .tc := ⟨.hbm, 665, rfl⟩
abbrev main_v561 : Ref sig .tc := ⟨.hbm, 666, rfl⟩
abbrev main_v562 : Ref sig .tc := ⟨.hbm, 667, rfl⟩
abbrev main_v563 : Ref sig .tc := ⟨.hbm, 668, rfl⟩
abbrev main_v564 : Ref sig .tc := ⟨.hbm, 669, rfl⟩
abbrev main_v565 : Ref sig .tc := ⟨.hbm, 670, rfl⟩
abbrev main_v566 : Ref sig .tc := ⟨.hbm, 671, rfl⟩
abbrev main_v567 : Ref sig .tc := ⟨.hbm, 672, rfl⟩
abbrev main_v568 : Ref sig .tc := ⟨.hbm, 673, rfl⟩
abbrev main_v569 : Ref sig .tc := ⟨.hbm, 674, rfl⟩
abbrev main_v570 : Ref sig .tc := ⟨.hbm, 675, rfl⟩
abbrev main_v571 : Ref sig .tc := ⟨.hbm, 676, rfl⟩
abbrev main_v572 : Ref sig .tc := ⟨.hbm, 677, rfl⟩
abbrev main_v573 : Ref sig .tc := ⟨.hbm, 678, rfl⟩
abbrev main_v574 : Ref sig .tc := ⟨.hbm, 679, rfl⟩
abbrev main_cst_84 : Ref sig .tc := ⟨.hbm, 680, rfl⟩
abbrev main_v575 : Ref sig .tc := ⟨.hbm, 681, rfl⟩
abbrev main_cst_85 : Ref sig .tc := ⟨.hbm, 682, rfl⟩
abbrev main_v576 : Ref sig .tc := ⟨.hbm, 683, rfl⟩
abbrev main_v577 : Ref sig .tc := ⟨.hbm, 684, rfl⟩
abbrev main_v578 : Ref sig .tc := ⟨.hbm, 685, rfl⟩
abbrev main_v579 : Ref sig .tc := ⟨.hbm, 686, rfl⟩
abbrev main_v580 : Ref sig .tc := ⟨.hbm, 687, rfl⟩
abbrev main_v581 : Ref sig .tc := ⟨.hbm, 688, rfl⟩
abbrev main_cst_86 : Ref sig .tc := ⟨.hbm, 689, rfl⟩
abbrev main_v582 : Ref sig .tc := ⟨.hbm, 690, rfl⟩
abbrev main_v583 : Ref sig .tc := ⟨.hbm, 691, rfl⟩
abbrev main_v584 : Ref sig .tc := ⟨.hbm, 692, rfl⟩
abbrev main_v585 : Ref sig .tc := ⟨.hbm, 693, rfl⟩
abbrev main_v586 : Ref sig .tc := ⟨.hbm, 694, rfl⟩
abbrev main_cst_87 : Ref sig .tc := ⟨.hbm, 695, rfl⟩
abbrev main_v587 : Ref sig .tc := ⟨.hbm, 696, rfl⟩
abbrev main_c_88 : Ref sig .tc := ⟨.hbm, 697, rfl⟩
abbrev main_v588 : Ref sig .tc := ⟨.hbm, 698, rfl⟩
abbrev main_v589 : Ref sig .tc := ⟨.hbm, 699, rfl⟩
abbrev main_c_89 : Ref sig .tc := ⟨.hbm, 700, rfl⟩
abbrev main_v590 : Ref sig .tc := ⟨.hbm, 701, rfl⟩
abbrev main_v591 : Ref sig .tc := ⟨.hbm, 702, rfl⟩
abbrev main_v592 : Ref sig .tc := ⟨.hbm, 703, rfl⟩
abbrev main_v593 : Ref sig .tc := ⟨.hbm, 704, rfl⟩
abbrev main_v594 : Ref sig .tc := ⟨.hbm, 705, rfl⟩
abbrev main_v595 : Ref sig .tc := ⟨.hbm, 706, rfl⟩
abbrev main_v596 : Ref sig .tc := ⟨.hbm, 707, rfl⟩
abbrev main_v597 : Ref sig .tc := ⟨.hbm, 708, rfl⟩
abbrev main_v598 : Ref sig .tc := ⟨.hbm, 709, rfl⟩
abbrev main_v599 : Ref sig .tc := ⟨.hbm, 710, rfl⟩
abbrev main_v600 : Ref sig .tc := ⟨.hbm, 711, rfl⟩
abbrev main_v601 : Ref sig .tc := ⟨.hbm, 712, rfl⟩
abbrev main_v602 : Ref sig .tc := ⟨.hbm, 713, rfl⟩
abbrev main_v603 : Ref sig .tc := ⟨.hbm, 714, rfl⟩
abbrev main_v604 : Ref sig .tc := ⟨.hbm, 715, rfl⟩
abbrev main_v605 : Ref sig .tc := ⟨.hbm, 716, rfl⟩
abbrev main_v606 : Ref sig .tc := ⟨.hbm, 717, rfl⟩
abbrev main_v607 : Ref sig .tc := ⟨.hbm, 718, rfl⟩
abbrev main_v608 : Ref sig .tc := ⟨.hbm, 719, rfl⟩
abbrev main_v609 : Ref sig .tc := ⟨.hbm, 720, rfl⟩
abbrev main_v610 : Ref sig .tc := ⟨.hbm, 721, rfl⟩
abbrev main_v611 : Ref sig .tc := ⟨.hbm, 722, rfl⟩
abbrev main_v612 : Ref sig .tc := ⟨.hbm, 723, rfl⟩
abbrev main_v613 : Ref sig .tc := ⟨.hbm, 724, rfl⟩
abbrev main_cst_90 : Ref sig .tc := ⟨.hbm, 725, rfl⟩
abbrev main_v614 : Ref sig .tc := ⟨.hbm, 726, rfl⟩
abbrev main_cst_91 : Ref sig .tc := ⟨.hbm, 727, rfl⟩
abbrev main_v615 : Ref sig .tc := ⟨.hbm, 728, rfl⟩
abbrev main_v616 : Ref sig .tc := ⟨.hbm, 729, rfl⟩
abbrev main_v617 : Ref sig .tc := ⟨.hbm, 730, rfl⟩
abbrev main_v618 : Ref sig .tc := ⟨.hbm, 731, rfl⟩
abbrev main_v619 : Ref sig .tc := ⟨.hbm, 732, rfl⟩
abbrev main_v620 : Ref sig .tc := ⟨.hbm, 733, rfl⟩
abbrev main_cst_92 : Ref sig .tc := ⟨.hbm, 734, rfl⟩
abbrev main_v621 : Ref sig .tc := ⟨.hbm, 735, rfl⟩
abbrev main_v622 : Ref sig .tc := ⟨.hbm, 736, rfl⟩
abbrev main_v623 : Ref sig .tc := ⟨.hbm, 737, rfl⟩
abbrev main_v624 : Ref sig .tc := ⟨.hbm, 738, rfl⟩
abbrev main_v625 : Ref sig .tc := ⟨.hbm, 739, rfl⟩
abbrev main_cst_93 : Ref sig .tc := ⟨.hbm, 740, rfl⟩
abbrev main_v626 : Ref sig .tc := ⟨.hbm, 741, rfl⟩
abbrev main_c_94 : Ref sig .tc := ⟨.hbm, 742, rfl⟩
abbrev main_v627 : Ref sig .tc := ⟨.hbm, 743, rfl⟩
abbrev main_v628 : Ref sig .tc := ⟨.hbm, 744, rfl⟩
abbrev main_c_95 : Ref sig .tc := ⟨.hbm, 745, rfl⟩
abbrev main_v629 : Ref sig .tc := ⟨.hbm, 746, rfl⟩
abbrev main_v630 : Ref sig .tc := ⟨.hbm, 747, rfl⟩
abbrev main_v631 : Ref sig .tc := ⟨.hbm, 748, rfl⟩
abbrev main_v632 : Ref sig .tc := ⟨.hbm, 749, rfl⟩
abbrev main_v633 : Ref sig .tc := ⟨.hbm, 750, rfl⟩
abbrev main_v634 : Ref sig .tc := ⟨.hbm, 751, rfl⟩
abbrev main_v635 : Ref sig .tc := ⟨.hbm, 752, rfl⟩
abbrev main_v636 : Ref sig .tc := ⟨.hbm, 753, rfl⟩
abbrev main_v637 : Ref sig .tc := ⟨.hbm, 754, rfl⟩
abbrev main_v638 : Ref sig .tc := ⟨.hbm, 755, rfl⟩
abbrev main_v639 : Ref sig .tc := ⟨.hbm, 756, rfl⟩
abbrev main_v640 : Ref sig .tc := ⟨.hbm, 757, rfl⟩
abbrev main_v641 : Ref sig .tc := ⟨.hbm, 758, rfl⟩
abbrev main_v642 : Ref sig .tc := ⟨.hbm, 759, rfl⟩
abbrev main_v643 : Ref sig .tc := ⟨.hbm, 760, rfl⟩
abbrev main_v644 : Ref sig .tc := ⟨.hbm, 761, rfl⟩
abbrev main_v645 : Ref sig .tc := ⟨.hbm, 762, rfl⟩
abbrev main_v646 : Ref sig .tc := ⟨.hbm, 763, rfl⟩
abbrev main_v647 : Ref sig .tc := ⟨.hbm, 764, rfl⟩
abbrev main_v648 : Ref sig .tc := ⟨.hbm, 765, rfl⟩
abbrev main_v649 : Ref sig .tc := ⟨.hbm, 766, rfl⟩
abbrev main_v650 : Ref sig .tc := ⟨.hbm, 767, rfl⟩
abbrev main_v651 : Ref sig .tc := ⟨.hbm, 768, rfl⟩
abbrev main_v652 : Ref sig .tc := ⟨.hbm, 769, rfl⟩
abbrev main_cst_96 : Ref sig .tc := ⟨.hbm, 770, rfl⟩
abbrev main_v653 : Ref sig .tc := ⟨.hbm, 771, rfl⟩
abbrev main_cst_97 : Ref sig .tc := ⟨.hbm, 772, rfl⟩
abbrev main_v654 : Ref sig .tc := ⟨.hbm, 773, rfl⟩
abbrev main_v655 : Ref sig .tc := ⟨.hbm, 774, rfl⟩
abbrev main_v656 : Ref sig .tc := ⟨.hbm, 775, rfl⟩
abbrev main_v657 : Ref sig .tc := ⟨.hbm, 776, rfl⟩
abbrev main_v658 : Ref sig .tc := ⟨.hbm, 777, rfl⟩
abbrev main_v659 : Ref sig .tc := ⟨.hbm, 778, rfl⟩
abbrev main_cst_98 : Ref sig .tc := ⟨.hbm, 779, rfl⟩
abbrev main_v660 : Ref sig .tc := ⟨.hbm, 780, rfl⟩
abbrev main_v661 : Ref sig .tc := ⟨.hbm, 781, rfl⟩
abbrev main_v662 : Ref sig .tc := ⟨.hbm, 782, rfl⟩
abbrev main_v663 : Ref sig .tc := ⟨.hbm, 783, rfl⟩
abbrev main_v664 : Ref sig .tc := ⟨.hbm, 784, rfl⟩
abbrev main_cst_99 : Ref sig .tc := ⟨.hbm, 785, rfl⟩
abbrev main_v665 : Ref sig .tc := ⟨.hbm, 786, rfl⟩
abbrev main_c_100 : Ref sig .tc := ⟨.hbm, 787, rfl⟩
abbrev main_v666 : Ref sig .tc := ⟨.hbm, 788, rfl⟩
abbrev main_v667 : Ref sig .tc := ⟨.hbm, 789, rfl⟩
abbrev main_c_101 : Ref sig .tc := ⟨.hbm, 790, rfl⟩
abbrev main_v668 : Ref sig .tc := ⟨.hbm, 791, rfl⟩
abbrev main_v669 : Ref sig .tc := ⟨.hbm, 792, rfl⟩
abbrev main_v670 : Ref sig .tc := ⟨.hbm, 793, rfl⟩
abbrev main_v671 : Ref sig .tc := ⟨.hbm, 794, rfl⟩
abbrev main_v672 : Ref sig .tc := ⟨.hbm, 795, rfl⟩
abbrev main_v673 : Ref sig .tc := ⟨.hbm, 796, rfl⟩
abbrev main_v674 : Ref sig .tc := ⟨.hbm, 797, rfl⟩
abbrev main_v675 : Ref sig .tc := ⟨.hbm, 798, rfl⟩
abbrev main_v676 : Ref sig .tc := ⟨.hbm, 799, rfl⟩
abbrev main_v677 : Ref sig .tc := ⟨.hbm, 800, rfl⟩
abbrev main_v678 : Ref sig .tc := ⟨.hbm, 801, rfl⟩
abbrev main_v679 : Ref sig .tc := ⟨.hbm, 802, rfl⟩
abbrev main_v680 : Ref sig .tc := ⟨.hbm, 803, rfl⟩
abbrev main_v681 : Ref sig .tc := ⟨.hbm, 804, rfl⟩
abbrev main_v682 : Ref sig .tc := ⟨.hbm, 805, rfl⟩
abbrev main_v683 : Ref sig .tc := ⟨.hbm, 806, rfl⟩
abbrev main_v684 : Ref sig .tc := ⟨.hbm, 807, rfl⟩
abbrev main_v685 : Ref sig .tc := ⟨.hbm, 808, rfl⟩
abbrev main_v686 : Ref sig .tc := ⟨.hbm, 809, rfl⟩
abbrev main_v687 : Ref sig .tc := ⟨.hbm, 810, rfl⟩
abbrev main_v688 : Ref sig .tc := ⟨.hbm, 811, rfl⟩
abbrev main_v689 : Ref sig .tc := ⟨.hbm, 812, rfl⟩
abbrev main_v690 : Ref sig .tc := ⟨.hbm, 813, rfl⟩
abbrev main_v691 : Ref sig .tc := ⟨.hbm, 814, rfl⟩
abbrev main_cst_102 : Ref sig .tc := ⟨.hbm, 815, rfl⟩
abbrev main_v692 : Ref sig .tc := ⟨.hbm, 816, rfl⟩
abbrev main_cst_103 : Ref sig .tc := ⟨.hbm, 817, rfl⟩
abbrev main_v693 : Ref sig .tc := ⟨.hbm, 818, rfl⟩
abbrev main_v694 : Ref sig .tc := ⟨.hbm, 819, rfl⟩
abbrev main_v695 : Ref sig .tc := ⟨.hbm, 820, rfl⟩
abbrev main_v696 : Ref sig .tc := ⟨.hbm, 821, rfl⟩
abbrev main_v697 : Ref sig .tc := ⟨.hbm, 822, rfl⟩
abbrev main_v698 : Ref sig .tc := ⟨.hbm, 823, rfl⟩
abbrev main_cst_104 : Ref sig .tc := ⟨.hbm, 824, rfl⟩
abbrev main_v699 : Ref sig .tc := ⟨.hbm, 825, rfl⟩
abbrev main_v700 : Ref sig .tc := ⟨.hbm, 826, rfl⟩
abbrev main_v701 : Ref sig .tc := ⟨.hbm, 827, rfl⟩
abbrev main_v702 : Ref sig .tc := ⟨.hbm, 828, rfl⟩
abbrev main_v703 : Ref sig .tc := ⟨.hbm, 829, rfl⟩
abbrev main_cst_105 : Ref sig .tc := ⟨.hbm, 830, rfl⟩
abbrev main_v704 : Ref sig .tc := ⟨.hbm, 831, rfl⟩
abbrev main_c_106 : Ref sig .tc := ⟨.hbm, 832, rfl⟩
abbrev main_v705 : Ref sig .tc := ⟨.hbm, 833, rfl⟩
abbrev main_v706 : Ref sig .tc := ⟨.hbm, 834, rfl⟩
abbrev main_c_107 : Ref sig .tc := ⟨.hbm, 835, rfl⟩
abbrev main_v707 : Ref sig .tc := ⟨.hbm, 836, rfl⟩
abbrev main_v708 : Ref sig .tc := ⟨.hbm, 837, rfl⟩
abbrev main_v709 : Ref sig .tc := ⟨.hbm, 838, rfl⟩
abbrev main_v710 : Ref sig .tc := ⟨.hbm, 839, rfl⟩
abbrev main_v711 : Ref sig .tc := ⟨.hbm, 840, rfl⟩
abbrev main_v712 : Ref sig .tc := ⟨.hbm, 841, rfl⟩
abbrev main_v713 : Ref sig .tc := ⟨.hbm, 842, rfl⟩
abbrev main_v714 : Ref sig .tc := ⟨.hbm, 843, rfl⟩
abbrev main_v715 : Ref sig .tc := ⟨.hbm, 844, rfl⟩
abbrev main_v716 : Ref sig .tc := ⟨.hbm, 845, rfl⟩
abbrev main_v717 : Ref sig .tc := ⟨.hbm, 846, rfl⟩
abbrev main_v718 : Ref sig .tc := ⟨.hbm, 847, rfl⟩
abbrev main_v719 : Ref sig .tc := ⟨.hbm, 848, rfl⟩
abbrev main_v720 : Ref sig .tc := ⟨.hbm, 849, rfl⟩
abbrev main_v721 : Ref sig .tc := ⟨.hbm, 850, rfl⟩
abbrev main_v722 : Ref sig .tc := ⟨.hbm, 851, rfl⟩
abbrev main_v723 : Ref sig .tc := ⟨.hbm, 852, rfl⟩
abbrev main_v724 : Ref sig .tc := ⟨.hbm, 853, rfl⟩
abbrev main_v725 : Ref sig .tc := ⟨.hbm, 854, rfl⟩
abbrev main_v726 : Ref sig .tc := ⟨.hbm, 855, rfl⟩
abbrev main_v727 : Ref sig .tc := ⟨.hbm, 856, rfl⟩
abbrev main_v728 : Ref sig .tc := ⟨.hbm, 857, rfl⟩
abbrev main_v729 : Ref sig .tc := ⟨.hbm, 858, rfl⟩
abbrev main_v730 : Ref sig .tc := ⟨.hbm, 859, rfl⟩
abbrev main_cst_108 : Ref sig .tc := ⟨.hbm, 860, rfl⟩
abbrev main_v731 : Ref sig .tc := ⟨.hbm, 861, rfl⟩
abbrev main_cst_109 : Ref sig .tc := ⟨.hbm, 862, rfl⟩
abbrev main_v732 : Ref sig .tc := ⟨.hbm, 863, rfl⟩
abbrev main_v733 : Ref sig .tc := ⟨.hbm, 864, rfl⟩
abbrev main_v734 : Ref sig .tc := ⟨.hbm, 865, rfl⟩
abbrev main_v735 : Ref sig .tc := ⟨.hbm, 866, rfl⟩
abbrev main_v736 : Ref sig .tc := ⟨.hbm, 867, rfl⟩
abbrev main_v737 : Ref sig .tc := ⟨.hbm, 868, rfl⟩
abbrev main_cst_110 : Ref sig .tc := ⟨.hbm, 869, rfl⟩
abbrev main_v738 : Ref sig .tc := ⟨.hbm, 870, rfl⟩
abbrev main_v739 : Ref sig .tc := ⟨.hbm, 871, rfl⟩
abbrev main_v740 : Ref sig .tc := ⟨.hbm, 872, rfl⟩
abbrev main_v741 : Ref sig .tc := ⟨.hbm, 873, rfl⟩
abbrev main_v742 : Ref sig .tc := ⟨.hbm, 874, rfl⟩
abbrev main_cst_111 : Ref sig .tc := ⟨.hbm, 875, rfl⟩
abbrev main_v743 : Ref sig .tc := ⟨.hbm, 876, rfl⟩
abbrev main_c_112 : Ref sig .tc := ⟨.hbm, 877, rfl⟩
abbrev main_v744 : Ref sig .tc := ⟨.hbm, 878, rfl⟩
abbrev main_v745 : Ref sig .tc := ⟨.hbm, 879, rfl⟩
abbrev main_c_113 : Ref sig .tc := ⟨.hbm, 880, rfl⟩
abbrev main_v746 : Ref sig .tc := ⟨.hbm, 881, rfl⟩
abbrev main_v747 : Ref sig .tc := ⟨.hbm, 882, rfl⟩
abbrev main_v748 : Ref sig .tc := ⟨.hbm, 883, rfl⟩
abbrev main_v749 : Ref sig .tc := ⟨.hbm, 884, rfl⟩
abbrev main_v750 : Ref sig .tc := ⟨.hbm, 885, rfl⟩
abbrev main_v751 : Ref sig .tc := ⟨.hbm, 886, rfl⟩
abbrev main_v752 : Ref sig .tc := ⟨.hbm, 887, rfl⟩
abbrev main_v753 : Ref sig .tc := ⟨.hbm, 888, rfl⟩
abbrev main_v754 : Ref sig .tc := ⟨.hbm, 889, rfl⟩
abbrev main_v755 : Ref sig .tc := ⟨.hbm, 890, rfl⟩
abbrev main_v756 : Ref sig .tc := ⟨.hbm, 891, rfl⟩
abbrev main_v757 : Ref sig .tc := ⟨.hbm, 892, rfl⟩
abbrev main_v758 : Ref sig .tc := ⟨.hbm, 893, rfl⟩
abbrev main_v759 : Ref sig .tc := ⟨.hbm, 894, rfl⟩
abbrev main_v760 : Ref sig .tc := ⟨.hbm, 895, rfl⟩
abbrev main_v761 : Ref sig .tc := ⟨.hbm, 896, rfl⟩
abbrev main_v762 : Ref sig .tc := ⟨.hbm, 897, rfl⟩
abbrev main_v763 : Ref sig .tc := ⟨.hbm, 898, rfl⟩
abbrev main_v764 : Ref sig .tc := ⟨.hbm, 899, rfl⟩
abbrev main_v765 : Ref sig .tc := ⟨.hbm, 900, rfl⟩
abbrev main_v766 : Ref sig .tc := ⟨.hbm, 901, rfl⟩
abbrev main_v767 : Ref sig .tc := ⟨.hbm, 902, rfl⟩
abbrev main_v768 : Ref sig .tc := ⟨.hbm, 903, rfl⟩
abbrev main_v769 : Ref sig .tc := ⟨.hbm, 904, rfl⟩
abbrev main_cst_114 : Ref sig .tc := ⟨.hbm, 905, rfl⟩
abbrev main_v770 : Ref sig .tc := ⟨.hbm, 906, rfl⟩
abbrev main_cst_115 : Ref sig .tc := ⟨.hbm, 907, rfl⟩
abbrev main_v771 : Ref sig .tc := ⟨.hbm, 908, rfl⟩
abbrev main_v772 : Ref sig .tc := ⟨.hbm, 909, rfl⟩
abbrev main_v773 : Ref sig .tc := ⟨.hbm, 910, rfl⟩
abbrev main_v774 : Ref sig .tc := ⟨.hbm, 911, rfl⟩
abbrev main_v775 : Ref sig .tc := ⟨.hbm, 912, rfl⟩
abbrev main_v776 : Ref sig .tc := ⟨.hbm, 913, rfl⟩
abbrev main_cst_116 : Ref sig .tc := ⟨.hbm, 914, rfl⟩
abbrev main_v777 : Ref sig .tc := ⟨.hbm, 915, rfl⟩
abbrev main_v778 : Ref sig .tc := ⟨.hbm, 916, rfl⟩
abbrev main_v779 : Ref sig .tc := ⟨.hbm, 917, rfl⟩
abbrev main_v780 : Ref sig .tc := ⟨.hbm, 918, rfl⟩
abbrev main_v781 : Ref sig .tc := ⟨.hbm, 919, rfl⟩
abbrev main_cst_117 : Ref sig .tc := ⟨.hbm, 920, rfl⟩
abbrev main_v782 : Ref sig .tc := ⟨.hbm, 921, rfl⟩
abbrev main_c_118 : Ref sig .tc := ⟨.hbm, 922, rfl⟩
abbrev main_v783 : Ref sig .tc := ⟨.hbm, 923, rfl⟩
abbrev main_v784 : Ref sig .tc := ⟨.hbm, 924, rfl⟩
abbrev main_c_119 : Ref sig .tc := ⟨.hbm, 925, rfl⟩
abbrev main_v785 : Ref sig .tc := ⟨.hbm, 926, rfl⟩
abbrev main_v786 : Ref sig .tc := ⟨.hbm, 927, rfl⟩
abbrev main_v787 : Ref sig .tc := ⟨.hbm, 928, rfl⟩
abbrev main_v788 : Ref sig .tc := ⟨.hbm, 929, rfl⟩
abbrev main_v789 : Ref sig .tc := ⟨.hbm, 930, rfl⟩
abbrev main_v790 : Ref sig .tc := ⟨.hbm, 931, rfl⟩
abbrev main_v791 : Ref sig .tc := ⟨.hbm, 932, rfl⟩
abbrev main_v792 : Ref sig .tc := ⟨.hbm, 933, rfl⟩
abbrev main_v793 : Ref sig .tc := ⟨.hbm, 934, rfl⟩
abbrev main_v794 : Ref sig .tc := ⟨.hbm, 935, rfl⟩
abbrev main_v795 : Ref sig .tc := ⟨.hbm, 936, rfl⟩
abbrev main_v796 : Ref sig .tc := ⟨.hbm, 937, rfl⟩
abbrev main_v797 : Ref sig .tc := ⟨.hbm, 938, rfl⟩
abbrev main_v798 : Ref sig .tc := ⟨.hbm, 939, rfl⟩
abbrev main_v799 : Ref sig .tc := ⟨.hbm, 940, rfl⟩
abbrev main_v800 : Ref sig .tc := ⟨.hbm, 941, rfl⟩
abbrev main_v801 : Ref sig .tc := ⟨.hbm, 942, rfl⟩
abbrev main_v802 : Ref sig .tc := ⟨.hbm, 943, rfl⟩
abbrev main_v803 : Ref sig .tc := ⟨.hbm, 944, rfl⟩
abbrev main_v804 : Ref sig .tc := ⟨.hbm, 945, rfl⟩
abbrev main_v805 : Ref sig .tc := ⟨.hbm, 946, rfl⟩
abbrev main_v806 : Ref sig .tc := ⟨.hbm, 947, rfl⟩
abbrev main_v807 : Ref sig .tc := ⟨.hbm, 948, rfl⟩
abbrev main_v808 : Ref sig .tc := ⟨.hbm, 949, rfl⟩
abbrev main_cst_120 : Ref sig .tc := ⟨.hbm, 950, rfl⟩
abbrev main_v809 : Ref sig .tc := ⟨.hbm, 951, rfl⟩
abbrev main_cst_121 : Ref sig .tc := ⟨.hbm, 952, rfl⟩
abbrev main_v810 : Ref sig .tc := ⟨.hbm, 953, rfl⟩
abbrev main_v811 : Ref sig .tc := ⟨.hbm, 954, rfl⟩
abbrev main_v812 : Ref sig .tc := ⟨.hbm, 955, rfl⟩
abbrev main_v813 : Ref sig .tc := ⟨.hbm, 956, rfl⟩
abbrev main_v814 : Ref sig .tc := ⟨.hbm, 957, rfl⟩
abbrev main_v815 : Ref sig .tc := ⟨.hbm, 958, rfl⟩
abbrev main_cst_122 : Ref sig .tc := ⟨.hbm, 959, rfl⟩
abbrev main_v816 : Ref sig .tc := ⟨.hbm, 960, rfl⟩
abbrev main_v817 : Ref sig .tc := ⟨.hbm, 961, rfl⟩
abbrev main_v818 : Ref sig .tc := ⟨.hbm, 962, rfl⟩
abbrev main_v819 : Ref sig .tc := ⟨.hbm, 963, rfl⟩
abbrev main_v820 : Ref sig .tc := ⟨.hbm, 964, rfl⟩
abbrev main_cst_123 : Ref sig .tc := ⟨.hbm, 965, rfl⟩
abbrev main_v821 : Ref sig .tc := ⟨.hbm, 966, rfl⟩
abbrev main_c_124 : Ref sig .tc := ⟨.hbm, 967, rfl⟩
abbrev main_v822 : Ref sig .tc := ⟨.hbm, 968, rfl⟩
abbrev main_v823 : Ref sig .tc := ⟨.hbm, 969, rfl⟩
abbrev main_c_125 : Ref sig .tc := ⟨.hbm, 970, rfl⟩
abbrev main_v824 : Ref sig .tc := ⟨.hbm, 971, rfl⟩
abbrev main_v825 : Ref sig .tc := ⟨.hbm, 972, rfl⟩
abbrev main_v826 : Ref sig .tc := ⟨.hbm, 973, rfl⟩
abbrev main_v827 : Ref sig .tc := ⟨.hbm, 974, rfl⟩
abbrev main_v828 : Ref sig .tc := ⟨.hbm, 975, rfl⟩
abbrev main_v829 : Ref sig .tc := ⟨.hbm, 976, rfl⟩
abbrev main_v830 : Ref sig .tc := ⟨.hbm, 977, rfl⟩
abbrev main_v831 : Ref sig .tc := ⟨.hbm, 978, rfl⟩
abbrev main_v832 : Ref sig .tc := ⟨.hbm, 979, rfl⟩
abbrev main_v833 : Ref sig .tc := ⟨.hbm, 980, rfl⟩
abbrev main_v834 : Ref sig .tc := ⟨.hbm, 981, rfl⟩
abbrev main_v835 : Ref sig .tc := ⟨.hbm, 982, rfl⟩
abbrev main_v836 : Ref sig .tc := ⟨.hbm, 983, rfl⟩
abbrev main_v837 : Ref sig .tc := ⟨.hbm, 984, rfl⟩
abbrev main_v838 : Ref sig .tc := ⟨.hbm, 985, rfl⟩
abbrev main_v839 : Ref sig .tc := ⟨.hbm, 986, rfl⟩
abbrev main_v840 : Ref sig .tc := ⟨.hbm, 987, rfl⟩
abbrev main_v841 : Ref sig .tc := ⟨.hbm, 988, rfl⟩
abbrev main_v842 : Ref sig .tc := ⟨.hbm, 989, rfl⟩
abbrev main_v843 : Ref sig .tc := ⟨.hbm, 990, rfl⟩
abbrev main_v844 : Ref sig .tc := ⟨.hbm, 991, rfl⟩
abbrev main_v845 : Ref sig .tc := ⟨.hbm, 992, rfl⟩
abbrev main_v846 : Ref sig .tc := ⟨.hbm, 993, rfl⟩
abbrev main_v847 : Ref sig .tc := ⟨.hbm, 994, rfl⟩
abbrev main_cst_126 : Ref sig .tc := ⟨.hbm, 995, rfl⟩
abbrev main_v848 : Ref sig .tc := ⟨.hbm, 996, rfl⟩
abbrev main_cst_127 : Ref sig .tc := ⟨.hbm, 997, rfl⟩
abbrev main_v849 : Ref sig .tc := ⟨.hbm, 998, rfl⟩
abbrev main_v850 : Ref sig .tc := ⟨.hbm, 999, rfl⟩
abbrev main_v851 : Ref sig .tc := ⟨.hbm, 1000, rfl⟩
abbrev main_v852 : Ref sig .tc := ⟨.hbm, 1001, rfl⟩
abbrev main_v853 : Ref sig .tc := ⟨.hbm, 1002, rfl⟩
abbrev main_v854 : Ref sig .tc := ⟨.hbm, 1003, rfl⟩
abbrev main_cst_128 : Ref sig .tc := ⟨.hbm, 1004, rfl⟩
abbrev main_v855 : Ref sig .tc := ⟨.hbm, 1005, rfl⟩
abbrev main_v856 : Ref sig .tc := ⟨.hbm, 1006, rfl⟩
abbrev main_v857 : Ref sig .tc := ⟨.hbm, 1007, rfl⟩
abbrev main_v858 : Ref sig .tc := ⟨.hbm, 1008, rfl⟩
abbrev main_v859 : Ref sig .tc := ⟨.hbm, 1009, rfl⟩
abbrev main_cst_129 : Ref sig .tc := ⟨.hbm, 1010, rfl⟩
abbrev main_v860 : Ref sig .tc := ⟨.hbm, 1011, rfl⟩
abbrev main_c_130 : Ref sig .tc := ⟨.hbm, 1012, rfl⟩
abbrev main_v861 : Ref sig .tc := ⟨.hbm, 1013, rfl⟩
abbrev main_v862 : Ref sig .tc := ⟨.hbm, 1014, rfl⟩
abbrev main_c_131 : Ref sig .tc := ⟨.hbm, 1015, rfl⟩
abbrev main_v863 : Ref sig .tc := ⟨.hbm, 1016, rfl⟩
abbrev main_v864 : Ref sig .tc := ⟨.hbm, 1017, rfl⟩
abbrev main_v865 : Ref sig .tc := ⟨.hbm, 1018, rfl⟩
abbrev main_v866 : Ref sig .tc := ⟨.hbm, 1019, rfl⟩
abbrev main_v867 : Ref sig .tc := ⟨.hbm, 1020, rfl⟩
abbrev main_v868 : Ref sig .tc := ⟨.hbm, 1021, rfl⟩
abbrev main_v869 : Ref sig .tc := ⟨.hbm, 1022, rfl⟩
abbrev main_v870 : Ref sig .tc := ⟨.hbm, 1023, rfl⟩
abbrev main_v871 : Ref sig .tc := ⟨.hbm, 1024, rfl⟩
abbrev main_v872 : Ref sig .tc := ⟨.hbm, 1025, rfl⟩
abbrev main_v873 : Ref sig .tc := ⟨.hbm, 1026, rfl⟩
abbrev main_v874 : Ref sig .tc := ⟨.hbm, 1027, rfl⟩
abbrev main_v875 : Ref sig .tc := ⟨.hbm, 1028, rfl⟩
abbrev main_v876 : Ref sig .tc := ⟨.hbm, 1029, rfl⟩
abbrev main_v877 : Ref sig .tc := ⟨.hbm, 1030, rfl⟩
abbrev main_v878 : Ref sig .tc := ⟨.hbm, 1031, rfl⟩
abbrev main_v879 : Ref sig .tc := ⟨.hbm, 1032, rfl⟩
abbrev main_v880 : Ref sig .tc := ⟨.hbm, 1033, rfl⟩
abbrev main_v881 : Ref sig .tc := ⟨.hbm, 1034, rfl⟩
abbrev main_v882 : Ref sig .tc := ⟨.hbm, 1035, rfl⟩
abbrev main_v883 : Ref sig .tc := ⟨.hbm, 1036, rfl⟩
abbrev main_v884 : Ref sig .tc := ⟨.hbm, 1037, rfl⟩
abbrev main_v885 : Ref sig .tc := ⟨.hbm, 1038, rfl⟩
abbrev main_v886 : Ref sig .tc := ⟨.hbm, 1039, rfl⟩
abbrev main_cst_132 : Ref sig .tc := ⟨.hbm, 1040, rfl⟩
abbrev main_v887 : Ref sig .tc := ⟨.hbm, 1041, rfl⟩
abbrev main_cst_133 : Ref sig .tc := ⟨.hbm, 1042, rfl⟩
abbrev main_v888 : Ref sig .tc := ⟨.hbm, 1043, rfl⟩
abbrev main_v889 : Ref sig .tc := ⟨.hbm, 1044, rfl⟩
abbrev main_v890 : Ref sig .tc := ⟨.hbm, 1045, rfl⟩
abbrev main_v891 : Ref sig .tc := ⟨.hbm, 1046, rfl⟩
abbrev main_v892 : Ref sig .tc := ⟨.hbm, 1047, rfl⟩
abbrev main_v893 : Ref sig .tc := ⟨.hbm, 1048, rfl⟩
abbrev main_cst_134 : Ref sig .tc := ⟨.hbm, 1049, rfl⟩
abbrev main_v894 : Ref sig .tc := ⟨.hbm, 1050, rfl⟩
abbrev main_v895 : Ref sig .tc := ⟨.hbm, 1051, rfl⟩
abbrev main_v896 : Ref sig .tc := ⟨.hbm, 1052, rfl⟩
abbrev main_v897 : Ref sig .tc := ⟨.hbm, 1053, rfl⟩
abbrev main_v898 : Ref sig .tc := ⟨.hbm, 1054, rfl⟩
abbrev main_cst_135 : Ref sig .tc := ⟨.hbm, 1055, rfl⟩
abbrev main_v899 : Ref sig .tc := ⟨.hbm, 1056, rfl⟩
abbrev main_c_136 : Ref sig .tc := ⟨.hbm, 1057, rfl⟩
abbrev main_v900 : Ref sig .tc := ⟨.hbm, 1058, rfl⟩
abbrev main_v901 : Ref sig .tc := ⟨.hbm, 1059, rfl⟩
abbrev main_c_137 : Ref sig .tc := ⟨.hbm, 1060, rfl⟩
abbrev main_v902 : Ref sig .tc := ⟨.hbm, 1061, rfl⟩
abbrev main_v903 : Ref sig .tc := ⟨.hbm, 1062, rfl⟩
abbrev main_v904 : Ref sig .tc := ⟨.hbm, 1063, rfl⟩
abbrev main_v905 : Ref sig .tc := ⟨.hbm, 1064, rfl⟩
abbrev main_v906 : Ref sig .tc := ⟨.hbm, 1065, rfl⟩
abbrev main_v907 : Ref sig .tc := ⟨.hbm, 1066, rfl⟩
abbrev main_v908 : Ref sig .tc := ⟨.hbm, 1067, rfl⟩
abbrev main_v909 : Ref sig .tc := ⟨.hbm, 1068, rfl⟩
abbrev main_v910 : Ref sig .tc := ⟨.hbm, 1069, rfl⟩
abbrev main_v911 : Ref sig .tc := ⟨.hbm, 1070, rfl⟩
abbrev main_v912 : Ref sig .tc := ⟨.hbm, 1071, rfl⟩
abbrev main_v913 : Ref sig .tc := ⟨.hbm, 1072, rfl⟩
abbrev main_v914 : Ref sig .tc := ⟨.hbm, 1073, rfl⟩
abbrev main_v915 : Ref sig .tc := ⟨.hbm, 1074, rfl⟩
abbrev main_v916 : Ref sig .tc := ⟨.hbm, 1075, rfl⟩
abbrev main_v917 : Ref sig .tc := ⟨.hbm, 1076, rfl⟩
abbrev main_v918 : Ref sig .tc := ⟨.hbm, 1077, rfl⟩
abbrev main_v919 : Ref sig .tc := ⟨.hbm, 1078, rfl⟩
abbrev main_v920 : Ref sig .tc := ⟨.hbm, 1079, rfl⟩
abbrev main_v921 : Ref sig .tc := ⟨.hbm, 1080, rfl⟩
abbrev main_v922 : Ref sig .tc := ⟨.hbm, 1081, rfl⟩
abbrev main_v923 : Ref sig .tc := ⟨.hbm, 1082, rfl⟩
abbrev main_v924 : Ref sig .tc := ⟨.hbm, 1083, rfl⟩
abbrev main_v925 : Ref sig .tc := ⟨.hbm, 1084, rfl⟩
abbrev main_cst_138 : Ref sig .tc := ⟨.hbm, 1085, rfl⟩
abbrev main_v926 : Ref sig .tc := ⟨.hbm, 1086, rfl⟩
abbrev main_cst_139 : Ref sig .tc := ⟨.hbm, 1087, rfl⟩
abbrev main_v927 : Ref sig .tc := ⟨.hbm, 1088, rfl⟩
abbrev main_v928 : Ref sig .tc := ⟨.hbm, 1089, rfl⟩
abbrev main_v929 : Ref sig .tc := ⟨.hbm, 1090, rfl⟩
abbrev main_v930 : Ref sig .tc := ⟨.hbm, 1091, rfl⟩
abbrev main_v931 : Ref sig .tc := ⟨.hbm, 1092, rfl⟩
abbrev main_v932 : Ref sig .tc := ⟨.hbm, 1093, rfl⟩
abbrev main_cst_140 : Ref sig .tc := ⟨.hbm, 1094, rfl⟩
abbrev main_v933 : Ref sig .tc := ⟨.hbm, 1095, rfl⟩
abbrev main_v934 : Ref sig .tc := ⟨.hbm, 1096, rfl⟩
abbrev main_v935 : Ref sig .tc := ⟨.hbm, 1097, rfl⟩
abbrev main_v936 : Ref sig .tc := ⟨.hbm, 1098, rfl⟩
abbrev main_v937 : Ref sig .tc := ⟨.hbm, 1099, rfl⟩
abbrev main_cst_141 : Ref sig .tc := ⟨.hbm, 1100, rfl⟩
abbrev main_v938 : Ref sig .tc := ⟨.hbm, 1101, rfl⟩
abbrev main_c_142 : Ref sig .tc := ⟨.hbm, 1102, rfl⟩
abbrev main_v939 : Ref sig .tc := ⟨.hbm, 1103, rfl⟩
abbrev main_v940 : Ref sig .tc := ⟨.hbm, 1104, rfl⟩
abbrev main_c_143 : Ref sig .tc := ⟨.hbm, 1105, rfl⟩
abbrev main_v941 : Ref sig .tc := ⟨.hbm, 1106, rfl⟩
abbrev main_v942 : Ref sig .tc := ⟨.hbm, 1107, rfl⟩
abbrev main_v943 : Ref sig .tc := ⟨.hbm, 1108, rfl⟩
abbrev main_v944 : Ref sig .tc := ⟨.hbm, 1109, rfl⟩
abbrev main_v945 : Ref sig .tc := ⟨.hbm, 1110, rfl⟩
abbrev main_v946 : Ref sig .tc := ⟨.hbm, 1111, rfl⟩
abbrev main_v947 : Ref sig .tc := ⟨.hbm, 1112, rfl⟩
abbrev main_v948 : Ref sig .tc := ⟨.hbm, 1113, rfl⟩
abbrev main_v949 : Ref sig .tc := ⟨.hbm, 1114, rfl⟩
abbrev main_v950 : Ref sig .tc := ⟨.hbm, 1115, rfl⟩
abbrev main_v951 : Ref sig .tc := ⟨.hbm, 1116, rfl⟩
abbrev main_v952 : Ref sig .tc := ⟨.hbm, 1117, rfl⟩
abbrev main_v953 : Ref sig .tc := ⟨.hbm, 1118, rfl⟩
abbrev main_v954 : Ref sig .tc := ⟨.hbm, 1119, rfl⟩
abbrev main_v955 : Ref sig .tc := ⟨.hbm, 1120, rfl⟩
abbrev main_v956 : Ref sig .tc := ⟨.hbm, 1121, rfl⟩
abbrev main_v957 : Ref sig .tc := ⟨.hbm, 1122, rfl⟩
abbrev main_v958 : Ref sig .tc := ⟨.hbm, 1123, rfl⟩
abbrev main_v959 : Ref sig .tc := ⟨.hbm, 1124, rfl⟩
abbrev main_v960 : Ref sig .tc := ⟨.hbm, 1125, rfl⟩
abbrev main_v961 : Ref sig .tc := ⟨.hbm, 1126, rfl⟩
abbrev main_v962 : Ref sig .tc := ⟨.hbm, 1127, rfl⟩
abbrev main_v963 : Ref sig .tc := ⟨.hbm, 1128, rfl⟩
abbrev main_v964 : Ref sig .tc := ⟨.hbm, 1129, rfl⟩
abbrev main_cst_144 : Ref sig .tc := ⟨.hbm, 1130, rfl⟩
abbrev main_v965 : Ref sig .tc := ⟨.hbm, 1131, rfl⟩
abbrev main_cst_145 : Ref sig .tc := ⟨.hbm, 1132, rfl⟩
abbrev main_v966 : Ref sig .tc := ⟨.hbm, 1133, rfl⟩
abbrev main_v967 : Ref sig .tc := ⟨.hbm, 1134, rfl⟩
abbrev main_v968 : Ref sig .tc := ⟨.hbm, 1135, rfl⟩
abbrev main_v969 : Ref sig .tc := ⟨.hbm, 1136, rfl⟩
abbrev main_v970 : Ref sig .tc := ⟨.hbm, 1137, rfl⟩
abbrev main_v971 : Ref sig .tc := ⟨.hbm, 1138, rfl⟩
abbrev main_cst_146 : Ref sig .tc := ⟨.hbm, 1139, rfl⟩
abbrev main_v972 : Ref sig .tc := ⟨.hbm, 1140, rfl⟩
abbrev main_v973 : Ref sig .tc := ⟨.hbm, 1141, rfl⟩
abbrev main_v974 : Ref sig .tc := ⟨.hbm, 1142, rfl⟩
abbrev main_v975 : Ref sig .tc := ⟨.hbm, 1143, rfl⟩
abbrev main_v976 : Ref sig .tc := ⟨.hbm, 1144, rfl⟩
abbrev main_cst_147 : Ref sig .tc := ⟨.hbm, 1145, rfl⟩
abbrev main_v977 : Ref sig .tc := ⟨.hbm, 1146, rfl⟩
abbrev main_c_148 : Ref sig .tc := ⟨.hbm, 1147, rfl⟩
abbrev main_v978 : Ref sig .tc := ⟨.hbm, 1148, rfl⟩
abbrev main_v979 : Ref sig .tc := ⟨.hbm, 1149, rfl⟩
abbrev main_c_149 : Ref sig .tc := ⟨.hbm, 1150, rfl⟩
abbrev main_v980 : Ref sig .tc := ⟨.hbm, 1151, rfl⟩
abbrev main_v981 : Ref sig .tc := ⟨.hbm, 1152, rfl⟩
abbrev main_v982 : Ref sig .tc := ⟨.hbm, 1153, rfl⟩
abbrev main_v983 : Ref sig .tc := ⟨.hbm, 1154, rfl⟩
abbrev main_v984 : Ref sig .tc := ⟨.hbm, 1155, rfl⟩
abbrev main_v985 : Ref sig .tc := ⟨.hbm, 1156, rfl⟩
abbrev main_v986 : Ref sig .tc := ⟨.hbm, 1157, rfl⟩
abbrev main_v987 : Ref sig .tc := ⟨.hbm, 1158, rfl⟩
abbrev main_v988 : Ref sig .tc := ⟨.hbm, 1159, rfl⟩
abbrev main_v989 : Ref sig .tc := ⟨.hbm, 1160, rfl⟩
abbrev main_v990 : Ref sig .tc := ⟨.hbm, 1161, rfl⟩
abbrev main_v991 : Ref sig .tc := ⟨.hbm, 1162, rfl⟩
abbrev main_v992 : Ref sig .tc := ⟨.hbm, 1163, rfl⟩
abbrev main_v993 : Ref sig .tc := ⟨.hbm, 1164, rfl⟩
abbrev main_v994 : Ref sig .tc := ⟨.hbm, 1165, rfl⟩
abbrev main_v995 : Ref sig .tc := ⟨.hbm, 1166, rfl⟩
abbrev main_v996 : Ref sig .tc := ⟨.hbm, 1167, rfl⟩
abbrev main_v997 : Ref sig .tc := ⟨.hbm, 1168, rfl⟩
abbrev main_v998 : Ref sig .tc := ⟨.hbm, 1169, rfl⟩
abbrev main_v999 : Ref sig .tc := ⟨.hbm, 1170, rfl⟩
abbrev main_v1000 : Ref sig .tc := ⟨.hbm, 1171, rfl⟩
abbrev main_v1001 : Ref sig .tc := ⟨.hbm, 1172, rfl⟩
abbrev main_v1002 : Ref sig .tc := ⟨.hbm, 1173, rfl⟩
abbrev main_v1003 : Ref sig .tc := ⟨.hbm, 1174, rfl⟩
abbrev main_cst_150 : Ref sig .tc := ⟨.hbm, 1175, rfl⟩
abbrev main_v1004 : Ref sig .tc := ⟨.hbm, 1176, rfl⟩
abbrev main_cst_151 : Ref sig .tc := ⟨.hbm, 1177, rfl⟩
abbrev main_v1005 : Ref sig .tc := ⟨.hbm, 1178, rfl⟩
abbrev main_v1006 : Ref sig .tc := ⟨.hbm, 1179, rfl⟩
abbrev main_v1007 : Ref sig .tc := ⟨.hbm, 1180, rfl⟩
abbrev main_v1008 : Ref sig .tc := ⟨.hbm, 1181, rfl⟩
abbrev main_v1009 : Ref sig .tc := ⟨.hbm, 1182, rfl⟩
abbrev main_v1010 : Ref sig .tc := ⟨.hbm, 1183, rfl⟩
abbrev main_cst_152 : Ref sig .tc := ⟨.hbm, 1184, rfl⟩
abbrev main_v1011 : Ref sig .tc := ⟨.hbm, 1185, rfl⟩
abbrev main_v1012 : Ref sig .tc := ⟨.hbm, 1186, rfl⟩
abbrev main_v1013 : Ref sig .tc := ⟨.hbm, 1187, rfl⟩
abbrev main_v1014 : Ref sig .tc := ⟨.hbm, 1188, rfl⟩
abbrev main_v1015 : Ref sig .tc := ⟨.hbm, 1189, rfl⟩
abbrev main_cst_153 : Ref sig .tc := ⟨.hbm, 1190, rfl⟩
abbrev main_v1016 : Ref sig .tc := ⟨.hbm, 1191, rfl⟩
abbrev main_c_154 : Ref sig .tc := ⟨.hbm, 1192, rfl⟩
abbrev main_v1017 : Ref sig .tc := ⟨.hbm, 1193, rfl⟩
abbrev main_v1018 : Ref sig .tc := ⟨.hbm, 1194, rfl⟩
abbrev main_c_155 : Ref sig .tc := ⟨.hbm, 1195, rfl⟩
abbrev main_v1019 : Ref sig .tc := ⟨.hbm, 1196, rfl⟩
abbrev main_v1020 : Ref sig .tc := ⟨.hbm, 1197, rfl⟩
abbrev main_v1021 : Ref sig .tc := ⟨.hbm, 1198, rfl⟩
abbrev main_v1022 : Ref sig .tc := ⟨.hbm, 1199, rfl⟩
abbrev main_v1023 : Ref sig .tc := ⟨.hbm, 1200, rfl⟩
abbrev main_v1024 : Ref sig .tc := ⟨.hbm, 1201, rfl⟩
abbrev main_v1025 : Ref sig .tc := ⟨.hbm, 1202, rfl⟩
abbrev main_v1026 : Ref sig .tc := ⟨.hbm, 1203, rfl⟩
abbrev main_v1027 : Ref sig .tc := ⟨.hbm, 1204, rfl⟩
abbrev main_v1028 : Ref sig .tc := ⟨.hbm, 1205, rfl⟩
abbrev main_v1029 : Ref sig .tc := ⟨.hbm, 1206, rfl⟩
abbrev main_v1030 : Ref sig .tc := ⟨.hbm, 1207, rfl⟩
abbrev main_v1031 : Ref sig .tc := ⟨.hbm, 1208, rfl⟩
abbrev main_v1032 : Ref sig .tc := ⟨.hbm, 1209, rfl⟩
abbrev main_v1033 : Ref sig .tc := ⟨.hbm, 1210, rfl⟩
abbrev main_v1034 : Ref sig .tc := ⟨.hbm, 1211, rfl⟩
abbrev main_v1035 : Ref sig .tc := ⟨.hbm, 1212, rfl⟩
abbrev main_v1036 : Ref sig .tc := ⟨.hbm, 1213, rfl⟩
abbrev main_v1037 : Ref sig .tc := ⟨.hbm, 1214, rfl⟩
abbrev main_v1038 : Ref sig .tc := ⟨.hbm, 1215, rfl⟩
abbrev main_v1039 : Ref sig .tc := ⟨.hbm, 1216, rfl⟩
abbrev main_v1040 : Ref sig .tc := ⟨.hbm, 1217, rfl⟩
abbrev main_v1041 : Ref sig .tc := ⟨.hbm, 1218, rfl⟩
abbrev main_v1042 : Ref sig .tc := ⟨.hbm, 1219, rfl⟩
abbrev main_cst_156 : Ref sig .tc := ⟨.hbm, 1220, rfl⟩
abbrev main_v1043 : Ref sig .tc := ⟨.hbm, 1221, rfl⟩
abbrev main_cst_157 : Ref sig .tc := ⟨.hbm, 1222, rfl⟩
abbrev main_v1044 : Ref sig .tc := ⟨.hbm, 1223, rfl⟩
abbrev main_v1045 : Ref sig .tc := ⟨.hbm, 1224, rfl⟩
abbrev main_v1046 : Ref sig .tc := ⟨.hbm, 1225, rfl⟩
abbrev main_v1047 : Ref sig .tc := ⟨.hbm, 1226, rfl⟩
abbrev main_v1048 : Ref sig .tc := ⟨.hbm, 1227, rfl⟩
abbrev main_v1049 : Ref sig .tc := ⟨.hbm, 1228, rfl⟩
abbrev main_cst_158 : Ref sig .tc := ⟨.hbm, 1229, rfl⟩
abbrev main_v1050 : Ref sig .tc := ⟨.hbm, 1230, rfl⟩
abbrev main_v1051 : Ref sig .tc := ⟨.hbm, 1231, rfl⟩
abbrev main_v1052 : Ref sig .tc := ⟨.hbm, 1232, rfl⟩
abbrev main_v1053 : Ref sig .tc := ⟨.hbm, 1233, rfl⟩
abbrev main_v1054 : Ref sig .tc := ⟨.hbm, 1234, rfl⟩
abbrev main_cst_159 : Ref sig .tc := ⟨.hbm, 1235, rfl⟩
abbrev main_v1055 : Ref sig .tc := ⟨.hbm, 1236, rfl⟩
abbrev main_c_160 : Ref sig .tc := ⟨.hbm, 1237, rfl⟩
abbrev main_v1056 : Ref sig .tc := ⟨.hbm, 1238, rfl⟩
abbrev main_v1057 : Ref sig .tc := ⟨.hbm, 1239, rfl⟩
abbrev main_c_161 : Ref sig .tc := ⟨.hbm, 1240, rfl⟩
abbrev main_v1058 : Ref sig .tc := ⟨.hbm, 1241, rfl⟩
abbrev main_v1059 : Ref sig .tc := ⟨.hbm, 1242, rfl⟩
abbrev main_v1060 : Ref sig .tc := ⟨.hbm, 1243, rfl⟩
abbrev main_v1061 : Ref sig .tc := ⟨.hbm, 1244, rfl⟩
abbrev main_v1062 : Ref sig .tc := ⟨.hbm, 1245, rfl⟩
abbrev main_v1063 : Ref sig .tc := ⟨.hbm, 1246, rfl⟩
abbrev main_v1064 : Ref sig .tc := ⟨.hbm, 1247, rfl⟩
abbrev main_v1065 : Ref sig .tc := ⟨.hbm, 1248, rfl⟩
abbrev main_v1066 : Ref sig .tc := ⟨.hbm, 1249, rfl⟩
abbrev main_v1067 : Ref sig .tc := ⟨.hbm, 1250, rfl⟩
abbrev main_v1068 : Ref sig .tc := ⟨.hbm, 1251, rfl⟩
abbrev main_v1069 : Ref sig .tc := ⟨.hbm, 1252, rfl⟩
abbrev main_v1070 : Ref sig .tc := ⟨.hbm, 1253, rfl⟩
abbrev main_v1071 : Ref sig .tc := ⟨.hbm, 1254, rfl⟩
abbrev main_v1072 : Ref sig .tc := ⟨.hbm, 1255, rfl⟩
abbrev main_v1073 : Ref sig .tc := ⟨.hbm, 1256, rfl⟩
abbrev main_v1074 : Ref sig .tc := ⟨.hbm, 1257, rfl⟩
abbrev main_v1075 : Ref sig .tc := ⟨.hbm, 1258, rfl⟩
abbrev main_v1076 : Ref sig .tc := ⟨.hbm, 1259, rfl⟩
abbrev main_v1077 : Ref sig .tc := ⟨.hbm, 1260, rfl⟩
abbrev main_v1078 : Ref sig .tc := ⟨.hbm, 1261, rfl⟩
abbrev main_v1079 : Ref sig .tc := ⟨.hbm, 1262, rfl⟩
abbrev main_v1080 : Ref sig .tc := ⟨.hbm, 1263, rfl⟩
abbrev main_v1081 : Ref sig .tc := ⟨.hbm, 1264, rfl⟩
abbrev main_cst_162 : Ref sig .tc := ⟨.hbm, 1265, rfl⟩
abbrev main_v1082 : Ref sig .tc := ⟨.hbm, 1266, rfl⟩
abbrev main_cst_163 : Ref sig .tc := ⟨.hbm, 1267, rfl⟩
abbrev main_v1083 : Ref sig .tc := ⟨.hbm, 1268, rfl⟩
abbrev main_v1084 : Ref sig .tc := ⟨.hbm, 1269, rfl⟩
abbrev main_v1085 : Ref sig .tc := ⟨.hbm, 1270, rfl⟩
abbrev main_v1086 : Ref sig .tc := ⟨.hbm, 1271, rfl⟩
abbrev main_v1087 : Ref sig .tc := ⟨.hbm, 1272, rfl⟩
abbrev main_v1088 : Ref sig .tc := ⟨.hbm, 1273, rfl⟩
abbrev main_cst_164 : Ref sig .tc := ⟨.hbm, 1274, rfl⟩
abbrev main_v1089 : Ref sig .tc := ⟨.hbm, 1275, rfl⟩
abbrev main_v1090 : Ref sig .tc := ⟨.hbm, 1276, rfl⟩
abbrev main_v1091 : Ref sig .tc := ⟨.hbm, 1277, rfl⟩
abbrev main_v1092 : Ref sig .tc := ⟨.hbm, 1278, rfl⟩
abbrev main_v1093 : Ref sig .tc := ⟨.hbm, 1279, rfl⟩
abbrev main_cst_165 : Ref sig .tc := ⟨.hbm, 1280, rfl⟩
abbrev main_v1094 : Ref sig .tc := ⟨.hbm, 1281, rfl⟩
abbrev main_c_166 : Ref sig .tc := ⟨.hbm, 1282, rfl⟩
abbrev main_v1095 : Ref sig .tc := ⟨.hbm, 1283, rfl⟩
abbrev main_v1096 : Ref sig .tc := ⟨.hbm, 1284, rfl⟩
abbrev main_c_167 : Ref sig .tc := ⟨.hbm, 1285, rfl⟩
abbrev main_v1097 : Ref sig .tc := ⟨.hbm, 1286, rfl⟩
abbrev main_v1098 : Ref sig .tc := ⟨.hbm, 1287, rfl⟩
abbrev main_v1099 : Ref sig .tc := ⟨.hbm, 1288, rfl⟩
abbrev main_v1100 : Ref sig .tc := ⟨.hbm, 1289, rfl⟩
abbrev main_v1101 : Ref sig .tc := ⟨.hbm, 1290, rfl⟩
abbrev main_v1102 : Ref sig .tc := ⟨.hbm, 1291, rfl⟩
abbrev main_v1103 : Ref sig .tc := ⟨.hbm, 1292, rfl⟩
abbrev main_v1104 : Ref sig .tc := ⟨.hbm, 1293, rfl⟩
abbrev main_v1105 : Ref sig .tc := ⟨.hbm, 1294, rfl⟩
abbrev main_v1106 : Ref sig .tc := ⟨.hbm, 1295, rfl⟩
abbrev main_v1107 : Ref sig .tc := ⟨.hbm, 1296, rfl⟩
abbrev main_v1108 : Ref sig .tc := ⟨.hbm, 1297, rfl⟩
abbrev main_v1109 : Ref sig .tc := ⟨.hbm, 1298, rfl⟩
abbrev main_v1110 : Ref sig .tc := ⟨.hbm, 1299, rfl⟩
abbrev main_v1111 : Ref sig .tc := ⟨.hbm, 1300, rfl⟩
abbrev main_v1112 : Ref sig .tc := ⟨.hbm, 1301, rfl⟩
abbrev main_v1113 : Ref sig .tc := ⟨.hbm, 1302, rfl⟩
abbrev main_v1114 : Ref sig .tc := ⟨.hbm, 1303, rfl⟩
abbrev main_v1115 : Ref sig .tc := ⟨.hbm, 1304, rfl⟩
abbrev main_v1116 : Ref sig .tc := ⟨.hbm, 1305, rfl⟩
abbrev main_v1117 : Ref sig .tc := ⟨.hbm, 1306, rfl⟩
abbrev main_v1118 : Ref sig .tc := ⟨.hbm, 1307, rfl⟩
abbrev main_v1119 : Ref sig .tc := ⟨.hbm, 1308, rfl⟩
abbrev main_v1120 : Ref sig .tc := ⟨.hbm, 1309, rfl⟩
abbrev main_cst_168 : Ref sig .tc := ⟨.hbm, 1310, rfl⟩
abbrev main_v1121 : Ref sig .tc := ⟨.hbm, 1311, rfl⟩
abbrev main_cst_169 : Ref sig .tc := ⟨.hbm, 1312, rfl⟩
abbrev main_v1122 : Ref sig .tc := ⟨.hbm, 1313, rfl⟩
abbrev main_v1123 : Ref sig .tc := ⟨.hbm, 1314, rfl⟩
abbrev main_v1124 : Ref sig .tc := ⟨.hbm, 1315, rfl⟩
abbrev main_v1125 : Ref sig .tc := ⟨.hbm, 1316, rfl⟩
abbrev main_v1126 : Ref sig .tc := ⟨.hbm, 1317, rfl⟩
abbrev main_v1127 : Ref sig .tc := ⟨.hbm, 1318, rfl⟩
abbrev main_cst_170 : Ref sig .tc := ⟨.hbm, 1319, rfl⟩
abbrev main_v1128 : Ref sig .tc := ⟨.hbm, 1320, rfl⟩
abbrev main_v1129 : Ref sig .tc := ⟨.hbm, 1321, rfl⟩
abbrev main_v1130 : Ref sig .tc := ⟨.hbm, 1322, rfl⟩
abbrev main_v1131 : Ref sig .tc := ⟨.hbm, 1323, rfl⟩
abbrev main_v1132 : Ref sig .tc := ⟨.hbm, 1324, rfl⟩
abbrev main_cst_171 : Ref sig .tc := ⟨.hbm, 1325, rfl⟩
abbrev main_v1133 : Ref sig .tc := ⟨.hbm, 1326, rfl⟩
abbrev main_c_172 : Ref sig .tc := ⟨.hbm, 1327, rfl⟩
abbrev main_v1134 : Ref sig .tc := ⟨.hbm, 1328, rfl⟩
abbrev main_v1135 : Ref sig .tc := ⟨.hbm, 1329, rfl⟩
abbrev main_c_173 : Ref sig .tc := ⟨.hbm, 1330, rfl⟩
abbrev main_v1136 : Ref sig .tc := ⟨.hbm, 1331, rfl⟩
abbrev main_v1137 : Ref sig .tc := ⟨.hbm, 1332, rfl⟩
abbrev main_v1138 : Ref sig .tc := ⟨.hbm, 1333, rfl⟩
abbrev main_v1139 : Ref sig .tc := ⟨.hbm, 1334, rfl⟩
abbrev main_v1140 : Ref sig .tc := ⟨.hbm, 1335, rfl⟩
abbrev main_v1141 : Ref sig .tc := ⟨.hbm, 1336, rfl⟩
abbrev main_v1142 : Ref sig .tc := ⟨.hbm, 1337, rfl⟩
abbrev main_v1143 : Ref sig .tc := ⟨.hbm, 1338, rfl⟩
abbrev main_v1144 : Ref sig .tc := ⟨.hbm, 1339, rfl⟩
abbrev main_v1145 : Ref sig .tc := ⟨.hbm, 1340, rfl⟩
abbrev main_v1146 : Ref sig .tc := ⟨.hbm, 1341, rfl⟩
abbrev main_v1147 : Ref sig .tc := ⟨.hbm, 1342, rfl⟩
abbrev main_v1148 : Ref sig .tc := ⟨.hbm, 1343, rfl⟩
abbrev main_v1149 : Ref sig .tc := ⟨.hbm, 1344, rfl⟩
abbrev main_v1150 : Ref sig .tc := ⟨.hbm, 1345, rfl⟩
abbrev main_v1151 : Ref sig .tc := ⟨.hbm, 1346, rfl⟩
abbrev main_v1152 : Ref sig .tc := ⟨.hbm, 1347, rfl⟩
abbrev main_v1153 : Ref sig .tc := ⟨.hbm, 1348, rfl⟩
abbrev main_v1154 : Ref sig .tc := ⟨.hbm, 1349, rfl⟩
abbrev main_v1155 : Ref sig .tc := ⟨.hbm, 1350, rfl⟩
abbrev main_v1156 : Ref sig .tc := ⟨.hbm, 1351, rfl⟩
abbrev main_v1157 : Ref sig .tc := ⟨.hbm, 1352, rfl⟩
abbrev main_v1158 : Ref sig .tc := ⟨.hbm, 1353, rfl⟩
abbrev main_v1159 : Ref sig .tc := ⟨.hbm, 1354, rfl⟩
abbrev main_cst_174 : Ref sig .tc := ⟨.hbm, 1355, rfl⟩
abbrev main_v1160 : Ref sig .tc := ⟨.hbm, 1356, rfl⟩
abbrev main_cst_175 : Ref sig .tc := ⟨.hbm, 1357, rfl⟩
abbrev main_v1161 : Ref sig .tc := ⟨.hbm, 1358, rfl⟩
abbrev main_v1162 : Ref sig .tc := ⟨.hbm, 1359, rfl⟩
abbrev main_v1163 : Ref sig .tc := ⟨.hbm, 1360, rfl⟩
abbrev main_v1164 : Ref sig .tc := ⟨.hbm, 1361, rfl⟩
abbrev main_v1165 : Ref sig .tc := ⟨.hbm, 1362, rfl⟩
abbrev main_v1166 : Ref sig .tc := ⟨.hbm, 1363, rfl⟩
abbrev main_cst_176 : Ref sig .tc := ⟨.hbm, 1364, rfl⟩
abbrev main_v1167 : Ref sig .tc := ⟨.hbm, 1365, rfl⟩
abbrev main_v1168 : Ref sig .tc := ⟨.hbm, 1366, rfl⟩
abbrev main_v1169 : Ref sig .tc := ⟨.hbm, 1367, rfl⟩
abbrev main_v1170 : Ref sig .tc := ⟨.hbm, 1368, rfl⟩
abbrev main_v1171 : Ref sig .tc := ⟨.hbm, 1369, rfl⟩
abbrev main_cst_177 : Ref sig .tc := ⟨.hbm, 1370, rfl⟩
abbrev main_v1172 : Ref sig .tc := ⟨.hbm, 1371, rfl⟩
abbrev main_c_178 : Ref sig .tc := ⟨.hbm, 1372, rfl⟩
abbrev main_v1173 : Ref sig .tc := ⟨.hbm, 1373, rfl⟩
abbrev main_v1174 : Ref sig .tc := ⟨.hbm, 1374, rfl⟩
abbrev main_c_179 : Ref sig .tc := ⟨.hbm, 1375, rfl⟩
abbrev main_v1175 : Ref sig .tc := ⟨.hbm, 1376, rfl⟩
abbrev main_v1176 : Ref sig .tc := ⟨.hbm, 1377, rfl⟩
abbrev main_v1177 : Ref sig .tc := ⟨.hbm, 1378, rfl⟩
abbrev main_v1178 : Ref sig .tc := ⟨.hbm, 1379, rfl⟩
abbrev main_v1179 : Ref sig .tc := ⟨.hbm, 1380, rfl⟩
abbrev main_v1180 : Ref sig .tc := ⟨.hbm, 1381, rfl⟩
abbrev main_v1181 : Ref sig .tc := ⟨.hbm, 1382, rfl⟩
abbrev main_v1182 : Ref sig .tc := ⟨.hbm, 1383, rfl⟩
abbrev main_v1183 : Ref sig .tc := ⟨.hbm, 1384, rfl⟩
abbrev main_v1184 : Ref sig .tc := ⟨.hbm, 1385, rfl⟩
abbrev main_v1185 : Ref sig .tc := ⟨.hbm, 1386, rfl⟩
abbrev main_v1186 : Ref sig .tc := ⟨.hbm, 1387, rfl⟩
abbrev main_v1187 : Ref sig .tc := ⟨.hbm, 1388, rfl⟩
abbrev main_v1188 : Ref sig .tc := ⟨.hbm, 1389, rfl⟩
abbrev main_v1189 : Ref sig .tc := ⟨.hbm, 1390, rfl⟩
abbrev main_v1190 : Ref sig .tc := ⟨.hbm, 1391, rfl⟩
abbrev main_v1191 : Ref sig .tc := ⟨.hbm, 1392, rfl⟩
abbrev main_v1192 : Ref sig .tc := ⟨.hbm, 1393, rfl⟩
abbrev main_v1193 : Ref sig .tc := ⟨.hbm, 1394, rfl⟩
abbrev main_v1194 : Ref sig .tc := ⟨.hbm, 1395, rfl⟩
abbrev main_v1195 : Ref sig .tc := ⟨.hbm, 1396, rfl⟩
abbrev main_v1196 : Ref sig .tc := ⟨.hbm, 1397, rfl⟩
abbrev main_v1197 : Ref sig .tc := ⟨.hbm, 1398, rfl⟩
abbrev main_v1198 : Ref sig .tc := ⟨.hbm, 1399, rfl⟩
abbrev main_cst_180 : Ref sig .tc := ⟨.hbm, 1400, rfl⟩
abbrev main_v1199 : Ref sig .tc := ⟨.hbm, 1401, rfl⟩
abbrev main_cst_181 : Ref sig .tc := ⟨.hbm, 1402, rfl⟩
abbrev main_v1200 : Ref sig .tc := ⟨.hbm, 1403, rfl⟩
abbrev main_v1201 : Ref sig .tc := ⟨.hbm, 1404, rfl⟩
abbrev main_v1202 : Ref sig .tc := ⟨.hbm, 1405, rfl⟩
abbrev main_v1203 : Ref sig .tc := ⟨.hbm, 1406, rfl⟩
abbrev main_v1204 : Ref sig .tc := ⟨.hbm, 1407, rfl⟩
abbrev main_v1205 : Ref sig .tc := ⟨.hbm, 1408, rfl⟩
abbrev main_cst_182 : Ref sig .tc := ⟨.hbm, 1409, rfl⟩
abbrev main_v1206 : Ref sig .tc := ⟨.hbm, 1410, rfl⟩
abbrev main_v1207 : Ref sig .tc := ⟨.hbm, 1411, rfl⟩
abbrev main_v1208 : Ref sig .tc := ⟨.hbm, 1412, rfl⟩
abbrev main_v1209 : Ref sig .tc := ⟨.hbm, 1413, rfl⟩
abbrev main_v1210 : Ref sig .tc := ⟨.hbm, 1414, rfl⟩
abbrev main_cst_183 : Ref sig .tc := ⟨.hbm, 1415, rfl⟩
abbrev main_v1211 : Ref sig .tc := ⟨.hbm, 1416, rfl⟩
abbrev main_c_184 : Ref sig .tc := ⟨.hbm, 1417, rfl⟩
abbrev main_v1212 : Ref sig .tc := ⟨.hbm, 1418, rfl⟩
abbrev main_v1213 : Ref sig .tc := ⟨.hbm, 1419, rfl⟩
abbrev main_c_185 : Ref sig .tc := ⟨.hbm, 1420, rfl⟩
abbrev main_v1214 : Ref sig .tc := ⟨.hbm, 1421, rfl⟩
abbrev main_v1215 : Ref sig .tc := ⟨.hbm, 1422, rfl⟩
abbrev main_v1216 : Ref sig .tc := ⟨.hbm, 1423, rfl⟩
abbrev main_v1217 : Ref sig .tc := ⟨.hbm, 1424, rfl⟩
abbrev main_v1218 : Ref sig .tc := ⟨.hbm, 1425, rfl⟩
abbrev main_v1219 : Ref sig .tc := ⟨.hbm, 1426, rfl⟩
abbrev main_v1220 : Ref sig .tc := ⟨.hbm, 1427, rfl⟩
abbrev main_v1221 : Ref sig .tc := ⟨.hbm, 1428, rfl⟩
abbrev main_v1222 : Ref sig .tc := ⟨.hbm, 1429, rfl⟩
abbrev main_v1223 : Ref sig .tc := ⟨.hbm, 1430, rfl⟩
abbrev main_v1224 : Ref sig .tc := ⟨.hbm, 1431, rfl⟩
abbrev main_v1225 : Ref sig .tc := ⟨.hbm, 1432, rfl⟩
abbrev main_v1226 : Ref sig .tc := ⟨.hbm, 1433, rfl⟩
abbrev main_v1227 : Ref sig .tc := ⟨.hbm, 1434, rfl⟩
abbrev main_v1228 : Ref sig .tc := ⟨.hbm, 1435, rfl⟩
abbrev main_v1229 : Ref sig .tc := ⟨.hbm, 1436, rfl⟩
abbrev main_v1230 : Ref sig .tc := ⟨.hbm, 1437, rfl⟩
abbrev main_v1231 : Ref sig .tc := ⟨.hbm, 1438, rfl⟩
abbrev main_v1232 : Ref sig .tc := ⟨.hbm, 1439, rfl⟩
abbrev main_v1233 : Ref sig .tc := ⟨.hbm, 1440, rfl⟩
abbrev main_v1234 : Ref sig .tc := ⟨.hbm, 1441, rfl⟩
abbrev main_v1235 : Ref sig .tc := ⟨.hbm, 1442, rfl⟩
abbrev main_v1236 : Ref sig .tc := ⟨.hbm, 1443, rfl⟩
abbrev main_v1237 : Ref sig .tc := ⟨.hbm, 1444, rfl⟩
abbrev main_cst_186 : Ref sig .tc := ⟨.hbm, 1445, rfl⟩
abbrev main_v1238 : Ref sig .tc := ⟨.hbm, 1446, rfl⟩
abbrev main_cst_187 : Ref sig .tc := ⟨.hbm, 1447, rfl⟩
abbrev main_v1239 : Ref sig .tc := ⟨.hbm, 1448, rfl⟩
abbrev main_v1240 : Ref sig .tc := ⟨.hbm, 1449, rfl⟩
abbrev main_v1241 : Ref sig .tc := ⟨.hbm, 1450, rfl⟩
abbrev main_v1242 : Ref sig .tc := ⟨.hbm, 1451, rfl⟩
abbrev main_v1243 : Ref sig .tc := ⟨.hbm, 1452, rfl⟩
abbrev main_v1244 : Ref sig .tc := ⟨.hbm, 1453, rfl⟩
abbrev main_cst_188 : Ref sig .tc := ⟨.hbm, 1454, rfl⟩
abbrev main_v1245 : Ref sig .tc := ⟨.hbm, 1455, rfl⟩
abbrev main_v1246 : Ref sig .tc := ⟨.hbm, 1456, rfl⟩
abbrev main_v1247 : Ref sig .tc := ⟨.hbm, 1457, rfl⟩
abbrev main_v1248 : Ref sig .tc := ⟨.hbm, 1458, rfl⟩
abbrev main_v1249 : Ref sig .tc := ⟨.hbm, 1459, rfl⟩
abbrev main_cst_189 : Ref sig .tc := ⟨.hbm, 1460, rfl⟩
abbrev main_v1250 : Ref sig .tc := ⟨.hbm, 1461, rfl⟩
abbrev main_c_190 : Ref sig .tc := ⟨.hbm, 1462, rfl⟩
abbrev main_v1251 : Ref sig .tc := ⟨.hbm, 1463, rfl⟩
abbrev main_v1252 : Ref sig .tc := ⟨.hbm, 1464, rfl⟩
abbrev main_c_191 : Ref sig .tc := ⟨.hbm, 1465, rfl⟩
abbrev main_v1253 : Ref sig .tc := ⟨.hbm, 1466, rfl⟩
abbrev main_v1254 : Ref sig .tc := ⟨.hbm, 1467, rfl⟩
abbrev main_v1255 : Ref sig .tc := ⟨.hbm, 1468, rfl⟩
abbrev main_v1256 : Ref sig .tc := ⟨.hbm, 1469, rfl⟩
abbrev main_v1257 : Ref sig .tc := ⟨.hbm, 1470, rfl⟩
abbrev main_v1258 : Ref sig .tc := ⟨.hbm, 1471, rfl⟩
abbrev main_v1259 : Ref sig .tc := ⟨.hbm, 1472, rfl⟩
abbrev main_v1260 : Ref sig .tc := ⟨.hbm, 1473, rfl⟩
abbrev main_v1261 : Ref sig .tc := ⟨.hbm, 1474, rfl⟩
abbrev main_v1262 : Ref sig .tc := ⟨.hbm, 1475, rfl⟩
abbrev main_v1263 : Ref sig .tc := ⟨.hbm, 1476, rfl⟩
abbrev main_v1264 : Ref sig .tc := ⟨.hbm, 1477, rfl⟩
abbrev main_v1265 : Ref sig .tc := ⟨.hbm, 1478, rfl⟩
abbrev main_v1266 : Ref sig .tc := ⟨.hbm, 1479, rfl⟩
abbrev main_v1267 : Ref sig .tc := ⟨.hbm, 1480, rfl⟩
abbrev main_v1268 : Ref sig .tc := ⟨.hbm, 1481, rfl⟩
abbrev main_v1269 : Ref sig .tc := ⟨.hbm, 1482, rfl⟩
abbrev main_v1270 : Ref sig .tc := ⟨.hbm, 1483, rfl⟩
abbrev main_v1271 : Ref sig .tc := ⟨.hbm, 1484, rfl⟩
abbrev main_v1272 : Ref sig .tc := ⟨.hbm, 1485, rfl⟩
abbrev main_v1273 : Ref sig .tc := ⟨.hbm, 1486, rfl⟩
abbrev main_v1274 : Ref sig .tc := ⟨.hbm, 1487, rfl⟩
abbrev main_v1275 : Ref sig .tc := ⟨.hbm, 1488, rfl⟩
abbrev main_v1276 : Ref sig .tc := ⟨.hbm, 1489, rfl⟩
abbrev main_cst_192 : Ref sig .tc := ⟨.hbm, 1490, rfl⟩
abbrev main_v1277 : Ref sig .tc := ⟨.hbm, 1491, rfl⟩
abbrev main_cst_193 : Ref sig .tc := ⟨.hbm, 1492, rfl⟩
abbrev main_v1278 : Ref sig .tc := ⟨.hbm, 1493, rfl⟩
abbrev main_v1279 : Ref sig .tc := ⟨.hbm, 1494, rfl⟩
abbrev main_v1280 : Ref sig .tc := ⟨.hbm, 1495, rfl⟩
abbrev main_v1281 : Ref sig .tc := ⟨.hbm, 1496, rfl⟩
abbrev main_v1282 : Ref sig .tc := ⟨.hbm, 1497, rfl⟩
abbrev main_v1283 : Ref sig .tc := ⟨.hbm, 1498, rfl⟩
abbrev main_cst_194 : Ref sig .tc := ⟨.hbm, 1499, rfl⟩
abbrev main_v1284 : Ref sig .tc := ⟨.hbm, 1500, rfl⟩
abbrev main_v1285 : Ref sig .tc := ⟨.hbm, 1501, rfl⟩
abbrev main_v1286 : Ref sig .tc := ⟨.hbm, 1502, rfl⟩
abbrev main_v1287 : Ref sig .tc := ⟨.hbm, 1503, rfl⟩
abbrev main_v1288 : Ref sig .tc := ⟨.hbm, 1504, rfl⟩
abbrev main_cst_195 : Ref sig .tc := ⟨.hbm, 1505, rfl⟩
abbrev main_v1289 : Ref sig .tc := ⟨.hbm, 1506, rfl⟩
abbrev main_c_196 : Ref sig .tc := ⟨.hbm, 1507, rfl⟩
abbrev main_v1290 : Ref sig .tc := ⟨.hbm, 1508, rfl⟩
abbrev main_v1291 : Ref sig .tc := ⟨.hbm, 1509, rfl⟩
abbrev main_c_197 : Ref sig .tc := ⟨.hbm, 1510, rfl⟩
abbrev main_v1292 : Ref sig .tc := ⟨.hbm, 1511, rfl⟩
abbrev main_v1293 : Ref sig .tc := ⟨.hbm, 1512, rfl⟩
abbrev main_v1294 : Ref sig .tc := ⟨.hbm, 1513, rfl⟩
abbrev main_v1295 : Ref sig .tc := ⟨.hbm, 1514, rfl⟩
abbrev main_v1296 : Ref sig .tc := ⟨.hbm, 1515, rfl⟩
abbrev main_v1297 : Ref sig .tc := ⟨.hbm, 1516, rfl⟩
abbrev main_v1298 : Ref sig .tc := ⟨.hbm, 1517, rfl⟩
abbrev main_v1299 : Ref sig .tc := ⟨.hbm, 1518, rfl⟩
abbrev main_v1300 : Ref sig .tc := ⟨.hbm, 1519, rfl⟩
abbrev main_v1301 : Ref sig .tc := ⟨.hbm, 1520, rfl⟩
abbrev main_v1302 : Ref sig .tc := ⟨.hbm, 1521, rfl⟩
abbrev main_v1303 : Ref sig .tc := ⟨.hbm, 1522, rfl⟩
abbrev main_v1304 : Ref sig .tc := ⟨.hbm, 1523, rfl⟩
abbrev main_v1305 : Ref sig .tc := ⟨.hbm, 1524, rfl⟩
abbrev main_v1306 : Ref sig .tc := ⟨.hbm, 1525, rfl⟩
abbrev main_v1307 : Ref sig .tc := ⟨.hbm, 1526, rfl⟩
abbrev main_v1308 : Ref sig .tc := ⟨.hbm, 1527, rfl⟩
abbrev main_v1309 : Ref sig .tc := ⟨.hbm, 1528, rfl⟩
abbrev main_v1310 : Ref sig .tc := ⟨.hbm, 1529, rfl⟩
abbrev main_v1311 : Ref sig .tc := ⟨.hbm, 1530, rfl⟩
abbrev main_v1312 : Ref sig .tc := ⟨.hbm, 1531, rfl⟩
abbrev main_v1313 : Ref sig .tc := ⟨.hbm, 1532, rfl⟩
abbrev main_v1314 : Ref sig .tc := ⟨.hbm, 1533, rfl⟩
abbrev main_v1315 : Ref sig .tc := ⟨.hbm, 1534, rfl⟩
abbrev main_cst_198 : Ref sig .tc := ⟨.hbm, 1535, rfl⟩
abbrev main_v1316 : Ref sig .tc := ⟨.hbm, 1536, rfl⟩
abbrev main_cst_199 : Ref sig .tc := ⟨.hbm, 1537, rfl⟩
abbrev main_v1317 : Ref sig .tc := ⟨.hbm, 1538, rfl⟩
abbrev main_v1318 : Ref sig .tc := ⟨.hbm, 1539, rfl⟩
abbrev main_v1319 : Ref sig .tc := ⟨.hbm, 1540, rfl⟩
abbrev main_v1320 : Ref sig .tc := ⟨.hbm, 1541, rfl⟩
abbrev main_v1321 : Ref sig .tc := ⟨.hbm, 1542, rfl⟩
abbrev main_v1322 : Ref sig .tc := ⟨.hbm, 1543, rfl⟩
abbrev main_cst_200 : Ref sig .tc := ⟨.hbm, 1544, rfl⟩
abbrev main_v1323 : Ref sig .tc := ⟨.hbm, 1545, rfl⟩
abbrev main_v1324 : Ref sig .tc := ⟨.hbm, 1546, rfl⟩
abbrev main_v1325 : Ref sig .tc := ⟨.hbm, 1547, rfl⟩
abbrev main_v1326 : Ref sig .tc := ⟨.hbm, 1548, rfl⟩
abbrev main_v1327 : Ref sig .tc := ⟨.hbm, 1549, rfl⟩
abbrev main_cst_201 : Ref sig .tc := ⟨.hbm, 1550, rfl⟩
abbrev main_v1328 : Ref sig .tc := ⟨.hbm, 1551, rfl⟩
abbrev main_c_202 : Ref sig .tc := ⟨.hbm, 1552, rfl⟩
abbrev main_v1329 : Ref sig .tc := ⟨.hbm, 1553, rfl⟩
abbrev main_v1330 : Ref sig .tc := ⟨.hbm, 1554, rfl⟩
abbrev main_c_203 : Ref sig .tc := ⟨.hbm, 1555, rfl⟩
abbrev main_v1331 : Ref sig .tc := ⟨.hbm, 1556, rfl⟩
abbrev main_v1332 : Ref sig .tc := ⟨.hbm, 1557, rfl⟩
abbrev main_v1333 : Ref sig .tc := ⟨.hbm, 1558, rfl⟩
abbrev main_v1334 : Ref sig .tc := ⟨.hbm, 1559, rfl⟩
abbrev main_v1335 : Ref sig .tc := ⟨.hbm, 1560, rfl⟩
abbrev main_v1336 : Ref sig .tc := ⟨.hbm, 1561, rfl⟩
abbrev main_v1337 : Ref sig .tc := ⟨.hbm, 1562, rfl⟩
abbrev main_v1338 : Ref sig .tc := ⟨.hbm, 1563, rfl⟩
abbrev main_v1339 : Ref sig .tc := ⟨.hbm, 1564, rfl⟩
abbrev main_v1340 : Ref sig .tc := ⟨.hbm, 1565, rfl⟩
abbrev main_v1341 : Ref sig .tc := ⟨.hbm, 1566, rfl⟩
abbrev main_v1342 : Ref sig .tc := ⟨.hbm, 1567, rfl⟩
abbrev main_v1343 : Ref sig .tc := ⟨.hbm, 1568, rfl⟩
abbrev main_v1344 : Ref sig .tc := ⟨.hbm, 1569, rfl⟩
abbrev main_v1345 : Ref sig .tc := ⟨.hbm, 1570, rfl⟩
abbrev main_v1346 : Ref sig .tc := ⟨.hbm, 1571, rfl⟩
abbrev main_v1347 : Ref sig .tc := ⟨.hbm, 1572, rfl⟩
abbrev main_v1348 : Ref sig .tc := ⟨.hbm, 1573, rfl⟩
abbrev main_v1349 : Ref sig .tc := ⟨.hbm, 1574, rfl⟩
abbrev main_v1350 : Ref sig .tc := ⟨.hbm, 1575, rfl⟩
abbrev main_v1351 : Ref sig .tc := ⟨.hbm, 1576, rfl⟩
abbrev main_v1352 : Ref sig .tc := ⟨.hbm, 1577, rfl⟩
abbrev main_v1353 : Ref sig .tc := ⟨.hbm, 1578, rfl⟩
abbrev main_v1354 : Ref sig .tc := ⟨.hbm, 1579, rfl⟩
abbrev main_cst_204 : Ref sig .tc := ⟨.hbm, 1580, rfl⟩
abbrev main_v1355 : Ref sig .tc := ⟨.hbm, 1581, rfl⟩
abbrev main_cst_205 : Ref sig .tc := ⟨.hbm, 1582, rfl⟩
abbrev main_v1356 : Ref sig .tc := ⟨.hbm, 1583, rfl⟩
abbrev main_v1357 : Ref sig .tc := ⟨.hbm, 1584, rfl⟩
abbrev main_v1358 : Ref sig .tc := ⟨.hbm, 1585, rfl⟩
abbrev main_v1359 : Ref sig .tc := ⟨.hbm, 1586, rfl⟩
abbrev main_v1360 : Ref sig .tc := ⟨.hbm, 1587, rfl⟩
abbrev main_v1361 : Ref sig .tc := ⟨.hbm, 1588, rfl⟩
abbrev main_cst_206 : Ref sig .tc := ⟨.hbm, 1589, rfl⟩
abbrev main_v1362 : Ref sig .tc := ⟨.hbm, 1590, rfl⟩
abbrev main_v1363 : Ref sig .tc := ⟨.hbm, 1591, rfl⟩
abbrev main_v1364 : Ref sig .tc := ⟨.hbm, 1592, rfl⟩
abbrev main_v1365 : Ref sig .tc := ⟨.hbm, 1593, rfl⟩
abbrev main_v1366 : Ref sig .tc := ⟨.hbm, 1594, rfl⟩
abbrev main_cst_207 : Ref sig .tc := ⟨.hbm, 1595, rfl⟩
abbrev main_v1367 : Ref sig .tc := ⟨.hbm, 1596, rfl⟩
abbrev main_c_208 : Ref sig .tc := ⟨.hbm, 1597, rfl⟩
abbrev main_v1368 : Ref sig .tc := ⟨.hbm, 1598, rfl⟩
abbrev main_v1369 : Ref sig .tc := ⟨.hbm, 1599, rfl⟩
abbrev main_c_209 : Ref sig .tc := ⟨.hbm, 1600, rfl⟩
abbrev main_v1370 : Ref sig .tc := ⟨.hbm, 1601, rfl⟩
abbrev main_v1371 : Ref sig .tc := ⟨.hbm, 1602, rfl⟩
abbrev main_v1372 : Ref sig .tc := ⟨.hbm, 1603, rfl⟩
abbrev main_v1373 : Ref sig .tc := ⟨.hbm, 1604, rfl⟩
abbrev main_v1374 : Ref sig .tc := ⟨.hbm, 1605, rfl⟩
abbrev main_v1375 : Ref sig .tc := ⟨.hbm, 1606, rfl⟩
abbrev main_v1376 : Ref sig .tc := ⟨.hbm, 1607, rfl⟩
abbrev main_v1377 : Ref sig .tc := ⟨.hbm, 1608, rfl⟩
abbrev main_v1378 : Ref sig .tc := ⟨.hbm, 1609, rfl⟩
abbrev main_v1379 : Ref sig .tc := ⟨.hbm, 1610, rfl⟩
abbrev main_v1380 : Ref sig .tc := ⟨.hbm, 1611, rfl⟩
abbrev main_v1381 : Ref sig .tc := ⟨.hbm, 1612, rfl⟩
abbrev main_v1382 : Ref sig .tc := ⟨.hbm, 1613, rfl⟩
abbrev main_v1383 : Ref sig .tc := ⟨.hbm, 1614, rfl⟩
abbrev main_v1384 : Ref sig .tc := ⟨.hbm, 1615, rfl⟩
abbrev main_v1385 : Ref sig .tc := ⟨.hbm, 1616, rfl⟩
abbrev main_v1386 : Ref sig .tc := ⟨.hbm, 1617, rfl⟩
abbrev main_v1387 : Ref sig .tc := ⟨.hbm, 1618, rfl⟩
abbrev main_v1388 : Ref sig .tc := ⟨.hbm, 1619, rfl⟩
abbrev main_v1389 : Ref sig .tc := ⟨.hbm, 1620, rfl⟩
abbrev main_v1390 : Ref sig .tc := ⟨.hbm, 1621, rfl⟩
abbrev main_v1391 : Ref sig .tc := ⟨.hbm, 1622, rfl⟩
abbrev main_v1392 : Ref sig .tc := ⟨.hbm, 1623, rfl⟩
abbrev main_v1393 : Ref sig .tc := ⟨.hbm, 1624, rfl⟩
abbrev main_cst_210 : Ref sig .tc := ⟨.hbm, 1625, rfl⟩
abbrev main_v1394 : Ref sig .tc := ⟨.hbm, 1626, rfl⟩
abbrev main_cst_211 : Ref sig .tc := ⟨.hbm, 1627, rfl⟩
abbrev main_v1395 : Ref sig .tc := ⟨.hbm, 1628, rfl⟩
abbrev main_v1396 : Ref sig .tc := ⟨.hbm, 1629, rfl⟩
abbrev main_v1397 : Ref sig .tc := ⟨.hbm, 1630, rfl⟩
abbrev main_v1398 : Ref sig .tc := ⟨.hbm, 1631, rfl⟩
abbrev main_v1399 : Ref sig .tc := ⟨.hbm, 1632, rfl⟩
abbrev main_v1400 : Ref sig .tc := ⟨.hbm, 1633, rfl⟩
abbrev main_cst_212 : Ref sig .tc := ⟨.hbm, 1634, rfl⟩
abbrev main_v1401 : Ref sig .tc := ⟨.hbm, 1635, rfl⟩
abbrev main_v1402 : Ref sig .tc := ⟨.hbm, 1636, rfl⟩
abbrev main_v1403 : Ref sig .tc := ⟨.hbm, 1637, rfl⟩
abbrev main_v1404 : Ref sig .tc := ⟨.hbm, 1638, rfl⟩
abbrev main_v1405 : Ref sig .tc := ⟨.hbm, 1639, rfl⟩
abbrev main_cst_213 : Ref sig .tc := ⟨.hbm, 1640, rfl⟩
abbrev main_v1406 : Ref sig .tc := ⟨.hbm, 1641, rfl⟩
abbrev main_c_214 : Ref sig .tc := ⟨.hbm, 1642, rfl⟩
abbrev main_v1407 : Ref sig .tc := ⟨.hbm, 1643, rfl⟩
abbrev main_v1408 : Ref sig .tc := ⟨.hbm, 1644, rfl⟩
abbrev main_c_215 : Ref sig .tc := ⟨.hbm, 1645, rfl⟩
abbrev main_v1409 : Ref sig .tc := ⟨.hbm, 1646, rfl⟩
abbrev main_v1410 : Ref sig .tc := ⟨.hbm, 1647, rfl⟩
abbrev main_v1411 : Ref sig .tc := ⟨.hbm, 1648, rfl⟩
abbrev main_v1412 : Ref sig .tc := ⟨.hbm, 1649, rfl⟩
abbrev main_v1413 : Ref sig .tc := ⟨.hbm, 1650, rfl⟩
abbrev main_v1414 : Ref sig .tc := ⟨.hbm, 1651, rfl⟩
abbrev main_v1415 : Ref sig .tc := ⟨.hbm, 1652, rfl⟩
abbrev main_v1416 : Ref sig .tc := ⟨.hbm, 1653, rfl⟩
abbrev main_v1417 : Ref sig .tc := ⟨.hbm, 1654, rfl⟩
abbrev main_v1418 : Ref sig .tc := ⟨.hbm, 1655, rfl⟩
abbrev main_v1419 : Ref sig .tc := ⟨.hbm, 1656, rfl⟩
abbrev main_v1420 : Ref sig .tc := ⟨.hbm, 1657, rfl⟩
abbrev main_v1421 : Ref sig .tc := ⟨.hbm, 1658, rfl⟩
abbrev main_v1422 : Ref sig .tc := ⟨.hbm, 1659, rfl⟩
abbrev main_v1423 : Ref sig .tc := ⟨.hbm, 1660, rfl⟩
abbrev main_v1424 : Ref sig .tc := ⟨.hbm, 1661, rfl⟩
abbrev main_v1425 : Ref sig .tc := ⟨.hbm, 1662, rfl⟩
abbrev main_v1426 : Ref sig .tc := ⟨.hbm, 1663, rfl⟩
abbrev main_v1427 : Ref sig .tc := ⟨.hbm, 1664, rfl⟩
abbrev main_v1428 : Ref sig .tc := ⟨.hbm, 1665, rfl⟩
abbrev main_v1429 : Ref sig .tc := ⟨.hbm, 1666, rfl⟩
abbrev main_v1430 : Ref sig .tc := ⟨.hbm, 1667, rfl⟩
abbrev main_v1431 : Ref sig .tc := ⟨.hbm, 1668, rfl⟩
abbrev main_v1432 : Ref sig .tc := ⟨.hbm, 1669, rfl⟩
abbrev main_cst_216 : Ref sig .tc := ⟨.hbm, 1670, rfl⟩
abbrev main_v1433 : Ref sig .tc := ⟨.hbm, 1671, rfl⟩
abbrev main_cst_217 : Ref sig .tc := ⟨.hbm, 1672, rfl⟩
abbrev main_v1434 : Ref sig .tc := ⟨.hbm, 1673, rfl⟩
abbrev main_v1435 : Ref sig .tc := ⟨.hbm, 1674, rfl⟩
abbrev main_v1436 : Ref sig .tc := ⟨.hbm, 1675, rfl⟩
abbrev main_v1437 : Ref sig .tc := ⟨.hbm, 1676, rfl⟩
abbrev main_v1438 : Ref sig .tc := ⟨.hbm, 1677, rfl⟩
abbrev main_v1439 : Ref sig .tc := ⟨.hbm, 1678, rfl⟩
abbrev main_cst_218 : Ref sig .tc := ⟨.hbm, 1679, rfl⟩
abbrev main_v1440 : Ref sig .tc := ⟨.hbm, 1680, rfl⟩
abbrev main_v1441 : Ref sig .tc := ⟨.hbm, 1681, rfl⟩
abbrev main_v1442 : Ref sig .tc := ⟨.hbm, 1682, rfl⟩
abbrev main_v1443 : Ref sig .tc := ⟨.hbm, 1683, rfl⟩
abbrev main_v1444 : Ref sig .tc := ⟨.hbm, 1684, rfl⟩
abbrev main_cst_219 : Ref sig .tc := ⟨.hbm, 1685, rfl⟩
abbrev main_v1445 : Ref sig .tc := ⟨.hbm, 1686, rfl⟩
abbrev main_c_220 : Ref sig .tc := ⟨.hbm, 1687, rfl⟩
abbrev main_v1446 : Ref sig .tc := ⟨.hbm, 1688, rfl⟩
abbrev main_v1447 : Ref sig .tc := ⟨.hbm, 1689, rfl⟩
abbrev main_c_221 : Ref sig .tc := ⟨.hbm, 1690, rfl⟩
abbrev main_v1448 : Ref sig .tc := ⟨.hbm, 1691, rfl⟩
abbrev main_v1449 : Ref sig .tc := ⟨.hbm, 1692, rfl⟩
abbrev main_v1450 : Ref sig .tc := ⟨.hbm, 1693, rfl⟩
abbrev main_v1451 : Ref sig .tc := ⟨.hbm, 1694, rfl⟩
abbrev main_v1452 : Ref sig .tc := ⟨.hbm, 1695, rfl⟩
abbrev main_v1453 : Ref sig .tc := ⟨.hbm, 1696, rfl⟩
abbrev main_v1454 : Ref sig .tc := ⟨.hbm, 1697, rfl⟩
abbrev main_v1455 : Ref sig .tc := ⟨.hbm, 1698, rfl⟩
abbrev main_v1456 : Ref sig .tc := ⟨.hbm, 1699, rfl⟩
abbrev main_v1457 : Ref sig .tc := ⟨.hbm, 1700, rfl⟩
abbrev main_v1458 : Ref sig .tc := ⟨.hbm, 1701, rfl⟩
abbrev main_v1459 : Ref sig .tc := ⟨.hbm, 1702, rfl⟩
abbrev main_v1460 : Ref sig .tc := ⟨.hbm, 1703, rfl⟩
abbrev main_v1461 : Ref sig .tc := ⟨.hbm, 1704, rfl⟩
abbrev main_v1462 : Ref sig .tc := ⟨.hbm, 1705, rfl⟩
abbrev main_v1463 : Ref sig .tc := ⟨.hbm, 1706, rfl⟩
abbrev main_v1464 : Ref sig .tc := ⟨.hbm, 1707, rfl⟩
abbrev main_v1465 : Ref sig .tc := ⟨.hbm, 1708, rfl⟩
abbrev main_v1466 : Ref sig .tc := ⟨.hbm, 1709, rfl⟩
abbrev main_v1467 : Ref sig .tc := ⟨.hbm, 1710, rfl⟩
abbrev main_v1468 : Ref sig .tc := ⟨.hbm, 1711, rfl⟩
abbrev main_v1469 : Ref sig .tc := ⟨.hbm, 1712, rfl⟩
abbrev main_v1470 : Ref sig .tc := ⟨.hbm, 1713, rfl⟩
abbrev main_v1471 : Ref sig .tc := ⟨.hbm, 1714, rfl⟩
abbrev main_cst_222 : Ref sig .tc := ⟨.hbm, 1715, rfl⟩
abbrev main_v1472 : Ref sig .tc := ⟨.hbm, 1716, rfl⟩
abbrev main_cst_223 : Ref sig .tc := ⟨.hbm, 1717, rfl⟩
abbrev main_v1473 : Ref sig .tc := ⟨.hbm, 1718, rfl⟩
abbrev main_v1474 : Ref sig .tc := ⟨.hbm, 1719, rfl⟩
abbrev main_v1475 : Ref sig .tc := ⟨.hbm, 1720, rfl⟩
abbrev main_v1476 : Ref sig .tc := ⟨.hbm, 1721, rfl⟩
abbrev main_v1477 : Ref sig .tc := ⟨.hbm, 1722, rfl⟩
abbrev main_v1478 : Ref sig .tc := ⟨.hbm, 1723, rfl⟩
abbrev main_cst_224 : Ref sig .tc := ⟨.hbm, 1724, rfl⟩
abbrev main_v1479 : Ref sig .tc := ⟨.hbm, 1725, rfl⟩
abbrev main_v1480 : Ref sig .tc := ⟨.hbm, 1726, rfl⟩
abbrev main_v1481 : Ref sig .tc := ⟨.hbm, 1727, rfl⟩
abbrev main_v1482 : Ref sig .tc := ⟨.hbm, 1728, rfl⟩
abbrev main_v1483 : Ref sig .tc := ⟨.hbm, 1729, rfl⟩
abbrev main_cst_225 : Ref sig .tc := ⟨.hbm, 1730, rfl⟩
abbrev main_v1484 : Ref sig .tc := ⟨.hbm, 1731, rfl⟩
abbrev main_c_226 : Ref sig .tc := ⟨.hbm, 1732, rfl⟩
abbrev main_v1485 : Ref sig .tc := ⟨.hbm, 1733, rfl⟩
abbrev main_v1486 : Ref sig .tc := ⟨.hbm, 1734, rfl⟩
abbrev main_c_227 : Ref sig .tc := ⟨.hbm, 1735, rfl⟩
abbrev main_v1487 : Ref sig .tc := ⟨.hbm, 1736, rfl⟩
abbrev main_v1488 : Ref sig .tc := ⟨.hbm, 1737, rfl⟩
abbrev main_v1489 : Ref sig .tc := ⟨.hbm, 1738, rfl⟩
abbrev main_v1490 : Ref sig .tc := ⟨.hbm, 1739, rfl⟩
abbrev main_v1491 : Ref sig .tc := ⟨.hbm, 1740, rfl⟩
abbrev main_v1492 : Ref sig .tc := ⟨.hbm, 1741, rfl⟩
abbrev main_v1493 : Ref sig .tc := ⟨.hbm, 1742, rfl⟩
abbrev main_v1494 : Ref sig .tc := ⟨.hbm, 1743, rfl⟩
abbrev main_v1495 : Ref sig .tc := ⟨.hbm, 1744, rfl⟩
abbrev main_v1496 : Ref sig .tc := ⟨.hbm, 1745, rfl⟩
abbrev main_v1497 : Ref sig .tc := ⟨.hbm, 1746, rfl⟩
abbrev main_v1498 : Ref sig .tc := ⟨.hbm, 1747, rfl⟩
abbrev main_v1499 : Ref sig .tc := ⟨.hbm, 1748, rfl⟩
abbrev main_v1500 : Ref sig .tc := ⟨.hbm, 1749, rfl⟩
abbrev main_v1501 : Ref sig .tc := ⟨.hbm, 1750, rfl⟩
abbrev main_v1502 : Ref sig .tc := ⟨.hbm, 1751, rfl⟩
abbrev main_v1503 : Ref sig .tc := ⟨.hbm, 1752, rfl⟩
abbrev main_v1504 : Ref sig .tc := ⟨.hbm, 1753, rfl⟩
abbrev main_v1505 : Ref sig .tc := ⟨.hbm, 1754, rfl⟩
abbrev main_v1506 : Ref sig .tc := ⟨.hbm, 1755, rfl⟩
abbrev main_v1507 : Ref sig .tc := ⟨.hbm, 1756, rfl⟩
abbrev main_v1508 : Ref sig .tc := ⟨.hbm, 1757, rfl⟩
abbrev main_v1509 : Ref sig .tc := ⟨.hbm, 1758, rfl⟩
abbrev main_v1510 : Ref sig .tc := ⟨.hbm, 1759, rfl⟩
abbrev main_cst_228 : Ref sig .tc := ⟨.hbm, 1760, rfl⟩
abbrev main_v1511 : Ref sig .tc := ⟨.hbm, 1761, rfl⟩
abbrev main_cst_229 : Ref sig .tc := ⟨.hbm, 1762, rfl⟩
abbrev main_v1512 : Ref sig .tc := ⟨.hbm, 1763, rfl⟩
abbrev main_v1513 : Ref sig .tc := ⟨.hbm, 1764, rfl⟩
abbrev main_v1514 : Ref sig .tc := ⟨.hbm, 1765, rfl⟩
abbrev main_v1515 : Ref sig .tc := ⟨.hbm, 1766, rfl⟩
abbrev main_v1516 : Ref sig .tc := ⟨.hbm, 1767, rfl⟩
abbrev main_v1517 : Ref sig .tc := ⟨.hbm, 1768, rfl⟩
abbrev main_cst_230 : Ref sig .tc := ⟨.hbm, 1769, rfl⟩
abbrev main_v1518 : Ref sig .tc := ⟨.hbm, 1770, rfl⟩
abbrev main_v1519 : Ref sig .tc := ⟨.hbm, 1771, rfl⟩
abbrev main_v1520 : Ref sig .tc := ⟨.hbm, 1772, rfl⟩
abbrev main_v1521 : Ref sig .tc := ⟨.hbm, 1773, rfl⟩
abbrev main_v1522 : Ref sig .tc := ⟨.hbm, 1774, rfl⟩
abbrev main_cst_231 : Ref sig .tc := ⟨.hbm, 1775, rfl⟩
abbrev main_v1523 : Ref sig .tc := ⟨.hbm, 1776, rfl⟩
abbrev main_c_232 : Ref sig .tc := ⟨.hbm, 1777, rfl⟩
abbrev main_v1524 : Ref sig .tc := ⟨.hbm, 1778, rfl⟩
abbrev main_v1525 : Ref sig .tc := ⟨.hbm, 1779, rfl⟩
abbrev main_c_233 : Ref sig .tc := ⟨.hbm, 1780, rfl⟩
abbrev main_v1526 : Ref sig .tc := ⟨.hbm, 1781, rfl⟩
abbrev main_v1527 : Ref sig .tc := ⟨.hbm, 1782, rfl⟩
abbrev main_v1528 : Ref sig .tc := ⟨.hbm, 1783, rfl⟩
abbrev main_v1529 : Ref sig .tc := ⟨.hbm, 1784, rfl⟩
abbrev main_v1530 : Ref sig .tc := ⟨.hbm, 1785, rfl⟩
abbrev main_v1531 : Ref sig .tc := ⟨.hbm, 1786, rfl⟩
abbrev main_v1532 : Ref sig .tc := ⟨.hbm, 1787, rfl⟩
abbrev main_v1533 : Ref sig .tc := ⟨.hbm, 1788, rfl⟩
abbrev main_v1534 : Ref sig .tc := ⟨.hbm, 1789, rfl⟩
abbrev main_v1535 : Ref sig .tc := ⟨.hbm, 1790, rfl⟩
abbrev main_v1536 : Ref sig .tc := ⟨.hbm, 1791, rfl⟩
abbrev main_v1537 : Ref sig .tc := ⟨.hbm, 1792, rfl⟩
abbrev main_v1538 : Ref sig .tc := ⟨.hbm, 1793, rfl⟩
abbrev main_v1539 : Ref sig .tc := ⟨.hbm, 1794, rfl⟩
abbrev main_v1540 : Ref sig .tc := ⟨.hbm, 1795, rfl⟩
abbrev main_v1541 : Ref sig .tc := ⟨.hbm, 1796, rfl⟩
abbrev main_v1542 : Ref sig .tc := ⟨.hbm, 1797, rfl⟩
abbrev main_v1543 : Ref sig .tc := ⟨.hbm, 1798, rfl⟩
abbrev main_v1544 : Ref sig .tc := ⟨.hbm, 1799, rfl⟩
abbrev main_v1545 : Ref sig .tc := ⟨.hbm, 1800, rfl⟩
abbrev main_v1546 : Ref sig .tc := ⟨.hbm, 1801, rfl⟩
abbrev main_v1547 : Ref sig .tc := ⟨.hbm, 1802, rfl⟩
abbrev main_v1548 : Ref sig .tc := ⟨.hbm, 1803, rfl⟩
abbrev main_v1549 : Ref sig .tc := ⟨.hbm, 1804, rfl⟩
abbrev main_cst_234 : Ref sig .tc := ⟨.hbm, 1805, rfl⟩
abbrev main_v1550 : Ref sig .tc := ⟨.hbm, 1806, rfl⟩
abbrev main_cst_235 : Ref sig .tc := ⟨.hbm, 1807, rfl⟩
abbrev main_v1551 : Ref sig .tc := ⟨.hbm, 1808, rfl⟩
abbrev main_v1552 : Ref sig .tc := ⟨.hbm, 1809, rfl⟩
abbrev main_v1553 : Ref sig .tc := ⟨.hbm, 1810, rfl⟩
abbrev main_v1554 : Ref sig .tc := ⟨.hbm, 1811, rfl⟩
abbrev main_v1555 : Ref sig .tc := ⟨.hbm, 1812, rfl⟩
abbrev main_v1556 : Ref sig .tc := ⟨.hbm, 1813, rfl⟩
abbrev main_cst_236 : Ref sig .tc := ⟨.hbm, 1814, rfl⟩
abbrev main_v1557 : Ref sig .tc := ⟨.hbm, 1815, rfl⟩
abbrev main_v1558 : Ref sig .tc := ⟨.hbm, 1816, rfl⟩
abbrev main_v1559 : Ref sig .tc := ⟨.hbm, 1817, rfl⟩
abbrev main_v1560 : Ref sig .tc := ⟨.hbm, 1818, rfl⟩
abbrev main_v1561 : Ref sig .tc := ⟨.hbm, 1819, rfl⟩
abbrev main_cst_237 : Ref sig .tc := ⟨.hbm, 1820, rfl⟩
abbrev main_v1562 : Ref sig .tc := ⟨.hbm, 1821, rfl⟩
abbrev main_c_238 : Ref sig .tc := ⟨.hbm, 1822, rfl⟩
abbrev main_v1563 : Ref sig .tc := ⟨.hbm, 1823, rfl⟩
abbrev main_v1564 : Ref sig .tc := ⟨.hbm, 1824, rfl⟩
abbrev main_c_239 : Ref sig .tc := ⟨.hbm, 1825, rfl⟩
abbrev main_v1565 : Ref sig .tc := ⟨.hbm, 1826, rfl⟩
abbrev main_v1566 : Ref sig .tc := ⟨.hbm, 1827, rfl⟩
abbrev main_v1567 : Ref sig .tc := ⟨.hbm, 1828, rfl⟩
abbrev main_v1568 : Ref sig .tc := ⟨.hbm, 1829, rfl⟩
abbrev main_v1569 : Ref sig .tc := ⟨.hbm, 1830, rfl⟩
abbrev main_v1570 : Ref sig .tc := ⟨.hbm, 1831, rfl⟩
abbrev main_v1571 : Ref sig .tc := ⟨.hbm, 1832, rfl⟩
abbrev main_cst_240 : Ref sig .tc := ⟨.hbm, 1833, rfl⟩
abbrev main_v1572 : Ref sig .tc := ⟨.hbm, 1834, rfl⟩
abbrev main_v1573 : Ref sig .tc := ⟨.hbm, 1835, rfl⟩
abbrev main_v1574 : Ref sig .tc := ⟨.hbm, 1836, rfl⟩
abbrev main_v1575 : Ref sig .tc := ⟨.hbm, 1837, rfl⟩
abbrev main_v1576 : Ref sig .tc := ⟨.hbm, 1838, rfl⟩
abbrev main_v1577 : Ref sig .tc := ⟨.hbm, 1839, rfl⟩
abbrev main_v1578 : Ref sig .tc := ⟨.hbm, 1840, rfl⟩
abbrev main_v1579 : Ref sig .tc := ⟨.hbm, 1841, rfl⟩
abbrev main_v1580 : Ref sig .tc := ⟨.hbm, 1842, rfl⟩
abbrev main_v1581 : Ref sig .tc := ⟨.hbm, 1843, rfl⟩
abbrev main_v1582 : Ref sig .tc := ⟨.hbm, 1844, rfl⟩
abbrev main_v1583 : Ref sig .tc := ⟨.hbm, 1845, rfl⟩
abbrev main_v1584 : Ref sig .tc := ⟨.hbm, 1846, rfl⟩
abbrev main_v1585 : Ref sig .tc := ⟨.hbm, 1847, rfl⟩
abbrev main_v1586 : Ref sig .tc := ⟨.hbm, 1848, rfl⟩
abbrev main_v1587 : Ref sig .tc := ⟨.hbm, 1849, rfl⟩
abbrev main_v1588 : Ref sig .tc := ⟨.hbm, 1850, rfl⟩
abbrev main_v1589 : Ref sig .tc := ⟨.hbm, 1851, rfl⟩
abbrev main_v1590 : Ref sig .tc := ⟨.hbm, 1852, rfl⟩
abbrev main_v1591 : Ref sig .tc := ⟨.hbm, 1853, rfl⟩
abbrev main_v1592 : Ref sig .tc := ⟨.hbm, 1854, rfl⟩
abbrev main_v1593 : Ref sig .tc := ⟨.hbm, 1855, rfl⟩
abbrev main_v1594 : Ref sig .tc := ⟨.hbm, 1856, rfl⟩
abbrev main_v1595 : Ref sig .tc := ⟨.hbm, 1857, rfl⟩
abbrev main_v1596 : Ref sig .tc := ⟨.hbm, 1858, rfl⟩
abbrev main_v1597 : Ref sig .tc := ⟨.hbm, 1859, rfl⟩
abbrev main_v1598 : Ref sig .tc := ⟨.hbm, 1860, rfl⟩
abbrev main_v1599 : Ref sig .tc := ⟨.hbm, 1861, rfl⟩
abbrev main_cst_241 : Ref sig .tc := ⟨.hbm, 1862, rfl⟩
abbrev main_v1600 : Ref sig .tc := ⟨.hbm, 1863, rfl⟩
abbrev main_cst_242 : Ref sig .tc := ⟨.hbm, 1864, rfl⟩
abbrev main_v1601 : Ref sig .tc := ⟨.hbm, 1865, rfl⟩
abbrev main_v1602 : Ref sig .tc := ⟨.hbm, 1866, rfl⟩
abbrev main_c_243 : Ref sig .tc := ⟨.hbm, 1867, rfl⟩
abbrev main_call0_cst : Ref sig .tc := ⟨.hbm, 1868, rfl⟩
abbrev main_call0_v0 : Ref sig .tc := ⟨.hbm, 1869, rfl⟩
abbrev main_call0_v1 : Ref sig .tc := ⟨.hbm, 1870, rfl⟩
abbrev main_call0_cst_0 : Ref sig .tc := ⟨.hbm, 1871, rfl⟩
abbrev main_call0_v2 : Ref sig .tc := ⟨.hbm, 1872, rfl⟩
abbrev main_call0_v3 : Ref sig .tc := ⟨.hbm, 1873, rfl⟩
abbrev main_call0_v4 : Ref sig .tc := ⟨.hbm, 1874, rfl⟩
abbrev main_call0_v5 : Ref sig .tc := ⟨.hbm, 1875, rfl⟩
abbrev main_call0_v6 : Ref sig .tc := ⟨.hbm, 1876, rfl⟩
abbrev main_call0_v7 : Ref sig .tc := ⟨.hbm, 1877, rfl⟩
abbrev main_call0_cst_1 : Ref sig .tc := ⟨.hbm, 1878, rfl⟩
abbrev main_call0_v8 : Ref sig .tc := ⟨.hbm, 1879, rfl⟩
abbrev main_call0_cst_2 : Ref sig .tc := ⟨.hbm, 1880, rfl⟩
abbrev main_call0_v9 : Ref sig .tc := ⟨.hbm, 1881, rfl⟩
abbrev main_call0_v10 : Ref sig .tc := ⟨.hbm, 1882, rfl⟩
abbrev main_call0_v11 : Ref sig .tc := ⟨.hbm, 1883, rfl⟩
abbrev main_call0_cst_3 : Ref sig .tc := ⟨.hbm, 1884, rfl⟩
abbrev main_call0_v12 : Ref sig .tc := ⟨.hbm, 1885, rfl⟩
abbrev main_call0_cst_4 : Ref sig .tc := ⟨.hbm, 1886, rfl⟩
abbrev main_call0_call0_v0 : Ref sig .tc := ⟨.hbm, 1887, rfl⟩
abbrev main_call0_call0_v1 : Ref sig .tc := ⟨.hbm, 1888, rfl⟩
abbrev main_v1603 : Ref sig .tc := ⟨.hbm, 1889, rfl⟩
abbrev main_v1604 : Ref sig .tc := ⟨.hbm, 1890, rfl⟩
abbrev main_v1605 : Ref sig .tc := ⟨.hbm, 1891, rfl⟩
abbrev main_v1606 : Ref sig .tc := ⟨.hbm, 1892, rfl⟩
abbrev main_cst_244 : Ref sig .tc := ⟨.hbm, 1893, rfl⟩
abbrev main_v1607 : Ref sig .tc := ⟨.hbm, 1894, rfl⟩
abbrev main_v1608 : Ref sig .tc := ⟨.hbm, 1895, rfl⟩
abbrev main_v1609 : Ref sig .tc := ⟨.hbm, 1896, rfl⟩
abbrev main_v1610 : Ref sig .tc := ⟨.hbm, 1897, rfl⟩
abbrev main_v1611 : Ref sig .tc := ⟨.hbm, 1898, rfl⟩
abbrev main_v1612 : Ref sig .tc := ⟨.hbm, 1899, rfl⟩
abbrev main_v1613 : Ref sig .tc := ⟨.hbm, 1900, rfl⟩
abbrev main_v1614 : Ref sig .tc := ⟨.hbm, 1901, rfl⟩
abbrev main_v1615 : Ref sig .tc := ⟨.hbm, 1902, rfl⟩
abbrev main_v1616 : Ref sig .tc := ⟨.hbm, 1903, rfl⟩
abbrev main_v1617 : Ref sig .tc := ⟨.hbm, 1904, rfl⟩
abbrev main_v1618 : Ref sig .tc := ⟨.hbm, 1905, rfl⟩
abbrev main_v1619 : Ref sig .tc := ⟨.hbm, 1906, rfl⟩
abbrev main_v1620 : Ref sig .tc := ⟨.hbm, 1907, rfl⟩
abbrev main_v1621 : Ref sig .tc := ⟨.hbm, 1908, rfl⟩
abbrev main_v1622 : Ref sig .tc := ⟨.hbm, 1909, rfl⟩
abbrev main_call1_cst : Ref sig .tc := ⟨.hbm, 1910, rfl⟩
abbrev main_call1_v0 : Ref sig .tc := ⟨.hbm, 1911, rfl⟩
abbrev main_v1623 : Ref sig .tc := ⟨.hbm, 1912, rfl⟩
abbrev main_v1624 : Ref sig .tc := ⟨.hbm, 1913, rfl⟩
abbrev main_v1625 : Ref sig .tc := ⟨.hbm, 1914, rfl⟩
abbrev main_v1626 : Ref sig .tc := ⟨.hbm, 1915, rfl⟩
abbrev main_v1627 : Ref sig .tc := ⟨.hbm, 1916, rfl⟩
abbrev main_cst_245 : Ref sig .tc := ⟨.hbm, 1917, rfl⟩
abbrev main_v1628 : Ref sig .tc := ⟨.hbm, 1918, rfl⟩
abbrev main_v1629 : Ref sig .tc := ⟨.hbm, 1919, rfl⟩
abbrev main_v1630 : Ref sig .tc := ⟨.hbm, 1920, rfl⟩
abbrev main_v1631 : Ref sig .tc := ⟨.hbm, 1921, rfl⟩
abbrev main_v1632 : Ref sig .tc := ⟨.hbm, 1922, rfl⟩
abbrev main_v1633 : Ref sig .tc := ⟨.hbm, 1923, rfl⟩
abbrev main_v1634 : Ref sig .tc := ⟨.hbm, 1924, rfl⟩
abbrev main_v1635 : Ref sig .tc := ⟨.hbm, 1925, rfl⟩
abbrev main_v1636 : Ref sig .tc := ⟨.hbm, 1926, rfl⟩
abbrev main_v1637 : Ref sig .tc := ⟨.hbm, 1927, rfl⟩
abbrev main_v1638 : Ref sig .tc := ⟨.hbm, 1928, rfl⟩
abbrev main_v1639 : Ref sig .tc := ⟨.hbm, 1929, rfl⟩
abbrev main_v1640 : Ref sig .tc := ⟨.hbm, 1930, rfl⟩
abbrev main_v1641 : Ref sig .tc := ⟨.hbm, 1931, rfl⟩
abbrev main_v1642 : Ref sig .tc := ⟨.hbm, 1932, rfl⟩
abbrev main_v1643 : Ref sig .tc := ⟨.hbm, 1933, rfl⟩
abbrev main_v1644 : Ref sig .tc := ⟨.hbm, 1934, rfl⟩
abbrev main_v1645 : Ref sig .tc := ⟨.hbm, 1935, rfl⟩
abbrev main_v1646 : Ref sig .tc := ⟨.hbm, 1936, rfl⟩
abbrev main_v1647 : Ref sig .tc := ⟨.hbm, 1937, rfl⟩
abbrev main_v1648 : Ref sig .tc := ⟨.hbm, 1938, rfl⟩
abbrev main_v1649 : Ref sig .tc := ⟨.hbm, 1939, rfl⟩
abbrev main_v1650 : Ref sig .tc := ⟨.hbm, 1940, rfl⟩
abbrev main_v1651 : Ref sig .tc := ⟨.hbm, 1941, rfl⟩
abbrev main_v1652 : Ref sig .tc := ⟨.hbm, 1942, rfl⟩
abbrev main_v1653 : Ref sig .tc := ⟨.hbm, 1943, rfl⟩
abbrev main_v1654 : Ref sig .tc := ⟨.hbm, 1944, rfl⟩
abbrev main_v1655 : Ref sig .tc := ⟨.hbm, 1945, rfl⟩
abbrev main_cst_246 : Ref sig .tc := ⟨.hbm, 1946, rfl⟩
abbrev main_v1656 : Ref sig .tc := ⟨.hbm, 1947, rfl⟩
abbrev main_cst_247 : Ref sig .tc := ⟨.hbm, 1948, rfl⟩
abbrev main_v1657 : Ref sig .tc := ⟨.hbm, 1949, rfl⟩
abbrev main_v1658 : Ref sig .tc := ⟨.hbm, 1950, rfl⟩
abbrev main_c_248 : Ref sig .tc := ⟨.hbm, 1951, rfl⟩
abbrev main_call2_cst : Ref sig .tc := ⟨.hbm, 1952, rfl⟩
abbrev main_call2_v0 : Ref sig .tc := ⟨.hbm, 1953, rfl⟩
abbrev main_call2_v1 : Ref sig .tc := ⟨.hbm, 1954, rfl⟩
abbrev main_call2_cst_0 : Ref sig .tc := ⟨.hbm, 1955, rfl⟩
abbrev main_call2_v2 : Ref sig .tc := ⟨.hbm, 1956, rfl⟩
abbrev main_call2_v3 : Ref sig .tc := ⟨.hbm, 1957, rfl⟩
abbrev main_call2_v4 : Ref sig .tc := ⟨.hbm, 1958, rfl⟩
abbrev main_call2_v5 : Ref sig .tc := ⟨.hbm, 1959, rfl⟩
abbrev main_call2_v6 : Ref sig .tc := ⟨.hbm, 1960, rfl⟩
abbrev main_call2_v7 : Ref sig .tc := ⟨.hbm, 1961, rfl⟩
abbrev main_call2_cst_1 : Ref sig .tc := ⟨.hbm, 1962, rfl⟩
abbrev main_call2_v8 : Ref sig .tc := ⟨.hbm, 1963, rfl⟩
abbrev main_call2_cst_2 : Ref sig .tc := ⟨.hbm, 1964, rfl⟩
abbrev main_call2_v9 : Ref sig .tc := ⟨.hbm, 1965, rfl⟩
abbrev main_call2_v10 : Ref sig .tc := ⟨.hbm, 1966, rfl⟩
abbrev main_call2_v11 : Ref sig .tc := ⟨.hbm, 1967, rfl⟩
abbrev main_call2_cst_3 : Ref sig .tc := ⟨.hbm, 1968, rfl⟩
abbrev main_call2_v12 : Ref sig .tc := ⟨.hbm, 1969, rfl⟩
abbrev main_call2_cst_4 : Ref sig .tc := ⟨.hbm, 1970, rfl⟩
abbrev main_call2_call0_v0 : Ref sig .tc := ⟨.hbm, 1971, rfl⟩
abbrev main_call2_call0_v1 : Ref sig .tc := ⟨.hbm, 1972, rfl⟩
abbrev main_v1659 : Ref sig .tc := ⟨.hbm, 1973, rfl⟩
abbrev main_v1660 : Ref sig .tc := ⟨.hbm, 1974, rfl⟩
abbrev main_v1661 : Ref sig .tc := ⟨.hbm, 1975, rfl⟩
abbrev main_v1662 : Ref sig .tc := ⟨.hbm, 1976, rfl⟩
abbrev main_cst_249 : Ref sig .tc := ⟨.hbm, 1977, rfl⟩
abbrev main_v1663 : Ref sig .tc := ⟨.hbm, 1978, rfl⟩
abbrev main_v1664 : Ref sig .tc := ⟨.hbm, 1979, rfl⟩
abbrev main_v1665 : Ref sig .tc := ⟨.hbm, 1980, rfl⟩
abbrev main_v1666 : Ref sig .tc := ⟨.hbm, 1981, rfl⟩
abbrev main_v1667 : Ref sig .tc := ⟨.hbm, 1982, rfl⟩
abbrev main_v1668 : Ref sig .tc := ⟨.hbm, 1983, rfl⟩
abbrev main_v1669 : Ref sig .tc := ⟨.hbm, 1984, rfl⟩
abbrev main_v1670 : Ref sig .tc := ⟨.hbm, 1985, rfl⟩
abbrev main_v1671 : Ref sig .tc := ⟨.hbm, 1986, rfl⟩
abbrev main_v1672 : Ref sig .tc := ⟨.hbm, 1987, rfl⟩
abbrev main_v1673 : Ref sig .tc := ⟨.hbm, 1988, rfl⟩
abbrev main_v1674 : Ref sig .tc := ⟨.hbm, 1989, rfl⟩
abbrev main_v1675 : Ref sig .tc := ⟨.hbm, 1990, rfl⟩
abbrev main_v1676 : Ref sig .tc := ⟨.hbm, 1991, rfl⟩
abbrev main_v1677 : Ref sig .tc := ⟨.hbm, 1992, rfl⟩
abbrev main_v1678 : Ref sig .tc := ⟨.hbm, 1993, rfl⟩
abbrev main_call3_cst : Ref sig .tc := ⟨.hbm, 1994, rfl⟩
abbrev main_call3_v0 : Ref sig .tc := ⟨.hbm, 1995, rfl⟩
abbrev main_v1679 : Ref sig .tc := ⟨.hbm, 1996, rfl⟩
abbrev main_v1680 : Ref sig .tc := ⟨.hbm, 1997, rfl⟩
abbrev main_v1681 : Ref sig .tc := ⟨.hbm, 1998, rfl⟩
abbrev main_v1682 : Ref sig .tc := ⟨.hbm, 1999, rfl⟩
abbrev main_v1683 : Ref sig .tc := ⟨.hbm, 2000, rfl⟩
abbrev main_cst_250 : Ref sig .tc := ⟨.hbm, 2001, rfl⟩
abbrev main_v1684 : Ref sig .tc := ⟨.hbm, 2002, rfl⟩
abbrev main_v1685 : Ref sig .tc := ⟨.hbm, 2003, rfl⟩
abbrev main_v1686 : Ref sig .tc := ⟨.hbm, 2004, rfl⟩
abbrev main_v1687 : Ref sig .tc := ⟨.hbm, 2005, rfl⟩
abbrev main_v1688 : Ref sig .tc := ⟨.hbm, 2006, rfl⟩
abbrev main_v1689 : Ref sig .tc := ⟨.hbm, 2007, rfl⟩
abbrev main_v1690 : Ref sig .tc := ⟨.hbm, 2008, rfl⟩
abbrev main_v1691 : Ref sig .tc := ⟨.hbm, 2009, rfl⟩
abbrev main_v1692 : Ref sig .tc := ⟨.hbm, 2010, rfl⟩
abbrev main_v1693 : Ref sig .tc := ⟨.hbm, 2011, rfl⟩
abbrev main_v1694 : Ref sig .tc := ⟨.hbm, 2012, rfl⟩
abbrev main_v1695 : Ref sig .tc := ⟨.hbm, 2013, rfl⟩
abbrev main_v1696 : Ref sig .tc := ⟨.hbm, 2014, rfl⟩
abbrev main_v1697 : Ref sig .tc := ⟨.hbm, 2015, rfl⟩
abbrev main_v1698 : Ref sig .tc := ⟨.hbm, 2016, rfl⟩
abbrev main_v1699 : Ref sig .tc := ⟨.hbm, 2017, rfl⟩
abbrev main_v1700 : Ref sig .tc := ⟨.hbm, 2018, rfl⟩
abbrev main_v1701 : Ref sig .tc := ⟨.hbm, 2019, rfl⟩
abbrev main_v1702 : Ref sig .tc := ⟨.hbm, 2020, rfl⟩
abbrev main_v1703 : Ref sig .tc := ⟨.hbm, 2021, rfl⟩
abbrev main_v1704 : Ref sig .tc := ⟨.hbm, 2022, rfl⟩
abbrev main_v1705 : Ref sig .tc := ⟨.hbm, 2023, rfl⟩
abbrev main_v1706 : Ref sig .tc := ⟨.hbm, 2024, rfl⟩
abbrev main_v1707 : Ref sig .tc := ⟨.hbm, 2025, rfl⟩
abbrev main_v1708 : Ref sig .tc := ⟨.hbm, 2026, rfl⟩
abbrev main_v1709 : Ref sig .tc := ⟨.hbm, 2027, rfl⟩
abbrev main_v1710 : Ref sig .tc := ⟨.hbm, 2028, rfl⟩
abbrev main_v1711 : Ref sig .tc := ⟨.hbm, 2029, rfl⟩
abbrev main_cst_251 : Ref sig .tc := ⟨.hbm, 2030, rfl⟩
abbrev main_v1712 : Ref sig .tc := ⟨.hbm, 2031, rfl⟩
abbrev main_cst_252 : Ref sig .tc := ⟨.hbm, 2032, rfl⟩
abbrev main_v1713 : Ref sig .tc := ⟨.hbm, 2033, rfl⟩
abbrev main_v1714 : Ref sig .tc := ⟨.hbm, 2034, rfl⟩
abbrev main_c_253 : Ref sig .tc := ⟨.hbm, 2035, rfl⟩
abbrev main_call4_cst : Ref sig .tc := ⟨.hbm, 2036, rfl⟩
abbrev main_call4_v0 : Ref sig .tc := ⟨.hbm, 2037, rfl⟩
abbrev main_call4_v1 : Ref sig .tc := ⟨.hbm, 2038, rfl⟩
abbrev main_call4_cst_0 : Ref sig .tc := ⟨.hbm, 2039, rfl⟩
abbrev main_call4_v2 : Ref sig .tc := ⟨.hbm, 2040, rfl⟩
abbrev main_call4_v3 : Ref sig .tc := ⟨.hbm, 2041, rfl⟩
abbrev main_call4_v4 : Ref sig .tc := ⟨.hbm, 2042, rfl⟩
abbrev main_call4_v5 : Ref sig .tc := ⟨.hbm, 2043, rfl⟩
abbrev main_call4_v6 : Ref sig .tc := ⟨.hbm, 2044, rfl⟩
abbrev main_call4_v7 : Ref sig .tc := ⟨.hbm, 2045, rfl⟩
abbrev main_call4_cst_1 : Ref sig .tc := ⟨.hbm, 2046, rfl⟩
abbrev main_call4_v8 : Ref sig .tc := ⟨.hbm, 2047, rfl⟩
abbrev main_call4_cst_2 : Ref sig .tc := ⟨.hbm, 2048, rfl⟩
abbrev main_call4_v9 : Ref sig .tc := ⟨.hbm, 2049, rfl⟩
abbrev main_call4_v10 : Ref sig .tc := ⟨.hbm, 2050, rfl⟩
abbrev main_call4_v11 : Ref sig .tc := ⟨.hbm, 2051, rfl⟩
abbrev main_call4_cst_3 : Ref sig .tc := ⟨.hbm, 2052, rfl⟩
abbrev main_call4_v12 : Ref sig .tc := ⟨.hbm, 2053, rfl⟩
abbrev main_call4_cst_4 : Ref sig .tc := ⟨.hbm, 2054, rfl⟩
abbrev main_call4_call0_v0 : Ref sig .tc := ⟨.hbm, 2055, rfl⟩
abbrev main_call4_call0_v1 : Ref sig .tc := ⟨.hbm, 2056, rfl⟩
abbrev main_v1715 : Ref sig .tc := ⟨.hbm, 2057, rfl⟩
abbrev main_v1716 : Ref sig .tc := ⟨.hbm, 2058, rfl⟩
abbrev main_v1717 : Ref sig .tc := ⟨.hbm, 2059, rfl⟩
abbrev main_v1718 : Ref sig .tc := ⟨.hbm, 2060, rfl⟩
abbrev main_cst_254 : Ref sig .tc := ⟨.hbm, 2061, rfl⟩
abbrev main_v1719 : Ref sig .tc := ⟨.hbm, 2062, rfl⟩
abbrev main_v1720 : Ref sig .tc := ⟨.hbm, 2063, rfl⟩
abbrev main_v1721 : Ref sig .tc := ⟨.hbm, 2064, rfl⟩
abbrev main_v1722 : Ref sig .tc := ⟨.hbm, 2065, rfl⟩
abbrev main_v1723 : Ref sig .tc := ⟨.hbm, 2066, rfl⟩
abbrev main_v1724 : Ref sig .tc := ⟨.hbm, 2067, rfl⟩
abbrev main_v1725 : Ref sig .tc := ⟨.hbm, 2068, rfl⟩
abbrev main_v1726 : Ref sig .tc := ⟨.hbm, 2069, rfl⟩
abbrev main_v1727 : Ref sig .tc := ⟨.hbm, 2070, rfl⟩
abbrev main_v1728 : Ref sig .tc := ⟨.hbm, 2071, rfl⟩
abbrev main_v1729 : Ref sig .tc := ⟨.hbm, 2072, rfl⟩
abbrev main_v1730 : Ref sig .tc := ⟨.hbm, 2073, rfl⟩
abbrev main_v1731 : Ref sig .tc := ⟨.hbm, 2074, rfl⟩
abbrev main_v1732 : Ref sig .tc := ⟨.hbm, 2075, rfl⟩
abbrev main_v1733 : Ref sig .tc := ⟨.hbm, 2076, rfl⟩
abbrev main_v1734 : Ref sig .tc := ⟨.hbm, 2077, rfl⟩
abbrev main_call5_cst : Ref sig .tc := ⟨.hbm, 2078, rfl⟩
abbrev main_call5_v0 : Ref sig .tc := ⟨.hbm, 2079, rfl⟩
abbrev main_v1735 : Ref sig .tc := ⟨.hbm, 2080, rfl⟩
abbrev main_v1736 : Ref sig .tc := ⟨.hbm, 2081, rfl⟩
abbrev main_v1737 : Ref sig .tc := ⟨.hbm, 2082, rfl⟩
abbrev main_v1738 : Ref sig .tc := ⟨.hbm, 2083, rfl⟩
abbrev main_v1739 : Ref sig .tc := ⟨.hbm, 2084, rfl⟩
abbrev main_cst_255 : Ref sig .tc := ⟨.hbm, 2085, rfl⟩
abbrev main_v1740 : Ref sig .tc := ⟨.hbm, 2086, rfl⟩
abbrev main_v1741 : Ref sig .tc := ⟨.hbm, 2087, rfl⟩
abbrev main_v1742 : Ref sig .tc := ⟨.hbm, 2088, rfl⟩
abbrev main_v1743 : Ref sig .tc := ⟨.hbm, 2089, rfl⟩
abbrev main_v1744 : Ref sig .tc := ⟨.hbm, 2090, rfl⟩
abbrev main_v1745 : Ref sig .tc := ⟨.hbm, 2091, rfl⟩
abbrev main_v1746 : Ref sig .tc := ⟨.hbm, 2092, rfl⟩
abbrev main_v1747 : Ref sig .tc := ⟨.hbm, 2093, rfl⟩
abbrev main_v1748 : Ref sig .tc := ⟨.hbm, 2094, rfl⟩
abbrev main_v1749 : Ref sig .tc := ⟨.hbm, 2095, rfl⟩
abbrev main_v1750 : Ref sig .tc := ⟨.hbm, 2096, rfl⟩
abbrev main_v1751 : Ref sig .tc := ⟨.hbm, 2097, rfl⟩
abbrev main_v1752 : Ref sig .tc := ⟨.hbm, 2098, rfl⟩
abbrev main_v1753 : Ref sig .tc := ⟨.hbm, 2099, rfl⟩
abbrev main_v1754 : Ref sig .tc := ⟨.hbm, 2100, rfl⟩
abbrev main_v1755 : Ref sig .tc := ⟨.hbm, 2101, rfl⟩
abbrev main_v1756 : Ref sig .tc := ⟨.hbm, 2102, rfl⟩
abbrev main_v1757 : Ref sig .tc := ⟨.hbm, 2103, rfl⟩
abbrev main_v1758 : Ref sig .tc := ⟨.hbm, 2104, rfl⟩
abbrev main_v1759 : Ref sig .tc := ⟨.hbm, 2105, rfl⟩
abbrev main_v1760 : Ref sig .tc := ⟨.hbm, 2106, rfl⟩
abbrev main_v1761 : Ref sig .tc := ⟨.hbm, 2107, rfl⟩
abbrev main_v1762 : Ref sig .tc := ⟨.hbm, 2108, rfl⟩
abbrev main_v1763 : Ref sig .tc := ⟨.hbm, 2109, rfl⟩
abbrev main_v1764 : Ref sig .tc := ⟨.hbm, 2110, rfl⟩
abbrev main_v1765 : Ref sig .tc := ⟨.hbm, 2111, rfl⟩
abbrev main_v1766 : Ref sig .tc := ⟨.hbm, 2112, rfl⟩
abbrev main_v1767 : Ref sig .tc := ⟨.hbm, 2113, rfl⟩
abbrev main_cst_256 : Ref sig .tc := ⟨.hbm, 2114, rfl⟩
abbrev main_v1768 : Ref sig .tc := ⟨.hbm, 2115, rfl⟩
abbrev main_cst_257 : Ref sig .tc := ⟨.hbm, 2116, rfl⟩
abbrev main_v1769 : Ref sig .tc := ⟨.hbm, 2117, rfl⟩
abbrev main_v1770 : Ref sig .tc := ⟨.hbm, 2118, rfl⟩
abbrev main_c_258 : Ref sig .tc := ⟨.hbm, 2119, rfl⟩
abbrev main_call6_cst : Ref sig .tc := ⟨.hbm, 2120, rfl⟩
abbrev main_call6_v0 : Ref sig .tc := ⟨.hbm, 2121, rfl⟩
abbrev main_call6_v1 : Ref sig .tc := ⟨.hbm, 2122, rfl⟩
abbrev main_call6_cst_0 : Ref sig .tc := ⟨.hbm, 2123, rfl⟩
abbrev main_call6_v2 : Ref sig .tc := ⟨.hbm, 2124, rfl⟩
abbrev main_call6_v3 : Ref sig .tc := ⟨.hbm, 2125, rfl⟩
abbrev main_call6_v4 : Ref sig .tc := ⟨.hbm, 2126, rfl⟩
abbrev main_call6_v5 : Ref sig .tc := ⟨.hbm, 2127, rfl⟩
abbrev main_call6_v6 : Ref sig .tc := ⟨.hbm, 2128, rfl⟩
abbrev main_call6_v7 : Ref sig .tc := ⟨.hbm, 2129, rfl⟩
abbrev main_call6_cst_1 : Ref sig .tc := ⟨.hbm, 2130, rfl⟩
abbrev main_call6_v8 : Ref sig .tc := ⟨.hbm, 2131, rfl⟩
abbrev main_call6_cst_2 : Ref sig .tc := ⟨.hbm, 2132, rfl⟩
abbrev main_call6_v9 : Ref sig .tc := ⟨.hbm, 2133, rfl⟩
abbrev main_call6_v10 : Ref sig .tc := ⟨.hbm, 2134, rfl⟩
abbrev main_call6_v11 : Ref sig .tc := ⟨.hbm, 2135, rfl⟩
abbrev main_call6_cst_3 : Ref sig .tc := ⟨.hbm, 2136, rfl⟩
abbrev main_call6_v12 : Ref sig .tc := ⟨.hbm, 2137, rfl⟩
abbrev main_call6_cst_4 : Ref sig .tc := ⟨.hbm, 2138, rfl⟩
abbrev main_call6_call0_v0 : Ref sig .tc := ⟨.hbm, 2139, rfl⟩
abbrev main_call6_call0_v1 : Ref sig .tc := ⟨.hbm, 2140, rfl⟩
abbrev main_v1771 : Ref sig .tc := ⟨.hbm, 2141, rfl⟩
abbrev main_v1772 : Ref sig .tc := ⟨.hbm, 2142, rfl⟩
abbrev main_v1773 : Ref sig .tc := ⟨.hbm, 2143, rfl⟩
abbrev main_v1774 : Ref sig .tc := ⟨.hbm, 2144, rfl⟩
abbrev main_cst_259 : Ref sig .tc := ⟨.hbm, 2145, rfl⟩
abbrev main_v1775 : Ref sig .tc := ⟨.hbm, 2146, rfl⟩
abbrev main_v1776 : Ref sig .tc := ⟨.hbm, 2147, rfl⟩
abbrev main_v1777 : Ref sig .tc := ⟨.hbm, 2148, rfl⟩
abbrev main_v1778 : Ref sig .tc := ⟨.hbm, 2149, rfl⟩
abbrev main_v1779 : Ref sig .tc := ⟨.hbm, 2150, rfl⟩
abbrev main_v1780 : Ref sig .tc := ⟨.hbm, 2151, rfl⟩
abbrev main_v1781 : Ref sig .tc := ⟨.hbm, 2152, rfl⟩
abbrev main_v1782 : Ref sig .tc := ⟨.hbm, 2153, rfl⟩
abbrev main_v1783 : Ref sig .tc := ⟨.hbm, 2154, rfl⟩
abbrev main_v1784 : Ref sig .tc := ⟨.hbm, 2155, rfl⟩
abbrev main_v1785 : Ref sig .tc := ⟨.hbm, 2156, rfl⟩
abbrev main_v1786 : Ref sig .tc := ⟨.hbm, 2157, rfl⟩
abbrev main_v1787 : Ref sig .tc := ⟨.hbm, 2158, rfl⟩
abbrev main_v1788 : Ref sig .tc := ⟨.hbm, 2159, rfl⟩
abbrev main_v1789 : Ref sig .tc := ⟨.hbm, 2160, rfl⟩
abbrev main_v1790 : Ref sig .tc := ⟨.hbm, 2161, rfl⟩
abbrev main_call7_cst : Ref sig .tc := ⟨.hbm, 2162, rfl⟩
abbrev main_call7_v0 : Ref sig .tc := ⟨.hbm, 2163, rfl⟩
abbrev main_v1791 : Ref sig .tc := ⟨.hbm, 2164, rfl⟩
abbrev main_v1792 : Ref sig .tc := ⟨.hbm, 2165, rfl⟩
abbrev main_v1793 : Ref sig .tc := ⟨.hbm, 2166, rfl⟩
abbrev main_v1794 : Ref sig .tc := ⟨.hbm, 2167, rfl⟩
abbrev main_v1795 : Ref sig .tc := ⟨.hbm, 2168, rfl⟩
abbrev main_cst_260 : Ref sig .tc := ⟨.hbm, 2169, rfl⟩
abbrev main_v1796 : Ref sig .tc := ⟨.hbm, 2170, rfl⟩
abbrev main_v1797 : Ref sig .tc := ⟨.hbm, 2171, rfl⟩
abbrev main_v1798 : Ref sig .tc := ⟨.hbm, 2172, rfl⟩
abbrev main_v1799 : Ref sig .tc := ⟨.hbm, 2173, rfl⟩
abbrev main_v1800 : Ref sig .tc := ⟨.hbm, 2174, rfl⟩
abbrev main_v1801 : Ref sig .tc := ⟨.hbm, 2175, rfl⟩
abbrev main_v1802 : Ref sig .tc := ⟨.hbm, 2176, rfl⟩
abbrev main_v1803 : Ref sig .tc := ⟨.hbm, 2177, rfl⟩
abbrev main_v1804 : Ref sig .tc := ⟨.hbm, 2178, rfl⟩
abbrev main_v1805 : Ref sig .tc := ⟨.hbm, 2179, rfl⟩
abbrev main_v1806 : Ref sig .tc := ⟨.hbm, 2180, rfl⟩
abbrev main_v1807 : Ref sig .tc := ⟨.hbm, 2181, rfl⟩
abbrev main_v1808 : Ref sig .tc := ⟨.hbm, 2182, rfl⟩
abbrev main_v1809 : Ref sig .tc := ⟨.hbm, 2183, rfl⟩
abbrev main_v1810 : Ref sig .tc := ⟨.hbm, 2184, rfl⟩
abbrev main_v1811 : Ref sig .tc := ⟨.hbm, 2185, rfl⟩
abbrev main_v1812 : Ref sig .tc := ⟨.hbm, 2186, rfl⟩
abbrev main_v1813 : Ref sig .tc := ⟨.hbm, 2187, rfl⟩
abbrev main_v1814 : Ref sig .tc := ⟨.hbm, 2188, rfl⟩
abbrev main_v1815 : Ref sig .tc := ⟨.hbm, 2189, rfl⟩
abbrev main_v1816 : Ref sig .tc := ⟨.hbm, 2190, rfl⟩
abbrev main_v1817 : Ref sig .tc := ⟨.hbm, 2191, rfl⟩
abbrev main_v1818 : Ref sig .tc := ⟨.hbm, 2192, rfl⟩
abbrev main_v1819 : Ref sig .tc := ⟨.hbm, 2193, rfl⟩
abbrev main_v1820 : Ref sig .tc := ⟨.hbm, 2194, rfl⟩
abbrev main_v1821 : Ref sig .tc := ⟨.hbm, 2195, rfl⟩
abbrev main_v1822 : Ref sig .tc := ⟨.hbm, 2196, rfl⟩
abbrev main_v1823 : Ref sig .tc := ⟨.hbm, 2197, rfl⟩
abbrev main_cst_261 : Ref sig .tc := ⟨.hbm, 2198, rfl⟩
abbrev main_v1824 : Ref sig .tc := ⟨.hbm, 2199, rfl⟩
abbrev main_cst_262 : Ref sig .tc := ⟨.hbm, 2200, rfl⟩
abbrev main_v1825 : Ref sig .tc := ⟨.hbm, 2201, rfl⟩
abbrev main_v1826 : Ref sig .tc := ⟨.hbm, 2202, rfl⟩
abbrev main_c_263 : Ref sig .tc := ⟨.hbm, 2203, rfl⟩
abbrev main_call8_cst : Ref sig .tc := ⟨.hbm, 2204, rfl⟩
abbrev main_call8_v0 : Ref sig .tc := ⟨.hbm, 2205, rfl⟩
abbrev main_call8_v1 : Ref sig .tc := ⟨.hbm, 2206, rfl⟩
abbrev main_call8_cst_0 : Ref sig .tc := ⟨.hbm, 2207, rfl⟩
abbrev main_call8_v2 : Ref sig .tc := ⟨.hbm, 2208, rfl⟩
abbrev main_call8_v3 : Ref sig .tc := ⟨.hbm, 2209, rfl⟩
abbrev main_call8_v4 : Ref sig .tc := ⟨.hbm, 2210, rfl⟩
abbrev main_call8_v5 : Ref sig .tc := ⟨.hbm, 2211, rfl⟩
abbrev main_call8_v6 : Ref sig .tc := ⟨.hbm, 2212, rfl⟩
abbrev main_call8_v7 : Ref sig .tc := ⟨.hbm, 2213, rfl⟩
abbrev main_call8_cst_1 : Ref sig .tc := ⟨.hbm, 2214, rfl⟩
abbrev main_call8_v8 : Ref sig .tc := ⟨.hbm, 2215, rfl⟩
abbrev main_call8_cst_2 : Ref sig .tc := ⟨.hbm, 2216, rfl⟩
abbrev main_call8_v9 : Ref sig .tc := ⟨.hbm, 2217, rfl⟩
abbrev main_call8_v10 : Ref sig .tc := ⟨.hbm, 2218, rfl⟩
abbrev main_call8_v11 : Ref sig .tc := ⟨.hbm, 2219, rfl⟩
abbrev main_call8_cst_3 : Ref sig .tc := ⟨.hbm, 2220, rfl⟩
abbrev main_call8_v12 : Ref sig .tc := ⟨.hbm, 2221, rfl⟩
abbrev main_call8_cst_4 : Ref sig .tc := ⟨.hbm, 2222, rfl⟩
abbrev main_call8_call0_v0 : Ref sig .tc := ⟨.hbm, 2223, rfl⟩
abbrev main_call8_call0_v1 : Ref sig .tc := ⟨.hbm, 2224, rfl⟩
abbrev main_v1827 : Ref sig .tc := ⟨.hbm, 2225, rfl⟩
abbrev main_v1828 : Ref sig .tc := ⟨.hbm, 2226, rfl⟩
abbrev main_v1829 : Ref sig .tc := ⟨.hbm, 2227, rfl⟩
abbrev main_v1830 : Ref sig .tc := ⟨.hbm, 2228, rfl⟩
abbrev main_cst_264 : Ref sig .tc := ⟨.hbm, 2229, rfl⟩
abbrev main_v1831 : Ref sig .tc := ⟨.hbm, 2230, rfl⟩
abbrev main_v1832 : Ref sig .tc := ⟨.hbm, 2231, rfl⟩
abbrev main_v1833 : Ref sig .tc := ⟨.hbm, 2232, rfl⟩
abbrev main_v1834 : Ref sig .tc := ⟨.hbm, 2233, rfl⟩
abbrev main_v1835 : Ref sig .tc := ⟨.hbm, 2234, rfl⟩
abbrev main_v1836 : Ref sig .tc := ⟨.hbm, 2235, rfl⟩
abbrev main_v1837 : Ref sig .tc := ⟨.hbm, 2236, rfl⟩
abbrev main_v1838 : Ref sig .tc := ⟨.hbm, 2237, rfl⟩
abbrev main_v1839 : Ref sig .tc := ⟨.hbm, 2238, rfl⟩
abbrev main_v1840 : Ref sig .tc := ⟨.hbm, 2239, rfl⟩
abbrev main_v1841 : Ref sig .tc := ⟨.hbm, 2240, rfl⟩
abbrev main_v1842 : Ref sig .tc := ⟨.hbm, 2241, rfl⟩
abbrev main_v1843 : Ref sig .tc := ⟨.hbm, 2242, rfl⟩
abbrev main_v1844 : Ref sig .tc := ⟨.hbm, 2243, rfl⟩
abbrev main_v1845 : Ref sig .tc := ⟨.hbm, 2244, rfl⟩
abbrev main_v1846 : Ref sig .tc := ⟨.hbm, 2245, rfl⟩
abbrev main_call9_cst : Ref sig .tc := ⟨.hbm, 2246, rfl⟩
abbrev main_call9_v0 : Ref sig .tc := ⟨.hbm, 2247, rfl⟩
abbrev main_v1847 : Ref sig .tc := ⟨.hbm, 2248, rfl⟩
abbrev main_v1848 : Ref sig .tc := ⟨.hbm, 2249, rfl⟩
abbrev main_v1849 : Ref sig .tc := ⟨.hbm, 2250, rfl⟩
abbrev main_v1850 : Ref sig .tc := ⟨.hbm, 2251, rfl⟩
abbrev main_v1851 : Ref sig .tc := ⟨.hbm, 2252, rfl⟩
abbrev main_cst_265 : Ref sig .tc := ⟨.hbm, 2253, rfl⟩
abbrev main_v1852 : Ref sig .tc := ⟨.hbm, 2254, rfl⟩
abbrev main_v1853 : Ref sig .tc := ⟨.hbm, 2255, rfl⟩
abbrev main_v1854 : Ref sig .tc := ⟨.hbm, 2256, rfl⟩
abbrev main_v1855 : Ref sig .tc := ⟨.hbm, 2257, rfl⟩
abbrev main_v1856 : Ref sig .tc := ⟨.hbm, 2258, rfl⟩
abbrev main_v1857 : Ref sig .tc := ⟨.hbm, 2259, rfl⟩
abbrev main_v1858 : Ref sig .tc := ⟨.hbm, 2260, rfl⟩
abbrev main_v1859 : Ref sig .tc := ⟨.hbm, 2261, rfl⟩
abbrev main_v1860 : Ref sig .tc := ⟨.hbm, 2262, rfl⟩
abbrev main_v1861 : Ref sig .tc := ⟨.hbm, 2263, rfl⟩
abbrev main_v1862 : Ref sig .tc := ⟨.hbm, 2264, rfl⟩
abbrev main_v1863 : Ref sig .tc := ⟨.hbm, 2265, rfl⟩
abbrev main_v1864 : Ref sig .tc := ⟨.hbm, 2266, rfl⟩
abbrev main_v1865 : Ref sig .tc := ⟨.hbm, 2267, rfl⟩
abbrev main_v1866 : Ref sig .tc := ⟨.hbm, 2268, rfl⟩
abbrev main_v1867 : Ref sig .tc := ⟨.hbm, 2269, rfl⟩
abbrev main_v1868 : Ref sig .tc := ⟨.hbm, 2270, rfl⟩
abbrev main_v1869 : Ref sig .tc := ⟨.hbm, 2271, rfl⟩
abbrev main_v1870 : Ref sig .tc := ⟨.hbm, 2272, rfl⟩
abbrev main_v1871 : Ref sig .tc := ⟨.hbm, 2273, rfl⟩
abbrev main_v1872 : Ref sig .tc := ⟨.hbm, 2274, rfl⟩
abbrev main_v1873 : Ref sig .tc := ⟨.hbm, 2275, rfl⟩
abbrev main_v1874 : Ref sig .tc := ⟨.hbm, 2276, rfl⟩
abbrev main_v1875 : Ref sig .tc := ⟨.hbm, 2277, rfl⟩
abbrev main_v1876 : Ref sig .tc := ⟨.hbm, 2278, rfl⟩
abbrev main_v1877 : Ref sig .tc := ⟨.hbm, 2279, rfl⟩
abbrev main_v1878 : Ref sig .tc := ⟨.hbm, 2280, rfl⟩
abbrev main_v1879 : Ref sig .tc := ⟨.hbm, 2281, rfl⟩
abbrev main_cst_266 : Ref sig .tc := ⟨.hbm, 2282, rfl⟩
abbrev main_v1880 : Ref sig .tc := ⟨.hbm, 2283, rfl⟩
abbrev main_cst_267 : Ref sig .tc := ⟨.hbm, 2284, rfl⟩
abbrev main_v1881 : Ref sig .tc := ⟨.hbm, 2285, rfl⟩
abbrev main_v1882 : Ref sig .tc := ⟨.hbm, 2286, rfl⟩
abbrev main_c_268 : Ref sig .tc := ⟨.hbm, 2287, rfl⟩
abbrev main_call10_cst : Ref sig .tc := ⟨.hbm, 2288, rfl⟩
abbrev main_call10_v0 : Ref sig .tc := ⟨.hbm, 2289, rfl⟩
abbrev main_call10_v1 : Ref sig .tc := ⟨.hbm, 2290, rfl⟩
abbrev main_call10_cst_0 : Ref sig .tc := ⟨.hbm, 2291, rfl⟩
abbrev main_call10_v2 : Ref sig .tc := ⟨.hbm, 2292, rfl⟩
abbrev main_call10_v3 : Ref sig .tc := ⟨.hbm, 2293, rfl⟩
abbrev main_call10_v4 : Ref sig .tc := ⟨.hbm, 2294, rfl⟩
abbrev main_call10_v5 : Ref sig .tc := ⟨.hbm, 2295, rfl⟩
abbrev main_call10_v6 : Ref sig .tc := ⟨.hbm, 2296, rfl⟩
abbrev main_call10_v7 : Ref sig .tc := ⟨.hbm, 2297, rfl⟩
abbrev main_call10_cst_1 : Ref sig .tc := ⟨.hbm, 2298, rfl⟩
abbrev main_call10_v8 : Ref sig .tc := ⟨.hbm, 2299, rfl⟩
abbrev main_call10_cst_2 : Ref sig .tc := ⟨.hbm, 2300, rfl⟩
abbrev main_call10_v9 : Ref sig .tc := ⟨.hbm, 2301, rfl⟩
abbrev main_call10_v10 : Ref sig .tc := ⟨.hbm, 2302, rfl⟩
abbrev main_call10_v11 : Ref sig .tc := ⟨.hbm, 2303, rfl⟩
abbrev main_call10_cst_3 : Ref sig .tc := ⟨.hbm, 2304, rfl⟩
abbrev main_call10_v12 : Ref sig .tc := ⟨.hbm, 2305, rfl⟩
abbrev main_call10_cst_4 : Ref sig .tc := ⟨.hbm, 2306, rfl⟩
abbrev main_call10_call0_v0 : Ref sig .tc := ⟨.hbm, 2307, rfl⟩
abbrev main_call10_call0_v1 : Ref sig .tc := ⟨.hbm, 2308, rfl⟩
abbrev main_v1883 : Ref sig .tc := ⟨.hbm, 2309, rfl⟩
abbrev main_v1884 : Ref sig .tc := ⟨.hbm, 2310, rfl⟩
abbrev main_v1885 : Ref sig .tc := ⟨.hbm, 2311, rfl⟩
abbrev main_v1886 : Ref sig .tc := ⟨.hbm, 2312, rfl⟩
abbrev main_cst_269 : Ref sig .tc := ⟨.hbm, 2313, rfl⟩
abbrev main_v1887 : Ref sig .tc := ⟨.hbm, 2314, rfl⟩
abbrev main_v1888 : Ref sig .tc := ⟨.hbm, 2315, rfl⟩
abbrev main_v1889 : Ref sig .tc := ⟨.hbm, 2316, rfl⟩
abbrev main_v1890 : Ref sig .tc := ⟨.hbm, 2317, rfl⟩
abbrev main_v1891 : Ref sig .tc := ⟨.hbm, 2318, rfl⟩
abbrev main_v1892 : Ref sig .tc := ⟨.hbm, 2319, rfl⟩
abbrev main_v1893 : Ref sig .tc := ⟨.hbm, 2320, rfl⟩
abbrev main_v1894 : Ref sig .tc := ⟨.hbm, 2321, rfl⟩
abbrev main_v1895 : Ref sig .tc := ⟨.hbm, 2322, rfl⟩
abbrev main_v1896 : Ref sig .tc := ⟨.hbm, 2323, rfl⟩
abbrev main_v1897 : Ref sig .tc := ⟨.hbm, 2324, rfl⟩
abbrev main_v1898 : Ref sig .tc := ⟨.hbm, 2325, rfl⟩
abbrev main_v1899 : Ref sig .tc := ⟨.hbm, 2326, rfl⟩
abbrev main_v1900 : Ref sig .tc := ⟨.hbm, 2327, rfl⟩
abbrev main_v1901 : Ref sig .tc := ⟨.hbm, 2328, rfl⟩
abbrev main_v1902 : Ref sig .tc := ⟨.hbm, 2329, rfl⟩
abbrev main_call11_cst : Ref sig .tc := ⟨.hbm, 2330, rfl⟩
abbrev main_call11_v0 : Ref sig .tc := ⟨.hbm, 2331, rfl⟩
abbrev main_v1903 : Ref sig .tc := ⟨.hbm, 2332, rfl⟩
abbrev main_v1904 : Ref sig .tc := ⟨.hbm, 2333, rfl⟩
abbrev main_v1905 : Ref sig .tc := ⟨.hbm, 2334, rfl⟩
abbrev main_v1906 : Ref sig .tc := ⟨.hbm, 2335, rfl⟩
abbrev main_v1907 : Ref sig .tc := ⟨.hbm, 2336, rfl⟩
abbrev main_cst_270 : Ref sig .tc := ⟨.hbm, 2337, rfl⟩
abbrev main_v1908 : Ref sig .tc := ⟨.hbm, 2338, rfl⟩
abbrev main_v1909 : Ref sig .tc := ⟨.hbm, 2339, rfl⟩
abbrev main_v1910 : Ref sig .tc := ⟨.hbm, 2340, rfl⟩
abbrev main_v1911 : Ref sig .tc := ⟨.hbm, 2341, rfl⟩
abbrev main_v1912 : Ref sig .tc := ⟨.hbm, 2342, rfl⟩
abbrev main_v1913 : Ref sig .tc := ⟨.hbm, 2343, rfl⟩
abbrev main_v1914 : Ref sig .tc := ⟨.hbm, 2344, rfl⟩
abbrev main_v1915 : Ref sig .tc := ⟨.hbm, 2345, rfl⟩
abbrev main_v1916 : Ref sig .tc := ⟨.hbm, 2346, rfl⟩
abbrev main_v1917 : Ref sig .tc := ⟨.hbm, 2347, rfl⟩
abbrev main_v1918 : Ref sig .tc := ⟨.hbm, 2348, rfl⟩
abbrev main_v1919 : Ref sig .tc := ⟨.hbm, 2349, rfl⟩
abbrev main_v1920 : Ref sig .tc := ⟨.hbm, 2350, rfl⟩
abbrev main_v1921 : Ref sig .tc := ⟨.hbm, 2351, rfl⟩
abbrev main_v1922 : Ref sig .tc := ⟨.hbm, 2352, rfl⟩
abbrev main_v1923 : Ref sig .tc := ⟨.hbm, 2353, rfl⟩
abbrev main_v1924 : Ref sig .tc := ⟨.hbm, 2354, rfl⟩
abbrev main_v1925 : Ref sig .tc := ⟨.hbm, 2355, rfl⟩
abbrev main_v1926 : Ref sig .tc := ⟨.hbm, 2356, rfl⟩
abbrev main_v1927 : Ref sig .tc := ⟨.hbm, 2357, rfl⟩
abbrev main_v1928 : Ref sig .tc := ⟨.hbm, 2358, rfl⟩
abbrev main_v1929 : Ref sig .tc := ⟨.hbm, 2359, rfl⟩
abbrev main_v1930 : Ref sig .tc := ⟨.hbm, 2360, rfl⟩
abbrev main_v1931 : Ref sig .tc := ⟨.hbm, 2361, rfl⟩
abbrev main_v1932 : Ref sig .tc := ⟨.hbm, 2362, rfl⟩
abbrev main_v1933 : Ref sig .tc := ⟨.hbm, 2363, rfl⟩
abbrev main_v1934 : Ref sig .tc := ⟨.hbm, 2364, rfl⟩
abbrev main_v1935 : Ref sig .tc := ⟨.hbm, 2365, rfl⟩
abbrev main_cst_271 : Ref sig .tc := ⟨.hbm, 2366, rfl⟩
abbrev main_v1936 : Ref sig .tc := ⟨.hbm, 2367, rfl⟩
abbrev main_cst_272 : Ref sig .tc := ⟨.hbm, 2368, rfl⟩
abbrev main_v1937 : Ref sig .tc := ⟨.hbm, 2369, rfl⟩
abbrev main_v1938 : Ref sig .tc := ⟨.hbm, 2370, rfl⟩
abbrev main_c_273 : Ref sig .tc := ⟨.hbm, 2371, rfl⟩
abbrev main_call12_cst : Ref sig .tc := ⟨.hbm, 2372, rfl⟩
abbrev main_call12_v0 : Ref sig .tc := ⟨.hbm, 2373, rfl⟩
abbrev main_call12_v1 : Ref sig .tc := ⟨.hbm, 2374, rfl⟩
abbrev main_call12_cst_0 : Ref sig .tc := ⟨.hbm, 2375, rfl⟩
abbrev main_call12_v2 : Ref sig .tc := ⟨.hbm, 2376, rfl⟩
abbrev main_call12_v3 : Ref sig .tc := ⟨.hbm, 2377, rfl⟩
abbrev main_call12_v4 : Ref sig .tc := ⟨.hbm, 2378, rfl⟩
abbrev main_call12_v5 : Ref sig .tc := ⟨.hbm, 2379, rfl⟩
abbrev main_call12_v6 : Ref sig .tc := ⟨.hbm, 2380, rfl⟩
abbrev main_call12_v7 : Ref sig .tc := ⟨.hbm, 2381, rfl⟩
abbrev main_call12_cst_1 : Ref sig .tc := ⟨.hbm, 2382, rfl⟩
abbrev main_call12_v8 : Ref sig .tc := ⟨.hbm, 2383, rfl⟩
abbrev main_call12_cst_2 : Ref sig .tc := ⟨.hbm, 2384, rfl⟩
abbrev main_call12_v9 : Ref sig .tc := ⟨.hbm, 2385, rfl⟩
abbrev main_call12_v10 : Ref sig .tc := ⟨.hbm, 2386, rfl⟩
abbrev main_call12_v11 : Ref sig .tc := ⟨.hbm, 2387, rfl⟩
abbrev main_call12_cst_3 : Ref sig .tc := ⟨.hbm, 2388, rfl⟩
abbrev main_call12_v12 : Ref sig .tc := ⟨.hbm, 2389, rfl⟩
abbrev main_call12_cst_4 : Ref sig .tc := ⟨.hbm, 2390, rfl⟩
abbrev main_call12_call0_v0 : Ref sig .tc := ⟨.hbm, 2391, rfl⟩
abbrev main_call12_call0_v1 : Ref sig .tc := ⟨.hbm, 2392, rfl⟩
abbrev main_v1939 : Ref sig .tc := ⟨.hbm, 2393, rfl⟩
abbrev main_v1940 : Ref sig .tc := ⟨.hbm, 2394, rfl⟩
abbrev main_v1941 : Ref sig .tc := ⟨.hbm, 2395, rfl⟩
abbrev main_v1942 : Ref sig .tc := ⟨.hbm, 2396, rfl⟩
abbrev main_cst_274 : Ref sig .tc := ⟨.hbm, 2397, rfl⟩
abbrev main_v1943 : Ref sig .tc := ⟨.hbm, 2398, rfl⟩
abbrev main_v1944 : Ref sig .tc := ⟨.hbm, 2399, rfl⟩
abbrev main_v1945 : Ref sig .tc := ⟨.hbm, 2400, rfl⟩
abbrev main_v1946 : Ref sig .tc := ⟨.hbm, 2401, rfl⟩
abbrev main_v1947 : Ref sig .tc := ⟨.hbm, 2402, rfl⟩
abbrev main_v1948 : Ref sig .tc := ⟨.hbm, 2403, rfl⟩
abbrev main_v1949 : Ref sig .tc := ⟨.hbm, 2404, rfl⟩
abbrev main_v1950 : Ref sig .tc := ⟨.hbm, 2405, rfl⟩
abbrev main_v1951 : Ref sig .tc := ⟨.hbm, 2406, rfl⟩
abbrev main_v1952 : Ref sig .tc := ⟨.hbm, 2407, rfl⟩
abbrev main_v1953 : Ref sig .tc := ⟨.hbm, 2408, rfl⟩
abbrev main_v1954 : Ref sig .tc := ⟨.hbm, 2409, rfl⟩
abbrev main_v1955 : Ref sig .tc := ⟨.hbm, 2410, rfl⟩
abbrev main_v1956 : Ref sig .tc := ⟨.hbm, 2411, rfl⟩
abbrev main_v1957 : Ref sig .tc := ⟨.hbm, 2412, rfl⟩
abbrev main_v1958 : Ref sig .tc := ⟨.hbm, 2413, rfl⟩
abbrev main_call13_cst : Ref sig .tc := ⟨.hbm, 2414, rfl⟩
abbrev main_call13_v0 : Ref sig .tc := ⟨.hbm, 2415, rfl⟩
abbrev main_v1959 : Ref sig .tc := ⟨.hbm, 2416, rfl⟩
abbrev main_v1960 : Ref sig .tc := ⟨.hbm, 2417, rfl⟩
abbrev main_v1961 : Ref sig .tc := ⟨.hbm, 2418, rfl⟩
abbrev main_v1962 : Ref sig .tc := ⟨.hbm, 2419, rfl⟩
abbrev main_v1963 : Ref sig .tc := ⟨.hbm, 2420, rfl⟩
abbrev main_cst_275 : Ref sig .tc := ⟨.hbm, 2421, rfl⟩
abbrev main_v1964 : Ref sig .tc := ⟨.hbm, 2422, rfl⟩
abbrev main_v1965 : Ref sig .tc := ⟨.hbm, 2423, rfl⟩
abbrev main_v1966 : Ref sig .tc := ⟨.hbm, 2424, rfl⟩
abbrev main_v1967 : Ref sig .tc := ⟨.hbm, 2425, rfl⟩
abbrev main_v1968 : Ref sig .tc := ⟨.hbm, 2426, rfl⟩
abbrev main_v1969 : Ref sig .tc := ⟨.hbm, 2427, rfl⟩
abbrev main_v1970 : Ref sig .tc := ⟨.hbm, 2428, rfl⟩
abbrev main_v1971 : Ref sig .tc := ⟨.hbm, 2429, rfl⟩
abbrev main_v1972 : Ref sig .tc := ⟨.hbm, 2430, rfl⟩
abbrev main_v1973 : Ref sig .tc := ⟨.hbm, 2431, rfl⟩
abbrev main_v1974 : Ref sig .tc := ⟨.hbm, 2432, rfl⟩
abbrev main_v1975 : Ref sig .tc := ⟨.hbm, 2433, rfl⟩
abbrev main_v1976 : Ref sig .tc := ⟨.hbm, 2434, rfl⟩
abbrev main_v1977 : Ref sig .tc := ⟨.hbm, 2435, rfl⟩
abbrev main_v1978 : Ref sig .tc := ⟨.hbm, 2436, rfl⟩
abbrev main_v1979 : Ref sig .tc := ⟨.hbm, 2437, rfl⟩
abbrev main_v1980 : Ref sig .tc := ⟨.hbm, 2438, rfl⟩
abbrev main_v1981 : Ref sig .tc := ⟨.hbm, 2439, rfl⟩
abbrev main_v1982 : Ref sig .tc := ⟨.hbm, 2440, rfl⟩
abbrev main_v1983 : Ref sig .tc := ⟨.hbm, 2441, rfl⟩
abbrev main_v1984 : Ref sig .tc := ⟨.hbm, 2442, rfl⟩
abbrev main_v1985 : Ref sig .tc := ⟨.hbm, 2443, rfl⟩
abbrev main_v1986 : Ref sig .tc := ⟨.hbm, 2444, rfl⟩
abbrev main_v1987 : Ref sig .tc := ⟨.hbm, 2445, rfl⟩
abbrev main_v1988 : Ref sig .tc := ⟨.hbm, 2446, rfl⟩
abbrev main_v1989 : Ref sig .tc := ⟨.hbm, 2447, rfl⟩
abbrev main_v1990 : Ref sig .tc := ⟨.hbm, 2448, rfl⟩
abbrev main_v1991 : Ref sig .tc := ⟨.hbm, 2449, rfl⟩
abbrev main_cst_276 : Ref sig .tc := ⟨.hbm, 2450, rfl⟩
abbrev main_v1992 : Ref sig .tc := ⟨.hbm, 2451, rfl⟩
abbrev main_cst_277 : Ref sig .tc := ⟨.hbm, 2452, rfl⟩
abbrev main_v1993 : Ref sig .tc := ⟨.hbm, 2453, rfl⟩
abbrev main_v1994 : Ref sig .tc := ⟨.hbm, 2454, rfl⟩
abbrev main_c_278 : Ref sig .tc := ⟨.hbm, 2455, rfl⟩
abbrev main_call14_cst : Ref sig .tc := ⟨.hbm, 2456, rfl⟩
abbrev main_call14_v0 : Ref sig .tc := ⟨.hbm, 2457, rfl⟩
abbrev main_call14_v1 : Ref sig .tc := ⟨.hbm, 2458, rfl⟩
abbrev main_call14_cst_0 : Ref sig .tc := ⟨.hbm, 2459, rfl⟩
abbrev main_call14_v2 : Ref sig .tc := ⟨.hbm, 2460, rfl⟩
abbrev main_call14_v3 : Ref sig .tc := ⟨.hbm, 2461, rfl⟩
abbrev main_call14_v4 : Ref sig .tc := ⟨.hbm, 2462, rfl⟩
abbrev main_call14_v5 : Ref sig .tc := ⟨.hbm, 2463, rfl⟩
abbrev main_call14_v6 : Ref sig .tc := ⟨.hbm, 2464, rfl⟩
abbrev main_call14_v7 : Ref sig .tc := ⟨.hbm, 2465, rfl⟩
abbrev main_call14_cst_1 : Ref sig .tc := ⟨.hbm, 2466, rfl⟩
abbrev main_call14_v8 : Ref sig .tc := ⟨.hbm, 2467, rfl⟩
abbrev main_call14_cst_2 : Ref sig .tc := ⟨.hbm, 2468, rfl⟩
abbrev main_call14_v9 : Ref sig .tc := ⟨.hbm, 2469, rfl⟩
abbrev main_call14_v10 : Ref sig .tc := ⟨.hbm, 2470, rfl⟩
abbrev main_call14_v11 : Ref sig .tc := ⟨.hbm, 2471, rfl⟩
abbrev main_call14_cst_3 : Ref sig .tc := ⟨.hbm, 2472, rfl⟩
abbrev main_call14_v12 : Ref sig .tc := ⟨.hbm, 2473, rfl⟩
abbrev main_call14_cst_4 : Ref sig .tc := ⟨.hbm, 2474, rfl⟩
abbrev main_call14_call0_v0 : Ref sig .tc := ⟨.hbm, 2475, rfl⟩
abbrev main_call14_call0_v1 : Ref sig .tc := ⟨.hbm, 2476, rfl⟩
abbrev main_v1995 : Ref sig .tc := ⟨.hbm, 2477, rfl⟩
abbrev main_v1996 : Ref sig .tc := ⟨.hbm, 2478, rfl⟩
abbrev main_v1997 : Ref sig .tc := ⟨.hbm, 2479, rfl⟩
abbrev main_v1998 : Ref sig .tc := ⟨.hbm, 2480, rfl⟩
abbrev main_cst_279 : Ref sig .tc := ⟨.hbm, 2481, rfl⟩
abbrev main_v1999 : Ref sig .tc := ⟨.hbm, 2482, rfl⟩
abbrev main_v2000 : Ref sig .tc := ⟨.hbm, 2483, rfl⟩
abbrev main_v2001 : Ref sig .tc := ⟨.hbm, 2484, rfl⟩
abbrev main_v2002 : Ref sig .tc := ⟨.hbm, 2485, rfl⟩
abbrev main_v2003 : Ref sig .tc := ⟨.hbm, 2486, rfl⟩
abbrev main_v2004 : Ref sig .tc := ⟨.hbm, 2487, rfl⟩
abbrev main_v2005 : Ref sig .tc := ⟨.hbm, 2488, rfl⟩
abbrev main_v2006 : Ref sig .tc := ⟨.hbm, 2489, rfl⟩
abbrev main_v2007 : Ref sig .tc := ⟨.hbm, 2490, rfl⟩
abbrev main_v2008 : Ref sig .tc := ⟨.hbm, 2491, rfl⟩
abbrev main_v2009 : Ref sig .tc := ⟨.hbm, 2492, rfl⟩
abbrev main_v2010 : Ref sig .tc := ⟨.hbm, 2493, rfl⟩
abbrev main_v2011 : Ref sig .tc := ⟨.hbm, 2494, rfl⟩
abbrev main_v2012 : Ref sig .tc := ⟨.hbm, 2495, rfl⟩
abbrev main_v2013 : Ref sig .tc := ⟨.hbm, 2496, rfl⟩
abbrev main_v2014 : Ref sig .tc := ⟨.hbm, 2497, rfl⟩
abbrev main_call15_cst : Ref sig .tc := ⟨.hbm, 2498, rfl⟩
abbrev main_call15_v0 : Ref sig .tc := ⟨.hbm, 2499, rfl⟩
abbrev main_v2015 : Ref sig .tc := ⟨.hbm, 2500, rfl⟩
abbrev main_v2016 : Ref sig .tc := ⟨.hbm, 2501, rfl⟩
abbrev main_v2017 : Ref sig .tc := ⟨.hbm, 2502, rfl⟩
abbrev main_v2018 : Ref sig .tc := ⟨.hbm, 2503, rfl⟩
abbrev main_v2019 : Ref sig .tc := ⟨.hbm, 2504, rfl⟩
abbrev main_cst_280 : Ref sig .tc := ⟨.hbm, 2505, rfl⟩
abbrev main_v2020 : Ref sig .tc := ⟨.hbm, 2506, rfl⟩
abbrev main_v2021 : Ref sig .tc := ⟨.hbm, 2507, rfl⟩
abbrev main_v2022 : Ref sig .tc := ⟨.hbm, 2508, rfl⟩
abbrev main_v2023 : Ref sig .tc := ⟨.hbm, 2509, rfl⟩
abbrev main_v2024 : Ref sig .tc := ⟨.hbm, 2510, rfl⟩
abbrev main_v2025 : Ref sig .tc := ⟨.hbm, 2511, rfl⟩
abbrev main_v2026 : Ref sig .tc := ⟨.hbm, 2512, rfl⟩
abbrev main_v2027 : Ref sig .tc := ⟨.hbm, 2513, rfl⟩
abbrev main_v2028 : Ref sig .tc := ⟨.hbm, 2514, rfl⟩
abbrev main_v2029 : Ref sig .tc := ⟨.hbm, 2515, rfl⟩
abbrev main_v2030 : Ref sig .tc := ⟨.hbm, 2516, rfl⟩
abbrev main_v2031 : Ref sig .tc := ⟨.hbm, 2517, rfl⟩
abbrev main_v2032 : Ref sig .tc := ⟨.hbm, 2518, rfl⟩
abbrev main_v2033 : Ref sig .tc := ⟨.hbm, 2519, rfl⟩
abbrev main_v2034 : Ref sig .tc := ⟨.hbm, 2520, rfl⟩
abbrev main_v2035 : Ref sig .tc := ⟨.hbm, 2521, rfl⟩
abbrev main_v2036 : Ref sig .tc := ⟨.hbm, 2522, rfl⟩
abbrev main_v2037 : Ref sig .tc := ⟨.hbm, 2523, rfl⟩
abbrev main_v2038 : Ref sig .tc := ⟨.hbm, 2524, rfl⟩
abbrev main_v2039 : Ref sig .tc := ⟨.hbm, 2525, rfl⟩
abbrev main_v2040 : Ref sig .tc := ⟨.hbm, 2526, rfl⟩
abbrev main_v2041 : Ref sig .tc := ⟨.hbm, 2527, rfl⟩
abbrev main_v2042 : Ref sig .tc := ⟨.hbm, 2528, rfl⟩
abbrev main_v2043 : Ref sig .tc := ⟨.hbm, 2529, rfl⟩
abbrev main_v2044 : Ref sig .tc := ⟨.hbm, 2530, rfl⟩
abbrev main_v2045 : Ref sig .tc := ⟨.hbm, 2531, rfl⟩
abbrev main_v2046 : Ref sig .tc := ⟨.hbm, 2532, rfl⟩
abbrev main_v2047 : Ref sig .tc := ⟨.hbm, 2533, rfl⟩
abbrev main_cst_281 : Ref sig .tc := ⟨.hbm, 2534, rfl⟩
abbrev main_v2048 : Ref sig .tc := ⟨.hbm, 2535, rfl⟩
abbrev main_cst_282 : Ref sig .tc := ⟨.hbm, 2536, rfl⟩
abbrev main_v2049 : Ref sig .tc := ⟨.hbm, 2537, rfl⟩
abbrev main_v2050 : Ref sig .tc := ⟨.hbm, 2538, rfl⟩
abbrev main_c_283 : Ref sig .tc := ⟨.hbm, 2539, rfl⟩
abbrev main_call16_cst : Ref sig .tc := ⟨.hbm, 2540, rfl⟩
abbrev main_call16_v0 : Ref sig .tc := ⟨.hbm, 2541, rfl⟩
abbrev main_call16_v1 : Ref sig .tc := ⟨.hbm, 2542, rfl⟩
abbrev main_call16_cst_0 : Ref sig .tc := ⟨.hbm, 2543, rfl⟩
abbrev main_call16_v2 : Ref sig .tc := ⟨.hbm, 2544, rfl⟩
abbrev main_call16_v3 : Ref sig .tc := ⟨.hbm, 2545, rfl⟩
abbrev main_call16_v4 : Ref sig .tc := ⟨.hbm, 2546, rfl⟩
abbrev main_call16_v5 : Ref sig .tc := ⟨.hbm, 2547, rfl⟩
abbrev main_call16_v6 : Ref sig .tc := ⟨.hbm, 2548, rfl⟩
abbrev main_call16_v7 : Ref sig .tc := ⟨.hbm, 2549, rfl⟩
abbrev main_call16_cst_1 : Ref sig .tc := ⟨.hbm, 2550, rfl⟩
abbrev main_call16_v8 : Ref sig .tc := ⟨.hbm, 2551, rfl⟩
abbrev main_call16_cst_2 : Ref sig .tc := ⟨.hbm, 2552, rfl⟩
abbrev main_call16_v9 : Ref sig .tc := ⟨.hbm, 2553, rfl⟩
abbrev main_call16_v10 : Ref sig .tc := ⟨.hbm, 2554, rfl⟩
abbrev main_call16_v11 : Ref sig .tc := ⟨.hbm, 2555, rfl⟩
abbrev main_call16_cst_3 : Ref sig .tc := ⟨.hbm, 2556, rfl⟩
abbrev main_call16_v12 : Ref sig .tc := ⟨.hbm, 2557, rfl⟩
abbrev main_call16_cst_4 : Ref sig .tc := ⟨.hbm, 2558, rfl⟩
abbrev main_call16_call0_v0 : Ref sig .tc := ⟨.hbm, 2559, rfl⟩
abbrev main_call16_call0_v1 : Ref sig .tc := ⟨.hbm, 2560, rfl⟩
abbrev main_v2051 : Ref sig .tc := ⟨.hbm, 2561, rfl⟩
abbrev main_v2052 : Ref sig .tc := ⟨.hbm, 2562, rfl⟩
abbrev main_v2053 : Ref sig .tc := ⟨.hbm, 2563, rfl⟩
abbrev main_v2054 : Ref sig .tc := ⟨.hbm, 2564, rfl⟩
abbrev main_cst_284 : Ref sig .tc := ⟨.hbm, 2565, rfl⟩
abbrev main_v2055 : Ref sig .tc := ⟨.hbm, 2566, rfl⟩
abbrev main_v2056 : Ref sig .tc := ⟨.hbm, 2567, rfl⟩
abbrev main_v2057 : Ref sig .tc := ⟨.hbm, 2568, rfl⟩
abbrev main_v2058 : Ref sig .tc := ⟨.hbm, 2569, rfl⟩
abbrev main_v2059 : Ref sig .tc := ⟨.hbm, 2570, rfl⟩
abbrev main_v2060 : Ref sig .tc := ⟨.hbm, 2571, rfl⟩
abbrev main_v2061 : Ref sig .tc := ⟨.hbm, 2572, rfl⟩
abbrev main_v2062 : Ref sig .tc := ⟨.hbm, 2573, rfl⟩
abbrev main_v2063 : Ref sig .tc := ⟨.hbm, 2574, rfl⟩
abbrev main_v2064 : Ref sig .tc := ⟨.hbm, 2575, rfl⟩
abbrev main_v2065 : Ref sig .tc := ⟨.hbm, 2576, rfl⟩
abbrev main_v2066 : Ref sig .tc := ⟨.hbm, 2577, rfl⟩
abbrev main_v2067 : Ref sig .tc := ⟨.hbm, 2578, rfl⟩
abbrev main_v2068 : Ref sig .tc := ⟨.hbm, 2579, rfl⟩
abbrev main_v2069 : Ref sig .tc := ⟨.hbm, 2580, rfl⟩
abbrev main_v2070 : Ref sig .tc := ⟨.hbm, 2581, rfl⟩
abbrev main_call17_cst : Ref sig .tc := ⟨.hbm, 2582, rfl⟩
abbrev main_call17_v0 : Ref sig .tc := ⟨.hbm, 2583, rfl⟩
abbrev main_v2071 : Ref sig .tc := ⟨.hbm, 2584, rfl⟩
abbrev main_v2072 : Ref sig .tc := ⟨.hbm, 2585, rfl⟩
abbrev main_v2073 : Ref sig .tc := ⟨.hbm, 2586, rfl⟩
abbrev main_v2074 : Ref sig .tc := ⟨.hbm, 2587, rfl⟩
abbrev main_v2075 : Ref sig .tc := ⟨.hbm, 2588, rfl⟩
abbrev main_cst_285 : Ref sig .tc := ⟨.hbm, 2589, rfl⟩
abbrev main_v2076 : Ref sig .tc := ⟨.hbm, 2590, rfl⟩
abbrev main_v2077 : Ref sig .tc := ⟨.hbm, 2591, rfl⟩
abbrev main_v2078 : Ref sig .tc := ⟨.hbm, 2592, rfl⟩
abbrev main_v2079 : Ref sig .tc := ⟨.hbm, 2593, rfl⟩
abbrev main_v2080 : Ref sig .tc := ⟨.hbm, 2594, rfl⟩
abbrev main_v2081 : Ref sig .tc := ⟨.hbm, 2595, rfl⟩
abbrev main_v2082 : Ref sig .tc := ⟨.hbm, 2596, rfl⟩
abbrev main_v2083 : Ref sig .tc := ⟨.hbm, 2597, rfl⟩
abbrev main_v2084 : Ref sig .tc := ⟨.hbm, 2598, rfl⟩
abbrev main_v2085 : Ref sig .tc := ⟨.hbm, 2599, rfl⟩
abbrev main_v2086 : Ref sig .tc := ⟨.hbm, 2600, rfl⟩
abbrev main_v2087 : Ref sig .tc := ⟨.hbm, 2601, rfl⟩
abbrev main_v2088 : Ref sig .tc := ⟨.hbm, 2602, rfl⟩
abbrev main_v2089 : Ref sig .tc := ⟨.hbm, 2603, rfl⟩
abbrev main_v2090 : Ref sig .tc := ⟨.hbm, 2604, rfl⟩
abbrev main_v2091 : Ref sig .tc := ⟨.hbm, 2605, rfl⟩
abbrev main_v2092 : Ref sig .tc := ⟨.hbm, 2606, rfl⟩
abbrev main_v2093 : Ref sig .tc := ⟨.hbm, 2607, rfl⟩
abbrev main_v2094 : Ref sig .tc := ⟨.hbm, 2608, rfl⟩
abbrev main_v2095 : Ref sig .tc := ⟨.hbm, 2609, rfl⟩
abbrev main_v2096 : Ref sig .tc := ⟨.hbm, 2610, rfl⟩
abbrev main_v2097 : Ref sig .tc := ⟨.hbm, 2611, rfl⟩
abbrev main_v2098 : Ref sig .tc := ⟨.hbm, 2612, rfl⟩
abbrev main_v2099 : Ref sig .tc := ⟨.hbm, 2613, rfl⟩
abbrev main_v2100 : Ref sig .tc := ⟨.hbm, 2614, rfl⟩
abbrev main_v2101 : Ref sig .tc := ⟨.hbm, 2615, rfl⟩
abbrev main_v2102 : Ref sig .tc := ⟨.hbm, 2616, rfl⟩
abbrev main_v2103 : Ref sig .tc := ⟨.hbm, 2617, rfl⟩
abbrev main_cst_286 : Ref sig .tc := ⟨.hbm, 2618, rfl⟩
abbrev main_v2104 : Ref sig .tc := ⟨.hbm, 2619, rfl⟩
abbrev main_cst_287 : Ref sig .tc := ⟨.hbm, 2620, rfl⟩
abbrev main_v2105 : Ref sig .tc := ⟨.hbm, 2621, rfl⟩
abbrev main_v2106 : Ref sig .tc := ⟨.hbm, 2622, rfl⟩
abbrev main_c_288 : Ref sig .tc := ⟨.hbm, 2623, rfl⟩
abbrev main_call18_cst : Ref sig .tc := ⟨.hbm, 2624, rfl⟩
abbrev main_call18_v0 : Ref sig .tc := ⟨.hbm, 2625, rfl⟩
abbrev main_call18_v1 : Ref sig .tc := ⟨.hbm, 2626, rfl⟩
abbrev main_call18_cst_0 : Ref sig .tc := ⟨.hbm, 2627, rfl⟩
abbrev main_call18_v2 : Ref sig .tc := ⟨.hbm, 2628, rfl⟩
abbrev main_call18_v3 : Ref sig .tc := ⟨.hbm, 2629, rfl⟩
abbrev main_call18_v4 : Ref sig .tc := ⟨.hbm, 2630, rfl⟩
abbrev main_call18_v5 : Ref sig .tc := ⟨.hbm, 2631, rfl⟩
abbrev main_call18_v6 : Ref sig .tc := ⟨.hbm, 2632, rfl⟩
abbrev main_call18_v7 : Ref sig .tc := ⟨.hbm, 2633, rfl⟩
abbrev main_call18_cst_1 : Ref sig .tc := ⟨.hbm, 2634, rfl⟩
abbrev main_call18_v8 : Ref sig .tc := ⟨.hbm, 2635, rfl⟩
abbrev main_call18_cst_2 : Ref sig .tc := ⟨.hbm, 2636, rfl⟩
abbrev main_call18_v9 : Ref sig .tc := ⟨.hbm, 2637, rfl⟩
abbrev main_call18_v10 : Ref sig .tc := ⟨.hbm, 2638, rfl⟩
abbrev main_call18_v11 : Ref sig .tc := ⟨.hbm, 2639, rfl⟩
abbrev main_call18_cst_3 : Ref sig .tc := ⟨.hbm, 2640, rfl⟩
abbrev main_call18_v12 : Ref sig .tc := ⟨.hbm, 2641, rfl⟩
abbrev main_call18_cst_4 : Ref sig .tc := ⟨.hbm, 2642, rfl⟩
abbrev main_call18_call0_v0 : Ref sig .tc := ⟨.hbm, 2643, rfl⟩
abbrev main_call18_call0_v1 : Ref sig .tc := ⟨.hbm, 2644, rfl⟩
abbrev main_v2107 : Ref sig .tc := ⟨.hbm, 2645, rfl⟩
abbrev main_v2108 : Ref sig .tc := ⟨.hbm, 2646, rfl⟩
abbrev main_v2109 : Ref sig .tc := ⟨.hbm, 2647, rfl⟩
abbrev main_v2110 : Ref sig .tc := ⟨.hbm, 2648, rfl⟩
abbrev main_cst_289 : Ref sig .tc := ⟨.hbm, 2649, rfl⟩
abbrev main_v2111 : Ref sig .tc := ⟨.hbm, 2650, rfl⟩
abbrev main_v2112 : Ref sig .tc := ⟨.hbm, 2651, rfl⟩
abbrev main_v2113 : Ref sig .tc := ⟨.hbm, 2652, rfl⟩
abbrev main_v2114 : Ref sig .tc := ⟨.hbm, 2653, rfl⟩
abbrev main_v2115 : Ref sig .tc := ⟨.hbm, 2654, rfl⟩
abbrev main_v2116 : Ref sig .tc := ⟨.hbm, 2655, rfl⟩
abbrev main_v2117 : Ref sig .tc := ⟨.hbm, 2656, rfl⟩
abbrev main_v2118 : Ref sig .tc := ⟨.hbm, 2657, rfl⟩
abbrev main_v2119 : Ref sig .tc := ⟨.hbm, 2658, rfl⟩
abbrev main_v2120 : Ref sig .tc := ⟨.hbm, 2659, rfl⟩
abbrev main_v2121 : Ref sig .tc := ⟨.hbm, 2660, rfl⟩
abbrev main_v2122 : Ref sig .tc := ⟨.hbm, 2661, rfl⟩
abbrev main_v2123 : Ref sig .tc := ⟨.hbm, 2662, rfl⟩
abbrev main_v2124 : Ref sig .tc := ⟨.hbm, 2663, rfl⟩
abbrev main_v2125 : Ref sig .tc := ⟨.hbm, 2664, rfl⟩
abbrev main_v2126 : Ref sig .tc := ⟨.hbm, 2665, rfl⟩
abbrev main_call19_cst : Ref sig .tc := ⟨.hbm, 2666, rfl⟩
abbrev main_call19_v0 : Ref sig .tc := ⟨.hbm, 2667, rfl⟩
abbrev main_v2127 : Ref sig .tc := ⟨.hbm, 2668, rfl⟩
abbrev main_v2128 : Ref sig .tc := ⟨.hbm, 2669, rfl⟩
abbrev main_v2129 : Ref sig .tc := ⟨.hbm, 2670, rfl⟩
abbrev main_v2130 : Ref sig .tc := ⟨.hbm, 2671, rfl⟩
abbrev main_v2131 : Ref sig .tc := ⟨.hbm, 2672, rfl⟩
abbrev main_v2132 : Ref sig .tc := ⟨.hbm, 2673, rfl⟩
abbrev main_call20_cst : Ref sig .tc := ⟨.hbm, 2674, rfl⟩
abbrev main_call20_v0 : Ref sig .tc := ⟨.hbm, 2675, rfl⟩
abbrev main_v2133 : Ref sig .tc := ⟨.hbm, 2676, rfl⟩
abbrev main_v2134 : Ref sig .tc := ⟨.hbm, 2677, rfl⟩
abbrev main_v2135 : Ref sig .tc := ⟨.hbm, 2678, rfl⟩
abbrev main_v2136 : Ref sig .tc := ⟨.hbm, 2679, rfl⟩
abbrev main_v2137 : Ref sig .tc := ⟨.hbm, 2680, rfl⟩
abbrev main_v2138 : Ref sig .tc := ⟨.hbm, 2681, rfl⟩

abbrev nD : Nat := 1
abbrev τ : Topo := Topo.v7x

variable {F : FTy → Type} [FloatOps F]

class Facts₀ : Prop where
  transposes_S16x24x325_S16x325x24_0_2_1 : S16x24x325.Transposes [0, 2, 1] S16x325x24
  bcast_S_S325 : S_.BroadcastsInDim S325 (![] : Fin 0 → Fin S325.rank)
  bcast_S325_S325x1_0 : S325.BroadcastsInDim S325x1 (![0] : Fin 1 → Fin S325x1.rank)
  bcast_S325x16_S1x325x16_1_2 : S325x16.BroadcastsInDim S1x325x16 (![1, 2] : Fin 2 → Fin S1x325x16.rank)
  bcast_S1x325x16_S16x325x16_0_1_2 : S1x325x16.BroadcastsInDim S16x325x16 (![0, 1, 2] : Fin 3 → Fin S16x325x16.rank)
  concatenates_S16x325x24_S16x325x16_S16x325x40_d2 : Shape.Concatenates [S16x325x24, S16x325x16] S16x325x40 2
  slices_S40x5x256_S1x5x256_0_0_0 : S40x5x256.Slices ![0, 0, 0] S1x5x256
  shapeCasts_S1x5x256_S5x256 : S1x5x256.ShapeCasts S5x256
  slices_S40x256_S1x256_0_0 : S40x256.Slices ![0, 0] S1x256
  shapeCasts_S1x256_S256 : S1x256.ShapeCasts S256
  bcast_S256_S1x256_1 : S256.BroadcastsInDim S1x256 (![1] : Fin 1 → Fin S1x256.rank)
  bcast_S1x256_S5200x256_0_1 : S1x256.BroadcastsInDim S5200x256 (![0, 1] : Fin 2 → Fin S5200x256.rank)
  slices_S40x256x1_S1x256x1_0_0_0 : S40x256x1.Slices ![0, 0, 0] S1x256x1
  shapeCasts_S1x256x1_S256x1 : S1x256x1.ShapeCasts S256x1
  slices_S40x1_S1x1_0_0 : S40x1.Slices ![0, 0] S1x1
  shapeCasts_S1x1_S1 : S1x1.ShapeCasts S1
  bcast_S1_S1x1_1 : S1.BroadcastsInDim S1x1 (![1] : Fin 1 → Fin S1x1.rank)
  bcast_S1x1_S5200x1_0_1 : S1x1.BroadcastsInDim S5200x1 (![0, 1] : Fin 2 → Fin S5200x1.rank)
  shapeCasts_S5200x1_S325x16 : S5200x1.ShapeCasts S325x16
  reducesTo_S325x16_S325_d1 : S325x16.ReducesTo [1] S325
  h_S_ : 0 < S_.numel
  bcast_S325x1_S325x16_0_1 : S325x1.BroadcastsInDim S325x16 (![0, 1] : Fin 2 → Fin S325x16.rank)
  shapeCasts_S325x16_S5200 : S325x16.ShapeCasts S5200
  bcast_S_S105625 : S_.BroadcastsInDim S105625 (![] : Fin 0 → Fin S105625.rank)
  bcast_S_S5200 : S_.BroadcastsInDim S5200 (![] : Fin 0 → Fin S5200.rank)
  bcast_S5200_S5200x1_0 : S5200.BroadcastsInDim S5200x1 (![0] : Fin 1 → Fin S5200x1.rank)
  shapeCasts_S105625_S325x325 : S105625.ShapeCasts S325x325
  slices_S40x5x256_S1x5x256_1_0_0 : S40x5x256.Slices ![1, 0, 0] S1x5x256
  slices_S40x256_S1x256_1_0 : S40x256.Slices ![1, 0] S1x256
  slices_S40x256x1_S1x256x1_1_0_0 : S40x256x1.Slices ![1, 0, 0] S1x256x1
  slices_S40x1_S1x1_1_0 : S40x1.Slices ![1, 0] S1x1
  slices_S40x5x256_S1x5x256_2_0_0 : S40x5x256.Slices ![2, 0, 0] S1x5x256
  slices_S40x256_S1x256_2_0 : S40x256.Slices ![2, 0] S1x256
  slices_S40x256x1_S1x256x1_2_0_0 : S40x256x1.Slices ![2, 0, 0] S1x256x1
  slices_S40x1_S1x1_2_0 : S40x1.Slices ![2, 0] S1x1
  slices_S40x5x256_S1x5x256_3_0_0 : S40x5x256.Slices ![3, 0, 0] S1x5x256
  slices_S40x256_S1x256_3_0 : S40x256.Slices ![3, 0] S1x256
  slices_S40x256x1_S1x256x1_3_0_0 : S40x256x1.Slices ![3, 0, 0] S1x256x1
  slices_S40x1_S1x1_3_0 : S40x1.Slices ![3, 0] S1x1
  slices_S40x5x256_S1x5x256_4_0_0 : S40x5x256.Slices ![4, 0, 0] S1x5x256
  slices_S40x256_S1x256_4_0 : S40x256.Slices ![4, 0] S1x256
  slices_S40x256x1_S1x256x1_4_0_0 : S40x256x1.Slices ![4, 0, 0] S1x256x1
  slices_S40x1_S1x1_4_0 : S40x1.Slices ![4, 0] S1x1
  slices_S40x5x256_S1x5x256_5_0_0 : S40x5x256.Slices ![5, 0, 0] S1x5x256
  slices_S40x256_S1x256_5_0 : S40x256.Slices ![5, 0] S1x256
  slices_S40x256x1_S1x256x1_5_0_0 : S40x256x1.Slices ![5, 0, 0] S1x256x1
  slices_S40x1_S1x1_5_0 : S40x1.Slices ![5, 0] S1x1
  slices_S40x5x256_S1x5x256_6_0_0 : S40x5x256.Slices ![6, 0, 0] S1x5x256
  slices_S40x256_S1x256_6_0 : S40x256.Slices ![6, 0] S1x256
  slices_S40x256x1_S1x256x1_6_0_0 : S40x256x1.Slices ![6, 0, 0] S1x256x1
  slices_S40x1_S1x1_6_0 : S40x1.Slices ![6, 0] S1x1
  slices_S40x5x256_S1x5x256_7_0_0 : S40x5x256.Slices ![7, 0, 0] S1x5x256
  slices_S40x256_S1x256_7_0 : S40x256.Slices ![7, 0] S1x256
  slices_S40x256x1_S1x256x1_7_0_0 : S40x256x1.Slices ![7, 0, 0] S1x256x1
  slices_S40x1_S1x1_7_0 : S40x1.Slices ![7, 0] S1x1
  slices_S40x5x256_S1x5x256_8_0_0 : S40x5x256.Slices ![8, 0, 0] S1x5x256
  slices_S40x256_S1x256_8_0 : S40x256.Slices ![8, 0] S1x256
  slices_S40x256x1_S1x256x1_8_0_0 : S40x256x1.Slices ![8, 0, 0] S1x256x1
  slices_S40x1_S1x1_8_0 : S40x1.Slices ![8, 0] S1x1
  slices_S40x5x256_S1x5x256_9_0_0 : S40x5x256.Slices ![9, 0, 0] S1x5x256
  slices_S40x256_S1x256_9_0 : S40x256.Slices ![9, 0] S1x256
  slices_S40x256x1_S1x256x1_9_0_0 : S40x256x1.Slices ![9, 0, 0] S1x256x1
  slices_S40x1_S1x1_9_0 : S40x1.Slices ![9, 0] S1x1
  slices_S40x5x256_S1x5x256_10_0_0 : S40x5x256.Slices ![10, 0, 0] S1x5x256
  slices_S40x256_S1x256_10_0 : S40x256.Slices ![10, 0] S1x256
  slices_S40x256x1_S1x256x1_10_0_0 : S40x256x1.Slices ![10, 0, 0] S1x256x1
  slices_S40x1_S1x1_10_0 : S40x1.Slices ![10, 0] S1x1
  slices_S40x5x256_S1x5x256_11_0_0 : S40x5x256.Slices ![11, 0, 0] S1x5x256
  slices_S40x256_S1x256_11_0 : S40x256.Slices ![11, 0] S1x256
  slices_S40x256x1_S1x256x1_11_0_0 : S40x256x1.Slices ![11, 0, 0] S1x256x1
  slices_S40x1_S1x1_11_0 : S40x1.Slices ![11, 0] S1x1
  slices_S40x5x256_S1x5x256_12_0_0 : S40x5x256.Slices ![12, 0, 0] S1x5x256
  slices_S40x256_S1x256_12_0 : S40x256.Slices ![12, 0] S1x256
  slices_S40x256x1_S1x256x1_12_0_0 : S40x256x1.Slices ![12, 0, 0] S1x256x1
  slices_S40x1_S1x1_12_0 : S40x1.Slices ![12, 0] S1x1
  slices_S40x5x256_S1x5x256_13_0_0 : S40x5x256.Slices ![13, 0, 0] S1x5x256
  slices_S40x256_S1x256_13_0 : S40x256.Slices ![13, 0] S1x256
  slices_S40x256x1_S1x256x1_13_0_0 : S40x256x1.Slices ![13, 0, 0] S1x256x1
  slices_S40x1_S1x1_13_0 : S40x1.Slices ![13, 0] S1x1
  slices_S40x5x256_S1x5x256_14_0_0 : S40x5x256.Slices ![14, 0, 0] S1x5x256
  slices_S40x256_S1x256_14_0 : S40x256.Slices ![14, 0] S1x256
  slices_S40x256x1_S1x256x1_14_0_0 : S40x256x1.Slices ![14, 0, 0] S1x256x1
  slices_S40x1_S1x1_14_0 : S40x1.Slices ![14, 0] S1x1
  slices_S40x5x256_S1x5x256_15_0_0 : S40x5x256.Slices ![15, 0, 0] S1x5x256
  slices_S40x256_S1x256_15_0 : S40x256.Slices ![15, 0] S1x256
  slices_S40x256x1_S1x256x1_15_0_0 : S40x256x1.Slices ![15, 0, 0] S1x256x1
  slices_S40x1_S1x1_15_0 : S40x1.Slices ![15, 0] S1x1
  slices_S40x5x256_S1x5x256_16_0_0 : S40x5x256.Slices ![16, 0, 0] S1x5x256
  slices_S40x256_S1x256_16_0 : S40x256.Slices ![16, 0] S1x256
  slices_S40x256x1_S1x256x1_16_0_0 : S40x256x1.Slices ![16, 0, 0] S1x256x1
  slices_S40x1_S1x1_16_0 : S40x1.Slices ![16, 0] S1x1
  slices_S40x5x256_S1x5x256_17_0_0 : S40x5x256.Slices ![17, 0, 0] S1x5x256
  slices_S40x256_S1x256_17_0 : S40x256.Slices ![17, 0] S1x256
  slices_S40x256x1_S1x256x1_17_0_0 : S40x256x1.Slices ![17, 0, 0] S1x256x1
  slices_S40x1_S1x1_17_0 : S40x1.Slices ![17, 0] S1x1
  slices_S40x5x256_S1x5x256_18_0_0 : S40x5x256.Slices ![18, 0, 0] S1x5x256
  slices_S40x256_S1x256_18_0 : S40x256.Slices ![18, 0] S1x256
  slices_S40x256x1_S1x256x1_18_0_0 : S40x256x1.Slices ![18, 0, 0] S1x256x1
  slices_S40x1_S1x1_18_0 : S40x1.Slices ![18, 0] S1x1
  slices_S40x5x256_S1x5x256_19_0_0 : S40x5x256.Slices ![19, 0, 0] S1x5x256
  slices_S40x256_S1x256_19_0 : S40x256.Slices ![19, 0] S1x256
  slices_S40x256x1_S1x256x1_19_0_0 : S40x256x1.Slices ![19, 0, 0] S1x256x1
  slices_S40x1_S1x1_19_0 : S40x1.Slices ![19, 0] S1x1
  slices_S40x5x256_S1x5x256_20_0_0 : S40x5x256.Slices ![20, 0, 0] S1x5x256
  slices_S40x256_S1x256_20_0 : S40x256.Slices ![20, 0] S1x256
  slices_S40x256x1_S1x256x1_20_0_0 : S40x256x1.Slices ![20, 0, 0] S1x256x1
  slices_S40x1_S1x1_20_0 : S40x1.Slices ![20, 0] S1x1
  slices_S40x5x256_S1x5x256_21_0_0 : S40x5x256.Slices ![21, 0, 0] S1x5x256
  slices_S40x256_S1x256_21_0 : S40x256.Slices ![21, 0] S1x256
  slices_S40x256x1_S1x256x1_21_0_0 : S40x256x1.Slices ![21, 0, 0] S1x256x1
  slices_S40x1_S1x1_21_0 : S40x1.Slices ![21, 0] S1x1
  slices_S40x5x256_S1x5x256_22_0_0 : S40x5x256.Slices ![22, 0, 0] S1x5x256
  slices_S40x256_S1x256_22_0 : S40x256.Slices ![22, 0] S1x256
  slices_S40x256x1_S1x256x1_22_0_0 : S40x256x1.Slices ![22, 0, 0] S1x256x1
  slices_S40x1_S1x1_22_0 : S40x1.Slices ![22, 0] S1x1
  slices_S40x5x256_S1x5x256_23_0_0 : S40x5x256.Slices ![23, 0, 0] S1x5x256
  slices_S40x256_S1x256_23_0 : S40x256.Slices ![23, 0] S1x256
  slices_S40x256x1_S1x256x1_23_0_0 : S40x256x1.Slices ![23, 0, 0] S1x256x1
  slices_S40x1_S1x1_23_0 : S40x1.Slices ![23, 0] S1x1
  slices_S40x5x256_S1x5x256_24_0_0 : S40x5x256.Slices ![24, 0, 0] S1x5x256
  slices_S40x256_S1x256_24_0 : S40x256.Slices ![24, 0] S1x256
  slices_S40x256x1_S1x256x1_24_0_0 : S40x256x1.Slices ![24, 0, 0] S1x256x1
  slices_S40x1_S1x1_24_0 : S40x1.Slices ![24, 0] S1x1
  slices_S40x5x256_S1x5x256_25_0_0 : S40x5x256.Slices ![25, 0, 0] S1x5x256
  slices_S40x256_S1x256_25_0 : S40x256.Slices ![25, 0] S1x256
  slices_S40x256x1_S1x256x1_25_0_0 : S40x256x1.Slices ![25, 0, 0] S1x256x1
  slices_S40x1_S1x1_25_0 : S40x1.Slices ![25, 0] S1x1
  slices_S40x5x256_S1x5x256_26_0_0 : S40x5x256.Slices ![26, 0, 0] S1x5x256
  slices_S40x256_S1x256_26_0 : S40x256.Slices ![26, 0] S1x256
  slices_S40x256x1_S1x256x1_26_0_0 : S40x256x1.Slices ![26, 0, 0] S1x256x1
  slices_S40x1_S1x1_26_0 : S40x1.Slices ![26, 0] S1x1
  slices_S40x5x256_S1x5x256_27_0_0 : S40x5x256.Slices ![27, 0, 0] S1x5x256
  slices_S40x256_S1x256_27_0 : S40x256.Slices ![27, 0] S1x256
  slices_S40x256x1_S1x256x1_27_0_0 : S40x256x1.Slices ![27, 0, 0] S1x256x1
  slices_S40x1_S1x1_27_0 : S40x1.Slices ![27, 0] S1x1
  slices_S40x5x256_S1x5x256_28_0_0 : S40x5x256.Slices ![28, 0, 0] S1x5x256
  slices_S40x256_S1x256_28_0 : S40x256.Slices ![28, 0] S1x256
  slices_S40x256x1_S1x256x1_28_0_0 : S40x256x1.Slices ![28, 0, 0] S1x256x1
  slices_S40x1_S1x1_28_0 : S40x1.Slices ![28, 0] S1x1
  slices_S40x5x256_S1x5x256_29_0_0 : S40x5x256.Slices ![29, 0, 0] S1x5x256
  slices_S40x256_S1x256_29_0 : S40x256.Slices ![29, 0] S1x256
  slices_S40x256x1_S1x256x1_29_0_0 : S40x256x1.Slices ![29, 0, 0] S1x256x1
  slices_S40x1_S1x1_29_0 : S40x1.Slices ![29, 0] S1x1
  slices_S40x5x256_S1x5x256_30_0_0 : S40x5x256.Slices ![30, 0, 0] S1x5x256
  slices_S40x256_S1x256_30_0 : S40x256.Slices ![30, 0] S1x256
  slices_S40x256x1_S1x256x1_30_0_0 : S40x256x1.Slices ![30, 0, 0] S1x256x1
  slices_S40x1_S1x1_30_0 : S40x1.Slices ![30, 0] S1x1
  slices_S40x5x256_S1x5x256_31_0_0 : S40x5x256.Slices ![31, 0, 0] S1x5x256
  slices_S40x256_S1x256_31_0 : S40x256.Slices ![31, 0] S1x256
  slices_S40x256x1_S1x256x1_31_0_0 : S40x256x1.Slices ![31, 0, 0] S1x256x1
  slices_S40x1_S1x1_31_0 : S40x1.Slices ![31, 0] S1x1
  slices_S40x5x256_S1x5x256_32_0_0 : S40x5x256.Slices ![32, 0, 0] S1x5x256
  slices_S40x256_S1x256_32_0 : S40x256.Slices ![32, 0] S1x256
  slices_S40x256x1_S1x256x1_32_0_0 : S40x256x1.Slices ![32, 0, 0] S1x256x1
  slices_S40x1_S1x1_32_0 : S40x1.Slices ![32, 0] S1x1
  slices_S40x5x256_S1x5x256_33_0_0 : S40x5x256.Slices ![33, 0, 0] S1x5x256
  slices_S40x256_S1x256_33_0 : S40x256.Slices ![33, 0] S1x256
  slices_S40x256x1_S1x256x1_33_0_0 : S40x256x1.Slices ![33, 0, 0] S1x256x1
  slices_S40x1_S1x1_33_0 : S40x1.Slices ![33, 0] S1x1
  slices_S40x5x256_S1x5x256_34_0_0 : S40x5x256.Slices ![34, 0, 0] S1x5x256
  slices_S40x256_S1x256_34_0 : S40x256.Slices ![34, 0] S1x256
  slices_S40x256x1_S1x256x1_34_0_0 : S40x256x1.Slices ![34, 0, 0] S1x256x1
  slices_S40x1_S1x1_34_0 : S40x1.Slices ![34, 0] S1x1
  slices_S40x5x256_S1x5x256_35_0_0 : S40x5x256.Slices ![35, 0, 0] S1x5x256
  slices_S40x256_S1x256_35_0 : S40x256.Slices ![35, 0] S1x256
  slices_S40x256x1_S1x256x1_35_0_0 : S40x256x1.Slices ![35, 0, 0] S1x256x1
  slices_S40x1_S1x1_35_0 : S40x1.Slices ![35, 0] S1x1
  slices_S40x5x256_S1x5x256_36_0_0 : S40x5x256.Slices ![36, 0, 0] S1x5x256
  slices_S40x256_S1x256_36_0 : S40x256.Slices ![36, 0] S1x256
  slices_S40x256x1_S1x256x1_36_0_0 : S40x256x1.Slices ![36, 0, 0] S1x256x1
  slices_S40x1_S1x1_36_0 : S40x1.Slices ![36, 0] S1x1
  slices_S40x5x256_S1x5x256_37_0_0 : S40x5x256.Slices ![37, 0, 0] S1x5x256
  slices_S40x256_S1x256_37_0 : S40x256.Slices ![37, 0] S1x256
  slices_S40x256x1_S1x256x1_37_0_0 : S40x256x1.Slices ![37, 0, 0] S1x256x1
  slices_S40x1_S1x1_37_0 : S40x1.Slices ![37, 0] S1x1
  slices_S40x5x256_S1x5x256_38_0_0 : S40x5x256.Slices ![38, 0, 0] S1x5x256
  slices_S40x256_S1x256_38_0 : S40x256.Slices ![38, 0] S1x256
  slices_S40x256x1_S1x256x1_38_0_0 : S40x256x1.Slices ![38, 0, 0] S1x256x1
  slices_S40x1_S1x1_38_0 : S40x1.Slices ![38, 0] S1x1
  slices_S40x5x256_S1x5x256_39_0_0 : S40x5x256.Slices ![39, 0, 0] S1x5x256
  slices_S40x256_S1x256_39_0 : S40x256.Slices ![39, 0] S1x256
  slices_S40x256x1_S1x256x1_39_0_0 : S40x256x1.Slices ![39, 0, 0] S1x256x1
  slices_S40x1_S1x1_39_0 : S40x1.Slices ![39, 0] S1x1
  concatenates_S16x325x40_S16x325x40_S16x325x40_S16x325x40_S16x325x160_d2 : Shape.Concatenates [S16x325x40, S16x325x40, S16x325x40, S16x325x40] S16x325x160 2
  bcast_S_S16x325x64 : S_.BroadcastsInDim S16x325x64 (![] : Fin 0 → Fin S16x325x64.rank)
  transposes_S16x160x325_S16x325x160_0_2_1 : S16x160x325.Transposes [0, 2, 1] S16x325x160
  slices_S4x160x64_S1x160x64_0_0_0 : S4x160x64.Slices ![0, 0, 0] S1x160x64
  shapeCasts_S1x160x64_S160x64 : S1x160x64.ShapeCasts S160x64
  slices_S4x160x64_S1x160x64_1_0_0 : S4x160x64.Slices ![1, 0, 0] S1x160x64
  slices_S4x160x64_S1x160x64_2_0_0 : S4x160x64.Slices ![2, 0, 0] S1x160x64
  slices_S4x160x64_S1x160x64_3_0_0 : S4x160x64.Slices ![3, 0, 0] S1x160x64
  bcast_S64_S1x1x64_2 : S64.BroadcastsInDim S1x1x64 (![2] : Fin 1 → Fin S1x1x64.rank)
  bcast_S1x1x64_S16x325x64_0_1_2 : S1x1x64.BroadcastsInDim S16x325x64 (![0, 1, 2] : Fin 3 → Fin S16x325x64.rank)
  reducesTo_S16x325x64_S64_d0_1 : S16x325x64.ReducesTo [0, 1] S64
  bcast_S_S64 : S_.BroadcastsInDim S64 (![] : Fin 0 → Fin S64.rank)
  bcast_S_S1x1x64 : S_.BroadcastsInDim S1x1x64 (![] : Fin 0 → Fin S1x1x64.rank)
  slices_S10x64_S1x64_0_0 : S10x64.Slices ![0, 0] S1x64
  shapeCasts_S1x64_S64 : S1x64.ShapeCasts S64
  slices_S9x4x64x64_S1x4x64x64_0_0_0_0 : S9x4x64x64.Slices ![0, 0, 0, 0] S1x4x64x64
  shapeCasts_S1x4x64x64_S4x64x64 : S1x4x64x64.ShapeCasts S4x64x64
  slices_S9x64_S1x64_0_0 : S9x64.Slices ![0, 0] S1x64
  transposes_S16x64x325_S16x325x64_0_2_1 : S16x64x325.Transposes [0, 2, 1] S16x325x64
  slices_S4x64x64_S1x64x64_0_0_0 : S4x64x64.Slices ![0, 0, 0] S1x64x64
  shapeCasts_S1x64x64_S64x64 : S1x64x64.ShapeCasts S64x64
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  slices_S10x64_S1x64_1_0 : S10x64.Slices ![1, 0] S1x64
  slices_S9x4x64x64_S1x4x64x64_1_0_0_0 : S9x4x64x64.Slices ![1, 0, 0, 0] S1x4x64x64
  slices_S9x64_S1x64_1_0 : S9x64.Slices ![1, 0] S1x64
  slices_S10x64_S1x64_2_0 : S10x64.Slices ![2, 0] S1x64
  slices_S9x4x64x64_S1x4x64x64_2_0_0_0 : S9x4x64x64.Slices ![2, 0, 0, 0] S1x4x64x64
  slices_S9x64_S1x64_2_0 : S9x64.Slices ![2, 0] S1x64
  slices_S10x64_S1x64_3_0 : S10x64.Slices ![3, 0] S1x64
  slices_S9x4x64x64_S1x4x64x64_3_0_0_0 : S9x4x64x64.Slices ![3, 0, 0, 0] S1x4x64x64
  slices_S9x64_S1x64_3_0 : S9x64.Slices ![3, 0] S1x64
  slices_S10x64_S1x64_4_0 : S10x64.Slices ![4, 0] S1x64
  slices_S9x4x64x64_S1x4x64x64_4_0_0_0 : S9x4x64x64.Slices ![4, 0, 0, 0] S1x4x64x64
  slices_S9x64_S1x64_4_0 : S9x64.Slices ![4, 0] S1x64
  slices_S10x64_S1x64_5_0 : S10x64.Slices ![5, 0] S1x64
  slices_S9x4x64x64_S1x4x64x64_5_0_0_0 : S9x4x64x64.Slices ![5, 0, 0, 0] S1x4x64x64
  slices_S9x64_S1x64_5_0 : S9x64.Slices ![5, 0] S1x64
  slices_S10x64_S1x64_6_0 : S10x64.Slices ![6, 0] S1x64
  slices_S9x4x64x64_S1x4x64x64_6_0_0_0 : S9x4x64x64.Slices ![6, 0, 0, 0] S1x4x64x64
  slices_S9x64_S1x64_6_0 : S9x64.Slices ![6, 0] S1x64
  slices_S10x64_S1x64_7_0 : S10x64.Slices ![7, 0] S1x64
  slices_S9x4x64x64_S1x4x64x64_7_0_0_0 : S9x4x64x64.Slices ![7, 0, 0, 0] S1x4x64x64
  slices_S9x64_S1x64_7_0 : S9x64.Slices ![7, 0] S1x64
  slices_S10x64_S1x64_8_0 : S10x64.Slices ![8, 0] S1x64
  slices_S9x4x64x64_S1x4x64x64_8_0_0_0 : S9x4x64x64.Slices ![8, 0, 0, 0] S1x4x64x64
  slices_S9x64_S1x64_8_0 : S9x64.Slices ![8, 0] S1x64
  slices_S10x64_S1x64_9_0 : S10x64.Slices ![9, 0] S1x64
  shapeCasts_S16x325x64_S5200x64 : S16x325x64.ShapeCasts S5200x64
  bcast_S512_S1x512_1 : S512.BroadcastsInDim S1x512 (![1] : Fin 1 → Fin S1x512.rank)
  bcast_S1x512_S5200x512_0_1 : S1x512.BroadcastsInDim S5200x512 (![0, 1] : Fin 2 → Fin S5200x512.rank)
  bcast_S_S5200x512 : S_.BroadcastsInDim S5200x512 (![] : Fin 0 → Fin S5200x512.rank)
  shapeCasts_S5200x1_S16x325 : S5200x1.ShapeCasts S16x325
  gather_S325x16_S325x1_S325x16_1_0_n_n_0_1_116_wf : GatherDims.WF S325x16 S325x1 S325x16 [1] [0] [] [0] [] 1 ![1, 16]
  dot_S5200x5_S5x256_S5200x256_1_0_0_1_n_n_wf : DotDims.WF S5200x5 S5x256 S5200x256 [1] [0] [0] [1] [] []
  dot_S5200x256_S256x1_S5200x1_1_0_0_1_n_n_wf : DotDims.WF S5200x256 S256x1 S5200x1 [1] [0] [0] [1] [] []
  scatter_S105625_S5200x1_S5200_n_0_0_1_wf : ScatterDims.WF S105625 S5200x1 S5200 [] [0] [0] 1
  dot_S16x325x160_S325x325_S16x160x325_1_1_02_0_n_n_wf : DotDims.WF S16x325x160 S325x325 S16x160x325 [1] [1] [0, 2] [0] [] []
  dot_S16x325x160_S160x64_S16x325x64_2_0_01_1_n_n_wf : DotDims.WF S16x325x160 S160x64 S16x325x64 [2] [0] [0, 1] [1] [] []
  dot_S16x325x64_S325x325_S16x64x325_1_1_02_0_n_n_wf : DotDims.WF S16x325x64 S325x325 S16x64x325 [1] [1] [0, 2] [0] [] []
  dot_S16x325x64_S64x64_S16x325x64_2_0_01_1_n_n_wf : DotDims.WF S16x325x64 S64x64 S16x325x64 [2] [0] [0, 1] [1] [] []
  dot_S5200x64_S64x512_S5200x512_1_0_0_1_n_n_wf : DotDims.WF S5200x64 S64x512 S5200x512 [1] [0] [0] [1] [] []
  dot_S5200x512_S512x1_S5200x1_1_0_0_1_n_n_wf : DotDims.WF S5200x512 S512x1 S5200x1 [1] [0] [0] [1] [] []

variable [Facts₀]

def gather_S325x16_S325x1_S325x16_1_0_n_n_0_1_116 : GatherDims S325x16 S325x1 S325x16 where
  offsetDims := [1]
  collapsedSliceDims := [0]
  operandBatchingDims := []
  startIndicesBatchingDims := []
  startIndexMap := [0]
  indexVectorDim := 1
  sliceSizes := ![1, 16]
  wf := gather_S325x16_S325x1_S325x16_1_0_n_n_0_1_116_wf
def dot_S5200x5_S5x256_S5200x256_1_0_0_1_n_n : DotDims S5200x5 S5x256 S5200x256 where
  lhsContracting := [1]
  rhsContracting := [0]
  lhsNonContracting := [0]
  rhsNonContracting := [1]
  lhsBatch := []
  rhsBatch := []
  wf := dot_S5200x5_S5x256_S5200x256_1_0_0_1_n_n_wf
def dot_S5200x256_S256x1_S5200x1_1_0_0_1_n_n : DotDims S5200x256 S256x1 S5200x1 where
  lhsContracting := [1]
  rhsContracting := [0]
  lhsNonContracting := [0]
  rhsNonContracting := [1]
  lhsBatch := []
  rhsBatch := []
  wf := dot_S5200x256_S256x1_S5200x1_1_0_0_1_n_n_wf
def scatter_S105625_S5200x1_S5200_n_0_0_1 : ScatterDims S105625 S5200x1 S5200 where
  updateWindowDims := []
  insertedWindowDims := [0]
  scatterDimsToOperandDims := [0]
  indexVectorDim := 1
  wf := scatter_S105625_S5200x1_S5200_n_0_0_1_wf
def dot_S16x325x160_S325x325_S16x160x325_1_1_02_0_n_n : DotDims S16x325x160 S325x325 S16x160x325 where
  lhsContracting := [1]
  rhsContracting := [1]
  lhsNonContracting := [0, 2]
  rhsNonContracting := [0]
  lhsBatch := []
  rhsBatch := []
  wf := dot_S16x325x160_S325x325_S16x160x325_1_1_02_0_n_n_wf
def dot_S16x325x160_S160x64_S16x325x64_2_0_01_1_n_n : DotDims S16x325x160 S160x64 S16x325x64 where
  lhsContracting := [2]
  rhsContracting := [0]
  lhsNonContracting := [0, 1]
  rhsNonContracting := [1]
  lhsBatch := []
  rhsBatch := []
  wf := dot_S16x325x160_S160x64_S16x325x64_2_0_01_1_n_n_wf
def dot_S16x325x64_S325x325_S16x64x325_1_1_02_0_n_n : DotDims S16x325x64 S325x325 S16x64x325 where
  lhsContracting := [1]
  rhsContracting := [1]
  lhsNonContracting := [0, 2]
  rhsNonContracting := [0]
  lhsBatch := []
  rhsBatch := []
  wf := dot_S16x325x64_S325x325_S16x64x325_1_1_02_0_n_n_wf
def dot_S16x325x64_S64x64_S16x325x64_2_0_01_1_n_n : DotDims S16x325x64 S64x64 S16x325x64 where
  lhsContracting := [2]
  rhsContracting := [0]
  lhsNonContracting := [0, 1]
  rhsNonContracting := [1]
  lhsBatch := []
  rhsBatch := []
  wf := dot_S16x325x64_S64x64_S16x325x64_2_0_01_1_n_n_wf
def dot_S5200x64_S64x512_S5200x512_1_0_0_1_n_n : DotDims S5200x64 S64x512 S5200x512 where
  lhsContracting := [1]
  rhsContracting := [0]
  lhsNonContracting := [0]
  rhsNonContracting := [1]
  lhsBatch := []
  rhsBatch := []
  wf := dot_S5200x64_S64x512_S5200x512_1_0_0_1_n_n_wf
def dot_S5200x512_S512x1_S5200x1_1_0_0_1_n_n : DotDims S5200x512 S512x1 S5200x1 where
  lhsContracting := [1]
  rhsContracting := [0]
  lhsNonContracting := [0]
  rhsNonContracting := [1]
  lhsBatch := []
  rhsBatch := []
  wf := dot_S5200x512_S512x1_S5200x1_1_0_0_1_n_n_wf

class Facts : Prop extends Facts₀ where

variable [Facts]
-- ==== Proof.KI.HostOps.lean ====
/- The host operations of the printed @main between its launches, as four lists in the program's order, each with the
   references it writes and one table entry per operation: it touches TensorCore references only, writes nothing
   fresh, and writes its own result reference. Tables only; what is proved from them is in Host.lean. -/
import proofs.«211384_g36696200577170_cont_8to1_b_1111_23_alg».proof.Defs
import proofs.«211384_g36696200577170_cont_8to1_b_1111_23_alg».proof.Proof.Gen.KernelIdeal
import Idealize.ShloMosaic.Lib.StableHlo.Run

noncomputable section

namespace Cert.Proof.KI.Host

open Cert.KernelIdeal Cert.KernelIdeal.Gen Idealize.ShloMosaic Idealize.ShloMosaic.StableHlo

variable {F : FTy → Type} [FloatOps F]

/-- A builder's written buffer is among a list of references that has its result reference. -/
local macro "wr" : term => `(Finset.singleton_subset_iff.mpr (List.mem_toFinset.mpr (List.mem_map.mpr ⟨_, by decide, rfl⟩)))

/-- Line 1 of the host operations (44), in the program's order. -/
abbrev ops1 : List (HloOp τ sig (Elt F)) :=
  [ unary main_arg0 main_v0 ((transpose S16x325x24 [0, 2, 1] · transposes_S16x24x325_S16x325x24_0_2_1) : (⟨S16x24x325, .f32⟩ : BufTy).Contents (Elt F) → (⟨S16x325x24, .f32⟩ : BufTy).Contents (Elt F)),
    nullary main_c (constantI S_ 32 0#32),
    unary main_c main_v1 (broadcastInDim S325 ![] bcast_S_S325 : (⟨S_, .i32⟩ : BufTy).Contents (Elt F) → (⟨S325, .i32⟩ : BufTy).Contents (Elt F)),
    binary main_arg3 main_v1 main_v2 (cmpi .slt : (⟨S325, .i32⟩ : BufTy).Contents (Elt F) → (⟨S325, .i32⟩ : BufTy).Contents (Elt F) → (⟨S325, .i1⟩ : BufTy).Contents (Elt F)),
    nullary main_c_0 (constantI S_ 32 325#32),
    unary main_c_0 main_v3 (broadcastInDim S325 ![] bcast_S_S325 : (⟨S_, .i32⟩ : BufTy).Contents (Elt F) → (⟨S325, .i32⟩ : BufTy).Contents (Elt F)),
    binary main_arg3 main_v3 main_v4 (addi : (⟨S325, .i32⟩ : BufTy).Contents (Elt F) → (⟨S325, .i32⟩ : BufTy).Contents (Elt F) → (⟨S325, .i32⟩ : BufTy).Contents (Elt F)),
    ternary main_v2 main_v4 main_arg3 main_v5 (select : (⟨S325, .i1⟩ : BufTy).Contents (Elt F) → (⟨S325, .i32⟩ : BufTy).Contents (Elt F) → (⟨S325, .i32⟩ : BufTy).Contents (Elt F) → (⟨S325, .i32⟩ : BufTy).Contents (Elt F)),
    unary main_v5 main_v6 (broadcastInDim S325x1 ![0] bcast_S325_S325x1_0 : (⟨S325, .i32⟩ : BufTy).Contents (Elt F) → (⟨S325x1, .i32⟩ : BufTy).Contents (Elt F)),
    binary main_arg4 main_v6 main_v7 ((fun x i => Host.gather gather_S325x16_S325x1_S325x16_1_0_n_n_0_1_116 x i) : (⟨S325x16, .f32⟩ : BufTy).Contents (Elt F) → (⟨S325x1, .i32⟩ : BufTy).Contents (Elt F) → (⟨S325x16, .f32⟩ : BufTy).Contents (Elt F)),
    unary main_v7 main_v8 (broadcastInDim S1x325x16 ![1, 2] bcast_S325x16_S1x325x16_1_2 : (⟨S325x16, .f32⟩ : BufTy).Contents (Elt F) → (⟨S1x325x16, .f32⟩ : BufTy).Contents (Elt F)),
    unary main_v8 main_v9 (broadcastInDim S16x325x16 ![0, 1, 2] bcast_S1x325x16_S16x325x16_0_1_2 : (⟨S1x325x16, .f32⟩ : BufTy).Contents (Elt F) → (⟨S16x325x16, .f32⟩ : BufTy).Contents (Elt F)),
    binary main_v0 main_v9 main_v10 ((fun a b => concatenate S16x325x40 2 [⟨S16x325x24, a⟩, ⟨S16x325x16, b⟩] concatenates_S16x325x24_S16x325x16_S16x325x40_d2) : (⟨S16x325x24, .f32⟩ : BufTy).Contents (Elt F) → (⟨S16x325x16, .f32⟩ : BufTy).Contents (Elt F) → (⟨S16x325x40, .f32⟩ : BufTy).Contents (Elt F)),
    nullary main_v11 (iotaInDim S5200 32 0),
    nullary main_c_1 (constantI S_ 32 0#32),
    unary main_c_1 main_v12 (broadcastInDim S105625 ![] bcast_S_S105625 : (⟨S_, .i32⟩ : BufTy).Contents (Elt F) → (⟨S105625, .i32⟩ : BufTy).Contents (Elt F)),
    nullary main_c_2 (constantI S_ 32 0#32),
    unary main_c_2 main_v13 (broadcastInDim S5200 ![] bcast_S_S5200 : (⟨S_, .i32⟩ : BufTy).Contents (Elt F) → (⟨S5200, .i32⟩ : BufTy).Contents (Elt F)),
    binary main_arg2 main_v13 main_v14 (cmpi .slt : (⟨S5200, .i32⟩ : BufTy).Contents (Elt F) → (⟨S5200, .i32⟩ : BufTy).Contents (Elt F) → (⟨S5200, .i1⟩ : BufTy).Contents (Elt F)),
    nullary main_c_3 (constantI S_ 32 105625#32),
    unary main_c_3 main_v15 (broadcastInDim S5200 ![] bcast_S_S5200 : (⟨S_, .i32⟩ : BufTy).Contents (Elt F) → (⟨S5200, .i32⟩ : BufTy).Contents (Elt F)),
    binary main_arg2 main_v15 main_v16 (addi : (⟨S5200, .i32⟩ : BufTy).Contents (Elt F) → (⟨S5200, .i32⟩ : BufTy).Contents (Elt F) → (⟨S5200, .i32⟩ : BufTy).Contents (Elt F)),
    ternary main_v14 main_v16 main_arg2 main_v17 (select : (⟨S5200, .i1⟩ : BufTy).Contents (Elt F) → (⟨S5200, .i32⟩ : BufTy).Contents (Elt F) → (⟨S5200, .i32⟩ : BufTy).Contents (Elt F) → (⟨S5200, .i32⟩ : BufTy).Contents (Elt F)),
    unary main_v17 main_v18 (broadcastInDim S5200x1 ![0] bcast_S5200_S5200x1_0 : (⟨S5200, .i32⟩ : BufTy).Contents (Elt F) → (⟨S5200x1, .i32⟩ : BufTy).Contents (Elt F)),
    ternary main_v12 main_v18 main_v11 main_v19 ((fun x i u => Host.scatter scatter_S105625_S5200x1_S5200_n_0_0_1 (fun _ b => b) x i u) : (⟨S105625, .i32⟩ : BufTy).Contents (Elt F) → (⟨S5200x1, .i32⟩ : BufTy).Contents (Elt F) → (⟨S5200, .i32⟩ : BufTy).Contents (Elt F) → (⟨S105625, .i32⟩ : BufTy).Contents (Elt F)),
    nullary main_c_4 (constantI S_ 32 0#32),
    unary main_c_4 main_v20 (broadcastInDim S5200 ![] bcast_S_S5200 : (⟨S_, .i32⟩ : BufTy).Contents (Elt F) → (⟨S5200, .i32⟩ : BufTy).Contents (Elt F)),
    binary main_arg2 main_v20 main_v21 (cmpi .slt : (⟨S5200, .i32⟩ : BufTy).Contents (Elt F) → (⟨S5200, .i32⟩ : BufTy).Contents (Elt F) → (⟨S5200, .i1⟩ : BufTy).Contents (Elt F)),
    nullary main_c_5 (constantI S_ 32 105625#32),
    unary main_c_5 main_v22 (broadcastInDim S5200 ![] bcast_S_S5200 : (⟨S_, .i32⟩ : BufTy).Contents (Elt F) → (⟨S5200, .i32⟩ : BufTy).Contents (Elt F)),
    binary main_arg2 main_v22 main_v23 (addi : (⟨S5200, .i32⟩ : BufTy).Contents (Elt F) → (⟨S5200, .i32⟩ : BufTy).Contents (Elt F) → (⟨S5200, .i32⟩ : BufTy).Contents (Elt F)),
    ternary main_v21 main_v23 main_arg2 main_v24 (select : (⟨S5200, .i1⟩ : BufTy).Contents (Elt F) → (⟨S5200, .i32⟩ : BufTy).Contents (Elt F) → (⟨S5200, .i32⟩ : BufTy).Contents (Elt F) → (⟨S5200, .i32⟩ : BufTy).Contents (Elt F)),
    unary main_v24 main_v25 (broadcastInDim S5200x1 ![0] bcast_S5200_S5200x1_0 : (⟨S5200, .i32⟩ : BufTy).Contents (Elt F) → (⟨S5200x1, .i32⟩ : BufTy).Contents (Elt F)),
    binary main_v19 main_v25 main_v26 ((fun x i => Host.gather gather_S105625_S5200x1_S5200_n_0_n_n_0_1_1 x i) : (⟨S105625, .i32⟩ : BufTy).Contents (Elt F) → (⟨S5200x1, .i32⟩ : BufTy).Contents (Elt F) → (⟨S5200, .i32⟩ : BufTy).Contents (Elt F)),
    binary main_v26 main_v11 main_v27 (cmpi .eq : (⟨S5200, .i32⟩ : BufTy).Contents (Elt F) → (⟨S5200, .i32⟩ : BufTy).Contents (Elt F) → (⟨S5200, .i1⟩ : BufTy).Contents (Elt F)),
    nullary main_c_6 (constantI S_ 32 127#32),
    unary main_c_6 main_v28 (broadcastInDim S5200 ![] bcast_S_S5200 : (⟨S_, .i32⟩ : BufTy).Contents (Elt F) → (⟨S5200, .i32⟩ : BufTy).Contents (Elt F)),
    binary main_v11 main_v28 main_v29 (andi : (⟨S5200, .i32⟩ : BufTy).Contents (Elt F) → (⟨S5200, .i32⟩ : BufTy).Contents (Elt F) → (⟨S5200, .i32⟩ : BufTy).Contents (Elt F)),
    nullary main_c_7 (constantI S_ 32 105625#32),
    unary main_c_7 main_v30 (broadcastInDim S5200 ![] bcast_S_S5200 : (⟨S_, .i32⟩ : BufTy).Contents (Elt F) → (⟨S5200, .i32⟩ : BufTy).Contents (Elt F)),
    binary main_v30 main_v29 main_v31 (addi : (⟨S5200, .i32⟩ : BufTy).Contents (Elt F) → (⟨S5200, .i32⟩ : BufTy).Contents (Elt F) → (⟨S5200, .i32⟩ : BufTy).Contents (Elt F)),
    TRef.ternary (.of main_v27) (.of main_arg2) (.of main_v31) main_call0.v0 select,
    reshape main_arg6 main_v33 rfl shapeCasts_S40x256_S40x1x256,
    reshape main_arg7 main_v34 rfl shapeCasts_S40x256x1_S40x1x256 ]

/-- The references line 1 writes, in order. -/
abbrev W1 : List (Ref sig .tc) :=
  [main_v0, main_c, main_v1, main_v2, main_c_0, main_v3, main_v4, main_v5, main_v6, main_v7, main_v8, main_v9,
   main_v10, main_v11, main_c_1, main_v12, main_c_2, main_v13, main_v14, main_c_3, main_v15, main_v16, main_v17, main_v18,
   main_v19, main_c_4, main_v20, main_v21, main_c_5, main_v22, main_v23, main_v24, main_v25, main_v26, main_v27, main_c_6,
   main_v28, main_v29, main_c_7, main_v30, main_v31, main_v32, main_v33, main_v34]

theorem ops1_sub : ∀ op ∈ (ops1 : List (HloOp τ sig (Elt F))), op.bufs ⊆ tcRefs τ sig :=
  List.forall_iff_forall_mem.mp
    ⟨unary_bufs_sub .., nullary_bufs_sub .., unary_bufs_sub .., binary_bufs_sub .., nullary_bufs_sub .., unary_bufs_sub ..,
      binary_bufs_sub .., ternary_bufs_sub .., unary_bufs_sub .., binary_bufs_sub .., unary_bufs_sub .., unary_bufs_sub ..,
      binary_bufs_sub .., nullary_bufs_sub .., nullary_bufs_sub .., unary_bufs_sub .., nullary_bufs_sub .., unary_bufs_sub ..,
      binary_bufs_sub .., nullary_bufs_sub .., unary_bufs_sub .., binary_bufs_sub .., ternary_bufs_sub .., unary_bufs_sub ..,
      ternary_bufs_sub .., nullary_bufs_sub .., unary_bufs_sub .., binary_bufs_sub .., nullary_bufs_sub .., unary_bufs_sub ..,
      binary_bufs_sub .., ternary_bufs_sub .., unary_bufs_sub .., binary_bufs_sub .., binary_bufs_sub .., nullary_bufs_sub ..,
      unary_bufs_sub .., binary_bufs_sub .., nullary_bufs_sub .., unary_bufs_sub .., binary_bufs_sub .., ternary_bufs_sub ..,
      reshape_bufs_sub .., reshape_bufs_sub ..⟩

theorem ops1_fresh : ∀ op ∈ (ops1 : List (HloOp τ sig (Elt F))), op.fresh = ∅ :=
  List.forall_iff_forall_mem.mp
    ⟨rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl,
      rfl, rfl, rfl, rfl, rfl, rfl, rfl, rfl, rfl, rfl, rfl, rfl⟩

theorem ops1_writes : (ops1 : List (HloOp τ sig (Elt F))).Forall fun op =>
    op.writes ⊆ ((W1).map (Proc.devRef (τ := τ) .tc)).toFinset :=
  ⟨wr, wr, wr, wr, wr, wr, wr, wr, wr, wr, wr, wr, wr, wr, wr, wr,
    wr, wr, wr, wr, wr, wr, wr, wr, wr, wr, wr, wr, wr, wr, wr, wr,
    wr, wr, wr, wr, wr, wr, wr, wr, wr, wr, wr, wr⟩

/-- Line 2 of the host operations (1), in the program's order. -/
abbrev ops2 : List (HloOp τ sig (Elt F)) :=
  [ reshape main_v35 main_v36 rfl shapeCasts_S40x325x16_S40x5200 ]

/-- The references line 2 writes, in order. -/
abbrev W2 : List (Ref sig .tc) :=
  [main_v36]

theorem ops2_sub : ∀ op ∈ (ops2 : List (HloOp τ sig (Elt F))), op.bufs ⊆ tcRefs τ sig := fun op hop => by
  rw [List.mem_singleton] at hop; subst hop; exact reshape_bufs_sub ..

theorem ops2_fresh : ∀ op ∈ (ops2 : List (HloOp τ sig (Elt F))), op.fresh = ∅ := fun op hop => by
  rw [List.mem_singleton] at hop; subst hop; rfl

theorem ops2_writes : (ops2 : List (HloOp τ sig (Elt F))).Forall fun op =>
    op.writes ⊆ ((W2).map (Proc.devRef (τ := τ) .tc)).toFinset := wr

/-- Line 3 of the host operations (3), in the program's order. -/
abbrev ops3 : List (HloOp τ sig (Elt F)) :=
  [ unary main_v37 main_v38 ((extractStridedSlice S40x105625 ![0, 0] · slices_S40x105856_S40x105625_0_0) : (⟨S40x105856, .f32⟩ : BufTy).Contents (Elt F) → (⟨S40x105625, .f32⟩ : BufTy).Contents (Elt F)),
    reshape main_v38 main_v39 rfl shapeCasts_S40x105625_S10x4x325x325,
    reshape main_arg18 main_v40 rfl shapeCasts_S1_S1x1 ]

/-- The references line 3 writes, in order. -/
abbrev W3 : List (Ref sig .tc) :=
  [main_v38, main_v39, main_v40]

theorem ops3_sub : ∀ op ∈ (ops3 : List (HloOp τ sig (Elt F))), op.bufs ⊆ tcRefs τ sig :=
  List.forall_iff_forall_mem.mp
    ⟨unary_bufs_sub .., reshape_bufs_sub .., reshape_bufs_sub ..⟩

theorem ops3_fresh : ∀ op ∈ (ops3 : List (HloOp τ sig (Elt F))), op.fresh = ∅ :=
  List.forall_iff_forall_mem.mp
    ⟨rfl, rfl, rfl⟩

theorem ops3_writes : (ops3 : List (HloOp τ sig (Elt F))).Forall fun op =>
    op.writes ⊆ ((W3).map (Proc.devRef (τ := τ) .tc)).toFinset :=
  ⟨wr, wr, wr⟩

/-- Line 4 of the host operations (1), in the program's order. -/
abbrev ops4 : List (HloOp τ sig (Elt F)) :=
  [ reshape main_v41 main_v42 rfl shapeCasts_S16x325x1_S16x325 ]

/-- The references line 4 writes, in order. -/
abbrev W4 : List (Ref sig .tc) :=
  [main_v42]

theorem ops4_sub : ∀ op ∈ (ops4 : List (HloOp τ sig (Elt F))), op.bufs ⊆ tcRefs τ sig := fun op hop => by
  rw [List.mem_singleton] at hop; subst hop; exact reshape_bufs_sub ..

theorem ops4_fresh : ∀ op ∈ (ops4 : List (HloOp τ sig (Elt F))), op.fresh = ∅ := fun op hop => by
  rw [List.mem_singleton] at hop; subst hop; rfl

theorem ops4_writes : (ops4 : List (HloOp τ sig (Elt F))).Forall fun op =>
    op.writes ⊆ ((W4).map (Proc.devRef (τ := τ) .tc)).toFinset := wr

end Cert.Proof.KI.Host

end
-- ==== Proof.LibScatter.lean ====
import Idealize.ShloMosaic.Lib.StableHlo.Predicate

/-!
# A set-scatter at a column of scalar indices is a sequential last-write-wins fold

Host.scatter with the combiner that returns the update, at dimension numbers "one inserted operand axis,
index vector on axis 1" (x.at[idx].set(v) over rank-1 x, idx, v), is the left fold, over the update
positions in order, of "write v k at slot idx k". scatSeq is that fold on plain functions of naturals; the
facts below read it at a slot through its LAST writer, compare two index lists that agree on last writers
(the second sending every other position to a slot outside the range read), and read the winner mask
(scatter zeros idx iota)[idx] == iota.
-/

namespace Cert.Proof.LibScat

open Idealize.ShloMosaic Idealize.ShloMosaic.StableHlo.Predicate

/-! ## The sequential fold on plain functions -/

/-- The first n positions k = 0, …, n-1, in order, each writing v k at slot ix k over a table
    holding z everywhere: the value at slot p. -/
def scatSeq {α : Type} (ix : ℕ → ℕ) (v : ℕ → α) (z : α) : ℕ → ℕ → α
  | 0, _ => z
  | n + 1, p => if ix n = p then v n else scatSeq ix v z n p

/-- Position k is the last of the first M positions that names its slot. -/
def IsLast (M : ℕ) (L : ℕ → ℕ) (k : ℕ) : Prop := ∀ m, k < m → m < M → L m ≠ L k

variable {α : Type}

@[simp] theorem scatSeq_zero (ix : ℕ → ℕ) (v : ℕ → α) (z : α) (p : ℕ) : scatSeq ix v z 0 p = z := rfl

theorem scatSeq_succ (ix : ℕ → ℕ) (v : ℕ → α) (z : α) (n p : ℕ) :
    scatSeq ix v z (n + 1) p = if ix n = p then v n else scatSeq ix v z n p := rfl

/-- Only the first n positions matter. -/
theorem scatSeq_congr {ix ix' : ℕ → ℕ} {v v' : ℕ → α} (z : α) (n p : ℕ)
    (hix : ∀ k, k < n → ix k = ix' k) (hv : ∀ k, k < n → v k = v' k) :
    scatSeq ix v z n p = scatSeq ix' v' z n p := by
  induction n with
  | zero => rfl
  | succ n ih =>
    rw [scatSeq_succ, scatSeq_succ, hix n (Nat.lt_succ_self n), hv n (Nat.lt_succ_self n),
      ih (fun k hk => hix k (Nat.lt_succ_of_lt hk)) (fun k hk => hv k (Nat.lt_succ_of_lt hk))]

/-- No position names slot p: it keeps z. -/
theorem scatSeq_of_none (ix : ℕ → ℕ) (v : ℕ → α) (z : α) (n p : ℕ) (h : ∀ k, k < n → ix k ≠ p) :
    scatSeq ix v z n p = z := by
  induction n with
  | zero => rfl
  | succ n ih =>
    rw [scatSeq_succ, if_neg (h n (Nat.lt_succ_self n)), ih (fun k hk => h k (Nat.lt_succ_of_lt hk))]

/-- Slot p holds the value of the LAST position that names it. -/
theorem scatSeq_of_last (ix : ℕ → ℕ) (v : ℕ → α) (z : α) (n p k : ℕ) (hk : k < n) (hkp : ix k = p)
    (hlast : ∀ m, k < m → m < n → ix m ≠ p) : scatSeq ix v z n p = v k := by
  induction n with
  | zero => exact absurd hk (Nat.not_lt_zero k)
  | succ n ih =>
    rw [scatSeq_succ]
    rcases Nat.lt_succ_iff_lt_or_eq.1 hk with hlt | heq
    · rw [if_neg (hlast n hlt (Nat.lt_succ_self n))]
      exact ih hlt (fun m hkm hmn => hlast m hkm (Nat.lt_succ_of_lt hmn))
    · subst heq; rw [if_pos hkp]

/-- A slot that some position names has a last position naming it. -/
theorem exists_last (ix : ℕ → ℕ) (n p : ℕ) (h : ∃ k, k < n ∧ ix k = p) :
    ∃ k, k < n ∧ ix k = p ∧ ∀ m, k < m → m < n → ix m ≠ p := by
  induction n with
  | zero => obtain ⟨k, hk, _⟩ := h; exact absurd hk (Nat.not_lt_zero k)
  | succ n ih =>
    by_cases hn : ix n = p
    · exact ⟨n, Nat.lt_succ_self n, hn, fun m hnm hmn => absurd hmn (by omega)⟩
    · obtain ⟨k, hk, hkp⟩ := h
      have hkn : k < n := by
        rcases Nat.lt_succ_iff_lt_or_eq.1 hk with h | h
        · exact h
        · subst h; exact absurd hkp hn
      obtain ⟨k', hk', hkp', hl⟩ := ih ⟨k, hkn, hkp⟩
      refine ⟨k', Nat.lt_succ_of_lt hk', hkp', fun m hkm hmn => ?_⟩
      rcases Nat.lt_succ_iff_lt_or_eq.1 hmn with h | h
      · exact hl m hkm h
      · subst h; exact hn

/-- THE WINNER LIST. idxm keeps L k where k is the last position naming its slot and sends every
    other position to a slot ≥ N; all L k < N. Read at a slot p < N, the fold over idxm is the fold over L. -/
theorem scatSeq_winner {N M : ℕ} (L idxm : ℕ → ℕ) (v : ℕ → α) (z : α)
    (hL : ∀ k, k < M → L k < N)
    (hw : ∀ k, k < M → IsLast M L k → idxm k = L k)
    (hl : ∀ k, k < M → ¬ IsLast M L k → N ≤ idxm k)
    (p : ℕ) (hp : p < N) :
    scatSeq idxm v z M p = scatSeq L v z M p := by
  have _ := hL
  -- a position whose slot is not p is not sent to p: a winner keeps its slot, a loser leaves the range
  have hne : ∀ m, m < M → L m ≠ p → idxm m ≠ p := by
    intro m hm hLm
    by_cases hlast : IsLast M L m
    · rw [hw m hm hlast]; exact hLm
    · have := hl m hm hlast; omega
  by_cases h : ∃ k, k < M ∧ L k = p
  · obtain ⟨k, hk, hkp, hlast⟩ := exists_last L M p h
    have hkl : IsLast M L k := fun m hkm hmM => by rw [hkp]; exact hlast m hkm hmM
    rw [scatSeq_of_last idxm v z M p k hk (by rw [hw k hk hkl]; exact hkp)
        (fun m hkm hmM => hne m hmM (hlast m hkm hmM)),
      scatSeq_of_last L v z M p k hk hkp hlast]
  · have hnone : ∀ k, k < M → L k ≠ p := fun k hk hkp => h ⟨k, hk, hkp⟩
    rw [scatSeq_of_none idxm v z M p (fun k hk => hne k hk (hnone k hk)), scatSeq_of_none L v z M p hnone]

/-- The winner list stays below N + 128 when the losers' slots are N + k % 128. -/
theorem idxm_lt {N M : ℕ} (L idxm : ℕ → ℕ) (hL : ∀ k, k < M → L k < N)
    (hw : ∀ k, k < M → IsLast M L k → idxm k = L k)
    (hl : ∀ k, k < M → ¬ IsLast M L k → idxm k = N + k % 128) (k : ℕ) (hk : k < M) : idxm k < N + 128 := by
  by_cases h : IsLast M L k
  · rw [hw k hk h]; have := hL k hk; omega
  · rw [hl k hk h]; omega

/-- The dump slot's word: 105625 + (k &&& 127) read unsigned, for a position k < 2³¹. -/
theorem dump_toNat (k : ℕ) (hk : k < 2 ^ 31) :
    (IntOp.addi 105625#32 (IntOp.andi (BitVec.ofNat 32 k) 127#32)).toNat = 105625 + k % 128 := by
  have h127 : ∀ x : ℕ, x &&& 127 = x % 128 := fun x => Nat.and_two_pow_sub_one_eq_mod x 7
  simp only [IntOp.addi, IntOp.andi, BitVec.toNat_add, BitVec.toNat_and, BitVec.toNat_ofNat, h127]
  omega

/-! ## Host.scatter with the set combiner, at a column of scalar indices -/

section Host

variable {N M w : ℕ}

/-- A left fold over the positions 0, …, n-1 whose step, read at q, takes v i where ix i = p and keeps the
    value otherwise, is the sequential fold read at p. -/
theorem foldl_finRange_eq_scatSeq {κ : Type} (q : κ) (ix : ℕ → ℕ) (v : ℕ → α) (z : α) (p : ℕ) :
    ∀ (n : ℕ) (step : (κ → α) → Fin n → (κ → α)) (x : κ → α), x q = z →
      (∀ (r : κ → α) (i : Fin n), ix i.val = p → step r i q = v i.val) →
      (∀ (r : κ → α) (i : Fin n), ix i.val ≠ p → step r i q = r q) →
      (List.finRange n).foldl step x q = scatSeq ix v z n p := by
  intro n
  induction n with
  | zero => intro step x hx _ _; simpa using hx
  | succ n ih =>
    intro step x hx h1 h2
    rw [List.finRange_succ_last, List.foldl_append, List.foldl_map, List.foldl_cons, List.foldl_nil, scatSeq_succ]
    have hr := ih (fun r i => step r i.castSucc) x hx (fun r i h => h1 r i.castSucc h)
      (fun r i h => h2 r i.castSucc h)
    by_cases hn : ix n = p
    · rw [if_pos hn]; exact h1 _ (Fin.last n) hn
    · rw [if_neg hn, h2 _ (Fin.last n) hn]; exact hr

/-- A rank-1 shape's row-major position is its one coordinate. -/
theorem rowMajor_val_rank1 (j : (⟨1, ![M]⟩ : Shape).Idx) :
    ((⟨1, ![M]⟩ : Shape).rowMajor j).val = (j 0).val := by
  show Shape.rankPi _ j = _
  simp [Shape.rankPi, Shape.prodPi]

theorem numel_rank1 : (⟨1, ![M]⟩ : Shape).numel = M := by simp [Shape.numel]

theorem rowMajor_symm_rank1 (i : Fin (⟨1, ![M]⟩ : Shape).numel) (h : i.val < M) :
    (⟨1, ![M]⟩ : Shape).rowMajor.symm i = Shape.Idx.ofFin ⟨i.val, h⟩ := by
  rw [Equiv.symm_apply_eq]
  apply Fin.ext
  rw [rowMajor_val_rank1]; rfl

/-- The operand's one axis is inserted: no window coordinate. -/
theorem window_col (d : ScatterDims ⟨1, ![N]⟩ ⟨2, ![M, 1]⟩ ⟨1, ![M]⟩) (hiw : d.insertedWindowDims = [0])
    (j : (⟨1, ![M]⟩ : Shape).Idx) : d.window j 0 = 0 := by
  unfold ScatterDims.window
  rw [dif_neg (by simp [ScatterDims.sKept, Shape.kept, hiw])]

/-- The start on the operand's axis is row k's index word, read signed. -/
theorem start_col (d : ScatterDims ⟨1, ![N]⟩ ⟨2, ![M, 1]⟩ ⟨1, ![M]⟩)
    (hsd : d.scatterDimsToOperandDims = [0]) (hivd : d.indexVectorDim = 1)
    (idx : IVec ⟨2, ![M, 1]⟩ w) (k : Fin M) :
    d.start (Shape.Idx.ofFin k) idx 0 = (idx (ixP k)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    -- the row: the update's one axis is its scatter axis, read by the index column's axis 0
    unfold ScatterDims.siIdx
    rw [dif_neg (by rw [hivd]; simp)]
    unfold ScatterDims.siCoord
    apply Fin.ext
    simp only [Fin.val_cast]
    have e : ∀ X : Fin 1, ((Shape.Idx.ofFin k : (⟨1, ![M]⟩ : Shape).Idx) X).val = k.val := fun X => by
      have hX : X = 0 := Subsingleton.elim _ _
      subst hX; rfl
    exact e _
  | ⟨1, _⟩ =>
    -- the index vector's axis: the operand axis is component 0 of the one-component index vector
    unfold ScatterDims.siIdx
    rw [dif_pos (by rw [hivd])]
    apply Fin.ext
    show List.idxOf (0 : Fin 1) d.scatterDimsToOperandDims = 0
    rw [hsd]; simp

/-- The result index of update position k: its index word read signed, when inside [0, N). -/
theorem resultIdx?_col (d : ScatterDims ⟨1, ![N]⟩ ⟨2, ![M, 1]⟩ ⟨1, ![M]⟩)
    (huw : d.updateWindowDims = []) (hiw : d.insertedWindowDims = [0])
    (hsd : d.scatterDimsToOperandDims = [0]) (hivd : d.indexVectorDim = 1)
    (idx : IVec ⟨2, ![M, 1]⟩ w) (k : Fin M) (p : Fin N) :
    d.resultIdx? (Shape.Idx.ofFin k) idx = some (Shape.Idx.ofFin p) ↔ (idx (ixP k)).toInt = (p.val : ℤ) := by
  have _ := huw
  have hs := start_col d hsd hivd idx k
  have hwin := window_col d hiw (Shape.Idx.ofFin k)
  unfold ScatterDims.resultIdx?
  constructor
  · intro h
    split at h
    · next hc =>
      have h0 := congrArg Fin.val (congrFun (Option.some.inj h) 0)
      have hc0 := (hc 0).1
      rw [hs, hwin] at hc0
      simp only [hs, hwin, Shape.Idx.ofFin_zero] at h0
      omega
    · cases h
  · intro h
    have hc : ∀ a, 0 ≤ d.start (Shape.Idx.ofFin k) idx a + (d.window (Shape.Idx.ofFin k) a : ℤ)
        ∧ d.start (Shape.Idx.ofFin k) idx a + (d.window (Shape.Idx.ofFin k) a : ℤ) < ((⟨1, ![N]⟩ : Shape).size a : ℤ) := by
      intro a
      have ha : a = 0 := Subsingleton.elim _ _
      subst ha
      rw [hs, hwin, h]
      have := p.isLt
      constructor
      · omega
      · show (p.val : ℤ) + ((0 : ℕ) : ℤ) < ((N : ℕ) : ℤ); omega
    rw [dif_pos hc]
    congr 1
    funext a
    have ha : a = 0 := Subsingleton.elim _ _
    subst ha
    apply Fin.ext
    simp only [hs, hwin, h, Shape.Idx.ofFin_zero]
    omega

/-- THE SET-SCATTER AS THE SEQUENTIAL FOLD: over a constant operand z, with the index words read as the
    naturals ix k and the updates as v k, the result at slot p is scatSeq ix v z M p. -/
theorem host_scatter_eq_scatSeq (d : ScatterDims ⟨1, ![N]⟩ ⟨2, ![M, 1]⟩ ⟨1, ![M]⟩)
    (huw : d.updateWindowDims = []) (hiw : d.insertedWindowDims = [0])
    (hsd : d.scatterDimsToOperandDims = [0]) (hivd : d.indexVectorDim = 1)
    (z : α) (idx : IVec ⟨2, ![M, 1]⟩ w) (upd : (⟨1, ![M]⟩ : Shape).Idx → α)
    (ix : ℕ → ℕ) (v : ℕ → α)
    (hix : ∀ k : Fin M, (idx (ixP k)).toInt = (ix k.val : ℤ))
    (hv : ∀ k : Fin M, upd (Shape.Idx.ofFin k) = v k.val) (p : Fin N) :
    Host.scatter d (fun _ b => b) (fun _ => z) idx upd (Shape.Idx.ofFin p) = scatSeq ix v z M p.val := by
  unfold Host.scatter
  refine (foldl_finRange_eq_scatSeq (Shape.Idx.ofFin p) ix v z p.val _ _ _ rfl ?_ ?_).trans
    (congrArg (fun n => scatSeq ix v z n p.val) numel_rank1)
  · intro r i hi
    have hlt : i.val < M := Nat.lt_of_lt_of_eq i.isLt numel_rank1
    have hres : d.resultIdx? ((⟨1, ![M]⟩ : Shape).rowMajor.symm i) idx = some (Shape.Idx.ofFin p) := by
      rw [rowMajor_symm_rank1 i hlt, resultIdx?_col d huw hiw hsd hivd, hix ⟨i.val, hlt⟩, hi]
    simp only [hres, if_pos]
    rw [rowMajor_symm_rank1 i hlt]; exact hv ⟨i.val, hlt⟩
  · intro r i hi
    have hlt : i.val < M := Nat.lt_of_lt_of_eq i.isLt numel_rank1
    have hres : d.resultIdx? ((⟨1, ![M]⟩ : Shape).rowMajor.symm i) idx ≠ some (Shape.Idx.ofFin p) := by
      rw [rowMajor_symm_rank1 i hlt, Ne, resultIdx?_col d huw hiw hsd hivd, hix ⟨i.val, hlt⟩]
      exact fun h => hi (by exact_mod_cast h)
    generalize d.resultIdx? ((⟨1, ![M]⟩ : Shape).rowMajor.symm i) idx = o at hres
    cases o with
    | none => rfl
    | some i' =>
      have hne : Shape.Idx.ofFin p ≠ i' := fun e => hres (by rw [e])
      exact if_neg hne

/-- THE VALUE LEMMA: the fold over the winner list idxm, read at a slot p < N, is the set-scatter at the
    index column idx (whose words are L k < N). -/
theorem scatSeq_idxm_eq_host_scatter (d : ScatterDims ⟨1, ![N]⟩ ⟨2, ![M, 1]⟩ ⟨1, ![M]⟩)
    (huw : d.updateWindowDims = []) (hiw : d.insertedWindowDims = [0])
    (hsd : d.scatterDimsToOperandDims = [0]) (hivd : d.indexVectorDim = 1)
    (z : α) (idx : IVec ⟨2, ![M, 1]⟩ w) (upd : (⟨1, ![M]⟩ : Shape).Idx → α)
    (L idxm : ℕ → ℕ) (v : ℕ → α)
    (hix : ∀ k : Fin M, (idx (ixP k)).toInt = (L k.val : ℤ))
    (hv : ∀ k : Fin M, upd (Shape.Idx.ofFin k) = v k.val)
    (hL : ∀ k, k < M → L k < N)
    (hw : ∀ k, k < M → IsLast M L k → idxm k = L k)
    (hl : ∀ k, k < M → ¬ IsLast M L k → N ≤ idxm k) (p : Fin N) :
    scatSeq idxm v z M p.val = Host.scatter d (fun _ b => b) (fun _ => z) idx upd (Shape.Idx.ofFin p) := by
  rw [host_scatter_eq_scatSeq d huw hiw hsd hivd z idx upd L v hix hv p]
  exact scatSeq_winner L idxm v z hL hw hl p.val p.isLt

/-- THE WINNER MASK: gathering the set-scatter of an injective update list back at its own index column
    returns position k's update exactly where k is the last position naming its slot. -/
theorem host_winner_iff {β : Type} (ds : ScatterDims ⟨1, ![N]⟩ ⟨2, ![M, 1]⟩ ⟨1, ![M]⟩)
    (huw : ds.updateWindowDims = []) (hiw : ds.insertedWindowDims = [0])
    (hsd : ds.scatterDimsToOperandDims = [0]) (hivd : ds.indexVectorDim = 1)
    (dg : GatherDims ⟨1, ![N]⟩ ⟨2, ![M, 1]⟩ ⟨1, ![M]⟩)
    (hcoll : dg.collapsedSliceDims = [0]) (hob : dg.operandBatchingDims = [])
    (hsim : dg.startIndexMap = [0]) (hgivd : dg.indexVectorDim = 1)
    (z : β) (idx : IVec ⟨2, ![M, 1]⟩ w) (upd : (⟨1, ![M]⟩ : Shape).Idx → β)
    (hinj : ∀ k m : Fin M, upd (Shape.Idx.ofFin k) = upd (Shape.Idx.ofFin m) → k = m)
    (L : ℕ → ℕ) (hix : ∀ k : Fin M, (idx (ixP k)).toInt = (L k.val : ℤ)) (hL : ∀ k, k < M → L k < N)
    (k : Fin M) :
    Host.gather dg (Host.scatter ds (fun _ b => b) (fun _ => z) idx upd) idx (Shape.Idx.ofFin k)
        = upd (Shape.Idx.ofFin k) ↔ IsLast M L k.val := by
  have hLk := hL k.val k.isLt
  have hN : 0 < N := by omega
  -- the updates as a function of the naturals
  let v : ℕ → β := fun n => if h : n < M then upd (Shape.Idx.ofFin ⟨n, h⟩) else z
  have hv : ∀ m : Fin M, upd (Shape.Idx.ofFin m) = v m.val := fun m => by
    show _ = dite _ _ _; rw [dif_pos m.isLt]
  -- the gather reads slot L k
  have hslot : (⟨min (idx (ixP k)).toInt.toNat (N - 1), by omega⟩ : Fin N) = ⟨L k.val, hLk⟩ := by
    apply Fin.ext
    show min (idx (ixP k)).toInt.toNat (N - 1) = L k.val
    rw [hix k]; simp only [Int.toNat_natCast]; omega
  rw [gather_take dg hcoll hob hsim hgivd _ idx k hN, hslot,
    host_scatter_eq_scatSeq ds huw hiw hsd hivd z idx upd L v hix hv ⟨L k.val, hLk⟩]
  -- the last position k' naming slot L k holds it
  obtain ⟨k', hk', hkk', hlast⟩ := exists_last L M (L k.val) ⟨k.val, k.isLt, rfl⟩
  rw [scatSeq_of_last L v z M (L k.val) k' hk' hkk' hlast, ← hv ⟨k', hk'⟩]
  constructor
  · intro h
    have : (⟨k', hk'⟩ : Fin M) = k := hinj _ _ h
    have hval : k' = k.val := congrArg Fin.val this
    subst hval
    exact hlast
  · intro h
    have hval : k' = k.val := by
      rcases Nat.lt_trichotomy k' k.val with hlt | heq | hgt
      · exact absurd rfl (hlast k.val hlt k.isLt)
      · exact heq
      · exact absurd hkk' (h k' hgt hk')
    have : (⟨k', hk'⟩ : Fin M) = k := Fin.ext hval
    rw [this]

end Host

end Cert.Proof.LibScat
-- ==== Proof.K1Scat.lean ====
/-
  The sequential scatter: a row of `z` receiving the writes `row[ix k] := v k` for k = 0, 1, 2, … in this order, a later
  write to a place replacing an earlier one. A vector scatter of sixteen lanes taken in ascending order is sixteen of
  these writes, so that consecutive vector scatters of consecutive groups of sixteen are the sequential scatter.
-/
import Idealize.ShloMosaic.PureOps.ShapeOps
import Mathlib.Data.List.Range
import Mathlib.Data.List.FinRange

namespace Cert.Proof.Scat

open Idealize.ShloMosaic

/-- The first `n` of the writes `row[ix k] := v k` (k = 0, 1, …, in this order) over a row of `z`: what place `p` holds. -/
def scatSeq {X : Type} (ix : ℕ → ℕ) (v : ℕ → X) (z : X) : ℕ → ℕ → X
  | 0, _ => z
  | n + 1, p => if ix n = p then v n else scatSeq ix v z n p

theorem scatSeq_succ {X : Type} (ix : ℕ → ℕ) (v : ℕ → X) (z : X) (n : ℕ) :
    scatSeq ix v z (n + 1) = fun p => if ix n = p then v n else scatSeq ix v z n p := rfl

/-- The writes `row[I k] := W k` for `k` along a list, in the list's order, over a row `f`. -/
def scatL {α X : Type} (I : α → ℕ) (W : α → X) : List α → (ℕ → X) → ℕ → X
  | [], f => f
  | k :: l, f => scatL I W l (fun p => if I k = p then W k else f p)

theorem scatL_map {α β X : Type} (φ : α → β) (I : β → ℕ) (W : β → X) (l : List α) (f : ℕ → X) :
    scatL (fun k => I (φ k)) (fun k => W (φ k)) l f = scatL I W (l.map φ) f := by
  induction l generalizing f with
  | nil => rfl
  | cons k l ih => exact ih _

/-- `m` more writes, numbered from `n`, after the first `n`: the first `n + m`. -/
theorem scatL_finRange {X : Type} (ix : ℕ → ℕ) (v : ℕ → X) (z : X) (m n : ℕ) :
    scatL (fun k : Fin m => ix (n + k.val)) (fun k : Fin m => v (n + k.val)) (List.finRange m) (scatSeq ix v z n) = scatSeq ix v z (n + m) := by
  induction m generalizing n with
  | zero => rfl
  | succ m ih =>
    rw [List.finRange_succ]
    show scatL _ _ ((List.finRange m).map Fin.succ) (fun p => if ix (n + 0) = p then v (n + 0) else scatSeq ix v z n p) = _
    rw [← scatL_map]
    have e : (fun p => if ix (n + 0) = p then v (n + 0) else scatSeq ix v z n p) = scatSeq ix v z (n + 1) := rfl
    rw [e, show n + (m + 1) = n + 1 + m by omega, ← ih (n + 1)]
    congr 1 <;> funext k <;> simp only [Fin.val_succ] <;> congr 1 <;> omega

section Store

variable {F : FTy → Type} [FloatOps F] {N : ℕ} {e : EltTy} {d : Fin 1 → ℕ}

/-- An unmasked indexed store into a rank-one buffer is the writes of its lanes in ascending order. -/
theorem storeIdx_eq_scatL (f : Vec F ⟨1, ![N]⟩ e) (idxs : Fin 1 → IVec ⟨1, d⟩ 32) (w : Vec F ⟨1, d⟩ e)
    (h : ∀ a x, (idxs a x).toNat < (⟨1, ![N]⟩ : Shape).size a) (fN : ℕ → Elt F e) (hf : ∀ p, f p = fN (p 0).val) (p : (⟨1, ![N]⟩ : Shape).Idx) :
    storeIdx f idxs w (fun _ => 1#1) false h p
      = scatL (fun k : Fin (d 0) => (idxs 0 (Shape.ofLane k)).toNat) (fun k => w (Shape.ofLane k)) (List.finRange (d 0)) fN (p 0).val := by
  unfold storeIdx
  generalize List.finRange (d 0) = l
  induction l generalizing f fN with
  | nil => exact hf p
  | cons k l ih =>
    rw [List.foldl_cons]
    refine ih _ _ fun q => ?_
    simp only [if_true, Bool.false_eq_true, if_false]
    have hiff : (∀ a : Fin 1, (q a).val = (idxs a (Shape.ofLane k)).toNat) ↔ (idxs 0 (Shape.ofLane k)).toNat = (q 0).val := by
      constructor
      · intro hall; exact (hall 0).symm
      · intro hq a; obtain rfl : a = 0 := Subsingleton.elim _ _; exact hq.symm
    by_cases hq : (idxs 0 (Shape.ofLane k)).toNat = (q 0).val
    · rw [if_pos hq]; exact if_pos (hiff.2 hq)
    · rw [if_neg hq]; exact (if_neg (mt hiff.1 hq)).trans (hf q)

/-- A vector scatter of sixteen lanes whose indices and values are entries `n, …, n + 15` of `ix` and `v`, onto the
    first `n` writes of the sequential scatter: the first `n + 16`. -/
theorem storeIdx_scatSeq (f : Vec F ⟨1, ![N]⟩ e) (iv : IVec ⟨1, ![16]⟩ 32) (w : Vec F ⟨1, ![16]⟩ e)
    (h : ∀ a x, ((![iv] : Fin 1 → IVec ⟨1, ![16]⟩ 32) a x).toNat < (⟨1, ![N]⟩ : Shape).size a)
    (ix : ℕ → ℕ) (v : ℕ → Elt F e) (z : Elt F e) (n : ℕ)
    (hf : ∀ p, f p = scatSeq ix v z n (p 0).val)
    (hi : ∀ l : Fin 16, (iv (Shape.ofLane (d := ![16]) l)).toNat = ix (n + l.val))
    (hw : ∀ l : Fin 16, w (Shape.ofLane (d := ![16]) l) = v (n + l.val))
    (p : (⟨1, ![N]⟩ : Shape).Idx) :
    storeIdx f ![iv] w (fun _ => 1#1) false h p = scatSeq ix v z (n + 16) (p 0).val := by
  rw [storeIdx_eq_scatL f ![iv] w h _ hf p, ← scatL_finRange ix v z 16 n]
  congr 1
  · funext l; exact hi l
  · funext l; exact hw l

end Store

end Cert.Proof.Scat
-- ==== Proof.LibScatterIdx.lean ====
import proofs.«211384_g36696200577170_cont_8to1_b_1111_23_alg».proof.Pre_input_domain
import proofs.«211384_g36696200577170_cont_8to1_b_1111_23_alg».proof.Proof.LibScatter
import proofs.«211384_g36696200577170_cont_8to1_b_1111_23_alg».proof.Proof.K1Scat
import Idealize.ShloMosaic.Lib.ReduceAll

/-!
# The index list's range from the precondition, and the winner list's words

The printed precondition ends in the conjunct "every index word is between 0 and 105624, signed"; read at an
element it is that range. A non-negative index word is its own normalisation (the select that adds the extent
to a negative word keeps it). The winner list's word at position k selects, by the winner mask, between the
index word and the dump slot 105625 + (k &&& 127): read unsigned it is L k at a last writer, 105625 + k % 128
elsewhere, so always below 105856.
-/

namespace Cert.Proof.LibScat

open Idealize.ShloMosaic Idealize.ShloMosaic.StableHlo.Predicate

section Pre

open Cert.Pre_input_domain

variable [Cert.Pre_input_domain.Facts] {F : FTy → Type} [FloatOps F]

/-- The last part of the printed precondition, all ones, bounds every index word. -/
theorem lidx_range_of_part5 (a2 : IVec S5200 32) (a3 : IVec S325 32) (v83 : IVec S_ 1)
    (h : fn_part5 (F := F) a2 a3 v83
      (broadcastInDim S5200 ![] Facts.bcast_S_S5200 (constantI S_ 32 0#32)) = fun _ => 1#1)
    (i : S5200.Idx) : 0 ≤ (a2 i).toInt ∧ (a2 i).toInt ≤ 105624 := by
  have h1 := congrFun h (Shape.Idx.first Facts.h_S_)
  unfold fn_part5 at h1
  simp only [andi, IntOp.andi_eq_one] at h1
  obtain ⟨⟨_, h89⟩, _⟩ := h1
  have h88 := Host.reduce_andi_all _ _ _ _ _ h89 i
  simp only [andi, cmpi, IntOp.andi_eq_one, IntOp.cmpi_sge, IntOp.cmpi_sle,
    bcast_scalar _ Facts.h_S_, constantI] at h88
  exact ⟨by simpa using h88.1, by simpa using h88.2⟩

/-- The printed precondition, all ones, bounds every index word. -/
theorem lidx_range_of_pre (a0 : FVec F S16x24x325 .f32) (a1 : FVec F S5200x5 .f32) (a2 : IVec S5200 32)
    (a3 : IVec S325 32) (a4 : FVec F S325x16 .f32) (a5 : FVec F S40x5x256 .f32) (a6 : FVec F S40x256 .f32)
    (a7 : FVec F S40x256x1 .f32) (a8 : FVec F S40x1 .f32) (a9 : FVec F S4x160x64 .f32) (a10 : FVec F S64 .f32)
    (a11 : FVec F S9x4x64x64 .f32) (a12 : FVec F S9x64 .f32) (a13 : FVec F S10x64 .f32) (a14 : FVec F S10x64 .f32)
    (a15 : FVec F S64x512 .f32) (a16 : FVec F S512 .f32) (a17 : FVec F S512x1 .f32) (a18 : FVec F S1 .f32)
    (h : fn (F := F) a0 a1 a2 a3 a4 a5 a6 a7 a8 a9 a10 a11 a12 a13 a14 a15 a16 a17 a18 = fun _ => 1#1)
    (i : S5200.Idx) : 0 ≤ (a2 i).toInt ∧ (a2 i).toInt ≤ 105624 :=
  lidx_range_of_part5 (F := F) a2 a3 _ h i

end Pre

/-! ## The two spellings of the sequential fold -/

/-- The sequential fold of the tile's value and the one here are the same recursion. -/
theorem scatSeq_bridge {X : Type} (ix : ℕ → ℕ) (v : ℕ → X) (z : X) (n p : ℕ) :
    Cert.Proof.Scat.scatSeq ix v z n p = scatSeq ix v z n p := by
  induction n with
  | zero => rfl
  | succ n ih =>
    show (if ix n = p then v n else Cert.Proof.Scat.scatSeq ix v z n p)
      = (if ix n = p then v n else scatSeq ix v z n p)
    rw [ih]

/-! ## Words -/

/-- A word that is non-negative read signed reads the same unsigned. -/
theorem toInt_eq_toNat_of_nonneg (x : BitVec 32) (hx : 0 ≤ x.toInt) : x.toInt = (x.toNat : ℤ) := by
  rw [BitVec.toInt_eq_toNat_cond] at hx ⊢
  split at hx
  · next h => rw [if_pos h]
  · next h => have := x.isLt; omega

/-- A non-negative index word is its own normalisation. -/
theorem norm_keep (x c : BitVec 32) (hx : 0 ≤ x.toInt) :
    Scalar.select (IntOp.cmpi .slt x 0#32) (IntOp.addi x c) x = x := by
  have hne : ¬ IntOp.cmpi .slt x 0#32 = 1#1 := by
    rw [IntOp.cmpi_slt]; simpa using hx
  unfold Scalar.select
  exact if_neg hne

/-- A scalar laid over a whole shape is the constant function at it. -/
theorem bcast_scalar_fun {α : Type} {t : Shape} (h : (⟨0, ![]⟩ : Shape).BroadcastsInDim t ![])
    (h0 : 0 < (⟨0, ![]⟩ : Shape).numel) (v : (⟨0, ![]⟩ : Shape).Idx → α) :
    broadcastInDim t ![] h v = fun _ => v (Shape.Idx.first h0) :=
  funext fun j => bcast_scalar h h0 v j

/-- THE INDEX COLUMN: the index list normalised (the extent c added to a negative word) and laid as a column
    reads, at row k, the list's word at k when that word is non-negative. -/
theorem idx_col_toInt {M : ℕ} (h₁ : (⟨1, ![M]⟩ : Shape).BroadcastsInDim ⟨2, ![M, 1]⟩ ![0])
    (hb : (⟨0, ![]⟩ : Shape).BroadcastsInDim ⟨1, ![M]⟩ ![]) (h0 : 0 < (⟨0, ![]⟩ : Shape).numel)
    (a2 : IVec ⟨1, ![M]⟩ 32) (c : BitVec 32) (k : Fin M) (hx : 0 ≤ (a2 (Shape.Idx.ofFin k)).toInt) :
    (broadcastInDim ⟨2, ![M, 1]⟩ ![0] h₁
      (select (cmpi .slt a2 (broadcastInDim ⟨1, ![M]⟩ ![] hb (constantI ⟨0, ![]⟩ 32 0#32)))
        (addi a2 (broadcastInDim ⟨1, ![M]⟩ ![] hb (constantI ⟨0, ![]⟩ 32 c))) a2) (ixP k)).toInt
      = ((a2 (Shape.Idx.ofFin k)).toNat : ℤ) := by
  rw [bcast_col1]
  simp only [select, cmpi, addi, bcast_scalar hb h0, constantI]
  rw [norm_keep _ _ hx]
  exact toInt_eq_toNat_of_nonneg _ hx

/-! ## The winner list's word -/

section Winner

variable {N M : ℕ}

/-- The winner mask at position k, as the select it drives: the first word at a last writer, the second elsewhere. -/
theorem winner_select (ds : ScatterDims ⟨1, ![N]⟩ ⟨2, ![M, 1]⟩ ⟨1, ![M]⟩)
    (huw : ds.updateWindowDims = []) (hiw : ds.insertedWindowDims = [0])
    (hsd : ds.scatterDimsToOperandDims = [0]) (hivd : ds.indexVectorDim = 1)
    (dg : GatherDims ⟨1, ![N]⟩ ⟨2, ![M, 1]⟩ ⟨1, ![M]⟩)
    (hcoll : dg.collapsedSliceDims = [0]) (hob : dg.operandBatchingDims = [])
    (hsim : dg.startIndexMap = [0]) (hgivd : dg.indexVectorDim = 1)
    (z : BitVec 32) (idx : IVec ⟨2, ![M, 1]⟩ 32) (hM : M ≤ 2 ^ 32)
    (L : ℕ → ℕ) (hix : ∀ k : Fin M, (idx (ixP k)).toInt = (L k.val : ℤ)) (hL : ∀ k, k < M → L k < N)
    (k : Fin M) (a b : BitVec 32) :
    (IsLast M L k.val →
      Scalar.select (IntOp.cmpi .eq (Host.gather dg (Host.scatter ds (fun _ b => b) (fun _ => z) idx
        (iotaInDim (⟨1, ![M]⟩ : Shape) 32 0)) idx (Shape.Idx.ofFin k)) (BitVec.ofNat 32 k.val)) a b = a) ∧
    (¬ IsLast M L k.val →
      Scalar.select (IntOp.cmpi .eq (Host.gather dg (Host.scatter ds (fun _ b => b) (fun _ => z) idx
        (iotaInDim (⟨1, ![M]⟩ : Shape) 32 0)) idx (Shape.Idx.ofFin k)) (BitVec.ofNat 32 k.val)) a b = b) := by
  have hinj : ∀ k m : Fin M, iotaInDim (⟨1, ![M]⟩ : Shape) 32 0 (Shape.Idx.ofFin k)
      = iotaInDim (⟨1, ![M]⟩ : Shape) 32 0 (Shape.Idx.ofFin m) → k = m := by
    intro k m h
    rw [iota_apply, iota_apply] at h
    have := congrArg BitVec.toNat h
    simp only [BitVec.toNat_ofNat] at this
    have hk := k.isLt; have hm := m.isLt
    apply Fin.ext
    rw [Nat.mod_eq_of_lt (by omega), Nat.mod_eq_of_lt (by omega)] at this
    exact this
  have hiff := host_winner_iff ds huw hiw hsd hivd dg hcoll hob hsim hgivd z idx
    (iotaInDim (⟨1, ![M]⟩ : Shape) 32 0) hinj L hix hL k
  rw [iota_apply] at hiff
  constructor
  · intro hlast
    unfold Scalar.select
    exact if_pos (IntOp.cmpi_eq.2 (hiff.2 hlast))
  · intro hlast
    unfold Scalar.select
    exact if_neg (fun h => hlast (hiff.1 (IntOp.cmpi_eq.1 h)))

/-- THE WINNER LIST'S WORD read unsigned: L k at a last writer, the dump slot 105625 + k % 128 elsewhere. -/
theorem idxm_word (ds : ScatterDims ⟨1, ![N]⟩ ⟨2, ![M, 1]⟩ ⟨1, ![M]⟩)
    (huw : ds.updateWindowDims = []) (hiw : ds.insertedWindowDims = [0])
    (hsd : ds.scatterDimsToOperandDims = [0]) (hivd : ds.indexVectorDim = 1)
    (dg : GatherDims ⟨1, ![N]⟩ ⟨2, ![M, 1]⟩ ⟨1, ![M]⟩)
    (hcoll : dg.collapsedSliceDims = [0]) (hob : dg.operandBatchingDims = [])
    (hsim : dg.startIndexMap = [0]) (hgivd : dg.indexVectorDim = 1)
    (z : BitVec 32) (idx : IVec ⟨2, ![M, 1]⟩ 32) (hM : M ≤ 2 ^ 31)
    (L : ℕ → ℕ) (hix : ∀ k : Fin M, (idx (ixP k)).toInt = (L k.val : ℤ)) (hL : ∀ k, k < M → L k < N)
    (k : Fin M) (lw : BitVec 32) (hlw : lw.toNat = L k.val) :
    (IsLast M L k.val →
      (Scalar.select (IntOp.cmpi .eq (Host.gather dg (Host.scatter ds (fun _ b => b) (fun _ => z) idx
        (iotaInDim (⟨1, ![M]⟩ : Shape) 32 0)) idx (Shape.Idx.ofFin k)) (BitVec.ofNat 32 k.val)) lw
        (IntOp.addi 105625#32 (IntOp.andi (BitVec.ofNat 32 k.val) 127#32))).toNat = L k.val) ∧
    (¬ IsLast M L k.val →
      (Scalar.select (IntOp.cmpi .eq (Host.gather dg (Host.scatter ds (fun _ b => b) (fun _ => z) idx
        (iotaInDim (⟨1, ![M]⟩ : Shape) 32 0)) idx (Shape.Idx.ofFin k)) (BitVec.ofNat 32 k.val)) lw
        (IntOp.addi 105625#32 (IntOp.andi (BitVec.ofNat 32 k.val) 127#32))).toNat = 105625 + k.val % 128) := by
  have hsel := winner_select ds huw hiw hsd hivd dg hcoll hob hsim hgivd z idx (by omega) L hix hL k lw
    (IntOp.addi 105625#32 (IntOp.andi (BitVec.ofNat 32 k.val) 127#32))
  constructor
  · intro hlast; rw [hsel.1 hlast, hlw]
  · intro hlast; rw [hsel.2 hlast]; exact dump_toNat k.val (by have := k.isLt; omega)

end Winner

/-! ## The kernel's winner list, as the host computes it -/

section Kernel

variable {M : ℕ}

/-- The index list's words as naturals (0 past the list's end). -/
def Lnat (a2 : IVec ⟨1, ![M]⟩ 32) (k : ℕ) : ℕ := if h : k < M then (a2 (Shape.Idx.ofFin ⟨k, h⟩)).toNat else 0

theorem Lnat_fin (a2 : IVec ⟨1, ![M]⟩ 32) (k : Fin M) : Lnat a2 k.val = (a2 (Shape.Idx.ofFin k)).toNat := by
  unfold Lnat; rw [dif_pos k.isLt]

/-- The normalised index list as a column: what both programs scatter at, and the kernel gathers at. -/
def idxCol (h₁ : (⟨1, ![M]⟩ : Shape).BroadcastsInDim ⟨2, ![M, 1]⟩ ![0])
    (hb : (⟨0, ![]⟩ : Shape).BroadcastsInDim ⟨1, ![M]⟩ ![]) (a2 : IVec ⟨1, ![M]⟩ 32) : IVec ⟨2, ![M, 1]⟩ 32 :=
  broadcastInDim ⟨2, ![M, 1]⟩ ![0] h₁
    (select (cmpi .slt a2 (broadcastInDim ⟨1, ![M]⟩ ![] hb (constantI ⟨0, ![]⟩ 32 0#32)))
      (addi a2 (broadcastInDim ⟨1, ![M]⟩ ![] hb (constantI ⟨0, ![]⟩ 32 105625#32))) a2)

/-- The kernel's winner list: the index word where the position's own number comes back from the scatter of
    the positions' numbers, the dump slot 105625 + (k &&& 127) elsewhere. -/
def idxmVec (ds : ScatterDims ⟨1, ![105625]⟩ ⟨2, ![M, 1]⟩ ⟨1, ![M]⟩)
    (dg : GatherDims ⟨1, ![105625]⟩ ⟨2, ![M, 1]⟩ ⟨1, ![M]⟩)
    (h₁ : (⟨1, ![M]⟩ : Shape).BroadcastsInDim ⟨2, ![M, 1]⟩ ![0])
    (hb : (⟨0, ![]⟩ : Shape).BroadcastsInDim ⟨1, ![M]⟩ ![])
    (hbN : (⟨0, ![]⟩ : Shape).BroadcastsInDim ⟨1, ![105625]⟩ ![])
    (a2 : IVec ⟨1, ![M]⟩ 32) : IVec ⟨1, ![M]⟩ 32 :=
  select
    (cmpi .eq
      (Host.gather dg
        (Host.scatter ds (fun _ b => b) (broadcastInDim ⟨1, ![105625]⟩ ![] hbN (constantI ⟨0, ![]⟩ 32 0#32))
          (idxCol h₁ hb a2) (iotaInDim ⟨1, ![M]⟩ 32 0))
        (idxCol h₁ hb a2))
      (iotaInDim ⟨1, ![M]⟩ 32 0))
    a2
    (addi (broadcastInDim ⟨1, ![M]⟩ ![] hb (constantI ⟨0, ![]⟩ 32 105625#32))
      (andi (iotaInDim ⟨1, ![M]⟩ 32 0) (broadcastInDim ⟨1, ![M]⟩ ![] hb (constantI ⟨0, ![]⟩ 32 127#32))))

variable (ds : ScatterDims ⟨1, ![105625]⟩ ⟨2, ![M, 1]⟩ ⟨1, ![M]⟩)
  (huw : ds.updateWindowDims = []) (hiw : ds.insertedWindowDims = [0])
  (hsd : ds.scatterDimsToOperandDims = [0]) (hivd : ds.indexVectorDim = 1)
  (dg : GatherDims ⟨1, ![105625]⟩ ⟨2, ![M, 1]⟩ ⟨1, ![M]⟩)
  (hcoll : dg.collapsedSliceDims = [0]) (hob : dg.operandBatchingDims = [])
  (hsim : dg.startIndexMap = [0]) (hgivd : dg.indexVectorDim = 1)
  (h₁ : (⟨1, ![M]⟩ : Shape).BroadcastsInDim ⟨2, ![M, 1]⟩ ![0])
  (hb : (⟨0, ![]⟩ : Shape).BroadcastsInDim ⟨1, ![M]⟩ ![])
  (hbN : (⟨0, ![]⟩ : Shape).BroadcastsInDim ⟨1, ![105625]⟩ ![])
  (h0 : 0 < (⟨0, ![]⟩ : Shape).numel)
  (a2 : IVec ⟨1, ![M]⟩ 32) (hrange : ∀ i, 0 ≤ (a2 i).toInt ∧ (a2 i).toInt ≤ 105624)

include h0 hrange in
/-- Row k of the column is the index word at k, as a natural. -/
theorem idxCol_toInt (k : Fin M) : (idxCol h₁ hb a2 (ixP k)).toInt = (Lnat a2 k.val : ℤ) := by
  rw [Lnat_fin]
  exact idx_col_toInt h₁ hb h0 a2 105625#32 k (hrange _).1

include hrange in
/-- Every index word, as a natural, is below 105625. -/
theorem Lnat_lt (k : ℕ) (hk : k < M) : Lnat a2 k < 105625 := by
  have h := hrange (Shape.Idx.ofFin ⟨k, hk⟩)
  have e := toInt_eq_toNat_of_nonneg _ h.1
  rw [show Lnat a2 k = Lnat a2 (⟨k, hk⟩ : Fin M).val from rfl, Lnat_fin]
  omega

include huw hiw hsd hivd hcoll hob hsim hgivd h0 hrange in
/-- THE KERNEL'S WINNER LIST at position k, read unsigned: the index word at a last writer, the dump slot
    105625 + k % 128 elsewhere. -/
theorem idxmVec_toNat (hM : M ≤ 2 ^ 31) (k : Fin M) :
    (IsLast M (Lnat a2) k.val → (idxmVec ds dg h₁ hb hbN a2 (Shape.Idx.ofFin k)).toNat = Lnat a2 k.val) ∧
    (¬ IsLast M (Lnat a2) k.val →
      (idxmVec ds dg h₁ hb hbN a2 (Shape.Idx.ofFin k)).toNat = 105625 + k.val % 128) := by
  have hw := idxm_word ds huw hiw hsd hivd dg hcoll hob hsim hgivd 0#32 (idxCol h₁ hb a2) hM (Lnat a2)
    (idxCol_toInt h₁ hb h0 a2 hrange) (Lnat_lt a2 hrange) k (a2 (Shape.Idx.ofFin k)) (Lnat_fin a2 k).symm
  have e : idxmVec ds dg h₁ hb hbN a2 (Shape.Idx.ofFin k)
      = Scalar.select (IntOp.cmpi .eq (Host.gather dg (Host.scatter ds (fun _ b => b) (fun _ => 0#32)
          (idxCol h₁ hb a2) (iotaInDim (⟨1, ![M]⟩ : Shape) 32 0)) (idxCol h₁ hb a2) (Shape.Idx.ofFin k))
          (BitVec.ofNat 32 k.val)) (a2 (Shape.Idx.ofFin k))
          (IntOp.addi 105625#32 (IntOp.andi (BitVec.ofNat 32 k.val) 127#32)) := by
    unfold idxmVec
    rw [bcast_scalar_fun hbN h0]
    simp only [select, cmpi, addi, andi, bcast_scalar hb h0, constantI, iota_apply]
  rw [e]
  exact hw

include huw hiw hsd hivd hcoll hob hsim hgivd h0 hrange in
/-- Every word of the winner list is below 105856. -/
theorem idxmVec_lt (hM : M ≤ 2 ^ 31) (k : Fin M) :
    (idxmVec ds dg h₁ hb hbN a2 (Shape.Idx.ofFin k)).toNat < 105856 := by
  have h := idxmVec_toNat ds huw hiw hsd hivd dg hcoll hob hsim hgivd h₁ hb hbN h0 a2 hrange hM k
  by_cases hl : IsLast M (Lnat a2) k.val
  · rw [h.1 hl]; have := Lnat_lt a2 hrange k.val k.isLt; omega
  · rw [h.2 hl]; omega

include huw hiw hsd hivd hcoll hob hsim hgivd h0 hrange in
/-- THE JOIN: the sequential fold over the kernel's winner list, read at a slot p < 105625, is the set-scatter
    of the same updates at the index column (any set-scatter record ds', any zero z). -/
theorem scatSeq_idxmVec_eq_scatter {α : Type} (hM : M ≤ 2 ^ 31)
    (ds' : ScatterDims ⟨1, ![105625]⟩ ⟨2, ![M, 1]⟩ ⟨1, ![M]⟩)
    (huw' : ds'.updateWindowDims = []) (hiw' : ds'.insertedWindowDims = [0])
    (hsd' : ds'.scatterDimsToOperandDims = [0]) (hivd' : ds'.indexVectorDim = 1)
    (z : α) (upd : (⟨1, ![M]⟩ : Shape).Idx → α) (ixw : ℕ → BitVec 32) (v : ℕ → α)
    (hixw : ∀ k : Fin M, ixw k.val = idxmVec ds dg h₁ hb hbN a2 (Shape.Idx.ofFin k))
    (hv : ∀ k : Fin M, upd (Shape.Idx.ofFin k) = v k.val) (p : Fin 105625) :
    scatSeq (fun k => (ixw k).toNat) v z M p.val
      = Host.scatter ds' (fun _ b => b) (fun _ => z) (idxCol h₁ hb a2) upd (Shape.Idx.ofFin p) := by
  refine scatSeq_idxm_eq_host_scatter ds' huw' hiw' hsd' hivd' z (idxCol h₁ hb a2) upd (Lnat a2)
    (fun k => (ixw k).toNat) v (idxCol_toInt h₁ hb h0 a2 hrange) hv (Lnat_lt a2 hrange) ?_ ?_ p
  · intro k hk hl
    have h := idxmVec_toNat ds huw hiw hsd hivd dg hcoll hob hsim hgivd h₁ hb hbN h0 a2 hrange hM ⟨k, hk⟩
    show (ixw k).toNat = _
    rw [show ixw k = ixw (⟨k, hk⟩ : Fin M).val from rfl, hixw]; exact h.1 hl
  · intro k hk hl
    have h := idxmVec_toNat ds huw hiw hsd hivd dg hcoll hob hsim hgivd h₁ hb hbN h0 a2 hrange hM ⟨k, hk⟩
    show 105625 ≤ (ixw k).toNat
    rw [show ixw k = ixw (⟨k, hk⟩ : Fin M).val from rfl, hixw, h.2 hl]; omega

end Kernel

end Cert.Proof.LibScat
-- ==== Proof.KI.Host.lean ====
/-
  The host side of the kernel program's @main. Its StableHLO operations between the launches are four straight lines
  (the lists of HostOps.lean); @main is those lines around its three launches; a reference a line does not write keeps
  its contents; and the buffers the launches read hold, after each line, the pure terms named here: the network's
  input (the transposed node features joined to the gathered embedding rows), the winner list, the reshaped weights
  and results.
-/
import proofs.«211384_g36696200577170_cont_8to1_b_1111_23_alg».proof.Proof.KI.HostOps
import proofs.«211384_g36696200577170_cont_8to1_b_1111_23_alg».proof.Proof.LibScatterIdx

noncomputable section

namespace Cert.Proof.KI.Host

open Cert.KernelIdeal Cert.KernelIdeal.Gen Idealize.ShloMosaic Idealize.SL.Sem Idealize.ShloMosaic.StableHlo

variable {F : FTy → Type} [FloatOps F]

/-! ## @main is the four lines around its three launches -/

-- some fifty binds re-associated: the rewrite under the chain recurses once per statement
set_option maxRecDepth 4096 in
theorem main_eq (d : Dev nD) : main (F := F) d =
    (seq ops1 >>= fun _ => Prog.lift (.customCall (SparseCore.inner (Pipeline.entry 0)) ()) >>= fun _ =>
      seq ops2 >>= fun _ => sc.run d 0 >>= fun _ =>
      seq ops3 >>= fun _ => Prog.lift (.customCall (SparseCore.inner (Pipeline.entry 1)) ()) >>= fun _ =>
      seq ops4) := by
  simp only [main, fn_where.body, seq, bind_assoc, pure_bind]

/-! ## A reference a line does not write keeps its contents -/

theorem after_ops1_keep (V : Valuation τ sig (Elt F)) {r : Ref sig .tc} (hr : r ∉ W1) :
    after ops1 V (Proc.devRef .tc r) = V (Proc.devRef .tc r) :=
  after_of_writes_sub ops1 V ops1_writes hr

theorem after_ops2_keep (V : Valuation τ sig (Elt F)) {r : Ref sig .tc} (hr : r ∉ W2) :
    after ops2 V (Proc.devRef .tc r) = V (Proc.devRef .tc r) :=
  after_of_writes_sub ops2 V ops2_writes hr

theorem after_ops3_keep (V : Valuation τ sig (Elt F)) {r : Ref sig .tc} (hr : r ∉ W3) :
    after ops3 V (Proc.devRef .tc r) = V (Proc.devRef .tc r) :=
  after_of_writes_sub ops3 V ops3_writes hr

theorem after_ops4_keep (V : Valuation τ sig (Elt F)) {r : Ref sig .tc} (hr : r ∉ W4) :
    after ops4 V (Proc.devRef .tc r) = V (Proc.devRef .tc r) :=
  after_of_writes_sub ops4 V ops4_writes hr

/-- @main's nineteen arguments. -/
abbrev args : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18]

/-- No line writes an argument. -/
theorem args_not_written : args.Forall fun r => r ∉ W1 ∧ r ∉ W2 ∧ r ∉ W3 ∧ r ∉ W4 := by decide

theorem after_ops1_arg (V : Valuation τ sig (Elt F)) {r : Ref sig .tc} (hr : r ∈ args) :
    after ops1 V (Proc.devRef .tc r) = V (Proc.devRef .tc r) :=
  after_ops1_keep V (List.forall_iff_forall_mem.mp args_not_written r hr).1
theorem after_ops2_arg (V : Valuation τ sig (Elt F)) {r : Ref sig .tc} (hr : r ∈ args) :
    after ops2 V (Proc.devRef .tc r) = V (Proc.devRef .tc r) :=
  after_ops2_keep V (List.forall_iff_forall_mem.mp args_not_written r hr).2.1
theorem after_ops3_arg (V : Valuation τ sig (Elt F)) {r : Ref sig .tc} (hr : r ∈ args) :
    after ops3 V (Proc.devRef .tc r) = V (Proc.devRef .tc r) :=
  after_ops3_keep V (List.forall_iff_forall_mem.mp args_not_written r hr).2.2.1
theorem after_ops4_arg (V : Valuation τ sig (Elt F)) {r : Ref sig .tc} (hr : r ∈ args) :
    after ops4 V (Proc.devRef .tc r) = V (Proc.devRef .tc r) :=
  after_ops4_keep V (List.forall_iff_forall_mem.mp args_not_written r hr).2.2.2

/-! ## What the launches' operands hold after each line -/

/-- The network's input as the host builds it: the node features with their last two axes exchanged, joined along
    the last axis to the embedding rows the (normalised) node numbers name, the same rows for each of the sixteen. -/
def x0 (a0 : (⟨S16x24x325, .f32⟩ : BufTy).Contents (Elt F)) (a3 : (⟨S325, .i32⟩ : BufTy).Contents (Elt F))
    (a4 : (⟨S325x16, .f32⟩ : BufTy).Contents (Elt F)) : (⟨S16x325x40, .f32⟩ : BufTy).Contents (Elt F) :=
  concatenate S16x325x40 2
    [⟨S16x325x24, transpose S16x325x24 [0, 2, 1] a0 transposes_S16x24x325_S16x325x24_0_2_1⟩,
     ⟨S16x325x16, broadcastInDim S16x325x16 ![0, 1, 2] bcast_S1x325x16_S16x325x16_0_1_2
        (broadcastInDim S1x325x16 ![1, 2] bcast_S325x16_S1x325x16_1_2
          (Host.gather gather_S325x16_S325x1_S325x16_1_0_n_n_0_1_116 a4
            (broadcastInDim S325x1 ![0] bcast_S325_S325x1_0
              (select (cmpi .slt a3 (broadcastInDim S325 ![] bcast_S_S325 (constantI S_ 32 0#32)))
                (addi a3 (broadcastInDim S325 ![] bcast_S_S325 (constantI S_ 32 325#32))) a3))))⟩]
    concatenates_S16x325x24_S16x325x16_S16x325x40_d2

attribute [local irreducible] Host.gather Host.scatter in
theorem after_ops1_v10 (V : Valuation τ sig (Elt F)) :
    after ops1 V (Proc.devRef .tc main_v10)
      = x0 (V (Proc.devRef .tc main_arg0)) (V (Proc.devRef .tc main_arg3)) (V (Proc.devRef .tc main_arg4)) := by
  after_results
  rfl

attribute [local irreducible] Host.gather Host.scatter in
set_option maxHeartbeats 1600000 in
set_option maxRecDepth 8192 in
/-- The winner list the SparseCore call scatters at. -/
theorem after_ops1_v32 (V : Valuation τ sig (Elt F)) :
    after ops1 V (Proc.devRef .tc main_v32)
      = Cert.Proof.LibScat.idxmVec scatter_S105625_S5200x1_S5200_n_0_0_1 gather_S105625_S5200x1_S5200_n_0_n_n_0_1_1
          bcast_S5200_S5200x1_0 bcast_S_S5200 bcast_S_S105625 (V (Proc.devRef .tc main_arg2)) := by
  after_results_simp
  rfl

theorem after_ops1_v33 (V : Valuation τ sig (Elt F)) :
    after ops1 V (Proc.devRef .tc main_v33)
      = shapeCast S40x1x256 (V (Proc.devRef .tc main_arg6)) shapeCasts_S40x256_S40x1x256 := by
  after_results
  rfl

theorem after_ops1_v34 (V : Valuation τ sig (Elt F)) :
    after ops1 V (Proc.devRef .tc main_v34)
      = shapeCast S40x1x256 (V (Proc.devRef .tc main_arg7)) shapeCasts_S40x256x1_S40x1x256 := by
  after_results
  rfl

theorem after_ops2_v36 (V : Valuation τ sig (Elt F)) :
    after ops2 V (Proc.devRef .tc main_v36)
      = shapeCast S40x5200 (V (Proc.devRef .tc main_v35)) shapeCasts_S40x325x16_S40x5200 := by
  after_results
  rfl

theorem after_ops3_v39 (V : Valuation τ sig (Elt F)) :
    after ops3 V (Proc.devRef .tc main_v39)
      = shapeCast S10x4x325x325
          (extractStridedSlice S40x105625 ![0, 0] (V (Proc.devRef .tc main_v37)) slices_S40x105856_S40x105625_0_0)
          shapeCasts_S40x105625_S10x4x325x325 := by
  after_results
  rfl

theorem after_ops3_v40 (V : Valuation τ sig (Elt F)) :
    after ops3 V (Proc.devRef .tc main_v40)
      = shapeCast S1x1 (V (Proc.devRef .tc main_arg18)) shapeCasts_S1_S1x1 := by
  after_results
  rfl

theorem after_ops4_v42 (V : Valuation τ sig (Elt F)) :
    after ops4 V (Proc.devRef .tc main_v42)
      = shapeCast S16x325 (V (Proc.devRef .tc main_v41)) shapeCasts_S16x325x1_S16x325 := by
  after_results
  rfl

end Cert.Proof.KI.Host

end
-- ==== Proof.KI.Common.lean ====
/-
  The kernel program as the SparseCore launch theorem sees it: its configuration, the body table of the two TensorCore
  pipelines beside the SparseCore kernel, and the resource algebra of the proof — the handshakes' rounds, the rounds of
  the pipelines' staging cells, and the counters of the vector subcores' own copies.
-/
import proofs.«211384_g36696200577170_cont_8to1_b_1111_23_alg».proof.Defs
import proofs.«211384_g36696200577170_cont_8to1_b_1111_23_alg».proof.Proof.Gen.KernelIdeal
import proofs.«211384_g36696200577170_cont_8to1_b_1111_23_alg».proof.Proof.Gen.KernelIdeal.Launch
import Idealize.ShloMosaic.Lib.SparseCore.Launch
import Idealize.ShloMosaic.Lib.SparseCore.Ops
import Idealize.ShloMosaic.Lib.Pipeline.Regions
import Idealize.ShloMosaic.Lib.StableHlo.Run
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' staging-cell rounds, and the transfers' counters
(the counters sit in the right factor, where the instance for local copies looks for them) -/

abbrev UH : Type := URounds (GSem nD τ sig) ℕ
abbrev UP : Type := URounds (GSem nD τ sig) Unit
abbrev UU : Type := UH × UP × Counters

abbrev MM : Type := MT nD τ sig (HIx 1) (Elt F) ℕ UU ℕ

/-- The handshakes' rounds: the left factor. -/
abbrev EH : Emb UH (MM (F := F)) := embL
/-- The pipelines' staging cells' rounds: the middle factor. -/
def EP : Emb UP (MM (F := F)) :=
  ((Emb.inl : Emb UP (UP × Counters)).trans (Emb.inr : Emb (UP × Counters) UU)).trans (uEmb (nD := nD) (sig := sig) (Ix := HIx 1) (Val := Elt F) (Name := ℕ) (U := UU) (Lvl := ℕ)).toEmb

instance EP_landsIn : (EP : Emb UP (MM (F := F))).LandsIn (upEmb : UEmb _ (MM (F := F))) := by unfold EP; infer_instance

end Cert.Proof.KI

end
-- ==== Proof.KI.Vals.lean ====
/-
  The contents of the TensorCore's unscoped buffers as @main goes: at launch, after each of its four host lines, and
  after each of its three launches, where the launch's one result buffer takes contents given from outside (what the
  first TensorCore launch, the SparseCore call and the second TensorCore launch leave). What the launches read there,
  as pure terms of the launch memory and of those three contents; and the final read of the result and the arguments.
-/
import proofs.«211384_g36696200577170_cont_8to1_b_1111_23_alg».proof.Proof.KI.Host
import proofs.«211384_g36696200577170_cont_8to1_b_1111_23_alg».proof.Proof.KI.Common
import Idealize.ShloMosaic.Lib.Pipeline.Frame
import Idealize.ShloMosaic.Lib.Pipeline.Launch

noncomputable section

namespace Cert.Proof.KI.Vals

open Cert.KernelIdeal Cert.KernelIdeal.Gen Cert.Proof.KI Cert.Proof.KI.Host

open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)
  (o35 : (d : Dev nD) → (Proc.devRef (τ := τ) .tc main_v35 : DevRef τ sig).ty.Contents (Elt F))
  (o37 : (d : Dev nD) → (Proc.devRef (τ := τ) .tc main_v37 : DevRef τ sig).ty.Contents (Elt F))
  (o41 : (d : Dev nD) → (Proc.devRef (τ := τ) .tc main_v41 : DevRef τ sig).ty.Contents (Elt F))

/-! ## The buffers' contents between items -/

/-- Device d's buffers at launch. -/
abbrev V0 (d : Dev nD) : Valuation τ sig (Elt F) := fun b => m (d, b)
/-- After the first host line. -/
abbrev V1 (d : Dev nD) : Valuation τ sig (Elt F) := after ops1 (V0 m d)
/-- After the first TensorCore launch, which leaves o35 in its result buffer. -/
abbrev V2 (d : Dev nD) : Valuation τ sig (Elt F) := Function.update (V1 m d) (Proc.devRef .tc main_v35) (o35 d)
/-- After the second host line. -/
abbrev V3 (d : Dev nD) : Valuation τ sig (Elt F) := after ops2 (V2 m o35 d)
/-- After the SparseCore call, which leaves o37 in its result buffer. -/
abbrev V4 (d : Dev nD) : Valuation τ sig (Elt F) := Function.update (V3 m o35 d) (Proc.devRef .tc main_v37) (o37 d)
/-- After the third host line. -/
abbrev V5 (d : Dev nD) : Valuation τ sig (Elt F) := after ops3 (V4 m o35 o37 d)
/-- After the second TensorCore launch, which leaves o41 in its result buffer. -/
abbrev V6 (d : Dev nD) : Valuation τ sig (Elt F) := Function.update (V5 m o35 o37 d) (Proc.devRef .tc main_v41) (o41 d)
/-- After the last host line. -/
abbrev V7 (d : Dev nD) : Valuation τ sig (Elt F) := after ops4 (V6 m o35 o37 o41 d)

/-! ## What each item leaves unchanged, and what each launch leaves -/

theorem V1_of (d : Dev nD) {r : Ref sig .tc} (h : r ∉ W1) : V1 m d (Proc.devRef .tc r) = V0 m d (Proc.devRef .tc r) :=
  after_ops1_keep _ h
theorem V2_of (d : Dev nD) {r : Ref sig .tc} (h : r ≠ main_v35) :
    V2 m o35 d (Proc.devRef .tc r) = V1 m d (Proc.devRef .tc r) :=
  Function.update_of_ne (devRef_ne_of_ne h) _ _
theorem V3_of (d : Dev nD) {r : Ref sig .tc} (h : r ∉ W2) :
    V3 m o35 d (Proc.devRef .tc r) = V2 m o35 d (Proc.devRef .tc r) :=
  after_ops2_keep _ h
theorem V4_of (d : Dev nD) {r : Ref sig .tc} (h : r ≠ main_v37) :
    V4 m o35 o37 d (Proc.devRef .tc r) = V3 m o35 d (Proc.devRef .tc r) :=
  Function.update_of_ne (devRef_ne_of_ne h) _ _
theorem V5_of (d : Dev nD) {r : Ref sig .tc} (h : r ∉ W3) :
    V5 m o35 o37 d (Proc.devRef .tc r) = V4 m o35 o37 d (Proc.devRef .tc r) :=
  after_ops3_keep _ h
theorem V6_of (d : Dev nD) {r : Ref sig .tc} (h : r ≠ main_v41) :
    V6 m o35 o37 o41 d (Proc.devRef .tc r) = V5 m o35 o37 d (Proc.devRef .tc r) :=
  Function.update_of_ne (devRef_ne_of_ne h) _ _
theorem V7_of (d : Dev nD) {r : Ref sig .tc} (h : r ∉ W4) :
    V7 m o35 o37 o41 d (Proc.devRef .tc r) = V6 m o35 o37 o41 d (Proc.devRef .tc r) :=
  after_ops4_keep _ h

theorem V2_v35 (d : Dev nD) : V2 m o35 d (Proc.devRef .tc main_v35) = o35 d := Function.update_self _ _ _
theorem V4_v37 (d : Dev nD) : V4 m o35 o37 d (Proc.devRef .tc main_v37) = o37 d := Function.update_self _ _ _
theorem V6_v41 (d : Dev nD) : V6 m o35 o37 o41 d (Proc.devRef .tc main_v41) = o41 d := Function.update_self _ _ _

/-! ## No item writes an argument -/

/-- No host line writes an argument, and no launch's result buffer is one. -/
theorem args_clean : args.Forall fun r =>
    r ∉ W1 ∧ r ∉ W2 ∧ r ∉ W3 ∧ r ∉ W4 ∧ r ≠ main_v35 ∧ r ≠ main_v37 ∧ r ≠ main_v41 := by decide

section Args

variable (d : Dev nD) {r : Ref sig .tc} (hr : r ∈ args)

include hr

theorem V0_arg : V0 m d (Proc.devRef .tc r) = m ((SparseCore.T d).loc r) := by
  have _ := hr; rfl
theorem V1_arg : V1 m d (Proc.devRef .tc r) = m ((SparseCore.T d).loc r) :=
  (V1_of m d (List.forall_iff_forall_mem.mp args_clean r hr).1).trans (V0_arg m d hr)
theorem V2_arg : V2 m o35 d (Proc.devRef .tc r) = m ((SparseCore.T d).loc r) :=
  (V2_of m o35 d (List.forall_iff_forall_mem.mp args_clean r hr).2.2.2.2.1).trans (V1_arg m d hr)
theorem V3_arg : V3 m o35 d (Proc.devRef .tc r) = m ((SparseCore.T d).loc r) :=
  (V3_of m o35 d (List.forall_iff_forall_mem.mp args_clean r hr).2.1).trans (V2_arg m o35 d hr)
theorem V4_arg : V4 m o35 o37 d (Proc.devRef .tc r) = m ((SparseCore.T d).loc r) :=
  (V4_of m o35 o37 d (List.forall_iff_forall_mem.mp args_clean r hr).2.2.2.2.2.1).trans (V3_arg m o35 d hr)
theorem V5_arg : V5 m o35 o37 d (Proc.devRef .tc r) = m ((SparseCore.T d).loc r) :=
  (V5_of m o35 o37 d (List.forall_iff_forall_mem.mp args_clean r hr).2.2.1).trans (V4_arg m o35 o37 d hr)
theorem V6_arg : V6 m o35 o37 o41 d (Proc.devRef .tc r) = m ((SparseCore.T d).loc r) :=
  (V6_of m o35 o37 o41 d (List.forall_iff_forall_mem.mp args_clean r hr).2.2.2.2.2.2).trans (V5_arg m o35 o37 d hr)
theorem V7_arg : V7 m o35 o37 o41 d (Proc.devRef .tc r) = m ((SparseCore.T d).loc r) :=
  (V7_of m o35 o37 o41 d (List.forall_iff_forall_mem.mp args_clean r hr).2.2.2.1).trans (V6_arg m o35 o37 o41 d hr)

end Args

/-! ## What the launches read -/

variable (d : Dev nD)

/-- The first TensorCore launch reads the two reshaped weights. -/
theorem V1_v33 : V1 m d (Proc.devRef .tc main_v33)
    = shapeCast S40x1x256 (m ((SparseCore.T d).loc main_arg6)) shapeCasts_S40x256_S40x1x256 :=
  after_ops1_v33 (V0 m d)
theorem V1_v34 : V1 m d (Proc.devRef .tc main_v34)
    = shapeCast S40x1x256 (m ((SparseCore.T d).loc main_arg7)) shapeCasts_S40x256x1_S40x1x256 :=
  after_ops1_v34 (V0 m d)

/-- The SparseCore call reads the first launch's result as rows … -/
theorem V3_v36 : V3 m o35 d (Proc.devRef .tc main_v36)
    = shapeCast S40x5200 (o35 d) shapeCasts_S40x325x16_S40x5200 :=
  (after_ops2_v36 (V2 m o35 d)).trans (by rw [V2_v35])
/-- … and the winner list … -/
theorem V3_v32 : V3 m o35 d (Proc.devRef .tc main_v32)
    = Cert.Proof.LibScat.idxmVec scatter_S105625_S5200x1_S5200_n_0_0_1 gather_S105625_S5200x1_S5200_n_0_n_n_0_1_1
        bcast_S5200_S5200x1_0 bcast_S_S5200 bcast_S_S105625 (m ((SparseCore.T d).loc main_arg2)) :=
  (V3_of m o35 d (by decide)).trans <| (V2_of m o35 d (by decide)).trans <| after_ops1_v32 (V0 m d)
/-- … and finds its result buffer as launched. -/
theorem V3_v37 : V3 m o35 d (Proc.devRef .tc main_v37) = V0 m d (Proc.devRef .tc main_v37) :=
  (V3_of m o35 d (by decide)).trans <| (V2_of m o35 d (by decide)).trans <| V1_of m d (by decide)

/-- The second TensorCore launch reads the network's input … -/
theorem V5_v10 : V5 m o35 o37 d (Proc.devRef .tc main_v10)
    = x0 (m ((SparseCore.T d).loc main_arg0)) (m ((SparseCore.T d).loc main_arg3)) (m ((SparseCore.T d).loc main_arg4)) :=
  (V5_of m o35 o37 d (by decide)).trans <| (V4_of m o35 o37 d (by decide)).trans <| (V3_of m o35 d (by decide)).trans <|
    (V2_of m o35 d (by decide)).trans <| after_ops1_v10 (V0 m d)
/-- … the SparseCore call's rows cut to their first 105625 places, as the layers' square matrices … -/
theorem V5_v39 : V5 m o35 o37 d (Proc.devRef .tc main_v39)
    = shapeCast S10x4x325x325
        (extractStridedSlice S40x105625 ![0, 0] (o37 d) slices_S40x105856_S40x105625_0_0)
        shapeCasts_S40x105625_S10x4x325x325 :=
  (after_ops3_v39 (V4 m o35 o37 d)).trans (by rw [V4_v37])
/-- … and the last bias as a 1 × 1 array. -/
theorem V5_v40 : V5 m o35 o37 d (Proc.devRef .tc main_v40)
    = shapeCast S1x1 (m ((SparseCore.T d).loc main_arg18)) shapeCasts_S1_S1x1 :=
  (after_ops3_v40 (V4 m o35 o37 d)).trans (by rw [V4_arg m o35 o37 d (r := main_arg18) (by decide)])

/-- The result: the second launch's, without its trailing axis. -/
theorem V7_v42 : V7 m o35 o37 o41 d (Proc.devRef .tc main_v42)
    = shapeCast S16x325 (o41 d) shapeCasts_S16x325x1_S16x325 :=
  (after_ops4_v42 (V6 m o35 o37 o41 d)).trans (by rw [V6_v41])

/-! ## The final read -/

/-- What the TensorCore of device d holds at the end: every unscoped buffer whole, at the last valuation. -/
def FIN (d : Dev nD) : sProp (MM (F := F)) :=
  StableHlo.held (SparseCore.T d) (Pipeline.ucRefs τ sig) (V7 m o35 o37 o41 d)

/-- What the final memory of device d says: the result buffer at the last valuation, every argument as launched. -/
def fq (d : Dev nD) (s' : Phys nD τ sig (Elt F)) : Prop :=
  s'.mem.mem ((SparseCore.T d).loc main_v42) = V7 m o35 o37 o41 d (Proc.devRef .tc main_v42)
    ∧ ∀ r ∈ args, s'.mem.mem ((SparseCore.T d).loc r) = m ((SparseCore.T d).loc r)

/-- Every argument, and the result, is an unscoped TensorCore buffer. -/
theorem args_unscoped : (main_v42 :: args).Forall fun r => ¬ (Proc.devRef (τ := τ) .tc r : DevRef τ sig).isScoped := by
  decide

theorem hfin (s' : Phys nD τ sig (Elt F)) :
    iprop(FIN m o35 o37 o41 d ∗ SI s') ⊢ (⌜fq m o35 o37 o41 d s'⌝ : sProp (MM (F := F))) := by
  unfold FIN StableHlo.held
  iintro ⟨Hh, HSI⟩
  ihave Hr := (pointsTo_read_all (Pipeline.ucRefs τ sig) (fun b => ((SparseCore.T d : Thread nD τ).1, b))
    (V7 m o35 o37 o41 d) s') $$ [Hh HSI]
  · isplitl [Hh] <;> iassumption
  icases Hr with ⟨%h, -⟩
  ipureintro
  have hmem : ∀ r ∈ main_v42 :: args, (Proc.devRef (τ := τ) .tc r : DevRef τ sig) ∈ Pipeline.ucRefs τ sig := fun r hr =>
    Finset.mem_filter.mpr ⟨devRef_mem_tcRefs r, List.forall_iff_forall_mem.mp args_unscoped r hr⟩
  exact ⟨h _ (hmem main_v42 List.mem_cons_self), fun r hr =>
    (h _ (hmem r (List.mem_cons_of_mem _ hr))).trans (V7_arg m o35 o37 o41 d hr)⟩

end Cert.Proof.KI.Vals

end
-- ==== Proof.KI.K1Pay.lean ====
/-
  What the SparseCore call's handshakes carry, and the value the call computes.

  The call scatters: for each of the 40 rows g, row g of the result starts as a row of zeros and receives, for
  k = 0, …, 5199 in this order, the write  row[ix k] := a[g, k]  (a later write to the same place wins). Vector
  subcore (c, s) — number w = 2 s + c among the 32 — computes rows w and, when w + 32 < 40, w + 32; every vector
  subcore reads the whole index array, so it is handed a read share of it, and rows of the two other arrays outright.
-/
import proofs.«211384_g36696200577170_cont_8to1_b_1111_23_alg».proof.Proof.KI.Common
import proofs.«211384_g36696200577170_cont_8to1_b_1111_23_alg».proof.Proof.K1Scat
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

open Cert.Proof.Scat

/-! ## The call's three arrays -/

abbrev aLoc (d : Dev nD) : Loc nD τ sig := (SparseCore.T d).loc main_v36
abbrev iLoc (d : Dev nD) : Loc nD τ sig := (SparseCore.T d).loc main_v32
abbrev oLoc (d : Dev nD) : Loc nD τ sig := (SparseCore.T d).loc main_v37

abbrev aV : Memref sig .scVector .hbm S40x5200 .f32 := Memref.whole main_v36_scv
abbrev iV : Memref sig .scVector .hbm S5200 .i32 := Memref.whole main_v32_scv
abbrev oV : Memref sig .scVector .hbm S40x105856 .f32 := Memref.whole main_v37_scv

/-- Indices of the three arrays from plain coordinates. -/
def ixI (k : Fin 5200) : S5200.Idx := fun | ⟨0, _⟩ => k
def ixA (g : Fin 40) (k : Fin 5200) : S40x5200.Idx :=
  fun | 0 => g | 1 => k | ⟨_ + 2, h⟩ => absurd h (Nat.not_lt.2 (Nat.le_add_left _ _))
def ixO (g : Fin 40) (p : Fin 105856) : S40x105856.Idx :=
  fun | 0 => g | 1 => p | ⟨_ + 2, h⟩ => absurd h (Nat.not_lt.2 (Nat.le_add_left _ _))

/-- The index array as a function of a natural number (0 beyond its end). -/
def ixN (ix : S5200.Idx → BitVec 32) (k : ℕ) : ℕ := if h : k < 5200 then (ix (ixI ⟨k, h⟩)).toNat else 0
/-- Row `g` of the value array as a function of a natural number (`z` beyond its end). -/
def rowN {X : Type} (z : X) (a : S40x5200.Idx → X) (g : Fin 40) (k : ℕ) : X := if h : k < 5200 then a (ixA g ⟨k, h⟩) else z

section

variable [FloatOps F]

/-- The zero the rows start from. -/
def zeroF : F .f32 := Scalar.ofBits .f32 0x00000000#32

/-- What the call leaves in the result array: row `g` is the sequential scatter of row `g` of `a` at `ix` over zeros. -/
def outVal (d : Dev nD) (a : Buf (Elt F) (aLoc d)) (ix : Buf (Elt F) (iLoc d)) : Buf (Elt F) (oLoc d) :=
  fun j => scatSeq (ixN ix) (rowN (zeroF (F := F)) a (j 0)) (zeroF (F := F)) 5200 (j 1).val

theorem outVal_apply (d : Dev nD) (a : Buf (Elt F) (aLoc d)) (ix : Buf (Elt F) (iLoc d)) (g : Fin 40) (p : Fin 105856) :
    outVal d a ix (ixO g p) = scatSeq (ixN ix) (rowN (zeroF (F := F)) a g) (zeroF (F := F)) 5200 p.val := rfl

end

/-! ## Rows -/

theorem aRow_inb (g : Fin 40) : ∀ a, (![g.val, 0] : Fin 2 → Nat) a + S1x5200.size a ≤ S40x5200.size a := by
  have := g.isLt
  intro a; fin_cases a <;> simp <;> omega
theorem oRow_inb (g : Fin 40) : ∀ a, (![g.val, 0] : Fin 2 → Nat) a + S1x105856.size a ≤ S40x105856.size a := by
  have := g.isLt
  intro a; fin_cases a <;> simp <;> omega

/-- Row `g` of the value array, of the result array. -/
abbrev aRowR (g : Fin 40) : Rect S40x5200 := Rect.unit (s := S40x5200) ![g.val, 0] S1x5200.size (aRow_inb g)
abbrev oRowR (g : Fin 40) : Rect S40x105856 := Rect.unit (s := S40x105856) ![g.val, 0] S1x105856.size (oRow_inb g)
abbrev aRowSet (g : Fin 40) : Finset S40x5200.Idx := ((aV : Memref sig .scVector .hbm S40x5200 .f32).view.slice (aRowR g)).set
abbrev oRowSet (g : Fin 40) : Finset S40x105856.Idx := ((oV : Memref sig .scVector .hbm S40x105856 .f32).view.slice (oRowR g)).set

/-! ## What a vector subcore is handed -/

/-- The number of vector subcore `(c, s)` among the 32: its first row. -/
def wid (c : Fin 2) (s : Fin 16) : Fin 32 := ⟨2 * s.val + c.val, by omega⟩
def row0 (c : Fin 2) (s : Fin 16) : Fin 40 := ⟨2 * s.val + c.val, by omega⟩

/-- Row `g` of the value array and of the result array, outright. -/
def rowPts (d : Dev nD) (a : Buf (Elt F) (aLoc d)) (o : Buf (Elt F) (oLoc d)) (g : Fin 40) : sProp (MM (F := F)) :=
  iprop((aLoc d ↦[aRowSet g]{fullShare} a) ∗ (oLoc d ↦[oRowSet g]{fullShare} o))

/-- Vector subcore `(c, s)`'s part: a read share of the index array whole, its first row of the other two, and its
    second row when it has one. With the result array's contents `o` those before the call it is what the subcore
    takes; with `o` the value it is what it gives back. -/
def tilePts (d : Dev nD) (a : Buf (Elt F) (aLoc d)) (ix : Buf (Elt F) (iLoc d)) (o : Buf (Elt F) (oLoc d)) (c : Fin 2) (s : Fin 16) :
    sProp (MM (F := F)) :=
  iprop((iLoc d ↦{Transfers.shareTok fullShare 32 (wid c s)} ix) ∗ rowPts d a o (row0 c s)
    ∗ (if h : 2 * s.val + c.val + 32 < 40 then rowPts d a o ⟨2 * s.val + c.val + 32, h⟩ else iprop(emp)))

instance tilePts_storable (d : Dev nD) (a : Buf (Elt F) (aLoc d)) (ix : Buf (Elt F) (iLoc d)) (o : Buf (Elt F) (oLoc d)) (c : Fin 2) (s : Fin 16) :
    BI.Storable (upEmb : UEmb _ (MM (F := F))) (tilePts d a ix o c s) := by
  unfold tilePts rowPts; split <;> infer_instance

/-- What is left of the index array's share once the 32 read shares are dealt: it stays with SparseCore 0. -/
def ixRest (d : Dev nD) (ix : Buf (Elt F) (iLoc d)) (c : Fin 2) : sProp (MM (F := F)) :=
  if c.val = 0 then iprop(iLoc d ↦{Transfers.shareDrop fullShare 32} ix) else iprop(emp)

instance ixRest_storable (d : Dev nD) (ix : Buf (Elt F) (iLoc d)) (c : Fin 2) : BI.Storable (upEmb : UEmb _ (MM (F := F))) (ixRest d ix c) := by
  unfold ixRest; split <;> infer_instance

theorem nCore_zero : (K (F := F)).nCore 0 = 2 := rfl
theorem nSub_zero : (K (F := F)).nSub 0 = 16 := rfl

/-- A SparseCore's part: its sixteen vector subcores' and, on SparseCore 0, the rest of the index array's share. -/
def corePts (d : Dev nD) (a : Buf (Elt F) (aLoc d)) (ix : Buf (Elt F) (iLoc d)) (o : Buf (Elt F) (oLoc d)) (c : Fin 2) : sProp (MM (F := F)) :=
  iprop((bigSep Finset.univ fun s : Fin 16 => tilePts d a ix o c s) ∗ ixRest d ix c)

instance corePts_storable (d : Dev nD) (a : Buf (Elt F) (aLoc d)) (ix : Buf (Elt F) (iLoc d)) (o : Buf (Elt F) (oLoc d)) (c : Fin 2) :
    BI.Storable (upEmb : UEmb _ (MM (F := F))) (corePts d a ix o c) := by
  unfold corePts; infer_instance

variable [FloatOps F]

/-- The one call: the three arrays at `a36`, `i32`, `o37` go out split by SparseCore and vector subcore, and come back with the
    result array at the value. -/
def P (a36 : (d : Dev nD) → Buf (Elt F) (aLoc d)) (i32 : (d : Dev nD) → Buf (Elt F) (iLoc d))
    (o37 : (d : Dev nD) → Buf (Elt F) (oLoc d)) : (K (F := F)).Pay (nD := nD) (Val := Elt F) (Name := ℕ) (U := UU) where
  st := fun q d c => match q with | 0 => corePts d (a36 d) (i32 d) (o37 d) (Fin.cast nCore_zero c)
  dn := fun q d c => match q with | 0 => corePts d (a36 d) (i32 d) (outVal d (a36 d) (i32 d)) (Fin.cast nCore_zero c)
  go := fun q d c i => match q with | 0 => tilePts d (a36 d) (i32 d) (o37 d) (Fin.cast nCore_zero c) (Fin.cast nSub_zero i)
  td := fun q d c i => match q with | 0 => tilePts d (a36 d) (i32 d) (outVal d (a36 d) (i32 d)) (Fin.cast nCore_zero c) (Fin.cast nSub_zero i)
  x := fun _ _ => iprop(emp)

instance P_storable (a36 : (d : Dev nD) → Buf (Elt F) (aLoc d)) (i32 : (d : Dev nD) → Buf (Elt F) (iLoc d))
    (o37 : (d : Dev nD) → Buf (Elt F) (oLoc d)) : (P (F := F) a36 i32 o37).IsStorable where
  st q d c := match q with | 0 => (inferInstance : BI.Storable (upEmb : UEmb _ (MM (F := F))) (corePts d (a36 d) (i32 d) (o37 d) (Fin.cast nCore_zero c)))
  dn q d c := match q with | 0 => (inferInstance : BI.Storable (upEmb : UEmb _ (MM (F := F))) (corePts d (a36 d) (i32 d) (outVal d (a36 d) (i32 d)) (Fin.cast nCore_zero c)))
  go q d c i := match q with | 0 => (inferInstance : BI.Storable (upEmb : UEmb _ (MM (F := F))) (tilePts d (a36 d) (i32 d) (o37 d) (Fin.cast nCore_zero c) (Fin.cast nSub_zero i)))
  td q d c i := match q with | 0 => (inferInstance : BI.Storable (upEmb : UEmb _ (MM (F := F))) (tilePts d (a36 d) (i32 d) (outVal d (a36 d) (i32 d)) (Fin.cast nCore_zero c) (Fin.cast nSub_zero i)))

omit [FloatOps F] in
theorem bigSep_tasks (Φ : Fin 16 → sProp (MM (F := F))) :
    (bigSep Finset.univ fun i : Fin ((K (F := F)).nSub 0) => Φ (Fin.cast nSub_zero i)) = bigSep Finset.univ Φ :=
  bigSep_congr fun _ _ => congrArg Φ (Fin.ext rfl)

/-- The call's operands split among a SparseCore's vector subcores, and its results gather from theirs: by definition. -/
theorem vecSplit (a36 : (d : Dev nD) → Buf (Elt F) (aLoc d)) (i32 : (d : Dev nD) → Buf (Elt F) (iLoc d))
    (o37 : (d : Dev nD) → Buf (Elt F) (oLoc d)) : (K (F := F)).VecSplit' (P a36 i32 o37) 0 := by
  intro d c
  show corePts d (a36 d) (i32 d) (o37 d) (Fin.cast nCore_zero c) ⊢ |={Set.univ}=> iprop(
      (bigSep Finset.univ fun i : Fin ((K (F := F)).nSub 0) => tilePts d (a36 d) (i32 d) (o37 d) (Fin.cast nCore_zero c) (Fin.cast nSub_zero i))
      ∗ ((bigSep Finset.univ fun i : Fin ((K (F := F)).nSub 0) =>
            tilePts d (a36 d) (i32 d) (outVal d (a36 d) (i32 d)) (Fin.cast nCore_zero c) (Fin.cast nSub_zero i))
          -∗ corePts d (a36 d) (i32 d) (outVal d (a36 d) (i32 d)) (Fin.cast nCore_zero c)))
  rw [bigSep_tasks (F := F) (fun i => tilePts d (a36 d) (i32 d) (o37 d) (Fin.cast nCore_zero c) i),
    bigSep_tasks (F := F) (fun i => tilePts d (a36 d) (i32 d) (outVal d (a36 d) (i32 d)) (Fin.cast nCore_zero c) i)]
  unfold corePts
  iintro ⟨Hgo, Hrest⟩
  imodintro
  isplitl [Hgo]; · iexact Hgo
  iintro Htd
  isplitl [Htd]; · iexact Htd
  iexact Hrest

end Cert.Proof.KI

end
-- ==== Proof.RefValTerm.lean ====
/-
  The reference's result as ONE composed term of the pure operations, block by block, for every float instance:
  the node features (transpose, embedding gather, concatenate), the 40 sparse operators (two dense layers, a row
  softmax over 16, a scatter into 325 × 325), the 10 graph-convolution layers (four operator applications summed,
  bias, batch normalisation over the batch and node axes, relu) and the two dense layers at the end.
  Each definition applies the operations of @main in @main's order, so the term of the run is these definitions
  unfolded.
-/
import proofs.«211384_g36696200577170_cont_8to1_b_1111_23_alg».proof.ReferenceIdeal

noncomputable section

namespace Cert.Proof.RefVal

open Idealize.ShloMosaic Cert.ReferenceIdeal
open Cert.ReferenceIdeal.Facts₀ Cert.ReferenceIdeal.Facts

variable (F : FTy → Type) [FloatOps F]

/-- A float array of shape s. -/
abbrev Tf (s : Shape) : Type := (⟨s, .f32⟩ : BufTy).Contents (Elt F)
/-- A 32-bit integer array of shape s. -/
abbrev Ti (s : Shape) : Type := (⟨s, .i32⟩ : BufTy).Contents (Elt F)

variable {F} [Cert.ReferenceIdeal.Facts]

/-! ## Slices of the stacked parameters -/

theorem sl_W1 (s : Fin 40) : S40x5x256.Slices ![s.val, 0, 0] S1x5x256 :=
  ⟨rfl, fun a => by have := s.isLt; fin_cases a <;> simp [Shape.size] <;> omega⟩
theorem sl_b1 (s : Fin 40) : S40x256.Slices ![s.val, 0] S1x256 :=
  ⟨rfl, fun a => by have := s.isLt; fin_cases a <;> simp [Shape.size] <;> omega⟩
theorem sl_W2 (s : Fin 40) : S40x256x1.Slices ![s.val, 0, 0] S1x256x1 :=
  ⟨rfl, fun a => by have := s.isLt; fin_cases a <;> simp [Shape.size] <;> omega⟩
theorem sl_b2 (s : Fin 40) : S40x1.Slices ![s.val, 0] S1x1 :=
  ⟨rfl, fun a => by have := s.isLt; fin_cases a <;> simp [Shape.size] <;> omega⟩
theorem sl_W0 (j : Fin 4) : S4x160x64.Slices ![j.val, 0, 0] S1x160x64 :=
  ⟨rfl, fun a => by have := j.isLt; fin_cases a <;> simp [Shape.size] <;> omega⟩
theorem sl_Wr (i : Fin 9) : S9x4x64x64.Slices ![i.val, 0, 0, 0] S1x4x64x64 :=
  ⟨rfl, fun a => by have := i.isLt; fin_cases a <;> simp [Shape.size] <;> omega⟩
theorem sl_Wrj (j : Fin 4) : S4x64x64.Slices ![j.val, 0, 0] S1x64x64 :=
  ⟨rfl, fun a => by have := j.isLt; fin_cases a <;> simp [Shape.size] <;> omega⟩
theorem sl_br (i : Fin 9) : S9x64.Slices ![i.val, 0] S1x64 :=
  ⟨rfl, fun a => by have := i.isLt; fin_cases a <;> simp [Shape.size] <;> omega⟩
theorem sl_bn (i : Fin 10) : S10x64.Slices ![i.val, 0] S1x64 :=
  ⟨rfl, fun a => by have := i.isLt; fin_cases a <;> simp [Shape.size] <;> omega⟩

/-- L_W1[s] -/
def W1at (W1 : Tf F S40x5x256) (s : Fin 40) : Tf F S5x256 :=
  shapeCast S5x256 (extractStridedSlice S1x5x256 ![s.val, 0, 0] W1 (sl_W1 s)) shapeCasts_S1x5x256_S5x256
/-- L_b1[s] -/
def b1at (b1 : Tf F S40x256) (s : Fin 40) : Tf F S256 :=
  shapeCast S256 (extractStridedSlice S1x256 ![s.val, 0] b1 (sl_b1 s)) shapeCasts_S1x256_S256
/-- L_W2[s] -/
def W2at (W2 : Tf F S40x256x1) (s : Fin 40) : Tf F S256x1 :=
  shapeCast S256x1 (extractStridedSlice S1x256x1 ![s.val, 0, 0] W2 (sl_W2 s)) shapeCasts_S1x256x1_S256x1
/-- L_b2[s] -/
def b2at (b2 : Tf F S40x1) (s : Fin 40) : Tf F S1 :=
  shapeCast S1 (extractStridedSlice S1x1 ![s.val, 0] b2 (sl_b2 s)) shapeCasts_S1x1_S1
/-- W0[j] -/
def W0at (W0 : Tf F S4x160x64) (j : Fin 4) : Tf F S160x64 :=
  shapeCast S160x64 (extractStridedSlice S1x160x64 ![j.val, 0, 0] W0 (sl_W0 j)) shapeCasts_S1x160x64_S160x64
/-- Wrest[i] -/
def Wrat (Wr : Tf F S9x4x64x64) (i : Fin 9) : Tf F S4x64x64 :=
  shapeCast S4x64x64 (extractStridedSlice S1x4x64x64 ![i.val, 0, 0, 0] Wr (sl_Wr i)) shapeCasts_S1x4x64x64_S4x64x64
/-- Wrest[i][j] -/
def Wrjat (Wi : Tf F S4x64x64) (j : Fin 4) : Tf F S64x64 :=
  shapeCast S64x64 (extractStridedSlice S1x64x64 ![j.val, 0, 0] Wi (sl_Wrj j)) shapeCasts_S1x64x64_S64x64
/-- brest[i] -/
def brat (br : Tf F S9x64) (i : Fin 9) : Tf F S64 :=
  shapeCast S64 (extractStridedSlice S1x64 ![i.val, 0] br (sl_br i)) shapeCasts_S1x64_S64
/-- bn_gamma[i], bn_beta[i] -/
def bnat (g : Tf F S10x64) (i : Fin 10) : Tf F S64 :=
  shapeCast S64 (extractStridedSlice S1x64 ![i.val, 0] g (sl_bn i)) shapeCasts_S1x64_S64

/-! ## The node features -/

/-- node2vec[idx], with jnp's wrap of a negative index, on every batch row. -/
def embT (idx : Ti F S325) (n2v : Tf F S325x16) : Tf F S16x325x16 :=
  broadcastInDim S16x325x16 ![0, 1, 2] bcast_S1x325x16_S16x325x16_0_1_2
    (broadcastInDim S1x325x16 ![1, 2] bcast_S325x16_S1x325x16_1_2
      (Host.gather gather_S325x16_S325x1_S325x16_1_0_n_n_0_1_116 n2v
        (broadcastInDim S325x1 ![0] bcast_S325_S325x1_0
          (select (cmpi .slt idx (broadcastInDim S325 ![] bcast_S_S325 (constantI S_ 32 0#32)))
            (addi idx (broadcastInDim S325 ![] bcast_S_S325 (constantI S_ 32 325#32))) idx))))

/-- concat(transpose x, node2vec[idx]) : [16, 325, 40]. -/
def x0T (x : Tf F S16x24x325) (idx : Ti F S325) (n2v : Tf F S325x16) : Tf F S16x325x40 :=
  concatenate S16x325x40 2
    [⟨S16x325x24, transpose S16x325x24 [0, 2, 1] x transposes_S16x24x325_S16x325x24_0_2_1⟩, ⟨S16x325x16, embT idx n2v⟩]
    concatenates_S16x325x24_S16x325x16_S16x325x40_d2

/-- Four copies along the feature axis : [16, 325, 160]. -/
def xcatT (x0 : Tf F S16x325x40) : Tf F S16x325x160 :=
  concatenate S16x325x160 2 [⟨S16x325x40, x0⟩, ⟨S16x325x40, x0⟩, ⟨S16x325x40, x0⟩, ⟨S16x325x40, x0⟩]
    concatenates_S16x325x40_S16x325x40_S16x325x40_S16x325x40_S16x325x160_d2

/-! ## One sparse operator -/

/-- tanh(maps · W1 + b1) : [5200, 256]. -/
def hT (maps : Tf F S5200x5) (W1 : Tf F S5x256) (b1 : Tf F S256) : Tf F S5200x256 :=
  Host.tanh (addf (Host.dotGeneral dot_S5200x5_S5x256_S5200x256_1_0_0_1_n_n none maps W1)
    (broadcastInDim S5200x256 ![0, 1] bcast_S1x256_S5200x256_0_1 (broadcastInDim S1x256 ![1] bcast_S256_S1x256_1 b1)))

/-- (h · W2 + b2) as [325, 16]. -/
def cT (h : Tf F S5200x256) (W2 : Tf F S256x1) (b2 : Tf F S1) : Tf F S325x16 :=
  shapeCast S325x16 (addf (Host.dotGeneral dot_S5200x256_S256x1_S5200x1_1_0_0_1_n_n none h W2)
    (broadcastInDim S5200x1 ![0, 1] bcast_S1x1_S5200x1_0_1 (broadcastInDim S1x1 ![1] bcast_S1_S1x1_1 b2))) shapeCasts_S5200x1_S325x16

/-- exp(c − rowmax c). -/
def eT (c : Tf F S325x16) : Tf F S325x16 :=
  Host.exp (subf c (broadcastInDim S325x16 ![0, 1] bcast_S325x1_S325x16_0_1 (broadcastInDim S325x1 ![0] bcast_S325_S325x1_0
    (maximumf (broadcastInDim S325 ![] bcast_S_S325 (constant S_ .f32 0xFF800000#32))
      (Host.reduce FloatOps.maximumf c (constant S_ .f32 0xFF800000#32) reducesTo_S325x16_S325_d1 h_S_)))))

/-- e / rowsum e, flattened to [5200]. -/
def aT (e : Tf F S325x16) : Tf F S5200 :=
  shapeCast S5200 (Host.divf e (broadcastInDim S325x16 ![0, 1] bcast_S325x1_S325x16_0_1 (broadcastInDim S325x1 ![0] bcast_S325_S325x1_0
    (Host.reduceAdd e (constant S_ .f32 0x00000000#32) reducesTo_S325x16_S325_d1 h_S_)))) shapeCasts_S325x16_S5200

/-- The scatter positions: L_idx with jnp's wrap of a negative index, as a [5200, 1] index array. -/
def lidxT (Lidx : Ti F S5200) : Ti F S5200x1 :=
  broadcastInDim S5200x1 ![0] bcast_S5200_S5200x1_0
    (select (cmpi .slt Lidx (broadcastInDim S5200 ![] bcast_S_S5200 (constantI S_ 32 0#32)))
      (addi Lidx (broadcastInDim S5200 ![] bcast_S_S5200 (constantI S_ 32 105625#32))) Lidx)

/-- zeros[105625].at[L_idx].set(a), as [325, 325]. -/
def LT (a : Tf F S5200) (Lidx : Ti F S5200) : Tf F S325x325 :=
  shapeCast S325x325 (Host.scatter scatter_S105625_S5200x1_S5200_n_0_0_1 (fun _ b => b)
    (broadcastInDim S105625 ![] bcast_S_S105625 (constant S_ .f32 0x00000000#32)) (lidxT Lidx) a) shapeCasts_S105625_S325x325

/-- build_L over its sliced parameters. -/
def buildLT (maps : Tf F S5200x5) (W1 : Tf F S5x256) (b1 : Tf F S256) (W2 : Tf F S256x1) (b2 : Tf F S1) (Lidx : Ti F S5200) :
    Tf F S325x325 :=
  LT (aT (eT (cT (hT maps W1 b1) W2 b2))) Lidx

/-! ## One layer -/

/-- (L · x) · W for the first layer (160 features in). -/
def convT0 (x : Tf F S16x325x160) (L : Tf F S325x325) (W : Tf F S160x64) : Tf F S16x325x64 :=
  Host.dotGeneral dot_S16x325x160_S160x64_S16x325x64_2_0_01_1_n_n none
    (transpose S16x325x160 [0, 2, 1] (Host.dotGeneral dot_S16x325x160_S325x325_S16x160x325_1_1_02_0_n_n none x L)
      transposes_S16x160x325_S16x325x160_0_2_1) W

/-- (L · x) · W for the later layers (64 features in). -/
def convTR (x : Tf F S16x325x64) (L : Tf F S325x325) (W : Tf F S64x64) : Tf F S16x325x64 :=
  Host.dotGeneral dot_S16x325x64_S64x64_S16x325x64_2_0_01_1_n_n none
    (transpose S16x325x64 [0, 2, 1] (Host.dotGeneral dot_S16x325x64_S325x325_S16x64x325_1_1_02_0_n_n none x L)
      transposes_S16x64x325_S16x325x64_0_2_1) W

/-- A per-feature vector on every (batch, node). -/
def b3 (v : Tf F S64) : Tf F S16x325x64 :=
  broadcastInDim S16x325x64 ![0, 1, 2] bcast_S1x1x64_S16x325x64_0_1_2 (broadcastInDim S1x1x64 ![2] bcast_S64_S1x1x64_2 v)

/-- zeros + c0 + c1 + c2 + c3 + b. -/
def sum4T (c0 c1 c2 c3 : Tf F S16x325x64) (b : Tf F S64) : Tf F S16x325x64 :=
  addf (addf (addf (addf (addf (broadcastInDim S16x325x64 ![] bcast_S_S16x325x64 (constant S_ .f32 0x00000000#32)) c0) c1) c2) c3) (b3 b)

/-- y.mean(axis=(0,1)). -/
def meanT (y : Tf F S16x325x64) : Tf F S64 :=
  Host.divf (Host.reduceAdd y (constant S_ .f32 0x00000000#32) reducesTo_S16x325x64_S64_d0_1 h_S_)
    (broadcastInDim S64 ![] bcast_S_S64 (constant S_ .f32 0x45A28000#32))

/-- The centred squares inside jnp.var. -/
def sqT (y : Tf F S16x325x64) : Tf F S16x325x64 :=
  mulf
    (subf y (broadcastInDim S16x325x64 ![0, 1, 2] bcast_S1x1x64_S16x325x64_0_1_2
      (Host.divf (broadcastInDim S1x1x64 ![2] bcast_S64_S1x1x64_2 (Host.reduceAdd y (constant S_ .f32 0x00000000#32) reducesTo_S16x325x64_S64_d0_1 h_S_))
        (broadcastInDim S1x1x64 ![] bcast_S_S1x1x64 (constant S_ .f32 0x45A28000#32)))))
    (subf y (broadcastInDim S16x325x64 ![0, 1, 2] bcast_S1x1x64_S16x325x64_0_1_2
      (Host.divf (broadcastInDim S1x1x64 ![2] bcast_S64_S1x1x64_2 (Host.reduceAdd y (constant S_ .f32 0x00000000#32) reducesTo_S16x325x64_S64_d0_1 h_S_))
        (broadcastInDim S1x1x64 ![] bcast_S_S1x1x64 (constant S_ .f32 0x45A28000#32)))))

/-- jnp.var's normaliser N − ddof at ddof = 0. -/
def nT : (⟨S_, .f32⟩ : BufTy).Contents (Elt F) :=
  subf (constant S_ .f32 0x45A28000#32) (sitofp .f32 (constantI S_ 32 0#32))

/-- y.var(axis=(0,1)), with jnp's guard on the normaliser. -/
def varT (y : Tf F S16x325x64) : Tf F S64 :=
  select (broadcastInDim S64 ![] bcast_S_S64 (cmpf .ogt (nT (F := F)) (constant S_ .f32 0x00000000#32)))
    (Host.divf (Host.reduceAdd (sqT y) (constant S_ .f32 0x00000000#32) reducesTo_S16x325x64_S64_d0_1 h_S_)
      (broadcastInDim S64 ![] bcast_S_S64 (nT (F := F))))
    (broadcastInDim S64 ![] bcast_S_S64 (id (constant S_ .f32 0x7FC00000#32)))

/-- relu((y − mean) / sqrt(var + ε) · γ + β). -/
def bnT (y : Tf F S16x325x64) (g be : Tf F S64) : Tf F S16x325x64 :=
  maximumf
    (addf (mulf (Host.divf (subf y (b3 (meanT y)))
        (b3 (Host.sqrt (addf (varT y) (broadcastInDim S64 ![] bcast_S_S64 (constant S_ .f32 0x3727C5AC#32))))))
      (b3 g)) (b3 be))
    (broadcastInDim S16x325x64 ![] bcast_S_S16x325x64 (constant S_ .f32 0x00000000#32))

/-- The first layer. -/
def layer0T (x : Tf F S16x325x160) (L0 L1 L2 L3 : Tf F S325x325) (W : Tf F S4x160x64) (b g be : Tf F S64) : Tf F S16x325x64 :=
  bnT (sum4T (convT0 x L0 (W0at W 0)) (convT0 x L1 (W0at W 1)) (convT0 x L2 (W0at W 2)) (convT0 x L3 (W0at W 3)) b) g be

/-- A later layer. -/
def layerRT (x : Tf F S16x325x64) (L0 L1 L2 L3 : Tf F S325x325) (W : Tf F S4x64x64) (b g be : Tf F S64) : Tf F S16x325x64 :=
  bnT (sum4T (convTR x L0 (Wrjat W 0)) (convTR x L1 (Wrjat W 1)) (convTR x L2 (Wrjat W 2)) (convTR x L3 (Wrjat W 3)) b) g be

/-! ## The two dense layers at the end -/

def headT (x : Tf F S16x325x64) (fc1W : Tf F S64x512) (fc1b : Tf F S512) (fc2W : Tf F S512x1) (fc2b : Tf F S1) : Tf F S16x325 :=
  shapeCast S16x325
    (addf (Host.dotGeneral dot_S5200x512_S512x1_S5200x1_1_0_0_1_n_n none
        (maximumf
          (addf (Host.dotGeneral dot_S5200x64_S64x512_S5200x512_1_0_0_1_n_n none (shapeCast S5200x64 x shapeCasts_S16x325x64_S5200x64) fc1W)
            (broadcastInDim S5200x512 ![0, 1] bcast_S1x512_S5200x512_0_1 (broadcastInDim S1x512 ![1] bcast_S512_S1x512_1 fc1b)))
          (broadcastInDim S5200x512 ![] bcast_S_S5200x512 (constant S_ .f32 0x00000000#32)))
        fc2W)
      (broadcastInDim S5200x1 ![0, 1] bcast_S1x1_S5200x1_0_1 (broadcastInDim S1x1 ![1] bcast_S1_S1x1_1 fc2b)))
    shapeCasts_S5200x1_S16x325

/-! ## The whole reference -/

/-- The 19 argument arrays. -/
structure Args (F : FTy → Type) [FloatOps F] where
  x : Tf F S16x24x325
  maps : Tf F S5200x5
  Lidx : Ti F S5200
  idx : Ti F S325
  n2v : Tf F S325x16
  LW1 : Tf F S40x5x256
  Lb1 : Tf F S40x256
  LW2 : Tf F S40x256x1
  Lb2 : Tf F S40x1
  W0 : Tf F S4x160x64
  b0 : Tf F S64
  Wrest : Tf F S9x4x64x64
  brest : Tf F S9x64
  gamma : Tf F S10x64
  beta : Tf F S10x64
  fc1W : Tf F S64x512
  fc1b : Tf F S512
  fc2W : Tf F S512x1
  fc2b : Tf F S1

/-- build_L(s). -/
def LsT (A : Args F) (s : Fin 40) : Tf F S325x325 :=
  buildLT A.maps (W1at A.LW1 s) (b1at A.Lb1 s) (W2at A.LW2 s) (b2at A.Lb2 s) A.Lidx

/-- The activations after layer i (0-based), i < 10. -/
def actT (A : Args F) : (i : Nat) → i < 10 → Tf F S16x325x64
  | 0, _ => layer0T (xcatT (x0T A.x A.idx A.n2v)) (LsT A 0) (LsT A 1) (LsT A 2) (LsT A 3) A.W0 A.b0 (bnat A.gamma 0) (bnat A.beta 0)
  | i + 1, h =>
      layerRT (actT A i (by omega))
        (LsT A ⟨4 * (i + 1), by omega⟩) (LsT A ⟨4 * (i + 1) + 1, by omega⟩) (LsT A ⟨4 * (i + 1) + 2, by omega⟩) (LsT A ⟨4 * (i + 1) + 3, by omega⟩)
        (Wrat A.Wrest ⟨i, by omega⟩) (brat A.brest ⟨i, by omega⟩) (bnat A.gamma ⟨i + 1, h⟩) (bnat A.beta ⟨i + 1, h⟩)

/-- The reference's result : [16, 325]. -/
def term (A : Args F) : Tf F S16x325 :=
  headT (actT A 9 (by decide)) A.fc1W A.fc1b A.fc2W A.fc2b

end Cert.Proof.RefVal

end
-- ==== Proof.K2ValSpec.lean ====
/-
  The network computed by the second TensorCore region, as a function of its ten input blocks read as
  families of extended reals: ten graph-convolution layers (for every batch, the four products
  L[i,j]·x[b]·W[i,j] summed over j), each followed by a batch normalisation over the batch and node axes
  whose means are taken in two steps (over the nodes, then over the batch) and by a rectifier; then
  two dense layers. No convolution bias enters.
-/
import Idealize.ShloMosaic.Lib.ValueIdx

noncomputable section

open scoped BigOperators

namespace Cert.Proof.K2Val

open Idealize.ShloMosaic

/-- The number of nodes, 325, as the float the program divides by. -/
abbrev c325 : EReal := Ideal.ofBits .f32 0x43A28000#32
/-- The batch size, 16, as the float the program divides by. -/
abbrev c16 : EReal := Ideal.ofBits .f32 0x41800000#32
/-- The variance guard. -/
abbrev ceps : EReal := Ideal.ofBits .f32 0x3727C5AC#32
/-- The rectifier's floor. -/
abbrev c0 : EReal := Ideal.ofBits .f32 0x00000000#32

/-- The input features repeated four times along the feature axis: feature k of 160 is feature k mod 40. -/
def xcat (X0 : Fin 16 → Fin 325 → Fin 40 → EReal) : Fin 16 → Fin 325 → Fin 160 → EReal :=
  fun b m k => X0 b m ⟨k.val % 40, Nat.mod_lt _ (by decide)⟩

/-- One layer's linear part: Σ_j (L_j · x[b]) · W_j at node m and output feature f. -/
def conv {K : Nat} (L : Fin 4 → Fin 325 → Fin 325 → EReal) (x : Fin 16 → Fin 325 → Fin K → EReal)
    (W : Fin 4 → Fin K → Fin 64 → EReal) : Fin 16 → Fin 325 → Fin 64 → EReal :=
  fun b m f => ∑ j : Fin 4, ∑ k : Fin K, (∑ n : Fin 325, L j m n * x b n k) * W j k f

/-- The mean over nodes, then over the batch, of feature f. -/
def mean2 (y : Fin 16 → Fin 325 → Fin 64 → EReal) (f : Fin 64) : EReal :=
  Ideal.div (∑ b : Fin 16, Ideal.div (∑ m : Fin 325, y b m f) c325) c16

/-- The deviation from the two-step mean. -/
def dev (y : Fin 16 → Fin 325 → Fin 64 → EReal) : Fin 16 → Fin 325 → Fin 64 → EReal :=
  fun b m f => y b m f - mean2 y f

/-- Batch normalisation with scale g and shift be, then the rectifier. -/
def bnrelu (y : Fin 16 → Fin 325 → Fin 64 → EReal) (g be : Fin 64 → EReal) : Fin 16 → Fin 325 → Fin 64 → EReal :=
  fun b m f =>
    max (dev y b m f * Ideal.div (g f) (Ideal.sqrt (mean2 (fun b m f => dev y b m f * dev y b m f) f + ceps)) + be f) c0

/-- The hidden state after layer i (0-based). -/
def hidden (X0 : Fin 16 → Fin 325 → Fin 40 → EReal) (L : Fin 10 → Fin 4 → Fin 325 → Fin 325 → EReal)
    (W0 : Fin 4 → Fin 160 → Fin 64 → EReal) (WR : Fin 9 → Fin 4 → Fin 64 → Fin 64 → EReal)
    (G B : Fin 10 → Fin 64 → EReal) : (i : Nat) → i < 10 → Fin 16 → Fin 325 → Fin 64 → EReal
  | 0, h => bnrelu (conv (L ⟨0, h⟩) (xcat X0) W0) (G ⟨0, h⟩) (B ⟨0, h⟩)
  | i + 1, h => bnrelu (conv (L ⟨i + 1, h⟩) (hidden X0 L W0 WR G B i (by omega)) (WR ⟨i, by omega⟩)) (G ⟨i + 1, h⟩) (B ⟨i + 1, h⟩)

/-- The two dense layers on one node's features. -/
def head (x : Fin 16 → Fin 325 → Fin 64 → EReal) (F1W : Fin 64 → Fin 512 → EReal) (F1B : Fin 512 → EReal)
    (F2W : Fin 512 → EReal) (F2B : EReal) : Fin 16 → Fin 325 → EReal :=
  fun b m => (∑ h : Fin 512, max ((∑ f : Fin 64, x b m f * F1W f h) + F1B h) c0 * F2W h) + F2B

/-- The network. -/
def net (X0 : Fin 16 → Fin 325 → Fin 40 → EReal) (L : Fin 10 → Fin 4 → Fin 325 → Fin 325 → EReal)
    (W0 : Fin 4 → Fin 160 → Fin 64 → EReal) (WR : Fin 9 → Fin 4 → Fin 64 → Fin 64 → EReal)
    (G B : Fin 10 → Fin 64 → EReal) (F1W : Fin 64 → Fin 512 → EReal) (F1B : Fin 512 → EReal)
    (F2W : Fin 512 → EReal) (F2B : EReal) : Fin 16 → Fin 325 → EReal :=
  head (hidden X0 L W0 WR G B 9 (by decide)) F1W F1B F2W F2B

end Cert.Proof.K2Val
-- ==== Proof.LibAlg.lean ====
/-
  Algebra over the extended reals for a network of softmax rows, graph convolutions and batch
  normalisations: every law is stated at EReal with the operations Ideal gives a program's text
  (Ideal.div, Ideal.exp, Ideal.tanh, Ideal.sqrt, max, finite sums), over abstract finite
  index types, for values that are real numbers.  The road is always the same: a value that is a real
  number is written ((r : ℝ) : EReal), the coercion is pushed outwards through each operation, and
  the law is then an identity of real numbers.
-/
import Idealize.ShloMosaic.PureOps.Ideal
import Idealize.ShloMosaic.PureOps.Ideal.Laws

open Idealize.ShloMosaic

namespace Cert.Proof.LibAlg

/-! ## Real values among the extended reals -/

/-- The extended real x is a real number. -/
def IsReal (x : EReal) : Prop := ∃ r : ℝ, x = (r : EReal)

theorem isReal_coe (r : ℝ) : IsReal (r : EReal) := ⟨r, rfl⟩

/-- An extended real that is neither infinity is a real number. -/
theorem isReal_of_ne {x : EReal} (ht : x ≠ ⊤) (hb : x ≠ ⊥) : IsReal x := by
  induction x using EReal.rec with
  | bot => exact absurd rfl hb
  | coe r => exact ⟨r, rfl⟩
  | top => exact absurd rfl ht

theorem IsReal.ne_top {x : EReal} (h : IsReal x) : x ≠ ⊤ := by
  obtain ⟨r, rfl⟩ := h
  exact EReal.coe_ne_top r

theorem IsReal.ne_bot {x : EReal} (h : IsReal x) : x ≠ ⊥ := by
  obtain ⟨r, rfl⟩ := h
  exact EReal.coe_ne_bot r

theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.neg {x : EReal} (hx : IsReal x) : IsReal (-x) := by
  obtain ⟨a, rfl⟩ := hx
  exact ⟨-a, (EReal.coe_neg a).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The coercion of the reals commutes with max. -/
theorem coe_max (a b : ℝ) : ((max a b : ℝ) : EReal) = max (a : EReal) (b : EReal) :=
  EReal.coe_strictMono.monotone.map_max

theorem IsReal.max {x y : EReal} (hx : IsReal x) (hy : IsReal y) : IsReal (max x y) := by
  obtain ⟨a, rfl⟩ := hx
  obtain ⟨b, rfl⟩ := hy
  exact ⟨Max.max a b, (coe_max a b).symm⟩

theorem IsReal.exp {x : EReal} (hx : IsReal x) : IsReal (Ideal.exp x) := by
  obtain ⟨a, rfl⟩ := hx
  exact ⟨Real.exp a, rfl⟩

theorem IsReal.tanh {x : EReal} (hx : IsReal x) : IsReal (Ideal.tanh x) := by
  obtain ⟨a, rfl⟩ := hx
  exact ⟨Real.tanh a, rfl⟩

/-- A finite sum of real numbers is a real number: the coercion leaves the sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (hf : ∀ i ∈ s, IsReal (f i)) :
    IsReal (∑ i ∈ s, f i) := by
  choose! r hr using hf
  exact ⟨∑ i ∈ s, r i, by rw [← coe_sum]; exact Finset.sum_congr rfl hr⟩

/-- The quotient of two real numbers, the divisor not zero, is their real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

theorem IsReal.div {x y : EReal} (hx : IsReal x) (hy : IsReal y) (h0 : y ≠ 0) : IsReal (Ideal.div x y) := by
  obtain ⟨a, rfl⟩ := hx
  obtain ⟨b, rfl⟩ := hy
  have hb : b ≠ 0 := fun h => h0 (by rw [h, EReal.coe_zero])
  exact ⟨a / b, div_coe_coe a hb⟩

/-- The square root of a real number that is not negative is its real square root. -/
theorem sqrt_coe_of_nonneg {r : ℝ} (h : 0 ≤ r) : Ideal.sqrt (r : EReal) = ((Real.sqrt r : ℝ) : EReal) := by
  rw [Ideal.sqrt_coe, if_neg (not_lt.mpr h)]

/-- The rectifier max x 0 of a real number. -/
theorem max_coe_zero (x : ℝ) : max (x : EReal) 0 = ((max x 0 : ℝ) : EReal) := by
  rw [← EReal.coe_zero, ← coe_max]

/-- d / s · g = d · (g / s) for a real s ≠ 0, at every d and g: both are the product of d, g and 1 / s. -/
theorem div_mul_eq_mul_div (d g : EReal) {s : ℝ} (hs : s ≠ 0) :
    Ideal.div d (s : EReal) * g = d * Ideal.div g (s : EReal) := by
  rw [Ideal.div_coe hs, Ideal.div_coe hs, mul_assoc, mul_comm _ g]

/-! ## The maximum of a finite family, as a fold of max from ⊥ -/

section Fold
variable {ι : Type*} [Fintype ι] [Nonempty ι]

/-- The fold of max from ⊥ over a nonempty finite family of real numbers is their real supremum. -/
theorem fold_max_coe (c : ι → ℝ) :
    (Finset.univ : Finset ι).fold max (⊥ : EReal) (fun i => ((c i : ℝ) : EReal))
      = ((Finset.univ.sup' Finset.univ_nonempty c : ℝ) : EReal) := by
  have h1 : (Finset.univ : Finset ι).fold max (⊥ : EReal) (fun i => ((c i : ℝ) : EReal))
      = (Finset.univ : Finset ι).sup (fun i => ((c i : ℝ) : EReal)) := rfl
  rw [h1, ← Finset.sup'_eq_sup Finset.univ_nonempty,
    Finset.apply_sup'_eq_sup'_comp Finset.univ_nonempty (fun r : ℝ => (r : EReal)) coe_max]
  rfl

/-- Adding a real constant to every member adds it to the maximum. -/
theorem fold_max_add_const (c : ι → ℝ) (b : ℝ) :
    (Finset.univ : Finset ι).fold max (⊥ : EReal) (fun i => ((c i : ℝ) : EReal) + (b : EReal))
      = (Finset.univ : Finset ι).fold max (⊥ : EReal) (fun i => ((c i : ℝ) : EReal)) + (b : EReal) := by
  have h1 : (fun i => ((c i : ℝ) : EReal) + (b : EReal)) = fun i => (((c i + b : ℝ)) : EReal) :=
    funext fun i => (EReal.coe_add _ _).symm
  rw [h1, fold_max_coe, fold_max_coe, ← EReal.coe_add]
  congr 1
  exact (Finset.apply_sup'_eq_sup'_comp Finset.univ_nonempty (fun r : ℝ => r + b)
    (fun x y => (max_add_add_right x y b).symm)).symm

end Fold

/-! ## Softmax is invariant under a shift of its row -/

section Softmax
variable {ι : Type*} [Fintype ι]

/-- A row's softmax as a program computes it: the row maximum (a fold of max from ⊥) subtracted,
    the exponentials, their quotient by their sum. -/
noncomputable def softmaxE (x : ι → EReal) (i : ι) : EReal :=
  Ideal.div (Ideal.exp (x i - (Finset.univ : Finset ι).fold max ⊥ x))
    (∑ j, Ideal.exp (x j - (Finset.univ : Finset ι).fold max ⊥ x))

variable [Nonempty ι]

/-- The same softmax of a row of real numbers, a real number. -/
noncomputable def softmaxR (c : ι → ℝ) (i : ι) : ℝ :=
  Real.exp (c i - Finset.univ.sup' Finset.univ_nonempty c)
    / ∑ j, Real.exp (c j - Finset.univ.sup' Finset.univ_nonempty c)

theorem softmaxE_coe (c : ι → ℝ) (i : ι) :
    softmaxE (fun j => ((c j : ℝ) : EReal)) i = ((softmaxR c i : ℝ) : EReal) := by
  have hpos : (0 : ℝ) < ∑ j, Real.exp (c j - Finset.univ.sup' Finset.univ_nonempty c) :=
    Finset.sum_pos (fun j _ => Real.exp_pos _) Finset.univ_nonempty
  simp only [softmaxE, softmaxR]
  rw [fold_max_coe]
  simp only [← EReal.coe_sub, Ideal.exp_coe]
  rw [coe_sum, div_coe_coe _ hpos.ne']

/-- Shift invariance at the extended reals: a real constant added to every entry of a row of real
    numbers leaves the softmax as it was. -/
theorem softmaxE_add_const (c : ι → ℝ) (b : ℝ) :
    softmaxE (fun j => ((c j : ℝ) : EReal) + (b : EReal)) = softmaxE (fun j => ((c j : ℝ) : EReal)) := by
  have key : ∀ j, ((c j : ℝ) : EReal) + (b : EReal)
      - ((Finset.univ : Finset ι).fold max (⊥ : EReal) (fun i => ((c i : ℝ) : EReal)) + (b : EReal))
      = ((c j : ℝ) : EReal) - (Finset.univ : Finset ι).fold max (⊥ : EReal) (fun i => ((c i : ℝ) : EReal)) := by
    intro j
    rw [fold_max_coe, ← EReal.coe_add, ← EReal.coe_add, ← EReal.coe_sub, ← EReal.coe_sub]
    congr 1; ring
  funext i
  simp only [softmaxE]
  rw [fold_max_add_const]
  simp only [key]

theorem softmaxE_isReal {x : ι → EReal} (hx : ∀ j, IsReal (x j)) (i : ι) : IsReal (softmaxE x i) := by
  choose c hc using hx
  have hx' : x = fun j => ((c j : ℝ) : EReal) := funext hc
  rw [hx', softmaxE_coe]
  exact isReal_coe _

end Softmax

/-! ## The mean over two axes is the mean of the means -/

section Mean
variable {β μ : Type*} [Fintype β] [Fintype μ]

theorem mean_of_means (y : β → μ → ℝ) {nB nM N : ℝ} (hB : nB ≠ 0) (hM : nM ≠ 0) (hN : N = nB * nM) :
    Ideal.div (∑ b, Ideal.div (∑ m, ((y b m : ℝ) : EReal)) (nM : EReal)) (nB : EReal)
      = Ideal.div (∑ b, ∑ m, ((y b m : ℝ) : EReal)) (N : EReal) := by
  have hN' : N ≠ 0 := by rw [hN]; exact mul_ne_zero hB hM
  simp only [coe_sum, div_coe_coe _ hM]
  rw [div_coe_coe _ hB, div_coe_coe _ hN', ← Finset.sum_div, div_div, hN, mul_comm nM nB]

end Mean

/-! ## Batch normalisation over two axes forgets a constant added to its input

  For one feature: y b m the input over the two normalised axes, c the constant (a bias), g the
  scale, t the offset, e > 0 the stabiliser.  bnRefE spells a normalisation the way a text
  with one sum over both axes does, on y + c: mean Σ/N, variance Σ(z - mean)²/N, then
  (z - mean) / √(var + e) · g + t.  bnKerE spells it the way a text with a mean of means does, on y:
  d = y - mean, variance the mean of means of d·d, then d · (g / √(var + e)) + t.
  Both are the real number bnR. -/

section BatchNorm
variable {β μ : Type*} [Fintype β] [Fintype μ]

/-- The mean of a real family over both axes. -/
noncomputable def meanR (y : β → μ → ℝ) : ℝ :=
  (∑ b', ∑ m', y b' m') / ((Fintype.card β : ℝ) * (Fintype.card μ : ℝ))

/-- Its variance: the mean of the squared deviations. -/
noncomputable def varR (y : β → μ → ℝ) : ℝ :=
  meanR (fun b' m' => (y b' m' - meanR y) * (y b' m' - meanR y))

/-- The normalised, scaled and shifted value. -/
noncomputable def bnR (y : β → μ → ℝ) (g t e : ℝ) (b : β) (m : μ) : ℝ :=
  (y b m - meanR y) / Real.sqrt (varR y + e) * g + t

noncomputable def bnRefE (N e : EReal) (z : β → μ → EReal) (g t : EReal) (b : β) (m : μ) : EReal :=
  let mean : EReal := Ideal.div (∑ b', ∑ m', z b' m') N
  let var : EReal := Ideal.div (∑ b', ∑ m', (z b' m' - mean) * (z b' m' - mean)) N
  Ideal.div (z b m - mean) (Ideal.sqrt (var + e)) * g + t

noncomputable def bnKerE (nB nM e : EReal) (y : β → μ → EReal) (g t : EReal) (b : β) (m : μ) : EReal :=
  let mean : EReal := Ideal.div (∑ b', Ideal.div (∑ m', y b' m') nM) nB
  let var : EReal :=
    Ideal.div (∑ b', Ideal.div (∑ m', (y b' m' - mean) * (y b' m' - mean)) nM) nB
  (y b m - mean) * Ideal.div g (Ideal.sqrt (var + e)) + t

theorem card_ne_zero' {α : Type*} [Fintype α] (h : 0 < Fintype.card α) : ((Fintype.card α : ℝ)) ≠ 0 := by
  exact_mod_cast h.ne'

/-- The mean taken with one sum over both axes. -/
theorem mean1E_coe (y : β → μ → ℝ) (hβ : 0 < Fintype.card β) (hμ : 0 < Fintype.card μ) :
    Ideal.div (∑ b', ∑ m', ((y b' m' : ℝ) : EReal)) (((Fintype.card β : ℝ) * (Fintype.card μ : ℝ) : ℝ) : EReal)
      = ((meanR y : ℝ) : EReal) := by
  simp only [coe_sum]
  rw [div_coe_coe _ (mul_ne_zero (card_ne_zero' hβ) (card_ne_zero' hμ))]
  rfl

/-- The mean taken as a mean of means. -/
theorem mean2E_coe (y : β → μ → ℝ) (hβ : 0 < Fintype.card β) (hμ : 0 < Fintype.card μ) :
    Ideal.div (∑ b', Ideal.div (∑ m', ((y b' m' : ℝ) : EReal)) ((Fintype.card μ : ℝ) : EReal)) ((Fintype.card β : ℝ) : EReal)
      = ((meanR y : ℝ) : EReal) := by
  rw [mean_of_means y (card_ne_zero' hβ) (card_ne_zero' hμ) rfl, mean1E_coe y hβ hμ]

/-- The mean of a family shifted by a constant is the mean shifted. -/
theorem meanR_add_const (y : β → μ → ℝ) (c : ℝ) (hβ : 0 < Fintype.card β) (hμ : 0 < Fintype.card μ) :
    meanR (fun b' m' => y b' m' + c) = meanR y + c := by
  have hB := card_ne_zero' hβ
  have hM := card_ne_zero' hμ
  unfold meanR
  simp only [Finset.sum_add_distrib, Finset.sum_const, Finset.card_univ, nsmul_eq_mul]
  field_simp

theorem varR_nonneg (y : β → μ → ℝ) : 0 ≤ varR y := by
  unfold varR meanR
  exact div_nonneg (Finset.sum_nonneg fun _ _ => Finset.sum_nonneg fun _ _ => mul_self_nonneg _)
    (mul_nonneg (Nat.cast_nonneg _) (Nat.cast_nonneg _))

theorem sqrt_varR_pos (y : β → μ → ℝ) {e : ℝ} (he : 0 < e) : 0 < Real.sqrt (varR y + e) :=
  Real.sqrt_pos.mpr (by have := varR_nonneg y; linarith)

theorem bnRefE_coe (y : β → μ → ℝ) (c g t e : ℝ) (he : 0 < e) (hβ : 0 < Fintype.card β) (hμ : 0 < Fintype.card μ) (b : β) (m : μ) :
    bnRefE (((Fintype.card β : ℝ) * (Fintype.card μ : ℝ) : ℝ) : EReal) (e : EReal)
        (fun b' m' => ((y b' m' : ℝ) : EReal) + (c : EReal)) (g : EReal) (t : EReal) b m
      = ((bnR y g t e b m : ℝ) : EReal) := by
  have hz : ∀ b' m', ((y b' m' : ℝ) : EReal) + (c : EReal) = ((y b' m' + c : ℝ) : EReal) :=
    fun _ _ => (EReal.coe_add _ _).symm
  have hd : ∀ b' m', y b' m' + c - (meanR y + c) = y b' m' - meanR y := fun _ _ => by ring
  simp only [bnRefE, hz]
  rw [mean1E_coe (fun b' m' => y b' m' + c) hβ hμ, meanR_add_const y c hβ hμ]
  simp only [← EReal.coe_sub, ← EReal.coe_mul, hd]
  rw [mean1E_coe (fun b' m' => (y b' m' - meanR y) * (y b' m' - meanR y)) hβ hμ]
  rw [show (meanR fun b' m' => (y b' m' - meanR y) * (y b' m' - meanR y)) = varR y from rfl,
    ← EReal.coe_add, sqrt_coe_of_nonneg (by have := varR_nonneg y; linarith),
    div_coe_coe _ (sqrt_varR_pos y he).ne', ← EReal.coe_mul, ← EReal.coe_add]
  rfl

theorem bnKerE_coe (y : β → μ → ℝ) (g t e : ℝ) (he : 0 < e) (hβ : 0 < Fintype.card β) (hμ : 0 < Fintype.card μ) (b : β) (m : μ) :
    bnKerE ((Fintype.card β : ℝ) : EReal) ((Fintype.card μ : ℝ) : EReal) (e : EReal)
        (fun b' m' => ((y b' m' : ℝ) : EReal)) (g : EReal) (t : EReal) b m
      = ((bnR y g t e b m : ℝ) : EReal) := by
  simp only [bnKerE]
  rw [mean2E_coe y hβ hμ]
  simp only [← EReal.coe_sub, ← EReal.coe_mul]
  rw [mean2E_coe (fun b' m' => (y b' m' - meanR y) * (y b' m' - meanR y)) hβ hμ]
  rw [show (meanR fun b' m' => (y b' m' - meanR y) * (y b' m' - meanR y)) = varR y from rfl,
    ← EReal.coe_add, sqrt_coe_of_nonneg (by have := varR_nonneg y; linarith),
    div_coe_coe _ (sqrt_varR_pos y he).ne', ← EReal.coe_mul, ← EReal.coe_add]
  congr 1
  unfold bnR
  ring

/-- The law: the two spellings agree, the constant c gone. -/
theorem bnRefE_add_const_eq_bnKerE (y : β → μ → ℝ) (c g t e : ℝ) (he : 0 < e)
    (hβ : 0 < Fintype.card β) (hμ : 0 < Fintype.card μ) (b : β) (m : μ) :
    bnRefE (((Fintype.card β : ℝ) * (Fintype.card μ : ℝ) : ℝ) : EReal) (e : EReal)
        (fun b' m' => ((y b' m' : ℝ) : EReal) + (c : EReal)) (g : EReal) (t : EReal) b m
      = bnKerE ((Fintype.card β : ℝ) : EReal) ((Fintype.card μ : ℝ) : EReal) (e : EReal)
        (fun b' m' => ((y b' m' : ℝ) : EReal)) (g : EReal) (t : EReal) b m := by
  rw [bnRefE_coe y c g t e he hβ hμ, bnKerE_coe y g t e he hβ hμ]

end BatchNorm

end Cert.Proof.LibAlg
-- ==== Proof.RefValOps.lean ====
/-
  The pure operations of the reference read at an index, at the ideal values: chains of broadcasts, reshapes,
  slices, transposes and concatenations as re-indexings, contractions and reductions as finite sums over
  coordinates.  Every statement is about literal shapes, its shape facts hypotheses.
-/
import Idealize.ShloMosaic.Lib.ValueIdx
import Idealize.ShloMosaic.Lib.Pipeline.Value
import Idealize.ShloMosaic.Lib.IdealHost
import Idealize.ShloMosaic.Lib.StackMember
import Idealize.ShloMosaic.PureOps.Ideal.Laws

noncomputable section

open scoped BigOperators

namespace Cert.Proof.RefVal

open Idealize.ShloMosaic Idealize.ShloMosaic.ValueIdx

/-! ## Broadcast chains -/

section Bcast
variable {α : Type}

/-- A vector over the rows, on every column: [m] → [m,1] → [m,n]. -/
theorem bc_col {m n : Nat}
    (h1 : (⟨1, ![m]⟩ : Shape).BroadcastsInDim ⟨2, ![m, 1]⟩ ![0])
    (h2 : (⟨2, ![m, 1]⟩ : Shape).BroadcastsInDim ⟨2, ![m, n]⟩ ![0, 1])
    (v : (⟨1, ![m]⟩ : Shape).Idx → α) (a : Fin m) (b : Fin n) :
    broadcastInDim ⟨2, ![m, n]⟩ ![0, 1] h2 (broadcastInDim ⟨2, ![m, 1]⟩ ![0] h1 v) (ix2 a b) = v (ix1 a) := by
  rw [broadcastInDim_apply ![0, 1] h2 _ (ix2 a b) (ix2 a (0 : Fin 1)) (fun c => by
      match c with
      | ⟨0, _⟩ => show a.val = if m = 1 then 0 else a.val; split <;> omega
      | ⟨1, _⟩ => rfl),
    broadcastInDim_apply ![0] h1 v (ix2 a (0 : Fin 1)) (ix1 a) (fun c => by
      match c with
      | ⟨0, _⟩ => show a.val = if m = 1 then 0 else a.val; split <;> omega)]

/-- A vector over the columns, on every row: [n] → [1,n] → [m,n]. -/
theorem bc_row {m n : Nat}
    (h1 : (⟨1, ![n]⟩ : Shape).BroadcastsInDim ⟨2, ![1, n]⟩ ![1])
    (h2 : (⟨2, ![1, n]⟩ : Shape).BroadcastsInDim ⟨2, ![m, n]⟩ ![0, 1])
    (v : (⟨1, ![n]⟩ : Shape).Idx → α) (a : Fin m) (b : Fin n) :
    broadcastInDim ⟨2, ![m, n]⟩ ![0, 1] h2 (broadcastInDim ⟨2, ![1, n]⟩ ![1] h1 v) (ix2 a b) = v (ix1 b) := by
  rw [broadcastInDim_apply ![0, 1] h2 _ (ix2 a b) (ix2 (0 : Fin 1) b) (fun c => by
      match c with
      | ⟨0, _⟩ => rfl
      | ⟨1, _⟩ => show b.val = if n = 1 then 0 else b.val; split <;> omega),
    broadcastInDim_apply ![1] h1 v (ix2 (0 : Fin 1) b) (ix1 b) (fun c => by
      match c with
      | ⟨0, _⟩ => show b.val = if n = 1 then 0 else b.val; split <;> omega)]

/-- A vector over the last axis, on every leading pair: [n] → [1,1,n] → [p,m,n]. -/
theorem bc_last3 {p m n : Nat}
    (h1 : (⟨1, ![n]⟩ : Shape).BroadcastsInDim ⟨3, ![1, 1, n]⟩ ![2])
    (h2 : (⟨3, ![1, 1, n]⟩ : Shape).BroadcastsInDim ⟨3, ![p, m, n]⟩ ![0, 1, 2])
    (v : (⟨1, ![n]⟩ : Shape).Idx → α) (a : Fin p) (b : Fin m) (c : Fin n) :
    broadcastInDim ⟨3, ![p, m, n]⟩ ![0, 1, 2] h2 (broadcastInDim ⟨3, ![1, 1, n]⟩ ![2] h1 v) (ix3 a b c) = v (ix1 c) := by
  rw [broadcastInDim_apply ![0, 1, 2] h2 _ (ix3 a b c) (ix3 (0 : Fin 1) (0 : Fin 1) c) (fun d => by
      match d with
      | ⟨0, _⟩ => rfl
      | ⟨1, _⟩ => rfl
      | ⟨2, _⟩ => show c.val = if n = 1 then 0 else c.val; split <;> omega),
    broadcastInDim_apply ![2] h1 v (ix3 (0 : Fin 1) (0 : Fin 1) c) (ix1 c) (fun d => by
      match d with
      | ⟨0, _⟩ => show c.val = if n = 1 then 0 else c.val; split <;> omega)]

/-- A vector as a [1,1,n] array. -/
theorem bc_to113 {n : Nat} (h1 : (⟨1, ![n]⟩ : Shape).BroadcastsInDim ⟨3, ![1, 1, n]⟩ ![2])
    (v : (⟨1, ![n]⟩ : Shape).Idx → α) (c : Fin n) :
    broadcastInDim ⟨3, ![1, 1, n]⟩ ![2] h1 v (ix3 (0 : Fin 1) (0 : Fin 1) c) = v (ix1 c) := by
  rw [broadcastInDim_apply ![2] h1 v (ix3 (0 : Fin 1) (0 : Fin 1) c) (ix1 c) (fun d => by
      match d with
      | ⟨0, _⟩ => show c.val = if n = 1 then 0 else c.val; split <;> omega)]

/-- A [1,1,n] array on every leading pair. -/
theorem bc_full3 {p m n : Nat} (h2 : (⟨3, ![1, 1, n]⟩ : Shape).BroadcastsInDim ⟨3, ![p, m, n]⟩ ![0, 1, 2])
    (v : (⟨3, ![1, 1, n]⟩ : Shape).Idx → α) (a : Fin p) (b : Fin m) (c : Fin n) :
    broadcastInDim ⟨3, ![p, m, n]⟩ ![0, 1, 2] h2 v (ix3 a b c) = v (ix3 (0 : Fin 1) (0 : Fin 1) c) := by
  rw [broadcastInDim_apply ![0, 1, 2] h2 v (ix3 a b c) (ix3 (0 : Fin 1) (0 : Fin 1) c) (fun d => by
      match d with
      | ⟨0, _⟩ => rfl
      | ⟨1, _⟩ => rfl
      | ⟨2, _⟩ => show c.val = if n = 1 then 0 else c.val; split <;> omega)]

/-- A matrix on every batch row: [m,n] → [1,m,n] → [p,m,n]. -/
theorem bc_batch3 {p m n : Nat}
    (h1 : (⟨2, ![m, n]⟩ : Shape).BroadcastsInDim ⟨3, ![1, m, n]⟩ ![1, 2])
    (h2 : (⟨3, ![1, m, n]⟩ : Shape).BroadcastsInDim ⟨3, ![p, m, n]⟩ ![0, 1, 2])
    (v : (⟨2, ![m, n]⟩ : Shape).Idx → α) (a : Fin p) (b : Fin m) (c : Fin n) :
    broadcastInDim ⟨3, ![p, m, n]⟩ ![0, 1, 2] h2 (broadcastInDim ⟨3, ![1, m, n]⟩ ![1, 2] h1 v) (ix3 a b c) = v (ix2 b c) := by
  rw [broadcastInDim_apply ![0, 1, 2] h2 _ (ix3 a b c) (ix3 (0 : Fin 1) b c) (fun d => by
      match d with
      | ⟨0, _⟩ => rfl
      | ⟨1, _⟩ => show b.val = if m = 1 then 0 else b.val; split <;> omega
      | ⟨2, _⟩ => show c.val = if n = 1 then 0 else c.val; split <;> omega),
    broadcastInDim_apply ![1, 2] h1 v (ix3 (0 : Fin 1) b c) (ix2 b c) (fun d => by
      match d with
      | ⟨0, _⟩ => show b.val = if m = 1 then 0 else b.val; split <;> omega
      | ⟨1, _⟩ => show c.val = if n = 1 then 0 else c.val; split <;> omega)]

/-- An index vector as a column of index vectors: [m] → [m,1]. -/
theorem bc_idxcol {m : Nat} (h1 : (⟨1, ![m]⟩ : Shape).BroadcastsInDim ⟨2, ![m, 1]⟩ ![0])
    (v : (⟨1, ![m]⟩ : Shape).Idx → α) (a : Fin m) (z : Fin 1) :
    broadcastInDim ⟨2, ![m, 1]⟩ ![0] h1 v (ix2 a z) = v (ix1 a) := by
  rw [broadcastInDim_apply ![0] h1 v (ix2 a z) (ix1 a) (fun c => by
      match c with
      | ⟨0, _⟩ => show a.val = if m = 1 then 0 else a.val; split <;> omega)]

end Bcast

/-! ## Reshapes, slices, transposes -/

section Layout
variable {α : Type}

/-- [5200,1] read as [325,16]: row n, column t is entry 16 n + t. -/
theorem sc_5200x1_325x16 (hc : (⟨2, ![5200, 1]⟩ : Shape).ShapeCasts ⟨2, ![325, 16]⟩)
    (v : (⟨2, ![5200, 1]⟩ : Shape).Idx → α) (n : Fin 325) (t : Fin 16) :
    shapeCast ⟨2, ![325, 16]⟩ v hc (ix2 n t) = v (ix2 (⟨16 * n.val + t.val, by omega⟩ : Fin 5200) (0 : Fin 1)) := by
  refine shapeCast_apply v hc _ _ ?_
  rw [Shape.rowMajor_val_two, Shape.rowMajor_val_two]
  show (16 * n.val + t.val) * 1 + 0 = n.val * 16 + t.val
  omega

/-- [325,16] read as [5200]: entry r is row r / 16, column r % 16. -/
theorem sc_325x16_5200 (hc : (⟨2, ![325, 16]⟩ : Shape).ShapeCasts ⟨1, ![5200]⟩)
    (v : (⟨2, ![325, 16]⟩ : Shape).Idx → α) (r : Fin 5200) :
    shapeCast ⟨1, ![5200]⟩ v hc (ix1 r)
      = v (ix2 (⟨r.val / 16, by omega⟩ : Fin 325) (⟨r.val % 16, by omega⟩ : Fin 16)) := by
  refine shapeCast_apply v hc _ _ ?_
  rw [Shape.rowMajor_val_two, Shape.rowMajor_val_one]
  show r.val / 16 * 16 + r.val % 16 = r.val
  omega

/-- [105625] read as [325,325]. -/
theorem sc_105625_325x325 (hc : (⟨1, ![105625]⟩ : Shape).ShapeCasts ⟨2, ![325, 325]⟩)
    (v : (⟨1, ![105625]⟩ : Shape).Idx → α) (m n : Fin 325) :
    shapeCast ⟨2, ![325, 325]⟩ v hc (ix2 m n) = v (ix1 (⟨325 * m.val + n.val, by omega⟩ : Fin 105625)) := by
  refine shapeCast_apply v hc _ _ ?_
  rw [Shape.rowMajor_val_two, Shape.rowMajor_val_one]
  show 325 * m.val + n.val = m.val * 325 + n.val
  omega

/-- [16,325,64] read as [5200,64]. -/
theorem sc_16x325x64_5200x64 (hc : (⟨3, ![16, 325, 64]⟩ : Shape).ShapeCasts ⟨2, ![5200, 64]⟩)
    (v : (⟨3, ![16, 325, 64]⟩ : Shape).Idx → α) (b : Fin 16) (m : Fin 325) (f : Fin 64) :
    shapeCast ⟨2, ![5200, 64]⟩ v hc (ix2 (⟨325 * b.val + m.val, by omega⟩ : Fin 5200) f) = v (ix3 b m f) := by
  refine shapeCast_apply v hc _ _ ?_
  rw [Shape.rowMajor_val_two, Shape.rowMajor_val_three]
  show (b.val * 325 + m.val) * 64 + f.val = (325 * b.val + m.val) * 64 + f.val
  omega

/-- [5200,1] read as [16,325]. -/
theorem sc_5200x1_16x325 (hc : (⟨2, ![5200, 1]⟩ : Shape).ShapeCasts ⟨2, ![16, 325]⟩)
    (v : (⟨2, ![5200, 1]⟩ : Shape).Idx → α) (b : Fin 16) (m : Fin 325) :
    shapeCast ⟨2, ![16, 325]⟩ v hc (ix2 b m) = v (ix2 (⟨325 * b.val + m.val, by omega⟩ : Fin 5200) (0 : Fin 1)) := by
  refine shapeCast_apply v hc _ _ ?_
  rw [Shape.rowMajor_val_two, Shape.rowMajor_val_two]
  show (325 * b.val + m.val) * 1 + 0 = b.val * 325 + m.val
  omega

/-- Member s of a stack of vectors: [N,a] sliced at row s, read as [a]. -/
theorem slice2 {N a : Nat} (s : Fin N) (hs : (⟨2, ![N, a]⟩ : Shape).Slices ![s.val, 0] ⟨2, ![1, a]⟩)
    (hc : (⟨2, ![1, a]⟩ : Shape).ShapeCasts ⟨1, ![a]⟩) (W : (⟨2, ![N, a]⟩ : Shape).Idx → α) (p : Fin a) :
    shapeCast ⟨1, ![a]⟩ (extractStridedSlice ⟨2, ![1, a]⟩ ![s.val, 0] W hs) hc (ix1 p) = W (ix2 s p) := by
  rw [shapeCast_apply _ hc (ix1 p) (ix2 (0 : Fin 1) p) (by
      rw [Shape.rowMajor_val_two, Shape.rowMajor_val_one]
      show 0 * a + p.val = p.val
      omega),
    extractStridedSlice_apply ![s.val, 0] W hs (ix2 (0 : Fin 1) p) (ix2 s p) (fun c => by
      match c with
      | ⟨0, _⟩ => show s.val = s.val + 0; omega
      | ⟨1, _⟩ => show p.val = 0 + p.val; omega)]

/-- Member s of a stack of matrices: [N,a,b] sliced at s, read as [a,b]. -/
theorem slice3 {N a b : Nat} (s : Fin N) (hs : (⟨3, ![N, a, b]⟩ : Shape).Slices ![s.val, 0, 0] ⟨3, ![1, a, b]⟩)
    (hc : (⟨3, ![1, a, b]⟩ : Shape).ShapeCasts ⟨2, ![a, b]⟩) (W : (⟨3, ![N, a, b]⟩ : Shape).Idx → α) (p : Fin a) (k : Fin b) :
    shapeCast ⟨2, ![a, b]⟩ (extractStridedSlice ⟨3, ![1, a, b]⟩ ![s.val, 0, 0] W hs) hc (ix2 p k) = W (ix3 s p k) := by
  rw [shapeCast_apply _ hc (ix2 p k) (ix3 (0 : Fin 1) p k) (by
      rw [Shape.rowMajor_val_three, Shape.rowMajor_val_two]
      show (0 * a + p.val) * b + k.val = p.val * b + k.val
      simp),
    extractStridedSlice_apply ![s.val, 0, 0] W hs (ix3 (0 : Fin 1) p k) (ix3 s p k) (fun c => by
      match c with
      | ⟨0, _⟩ => show s.val = s.val + 0; omega
      | ⟨1, _⟩ => show p.val = 0 + p.val; omega
      | ⟨2, _⟩ => show k.val = 0 + k.val; omega)]

/-- Member s of a stack of rank-3 arrays: [N,a,b,c] sliced at s, read as [a,b,c]. -/
theorem slice4 {N a b c : Nat} (s : Fin N) (hs : (⟨4, ![N, a, b, c]⟩ : Shape).Slices ![s.val, 0, 0, 0] ⟨4, ![1, a, b, c]⟩)
    (hc : (⟨4, ![1, a, b, c]⟩ : Shape).ShapeCasts ⟨3, ![a, b, c]⟩) (W : (⟨4, ![N, a, b, c]⟩ : Shape).Idx → α)
    (p : Fin a) (q : Fin b) (k : Fin c) :
    shapeCast ⟨3, ![a, b, c]⟩ (extractStridedSlice ⟨4, ![1, a, b, c]⟩ ![s.val, 0, 0, 0] W hs) hc (ix3 p q k) = W (ix4 s p q k) := by
  rw [shapeCast_apply _ hc (ix3 p q k) (ix4 (0 : Fin 1) p q k) (by
      rw [Shape.rowMajor_val_four, Shape.rowMajor_val_three]
      show ((0 * a + p.val) * b + q.val) * c + k.val = (p.val * b + q.val) * c + k.val
      simp),
    extractStridedSlice_apply ![s.val, 0, 0, 0] W hs (ix4 (0 : Fin 1) p q k) (ix4 s p q k) (fun d => by
      match d with
      | ⟨0, _⟩ => show s.val = s.val + 0; omega
      | ⟨1, _⟩ => show p.val = 0 + p.val; omega
      | ⟨2, _⟩ => show q.val = 0 + q.val; omega
      | ⟨3, _⟩ => show k.val = 0 + k.val; omega)]

/-- The last two axes exchanged. -/
theorem tr021 {p m n : Nat} (h : (⟨3, ![p, m, n]⟩ : Shape).Transposes [0, 2, 1] ⟨3, ![p, n, m]⟩)
    (v : (⟨3, ![p, m, n]⟩ : Shape).Idx → α) (a : Fin p) (b : Fin n) (c : Fin m) :
    transpose ⟨3, ![p, n, m]⟩ [0, 2, 1] v h (ix3 a b c) = v (ix3 a c b) :=
  transpose_apply [0, 2, 1] v h (ix3 a b c) (ix3 a c b) (fun d => by
    match d with
    | ⟨0, _⟩ => rfl
    | ⟨1, _⟩ => rfl
    | ⟨2, _⟩ => rfl)

end Layout

/-! ## Reductions -/

section Reduce

/-- The row sums of a [325,16] array. -/
theorem rsum_325x16 (h' : (⟨2, ![325, 16]⟩ : Shape).ReducesTo [1] ⟨1, ![325]⟩) (hu : 0 < (⟨0, ![]⟩ : Shape).numel)
    (x : FVec Ideal ⟨2, ![325, 16]⟩ .f32) (init : (⟨0, ![]⟩ : Shape).Idx → Ideal .f32) (n : Fin 325) :
    Host.reduceAdd x init h' hu (ix1 n) = init ix0 + ∑ t : Fin 16, x (ix2 n t) := by
  have h : (⟨2, ![325, 16]⟩ : Shape).Reduces [1] ⟨1, ![325]⟩ := by decide
  rw [hostReduceAdd_apply, Ideal.hostReduceAdd_single h' h]
  have e0 : init (Shape.Idx.first hu) = init ix0 := congrArg init (funext fun a => a.elim0)
  rw [e0]
  refine congrArg (init ix0 + ·) (Finset.sum_congr rfl fun t _ => congrArg x ?_)
  funext c
  match c with
  | ⟨0, _⟩ => exact Fin.ext rfl
  | ⟨1, _⟩ => exact Fin.ext rfl

/-- The row maxima of a [325,16] array, from the initial value. -/
theorem rmax_325x16 (h' : (⟨2, ![325, 16]⟩ : Shape).ReducesTo [1] ⟨1, ![325]⟩) (hu : 0 < (⟨0, ![]⟩ : Shape).numel)
    (x : FVec Ideal ⟨2, ![325, 16]⟩ .f32) (init : (⟨0, ![]⟩ : Shape).Idx → Ideal .f32) (n : Fin 325) :
    Host.reduce FloatOps.maximumf x init h' hu (ix1 n)
      = (Finset.univ : Finset (Fin 16)).fold max (init ix0) (fun t => x (ix2 n t)) := by
  have h : (⟨2, ![325, 16]⟩ : Shape).Reduces [1] ⟨1, ![325]⟩ := by decide
  rw [Host.reduce_eq_fold_single FloatOps.maximumf x init h' h hu]
  have e0 : init (Shape.Idx.first hu) = init ix0 := congrArg init (funext fun a => a.elim0)
  rw [e0]
  have e1 : (x ∘ h.lift (ix1 n)) = fun t : Fin 16 => x (ix2 n t) := by
    funext t
    refine congrArg x ?_
    funext c
    match c with
    | ⟨0, _⟩ => exact Fin.ext rfl
    | ⟨1, _⟩ => exact Fin.ext rfl
  rw [e1]
  rfl

/-- The sums over the first two axes of a [16,325,64] array. -/
theorem rsum_16x325x64 (h' : (⟨3, ![16, 325, 64]⟩ : Shape).ReducesTo [0, 1] ⟨1, ![64]⟩) (hu : 0 < (⟨0, ![]⟩ : Shape).numel)
    (x : FVec Ideal ⟨3, ![16, 325, 64]⟩ .f32) (init : (⟨0, ![]⟩ : Shape).Idx → Ideal .f32) (f : Fin 64) :
    Host.reduceAdd x init h' hu (ix1 f) = init ix0 + ∑ b : Fin 16, ∑ m : Fin 325, x (ix3 b m f) := by
  rw [hostReduceAdd_apply]
  unfold Ideal.hostReduceAdd
  have e0 : init (Shape.Idx.first hu) = init ix0 := congrArg init (funext fun a => a.elim0)
  rw [e0]
  refine congrArg (init ix0 + ·) ?_
  rw [← Finset.sum_product']
  refine Finset.sum_nbij' (fun i => (i 0, i 1)) (fun p => ix3 p.1 p.2 f) ?_ ?_ ?_ ?_ ?_
  · intro i _; exact Finset.mem_product.2 ⟨Finset.mem_univ _, Finset.mem_univ _⟩
  · intro p _
    refine Finset.mem_filter.2 ⟨Finset.mem_univ _, ?_⟩
    funext c
    match c with
    | ⟨0, _⟩ => exact Fin.ext rfl
  · intro i hi
    have hj := (Finset.mem_filter.1 hi).2
    have h2 : (i 2).val = f.val := by
      have := congrArg (fun j : (⟨1, ![64]⟩ : Shape).Idx => (j 0).val) hj
      exact this
    funext c
    match c with
    | ⟨0, _⟩ => rfl
    | ⟨1, _⟩ => rfl
    | ⟨2, _⟩ => exact Fin.ext h2.symm
  · intro p _; rfl
  · intro i hi
    have hj := (Finset.mem_filter.1 hi).2
    have h2 : (i 2).val = f.val := by
      have := congrArg (fun j : (⟨1, ![64]⟩ : Shape).Idx => (j 0).val) hj
      exact this
    refine congrArg x ?_
    funext c
    match c with
    | ⟨0, _⟩ => rfl
    | ⟨1, _⟩ => rfl
    | ⟨2, _⟩ => exact Fin.ext h2

end Reduce

/-! ## Contractions -/

section Dot

/-- A matrix product [m,k] · [k,n]. -/
theorem dot_mat {m k n : Nat} (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) (a : Fin m) (b : Fin n) :
    Host.dotGeneral (⟨[1], [0], [0], [1], [], [], w⟩ : DotDims _ _ _) prec A B (ix2 a b) = ∑ c : Fin k, A (ix2 a c) * B (ix2 c b) :=
  StackMember.dotGeneral_plain_apply prec A B a b

/-- [B,M,K] against [M',M], the node axes contracted: the result, [B,K,M'], at (b,k,m) sums X[b,n,k] · L[m,n] over n. -/
theorem dot_xL {B M K M' : Nat}
    (w : DotDims.WF ⟨3, ![B, M, K]⟩ ⟨2, ![M', M]⟩ ⟨3, ![B, K, M']⟩ [1] [1] [0, 2] [0] [] [])
    (prec : Option ContractPrecision) (X : FVec Ideal ⟨3, ![B, M, K]⟩ .f32) (L : FVec Ideal ⟨2, ![M', M]⟩ .f32)
    (b : Fin B) (k : Fin K) (m : Fin M') :
    Host.dotGeneral (⟨[1], [1], [0, 2], [0], [], [], w⟩ : DotDims _ _ _) prec X L (ix3 b k m)
      = ∑ n : Fin M, X (ix3 b n k) * L (ix2 m n) := by
  show FloatOps.dotGeneral _ prec _ X L (ix3 b k m) = _
  rw [Ideal.dotGeneral_apply,
    ← Equiv.sum_comp (contrEquiv1 (⟨[1], [1], [0, 2], [0], [], [], w⟩ : DotDims _ _ _) M rfl rfl).symm]
  refine Finset.sum_congr rfl fun n _ => ?_
  have cv := contrEquiv1_symm_val
    (⟨[1], [1], [0, 2], [0], [], [], w⟩ : DotDims ⟨3, ![B, M, K]⟩ ⟨2, ![M', M]⟩ ⟨3, ![B, K, M']⟩) M rfl rfl n
  have el : (⟨[1], [1], [0, 2], [0], [], [], w⟩ : DotDims ⟨3, ![B, M, K]⟩ ⟨2, ![M', M]⟩ ⟨3, ![B, K, M']⟩).lhsIdx (ix3 b k m)
      ((contrEquiv1 _ M rfl rfl).symm n) = ix3 b n k := by
    funext ax; apply Fin.ext
    match ax with
    | ⟨0, _⟩ => simp [DotDims.lhsIdx]; rfl
    | ⟨1, _⟩ => simp [DotDims.lhsIdx]; exact cv
    | ⟨2, _⟩ => simp [DotDims.lhsIdx]; rfl
  have er : (⟨[1], [1], [0, 2], [0], [], [], w⟩ : DotDims ⟨3, ![B, M, K]⟩ ⟨2, ![M', M]⟩ ⟨3, ![B, K, M']⟩).rhsIdx (ix3 b k m)
      ((contrEquiv1 _ M rfl rfl).symm n) = ix2 m n := by
    funext ax; apply Fin.ext
    match ax with
    | ⟨0, _⟩ => simp [DotDims.rhsIdx]; rfl
    | ⟨1, _⟩ => simp [DotDims.rhsIdx]; exact cv
  rw [el, er]

/-- [B,M,K] against [K,N], the feature axis contracted: the result, [B,M,N], at (b,m,f) sums T[b,m,k] · W[k,f] over k. -/
theorem dot_tW {B M K N : Nat}
    (w : DotDims.WF ⟨3, ![B, M, K]⟩ ⟨2, ![K, N]⟩ ⟨3, ![B, M, N]⟩ [2] [0] [0, 1] [1] [] [])
    (prec : Option ContractPrecision) (T : FVec Ideal ⟨3, ![B, M, K]⟩ .f32) (W : FVec Ideal ⟨2, ![K, N]⟩ .f32)
    (b : Fin B) (m : Fin M) (f : Fin N) :
    Host.dotGeneral (⟨[2], [0], [0, 1], [1], [], [], w⟩ : DotDims _ _ _) prec T W (ix3 b m f)
      = ∑ k : Fin K, T (ix3 b m k) * W (ix2 k f) := by
  show FloatOps.dotGeneral _ prec _ T W (ix3 b m f) = _
  rw [Ideal.dotGeneral_apply,
    ← Equiv.sum_comp (contrEquiv1 (⟨[2], [0], [0, 1], [1], [], [], w⟩ : DotDims _ _ _) K rfl rfl).symm]
  refine Finset.sum_congr rfl fun k _ => ?_
  have cv := contrEquiv1_symm_val
    (⟨[2], [0], [0, 1], [1], [], [], w⟩ : DotDims ⟨3, ![B, M, K]⟩ ⟨2, ![K, N]⟩ ⟨3, ![B, M, N]⟩) K rfl rfl k
  have el : (⟨[2], [0], [0, 1], [1], [], [], w⟩ : DotDims ⟨3, ![B, M, K]⟩ ⟨2, ![K, N]⟩ ⟨3, ![B, M, N]⟩).lhsIdx (ix3 b m f)
      ((contrEquiv1 _ K rfl rfl).symm k) = ix3 b m k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact cv
  have er : (⟨[2], [0], [0, 1], [1], [], [], w⟩ : DotDims ⟨3, ![B, M, K]⟩ ⟨2, ![K, N]⟩ ⟨3, ![B, M, N]⟩).rhsIdx (ix3 b m f)
      ((contrEquiv1 _ K rfl rfl).symm k) = ix2 k f := by
    funext ax; apply Fin.ext
    match ax with
    | ⟨0, _⟩ => simp [DotDims.rhsIdx]; exact cv
    | ⟨1, _⟩ => simp [DotDims.rhsIdx]; rfl
  rw [el, er]

end Dot

/-! ## Concatenations -/

section Concat
variable {α : Type}

/-- 24 features then 16 features along the last axis. -/
theorem cat_24_16 (h : Shape.Concatenates [(⟨3, ![16, 325, 24]⟩ : Shape), ⟨3, ![16, 325, 16]⟩] ⟨3, ![16, 325, 40]⟩ 2)
    (x₁ : (⟨3, ![16, 325, 24]⟩ : Shape).Idx → α) (x₂ : (⟨3, ![16, 325, 16]⟩ : Shape).Idx → α)
    (b : Fin 16) (m : Fin 325) (k : Fin 40) :
    concatenate ⟨3, ![16, 325, 40]⟩ 2 [⟨⟨3, ![16, 325, 24]⟩, x₁⟩, ⟨⟨3, ![16, 325, 16]⟩, x₂⟩] h (ix3 b m k)
      = if hk : k.val < 24 then x₁ (ix3 b m ⟨k.val, hk⟩) else x₂ (ix3 b m ⟨k.val - 24, by omega⟩) := by
  split
  · next hk =>
    exact concatenate_pair_apply_left 2 x₁ x₂ h (ix3 b m k) rfl (ix3 b m ⟨k.val, hk⟩) (fun c => by
      match c with
      | ⟨0, _⟩ => rfl
      | ⟨1, _⟩ => rfl
      | ⟨2, _⟩ => rfl)
  · next hk =>
    exact concatenate_pair_apply_right 2 x₁ x₂ h (ix3 b m k) rfl rfl (ix3 b m ⟨k.val - 24, by omega⟩) (fun c hc => by
      match c with
      | ⟨0, _⟩ => rfl
      | ⟨1, _⟩ => rfl
      | ⟨2, _⟩ => exact absurd rfl hc) (by show k.val - 24 + 24 = k.val; omega)

/-- Four copies of 40 features along the last axis. -/
theorem cat4_40 (h : Shape.Concatenates [(⟨3, ![16, 325, 40]⟩ : Shape), ⟨3, ![16, 325, 40]⟩, ⟨3, ![16, 325, 40]⟩, ⟨3, ![16, 325, 40]⟩]
      ⟨3, ![16, 325, 160]⟩ 2)
    (x : (⟨3, ![16, 325, 40]⟩ : Shape).Idx → α) (b : Fin 16) (m : Fin 325) (k : Fin 160) :
    concatenate ⟨3, ![16, 325, 160]⟩ 2
        [⟨⟨3, ![16, 325, 40]⟩, x⟩, ⟨⟨3, ![16, 325, 40]⟩, x⟩, ⟨⟨3, ![16, 325, 40]⟩, x⟩, ⟨⟨3, ![16, 325, 40]⟩, x⟩] h (ix3 b m k)
      = x (ix3 b m ⟨k.val % 40, Nat.mod_lt _ (by decide)⟩) :=
  concatenate_replicate_apply 2 4 x h rfl (ix3 b m k) (ix3 b m ⟨k.val % 40, Nat.mod_lt _ (by decide)⟩) rfl (fun c hc => by
    match c with
    | ⟨0, _⟩ => rfl
    | ⟨1, _⟩ => rfl
    | ⟨2, _⟩ => exact absurd rfl hc)

end Concat

/-! ## The embedding gather, constants -/

section Gather
variable {α : Type}

/-- Rows of a [325,16] table at a [325,1] array of start indices: row m of the result is the table's row at the
    start index of m, read signed and clamped into the table. -/
theorem gather_rows (wf : GatherDims.WF ⟨2, ![325, 16]⟩ ⟨2, ![325, 1]⟩ ⟨2, ![325, 16]⟩ [1] [0] [] [0] [] 1 ![1, 16])
    (x : (⟨2, ![325, 16]⟩ : Shape).Idx → α) (idx : IVec ⟨2, ![325, 1]⟩ 32) (m : Fin 325) (f : Fin 16) :
    Host.gather (⟨[1], [0], [], [], [0], 1, ![1, 16], wf⟩ : GatherDims ⟨2, ![325, 16]⟩ ⟨2, ![325, 1]⟩ ⟨2, ![325, 16]⟩) x idx (ix2 m f)
      = x (ix2 (⟨min (idx (ix2 m (0 : Fin 1))).toInt.toNat 324, by omega⟩ : Fin 325) f) := by
  unfold Host.gather
  refine congrArg x (funext fun a => Fin.ext ?_)
  match a with
  | ⟨0, _⟩ =>
    show GatherDims.start _ (ix2 m f) idx 0 + GatherDims.batchCoord _ (ix2 m f) 0 + GatherDims.offCoord _ (ix2 m f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : GatherDims.siIdx (⟨[1], [0], [], [], [0], 1, ![1, 16], wf⟩ : GatherDims ⟨2, ![325, 16]⟩ ⟨2, ![325, 1]⟩ ⟨2, ![325, 16]⟩)
        (ix2 m f) ⟨List.idxOf (0 : Fin 2) [(0 : Fin 2)], List.idxOf_lt_length_iff.2 (List.mem_singleton.mpr rfl)⟩
        = ix2 m (0 : Fin 1) := by
      funext b; refine Fin.ext ?_
      match b with
      | ⟨0, _⟩ => rfl
      | ⟨1, _⟩ => rfl
    rw [hsi]
    rfl
  | ⟨1, _⟩ =>
    show GatherDims.start _ (ix2 m f) idx 1 + GatherDims.batchCoord _ (ix2 m f) 1 + GatherDims.offCoord _ (ix2 m f) 1 = f.val
    rw [GatherDims.batchCoord_eq_zero _ _ _ List.not_mem_nil]
    have hs : GatherDims.start (⟨[1], [0], [], [], [0], 1, ![1, 16], wf⟩ : GatherDims ⟨2, ![325, 16]⟩ ⟨2, ![325, 1]⟩ ⟨2, ![325, 16]⟩)
        (ix2 m f) idx 1 = 0 := by
      unfold GatherDims.start
      rw [dif_neg (show (1 : Fin 2) ∉ [(0 : Fin 2)] by decide)]
    have ho : GatherDims.offCoord (⟨[1], [0], [], [], [0], 1, ![1, 16], wf⟩ : GatherDims ⟨2, ![325, 16]⟩ ⟨2, ![325, 1]⟩ ⟨2, ![325, 16]⟩)
        (ix2 m f) 1 = f.val := by
      unfold GatherDims.offCoord
      rw [dif_pos ((GatherDims.mem_sKept _ _).mpr ⟨(show (1 : Fin 2) ∉ [(0 : Fin 2)] by decide), List.not_mem_nil⟩)]
      rfl
    rw [hs, ho]
    omega

end Gather

section Const

/-- The number of (batch, node) pairs, 5200, as the float the reference divides by. -/
abbrev c5200 : EReal := Ideal.ofBits .f32 0x45A28000#32
/-- The variance guard. -/
abbrev cEps : EReal := Ideal.ofBits .f32 0x3727C5AC#32
/-- The rectifier's floor. -/
abbrev cZero : EReal := Ideal.ofBits .f32 0x00000000#32

/-- The f32 pattern of −∞. -/
theorem ofBits_neg_inf : Ideal.ofBits .f32 0xFF800000#32 = ⊥ := by
  simp [Ideal.ofBits, Ideal.ieee]

/-- The f32 pattern of 5200. -/
theorem ofBits_5200 : Ideal.ofBits .f32 0x45A28000#32 = ((5200 : ℝ) : EReal) := by
  simp [Ideal.ofBits, Ideal.ieee, -EReal.coe_mul]
  norm_num

/-- A scalar constant broadcast to any shape. -/
theorem bc_const {T : Shape} (h : (⟨0, ![]⟩ : Shape).BroadcastsInDim T ![]) (w : BitVec 32) (j : T.Idx) :
    broadcastInDim T ![] h (constant (F := Ideal) ⟨0, ![]⟩ .f32 w) j = Ideal.ofBits .f32 w := by
  rw [broadcastInDim_scalar_apply]; rfl

end Const

end Cert.Proof.RefVal

end
-- ==== Proof.RefValOut.lean ====
/-
  The reference's result as a mathematical function of its 19 argument arrays, at the ideal values: families of
  extended reals indexed by coordinates.  The node features; for each of the 40 sparse operators a row softmax
  of a two-layer perceptron's scores, scattered into a 325 × 325 matrix (the scatter kept as the fold it is);
  ten layers of four operator applications summed, the layer's bias added, a batch normalisation over the batch and
  node axes with its mean and variance each one sum over both axes, and a rectifier; two dense layers.
-/
import proofs.«211384_g36696200577170_cont_8to1_b_1111_23_alg».proof.Proof.RefValTerm
import proofs.«211384_g36696200577170_cont_8to1_b_1111_23_alg».proof.Proof.K2ValSpec
import proofs.«211384_g36696200577170_cont_8to1_b_1111_23_alg».proof.Proof.LibAlg
import proofs.«211384_g36696200577170_cont_8to1_b_1111_23_alg».proof.Proof.RefValOps
import Idealize.ShloMosaic.Lib.ValueIdx

noncomputable section

open scoped BigOperators

namespace Cert.Proof.RefVal

open Idealize.ShloMosaic Idealize.ShloMosaic.ValueIdx Cert.ReferenceIdeal Cert.Proof
open Cert.ReferenceIdeal.Facts₀ Cert.ReferenceIdeal.Facts

variable [Cert.ReferenceIdeal.Facts]

/-- idx with jnp's wrap of a negative entry. -/
def idxN (idx : Ti Ideal S325) : Ti Ideal S325 :=
  select (cmpi .slt idx (broadcastInDim S325 ![] bcast_S_S325 (constantI S_ 32 0#32)))
    (addi idx (broadcastInDim S325 ![] bcast_S_S325 (constantI S_ 32 325#32))) idx

/-- The row of node2vec that node m reads: its wrapped index, read signed and clamped into the table. -/
def nodeRow (idx : Ti Ideal S325) (m : Fin 325) : Fin 325 :=
  ⟨min (idxN idx (ix1 m)).toInt.toNat 324, by omega⟩

/-- The node features: 24 input channels, then 16 embedding coordinates. -/
def X0 (A : Args Ideal) : Fin 16 → Fin 325 → Fin 40 → EReal := fun b m k =>
  if hk : k.val < 24 then A.x (ix3 b ⟨k.val, hk⟩ m) else A.n2v (ix2 (nodeRow A.idx m) ⟨k.val - 24, by omega⟩)

/-- Operator s, the score of neighbour slot t of node n: a two-layer perceptron on the slot's 5 map features. -/
def cRow (A : Args Ideal) (s : Fin 40) (n : Fin 325) (t : Fin 16) : EReal :=
  (∑ k : Fin 256,
      Ideal.tanh ((∑ p : Fin 5, A.maps (ix2 (⟨16 * n.val + t.val, by omega⟩ : Fin 5200) p) * A.LW1 (ix3 s p k)) + A.Lb1 (ix2 s k))
        * A.LW2 (ix3 s k (0 : Fin 1)))
    + A.Lb2 (ix2 s (0 : Fin 1))

/-- Operator s's 5200 weights: for each node the softmax of its 16 scores. -/
def aFlat (A : Args Ideal) (s : Fin 40) : Tf Ideal S5200 := fun i =>
  LibAlg.softmaxE (cRow A s (⟨(i 0).val / 16, by have h : (i 0).val < 5200 := (i 0).isLt; omega⟩ : Fin 325))
    (⟨(i 0).val % 16, Nat.mod_lt _ (by decide)⟩ : Fin 16)

/-- Operator s as a 325 × 325 matrix: zeros with the weights written at the positions L_idx names, in order. -/
def Lmat (A : Args Ideal) (s : Fin 40) (m n : Fin 325) : EReal :=
  Host.scatter scatter_S105625_S5200x1_S5200_n_0_0_1 (fun _ b => b) (fun _ => (0 : EReal)) (lidxT A.Lidx) (aFlat A s)
    (ix1 (⟨325 * m.val + n.val, by omega⟩ : Fin 105625))

/-- The four operators of layer i. -/
def Lfam (A : Args Ideal) : Fin 10 → Fin 4 → Fin 325 → Fin 325 → EReal :=
  fun i j => Lmat A ⟨4 * i.val + j.val, by omega⟩

def W0f (A : Args Ideal) : Fin 4 → Fin 160 → Fin 64 → EReal := fun j k f => A.W0 (ix3 j k f)
def WRf (A : Args Ideal) : Fin 9 → Fin 4 → Fin 64 → Fin 64 → EReal := fun i j k f => A.Wrest (ix4 i j k f)
def Gf (A : Args Ideal) : Fin 10 → Fin 64 → EReal := fun i f => A.gamma (ix2 i f)
def Bf (A : Args Ideal) : Fin 10 → Fin 64 → EReal := fun i f => A.beta (ix2 i f)
def b0f (A : Args Ideal) : Fin 64 → EReal := fun f => A.b0 (ix1 f)
def brf (A : Args Ideal) : Fin 9 → Fin 64 → EReal := fun i f => A.brest (ix2 i f)
def F1W (A : Args Ideal) : Fin 64 → Fin 512 → EReal := fun f h => A.fc1W (ix2 f h)
def F1B (A : Args Ideal) : Fin 512 → EReal := fun h => A.fc1b (ix1 h)
def F2W (A : Args Ideal) : Fin 512 → EReal := fun h => A.fc2W (ix2 h (0 : Fin 1))
def F2B (A : Args Ideal) : EReal := A.fc2b (ix1 (0 : Fin 1))

/-- A layer's linear part with its bias. -/
def convB {K : Nat} (L : Fin 4 → Fin 325 → Fin 325 → EReal) (x : Fin 16 → Fin 325 → Fin K → EReal)
    (W : Fin 4 → Fin K → Fin 64 → EReal) (bias : Fin 64 → EReal) : Fin 16 → Fin 325 → Fin 64 → EReal :=
  fun b m f => K2Val.conv L x W b m f + bias f

/-- The reference's batch normalisation of z (mean and variance one sum over both axes, divided by 5200), then the rectifier. -/
def bnreluRef (z : Fin 16 → Fin 325 → Fin 64 → EReal) (g be : Fin 64 → EReal) : Fin 16 → Fin 325 → Fin 64 → EReal :=
  fun b m f => max (LibAlg.bnRefE c5200 K2Val.ceps (fun b' m' => z b' m' f) (g f) (be f) b m) K2Val.c0

/-- The hidden state after layer i (0-based). -/
def hiddenRef (A : Args Ideal) : (i : Nat) → i < 10 → Fin 16 → Fin 325 → Fin 64 → EReal
  | 0, h => bnreluRef (convB (Lfam A ⟨0, h⟩) (K2Val.xcat (X0 A)) (W0f A) (b0f A)) (Gf A ⟨0, h⟩) (Bf A ⟨0, h⟩)
  | i + 1, h =>
      bnreluRef (convB (Lfam A ⟨i + 1, h⟩) (hiddenRef A i (by omega)) (WRf A ⟨i, by omega⟩) (brf A ⟨i, by omega⟩))
        (Gf A ⟨i + 1, h⟩) (Bf A ⟨i + 1, h⟩)

/-- The reference's result. -/
def out (A : Args Ideal) : Fin 16 → Fin 325 → EReal :=
  K2Val.head (hiddenRef A 9 (by decide)) (F1W A) (F1B A) (F2W A) (F2B A)

end Cert.Proof.RefVal

end
-- ==== Proof.LibNet.lean ====
/-
  The stages of the network over the real numbers, over abstract finite index types, and the
  extended-real text of each stage, which on real inputs is the real stage: a graph convolution
  Σ_j (L_j · x[b]) · W_j, a batch normalisation over the batch and node axes followed by the
  rectifier (spelt either with one sum over both axes and a bias on its input, or with a mean of
  means and no bias), and the two dense layers.
-/
import proofs.«211384_g36696200577170_cont_8to1_b_1111_23_alg».proof.Proof.LibAlg

noncomputable section

open Idealize.ShloMosaic

namespace Cert.Proof.LibNet

open Cert.Proof.LibAlg

variable {B M K F J H : Type*} [Fintype B] [Fintype M] [Fintype K] [Fintype F] [Fintype J] [Fintype H]

/-- The graph convolution. -/
def convR (L : J → M → M → ℝ) (x : B → M → K → ℝ) (W : J → K → F → ℝ) : B → M → F → ℝ :=
  fun b m f => ∑ j, ∑ k, (∑ n, L j m n * x b n k) * W j k f

theorem convE_coe (L : J → M → M → ℝ) (x : B → M → K → ℝ) (W : J → K → F → ℝ) (b : B) (m : M) (f : F) :
    (∑ j, ∑ k, (∑ n, ((L j m n : ℝ) : EReal) * ((x b n k : ℝ) : EReal)) * ((W j k f : ℝ) : EReal))
      = ((convR L x W b m f : ℝ) : EReal) := by
  simp only [convR, ← EReal.coe_mul, coe_sum]

/-- Batch normalisation of every feature over the first two axes, then the rectifier. -/
def bnreluR (y : B → M → F → ℝ) (g t : F → ℝ) (e : ℝ) : B → M → F → ℝ :=
  fun b m f => max (bnR (fun b' m' => y b' m' f) (g f) (t f) e b m) 0

theorem bnreluKerE_coe (y : B → M → F → ℝ) (g t : F → ℝ) {e : ℝ} (he : 0 < e)
    (hB : 0 < Fintype.card B) (hM : 0 < Fintype.card M) (b : B) (m : M) (f : F) :
    max (bnKerE ((Fintype.card B : ℝ) : EReal) ((Fintype.card M : ℝ) : EReal) (e : EReal)
        (fun b' m' => ((y b' m' f : ℝ) : EReal)) ((g f : ℝ) : EReal) ((t f : ℝ) : EReal) b m) 0
      = ((bnreluR y g t e b m f : ℝ) : EReal) := by
  rw [bnKerE_coe (fun b' m' => y b' m' f) (g f) (t f) e he hB hM, max_coe_zero]
  rfl

theorem bnreluRefE_coe (y : B → M → F → ℝ) (c g t : F → ℝ) {e : ℝ} (he : 0 < e)
    (hB : 0 < Fintype.card B) (hM : 0 < Fintype.card M) (b : B) (m : M) (f : F) :
    max (bnRefE (((Fintype.card B : ℝ) * (Fintype.card M : ℝ) : ℝ) : EReal) (e : EReal)
        (fun b' m' => ((y b' m' f : ℝ) : EReal) + ((c f : ℝ) : EReal)) ((g f : ℝ) : EReal) ((t f : ℝ) : EReal) b m) 0
      = ((bnreluR y g t e b m f : ℝ) : EReal) := by
  rw [bnRefE_coe (fun b' m' => y b' m' f) (c f) (g f) (t f) e he hB hM, max_coe_zero]
  rfl

/-- The two dense layers: a rectified hidden layer, then one output. -/
def headR (x : B → M → F → ℝ) (W1 : F → H → ℝ) (b1 : H → ℝ) (W2 : H → ℝ) (b2 : ℝ) : B → M → ℝ :=
  fun b m => (∑ h, max ((∑ f, x b m f * W1 f h) + b1 h) 0 * W2 h) + b2

theorem headE_coe (x : B → M → F → ℝ) (W1 : F → H → ℝ) (b1 : H → ℝ) (W2 : H → ℝ) (b2 : ℝ) (b : B) (m : M) :
    (∑ h, max ((∑ f, ((x b m f : ℝ) : EReal) * ((W1 f h : ℝ) : EReal)) + ((b1 h : ℝ) : EReal)) 0 * ((W2 h : ℝ) : EReal))
        + ((b2 : ℝ) : EReal)
      = ((headR x W1 b1 W2 b2 b m : ℝ) : EReal) := by
  simp only [headR, ← EReal.coe_mul, coe_sum, ← EReal.coe_add, max_coe_zero]

end Cert.Proof.LibNet

end
-- ==== Proof.NetModel.lean ====
/-
  The network over the real numbers at the program's extents: the input features repeated four
  times, ten layers of graph convolution, batch normalisation and rectifier, two dense layers.
-/
import proofs.«211384_g36696200577170_cont_8to1_b_1111_23_alg».proof.Proof.LibNet

noncomputable section

namespace Cert.Proof.NetModel

open Cert.Proof.LibNet

/-- Feature k of 160 is feature k mod 40 of the input. -/
def xcatR (X0 : Fin 16 → Fin 325 → Fin 40 → ℝ) : Fin 16 → Fin 325 → Fin 160 → ℝ :=
  fun b m k => X0 b m ⟨k.val % 40, Nat.mod_lt _ (by decide)⟩

/-- The hidden state after layer i (0-based). -/
def hiddenR (X0 : Fin 16 → Fin 325 → Fin 40 → ℝ) (L : Fin 10 → Fin 4 → Fin 325 → Fin 325 → ℝ)
    (W0 : Fin 4 → Fin 160 → Fin 64 → ℝ) (WR : Fin 9 → Fin 4 → Fin 64 → Fin 64 → ℝ)
    (G B : Fin 10 → Fin 64 → ℝ) (e : ℝ) : (i : Nat) → i < 10 → Fin 16 → Fin 325 → Fin 64 → ℝ
  | 0, h => bnreluR (convR (L ⟨0, h⟩) (xcatR X0) W0) (G ⟨0, h⟩) (B ⟨0, h⟩) e
  | i + 1, h => bnreluR (convR (L ⟨i + 1, h⟩) (hiddenR X0 L W0 WR G B e i (by omega)) (WR ⟨i, by omega⟩))
      (G ⟨i + 1, h⟩) (B ⟨i + 1, h⟩) e

/-- The network. -/
def netR (X0 : Fin 16 → Fin 325 → Fin 40 → ℝ) (L : Fin 10 → Fin 4 → Fin 325 → Fin 325 → ℝ)
    (W0 : Fin 4 → Fin 160 → Fin 64 → ℝ) (WR : Fin 9 → Fin 4 → Fin 64 → Fin 64 → ℝ)
    (G B : Fin 10 → Fin 64 → ℝ) (F1W : Fin 64 → Fin 512 → ℝ) (F1B : Fin 512 → ℝ)
    (F2W : Fin 512 → ℝ) (F2B : ℝ) (e : ℝ) : Fin 16 → Fin 325 → ℝ :=
  headR (hiddenR X0 L W0 WR G B e 9 (by decide)) F1W F1B F2W F2B

end Cert.Proof.NetModel

end
-- ==== Proof.LibConsts.lean ====
/-
  The float constants the two programs spell, as the extended reals their patterns denote.
  One module states them all.
-/
import Idealize.ShloMosaic.PureOps.Ideal

noncomputable section

namespace Cert.Proof.LibConsts

open Idealize.ShloMosaic

/-- The zero pattern denotes 0. -/
theorem ofBits_zero : Ideal.ofBits .f32 0x00000000#32 = 0 := by
  simp [Ideal.ofBits, Ideal.ieee]

/-- 325.0, the number of nodes. -/
theorem ofBits_325 : Ideal.ofBits .f32 0x43A28000#32 = ((325 : ℝ) : EReal) := by
  simp [Ideal.ofBits, Ideal.ieee, -EReal.coe_mul]; norm_num

/-- 16.0, the batch size. -/
theorem ofBits_16 : Ideal.ofBits .f32 0x41800000#32 = ((16 : ℝ) : EReal) := by
  simp [Ideal.ofBits, Ideal.ieee, -EReal.coe_mul]; norm_num

/-- 5200.0 = 16 · 325, the number of entries a normalisation averages over. -/
theorem ofBits_5200 : Ideal.ofBits .f32 0x45A28000#32 = ((5200 : ℝ) : EReal) := by
  simp [Ideal.ofBits, Ideal.ieee, -EReal.coe_mul]; norm_num

/-- The pattern of negative infinity denotes the bottom element. -/
theorem ofBits_neg_inf : Ideal.ofBits .f32 0xFF800000#32 = ⊥ := by
  simp [Ideal.ofBits, Ideal.ieee]

/-- The variance guard (the float nearest 1e-5) denotes a positive real number. -/
def epsR : ℝ := 10995116 * (2 : ℝ) ^ (-40 : ℤ)

theorem epsR_pos : 0 < epsR := by unfold epsR; positivity

theorem ofBits_eps : Ideal.ofBits .f32 0x3727C5AC#32 = ((epsR : ℝ) : EReal) := by
  simp [Ideal.ofBits, Ideal.ieee, epsR, -EReal.coe_mul]

end Cert.Proof.LibConsts

end
-- ==== Proof.JoinK.lean ====
/-
  The second TensorCore region's network function, on inputs that are real numbers, is the
  real-number network.
-/
import proofs.«211384_g36696200577170_cont_8to1_b_1111_23_alg».proof.Proof.K2ValSpec
import proofs.«211384_g36696200577170_cont_8to1_b_1111_23_alg».proof.Proof.NetModel
import proofs.«211384_g36696200577170_cont_8to1_b_1111_23_alg».proof.Proof.LibConsts

noncomputable section

open Idealize.ShloMosaic

namespace Cert.Proof.JoinK

open Cert.Proof.LibAlg Cert.Proof.LibNet Cert.Proof.NetModel Cert.Proof.LibConsts

theorem xcat_coe (X0 : Fin 16 → Fin 325 → Fin 40 → ℝ) :
    K2Val.xcat (fun b m k => ((X0 b m k : ℝ) : EReal)) = fun b m k => ((xcatR X0 b m k : ℝ) : EReal) := rfl

theorem conv_coe {K : Nat} (L : Fin 4 → Fin 325 → Fin 325 → ℝ) (x : Fin 16 → Fin 325 → Fin K → ℝ)
    (W : Fin 4 → Fin K → Fin 64 → ℝ) :
    K2Val.conv (fun j m n => ((L j m n : ℝ) : EReal)) (fun b n k => ((x b n k : ℝ) : EReal))
        (fun j k f => ((W j k f : ℝ) : EReal))
      = fun b m f => ((convR L x W b m f : ℝ) : EReal) := by
  funext b m f
  exact convE_coe L x W b m f

theorem bnrelu_coe (y : Fin 16 → Fin 325 → Fin 64 → ℝ) (g be : Fin 64 → ℝ) :
    K2Val.bnrelu (fun b m f => ((y b m f : ℝ) : EReal)) (fun f => ((g f : ℝ) : EReal)) (fun f => ((be f : ℝ) : EReal))
      = fun b m f => ((bnreluR y g be epsR b m f : ℝ) : EReal) := by
  funext b m f
  have h := bnreluKerE_coe y g be epsR_pos (B := Fin 16) (M := Fin 325) (by simp) (by simp) b m f
  simp only [bnKerE, Fintype.card_fin, Nat.cast_ofNat] at h
  simp only [K2Val.bnrelu, K2Val.dev, K2Val.mean2, K2Val.c325, K2Val.c16, K2Val.ceps, K2Val.c0,
    ofBits_325, ofBits_16, ofBits_eps, ofBits_zero]
  exact h

theorem hidden_coe (X0 : Fin 16 → Fin 325 → Fin 40 → ℝ) (L : Fin 10 → Fin 4 → Fin 325 → Fin 325 → ℝ)
    (W0 : Fin 4 → Fin 160 → Fin 64 → ℝ) (WR : Fin 9 → Fin 4 → Fin 64 → Fin 64 → ℝ)
    (G B : Fin 10 → Fin 64 → ℝ) : ∀ (i : Nat) (h : i < 10),
    K2Val.hidden (fun b m k => ((X0 b m k : ℝ) : EReal)) (fun i j m n => ((L i j m n : ℝ) : EReal))
        (fun j k f => ((W0 j k f : ℝ) : EReal)) (fun i j k f => ((WR i j k f : ℝ) : EReal))
        (fun i f => ((G i f : ℝ) : EReal)) (fun i f => ((B i f : ℝ) : EReal)) i h
      = fun b m f => ((hiddenR X0 L W0 WR G B epsR i h b m f : ℝ) : EReal)
  | 0, h => by
    rw [K2Val.hidden, hiddenR, xcat_coe, conv_coe, bnrelu_coe]
  | i + 1, h => by
    rw [K2Val.hidden, hiddenR, hidden_coe X0 L W0 WR G B i (by omega), conv_coe, bnrelu_coe]

theorem head_coe (x : Fin 16 → Fin 325 → Fin 64 → ℝ) (F1W : Fin 64 → Fin 512 → ℝ) (F1B : Fin 512 → ℝ)
    (F2W : Fin 512 → ℝ) (F2B : ℝ) :
    K2Val.head (fun b m f => ((x b m f : ℝ) : EReal)) (fun f h => ((F1W f h : ℝ) : EReal))
        (fun h => ((F1B h : ℝ) : EReal)) (fun h => ((F2W h : ℝ) : EReal)) ((F2B : ℝ) : EReal)
      = fun b m => ((headR x F1W F1B F2W F2B b m : ℝ) : EReal) := by
  funext b m
  simp only [K2Val.head, K2Val.c0, ofBits_zero]
  exact headE_coe x F1W F1B F2W F2B b m

/-- The region's network on real inputs is the real network. -/
theorem net_coe (X0 : Fin 16 → Fin 325 → Fin 40 → ℝ) (L : Fin 10 → Fin 4 → Fin 325 → Fin 325 → ℝ)
    (W0 : Fin 4 → Fin 160 → Fin 64 → ℝ) (WR : Fin 9 → Fin 4 → Fin 64 → Fin 64 → ℝ)
    (G B : Fin 10 → Fin 64 → ℝ) (F1W : Fin 64 → Fin 512 → ℝ) (F1B : Fin 512 → ℝ)
    (F2W : Fin 512 → ℝ) (F2B : ℝ) :
    K2Val.net (fun b m k => ((X0 b m k : ℝ) : EReal)) (fun i j m n => ((L i j m n : ℝ) : EReal))
        (fun j k f => ((W0 j k f : ℝ) : EReal)) (fun i j k f => ((WR i j k f : ℝ) : EReal))
        (fun i f => ((G i f : ℝ) : EReal)) (fun i f => ((B i f : ℝ) : EReal))
        (fun f h => ((F1W f h : ℝ) : EReal)) (fun h => ((F1B h : ℝ) : EReal))
        (fun h => ((F2W h : ℝ) : EReal)) ((F2B : ℝ) : EReal)
      = fun b m => ((netR X0 L W0 WR G B F1W F1B F2W F2B epsR b m : ℝ) : EReal) := by
  rw [K2Val.net, hidden_coe, head_coe]
  rfl

end Cert.Proof.JoinK

end
-- ==== Proof.PreReal.lean ====
/-
  The precondition read at the ideal values: its conjunct for a float input says that the absolute
  value of every entry is below +∞, so every entry is a real number.
-/
import proofs.«211384_g36696200577170_cont_8to1_b_1111_23_alg».proof.Pre_input_domain
import Idealize.ShloMosaic.PureOps.Ideal.Laws
import Idealize.ShloMosaic.Lib.ReduceAll
import Idealize.ShloMosaic.Lib.StableHlo.Predicate

noncomputable section

namespace Cert.Proof.PreReal

open Idealize.ShloMosaic Idealize.ShloMosaic.StableHlo.Predicate Cert.Pre_input_domain

variable [Cert.Pre_input_domain.Facts]

instance : Subsingleton S_.Idx := ⟨fun a b => funext fun d => d.elim0⟩

/-- The pattern of +∞ denotes the top element. -/
theorem ofBits_pos_inf : Ideal.ofBits .f32 0x7F800000#32 = ⊤ := by
  simp [Ideal.ofBits, Ideal.ieee]

/-- An extended real whose absolute value is below +∞ is a real number. -/
theorem exists_real_of_abs_lt_top {a : EReal} (h : max a (-a) < ⊤) : ∃ r : ℝ, a = (r : EReal) := by
  induction a using EReal.rec with
  | bot => simp at h
  | coe r => exact ⟨r, rfl⟩
  | top => simp at h

/-- One entry of a float input whose finiteness test answers 1. -/
theorem exists_real_of_test {s : Shape} (hb : S_.BroadcastsInDim s ![]) (x : FVec Ideal s .f32) (i : s.Idx)
    (h : cmpf .olt (Host.absf x) (broadcastInDim s ![] hb (constant S_ .f32 0x7F800000#32)) i = 1#1) :
    ∃ r : ℝ, x i = (r : EReal) := by
  have h' : Ideal.cmp .olt (max (x i) (-(x i))) (Ideal.ofBits .f32 0x7F800000#32) = 1#1 := by
    simpa only [cmpf, Host.absf, bcast_scalar hb Facts.h_S_, constant, Ideal.cmpf_def, Ideal.hostAbsf_def,
      Ideal.absf_def, Ideal.ofBits_def] using h
  rw [ofBits_pos_inf] at h'
  apply exists_real_of_abs_lt_top
  have h2 : BitVec.ofBool (decide (max (x i) (-(x i)) < ⊤)) = 1#1 := h'
  by_contra hn
  rw [decide_eq_false hn] at h2
  exact absurd h2 (by decide)

/-- One conjunct of the precondition: the test of every entry, reduced by and, answers 1. -/
theorem exists_real_of_all {s : Shape} {axes : List (Fin s.rank)} (hb : S_.BroadcastsInDim s ![])
    (hr : s.ReducesTo axes S_) (x : FVec Ideal s .f32)
    (h : Host.reduce IntOp.andi (cmpf .olt (Host.absf x) (broadcastInDim s ![] hb (constant S_ .f32 0x7F800000#32)))
      (constantI S_ 1 1#1) hr Facts.h_S_ (Shape.Idx.first Facts.h_S_) = 1#1) (i : s.Idx) :
    ∃ r : ℝ, x i = (r : EReal) :=
  exists_real_of_test hb x i (Host.reduce_andi_all _ _ _ _ _ h i)

/-- The precondition, all ones at the ideal values, makes every entry of every float input a real number. -/
theorem real_of_pre (a0 : FVec Ideal S16x24x325 .f32) (a1 : FVec Ideal S5200x5 .f32) (a2 : IVec S5200 32)
    (a3 : IVec S325 32) (a4 : FVec Ideal S325x16 .f32) (a5 : FVec Ideal S40x5x256 .f32) (a6 : FVec Ideal S40x256 .f32)
    (a7 : FVec Ideal S40x256x1 .f32) (a8 : FVec Ideal S40x1 .f32) (a9 : FVec Ideal S4x160x64 .f32) (a10 : FVec Ideal S64 .f32)
    (a11 : FVec Ideal S9x4x64x64 .f32) (a12 : FVec Ideal S9x64 .f32) (a13 : FVec Ideal S10x64 .f32) (a14 : FVec Ideal S10x64 .f32)
    (a15 : FVec Ideal S64x512 .f32) (a16 : FVec Ideal S512 .f32) (a17 : FVec Ideal S512x1 .f32) (a18 : FVec Ideal S1 .f32)
    (h : fn (F := Ideal) a0 a1 a2 a3 a4 a5 a6 a7 a8 a9 a10 a11 a12 a13 a14 a15 a16 a17 a18 = fun _ => 1#1) :
    (∀ i, ∃ r : ℝ, a0 i = (r : EReal)) ∧ (∀ i, ∃ r : ℝ, a1 i = (r : EReal)) ∧ (∀ i, ∃ r : ℝ, a4 i = (r : EReal))
    ∧ (∀ i, ∃ r : ℝ, a5 i = (r : EReal)) ∧ (∀ i, ∃ r : ℝ, a6 i = (r : EReal)) ∧ (∀ i, ∃ r : ℝ, a7 i = (r : EReal))
    ∧ (∀ i, ∃ r : ℝ, a8 i = (r : EReal)) ∧ (∀ i, ∃ r : ℝ, a9 i = (r : EReal)) ∧ (∀ i, ∃ r : ℝ, a10 i = (r : EReal))
    ∧ (∀ i, ∃ r : ℝ, a11 i = (r : EReal)) ∧ (∀ i, ∃ r : ℝ, a12 i = (r : EReal)) ∧ (∀ i, ∃ r : ℝ, a13 i = (r : EReal))
    ∧ (∀ i, ∃ r : ℝ, a14 i = (r : EReal)) ∧ (∀ i, ∃ r : ℝ, a15 i = (r : EReal)) ∧ (∀ i, ∃ r : ℝ, a16 i = (r : EReal))
    ∧ (∀ i, ∃ r : ℝ, a17 i = (r : EReal)) ∧ (∀ i, ∃ r : ℝ, a18 i = (r : EReal)) := by
  have h1 := congrFun h (Shape.Idx.first Facts.h_S_)
  unfold fn fn_part1 fn_part2 fn_part3 fn_part4 fn_part5 at h1
  simp only [andi, IntOp.andi_eq_one] at h1
  obtain ⟨⟨⟨⟨⟨⟨⟨⟨⟨⟨⟨⟨⟨⟨⟨⟨⟨⟨c0, c1⟩, c4⟩, c5⟩, c6⟩, c7⟩, c8⟩, c9⟩, c10⟩, c11⟩, c12⟩, c13⟩, c14⟩, c15⟩, c16⟩, c17⟩, c18⟩, _⟩, _⟩ := h1
  exact ⟨exists_real_of_all _ _ a0 c0, exists_real_of_all _ _ a1 c1, exists_real_of_all _ _ a4 c4,
    exists_real_of_all _ _ a5 c5, exists_real_of_all _ _ a6 c6, exists_real_of_all _ _ a7 c7,
    exists_real_of_all _ _ a8 c8, exists_real_of_all _ _ a9 c9, exists_real_of_all _ _ a10 c10,
    exists_real_of_all _ _ a11 c11, exists_real_of_all _ _ a12 c12, exists_real_of_all _ _ a13 c13,
    exists_real_of_all _ _ a14 c14, exists_real_of_all _ _ a15 c15, exists_real_of_all _ _ a16 c16,
    exists_real_of_all _ _ a17 c17, exists_real_of_all _ _ a18 c18⟩

end Cert.Proof.PreReal

end
-- ==== Proof.Join.lean ====
/-
  The join: the kernel's result, as a function of the 19 argument arrays, is the reference's when every
  float input is a real number.  The kernel's sparse operators are the reference's (a row softmax
  forgets the score bias L_b2, a real constant per operator); the kernel's network is the reference's
  (both are the real-number network on real inputs: the convolution biases cancel in the batch
  normalisations).
-/
import proofs.«211384_g36696200577170_cont_8to1_b_1111_23_alg».proof.Proof.RefValOut
import proofs.«211384_g36696200577170_cont_8to1_b_1111_23_alg».proof.Proof.JoinK
import proofs.«211384_g36696200577170_cont_8to1_b_1111_23_alg».proof.Proof.PreReal

noncomputable section

open scoped BigOperators

namespace Cert.Proof.Join

open Idealize.ShloMosaic Idealize.ShloMosaic.ValueIdx Cert.ReferenceIdeal Cert.Proof
open Cert.ReferenceIdeal.Facts₀ Cert.ReferenceIdeal.Facts
open Cert.Proof.LibAlg Cert.Proof.LibNet Cert.Proof.NetModel Cert.Proof.LibConsts Cert.Proof.RefVal

variable [Cert.ReferenceIdeal.Facts]

/-! ## The kernel's function of the argument arrays -/

/-- Operator s, the kernel's score of neighbour slot t of node n: the reference's without L_b2. -/
def scoreK (A : Args Ideal) (s : Fin 40) (n : Fin 325) (t : Fin 16) : EReal :=
  ∑ k : Fin 256,
    Ideal.tanh ((∑ p : Fin 5, A.maps (ix2 (⟨16 * n.val + t.val, by omega⟩ : Fin 5200) p) * A.LW1 (ix3 s p k)) + A.Lb1 (ix2 s k))
      * A.LW2 (ix3 s k (0 : Fin 1))

/-- The kernel's 5200 weights of operator s. -/
def aFlatK (A : Args Ideal) (s : Fin 40) : Tf Ideal S5200 := fun i =>
  LibAlg.softmaxE (scoreK A s (⟨(i 0).val / 16, by have h : (i 0).val < 5200 := (i 0).isLt; omega⟩ : Fin 325))
    (⟨(i 0).val % 16, Nat.mod_lt _ (by decide)⟩ : Fin 16)

/-- The kernel's operator s as a 325 × 325 matrix. -/
def LmatK (A : Args Ideal) (s : Fin 40) (m n : Fin 325) : EReal :=
  Host.scatter scatter_S105625_S5200x1_S5200_n_0_0_1 (fun _ b => b) (fun _ => (0 : EReal)) (lidxT A.Lidx) (aFlatK A s)
    (ix1 (⟨325 * m.val + n.val, by omega⟩ : Fin 105625))

def LfamK (A : Args Ideal) : Fin 10 → Fin 4 → Fin 325 → Fin 325 → EReal :=
  fun i j => LmatK A ⟨4 * i.val + j.val, by omega⟩

/-- The kernel's result. -/
def outK (A : Args Ideal) : Fin 16 → Fin 325 → EReal :=
  K2Val.net (X0 A) (LfamK A) (W0f A) (WRf A) (Gf A) (Bf A) (F1W A) (F1B A) (F2W A) (F2B A)

/-! ## Every float input a real number -/

structure Real (A : Args Ideal) : Prop where
  x : ∀ i, IsReal (A.x i)
  maps : ∀ i, IsReal (A.maps i)
  n2v : ∀ i, IsReal (A.n2v i)
  LW1 : ∀ i, IsReal (A.LW1 i)
  Lb1 : ∀ i, IsReal (A.Lb1 i)
  LW2 : ∀ i, IsReal (A.LW2 i)
  Lb2 : ∀ i, IsReal (A.Lb2 i)
  W0 : ∀ i, IsReal (A.W0 i)
  b0 : ∀ i, IsReal (A.b0 i)
  Wrest : ∀ i, IsReal (A.Wrest i)
  brest : ∀ i, IsReal (A.brest i)
  gamma : ∀ i, IsReal (A.gamma i)
  beta : ∀ i, IsReal (A.beta i)
  fc1W : ∀ i, IsReal (A.fc1W i)
  fc1b : ∀ i, IsReal (A.fc1b i)
  fc2W : ∀ i, IsReal (A.fc2W i)
  fc2b : ∀ i, IsReal (A.fc2b i)

/-- The precondition at the ideal values gives it. -/
theorem real_of_pre [Cert.Pre_input_domain.Facts] (A : Args Ideal)
    (h : Cert.Pre_input_domain.fn (F := Ideal) A.x A.maps A.Lidx A.idx A.n2v A.LW1 A.Lb1 A.LW2 A.Lb2 A.W0 A.b0 A.Wrest
      A.brest A.gamma A.beta A.fc1W A.fc1b A.fc2W A.fc2b = fun _ => 1#1) : Real A := by
  obtain ⟨h0, h1, h4, h5, h6, h7, h8, h9, h10, h11, h12, h13, h14, h15, h16, h17, h18⟩ :=
    PreReal.real_of_pre A.x A.maps A.Lidx A.idx A.n2v A.LW1 A.Lb1 A.LW2 A.Lb2 A.W0 A.b0 A.Wrest
      A.brest A.gamma A.beta A.fc1W A.fc1b A.fc2W A.fc2b h
  exact ⟨h0, h1, h4, h5, h6, h7, h8, h9, h10, h11, h12, h13, h14, h15, h16, h17, h18⟩

/-! ## The sparse operators -/

theorem scoreK_isReal (A : Args Ideal) (hA : Real A) (s : Fin 40) (n : Fin 325) (t : Fin 16) :
    IsReal (scoreK A s n t) :=
  IsReal.sum _ fun k _ =>
    ((IsReal.sum _ fun p _ => (hA.maps _).mul (hA.LW1 _)).add (hA.Lb1 _)).tanh.mul (hA.LW2 _)

/-- The reference's scores are the kernel's plus the operator's L_b2. -/
theorem cRow_eq (A : Args Ideal) (s : Fin 40) (n : Fin 325) :
    cRow A s n = fun t => scoreK A s n t + A.Lb2 (ix2 s (0 : Fin 1)) := rfl

/-- A row softmax forgets the real constant added to its scores. -/
theorem softmax_cRow (A : Args Ideal) (hA : Real A) (s : Fin 40) (n : Fin 325) :
    LibAlg.softmaxE (cRow A s n) = LibAlg.softmaxE (scoreK A s n) := by
  choose c hc using scoreK_isReal A hA s n
  obtain ⟨b, hb⟩ := hA.Lb2 (ix2 s (0 : Fin 1))
  have h1 : scoreK A s n = fun t => ((c t : ℝ) : EReal) := funext hc
  rw [cRow_eq, h1, hb]
  exact softmaxE_add_const c b

theorem aFlatK_eq (A : Args Ideal) (hA : Real A) (s : Fin 40) : aFlatK A s = aFlat A s := by
  funext i
  simp only [aFlatK, aFlat, softmax_cRow A hA s]

theorem LfamK_eq (A : Args Ideal) (hA : Real A) : LfamK A = Lfam A := by
  funext i j m n
  simp only [LfamK, Lfam, LmatK, Lmat, aFlatK_eq A hA]

theorem aFlat_isReal (A : Args Ideal) (hA : Real A) (s : Fin 40) (i : S5200.Idx) : IsReal (aFlat A s i) := by
  unfold aFlat
  exact softmaxE_isReal (fun t => (scoreK_isReal A hA s _ t).add (hA.Lb2 _)) _

/-- A scatter that writes updates over an operand keeps any property that the operand's and the updates' entries share. -/
theorem scatter_pred {α : Type} (P : α → Prop) {s si u : Shape} {w : Nat} (d : ScatterDims s si u)
    (x : s.Idx → α) (idx : IVec si w) (upd : u.Idx → α) (hx : ∀ i, P (x i)) (hu : ∀ j, P (upd j)) (i : s.Idx) :
    P (Host.scatter d (fun _ b => b) x idx upd i) := by
  unfold Host.scatter
  generalize List.finRange u.numel = l
  induction l generalizing x with
  | nil => exact hx i
  | cons n l ih =>
    rw [List.foldl_cons]
    apply ih
    intro i'
    generalize d.resultIdx? (u.rowMajor.symm n) idx = o
    cases o with
    | none => exact hx i'
    | some i0 =>
      show P (if i' = i0 then upd (u.rowMajor.symm n) else x i')
      split
      · exact hu _
      · exact hx i'

theorem Lfam_isReal (A : Args Ideal) (hA : Real A) (i : Fin 10) (j : Fin 4) (m n : Fin 325) : IsReal (Lfam A i j m n) := by
  unfold Lfam Lmat
  exact scatter_pred IsReal _ _ _ _ (fun _ => isReal_zero) (aFlat_isReal A hA _) _

theorem X0_isReal (A : Args Ideal) (hA : Real A) (b : Fin 16) (m : Fin 325) (k : Fin 40) : IsReal (X0 A b m k) := by
  unfold X0
  split
  · exact hA.x _
  · exact hA.n2v _

/-! ## The reference's network on real inputs is the real network -/

theorem c5200_eq : c5200 = ((((Fintype.card (Fin 16) : ℝ) * (Fintype.card (Fin 325) : ℝ) : ℝ)) : EReal) := by
  rw [Fintype.card_fin, Fintype.card_fin]
  exact LibConsts.ofBits_5200.trans (by norm_num)

theorem bnreluRef_convB_coe {K : Nat} (L : Fin 4 → Fin 325 → Fin 325 → ℝ) (x : Fin 16 → Fin 325 → Fin K → ℝ)
    (W : Fin 4 → Fin K → Fin 64 → ℝ) (bias g be : Fin 64 → ℝ) :
    bnreluRef (convB (fun j m n => ((L j m n : ℝ) : EReal)) (fun b n k => ((x b n k : ℝ) : EReal))
        (fun j k f => ((W j k f : ℝ) : EReal)) (fun f => ((bias f : ℝ) : EReal)))
        (fun f => ((g f : ℝ) : EReal)) (fun f => ((be f : ℝ) : EReal))
      = fun b m f => ((bnreluR (convR L x W) g be epsR b m f : ℝ) : EReal) := by
  funext b m f
  have h := bnreluRefE_coe (convR L x W) bias g be epsR_pos (B := Fin 16) (M := Fin 325) (by simp) (by simp) b m f
  rw [← h]
  simp only [bnreluRef, convB, JoinK.conv_coe, c5200_eq, K2Val.ceps, K2Val.c0, ofBits_eps, ofBits_zero]

theorem hiddenRef_coe (A : Args Ideal)
    (X0r : Fin 16 → Fin 325 → Fin 40 → ℝ) (Lr : Fin 10 → Fin 4 → Fin 325 → Fin 325 → ℝ)
    (W0r : Fin 4 → Fin 160 → Fin 64 → ℝ) (WRr : Fin 9 → Fin 4 → Fin 64 → Fin 64 → ℝ)
    (Gr Br : Fin 10 → Fin 64 → ℝ) (b0r : Fin 64 → ℝ) (brr : Fin 9 → Fin 64 → ℝ)
    (eX0 : X0 A = fun b m k => ((X0r b m k : ℝ) : EReal))
    (eL : Lfam A = fun i j m n => ((Lr i j m n : ℝ) : EReal))
    (eW0 : W0f A = fun j k f => ((W0r j k f : ℝ) : EReal))
    (eWR : WRf A = fun i j k f => ((WRr i j k f : ℝ) : EReal))
    (eG : Gf A = fun i f => ((Gr i f : ℝ) : EReal)) (eB : Bf A = fun i f => ((Br i f : ℝ) : EReal))
    (eb0 : b0f A = fun f => ((b0r f : ℝ) : EReal)) (ebr : brf A = fun i f => ((brr i f : ℝ) : EReal)) :
    ∀ (i : Nat) (h : i < 10),
      hiddenRef A i h = fun b m f => ((hiddenR X0r Lr W0r WRr Gr Br epsR i h b m f : ℝ) : EReal)
  | 0, h => by
    rw [hiddenRef, hiddenR, eX0, eL, eW0, eG, eB, eb0, JoinK.xcat_coe]
    exact bnreluRef_convB_coe _ _ _ _ _ _
  | i + 1, h => by
    rw [hiddenRef, hiddenR, hiddenRef_coe A X0r Lr W0r WRr Gr Br b0r brr eX0 eL eW0 eWR eG eB eb0 ebr i (by omega),
      eL, eWR, eG, eB, ebr]
    exact bnreluRef_convB_coe _ _ _ _ _ _

/-! ## The join -/

/-- A family of real entries is the coercion of a real family. -/
theorem exists_real_fun {ι : Type*} {x : ι → EReal} (h : ∀ i, IsReal (x i)) : ∃ r : ι → ℝ, x = fun i => ((r i : ℝ) : EReal) := by
  choose r hr using h
  exact ⟨r, funext hr⟩

theorem join (A : Args Ideal) (hA : Real A) : outK A = RefVal.out A := by
  obtain ⟨X0r, eX0⟩ : ∃ r : Fin 16 → Fin 325 → Fin 40 → ℝ, X0 A = fun b m k => ((r b m k : ℝ) : EReal) := by
    choose r hr using X0_isReal A hA
    exact ⟨r, funext fun b => funext fun m => funext fun k => hr b m k⟩
  obtain ⟨Lr, eL⟩ : ∃ r : Fin 10 → Fin 4 → Fin 325 → Fin 325 → ℝ, Lfam A = fun i j m n => ((r i j m n : ℝ) : EReal) := by
    choose r hr using Lfam_isReal A hA
    exact ⟨r, funext fun i => funext fun j => funext fun m => funext fun n => hr i j m n⟩
  obtain ⟨W0r, eW0⟩ : ∃ r : Fin 4 → Fin 160 → Fin 64 → ℝ, W0f A = fun j k f => ((r j k f : ℝ) : EReal) := by
    choose r hr using fun j k f => hA.W0 (ix3 j k f)
    exact ⟨r, funext fun j => funext fun k => funext fun f => hr j k f⟩
  obtain ⟨WRr, eWR⟩ : ∃ r : Fin 9 → Fin 4 → Fin 64 → Fin 64 → ℝ, WRf A = fun i j k f => ((r i j k f : ℝ) : EReal) := by
    choose r hr using fun i j k f => hA.Wrest (ix4 i j k f)
    exact ⟨r, funext fun i => funext fun j => funext fun k => funext fun f => hr i j k f⟩
  obtain ⟨Gr, eG⟩ : ∃ r : Fin 10 → Fin 64 → ℝ, Gf A = fun i f => ((r i f : ℝ) : EReal) := by
    choose r hr using fun i f => hA.gamma (ix2 i f)
    exact ⟨r, funext fun i => funext fun f => hr i f⟩
  obtain ⟨Br, eB⟩ : ∃ r : Fin 10 → Fin 64 → ℝ, Bf A = fun i f => ((r i f : ℝ) : EReal) := by
    choose r hr using fun i f => hA.beta (ix2 i f)
    exact ⟨r, funext fun i => funext fun f => hr i f⟩
  obtain ⟨b0r, eb0⟩ : ∃ r : Fin 64 → ℝ, b0f A = fun f => ((r f : ℝ) : EReal) := by
    choose r hr using fun f => hA.b0 (ix1 f)
    exact ⟨r, funext hr⟩
  obtain ⟨brr, ebr⟩ : ∃ r : Fin 9 → Fin 64 → ℝ, brf A = fun i f => ((r i f : ℝ) : EReal) := by
    choose r hr using fun i f => hA.brest (ix2 i f)
    exact ⟨r, funext fun i => funext fun f => hr i f⟩
  obtain ⟨F1Wr, eF1W⟩ : ∃ r : Fin 64 → Fin 512 → ℝ, F1W A = fun f h => ((r f h : ℝ) : EReal) := by
    choose r hr using fun f h => hA.fc1W (ix2 f h)
    exact ⟨r, funext fun f => funext fun h => hr f h⟩
  obtain ⟨F1Br, eF1B⟩ : ∃ r : Fin 512 → ℝ, F1B A = fun h => ((r h : ℝ) : EReal) := by
    choose r hr using fun h => hA.fc1b (ix1 h)
    exact ⟨r, funext hr⟩
  obtain ⟨F2Wr, eF2W⟩ : ∃ r : Fin 512 → ℝ, F2W A = fun h => ((r h : ℝ) : EReal) := by
    choose r hr using fun h => hA.fc2W (ix2 h (0 : Fin 1))
    exact ⟨r, funext hr⟩
  obtain ⟨F2Br, eF2B⟩ : ∃ r : ℝ, F2B A = ((r : ℝ) : EReal) := hA.fc2b (ix1 (0 : Fin 1))
  have hK : outK A = fun b m => ((netR X0r Lr W0r WRr Gr Br F1Wr F1Br F2Wr F2Br epsR b m : ℝ) : EReal) := by
    rw [outK, LfamK_eq A hA, eX0, eL, eW0, eWR, eG, eB, eF1W, eF1B, eF2W, eF2B]
    exact JoinK.net_coe _ _ _ _ _ _ _ _ _ _
  have hR : RefVal.out A = fun b m => ((netR X0r Lr W0r WRr Gr Br F1Wr F1Br F2Wr F2Br epsR b m : ℝ) : EReal) := by
    rw [RefVal.out, hiddenRef_coe A X0r Lr W0r WRr Gr Br b0r brr eX0 eL eW0 eWR eG eB eb0 ebr 9 (by decide),
      eF1W, eF1B, eF2W, eF2B, JoinK.head_coe]
    rfl
  rw [hK, hR]

end Cert.Proof.Join

end
-- ==== Proof.RefValStages.lean ====
/-
  The reference's blocks read at an index, at the ideal values, over abstract operands: each block of operations
  is the finite sum, fold, quotient or re-indexing of its operands that it spells.
-/
import proofs.«211384_g36696200577170_cont_8to1_b_1111_23_alg».proof.Proof.RefValTerm
import proofs.«211384_g36696200577170_cont_8to1_b_1111_23_alg».proof.Proof.RefValOps

noncomputable section

open scoped BigOperators

namespace Cert.Proof.RefVal

open Idealize.ShloMosaic Idealize.ShloMosaic.ValueIdx Cert.ReferenceIdeal
open Cert.ReferenceIdeal.Facts₀ Cert.ReferenceIdeal.Facts

variable [Cert.ReferenceIdeal.Facts]

/-! ## Members of the stacked parameters -/

theorem W1at_apply (W1 : Tf Ideal S40x5x256) (s : Fin 40) (p : Fin 5) (k : Fin 256) :
    W1at W1 s (ix2 p k) = W1 (ix3 s p k) := slice3 s (sl_W1 s) shapeCasts_S1x5x256_S5x256 W1 p k
theorem b1at_apply (b1 : Tf Ideal S40x256) (s : Fin 40) (k : Fin 256) :
    b1at b1 s (ix1 k) = b1 (ix2 s k) := slice2 s (sl_b1 s) shapeCasts_S1x256_S256 b1 k
theorem W2at_apply (W2 : Tf Ideal S40x256x1) (s : Fin 40) (k : Fin 256) (z : Fin 1) :
    W2at W2 s (ix2 k z) = W2 (ix3 s k z) := slice3 s (sl_W2 s) shapeCasts_S1x256x1_S256x1 W2 k z
theorem b2at_apply (b2 : Tf Ideal S40x1) (s : Fin 40) (z : Fin 1) :
    b2at b2 s (ix1 z) = b2 (ix2 s z) := slice2 s (sl_b2 s) shapeCasts_S1x1_S1 b2 z
theorem W0at_apply (W0 : Tf Ideal S4x160x64) (j : Fin 4) (k : Fin 160) (f : Fin 64) :
    W0at W0 j (ix2 k f) = W0 (ix3 j k f) := slice3 j (sl_W0 j) shapeCasts_S1x160x64_S160x64 W0 k f
theorem Wrat_apply (Wr : Tf Ideal S9x4x64x64) (i : Fin 9) (j : Fin 4) (k f : Fin 64) :
    Wrat Wr i (ix3 j k f) = Wr (ix4 i j k f) := slice4 i (sl_Wr i) shapeCasts_S1x4x64x64_S4x64x64 Wr j k f
theorem Wrjat_apply (Wi : Tf Ideal S4x64x64) (j : Fin 4) (k f : Fin 64) :
    Wrjat Wi j (ix2 k f) = Wi (ix3 j k f) := slice3 j (sl_Wrj j) shapeCasts_S1x64x64_S64x64 Wi k f
theorem brat_apply (br : Tf Ideal S9x64) (i : Fin 9) (f : Fin 64) :
    brat br i (ix1 f) = br (ix2 i f) := slice2 i (sl_br i) shapeCasts_S1x64_S64 br f
theorem bnat_apply (g : Tf Ideal S10x64) (i : Fin 10) (f : Fin 64) :
    bnat g i (ix1 f) = g (ix2 i f) := slice2 i (sl_bn i) shapeCasts_S1x64_S64 g f

/-! ## The node features -/

theorem x0T_apply (x : Tf Ideal S16x24x325) (idx : Ti Ideal S325) (n2v : Tf Ideal S325x16) (b : Fin 16) (m : Fin 325) (k : Fin 40) :
    x0T x idx n2v (ix3 b m k)
      = if hk : k.val < 24 then x (ix3 b ⟨k.val, hk⟩ m)
        else n2v (ix2 (⟨min ((select (cmpi .slt idx (broadcastInDim S325 ![] bcast_S_S325 (constantI S_ 32 0#32)))
            (addi idx (broadcastInDim S325 ![] bcast_S_S325 (constantI S_ 32 325#32))) idx) (ix1 m)).toInt.toNat 324, by omega⟩ : Fin 325)
            (⟨k.val - 24, by omega⟩ : Fin 16)) := by
  unfold x0T
  refine (cat_24_16 concatenates_S16x325x24_S16x325x16_S16x325x40_d2 _ _ b m k).trans ?_
  split
  · next hk => exact tr021 transposes_S16x24x325_S16x325x24_0_2_1 x b m ⟨k.val, hk⟩
  · next hk =>
    unfold embT
    refine (bc_batch3 bcast_S325x16_S1x325x16_1_2 bcast_S1x325x16_S16x325x16_0_1_2 _ b m ⟨k.val - 24, by omega⟩).trans ?_
    refine (gather_rows gather_S325x16_S325x1_S325x16_1_0_n_n_0_1_116_wf n2v _ m ⟨k.val - 24, by omega⟩).trans ?_
    refine congrArg n2v (congrArg (fun r => ix2 r (⟨k.val - 24, by omega⟩ : Fin 16)) (Fin.ext ?_))
    dsimp only
    rw [bc_idxcol bcast_S325_S325x1_0 _ m (0 : Fin 1)]

theorem xcatT_apply (x0 : Tf Ideal S16x325x40) (b : Fin 16) (m : Fin 325) (k : Fin 160) :
    xcatT x0 (ix3 b m k) = x0 (ix3 b m ⟨k.val % 40, Nat.mod_lt _ (by decide)⟩) :=
  cat4_40 concatenates_S16x325x40_S16x325x40_S16x325x40_S16x325x40_S16x325x160_d2 x0 b m k

/-! ## One sparse operator -/

theorem hT_apply (maps : Tf Ideal S5200x5) (W1 : Tf Ideal S5x256) (b1 : Tf Ideal S256) (r : Fin 5200) (k : Fin 256) :
    hT maps W1 b1 (ix2 r k) = Ideal.tanh ((∑ p : Fin 5, maps (ix2 r p) * W1 (ix2 p k)) + b1 (ix1 k)) := by
  have e1 := dot_mat dot_S5200x5_S5x256_S5200x256_1_0_0_1_n_n_wf none maps W1 r k
  have e2 := bc_row bcast_S256_S1x256_1 bcast_S1x256_S5200x256_0_1 b1 r k
  exact congrArg Ideal.tanh (congrArg₂ (· + ·) e1 e2)

theorem cT_apply (h : Tf Ideal S5200x256) (W2 : Tf Ideal S256x1) (b2 : Tf Ideal S1) (n : Fin 325) (t : Fin 16) :
    cT h W2 b2 (ix2 n t)
      = (∑ k : Fin 256, h (ix2 (⟨16 * n.val + t.val, by omega⟩ : Fin 5200) k) * W2 (ix2 k (0 : Fin 1))) + b2 (ix1 (0 : Fin 1)) := by
  unfold cT
  refine (sc_5200x1_325x16 shapeCasts_S5200x1_S325x16 _ n t).trans ?_
  have e1 := dot_mat dot_S5200x256_S256x1_S5200x1_1_0_0_1_n_n_wf none h W2 (⟨16 * n.val + t.val, by omega⟩ : Fin 5200) (0 : Fin 1)
  have e2 := bc_row bcast_S1_S1x1_1 bcast_S1x1_S5200x1_0_1 b2 (⟨16 * n.val + t.val, by omega⟩ : Fin 5200) (0 : Fin 1)
  exact congrArg₂ (· + ·) e1 e2

theorem eT_apply (c : Tf Ideal S325x16) (n : Fin 325) (t : Fin 16) :
    eT c (ix2 n t) = Ideal.exp (c (ix2 n t) - (Finset.univ : Finset (Fin 16)).fold max ⊥ (fun t' => c (ix2 n t'))) := by
  unfold eT
  have e1 := bc_col bcast_S325_S325x1_0 bcast_S325x1_S325x16_0_1
    (maximumf (broadcastInDim S325 ![] bcast_S_S325 (constant (F := Ideal) S_ .f32 0xFF800000#32))
      (Host.reduce FloatOps.maximumf c (constant (F := Ideal) S_ .f32 0xFF800000#32) reducesTo_S325x16_S325_d1 h_S_)) n t
  have e2 := rmax_325x16 reducesTo_S325x16_S325_d1 h_S_ c (constant (F := Ideal) S_ .f32 0xFF800000#32) n
  have e3 : broadcastInDim S325 ![] bcast_S_S325 (constant (F := Ideal) S_ .f32 0xFF800000#32) (ix1 n) = (⊥ : EReal) :=
    (bc_const bcast_S_S325 _ (ix1 n)).trans ofBits_neg_inf
  have e4 : (constant (F := Ideal) S_ .f32 0xFF800000#32) ix0 = (⊥ : EReal) := ofBits_neg_inf
  have e5 : (maximumf (broadcastInDim S325 ![] bcast_S_S325 (constant (F := Ideal) S_ .f32 0xFF800000#32))
      (Host.reduce FloatOps.maximumf c (constant (F := Ideal) S_ .f32 0xFF800000#32) reducesTo_S325x16_S325_d1 h_S_)) (ix1 n)
      = (Finset.univ : Finset (Fin 16)).fold max ⊥ (fun t' => c (ix2 n t')) := by
    show max (broadcastInDim S325 ![] bcast_S_S325 (constant (F := Ideal) S_ .f32 0xFF800000#32) (ix1 n))
      (Host.reduce FloatOps.maximumf c (constant (F := Ideal) S_ .f32 0xFF800000#32) reducesTo_S325x16_S325_d1 h_S_ (ix1 n)) = _
    rw [e3, e2, e4, max_bot_left]
  exact congrArg Ideal.exp (congrArg (c (ix2 n t) - ·) (e1.trans e5))

theorem aT_apply (e : Tf Ideal S325x16) (r : Fin 5200) :
    aT e (ix1 r)
      = Ideal.div (e (ix2 (⟨r.val / 16, by omega⟩ : Fin 325) (⟨r.val % 16, by omega⟩ : Fin 16)))
          (∑ t' : Fin 16, e (ix2 (⟨r.val / 16, by omega⟩ : Fin 325) t')) := by
  unfold aT
  refine (sc_325x16_5200 shapeCasts_S325x16_S5200 _ r).trans ?_
  have e1 := bc_col bcast_S325_S325x1_0 bcast_S325x1_S325x16_0_1
    (Host.reduceAdd e (constant (F := Ideal) S_ .f32 0x00000000#32) reducesTo_S325x16_S325_d1 h_S_)
    (⟨r.val / 16, by omega⟩ : Fin 325) (⟨r.val % 16, by omega⟩ : Fin 16)
  have e2 := rsum_325x16 reducesTo_S325x16_S325_d1 h_S_ e (constant (F := Ideal) S_ .f32 0x00000000#32) (⟨r.val / 16, by omega⟩ : Fin 325)
  have e4 : (constant (F := Ideal) S_ .f32 0x00000000#32) ix0 = (0 : EReal) := Ideal.ofBits_zero_f32
  rw [e4, zero_add] at e2
  exact congrArg (Ideal.div _ ·) (e1.trans e2)

theorem LT_apply (a : Tf Ideal S5200) (Lidx : Ti Ideal S5200) (m n : Fin 325) :
    LT a Lidx (ix2 m n)
      = Host.scatter scatter_S105625_S5200x1_S5200_n_0_0_1 (fun _ b => b) (fun _ => (0 : EReal)) (lidxT Lidx) a
          (ix1 (⟨325 * m.val + n.val, by omega⟩ : Fin 105625)) := by
  unfold LT
  refine (sc_105625_325x325 shapeCasts_S105625_S325x325 _ m n).trans ?_
  have ez : broadcastInDim S105625 ![] bcast_S_S105625 (constant (F := Ideal) S_ .f32 0x00000000#32) = fun _ => (0 : EReal) :=
    funext fun j => (bc_const bcast_S_S105625 _ j).trans Ideal.ofBits_zero_f32
  rw [ez]

/-! ## One layer -/

theorem convT0_apply (x : Tf Ideal S16x325x160) (L : Tf Ideal S325x325) (W : Tf Ideal S160x64) (b : Fin 16) (m : Fin 325) (f : Fin 64) :
    convT0 x L W (ix3 b m f) = ∑ k : Fin 160, (∑ n : Fin 325, L (ix2 m n) * x (ix3 b n k)) * W (ix2 k f) := by
  unfold convT0
  refine (dot_tW dot_S16x325x160_S160x64_S16x325x64_2_0_01_1_n_n_wf none _ W b m f).trans ?_
  refine Finset.sum_congr rfl fun k _ => ?_
  have e1 := tr021 transposes_S16x160x325_S16x325x160_0_2_1
    (Host.dotGeneral (F := Ideal) (φ₁ := .f32) (φ₂ := .f32) dot_S16x325x160_S325x325_S16x160x325_1_1_02_0_n_n none x L) b m k
  have e2 := dot_xL dot_S16x325x160_S325x325_S16x160x325_1_1_02_0_n_n_wf none x L b k m
  exact congrArg (· * W (ix2 k f)) ((e1.trans e2).trans (Finset.sum_congr rfl fun n _ => mul_comm _ _))

theorem convTR_apply (x : Tf Ideal S16x325x64) (L : Tf Ideal S325x325) (W : Tf Ideal S64x64) (b : Fin 16) (m : Fin 325) (f : Fin 64) :
    convTR x L W (ix3 b m f) = ∑ k : Fin 64, (∑ n : Fin 325, L (ix2 m n) * x (ix3 b n k)) * W (ix2 k f) := by
  unfold convTR
  refine (dot_tW dot_S16x325x64_S64x64_S16x325x64_2_0_01_1_n_n_wf none _ W b m f).trans ?_
  refine Finset.sum_congr rfl fun k _ => ?_
  have e1 := tr021 transposes_S16x64x325_S16x325x64_0_2_1
    (Host.dotGeneral (F := Ideal) (φ₁ := .f32) (φ₂ := .f32) dot_S16x325x64_S325x325_S16x64x325_1_1_02_0_n_n none x L) b m k
  have e2 := dot_xL dot_S16x325x64_S325x325_S16x64x325_1_1_02_0_n_n_wf none x L b k m
  exact congrArg (· * W (ix2 k f)) ((e1.trans e2).trans (Finset.sum_congr rfl fun n _ => mul_comm _ _))

theorem b3_apply (v : Tf Ideal S64) (b : Fin 16) (m : Fin 325) (f : Fin 64) : b3 v (ix3 b m f) = v (ix1 f) :=
  bc_last3 bcast_S64_S1x1x64_2 bcast_S1x1x64_S16x325x64_0_1_2 v b m f

theorem zeros3_apply (b : Fin 16) (m : Fin 325) (f : Fin 64) :
    broadcastInDim S16x325x64 ![] bcast_S_S16x325x64 (constant (F := Ideal) S_ .f32 0x00000000#32) (ix3 b m f) = cZero :=
  bc_const bcast_S_S16x325x64 _ _

theorem sum4T_apply (c0 c1 c2 c3 : Tf Ideal S16x325x64) (bias : Tf Ideal S64) (b : Fin 16) (m : Fin 325) (f : Fin 64) :
    sum4T c0 c1 c2 c3 bias (ix3 b m f)
      = c0 (ix3 b m f) + c1 (ix3 b m f) + c2 (ix3 b m f) + c3 (ix3 b m f) + bias (ix1 f) := by
  unfold sum4T
  show (((broadcastInDim S16x325x64 ![] bcast_S_S16x325x64 (constant (F := Ideal) S_ .f32 0x00000000#32) (ix3 b m f) + c0 (ix3 b m f))
    + c1 (ix3 b m f)) + c2 (ix3 b m f)) + c3 (ix3 b m f) + b3 bias (ix3 b m f) = _
  rw [zeros3_apply, b3_apply]
  show (((Ideal.ofBits .f32 0x00000000#32 + c0 (ix3 b m f)) + c1 (ix3 b m f)) + c2 (ix3 b m f)) + c3 (ix3 b m f) + bias (ix1 f) = _
  rw [Ideal.ofBits_zero_f32, zero_add]

theorem rsum3 (y : Tf Ideal S16x325x64) (f : Fin 64) :
    Host.reduceAdd y (constant (F := Ideal) S_ .f32 0x00000000#32) reducesTo_S16x325x64_S64_d0_1 h_S_ (ix1 f)
      = ∑ b : Fin 16, ∑ m : Fin 325, y (ix3 b m f) := by
  have e2 := rsum_16x325x64 reducesTo_S16x325x64_S64_d0_1 h_S_ y (constant (F := Ideal) S_ .f32 0x00000000#32) f
  have e4 : (constant (F := Ideal) S_ .f32 0x00000000#32) ix0 = (0 : EReal) := Ideal.ofBits_zero_f32
  rw [e4, zero_add] at e2
  exact e2

theorem meanT_apply (y : Tf Ideal S16x325x64) (f : Fin 64) :
    meanT y (ix1 f) = Ideal.div (∑ b : Fin 16, ∑ m : Fin 325, y (ix3 b m f)) c5200 := by
  unfold meanT
  have e1 := rsum3 y f
  have e2 : broadcastInDim S64 ![] bcast_S_S64 (constant (F := Ideal) S_ .f32 0x45A28000#32) (ix1 f) = c5200 := bc_const bcast_S_S64 _ _
  exact congrArg₂ Ideal.div e1 e2

theorem sqT_apply (y : Tf Ideal S16x325x64) (b : Fin 16) (m : Fin 325) (f : Fin 64) :
    sqT y (ix3 b m f)
      = (y (ix3 b m f) - Ideal.div (∑ b' : Fin 16, ∑ m' : Fin 325, y (ix3 b' m' f)) c5200)
        * (y (ix3 b m f) - Ideal.div (∑ b' : Fin 16, ∑ m' : Fin 325, y (ix3 b' m' f)) c5200) := by
  unfold sqT
  have e0 := bc_full3 bcast_S1x1x64_S16x325x64_0_1_2
    (Host.divf (broadcastInDim S1x1x64 ![2] bcast_S64_S1x1x64_2 (Host.reduceAdd y (constant (F := Ideal) S_ .f32 0x00000000#32) reducesTo_S16x325x64_S64_d0_1 h_S_))
      (broadcastInDim S1x1x64 ![] bcast_S_S1x1x64 (constant (F := Ideal) S_ .f32 0x45A28000#32))) b m f
  have e1 := bc_to113 bcast_S64_S1x1x64_2 (Host.reduceAdd y (constant (F := Ideal) S_ .f32 0x00000000#32) reducesTo_S16x325x64_S64_d0_1 h_S_) f
  have e2 : broadcastInDim S1x1x64 ![] bcast_S_S1x1x64 (constant (F := Ideal) S_ .f32 0x45A28000#32) (ix3 (0 : Fin 1) (0 : Fin 1) f) = c5200 :=
    bc_const bcast_S_S1x1x64 _ _
  have e3 := rsum3 y f
  have e5 : broadcastInDim S16x325x64 ![0, 1, 2] bcast_S1x1x64_S16x325x64_0_1_2
      (Host.divf (broadcastInDim S1x1x64 ![2] bcast_S64_S1x1x64_2 (Host.reduceAdd y (constant (F := Ideal) S_ .f32 0x00000000#32) reducesTo_S16x325x64_S64_d0_1 h_S_))
        (broadcastInDim S1x1x64 ![] bcast_S_S1x1x64 (constant (F := Ideal) S_ .f32 0x45A28000#32))) (ix3 b m f)
      = Ideal.div (∑ b' : Fin 16, ∑ m' : Fin 325, y (ix3 b' m' f)) c5200 :=
    e0.trans (congrArg₂ Ideal.div (e1.trans e3) e2)
  exact congrArg₂ (· * ·) (congrArg (y (ix3 b m f) - ·) e5) (congrArg (y (ix3 b m f) - ·) e5)

theorem nT_apply : (nT (F := Ideal)) ix0 = c5200 := by
  show Ideal.ofBits .f32 0x45A28000#32 - (((0#32 : BitVec 32).toInt : ℝ) : EReal) = _
  have : (((0#32 : BitVec 32).toInt : ℝ) : EReal) = 0 := by norm_num
  rw [this, sub_zero]

theorem varT_apply (y : Tf Ideal S16x325x64) (f : Fin 64) :
    varT y (ix1 f) = Ideal.div (∑ b : Fin 16, ∑ m : Fin 325, sqT y (ix3 b m f)) c5200 := by
  unfold varT
  have hn : broadcastInDim S64 ![] bcast_S_S64 (nT (F := Ideal)) (ix1 f) = c5200 :=
    (broadcastInDim_scalar_apply bcast_S_S64 _ _).trans nT_apply
  have hc : broadcastInDim S64 ![] bcast_S_S64 (cmpf .ogt (nT (F := Ideal)) (constant (F := Ideal) S_ .f32 0x00000000#32)) (ix1 f) = 1#1 := by
    rw [broadcastInDim_scalar_apply]
    show Ideal.cmp .ogt ((nT (F := Ideal)) ix0) (Ideal.ofBits .f32 0x00000000#32) = 1#1
    rw [nT_apply, Ideal.ofBits_zero_f32]
    show Ideal.cmp .ogt (Ideal.ofBits .f32 0x45A28000#32) 0 = 1#1
    rw [ofBits_5200]
    simp [Ideal.cmp]
  show Scalar.select (broadcastInDim S64 ![] bcast_S_S64 (cmpf .ogt (nT (F := Ideal)) (constant (F := Ideal) S_ .f32 0x00000000#32)) (ix1 f))
      (Ideal.div (Host.reduceAdd (sqT y) (constant (F := Ideal) S_ .f32 0x00000000#32) reducesTo_S16x325x64_S64_d0_1 h_S_ (ix1 f))
        (broadcastInDim S64 ![] bcast_S_S64 (nT (F := Ideal)) (ix1 f))) _ = _
  rw [hc, select_one, hn, rsum3]

theorem bnT_apply (y : Tf Ideal S16x325x64) (g be : Tf Ideal S64) (b : Fin 16) (m : Fin 325) (f : Fin 64) :
    bnT y g be (ix3 b m f)
      = max (Ideal.div (y (ix3 b m f) - meanT y (ix1 f)) (Ideal.sqrt (varT y (ix1 f) + cEps)) * g (ix1 f) + be (ix1 f)) cZero := by
  unfold bnT
  show max (Ideal.div (y (ix3 b m f) - b3 (meanT y) (ix3 b m f))
      (b3 (Host.sqrt (addf (varT y) (broadcastInDim S64 ![] bcast_S_S64 (constant (F := Ideal) S_ .f32 0x3727C5AC#32)))) (ix3 b m f))
      * b3 g (ix3 b m f) + b3 be (ix3 b m f))
    (broadcastInDim S16x325x64 ![] bcast_S_S16x325x64 (constant (F := Ideal) S_ .f32 0x00000000#32) (ix3 b m f)) = _
  rw [b3_apply, b3_apply, b3_apply, b3_apply, zeros3_apply]
  show max (Ideal.div (y (ix3 b m f) - meanT y (ix1 f))
      (Ideal.sqrt (varT y (ix1 f) + broadcastInDim S64 ![] bcast_S_S64 (constant (F := Ideal) S_ .f32 0x3727C5AC#32) (ix1 f)))
      * g (ix1 f) + be (ix1 f)) cZero = _
  rw [bc_const bcast_S_S64]

/-! ## The two dense layers at the end -/

theorem headT_apply (x : Tf Ideal S16x325x64) (fc1W : Tf Ideal S64x512) (fc1b : Tf Ideal S512) (fc2W : Tf Ideal S512x1) (fc2b : Tf Ideal S1)
    (b : Fin 16) (m : Fin 325) :
    headT x fc1W fc1b fc2W fc2b (ix2 b m)
      = (∑ h : Fin 512, max ((∑ f : Fin 64, x (ix3 b m f) * fc1W (ix2 f h)) + fc1b (ix1 h)) cZero * fc2W (ix2 h (0 : Fin 1)))
        + fc2b (ix1 (0 : Fin 1)) := by
  unfold headT
  refine (sc_5200x1_16x325 shapeCasts_S5200x1_S16x325 _ b m).trans ?_
  have e2 := bc_row bcast_S1_S1x1_1 bcast_S1x1_S5200x1_0_1 fc2b (⟨325 * b.val + m.val, by omega⟩ : Fin 5200) (0 : Fin 1)
  refine congrArg₂ (· + ·) ?_ e2
  refine (dot_mat dot_S5200x512_S512x1_S5200x1_1_0_0_1_n_n_wf none _ fc2W (⟨325 * b.val + m.val, by omega⟩ : Fin 5200) (0 : Fin 1)).trans ?_
  refine Finset.sum_congr rfl fun h _ => ?_
  refine congrArg (· * fc2W (ix2 h (0 : Fin 1))) ?_
  have e3 := dot_mat dot_S5200x64_S64x512_S5200x512_1_0_0_1_n_n_wf none (shapeCast S5200x64 x shapeCasts_S16x325x64_S5200x64) fc1W
    (⟨325 * b.val + m.val, by omega⟩ : Fin 5200) h
  have e4 : ∀ f : Fin 64, shapeCast S5200x64 x shapeCasts_S16x325x64_S5200x64 (ix2 (⟨325 * b.val + m.val, by omega⟩ : Fin 5200) f) = x (ix3 b m f) :=
    fun f => sc_16x325x64_5200x64 shapeCasts_S16x325x64_S5200x64 x b m f
  simp only [e4] at e3
  have e5 := bc_row bcast_S512_S1x512_1 bcast_S1x512_S5200x512_0_1 fc1b (⟨325 * b.val + m.val, by omega⟩ : Fin 5200) h
  have e6 : broadcastInDim S5200x512 ![] bcast_S_S5200x512 (constant (F := Ideal) S_ .f32 0x00000000#32) (ix2 (⟨325 * b.val + m.val, by omega⟩ : Fin 5200) h) = cZero :=
    bc_const bcast_S_S5200x512 _ _
  exact congrArg₂ max (congrArg₂ (· + ·) e3 e5) e6

end Cert.Proof.RefVal

end
-- ==== Proof.KI.KVal.lean ====
/-
  The kernel program's result as a function of its 19 argument arrays: with the three launches' result arrays
  given as what the launches compute (the first TensorCore region's row softmaxes, the SparseCore call's sequential
  scatters, the second TensorCore region's network), the last valuation's result buffer holds, at (b, m), the
  kernel's function of the arguments; under the precondition that is the reference's.
-/
import proofs.«211384_g36696200577170_cont_8to1_b_1111_23_alg».proof.Proof.KI.Vals
import proofs.«211384_g36696200577170_cont_8to1_b_1111_23_alg».proof.Proof.KI.K1Pay
import proofs.«211384_g36696200577170_cont_8to1_b_1111_23_alg».proof.Proof.LibScatterIdx
import proofs.«211384_g36696200577170_cont_8to1_b_1111_23_alg».proof.Proof.Join
import proofs.«211384_g36696200577170_cont_8to1_b_1111_23_alg».proof.Proof.RefValStages

noncomputable section

namespace Cert.Proof.KI.KVal

open Idealize.ShloMosaic Idealize.ShloMosaic.ValueIdx Idealize.ShloMosaic.StableHlo
open Cert.KernelIdeal Cert.KernelIdeal.Gen Cert.Proof.KI Cert.Proof.KI.Host Cert.Proof.KI.Vals
open Cert.Proof.LibAlg Cert.Proof.RefVal Cert.Proof.Join

variable [Cert.ReferenceIdeal.Facts] [Cert.Pre_input_domain.Facts]

/-! ## The SparseCore call's rows are the operators' matrices -/

/-- The rank-1 index at a coordinate, in its two spellings. -/
theorem ix1_eq_ofFin {n : Nat} (k : Fin n) : (ix1 k : (⟨1, ![n]⟩ : Shape).Idx) = Shape.Idx.ofFin k := by
  funext a
  match a with
  | ⟨0, _⟩ => exact Fin.ext rfl

theorem ixI_eq_ofFin (k : Fin 5200) : (ixI k : (⟨1, ![5200]⟩ : Shape).Idx) = Shape.Idx.ofFin k := by
  funext a
  match a with
  | ⟨0, _⟩ => exact Fin.ext rfl

/-- The zero the rows start from is 0 at the ideal values. -/
theorem zeroF_ideal : zeroF (F := Ideal) = (0 : EReal) :=
  Cert.Proof.LibConsts.ofBits_zero

theorem outVal_LmatK (A : Args Ideal) (d : Dev nD)
    (hrange : ∀ i, 0 ≤ (A.Lidx i).toInt ∧ (A.Lidx i).toInt ≤ 105624)
    (a : Buf (Elt Ideal) (aLoc d)) (ix : Buf (Elt Ideal) (iLoc d))
    (hix : ix = Cert.Proof.LibScat.idxmVec Cert.KernelIdeal.scatter_S105625_S5200x1_S5200_n_0_0_1
      Cert.KernelIdeal.gather_S105625_S5200x1_S5200_n_0_n_n_0_1_1
      Cert.ReferenceIdeal.Facts₀.bcast_S5200_S5200x1_0 Cert.ReferenceIdeal.Facts₀.bcast_S_S5200 Cert.ReferenceIdeal.Facts₀.bcast_S_S105625 A.Lidx)
    (ha : ∀ (g : Fin 40) (k : Fin 5200), a (ixA g k) = aFlatK A g (ix1 k))
    (g : Fin 40) (m n : Fin 325) :
    outVal d a ix (ixO g (⟨325 * m.val + n.val, by omega⟩ : Fin 105856)) = LmatK A g m n := by
  rw [outVal_apply, Cert.Proof.LibScat.scatSeq_bridge, zeroF_ideal]
  unfold LmatK
  have key := Cert.Proof.LibScat.scatSeq_idxmVec_eq_scatter (M := 5200)
    (ds := Cert.KernelIdeal.scatter_S105625_S5200x1_S5200_n_0_0_1) (huw := rfl) (hiw := rfl) (hsd := rfl) (hivd := rfl)
    (dg := Cert.KernelIdeal.gather_S105625_S5200x1_S5200_n_0_n_n_0_1_1) (hcoll := rfl) (hob := rfl) (hsim := rfl) (hgivd := rfl)
    (h₁ := Cert.ReferenceIdeal.Facts₀.bcast_S5200_S5200x1_0) (hb := Cert.ReferenceIdeal.Facts₀.bcast_S_S5200)
    (hbN := Cert.ReferenceIdeal.Facts₀.bcast_S_S105625) (h0 := Cert.ReferenceIdeal.Facts₀.h_S_) (a2 := A.Lidx) (hrange := hrange)
    (by norm_num) Cert.ReferenceIdeal.scatter_S105625_S5200x1_S5200_n_0_0_1 rfl rfl rfl rfl (0 : EReal) (aFlatK A g)
    (fun k => if h : k < 5200 then ix (ixI ⟨k, h⟩) else 0#32) (rowN (0 : EReal) a g)
    (fun k => by
      rw [dif_pos k.isLt, hix, ixI_eq_ofFin])
    (fun k => by
      rw [← ix1_eq_ofFin]
      unfold rowN
      rw [dif_pos k.isLt]
      exact (ha g k).symm)
    (⟨325 * m.val + n.val, by omega⟩ : Fin 105625)
  rw [← ix1_eq_ofFin] at key
  refine Eq.trans ?_ key
  congr 1
  funext k
  unfold ixN
  split <;> rfl

variable (m : (ℓ : Loc nD τ sig) → Buf (Elt Ideal) ℓ)
  (o35 : (d : Dev nD) → (Proc.devRef (τ := τ) .tc main_v35 : DevRef τ sig).ty.Contents (Elt Ideal))
  (o37 : (d : Dev nD) → (Proc.devRef (τ := τ) .tc main_v37 : DevRef τ sig).ty.Contents (Elt Ideal))
  (o41 : (d : Dev nD) → (Proc.devRef (τ := τ) .tc main_v41 : DevRef τ sig).ty.Contents (Elt Ideal))

/-- The 19 argument arrays as device d's memory has them at launch. -/
def A (d : Dev nD) : Args Ideal where
  x := m ((SparseCore.T d).loc main_arg0)
  maps := m ((SparseCore.T d).loc main_arg1)
  Lidx := m ((SparseCore.T d).loc main_arg2)
  idx := m ((SparseCore.T d).loc main_arg3)
  n2v := m ((SparseCore.T d).loc main_arg4)
  LW1 := m ((SparseCore.T d).loc main_arg5)
  Lb1 := m ((SparseCore.T d).loc main_arg6)
  LW2 := m ((SparseCore.T d).loc main_arg7)
  Lb2 := m ((SparseCore.T d).loc main_arg8)
  W0 := m ((SparseCore.T d).loc main_arg9)
  b0 := m ((SparseCore.T d).loc main_arg10)
  Wrest := m ((SparseCore.T d).loc main_arg11)
  brest := m ((SparseCore.T d).loc main_arg12)
  gamma := m ((SparseCore.T d).loc main_arg13)
  beta := m ((SparseCore.T d).loc main_arg14)
  fc1W := m ((SparseCore.T d).loc main_arg15)
  fc1b := m ((SparseCore.T d).loc main_arg16)
  fc2W := m ((SparseCore.T d).loc main_arg17)
  fc2b := m ((SparseCore.T d).loc main_arg18)

variable (d : Dev nD)

/-! ## Layout reads -/

/-- A trailing unit axis dropped. -/
theorem sc_drop_last {α : Type} (v : (⟨3, ![16, 325, 1]⟩ : Shape).Idx → α)
    (h : (⟨3, ![16, 325, 1]⟩ : Shape).ShapeCasts ⟨2, ![16, 325]⟩) (b : Fin 16) (mm : Fin 325) :
    shapeCast ⟨2, ![16, 325]⟩ v h (ix2 b mm) = v (ix3 b mm (0 : Fin 1)) :=
  shapeCast_apply v h (ix2 b mm) (ix3 b mm (0 : Fin 1)) (by
    rw [Shape.rowMajor_val_three, Shape.rowMajor_val_two]
    show (b.val * 325 + mm.val) * 1 + 0 = b.val * 325 + mm.val
    omega)

/-- A vector of one entry as a 1 × 1 array. -/
theorem sc_1_1x1 {α : Type} (v : (⟨1, ![1]⟩ : Shape).Idx → α) (h : (⟨1, ![1]⟩ : Shape).ShapeCasts ⟨2, ![1, 1]⟩) :
    shapeCast ⟨2, ![1, 1]⟩ v h (ix2 (0 : Fin 1) (0 : Fin 1)) = v (ix1 (0 : Fin 1)) :=
  shapeCast_apply v h (ix2 (0 : Fin 1) (0 : Fin 1)) (ix1 (0 : Fin 1)) (by
    rw [Shape.rowMajor_val_one, Shape.rowMajor_val_two]
    rfl)

/-- The 40 × 325 × 16 softmax rows read as 40 rows of 5200. -/
theorem sc_rows {α : Type} (v : (⟨3, ![40, 325, 16]⟩ : Shape).Idx → α)
    (h : (⟨3, ![40, 325, 16]⟩ : Shape).ShapeCasts ⟨2, ![40, 5200]⟩) (g : Fin 40) (k : Fin 5200) :
    shapeCast ⟨2, ![40, 5200]⟩ v h (ixA g k)
      = v (ix3 g (⟨k.val / 16, by omega⟩ : Fin 325) (⟨k.val % 16, Nat.mod_lt _ (by decide)⟩ : Fin 16)) :=
  shapeCast_apply v h (ixA g k) _ (by
    rw [Shape.rowMajor_val_three, Shape.rowMajor_val_two]
    show (g.val * 325 + k.val / 16) * 16 + k.val % 16 = g.val * 5200 + k.val
    omega)

/-- The SparseCore call's rows, cut to their first 105625 places, as the layers' square matrices. -/
theorem sc_lstack {α : Type} (v : (⟨2, ![40, 105856]⟩ : Shape).Idx → α)
    (hs : (⟨2, ![40, 105856]⟩ : Shape).Slices ![0, 0] ⟨2, ![40, 105625]⟩)
    (h : (⟨2, ![40, 105625]⟩ : Shape).ShapeCasts ⟨4, ![10, 4, 325, 325]⟩) (i : Fin 10) (j : Fin 4) (mm n : Fin 325) :
    shapeCast ⟨4, ![10, 4, 325, 325]⟩ (extractStridedSlice ⟨2, ![40, 105625]⟩ ![0, 0] v hs) h (ix4 i j mm n)
      = v (ixO (⟨4 * i.val + j.val, by omega⟩ : Fin 40) (⟨325 * mm.val + n.val, by omega⟩ : Fin 105856)) := by
  refine (shapeCast_apply _ h (ix4 i j mm n)
    (ix2 (⟨4 * i.val + j.val, by omega⟩ : Fin 40) (⟨325 * mm.val + n.val, by omega⟩ : Fin 105625)) (by
      rw [Shape.rowMajor_val_four, Shape.rowMajor_val_two]
      show (4 * i.val + j.val) * 105625 + (325 * mm.val + n.val) = ((i.val * 4 + j.val) * 325 + mm.val) * 325 + n.val
      omega)).trans ?_
  exact extractStridedSlice_apply _ v hs _ _ (fun a => by
    match a with
    | ⟨0, _⟩ => show 4 * i.val + j.val = 0 + (4 * i.val + j.val); omega
    | ⟨1, _⟩ => show 325 * mm.val + n.val = 0 + (325 * mm.val + n.val); omega)

/-! ## The pieces of the network's input -/

/-- The network's input the host builds is the reference's node features. -/
theorem x0_eq (b : Fin 16) (mm : Fin 325) (k : Fin 40) :
    (x0 (m ((SparseCore.T d).loc main_arg0)) (m ((SparseCore.T d).loc main_arg3)) (m ((SparseCore.T d).loc main_arg4))
      : FVec Ideal S16x325x40 .f32) (ix3 b mm k) = X0 (A m d) b mm k :=
  x0T_apply (A m d).x (A m d).idx (A m d).n2v b mm k

/-- Row g of the value array the SparseCore call reads is operator g's 5200 weights. -/
theorem rows_eq (h35 : ∀ (s : Fin 40) (n : Fin 325) (l : Fin 16),
      (o35 d : FVec Ideal S40x325x16 .f32) (ix3 s n l) = LibAlg.softmaxE (scoreK (A m d) s n) l)
    (g : Fin 40) (k : Fin 5200) :
    (V3 m o35 d (Proc.devRef .tc main_v36) : FVec Ideal S40x5200 .f32) (ixA g k) = aFlatK (A m d) g (ix1 k) := by
  rw [V3_v36]
  exact (sc_rows _ _ g k).trans (h35 g _ _)

/-- The layers' square matrices the second TensorCore launch reads are the kernel's operators. -/
theorem lstack_eq (hrange : ∀ i, 0 ≤ ((A m d).Lidx i).toInt ∧ ((A m d).Lidx i).toInt ≤ 105624)
    (h35 : ∀ (s : Fin 40) (n : Fin 325) (l : Fin 16),
      (o35 d : FVec Ideal S40x325x16 .f32) (ix3 s n l) = LibAlg.softmaxE (scoreK (A m d) s n) l)
    (h37 : o37 d = outVal d (V3 m o35 d (Proc.devRef .tc main_v36)) (V3 m o35 d (Proc.devRef .tc main_v32)))
    (i : Fin 10) (j : Fin 4) (mm n : Fin 325) :
    (V5 m o35 o37 d (Proc.devRef .tc main_v39) : FVec Ideal S10x4x325x325 .f32) (ix4 i j mm n) = LfamK (A m d) i j mm n := by
  rw [V5_v39]
  refine (sc_lstack _ _ _ i j mm n).trans ?_
  rw [h37]
  exact outVal_LmatK (A m d) d hrange _ _ (V3_v32 m o35 d) (rows_eq m o35 d h35) _ mm n

/-! ## The result -/

/-- The kernel's result buffer at the end holds the kernel's function of the arguments. -/
theorem result_eq_outK (hrange : ∀ i, 0 ≤ ((A m d).Lidx i).toInt ∧ ((A m d).Lidx i).toInt ≤ 105624)
    (h35 : ∀ (s : Fin 40) (n : Fin 325) (l : Fin 16),
      (o35 d : FVec Ideal S40x325x16 .f32) (ix3 s n l) = LibAlg.softmaxE (scoreK (A m d) s n) l)
    (h37 : o37 d = outVal d (V3 m o35 d (Proc.devRef .tc main_v36)) (V3 m o35 d (Proc.devRef .tc main_v32)))
    (h41 : ∀ (b : Fin 16) (mm : Fin 325), (o41 d : FVec Ideal S16x325x1 .f32) (ix3 b mm (0 : Fin 1))
      = K2Val.net
          (fun b mm k => (V5 m o35 o37 d (Proc.devRef .tc main_v10) : FVec Ideal S16x325x40 .f32) (ix3 b mm k))
          (fun i j mm n => (V5 m o35 o37 d (Proc.devRef .tc main_v39) : FVec Ideal S10x4x325x325 .f32) (ix4 i j mm n))
          (fun j k f => (V5 m o35 o37 d (Proc.devRef .tc main_arg9) : FVec Ideal S4x160x64 .f32) (ix3 j k f))
          (fun i j k f => (V5 m o35 o37 d (Proc.devRef .tc main_arg11) : FVec Ideal S9x4x64x64 .f32) (ix4 i j k f))
          (fun i f => (V5 m o35 o37 d (Proc.devRef .tc main_arg13) : FVec Ideal S10x64 .f32) (ix2 i f))
          (fun i f => (V5 m o35 o37 d (Proc.devRef .tc main_arg14) : FVec Ideal S10x64 .f32) (ix2 i f))
          (fun f h => (V5 m o35 o37 d (Proc.devRef .tc main_arg15) : FVec Ideal S64x512 .f32) (ix2 f h))
          (fun h => (V5 m o35 o37 d (Proc.devRef .tc main_arg16) : FVec Ideal S512 .f32) (ix1 h))
          (fun h => (V5 m o35 o37 d (Proc.devRef .tc main_arg17) : FVec Ideal S512x1 .f32) (ix2 h (0 : Fin 1)))
          ((V5 m o35 o37 d (Proc.devRef .tc main_v40) : FVec Ideal S1x1 .f32) (ix2 (0 : Fin 1) (0 : Fin 1))) b mm)
    (b : Fin 16) (mm : Fin 325) :
    (V7 m o35 o37 o41 d (Proc.devRef .tc main_v42) : FVec Ideal S16x325 .f32) (ix2 b mm) = outK (A m d) b mm := by
  rw [V7_v42]
  refine (sc_drop_last _ _ b mm).trans ?_
  rw [h41 b mm]
  unfold outK
  have e0 : (fun b mm k => (V5 m o35 o37 d (Proc.devRef .tc main_v10) : FVec Ideal S16x325x40 .f32) (ix3 b mm k)) = X0 (A m d) := by
    funext b mm k
    rw [V5_v10]
    exact x0_eq m d b mm k
  have e1 : (fun i j mm n => (V5 m o35 o37 d (Proc.devRef .tc main_v39) : FVec Ideal S10x4x325x325 .f32) (ix4 i j mm n)) = LfamK (A m d) := by
    funext i j mm n
    exact lstack_eq m o35 o37 d hrange h35 h37 i j mm n
  have e2 : (fun j k f => (V5 m o35 o37 d (Proc.devRef .tc main_arg9) : FVec Ideal S4x160x64 .f32) (ix3 j k f)) = W0f (A m d) := by
    funext j k f
    rw [V5_arg m o35 o37 d (r := main_arg9) (by decide)]
    rfl
  have e3 : (fun i j k f => (V5 m o35 o37 d (Proc.devRef .tc main_arg11) : FVec Ideal S9x4x64x64 .f32) (ix4 i j k f)) = WRf (A m d) := by
    funext i j k f
    rw [V5_arg m o35 o37 d (r := main_arg11) (by decide)]
    rfl
  have e4 : (fun i f => (V5 m o35 o37 d (Proc.devRef .tc main_arg13) : FVec Ideal S10x64 .f32) (ix2 i f)) = Gf (A m d) := by
    funext i f
    rw [V5_arg m o35 o37 d (r := main_arg13) (by decide)]
    rfl
  have e5 : (fun i f => (V5 m o35 o37 d (Proc.devRef .tc main_arg14) : FVec Ideal S10x64 .f32) (ix2 i f)) = Bf (A m d) := by
    funext i f
    rw [V5_arg m o35 o37 d (r := main_arg14) (by decide)]
    rfl
  have e6 : (fun f h => (V5 m o35 o37 d (Proc.devRef .tc main_arg15) : FVec Ideal S64x512 .f32) (ix2 f h)) = F1W (A m d) := by
    funext f h
    rw [V5_arg m o35 o37 d (r := main_arg15) (by decide)]
    rfl
  have e7 : (fun h => (V5 m o35 o37 d (Proc.devRef .tc main_arg16) : FVec Ideal S512 .f32) (ix1 h)) = F1B (A m d) := by
    funext h
    rw [V5_arg m o35 o37 d (r := main_arg16) (by decide)]
    rfl
  have e8 : (fun h => (V5 m o35 o37 d (Proc.devRef .tc main_arg17) : FVec Ideal S512x1 .f32) (ix2 h (0 : Fin 1))) = F2W (A m d) := by
    funext h
    rw [V5_arg m o35 o37 d (r := main_arg17) (by decide)]
    rfl
  have e9 : (V5 m o35 o37 d (Proc.devRef .tc main_v40) : FVec Ideal S1x1 .f32) (ix2 (0 : Fin 1) (0 : Fin 1)) = F2B (A m d) := by
    rw [V5_v40]
    exact sc_1_1x1 _ _
  rw [e0, e1, e2, e3, e4, e5, e6, e7, e8, e9]

/-- Under the precondition the kernel's result is the reference's function of the arguments. -/
theorem result_eq_ref
    (hpre : Cert.Pre_input_domain.fn (F := Ideal) (A m d).x (A m d).maps (A m d).Lidx (A m d).idx (A m d).n2v (A m d).LW1
      (A m d).Lb1 (A m d).LW2 (A m d).Lb2 (A m d).W0 (A m d).b0 (A m d).Wrest (A m d).brest (A m d).gamma (A m d).beta
      (A m d).fc1W (A m d).fc1b (A m d).fc2W (A m d).fc2b = fun _ => 1#1)
    (h35 : ∀ (s : Fin 40) (n : Fin 325) (l : Fin 16),
      (o35 d : FVec Ideal S40x325x16 .f32) (ix3 s n l) = LibAlg.softmaxE (scoreK (A m d) s n) l)
    (h37 : o37 d = outVal d (V3 m o35 d (Proc.devRef .tc main_v36)) (V3 m o35 d (Proc.devRef .tc main_v32)))
    (h41 : ∀ (b : Fin 16) (mm : Fin 325), (o41 d : FVec Ideal S16x325x1 .f32) (ix3 b mm (0 : Fin 1))
      = K2Val.net
          (fun b mm k => (V5 m o35 o37 d (Proc.devRef .tc main_v10) : FVec Ideal S16x325x40 .f32) (ix3 b mm k))
          (fun i j mm n => (V5 m o35 o37 d (Proc.devRef .tc main_v39) : FVec Ideal S10x4x325x325 .f32) (ix4 i j mm n))
          (fun j k f => (V5 m o35 o37 d (Proc.devRef .tc main_arg9) : FVec Ideal S4x160x64 .f32) (ix3 j k f))
          (fun i j k f => (V5 m o35 o37 d (Proc.devRef .tc main_arg11) : FVec Ideal S9x4x64x64 .f32) (ix4 i j k f))
          (fun i f => (V5 m o35 o37 d (Proc.devRef .tc main_arg13) : FVec Ideal S10x64 .f32) (ix2 i f))
          (fun i f => (V5 m o35 o37 d (Proc.devRef .tc main_arg14) : FVec Ideal S10x64 .f32) (ix2 i f))
          (fun f h => (V5 m o35 o37 d (Proc.devRef .tc main_arg15) : FVec Ideal S64x512 .f32) (ix2 f h))
          (fun h => (V5 m o35 o37 d (Proc.devRef .tc main_arg16) : FVec Ideal S512 .f32) (ix1 h))
          (fun h => (V5 m o35 o37 d (Proc.devRef .tc main_arg17) : FVec Ideal S512x1 .f32) (ix2 h (0 : Fin 1)))
          ((V5 m o35 o37 d (Proc.devRef .tc main_v40) : FVec Ideal S1x1 .f32) (ix2 (0 : Fin 1) (0 : Fin 1))) b mm)
    (b : Fin 16) (mm : Fin 325) :
    (V7 m o35 o37 o41 d (Proc.devRef .tc main_v42) : FVec Ideal S16x325 .f32) (ix2 b mm) = RefVal.out (A m d) b mm := by
  have hrange : ∀ i, 0 ≤ ((A m d).Lidx i).toInt ∧ ((A m d).Lidx i).toInt ≤ 105624 :=
    Cert.Proof.LibScat.lidx_range_of_pre (F := Ideal) _ _ _ _ _ _ _ _ _ _ _ _ _ _ _ _ _ _ _ hpre
  rw [result_eq_outK m o35 o37 o41 d hrange h35 h37 h41 b mm]
  exact congrFun (congrFun (Join.join (A m d) (Join.real_of_pre (A m d) hpre)) b) mm

end Cert.Proof.KI.KVal

end
-- ==== Proof.RefRun.Lib.lean ====
import Idealize.ShloMosaic.Lib.StableHlo.Run

/-! # A single-assignment line of host operations, read back operation by operation

A straight line of StableHLO operations in which every operation writes exactly one buffer and the written
buffers' places in the table count up in program order (so no buffer is written twice, and an operation reads
only buffers of smaller place than the one it writes). For such a line the contents of each written buffer
after the WHOLE line are the operation's function of the contents, after the whole line, of the buffers it
reads: later operations write neither. The line is cut into consecutive windows; an operation is named by its
window and its position there. -/

noncomputable section

namespace Cert.Proof.RefRun

open Idealize.ShloMosaic Idealize.ShloMosaic.StableHlo

variable {τ : Topo} {sig : RefSig} {Val : EltTy → Type}

/-- A TensorCore reference's place among the buffers of its space. -/
def key (r : Ref sig .tc) : ℕ := r.idx.val

/-- Every operation of the line writes exactly one buffer, and the places of those buffers count up from b. -/
def Seq : ℕ → List (HloOp τ sig Val) → Prop
  | _, [] => True
  | b, o :: l => (∃ y : Ref sig .tc, o.writes = {Proc.devRef (τ := τ) .tc y} ∧ key y = b) ∧ Seq (b + 1) l

theorem after_append (l₁ l₂ : List (HloOp τ sig Val)) (V : Valuation τ sig Val) :
    after (l₁ ++ l₂) V = after l₂ (after l₁ V) := by
  induction l₁ generalizing V with
  | nil => rfl
  | cons o l ih => exact ih _

theorem Seq.append {l₁ l₂ : List (HloOp τ sig Val)} :
    ∀ {b : ℕ}, Seq b l₁ → Seq (b + l₁.length) l₂ → Seq b (l₁ ++ l₂) := by
  induction l₁ with
  | nil => intro b _ h₂; simpa using h₂
  | cons o l ih =>
    intro b h₁ h₂
    refine ⟨h₁.1, ih h₁.2 ?_⟩
    have e : b + (o :: l).length = b + 1 + l.length := by rw [List.length_cons]; omega
    exact e ▸ h₂

theorem Seq.drop {l : List (HloOp τ sig Val)} : ∀ {b : ℕ} (j : ℕ), Seq b l → Seq (b + j) (l.drop j) := by
  induction l with
  | nil => intro b j _; rw [List.drop_nil]; trivial
  | cons o l ih =>
    intro b j h
    cases j with
    | zero => exact h
    | succ j =>
      have e : b + (j + 1) = b + 1 + j := by omega
      rw [List.drop_succ_cons, e]
      exact ih j h.2

theorem Seq.get {l : List (HloOp τ sig Val)} :
    ∀ {b j : ℕ} {o : HloOp τ sig Val}, Seq b l → l[j]? = some o →
      ∃ y : Ref sig .tc, o.writes = {Proc.devRef (τ := τ) .tc y} ∧ key y = b + j := by
  induction l with
  | nil => intro b j o _ h; simp at h
  | cons o' l ih =>
    intro b j o h hj
    cases j with
    | zero =>
      simp only [List.getElem?_cons_zero, Option.some.injEq] at hj
      subst hj
      exact h.1
    | succ j =>
      rw [List.getElem?_cons_succ] at hj
      obtain ⟨y, hw, hk⟩ := ih h.2 hj
      exact ⟨y, hw, by omega⟩

/-- A line whose written buffers have places from b on leaves a buffer of smaller place as it was. -/
theorem after_keep {l : List (HloOp τ sig Val)} :
    ∀ {b : ℕ}, Seq b l → ∀ (V : Valuation τ sig Val) {r : Ref sig .tc}, key r < b →
      after l V (Proc.devRef .tc r) = V (Proc.devRef .tc r) := by
  induction l with
  | nil => intro b _ V r _; rfl
  | cons o l ih =>
    intro b h V r hr
    obtain ⟨⟨y, hw, hy⟩, hl⟩ := h
    rw [after_cons, ih hl _ (Nat.lt_succ_of_lt hr), o.result_of_not_mem]
    rw [hw, Finset.mem_singleton]
    intro e
    have := Proc.devRef_injective _ e
    subst this
    omega

theorem split_at {α : Type} {l : List α} {j : ℕ} {o : α} (h : l[j]? = some o) :
    l = l.take j ++ o :: l.drop (j + 1) := by
  obtain ⟨hj, rfl⟩ := List.getElem?_eq_some_iff.mp h
  rw [← List.drop_eq_getElem_cons hj, List.take_append_drop]

/-- The line ops cut as A, a window l, and the rest B, the window's written places counting from n and the rest's from n'. -/
structure Win (ops A l B : List (HloOp τ sig Val)) (n n' : ℕ) : Prop where
  split : ops = A ++ (l ++ B)
  mid : Seq n l
  rest : Seq n' B
  len : n' = n + l.length

/-- The whole line read at the j-th operation o of window l: with W the contents just before o, the buffer o writes
    ends at o's result over W, and every buffer of smaller place ends as it is in W. -/
theorem at_op {ops A l B : List (HloOp τ sig Val)} {n n' : ℕ} (w : Win ops A l B n n')
    {j : ℕ} {o : HloOp τ sig Val} (ho : l[j]? = some o) (V : Valuation τ sig Val) :
    ∃ W : Valuation τ sig Val, ∃ y : Ref sig .tc, o.writes = {Proc.devRef (τ := τ) .tc y} ∧ key y = n + j ∧
      after ops V (Proc.devRef .tc y) = o.result W (Proc.devRef .tc y) ∧
      ∀ r : Ref sig .tc, key r < n + j → after ops V (Proc.devRef .tc r) = W (Proc.devRef .tc r) := by
  obtain ⟨hs, hl, hB, hn⟩ := w
  obtain ⟨y, hw, hk⟩ := hl.get ho
  have hjl : j < l.length := (List.getElem?_eq_some_iff.mp ho).1
  have hd : Seq (n + (j + 1)) (l.drop (j + 1)) := hl.drop (j + 1)
  refine ⟨after (l.take j) (after A V), y, hw, hk, ?_, ?_⟩
  · rw [hs, after_append, after_append, after_keep hB _ (by omega)]
    conv_lhs => rw [split_at ho]
    rw [after_append, after_cons, after_keep hd _ (by omega)]
  · intro r hr
    rw [hs, after_append, after_append, after_keep hB _ (by omega)]
    conv_lhs => rw [split_at ho]
    rw [after_append, after_cons, after_keep hd _ (by omega), o.result_of_not_mem]
    rw [hw, Finset.mem_singleton]
    intro e
    have := Proc.devRef_injective _ e
    subst this
    omega

section Builders

variable {ops A l B : List (HloOp τ sig Val)} {n n' : ℕ} (w : Win ops A l B n n') {j : ℕ}
include w

theorem nullary_at {y : Ref sig .tc} {v : y.ty.Contents Val} {hy}
    (ho : l[j]? = some (nullary y v hy)) (V : Valuation τ sig Val) :
    after ops V (Proc.devRef .tc y) = v := by
  obtain ⟨W, y', hw, -, hy', -⟩ := at_op w ho V
  have e : y' = y := (Proc.devRef_injective _ (Finset.singleton_injective hw)).symm
  subst e
  rw [hy', nullary_result]

theorem unary_at {x y : Ref sig .tc} {f : x.ty.Contents Val → y.ty.Contents Val} {hx hy}
    (ho : l[j]? = some (unary x y f hx hy)) (hxy : key x < key y) (V : Valuation τ sig Val) :
    after ops V (Proc.devRef .tc y) = f (after ops V (Proc.devRef .tc x)) := by
  obtain ⟨W, y', hw, hk, hy', hr⟩ := at_op w ho V
  have e : y' = y := (Proc.devRef_injective _ (Finset.singleton_injective hw)).symm
  subst e
  rw [hy', unary_result, hr x (hk ▸ hxy)]

theorem binary_at {a b y : Ref sig .tc} {f : a.ty.Contents Val → b.ty.Contents Val → y.ty.Contents Val} {ha hb hy}
    (ho : l[j]? = some (binary a b y f ha hb hy)) (hay : key a < key y) (hby : key b < key y)
    (V : Valuation τ sig Val) :
    after ops V (Proc.devRef .tc y) = f (after ops V (Proc.devRef .tc a)) (after ops V (Proc.devRef .tc b)) := by
  obtain ⟨W, y', hw, hk, hy', hr⟩ := at_op w ho V
  have e : y' = y := (Proc.devRef_injective _ (Finset.singleton_injective hw)).symm
  subst e
  rw [hy', binary_result, hr a (hk ▸ hay), hr b (hk ▸ hby)]

theorem ternary_at {c a b y : Ref sig .tc}
    {f : c.ty.Contents Val → a.ty.Contents Val → b.ty.Contents Val → y.ty.Contents Val} {hc ha hb hy}
    (ho : l[j]? = some (ternary c a b y f hc ha hb hy)) (hcy : key c < key y) (hay : key a < key y)
    (hby : key b < key y) (V : Valuation τ sig Val) :
    after ops V (Proc.devRef .tc y)
      = f (after ops V (Proc.devRef .tc c)) (after ops V (Proc.devRef .tc a)) (after ops V (Proc.devRef .tc b)) := by
  obtain ⟨W, y', hw, hk, hy', hr⟩ := at_op w ho V
  have e : y' = y := (Proc.devRef_injective _ (Finset.singleton_injective hw)).symm
  subst e
  rw [hy', ternary_result, hr c (hk ▸ hcy), hr a (hk ▸ hay), hr b (hk ▸ hby)]

theorem reshape_at {x y : Ref sig .tc} {he : x.ty.elt = y.ty.elt} {hn : x.ty.shape.ShapeCasts y.ty.shape} {hx hy}
    (ho : l[j]? = some (reshape x y he hn hx hy)) (hxy : key x < key y) (V : Valuation τ sig Val) :
    after ops V (Proc.devRef .tc y) = fun i => he ▸ shapeCast y.ty.shape (after ops V (Proc.devRef .tc x)) hn i := by
  obtain ⟨W, y', hw, hk, hy', hr⟩ := at_op w ho V
  have e : y' = y := (Proc.devRef_injective _ (Finset.singleton_injective hw)).symm
  subst e
  rw [hy', reshape_result, hr x (hk ▸ hxy)]

theorem nary_at {m : ℕ} {xs : Fin m → Ref sig .tc} {y : Ref sig .tc}
    {f : ((k : Fin m) → (xs k).ty.Contents Val) → y.ty.Contents Val} {hxs hy}
    (ho : l[j]? = some (nary xs y f hxs hy)) (hxy : ∀ k, key (xs k) < key y) (V : Valuation τ sig Val) :
    after ops V (Proc.devRef .tc y) = f (fun k => after ops V (Proc.devRef .tc (xs k))) := by
  obtain ⟨W, y', hw, hk, hy', hr⟩ := at_op w ho V
  have e : y' = y := (Proc.devRef_injective _ (Finset.singleton_injective hw)).symm
  subst e
  rw [hy', nary_result]
  congr 1
  funext k
  exact (hr (xs k) (hk ▸ hxy k)).symm

end Builders

/-! ## The windows of a line -/

/-- Consecutive windows, the written places counting up through them from b. -/
def SeqW : ℕ → List (List (HloOp τ sig Val)) → Prop
  | _, [] => True
  | b, l :: ls => Seq b l ∧ SeqW (b + l.length) ls

theorem SeqW.flatten {ls : List (List (HloOp τ sig Val))} : ∀ {b : ℕ}, SeqW b ls → Seq b ls.flatten := by
  induction ls with
  | nil => intro b _; trivial
  | cons l ls ih => intro b h; rw [List.flatten_cons]; exact h.1.append (ih h.2)

theorem SeqW.drop {ls : List (List (HloOp τ sig Val))} :
    ∀ {b : ℕ} (K : ℕ), SeqW b ls → SeqW (b + (ls.take K).flatten.length) (ls.drop K) := by
  induction ls with
  | nil => intro b K _; rw [List.drop_nil]; trivial
  | cons l ls ih =>
    intro b K h
    cases K with
    | zero => exact h
    | succ K =>
      have e : b + ((l :: ls).take (K + 1)).flatten.length = b + l.length + (ls.take K).flatten.length := by
        rw [List.take_succ_cons, List.flatten_cons, List.length_append]; omega
      rw [List.drop_succ_cons, e]
      exact ih K h.2

/-- The K-th window of a line of windows, with what comes before and after it. -/
theorem SeqW.win {ls : List (List (HloOp τ sig Val))} {b K : ℕ} {l : List (HloOp τ sig Val)} (h : SeqW b ls)
    (hK : ls[K]? = some l) :
    Win ls.flatten (ls.take K).flatten l (ls.drop (K + 1)).flatten
      (b + (ls.take K).flatten.length) (b + (ls.take K).flatten.length + l.length) := by
  have hd := h.drop K
  have e : ls.drop K = l :: ls.drop (K + 1) := by
    obtain ⟨hj, rfl⟩ := List.getElem?_eq_some_iff.mp hK
    exact List.drop_eq_getElem_cons hj
  rw [e] at hd
  refine ⟨?_, hd.1, hd.2.flatten, rfl⟩
  conv_lhs => rw [← List.take_append_drop K ls, e]
  rw [List.flatten_append, List.flatten_cons]

/-- A property of every operation of every window is one of every operation of the line. -/
theorem forall_flatten {p : HloOp τ sig Val → Prop} {ls : List (List (HloOp τ sig Val))}
    (h : ∀ l ∈ ls, ∀ o ∈ l, p o) : ∀ o ∈ ls.flatten, p o := by
  intro o ho
  obtain ⟨l, hl, hol⟩ := List.mem_flatten.mp ho
  exact h l hl o hol

end Cert.Proof.RefRun

end
-- ==== Proof.RefRun.Lib2.lean ====
import proofs.«211384_g36696200577170_cont_8to1_b_1111_23_alg».proof.Proof.RefRun.Lib

/-! # Reading a single-assignment line by name

`read ops V b`: what buffer `b` holds after the line `ops` from contents `V`, as a name that does not unfold: the
equations of RefRun/Lib.lean restated over it relate the name at an operation's result to the name at its operands,
and nothing in them invites evaluating the line itself. Also: consecutive windows given with their first places as
numerals, one length computed per window. -/

noncomputable section

namespace Cert.Proof.RefRun

open Idealize.ShloMosaic Idealize.ShloMosaic.StableHlo

variable {τ : Topo} {sig : RefSig} {Val : EltTy → Type}

/-- What buffer `b` holds after the line `ops`, from contents `V`. -/
@[irreducible] def read (ops : List (HloOp τ sig Val)) (V : Valuation τ sig Val) (b : Ref sig .tc) :
    (Proc.devRef (τ := τ) .tc b).ty.Contents Val :=
  after ops V (Proc.devRef .tc b)

theorem read_eq (ops : List (HloOp τ sig Val)) (V : Valuation τ sig Val) (b : Ref sig .tc) :
    read ops V b = after ops V (Proc.devRef .tc b) := by
  unfold read; rfl

/-- A buffer of place below the line's first written place is never written. -/
theorem read_keep {ops : List (HloOp τ sig Val)} {n : ℕ} (h : Seq n ops) (V : Valuation τ sig Val) {r : Ref sig .tc}
    (hr : key r < n) : read ops V r = V (Proc.devRef .tc r) :=
  (read_eq ops V r).trans (after_keep h V hr)

section Builders

variable {ops A l B : List (HloOp τ sig Val)} {n n' : ℕ} (w : Win ops A l B n n') {j : ℕ}
include w

theorem nullary_rd {y : Ref sig .tc} {v : y.ty.Contents Val} {hy}
    (ho : l[j]? = some (nullary y v hy)) (V : Valuation τ sig Val) :
    read ops V y = v := by
  rw [read_eq]; exact nullary_at w ho V

theorem unary_rd {x y : Ref sig .tc} {f : x.ty.Contents Val → y.ty.Contents Val} {hx hy}
    (ho : l[j]? = some (unary x y f hx hy)) (hxy : key x < key y) (V : Valuation τ sig Val) :
    read ops V y = f (read ops V x) := by
  rw [read_eq, read_eq]; exact unary_at w ho hxy V

theorem binary_rd {a b y : Ref sig .tc} {f : a.ty.Contents Val → b.ty.Contents Val → y.ty.Contents Val} {ha hb hy}
    (ho : l[j]? = some (binary a b y f ha hb hy)) (hay : key a < key y) (hby : key b < key y)
    (V : Valuation τ sig Val) :
    read ops V y = f (read ops V a) (read ops V b) := by
  rw [read_eq, read_eq, read_eq]; exact binary_at w ho hay hby V

theorem ternary_rd {c a b y : Ref sig .tc}
    {f : c.ty.Contents Val → a.ty.Contents Val → b.ty.Contents Val → y.ty.Contents Val} {hc ha hb hy}
    (ho : l[j]? = some (ternary c a b y f hc ha hb hy)) (hcy : key c < key y) (hay : key a < key y)
    (hby : key b < key y) (V : Valuation τ sig Val) :
    read ops V y = f (read ops V c) (read ops V a) (read ops V b) := by
  rw [read_eq, read_eq, read_eq, read_eq]; exact ternary_at w ho hcy hay hby V

theorem reshape_rd {x y : Ref sig .tc} {he : x.ty.elt = y.ty.elt} {hn : x.ty.shape.ShapeCasts y.ty.shape} {hx hy}
    (ho : l[j]? = some (reshape x y he hn hx hy)) (hxy : key x < key y) (V : Valuation τ sig Val) :
    read ops V y = fun i => he ▸ shapeCast y.ty.shape (read ops V x) hn i := by
  rw [read_eq, read_eq]; exact reshape_at w ho hxy V

theorem nary_rd {m : ℕ} {xs : Fin m → Ref sig .tc} {y : Ref sig .tc}
    {f : ((k : Fin m) → (xs k).ty.Contents Val) → y.ty.Contents Val} {hxs hy}
    (ho : l[j]? = some (nary xs y f hxs hy)) (hxy : ∀ k, key (xs k) < key y) (V : Valuation τ sig Val) :
    read ops V y = f (fun k => read ops V (xs k)) := by
  rw [read_eq, nary_at w ho hxy V]
  congr 1
  funext k
  exact (read_eq ops V (xs k)).symm

end Builders

/-- A window whose written places count from `b`, then windows from the numeral `n = b + ` its length on. -/
theorem SeqW.cons {b n : ℕ} {l : List (HloOp τ sig Val)} {ls : List (List (HloOp τ sig Val))}
    (hl : Seq b l) (hn : b + l.length = n) (hls : SeqW n ls) : SeqW b (l :: ls) :=
  ⟨hl, hn ▸ hls⟩

end Cert.Proof.RefRun

end
-- ==== Proof.RefRun.Wins.lean ====
import proofs.«211384_g36696200577170_cont_8to1_b_1111_23_alg».proof.Proof.RefRun.Lib2
import proofs.«211384_g36696200577170_cont_8to1_b_1111_23_alg».proof.Proof.RefRun.Ops0
import proofs.«211384_g36696200577170_cont_8to1_b_1111_23_alg».proof.Proof.RefRun.Ops1
import proofs.«211384_g36696200577170_cont_8to1_b_1111_23_alg».proof.Proof.RefRun.Ops2
import proofs.«211384_g36696200577170_cont_8to1_b_1111_23_alg».proof.Proof.RefRun.Ops3
import proofs.«211384_g36696200577170_cont_8to1_b_1111_23_alg».proof.Proof.RefRun.Ops4
import proofs.«211384_g36696200577170_cont_8to1_b_1111_23_alg».proof.Proof.RefRun.Ops5
import proofs.«211384_g36696200577170_cont_8to1_b_1111_23_alg».proof.Proof.RefRun.Ops6

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-- @main's windows of operations, in order. -/
abbrev wins : List (List (HloOp τ sig (Elt F))) :=
  [ops0, ops1, ops2, ops3, ops4, ops5, ops6, ops7, ops8, ops9, ops10, ops11,
   ops12, ops13, ops14, ops15, ops16, ops17, ops18, ops19, ops20, ops21, ops22, ops23,
   ops24, ops25, ops26, ops27, ops28, ops29, ops30, ops31, ops32, ops33, ops34, ops35,
   ops36, ops37, ops38, ops39, ops40]

/-- The windows' written places count up from 19 through the whole line. -/
theorem seqW : SeqW 19 (wins (F := F)) :=
  SeqW.cons (n := 79) ops0_seq rfl <|
  SeqW.cons (n := 139) ops1_seq rfl <|
  SeqW.cons (n := 199) ops2_seq rfl <|
  SeqW.cons (n := 259) ops3_seq rfl <|
  SeqW.cons (n := 319) ops4_seq rfl <|
  SeqW.cons (n := 379) ops5_seq rfl <|
  SeqW.cons (n := 439) ops6_seq rfl <|
  SeqW.cons (n := 499) ops7_seq rfl <|
  SeqW.cons (n := 559) ops8_seq rfl <|
  SeqW.cons (n := 619) ops9_seq rfl <|
  SeqW.cons (n := 679) ops10_seq rfl <|
  SeqW.cons (n := 739) ops11_seq rfl <|
  SeqW.cons (n := 799) ops12_seq rfl <|
  SeqW.cons (n := 859) ops13_seq rfl <|
  SeqW.cons (n := 919) ops14_seq rfl <|
  SeqW.cons (n := 979) ops15_seq rfl <|
  SeqW.cons (n := 1039) ops16_seq rfl <|
  SeqW.cons (n := 1099) ops17_seq rfl <|
  SeqW.cons (n := 1159) ops18_seq rfl <|
  SeqW.cons (n := 1219) ops19_seq rfl <|
  SeqW.cons (n := 1279) ops20_seq rfl <|
  SeqW.cons (n := 1339) ops21_seq rfl <|
  SeqW.cons (n := 1399) ops22_seq rfl <|
  SeqW.cons (n := 1459) ops23_seq rfl <|
  SeqW.cons (n := 1519) ops24_seq rfl <|
  SeqW.cons (n := 1579) ops25_seq rfl <|
  SeqW.cons (n := 1639) ops26_seq rfl <|
  SeqW.cons (n := 1699) ops27_seq rfl <|
  SeqW.cons (n := 1759) ops28_seq rfl <|
  SeqW.cons (n := 1819) ops29_seq rfl <|
  SeqW.cons (n := 1900) ops30_seq rfl <|
  SeqW.cons (n := 1983) ops31_seq rfl <|
  SeqW.cons (n := 2066) ops32_seq rfl <|
  SeqW.cons (n := 2149) ops33_seq rfl <|
  SeqW.cons (n := 2232) ops34_seq rfl <|
  SeqW.cons (n := 2315) ops35_seq rfl <|
  SeqW.cons (n := 2398) ops36_seq rfl <|
  SeqW.cons (n := 2481) ops37_seq rfl <|
  SeqW.cons (n := 2564) ops38_seq rfl <|
  SeqW.cons (n := 2647) ops39_seq rfl <|
  SeqW.cons (n := 2682) ops40_seq rfl <|
  trivial

theorem wins_sub : (wins (F := F)).Forall fun l => ∀ o ∈ l, o.bufs ⊆ tcRefs τ sig :=
  ⟨List.forall_iff_forall_mem.mp ops0_sub, List.forall_iff_forall_mem.mp ops1_sub, List.forall_iff_forall_mem.mp ops2_sub,
   List.forall_iff_forall_mem.mp ops3_sub, List.forall_iff_forall_mem.mp ops4_sub, List.forall_iff_forall_mem.mp ops5_sub,
   List.forall_iff_forall_mem.mp ops6_sub, List.forall_iff_forall_mem.mp ops7_sub, List.forall_iff_forall_mem.mp ops8_sub,
   List.forall_iff_forall_mem.mp ops9_sub, List.forall_iff_forall_mem.mp ops10_sub, List.forall_iff_forall_mem.mp ops11_sub,
   List.forall_iff_forall_mem.mp ops12_sub, List.forall_iff_forall_mem.mp ops13_sub, List.forall_iff_forall_mem.mp ops14_sub,
   List.forall_iff_forall_mem.mp ops15_sub, List.forall_iff_forall_mem.mp ops16_sub, List.forall_iff_forall_mem.mp ops17_sub,
   List.forall_iff_forall_mem.mp ops18_sub, List.forall_iff_forall_mem.mp ops19_sub, List.forall_iff_forall_mem.mp ops20_sub,
   List.forall_iff_forall_mem.mp ops21_sub, List.forall_iff_forall_mem.mp ops22_sub, List.forall_iff_forall_mem.mp ops23_sub,
   List.forall_iff_forall_mem.mp ops24_sub, List.forall_iff_forall_mem.mp ops25_sub, List.forall_iff_forall_mem.mp ops26_sub,
   List.forall_iff_forall_mem.mp ops27_sub, List.forall_iff_forall_mem.mp ops28_sub, List.forall_iff_forall_mem.mp ops29_sub,
   List.forall_iff_forall_mem.mp ops30_sub, List.forall_iff_forall_mem.mp ops31_sub, List.forall_iff_forall_mem.mp ops32_sub,
   List.forall_iff_forall_mem.mp ops33_sub, List.forall_iff_forall_mem.mp ops34_sub, List.forall_iff_forall_mem.mp ops35_sub,
   List.forall_iff_forall_mem.mp ops36_sub, List.forall_iff_forall_mem.mp ops37_sub, List.forall_iff_forall_mem.mp ops38_sub,
   List.forall_iff_forall_mem.mp ops39_sub, List.forall_iff_forall_mem.mp ops40_sub⟩

theorem wins_fresh : (wins (F := F)).Forall fun l => ∀ o ∈ l, o.fresh = ∅ :=
  ⟨List.forall_iff_forall_mem.mp ops0_fresh, List.forall_iff_forall_mem.mp ops1_fresh, List.forall_iff_forall_mem.mp ops2_fresh,
   List.forall_iff_forall_mem.mp ops3_fresh, List.forall_iff_forall_mem.mp ops4_fresh, List.forall_iff_forall_mem.mp ops5_fresh,
   List.forall_iff_forall_mem.mp ops6_fresh, List.forall_iff_forall_mem.mp ops7_fresh, List.forall_iff_forall_mem.mp ops8_fresh,
   List.forall_iff_forall_mem.mp ops9_fresh, List.forall_iff_forall_mem.mp ops10_fresh, List.forall_iff_forall_mem.mp ops11_fresh,
   List.forall_iff_forall_mem.mp ops12_fresh, List.forall_iff_forall_mem.mp ops13_fresh, List.forall_iff_forall_mem.mp ops14_fresh,
   List.forall_iff_forall_mem.mp ops15_fresh, List.forall_iff_forall_mem.mp ops16_fresh, List.forall_iff_forall_mem.mp ops17_fresh,
   List.forall_iff_forall_mem.mp ops18_fresh, List.forall_iff_forall_mem.mp ops19_fresh, List.forall_iff_forall_mem.mp ops20_fresh,
   List.forall_iff_forall_mem.mp ops21_fresh, List.forall_iff_forall_mem.mp ops22_fresh, List.forall_iff_forall_mem.mp ops23_fresh,
   List.forall_iff_forall_mem.mp ops24_fresh, List.forall_iff_forall_mem.mp ops25_fresh, List.forall_iff_forall_mem.mp ops26_fresh,
   List.forall_iff_forall_mem.mp ops27_fresh, List.forall_iff_forall_mem.mp ops28_fresh, List.forall_iff_forall_mem.mp ops29_fresh,
   List.forall_iff_forall_mem.mp ops30_fresh, List.forall_iff_forall_mem.mp ops31_fresh, List.forall_iff_forall_mem.mp ops32_fresh,
   List.forall_iff_forall_mem.mp ops33_fresh, List.forall_iff_forall_mem.mp ops34_fresh, List.forall_iff_forall_mem.mp ops35_fresh,
   List.forall_iff_forall_mem.mp ops36_fresh, List.forall_iff_forall_mem.mp ops37_fresh, List.forall_iff_forall_mem.mp ops38_fresh,
   List.forall_iff_forall_mem.mp ops39_fresh, List.forall_iff_forall_mem.mp ops40_fresh⟩
end Cert.Proof.RefRun

end
-- ==== Proof.RefRun.Main.lean ====
import proofs.«211384_g36696200577170_cont_8to1_b_1111_23_alg».proof.Proof.RefRun.Wins

/-! # The reference program's run

@main is the straight line of its windows' operations (the called functions' bodies inline). Every operation writes
one buffer, the buffers' places counting up from 19 in program order (places 0 … 18 are the arguments), so the line is
single-assignment: what a buffer holds after the whole program is a function `R V b` of the launch contents `V` that
satisfies one equation per operation (RefRun/TabN.lean) and leaves the arguments as they were. -/

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order: the windows joined. -/
def ops : List (HloOp τ sig (Elt F)) := wins.flatten

/-- Window K of the line with what stands before and after it. -/
theorem win (K : ℕ) (l : List (HloOp τ sig (Elt F))) (hK : (wins (F := F))[K]? = some l) :
    Win (ops (F := F)) ((wins (F := F)).take K).flatten l ((wins (F := F)).drop (K + 1)).flatten
      (19 + ((wins (F := F)).take K).flatten.length) (19 + ((wins (F := F)).take K).flatten.length + l.length) :=
  seqW.win hK

theorem ops_seq : Seq 19 (ops (F := F)) := seqW.flatten

theorem ops_sub : (ops : List (HloOp τ sig (Elt F))).Forall fun op => op.bufs ⊆ tcRefs τ sig :=
  List.forall_iff_forall_mem.mpr (forall_flatten (List.forall_iff_forall_mem.mp wins_sub))

theorem ops_fresh : ∀ op ∈ (ops : List (HloOp τ sig (Elt F))), op.fresh = ∅ :=
  forall_flatten (List.forall_iff_forall_mem.mp wins_fresh)

/-- @main is the line: each window is its list's line, and the windows are joined by `seq_append`. -/
theorem main_eq (c : Dev nD) : main (F := F) c = seq ops := by
  simp only [main, ops, wins, List.flatten_cons, List.flatten_nil, List.append_nil, seq_append,
    main_part0_eq c, main_part1_eq c, main_part2_eq c, main_part3_eq c, main_part4_eq c, main_part5_eq c,
    main_part6_eq c, main_part7_eq c, main_part8_eq c, main_part9_eq c, main_part10_eq c, main_part11_eq c,
    main_part12_eq c, main_part13_eq c, main_part14_eq c, main_part15_eq c, main_part16_eq c, main_part17_eq c,
    main_part18_eq c, main_part19_eq c, main_part20_eq c, main_part21_eq c, main_part22_eq c, main_part23_eq c,
    main_part24_eq c, main_part25_eq c, main_part26_eq c, main_part27_eq c, main_part28_eq c, main_part29_eq c,
    main_part30_eq c, main_part31_eq c, main_part32_eq c, main_part33_eq c, main_part34_eq c, main_part35_eq c,
    main_part36_eq c, main_part37_eq c, main_part38_eq c, main_part39_eq c, main_part40_eq c]

/-- No TensorCore buffer of this signature is scoped: its table of scoped buffers is constantly false. -/
theorem scopedRefs_eq : (Finset.univ.filter fun b : Ref sig .tc => b.isScoped) = ∅ :=
  Finset.filter_eq_empty_iff.mpr fun b _ => by
    rcases b with ⟨sp, i, h⟩
    rcases sp with _ | _ | _ | _
    all_goals first
      | exact (Bool.false_ne_true h).elim
      | simp [Ref.isScoped]

theorem scopedSems_eq : (Finset.univ.filter fun sm : SemLoc sig => sm.isScoped .tc) = ∅ := by decide

/-- What buffer `b` holds after the whole program, from launch contents `V`. -/
def R (V : Valuation τ sig (Elt F)) (b : Ref sig .tc) : (Proc.devRef (τ := τ) .tc b).ty.Contents (Elt F) :=
  read ops V b

/-- A buffer of place below 19 — an argument — is never written. -/
theorem after_arg (V : Valuation τ sig (Elt F)) {r : Ref sig .tc} (h : key r < 19) :
    after ops V (Proc.devRef .tc r) = V (Proc.devRef .tc r) :=
  after_keep ops_seq V h

theorem R_arg (V : Valuation τ sig (Elt F)) {r : Ref sig .tc} (h : key r < 19) : R V r = V (Proc.devRef .tc r) :=
  read_keep ops_seq V h

theorem R_main_arg0 (V : Valuation τ sig (Elt F)) : R V main_arg0 = V (Proc.devRef .tc main_arg0) := R_arg V (by decide)
theorem R_main_arg1 (V : Valuation τ sig (Elt F)) : R V main_arg1 = V (Proc.devRef .tc main_arg1) := R_arg V (by decide)
theorem R_main_arg2 (V : Valuation τ sig (Elt F)) : R V main_arg2 = V (Proc.devRef .tc main_arg2) := R_arg V (by decide)
theorem R_main_arg3 (V : Valuation τ sig (Elt F)) : R V main_arg3 = V (Proc.devRef .tc main_arg3) := R_arg V (by decide)
theorem R_main_arg4 (V : Valuation τ sig (Elt F)) : R V main_arg4 = V (Proc.devRef .tc main_arg4) := R_arg V (by decide)
theorem R_main_arg5 (V : Valuation τ sig (Elt F)) : R V main_arg5 = V (Proc.devRef .tc main_arg5) := R_arg V (by decide)
theorem R_main_arg6 (V : Valuation τ sig (Elt F)) : R V main_arg6 = V (Proc.devRef .tc main_arg6) := R_arg V (by decide)
theorem R_main_arg7 (V : Valuation τ sig (Elt F)) : R V main_arg7 = V (Proc.devRef .tc main_arg7) := R_arg V (by decide)
theorem R_main_arg8 (V : Valuation τ sig (Elt F)) : R V main_arg8 = V (Proc.devRef .tc main_arg8) := R_arg V (by decide)
theorem R_main_arg9 (V : Valuation τ sig (Elt F)) : R V main_arg9 = V (Proc.devRef .tc main_arg9) := R_arg V (by decide)
theorem R_main_arg10 (V : Valuation τ sig (Elt F)) : R V main_arg10 = V (Proc.devRef .tc main_arg10) := R_arg V (by decide)
theorem R_main_arg11 (V : Valuation τ sig (Elt F)) : R V main_arg11 = V (Proc.devRef .tc main_arg11) := R_arg V (by decide)
theorem R_main_arg12 (V : Valuation τ sig (Elt F)) : R V main_arg12 = V (Proc.devRef .tc main_arg12) := R_arg V (by decide)
theorem R_main_arg13 (V : Valuation τ sig (Elt F)) : R V main_arg13 = V (Proc.devRef .tc main_arg13) := R_arg V (by decide)
theorem R_main_arg14 (V : Valuation τ sig (Elt F)) : R V main_arg14 = V (Proc.devRef .tc main_arg14) := R_arg V (by decide)
theorem R_main_arg15 (V : Valuation τ sig (Elt F)) : R V main_arg15 = V (Proc.devRef .tc main_arg15) := R_arg V (by decide)
theorem R_main_arg16 (V : Valuation τ sig (Elt F)) : R V main_arg16 = V (Proc.devRef .tc main_arg16) := R_arg V (by decide)
theorem R_main_arg17 (V : Valuation τ sig (Elt F)) : R V main_arg17 = V (Proc.devRef .tc main_arg17) := R_arg V (by decide)
theorem R_main_arg18 (V : Valuation τ sig (Elt F)) : R V main_arg18 = V (Proc.devRef .tc main_arg18) := R_arg V (by decide)

/-- The one operation of four operands: the concatenation of four copies of `main_v10` along the last axis. -/
theorem R_main_v1571 (V : Valuation τ sig (Elt F)) :
    R V main_v1571 = concatenate S16x325x160 2 [⟨S16x325x40, R V main_v10⟩, ⟨S16x325x40, R V main_v10⟩, ⟨S16x325x40, R V main_v10⟩, ⟨S16x325x40, R V main_v10⟩]
      concatenates_S16x325x40_S16x325x40_S16x325x40_S16x325x40_S16x325x160_d2 :=
  (nary_rd (win 30 ops30 rfl) (j := 13) rfl (by decide) V).trans rfl

/-- On every device, for any float values, from any memory with zero counters: every weakly fair execution of @main
    terminates with the result buffer at `R` of the launch contents and the nineteen arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2138) = R (launchContents m c) main_v2138
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v2138).trans (read_eq ops _ main_v2138).symm,
      (h c main_arg0).trans (after_arg _ (by decide)), (h c main_arg1).trans (after_arg _ (by decide)), (h c main_arg2).trans (after_arg _ (by decide)),
      (h c main_arg3).trans (after_arg _ (by decide)), (h c main_arg4).trans (after_arg _ (by decide)), (h c main_arg5).trans (after_arg _ (by decide)),
      (h c main_arg6).trans (after_arg _ (by decide)), (h c main_arg7).trans (after_arg _ (by decide)), (h c main_arg8).trans (after_arg _ (by decide)),
      (h c main_arg9).trans (after_arg _ (by decide)), (h c main_arg10).trans (after_arg _ (by decide)), (h c main_arg11).trans (after_arg _ (by decide)),
      (h c main_arg12).trans (after_arg _ (by decide)), (h c main_arg13).trans (after_arg _ (by decide)), (h c main_arg14).trans (after_arg _ (by decide)),
      (h c main_arg15).trans (after_arg _ (by decide)), (h c main_arg16).trans (after_arg _ (by decide)), (h c main_arg17).trans (after_arg _ (by decide)),
      (h c main_arg18).trans (after_arg _ (by decide))⟩)
    (run_seq scopedRefs_eq scopedSems_eq defs main (fun _ => ops) main_eq (fun _ => ops_sub) m ρ (fun _ => ops_fresh))

end Cert.Proof.RefRun

end
-- ==== Proof.RefRun.Frame.lean ====
import proofs.«211384_g36696200577170_cont_8to1_b_1111_23_alg».proof.Defs
import proofs.«211384_g36696200577170_cont_8to1_b_1111_23_alg».proof.Proof.Gen.Pre_input_domain
import proofs.«211384_g36696200577170_cont_8to1_b_1111_23_alg».proof.Proof.RefRun.Main

/-! The reference's frame: its run with the result dropped. -/

noncomputable section

namespace Cert.Proof.RefRun

open Idealize.ShloMosaic Idealize.SL.Sem

theorem frame_ReferenceIdeal : Cert.frame_ReferenceIdeal := fun m g _ =>
  (θ_run (Cert.ReferenceIdeal.defs (F := Ideal)) _ _).mono (fun _ h c => (h c).2) (run (F := Ideal) m g)

end Cert.Proof.RefRun

end
-- ==== Proof.RefVal.lean ====
/-
  The reference's composed term is the mathematical function out: the blocks' readings at an index
  put together, operator by operator and layer by layer.
-/
import proofs.«211384_g36696200577170_cont_8to1_b_1111_23_alg».proof.Proof.RefValOut
import proofs.«211384_g36696200577170_cont_8to1_b_1111_23_alg».proof.Proof.RefValStages

noncomputable section

open scoped BigOperators

namespace Cert.Proof.RefVal

open Idealize.ShloMosaic Idealize.ShloMosaic.ValueIdx Cert.ReferenceIdeal Cert.Proof
open Cert.ReferenceIdeal.Facts₀ Cert.ReferenceIdeal.Facts

variable [Cert.ReferenceIdeal.Facts]

/-! ## The sparse operators -/

/-- The perceptron's scores of operator s. -/
theorem cT_eq_cRow (A : Args Ideal) (s : Fin 40) (n : Fin 325) (t : Fin 16) :
    cT (hT A.maps (W1at A.LW1 s) (b1at A.Lb1 s)) (W2at A.LW2 s) (b2at A.Lb2 s) (ix2 n t) = cRow A s n t := by
  rw [cT_apply]
  unfold cRow
  refine congrArg₂ (· + ·) (Finset.sum_congr rfl fun k _ => ?_) (b2at_apply A.Lb2 s (0 : Fin 1))
  rw [hT_apply, W2at_apply, b1at_apply]
  simp only [W1at_apply]

/-- The softmax weights of operator s. -/
theorem aT_eq_aFlat (A : Args Ideal) (s : Fin 40) :
    aT (eT (cT (hT A.maps (W1at A.LW1 s) (b1at A.Lb1 s)) (W2at A.LW2 s) (b2at A.Lb2 s))) = aFlat A s := by
  funext i
  obtain ⟨r, rfl⟩ : ∃ r : Fin 5200, i = ix1 r := ⟨i 0, eq_ix1 i⟩
  rw [aT_apply]
  simp only [eT_apply, cT_eq_cRow]
  rfl

/-- Operator s as a matrix. -/
theorem LsT_apply (A : Args Ideal) (s : Fin 40) (m n : Fin 325) : LsT A s (ix2 m n) = Lmat A s m n := by
  unfold LsT buildLT Lmat
  rw [LT_apply, aT_eq_aFlat]

/-! ## The layers -/

/-- The reference's normalisation and rectifier of one layer, in the batch-normalisation law's spelling. -/
theorem bnT_eq (y : Tf Ideal S16x325x64) (g be : Tf Ideal S64) (b : Fin 16) (m : Fin 325) (f : Fin 64) :
    bnT y g be (ix3 b m f)
      = max (LibAlg.bnRefE c5200 cEps (fun b' m' => y (ix3 b' m' f)) (g (ix1 f)) (be (ix1 f)) b m) cZero := by
  rw [bnT_apply, meanT_apply, varT_apply]
  simp only [sqT_apply]
  rfl

/-- The first layer. -/
theorem layer0T_eq (x : Tf Ideal S16x325x160) (L0 L1 L2 L3 : Tf Ideal S325x325) (W : Tf Ideal S4x160x64) (bias g be : Tf Ideal S64)
    (Lf : Fin 4 → Fin 325 → Fin 325 → EReal) (xf : Fin 16 → Fin 325 → Fin 160 → EReal)
    (Wf : Fin 4 → Fin 160 → Fin 64 → EReal) (biasf gf bef : Fin 64 → EReal)
    (hL0 : ∀ m n, L0 (ix2 m n) = Lf 0 m n) (hL1 : ∀ m n, L1 (ix2 m n) = Lf 1 m n)
    (hL2 : ∀ m n, L2 (ix2 m n) = Lf 2 m n) (hL3 : ∀ m n, L3 (ix2 m n) = Lf 3 m n)
    (hx : ∀ b m k, x (ix3 b m k) = xf b m k) (hW : ∀ j k f, W (ix3 j k f) = Wf j k f)
    (hb : ∀ f, bias (ix1 f) = biasf f) (hg : ∀ f, g (ix1 f) = gf f) (hbe : ∀ f, be (ix1 f) = bef f)
    (b : Fin 16) (m : Fin 325) (f : Fin 64) :
    layer0T x L0 L1 L2 L3 W bias g be (ix3 b m f) = bnreluRef (convB Lf xf Wf biasf) gf bef b m f := by
  unfold layer0T
  rw [bnT_eq]
  have hy : ∀ b' m', sum4T (convT0 x L0 (W0at W 0)) (convT0 x L1 (W0at W 1)) (convT0 x L2 (W0at W 2)) (convT0 x L3 (W0at W 3)) bias
      (ix3 b' m' f) = convB Lf xf Wf biasf b' m' f := by
    intro b' m'
    rw [sum4T_apply, convT0_apply, convT0_apply, convT0_apply, convT0_apply]
    simp only [W0at_apply, hL0, hL1, hL2, hL3, hx, hW, hb]
    unfold convB K2Val.conv
    rw [Fin.sum_univ_four]
  simp only [hy, hg, hbe]
  rfl

/-- A later layer. -/
theorem layerRT_eq (x : Tf Ideal S16x325x64) (L0 L1 L2 L3 : Tf Ideal S325x325) (W : Tf Ideal S4x64x64) (bias g be : Tf Ideal S64)
    (Lf : Fin 4 → Fin 325 → Fin 325 → EReal) (xf : Fin 16 → Fin 325 → Fin 64 → EReal)
    (Wf : Fin 4 → Fin 64 → Fin 64 → EReal) (biasf gf bef : Fin 64 → EReal)
    (hL0 : ∀ m n, L0 (ix2 m n) = Lf 0 m n) (hL1 : ∀ m n, L1 (ix2 m n) = Lf 1 m n)
    (hL2 : ∀ m n, L2 (ix2 m n) = Lf 2 m n) (hL3 : ∀ m n, L3 (ix2 m n) = Lf 3 m n)
    (hx : ∀ b m k, x (ix3 b m k) = xf b m k) (hW : ∀ j k f, W (ix3 j k f) = Wf j k f)
    (hb : ∀ f, bias (ix1 f) = biasf f) (hg : ∀ f, g (ix1 f) = gf f) (hbe : ∀ f, be (ix1 f) = bef f)
    (b : Fin 16) (m : Fin 325) (f : Fin 64) :
    layerRT x L0 L1 L2 L3 W bias g be (ix3 b m f) = bnreluRef (convB Lf xf Wf biasf) gf bef b m f := by
  unfold layerRT
  rw [bnT_eq]
  have hy : ∀ b' m', sum4T (convTR x L0 (Wrjat W 0)) (convTR x L1 (Wrjat W 1)) (convTR x L2 (Wrjat W 2)) (convTR x L3 (Wrjat W 3)) bias
      (ix3 b' m' f) = convB Lf xf Wf biasf b' m' f := by
    intro b' m'
    rw [sum4T_apply, convTR_apply, convTR_apply, convTR_apply, convTR_apply]
    simp only [Wrjat_apply, hL0, hL1, hL2, hL3, hx, hW, hb]
    unfold convB K2Val.conv
    rw [Fin.sum_univ_four]
  simp only [hy, hg, hbe]
  rfl

/-- The node features, repeated four times. -/
theorem xcat_eq (A : Args Ideal) (b : Fin 16) (m : Fin 325) (k : Fin 160) :
    xcatT (x0T A.x A.idx A.n2v) (ix3 b m k) = K2Val.xcat (X0 A) b m k := by
  rw [xcatT_apply, x0T_apply]
  rfl

/-- The activations after layer i. -/
theorem actT_apply (A : Args Ideal) : ∀ (i : Nat) (h : i < 10) (b : Fin 16) (m : Fin 325) (f : Fin 64),
    actT A i h (ix3 b m f) = hiddenRef A i h b m f
  | 0, h, b, m, f => by
    rw [actT, hiddenRef]
    exact layer0T_eq _ _ _ _ _ _ _ _ _ (Lfam A ⟨0, h⟩) (K2Val.xcat (X0 A)) (W0f A) (b0f A) (Gf A ⟨0, h⟩) (Bf A ⟨0, h⟩)
      (LsT_apply A 0) (LsT_apply A 1) (LsT_apply A 2) (LsT_apply A 3) (xcat_eq A) (fun _ _ _ => rfl) (fun _ => rfl)
      (bnat_apply A.gamma 0) (bnat_apply A.beta 0) b m f
  | i + 1, h, b, m, f => by
    rw [actT, hiddenRef]
    exact layerRT_eq _ _ _ _ _ _ _ _ _ (Lfam A ⟨i + 1, h⟩) (hiddenRef A i (by omega)) (WRf A ⟨i, by omega⟩) (brf A ⟨i, by omega⟩)
      (Gf A ⟨i + 1, h⟩) (Bf A ⟨i + 1, h⟩)
      (LsT_apply A _) (LsT_apply A _) (LsT_apply A _) (LsT_apply A _) (actT_apply A i (by omega))
      (Wrat_apply A.Wrest ⟨i, by omega⟩) (brat_apply A.brest ⟨i, by omega⟩)
      (bnat_apply A.gamma ⟨i + 1, h⟩) (bnat_apply A.beta ⟨i + 1, h⟩) b m f

/-! ## The result -/

/-- The reference's composed term, read at (b, m), is out. -/
theorem term_eq_out (A : Args Ideal) (b : Fin 16) (m : Fin 325) : term A (ix2 b m) = out A b m := by
  unfold term out K2Val.head
  rw [headT_apply]
  simp only [actT_apply]
  rfl

end Cert.Proof.RefVal

end
-- ==== Proof.RefValMain.lean ====
/-
  The reference's run, read as a value: on every launch contents the result buffer holds, at (b, m), the
  mathematical function out of the 19 argument arrays.
-/
import proofs.«211384_g36696200577170_cont_8to1_b_1111_23_alg».proof.Proof.RefValGlue
import proofs.«211384_g36696200577170_cont_8to1_b_1111_23_alg».proof.Proof.RefVal

noncomputable section

namespace Cert.Proof.RefVal

open Cert.ReferenceIdeal Cert.ReferenceIdeal.Gen Idealize.ShloMosaic Idealize.ShloMosaic.TcCoe Idealize.SL.Sem Idealize.ShloMosaic.StableHlo
open Idealize.ShloMosaic.ValueIdx Cert.Proof.RefRun

/-! ## The argument arrays are the launch contents -/

section Args
variable {F : FTy → Type} [FloatOps F] (V : Valuation τ sig (Elt F))

theorem argsOf_x : (argsOf V).x = V (Proc.devRef .tc main_arg0) := R_main_arg0 V
theorem argsOf_maps : (argsOf V).maps = V (Proc.devRef .tc main_arg1) := R_main_arg1 V
theorem argsOf_Lidx : (argsOf V).Lidx = V (Proc.devRef .tc main_arg2) := R_main_arg2 V
theorem argsOf_idx : (argsOf V).idx = V (Proc.devRef .tc main_arg3) := R_main_arg3 V
theorem argsOf_n2v : (argsOf V).n2v = V (Proc.devRef .tc main_arg4) := R_main_arg4 V
theorem argsOf_LW1 : (argsOf V).LW1 = V (Proc.devRef .tc main_arg5) := R_main_arg5 V
theorem argsOf_Lb1 : (argsOf V).Lb1 = V (Proc.devRef .tc main_arg6) := R_main_arg6 V
theorem argsOf_LW2 : (argsOf V).LW2 = V (Proc.devRef .tc main_arg7) := R_main_arg7 V
theorem argsOf_Lb2 : (argsOf V).Lb2 = V (Proc.devRef .tc main_arg8) := R_main_arg8 V
theorem argsOf_W0 : (argsOf V).W0 = V (Proc.devRef .tc main_arg9) := R_main_arg9 V
theorem argsOf_b0 : (argsOf V).b0 = V (Proc.devRef .tc main_arg10) := R_main_arg10 V
theorem argsOf_Wrest : (argsOf V).Wrest = V (Proc.devRef .tc main_arg11) := R_main_arg11 V
theorem argsOf_brest : (argsOf V).brest = V (Proc.devRef .tc main_arg12) := R_main_arg12 V
theorem argsOf_gamma : (argsOf V).gamma = V (Proc.devRef .tc main_arg13) := R_main_arg13 V
theorem argsOf_beta : (argsOf V).beta = V (Proc.devRef .tc main_arg14) := R_main_arg14 V
theorem argsOf_fc1W : (argsOf V).fc1W = V (Proc.devRef .tc main_arg15) := R_main_arg15 V
theorem argsOf_fc1b : (argsOf V).fc1b = V (Proc.devRef .tc main_arg16) := R_main_arg16 V
theorem argsOf_fc2W : (argsOf V).fc2W = V (Proc.devRef .tc main_arg17) := R_main_arg17 V
theorem argsOf_fc2b : (argsOf V).fc2b = V (Proc.devRef .tc main_arg18) := R_main_arg18 V

end Args

/-! ## The result -/

/-- The reference's result buffer after the run, at the ideal values, read at (b, m). -/
theorem ref_value (V : Valuation τ sig (Elt Ideal)) (b : Fin 16) (m : Fin 325) :
    (R V main_v2138 : Tf Ideal S16x325) (ix2 b m) = out (argsOf V) b m :=
  (congrFun (result_eq V) (ix2 b m)).trans (term_eq_out (argsOf V) b m)

/-- The run read as a value: every weakly fair execution of the reference ends with its result buffer, at (b, k),
    at out of the launch contents' argument arrays. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD, ∀ (b : Fin 16) (k : Fin 325),
      (r.2.mem ((c.tc : Thread nD τ).loc main_v2138) : Tf Ideal S16x325) (ix2 b k) = out (argsOf (launchContents m c)) b k :=
  (θ_run defs _ _).mono (fun _ h c b k => (congrFun (h c).1 (ix2 b k)).trans (ref_value (launchContents m c) b k))
    (RefRun.run (F := Ideal) m ρ)

end Cert.Proof.RefVal

end
-- ==== Proof.Assemble.lean ====
/-
  The five claims from their pieces. The kernel program's run is taken in the form "the result buffer ends at the
  last valuation's contents and every argument as launched"; with the three launches' result arrays being what the
  launches compute, the precondition and the agreement of the two memories on the arguments, the reference's
  result is the kernel's; the frames are the runs' second halves; the two format changes the ideal pass removed are
  the identity at the ideal values.
-/
import proofs.«211384_g36696200577170_cont_8to1_b_1111_23_alg».proof.Defs
import proofs.«211384_g36696200577170_cont_8to1_b_1111_23_alg».proof.Proof.KI.KVal
import proofs.«211384_g36696200577170_cont_8to1_b_1111_23_alg».proof.Proof.RefRun.Main
import proofs.«211384_g36696200577170_cont_8to1_b_1111_23_alg».proof.Proof.RefRun.Frame
import proofs.«211384_g36696200577170_cont_8to1_b_1111_23_alg».proof.Proof.RefValMain
import Idealize.ShloMosaic.PureOps.IdealRules

noncomputable section

namespace Cert.Proof.Assemble

open Idealize.ShloMosaic Idealize.ShloMosaic.ValueIdx Idealize.ShloMosaic.StableHlo Idealize.SL.Sem

/-! ## The format changes -/

theorem preserves : Cert.preserves_Kernel_KernelIdeal :=
  ⟨IdealRules.truncf_extf.statement _ .f32 .bf16, IdealRules.truncf_extf.statement _ .f32 .bf16⟩

/-! ## The reference's frame -/

theorem frame_R [Cert.ReferenceIdeal.Facts] [Cert.Pre_input_domain.Facts] : Cert.frame_ReferenceIdeal :=
  Cert.Proof.RefRun.frame_ReferenceIdeal

/-- Two records of the 19 argument arrays with equal fields are equal. -/
theorem Args_ext [Cert.ReferenceIdeal.Facts] {X Y : Cert.Proof.RefVal.Args Ideal} (h0 : X.x = Y.x) (h1 : X.maps = Y.maps) (h2 : X.Lidx = Y.Lidx)
    (h3 : X.idx = Y.idx) (h4 : X.n2v = Y.n2v) (h5 : X.LW1 = Y.LW1) (h6 : X.Lb1 = Y.Lb1) (h7 : X.LW2 = Y.LW2)
    (h8 : X.Lb2 = Y.Lb2) (h9 : X.W0 = Y.W0) (h10 : X.b0 = Y.b0) (h11 : X.Wrest = Y.Wrest) (h12 : X.brest = Y.brest)
    (h13 : X.gamma = Y.gamma) (h14 : X.beta = Y.beta) (h15 : X.fc1W = Y.fc1W) (h16 : X.fc1b = Y.fc1b)
    (h17 : X.fc2W = Y.fc2W) (h18 : X.fc2b = Y.fc2b) : X = Y := by
  cases X
  cases Y
  dsimp only at h0 h1 h2 h3 h4 h5 h6 h7 h8 h9 h10 h11 h12 h13 h14 h15 h16 h17 h18
  subst h0 h1 h2 h3 h4 h5 h6 h7 h8 h9 h10 h11 h12 h13 h14 h15 h16 h17 h18
  rfl

/-! ## The kernel program at the ideal values -/

section Ideal

open Cert.KernelIdeal Cert.Proof.KI Cert.Proof.KI.Host Cert.Proof.KI.Vals

variable [Cert.KernelIdeal.Facts] [Cert.ReferenceIdeal.Facts] [Cert.Pre_input_domain.Facts]

/-- A property of every argument, argument by argument. -/
theorem conj19 {P : Ref sig .tc → Prop} (h : ∀ a ∈ args, P a) :
    P main_arg0 ∧ P main_arg1 ∧ P main_arg2 ∧ P main_arg3 ∧ P main_arg4 ∧ P main_arg5 ∧ P main_arg6 ∧ P main_arg7
      ∧ P main_arg8 ∧ P main_arg9 ∧ P main_arg10 ∧ P main_arg11 ∧ P main_arg12 ∧ P main_arg13 ∧ P main_arg14
      ∧ P main_arg15 ∧ P main_arg16 ∧ P main_arg17 ∧ P main_arg18 :=
  ⟨h _ (by decide), h _ (by decide), h _ (by decide), h _ (by decide), h _ (by decide), h _ (by decide), h _ (by decide),
    h _ (by decide), h _ (by decide), h _ (by decide), h _ (by decide), h _ (by decide), h _ (by decide), h _ (by decide),
    h _ (by decide), h _ (by decide), h _ (by decide), h _ (by decide), h _ (by decide)⟩

/-- The kernel program's run as the claims read it: the result buffer ends at the last valuation's contents, every
    argument as launched. -/
def KRun (m : (ℓ : Loc nD τ sig) → Buf (Elt Ideal) ℓ) (g : Dev nD → PrngReg)
    (o35 : (d : Dev nD) → (Proc.devRef (τ := τ) .tc main_v35 : DevRef τ sig).ty.Contents (Elt Ideal))
    (o37 : (d : Dev nD) → (Proc.devRef (τ := τ) .tc main_v37 : DevRef τ sig).ty.Contents (Elt Ideal))
    (o41 : (d : Dev nD) → (Proc.devRef (τ := τ) .tc main_v41 : DevRef τ sig).ty.Contents (Elt Ideal)) : Prop :=
  θ_run (Cert.KernelIdeal.defs (F := Ideal)) (Cert.KernelIdeal.threads (F := Ideal)) ⟨m, fun _ => 0, g⟩ (fun r => ∀ c : Dev nD,
    r.2.mem ((SparseCore.T c).loc main_v42) = V7 m o35 o37 o41 c (Proc.devRef .tc main_v42)
      ∧ ∀ a ∈ args, r.2.mem ((SparseCore.T c).loc a) = m ((SparseCore.T c).loc a))

/-- The precondition bounds the index list on every device. -/
theorem hrange_of_pre (m : (ℓ : Loc nD τ sig) → Buf (Elt Ideal) ℓ) (hpre : Cert.Pre_KernelIdeal m) (d : Dev nD)
    (i : S5200.Idx) :
    0 ≤ ((m ((SparseCore.T d).loc main_arg2) : IVec S5200 32) i).toInt
      ∧ ((m ((SparseCore.T d).loc main_arg2) : IVec S5200 32) i).toInt ≤ 105624 :=
  Cert.Proof.LibScat.lidx_range_of_pre (F := Ideal) _ _ _ _ _ _ _ _ _ _ _ _ _ _ _ _ _ _ _ (hpre d) i

variable
  (o35 : ((ℓ : Loc nD τ sig) → Buf (Elt Ideal) ℓ) → (d : Dev nD) → (Proc.devRef (τ := τ) .tc main_v35 : DevRef τ sig).ty.Contents (Elt Ideal))
  (o37 : ((ℓ : Loc nD τ sig) → Buf (Elt Ideal) ℓ) → (d : Dev nD) → (Proc.devRef (τ := τ) .tc main_v37 : DevRef τ sig).ty.Contents (Elt Ideal))
  (o41 : ((ℓ : Loc nD τ sig) → Buf (Elt Ideal) ℓ) → (d : Dev nD) → (Proc.devRef (τ := τ) .tc main_v41 : DevRef τ sig).ty.Contents (Elt Ideal))
  (hrun : ∀ (m : (ℓ : Loc nD τ sig) → Buf (Elt Ideal) ℓ) (g : Dev nD → PrngReg), Cert.Pre_KernelIdeal m →
    KRun m g (o35 m) (o37 m) (o41 m))

include hrun in
/-- The kernel program at the ideal values runs and leaves its arguments. -/
theorem frame_KI_of : Cert.frame_KernelIdeal := fun m g hpre =>
  (θ_run (Cert.KernelIdeal.defs (F := Ideal)) _ _).mono (fun r h c =>
    conj19 (P := fun a => r.2.mem ((SparseCore.T c).loc a) = m ((SparseCore.T c).loc a)) (h c).2) (hrun m g hpre)

include hrun in
/-- The two programs end with equal results. -/
theorem algebraic_of
    (h35 : ∀ (m : (ℓ : Loc nD τ sig) → Buf (Elt Ideal) ℓ) (d : Dev nD) (s : Fin 40) (n : Fin 325) (l : Fin 16),
      (o35 m d : FVec Ideal S40x325x16 .f32) (ix3 s n l)
        = Cert.Proof.LibAlg.softmaxE (Cert.Proof.Join.scoreK (KVal.A m d) s n) l)
    (h37 : ∀ (m : (ℓ : Loc nD τ sig) → Buf (Elt Ideal) ℓ) (d : Dev nD),
      o37 m d = outVal d (V3 m (o35 m) d (Proc.devRef .tc main_v36)) (V3 m (o35 m) d (Proc.devRef .tc main_v32)))
    (h41 : ∀ (m : (ℓ : Loc nD τ sig) → Buf (Elt Ideal) ℓ) (d : Dev nD) (b : Fin 16) (mm : Fin 325),
      (o41 m d : FVec Ideal S16x325x1 .f32) (ix3 b mm (0 : Fin 1))
      = K2Val.net
          (fun b mm k => (V5 m (o35 m) (o37 m) d (Proc.devRef .tc main_v10) : FVec Ideal S16x325x40 .f32) (ix3 b mm k))
          (fun i j mm n => (V5 m (o35 m) (o37 m) d (Proc.devRef .tc main_v39) : FVec Ideal S10x4x325x325 .f32) (ix4 i j mm n))
          (fun j k f => (V5 m (o35 m) (o37 m) d (Proc.devRef .tc main_arg9) : FVec Ideal S4x160x64 .f32) (ix3 j k f))
          (fun i j k f => (V5 m (o35 m) (o37 m) d (Proc.devRef .tc main_arg11) : FVec Ideal S9x4x64x64 .f32) (ix4 i j k f))
          (fun i f => (V5 m (o35 m) (o37 m) d (Proc.devRef .tc main_arg13) : FVec Ideal S10x64 .f32) (ix2 i f))
          (fun i f => (V5 m (o35 m) (o37 m) d (Proc.devRef .tc main_arg14) : FVec Ideal S10x64 .f32) (ix2 i f))
          (fun f h => (V5 m (o35 m) (o37 m) d (Proc.devRef .tc main_arg15) : FVec Ideal S64x512 .f32) (ix2 f h))
          (fun h => (V5 m (o35 m) (o37 m) d (Proc.devRef .tc main_arg16) : FVec Ideal S512 .f32) (ix1 h))
          (fun h => (V5 m (o35 m) (o37 m) d (Proc.devRef .tc main_arg17) : FVec Ideal S512x1 .f32) (ix2 h (0 : Fin 1)))
          ((V5 m (o35 m) (o37 m) d (Proc.devRef .tc main_v40) : FVec Ideal S1x1 .f32) (ix2 (0 : Fin 1) (0 : Fin 1))) b mm) :
    Cert.algebraic_KernelIdeal_ReferenceIdeal := by
  intro m g m' g' hpre hagree
  refine ⟨fun c => V7 m (o35 m) (o37 m) (o41 m) c (Proc.devRef .tc main_v42), ?_, ?_⟩
  · exact (θ_run (Cert.KernelIdeal.defs (F := Ideal)) _ _).mono (fun r h c =>
      ⟨(h c).1, conj19 (P := fun a => r.2.mem ((SparseCore.T c).loc a) = m ((SparseCore.T c).loc a)) (h c).2⟩)
      (hrun m g hpre)
  · refine (θ_run (Cert.ReferenceIdeal.defs (F := Ideal)) _ _).mono (fun r h c => ⟨(h c).1.trans ?_, (h c).2⟩)
      (Cert.Proof.RefRun.run (F := Ideal) m' g')
    have hA : Cert.Proof.RefVal.argsOf (launchContents m' c) = KVal.A m c := by
      obtain ⟨e0, e1, e2, e3, e4, e5, e6, e7, e8, e9, e10, e11, e12, e13, e14, e15, e16, e17, e18⟩ := hagree c
      exact Args_ext ((Cert.Proof.RefVal.argsOf_x (launchContents m' c)).trans e0)
        ((Cert.Proof.RefVal.argsOf_maps (launchContents m' c)).trans e1)
        ((Cert.Proof.RefVal.argsOf_Lidx (launchContents m' c)).trans e2)
        ((Cert.Proof.RefVal.argsOf_idx (launchContents m' c)).trans e3)
        ((Cert.Proof.RefVal.argsOf_n2v (launchContents m' c)).trans e4)
        ((Cert.Proof.RefVal.argsOf_LW1 (launchContents m' c)).trans e5)
        ((Cert.Proof.RefVal.argsOf_Lb1 (launchContents m' c)).trans e6)
        ((Cert.Proof.RefVal.argsOf_LW2 (launchContents m' c)).trans e7)
        ((Cert.Proof.RefVal.argsOf_Lb2 (launchContents m' c)).trans e8)
        ((Cert.Proof.RefVal.argsOf_W0 (launchContents m' c)).trans e9)
        ((Cert.Proof.RefVal.argsOf_b0 (launchContents m' c)).trans e10)
        ((Cert.Proof.RefVal.argsOf_Wrest (launchContents m' c)).trans e11)
        ((Cert.Proof.RefVal.argsOf_brest (launchContents m' c)).trans e12)
        ((Cert.Proof.RefVal.argsOf_gamma (launchContents m' c)).trans e13)
        ((Cert.Proof.RefVal.argsOf_beta (launchContents m' c)).trans e14)
        ((Cert.Proof.RefVal.argsOf_fc1W (launchContents m' c)).trans e15)
        ((Cert.Proof.RefVal.argsOf_fc1b (launchContents m' c)).trans e16)
        ((Cert.Proof.RefVal.argsOf_fc2W (launchContents m' c)).trans e17)
        ((Cert.Proof.RefVal.argsOf_fc2b (launchContents m' c)).trans e18)
    funext i
    obtain ⟨b, mm, rfl⟩ : ∃ (b : Fin 16) (mm : Fin 325), i = ix2 b mm := ⟨i 0, i 1, eq_ix2 i⟩
    rw [Cert.Proof.RefVal.ref_value, hA]
    exact (KVal.result_eq_ref m (o35 m) (o37 m) (o41 m) c (hpre c) (h35 m c) (h37 m c) (h41 m c) b mm).symm

end Ideal

/-! ## The kernel program as printed -/

section Bits

open Cert.Kernel

variable [Cert.Kernel.Facts] [Cert.Pre_input_domain.Facts]

/-- The printed program's nineteen arguments. -/
abbrev argsB : List (Ref Cert.Kernel.sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18]

theorem conj19B {P : Ref Cert.Kernel.sig .tc → Prop} (h : ∀ a ∈ argsB, P a) :
    P main_arg0 ∧ P main_arg1 ∧ P main_arg2 ∧ P main_arg3 ∧ P main_arg4 ∧ P main_arg5 ∧ P main_arg6 ∧ P main_arg7
      ∧ P main_arg8 ∧ P main_arg9 ∧ P main_arg10 ∧ P main_arg11 ∧ P main_arg12 ∧ P main_arg13 ∧ P main_arg14
      ∧ P main_arg15 ∧ P main_arg16 ∧ P main_arg17 ∧ P main_arg18 :=
  ⟨h _ (by decide), h _ (by decide), h _ (by decide), h _ (by decide), h _ (by decide), h _ (by decide), h _ (by decide),
    h _ (by decide), h _ (by decide), h _ (by decide), h _ (by decide), h _ (by decide), h _ (by decide), h _ (by decide),
    h _ (by decide), h _ (by decide), h _ (by decide), h _ (by decide), h _ (by decide)⟩

/-- The printed program runs and leaves its arguments, from a run that ends with every argument as launched. -/
theorem frame_K_of
    (hrun : ∀ (m : (ℓ : Loc Cert.Kernel.nD Cert.Kernel.τ Cert.Kernel.sig) → Buf (Elt Bits) ℓ) (g : Dev Cert.Kernel.nD → PrngReg),
      Cert.Pre_Kernel m →
      θ_run (Cert.Kernel.defs (F := Bits)) (Cert.Kernel.threads (F := Bits)) ⟨m, fun _ => 0, g⟩ (fun r => ∀ c : Dev Cert.Kernel.nD,
        ∀ a ∈ argsB, r.2.mem ((SparseCore.T c : Thread Cert.Kernel.nD Cert.Kernel.τ).loc a) = m ((SparseCore.T c : Thread Cert.Kernel.nD Cert.Kernel.τ).loc a))) :
    Cert.frame_Kernel := fun m g hpre =>
  (θ_run (Cert.Kernel.defs (F := Bits)) _ _).mono (fun r h c =>
    conj19B (P := fun a => r.2.mem ((SparseCore.T c : Thread Cert.Kernel.nD Cert.Kernel.τ).loc a) = m ((SparseCore.T c : Thread Cert.Kernel.nD Cert.Kernel.τ).loc a)) (h c))
    (hrun m g hpre)

end Bits

end Cert.Proof.Assemble

end
-- ==== Proof.KI.Launch.lean ====
/-
  The launch of the kernel program: the certificate's element of the resource algebra and what the launch makes of it
  (the handshakes' rounds, each TensorCore's pipelines' staging-cell rounds, nothing for the vector subcores, whose copies
  need no schedule), and the program's run from the obligations of its three kernels.
-/
import proofs.«211384_g36696200577170_cont_8to1_b_1111_23_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The launch element -/

/-- What the launch leaves each TensorCore for its two pipelines: their staging cells' rounds and duty tokens. -/
def G (d : Dev nD) : sProp (MM (F := F)) :=
  bigSep Finset.univ fun p : Fin 2 => iprop(Pipeline.cellsGhost (cfgs) EP p d ∗ Pipeline.toksInit (cfgs) EP p d)

/-- The certificate's element: the handshakes' launch rounds, the pipelines' launch rounds, the unit of the counters. -/
def u₀ : UU :=
  (initOf (K (F := F)).hsCells (K (F := F)).hsToks,
    initOf (Pipeline.cells (cfgs) cellOf_inj) (Pipeline.launchToks (cfgs) cellOf_inj), 1)

variable (P' : (K (F := F)).Pay (nD := nD) (Val := Elt F) (Name := ℕ) (U := UU))

omit [FloatOps F] in
/-- The certificate's element splits into the handshakes' rounds and the pipelines' rounds (the counters' unit is dropped). -/
theorem ownU_split (a : UH) (b : UP) :
    (ownU ((a, b, (1 : Counters)) : UU) : sProp (MM (F := F))) ⊢ iprop(BI.own (EH a) ∗ BI.own (EP b)) :=
  (ownU_pair a (b, (1 : Counters))).trans (sep_mono .rfl (Entails.of_eq rfl))

omit [FloatOps F] in
theorem bigSep_emp' {I : Type} (s : Finset I) : (bigSep s fun _ => iprop(emp)) = (iprop(emp) : sProp (MM (F := F))) := bigSep_emp_const s

theorem hu₀ (hx : ∀ q thr, P'.x q thr = iprop(emp)) : (ownU (u₀ (F := F)) : sProp (MM (F := F)))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => P'.x q thr) := by
  unfold u₀
  iintro Hu
  ihave H := (ownU_split _ _) $$ Hu
  icases H with ⟨HH, HP⟩
  imod (Pipeline.fund_ghost (cfgs := cfgs) (ER := EP) (hinj := cellOf_inj)) $$ HP with ⟨Hc, Ht⟩
  imodintro
  isplitl [HH]; · iexact HH
  isplitl [Hc Ht]
  · unfold G
    simp only [bigSep_sep']
    isplitl [Hc]; · iexact Hc
    iexact Ht
  · rw [bigSep_congr fun thr _ => bigSep_congr fun q _ => hx q thr]
    rw [show (bigSep Finset.univ fun _ : Thread nD τ => bigSep Finset.univ fun _ : Fin 1 => (iprop(emp) : sProp (MM (F := F)))) = iprop(emp) from by
      rw [bigSep_congr fun _ _ => bigSep_emp' _, bigSep_emp']]
    iempintro

/-! ## A TensorCore region inside the SparseCore program

A pipeline's region is entered from the extended body table as it is from the certificate's own: the call of the
pipeline's entry is the lifted call, and the region's record runs it from the boundary. -/

/-- The prefetched tables' admissible contents: no pallas_call here has a table. -/
abbrev adm : (p : Fin 2) → (pcfgs (F := F) p).Adm := fun p => (cfgs p).toPCfg_adm

/-! ## The run -/

variable (m : (ℓ : Loc nD τ sig) → Buf (Elt F) ℓ) (ρ : Dev nD → PrngReg)

/-- The program's run, from the tile obligation of the SparseCore kernel, the split of a SparseCore's operands among its
    tiles, and @main's proof on the TensorCore. -/
theorem run_of [∀ e, Nonempty (Elt F e)] [P'.IsStorable] (hx : ∀ q thr, P'.x q thr = iprop(emp)) (hheld : P'.held = ∅)
    (htile : (K (F := F)).TileObl (D (F := F)) 𝒱 P' v₀ 0) (hsplit : (K (F := F)).VecSplit' P' 0)
    (FIN : Dev nD → sProp (MM (F := F)))
    (hmain : ∀ (κ : GSem nD τ sig → ℕ) (d : Dev nD),
      iprop((K (F := F)).ctx EH P' κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 1 ∗ FIN d))
    (fq : Dev nD → Phys nD τ sig (Elt F) → Prop)
    (hfin : ∀ (d : Dev nD) (s' : Phys nD τ sig (Elt F)), iprop(FIN d ∗ SI s') ⊢ (⌜fq d s'⌝ : sProp (MM (F := F))))
    (QC : PUnit × MemSt nD τ sig (Elt F) → Prop)
    (hQ : ∀ s' : Phys nD τ sig (Elt F), (∀ d, fq d s') → QC (⟨⟩, s'.mem)) :
    θ_run (Cert.KernelIdeal.defs (F := F)) (Cert.KernelIdeal.threads (F := F)) ⟨m, fun _ => 0, ρ⟩ QC :=
  SparseCore.Cfg.θ_run_sc (K := K (F := F)) (D := D (F := F)) (𝒱 := 𝒱) (EH := EH) (P := P') facts v₀
    (fun q hq => match q with | 0 => nomatch hq)
    (fun q _ => match q with | 0 => htile)
    (fun q _ => match q with | 0 => SparseCore.Cfg.VecSplit.of_plain hsplit)
    m ρ main (G (F := F)) FIN (u₀ (F := F)) (sep_elim_left.trans (hu₀ P' hx)) hmain fq hfin QC hQ hheld

end Cert.Proof.KI

end
-- ==== Proof.KI.Region.lean ====
/-
  A TensorCore region inside the SparseCore program: a pipeline's region is entered from the extended body table as it
  is from the certificate's own — the call of the pipeline's entry is the lifted call, and the region's record runs it
  from the boundary to the boundary.
-/
import proofs.«211384_g36696200577170_cont_8to1_b_1111_23_alg».proof.Proof.KI.Launch

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option backward.isDefEq.respectTransparency.types false in
set_option maxHeartbeats 1000000 in
/-- One region's step on core `c` under the extended table: from the boundary, the record's entry state, the level facts
    and the pipeline's ghost state, the lifted call runs to the boundary and the record's exit state for the continuation. -/
theorem wp_region [∀ e, Nonempty (Elt F e)] {p : Fin 2}
    (pdats : (p : Fin 2) → (c : Dev nD) → Pipeline.Dat τ (Elt F) (HIx 1) ℕ UU ℕ (cfgs p) c)
    (R : Pipeline.RegionSeg (pcfgs (F := F)) adm pdats (none : HIx 1) defs₀ 𝒱₀ (K (F := F)).L (K (F := F)).lev p) (c : Dev nD)
    {α : Type} (k : PUnit → Prog (TpuEff nD τ sig (Elt F) (SparseCore.Sig (ΛP (F := F)) 1) .tc) α) (Q : α → sProp (MM (F := F))) :
    iprop((iprop(boundary (c.tc : Thread nD τ) ∗ R.post c) -∗ wp frame (wpE ((K (F := F)).defs (D (F := F))) 𝒱 (SparseCore.T c) none) Set.univ (k ⟨⟩) Q)
        ∗ boundary (c.tc : Thread nD τ) ∗ R.pre c ∗ levAts (K (F := F)).L (K (F := F)).lev
        ∗ Pipeline.cellsGhost cfgs EP p c ∗ Pipeline.toksInit cfgs EP p c)
      ⊢ wp frame (wpE ((K (F := F)).defs (D (F := F))) 𝒱 (SparseCore.T c) none) Set.univ
          (Prog.lift (.customCall (SparseCore.inner (Pipeline.entry p)) ()) >>= k) Q := by
  rw [wp_bind]
  have h1 := Pipeline.RegionSeg.wp (pcfgs (F := F)) adm pdats (none : HIx 1) cellOf_inj EP defs₀ 𝒱₀ (K (F := F)).L (K (F := F)).lev R c none
      (fun _ h => nomatch h) (α := PUnit) (fun _ => Prog.ret PUnit.unit) (fun _ => iprop(boundary (c.tc : Thread nD τ) ∗ R.post c))
  have h2 := (K (F := F)).wp_liftProg (D (F := F)) 𝒱 (SparseCore.T c) Set.univ none
    (Prog.lift (.customCall (Pipeline.entry p) ())) (fun _ => iprop(boundary (c.tc : Thread nD τ) ∗ R.post c))
  have h12 := h1.trans h2
  have hpre : iprop(boundary (c.tc : Thread nD τ) ∗ R.pre c ∗ levAts (K (F := F)).L (K (F := F)).lev
        ∗ Pipeline.cellsGhost cfgs EP p c ∗ Pipeline.toksInit cfgs EP p c)
      ⊢ wp frame (wpE ((K (F := F)).defs (D (F := F))) 𝒱 (SparseCore.T c) none) Set.univ
          (SparseCore.liftProg (Prog.lift (.customCall (Pipeline.entry p) ()))) (fun _ => iprop(boundary (c.tc : Thread nD τ) ∗ R.post c)) := by
    refine .trans ?_ h12
    iintro H
    isplitr
    · iintro H'
      rw [wp_ret]
      imodintro
      iexact H'
    iexact H
  show _ ⊢ wp frame (wpE ((K (F := F)).defs (D (F := F))) 𝒱 (SparseCore.T c) none) Set.univ
      (SparseCore.liftProg (Prog.lift (.customCall (Pipeline.entry p) ()))) (fun _ => wp frame (wpE ((K (F := F)).defs (D (F := F))) 𝒱 (SparseCore.T c) none) Set.univ (k ⟨⟩) Q)
  exact (BI.sep_mono (BI.Entails.refl _) hpre).trans (BI.sep_comm.trans ((wp_frame_r _ _ _).trans (wp_mono _ _ _ fun _ => BI.sep_comm.trans (BI.wand_elim (BI.Entails.refl _)))))

end Cert.Proof.KI

end
-- ==== Proof.K0Ideal.lean ====
/-
  Region k0 (the first TensorCore call, `cc0__a_body` on a grid of 40 points over 5 windows): the pipeline's
  proof data and the body obligation in the form `Pipeline.RegionSeg` consumes, at any float family `F`
  and at any ghost algebra (`Ix`, `Name`, `U`, `Lvl`).

  The body loads the four input windows' staging buffers whole, loads the output's (the value is unused),
  and stores one payload, `k0_pay1` of the four loaded values, over the whole output buffer. So after the
  body at point `t` each input buffer holds its block and the output buffer holds the canon of that one
  store; the invariant (the scoped buffers no window stages) and what the core owes pass through unread.
-/
import proofs.«211384_g36696200577170_cont_8to1_b_1111_23_alg».proof.Proof.Gen.KernelIdeal.Launch
import proofs.«211384_g36696200577170_cont_8to1_b_1111_23_alg».proof.Proof.Gen.KernelIdeal.Skeleton
import proofs.«211384_g36696200577170_cont_8to1_b_1111_23_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.Proof.K0Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The windows' blocks -/

/-- The entry contents of the five windows' arrays on core `c`. -/
abbrev Arrs (c : Dev nD) : Type := (w : Fin cfg0.W) → Buf (Elt F) ((cfg0.win w).arr.view.loc (c.tc : Thread nD τ))

/-- Window `w`'s block at point `t`, read off its array's entry contents. -/
def iblk {c : Dev nD} (A : Arrs (F := F) c) (w : Fin cfg0.W) (t : Fin cfg0.N) :
    ((cfg0.win w).xblock (cfg0.grid.coords t)).Idx → Elt F (cfg0.win w).elt :=
  ((cfg0.win w).blk t).view.read (Elt F) (A w)

/-! ## The body's accesses: each a whole staging buffer -/

abbrev rX : Rect S5200x5 := Rect.unit (s := S5200x5) ![0, 0] S5200x5.size inb_S5200x5_S5200x5_0_0
abbrev rW : Rect S1x5x256 := Rect.unit (s := S1x5x256) ![0, 0, 0] S1x5x256.size inb_S1x5x256_S1x5x256_0_0_0
abbrev rB : Rect S1x1x256 := Rect.unit (s := S1x1x256) ![0, 0, 0] S1x1x256.size inb_S1x1x256_S1x1x256_0_0_0
abbrev rO : Rect S1x325x16 := Rect.unit (s := S1x325x16) ![0, 0, 0] S1x325x16.size inb_S1x325x16_S1x325x16_0_0_0

/-- The output window's staging buffer after the body, from the four input buffers' contents: its one store. -/
def out4 (x0 : Vec F S5200x5 .f32) (x1 : Vec F S1x5x256 .f32) (x2 : Vec F S1x1x256 .f32) (x3 : Vec F S1x1x256 .f32) :
    Vec F S1x325x16 .f32 :=
  View.canon [⟨rO, k0_pay1 (View.ld x0 rX) (View.ld x1 rW) (View.ld x2 rB) (View.ld x3 rB)⟩]

/-- The one store covers the buffer. -/
theorem cover4 (p0 : Vec F S1x325x16 .f32) (y : S1x325x16.Idx) :
    ∃ pc ∈ ([⟨rO, p0⟩] : List (View.Piece (Elt F) S1x325x16 .f32)), y ∈ pc.1.set :=
  View.cover_of_tiled [⟨rO, p0⟩] S1x325x16.size (by rfl) y

/-! ## The body's triple -/

set_option maxHeartbeats 1000000 in
/-- The body on whole staging memrefs, the inputs' at contents `x0 … x3` and the output's at anything, runs to the
    continuation with the inputs' as they were and the output's at `out4` of the inputs'. -/
theorem sound_kernel (c : Dev nD) (E : Set Name) (i : grid0.Coords)
    (arg1 : Memref sig .tc .vmem S5200x5 .f32) (harg1 : arg1.IsWhole) (arg2 : Memref sig .tc .vmem S1x5x256 .f32) (harg2 : arg2.IsWhole)
    (arg3 : Memref sig .tc .vmem S1x1x256 .f32) (harg3 : arg3.IsWhole) (arg4 : Memref sig .tc .vmem S1x1x256 .f32) (harg4 : arg4.IsWhole)
    (arg5 : Memref sig .tc .vmem S1x325x16 .f32) (harg5 : arg5.IsWhole)
    (x0 : Vec F S5200x5 .f32) (x1 : Vec F S1x5x256 .f32) (x2 : Vec F S1x1x256 .f32) (x3 : Vec F S1x1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E (cc0__a_body i arg1 harg1 arg2 harg2 arg3 harg3 arg4 harg4 arg5 harg5) K := by
  simp only [cc0__a_body_eq_skeleton]; unfold cc0__a_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The pipeline's proof data -/

/-- The proof data of pipeline 0 on core `c`, from the arrays' entry contents `A` and what the core owes throughout
    `O₀`: after the body at point `t` each input's buffer at its block and the output's at `out4` of the input blocks;
    the invariant the scoped buffers no window stages; full shares; the bound on the recorded wait pairs the constant `Rb`
    (the body waits on nothing). -/
def dat0 {c : Dev nD} (A : Arrs (F := F) c) (O₀ : CellTallies nD τ sig Ix) (Rb : Set (SemLoc sig × Ix)) :
    Dat τ (Elt F) Ix Name U Lvl cfg0 c where
  A := A
  after w t := match w with
    | ⟨0, _⟩ => iblk A 0 t
    | ⟨1, _⟩ => iblk A 1 t
    | ⟨2, _⟩ => iblk A 2 t
    | ⟨3, _⟩ => iblk A 3 t
    | ⟨4, _⟩ => out4 (iblk A 0 t) (iblk A 1 t) (iblk A 2 t) (iblk A 3 t)
  Φ _ := Pipeline.scopedRest spec0 c
  q _ := fullShare
  owed _ := O₀
  recorded _ := Rb

section
variable {c : Dev nD} (A : Arrs (F := F) c) (O₀ : CellTallies nD τ sig Ix) (Rb : Set (SemLoc sig × Ix))

local notation "𝔡" => dat0 (Name := Name) (U := U) (Lvl := Lvl) A O₀ Rb

theorem A_eq (w : Fin cfg0.W) : (𝔡).A w = A w := by dsimp only [dat0]
theorem owed_eq (t : Fin (cfg0.N + 1)) : (𝔡).owed t = O₀ := by dsimp only [dat0]
theorem recorded_eq (t : Fin (cfg0.N + 1)) : (𝔡).recorded t = Rb := by dsimp only [dat0]
theorem Φ_eq (t : Fin (cfg0.N + 1)) : (𝔡).Φ t = Pipeline.scopedRest spec0 c := by dsimp only [dat0]
theorem q_eq (w : Fin cfg0.W) : (𝔡).q w = fullShare := by dsimp only [dat0]

theorem after0_0 (t : Fin cfg0.N) : (𝔡).after 0 t = iblk A 0 t := by dsimp only [dat0]
theorem after0_1 (t : Fin cfg0.N) : (𝔡).after 1 t = iblk A 1 t := by dsimp only [dat0]
theorem after0_2 (t : Fin cfg0.N) : (𝔡).after 2 t = iblk A 2 t := by dsimp only [dat0]
theorem after0_3 (t : Fin cfg0.N) : (𝔡).after 3 t = iblk A 3 t := by dsimp only [dat0]
theorem after0_4 (t : Fin cfg0.N) : (𝔡).after 4 t = out4 (iblk A 0 t) (iblk A 1 t) (iblk A 2 t) (iblk A 3 t) := by dsimp only [dat0]

/-- Each input's current staging buffer holds its block at every point, fetched there or not. -/
theorem before0_0 (t : Fin cfg0.N) (d) : (𝔡).before 0 t d = iblk A 0 t :=
  ((𝔡).before_in_eq_fetched 0 rfl (fun _ => rfl) (fun _ _ _ => rfl)
      (fun t => by rw [after0_0 A O₀ Rb]; unfold Dat.blockOf iblk; rw [A_eq A O₀ Rb]; try rfl) t d).trans
    (by unfold Dat.fetched Dat.blockOf iblk; rw [A_eq A O₀ Rb]; try rfl)
theorem before0_1 (t : Fin cfg0.N) (d) : (𝔡).before 1 t d = iblk A 1 t :=
  ((𝔡).before_in_eq_fetched 1 rfl (fun _ => rfl) (fun _ _ _ => rfl)
      (fun t => by rw [after0_1 A O₀ Rb]; unfold Dat.blockOf iblk; rw [A_eq A O₀ Rb]; try rfl) t d).trans
    (by unfold Dat.fetched Dat.blockOf iblk; rw [A_eq A O₀ Rb]; try rfl)
theorem before0_2 (t : Fin cfg0.N) (d) : (𝔡).before 2 t d = iblk A 2 t :=
  ((𝔡).before_in_eq_fetched 2 rfl (fun _ => rfl) (fun _ _ _ => rfl)
      (fun t => by rw [after0_2 A O₀ Rb]; unfold Dat.blockOf iblk; rw [A_eq A O₀ Rb]; try rfl) t d).trans
    (by unfold Dat.fetched Dat.blockOf iblk; rw [A_eq A O₀ Rb]; try rfl)
theorem before0_3 (t : Fin cfg0.N) (d) : (𝔡).before 3 t d = iblk A 3 t :=
  ((𝔡).before_in_eq_fetched 3 rfl (fun _ => rfl) (fun _ _ _ => rfl)
      (fun t => by rw [after0_3 A O₀ Rb]; unfold Dat.blockOf iblk; rw [A_eq A O₀ Rb]; try rfl) t d).trans
    (by unfold Dat.fetched Dat.blockOf iblk; rw [A_eq A O₀ Rb]; try rfl)

/-! ## The body obligation -/

/-- What the body is called with at point `t`: the invariant, what the core owes, and the five windows' current
    staging buffers, each at what it then holds. -/
def bodyPre (ι : Ix) (t : Fin cfg0.N) : sProp 𝕄 :=
  iprop((𝔡).Φ t.castSucc ∗ (𝔡).owesAt ι t.castSucc
    ∗ (∃ d, owns (c : Thread nD τ) (st0_0 t) fullShare ((𝔡).before 0 t d))
    ∗ (∃ d, owns (c : Thread nD τ) (st0_1 t) fullShare ((𝔡).before 1 t d))
    ∗ (∃ d, owns (c : Thread nD τ) (st0_2 t) fullShare ((𝔡).before 2 t d))
    ∗ (∃ d, owns (c : Thread nD τ) (st0_3 t) fullShare ((𝔡).before 3 t d))
    ∗ (∃ d, owns (c : Thread nD τ) (st0_4 t) fullShare ((𝔡).before 4 t d)))

/-- and what it returns. -/
def bodyPost (ι : Ix) (t : Fin cfg0.N) : sProp 𝕄 :=
  iprop((𝔡).Φ t.succ ∗ (𝔡).owesAt ι t.succ
    ∗ owns (c : Thread nD τ) (st0_0 t) fullShare ((𝔡).after 0 t)
    ∗ owns (c : Thread nD τ) (st0_1 t) fullShare ((𝔡).after 1 t)
    ∗ owns (c : Thread nD τ) (st0_2 t) fullShare ((𝔡).after 2 t)
    ∗ owns (c : Thread nD τ) (st0_3 t) fullShare ((𝔡).after 3 t)
    ∗ owns (c : Thread nD τ) (st0_4 t) fullShare ((𝔡).after 4 t))

/-- The body at any point: the inputs' buffers hold their blocks, so the body's triple applies; the invariant and what
    the core owes pass through unread. -/
theorem sound_body (ι : Ix) (t : Fin cfg0.N) :
    bodyPre (Name := Name) (U := U) (Lvl := Lvl) A O₀ Rb ι t
      ⊢ wp frame (wpE (defs₀ (F := F)) Variants.none c none) Set.univ (bodyAt0 t)
          (fun _ => bodyPost (Name := Name) (U := U) (Lvl := Lvl) A O₀ Rb ι t) := by
  unfold bodyPre bodyPost bodyAt0
  simp only [before0_0 A O₀ Rb, before0_1 A O₀ Rb, before0_2 A O₀ Rb, before0_3 A O₀ Rb]
  rw [show (𝔡).Φ t.succ = (𝔡).Φ t.castSucc from rfl,
    show (𝔡).owesAt ι t.succ = (𝔡).owesAt ι t.castSucc from rfl,
    after0_0 A O₀ Rb, after0_1 A O₀ Rb, after0_2 A O₀ Rb, after0_3 A O₀ Rb, after0_4 A O₀ Rb]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _
    (iblk A 0 t) (iblk A 1 t) (iblk A 2 t) (iblk A 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of pipeline 0 at every point, in its exact form, -/
theorem body_obligation0 (ι : Ix) : BodyObligation (𝔡) (defs₀ (F := F)) Variants.none ι Set.univ := fun t => by
  rw [bigSep_W0, bigSep_W0]
  exact sound_body A O₀ Rb ι t

/-- and as the region rule takes it, for every index of the credit tokens. -/
theorem hbody0 (ι : Ix) : BodyObligationLoose (𝔡) (defs₀ (F := F)) Variants.none ι Set.univ :=
  (body_obligation0 A O₀ Rb ι).loose

/-! ## The invariant's two ends, for a kernel with no semaphores of its own -/

/-- The invariant before the first point, from the scoped buffers no window stages (nothing else enters it). -/
theorem hin0 (pre : sProp 𝕄) : iprop(emp ∗ pre ∗ Pipeline.scopedRest spec0 c) ⊢ (𝔡).Φ 0 := by
  rw [Φ_eq]; iintro ⟨-, -, H⟩; iexact H

/-- The invariant after the last point gives the scoped buffers back. -/
theorem hout0 : (𝔡).Φ (Fin.last cfg0.N)
    ⊢ iprop(emp ∗ Pipeline.ownSems0 (fun k : PEmpty => k.elim) c ∗ Pipeline.scopedRest spec0 c) := by
  rw [Φ_eq, Pipeline.ownSems0_none]; iintro H
  isplitr; · iempintro
  isplitr; · iempintro
  iexact H

/-! ## The arrays after the region: the inputs as found, the output block by block -/

theorem hz2 : (![0, 0] : Fin 2 → Nat) = fun _ => 0 := funext fun a => by fin_cases a <;> rfl
theorem hz3 : (![0, 0, 0] : Fin 3 → Nat) = fun _ => 0 := funext fun a => by fin_cases a <;> rfl

/-- One store over the whole buffer leaves its payload, and each load reads its whole buffer. -/
theorem out4_eq (x0 : Vec F S5200x5 .f32) (x1 : Vec F S1x5x256 .f32) (x2 : Vec F S1x1x256 .f32) (x3 : Vec F S1x1x256 .f32) :
    out4 x0 x1 x2 x3 = k0_pay1 x0 x1 x2 x3 := by
  unfold out4
  rw [View.canon_unit_zero hz3]
  simp only [View.ld_unit_zero (S := S5200x5) hz2, View.ld_unit_zero (S := S1x5x256) hz3, View.ld_unit_zero (S := S1x1x256) hz3]

/-- An input window's array is never written back. -/
theorem arrAt_in0 (n : Nat) : (𝔡).arrAt 0 n = A 0 := ((𝔡).arrAt_in 0 rfl n).trans (A_eq A O₀ Rb 0)
theorem arrAt_in1 (n : Nat) : (𝔡).arrAt 1 n = A 1 := ((𝔡).arrAt_in 1 rfl n).trans (A_eq A O₀ Rb 1)
theorem arrAt_in2 (n : Nat) : (𝔡).arrAt 2 n = A 2 := ((𝔡).arrAt_in 2 rfl n).trans (A_eq A O₀ Rb 2)
theorem arrAt_in3 (n : Nat) : (𝔡).arrAt 3 n = A 3 := ((𝔡).arrAt_in 3 rfl n).trans (A_eq A O₀ Rb 3)

/-- What point `t` writes back to the output array: the payload of the four input blocks at `t`. -/
theorem flushed4 (t : Fin cfg0.N) :
    (𝔡).flushed 4 t = (cfg0.win 4).cut (grid0.coords t) (k0_pay1 (iblk A 0 t) (iblk A 1 t) (iblk A 2 t) (iblk A 3 t)) := by
  show (cfg0.win 4).cut (grid0.coords t) ((𝔡).after 4 t) = _
  rw [after0_4 A O₀ Rb, out4_eq]

/-- The output's index map sends distinct grid points to distinct blocks. -/
theorem idx_inj4 : ∀ t t' : Fin cfg0.N, win0_4.index t = win0_4.index t' → t = t' :=
  (by decide +kernel : ∀ t t' : Fin grid0.N, win0_4.index t = win0_4.index t' → t = t')

/-- So two points' output blocks share no index. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- Block `t` of the output array after the region, read back, is what point `t` wrote. -/
theorem blocks4 (t : Fin cfg0.N) :
    ((cfg0.win 4).blk t).view.read (Elt F) ((𝔡).arrAt 4 cfg0.N)
      = (cfg0.win 4).cut (grid0.coords t) (k0_pay1 (iblk A 0 t) (iblk A 1 t) (iblk A 2 t) (iblk A 3 t)) :=
  ((𝔡).read_blk_arrAt_eq_flushed 4 disjoint4 cfg0.N t t.isLt (flush0_4 t)).trans (flushed4 A O₀ Rb t)

/-! ## The same data at the program's pinned configuration -/

/-- The program's pipelines prefetch nothing, so pipeline 0 pinned at any admissible choice is `cfg0`. -/
theorem pin_eq (a : (p : Fin 2) → (pcfgs (F := F) p).Adm) : Pipeline.pin (pcfgs (F := F)) a 0 = cfg0 := rfl

/-- The proof data read at the pinned configuration. -/
abbrev dat0P (a : (p : Fin 2) → (pcfgs (F := F) p).Adm) :
    Dat τ (Elt F) Ix Name U Lvl (Pipeline.pin (pcfgs (F := F)) a 0) c := dat0 A O₀ Rb

/-- The body obligation at the pinned configuration. -/
theorem hbody0P (a : (p : Fin 2) → (pcfgs (F := F) p).Adm) (ι : Ix) :
    BodyObligationLoose (dat0P (Name := Name) (U := U) (Lvl := Lvl) A O₀ Rb a) (defs₀ (F := F)) Variants.none ι Set.univ :=
  hbody0 A O₀ Rb ι

end

end Cert.Proof.K0Ideal

end
-- ==== Proof.KI.R0.lean ====
/-
  Region k0 as a segment of the program's @main on the TensorCore: its record over the thread state "every unscoped
  buffer at a valuation, what the core owes within a bound on its recorded wait pairs, and a rest that rides along".
  The region splits its five windows' arrays out of the unscoped buffers at entry and puts them back at exit at the
  valuation updated at the output array; the wait evidence for its staging cells comes from the levels.
-/
import proofs.«211384_g36696200577170_cont_8to1_b_1111_23_alg».proof.Proof.KI.Launch
import proofs.«211384_g36696200577170_cont_8to1_b_1111_23_alg».proof.Proof.K0Ideal
import Idealize.ShloMosaic.Lib.Pipeline.RegionsLoop
import Idealize.ShloMosaic.Lib.Pipeline.Frame

noncomputable section

namespace Cert.Proof.KI

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

/-! ## Region 0 over the TensorCore's thread state inside the program

Between two items of @main the TensorCore holds every unscoped buffer whole at a valuation, what it owes the other
threads within a bound on its recorded wait pairs, and a rest that rides along. The region splits its five windows'
arrays out of the unscoped buffers, runs, and puts them back at the valuation updated at the output array. -/

section R0

variable (Vv : Dev nD → Valuation τ sig (Elt F)) (O : Dev nD → CellTallies nD τ sig (HIx 1))
  (Rb : Dev nD → Set (SemLoc sig × HIx 1))
  (d1 : (c : Dev nD) → Dat τ (Elt F) (HIx 1) ℕ UU ℕ (cfgs 1) c)

/-- Pipeline 0's arrays as the valuation has them. -/
abbrev A0 (c : Dev nD) : K0Ideal.Arrs (F := F) c := fun w => Vv c (Pipeline.arrRef spec0 w)

/-- Pipeline 0's proof data at the valuation. -/
abbrev dat0 (c : Dev nD) : Dat τ (Elt F) (HIx 1) ℕ UU ℕ cfg0 c := K0Ideal.dat0 (A0 Vv c) (O c) (Rb c)

/-- The proof data family: pipeline 0's at the valuation, any data for the other pipeline. -/
def pdats0 : (p : Fin 2) → (c : Dev nD) → Dat τ (Elt F) (HIx 1) ℕ UU ℕ (cfgs p) c
  | ⟨0, _⟩ => fun c => K0Ideal.dat0 (A0 Vv c) (O c) (Rb c)
  | ⟨1, _⟩ => fun c => d1 c

/-- The output array after the region: every point's block written back. -/
def out35 (c : Dev nD) : Buf (Elt F) ((c : Thread nD τ).loc main_v35) := (dat0 Vv O Rb c).arrAt 4 cfg0.N

/-- The valuation the region leaves: the entry valuation updated at the output array. -/
abbrev Vout (c : Dev nD) : Valuation τ sig (Elt F) := Function.update (Vv c) (Proc.devRef .tc main_v35) (out35 Vv O Rb c)

/-- Region 0's record. The wait evidence for the staging cells comes from three facts about the levels: the staging
    cells carry the credit tokens' index, at level 0, and everything the core owes sits above level 0. -/
def R0 (Efr : Dev nD → sProp (MM (F := F)))
    (hι : ∀ (c : Dev nD) (w : Fin cfg0.W) (s : Fin (cfg0.win w).nbuf),
      (none : HIx 1) ∈ (K (F := F)).L ((c : Thread nD τ), .dma ((cfg0.win w).sem s)))
    (hιb : ∀ (c : Dev nD) (w : Fin cfg0.W) (s : Fin (cfg0.win w).nbuf),
      (K (F := F)).lev ((c : Thread nD τ), .dma ((cfg0.win w).sem s)) none ≤ 0)
    (hD : ∀ (c : Dev nD) (g : GSem nD τ sig) (i : HIx 1), 0 < O c g i → i ∈ (K (F := F)).L g ∧ 0 < (K (F := F)).lev g i) :
    RegionSeg (pcfgs (F := F)) adm (pdats0 Vv O Rb d1) (none : HIx 1) (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := K0Ideal.hbody0 (A0 Vv c) (O c) (Rb c) none
  hwaits c := Pipeline.cellsWaits_of_cut _ (pdats0 Vv O Rb d1) (none : HIx 1) 0 c 0 (O c) (fun _ => rfl) (hι c) (hιb c) (hD c)
  pre c := iprop(StableHlo.held (c : Thread nD τ) (Pipeline.ucRefs τ sig) (Vv c) ∗ Pipeline.owesWithin c (O c) (Rb c) ∗ Efr c)
  post c := iprop(StableHlo.held (c : Thread nD τ) (Pipeline.ucRefs τ sig) (Vout Vv O Rb c)
    ∗ (dat0 Vv O Rb c).owesAt none (Fin.last cfg0.N) ∗ Efr c)
  X _ := BI.emp
  Y _ := BI.emp
  Z c := iprop(Pipeline.unscopedRest (Ix := HIx 1) (Name := ℕ) (U := UU) (Lvl := ℕ) spec0 c (fun b => Vv c b) ∗ Efr c)
  hentry c := by
    rw [Pipeline.ownSems0_none]
    have hsplit := Pipeline.arrays_of_unscopedBufs (p := 0) (pcfgs (F := F)) adm (pdats0 Vv O Rb d1) launch0.win launch0.arr_whole c
      ((pdats0 Vv O Rb d1 0 c).share_full fun _ => rfl) (fun b => Vv c b) fun _ => rfl
    rw [← Pipeline.unscopedBufs_held (Ix := HIx 1) (Name := ℕ) (U := UU) (Lvl := ℕ) c (Vv c)]
    iintro ⟨⟨Hub, HO, HE⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitr; · iempintro
    isplitl [Hrest]; · iexact Hrest
    iexact HE
  hin c := by
    rw [show (pdats0 Vv O Rb d1 0 c).Φ 0 = Pipeline.scopedRest spec0 c from rfl]
    iintro ⟨-, -, Hr⟩; iexact Hr
  hout c := by
    rw [Pipeline.ownSems0_none, show (pdats0 Vv O Rb d1 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats0 Vv O Rb d1) ((pdats0 Vv O Rb d1 0 c).share_full fun _ => rfl) (fun b => Vv c b) (fun b => Vout Vv O Rb c b) ((pdats0 Vv O Rb d1 0 c).arrAt · cfg0.N)
      (fun w => by
        fin_cases w
        · exact (K0Ideal.arrAt_in0 (A0 Vv c) (O c) (Rb c) _).trans (Function.update_of_ne (StableHlo.devRef_ne_of_ne (by decide)) _ _).symm
        · exact (K0Ideal.arrAt_in1 (A0 Vv c) (O c) (Rb c) _).trans (Function.update_of_ne (StableHlo.devRef_ne_of_ne (by decide)) _ _).symm
        · exact (K0Ideal.arrAt_in2 (A0 Vv c) (O c) (Rb c) _).trans (Function.update_of_ne (StableHlo.devRef_ne_of_ne (by decide)) _ _).symm
        · exact (K0Ideal.arrAt_in3 (A0 Vv c) (O c) (Rb c) _).trans (Function.update_of_ne (StableHlo.devRef_ne_of_ne (by decide)) _ _).symm
        · show _ = Function.update (Vv c) (Proc.devRef .tc main_v35) (out35 Vv O Rb c) (Proc.devRef .tc main_v35)
          rw [Function.update_self]; rfl)
      (fun b hb => Function.update_of_ne (StableHlo.devRef_ne_of_ne fun (h : b = main_v35) => hb (by
        rw [h]; exact Finset.mem_image.mpr ⟨4, Finset.mem_univ _, rfl⟩)) _ _)
    rw [← Pipeline.unscopedBufs_held (Ix := HIx 1) (Name := ℕ) (U := UU) (Lvl := ℕ) c (Vout Vv O Rb c)]
    iintro ⟨Ha, HO, -, Hrest, HE⟩
    imodintro
    isplitl [Ha Hrest]
    · iapply hjoin; isplitl [Ha] <;> iassumption
    isplitl [HO]; · iexact HO
    iexact HE

end R0

section R0Facts

variable (Vv : Dev nD → Valuation τ sig (Elt F)) (O : Dev nD → CellTallies nD τ sig (HIx 1))
  (Rb : Dev nD → Set (SemLoc sig × HIx 1))
  (d1 : (c : Dev nD) → Dat τ (Elt F) (HIx 1) ℕ UU ℕ (cfgs 1) c)

/-- The family at pipeline 0 is pipeline 0's data. -/
theorem pdats0_zero (c : Dev nD) : pdats0 Vv O Rb d1 0 c = K0Ideal.dat0 (A0 Vv c) (O c) (Rb c) := rfl

/-- and at pipeline 1 the given data. -/
theorem pdats0_one (c : Dev nD) : pdats0 Vv O Rb d1 1 c = d1 c := rfl

variable (Efr : Dev nD → sProp (MM (F := F)))
  (hι : ∀ (c : Dev nD) (w : Fin cfg0.W) (s : Fin (cfg0.win w).nbuf),
    (none : HIx 1) ∈ (K (F := F)).L ((c : Thread nD τ), .dma ((cfg0.win w).sem s)))
  (hιb : ∀ (c : Dev nD) (w : Fin cfg0.W) (s : Fin (cfg0.win w).nbuf),
    (K (F := F)).lev ((c : Thread nD τ), .dma ((cfg0.win w).sem s)) none ≤ 0)
  (hD : ∀ (c : Dev nD) (g : GSem nD τ sig) (i : HIx 1), 0 < O c g i → i ∈ (K (F := F)).L g ∧ 0 < (K (F := F)).lev g i)

/-- The thread state the region is entered from. -/
theorem R0_pre (c : Dev nD) : (R0 Vv O Rb d1 Efr hι hιb hD).pre c
    = iprop(StableHlo.held (c : Thread nD τ) (Pipeline.ucRefs τ sig) (Vv c) ∗ Pipeline.owesWithin c (O c) (Rb c) ∗ Efr c) := rfl

/-- The thread state it leaves. -/
theorem R0_post (c : Dev nD) : (R0 Vv O Rb d1 Efr hι hιb hD).post c
    = iprop(StableHlo.held (c : Thread nD τ) (Pipeline.ucRefs τ sig) (Vout Vv O Rb c)
        ∗ (dat0 Vv O Rb c).owesAt none (Fin.last cfg0.N) ∗ Efr c) := rfl

/-- The valuation it leaves, off the output array, is the entry valuation. -/
theorem Vout_of_ne (c : Dev nD) (b : Ref sig .tc) (h : b ≠ main_v35) : Vout Vv O Rb c b = Vv c b :=
  Function.update_of_ne (StableHlo.devRef_ne_of_ne h) _ _

/-- and at the output array, the array after the write-backs. -/
theorem Vout_main_v35 (c : Dev nD) : Vout Vv O Rb c main_v35 = out35 Vv O Rb c := Function.update_self _ _ _

/-- Block `t` of the output array after the region is the payload of the four input blocks at `t`. -/
theorem out35_block (c : Dev nD) (t : Fin cfg0.N) :
    ((cfg0.win 4).blk t).view.read (Elt F) (out35 Vv O Rb c)
      = (cfg0.win 4).cut (grid0.coords t)
          (k0_pay1 (K0Ideal.iblk (A0 Vv c) 0 t) (K0Ideal.iblk (A0 Vv c) 1 t) (K0Ideal.iblk (A0 Vv c) 2 t) (K0Ideal.iblk (A0 Vv c) 3 t)) :=
  K0Ideal.blocks4 (A0 Vv c) (O c) (Rb c) t

end R0Facts

end Cert.Proof.KI

end
-- ==== Proof.K2Body.lean ====
/-
  Region k2 (the network body, one grid point): the body's run.

  The body is fourteen thousand printed statements in 248 parts (244 of at most sixty statements, four over their
  calls). It only READS its ten input blocks (1,365 loads through 105 literal rectangles) and ends in ONE store that
  fills the output block. So from the eleven staging buffers held whole — the inputs at contents `f0 … f9`, the
  output at anything — it runs to its return with the inputs as they were and the output at a term over
  `f0 … f9` alone: the last payload applied to the earlier ones, down to the loads. That term is the witness of a
  subtype, found by running the body part by part, one theorem per printed part composed along the root sequence.
-/
import proofs.«211384_g36696200577170_cont_8to1_b_1111_23_alg».proof.Proof.Gen.KernelIdeal.Skeleton
import Idealize.ShloMosaic.Lib.Tactic

noncomputable section

namespace Cert.Proof.K2Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The contents type of memref `M`'s buffer on core `c`. -/
abbrev Bf (c : Dev nD) {sp : Space} {S : Shape} {e : EltTy} (M : Memref sig .tc sp S e) : Type :=
  Buf (Elt F) (M.view.loc (c : Thread nD τ))

/-- Memref `M`'s buffer on core `c` held whole, outright, at contents `f`. -/
abbrev pt (c : Dev nD) {sp : Space} {S : Shape} {e : EltTy} (M : Memref sig .tc sp S e) (f : Bf (F := F) c M) : sProp 𝕄 :=
  M.view.loc (c : Thread nD τ) ↦{fullShare} f

set_option maxHeartbeats 8000000 in
/-- What the body leaves in the output block, as a term over the input blocks' contents, WITH the proof that from
    the eleven buffers held whole the body runs to its return handing the inputs back as they were and the output
    at that term. -/
noncomputable def k2Run (c : Dev nD) (M0 : Memref sig .tc .vmem S16x325x40 .f32) (h0 : M0.IsWhole) (M1 : Memref sig .tc .vmem S10x4x325x325 .f32) (h1 : M1.IsWhole) (M2 : Memref sig .tc .vmem S4x160x64 .f32) (h2 : M2.IsWhole) (M3 : Memref sig .tc .vmem S9x4x64x64 .f32) (h3 : M3.IsWhole) (M4 : Memref sig .tc .vmem S10x64 .f32) (h4 : M4.IsWhole) (M5 : Memref sig .tc .vmem S10x64 .f32) (h5 : M5.IsWhole) (M6 : Memref sig .tc .vmem S64x512 .f32) (h6 : M6.IsWhole) (M7 : Memref sig .tc .vmem S512 .f32) (h7 : M7.IsWhole) (M8 : Memref sig .tc .vmem S512x1 .f32) (h8 : M8.IsWhole) (M9 : Memref sig .tc .vmem S1x1 .f32) (h9 : M9.IsWhole) (M10 : Memref sig .tc .vmem S16x325x1 .f32) (h10 : M10.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) :
    { W : Bf (F := F) c M10 //
      ∀ (f10 : Bf (F := F) c M10) (E : Set Name) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10
          ∗ (iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 W) -∗ Q ⟨⟩))
        ⊢ wp frame (wpE (defs₀ (F := F)) Variants.none c none) E
            (cc2__net_body M0 h0 M1 h1 M2 h2 M3 h3 M4 h4 M5 h5 M6 h6 M7 h7 M8 h8 M9 h9 M10 h10) Q } := by
  refine ⟨?_, fun f10 E Q => ?run⟩
  case run =>
    iintro ⟨H0, H1, H2, H3, H4, H5, H6, H7, H8, H9, H10, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.Proof.K2Body

end
-- ==== Proof.K2BodyDat.lean ====
/-
  Region k2 (the network body, one grid point): the pipeline's proof data and the body obligation.

  The pipeline is gridless — one point — over eleven whole-array windows, ten inputs and the result, each staged in
  one buffer, with no scratch buffer, no semaphore of the kernel's own and no prefetched table. At the point every
  input is fetched, so its staging buffer holds the array itself; the body's run hands the inputs back as they were
  and leaves in the result's buffer the term it finds (`k2Run`'s witness). The invariant between the region's ends
  is the scoped buffers no window of this pipeline stages, each at something; the core owes the same tallies
  throughout (the body pays off nothing and takes on nothing).
-/
import proofs.«211384_g36696200577170_cont_8to1_b_1111_23_alg».proof.Proof.K2Body
import proofs.«211384_g36696200577170_cont_8to1_b_1111_23_alg».proof.Proof.Gen.KernelIdeal.Launch
import proofs.«211384_g36696200577170_cont_8to1_b_1111_23_alg».proof.Proof.Gen.KernelIdeal.Points

noncomputable section

namespace Cert.Proof.K2Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The entry contents of the windows' arrays on core `c`. -/
abbrev Arrs (c : Dev nD) : Type := (w : Fin cfg2.W) → Buf (Elt F) ((cfg2.win w).arr.view.loc (c.tc : Thread nD τ))

variable {c : Dev nD} (A : Arrs (F := F) c) (O₀ : CellTallies nD τ sig Ix) (Rb : Set (SemLoc sig × Ix))

/-- Each input window's block at the one point, read off its array's entry contents: what the fetch puts in its
    staging buffer (the windows are whole: the block is the array). One per window, so that each block's type is the
    window's own. -/
abbrev blk0 (A : Arrs (F := F) c) : (cfg2.win 0).block.Idx → Elt F (cfg2.win 0).elt :=
  ((cfg2.win 0).blk t2_0).view.read (Elt F) (A 0)
abbrev blk1 (A : Arrs (F := F) c) : (cfg2.win 1).block.Idx → Elt F (cfg2.win 1).elt :=
  ((cfg2.win 1).blk t2_0).view.read (Elt F) (A 1)
abbrev blk2 (A : Arrs (F := F) c) : (cfg2.win 2).block.Idx → Elt F (cfg2.win 2).elt :=
  ((cfg2.win 2).blk t2_0).view.read (Elt F) (A 2)
abbrev blk3 (A : Arrs (F := F) c) : (cfg2.win 3).block.Idx → Elt F (cfg2.win 3).elt :=
  ((cfg2.win 3).blk t2_0).view.read (Elt F) (A 3)
abbrev blk4 (A : Arrs (F := F) c) : (cfg2.win 4).block.Idx → Elt F (cfg2.win 4).elt :=
  ((cfg2.win 4).blk t2_0).view.read (Elt F) (A 4)
abbrev blk5 (A : Arrs (F := F) c) : (cfg2.win 5).block.Idx → Elt F (cfg2.win 5).elt :=
  ((cfg2.win 5).blk t2_0).view.read (Elt F) (A 5)
abbrev blk6 (A : Arrs (F := F) c) : (cfg2.win 6).block.Idx → Elt F (cfg2.win 6).elt :=
  ((cfg2.win 6).blk t2_0).view.read (Elt F) (A 6)
abbrev blk7 (A : Arrs (F := F) c) : (cfg2.win 7).block.Idx → Elt F (cfg2.win 7).elt :=
  ((cfg2.win 7).blk t2_0).view.read (Elt F) (A 7)
abbrev blk8 (A : Arrs (F := F) c) : (cfg2.win 8).block.Idx → Elt F (cfg2.win 8).elt :=
  ((cfg2.win 8).blk t2_0).view.read (Elt F) (A 8)
abbrev blk9 (A : Arrs (F := F) c) : (cfg2.win 9).block.Idx → Elt F (cfg2.win 9).elt :=
  ((cfg2.win 9).blk t2_0).view.read (Elt F) (A 9)

/-- The body's run from the input staging buffers at the fetched blocks: its witness is what the body leaves in the
    result's staging buffer. -/
abbrev K (A : Arrs (F := F) c) :=
  k2Run (F := F) (Ix := Ix) (Name := Name) (U := U) (Lvl := Lvl) c (stage2_0 0) (hstage2_0 0) (stage2_1 0) (hstage2_1 0) (stage2_2 0) (hstage2_2 0) (stage2_3 0) (hstage2_3 0) (stage2_4 0) (hstage2_4 0) (stage2_5 0) (hstage2_5 0) (stage2_6 0) (hstage2_6 0) (stage2_7 0) (hstage2_7 0) (stage2_8 0) (hstage2_8 0) (stage2_9 0) (hstage2_9 0) (stage2_10 0) (hstage2_10 0)
    (blk0 A) (blk1 A) (blk2 A) (blk3 A) (blk4 A) (blk5 A) (blk6 A) (blk7 A) (blk8 A) (blk9 A)

/-- The proof data on core `c`: the arrays at their entry contents `A`; after the body each input's staging buffer
    as fetched and the result's at what the run leaves; between the region's ends the scoped buffers this pipeline
    does not stage; the tallies `O₀` owed throughout, the core's recorded wait pairs within `Rb` throughout (the body waits on nothing
    of its own); full shares. -/
def dat (A : Arrs (F := F) c) (O₀ : CellTallies nD τ sig Ix) (Rb : Set (SemLoc sig × Ix)) : Dat τ (Elt F) Ix Name U Lvl cfg2 c where
  A := A
  after w _ := match w with
    | ⟨0, _⟩ => blk0 A
    | ⟨1, _⟩ => blk1 A
    | ⟨2, _⟩ => blk2 A
    | ⟨3, _⟩ => blk3 A
    | ⟨4, _⟩ => blk4 A
    | ⟨5, _⟩ => blk5 A
    | ⟨6, _⟩ => blk6 A
    | ⟨7, _⟩ => blk7 A
    | ⟨8, _⟩ => blk8 A
    | ⟨9, _⟩ => blk9 A
    | ⟨10, _⟩ => (K (Ix := Ix) (Name := Name) (U := U) (Lvl := Lvl) A).1
  Φ _ := Pipeline.scopedRest (Ix := Ix) (Name := Name) (U := U) (Lvl := Lvl) (Val := Elt F) spec2 c
  q _ := fullShare
  owed _ := O₀
  recorded _ := Rb

/-- A fetched window's staging buffer holds the array's block when the body runs: every input is fetched at the one
    point, and an uncut window's fetch fills the whole buffer. -/
theorem before_in0 (d : (cfg2.win 0).block.Idx → Elt F (cfg2.win 0).elt) :
    (dat (Ix := Ix) (Name := Name) (U := U) (Lvl := Lvl) A O₀ Rb).before 0 t2_0 d = blk0 A := by
  unfold Dat.before; rw [if_pos (fetch2_0 t2_0)]; rfl
theorem before_in1 (d : (cfg2.win 1).block.Idx → Elt F (cfg2.win 1).elt) :
    (dat (Ix := Ix) (Name := Name) (U := U) (Lvl := Lvl) A O₀ Rb).before 1 t2_0 d = blk1 A := by
  unfold Dat.before; rw [if_pos (fetch2_1 t2_0)]; rfl
theorem before_in2 (d : (cfg2.win 2).block.Idx → Elt F (cfg2.win 2).elt) :
    (dat (Ix := Ix) (Name := Name) (U := U) (Lvl := Lvl) A O₀ Rb).before 2 t2_0 d = blk2 A := by
  unfold Dat.before; rw [if_pos (fetch2_2 t2_0)]; rfl
theorem before_in3 (d : (cfg2.win 3).block.Idx → Elt F (cfg2.win 3).elt) :
    (dat (Ix := Ix) (Name := Name) (U := U) (Lvl := Lvl) A O₀ Rb).before 3 t2_0 d = blk3 A := by
  unfold Dat.before; rw [if_pos (fetch2_3 t2_0)]; rfl
theorem before_in4 (d : (cfg2.win 4).block.Idx → Elt F (cfg2.win 4).elt) :
    (dat (Ix := Ix) (Name := Name) (U := U) (Lvl := Lvl) A O₀ Rb).before 4 t2_0 d = blk4 A := by
  unfold Dat.before; rw [if_pos (fetch2_4 t2_0)]; rfl
theorem before_in5 (d : (cfg2.win 5).block.Idx → Elt F (cfg2.win 5).elt) :
    (dat (Ix := Ix) (Name := Name) (U := U) (Lvl := Lvl) A O₀ Rb).before 5 t2_0 d = blk5 A := by
  unfold Dat.before; rw [if_pos (fetch2_5 t2_0)]; rfl
theorem before_in6 (d : (cfg2.win 6).block.Idx → Elt F (cfg2.win 6).elt) :
    (dat (Ix := Ix) (Name := Name) (U := U) (Lvl := Lvl) A O₀ Rb).before 6 t2_0 d = blk6 A := by
  unfold Dat.before; rw [if_pos (fetch2_6 t2_0)]; rfl
theorem before_in7 (d : (cfg2.win 7).block.Idx → Elt F (cfg2.win 7).elt) :
    (dat (Ix := Ix) (Name := Name) (U := U) (Lvl := Lvl) A O₀ Rb).before 7 t2_0 d = blk7 A := by
  unfold Dat.before; rw [if_pos (fetch2_7 t2_0)]; rfl
theorem before_in8 (d : (cfg2.win 8).block.Idx → Elt F (cfg2.win 8).elt) :
    (dat (Ix := Ix) (Name := Name) (U := U) (Lvl := Lvl) A O₀ Rb).before 8 t2_0 d = blk8 A := by
  unfold Dat.before; rw [if_pos (fetch2_8 t2_0)]; rfl
theorem before_in9 (d : (cfg2.win 9).block.Idx → Elt F (cfg2.win 9).elt) :
    (dat (Ix := Ix) (Name := Name) (U := U) (Lvl := Lvl) A O₀ Rb).before 9 t2_0 d = blk9 A := by
  unfold Dat.before; rw [if_pos (fetch2_9 t2_0)]; rfl

set_option maxHeartbeats 2000000 in
/-- The body obligation at the one point: the eleven staging buffers taken out of the windows' conjunction, the run
    applied at the inputs' contents, what it returns put back; the invariant and what the core owes pass by. -/
theorem body_obligation (ι : Ix) :
    BodyObligation (dat (Ix := Ix) (Name := Name) (U := U) (Lvl := Lvl) A O₀ Rb) (defs₀ (F := F)) Variants.none ι Set.univ := fun t => by
  obtain rfl := fin_N2 t
  rw [bigSep_W2, bigSep_W2]
  simp only [owns_whole_eq]
  -- the invariant and what the core owes are the same before and after the point
  rw [show (dat (Ix := Ix) (Name := Name) (U := U) (Lvl := Lvl) A O₀ Rb).Φ t2_0.succ = (dat (Ix := Ix) (Name := Name) (U := U) (Lvl := Lvl) A O₀ Rb).Φ t2_0.castSucc from rfl,
    show (dat (Ix := Ix) (Name := Name) (U := U) (Lvl := Lvl) A O₀ Rb).owesAt ι t2_0.succ = (dat (Ix := Ix) (Name := Name) (U := U) (Lvl := Lvl) A O₀ Rb).owesAt ι t2_0.castSucc from rfl]
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, -, H10⟩⟩
  rw [before_in0] at hf0
  rw [before_in1] at hf1
  rw [before_in2] at hf2
  rw [before_in3] at hf3
  rw [before_in4] at hf4
  rw [before_in5] at hf5
  rw [before_in6] at hf6
  rw [before_in7] at hf7
  rw [before_in8] at hf8
  rw [before_in9] at hf9
  subst hf0 hf1 hf2 hf3 hf4 hf5 hf6 hf7 hf8 hf9
  iapply ((K (Ix := Ix) (Name := Name) (U := U) (Lvl := Lvl) A).2 f10 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Ho]; · iexact Ho
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [H6]
  · iexists _; isplitr
    · ipureintro; rfl
    · iexact H6
  isplitl [H7]
  · iexists _; isplitr
    · ipureintro; rfl
    · iexact H7
  isplitl [H8]
  · iexists _; isplitr
    · ipureintro; rfl
    · iexact H8
  isplitl [H9]
  · iexists _; isplitr
    · ipureintro; rfl
    · iexact H9
  iexists _; isplitr
  · ipureintro; rfl
  · iexact H10

/-- The form the region rule takes it in. -/
theorem hbody (ι : Ix) :
    BodyObligationLoose (dat (Ix := Ix) (Name := Name) (U := U) (Lvl := Lvl) A O₀ Rb) (defs₀ (F := F)) Variants.none ι Set.univ :=
  (body_obligation A O₀ Rb ι).loose

/-! ## The region's ends

The kernel has no semaphore of its own and no prefetched table, and takes nothing of the thread state into its
invariant: at entry the invariant is the scoped buffers the pipeline does not stage, and at exit it gives them back. -/

/-- Entering: nothing of the thread state, no table, and the scoped buffers this pipeline does not stage make the
    invariant at the first point. -/
theorem hin (V : (Pipeline.Prefetch.none : Pipeline.Prefetch sig).Contents (Elt F)) :
    iprop((emp : sProp 𝕄) ∗ Pipeline.prefHeld (Pipeline.Prefetch.none : Pipeline.Prefetch sig) c (fun _ => fullShare) V ∗ Pipeline.scopedRest spec2 c)
      ⊢ (dat (Ix := Ix) (Name := Name) (U := U) (Lvl := Lvl) A O₀ Rb).Φ 0 := by
  show _ ⊢ Pipeline.scopedRest spec2 c
  unfold Pipeline.prefHeld
  rw [Finset.univ_eq_empty, BI.bigSep_empty]
  exact emp_sep_elim.trans emp_sep_elim

/-- Leaving: the invariant at the last point is those scoped buffers; the kernel holds no semaphore of its own. -/
theorem hout :
    (dat (Ix := Ix) (Name := Name) (U := U) (Lvl := Lvl) A O₀ Rb).Φ (Fin.last cfg2.N)
      ⊢ iprop((emp : sProp 𝕄) ∗ Pipeline.ownSems0 (fun k : PEmpty => k.elim) c ∗ Pipeline.scopedRest spec2 c) := by
  show Pipeline.scopedRest spec2 c ⊢ _
  rw [Pipeline.ownSems0_none]
  exact emp_sep_intro.trans emp_sep_intro

end Cert.Proof.K2Body

end
-- ==== Proof.KI.R1.lean ====
/-
  The second TensorCore region of @main (the network's call, pipeline 1) as a segment record over the TensorCore's
  thread state: every unscoped buffer of the core held whole at a valuation, what the core owes, and a rest that rides
  along. The region is entered by splitting the eleven windows' arrays out of the unscoped buffers and left with
  them put back, the result's array now at what the write-back of the body's output block makes of it; nothing of
  the thread state enters the pipeline's invariant, and the kernel has no semaphore of its own. The core owes the
  same tallies throughout: the waits on the staging cells are allowed because their index sits at level zero there
  while everything owed sits strictly above.
-/
import proofs.«211384_g36696200577170_cont_8to1_b_1111_23_alg».proof.Proof.KI.Launch
import proofs.«211384_g36696200577170_cont_8to1_b_1111_23_alg».proof.Proof.K2BodyDat
import Idealize.ShloMosaic.Lib.Pipeline.Frame
import Idealize.ShloMosaic.Lib.Pipeline.RegionsLoop

noncomputable section

namespace Cert.Proof.KI

open Cert.KernelIdeal Cert.KernelIdeal.Gen

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The windows' arrays' entry contents, read off a valuation of the core's buffers. -/
abbrev arrs1 (Vl : Dev nD → Valuation τ sig (Elt F)) (c : Dev nD) : K2Body.Arrs (F := F) c :=
  fun w => Vl c (Pipeline.arrRef spec2 w)

/-- The region's proof data on core `c`, entered from valuation `Vl c` owing `O c` with recorded wait pairs within `Rb c`. -/
abbrev dat1 (Vl : Dev nD → Valuation τ sig (Elt F)) (O : Dev nD → CellTallies nD τ sig (HIx 1))
    (Rb : Dev nD → Set (SemLoc sig × HIx 1)) (c : Dev nD) : Pipeline.Dat τ (Elt F) (HIx 1) ℕ UU ℕ cfg2 c :=
  K2Body.dat (arrs1 Vl c) (O c) (Rb c)

/-- The family of proof data this region's entry runs under: its own at pipeline 1, the other pipeline's anything. -/
def pdats1 (Vl : Dev nD → Valuation τ sig (Elt F)) (O : Dev nD → CellTallies nD τ sig (HIx 1))
    (Rb : Dev nD → Set (SemLoc sig × HIx 1)) (d0 : (c : Dev nD) → Pipeline.Dat τ (Elt F) (HIx 1) ℕ UU ℕ cfg0 c) :
    (p : Fin 2) → (c : Dev nD) → Pipeline.Dat τ (Elt F) (HIx 1) ℕ UU ℕ (cfgs p) c
  | ⟨0, _⟩, c => d0 c
  | ⟨1, _⟩, c => dat1 Vl O Rb c

/-- The valuation the region leaves: the entry valuation with the result's array at what the write-back made of it. -/
def out1 (Vl : Dev nD → Valuation τ sig (Elt F)) (O : Dev nD → CellTallies nD τ sig (HIx 1))
    (Rb : Dev nD → Set (SemLoc sig × HIx 1)) (c : Dev nD) : Valuation τ sig (Elt F) :=
  Function.update (Vl c) (Proc.devRef .tc main_v41) ((dat1 Vl O Rb c).arrAt 10 cfg2.N)

/-- Updating a valuation at the result's array leaves every other buffer as it was, -/
theorem update_out_of_ne (Vv : Valuation τ sig (Elt F)) (x : (Proc.devRef (τ := τ) .tc main_v41).ty.Contents (Elt F))
    (b : Ref sig .tc) (hb : b ≠ main_v41) :
    Function.update Vv (Proc.devRef .tc main_v41) x (Proc.devRef .tc b) = Vv (Proc.devRef .tc b) :=
  Function.update_of_ne (StableHlo.devRef_ne_of_ne hb) _ _

/-- and puts the new contents at the result's array. -/
theorem update_out_self (Vv : Valuation τ sig (Elt F)) (x : (Proc.devRef (τ := τ) .tc main_v41).ty.Contents (Elt F)) :
    Function.update Vv (Proc.devRef .tc main_v41) x (Proc.devRef .tc main_v41) = x :=
  Function.update_self _ _ _

-- a library lemma stated over `pin pcs a p` applied at the pinned configuration unifies only when unification may
-- unfold plain definitions in a metavariable's type
set_option maxHeartbeats 4000000 in
set_option backward.isDefEq.respectTransparency.types false in
/-- THE REGION over the thread state "every unscoped buffer at `Vl c`, the core's `owes` at `O c` within `Rb c` and
    the pipeline's own pairs, and `Efr c`": entered from any valuation, left at `out1`. -/
def R1 (Vl : Dev nD → Valuation τ sig (Elt F)) (O : Dev nD → CellTallies nD τ sig (HIx 1))
    (Rb : Dev nD → Set (SemLoc sig × HIx 1)) (Efr : Dev nD → sProp (MM (F := F)))
    (d0 : (c : Dev nD) → Pipeline.Dat τ (Elt F) (HIx 1) ℕ UU ℕ cfg0 c)
    (hι : ∀ (c : Dev nD) (w : Fin cfg2.W) (s : Fin (cfg2.win w).nbuf),
      (none : HIx 1) ∈ (K (F := F)).L ((c : Thread nD τ), .dma ((cfg2.win w).sem s)))
    (hιb : ∀ (c : Dev nD) (w : Fin cfg2.W) (s : Fin (cfg2.win w).nbuf),
      (K (F := F)).lev ((c : Thread nD τ), .dma ((cfg2.win w).sem s)) none ≤ 0)
    (hD : ∀ (c : Dev nD) (g : GSem nD τ sig) (i : HIx 1), 0 < O c g i → i ∈ (K (F := F)).L g ∧ 0 < (K (F := F)).lev g i) :
    Pipeline.RegionSeg (pcfgs (F := F)) adm (pdats1 Vl O Rb d0) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := K2Body.hbody (arrs1 Vl c) (O c) (Rb c) none
  hwaits c := Pipeline.cellsWaits_of_cut (Pipeline.pin (pcfgs (F := F)) adm) (pdats1 Vl O Rb d0) (none : HIx 1) 1 c (0 : ℕ) (O c)
    (fun _ => rfl) (hι c) (hιb c) (hD c)
  pre c := iprop(StableHlo.held (T c) (Pipeline.ucRefs τ sig) (Vl c) ∗ (dat1 Vl O Rb c).owesAt none 0 ∗ Efr c)
  post c := iprop(StableHlo.held (T c) (Pipeline.ucRefs τ sig) (out1 Vl O Rb c) ∗ (dat1 Vl O Rb c).owesAt none (Fin.last cfg2.N) ∗ Efr c)
  X _ := BI.emp
  Y _ := BI.emp
  Z c := iprop(Pipeline.unscopedRest (Ix := HIx 1) (Name := ℕ) (U := UU) (Lvl := ℕ) spec2 c (fun b => Vl c b) ∗ Efr c)
  hentry c := by
    rw [Pipeline.ownSems0_none]
    have hsplit := Pipeline.arrays_of_unscopedBufs (p := 1) (pcfgs (F := F)) adm (pdats1 Vl O Rb d0) launch2.win
      launch2.arr_whole c ((pdats1 Vl O Rb d0 1 c).share_full fun _ => rfl) (fun b => Vl c b) fun _ => rfl
    rw [← Pipeline.unscopedBufs_held (Ix := HIx 1) (Name := ℕ) (U := UU) (Lvl := ℕ) c (Vl c)]
    iintro ⟨⟨Hub, HO, HE⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]; · iexact HO
    isplitr; · iempintro
    isplitl [Hrest]; · iexact Hrest
    iexact HE
  hin c := K2Body.hin (arrs1 Vl c) (O c) (Rb c) _
  hout c := K2Body.hout (arrs1 Vl c) (O c) (Rb c)
  hexit c := by
    have hjoin := Pipeline.unscopedBufs_of_arrays (p := 1) (pcfgs (F := F)) adm (Ix := HIx 1) (Name := ℕ) (U := UU) (Lvl := ℕ)
      launch2.win launch2.arr_whole c (pdats1 Vl O Rb d0) ((pdats1 Vl O Rb d0 1 c).share_full fun _ => rfl)
      (fun b => Vl c b) (fun b => out1 Vl O Rb c b) ((pdats1 Vl O Rb d0 1 c).arrAt · cfg2.N)
      (fun w => by
        fin_cases w
        · exact ((dat1 Vl O Rb c).arrAt_in 0 rfl _).trans (update_out_of_ne (Vl c) _ (Pipeline.arrRef spec2 0) (by decide)).symm
        · exact ((dat1 Vl O Rb c).arrAt_in 1 rfl _).trans (update_out_of_ne (Vl c) _ (Pipeline.arrRef spec2 1) (by decide)).symm
        · exact ((dat1 Vl O Rb c).arrAt_in 2 rfl _).trans (update_out_of_ne (Vl c) _ (Pipeline.arrRef spec2 2) (by decide)).symm
        · exact ((dat1 Vl O Rb c).arrAt_in 3 rfl _).trans (update_out_of_ne (Vl c) _ (Pipeline.arrRef spec2 3) (by decide)).symm
        · exact ((dat1 Vl O Rb c).arrAt_in 4 rfl _).trans (update_out_of_ne (Vl c) _ (Pipeline.arrRef spec2 4) (by decide)).symm
        · exact ((dat1 Vl O Rb c).arrAt_in 5 rfl _).trans (update_out_of_ne (Vl c) _ (Pipeline.arrRef spec2 5) (by decide)).symm
        · exact ((dat1 Vl O Rb c).arrAt_in 6 rfl _).trans (update_out_of_ne (Vl c) _ (Pipeline.arrRef spec2 6) (by decide)).symm
        · exact ((dat1 Vl O Rb c).arrAt_in 7 rfl _).trans (update_out_of_ne (Vl c) _ (Pipeline.arrRef spec2 7) (by decide)).symm
        · exact ((dat1 Vl O Rb c).arrAt_in 8 rfl _).trans (update_out_of_ne (Vl c) _ (Pipeline.arrRef spec2 8) (by decide)).symm
        · exact ((dat1 Vl O Rb c).arrAt_in 9 rfl _).trans (update_out_of_ne (Vl c) _ (Pipeline.arrRef spec2 9) (by decide)).symm
        · exact (update_out_self (Vl c) _).symm)
      (fun b hb => update_out_of_ne (Vl c) _ b
        (fun h : b = main_v41 => hb (by subst h; exact Finset.mem_image.mpr ⟨10, Finset.mem_univ _, rfl⟩)))
    rw [← Pipeline.unscopedBufs_held (Ix := HIx 1) (Name := ℕ) (U := UU) (Lvl := ℕ) c (out1 Vl O Rb c)]
    iintro ⟨Ha, HO, -, Hrest, HE⟩
    imodintro
    isplitl [Ha Hrest]
    · iapply hjoin; isplitl [Ha] <;> iassumption
    isplitl [HO]; · iexact HO
    iexact HE

end Cert.Proof.KI

end
-- ==== Proof.KI.K1Base.lean ====
/-
  The vector-subcore task of the scatter call, its set-up: the task's rows as it slices them and as the call's
  handshakes name them, the coordinates of a squeezed row, the task's own semaphores and scratch buffers.
-/
import proofs.«211384_g36696200577170_cont_8to1_b_1111_23_alg».proof.Proof.KI.K1Pay
import Idealize.ShloMosaic.Lib.Writes

noncomputable section

namespace Cert.Proof.KI

open Cert.KernelIdeal Cert.KernelIdeal.Gen
open Cert.Proof.Scat

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- A task's scratch: the fetched indices, the fetched row of values, the row buffer. -/
abbrev sI : Memref sig .scVector .vmem S5200 .i32 := Memref.whole cc1_scratch0
abbrev sA : Memref sig .scVector .vmem S5200 .f32 := Memref.whole cc1_scratch1
abbrev sB : Memref sig .scVector .vmem S105856 .f32 := Memref.whole cc1_scratch2

/-! ## Coordinates -/

omit [FloatOps F] in
theorem ixN_apply (ix : S5200.Idx → BitVec 32) (p : S5200.Idx) : ixN ix (p 0).val = (ix p).toNat := by
  unfold ixN
  rw [dif_pos (show (p 0).val < 5200 from (p 0).isLt)]
  congr 2; funext a; obtain rfl : a = 0 := Subsingleton.elim _ _; rfl

omit [FloatOps F] in
theorem rowN_apply {X : Type} (z : X) (a : S40x5200.Idx → X) (g : Fin 40) (p : S5200.Idx) : rowN z a g (p 0).val = a (ixA g (p 0)) := by
  unfold rowN
  rw [dif_pos (show (p 0).val < 5200 from (p 0).isLt)]
  rfl

omit [FloatOps F] in
/-- A row of the value array squeezed, as a task slices it: place `x` of it is place `(g, x)` of the array; -/
theorem emb_aRow (g : Fin 40) (x : S5200.Idx) :
    (((aV : Memref sig .scVector .hbm S40x5200 .f32).slice (aRowR g) (fun _ => rfl)).squeeze S5200 squeezes_S1x5200_S5200).view.emb x = ixA g (x 0) := by
  show (aRowR g).emb (Shape.reshapeEquiv _ x) = _
  rw [Shape.reshapeEquiv_cons_one]
  funext a; apply Fin.ext
  match a with
  | 0 => show g.val + 1 * 0 = g.val; omega
  | 1 => show 0 + 1 * (x 0).val = (x 0).val; omega
omit [FloatOps F] in
/-- likewise of the result array. -/
theorem emb_oRow (g : Fin 40) (x : S105856.Idx) :
    (((oV : Memref sig .scVector .hbm S40x105856 .f32).slice (oRowR g) (fun _ => rfl)).squeeze S105856 squeezes_S1x105856_S105856).view.emb x = ixO g (x 0) := by
  show (oRowR g).emb (Shape.reshapeEquiv _ x) = _
  rw [Shape.reshapeEquiv_cons_one]
  funext a; apply Fin.ext
  match a with
  | 0 => show g.val + 1 * 0 = g.val; omega
  | 1 => show 0 + 1 * (x 0).val = (x 0).val; omega

/-! ## Naming what a buffer holds -/

omit [FloatOps F] in
theorem pts_name {ℓ : Loc nD τ sig} {I : Finset (Idx ℓ)} {q : PosShare TreeShare} (g : Buf (Elt F) ℓ) :
    (ℓ ↦[I]{q} g : sProp (MM (F := F))) ⊢ iprop(∃ f, ⌜f = g⌝ ∗ ℓ ↦[I]{q} f) := by
  iintro H; iexists g; isplitr; · ipureintro; rfl
  iexact H

section Tile

variable (d : Dev nD) (L : grid1.Coords)

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev cL (L : grid1.Coords) : Fin 2 := Fin.cast bound_zero (L 0)
abbrev sL (L : grid1.Coords) : Fin 16 := Fin.cast bound_one (L 1)
abbrev thr (d : Dev nD) (L : grid1.Coords) : Thread nD τ := V d (cV L) (jV L)

/-- The first row is every vector subcore's; the second is its number plus 32, when that is below 40. -/
theorem cond1_all : ∀ L : grid1.Coords, k1_cond1 L = 1#1 := by decide +kernel
theorem cond2_iff : ∀ L : grid1.Coords, k1_cond2 L = 1#1 ↔ 2 * (L 1).val + (L 0).val + 32 < 40 := by decide +kernel
theorem t1_trips : k1_t1_loop.trips = 6616 := by decide +kernel
theorem t2_trips : k1_t2_loop.trips = 325 := by decide +kernel
theorem t3_trips : k1_t3_loop.trips = 6616 := by decide +kernel
theorem t4_trips : k1_t4_loop.trips = 325 := by decide +kernel

/-- The rows as the task slices them. -/
abbrev aRowK1 (L : grid1.Coords) (h : k1_cond1 L = 1#1) : Memref sig .scVector .hbm S5200 .f32 :=
  ((aV : Memref sig .scVector .hbm S40x5200 .f32).slice (Rect.unit (s := S40x5200) (k1_off1 L) S1x5200.size (k1_off1_inb L h)) (fun _ => rfl)).squeeze S5200 squeezes_S1x5200_S5200
abbrev oRowK1 (L : grid1.Coords) (h : k1_cond1 L = 1#1) : Memref sig .scVector .hbm S105856 .f32 :=
  ((oV : Memref sig .scVector .hbm S40x105856 .f32).slice (Rect.unit (s := S40x105856) (k1_off4 L) S1x105856.size (k1_off4_inb L h)) (fun _ => rfl)).squeeze S105856 squeezes_S1x105856_S105856
abbrev aRowK2 (L : grid1.Coords) (h : k1_cond2 L = 1#1) : Memref sig .scVector .hbm S5200 .f32 :=
  ((aV : Memref sig .scVector .hbm S40x5200 .f32).slice (Rect.unit (s := S40x5200) (k1_off5 L) S1x5200.size (k1_off5_inb L h)) (fun _ => rfl)).squeeze S5200 squeezes_S1x5200_S5200
abbrev oRowK2 (L : grid1.Coords) (h : k1_cond2 L = 1#1) : Memref sig .scVector .hbm S105856 .f32 :=
  ((oV : Memref sig .scVector .hbm S40x105856 .f32).slice (Rect.unit (s := S40x105856) (k1_off8 L) S1x105856.size (k1_off8_inb L h)) (fun _ => rfl)).squeeze S105856 squeezes_S1x105856_S105856

/-- The second row's number. -/
abbrev row1 (L : grid1.Coords) (h : 2 * (sL L).val + (cL L).val + 32 < 40) : Fin 40 := ⟨2 * (sL L).val + (cL L).val + 32, h⟩

omit [FloatOps F] in
theorem rectA1_eq (h : k1_cond1 L = 1#1) :
    Rect.unit (s := S40x5200) (k1_off1 L) S1x5200.size (k1_off1_inb L h) = aRowR (row0 (cL L) (sL L)) := Rect.unit_congr (k1_off1_eq L) _ _
omit [FloatOps F] in
theorem rectO1_eq (h : k1_cond1 L = 1#1) :
    Rect.unit (s := S40x105856) (k1_off4 L) S1x105856.size (k1_off4_inb L h) = oRowR (row0 (cL L) (sL L)) := Rect.unit_congr (k1_off4_eq L) _ _
omit [FloatOps F] in
theorem rectA2_eq (h : k1_cond2 L = 1#1) (hlt : 2 * (sL L).val + (cL L).val + 32 < 40) :
    Rect.unit (s := S40x5200) (k1_off5 L) S1x5200.size (k1_off5_inb L h) = aRowR (row1 L hlt) := Rect.unit_congr (k1_off5_eq L) _ _
omit [FloatOps F] in
theorem rectO2_eq (h : k1_cond2 L = 1#1) (hlt : 2 * (sL L).val + (cL L).val + 32 < 40) :
    Rect.unit (s := S40x105856) (k1_off8 L) S1x105856.size (k1_off8_inb L h) = oRowR (row1 L hlt) := Rect.unit_congr (k1_off8_eq L) _ _

omit [FloatOps F] in
theorem set_aRowK1 (h : k1_cond1 L = 1#1) : (aRowK1 L h).view.set = aRowSet (row0 (cL L) (sL L)) := by
  show (((aV : Memref sig .scVector .hbm S40x5200 .f32).view.slice (Rect.unit (s := S40x5200) (k1_off1 L) S1x5200.size (k1_off1_inb L h))).reshape S5200
      squeezes_S1x5200_S5200.numel_eq).set = ((aV : Memref sig .scVector .hbm S40x5200 .f32).view.slice (aRowR (row0 (cL L) (sL L)))).set
  rw [View.set_reshape]
  exact rectA1_eq L h ▸ rfl
omit [FloatOps F] in
theorem set_oRowK1 (h : k1_cond1 L = 1#1) : (oRowK1 L h).view.set = oRowSet (row0 (cL L) (sL L)) := by
  show (((oV : Memref sig .scVector .hbm S40x105856 .f32).view.slice (Rect.unit (s := S40x105856) (k1_off4 L) S1x105856.size (k1_off4_inb L h))).reshape S105856
      squeezes_S1x105856_S105856.numel_eq).set = ((oV : Memref sig .scVector .hbm S40x105856 .f32).view.slice (oRowR (row0 (cL L) (sL L)))).set
  rw [View.set_reshape]
  exact rectO1_eq L h ▸ rfl
omit [FloatOps F] in
theorem set_aRowK2 (h : k1_cond2 L = 1#1) (hlt : 2 * (sL L).val + (cL L).val + 32 < 40) : (aRowK2 L h).view.set = aRowSet (row1 L hlt) := by
  show (((aV : Memref sig .scVector .hbm S40x5200 .f32).view.slice (Rect.unit (s := S40x5200) (k1_off5 L) S1x5200.size (k1_off5_inb L h))).reshape S5200
      squeezes_S1x5200_S5200.numel_eq).set = ((aV : Memref sig .scVector .hbm S40x5200 .f32).view.slice (aRowR (row1 L hlt))).set
  rw [View.set_reshape]
  exact rectA2_eq L h hlt ▸ rfl
omit [FloatOps F] in
theorem set_oRowK2 (h : k1_cond2 L = 1#1) (hlt : 2 * (sL L).val + (cL L).val + 32 < 40) : (oRowK2 L h).view.set = oRowSet (row1 L hlt) := by
  show (((oV : Memref sig .scVector .hbm S40x105856 .f32).view.slice (Rect.unit (s := S40x105856) (k1_off8 L) S1x105856.size (k1_off8_inb L h))).reshape S105856
      squeezes_S1x105856_S105856.numel_eq).set = ((oV : Memref sig .scVector .hbm S40x105856 .f32).view.slice (oRowR (row1 L hlt))).set
  rw [View.set_reshape]
  exact rectO2_eq L h hlt ▸ rfl

omit [FloatOps F] in
theorem pts_aRowK1 (h : k1_cond1 L = 1#1) (f : Buf (Elt F) (aLoc d)) :
    ((aRowK1 L h).view.loc (thr d L) ↦[(aRowK1 L h).view.set]{fullShare} f : sProp (MM (F := F))) = aLoc d ↦[aRowSet (row0 (cL L) (sL L))]{fullShare} f := by
  rw [set_aRowK1]
omit [FloatOps F] in
theorem pts_oRowK1 (h : k1_cond1 L = 1#1) (f : Buf (Elt F) (oLoc d)) :
    ((oRowK1 L h).view.loc (thr d L) ↦[(oRowK1 L h).view.set]{fullShare} f : sProp (MM (F := F))) = oLoc d ↦[oRowSet (row0 (cL L) (sL L))]{fullShare} f := by
  rw [set_oRowK1]
omit [FloatOps F] in
theorem pts_aRowK2 (h : k1_cond2 L = 1#1) (hlt : 2 * (sL L).val + (cL L).val + 32 < 40) (f : Buf (Elt F) (aLoc d)) :
    ((aRowK2 L h).view.loc (thr d L) ↦[(aRowK2 L h).view.set]{fullShare} f : sProp (MM (F := F))) = aLoc d ↦[aRowSet (row1 L hlt)]{fullShare} f := by
  rw [set_aRowK2 L h hlt]
omit [FloatOps F] in
theorem pts_oRowK2 (h : k1_cond2 L = 1#1) (hlt : 2 * (sL L).val + (cL L).val + 32 < 40) (f : Buf (Elt F) (oLoc d)) :
    ((oRowK2 L h).view.loc (thr d L) ↦[(oRowK2 L h).view.set]{fullShare} f : sProp (MM (F := F))) = oLoc d ↦[oRowSet (row1 L hlt)]{fullShare} f := by
  rw [set_oRowK2 L h hlt]

omit [FloatOps F] in
/-- The squeezed rows' places, at the offsets as the task computes them. -/
theorem emb_aRow' (g : Fin 40) (off : Fin 2 → ℕ) (hoff : off = ![g.val, 0]) (inb : ∀ a, off a + S1x5200.size a ≤ S40x5200.size a) (x : S5200.Idx) :
    (((aV : Memref sig .scVector .hbm S40x5200 .f32).slice (Rect.unit (s := S40x5200) off S1x5200.size inb) (fun _ => rfl)).squeeze S5200 squeezes_S1x5200_S5200).view.emb x
      = ixA g (x 0) := by
  subst hoff; exact emb_aRow g x
omit [FloatOps F] in
theorem emb_oRow' (g : Fin 40) (off : Fin 2 → ℕ) (hoff : off = ![g.val, 0]) (inb : ∀ a, off a + S1x105856.size a ≤ S40x105856.size a) (x : S105856.Idx) :
    (((oV : Memref sig .scVector .hbm S40x105856 .f32).slice (Rect.unit (s := S40x105856) off S1x105856.size inb) (fun _ => rfl)).squeeze S105856 squeezes_S1x105856_S105856).view.emb x
      = ixO g (x 0) := by
  subst hoff; exact emb_oRow g x

omit [FloatOps F] in
theorem pts_iV (q : PosShare TreeShare) (f : Buf (Elt F) (iLoc d)) :
    ((iV : Memref sig .scVector .hbm S5200 .i32).view.loc (thr d L) ↦{q} f : sProp (MM (F := F))) = iLoc d ↦{q} f := rfl
omit [FloatOps F] in
theorem pts_sI (f : Buf (Elt F) ((thr d L).loc cc1_scratch0)) :
    ((sI : Memref sig .scVector .vmem S5200 .i32).view.loc (thr d L) ↦{fullShare} f : sProp (MM (F := F))) = (thr d L).loc cc1_scratch0 ↦{fullShare} f := rfl
omit [FloatOps F] in
theorem pts_sA (f : Buf (Elt F) ((thr d L).loc cc1_scratch1)) :
    ((sA : Memref sig .scVector .vmem S5200 .f32).view.loc (thr d L) ↦{fullShare} f : sProp (MM (F := F))) = (thr d L).loc cc1_scratch1 ↦{fullShare} f := rfl
omit [FloatOps F] in
theorem pts_sB (f : Buf (Elt F) ((thr d L).loc cc1_scratch2)) :
    ((sB : Memref sig .scVector .vmem S105856 .f32).view.loc (thr d L) ↦{fullShare} f : sProp (MM (F := F))) = (thr d L).loc cc1_scratch2 ↦{fullShare} f := rfl
omit [FloatOps F] in
theorem pts_sB_whole (f : Buf (Elt F) ((thr d L).loc cc1_scratch2)) :
    (((sB : Memref sig .scVector .vmem S105856 .f32).access (.whole S105856)).loc (thr d L)
        ↦[((sB : Memref sig .scVector .vmem S105856 .f32).access (.whole S105856)).set]{fullShare} f : sProp (MM (F := F)))
      = (sB : Memref sig .scVector .vmem S105856 .f32).view.loc (thr d L) ↦{fullShare} f := by
  rw [show ((sB : Memref sig .scVector .vmem S105856 .f32).access (.whole S105856)).set = Finset.univ from Memref.set_access_whole (cc1_scratch2 : Ref sig .scVector)]

/-! ## The task's own semaphores and buffers -/

abbrev cell0 (d : Dev nD) (c : Fin τ.nSC) (i : Fin τ.nSub) : GSem nD τ sig := (V d c i, .dma cc1_scoped0.sem)
abbrev cell1 (d : Dev nD) (c : Fin τ.nSC) (i : Fin τ.nSub) : GSem nD τ sig := (V d c i, .dma cc1_scoped1.sem)
abbrev cell2 (d : Dev nD) (c : Fin τ.nSC) (i : Fin τ.nSub) : GSem nD τ sig := (V d c i, .dma cc1_scoped2.sem)
abbrev cell3 (d : Dev nD) (c : Fin τ.nSC) (i : Fin τ.nSub) : GSem nD τ sig := (V d c i, .dma cc1_scoped3.sem)
abbrev cell4 (d : Dev nD) (c : Fin τ.nSC) (i : Fin τ.nSub) : GSem nD τ sig := (V d c i, .dma cc1_scoped4.sem)

omit [FloatOps F] in
theorem cell_ne {t : Thread nD τ} {s s' : DmaSem sig} (h : s ≠ s') : ((t, SemLoc.dma s) : GSem nD τ sig) ≠ (t, SemLoc.dma s') :=
  fun e => h (SemLoc.dma.inj (Prod.mk.inj e).2)

omit [FloatOps F] in
theorem cell_own (t : Proc τ) (s : DmaSem sig) (h : (SemLoc.dma s : SemLoc sig).isScoped .scVector = true) (c : Fin τ.nSC) (i : Fin τ.nSub) :
    ((V d c i, SemLoc.dma s) : GSem nD τ sig) ∈ ownCells (V d c i) := (mem_ownCells (g := (V d c i, SemLoc.dma s))).mpr ⟨rfl, h⟩

omit [FloatOps F] in
theorem ownSems0_V :
    (ownSems0 (thr d L) : sProp (MM (F := F)))
      = iprop(semVal (cell0 d (cV L) (jV L)) 0 ∗ semVal (cell1 d (cV L) (jV L)) 0 ∗ semVal (cell2 d (cV L) (jV L)) 0
          ∗ semVal (cell3 d (cV L) (jV L)) 0 ∗ semVal (cell4 d (cV L) (jV L)) 0
          ∗ bigSep ((((((ownCells (thr d L)).erase (cell0 d (cV L) (jV L))).erase (cell1 d (cV L) (jV L))).erase (cell2 d (cV L) (jV L))).erase
              (cell3 d (cV L) (jV L))).erase (cell4 d (cV L) (jV L))) fun g => semVal g 0) := by
  have n10 : (cc1_scoped1.sem : DmaSem sig) ≠ cc1_scoped0.sem := by decide
  have n20 : (cc1_scoped2.sem : DmaSem sig) ≠ cc1_scoped0.sem := by decide
  have n21 : (cc1_scoped2.sem : DmaSem sig) ≠ cc1_scoped1.sem := by decide
  have n30 : (cc1_scoped3.sem : DmaSem sig) ≠ cc1_scoped0.sem := by decide
  have n31 : (cc1_scoped3.sem : DmaSem sig) ≠ cc1_scoped1.sem := by decide
  have n32 : (cc1_scoped3.sem : DmaSem sig) ≠ cc1_scoped2.sem := by decide
  have n40 : (cc1_scoped4.sem : DmaSem sig) ≠ cc1_scoped0.sem := by decide
  have n41 : (cc1_scoped4.sem : DmaSem sig) ≠ cc1_scoped1.sem := by decide
  have n42 : (cc1_scoped4.sem : DmaSem sig) ≠ cc1_scoped2.sem := by decide
  have n43 : (cc1_scoped4.sem : DmaSem sig) ≠ cc1_scoped3.sem := by decide
  have o0 := cell_own d (.scVector (cV L) (jV L)) cc1_scoped0.sem (by decide) (cV L) (jV L)
  have o1 := cell_own d (.scVector (cV L) (jV L)) cc1_scoped1.sem (by decide) (cV L) (jV L)
  have o2 := cell_own d (.scVector (cV L) (jV L)) cc1_scoped2.sem (by decide) (cV L) (jV L)
  have o3 := cell_own d (.scVector (cV L) (jV L)) cc1_scoped3.sem (by decide) (cV L) (jV L)
  have o4 := cell_own d (.scVector (cV L) (jV L)) cc1_scoped4.sem (by decide) (cV L) (jV L)
  unfold SparseCore.Cfg.ownSems0
  rw [SparseCore.bigSep_erase' o0,
    SparseCore.bigSep_erase' (Finset.mem_erase.mpr ⟨cell_ne n10, o1⟩),
    SparseCore.bigSep_erase' (Finset.mem_erase.mpr ⟨cell_ne n21, Finset.mem_erase.mpr ⟨cell_ne n20, o2⟩⟩),
    SparseCore.bigSep_erase' (Finset.mem_erase.mpr ⟨cell_ne n32, Finset.mem_erase.mpr ⟨cell_ne n31, Finset.mem_erase.mpr ⟨cell_ne n30, o3⟩⟩⟩),
    SparseCore.bigSep_erase' (Finset.mem_erase.mpr ⟨cell_ne n43, Finset.mem_erase.mpr ⟨cell_ne n42, Finset.mem_erase.mpr ⟨cell_ne n41,
      Finset.mem_erase.mpr ⟨cell_ne n40, o4⟩⟩⟩⟩)]

omit [FloatOps F] in
/-- The three scratch buffers are among the subcore's own: they are them, at some contents, and the rest. -/
theorem ownBufs_V :
    (ownBufs (thr d L) : sProp (MM (F := F)))
      = iprop((∃ f, (thr d L).loc cc1_scratch0 ↦{fullShare} f) ∗ (∃ f, (thr d L).loc cc1_scratch1 ↦{fullShare} f)
          ∗ (∃ f, (thr d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

end Tile

end Cert.Proof.KI

end
-- ==== Proof.KI.K1Steps.lean ====
/-
  The vector-subcore task of the scatter call: vector subcore (c, s) fetches the index array, and for each of its rows
  (its first always, its second when it has one) fetches the row of values, zeroes its row buffer sixteen places at a
  time, scatters the values at the indices sixteen lanes at a time, and writes the row buffer out to the result's row.
  The loops' invariants carry the value: after `k` trips of the zeroing the first `16 k` places are zero; after `j` trips of
  the scatter the row buffer is the first `16 j` writes of the sequential scatter.
-/
import proofs.«211384_g36696200577170_cont_8to1_b_1111_23_alg».proof.Proof.KI.K1Base
import proofs.«211384_g36696200577170_cont_8to1_b_1111_23_alg».proof.Proof.Gen.KernelIdeal.Skeleton
import Idealize.ShloMosaic.Lib.Pipeline.Kit

noncomputable section

namespace Cert.Proof.KI

open Cert.KernelIdeal Cert.KernelIdeal.Gen
open Cert.Proof.Scat

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## What a trip writes, read at a place -/

/-- Sixteen zeros stored at places `16 k, …, 16 k + 15` over a row whose first `16 k` places are zero: the first `16 (k + 1)`
    places are zero. -/
theorem zero_write (f : S105856.Idx → F .f32) (k : ℕ) (off : Fin 1 → ℕ) (hoff : off = ![16 * k])
    (inb : ∀ a, off a + S16.size a ≤ S105856.size a) (w : (Rect.unit (s := S105856) off S16.size inb).shape.Idx → F .f32)
    (hw : ∀ x, w x = zeroF (F := F)) (hf : ∀ p : S105856.Idx, (p 0).val < 16 * k → f p = zeroF (F := F))
    (p : S105856.Idx) (hp : (p 0).val < 16 * (k + 1)) :
    (sB : Memref sig .scVector .vmem S105856 .f32).view.writes (Elt F) f [⟨Rect.unit (s := S105856) off S16.size inb, w⟩] p = zeroF (F := F) := by
  subst hoff
  by_cases hlo : 16 * k ≤ (p 0).val
  · let x : (Rect.unit (s := S105856) ![16 * k] S16.size inb).shape.Idx := fun a =>
      ⟨(p a).val - 16 * k, by obtain rfl : a = 0 := Subsingleton.elim _ _; show (p 0).val - 16 * k < 16; omega⟩
    have hx : (Rect.unit (s := S105856) ![16 * k] S16.size inb).emb x = p := by
      funext a; apply Fin.ext; obtain rfl : a = 0 := Subsingleton.elim _ _
      show 16 * k + 1 * ((p 0).val - 16 * k) = (p 0).val
      omega
    have h := View.read_writes_cons_emb (Val := Elt F) (v := (sB : Memref sig .scVector .vmem S105856 .f32).view) (f := f)
      (Rect.unit (s := S105856) ![16 * k] S16.size inb) w [] x
    rw [hx] at h
    exact h.trans (hw x)
  · have h := View.read_writes_apply_of_forall_not_mem (Val := Elt F) (v := (sB : Memref sig .scVector .vmem S105856 .f32).view) (f := f) p
      [(⟨Rect.unit (s := S105856) ![16 * k] S16.size inb, w⟩ : View.Piece (Elt F) S105856 .f32)] (by
        intro q hq; rw [List.mem_singleton] at hq; subst hq
        rw [Rect.mem_set_unit]; intro hall
        have h0 := (hall 0).1
        have : (16 * k : ℕ) ≤ (p 0).val := h0
        exact hlo this)
    exact h.trans (hf p (by omega))

/-- The vector scatter of entries `16 j, …, 16 j + 15` of the fetched indices and values over the first `16 j` writes of
    the sequential scatter: its first `16 (j + 1)` writes. -/
theorem scat_write (fI : S5200.Idx → BitVec 32) (fA : S5200.Idx → F .f32) (ixn : ℕ → ℕ) (vn : ℕ → F .f32)
    (hfI : ∀ p : S5200.Idx, (fI p).toNat = ixn (p 0).val) (hfA : ∀ p : S5200.Idx, fA p = vn (p 0).val)
    (j : ℕ) (off : Fin 1 → ℕ) (hoff : off = ![16 * j]) (inb : ∀ a, off a + S16.size a ≤ S5200.size a)
    (h : ∀ a x, ((![(sI : Memref sig .scVector .vmem S5200 .i32).view.readAt (Elt F) (Rect.unit (s := S5200) off S16.size inb).toLoadRect fI] :
        Fin 1 → IVec S16 32) a x).toNat < S105856.size a)
    (f : S105856.Idx → F .f32) (hf : ∀ p : S105856.Idx, f p = scatSeq ixn vn (zeroF (F := F)) (16 * j) (p 0).val) (p : S105856.Idx) :
    ((sB : Memref sig .scVector .vmem S105856 .f32).access (.whole S105856)).write (Elt F) f
        (storeIdx (((sB : Memref sig .scVector .vmem S105856 .f32).access (.whole S105856)).read (Elt F) f)
          ![(sI : Memref sig .scVector .vmem S5200 .i32).view.readAt (Elt F) (Rect.unit (s := S5200) off S16.size inb).toLoadRect fI]
          ((sA : Memref sig .scVector .vmem S5200 .f32).view.readAt (Elt F) (Rect.unit (s := S5200) off S16.size inb).toLoadRect fA)
          (fun _ => 1#1) false h) Finset.univ p
      = scatSeq ixn vn (zeroF (F := F)) (16 * (j + 1)) (p 0).val := by
  subst hoff
  refine (congrFun (Memref.write_access_whole_univ (Elt F) (cc1_scratch2 : Ref sig .scVector) f _) p).trans ?_
  have hread := Memref.read_access_whole (Elt F) (cc1_scratch2 : Ref sig .scVector) f
  rw [show 16 * (j + 1) = 16 * j + 16 by omega]
  refine storeIdx_scatSeq _ _ _ h ixn vn (zeroF (F := F)) (16 * j) (fun q => (congrFun hread q).trans (hf q)) (fun l => ?_) (fun l => ?_) p
  · refine (hfI _).trans (congrArg ixn ?_)
    show 16 * j + 1 * l.val = 16 * j + l.val
    omega
  · refine (hfA _).trans (congrArg vn ?_)
    show 16 * j + 1 * l.val = 16 * j + l.val
    omega

section Tile

variable (d : Dev nD) (L : grid1.Coords)

/-! ## The loops' invariants -/

/-- Before trip `k` of the zeroing: the first `16 k` places of the row buffer are zero. -/
def Iz (d : Dev nD) (L : grid1.Coords) (k : ℕ) (_ : Unit) : sProp (MM (F := F)) :=
  iprop(∃ f : Buf (Elt F) ((thr d L).loc cc1_scratch2), ⌜∀ p : S105856.Idx, (p 0).val < 16 * k → f p = zeroF (F := F)⌝
    ∗ (sB : Memref sig .scVector .vmem S105856 .f32).view.loc (thr d L) ↦{fullShare} f)

/-- Before trip `j` of the scatter: the fetched indices and values as they are, the row buffer at the first `16 j`
    writes of the sequential scatter. -/
def Is (d : Dev nD) (L : grid1.Coords) (fI : Buf (Elt F) ((thr d L).loc cc1_scratch0)) (fA : Buf (Elt F) ((thr d L).loc cc1_scratch1))
    (ixn : ℕ → ℕ) (vn : ℕ → F .f32) (j : ℕ) (_ : Unit) : sProp (MM (F := F)) :=
  iprop(((sI : Memref sig .scVector .vmem S5200 .i32).view.loc (thr d L) ↦{fullShare} fI)
    ∗ ((sA : Memref sig .scVector .vmem S5200 .f32).view.loc (thr d L) ↦{fullShare} fA)
    ∗ ∃ f : Buf (Elt F) ((thr d L).loc cc1_scratch2), ⌜∀ p : S105856.Idx, f p = scatSeq ixn vn (zeroF (F := F)) (16 * j) (p 0).val⌝
      ∗ (sB : Memref sig .scVector .vmem S105856 .f32).view.loc (thr d L) ↦{fullShare} f)

/-- The indices a trip of the scatter loads pass the range check, every word of the index buffer being in range. -/
theorem chk1_of (fI : Buf (Elt F) ((thr d L).loc cc1_scratch0)) (hb : ∀ p : S5200.Idx, (fI p).toNat < 105856)
    (off : Fin 1 → ℕ) (inb : ∀ a, off a + S16.size a ≤ S5200.size a) :
    k1_chk1 L ((sI : Memref sig .scVector .vmem S5200 .i32).view.readAt (Elt F) (Rect.unit (s := S5200) off S16.size inb).toLoadRect fI) := by
  intro _ a x
  obtain rfl : a = 0 := Subsingleton.elim _ _
  exact hb _

/-- A trip of the zeroing: sixteen more places are zero. -/
theorem zero_step1 (h : k1_cond1 L = 1#1) (k : Fin k1_t1_loop.trips) :
    Iz (F := F) d L k.val () ⊢ wp frame (wpE (defs₀ (F := F)) 𝒱₀ (thr d L) none) Set.univ
      (k1_t1_body L aV (Memref.isWhole_whole _) iV (Memref.isWhole_whole _) oV (Memref.isWhole_whole _) sI (Memref.isWhole_whole _) sA (Memref.isWhole_whole _) sB (Memref.isWhole_whole _) cc1_scoped0 cc1_scoped1 cc1_scoped2 cc1_scoped3 cc1_scoped4 h k ()) (Iz (F := F) d L (k.val + 1)) := by
  unfold k1_t1_body Iz
  iintro ⟨%f, %hf, HsB⟩
  sl_exec
  ihave HsB' := (pts_name _) $$ HsB
  icases HsB' with ⟨%f', %hf', HsB⟩
  sl_step
  iexists f'; isplitr
  · ipureintro; intro p hp; subst hf'
    exact zero_write f k.val _ (k1_off2_eq k) _ _ (fun _ => rfl) hf p hp
  · iexact HsB

/-- A trip of the scatter: sixteen more writes of the sequential scatter. -/
theorem scat_step1 (h : k1_cond1 L = 1#1) (fI : Buf (Elt F) ((thr d L).loc cc1_scratch0)) (fA : Buf (Elt F) ((thr d L).loc cc1_scratch1))
    (ixn : ℕ → ℕ) (vn : ℕ → F .f32) (hfI : ∀ p : S5200.Idx, (fI p).toNat = ixn (p 0).val) (hfA : ∀ p : S5200.Idx, fA p = vn (p 0).val)
    (hix : ∀ k, ixn k < 105856) (j : Fin k1_t2_loop.trips) :
    Is (F := F) d L fI fA ixn vn j.val () ⊢ wp frame (wpE (defs₀ (F := F)) 𝒱₀ (thr d L) none) Set.univ
      (k1_t2_body L aV (Memref.isWhole_whole _) iV (Memref.isWhole_whole _) oV (Memref.isWhole_whole _) sI (Memref.isWhole_whole _) sA (Memref.isWhole_whole _) sB (Memref.isWhole_whole _) cc1_scoped0 cc1_scoped1 cc1_scoped2 cc1_scoped3 cc1_scoped4 h j ()) (Is (F := F) d L fI fA ixn vn (j.val + 1)) := by
  unfold k1_t2_body Is
  iintro ⟨HsI, HsA, %f, %hf, HsB⟩
  have hb : ∀ p : S5200.Idx, (fI p).toNat < 105856 := fun p => (hfI p) ▸ hix _
  sl_exec (disch := first | exact chk1_of d L fI hb _ _ | omega)
  ihave HsB' := (Entails.of_eq (pts_sB_whole (F := F) d L _).symm) $$ HsB
  iapply (SparseCore.wp_vectorStoreIdx 𝒱₀ (thr d L) none Set.univ (base := (sB : Memref sig .scVector .vmem S105856 .f32))) $$ HsB'; iintro HsB'
  ihave HsB := (Entails.of_eq (pts_sB_whole (F := F) d L _)) $$ HsB'
  ihave HsB'' := (pts_name _) $$ HsB
  icases HsB'' with ⟨%f', %hf', HsB⟩
  sl_step
  isplitl [HsI]; · iexact HsI
  isplitl [HsA]; · iexact HsA
  iexists f'; isplitr
  · ipureintro; intro p; subst hf'
    exact scat_write fI fA ixn vn hfI hfA j.val _ (k1_off3_eq j) _ _ f hf p
  · iexact HsB

/-- The indices a trip of the scatter loads pass the range check, every word of the index buffer being in range. -/
theorem chk2_of (fI : Buf (Elt F) ((thr d L).loc cc1_scratch0)) (hb : ∀ p : S5200.Idx, (fI p).toNat < 105856)
    (off : Fin 1 → ℕ) (inb : ∀ a, off a + S16.size a ≤ S5200.size a) :
    k1_chk2 L ((sI : Memref sig .scVector .vmem S5200 .i32).view.readAt (Elt F) (Rect.unit (s := S5200) off S16.size inb).toLoadRect fI) := by
  intro _ a x
  obtain rfl : a = 0 := Subsingleton.elim _ _
  exact hb _

/-- A trip of the zeroing: sixteen more places are zero. -/
theorem zero_step2 (h : k1_cond2 L = 1#1) (k : Fin k1_t3_loop.trips) :
    Iz (F := F) d L k.val () ⊢ wp frame (wpE (defs₀ (F := F)) 𝒱₀ (thr d L) none) Set.univ
      (k1_t3_body L aV (Memref.isWhole_whole _) iV (Memref.isWhole_whole _) oV (Memref.isWhole_whole _) sI (Memref.isWhole_whole _) sA (Memref.isWhole_whole _) sB (Memref.isWhole_whole _) cc1_scoped0 cc1_scoped1 cc1_scoped2 cc1_scoped3 cc1_scoped4 h k ()) (Iz (F := F) d L (k.val + 1)) := by
  unfold k1_t3_body Iz
  iintro ⟨%f, %hf, HsB⟩
  sl_exec
  ihave HsB' := (pts_name _) $$ HsB
  icases HsB' with ⟨%f', %hf', HsB⟩
  sl_step
  iexists f'; isplitr
  · ipureintro; intro p hp; subst hf'
    exact zero_write f k.val _ (k1_off6_eq k) _ _ (fun _ => rfl) hf p hp
  · iexact HsB

/-- A trip of the scatter: sixteen more writes of the sequential scatter. -/
theorem scat_step2 (h : k1_cond2 L = 1#1) (fI : Buf (Elt F) ((thr d L).loc cc1_scratch0)) (fA : Buf (Elt F) ((thr d L).loc cc1_scratch1))
    (ixn : ℕ → ℕ) (vn : ℕ → F .f32) (hfI : ∀ p : S5200.Idx, (fI p).toNat = ixn (p 0).val) (hfA : ∀ p : S5200.Idx, fA p = vn (p 0).val)
    (hix : ∀ k, ixn k < 105856) (j : Fin k1_t4_loop.trips) :
    Is (F := F) d L fI fA ixn vn j.val () ⊢ wp frame (wpE (defs₀ (F := F)) 𝒱₀ (thr d L) none) Set.univ
      (k1_t4_body L aV (Memref.isWhole_whole _) iV (Memref.isWhole_whole _) oV (Memref.isWhole_whole _) sI (Memref.isWhole_whole _) sA (Memref.isWhole_whole _) sB (Memref.isWhole_whole _) cc1_scoped0 cc1_scoped1 cc1_scoped2 cc1_scoped3 cc1_scoped4 h j ()) (Is (F := F) d L fI fA ixn vn (j.val + 1)) := by
  unfold k1_t4_body Is
  iintro ⟨HsI, HsA, %f, %hf, HsB⟩
  have hb : ∀ p : S5200.Idx, (fI p).toNat < 105856 := fun p => (hfI p) ▸ hix _
  sl_exec (disch := first | exact chk2_of d L fI hb _ _ | omega)
  ihave HsB' := (Entails.of_eq (pts_sB_whole (F := F) d L _).symm) $$ HsB
  iapply (SparseCore.wp_vectorStoreIdx 𝒱₀ (thr d L) none Set.univ (base := (sB : Memref sig .scVector .vmem S105856 .f32))) $$ HsB'; iintro HsB'
  ihave HsB := (Entails.of_eq (pts_sB_whole (F := F) d L _)) $$ HsB'
  ihave HsB'' := (pts_name _) $$ HsB
  icases HsB'' with ⟨%f', %hf', HsB⟩
  sl_step
  isplitl [HsI]; · iexact HsI
  isplitl [HsA]; · iexact HsA
  iexists f'; isplitr
  · ipureintro; intro p; subst hf'
    exact scat_write fI fA ixn vn hfI hfA j.val _ (k1_off7_eq j) _ _ f hf p
  · iexact HsB

end Tile

end Cert.Proof.KI

end
-- ==== Proof.KI.K1.lean ====
/-
  The vector-subcore task of the scatter call, whole: vector subcore (c, s) fetches the index array, and for each of its
  rows (its first always, its second when it has one) fetches the row of values, zeroes its row buffer, scatters the
  values at the indices, and writes the row buffer out to the result's row — the copies and their waits by the
  schedule-free protocol of local transfers, the two loops by their invariants, the row written out read as the
  sequential scatter.
-/
import proofs.«211384_g36696200577170_cont_8to1_b_1111_23_alg».proof.Proof.KI.K1Steps

noncomputable section

namespace Cert.Proof.KI

open Cert.KernelIdeal Cert.KernelIdeal.Gen
open Cert.Proof.Scat

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

section Tile

variable (d : Dev nD) (L : grid1.Coords)

/-! ## What the fetches land and what the write-out leaves -/

omit [FloatOps F] in
/-- The index scratch after its fetch holds the index array. -/
theorem sI_holds (ix : Buf (Elt F) (iLoc d)) (fs : Buf (Elt F) ((thr d L).loc cc1_scratch0)) (pay : S5200.Idx → Elt F .i32)
    (hpay : pay = (iV : Memref sig .scVector .hbm S5200 .i32).view.read (Elt F) ix) (p : S5200.Idx) :
    (View.write (Elt F) (sI : Memref sig .scVector .vmem S5200 .i32).view fs pay Finset.univ p).toNat = ixN ix (p 0).val := by
  subst hpay
  rw [View.write_whole_univ, ixN_apply]
  rfl

omit [FloatOps F] in
/-- The value scratch after its fetch holds row `g` of the value array. -/
theorem sA_holds (g : Fin 40) (a : Buf (Elt F) (aLoc d)) (z : F .f32) (fs : Buf (Elt F) ((thr d L).loc cc1_scratch1))
    (off : Fin 2 → ℕ) (hoff : off = ![g.val, 0]) (inb : ∀ a, off a + S1x5200.size a ≤ S40x5200.size a) (pay : S5200.Idx → Elt F .f32)
    (hpay : pay = (((aV : Memref sig .scVector .hbm S40x5200 .f32).slice (Rect.unit (s := S40x5200) off S1x5200.size inb) (fun _ => rfl)).squeeze S5200
      squeezes_S1x5200_S5200).view.read (Elt F) a) (p : S5200.Idx) :
    View.write (Elt F) (sA : Memref sig .scVector .vmem S5200 .f32).view fs pay Finset.univ p = rowN z a g (p 0).val := by
  subst hpay
  rw [View.write_whole_univ, rowN_apply, View.read_apply, emb_aRow' g off hoff inb p]
  exact cast_eq _ _

omit [FloatOps F] in
theorem emb_slice_whole {κ : Kind} {sp : Space} {s : Shape} {e : EltTy} (v : View sig κ sp s e) (x : s.Idx) :
    (v.slice (Rect.whole s)).emb x = v.emb x := by
  show v.emb ((Rect.whole s).emb x) = v.emb x
  rw [Rect.emb_whole_apply]

omit [FloatOps F] in
theorem set_oRow' (g : Fin 40) (inb : ∀ a, (![g.val, 0] : Fin 2 → ℕ) a + S1x105856.size a ≤ S40x105856.size a) :
    (((oV : Memref sig .scVector .hbm S40x105856 .f32).slice (Rect.unit (s := S40x105856) ![g.val, 0] S1x105856.size inb) (fun _ => rfl)).squeeze S105856
      squeezes_S1x105856_S105856).view.set = oRowSet g := by
  show (((oV : Memref sig .scVector .hbm S40x105856 .f32).view.slice (Rect.unit (s := S40x105856) ![g.val, 0] S1x105856.size inb)).reshape S105856
      squeezes_S1x105856_S105856.numel_eq).set = _
  rw [View.set_reshape]

/-- The result's row after the write-out of a row buffer holding the sequential scatter is the value's row. -/
theorem out_row (g : Fin 40) (a : Buf (Elt F) (aLoc d)) (ix : Buf (Elt F) (iLoc d)) (o : Buf (Elt F) (oLoc d))
    (fB : Buf (Elt F) ((thr d L).loc cc1_scratch2))
    (hfB : ∀ p : S105856.Idx, fB p = scatSeq (ixN ix) (rowN (zeroF (F := F)) a g) (zeroF (F := F)) 5200 (p 0).val)
    (off : Fin 2 → ℕ) (hoff : off = ![g.val, 0]) (inb : ∀ a, off a + S1x105856.size a ≤ S40x105856.size a) (pay : S105856.Idx → Elt F .f32)
    (hpay : pay = (sB : Memref sig .scVector .vmem S105856 .f32).view.read (Elt F) fB) :
    (oLoc d ↦[oRowSet g]{fullShare} View.writes (((oV : Memref sig .scVector .hbm S40x105856 .f32).slice
        (Rect.unit (s := S40x105856) off S1x105856.size inb) (fun _ => rfl)).squeeze S105856 squeezes_S1x105856_S105856).view (Elt F) o
          [⟨Rect.whole S105856, pay⟩] : sProp (MM (F := F)))
      = oLoc d ↦[oRowSet g]{fullShare} outVal d a ix := by
  subst hpay hoff
  refine pointsTo_congr fun i hi => ?_
  rw [← set_oRow' g inb] at hi
  obtain ⟨x, -, rfl⟩ := Finset.mem_map.mp hi
  rw [View.writes_singleton]
  have h := View.write_emb_of_mem (Val := Elt F) (v := ((((oV : Memref sig .scVector .hbm S40x105856 .f32).slice (Rect.unit (s := S40x105856) ![g.val, 0] S1x105856.size inb)
      (fun _ => rfl)).squeeze S105856 squeezes_S1x105856_S105856).view.slice (Rect.whole S105856))) o
      ((sB : Memref sig .scVector .vmem S105856 .f32).view.read (Elt F) fB) (M := Finset.univ) (x := x) (Finset.mem_univ x)
  rw [emb_slice_whole] at h
  rw [h]
  refine (cast_eq _ _).trans ?_
  rw [emb_oRow' g _ rfl inb x]
  exact (hfB x).trans (outVal_apply d a ix g (x 0)).symm

omit [FloatOps F] in
theorem tilePts_pos (a : Buf (Elt F) (aLoc d)) (ix : Buf (Elt F) (iLoc d)) (o : Buf (Elt F) (oLoc d)) (c : Fin 2) (s : Fin 16)
    (h : 2 * s.val + c.val + 32 < 40) :
    tilePts (F := F) d a ix o c s = iprop((iLoc d ↦{Transfers.shareTok fullShare 32 (wid c s)} ix) ∗ rowPts d a o (row0 c s)
      ∗ rowPts d a o ⟨2 * s.val + c.val + 32, h⟩) := by
  unfold tilePts; rw [dif_pos h]
omit [FloatOps F] in
theorem tilePts_neg (a : Buf (Elt F) (aLoc d)) (ix : Buf (Elt F) (iLoc d)) (o : Buf (Elt F) (oLoc d)) (c : Fin 2) (s : Fin 16)
    (h : ¬ 2 * s.val + c.val + 32 < 40) :
    tilePts (F := F) d a ix o c s = iprop((iLoc d ↦{Transfers.shareTok fullShare 32 (wid c s)} ix) ∗ rowPts d a o (row0 c s) ∗ emp) := by
  unfold tilePts; rw [dif_neg h]

/-! ## The task -/

set_option maxHeartbeats 4000000 in
/-- The task on vector subcore `(L 0, L 1)` of device `d`, every index in range of the row buffer. -/
theorem tile_body (hF : (K (F := F)).Facts) (a : Buf (Elt F) (aLoc d)) (ix : Buf (Elt F) (iLoc d)) (o : Buf (Elt F) (oLoc d))
    (hix : ∀ k, ixN ix k < 105856) (O : CellTallies nD τ sig (HIx 1)) (W : Waits sig (HIx 1)) (hO : ∀ g, O g none = 0) :
    iprop(levAts (K (F := F)).L (K (F := F)).lev ∗ emp ∗ tilePts d a ix o (cL L) (sL L)
        ∗ scopedBufs (thr d L) ∗ scopedSems0 (thr d L) ∗ owes (thr d L) O W)
      ⊢ wp frame (wpE (defs₀ (F := F)) 𝒱₀ (thr d L) none) Set.univ
          (cc1_k L aV (Memref.isWhole_whole _) iV (Memref.isWhole_whole _) oV (Memref.isWhole_whole _) sI (Memref.isWhole_whole _) sA (Memref.isWhole_whole _) sB (Memref.isWhole_whole _) cc1_scoped0 cc1_scoped1 cc1_scoped2 cc1_scoped3 cc1_scoped4)
          fun _ => iprop(tilePts d a ix (outVal d a ix) (cL L) (sL L) ∗ scopedBufs (thr d L) ∗ scopedSems0 (thr d L)
            ∗ ∃ W', ⌜∀ p ∈ W', p ∈ W ∨ p.2 = none⌝ ∗ owes (thr d L) O W') := by
  have k1_h1 : k1_cond1 L = 1#1 := cond1_all L
  simp only [cc1_k_eq_skeleton]; unfold cc1_k_skel
  rw [(K (F := F)).scopedBufs_V hF d (cV L) (jV L), SparseCore.Cfg.scopedSems0_V (Val := Elt F) d (cV L) (jV L), ownSems0_V, ownBufs_V]
  unfold tilePts rowPts
  iintro ⟨#Hlv, -, ⟨Hix, ⟨Ha0, Ho0⟩, H2⟩, ⟨⟨%fI0, HsI⟩, ⟨%fA0, HsA⟩, ⟨%fB0, HsB⟩, Hbufs⟩, ⟨Hc0, Hc1, Hc2, Hc3, Hc4, Hsems⟩, HO⟩
  ihave Hmw := (show levAts (K (F := F)).L (K (F := F)).lev ⊢ Transfers.MayWaits (thr d L) (default : HIx 1) O from
    (K (F := F)).mayWaits_none (thr := thr d L) hO) $$ Hlv
  ihave Hix' := (Entails.of_eq (pts_iV (F := F) d L _ _).symm) $$ Hix
  ihave Ha0' := (Entails.of_eq (pts_aRowK1 (F := F) d L k1_h1 _).symm) $$ Ha0
  ihave Ho0' := (Entails.of_eq (pts_oRowK1 (F := F) d L k1_h1 _).symm) $$ Ho0
  ihave HsI' := (Entails.of_eq (pts_sI (F := F) d L _).symm) $$ HsI
  ihave HsA' := (Entails.of_eq (pts_sA (F := F) d L _).symm) $$ HsA
  ihave HsB' := (Entails.of_eq (pts_sB (F := F) d L _).symm) $$ HsB
  -- the index fetch and its wait, the first row's fetch and its wait
  sl_exec
  ihave X := (pts_name _) $$ HsI'
  icases X with ⟨%fI, %hfI, HsI'⟩
  ihave X := (pts_name _) $$ HsA'
  icases X with ⟨%fA, %hfA, HsA'⟩
  have hfI' : ∀ p : S5200.Idx, (fI p).toNat = ixN ix (p 0).val := by
    subst hfI; exact fun p => sI_holds d L ix _ _ rfl p
  have hfA' : ∀ p : S5200.Idx, fA p = rowN (zeroF (F := F)) a (row0 (cL L) (sL L)) (p 0).val := by
    subst hfA; exact fun p => sA_holds d L (row0 (cL L) (sL L)) a _ _ _ (k1_off1_eq L) _ _ rfl p
  -- the zeroing
  sl_for (Iz (F := F) d L) $$ [HsB']
  case region => intro k acc; exact zero_step1 d L k1_h1 k
  · unfold Iz
    iexists fB0; isplitr
    · ipureintro; intro p hp; rw [Nat.mul_zero] at hp; exact absurd hp (Nat.not_lt_zero _)
    · iexact HsB'
  iintro %_ HI
  unfold Iz
  icases HI with ⟨%fz, %hfz, HsB'⟩
  -- the scatter
  sl_for (Is (F := F) d L fI fA (ixN ix) (rowN (zeroF (F := F)) a (row0 (cL L) (sL L)))) $$ [HsI' HsA' HsB']
  case region => intro j acc; exact scat_step1 d L k1_h1 fI fA _ _ hfI' hfA' hix j
  · unfold Is
    isplitl [HsI']; · iexact HsI'
    isplitl [HsA']; · iexact HsA'
    iexists fz; isplitr
    · ipureintro; intro p
      have h1 : (p 0).val < 105856 := (p 0).isLt
      have h2 : Scf.trips k1_t1_loop.lb k1_t1_loop.ub k1_t1_loop.st = 6616 := t1_trips
      exact hfz p (by rw [h2]; omega)
    · iexact HsB'
  iintro %_ HI
  unfold Is
  icases HI with ⟨HsI', HsA', %fs, %hfs, HsB'⟩
  -- the write-out and its wait
  sl_exec
  have e2 : 16 * Scf.trips k1_t2_loop.lb k1_t2_loop.ub k1_t2_loop.st = 5200 := by
    have h2 : Scf.trips k1_t2_loop.lb k1_t2_loop.ub k1_t2_loop.st = 325 := t2_trips
    rw [h2]
  rw [e2] at hfs
  ihave X := (pts_name _) $$ Ho0'
  icases X with ⟨%fo, %hfo, Ho0'⟩
  have hO0 : (oLoc d ↦[oRowSet (row0 (cL L) (sL L))]{fullShare} fo : sProp (MM (F := F)))
      = oLoc d ↦[oRowSet (row0 (cL L) (sL L))]{fullShare} outVal d a ix := by
    subst hfo; exact out_row d L (row0 (cL L) (sL L)) a ix o fs hfs (k1_off4 L) (k1_off4_eq L) _ _ rfl
  ihave Ho0 := (Entails.of_eq (pts_oRowK1 (F := F) d L k1_h1 _)) $$ Ho0'
  ihave Ho0 := (Entails.of_eq hO0) $$ Ho0
  ihave Ha0 := (Entails.of_eq (pts_aRowK1 (F := F) d L k1_h1 _)) $$ Ha0'
  by_cases hlt : 2 * (sL L).val + (cL L).val + 32 < 40
  · -- the second row
    have k1_h2 : k1_cond2 L = 1#1 := (cond2_iff L).2 hlt
    ihave H2' := (Entails.of_eq (dif_pos hlt)) $$ H2
    icases H2' with ⟨Ha1, Ho1⟩
    ihave Ha1' := (Entails.of_eq (pts_aRowK2 (F := F) d L k1_h2 hlt _).symm) $$ Ha1
    ihave Ho1' := (Entails.of_eq (pts_oRowK2 (F := F) d L k1_h2 hlt _).symm) $$ Ho1
    sl_exec
    ihave X := (pts_name _) $$ HsA'
    icases X with ⟨%fA1, %hfA1, HsA'⟩
    have hfA1' : ∀ p : S5200.Idx, fA1 p = rowN (zeroF (F := F)) a (row1 L hlt) (p 0).val := by
      subst hfA1; exact fun p => sA_holds d L (row1 L hlt) a _ _ _ (k1_off5_eq L) _ _ rfl p
    sl_for (Iz (F := F) d L) $$ [HsB']
    case region => intro k acc; exact zero_step2 d L k1_h2 k
    · unfold Iz
      iexists fs; isplitr
      · ipureintro; intro p hp; rw [Nat.mul_zero] at hp; exact absurd hp (Nat.not_lt_zero _)
      · iexact HsB'
    iintro %_ HI
    unfold Iz
    icases HI with ⟨%fz1, %hfz1, HsB'⟩
    sl_for (Is (F := F) d L fI fA1 (ixN ix) (rowN (zeroF (F := F)) a (row1 L hlt))) $$ [HsI' HsA' HsB']
    case region => intro j acc; exact scat_step2 d L k1_h2 fI fA1 _ _ hfI' hfA1' hix j
    · unfold Is
      isplitl [HsI']; · iexact HsI'
      isplitl [HsA']; · iexact HsA'
      iexists fz1; isplitr
      · ipureintro; intro p
        have h1 : (p 0).val < 105856 := (p 0).isLt
        have h2 : Scf.trips k1_t3_loop.lb k1_t3_loop.ub k1_t3_loop.st = 6616 := t3_trips
        exact hfz1 p (by rw [h2]; omega)
      · iexact HsB'
    iintro %_ HI
    unfold Is
    icases HI with ⟨HsI', HsA', %fs1, %hfs1, HsB'⟩
    sl_exec
    have e4 : 16 * Scf.trips k1_t4_loop.lb k1_t4_loop.ub k1_t4_loop.st = 5200 := by
      have h2 : Scf.trips k1_t4_loop.lb k1_t4_loop.ub k1_t4_loop.st = 325 := t4_trips
      rw [h2]
    rw [e4] at hfs1
    ihave X := (pts_name _) $$ Ho1'
    icases X with ⟨%fo1, %hfo1, Ho1'⟩
    have hO1 : (oLoc d ↦[oRowSet (row1 L hlt)]{fullShare} fo1 : sProp (MM (F := F)))
        = oLoc d ↦[oRowSet (row1 L hlt)]{fullShare} outVal d a ix := by
      subst hfo1; exact out_row d L (row1 L hlt) a ix o fs1 hfs1 (k1_off8 L) (k1_off8_eq L) _ _ rfl
    ihave Ho1 := (Entails.of_eq (pts_oRowK2 (F := F) d L k1_h2 hlt _)) $$ Ho1'
    ihave Ho1 := (Entails.of_eq hO1) $$ Ho1
    ihave Ha1 := (Entails.of_eq (pts_aRowK2 (F := F) d L k1_h2 hlt _)) $$ Ha1'
    sl_step
    isplitl [Hix' Ha0 Ho0 Ha1 Ho1]
    · isplitl [Hix']; · iexact Hix'
      isplitl [Ha0 Ho0]
      · isplitl [Ha0]; · iexact Ha0
        iexact Ho0
      iapply (Entails.of_eq (dif_pos hlt).symm)
      isplitl [Ha1]; · iexact Ha1
      iexact Ho1
    isplitl [HsI' HsA' HsB' Hbufs]
    · isplitl [HsI']; · iexists _; iexact HsI'
      isplitl [HsA']; · iexists _; iexact HsA'
      isplitl [HsB']; · iexists _; iexact HsB'
      iexact Hbufs
    isplitl [Hc0 Hc1 Hc2 Hc3 Hc4 Hsems]
    · isplitl [Hc0]; · iexact Hc0
      isplitl [Hc1]; · iexact Hc1
      isplitl [Hc2]; · iexact Hc2
      isplitl [Hc3]; · iexact Hc3
      isplitl [Hc4]; · iexact Hc4
      iexact Hsems
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  · -- no second row
    have k1_h2 : ¬ k1_cond2 L = 1#1 := fun h => hlt ((cond2_iff L).1 h)
    ihave H2' := (Entails.of_eq (dif_neg hlt)) $$ H2
    sl_exec
    sl_step
    isplitl [Hix' Ha0 Ho0 H2']
    · isplitl [Hix']; · iexact Hix'
      isplitl [Ha0 Ho0]
      · isplitl [Ha0]; · iexact Ha0
        iexact Ho0
      iapply (Entails.of_eq (dif_neg hlt).symm)
      iexact H2'
    isplitl [HsI' HsA' HsB' Hbufs]
    · isplitl [HsI']; · iexists _; iexact HsI'
      isplitl [HsA']; · iexists _; iexact HsA'
      isplitl [HsB']; · iexists _; iexact HsB'
      iexact Hbufs
    isplitl [Hc0 Hc1 Hc2 Hc3 Hc4 Hsems]
    · isplitl [Hc0]; · iexact Hc0
      isplitl [Hc1]; · iexact Hc1
      isplitl [Hc2]; · iexact Hc2
      isplitl [Hc3]; · iexact Hc3
      isplitl [Hc4]; · iexact Hc4
      iexact Hsems
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp

end Tile

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_k (coordsV c s) aV (Memref.isWhole_whole _) iV (Memref.isWhole_whole _) oV (Memref.isWhole_whole _) sI (Memref.isWhole_whole _) sA (Memref.isWhole_whole _) sB (Memref.isWhole_whole _) cc1_scoped0 cc1_scoped1 cc1_scoped2 cc1_scoped3 cc1_scoped4) ⟨⟩ c s := rfl

omit [FloatOps F] in
theorem obl_post {t : Thread nD τ} {A B C : sProp (MM (F := F))} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every vector subcore's task, from its part of the operands to its part of the results at the value. -/
theorem tileObl (hF : (K (F := F)).Facts) (a36 : (d : Dev nD) → Buf (Elt F) (aLoc d)) (i32 : (d : Dev nD) → Buf (Elt F) (iLoc d))
    (o37 : (d : Dev nD) → Buf (Elt F) (oLoc d)) (hidx : ∀ d k, ixN (i32 d) k < 105856) :
    (K (F := F)).TileObl (D (F := F)) 𝒱 (P a36 i32 o37) v₀ 0 := by
  intro d c i O W hO _ _
  simp only [show (P a36 i32 o37).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (a36 d) (i32 d) (o37 d) (hidx d) O W hO).trans (wp_mono frame _ _ fun _ => obl_post)

end Cert.Proof.KI

end
-- ==== Proof.KI.K1Split.lean ====
/-
  The call's three arrays whole are the two SparseCores' parts of them: the value array and the result array cut into
  their 40 rows, the rows dealt to the vector subcores (subcore number w takes rows w and, when below 40, w + 32), the
  index array's share cut into 32 read shares, one per vector subcore, and a rest that SparseCore 0 keeps.
-/
import proofs.«211384_g36696200577170_cont_8to1_b_1111_23_alg».proof.Proof.KI.K1Pay

noncomputable section

namespace Cert.Proof.KI

open Cert.KernelIdeal Cert.KernelIdeal.Gen
open Cert.Proof.Scat

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The rows of the two arrays -/

theorem aRowSet_eq (g : Fin 40) : aRowSet g = (aRowR g).set := by
  show ((View.whole (main_v36_scv : Ref sig .scVector)).slice (aRowR g)).set = _
  rw [View.set_slice]; exact Finset.map_refl
theorem oRowSet_eq (g : Fin 40) : oRowSet g = (oRowR g).set := by
  show ((View.whole (main_v37_scv : Ref sig .scVector)).slice (oRowR g)).set = _
  rw [View.set_slice]; exact Finset.map_refl

theorem aRows_disjoint : ∀ i ∈ (Finset.univ : Finset (Fin 40)), ∀ j ∈ (Finset.univ : Finset (Fin 40)), i ≠ j → Disjoint (aRowSet i) (aRowSet j) := by
  intro i _ j _ h
  rw [aRowSet_eq, aRowSet_eq, Finset.disjoint_left]
  intro x hx hx'
  rw [Rect.mem_set_unit] at hx hx'
  have h1 := hx 0; have h2 := hx' 0
  have e1 : (![i.val, 0] : Fin 2 → ℕ) 0 = i.val := rfl
  have e2 : (![j.val, 0] : Fin 2 → ℕ) 0 = j.val := rfl
  have e3 : S1x5200.size 0 = 1 := rfl
  rw [e1, e3] at h1; rw [e2, e3] at h2
  exact h (Fin.ext (by omega))
theorem oRows_disjoint : ∀ i ∈ (Finset.univ : Finset (Fin 40)), ∀ j ∈ (Finset.univ : Finset (Fin 40)), i ≠ j → Disjoint (oRowSet i) (oRowSet j) := by
  intro i _ j _ h
  rw [oRowSet_eq, oRowSet_eq, Finset.disjoint_left]
  intro x hx hx'
  rw [Rect.mem_set_unit] at hx hx'
  have h1 := hx 0; have h2 := hx' 0
  have e1 : (![i.val, 0] : Fin 2 → ℕ) 0 = i.val := rfl
  have e2 : (![j.val, 0] : Fin 2 → ℕ) 0 = j.val := rfl
  have e3 : S1x105856.size 0 = 1 := rfl
  rw [e1, e3] at h1; rw [e2, e3] at h2
  exact h (Fin.ext (by omega))

theorem aRows_cover : (Finset.univ : Finset (Fin 40)).biUnion aRowSet = Finset.univ := by
  ext x
  simp only [Finset.mem_biUnion, Finset.mem_univ, true_and, iff_true]
  refine ⟨⟨(x 0).val, (x 0).isLt⟩, ?_⟩
  rw [aRowSet_eq, Rect.mem_set_unit]
  intro a
  match a with
  | 0 => exact ⟨Nat.le_refl _, Nat.lt_succ_self _⟩
  | 1 => exact ⟨Nat.zero_le _, by have h : (x 1).val < 5200 := (x 1).isLt; show (x 1).val < 0 + 5200; omega⟩
theorem oRows_cover : (Finset.univ : Finset (Fin 40)).biUnion oRowSet = Finset.univ := by
  ext x
  simp only [Finset.mem_biUnion, Finset.mem_univ, true_and, iff_true]
  refine ⟨⟨(x 0).val, (x 0).isLt⟩, ?_⟩
  rw [oRowSet_eq, Rect.mem_set_unit]
  intro a
  match a with
  | 0 => exact ⟨Nat.le_refl _, Nat.lt_succ_self _⟩
  | 1 => exact ⟨Nat.zero_le _, by have h : (x 1).val < 105856 := (x 1).isLt; show (x 1).val < 0 + 105856; omega⟩

theorem aPts_rows (d : Dev nD) (f : Buf (Elt F) (aLoc d)) :
    (aLoc d ↦{fullShare} f : sProp (MM (F := F))) = bigSep Finset.univ fun g : Fin 40 => aLoc d ↦[aRowSet g]{fullShare} f := by
  rw [← pointsTo_biUnion Finset.univ (ℓ := aLoc d) aRowSet aRows_disjoint, aRows_cover]; try rfl
theorem oPts_rows (d : Dev nD) (f : Buf (Elt F) (oLoc d)) :
    (oLoc d ↦{fullShare} f : sProp (MM (F := F))) = bigSep Finset.univ fun g : Fin 40 => oLoc d ↦[oRowSet g]{fullShare} f := by
  rw [← pointsTo_biUnion Finset.univ (ℓ := oLoc d) oRowSet oRows_disjoint, oRows_cover]; try rfl

/-! ## Regrouping -/

/-- A separating conjunction over a disjoint union of index sets is the conjunction, over the sets, of theirs. -/
theorem bigSep_biUnion_eq {I J : Type} [DecidableEq I] [DecidableEq J] (s : Finset J) (t : J → Finset I)
    (h : ∀ j ∈ s, ∀ j' ∈ s, j ≠ j' → Disjoint (t j) (t j')) (Φ : I → sProp (MM (F := F))) :
    bigSep (s.biUnion t) Φ = bigSep s fun j => bigSep (t j) Φ := by
  induction s using Finset.induction_on with
  | empty => rw [Finset.biUnion_empty, bigSep_empty, bigSep_empty]
  | insert j s hj ih =>
    rw [Finset.biUnion_insert, bigSep_insert hj]
    have hd : Disjoint (t j) (s.biUnion t) :=
      (Finset.disjoint_biUnion_right _ _ _).mpr fun j' hj' =>
        h j (Finset.mem_insert_self _ _) j' (Finset.mem_insert_of_mem hj') (fun e => hj (e ▸ hj'))
    rw [bigSep_union hd, ih fun j₁ h₁ j₂ h₂ => h j₁ (Finset.mem_insert_of_mem h₁) j₂ (Finset.mem_insert_of_mem h₂)]

/-- Over a whole index type, fibre by fibre of a function. -/
theorem bigSep_fiber {I J : Type} [Fintype I] [DecidableEq I] [Fintype J] [DecidableEq J] (f : I → J) (Φ : I → sProp (MM (F := F))) :
    bigSep Finset.univ Φ = bigSep Finset.univ fun j => bigSep (Finset.univ.filter fun i => f i = j) Φ := by
  rw [← bigSep_biUnion_eq Finset.univ (fun j => Finset.univ.filter fun i => f i = j) (fun j _ j' _ hne => by
    rw [Finset.disjoint_left]; intro i hi hi'
    rw [Finset.mem_filter] at hi hi'
    exact hne (hi.2.symm.trans hi'.2)) Φ]
  congr 1
  ext i
  simp only [Finset.mem_univ, Finset.mem_biUnion, Finset.mem_filter, true_and, exists_eq']

/-- Whose row `g` is, and whose read share number `t` is. -/
def owner (g : Fin 40) : Fin 2 × Fin 16 := (⟨g.val % 2, Nat.mod_lt _ (by omega)⟩, ⟨(g.val / 2) % 16, Nat.mod_lt _ (by omega)⟩)
def owner32 (t : Fin 32) : Fin 2 × Fin 16 := (⟨t.val % 2, Nat.mod_lt _ (by omega)⟩, ⟨t.val / 2, by omega⟩)

theorem fiber_rows : ∀ c : Fin 2, ∀ s : Fin 16, (Finset.univ.filter fun g : Fin 40 => owner g = (c, s))
    = if h : 2 * s.val + c.val + 32 < 40 then {row0 c s, ⟨2 * s.val + c.val + 32, h⟩} else {row0 c s} := by decide +kernel
theorem fiber_toks : ∀ c : Fin 2, ∀ s : Fin 16, (Finset.univ.filter fun t : Fin 32 => owner32 t = (c, s)) = {wid c s} := by decide +kernel

/-- The 40 rows dealt to the 2 × 16 vector subcores. -/
theorem rows_regroup (R : Fin 40 → sProp (MM (F := F))) :
    bigSep Finset.univ R = bigSep Finset.univ fun c : Fin 2 => bigSep Finset.univ fun s : Fin 16 =>
      iprop(R (row0 c s) ∗ if h : 2 * s.val + c.val + 32 < 40 then R ⟨2 * s.val + c.val + 32, h⟩ else iprop(emp)) := by
  rw [bigSep_fiber owner R, bigSep_univ_prod]
  refine bigSep_congr fun c _ => bigSep_congr fun s _ => ?_
  rw [fiber_rows c s]
  split
  · rename_i h
    rw [bigSep_insert (by
      rw [Finset.mem_singleton]; intro e
      have := congrArg Fin.val e
      simp only [row0] at this; omega), bigSep_singleton]
    rfl
  · rw [bigSep_singleton]; exact (equiv_iff.mp sep_emp).symm

/-- The 32 read shares dealt to the 2 × 16 vector subcores. -/
theorem toks_regroup (Φ : Fin 32 → sProp (MM (F := F))) :
    bigSep Finset.univ Φ = bigSep Finset.univ fun c : Fin 2 => bigSep Finset.univ fun s : Fin 16 => Φ (wid c s) := by
  rw [bigSep_fiber owner32 Φ, bigSep_univ_prod]
  refine bigSep_congr fun c _ => bigSep_congr fun s _ => ?_
  rw [fiber_toks c s, bigSep_singleton]

/-! ## The arrays whole and their parts -/

/-- The three arrays whole are the two SparseCores' parts (what @main hands the call, and what it takes back). -/
theorem st_intro (d : Dev nD) (a : Buf (Elt F) (aLoc d)) (ix : Buf (Elt F) (iLoc d)) (o : Buf (Elt F) (oLoc d)) :
    iprop((aLoc d ↦{fullShare} a) ∗ (iLoc d ↦{fullShare} ix) ∗ (oLoc d ↦{fullShare} o))
      ⊣⊢ (bigSep Finset.univ fun c : Fin 2 => corePts (F := F) d a ix o c) := by
  have e1 : (bigSep Finset.univ fun c : Fin 2 => bigSep Finset.univ fun s : Fin 16 => tilePts (F := F) d a ix o c s)
      = iprop((bigSep Finset.univ fun t : Fin 32 => (iLoc d ↦{Transfers.shareTok fullShare 32 t} ix : sProp (MM (F := F))))
          ∗ bigSep Finset.univ fun g : Fin 40 => rowPts (F := F) d a o g) := by
    rw [toks_regroup (fun t => (iLoc d ↦{Transfers.shareTok fullShare 32 t} ix : sProp (MM (F := F)))),
      rows_regroup (fun g => rowPts (F := F) d a o g), ← bigSep_sep']
    refine bigSep_congr fun c _ => ?_
    rw [← bigSep_sep']
    rfl
  have e2 : (bigSep Finset.univ fun g : Fin 40 => rowPts (F := F) d a o g)
      = iprop((aLoc d ↦{fullShare} a) ∗ (oLoc d ↦{fullShare} o)) := by
    unfold rowPts
    rw [bigSep_sep', ← aPts_rows, ← oPts_rows]
  have e3 : (bigSep Finset.univ fun c : Fin 2 => ixRest (F := F) d ix c) = iprop((iLoc d ↦{Transfers.shareDrop fullShare 32} ix) ∗ emp) := by
    rw [bigSep_univ_two]; rfl
  have hparts : (bigSep Finset.univ fun c : Fin 2 => corePts (F := F) d a ix o c)
      = iprop(((bigSep Finset.univ fun t : Fin 32 => (iLoc d ↦{Transfers.shareTok fullShare 32 t} ix : sProp (MM (F := F))))
          ∗ (aLoc d ↦{fullShare} a) ∗ (oLoc d ↦{fullShare} o)) ∗ ((iLoc d ↦{Transfers.shareDrop fullShare 32} ix) ∗ emp)) := by
    unfold corePts
    rw [bigSep_sep', e1, e2, e3]
  rw [hparts]
  have htok := Transfers.pointsTo_toks (nD := nD) (τ := τ) (sig := sig) (Ix := HIx 1) (Val := Elt F) (Name := ℕ) (U := UU) (Lvl := ℕ)
    (ℓ := iLoc d) (S := Finset.univ) (f := ix) fullShare 32
  constructor
  · iintro ⟨Ha, Hi, Ho⟩
    ihave Hi' := (htok.1) $$ Hi
    icases Hi' with ⟨Hd, Ht⟩
    isplitl [Ht Ha Ho]
    · isplitl [Ht]; · iexact Ht
      isplitl [Ha]; · iexact Ha
      iexact Ho
    isplitl [Hd]; · iexact Hd
    iempintro
  · iintro ⟨⟨Ht, Ha, Ho⟩, Hd, -⟩
    isplitl [Ha]; · iexact Ha
    isplitl [Hd Ht]
    · iapply (htok.2)
      isplitl [Hd]; · iexact Hd
      iexact Ht
    iexact Ho

end Cert.Proof.KI

end
-- ==== Proof.KI.Main.lean ====
/-
  @main of the kernel program on the TensorCore, and the program's run. Between its launches @main holds every
  unscoped buffer whole at a valuation: four host lines move the valuation on, each TensorCore region leaves its output
  array rewritten, and the SparseCore call — handed the three arrays split among the SparseCores and their vector
  subcores — leaves its result array at the sequential scatter of the first region's rows at the winner list.
-/
import proofs.«211384_g36696200577170_cont_8to1_b_1111_23_alg».proof.Proof.KI.Region
import proofs.«211384_g36696200577170_cont_8to1_b_1111_23_alg».proof.Proof.KI.R0
import proofs.«211384_g36696200577170_cont_8to1_b_1111_23_alg».proof.Proof.KI.R1
import proofs.«211384_g36696200577170_cont_8to1_b_1111_23_alg».proof.Proof.KI.Vals
import proofs.«211384_g36696200577170_cont_8to1_b_1111_23_alg».proof.Proof.KI.K1
import proofs.«211384_g36696200577170_cont_8to1_b_1111_23_alg».proof.Proof.KI.K1Split

noncomputable section

namespace Cert.Proof.KI

open Cert.KernelIdeal Cert.KernelIdeal.Gen
open Cert.Proof.Scat

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

variable (m : (ℓ : Loc nD τ sig) → Buf (Elt F) ℓ) (ρ : Dev nD → PrngReg)

/-! ## What the TensorCore owes at its two regions, and the three launches' results -/

/-- What the TensorCore owes before call `n`. -/
def Ot (n : ℕ) (d : Dev nD) : CellTallies nD τ sig (HIx 1) := (K (F := F)).Otc d n
/-- The bound on its recorded wait pairs there: at or below level `8 n`. -/
def Rb (n : ℕ) (d : Dev nD) : Set (SemLoc sig × HIx 1) := {p | (K (F := F)).lev (SparseCore.T d, p.1) p.2 ≤ 8 * n}

/-- The first region's output array. -/
def o35 (d : Dev nD) : (Proc.devRef (τ := τ) .tc main_v35 : DevRef τ sig).ty.Contents (Elt F) :=
  out35 (Vals.V1 m) (Ot (F := F) 0) (Rb (F := F) 0) d
/-- The SparseCore call's result array. -/
def o37 (d : Dev nD) : (Proc.devRef (τ := τ) .tc main_v37 : DevRef τ sig).ty.Contents (Elt F) :=
  outVal d (Vals.V3 m (o35 m) d (Proc.devRef .tc main_v36)) (Vals.V3 m (o35 m) d (Proc.devRef .tc main_v32))
/-- The second region's output array. -/
def o41 (d : Dev nD) : (Proc.devRef (τ := τ) .tc main_v41 : DevRef τ sig).ty.Contents (Elt F) :=
  (dat1 (Vals.V5 m (o35 m) (o37 m)) (Ot (F := F) 1) (Rb (F := F) 1) d).arrAt 10 cfg2.N

/-- The call's handshakes: its three arrays as the second host line leaves them. -/
def P' : (K (F := F)).Pay (nD := nD) (Val := Elt F) (Name := ℕ) (U := UU) :=
  P (fun d => Vals.V3 m (o35 m) d (Proc.devRef .tc main_v36)) (fun d => Vals.V3 m (o35 m) d (Proc.devRef .tc main_v32))
    (fun d => Vals.V3 m (o35 m) d (Proc.devRef .tc main_v37))

instance P'_storable : (P' (F := F) m).IsStorable := by unfold P'; infer_instance

/-! ## The levels' facts the regions ask -/

omit [FloatOps F] in
theorem hDn (n : ℕ) (c : Dev nD) (g : GSem nD τ sig) (i : HIx 1) (h : 0 < Ot (F := F) n c g i) :
    i ∈ (K (F := F)).L g ∧ 0 < (K (F := F)).lev g i :=
  ⟨Finset.mem_univ _, by have := SparseCore.Cfg.lev_of_Otc_pos (K := K (F := F)) h; omega⟩

/-- The two regions' records. -/
abbrev RR0 : Pipeline.RegionSeg (pcfgs (F := F)) adm
    (pdats0 (Vals.V1 m) (Ot (F := F) 0) (Rb (F := F) 0) (fun c => dat1 (Vals.V1 m) (Ot (F := F) 0) (Rb (F := F) 0) c))
    (none : HIx 1) (defs₀ (F := F)) 𝒱₀ (K (F := F)).L (K (F := F)).lev 0 :=
  R0 (Vals.V1 m) (Ot (F := F) 0) (Rb (F := F) 0) (fun c => dat1 (Vals.V1 m) (Ot (F := F) 0) (Rb (F := F) 0) c) (fun _ => iprop(emp))
    (fun _ _ _ => Finset.mem_univ _) (fun _ _ _ => Nat.le_refl _) (hDn 0)

abbrev RR1 : Pipeline.RegionSeg (pcfgs (F := F)) adm
    (pdats1 (Vals.V5 m (o35 m) (o37 m)) (Ot (F := F) 1) (Rb (F := F) 1)
      (fun c => dat0 (Vals.V1 m) (Ot (F := F) 0) (Rb (F := F) 0) c))
    (none : HIx 1) (defs₀ (F := F)) 𝒱₀ (K (F := F)).L (K (F := F)).lev 1 :=
  R1 (Vals.V5 m (o35 m) (o37 m)) (Ot (F := F) 1) (Rb (F := F) 1) (fun _ => iprop(emp))
    (fun c => dat0 (Vals.V1 m) (Ot (F := F) 0) (Rb (F := F) 0) c)
    (fun _ _ _ => Finset.mem_univ _) (fun _ _ _ => Nat.le_refl _) (hDn 1)

/-- What the records are entered from and what they leave, spelt out. -/
theorem RR0_pre (d : Dev nD) : (RR0 m).pre d = iprop(held (SparseCore.T d) (Pipeline.ucRefs τ sig) (Vals.V1 m d)
    ∗ Pipeline.owesWithin d (Ot (F := F) 0 d) (Rb (F := F) 0 d) ∗ iprop(emp)) := rfl
theorem RR0_post (d : Dev nD) : (RR0 m).post d = iprop(held (SparseCore.T d) (Pipeline.ucRefs τ sig) (Vals.V2 m (o35 m) d)
    ∗ Pipeline.owesWithin d (Ot (F := F) 0 d) (Rb (F := F) 0 d ∪ cfg0.waitPairs none) ∗ iprop(emp)) := rfl
theorem RR1_pre (d : Dev nD) : (RR1 m).pre d = iprop(held (SparseCore.T d) (Pipeline.ucRefs τ sig) (Vals.V5 m (o35 m) (o37 m) d)
    ∗ Pipeline.owesWithin d (Ot (F := F) 1 d) (Rb (F := F) 1 d ∪ cfg2.waitPairs none) ∗ iprop(emp)) := rfl
theorem RR1_post (d : Dev nD) : (RR1 m).post d = iprop(held (SparseCore.T d) (Pipeline.ucRefs τ sig) (Vals.V6 m (o35 m) (o37 m) (o41 m) d)
    ∗ Pipeline.owesWithin d (Ot (F := F) 1 d) (Rb (F := F) 1 d ∪ cfg2.waitPairs none) ∗ iprop(emp)) := rfl

/-! ## The TensorCore's state before a call, opened at what it owes -/

/-- The TensorCore's state before call `n` but what it owes. -/
def tcTail (d : Dev nD) (n : ℕ) : sProp (MM (F := F)) :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt_eq (d : Dev nD) (n : ℕ) : (K (F := F)).tcSt EH d n
    = iprop((∃ W, ⌜(K (F := F)).WBelow (SparseCore.T d) W (8 * n)⌝ ∗ owes (SparseCore.T d) ((K (F := F)).Otc d n) W) ∗ tcTail (F := F) d n) := rfl

omit [FloatOps F] in
/-- Recorded pairs at or below level `8 n` are pairs within the bound; -/
theorem owes_open (n : ℕ) (d : Dev nD) :
    iprop(∃ W, ⌜(K (F := F)).WBelow (SparseCore.T d) W (8 * n)⌝ ∗ owes (SparseCore.T d) ((K (F := F)).Otc d n) W)
      ⊢ (Pipeline.owesWithin d (Ot (F := F) n d) (Rb (F := F) n d) : sProp (MM (F := F))) := by
  iintro ⟨%W, %hW, HO⟩
  iexists W; isplitr
  · ipureintro; exact fun p hp => hW p (Finset.mem_coe.mp hp)
  · iexact HO

omit [FloatOps F] in
/-- and pairs within the bound and a pipeline's own waits' pairs, which sit at level 0, are at or below level `8 n`. -/
theorem owes_close (n : ℕ) (d : Dev nD) (cfg : Pipeline.Cfg sig Λ₀) :
    (Pipeline.owesWithin d (Ot (F := F) n d) (Rb (F := F) n d ∪ cfg.waitPairs none) : sProp (MM (F := F)))
      ⊢ iprop(∃ W, ⌜(K (F := F)).WBelow (SparseCore.T d) W (8 * n)⌝ ∗ owes (SparseCore.T d) ((K (F := F)).Otc d n) W) := by
  iintro ⟨%W, %hW, HO⟩
  iexists W; isplitr
  · ipureintro; intro p hp
    rcases hW (Finset.mem_coe.mpr hp) with h | ⟨w, s, rfl⟩
    · exact h
    · show (K (F := F)).lev _ none ≤ 8 * n
      rw [SparseCore.Cfg.lev_none]; exact Nat.zero_le _
  · iexact HO

/-! ## The call's three arrays among the unscoped buffers -/

/-- The three arrays of the SparseCore call. -/
abbrev T3 : Finset (DevRef τ sig) := {Proc.devRef .tc main_v36, Proc.devRef .tc main_v32, Proc.devRef .tc main_v37}

omit [FloatOps F] in
theorem T3_sub : (T3 : Finset (DevRef τ sig)) ⊆ Pipeline.ucRefs τ sig := by decide

omit [FloatOps F] in
theorem held_T3 (d : Dev nD) (Vv : Valuation τ sig (Elt F)) :
    (held (SparseCore.T d) T3 Vv : sProp (MM (F := F)))
      = iprop((aLoc d ↦{fullShare} Vv (Proc.devRef .tc main_v36)) ∗ (iLoc d ↦{fullShare} Vv (Proc.devRef .tc main_v32))
          ∗ (oLoc d ↦{fullShare} Vv (Proc.devRef .tc main_v37))) := by
  unfold StableHlo.held T3
  rw [SparseCore.bigSep_insert' (by decide), SparseCore.bigSep_insert' (by decide), bigSep_singleton]

omit [FloatOps F] in
theorem bigSep_cores (Φ : Fin 2 → sProp (MM (F := F))) :
    (bigSep Finset.univ fun c : Fin ((K (F := F)).nCore 0) => Φ (Fin.cast nCore_zero c)) = bigSep Finset.univ Φ :=
  bigSep_congr fun _ _ => congrArg Φ (Fin.ext rfl)

/-- What the call's handshakes carry for device `d`'s two SparseCores: the arrays' parts before, and after at the value. -/
theorem P'_st (d : Dev nD) : (bigSep Finset.univ fun c : Fin ((K (F := F)).nCore 0) => (P' m).st 0 d c)
    = bigSep Finset.univ fun c : Fin 2 => corePts d (Vals.V3 m (o35 m) d (Proc.devRef .tc main_v36))
        (Vals.V3 m (o35 m) d (Proc.devRef .tc main_v32)) (Vals.V3 m (o35 m) d (Proc.devRef .tc main_v37)) c :=
  bigSep_cores (F := F) (fun c => corePts d (Vals.V3 m (o35 m) d (Proc.devRef .tc main_v36))
    (Vals.V3 m (o35 m) d (Proc.devRef .tc main_v32)) (Vals.V3 m (o35 m) d (Proc.devRef .tc main_v37)) c)
theorem P'_dn (d : Dev nD) : (bigSep Finset.univ fun c : Fin ((K (F := F)).nCore 0) => (P' m).dn 0 d c)
    = bigSep Finset.univ fun c : Fin 2 => corePts d (Vals.V3 m (o35 m) d (Proc.devRef .tc main_v36))
        (Vals.V3 m (o35 m) d (Proc.devRef .tc main_v32))
        (outVal d (Vals.V3 m (o35 m) d (Proc.devRef .tc main_v36)) (Vals.V3 m (o35 m) d (Proc.devRef .tc main_v32))) c :=
  bigSep_cores (F := F) (fun c => corePts d (Vals.V3 m (o35 m) d (Proc.devRef .tc main_v36))
    (Vals.V3 m (o35 m) d (Proc.devRef .tc main_v32))
    (outVal d (Vals.V3 m (o35 m) d (Proc.devRef .tc main_v36)) (Vals.V3 m (o35 m) d (Proc.devRef .tc main_v32))) c)

/-! ## @main on the TensorCore -/

set_option maxHeartbeats 4000000 in
theorem hmain [∀ e, Nonempty (Elt F e)] (κ : GSem nD τ sig → ℕ) (d : Dev nD) :
    iprop((K (F := F)).ctx EH (P' m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ Vals.FIN m (o35 m) (o37 m) (o41 m) d) := by
  unfold SparseCore.Cfg.tcRes G
  rw [Host.main_eq, bigSep_univ_two, show StableHlo.seq (Host.ops4 (F := F)) = (StableHlo.seq (Host.ops4 (F := F)) >>= fun _ => pure ⟨⟩) from (bind_pure _).symm]
  iintro ⟨#Hctx, Hst, ⟨Hb, Hub, Hsems, Hprng⟩, ⟨⟨Hcg0, Hti0⟩, ⟨Hcg1, Hti1⟩⟩⟩
  ihave Hlev := (SparseCore.Cfg.ctx_levAts κ) $$ Hctx
  ihave Hh := (Entails.of_eq (Pipeline.unscopedBufs_held (Ix := HIx 1) (Name := ℕ) (U := UU) (Lvl := ℕ) d (Vals.V0 m d))) $$ Hub
  -- the first host line
  iapply (StableHlo.wp_seq (defs := (K (F := F)).defs (D (F := F))) 𝒱 none Set.univ d (Pipeline.ucRefs τ sig) _ Host.ops1
    (fun op h => Pipeline.sub_ucRefs op (Host.ops1_sub op h)) Host.ops1_fresh (Vals.V0 m d)) $$ [Hb Hh]
  · isplitl [Hb] <;> iassumption
  iintro ⟨Hb, Hh⟩
  -- the first region
  ihave Hst' := (Entails.of_eq (tcSt_eq (F := F) d 0)) $$ Hst
  icases Hst' with ⟨HO, Htail⟩
  ihave HO := (owes_open (F := F) 0 d) $$ HO
  iapply (wp_region _ (RR0 m) d _ _)
  isplitr [Hb Hh HO Hcg0 Hti0]
  swap
  · isplitl [Hb]; · iexact Hb
    isplitl [Hh HO]
    · iapply (Entails.of_eq (RR0_pre m d).symm)
      isplitl [Hh]; · iexact Hh
      isplitl [HO]; · iexact HO
      iempintro
    isplitr; · iexact Hlev
    isplitl [Hcg0]; · iexact Hcg0
    iexact Hti0
  iintro ⟨Hb, Hpost⟩
  ihave Hpost' := (Entails.of_eq (RR0_post m d)) $$ Hpost
  icases Hpost' with ⟨Hh, HO, -⟩
  ihave HO := (owes_close (F := F) 0 d cfg0) $$ HO
  -- the second host line
  iapply (StableHlo.wp_seq (defs := (K (F := F)).defs (D (F := F))) 𝒱 none Set.univ d (Pipeline.ucRefs τ sig) _ Host.ops2
    (fun op h => Pipeline.sub_ucRefs op (Host.ops2_sub op h)) Host.ops2_fresh (Vals.V2 m (o35 m) d)) $$ [Hb Hh]
  · isplitl [Hb] <;> iassumption
  iintro ⟨Hb, Hh⟩
  -- the SparseCore call
  irw [wp_bind]
  ihave Hh' := (Entails.of_eq (StableHlo.held_sub_split (SparseCore.T d) T3_sub (Vals.V3 m (o35 m) d))) $$ Hh
  icases Hh' with ⟨H3, Hrest⟩
  ihave H3' := (Entails.of_eq (held_T3 (F := F) d _)) $$ H3
  ihave Hst3 := ((st_intro (F := F) d _ _ _).1) $$ H3'
  iapply (SparseCore.Cfg.wp_run (K := K (F := F)) (D := D (F := F)) (𝒱 := 𝒱) (EH := EH) (P := P' m) κ d 0)
  isplitr; · iexact Hctx
  isplitl [HO Htail]
  · iapply (Entails.of_eq (tcSt_eq (F := F) d 0).symm)
    isplitl [HO]; · iexact HO
    iexact Htail
  isplitl [Hst3]
  · iapply (Entails.of_eq (P'_st m d).symm)
    iexact Hst3
  iintro ⟨Hst, Hdn⟩
  have h01 : (0 : Fin 1).val + 1 = 1 := rfl
  ihave Hst := (Entails.of_eq (congrArg (fun n => (K (F := F)).tcSt EH d n) h01)) $$ Hst
  ihave Hdn' := (Entails.of_eq (P'_dn m d)) $$ Hdn
  ihave H3 := ((st_intro (F := F) d _ _ _).2) $$ Hdn'
  have e3 : (held (SparseCore.T d) T3 (Vals.V4 m (o35 m) (o37 m) d) : sProp (MM (F := F)))
      = iprop((aLoc d ↦{fullShare} Vals.V3 m (o35 m) d (Proc.devRef .tc main_v36)) ∗ (iLoc d ↦{fullShare} Vals.V3 m (o35 m) d (Proc.devRef .tc main_v32))
          ∗ (oLoc d ↦{fullShare} outVal d (Vals.V3 m (o35 m) d (Proc.devRef .tc main_v36)) (Vals.V3 m (o35 m) d (Proc.devRef .tc main_v32)))) := by
    rw [held_T3, Vals.V4_of m (o35 m) (o37 m) d (by decide : main_v36 ≠ main_v37),
      Vals.V4_of m (o35 m) (o37 m) d (by decide : main_v32 ≠ main_v37), Vals.V4_v37]
    rfl
  have erest : (held (SparseCore.T d) (Pipeline.ucRefs τ sig \ T3) (Vals.V3 m (o35 m) d) : sProp (MM (F := F)))
      = held (SparseCore.T d) (Pipeline.ucRefs τ sig \ T3) (Vals.V4 m (o35 m) (o37 m) d) :=
    StableHlo.held_congr (SparseCore.T d) fun b hb => (Function.update_of_ne (fun e : b = Proc.devRef .tc main_v37 => (Finset.mem_sdiff.mp hb).2 (by rw [e]; decide)) _ _).symm
  ihave H3 := (Entails.of_eq e3.symm) $$ H3
  ihave Hrest := (Entails.of_eq erest) $$ Hrest
  ihave Hh := (Entails.of_eq (StableHlo.held_sub_split (SparseCore.T d) T3_sub (Vals.V4 m (o35 m) (o37 m) d)).symm) $$ [H3 Hrest]
  · isplitl [H3] <;> iassumption
  -- the third host line
  iapply (StableHlo.wp_seq (defs := (K (F := F)).defs (D (F := F))) 𝒱 none Set.univ d (Pipeline.ucRefs τ sig) _ Host.ops3
    (fun op h => Pipeline.sub_ucRefs op (Host.ops3_sub op h)) Host.ops3_fresh (Vals.V4 m (o35 m) (o37 m) d)) $$ [Hb Hh]
  · isplitl [Hb] <;> iassumption
  iintro ⟨Hb, Hh⟩
  -- the second region
  ihave Hst' := (Entails.of_eq (tcSt_eq (F := F) d 1)) $$ Hst
  icases Hst' with ⟨HO, Htail⟩
  ihave HO := (owes_open (F := F) 1 d) $$ HO
  ihave HO := (Pipeline.owesWithin_mono d (Ot (F := F) 1 d) (B' := Rb (F := F) 1 d ∪ cfg2.waitPairs none) Set.subset_union_left) $$ HO
  iapply (wp_region _ (RR1 m) d _ _)
  isplitr [Hb Hh HO Hcg1 Hti1]
  swap
  · isplitl [Hb]; · iexact Hb
    isplitl [Hh HO]
    · iapply (Entails.of_eq (RR1_pre m d).symm)
      isplitl [Hh]; · iexact Hh
      isplitl [HO]; · iexact HO
      iempintro
    isplitr; · iexact Hlev
    isplitl [Hcg1]; · iexact Hcg1
    iexact Hti1
  iintro ⟨Hb, Hpost⟩
  ihave Hpost' := (Entails.of_eq (RR1_post m d)) $$ Hpost
  icases Hpost' with ⟨Hh, HO, -⟩
  ihave HO := (owes_close (F := F) 1 d cfg2) $$ HO
  -- the last host line
  iapply (StableHlo.wp_seq (defs := (K (F := F)).defs (D (F := F))) 𝒱 none Set.univ d (Pipeline.ucRefs τ sig) _ Host.ops4
    (fun op h => Pipeline.sub_ucRefs op (Host.ops4_sub op h)) Host.ops4_fresh (Vals.V6 m (o35 m) (o37 m) (o41 m) d)) $$ [Hb Hh]
  · isplitl [Hb] <;> iassumption
  iintro ⟨Hb, Hh⟩
  rw [wp_pure]
  imodintro
  isplitl [HO Htail]
  · iapply (Entails.of_eq (tcSt_eq (F := F) d 1).symm)
    isplitl [HO]; · iexact HO
    iexact Htail
  unfold Vals.FIN
  iexact Hh

/-! ## The run -/

/-- What the final memory says: on every device the result buffer at the last valuation, every argument as launched. -/
def QC : PUnit × MemSt nD τ sig (Elt F) → Prop := fun r => ∀ c : Dev nD,
  r.2.mem ((SparseCore.T c).loc main_v42) = Vals.V7 m (o35 m) (o37 m) (o41 m) c (Proc.devRef .tc main_v42)
    ∧ ∀ r' ∈ Host.args, r.2.mem ((SparseCore.T c).loc r') = m ((SparseCore.T c).loc r')

/-- The program's run: every weakly fair execution ends, nothing faulting, with the result at the last valuation and the
    arguments unchanged — given that every word of the winner list names a place of the row buffer. -/
theorem run_main [∀ e, Nonempty (Elt F e)]
    (hidx : ∀ d k, ixN (Vals.V3 m (o35 m) d (Proc.devRef .tc main_v32)) k < 105856) :
    θ_run (Cert.KernelIdeal.defs (F := F)) (Cert.KernelIdeal.threads (F := F)) ⟨m, fun _ => 0, ρ⟩ (QC m) :=
  run_of (P' m) m ρ (fun _ _ => rfl) rfl
    (tileObl facts _ _ _ hidx) (vecSplit _ _ _)
    (Vals.FIN m (o35 m) (o37 m) (o41 m)) (hmain m ρ)
    (Vals.fq m (o35 m) (o37 m) (o41 m)) (Vals.hfin m (o35 m) (o37 m) (o41 m)) (QC m) (fun _ h => h)

end Cert.Proof.KI

end
-- ==== Proof.KI.Idx.lean ====
/-
  The winner list the SparseCore call scatters at stays inside the call's rows: under the index list's range, every
  word of it, read as a natural, is below 105856.
-/
import proofs.«211384_g36696200577170_cont_8to1_b_1111_23_alg».proof.Proof.KI.Vals
import proofs.«211384_g36696200577170_cont_8to1_b_1111_23_alg».proof.Proof.KI.K1Pay
import proofs.«211384_g36696200577170_cont_8to1_b_1111_23_alg».proof.Proof.LibScatterIdx

noncomputable section

namespace Cert.Proof.KI

open Cert.KernelIdeal Cert.KernelIdeal.Gen Idealize.ShloMosaic

variable {F : FTy → Type} [FloatOps F]

/-- The index array's index at k is the rank-1 index at k. -/
private theorem ixI_ofFin (k : Fin 5200) : (ixI k : (⟨1, ![5200]⟩ : Shape).Idx) = Shape.Idx.ofFin k := by
  funext a
  have ha : a = 0 := Subsingleton.elim _ _
  subst ha
  rfl

/-- Under the index list's range, the winner list as the SparseCore call finds it names places of its rows only. -/
theorem hidx_of_range (m : (ℓ : Loc nD τ sig) → Buf (Elt F) ℓ)
    (o35 : (d : Dev nD) → (Proc.devRef (τ := τ) .tc main_v35 : DevRef τ sig).ty.Contents (Elt F)) (d : Dev nD)
    (hrange : ∀ i, 0 ≤ (m ((SparseCore.T d).loc main_arg2) i).toInt ∧ (m ((SparseCore.T d).loc main_arg2) i).toInt ≤ 105624) :
    ∀ k, ixN (Vals.V3 m o35 d (Proc.devRef .tc main_v32)) k < 105856 := by
  intro k
  unfold ixN
  split
  · next h =>
    rw [Vals.V3_v32, ixI_ofFin]
    exact Cert.Proof.LibScat.idxmVec_lt (M := 5200) scatter_S105625_S5200x1_S5200_n_0_0_1 rfl rfl rfl rfl
      gather_S105625_S5200x1_S5200_n_0_n_n_0_1_1 rfl rfl rfl rfl bcast_S5200_S5200x1_0 bcast_S_S5200 bcast_S_S105625
      (by decide : 0 < (⟨0, ![]⟩ : Shape).numel) _ hrange (by decide) ⟨k, h⟩
  · omega

end Cert.Proof.KI

end
-- ==== Proof.K0Val.lean ====
/-
  Region k0's payload at the extended reals, index by index. With x the [5200, 5] input, W1 the [1, 5, 256]
  block, b1 and W2 the [1, 1, 256] blocks of one grid point,
    hid[r, k]  = Σ_j x[r, j] · W1[0, j, k] + b1[0, 0, k]
    score[n, l] = Σ_k tanh(hid[16 n + l, k]) · W2[0, 0, k]
  and the payload at (0, n, l) is the softmax over the 16 lanes l' of score[n, l']: the row maximum (a fold of
  max from ⊥) subtracted, the exponentials, their quotient by their sum. Roundings to bf16 are the identity here.
-/
import proofs.«211384_g36696200577170_cont_8to1_b_1111_23_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Proof.K0Val

open Cert.KernelIdeal Cert.KernelIdeal.Gen
open Idealize.ShloMosaic Idealize.ShloMosaic.ValueIdx
open scoped BigOperators

/-! ## The matrix product's index maps, the reductions' lifted indices, the reshapes and broadcasts of this body -/

local notation "DD" => dot_S5200x5_S5x256_S5200x256_1_0_0_1_n_n

theorem DD_rank : (DD).contr.rank = 1 := rfl
theorem DD_size : (DD).contr.size ⟨0, by rw [DD_rank]; exact Nat.one_pos⟩ = 5 := rfl

/-- The contraction index as its one coordinate. -/
abbrev cE : (DD).contr.Idx ≃ Fin 5 := contrEquiv1 DD 5 DD_rank DD_size

theorem lhsIdx_eq (r : Fin 5200) (k : Fin 256) (q : (DD).contr.Idx) :
    (DD).lhsIdx (ix2 r k) q = ix2 r (cE q) := by
  funext a; apply Fin.ext
  fin_cases a
  · rfl
  · rfl

theorem rhsIdx_eq (r : Fin 5200) (k : Fin 256) (q : (DD).contr.Idx) :
    (DD).rhsIdx (ix2 r k) q = ix2 (cE q) k := by
  funext a; apply Fin.ext
  fin_cases a
  · rfl
  · rfl

/-- Sum over the last axis: the lifted index. -/
theorem lift3 (h : S325x16x256.Reduces [2] S325x16) (n : Fin 325) (l : Fin 16) (k : Fin (S325x16x256.size 2)) :
    h.lift (ix2 n l) k = ix3 n l (⟨k.val, k.isLt⟩ : Fin 256) := by
  funext c; apply Fin.ext
  fin_cases c <;> rfl

theorem lift2 (h : S325x16.Reduces [1] S325) (n : Fin 325) (k : Fin (S325x16.size 1)) :
    h.lift (ix1 n) k = ix2 n (⟨k.val, k.isLt⟩ : Fin 16) := by
  funext c; apply Fin.ext
  fin_cases c <;> rfl

/-- The row-major reshape [5200, 256] → [325, 16, 256]. -/
theorem cast_rows {α : Type} (x : S5200x256.Idx → α) (h : S5200x256.ShapeCasts S325x16x256) (n : Fin 325) (l : Fin 16) (k : Fin 256) :
    shapeCast S325x16x256 x h (ix3 n l k) = x (ix2 (⟨16 * n.val + l.val, by have := n.isLt; have := l.isLt; omega⟩ : Fin 5200) k) :=
  shapeCast_apply x h _ _ (by
    rw [Shape.rowMajor_val_three, Shape.rowMajor_val_two]
    show (16 * n.val + l.val) * 256 + k.val = (n.val * 16 + l.val) * 256 + k.val
    rw [Nat.mul_comm 16 n.val])

theorem bcast_col {α : Type} (v : S325x1.Idx → α) (h : S325x1.Broadcasts S325x16) (n : Fin 325) (l : Fin 16) :
    broadcastTo S325x16 v h (ix2 n l) = v (ix2 n (0 : Fin 1)) := by
  refine broadcastTo_apply v h (ix2 n l) (ix2 n (0 : Fin 1)) fun ax => ?_
  match ax with
  | ⟨0, _⟩ => rfl
  | ⟨1, _⟩ => rfl

theorem bcast_vec3 {α : Type} (v : S1x1x256.Idx → α) (h : S1x1x256.Broadcasts S325x16x256) (n : Fin 325) (l : Fin 16) (k : Fin 256) :
    broadcastTo S325x16x256 v h (ix3 n l k) = v (ix3 (0 : Fin 1) (0 : Fin 1) k) := by
  refine broadcastTo_apply v h (ix3 n l k) (ix3 (0 : Fin 1) (0 : Fin 1) k) fun ax => ?_
  match ax with
  | ⟨0, _⟩ => rfl
  | ⟨1, _⟩ => rfl
  | ⟨2, _⟩ => rfl

/-! ## Elementwise transcendental operations at an index -/

theorem exp_at {s : Shape} (a : FVec Ideal s .f32) (i : s.Idx) : exp a i = Ideal.exp (a i) := rfl
theorem tanh_at {s : Shape} (a : FVec Ideal s .f32) (i : s.Idx) : tanh a i = Ideal.tanh (a i) := rfl

/-! ## The unit-axis casts of this body -/

theorem cast_col {α : Type} (x : S325.Idx → α) (h : S325.ShapeCasts S325x1) (n : Fin 325) (u : Fin 1) :
    shapeCast S325x1 x h (ix2 n u) = x (ix1 n) :=
  shapeCast_apply x h _ _ (by
    have hu : u.val = 0 := by omega
    rw [Shape.rowMajor_val_two, Shape.rowMajor_val_one]
    show n.val = n.val * 1 + u.val
    rw [hu, Nat.mul_one, Nat.add_zero])

theorem cast_vec_in {α : Type} (x : S1x1x256.Idx → α) (h : S1x1x256.ShapeCasts S256) (k : Fin 256) :
    shapeCast S256 x h (ix1 k) = x (ix3 (0 : Fin 1) (0 : Fin 1) k) :=
  shapeCast_apply x h _ _ (by
    rw [Shape.rowMajor_val_three, Shape.rowMajor_val_one]
    show (0 * 1 + 0) * 256 + k.val = k.val
    omega)

theorem cast_vec_out {α : Type} (x : S256.Idx → α) (h : S256.ShapeCasts S1x1x256) (a b : Fin 1) (k : Fin 256) :
    shapeCast S1x1x256 x h (ix3 a b k) = x (ix1 k) :=
  shapeCast_apply x h _ _ (by
    have ha : a.val = 0 := by omega
    have hb : b.val = 0 := by omega
    rw [Shape.rowMajor_val_three, Shape.rowMajor_val_one]
    show k.val = (a.val * 1 + b.val) * 256 + k.val
    rw [ha, hb]; omega)

/-! ## The three stages of the payload at Ideal -/

section Stages

variable (v0 : Vec Ideal S5200x5 .f32) (v1 : Vec Ideal S1x5x256 .f32) (v6 : Vec Ideal S1x1x256 .f32) (v14 : Vec Ideal S1x1x256 .f32)

/-- The hidden layer before its tanh, at row `r` and feature `k`: x[r,·]·W1[·,k] + b1[k]. -/
def hid (r : Fin 5200) (k : Fin 256) : EReal :=
  (∑ j : Fin 5, v0 (ix2 r j) * v1 (ix3 (0 : Fin 1) j k)) + v6 (ix3 (0 : Fin 1) (0 : Fin 1) k)

/-- Row `16 n + l` of the 5200 rows. -/
abbrev row (n : Fin 325) (l : Fin 16) : Fin 5200 := ⟨16 * n.val + l.val, by have := n.isLt; have := l.isLt; omega⟩

/-- The attention logit of pair `(n, l)`: Σ_k tanh(hid[16 n + l, k]) · W2[k]. -/
def score (n : Fin 325) (l : Fin 16) : EReal :=
  ∑ k : Fin 256, Ideal.tanh (hid v0 v1 v6 (row n l) k) * v14 (ix3 (0 : Fin 1) (0 : Fin 1) k)

/-- Stage 1 as the payload spells it: the tanh of the affine layer. -/
def stT : FVec Ideal S5200x256 .f32 :=
  tanh (addf
    (matmul dot_S5200x5_S5x256_S5200x256_1_0_0_1_n_n none (truncf .bf16 v0 bitsLt_bf16_f32)
      (truncf .bf16 (shapeCast S5x256 v1 shapeCasts_S1x5x256_S5x256) bitsLt_bf16_f32) (constant S5200x256 .f32 0x00000000#32))
    (broadcastTo S5200x256 (shapeCast S1x256 (shapeCast S256 v6 shapeCasts_S1x1x256_S256) shapeCasts_S256_S1x256) broadcasts_S1x256_S5200x256))

theorem stT_apply (r : Fin 5200) (k : Fin 256) : stT v0 v1 v6 (ix2 r k) = Ideal.tanh (hid v0 v1 v6 r k) := by
  unfold stT hid
  rw [tanh_at, addf_apply]
  unfold Idealize.ShloMosaic.matmul
  rw [Ideal.matmul_constant_zero_apply, broadcastTo_1b_ab_apply, shapeCast_a_1a_apply, cast_vec_in]
  congr 2
  refine (Fintype.sum_equiv cE _ _ fun q => ?_)
  rw [truncf_apply, truncf_apply, lhsIdx_eq, rhsIdx_eq, shapeCast_1ab_ab_apply]

/-- Stage 2 as the payload spells it: the weighted sum over the 256 features, per pair. -/
def stS (T : FVec Ideal S5200x256 .f32) : FVec Ideal S325x16 .f32 :=
  multiReduction .add [2] S325x16
    (mulf (shapeCast S325x16x256 T shapeCasts_S5200x256_S325x16x256)
      (broadcastTo S325x16x256 (shapeCast S1x1x256 (shapeCast S256 v14 shapeCasts_S1x1x256_S256) shapeCasts_S256_S1x1x256) broadcasts_S1x1x256_S325x16x256))
    0x00000000#32 reduces_S325x16x256_S325x16 (.inl rfl) rfl

theorem stS_apply (T : FVec Ideal S5200x256 .f32) (n : Fin 325) (l : Fin 16) :
    stS v14 T (ix2 n l) = ∑ k : Fin 256, T (ix2 (row n l) k) * v14 (ix3 (0 : Fin 1) (0 : Fin 1) k) := by
  unfold stS
  refine (Ideal.multiReduction_add_single _ 0x00000000#32 reduces_S325x16x256_S325x16 (.inl rfl) rfl (ix2 n l)).trans ?_
  refine Finset.sum_congr rfl fun k _ => ?_
  rw [lift3, mulf_apply, cast_rows, bcast_vec3, cast_vec_out, cast_vec_in]
  rfl

/-- Stage 3 as the payload spells it: the softmax over the 16 lanes of each row. -/
def stP (s : FVec Ideal S325x16 .f32) : FVec Ideal S1x325x16 .f32 :=
  have e : FVec Ideal S325x16 .f32 := exp (subf s
    (broadcastTo S325x16 (shapeCast S325x1
      (multiReduction .maximumf [1] S325 s 0xFF800000#32 reduces_S325x16_S325 (.inl rfl) rfl) shapeCasts_S325_S325x1) broadcasts_S325x1_S325x16))
  shapeCast S1x325x16 (divf e
    (broadcastTo S325x16 (shapeCast S325x1
      (multiReduction .add [1] S325 e 0x00000000#32 reduces_S325x16_S325 (.inl rfl) rfl) shapeCasts_S325_S325x1) broadcasts_S325x1_S325x16))
    shapeCasts_S325x16_S1x325x16

theorem rowmax_apply (s : FVec Ideal S325x16 .f32) (n : Fin 325) :
    multiReduction .maximumf [1] S325 s 0xFF800000#32 reduces_S325x16_S325 (.inl rfl) rfl (ix1 n)
      = (Finset.univ : Finset (Fin 16)).fold max (⊥ : EReal) (fun l => s (ix2 n l)) := by
  refine (Ideal.multiReduction_maximumf_single s 0xFF800000#32 reduces_S325x16_S325 (.inl rfl) rfl (ix1 n)).trans ?_
  have e : (s ∘ (reduces_S325x16_S325).lift (ix1 n)) = fun l : Fin 16 => s (ix2 n l) :=
    funext fun k => congrArg s (lift2 _ n k)
  have hb : (FloatOps.ofBits (F := Ideal) .f32 0xFF800000#32 : EReal) = ⊥ := by
    show Ideal.ofBits .f32 0xFF800000#32 = ⊥
    simp [Ideal.ofBits, Ideal.ieee]
  rw [e, hb]
  rfl

theorem rowsum_apply (e : FVec Ideal S325x16 .f32) (n : Fin 325) :
    multiReduction .add [1] S325 e 0x00000000#32 reduces_S325x16_S325 (.inl rfl) rfl (ix1 n) = ∑ l : Fin 16, e (ix2 n l) := by
  refine (Ideal.multiReduction_add_single e 0x00000000#32 reduces_S325x16_S325 (.inl rfl) rfl (ix1 n)).trans ?_
  exact Finset.sum_congr rfl fun k _ => congrArg e (lift2 _ n k)

theorem stP_apply (s : FVec Ideal S325x16 .f32) (u : Fin 1) (n : Fin 325) (l : Fin 16) :
    stP s (ix3 u n l)
      = Ideal.div (Ideal.exp (s (ix2 n l) - (Finset.univ : Finset (Fin 16)).fold max (⊥ : EReal) (fun l' => s (ix2 n l'))))
          (∑ l' : Fin 16, Ideal.exp (s (ix2 n l') - (Finset.univ : Finset (Fin 16)).fold max (⊥ : EReal) (fun l'' => s (ix2 n l'')))) := by
  unfold stP
  dsimp only
  rw [shapeCast_ab_1ab_apply, divf_apply, bcast_col, cast_col, rowsum_apply]
  simp only [exp_at, subf_apply, bcast_col, cast_col]
  rw [rowmax_apply]

/-- The payload is the three stages composed. -/
theorem k0_pay1_eq_stages : k0_pay1 v0 v1 v6 v14 = stP (stS v14 (stT v0 v1 v6)) := rfl

/-- THE VALUE: the payload at `(0, n, l)` is the softmax over the 16 lanes `l'` of the logits `score n l'`. -/
theorem k0_pay1_apply (u : Fin 1) (n : Fin 325) (l : Fin 16) :
    k0_pay1 v0 v1 v6 v14 (ix3 u n l)
      = Ideal.div (Ideal.exp (score v0 v1 v6 v14 n l - (Finset.univ : Finset (Fin 16)).fold max (⊥ : EReal) (fun l' => score v0 v1 v6 v14 n l')))
          (∑ l' : Fin 16, Ideal.exp (score v0 v1 v6 v14 n l' - (Finset.univ : Finset (Fin 16)).fold max (⊥ : EReal) (fun l'' => score v0 v1 v6 v14 n l''))) := by
  have hs : ∀ l', stS v14 (stT v0 v1 v6) (ix2 n l') = score v0 v1 v6 v14 n l' := fun l' => by
    rw [stS_apply]; unfold score
    exact Finset.sum_congr rfl fun k _ => by rw [stT_apply]
  rw [k0_pay1_eq_stages, stP_apply]
  simp only [hs]

end Stages

end Cert.Proof.K0Val
end
-- ==== Proof.K0ValSoftmax.lean ====
/-
  Region k0's payload as the row softmax of its logits, in the form the shift-invariance law is stated for.
-/
import proofs.«211384_g36696200577170_cont_8to1_b_1111_23_alg».proof.Proof.K0Val
import proofs.«211384_g36696200577170_cont_8to1_b_1111_23_alg».proof.Proof.LibAlg

noncomputable section

namespace Cert.Proof.K0Val

open Cert.KernelIdeal Cert.KernelIdeal.Gen
open Idealize.ShloMosaic Idealize.ShloMosaic.ValueIdx

/-- The payload at `(u, n, l)` is the softmax over the 16 lanes of the logits `score n ·`, at lane `l`. -/
theorem k0_pay1_softmax (v0 : Vec Ideal S5200x5 .f32) (v1 : Vec Ideal S1x5x256 .f32) (v6 : Vec Ideal S1x1x256 .f32)
    (v14 : Vec Ideal S1x1x256 .f32) (u : Fin 1) (n : Fin 325) (l : Fin 16) :
    k0_pay1 v0 v1 v6 v14 (ix3 u n l) = Cert.Proof.LibAlg.softmaxE (score v0 v1 v6 v14 n) l :=
  (k0_pay1_apply v0 v1 v6 v14 u n l).trans rfl

end Cert.Proof.K0Val
end
-- ==== Proof.KI.V35.lean ====
/-
  Region k0's output array as the row softmaxes of the kernel's attention scores: entered from the valuation after the
  first host stretch, the array holds at (s, n, l) the softmax over the 16 neighbour slots l' of
    Σ_k tanh((Σ_p maps[16 n + l', p] · L_W1[s, p, k]) + L_b1[s, k]) · L_W2[s, k, 0],
  the arguments read off the launch memory. Point s of the grid computes operator s: its output block is row s of the
  array; its input blocks are the whole of maps, row s of L_W1, and row s of the two reshaped weight arrays.
-/
import proofs.«211384_g36696200577170_cont_8to1_b_1111_23_alg».proof.Proof.KI.R0
import proofs.«211384_g36696200577170_cont_8to1_b_1111_23_alg».proof.Proof.K0ValSoftmax
import proofs.«211384_g36696200577170_cont_8to1_b_1111_23_alg».proof.Proof.KI.Vals
import proofs.«211384_g36696200577170_cont_8to1_b_1111_23_alg».proof.Proof.KI.KVal
import proofs.«211384_g36696200577170_cont_8to1_b_1111_23_alg».proof.Proof.Join
import Idealize.ShloMosaic.Lib.Pipeline.Value

noncomputable section

namespace Cert.Proof.KI.V35

open Cert.KernelIdeal Cert.KernelIdeal.Gen
open Idealize.ShloMosaic Idealize.ShloMosaic.ValueIdx Idealize.ShloMosaic.TcCoe
open Idealize.SL Idealize.SL.RA Idealize.SL.Sem
open Idealize.ShloMosaic.Pipeline (Dat)
open Cert.Proof.KI Cert.Proof.KI.Vals
open scoped BigOperators

/-! ## The grid point of operator `s`, and where each window's block sits there -/

/-- Operator `s` is computed at grid point `s`. -/
def pt (s : Fin 40) : Fin cfg0.N := ⟨s.val, Nat.lt_of_lt_of_eq s.isLt N_0.symm⟩

/-- The operator of grid point `t`. -/
def op (t : Fin cfg0.N) : Fin 40 := ⟨t.val, Nat.lt_of_lt_of_eq t.isLt N_0⟩

theorem op_pt (s : Fin 40) : op (pt s) = s := Fin.ext rfl

/-- The windows' block indices at every grid point: the first window's block is its whole array; the others'
    is row `t` of the leading axis. -/
theorem idx0 : ∀ t : Fin cfg0.N, win0_0.index t = ![0, 0] :=
  (by decide +kernel : ∀ t : Fin grid0.N, win0_0.index t = ![0, 0])
theorem idx1 : ∀ t : Fin cfg0.N, win0_1.index t = ![t.val, 0, 0] :=
  (by decide +kernel : ∀ t : Fin grid0.N, win0_1.index t = ![t.val, 0, 0])
theorem idx2 : ∀ t : Fin cfg0.N, win0_2.index t = ![t.val, 0, 0] :=
  (by decide +kernel : ∀ t : Fin grid0.N, win0_2.index t = ![t.val, 0, 0])
theorem idx3 : ∀ t : Fin cfg0.N, win0_3.index t = ![t.val, 0, 0] :=
  (by decide +kernel : ∀ t : Fin grid0.N, win0_3.index t = ![t.val, 0, 0])
theorem idx4 : ∀ t : Fin cfg0.N, win0_4.index t = ![t.val, 0, 0] :=
  (by decide +kernel : ∀ t : Fin grid0.N, win0_4.index t = ![t.val, 0, 0])

/-! ## A block's element in its array -/

theorem emb0 (t : Fin cfg0.N) (r : Fin 5200) (j : Fin 5) :
    ((cfg0.win 0).blk t).view.emb (ix2 r j) = ix2 r j := by
  funext a; apply Fin.ext
  match a with
  | ⟨0, _⟩ => show win0_0.index t (0 : Fin 2) * 5200 + 1 * r.val = r.val; rw [idx0 t]; simp
  | ⟨1, _⟩ => show win0_0.index t (1 : Fin 2) * 5 + 1 * j.val = j.val; rw [idx0 t]; simp

theorem emb1 (t : Fin cfg0.N) (p : Fin 5) (k : Fin 256) :
    ((cfg0.win 1).blk t).view.emb (ix3 (0 : Fin 1) p k) = ix3 (op t) p k := by
  funext a; apply Fin.ext
  match a with
  | ⟨0, _⟩ => show win0_1.index t (0 : Fin 3) * 1 + 1 * 0 = t.val; rw [idx1 t]; simp
  | ⟨1, _⟩ => show win0_1.index t (1 : Fin 3) * 5 + 1 * p.val = p.val; rw [idx1 t]; simp
  | ⟨2, _⟩ => show win0_1.index t (2 : Fin 3) * 256 + 1 * k.val = k.val; rw [idx1 t]; simp

theorem emb2 (t : Fin cfg0.N) (k : Fin 256) :
    ((cfg0.win 2).blk t).view.emb (ix3 (0 : Fin 1) (0 : Fin 1) k) = ix3 (op t) (0 : Fin 1) k := by
  funext a; apply Fin.ext
  match a with
  | ⟨0, _⟩ => show win0_2.index t (0 : Fin 3) * 1 + 1 * 0 = t.val; rw [idx2 t]; simp
  | ⟨1, _⟩ => show win0_2.index t (1 : Fin 3) * 1 + 1 * 0 = 0; rw [idx2 t]; simp
  | ⟨2, _⟩ => show win0_2.index t (2 : Fin 3) * 256 + 1 * k.val = k.val; rw [idx2 t]; simp

theorem emb3 (t : Fin cfg0.N) (k : Fin 256) :
    ((cfg0.win 3).blk t).view.emb (ix3 (0 : Fin 1) (0 : Fin 1) k) = ix3 (op t) (0 : Fin 1) k := by
  funext a; apply Fin.ext
  match a with
  | ⟨0, _⟩ => show win0_3.index t (0 : Fin 3) * 1 + 1 * 0 = t.val; rw [idx3 t]; simp
  | ⟨1, _⟩ => show win0_3.index t (1 : Fin 3) * 1 + 1 * 0 = 0; rw [idx3 t]; simp
  | ⟨2, _⟩ => show win0_3.index t (2 : Fin 3) * 256 + 1 * k.val = k.val; rw [idx3 t]; simp

theorem emb4 (t : Fin cfg0.N) (n : Fin 325) (l : Fin 16) :
    ((cfg0.win 4).blk t).view.emb (ix3 (0 : Fin 1) n l) = ix3 (op t) n l := by
  funext a; apply Fin.ext
  match a with
  | ⟨0, _⟩ => show win0_4.index t (0 : Fin 3) * 1 + 1 * 0 = t.val; rw [idx4 t]; simp
  | ⟨1, _⟩ => show win0_4.index t (1 : Fin 3) * 325 + 1 * n.val = n.val; rw [idx4 t]; simp
  | ⟨2, _⟩ => show win0_4.index t (2 : Fin 3) * 16 + 1 * l.val = l.val; rw [idx4 t]; simp

/-! ## The blocks read off their arrays, and the output array read at an element -/

section Blocks

variable {F : FTy → Type} [FloatOps F] {c : Dev nD} (A : K0Ideal.Arrs (F := F) c)

theorem blk0 (t : Fin cfg0.N) (r : Fin 5200) (j : Fin 5) : K0Ideal.iblk A 0 t (ix2 r j) = A 0 (ix2 r j) := by
  unfold K0Ideal.iblk
  rw [View.read_apply, emb0]; rfl

theorem blk1 (t : Fin cfg0.N) (p : Fin 5) (k : Fin 256) : K0Ideal.iblk A 1 t (ix3 (0 : Fin 1) p k) = A 1 (ix3 (op t) p k) := by
  unfold K0Ideal.iblk
  rw [View.read_apply, emb1]; rfl

theorem blk2 (t : Fin cfg0.N) (k : Fin 256) :
    K0Ideal.iblk A 2 t (ix3 (0 : Fin 1) (0 : Fin 1) k) = A 2 (ix3 (op t) (0 : Fin 1) k) := by
  unfold K0Ideal.iblk
  rw [View.read_apply, emb2]; rfl

theorem blk3 (t : Fin cfg0.N) (k : Fin 256) :
    K0Ideal.iblk A 3 t (ix3 (0 : Fin 1) (0 : Fin 1) k) = A 3 (ix3 (op t) (0 : Fin 1) k) := by
  unfold K0Ideal.iblk
  rw [View.read_apply, emb3]; rfl

variable {Ix : Type} [DecidableEq Ix] {Name : Type} [DecidableEq Name] {U : Type} [URA U] {Lvl : Type} [Preorder Lvl]
  (O₀ : CellTallies nD τ sig Ix) (Rb : Set (SemLoc sig × Ix))

/-- The output array after the region, at `(s, n, l)`: the payload of the four input blocks at grid point `s`, at `(0, n, l)`. -/
theorem arr35_apply (s : Fin 40) (n : Fin 325) (l : Fin 16) :
    (K0Ideal.dat0 (Name := Name) (U := U) (Lvl := Lvl) A O₀ Rb).arrAt 4 cfg0.N (ix3 s n l)
      = k0_pay1 (K0Ideal.iblk A 0 (pt s)) (K0Ideal.iblk A 1 (pt s)) (K0Ideal.iblk A 2 (pt s)) (K0Ideal.iblk A 3 (pt s))
          (ix3 (0 : Fin 1) n l) := by
  have h := congrFun (K0Ideal.blocks4 (Name := Name) (U := U) (Lvl := Lvl) A O₀ Rb (pt s)) (ix3 (0 : Fin 1) n l)
  rw [View.read_apply, emb4, op_pt] at h
  exact h

end Blocks

/-! ## The unit-axis casts of the two weight arrays -/

theorem cast_b1 {α : Type} (x : S40x256.Idx → α) (h : S40x256.ShapeCasts S40x1x256) (s : Fin 40) (u : Fin 1) (k : Fin 256) :
    shapeCast S40x1x256 x h (ix3 s u k) = x (ix2 s k) :=
  shapeCast_apply x h _ _ (by
    have hu : u.val = 0 := by omega
    rw [Shape.rowMajor_val_three, Shape.rowMajor_val_two]
    show s.val * 256 + k.val = (s.val * 1 + u.val) * 256 + k.val
    rw [hu]; omega)

theorem cast_w2 {α : Type} (x : S40x256x1.Idx → α) (h : S40x256x1.ShapeCasts S40x1x256) (s : Fin 40) (u : Fin 1) (k : Fin 256) :
    shapeCast S40x1x256 x h (ix3 s u k) = x (ix3 s k (0 : Fin 1)) :=
  shapeCast_apply x h _ _ (by
    have hu : u.val = 0 := by omega
    rw [Shape.rowMajor_val_three, Shape.rowMajor_val_three]
    show (s.val * 256 + k.val) * 1 + 0 = (s.val * 1 + u.val) * 256 + k.val
    rw [hu]; omega)

/-! ## The output array's elements are the row softmaxes of the kernel's scores -/

section Join

open Cert.Proof.RefVal Cert.Proof.Join Cert.Proof.K0Val

variable (m : (ℓ : Loc nD τ sig) → Buf (Elt Ideal) ℓ) (d : Dev nD)
variable {Ix : Type} [DecidableEq Ix] {Name : Type} [DecidableEq Name] {U : Type} [URA U] {Lvl : Type} [Preorder Lvl]
  (O₀ : CellTallies nD τ sig Ix) (Rb : Set (SemLoc sig × Ix))

/-- Pipeline 0's arrays as the valuation before the region has them. -/
abbrev A1 : K0Ideal.Arrs (F := Ideal) d := fun w => V1 m d (Pipeline.arrRef spec0 w)

theorem A1_0 : A1 m d 0 = m ((SparseCore.T d).loc main_arg1) := V1_arg m d (r := main_arg1) (by decide)
theorem A1_1 : A1 m d 1 = m ((SparseCore.T d).loc main_arg5) := V1_arg m d (r := main_arg5) (by decide)
theorem A1_2 : A1 m d 2 = shapeCast S40x1x256 (m ((SparseCore.T d).loc main_arg6)) shapeCasts_S40x256_S40x1x256 := V1_v33 m d
theorem A1_3 : A1 m d 3 = shapeCast S40x1x256 (m ((SparseCore.T d).loc main_arg7)) shapeCasts_S40x256x1_S40x1x256 := V1_v34 m d

/-- For any record of the arguments whose attention fields are the launch memory's arrays, the output array after
    region 0 holds at `(s, n, l)` the softmax over the 16 slots of the kernel's scores of operator `s` at node `n`. -/
theorem arr35_softmax (A : Args Ideal)
    (hmaps : A.maps = m ((SparseCore.T d).loc main_arg1)) (hW1 : A.LW1 = m ((SparseCore.T d).loc main_arg5))
    (hb1 : A.Lb1 = m ((SparseCore.T d).loc main_arg6)) (hW2 : A.LW2 = m ((SparseCore.T d).loc main_arg7))
    (s : Fin 40) (n : Fin 325) (l : Fin 16) :
    (K0Ideal.dat0 (Name := Name) (U := U) (Lvl := Lvl) (A1 m d) O₀ Rb).arrAt 4 cfg0.N (ix3 s n l)
      = Cert.Proof.LibAlg.softmaxE (scoreK A s n) l := by
  rw [arr35_apply, k0_pay1_softmax]
  refine congrArg (fun f => Cert.Proof.LibAlg.softmaxE f l) (funext fun l' => ?_)
  unfold score scoreK hid
  refine Finset.sum_congr rfl fun k _ => ?_
  rw [blk2, blk3, op_pt, A1_2, A1_3, cast_b1, cast_w2, hb1, hW2]
  refine congrArg (fun z => Ideal.tanh (z + _) * _) (Finset.sum_congr rfl fun p _ => ?_)
  rw [blk0, blk1, op_pt, A1_0, A1_1, hmaps, hW1]

end Join

end Cert.Proof.KI.V35

namespace Cert.Proof.KI.V35

open Cert.KernelIdeal Cert.KernelIdeal.Gen
open Idealize.ShloMosaic Idealize.ShloMosaic.ValueIdx Idealize.ShloMosaic.TcCoe
open Idealize.ShloMosaic.SparseCore.Cfg (HIx)
open Cert.Proof.KI Cert.Proof.KI.Vals

variable [Cert.ReferenceIdeal.Facts] [Cert.Pre_input_domain.Facts]

/-- Region 0's output array, entered from the valuation after the first host stretch, holds at `(s, n, l)` the softmax
    over the 16 slots of the kernel's scores of operator `s` at node `n`, read off the launch memory's arguments. -/
theorem h35 (m : (ℓ : Loc nD τ sig) → Buf (Elt Ideal) ℓ) (O : Dev nD → CellTallies nD τ sig (HIx 1))
    (Rb : Dev nD → Set (SemLoc sig × HIx 1)) (d : Dev nD) (s : Fin 40) (n : Fin 325) (l : Fin 16) :
    out35 (V1 m) O Rb d (ix3 s n l) = Cert.Proof.LibAlg.softmaxE (Cert.Proof.Join.scoreK (Cert.Proof.KI.KVal.A m d) s n) l :=
  arr35_softmax m d (O d) (Rb d) (Cert.Proof.KI.KVal.A m d) rfl rfl rfl rfl s n l

end Cert.Proof.KI.V35

end
-- ==== Proof.K2BodyOut.lean ====
/-
  Region k2: what the region leaves in the result's array. The pipeline has one point, the result's window is the
  whole array and is written back there, so after the region the array holds exactly the output block the body left.
-/
import proofs.«211384_g36696200577170_cont_8to1_b_1111_23_alg».proof.Proof.K2BodyDat

noncomputable section

namespace Cert.Proof.K2Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]
variable {Ix : Type} [DecidableEq Ix] {Name : Type} [DecidableEq Name] {U : Type} [URA U] {Lvl : Type} [Preorder Lvl]
variable {c : Dev nD} (A : Arrs (F := F) c) (O₀ : CellTallies nD τ sig Ix) (Rb : Set (SemLoc sig × Ix))

/-- What the body leaves in the result's staging buffer is the run's witness (the proof data's definition projected). -/
theorem after10 (t : Fin cfg2.N) :
    (dat (Ix := Ix) (Name := Name) (U := U) (Lvl := Lvl) A O₀ Rb).after 10 t
      = (K (Ix := Ix) (Name := Name) (U := U) (Lvl := Lvl) A).1 := by
  dsimp only [dat]

/-- After the region the result's array, read through the window's one block, is what the one point flushed: the
    one write-back puts it there. -/
theorem read_arrAt_out :
    ((cfg2.win 10).blk t2_0).view.read (Elt F) ((dat (Ix := Ix) (Name := Name) (U := U) (Lvl := Lvl) A O₀ Rb).arrAt 10 cfg2.N)
      = (dat (Ix := Ix) (Name := Name) (U := U) (Lvl := Lvl) A O₀ Rb).flushed 10 t2_0 := by
  have h := (dat (Ix := Ix) (Name := Name) (U := U) (Lvl := Lvl) A O₀ Rb).arrAt_succ 10 t2_0
  rw [if_pos (flush2_10 t2_0)] at h
  rw [show cfg2.N = t2_0.val + 1 from N_2, h]
  exact View.read_write_univ _ _

/-- An input's array is never written. -/
theorem arrAt_in (w : Fin cfg2.W) (hw : (cfg2.win w).isOut = false) (n : Nat) :
    (dat (Ix := Ix) (Name := Name) (U := U) (Lvl := Lvl) A O₀ Rb).arrAt w n = A w :=
  (dat (Ix := Ix) (Name := Name) (U := U) (Lvl := Lvl) A O₀ Rb).arrAt_in w hw n

/-! ## Reading the blocks at an index

Every window is its whole array and the grid has one point, so a block's element at an index is the array's element
at the same index: the block's rectangle starts at zero on every axis with unit strides. -/

/-- What the one point flushed of the result's window is the run's witness. -/
theorem flushed10 :
    (dat (Ix := Ix) (Name := Name) (U := U) (Lvl := Lvl) A O₀ Rb).flushed 10 t2_0
      = (K (Ix := Ix) (Name := Name) (U := U) (Lvl := Lvl) A).1 := by
  show (cfg2.win 10).cut _ ((dat (Ix := Ix) (Name := Name) (U := U) (Lvl := Lvl) A O₀ Rb).after 10 t2_0) = _
  rw [after10]
  generalize (K (Ix := Ix) (Name := Name) (U := U) (Lvl := Lvl) A).1 = X
  rfl

/-- The result's block sits in its array index by index. -/
theorem emb10 (i : S16x325x1.Idx) : ((cfg2.win 10).blk t2_0).view.emb i = i := by
    funext a; apply Fin.ext
    rw [View.emb_slice, Function.Embedding.trans_apply, View.emb_whole, Function.Embedding.refl_apply, Rect.emb_apply]
    show 0 * _ + 1 * (i a).val = (i a).val
    omega

/-- After the region the result's array holds, at every index, the output block the body left. -/
theorem arrAt_out_apply (i : S16x325x1.Idx) :
    (dat (Ix := Ix) (Name := Name) (U := U) (Lvl := Lvl) A O₀ Rb).arrAt 10 cfg2.N i
      = (K (Ix := Ix) (Name := Name) (U := U) (Lvl := Lvl) A).1 i := by
  have h := congrFun (read_arrAt_out (Ix := Ix) (Name := Name) (U := U) (Lvl := Lvl) A O₀ Rb) i
  rw [View.read_apply, emb10, flushed10] at h
  exact h

/-- Each input's block sits in its array index by index, so the staged block at an index is the array there. -/
theorem emb0 (i : S16x325x40.Idx) : ((cfg2.win 0).blk t2_0).view.emb i = i := by
    funext a; apply Fin.ext
    rw [View.emb_slice, Function.Embedding.trans_apply, View.emb_whole, Function.Embedding.refl_apply, Rect.emb_apply]
    show 0 * _ + 1 * (i a).val = (i a).val
    omega
/-- Input block 0 at an index is its array there. -/
theorem blk0_apply (i : S16x325x40.Idx) : blk0 A i = A 0 i := by
  show ((cfg2.win 0).blk t2_0).view.read (Elt F) (A 0) i = _
  rw [View.read_apply, emb0]
  rfl
theorem emb1 (i : S10x4x325x325.Idx) : ((cfg2.win 1).blk t2_0).view.emb i = i := by
    funext a; apply Fin.ext
    rw [View.emb_slice, Function.Embedding.trans_apply, View.emb_whole, Function.Embedding.refl_apply, Rect.emb_apply]
    show 0 * _ + 1 * (i a).val = (i a).val
    omega
/-- Input block 1 at an index is its array there. -/
theorem blk1_apply (i : S10x4x325x325.Idx) : blk1 A i = A 1 i := by
  show ((cfg2.win 1).blk t2_0).view.read (Elt F) (A 1) i = _
  rw [View.read_apply, emb1]
  rfl
theorem emb2 (i : S4x160x64.Idx) : ((cfg2.win 2).blk t2_0).view.emb i = i := by
    funext a; apply Fin.ext
    rw [View.emb_slice, Function.Embedding.trans_apply, View.emb_whole, Function.Embedding.refl_apply, Rect.emb_apply]
    show 0 * _ + 1 * (i a).val = (i a).val
    omega
/-- Input block 2 at an index is its array there. -/
theorem blk2_apply (i : S4x160x64.Idx) : blk2 A i = A 2 i := by
  show ((cfg2.win 2).blk t2_0).view.read (Elt F) (A 2) i = _
  rw [View.read_apply, emb2]
  rfl
theorem emb3 (i : S9x4x64x64.Idx) : ((cfg2.win 3).blk t2_0).view.emb i = i := by
    funext a; apply Fin.ext
    rw [View.emb_slice, Function.Embedding.trans_apply, View.emb_whole, Function.Embedding.refl_apply, Rect.emb_apply]
    show 0 * _ + 1 * (i a).val = (i a).val
    omega
/-- Input block 3 at an index is its array there. -/
theorem blk3_apply (i : S9x4x64x64.Idx) : blk3 A i = A 3 i := by
  show ((cfg2.win 3).blk t2_0).view.read (Elt F) (A 3) i = _
  rw [View.read_apply, emb3]
  rfl
theorem emb4 (i : S10x64.Idx) : ((cfg2.win 4).blk t2_0).view.emb i = i := by
    funext a; apply Fin.ext
    rw [View.emb_slice, Function.Embedding.trans_apply, View.emb_whole, Function.Embedding.refl_apply, Rect.emb_apply]
    show 0 * _ + 1 * (i a).val = (i a).val
    omega
/-- Input block 4 at an index is its array there. -/
theorem blk4_apply (i : S10x64.Idx) : blk4 A i = A 4 i := by
  show ((cfg2.win 4).blk t2_0).view.read (Elt F) (A 4) i = _
  rw [View.read_apply, emb4]
  rfl
theorem emb5 (i : S10x64.Idx) : ((cfg2.win 5).blk t2_0).view.emb i = i := by
    funext a; apply Fin.ext
    rw [View.emb_slice, Function.Embedding.trans_apply, View.emb_whole, Function.Embedding.refl_apply, Rect.emb_apply]
    show 0 * _ + 1 * (i a).val = (i a).val
    omega
/-- Input block 5 at an index is its array there. -/
theorem blk5_apply (i : S10x64.Idx) : blk5 A i = A 5 i := by
  show ((cfg2.win 5).blk t2_0).view.read (Elt F) (A 5) i = _
  rw [View.read_apply, emb5]
  rfl
theorem emb6 (i : S64x512.Idx) : ((cfg2.win 6).blk t2_0).view.emb i = i := by
    funext a; apply Fin.ext
    rw [View.emb_slice, Function.Embedding.trans_apply, View.emb_whole, Function.Embedding.refl_apply, Rect.emb_apply]
    show 0 * _ + 1 * (i a).val = (i a).val
    omega
/-- Input block 6 at an index is its array there. -/
theorem blk6_apply (i : S64x512.Idx) : blk6 A i = A 6 i := by
  show ((cfg2.win 6).blk t2_0).view.read (Elt F) (A 6) i = _
  rw [View.read_apply, emb6]
  rfl
theorem emb7 (i : S512.Idx) : ((cfg2.win 7).blk t2_0).view.emb i = i := by
    funext a; apply Fin.ext
    rw [View.emb_slice, Function.Embedding.trans_apply, View.emb_whole, Function.Embedding.refl_apply, Rect.emb_apply]
    show 0 * _ + 1 * (i a).val = (i a).val
    omega
/-- Input block 7 at an index is its array there. -/
theorem blk7_apply (i : S512.Idx) : blk7 A i = A 7 i := by
  show ((cfg2.win 7).blk t2_0).view.read (Elt F) (A 7) i = _
  rw [View.read_apply, emb7]
  rfl
theorem emb8 (i : S512x1.Idx) : ((cfg2.win 8).blk t2_0).view.emb i = i := by
    funext a; apply Fin.ext
    rw [View.emb_slice, Function.Embedding.trans_apply, View.emb_whole, Function.Embedding.refl_apply, Rect.emb_apply]
    show 0 * _ + 1 * (i a).val = (i a).val
    omega
/-- Input block 8 at an index is its array there. -/
theorem blk8_apply (i : S512x1.Idx) : blk8 A i = A 8 i := by
  show ((cfg2.win 8).blk t2_0).view.read (Elt F) (A 8) i = _
  rw [View.read_apply, emb8]
  rfl
theorem emb9 (i : S1x1.Idx) : ((cfg2.win 9).blk t2_0).view.emb i = i := by
    funext a; apply Fin.ext
    rw [View.emb_slice, Function.Embedding.trans_apply, View.emb_whole, Function.Embedding.refl_apply, Rect.emb_apply]
    show 0 * _ + 1 * (i a).val = (i a).val
    omega
/-- Input block 9 at an index is its array there. -/
theorem blk9_apply (i : S1x1.Idx) : blk9 A i = A 9 i := by
  show ((cfg2.win 9).blk t2_0).view.read (Elt F) (A 9) i = _
  rw [View.read_apply, emb9]
  rfl

/-- The result's array after the region, at an index, as the output staging memref reads the run's witness there (the
    staging memref is a whole buffer: it reads its contents as they are). -/
theorem out_read (i : S16x325x1.Idx) :
    (dat (Ix := Ix) (Name := Name) (U := U) (Lvl := Lvl) A O₀ Rb).arrAt 10 cfg2.N i
      = (stage2_10 0).view.read (Elt F) (K (Ix := Ix) (Name := Name) (U := U) (Lvl := Lvl) A).1 i := by
  rw [arrAt_out_apply]
  generalize (K (Ix := Ix) (Name := Name) (U := U) (Lvl := Lvl) A).1 = X
  rfl

end Cert.Proof.K2Body

end
-- ==== Proof.K2ValLib.lean ====
/-
  Vector operations read at an index given by coordinates, at the extended reals: a plain matrix product into the zero
  splat, a batch slice, a stack of unit-thick blocks, a block repeated along an axis, the unit-axis casts and broadcasts
  of a per-feature vector, and the two one-axis sums of a batch normalisation.
-/
import Idealize.ShloMosaic.Lib.ValueIdx
import Idealize.ShloMosaic.Lib.ValueLayout
import Idealize.ShloMosaic.Lib.Pipeline.Value
import Idealize.ShloMosaic.PureOps.Ideal.Laws

open scoped BigOperators

namespace Cert.Proof.K2Val.Lib

open Idealize.ShloMosaic Idealize.ShloMosaic.ValueIdx

/-! ## A plain matrix product -/

section Mat
variable {M K N : Nat}

/-- The dimension numbers of M×K by K×N, whatever proof of well-formedness they carry. -/
abbrev plainDims (wf : DotDims.WF (⟨2, ![M, K]⟩ : Shape) ⟨2, ![K, N]⟩ ⟨2, ![M, N]⟩ [1] [0] [0] [1] [] []) :
    DotDims ⟨2, ![M, K]⟩ ⟨2, ![K, N]⟩ ⟨2, ![M, N]⟩ :=
  { lhsContracting := [1], rhsContracting := [0], lhsNonContracting := [0], rhsNonContracting := [1], lhsBatch := [], rhsBatch := [], wf := wf }

variable (wf : DotDims.WF (⟨2, ![M, K]⟩ : Shape) ⟨2, ![K, N]⟩ ⟨2, ![M, N]⟩ [1] [0] [0] [1] [] [])

theorem plain_rank : (plainDims wf).contr.rank = 1 := rfl
theorem plain_size : (plainDims wf).contr.size ⟨0, by rw [plain_rank]; exact Nat.one_pos⟩ = K := rfl

theorem plain_lhs_0 (j : (⟨2, ![M, N]⟩ : Shape).Idx) (k : (plainDims wf).contr.Idx) :
    ((plainDims wf).lhsIdx j k 0).val = (j 0).val := by
  unfold DotDims.lhsIdx
  rw [dif_neg (show ¬(0 : Fin (⟨2, ![M, K]⟩ : Shape).rank) ∈ (plainDims wf).lhsBatch from List.not_mem_nil),
    dif_pos (show (0 : Fin (⟨2, ![M, K]⟩ : Shape).rank) ∈ (plainDims wf).lhsNonContracting from List.mem_singleton.mpr rfl)]
  rfl

theorem plain_lhs_1 (j : (⟨2, ![M, N]⟩ : Shape).Idx) (k : (plainDims wf).contr.Idx) :
    ((plainDims wf).lhsIdx j k 1).val = (k ⟨0, by rw [plain_rank]; exact Nat.one_pos⟩).val :=
  (plainDims wf).lhsIdx_val_of_single rfl j k

theorem plain_rhs_0 (j : (⟨2, ![M, N]⟩ : Shape).Idx) (k : (plainDims wf).contr.Idx) :
    ((plainDims wf).rhsIdx j k 0).val = (k ⟨0, by rw [plain_rank]; exact Nat.one_pos⟩).val :=
  (plainDims wf).rhsIdx_val_of_single rfl j k

theorem plain_rhs_1 (j : (⟨2, ![M, N]⟩ : Shape).Idx) (k : (plainDims wf).contr.Idx) :
    ((plainDims wf).rhsIdx j k 1).val = (j 1).val := by
  unfold DotDims.rhsIdx
  rw [dif_neg (show ¬(1 : Fin (⟨2, ![K, N]⟩ : Shape).rank) ∈ (plainDims wf).rhsBatch from List.not_mem_nil),
    dif_pos (show (1 : Fin (⟨2, ![K, N]⟩ : Shape).rank) ∈ (plainDims wf).rhsNonContracting from List.mem_singleton.mpr rfl)]
  rfl

/-- A plain matrix product into the zero splat, at row m and column f: Σ_k lhs[m,k] · rhs[k,f]. -/
theorem matmul2_apply {φ₁ φ₂ : FTy} (prec : Option ContractPrecision) (lhs : FVec Ideal ⟨2, ![M, K]⟩ φ₁)
    (rhs : FVec Ideal ⟨2, ![K, N]⟩ φ₂) (m : Fin M) (f : Fin N) :
    FloatOps.matmul (plainDims wf) prec lhs rhs (constant ⟨2, ![M, N]⟩ .f32 0x00000000#32) (ix2 m f)
      = ∑ k : Fin K, lhs (ix2 m k) * rhs (ix2 k f) := by
  rw [Ideal.matmul_constant_zero_apply]
  rw [← Equiv.sum_comp (contrEquiv1 (plainDims wf) K (plain_rank wf) (plain_size wf)).symm]
  refine Finset.sum_congr rfl fun k _ => ?_
  have hk := contrEquiv1_symm_val (plainDims wf) K (plain_rank wf) (plain_size wf) k
  have e1 : (plainDims wf).lhsIdx (ix2 m f) ((contrEquiv1 (plainDims wf) K (plain_rank wf) (plain_size wf)).symm k) = ix2 m k :=
    funext fun a => Fin.ext (by
      match a with
      | ⟨0, _⟩ => exact plain_lhs_0 wf _ _
      | ⟨1, _⟩ => exact (plain_lhs_1 wf _ _).trans hk)
  have e2 : (plainDims wf).rhsIdx (ix2 m f) ((contrEquiv1 (plainDims wf) K (plain_rank wf) (plain_size wf)).symm k) = ix2 k f :=
    funext fun a => Fin.ext (by
      match a with
      | ⟨0, _⟩ => exact (plain_rhs_0 wf _ _).trans hk
      | ⟨1, _⟩ => exact plain_rhs_1 wf _ _)
  rw [e1, e2]

end Mat

/-! ## Layout -/

section Layout
variable {α : Type}

/-- A [1,1,a,b] block cast to [a,b] reads, at (i,j), the block at (0,0,i,j). -/
theorem shapeCast_11ab_ab_apply {a b : Nat} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a] vector cast to [1,1,a] reads, at (u,v,i), the vector at i. -/
theorem shapeCast_a_11a_apply {a : Nat} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp only [Nat.zero_mul, Nat.zero_add])

/-- A [1,1,c] vector broadcast to [a,b,c] reads, at (p,q,r), the vector at (0,0,r). -/
theorem broadcastTo_11c_abc_apply {a b c : Nat} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- A [1,1] scalar block broadcast to [a,1] reads the block's one element. -/
theorem broadcastTo_11_a1_apply {a : Nat} (v : (⟨2, ![1, 1]⟩ : Shape).Idx → α)
    (h : (⟨2, ![1, 1]⟩ : Shape).Broadcasts ⟨2, ![a, 1]⟩) (p : Fin a) (q : Fin 1) :
    broadcastTo ⟨2, ![a, 1]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- Batch o of an [n,a,b] array, as a [1,a,b] block, reads at (u,i,j) the array at (o,i,j). -/
theorem slice3_axis0_apply {n a b : Nat} (o : Nat) (X : (⟨3, ![n, a, b]⟩ : Shape).Idx → α)
    (h : (⟨3, ![n, a, b]⟩ : Shape).Slices ![o, 0, 0] ⟨3, ![1, a, b]⟩) (ho : o < n) (u : Fin 1) (i : Fin a) (j : Fin b) :
    extractStridedSlice ⟨3, ![1, a, b]⟩ ![o, 0, 0] X h (ix3 u i j) = X (ix3 ⟨o, ho⟩ i j) := by
  refine extractStridedSlice_apply _ X h _ _ fun ax => ?_
  have hu : u.val = 0 := by omega
  match ax with
  | ⟨0, _⟩ => show o = o + u.val; omega
  | ⟨1, _⟩ => show i.val = 0 + i.val; omega
  | ⟨2, _⟩ => show j.val = 0 + j.val; omega

end Layout

/-! ## Stacks and repeats -/

section Stack
variable {α : Type}

/-- Sixteen blocks of one shape, listed. -/
abbrev list16 (S : Shape) (ys : Fin 16 → (S.Idx → α)) : List ((s : Shape) × (s.Idx → α)) :=
  [⟨S, ys 0⟩, ⟨S, ys 1⟩, ⟨S, ys 2⟩, ⟨S, ys 3⟩, ⟨S, ys 4⟩, ⟨S, ys 5⟩, ⟨S, ys 6⟩, ⟨S, ys 7⟩, ⟨S, ys 8⟩, ⟨S, ys 9⟩, ⟨S, ys 10⟩, ⟨S, ys 11⟩, ⟨S, ys 12⟩, ⟨S, ys 13⟩, ⟨S, ys 14⟩, ⟨S, ys 15⟩]

theorem list16_eq_ofFn (S : Shape) (ys : Fin 16 → (S.Idx → α)) :
    list16 S ys = List.ofFn fun n : Fin 16 => (⟨S, ys n⟩ : (s : Shape) × (s.Idx → α)) := by
  simp only [list16, List.ofFn_succ, List.ofFn_zero]
  rfl

theorem stack16_apply_of_eq {a b : Nat} (ys : Fin 16 → ((⟨3, ![1, a, b]⟩ : Shape).Idx → α)) (xs : List ((s : Shape) × (s.Idx → α)))
    (hxs : xs = List.ofFn fun n : Fin 16 => (⟨⟨3, ![1, a, b]⟩, ys n⟩ : (s : Shape) × (s.Idx → α)))
    (h : Shape.Concatenates (xs.map (·.1)) ⟨3, ![16, a, b]⟩ 0) (n : Fin 16) (i : Fin a) (j : Fin b) :
    concatenate ⟨3, ![16, a, b]⟩ 0 xs h (ix3 n i j) = ys n (ix3 (0 : Fin 1) i j) := by
  subst hxs
  exact concatenate_ofFn_unit_apply 0 ys h rfl rfl (ix3 n i j) n rfl (ix3 (0 : Fin 1) i j) (fun ax hax => by
    match ax with
    | ⟨0, _⟩ => exact absurd rfl hax
    | ⟨1, _⟩ => rfl
    | ⟨2, _⟩ => rfl)

/-- Sixteen unit-thick [1,a,b] blocks stacked along the first axis read, at (n,i,j), block n at (0,i,j). -/
theorem stack16_apply {a b : Nat} (ys : Fin 16 → ((⟨3, ![1, a, b]⟩ : Shape).Idx → α))
    (h : Shape.Concatenates ((list16 ⟨3, ![1, a, b]⟩ ys).map (·.1)) ⟨3, ![16, a, b]⟩ 0) (n : Fin 16) (i : Fin a) (j : Fin b) :
    concatenate ⟨3, ![16, a, b]⟩ 0 (list16 ⟨3, ![1, a, b]⟩ ys) h (ix3 n i j) = ys n (ix3 (0 : Fin 1) i j) :=
  stack16_apply_of_eq ys _ (list16_eq_ofFn _ ys) h n i j

/-- Copies of an [a,b,c] array laid side by side along the last axis read, at (p,q,r), the array at (p,q,r mod c). -/
theorem repeat_apply {a b c d : Nat} (N : Nat) (x : (⟨3, ![a, b, c]⟩ : Shape).Idx → α) (hc : 0 < c)
    (h : Shape.Concatenates ((List.replicate N (⟨⟨3, ![a, b, c]⟩, x⟩ : (s : Shape) × (s.Idx → α))).map (·.1)) ⟨3, ![a, b, d]⟩ 2)
    (p : Fin a) (q : Fin b) (r : Fin d) :
    concatenate ⟨3, ![a, b, d]⟩ 2 (List.replicate N (⟨⟨3, ![a, b, c]⟩, x⟩ : (s : Shape) × (s.Idx → α))) h (ix3 p q r)
      = x (ix3 p q ⟨r.val % c, Nat.mod_lt _ hc⟩) :=
  concatenate_replicate_apply 2 N x h rfl (ix3 p q r) (ix3 p q ⟨r.val % c, Nat.mod_lt _ hc⟩) rfl (fun ax hax => by
    match ax with
    | ⟨0, _⟩ => rfl
    | ⟨1, _⟩ => rfl
    | ⟨2, _⟩ => exact absurd rfl hax)

end Stack

/-! ## The two sums of a batch normalisation -/

/-- The sum over the node axis of a [B,M,C] array, at (b,f). -/
theorem sum_axis1_apply {B M C : Nat} (src : FVec Ideal ⟨3, ![B, M, C]⟩ .f32)
    (h : (⟨3, ![B, M, C]⟩ : Shape).Reduces [1] ⟨2, ![B, C]⟩) (hφ : FKind.Formats .f32)
    (hacc : (0x00000000#32 : BitVec 32) = FKind.add.neutral .f32 hφ) (b : Fin B) (f : Fin C) :
    multiReduction .add [1] ⟨2, ![B, C]⟩ src 0x00000000#32 h hφ hacc (ix2 b f) = ∑ m : Fin M, src (ix3 b m f) := by
  refine (Ideal.multiReduction_add_single src 0x00000000#32 h hφ hacc (ix2 b f)).trans ?_
  refine Finset.sum_congr rfl fun m _ => congrArg src (funext fun ax => Fin.ext ?_)
  match ax with
  | ⟨0, _⟩ => rfl
  | ⟨1, _⟩ => rfl
  | ⟨2, _⟩ => rfl

/-- The sum over the batch axis of a [B,C] array, at f. -/
theorem sum_axis0_apply {B C : Nat} (src : FVec Ideal ⟨2, ![B, C]⟩ .f32)
    (h : (⟨2, ![B, C]⟩ : Shape).Reduces [0] ⟨1, ![C]⟩) (hφ : FKind.Formats .f32)
    (hacc : (0x00000000#32 : BitVec 32) = FKind.add.neutral .f32 hφ) (f : Fin C) :
    multiReduction .add [0] ⟨1, ![C]⟩ src 0x00000000#32 h hφ hacc (ix1 f) = ∑ b : Fin B, src (ix2 b f) := by
  refine (Ideal.multiReduction_add_single src 0x00000000#32 h hφ hacc (ix1 f)).trans ?_
  refine Finset.sum_congr rfl fun b _ => congrArg src (funext fun ax => Fin.ext ?_)
  match ax with
  | ⟨0, _⟩ => rfl
  | ⟨1, _⟩ => rfl

end Cert.Proof.K2Val.Lib
-- ==== Proof.K2ValOps.lean ====
/-
  The second TensorCore region's arithmetic, arranged by its mathematics: one product pair L·x·W, one batch's sum of
  four pairs, a batch slice, the stack of sixteen batches, one batch normalisation with its rectifier, the dense head.
  Every definition is the printed vector operations in the printed order, at any float instance.
-/
import proofs.«211384_g36696200577170_cont_8to1_b_1111_23_alg».proof.Proof.Gen.KernelIdeal
import proofs.«211384_g36696200577170_cont_8to1_b_1111_23_alg».proof.Proof.K2ValLib

noncomputable section

namespace Cert.Proof.K2Val

open Idealize.ShloMosaic Cert.KernelIdeal Cert.KernelIdeal.Gen

variable {F : FTy → Type} [FloatOps F]

/-- The input features repeated four times along the feature axis. -/
def cat4 (x0 : Vec F S16x325x40 .f32) : FVec F S16x325x160 .f32 :=
  concatenate S16x325x160 2 (List.replicate 4 ⟨S16x325x40, shapeCast S16x325x40 x0 shapeCasts_S16x325x40_S16x325x40⟩) concatenates_S16x325x40_S16x325x40_S16x325x40_S16x325x40_S16x325x160_d2

/-- Batch o of the 160-feature state. -/
def slice160 (o : Nat) (x : FVec F S16x325x160 .f32) (h : S16x325x160.Slices ![o, 0, 0] S1x325x160) : FVec F S325x160 .f32 :=
  shapeCast S325x160 (extractStridedSlice S1x325x160 ![o, 0, 0] x h) shapeCasts_S1x325x160_S325x160

/-- Batch o of the 64-feature state. -/
def slice64 (o : Nat) (x : FVec F S16x325x64 .f32) (h : S16x325x64.Slices ![o, 0, 0] S1x325x64) : FVec F S325x64 .f32 :=
  shapeCast S325x64 (extractStridedSlice S1x325x64 ![o, 0, 0] x h) shapeCasts_S1x325x64_S325x64

/-- (L · x) · W for the first layer (160 input features). -/
def pair0 (L : Vec F S1x1x325x325 .f32) (x : FVec F S325x160 .f32) (W : Vec F S1x160x64 .f32) : FVec F S325x64 .f32 :=
  matmul dot_S325x160_S160x64_S325x64_1_0_0_1_n_n none
    (truncf .bf16 (matmul dot_S325x325_S325x160_S325x160_1_0_0_1_n_n none (truncf .bf16 (shapeCast S325x325 L shapeCasts_S1x1x325x325_S325x325) bitsLt_bf16_f32) (truncf .bf16 x bitsLt_bf16_f32) (constant S325x160 .f32 0x00000000#32)) bitsLt_bf16_f32)
    (truncf .bf16 (shapeCast S160x64 W shapeCasts_S1x160x64_S160x64) bitsLt_bf16_f32)
    (constant S325x64 .f32 0x00000000#32)

/-- (L · x) · W for the later layers (64 input features). -/
def pairR (L : Vec F S1x1x325x325 .f32) (x : FVec F S325x64 .f32) (W : Vec F S1x1x64x64 .f32) : FVec F S325x64 .f32 :=
  matmul dot_S325x64_S64x64_S325x64_1_0_0_1_n_n none
    (truncf .bf16 (matmul dot_S325x325_S325x64_S325x64_1_0_0_1_n_n none (truncf .bf16 (shapeCast S325x325 L shapeCasts_S1x1x325x325_S325x325) bitsLt_bf16_f32) (truncf .bf16 x bitsLt_bf16_f32) (constant S325x64 .f32 0x00000000#32)) bitsLt_bf16_f32)
    (truncf .bf16 (shapeCast S64x64 W shapeCasts_S1x1x64x64_S64x64) bitsLt_bf16_f32)
    (constant S325x64 .f32 0x00000000#32)

/-- One batch of the first layer: the four pairs summed left to right. -/
def yb0 (x : FVec F S325x160 .f32) (L : Fin 4 → Vec F S1x1x325x325 .f32) (W : Fin 4 → Vec F S1x160x64 .f32) : FVec F S325x64 .f32 :=
  addf (addf (addf (pair0 (L 0) x (W 0)) (pair0 (L 1) x (W 1))) (pair0 (L 2) x (W 2))) (pair0 (L 3) x (W 3))

/-- One batch of a later layer. -/
def ybR (x : FVec F S325x64 .f32) (L : Fin 4 → Vec F S1x1x325x325 .f32) (W : Fin 4 → Vec F S1x1x64x64 .f32) : FVec F S325x64 .f32 :=
  addf (addf (addf (pairR (L 0) x (W 0)) (pairR (L 1) x (W 1))) (pairR (L 2) x (W 2))) (pairR (L 3) x (W 3))

/-- One batch's block with a leading unit axis. -/
def up64 (y : FVec F S325x64 .f32) : FVec F S1x325x64 .f32 := shapeCast S1x325x64 y shapeCasts_S325x64_S1x325x64

/-- Sixteen unit-thick blocks stacked along the batch axis. -/
def stack64 (ys : Fin 16 → FVec F S1x325x64 .f32) : FVec F S16x325x64 .f32 :=
  concatenate S16x325x64 0 (Lib.list16 S1x325x64 ys) concatenates_S1x325x64_S1x325x64_S1x325x64_S1x325x64_S1x325x64_S1x325x64_S1x325x64_S1x325x64_S1x325x64_S1x325x64_S1x325x64_S1x325x64_S1x325x64_S1x325x64_S1x325x64_S1x325x64_S16x325x64_d0

/-- The first layer's linear part on all sixteen batches. -/
def lin0 (x : FVec F S16x325x160 .f32) (L : Fin 4 → Vec F S1x1x325x325 .f32) (W : Fin 4 → Vec F S1x160x64 .f32) : FVec F S16x325x64 .f32 :=
  stack64 fun b => up64 (yb0 (slice160 b.val x (by revert b; decide)) L W)

/-- A later layer's linear part on all sixteen batches. -/
def linR (x : FVec F S16x325x64 .f32) (L : Fin 4 → Vec F S1x1x325x325 .f32) (W : Fin 4 → Vec F S1x1x64x64 .f32) : FVec F S16x325x64 .f32 :=
  stack64 fun b => up64 (ybR (slice64 b.val x (by revert b; decide)) L W)

/-- The mean over nodes, then over the batch, of each feature. -/
def mean64 (y : FVec F S16x325x64 .f32) : FVec F S64 .f32 :=
  divf (multiReduction .add [0] S64 (divf (multiReduction .add [1] S16x64 y 0x00000000#32 reduces_S16x325x64_S16x64 (.inl rfl) rfl) (broadcast S16x64 (Scalar.ofBits .f32 0x43A28000#32))) 0x00000000#32 reduces_S16x64_S64 (.inl rfl) rfl) (broadcast S64 (Scalar.ofBits .f32 0x41800000#32))

/-- A per-feature vector spread over batches and nodes. -/
def spread (v : FVec F S64 .f32) : FVec F S16x325x64 .f32 :=
  broadcastTo S16x325x64 (shapeCast S1x1x64 v shapeCasts_S64_S1x1x64) broadcasts_S1x1x64_S16x325x64

/-- Batch normalisation over the batch and node axes (means in two steps), scale, shift, rectifier. -/
def bn (y : FVec F S16x325x64 .f32) (g be : Vec F S1x64 .f32) : FVec F S16x325x64 .f32 :=
  maximumf (addf (mulf (subf y (spread (mean64 y)))
        (spread (divf (shapeCast S64 g shapeCasts_S1x64_S64) (sqrt (addf (mean64 (mulf (subf y (spread (mean64 y))) (subf y (spread (mean64 y))))) (broadcast S64 (Scalar.ofBits .f32 0x3727C5AC#32)))))))
      (spread (shapeCast S64 be shapeCasts_S1x64_S64)))
    (broadcast S16x325x64 (Scalar.ofBits .f32 0x00000000#32))

/-- The dense head on one batch. -/
def dense1 (x : FVec F S325x64 .f32) (f1w : Vec F S64x512 .f32) (f1b : Vec F S512 .f32) (f2w : Vec F S512x1 .f32) (f2b : Vec F S1x1 .f32) : FVec F S325x1 .f32 :=
  addf (matmul dot_S325x512_S512x1_S325x1_1_0_0_1_n_n none
      (truncf .bf16 (maximumf (addf (matmul dot_S325x64_S64x512_S325x512_1_0_0_1_n_n none (truncf .bf16 x bitsLt_bf16_f32) (truncf .bf16 f1w bitsLt_bf16_f32) (constant S325x512 .f32 0x00000000#32)) (broadcastTo S325x512 (shapeCast S1x512 f1b shapeCasts_S512_S1x512) broadcasts_S1x512_S325x512)) (broadcast S325x512 (Scalar.ofBits .f32 0x00000000#32))) bitsLt_bf16_f32)
      (truncf .bf16 f2w bitsLt_bf16_f32) (constant S325x1 .f32 0x00000000#32))
    (broadcastTo S325x1 (shapeCast S1x1 (shapeCast S1 f2b shapeCasts_S1x1_S1) shapeCasts_S1_S1x1) broadcasts_S1x1_S325x1)

/-- Sixteen unit-thick output blocks stacked along the batch axis. -/
def stack1 (ys : Fin 16 → FVec F S1x325x1 .f32) : FVec F S16x325x1 .f32 :=
  concatenate S16x325x1 0 (Lib.list16 S1x325x1 ys) concatenates_S1x325x1_S1x325x1_S1x325x1_S1x325x1_S1x325x1_S1x325x1_S1x325x1_S1x325x1_S1x325x1_S1x325x1_S1x325x1_S1x325x1_S1x325x1_S1x325x1_S1x325x1_S1x325x1_S16x325x1_d0

/-- The dense head on all sixteen batches. -/
def dense (x : FVec F S16x325x64 .f32) (f1w : Vec F S64x512 .f32) (f1b : Vec F S512 .f32) (f2w : Vec F S512x1 .f32) (f2b : Vec F S1x1 .f32) : FVec F S16x325x1 .f32 :=
  stack1 fun b => shapeCast S1x325x1 (dense1 (slice64 b.val x (by revert b; decide)) f1w f1b f2w f2b) shapeCasts_S325x1_S1x325x1

/-- The state after layer i. -/
def state (x0 : Vec F S16x325x40 .f32) (lsAt : Fin 10 → Fin 4 → Vec F S1x1x325x325 .f32) (w0At : Fin 4 → Vec F S1x160x64 .f32)
    (wrAt : Fin 9 → Fin 4 → Vec F S1x1x64x64 .f32) (gAt bAt : Fin 10 → Vec F S1x64 .f32) : (i : Nat) → i < 10 → FVec F S16x325x64 .f32
  | 0, h => bn (lin0 (cat4 x0) (lsAt ⟨0, h⟩) w0At) (gAt ⟨0, h⟩) (bAt ⟨0, h⟩)
  | i + 1, h => bn (linR (state x0 lsAt w0At wrAt gAt bAt i (by omega)) (lsAt ⟨i + 1, h⟩) (wrAt ⟨i, by omega⟩)) (gAt ⟨i + 1, h⟩) (bAt ⟨i + 1, h⟩)

/-- The whole region's arithmetic. -/
def composed (x0 : Vec F S16x325x40 .f32) (lsAt : Fin 10 → Fin 4 → Vec F S1x1x325x325 .f32) (w0At : Fin 4 → Vec F S1x160x64 .f32)
    (wrAt : Fin 9 → Fin 4 → Vec F S1x1x64x64 .f32) (gAt bAt : Fin 10 → Vec F S1x64 .f32) (f1w : Vec F S64x512 .f32) (f1b : Vec F S512 .f32)
    (f2w : Vec F S512x1 .f32) (f2b : Vec F S1x1 .f32) : FVec F S16x325x1 .f32 :=
  dense (state x0 lsAt w0At wrAt gAt bAt 9 (by decide)) f1w f1b f2w f2b

end Cert.Proof.K2Val
-- ==== Proof.K2ValChain.lean ====
import proofs.«211384_g36696200577170_cont_8to1_b_1111_23_alg».proof.Proof.Gen.KernelIdeal.Skeleton
import proofs.«211384_g36696200577170_cont_8to1_b_1111_23_alg».proof.Proof.K2ValOps

set_option maxRecDepth 65536

noncomputable section

namespace Cert.Proof.K2Val

open Idealize.ShloMosaic Cert.KernelIdeal Cert.KernelIdeal.Gen

/-- The blocks the region loads: the input features, the forty graph operators, the first layer's four weights, the later layers' thirty-six, the ten scales and shifts, and the dense head's four. -/
structure Fam (F : FTy → Type) where
  x0 : Vec F S16x325x40 .f32
  lsAt : Fin 10 → Fin 4 → Vec F S1x1x325x325 .f32
  w0At : Fin 4 → Vec F S1x160x64 .f32
  wrAt : Fin 9 → Fin 4 → Vec F S1x1x64x64 .f32
  gAt : Fin 10 → Vec F S1x64 .f32
  bAt : Fin 10 → Vec F S1x64 .f32
  f1w : Vec F S64x512 .f32
  f1b : Vec F S512 .f32
  f2w : Vec F S512x1 .f32
  f2b : Vec F S1x1 .f32

variable {F : FTy → Type} [FloatOps F]

/-! ## The payload applications along the dataflow -/

def pv3 (a : Fam F) : FVec F S16x325x160 .f32 := k2_pay3 a.x0
def pv4 (a : Fam F) : FVec F S325x160 .f32 := k2_pay4 a.x0
def pv5 (a : Fam F) : FVec F S325x64 .f32 := k2_pay5 a.x0 (a.lsAt 0 0) (a.w0At 0) (a.lsAt 0 1) (a.w0At 1)
def pv6 (a : Fam F) : FVec F S325x160 .f32 := k2_pay6 a.x0 (a.lsAt 0 2)
def pv7 (a : Fam F) : FVec F S325x64 .f32 := k2_pay7 (pv4 a) (pv5 a) (pv6 a) (a.w0At 2) (a.lsAt 0 3) (a.w0At 3)
def pv8 (a : Fam F) : FVec F S325x160 .f32 := k2_pay8 (pv3 a)
def pv9 (a : Fam F) : FVec F S325x64 .f32 := k2_pay9 (pv3 a) (a.lsAt 0 0) (a.w0At 0)
def pv10 (a : Fam F) : FVec F S325x160 .f32 := k2_pay10 (pv3 a) (a.lsAt 0 1)
def pv11 (a : Fam F) : FVec F S325x64 .f32 := k2_pay11 (pv8 a) (pv9 a) (pv10 a) (a.w0At 1) (a.lsAt 0 2) (a.w0At 2) (a.lsAt 0 3) (a.w0At 3)
def pv12 (a : Fam F) : FVec F S325x160 .f32 := k2_pay12 (pv3 a)
def pv13 (a : Fam F) : FVec F S325x160 .f32 := k2_pay13 (pv3 a) (a.lsAt 0 0)
def pv14 (a : Fam F) : FVec F S325x64 .f32 := k2_pay14 (pv12 a) (pv13 a) (a.w0At 0) (a.lsAt 0 1) (a.w0At 1) (a.lsAt 0 2) (a.w0At 2)
def pv15 (a : Fam F) : FVec F S325x160 .f32 := k2_pay15 (pv12 a) (a.lsAt 0 3)
def pv16 (a : Fam F) : FVec F S325x64 .f32 := k2_pay16 (pv14 a) (pv15 a) (a.w0At 3)
def pv17 (a : Fam F) : FVec F S325x160 .f32 := k2_pay17 (pv3 a)
def pv18 (a : Fam F) : FVec F S325x64 .f32 := k2_pay18 (pv3 a) (a.lsAt 0 0) (a.w0At 0) (a.lsAt 0 1) (a.w0At 1)
def pv19 (a : Fam F) : FVec F S325x160 .f32 := k2_pay19 (pv3 a) (a.lsAt 0 2)
def pv20 (a : Fam F) : FVec F S325x64 .f32 := k2_pay20 (pv17 a) (pv18 a) (pv19 a) (a.w0At 2) (a.lsAt 0 3) (a.w0At 3)
def pv21 (a : Fam F) : FVec F S325x160 .f32 := k2_pay21 (pv3 a)
def pv22 (a : Fam F) : FVec F S325x64 .f32 := k2_pay22 (pv3 a) (a.lsAt 0 0) (a.w0At 0)
def pv23 (a : Fam F) : FVec F S325x325 .bf16 := k2_pay23 (a.lsAt 0 1)
def pv24 (a : Fam F) : FVec F S325x160 .bf16 := k2_pay24 (pv3 a)
def pv25 (a : Fam F) : FVec F S325x64 .f32 := k2_pay25 (pv21 a) (pv22 a) (pv23 a) (pv24 a) (constant S325x160 .f32 0x00000000#32) (a.w0At 1) (a.lsAt 0 2) (a.w0At 2) (a.lsAt 0 3) (a.w0At 3)
def pv26 (a : Fam F) : FVec F S325x160 .f32 := k2_pay26 (pv3 a)
def pv27 (a : Fam F) : FVec F S325x325 .bf16 := k2_pay27 (a.lsAt 0 0)
def pv28 (a : Fam F) : FVec F S325x64 .f32 := k2_pay28 (pv26 a) (pv27 a) (a.w0At 0) (a.lsAt 0 1) (a.w0At 1) (a.lsAt 0 2) (a.w0At 2)
def pv29 (a : Fam F) : FVec F S325x325 .bf16 := k2_pay29 (a.lsAt 0 3)
def pv30 (a : Fam F) : FVec F S325x160 .bf16 := k2_pay30 (pv26 a)
def pv31 (a : Fam F) : FVec F S325x64 .f32 := k2_pay31 (pv28 a) (pv29 a) (pv30 a) (a.w0At 3)
def pv32 (a : Fam F) : FVec F S325x160 .f32 := k2_pay32 (pv3 a)
def pv33 (a : Fam F) : FVec F S325x64 .f32 := k2_pay33 (pv3 a) (a.lsAt 0 0) (a.w0At 0) (a.lsAt 0 1) (a.w0At 1)
def pv34 (a : Fam F) : FVec F S325x325 .bf16 := k2_pay34 (a.lsAt 0 2)
def pv35 (a : Fam F) : FVec F S325x64 .f32 := k2_pay35 (pv32 a) (pv33 a) (pv34 a) (a.w0At 2) (a.lsAt 0 3) (a.w0At 3)
def pv36 (a : Fam F) : FVec F S325x160 .f32 := k2_pay36 (pv3 a)
def pv37 (a : Fam F) : FVec F S325x64 .f32 := k2_pay37 (pv3 a) (a.lsAt 0 0) (a.w0At 0)
def pv38 (a : Fam F) : FVec F S325x325 .f32 := k2_pay38 (a.lsAt 0 1)
def pv39 (a : Fam F) : FVec F S325x64 .f32 := k2_pay39 (pv36 a) (pv37 a) (pv38 a) (a.w0At 1) (a.lsAt 0 2) (a.w0At 2) (a.lsAt 0 3) (a.w0At 3)
def pv40 (a : Fam F) : FVec F S325x160 .f32 := k2_pay40 (pv3 a)
def pv41 (a : Fam F) : FVec F S325x64 .f32 := k2_pay41 (pv40 a) (a.lsAt 0 0) (a.w0At 0) (a.lsAt 0 1) (a.w0At 1) (a.lsAt 0 2) (a.w0At 2)
def pv42 (a : Fam F) : FVec F S325x64 .f32 := k2_pay42 (pv40 a) (pv41 a) (a.lsAt 0 3) (a.w0At 3)
def pv43 (a : Fam F) : FVec F S325x160 .f32 := k2_pay43 (pv3 a)
def pv44 (a : Fam F) : FVec F S325x64 .f32 := k2_pay44 (pv3 a) (a.lsAt 0 0) (a.w0At 0) (a.lsAt 0 1) (a.w0At 1)
def pv45 (a : Fam F) : FVec F S325x64 .f32 := k2_pay45 (pv43 a) (pv44 a) (a.lsAt 0 2) (a.w0At 2) (a.lsAt 0 3) (a.w0At 3)
def pv46 (a : Fam F) : FVec F S325x160 .f32 := k2_pay46 (pv3 a)
def pv47 (a : Fam F) : FVec F S325x64 .f32 := k2_pay47 (pv3 a) (a.lsAt 0 0) (a.w0At 0)
def pv48 (a : Fam F) : FVec F S325x64 .f32 := k2_pay48 (pv46 a) (pv47 a) (a.lsAt 0 1) (a.w0At 1) (a.lsAt 0 2) (a.w0At 2) (a.lsAt 0 3) (a.w0At 3)
def pv49 (a : Fam F) : FVec F S325x160 .f32 := k2_pay49 (pv3 a)
def pv50 (a : Fam F) : FVec F S325x64 .f32 := k2_pay50 (pv49 a) (a.lsAt 0 0) (a.w0At 0) (a.lsAt 0 1) (a.w0At 1) (a.lsAt 0 2) (a.w0At 2)
def pv51 (a : Fam F) : FVec F S325x64 .f32 := k2_pay51 (pv49 a) (pv50 a) (a.lsAt 0 3) (a.w0At 3)
def pv52 (a : Fam F) : FVec F S325x160 .f32 := k2_pay52 (pv3 a)
def pv53 (a : Fam F) : FVec F S325x64 .f32 := k2_pay53 (pv3 a) (a.lsAt 0 0) (a.w0At 0) (a.lsAt 0 1) (a.w0At 1)
def pv54 (a : Fam F) : FVec F S325x64 .f32 := k2_pay54 (pv52 a) (pv53 a) (a.lsAt 0 2) (a.w0At 2) (a.lsAt 0 3) (a.w0At 3)
def pv55 (a : Fam F) : FVec F S325x160 .f32 := k2_pay55 (pv3 a)
def pv56 (a : Fam F) : FVec F S325x64 .f32 := k2_pay56 (pv3 a) (a.lsAt 0 0) (a.w0At 0)
def pv57 (a : Fam F) : FVec F S325x64 .f32 := k2_pay57 (pv55 a) (pv56 a) (a.lsAt 0 1) (a.w0At 1) (a.lsAt 0 2) (a.w0At 2) (a.lsAt 0 3) (a.w0At 3)
def pv58 (a : Fam F) : FVec F S325x160 .f32 := k2_pay58 (pv3 a)
def pv59 (a : Fam F) : FVec F S325x64 .f32 := k2_pay59 (pv3 a) (a.lsAt 0 0) (a.w0At 0) (a.lsAt 0 1) (a.w0At 1)
def pv60 (a : Fam F) : FVec F S325x64 .f32 := k2_pay60 (pv3 a) (a.lsAt 0 2) (a.w0At 2)
def pv61 (a : Fam F) : FVec F S325x64 .f32 := k2_pay61 (pv58 a) (pv59 a) (pv60 a) (a.lsAt 0 3) (a.w0At 3)
def pv62 (a : Fam F) : FVec F S325x160 .f32 := k2_pay62 (pv3 a)
def pv63 (a : Fam F) : FVec F S325x64 .f32 := k2_pay63 (pv3 a) (a.lsAt 0 0) (a.w0At 0)
def pv64 (a : Fam F) : FVec F S325x160 .bf16 := k2_pay64 (pv3 a) (a.lsAt 0 1)
def pv65 (a : Fam F) : FVec F S160x64 .bf16 := k2_pay65 (a.w0At 1)
def pv66 (a : Fam F) : FVec F S16x325x64 .f32 := k2_pay66 (pv7 a) (pv11 a) (pv16 a) (pv20 a) (pv25 a) (pv31 a) (pv35 a) (pv39 a) (pv42 a) (pv45 a) (pv48 a) (pv51 a) (pv54 a) (pv57 a) (pv61 a) (pv62 a) (pv63 a) (pv64 a) (pv65 a) (constant S325x64 .f32 0x00000000#32) (a.lsAt 0 2) (a.w0At 2) (a.lsAt 0 3) (a.w0At 3)
def pv67 (a : Fam F) : FVec F S16x325x64 .f32 := k2_pay67 (pv66 a) (a.gAt 0) (a.bAt 0)
def pv68 (a : Fam F) : FVec F S325x64 .f32 := k2_pay68 (pv66 a) (a.gAt 0) (a.bAt 0)
def pv69 (a : Fam F) : FVec F S325x64 .f32 := k2_pay69 (pv66 a) (a.gAt 0) (a.bAt 0) (a.lsAt 1 0)
def pv70 (a : Fam F) : FVec F S325x64 .f32 := k2_pay70 (pv68 a) (pv69 a) (a.wrAt 0 0) (a.lsAt 1 1) (a.wrAt 0 1) (a.lsAt 1 2) (a.wrAt 0 2)
def pv71 (a : Fam F) : FVec F S325x64 .f32 := k2_pay71 (pv68 a) (a.lsAt 1 3)
def pv72 (a : Fam F) : FVec F S325x64 .f32 := k2_pay72 (pv70 a) (pv71 a) (a.wrAt 0 3)
def pv73 (a : Fam F) : FVec F S325x64 .f32 := k2_pay73 (pv67 a)
def pv74 (a : Fam F) : FVec F S325x64 .f32 := k2_pay74 (pv67 a) (a.lsAt 1 0) (a.wrAt 0 0) (a.lsAt 1 1) (a.wrAt 0 1)
def pv75 (a : Fam F) : FVec F S325x325 .bf16 := k2_pay75 (a.lsAt 1 2)
def pv76 (a : Fam F) : FVec F S325x64 .f32 := k2_pay76 (pv73 a) (pv74 a) (pv75 a) (a.wrAt 0 2) (a.lsAt 1 3) (a.wrAt 0 3)
def pv77 (a : Fam F) : FVec F S325x64 .f32 := k2_pay77 (pv67 a)
def pv78 (a : Fam F) : FVec F S325x64 .f32 := k2_pay78 (pv67 a) (a.lsAt 1 0) (a.wrAt 0 0)
def pv79 (a : Fam F) : FVec F S325x64 .f32 := k2_pay79 (pv77 a) (pv78 a) (a.lsAt 1 1) (a.wrAt 0 1) (a.lsAt 1 2) (a.wrAt 0 2) (a.lsAt 1 3) (a.wrAt 0 3)
def pv80 (a : Fam F) : FVec F S325x64 .f32 := k2_pay80 (pv67 a)
def pv81 (a : Fam F) : FVec F S325x64 .f32 := k2_pay81 (pv67 a) (a.lsAt 1 0) (a.wrAt 0 0) (a.lsAt 1 1) (a.wrAt 0 1)
def pv82 (a : Fam F) : FVec F S64x64 .f32 := k2_pay82 (a.wrAt 0 2)
def pv83 (a : Fam F) : FVec F S325x64 .bf16 := k2_pay83 (pv67 a) (a.lsAt 1 2)
def pv84 (a : Fam F) : FVec F S325x64 .f32 := k2_pay84 (pv80 a) (pv81 a) (pv82 a) (pv83 a) (a.lsAt 1 3) (a.wrAt 0 3)
def pv85 (a : Fam F) : FVec F S325x64 .f32 := k2_pay85 (pv67 a)
def pv86 (a : Fam F) : FVec F S325x64 .f32 := k2_pay86 (pv67 a) (a.lsAt 1 0) (a.wrAt 0 0)
def pv87 (a : Fam F) : FVec F S325x64 .f32 := k2_pay87 (pv67 a) (a.lsAt 1 1)
def pv88 (a : Fam F) : FVec F S325x64 .f32 := k2_pay88 (pv85 a) (pv86 a) (pv87 a) (a.wrAt 0 1) (a.lsAt 1 2) (a.wrAt 0 2) (a.lsAt 1 3) (a.wrAt 0 3)
def pv89 (a : Fam F) : FVec F S325x64 .f32 := k2_pay89 (pv67 a)
def pv90 (a : Fam F) : FVec F S325x325 .bf16 := k2_pay90 (a.lsAt 1 0)
def pv91 (a : Fam F) : FVec F S325x64 .bf16 := k2_pay91 (pv67 a)
def pv92 (a : Fam F) : FVec F S325x64 .f32 := k2_pay92 (pv89 a) (pv90 a) (pv91 a) (a.wrAt 0 0) (a.lsAt 1 1) (a.wrAt 0 1) (a.lsAt 1 2) (a.wrAt 0 2)
def pv93 (a : Fam F) : FVec F S325x325 .f32 := k2_pay93 (a.lsAt 1 3)
def pv94 (a : Fam F) : FVec F S325x64 .f32 := k2_pay94 (pv89 a) (pv92 a) (pv93 a) (a.wrAt 0 3)
def pv95 (a : Fam F) : FVec F S325x64 .f32 := k2_pay95 (pv67 a)
def pv96 (a : Fam F) : FVec F S325x64 .f32 := k2_pay96 (pv67 a) (a.lsAt 1 0) (a.wrAt 0 0) (a.lsAt 1 1) (a.wrAt 0 1)
def pv97 (a : Fam F) : FVec F S325x64 .f32 := k2_pay97 (pv95 a) (pv96 a) (a.lsAt 1 2) (a.wrAt 0 2) (a.lsAt 1 3) (a.wrAt 0 3)
def pv98 (a : Fam F) : FVec F S325x64 .f32 := k2_pay98 (pv67 a)
def pv99 (a : Fam F) : FVec F S325x64 .bf16 := k2_pay99 (pv67 a) (a.lsAt 1 0)
def pv100 (a : Fam F) : FVec F S64x64 .bf16 := k2_pay100 (a.wrAt 0 0)
def pv101 (a : Fam F) : FVec F S325x64 .f32 := k2_pay101 (pv98 a) (pv99 a) (pv100 a) (a.lsAt 1 1) (a.wrAt 0 1) (a.lsAt 1 2) (a.wrAt 0 2)
def pv102 (a : Fam F) : FVec F S325x64 .f32 := k2_pay102 (pv98 a) (a.lsAt 1 3)
def pv103 (a : Fam F) : FVec F S64x64 .f32 := k2_pay103 (a.wrAt 0 3)
def pv104 (a : Fam F) : FVec F S325x64 .f32 := k2_pay104 (pv101 a) (pv102 a) (pv103 a)
def pv105 (a : Fam F) : FVec F S325x64 .f32 := k2_pay105 (pv67 a)
def pv106 (a : Fam F) : FVec F S325x64 .f32 := k2_pay106 (pv67 a) (a.lsAt 1 0) (a.wrAt 0 0) (a.lsAt 1 1) (a.wrAt 0 1)
def pv107 (a : Fam F) : FVec F S325x64 .f32 := k2_pay107 (pv67 a) (a.lsAt 1 2)
def pv108 (a : Fam F) : FVec F S325x64 .f32 := k2_pay108 (pv105 a) (pv106 a) (pv107 a) (a.wrAt 0 2) (a.lsAt 1 3) (a.wrAt 0 3)
def pv109 (a : Fam F) : FVec F S325x64 .f32 := k2_pay109 (pv67 a)
def pv110 (a : Fam F) : FVec F S325x64 .f32 := k2_pay110 (pv67 a) (a.lsAt 1 0) (a.wrAt 0 0)
def pv111 (a : Fam F) : FVec F S325x325 .bf16 := k2_pay111 (a.lsAt 1 1)
def pv112 (a : Fam F) : FVec F S325x64 .bf16 := k2_pay112 (pv67 a)
def pv113 (a : Fam F) : FVec F S325x64 .f32 := k2_pay113 (pv109 a) (pv110 a) (pv111 a) (pv112 a) (a.wrAt 0 1) (a.lsAt 1 2) (a.wrAt 0 2) (a.lsAt 1 3) (a.wrAt 0 3)
def pv114 (a : Fam F) : FVec F S325x64 .f32 := k2_pay114 (pv67 a)
def pv115 (a : Fam F) : FVec F S325x64 .f32 := k2_pay115 (pv114 a) (a.lsAt 1 0) (a.wrAt 0 0) (a.lsAt 1 1) (a.wrAt 0 1) (a.lsAt 1 2) (a.wrAt 0 2)
def pv116 (a : Fam F) : FVec F S325x64 .f32 := k2_pay116 (pv114 a) (pv115 a) (a.lsAt 1 3) (a.wrAt 0 3)
def pv117 (a : Fam F) : FVec F S325x64 .f32 := k2_pay117 (pv67 a)
def pv118 (a : Fam F) : FVec F S325x64 .f32 := k2_pay118 (pv67 a) (a.lsAt 1 0) (a.wrAt 0 0)
def pv119 (a : Fam F) : FVec F S325x64 .bf16 := k2_pay119 (pv67 a) (a.lsAt 1 1)
def pv120 (a : Fam F) : FVec F S64x64 .bf16 := k2_pay120 (a.wrAt 0 1)
def pv121 (a : Fam F) : FVec F S325x64 .f32 := k2_pay121 (pv117 a) (pv118 a) (pv119 a) (pv120 a) (a.lsAt 1 2) (a.wrAt 0 2) (a.lsAt 1 3) (a.wrAt 0 3)
def pv122 (a : Fam F) : FVec F S325x64 .f32 := k2_pay122 (pv67 a)
def pv123 (a : Fam F) : FVec F S325x64 .f32 := k2_pay123 (pv67 a) (a.lsAt 1 0)
def pv124 (a : Fam F) : FVec F S325x64 .f32 := k2_pay124 (pv122 a) (pv123 a) (a.wrAt 0 0) (a.lsAt 1 1) (a.wrAt 0 1) (a.lsAt 1 2) (a.wrAt 0 2)
def pv125 (a : Fam F) : FVec F S325x64 .f32 := k2_pay125 (pv122 a) (a.lsAt 1 3)
def pv126 (a : Fam F) : FVec F S325x64 .f32 := k2_pay126 (pv124 a) (pv125 a) (a.wrAt 0 3)
def pv127 (a : Fam F) : FVec F S325x64 .f32 := k2_pay127 (pv67 a)
def pv128 (a : Fam F) : FVec F S325x64 .f32 := k2_pay128 (pv67 a) (a.lsAt 1 0) (a.wrAt 0 0) (a.lsAt 1 1) (a.wrAt 0 1)
def pv129 (a : Fam F) : FVec F S325x325 .bf16 := k2_pay129 (a.lsAt 1 2)
def pv130 (a : Fam F) : FVec F S325x64 .f32 := k2_pay130 (pv127 a) (pv128 a) (pv129 a) (a.wrAt 0 2) (a.lsAt 1 3) (a.wrAt 0 3)
def pv131 (a : Fam F) : FVec F S325x64 .f32 := k2_pay131 (pv67 a)
def pv132 (a : Fam F) : FVec F S325x64 .f32 := k2_pay132 (pv67 a) (a.lsAt 1 0) (a.wrAt 0 0)
def pv133 (a : Fam F) : FVec F S325x64 .f32 := k2_pay133 (pv131 a) (pv132 a) (a.lsAt 1 1) (a.wrAt 0 1) (a.lsAt 1 2) (a.wrAt 0 2) (a.lsAt 1 3) (a.wrAt 0 3)
def pv134 (a : Fam F) : FVec F S325x64 .f32 := k2_pay134 (pv67 a)
def pv135 (a : Fam F) : FVec F S325x64 .f32 := k2_pay135 (pv67 a) (a.lsAt 1 0) (a.wrAt 0 0) (a.lsAt 1 1) (a.wrAt 0 1)
def pv136 (a : Fam F) : FVec F S64x64 .f32 := k2_pay136 (a.wrAt 0 2)
def pv137 (a : Fam F) : FVec F S325x64 .bf16 := k2_pay137 (pv67 a) (a.lsAt 1 2)
def pv138 (a : Fam F) : FVec F S16x325x64 .f32 := k2_pay138 (pv72 a) (pv76 a) (pv79 a) (pv84 a) (pv88 a) (pv94 a) (pv97 a) (pv104 a) (pv108 a) (pv113 a) (pv116 a) (pv121 a) (pv126 a) (pv130 a) (pv133 a) (pv134 a) (pv135 a) (pv136 a) (pv137 a) (a.lsAt 1 3) (a.wrAt 0 3)
def pv139 (a : Fam F) : FVec F S16x64 .f32 := k2_pay139 (pv72 a) (pv76 a) (pv79 a) (pv84 a) (pv88 a) (pv94 a) (pv97 a) (pv104 a) (pv108 a) (pv113 a) (pv116 a) (pv121 a) (pv126 a) (pv130 a) (pv133 a) (pv134 a) (pv135 a) (pv136 a) (pv137 a) (a.lsAt 1 3) (a.wrAt 0 3)
def pv140 (a : Fam F) : FVec F S16x64 .f32 := k2_pay140 (F := F)
def pv141 (a : Fam F) : FVec F S16x325x64 .f32 := k2_pay141 (pv138 a) (pv139 a) (pv140 a) (a.gAt 1) (a.bAt 1)
def pv142 (a : Fam F) : FVec F S325x64 .f32 := k2_pay142 (pv138 a) (pv139 a) (pv140 a) (a.gAt 1) (a.bAt 1)
def pv143 (a : Fam F) : FVec F S325x64 .f32 := k2_pay143 (pv138 a) (pv139 a) (pv140 a) (a.gAt 1) (a.bAt 1) (a.lsAt 2 0) (a.wrAt 1 0)
def pv144 (a : Fam F) : FVec F S325x64 .f32 := k2_pay144 (pv138 a) (pv139 a) (pv140 a) (a.gAt 1) (a.bAt 1) (a.lsAt 2 1)
def pv145 (a : Fam F) : FVec F S325x64 .f32 := k2_pay145 (pv142 a) (pv143 a) (pv144 a) (a.wrAt 1 1) (a.lsAt 2 2) (a.wrAt 1 2) (a.lsAt 2 3) (a.wrAt 1 3)
def pv146 (a : Fam F) : FVec F S325x64 .f32 := k2_pay146 (pv141 a)
def pv147 (a : Fam F) : FVec F S325x64 .f32 := k2_pay147 (pv146 a) (a.lsAt 2 0) (a.wrAt 1 0) (a.lsAt 2 1) (a.wrAt 1 1) (a.lsAt 2 2) (a.wrAt 1 2)
def pv148 (a : Fam F) : FVec F S325x64 .f32 := k2_pay148 (pv146 a) (pv147 a) (a.lsAt 2 3) (a.wrAt 1 3)
def pv149 (a : Fam F) : FVec F S325x64 .f32 := k2_pay149 (pv141 a)
def pv150 (a : Fam F) : FVec F S325x64 .f32 := k2_pay150 (pv141 a) (a.lsAt 2 0) (a.wrAt 1 0)
def pv151 (a : Fam F) : FVec F S325x64 .f32 := k2_pay151 (pv141 a) (a.lsAt 2 1) (a.wrAt 1 1)
def pv152 (a : Fam F) : FVec F S325x64 .f32 := k2_pay152 (pv149 a) (pv150 a) (pv151 a) (a.lsAt 2 2) (a.wrAt 1 2) (a.lsAt 2 3) (a.wrAt 1 3)
def pv153 (a : Fam F) : FVec F S325x64 .f32 := k2_pay153 (pv141 a)
def pv154 (a : Fam F) : FVec F S325x64 .f32 := k2_pay154 (pv141 a) (a.lsAt 2 0)
def pv155 (a : Fam F) : FVec F S325x64 .f32 := k2_pay155 (pv153 a) (pv154 a) (a.wrAt 1 0) (a.lsAt 2 1) (a.wrAt 1 1) (a.lsAt 2 2) (a.wrAt 1 2)
def pv156 (a : Fam F) : FVec F S325x64 .f32 := k2_pay156 (pv153 a) (a.lsAt 2 3)
def pv157 (a : Fam F) : FVec F S325x64 .f32 := k2_pay157 (pv155 a) (pv156 a) (a.wrAt 1 3)
def pv158 (a : Fam F) : FVec F S325x64 .f32 := k2_pay158 (pv141 a)
def pv159 (a : Fam F) : FVec F S325x64 .f32 := k2_pay159 (pv141 a) (a.lsAt 2 0) (a.wrAt 1 0) (a.lsAt 2 1) (a.wrAt 1 1)
def pv160 (a : Fam F) : FVec F S325x325 .bf16 := k2_pay160 (a.lsAt 2 2)
def pv161 (a : Fam F) : FVec F S325x64 .bf16 := k2_pay161 (pv141 a)
def pv162 (a : Fam F) : FVec F S325x64 .f32 := k2_pay162 (pv158 a) (pv159 a) (pv160 a) (pv161 a) (constant S325x64 .f32 0x00000000#32) (a.wrAt 1 2) (a.lsAt 2 3) (a.wrAt 1 3)
def pv163 (a : Fam F) : FVec F S325x64 .f32 := k2_pay163 (pv141 a)
def pv164 (a : Fam F) : FVec F S325x64 .f32 := k2_pay164 (pv141 a) (a.lsAt 2 0) (a.wrAt 1 0)
def pv165 (a : Fam F) : FVec F S325x64 .f32 := k2_pay165 (pv163 a) (pv164 a) (a.lsAt 2 1) (a.wrAt 1 1) (a.lsAt 2 2) (a.wrAt 1 2) (a.lsAt 2 3) (a.wrAt 1 3)
def pv166 (a : Fam F) : FVec F S325x64 .f32 := k2_pay166 (pv141 a)
def pv167 (a : Fam F) : FVec F S325x64 .f32 := k2_pay167 (pv166 a) (a.lsAt 2 0) (a.wrAt 1 0) (a.lsAt 2 1) (a.wrAt 1 1)
def pv168 (a : Fam F) : FVec F S325x64 .bf16 := k2_pay168 (pv166 a) (a.lsAt 2 2)
def pv169 (a : Fam F) : FVec F S64x64 .bf16 := k2_pay169 (a.wrAt 1 2)
def pv170 (a : Fam F) : FVec F S325x64 .f32 := k2_pay170 (pv166 a) (pv167 a) (pv168 a) (pv169 a) (constant S325x64 .f32 0x00000000#32) (a.lsAt 2 3) (a.wrAt 1 3)
def pv171 (a : Fam F) : FVec F S325x64 .f32 := k2_pay171 (pv141 a)
def pv172 (a : Fam F) : FVec F S325x64 .f32 := k2_pay172 (pv141 a) (a.lsAt 2 0) (a.wrAt 1 0)
def pv173 (a : Fam F) : FVec F S325x64 .f32 := k2_pay173 (pv141 a) (a.lsAt 2 1)
def pv174 (a : Fam F) : FVec F S325x64 .f32 := k2_pay174 (pv171 a) (pv172 a) (pv173 a) (a.wrAt 1 1) (a.lsAt 2 2) (a.wrAt 1 2) (a.lsAt 2 3) (a.wrAt 1 3)
def pv175 (a : Fam F) : FVec F S325x64 .f32 := k2_pay175 (pv141 a)
def pv176 (a : Fam F) : FVec F S325x64 .f32 := k2_pay176 (pv141 a) (a.lsAt 2 0)
def pv177 (a : Fam F) : FVec F S325x64 .f32 := k2_pay177 (pv175 a) (pv176 a) (a.wrAt 1 0) (a.lsAt 2 1) (a.wrAt 1 1) (a.lsAt 2 2) (a.wrAt 1 2)
def pv178 (a : Fam F) : FVec F S325x325 .bf16 := k2_pay178 (a.lsAt 2 3)
def pv179 (a : Fam F) : FVec F S325x64 .bf16 := k2_pay179 (pv175 a)
def pv180 (a : Fam F) : FVec F S325x64 .f32 := k2_pay180 (pv177 a) (pv178 a) (pv179 a) (a.wrAt 1 3)
def pv181 (a : Fam F) : FVec F S325x64 .f32 := k2_pay181 (pv141 a)
def pv182 (a : Fam F) : FVec F S325x64 .f32 := k2_pay182 (pv141 a) (a.lsAt 2 0) (a.wrAt 1 0) (a.lsAt 2 1) (a.wrAt 1 1)
def pv183 (a : Fam F) : FVec F S325x64 .f32 := k2_pay183 (pv181 a) (pv182 a) (a.lsAt 2 2) (a.wrAt 1 2) (a.lsAt 2 3) (a.wrAt 1 3)
def pv184 (a : Fam F) : FVec F S325x64 .f32 := k2_pay184 (pv141 a)
def pv185 (a : Fam F) : FVec F S325x64 .f32 := k2_pay185 (pv141 a) (a.lsAt 2 0) (a.wrAt 1 0)
def pv186 (a : Fam F) : FVec F S325x64 .f32 := k2_pay186 (pv184 a) (pv185 a) (a.lsAt 2 1) (a.wrAt 1 1) (a.lsAt 2 2) (a.wrAt 1 2)
def pv187 (a : Fam F) : FVec F S325x64 .bf16 := k2_pay187 (pv184 a) (a.lsAt 2 3)
def pv188 (a : Fam F) : FVec F S64x64 .bf16 := k2_pay188 (a.wrAt 1 3)
def pv189 (a : Fam F) : FVec F S325x64 .f32 := k2_pay189 (pv186 a) (pv187 a) (pv188 a)
def pv190 (a : Fam F) : FVec F S325x64 .f32 := k2_pay190 (pv141 a)
def pv191 (a : Fam F) : FVec F S325x64 .f32 := k2_pay191 (pv141 a) (a.lsAt 2 0) (a.wrAt 1 0) (a.lsAt 2 1) (a.wrAt 1 1)
def pv192 (a : Fam F) : FVec F S325x64 .f32 := k2_pay192 (pv141 a) (a.lsAt 2 2)
def pv193 (a : Fam F) : FVec F S325x64 .f32 := k2_pay193 (pv190 a) (pv191 a) (pv192 a) (a.wrAt 1 2) (a.lsAt 2 3) (a.wrAt 1 3)
def pv194 (a : Fam F) : FVec F S325x64 .f32 := k2_pay194 (pv141 a)
def pv195 (a : Fam F) : FVec F S325x64 .f32 := k2_pay195 (pv141 a) (a.lsAt 2 0) (a.wrAt 1 0)
def pv196 (a : Fam F) : FVec F S325x64 .f32 := k2_pay196 (pv141 a) (a.lsAt 2 1)
def pv197 (a : Fam F) : FVec F S325x64 .f32 := k2_pay197 (pv194 a) (pv195 a) (pv196 a) (a.wrAt 1 1) (a.lsAt 2 2) (a.wrAt 1 2) (a.lsAt 2 3) (a.wrAt 1 3)
def pv198 (a : Fam F) : FVec F S325x64 .f32 := k2_pay198 (pv141 a)
def pv199 (a : Fam F) : FVec F S325x64 .f32 := k2_pay199 (pv198 a) (a.lsAt 2 0) (a.wrAt 1 0) (a.lsAt 2 1) (a.wrAt 1 1) (a.lsAt 2 2) (a.wrAt 1 2)
def pv200 (a : Fam F) : FVec F S325x64 .f32 := k2_pay200 (pv198 a) (pv199 a) (a.lsAt 2 3) (a.wrAt 1 3)
def pv201 (a : Fam F) : FVec F S325x64 .f32 := k2_pay201 (pv141 a)
def pv202 (a : Fam F) : FVec F S325x64 .f32 := k2_pay202 (pv141 a) (a.lsAt 2 0) (a.wrAt 1 0)
def pv203 (a : Fam F) : FVec F S325x64 .f32 := k2_pay203 (pv141 a) (a.lsAt 2 1) (a.wrAt 1 1)
def pv204 (a : Fam F) : FVec F S325x64 .f32 := k2_pay204 (pv201 a) (pv202 a) (pv203 a) (a.lsAt 2 2) (a.wrAt 1 2) (a.lsAt 2 3) (a.wrAt 1 3)
def pv205 (a : Fam F) : FVec F S325x64 .f32 := k2_pay205 (pv141 a)
def pv206 (a : Fam F) : FVec F S325x64 .f32 := k2_pay206 (pv141 a) (a.lsAt 2 0)
def pv207 (a : Fam F) : FVec F S325x64 .f32 := k2_pay207 (pv205 a) (pv206 a) (a.wrAt 1 0) (a.lsAt 2 1) (a.wrAt 1 1) (a.lsAt 2 2) (a.wrAt 1 2)
def pv208 (a : Fam F) : FVec F S325x64 .f32 := k2_pay208 (pv205 a) (a.lsAt 2 3)
def pv209 (a : Fam F) : FVec F S16x325x64 .f32 := k2_pay209 (pv145 a) (pv148 a) (pv152 a) (pv157 a) (pv162 a) (pv165 a) (pv170 a) (pv174 a) (pv180 a) (pv183 a) (pv189 a) (pv193 a) (pv197 a) (pv200 a) (pv204 a) (pv207 a) (pv208 a) (a.wrAt 1 3)
def pv210 (a : Fam F) : FVec F S16x325x64 .f32 := k2_pay210 (pv145 a) (pv148 a) (pv152 a) (pv157 a) (pv162 a) (pv165 a) (pv170 a) (pv174 a) (pv180 a) (pv183 a) (pv189 a) (pv193 a) (pv197 a) (pv200 a) (pv204 a) (pv207 a) (pv208 a) (a.wrAt 1 3) (a.gAt 2)
def pv211 (a : Fam F) : FVec F S16x325x64 .f32 := k2_pay211 (pv209 a) (pv210 a) (a.bAt 2)
def pv212 (a : Fam F) : FVec F S325x64 .f32 := k2_pay212 (pv209 a) (pv210 a) (a.bAt 2)
def pv213 (a : Fam F) : FVec F S325x64 .f32 := k2_pay213 (pv209 a) (pv210 a) (a.bAt 2) (a.lsAt 3 0) (a.wrAt 2 0) (a.lsAt 3 1) (a.wrAt 2 1)
def pv214 (a : Fam F) : FVec F S325x325 .f32 := k2_pay214 (a.lsAt 3 2)
def pv215 (a : Fam F) : FVec F S325x64 .f32 := k2_pay215 (pv212 a) (pv213 a) (pv214 a) (a.wrAt 2 2) (a.lsAt 3 3) (a.wrAt 2 3)
def pv216 (a : Fam F) : FVec F S325x64 .f32 := k2_pay216 (pv211 a)
def pv217 (a : Fam F) : FVec F S325x64 .f32 := k2_pay217 (pv211 a) (a.lsAt 3 0) (a.wrAt 2 0)
def pv218 (a : Fam F) : FVec F S325x64 .f32 := k2_pay218 (pv216 a) (pv217 a) (a.lsAt 3 1) (a.wrAt 2 1) (a.lsAt 3 2) (a.wrAt 2 2)
def pv219 (a : Fam F) : FVec F S325x64 .f32 := k2_pay219 (pv216 a) (a.lsAt 3 3) (a.wrAt 2 3)
def pv220 (a : Fam F) : FVec F S325x64 .f32 := k2_pay220 (pv218 a) (pv219 a)
def pv221 (a : Fam F) : FVec F S325x64 .f32 := k2_pay221 (pv211 a)
def pv222 (a : Fam F) : FVec F S325x64 .f32 := k2_pay222 (pv211 a) (a.lsAt 3 0) (a.wrAt 2 0) (a.lsAt 3 1) (a.wrAt 2 1)
def pv223 (a : Fam F) : FVec F S325x64 .f32 := k2_pay223 (pv211 a) (a.lsAt 3 2)
def pv224 (a : Fam F) : FVec F S64x64 .f32 := k2_pay224 (a.wrAt 2 2)
def pv225 (a : Fam F) : FVec F S325x64 .f32 := k2_pay225 (pv221 a) (pv222 a) (pv223 a) (pv224 a) (a.lsAt 3 3) (a.wrAt 2 3)
def pv226 (a : Fam F) : FVec F S325x64 .f32 := k2_pay226 (pv211 a)
def pv227 (a : Fam F) : FVec F S325x64 .f32 := k2_pay227 (pv211 a) (a.lsAt 3 0) (a.wrAt 2 0)
def pv228 (a : Fam F) : FVec F S325x64 .f32 := k2_pay228 (pv211 a) (a.lsAt 3 1)
def pv229 (a : Fam F) : FVec F S325x64 .f32 := k2_pay229 (pv226 a) (pv227 a) (pv228 a) (a.wrAt 2 1) (a.lsAt 3 2) (a.wrAt 2 2) (a.lsAt 3 3) (a.wrAt 2 3)
def pv230 (a : Fam F) : FVec F S325x64 .f32 := k2_pay230 (pv211 a)
def pv231 (a : Fam F) : FVec F S325x325 .bf16 := k2_pay231 (a.lsAt 3 0)
def pv232 (a : Fam F) : FVec F S325x64 .f32 := k2_pay232 (pv230 a) (pv231 a) (a.wrAt 2 0) (a.lsAt 3 1) (a.wrAt 2 1) (a.lsAt 3 2) (a.wrAt 2 2)
def pv233 (a : Fam F) : FVec F S325x64 .f32 := k2_pay233 (pv230 a) (pv232 a) (a.lsAt 3 3) (a.wrAt 2 3)
def pv234 (a : Fam F) : FVec F S325x64 .f32 := k2_pay234 (pv211 a)
def pv235 (a : Fam F) : FVec F S325x64 .f32 := k2_pay235 (pv211 a) (a.lsAt 3 0) (a.wrAt 2 0) (a.lsAt 3 1) (a.wrAt 2 1)
def pv236 (a : Fam F) : FVec F S325x64 .f32 := k2_pay236 (pv234 a) (pv235 a) (a.lsAt 3 2) (a.wrAt 2 2) (a.lsAt 3 3) (a.wrAt 2 3)
def pv237 (a : Fam F) : FVec F S325x64 .f32 := k2_pay237 (pv211 a)
def pv238 (a : Fam F) : FVec F S64x64 .f32 := k2_pay238 (a.wrAt 2 0)
def pv239 (a : Fam F) : FVec F S325x64 .bf16 := k2_pay239 (pv211 a) (a.lsAt 3 0)
def pv240 (a : Fam F) : FVec F S325x64 .f32 := k2_pay240 (pv237 a) (pv238 a) (pv239 a) (a.lsAt 3 1) (a.wrAt 2 1) (a.lsAt 3 2) (a.wrAt 2 2)
def pv241 (a : Fam F) : FVec F S325x64 .f32 := k2_pay241 (pv237 a) (a.lsAt 3 3)
def pv242 (a : Fam F) : FVec F S325x64 .f32 := k2_pay242 (pv240 a) (pv241 a) (a.wrAt 2 3)
def pv243 (a : Fam F) : FVec F S325x64 .f32 := k2_pay243 (pv211 a)
def pv244 (a : Fam F) : FVec F S325x64 .f32 := k2_pay244 (pv211 a) (a.lsAt 3 0) (a.wrAt 2 0) (a.lsAt 3 1) (a.wrAt 2 1)
def pv245 (a : Fam F) : FVec F S325x64 .f32 := k2_pay245 (pv211 a) (a.lsAt 3 2)
def pv246 (a : Fam F) : FVec F S325x64 .f32 := k2_pay246 (pv243 a) (pv244 a) (pv245 a) (a.wrAt 2 2) (a.lsAt 3 3) (a.wrAt 2 3)
def pv247 (a : Fam F) : FVec F S325x64 .f32 := k2_pay247 (pv211 a)
def pv248 (a : Fam F) : FVec F S325x64 .f32 := k2_pay248 (pv211 a) (a.lsAt 3 0) (a.wrAt 2 0)
def pv249 (a : Fam F) : FVec F S325x325 .bf16 := k2_pay249 (a.lsAt 3 1)
def pv250 (a : Fam F) : FVec F S325x64 .f32 := k2_pay250 (pv247 a) (pv248 a) (pv249 a) (a.wrAt 2 1) (a.lsAt 3 2) (a.wrAt 2 2) (a.lsAt 3 3) (a.wrAt 2 3)
def pv251 (a : Fam F) : FVec F S325x64 .f32 := k2_pay251 (pv211 a)
def pv252 (a : Fam F) : FVec F S325x64 .f32 := k2_pay252 (pv251 a) (a.lsAt 3 0) (a.wrAt 2 0) (a.lsAt 3 1) (a.wrAt 2 1) (a.lsAt 3 2) (a.wrAt 2 2)
def pv253 (a : Fam F) : FVec F S325x64 .f32 := k2_pay253 (pv251 a) (pv252 a) (a.lsAt 3 3) (a.wrAt 2 3)
def pv254 (a : Fam F) : FVec F S325x64 .f32 := k2_pay254 (pv211 a)
def pv255 (a : Fam F) : FVec F S325x64 .f32 := k2_pay255 (pv211 a) (a.lsAt 3 0) (a.wrAt 2 0)
def pv256 (a : Fam F) : FVec F S64x64 .f32 := k2_pay256 (a.wrAt 2 1)
def pv257 (a : Fam F) : FVec F S325x64 .bf16 := k2_pay257 (pv211 a) (a.lsAt 3 1)
def pv258 (a : Fam F) : FVec F S325x64 .f32 := k2_pay258 (pv254 a) (pv255 a) (pv256 a) (pv257 a) (a.lsAt 3 2) (a.wrAt 2 2) (a.lsAt 3 3) (a.wrAt 2 3)
def pv259 (a : Fam F) : FVec F S325x64 .f32 := k2_pay259 (pv211 a)
def pv260 (a : Fam F) : FVec F S325x64 .f32 := k2_pay260 (pv211 a) (a.lsAt 3 0)
def pv261 (a : Fam F) : FVec F S325x64 .f32 := k2_pay261 (pv259 a) (pv260 a) (a.wrAt 2 0) (a.lsAt 3 1) (a.wrAt 2 1) (a.lsAt 3 2) (a.wrAt 2 2)
def pv262 (a : Fam F) : FVec F S325x64 .f32 := k2_pay262 (pv259 a) (a.lsAt 3 3)
def pv263 (a : Fam F) : FVec F S325x64 .f32 := k2_pay263 (pv261 a) (pv262 a) (a.wrAt 2 3)
def pv264 (a : Fam F) : FVec F S325x64 .f32 := k2_pay264 (pv211 a)
def pv265 (a : Fam F) : FVec F S325x64 .f32 := k2_pay265 (pv211 a) (a.lsAt 3 0) (a.wrAt 2 0) (a.lsAt 3 1) (a.wrAt 2 1)
def pv266 (a : Fam F) : FVec F S325x325 .f32 := k2_pay266 (a.lsAt 3 2)
def pv267 (a : Fam F) : FVec F S325x64 .f32 := k2_pay267 (pv264 a) (pv265 a) (pv266 a) (a.wrAt 2 2) (a.lsAt 3 3) (a.wrAt 2 3)
def pv268 (a : Fam F) : FVec F S325x64 .f32 := k2_pay268 (pv211 a)
def pv269 (a : Fam F) : FVec F S325x64 .f32 := k2_pay269 (pv211 a) (a.lsAt 3 0) (a.wrAt 2 0)
def pv270 (a : Fam F) : FVec F S325x64 .f32 := k2_pay270 (pv268 a) (pv269 a) (a.lsAt 3 1) (a.wrAt 2 1) (a.lsAt 3 2) (a.wrAt 2 2)
def pv271 (a : Fam F) : FVec F S325x64 .f32 := k2_pay271 (pv268 a) (a.lsAt 3 3) (a.wrAt 2 3)
def pv272 (a : Fam F) : FVec F S325x64 .f32 := k2_pay272 (pv270 a) (pv271 a)
def pv273 (a : Fam F) : FVec F S325x64 .f32 := k2_pay273 (pv211 a)
def pv274 (a : Fam F) : FVec F S325x64 .f32 := k2_pay274 (pv211 a) (a.lsAt 3 0) (a.wrAt 2 0) (a.lsAt 3 1) (a.wrAt 2 1)
def pv275 (a : Fam F) : FVec F S325x64 .f32 := k2_pay275 (pv211 a) (a.lsAt 3 2)
def pv276 (a : Fam F) : FVec F S64x64 .f32 := k2_pay276 (a.wrAt 2 2)
def pv277 (a : Fam F) : FVec F S325x64 .f32 := k2_pay277 (pv273 a) (pv274 a) (pv275 a) (pv276 a) (a.lsAt 3 3) (a.wrAt 2 3)
def pv278 (a : Fam F) : FVec F S325x64 .f32 := k2_pay278 (pv211 a)
def pv279 (a : Fam F) : FVec F S325x64 .f32 := k2_pay279 (pv211 a) (a.lsAt 3 0) (a.wrAt 2 0)
def pv280 (a : Fam F) : FVec F S325x64 .f32 := k2_pay280 (pv211 a) (a.lsAt 3 1)
def pv281 (a : Fam F) : FVec F S325x64 .f32 := k2_pay281 (pv278 a) (pv279 a) (pv280 a) (a.wrAt 2 1) (a.lsAt 3 2) (a.wrAt 2 2) (a.lsAt 3 3) (a.wrAt 2 3)
def pv282 (a : Fam F) : FVec F S1x325x64 .f32 := k2_pay282 (pv215 a)
def pv283 (a : Fam F) : FVec F S1x325x64 .f32 := k2_pay283 (pv220 a)
def pv284 (a : Fam F) : FVec F S1x325x64 .f32 := k2_pay284 (pv225 a)
def pv285 (a : Fam F) : FVec F S1x325x64 .f32 := k2_pay285 (pv229 a)
def pv286 (a : Fam F) : FVec F S1x325x64 .f32 := k2_pay286 (pv233 a)
def pv287 (a : Fam F) : FVec F S1x325x64 .f32 := k2_pay287 (pv236 a)
def pv288 (a : Fam F) : FVec F S1x325x64 .f32 := k2_pay288 (pv242 a)
def pv289 (a : Fam F) : FVec F S1x325x64 .f32 := k2_pay289 (pv246 a)
def pv290 (a : Fam F) : FVec F S1x325x64 .f32 := k2_pay290 (pv250 a)
def pv291 (a : Fam F) : FVec F S16x325x64 .f32 := k2_pay291 (pv253 a) (pv258 a) (pv263 a) (pv267 a) (pv272 a) (pv277 a) (pv281 a) (pv282 a) (pv283 a) (pv284 a) (pv285 a) (pv286 a) (pv287 a) (pv288 a) (pv289 a) (pv290 a) (a.gAt 3) (a.bAt 3)
def pv292 (a : Fam F) : FVec F S325x64 .f32 := k2_pay292 (pv253 a) (pv258 a) (pv263 a) (pv267 a) (pv272 a) (pv277 a) (pv281 a) (pv282 a) (pv283 a) (pv284 a) (pv285 a) (pv286 a) (pv287 a) (pv288 a) (pv289 a) (pv290 a) (a.gAt 3) (a.bAt 3)
def pv293 (a : Fam F) : FVec F S325x64 .f32 := k2_pay293 (pv292 a) (a.lsAt 4 0) (a.wrAt 3 0) (a.lsAt 4 1) (a.wrAt 3 1) (a.lsAt 4 2) (a.wrAt 3 2)
def pv294 (a : Fam F) : FVec F S325x64 .f32 := k2_pay294 (pv292 a) (pv293 a) (a.lsAt 4 3) (a.wrAt 3 3)
def pv295 (a : Fam F) : FVec F S325x64 .f32 := k2_pay295 (pv291 a)
def pv296 (a : Fam F) : FVec F S325x64 .f32 := k2_pay296 (pv291 a) (a.lsAt 4 0) (a.wrAt 3 0)
def pv297 (a : Fam F) : FVec F S325x64 .bf16 := k2_pay297 (pv291 a) (a.lsAt 4 1)
def pv298 (a : Fam F) : FVec F S64x64 .bf16 := k2_pay298 (a.wrAt 3 1)
def pv299 (a : Fam F) : FVec F S325x64 .f32 := k2_pay299 (pv295 a) (pv296 a) (pv297 a) (pv298 a) (constant S325x64 .f32 0x00000000#32) (a.lsAt 4 2) (a.wrAt 3 2) (a.lsAt 4 3) (a.wrAt 3 3)
def pv300 (a : Fam F) : FVec F S325x64 .f32 := k2_pay300 (pv291 a)
def pv301 (a : Fam F) : FVec F S325x64 .f32 := k2_pay301 (pv291 a) (a.lsAt 4 0)
def pv302 (a : Fam F) : FVec F S325x64 .f32 := k2_pay302 (pv300 a) (pv301 a) (a.wrAt 3 0) (a.lsAt 4 1) (a.wrAt 3 1) (a.lsAt 4 2) (a.wrAt 3 2)
def pv303 (a : Fam F) : FVec F S325x64 .f32 := k2_pay303 (pv300 a) (a.lsAt 4 3)
def pv304 (a : Fam F) : FVec F S325x64 .f32 := k2_pay304 (pv302 a) (pv303 a) (a.wrAt 3 3)
def pv305 (a : Fam F) : FVec F S325x64 .f32 := k2_pay305 (pv291 a)
def pv306 (a : Fam F) : FVec F S325x64 .f32 := k2_pay306 (pv291 a) (a.lsAt 4 0) (a.wrAt 3 0) (a.lsAt 4 1) (a.wrAt 3 1)
def pv307 (a : Fam F) : FVec F S325x325 .bf16 := k2_pay307 (a.lsAt 4 2)
def pv308 (a : Fam F) : FVec F S325x64 .bf16 := k2_pay308 (pv291 a)
def pv309 (a : Fam F) : FVec F S325x64 .f32 := k2_pay309 (pv305 a) (pv306 a) (pv307 a) (pv308 a) (a.wrAt 3 2) (a.lsAt 4 3) (a.wrAt 3 3)
def pv310 (a : Fam F) : FVec F S325x64 .f32 := k2_pay310 (pv291 a)
def pv311 (a : Fam F) : FVec F S325x64 .f32 := k2_pay311 (pv291 a) (a.lsAt 4 0) (a.wrAt 3 0)
def pv312 (a : Fam F) : FVec F S325x64 .f32 := k2_pay312 (pv310 a) (pv311 a) (a.lsAt 4 1) (a.wrAt 3 1) (a.lsAt 4 2) (a.wrAt 3 2) (a.lsAt 4 3) (a.wrAt 3 3)
def pv313 (a : Fam F) : FVec F S1x325x64 .f32 := k2_pay313 (pv291 a)
def pv314 (a : Fam F) : FVec F S325x64 .f32 := k2_pay314 (pv313 a)
def pv315 (a : Fam F) : FVec F S325x64 .f32 := k2_pay315 (pv313 a) (a.lsAt 4 0) (a.wrAt 3 0) (a.lsAt 4 1) (a.wrAt 3 1)
def pv316 (a : Fam F) : FVec F S325x64 .bf16 := k2_pay316 (pv313 a) (a.lsAt 4 2)
def pv317 (a : Fam F) : FVec F S64x64 .bf16 := k2_pay317 (a.wrAt 3 2)
def pv318 (a : Fam F) : FVec F S325x64 .f32 := k2_pay318 (pv314 a) (pv315 a) (pv316 a) (pv317 a) (a.lsAt 4 3) (a.wrAt 3 3)
def pv319 (a : Fam F) : FVec F S325x64 .f32 := k2_pay319 (pv291 a)
def pv320 (a : Fam F) : FVec F S325x64 .f32 := k2_pay320 (pv291 a) (a.lsAt 4 0) (a.wrAt 3 0)
def pv321 (a : Fam F) : FVec F S325x64 .f32 := k2_pay321 (pv291 a) (a.lsAt 4 1)
def pv322 (a : Fam F) : FVec F S325x64 .f32 := k2_pay322 (pv319 a) (pv320 a) (pv321 a) (a.wrAt 3 1) (a.lsAt 4 2) (a.wrAt 3 2) (a.lsAt 4 3) (a.wrAt 3 3)
def pv323 (a : Fam F) : FVec F S325x64 .f32 := k2_pay323 (pv291 a)
def pv324 (a : Fam F) : FVec F S325x325 .bf16 := k2_pay324 (a.lsAt 4 0)
def pv325 (a : Fam F) : FVec F S325x64 .bf16 := k2_pay325 (pv291 a)
def pv326 (a : Fam F) : FVec F S325x64 .f32 := k2_pay326 (pv323 a) (pv324 a) (pv325 a) (constant S325x64 .f32 0x00000000#32) (a.wrAt 3 0) (a.lsAt 4 1) (a.wrAt 3 1) (a.lsAt 4 2) (a.wrAt 3 2)
def pv327 (a : Fam F) : FVec F S325x325 .bf16 := k2_pay327 (a.lsAt 4 3)
def pv328 (a : Fam F) : FVec F S325x64 .f32 := k2_pay328 (pv323 a) (pv326 a) (pv327 a) (a.wrAt 3 3)
def pv329 (a : Fam F) : FVec F S325x64 .f32 := k2_pay329 (pv291 a)
def pv330 (a : Fam F) : FVec F S325x64 .f32 := k2_pay330 (pv291 a) (a.lsAt 4 0) (a.wrAt 3 0) (a.lsAt 4 1) (a.wrAt 3 1)
def pv331 (a : Fam F) : FVec F S325x64 .f32 := k2_pay331 (pv329 a) (pv330 a) (a.lsAt 4 2) (a.wrAt 3 2) (a.lsAt 4 3) (a.wrAt 3 3)
def pv332 (a : Fam F) : FVec F S325x64 .f32 := k2_pay332 (pv291 a)
def pv333 (a : Fam F) : FVec F S325x64 .bf16 := k2_pay333 (pv291 a) (a.lsAt 4 0)
def pv334 (a : Fam F) : FVec F S64x64 .bf16 := k2_pay334 (a.wrAt 3 0)
def pv335 (a : Fam F) : FVec F S325x64 .f32 := k2_pay335 (pv332 a) (pv333 a) (pv334 a) (constant S325x64 .f32 0x00000000#32) (a.lsAt 4 1) (a.wrAt 3 1) (a.lsAt 4 2) (a.wrAt 3 2)
def pv336 (a : Fam F) : FVec F S64x64 .f32 := k2_pay336 (a.wrAt 3 3)
def pv337 (a : Fam F) : FVec F S325x64 .bf16 := k2_pay337 (pv332 a) (a.lsAt 4 3)
def pv338 (a : Fam F) : FVec F S325x64 .f32 := k2_pay338 (pv335 a) (pv336 a) (pv337 a)
def pv339 (a : Fam F) : FVec F S325x64 .f32 := k2_pay339 (pv291 a)
def pv340 (a : Fam F) : FVec F S325x64 .f32 := k2_pay340 (pv291 a) (a.lsAt 4 0) (a.wrAt 3 0) (a.lsAt 4 1) (a.wrAt 3 1)
def pv341 (a : Fam F) : FVec F S325x64 .f32 := k2_pay341 (pv291 a) (a.lsAt 4 2)
def pv342 (a : Fam F) : FVec F S325x64 .f32 := k2_pay342 (pv339 a) (pv340 a) (pv341 a) (a.wrAt 3 2) (a.lsAt 4 3) (a.wrAt 3 3)
def pv343 (a : Fam F) : FVec F S325x64 .f32 := k2_pay343 (pv291 a)
def pv344 (a : Fam F) : FVec F S325x64 .f32 := k2_pay344 (pv291 a) (a.lsAt 4 0) (a.wrAt 3 0)
def pv345 (a : Fam F) : FVec F S325x325 .bf16 := k2_pay345 (a.lsAt 4 1)
def pv346 (a : Fam F) : FVec F S325x64 .bf16 := k2_pay346 (pv291 a)
def pv347 (a : Fam F) : FVec F S325x64 .f32 := k2_pay347 (pv343 a) (pv344 a) (pv345 a) (pv346 a) (constant S325x64 .f32 0x00000000#32) (a.wrAt 3 1) (a.lsAt 4 2) (a.wrAt 3 2) (a.lsAt 4 3) (a.wrAt 3 3)
def pv348 (a : Fam F) : FVec F S325x64 .f32 := k2_pay348 (pv291 a)
def pv349 (a : Fam F) : FVec F S325x64 .f32 := k2_pay349 (pv348 a) (a.lsAt 4 0) (a.wrAt 3 0) (a.lsAt 4 1) (a.wrAt 3 1) (a.lsAt 4 2) (a.wrAt 3 2)
def pv350 (a : Fam F) : FVec F S325x64 .f32 := k2_pay350 (pv348 a) (pv349 a) (a.lsAt 4 3) (a.wrAt 3 3)
def pv351 (a : Fam F) : FVec F S325x64 .f32 := k2_pay351 (pv291 a)
def pv352 (a : Fam F) : FVec F S325x64 .f32 := k2_pay352 (pv291 a) (a.lsAt 4 0) (a.wrAt 3 0)
def pv353 (a : Fam F) : FVec F S325x64 .bf16 := k2_pay353 (pv291 a) (a.lsAt 4 1)
def pv354 (a : Fam F) : FVec F S64x64 .bf16 := k2_pay354 (a.wrAt 3 1)
def pv355 (a : Fam F) : FVec F S325x64 .f32 := k2_pay355 (pv351 a) (pv352 a) (pv353 a) (pv354 a) (constant S325x64 .f32 0x00000000#32) (a.lsAt 4 2) (a.wrAt 3 2) (a.lsAt 4 3) (a.wrAt 3 3)
def pv356 (a : Fam F) : FVec F S325x64 .f32 := k2_pay356 (pv291 a)
def pv357 (a : Fam F) : FVec F S325x64 .f32 := k2_pay357 (pv291 a) (a.lsAt 4 0)
def pv358 (a : Fam F) : FVec F S325x64 .f32 := k2_pay358 (pv356 a) (pv357 a) (a.wrAt 3 0) (a.lsAt 4 1) (a.wrAt 3 1) (a.lsAt 4 2) (a.wrAt 3 2)
def pv359 (a : Fam F) : FVec F S325x64 .f32 := k2_pay359 (pv356 a) (a.lsAt 4 3)
def pv360 (a : Fam F) : FVec F S325x64 .f32 := k2_pay360 (pv358 a) (pv359 a) (a.wrAt 3 3)
def pv361 (a : Fam F) : FVec F S325x64 .f32 := k2_pay361 (pv291 a)
def pv362 (a : Fam F) : FVec F S325x64 .f32 := k2_pay362 (pv291 a) (a.lsAt 4 0) (a.wrAt 3 0) (a.lsAt 4 1) (a.wrAt 3 1)
def pv363 (a : Fam F) : FVec F S325x325 .bf16 := k2_pay363 (a.lsAt 4 2)
def pv364 (a : Fam F) : FVec F S325x64 .bf16 := k2_pay364 (pv291 a)
def pv365 (a : Fam F) : FVec F S16x325x64 .f32 := k2_pay365 (pv294 a) (pv299 a) (pv304 a) (pv309 a) (pv312 a) (pv318 a) (pv322 a) (pv328 a) (pv331 a) (pv338 a) (pv342 a) (pv347 a) (pv350 a) (pv355 a) (pv360 a) (pv361 a) (pv362 a) (pv363 a) (pv364 a) (a.wrAt 3 2) (a.lsAt 4 3) (a.wrAt 3 3)
def pv366 (a : Fam F) : FVec F S64 .f32 := k2_pay366 (pv294 a) (pv299 a) (pv304 a) (pv309 a) (pv312 a) (pv318 a) (pv322 a) (pv328 a) (pv331 a) (pv338 a) (pv342 a) (pv347 a) (pv350 a) (pv355 a) (pv360 a) (pv361 a) (pv362 a) (pv363 a) (pv364 a) (a.wrAt 3 2) (a.lsAt 4 3) (a.wrAt 3 3)
def pv367 (a : Fam F) : FVec F S64 .f32 := k2_pay367 (F := F)
def pv368 (a : Fam F) : FVec F S16x325x64 .f32 := k2_pay368 (pv365 a) (pv366 a) (pv367 a) (a.gAt 4) (a.bAt 4)
def pv369 (a : Fam F) : FVec F S325x64 .f32 := k2_pay369 (pv365 a) (pv366 a) (pv367 a) (a.gAt 4) (a.bAt 4)
def pv370 (a : Fam F) : FVec F S325x64 .f32 := k2_pay370 (pv365 a) (pv366 a) (pv367 a) (a.gAt 4) (a.bAt 4) (a.lsAt 5 0) (a.wrAt 4 0)
def pv371 (a : Fam F) : FVec F S325x64 .f32 := k2_pay371 (pv369 a) (pv370 a) (a.lsAt 5 1) (a.wrAt 4 1) (a.lsAt 5 2) (a.wrAt 4 2)
def pv372 (a : Fam F) : FVec F S325x64 .bf16 := k2_pay372 (pv369 a) (a.lsAt 5 3)
def pv373 (a : Fam F) : FVec F S64x64 .bf16 := k2_pay373 (a.wrAt 4 3)
def pv374 (a : Fam F) : FVec F S325x64 .f32 := k2_pay374 (pv371 a) (pv372 a) (pv373 a) (constant S325x64 .f32 0x00000000#32)
def pv375 (a : Fam F) : FVec F S325x64 .f32 := k2_pay375 (pv368 a)
def pv376 (a : Fam F) : FVec F S325x64 .f32 := k2_pay376 (pv368 a) (a.lsAt 5 0) (a.wrAt 4 0) (a.lsAt 5 1) (a.wrAt 4 1)
def pv377 (a : Fam F) : FVec F S325x64 .f32 := k2_pay377 (pv368 a) (a.lsAt 5 2)
def pv378 (a : Fam F) : FVec F S325x64 .f32 := k2_pay378 (pv375 a) (pv376 a) (pv377 a) (a.wrAt 4 2) (a.lsAt 5 3) (a.wrAt 4 3)
def pv379 (a : Fam F) : FVec F S325x64 .f32 := k2_pay379 (pv368 a)
def pv380 (a : Fam F) : FVec F S325x64 .f32 := k2_pay380 (pv368 a) (a.lsAt 5 0) (a.wrAt 4 0)
def pv381 (a : Fam F) : FVec F S325x64 .f32 := k2_pay381 (pv368 a) (a.lsAt 5 1)
def pv382 (a : Fam F) : FVec F S325x64 .f32 := k2_pay382 (pv379 a) (pv380 a) (pv381 a) (a.wrAt 4 1) (a.lsAt 5 2) (a.wrAt 4 2) (a.lsAt 5 3) (a.wrAt 4 3)
def pv383 (a : Fam F) : FVec F S325x64 .f32 := k2_pay383 (pv368 a)
def pv384 (a : Fam F) : FVec F S325x325 .f32 := k2_pay384 (a.lsAt 5 0)
def pv385 (a : Fam F) : FVec F S325x64 .f32 := k2_pay385 (pv383 a) (pv384 a) (a.wrAt 4 0) (a.lsAt 5 1) (a.wrAt 4 1) (a.lsAt 5 2) (a.wrAt 4 2)
def pv386 (a : Fam F) : FVec F S325x64 .f32 := k2_pay386 (pv383 a) (pv385 a) (a.lsAt 5 3) (a.wrAt 4 3)
def pv387 (a : Fam F) : FVec F S325x64 .f32 := k2_pay387 (pv368 a)
def pv388 (a : Fam F) : FVec F S325x64 .f32 := k2_pay388 (pv368 a) (a.lsAt 5 0) (a.wrAt 4 0) (a.lsAt 5 1) (a.wrAt 4 1)
def pv389 (a : Fam F) : FVec F S325x64 .f32 := k2_pay389 (pv387 a) (pv388 a) (a.lsAt 5 2) (a.wrAt 4 2) (a.lsAt 5 3) (a.wrAt 4 3)
def pv390 (a : Fam F) : FVec F S325x64 .f32 := k2_pay390 (pv368 a)
def pv391 (a : Fam F) : FVec F S325x64 .f32 := k2_pay391 (pv368 a) (a.lsAt 5 0)
def pv392 (a : Fam F) : FVec F S64x64 .f32 := k2_pay392 (a.wrAt 4 0)
def pv393 (a : Fam F) : FVec F S325x64 .f32 := k2_pay393 (pv390 a) (pv391 a) (pv392 a) (a.lsAt 5 1) (a.wrAt 4 1) (a.lsAt 5 2) (a.wrAt 4 2)
def pv394 (a : Fam F) : FVec F S325x64 .f32 := k2_pay394 (pv390 a) (a.lsAt 5 3)
def pv395 (a : Fam F) : FVec F S325x64 .f32 := k2_pay395 (pv393 a) (pv394 a) (a.wrAt 4 3)
def pv396 (a : Fam F) : FVec F S325x64 .f32 := k2_pay396 (pv368 a)
def pv397 (a : Fam F) : FVec F S325x64 .f32 := k2_pay397 (pv368 a) (a.lsAt 5 0) (a.wrAt 4 0) (a.lsAt 5 1) (a.wrAt 4 1)
def pv398 (a : Fam F) : FVec F S325x64 .f32 := k2_pay398 (pv368 a) (a.lsAt 5 2)
def pv399 (a : Fam F) : FVec F S325x64 .f32 := k2_pay399 (pv396 a) (pv397 a) (pv398 a) (a.wrAt 4 2) (a.lsAt 5 3) (a.wrAt 4 3)
def pv400 (a : Fam F) : FVec F S325x64 .f32 := k2_pay400 (pv368 a)
def pv401 (a : Fam F) : FVec F S325x64 .f32 := k2_pay401 (pv368 a) (a.lsAt 5 0) (a.wrAt 4 0)
def pv402 (a : Fam F) : FVec F S325x325 .f32 := k2_pay402 (a.lsAt 5 1)
def pv403 (a : Fam F) : FVec F S325x64 .f32 := k2_pay403 (pv400 a) (pv401 a) (pv402 a) (a.wrAt 4 1) (a.lsAt 5 2) (a.wrAt 4 2) (a.lsAt 5 3) (a.wrAt 4 3)
def pv404 (a : Fam F) : FVec F S325x64 .f32 := k2_pay404 (pv368 a)
def pv405 (a : Fam F) : FVec F S325x64 .f32 := k2_pay405 (pv404 a) (a.lsAt 5 0) (a.wrAt 4 0) (a.lsAt 5 1) (a.wrAt 4 1)
def pv406 (a : Fam F) : FVec F S325x64 .f32 := k2_pay406 (pv404 a) (a.lsAt 5 2) (a.wrAt 4 2)
def pv407 (a : Fam F) : FVec F S325x64 .f32 := k2_pay407 (pv404 a) (pv405 a) (pv406 a) (a.lsAt 5 3) (a.wrAt 4 3)
def pv408 (a : Fam F) : FVec F S325x64 .f32 := k2_pay408 (pv368 a)
def pv409 (a : Fam F) : FVec F S325x64 .f32 := k2_pay409 (pv368 a) (a.lsAt 5 0) (a.wrAt 4 0)
def pv410 (a : Fam F) : FVec F S325x64 .f32 := k2_pay410 (pv368 a) (a.lsAt 5 1)
def pv411 (a : Fam F) : FVec F S64x64 .f32 := k2_pay411 (a.wrAt 4 1)
def pv412 (a : Fam F) : FVec F S325x64 .f32 := k2_pay412 (pv408 a) (pv409 a) (pv410 a) (pv411 a) (a.lsAt 5 2) (a.wrAt 4 2) (a.lsAt 5 3) (a.wrAt 4 3)
def pv413 (a : Fam F) : FVec F S325x64 .f32 := k2_pay413 (pv368 a)
def pv414 (a : Fam F) : FVec F S325x64 .f32 := k2_pay414 (pv368 a) (a.lsAt 5 0)
def pv415 (a : Fam F) : FVec F S325x64 .f32 := k2_pay415 (pv413 a) (pv414 a) (a.wrAt 4 0) (a.lsAt 5 1) (a.wrAt 4 1) (a.lsAt 5 2) (a.wrAt 4 2)
def pv416 (a : Fam F) : FVec F S325x325 .bf16 := k2_pay416 (a.lsAt 5 3)
def pv417 (a : Fam F) : FVec F S325x64 .bf16 := k2_pay417 (pv413 a)
def pv418 (a : Fam F) : FVec F S325x64 .f32 := k2_pay418 (pv415 a) (pv416 a) (pv417 a) (constant S325x64 .f32 0x00000000#32) (a.wrAt 4 3)
def pv419 (a : Fam F) : FVec F S325x64 .f32 := k2_pay419 (pv368 a)
def pv420 (a : Fam F) : FVec F S325x64 .f32 := k2_pay420 (pv368 a) (a.lsAt 5 0) (a.wrAt 4 0) (a.lsAt 5 1) (a.wrAt 4 1)
def pv421 (a : Fam F) : FVec F S325x64 .f32 := k2_pay421 (pv419 a) (pv420 a) (a.lsAt 5 2) (a.wrAt 4 2) (a.lsAt 5 3) (a.wrAt 4 3)
def pv422 (a : Fam F) : FVec F S325x64 .f32 := k2_pay422 (pv368 a)
def pv423 (a : Fam F) : FVec F S325x64 .f32 := k2_pay423 (pv368 a) (a.lsAt 5 0) (a.wrAt 4 0)
def pv424 (a : Fam F) : FVec F S325x64 .f32 := k2_pay424 (pv422 a) (pv423 a) (a.lsAt 5 1) (a.wrAt 4 1) (a.lsAt 5 2) (a.wrAt 4 2)
def pv425 (a : Fam F) : FVec F S325x64 .bf16 := k2_pay425 (pv422 a) (a.lsAt 5 3)
def pv426 (a : Fam F) : FVec F S64x64 .bf16 := k2_pay426 (a.wrAt 4 3)
def pv427 (a : Fam F) : FVec F S325x64 .f32 := k2_pay427 (pv424 a) (pv425 a) (pv426 a) (constant S325x64 .f32 0x00000000#32)
def pv428 (a : Fam F) : FVec F S325x64 .f32 := k2_pay428 (pv368 a)
def pv429 (a : Fam F) : FVec F S325x64 .f32 := k2_pay429 (pv368 a) (a.lsAt 5 0) (a.wrAt 4 0) (a.lsAt 5 1) (a.wrAt 4 1)
def pv430 (a : Fam F) : FVec F S325x64 .f32 := k2_pay430 (pv368 a) (a.lsAt 5 2)
def pv431 (a : Fam F) : FVec F S325x64 .f32 := k2_pay431 (pv428 a) (pv429 a) (pv430 a) (a.wrAt 4 2) (a.lsAt 5 3) (a.wrAt 4 3)
def pv432 (a : Fam F) : FVec F S325x64 .f32 := k2_pay432 (pv368 a)
def pv433 (a : Fam F) : FVec F S325x64 .f32 := k2_pay433 (pv368 a) (a.lsAt 5 0) (a.wrAt 4 0)
def pv434 (a : Fam F) : FVec F S325x64 .f32 := k2_pay434 (pv368 a) (a.lsAt 5 1)
def pv435 (a : Fam F) : FVec F S325x64 .f32 := k2_pay435 (pv432 a) (pv433 a) (pv434 a) (a.wrAt 4 1) (a.lsAt 5 2) (a.wrAt 4 2) (a.lsAt 5 3) (a.wrAt 4 3)
def pv436 (a : Fam F) : FVec F S325x64 .f32 := k2_pay436 (pv368 a)
def pv437 (a : Fam F) : FVec F S325x325 .f32 := k2_pay437 (a.lsAt 5 0)
def pv438 (a : Fam F) : FVec F S325x64 .f32 := k2_pay438 (pv436 a) (pv437 a) (a.wrAt 4 0) (a.lsAt 5 1) (a.wrAt 4 1) (a.lsAt 5 2) (a.wrAt 4 2)
def pv439 (a : Fam F) : FVec F S16x325x64 .f32 := k2_pay439 (pv374 a) (pv378 a) (pv382 a) (pv386 a) (pv389 a) (pv395 a) (pv399 a) (pv403 a) (pv407 a) (pv412 a) (pv418 a) (pv421 a) (pv427 a) (pv431 a) (pv435 a) (pv436 a) (pv438 a) (a.lsAt 5 3) (a.wrAt 4 3)
def pv440 (a : Fam F) : FVec F S64 .f32 := k2_pay440 (pv374 a) (pv378 a) (pv382 a) (pv386 a) (pv389 a) (pv395 a) (pv399 a) (pv403 a) (pv407 a) (pv412 a) (pv418 a) (pv421 a) (pv427 a) (pv431 a) (pv435 a) (pv436 a) (pv438 a) (a.lsAt 5 3) (a.wrAt 4 3)
def pv441 (a : Fam F) : FVec F S16x325x64 .f32 := k2_pay441 (pv439 a) (pv440 a) (a.gAt 5) (a.bAt 5)
def pv442 (a : Fam F) : FVec F S325x64 .f32 := k2_pay442 (pv439 a) (pv440 a) (a.gAt 5) (a.bAt 5)
def pv443 (a : Fam F) : FVec F S325x64 .f32 := k2_pay443 (pv439 a) (pv440 a) (a.gAt 5) (a.bAt 5) (a.lsAt 6 0) (a.wrAt 5 0)
def pv444 (a : Fam F) : FVec F S325x64 .bf16 := k2_pay444 (pv439 a) (pv440 a) (a.gAt 5) (a.bAt 5) (a.lsAt 6 1)
def pv445 (a : Fam F) : FVec F S64x64 .bf16 := k2_pay445 (a.wrAt 5 1)
def pv446 (a : Fam F) : FVec F S325x64 .f32 := k2_pay446 (pv442 a) (pv443 a) (pv444 a) (pv445 a) (a.lsAt 6 2) (a.wrAt 5 2) (a.lsAt 6 3) (a.wrAt 5 3)
def pv447 (a : Fam F) : FVec F S325x64 .f32 := k2_pay447 (pv441 a)
def pv448 (a : Fam F) : FVec F S325x64 .f32 := k2_pay448 (pv441 a) (a.lsAt 6 0)
def pv449 (a : Fam F) : FVec F S325x64 .f32 := k2_pay449 (pv447 a) (pv448 a) (a.wrAt 5 0) (a.lsAt 6 1) (a.wrAt 5 1) (a.lsAt 6 2) (a.wrAt 5 2)
def pv450 (a : Fam F) : FVec F S325x64 .f32 := k2_pay450 (pv447 a) (a.lsAt 6 3)
def pv451 (a : Fam F) : FVec F S325x64 .f32 := k2_pay451 (pv449 a) (pv450 a) (a.wrAt 5 3)
def pv452 (a : Fam F) : FVec F S325x64 .f32 := k2_pay452 (pv441 a)
def pv453 (a : Fam F) : FVec F S325x64 .f32 := k2_pay453 (pv441 a) (a.lsAt 6 0) (a.wrAt 5 0) (a.lsAt 6 1) (a.wrAt 5 1)
def pv454 (a : Fam F) : FVec F S325x325 .bf16 := k2_pay454 (a.lsAt 6 2)
def pv455 (a : Fam F) : FVec F S325x64 .f32 := k2_pay455 (pv452 a) (pv453 a) (pv454 a) (a.wrAt 5 2) (a.lsAt 6 3) (a.wrAt 5 3)
def pv456 (a : Fam F) : FVec F S325x64 .f32 := k2_pay456 (pv441 a)
def pv457 (a : Fam F) : FVec F S325x64 .f32 := k2_pay457 (pv441 a) (a.lsAt 6 0) (a.wrAt 5 0)
def pv458 (a : Fam F) : FVec F S325x64 .f32 := k2_pay458 (pv456 a) (pv457 a) (a.lsAt 6 1) (a.wrAt 5 1) (a.lsAt 6 2) (a.wrAt 5 2) (a.lsAt 6 3) (a.wrAt 5 3)
def pv459 (a : Fam F) : FVec F S325x64 .f32 := k2_pay459 (pv441 a)
def pv460 (a : Fam F) : FVec F S325x64 .f32 := k2_pay460 (pv441 a) (a.lsAt 6 0) (a.wrAt 5 0) (a.lsAt 6 1) (a.wrAt 5 1)
def pv461 (a : Fam F) : FVec F S64x64 .f32 := k2_pay461 (a.wrAt 5 2)
def pv462 (a : Fam F) : FVec F S325x64 .bf16 := k2_pay462 (pv441 a) (a.lsAt 6 2)
def pv463 (a : Fam F) : FVec F S325x64 .f32 := k2_pay463 (pv459 a) (pv460 a) (pv461 a) (pv462 a) (a.lsAt 6 3) (a.wrAt 5 3)
def pv464 (a : Fam F) : FVec F S325x64 .f32 := k2_pay464 (pv441 a)
def pv465 (a : Fam F) : FVec F S325x64 .f32 := k2_pay465 (pv441 a) (a.lsAt 6 0) (a.wrAt 5 0)
def pv466 (a : Fam F) : FVec F S325x64 .f32 := k2_pay466 (pv441 a) (a.lsAt 6 1)
def pv467 (a : Fam F) : FVec F S325x64 .f32 := k2_pay467 (pv464 a) (pv465 a) (pv466 a) (a.wrAt 5 1) (a.lsAt 6 2) (a.wrAt 5 2) (a.lsAt 6 3) (a.wrAt 5 3)
def pv468 (a : Fam F) : FVec F S325x64 .f32 := k2_pay468 (pv441 a)
def pv469 (a : Fam F) : FVec F S325x325 .bf16 := k2_pay469 (a.lsAt 6 0)
def pv470 (a : Fam F) : FVec F S325x64 .bf16 := k2_pay470 (pv441 a)
def pv471 (a : Fam F) : FVec F S325x64 .f32 := k2_pay471 (pv468 a) (pv469 a) (pv470 a) (a.wrAt 5 0) (a.lsAt 6 1) (a.wrAt 5 1) (a.lsAt 6 2) (a.wrAt 5 2)
def pv472 (a : Fam F) : FVec F S325x325 .f32 := k2_pay472 (a.lsAt 6 3)
def pv473 (a : Fam F) : FVec F S325x64 .f32 := k2_pay473 (pv468 a) (pv471 a) (pv472 a) (a.wrAt 5 3)
def pv474 (a : Fam F) : FVec F S325x64 .f32 := k2_pay474 (pv441 a)
def pv475 (a : Fam F) : FVec F S325x64 .f32 := k2_pay475 (pv441 a) (a.lsAt 6 0) (a.wrAt 5 0) (a.lsAt 6 1) (a.wrAt 5 1)
def pv476 (a : Fam F) : FVec F S325x64 .f32 := k2_pay476 (pv474 a) (pv475 a) (a.lsAt 6 2) (a.wrAt 5 2) (a.lsAt 6 3) (a.wrAt 5 3)
def pv477 (a : Fam F) : FVec F S325x64 .f32 := k2_pay477 (pv441 a)
def pv478 (a : Fam F) : FVec F S325x64 .bf16 := k2_pay478 (pv441 a) (a.lsAt 6 0)
def pv479 (a : Fam F) : FVec F S64x64 .bf16 := k2_pay479 (a.wrAt 5 0)
def pv480 (a : Fam F) : FVec F S325x64 .f32 := k2_pay480 (pv477 a) (pv478 a) (pv479 a) (a.lsAt 6 1) (a.wrAt 5 1) (a.lsAt 6 2) (a.wrAt 5 2)
def pv481 (a : Fam F) : FVec F S325x64 .f32 := k2_pay481 (pv477 a) (a.lsAt 6 3)
def pv482 (a : Fam F) : FVec F S64x64 .f32 := k2_pay482 (a.wrAt 5 3)
def pv483 (a : Fam F) : FVec F S325x64 .f32 := k2_pay483 (pv480 a) (pv481 a) (pv482 a)
def pv484 (a : Fam F) : FVec F S325x64 .f32 := k2_pay484 (pv441 a)
def pv485 (a : Fam F) : FVec F S325x64 .f32 := k2_pay485 (pv441 a) (a.lsAt 6 0) (a.wrAt 5 0) (a.lsAt 6 1) (a.wrAt 5 1)
def pv486 (a : Fam F) : FVec F S325x64 .f32 := k2_pay486 (pv441 a) (a.lsAt 6 2)
def pv487 (a : Fam F) : FVec F S325x64 .f32 := k2_pay487 (pv484 a) (pv485 a) (pv486 a) (a.wrAt 5 2) (a.lsAt 6 3) (a.wrAt 5 3)
def pv488 (a : Fam F) : FVec F S325x64 .f32 := k2_pay488 (pv441 a)
def pv489 (a : Fam F) : FVec F S325x64 .f32 := k2_pay489 (pv441 a) (a.lsAt 6 0) (a.wrAt 5 0)
def pv490 (a : Fam F) : FVec F S325x325 .bf16 := k2_pay490 (a.lsAt 6 1)
def pv491 (a : Fam F) : FVec F S325x64 .bf16 := k2_pay491 (pv441 a)
def pv492 (a : Fam F) : FVec F S325x64 .f32 := k2_pay492 (pv488 a) (pv489 a) (pv490 a) (pv491 a) (a.wrAt 5 1) (a.lsAt 6 2) (a.wrAt 5 2) (a.lsAt 6 3) (a.wrAt 5 3)
def pv493 (a : Fam F) : FVec F S325x64 .f32 := k2_pay493 (pv441 a)
def pv494 (a : Fam F) : FVec F S325x64 .f32 := k2_pay494 (pv493 a) (a.lsAt 6 0) (a.wrAt 5 0) (a.lsAt 6 1) (a.wrAt 5 1) (a.lsAt 6 2) (a.wrAt 5 2)
def pv495 (a : Fam F) : FVec F S325x64 .f32 := k2_pay495 (pv493 a) (pv494 a) (a.lsAt 6 3) (a.wrAt 5 3)
def pv496 (a : Fam F) : FVec F S325x64 .f32 := k2_pay496 (pv441 a)
def pv497 (a : Fam F) : FVec F S325x64 .f32 := k2_pay497 (pv441 a) (a.lsAt 6 0) (a.wrAt 5 0)
def pv498 (a : Fam F) : FVec F S325x64 .bf16 := k2_pay498 (pv441 a) (a.lsAt 6 1)
def pv499 (a : Fam F) : FVec F S64x64 .bf16 := k2_pay499 (a.wrAt 5 1)
def pv500 (a : Fam F) : FVec F S325x64 .f32 := k2_pay500 (pv496 a) (pv497 a) (pv498 a) (pv499 a) (a.lsAt 6 2) (a.wrAt 5 2) (a.lsAt 6 3) (a.wrAt 5 3)
def pv501 (a : Fam F) : FVec F S325x64 .f32 := k2_pay501 (pv441 a)
def pv502 (a : Fam F) : FVec F S325x64 .f32 := k2_pay502 (pv441 a) (a.lsAt 6 0)
def pv503 (a : Fam F) : FVec F S325x64 .f32 := k2_pay503 (pv501 a) (pv502 a) (a.wrAt 5 0) (a.lsAt 6 1) (a.wrAt 5 1) (a.lsAt 6 2) (a.wrAt 5 2)
def pv504 (a : Fam F) : FVec F S325x64 .f32 := k2_pay504 (pv501 a) (a.lsAt 6 3)
def pv505 (a : Fam F) : FVec F S325x64 .f32 := k2_pay505 (pv503 a) (pv504 a) (a.wrAt 5 3)
def pv506 (a : Fam F) : FVec F S325x64 .f32 := k2_pay506 (pv441 a)
def pv507 (a : Fam F) : FVec F S325x64 .f32 := k2_pay507 (pv441 a) (a.lsAt 6 0) (a.wrAt 5 0) (a.lsAt 6 1) (a.wrAt 5 1)
def pv508 (a : Fam F) : FVec F S325x325 .bf16 := k2_pay508 (a.lsAt 6 2)
def pv509 (a : Fam F) : FVec F S325x64 .f32 := k2_pay509 (pv506 a) (pv507 a) (pv508 a) (a.wrAt 5 2) (a.lsAt 6 3) (a.wrAt 5 3)
def pv510 (a : Fam F) : FVec F S325x64 .f32 := k2_pay510 (pv441 a)
def pv511 (a : Fam F) : FVec F S325x64 .f32 := k2_pay511 (pv441 a) (a.lsAt 6 0) (a.wrAt 5 0)
def pv512 (a : Fam F) : FVec F S325x64 .f32 := k2_pay512 (pv510 a) (pv511 a) (a.lsAt 6 1) (a.wrAt 5 1) (a.lsAt 6 2) (a.wrAt 5 2) (a.lsAt 6 3) (a.wrAt 5 3)
def pv513 (a : Fam F) : FVec F S16x325x64 .f32 := k2_pay513 (pv446 a) (pv451 a) (pv455 a) (pv458 a) (pv463 a) (pv467 a) (pv473 a) (pv476 a) (pv483 a) (pv487 a) (pv492 a) (pv495 a) (pv500 a) (pv505 a) (pv509 a) (pv512 a) (a.gAt 6) (a.bAt 6)
def pv514 (a : Fam F) : FVec F S16x325x64 .f32 := k2_pay514 (pv513 a)
def pv515 (a : Fam F) : FVec F S325x64 .f32 := k2_pay515 (pv513 a)
def pv516 (a : Fam F) : FVec F S325x64 .f32 := k2_pay516 (pv513 a) (a.lsAt 7 0) (a.wrAt 6 0) (a.lsAt 7 1) (a.wrAt 6 1)
def pv517 (a : Fam F) : FVec F S325x64 .f32 := k2_pay517 (pv513 a) (a.lsAt 7 2)
def pv518 (a : Fam F) : FVec F S325x64 .f32 := k2_pay518 (pv515 a) (pv516 a) (pv517 a) (a.wrAt 6 2) (a.lsAt 7 3) (a.wrAt 6 3)
def pv519 (a : Fam F) : FVec F S325x64 .f32 := k2_pay519 (pv514 a)
def pv520 (a : Fam F) : FVec F S325x64 .f32 := k2_pay520 (pv514 a) (a.lsAt 7 0) (a.wrAt 6 0)
def pv521 (a : Fam F) : FVec F S325x64 .f32 := k2_pay521 (pv514 a) (a.lsAt 7 1)
def pv522 (a : Fam F) : FVec F S325x64 .f32 := k2_pay522 (pv519 a) (pv520 a) (pv521 a) (a.wrAt 6 1) (a.lsAt 7 2) (a.wrAt 6 2) (a.lsAt 7 3) (a.wrAt 6 3)
def pv523 (a : Fam F) : FVec F S325x64 .f32 := k2_pay523 (pv514 a)
def pv524 (a : Fam F) : FVec F S325x64 .f32 := k2_pay524 (pv523 a) (a.lsAt 7 0) (a.wrAt 6 0) (a.lsAt 7 1) (a.wrAt 6 1) (a.lsAt 7 2) (a.wrAt 6 2)
def pv525 (a : Fam F) : FVec F S325x64 .f32 := k2_pay525 (pv523 a) (pv524 a) (a.lsAt 7 3) (a.wrAt 6 3)
def pv526 (a : Fam F) : FVec F S325x64 .f32 := k2_pay526 (pv514 a)
def pv527 (a : Fam F) : FVec F S325x64 .f32 := k2_pay527 (pv514 a) (a.lsAt 7 0) (a.wrAt 6 0)
def pv528 (a : Fam F) : FVec F S325x64 .f32 := k2_pay528 (pv514 a) (a.lsAt 7 1) (a.wrAt 6 1)
def pv529 (a : Fam F) : FVec F S325x64 .f32 := k2_pay529 (pv526 a) (pv527 a) (pv528 a) (a.lsAt 7 2) (a.wrAt 6 2) (a.lsAt 7 3) (a.wrAt 6 3)
def pv530 (a : Fam F) : FVec F S325x64 .f32 := k2_pay530 (pv514 a)
def pv531 (a : Fam F) : FVec F S325x64 .f32 := k2_pay531 (pv514 a) (a.lsAt 7 0)
def pv532 (a : Fam F) : FVec F S325x64 .f32 := k2_pay532 (pv530 a) (pv531 a) (a.wrAt 6 0) (a.lsAt 7 1) (a.wrAt 6 1) (a.lsAt 7 2) (a.wrAt 6 2)
def pv533 (a : Fam F) : FVec F S325x64 .f32 := k2_pay533 (pv530 a) (a.lsAt 7 3)
def pv534 (a : Fam F) : FVec F S325x64 .f32 := k2_pay534 (pv532 a) (pv533 a) (a.wrAt 6 3)
def pv535 (a : Fam F) : FVec F S325x64 .f32 := k2_pay535 (pv514 a)
def pv536 (a : Fam F) : FVec F S325x64 .f32 := k2_pay536 (pv514 a) (a.lsAt 7 0) (a.wrAt 6 0) (a.lsAt 7 1) (a.wrAt 6 1)
def pv537 (a : Fam F) : FVec F S325x325 .bf16 := k2_pay537 (a.lsAt 7 2)
def pv538 (a : Fam F) : FVec F S325x64 .bf16 := k2_pay538 (pv514 a)
def pv539 (a : Fam F) : FVec F S325x64 .f32 := k2_pay539 (pv535 a) (pv536 a) (pv537 a) (pv538 a) (constant S325x64 .f32 0x00000000#32) (a.wrAt 6 2) (a.lsAt 7 3) (a.wrAt 6 3)
def pv540 (a : Fam F) : FVec F S325x64 .f32 := k2_pay540 (pv514 a)
def pv541 (a : Fam F) : FVec F S325x64 .f32 := k2_pay541 (pv514 a) (a.lsAt 7 0) (a.wrAt 6 0)
def pv542 (a : Fam F) : FVec F S325x64 .f32 := k2_pay542 (pv540 a) (pv541 a) (a.lsAt 7 1) (a.wrAt 6 1) (a.lsAt 7 2) (a.wrAt 6 2) (a.lsAt 7 3) (a.wrAt 6 3)
def pv543 (a : Fam F) : FVec F S325x64 .f32 := k2_pay543 (pv514 a)
def pv544 (a : Fam F) : FVec F S325x64 .f32 := k2_pay544 (pv543 a) (a.lsAt 7 0) (a.wrAt 6 0) (a.lsAt 7 1) (a.wrAt 6 1)
def pv545 (a : Fam F) : FVec F S325x64 .bf16 := k2_pay545 (pv543 a) (a.lsAt 7 2)
def pv546 (a : Fam F) : FVec F S64x64 .bf16 := k2_pay546 (a.wrAt 6 2)
def pv547 (a : Fam F) : FVec F S325x64 .f32 := k2_pay547 (pv543 a) (pv544 a) (pv545 a) (pv546 a) (constant S325x64 .f32 0x00000000#32) (a.lsAt 7 3) (a.wrAt 6 3)
def pv548 (a : Fam F) : FVec F S325x64 .f32 := k2_pay548 (pv514 a)
def pv549 (a : Fam F) : FVec F S325x64 .f32 := k2_pay549 (pv514 a) (a.lsAt 7 0) (a.wrAt 6 0)
def pv550 (a : Fam F) : FVec F S325x64 .f32 := k2_pay550 (pv514 a) (a.lsAt 7 1)
def pv551 (a : Fam F) : FVec F S325x64 .f32 := k2_pay551 (pv548 a) (pv549 a) (pv550 a) (a.wrAt 6 1) (a.lsAt 7 2) (a.wrAt 6 2) (a.lsAt 7 3) (a.wrAt 6 3)
def pv552 (a : Fam F) : FVec F S325x64 .f32 := k2_pay552 (pv514 a)
def pv553 (a : Fam F) : FVec F S325x64 .f32 := k2_pay553 (pv514 a) (a.lsAt 7 0)
def pv554 (a : Fam F) : FVec F S325x64 .f32 := k2_pay554 (pv552 a) (pv553 a) (a.wrAt 6 0) (a.lsAt 7 1) (a.wrAt 6 1) (a.lsAt 7 2) (a.wrAt 6 2)
def pv555 (a : Fam F) : FVec F S325x325 .bf16 := k2_pay555 (a.lsAt 7 3)
def pv556 (a : Fam F) : FVec F S325x64 .bf16 := k2_pay556 (pv552 a)
def pv557 (a : Fam F) : FVec F S325x64 .f32 := k2_pay557 (pv554 a) (pv555 a) (pv556 a) (a.wrAt 6 3)
def pv558 (a : Fam F) : FVec F S325x64 .f32 := k2_pay558 (pv514 a)
def pv559 (a : Fam F) : FVec F S325x64 .f32 := k2_pay559 (pv514 a) (a.lsAt 7 0) (a.wrAt 6 0) (a.lsAt 7 1) (a.wrAt 6 1)
def pv560 (a : Fam F) : FVec F S325x64 .f32 := k2_pay560 (pv558 a) (pv559 a) (a.lsAt 7 2) (a.wrAt 6 2) (a.lsAt 7 3) (a.wrAt 6 3)
def pv561 (a : Fam F) : FVec F S325x64 .f32 := k2_pay561 (pv514 a)
def pv562 (a : Fam F) : FVec F S325x64 .f32 := k2_pay562 (pv514 a) (a.lsAt 7 0) (a.wrAt 6 0)
def pv563 (a : Fam F) : FVec F S325x64 .f32 := k2_pay563 (pv561 a) (pv562 a) (a.lsAt 7 1) (a.wrAt 6 1) (a.lsAt 7 2) (a.wrAt 6 2)
def pv564 (a : Fam F) : FVec F S325x64 .bf16 := k2_pay564 (pv561 a) (a.lsAt 7 3)
def pv565 (a : Fam F) : FVec F S64x64 .bf16 := k2_pay565 (a.wrAt 6 3)
def pv566 (a : Fam F) : FVec F S325x64 .f32 := k2_pay566 (pv563 a) (pv564 a) (pv565 a)
def pv567 (a : Fam F) : FVec F S325x64 .f32 := k2_pay567 (pv514 a)
def pv568 (a : Fam F) : FVec F S325x64 .f32 := k2_pay568 (pv514 a) (a.lsAt 7 0) (a.wrAt 6 0) (a.lsAt 7 1) (a.wrAt 6 1)
def pv569 (a : Fam F) : FVec F S325x64 .f32 := k2_pay569 (pv514 a) (a.lsAt 7 2)
def pv570 (a : Fam F) : FVec F S325x64 .f32 := k2_pay570 (pv567 a) (pv568 a) (pv569 a) (a.wrAt 6 2) (a.lsAt 7 3) (a.wrAt 6 3)
def pv571 (a : Fam F) : FVec F S325x64 .f32 := k2_pay571 (pv514 a)
def pv572 (a : Fam F) : FVec F S325x64 .f32 := k2_pay572 (pv514 a) (a.lsAt 7 0) (a.wrAt 6 0)
def pv573 (a : Fam F) : FVec F S325x64 .f32 := k2_pay573 (pv514 a) (a.lsAt 7 1)
def pv574 (a : Fam F) : FVec F S325x64 .f32 := k2_pay574 (pv571 a) (pv572 a) (pv573 a) (a.wrAt 6 1) (a.lsAt 7 2) (a.wrAt 6 2) (a.lsAt 7 3) (a.wrAt 6 3)
def pv575 (a : Fam F) : FVec F S325x64 .f32 := k2_pay575 (pv514 a)
def pv576 (a : Fam F) : FVec F S325x64 .f32 := k2_pay576 (pv575 a) (a.lsAt 7 0) (a.wrAt 6 0) (a.lsAt 7 1) (a.wrAt 6 1) (a.lsAt 7 2) (a.wrAt 6 2)
def pv577 (a : Fam F) : FVec F S325x64 .f32 := k2_pay577 (pv575 a) (pv576 a) (a.lsAt 7 3) (a.wrAt 6 3)
def pv578 (a : Fam F) : FVec F S325x64 .f32 := k2_pay578 (pv514 a)
def pv579 (a : Fam F) : FVec F S325x64 .f32 := k2_pay579 (pv514 a) (a.lsAt 7 0) (a.wrAt 6 0)
def pv580 (a : Fam F) : FVec F S325x64 .f32 := k2_pay580 (pv514 a) (a.lsAt 7 1) (a.wrAt 6 1)
def pv581 (a : Fam F) : FVec F S16x325x64 .f32 := k2_pay581 (pv518 a) (pv522 a) (pv525 a) (pv529 a) (pv534 a) (pv539 a) (pv542 a) (pv547 a) (pv551 a) (pv557 a) (pv560 a) (pv566 a) (pv570 a) (pv574 a) (pv577 a) (pv578 a) (pv579 a) (pv580 a) (a.lsAt 7 2) (a.wrAt 6 2) (a.lsAt 7 3) (a.wrAt 6 3)
def pv582 (a : Fam F) : FVec F S16x325x64 .f32 := k2_pay582 (pv581 a) (a.gAt 7) (a.bAt 7)
def pv583 (a : Fam F) : FVec F S325x64 .f32 := k2_pay583 (pv581 a) (a.gAt 7) (a.bAt 7)
def pv584 (a : Fam F) : FVec F S325x64 .f32 := k2_pay584 (pv581 a) (a.gAt 7) (a.bAt 7) (a.lsAt 8 0)
def pv585 (a : Fam F) : FVec F S325x64 .f32 := k2_pay585 (pv583 a) (pv584 a) (a.wrAt 7 0) (a.lsAt 8 1) (a.wrAt 7 1) (a.lsAt 8 2) (a.wrAt 7 2)
def pv586 (a : Fam F) : FVec F S325x64 .f32 := k2_pay586 (pv583 a) (a.lsAt 8 3)
def pv587 (a : Fam F) : FVec F S325x64 .f32 := k2_pay587 (pv585 a) (pv586 a) (a.wrAt 7 3)
def pv588 (a : Fam F) : FVec F S325x64 .f32 := k2_pay588 (pv582 a)
def pv589 (a : Fam F) : FVec F S325x64 .f32 := k2_pay589 (pv582 a) (a.lsAt 8 0) (a.wrAt 7 0) (a.lsAt 8 1) (a.wrAt 7 1)
def pv590 (a : Fam F) : FVec F S325x325 .f32 := k2_pay590 (a.lsAt 8 2)
def pv591 (a : Fam F) : FVec F S325x64 .f32 := k2_pay591 (pv588 a) (pv589 a) (pv590 a) (a.wrAt 7 2) (a.lsAt 8 3) (a.wrAt 7 3)
def pv592 (a : Fam F) : FVec F S325x64 .f32 := k2_pay592 (pv582 a)
def pv593 (a : Fam F) : FVec F S325x64 .f32 := k2_pay593 (pv582 a) (a.lsAt 8 0) (a.wrAt 7 0)
def pv594 (a : Fam F) : FVec F S325x64 .f32 := k2_pay594 (pv592 a) (pv593 a) (a.lsAt 8 1) (a.wrAt 7 1) (a.lsAt 8 2) (a.wrAt 7 2)
def pv595 (a : Fam F) : FVec F S325x64 .f32 := k2_pay595 (pv592 a) (a.lsAt 8 3) (a.wrAt 7 3)
def pv596 (a : Fam F) : FVec F S325x64 .f32 := k2_pay596 (pv594 a) (pv595 a)
def pv597 (a : Fam F) : FVec F S325x64 .f32 := k2_pay597 (pv582 a)
def pv598 (a : Fam F) : FVec F S325x64 .f32 := k2_pay598 (pv582 a) (a.lsAt 8 0) (a.wrAt 7 0) (a.lsAt 8 1) (a.wrAt 7 1)
def pv599 (a : Fam F) : FVec F S325x64 .f32 := k2_pay599 (pv582 a) (a.lsAt 8 2)
def pv600 (a : Fam F) : FVec F S64x64 .f32 := k2_pay600 (a.wrAt 7 2)
def pv601 (a : Fam F) : FVec F S325x64 .f32 := k2_pay601 (pv597 a) (pv598 a) (pv599 a) (pv600 a) (a.lsAt 8 3) (a.wrAt 7 3)
def pv602 (a : Fam F) : FVec F S325x64 .f32 := k2_pay602 (pv582 a)
def pv603 (a : Fam F) : FVec F S325x64 .f32 := k2_pay603 (pv582 a) (a.lsAt 8 0) (a.wrAt 7 0)
def pv604 (a : Fam F) : FVec F S325x64 .f32 := k2_pay604 (pv582 a) (a.lsAt 8 1)
def pv605 (a : Fam F) : FVec F S325x64 .f32 := k2_pay605 (pv602 a) (pv603 a) (pv604 a) (a.wrAt 7 1) (a.lsAt 8 2) (a.wrAt 7 2) (a.lsAt 8 3) (a.wrAt 7 3)
def pv606 (a : Fam F) : FVec F S325x64 .f32 := k2_pay606 (pv582 a)
def pv607 (a : Fam F) : FVec F S325x325 .bf16 := k2_pay607 (a.lsAt 8 0)
def pv608 (a : Fam F) : FVec F S325x64 .f32 := k2_pay608 (pv606 a) (pv607 a) (a.wrAt 7 0) (a.lsAt 8 1) (a.wrAt 7 1) (a.lsAt 8 2) (a.wrAt 7 2)
def pv609 (a : Fam F) : FVec F S325x64 .f32 := k2_pay609 (pv606 a) (pv608 a) (a.lsAt 8 3) (a.wrAt 7 3)
def pv610 (a : Fam F) : FVec F S325x64 .f32 := k2_pay610 (pv582 a)
def pv611 (a : Fam F) : FVec F S325x64 .f32 := k2_pay611 (pv582 a) (a.lsAt 8 0) (a.wrAt 7 0) (a.lsAt 8 1) (a.wrAt 7 1)
def pv612 (a : Fam F) : FVec F S325x64 .f32 := k2_pay612 (pv610 a) (pv611 a) (a.lsAt 8 2) (a.wrAt 7 2) (a.lsAt 8 3) (a.wrAt 7 3)
def pv613 (a : Fam F) : FVec F S325x64 .f32 := k2_pay613 (pv582 a)
def pv614 (a : Fam F) : FVec F S64x64 .f32 := k2_pay614 (a.wrAt 7 0)
def pv615 (a : Fam F) : FVec F S325x64 .bf16 := k2_pay615 (pv582 a) (a.lsAt 8 0)
def pv616 (a : Fam F) : FVec F S325x64 .f32 := k2_pay616 (pv613 a) (pv614 a) (pv615 a) (a.lsAt 8 1) (a.wrAt 7 1) (a.lsAt 8 2) (a.wrAt 7 2)
def pv617 (a : Fam F) : FVec F S325x64 .f32 := k2_pay617 (pv613 a) (a.lsAt 8 3)
def pv618 (a : Fam F) : FVec F S325x64 .f32 := k2_pay618 (pv616 a) (pv617 a) (a.wrAt 7 3)
def pv619 (a : Fam F) : FVec F S325x64 .f32 := k2_pay619 (pv582 a)
def pv620 (a : Fam F) : FVec F S325x64 .f32 := k2_pay620 (pv582 a) (a.lsAt 8 0) (a.wrAt 7 0) (a.lsAt 8 1) (a.wrAt 7 1)
def pv621 (a : Fam F) : FVec F S325x64 .f32 := k2_pay621 (pv582 a) (a.lsAt 8 2)
def pv622 (a : Fam F) : FVec F S325x64 .f32 := k2_pay622 (pv619 a) (pv620 a) (pv621 a) (a.wrAt 7 2) (a.lsAt 8 3) (a.wrAt 7 3)
def pv623 (a : Fam F) : FVec F S325x64 .f32 := k2_pay623 (pv582 a)
def pv624 (a : Fam F) : FVec F S325x64 .f32 := k2_pay624 (pv582 a) (a.lsAt 8 0) (a.wrAt 7 0)
def pv625 (a : Fam F) : FVec F S325x325 .bf16 := k2_pay625 (a.lsAt 8 1)
def pv626 (a : Fam F) : FVec F S325x64 .f32 := k2_pay626 (pv623 a) (pv624 a) (pv625 a) (a.wrAt 7 1) (a.lsAt 8 2) (a.wrAt 7 2) (a.lsAt 8 3) (a.wrAt 7 3)
def pv627 (a : Fam F) : FVec F S325x64 .f32 := k2_pay627 (pv582 a)
def pv628 (a : Fam F) : FVec F S325x64 .f32 := k2_pay628 (pv627 a) (a.lsAt 8 0) (a.wrAt 7 0) (a.lsAt 8 1) (a.wrAt 7 1) (a.lsAt 8 2) (a.wrAt 7 2)
def pv629 (a : Fam F) : FVec F S325x64 .f32 := k2_pay629 (pv627 a) (pv628 a) (a.lsAt 8 3) (a.wrAt 7 3)
def pv630 (a : Fam F) : FVec F S325x64 .f32 := k2_pay630 (pv582 a)
def pv631 (a : Fam F) : FVec F S325x64 .f32 := k2_pay631 (pv582 a) (a.lsAt 8 0) (a.wrAt 7 0)
def pv632 (a : Fam F) : FVec F S64x64 .f32 := k2_pay632 (a.wrAt 7 1)
def pv633 (a : Fam F) : FVec F S325x64 .bf16 := k2_pay633 (pv582 a) (a.lsAt 8 1)
def pv634 (a : Fam F) : FVec F S325x64 .f32 := k2_pay634 (pv630 a) (pv631 a) (pv632 a) (pv633 a) (a.lsAt 8 2) (a.wrAt 7 2) (a.lsAt 8 3) (a.wrAt 7 3)
def pv635 (a : Fam F) : FVec F S325x64 .f32 := k2_pay635 (pv582 a)
def pv636 (a : Fam F) : FVec F S325x64 .f32 := k2_pay636 (pv582 a) (a.lsAt 8 0)
def pv637 (a : Fam F) : FVec F S325x64 .f32 := k2_pay637 (pv635 a) (pv636 a) (a.wrAt 7 0) (a.lsAt 8 1) (a.wrAt 7 1) (a.lsAt 8 2) (a.wrAt 7 2)
def pv638 (a : Fam F) : FVec F S325x64 .f32 := k2_pay638 (pv635 a) (a.lsAt 8 3)
def pv639 (a : Fam F) : FVec F S325x64 .f32 := k2_pay639 (pv637 a) (pv638 a) (a.wrAt 7 3)
def pv640 (a : Fam F) : FVec F S325x64 .f32 := k2_pay640 (pv582 a)
def pv641 (a : Fam F) : FVec F S325x64 .f32 := k2_pay641 (pv582 a) (a.lsAt 8 0) (a.wrAt 7 0) (a.lsAt 8 1) (a.wrAt 7 1)
def pv642 (a : Fam F) : FVec F S325x325 .f32 := k2_pay642 (a.lsAt 8 2)
def pv643 (a : Fam F) : FVec F S325x64 .f32 := k2_pay643 (pv640 a) (pv641 a) (pv642 a) (a.wrAt 7 2) (a.lsAt 8 3) (a.wrAt 7 3)
def pv644 (a : Fam F) : FVec F S325x64 .f32 := k2_pay644 (pv582 a)
def pv645 (a : Fam F) : FVec F S325x64 .f32 := k2_pay645 (pv582 a) (a.lsAt 8 0) (a.wrAt 7 0)
def pv646 (a : Fam F) : FVec F S325x64 .f32 := k2_pay646 (pv644 a) (pv645 a) (a.lsAt 8 1) (a.wrAt 7 1) (a.lsAt 8 2) (a.wrAt 7 2)
def pv647 (a : Fam F) : FVec F S325x64 .f32 := k2_pay647 (pv644 a) (a.lsAt 8 3) (a.wrAt 7 3)
def pv648 (a : Fam F) : FVec F S325x64 .f32 := k2_pay648 (pv646 a) (pv647 a)
def pv649 (a : Fam F) : FVec F S325x64 .f32 := k2_pay649 (pv582 a)
def pv650 (a : Fam F) : FVec F S325x64 .f32 := k2_pay650 (pv582 a) (a.lsAt 8 0) (a.wrAt 7 0) (a.lsAt 8 1) (a.wrAt 7 1)
def pv651 (a : Fam F) : FVec F S325x64 .f32 := k2_pay651 (pv582 a) (a.lsAt 8 2)
def pv652 (a : Fam F) : FVec F S64x64 .f32 := k2_pay652 (a.wrAt 7 2)
def pv653 (a : Fam F) : FVec F S16x325x64 .f32 := k2_pay653 (pv587 a) (pv591 a) (pv596 a) (pv601 a) (pv605 a) (pv609 a) (pv612 a) (pv618 a) (pv622 a) (pv626 a) (pv629 a) (pv634 a) (pv639 a) (pv643 a) (pv648 a) (pv649 a) (pv650 a) (pv651 a) (pv652 a) (a.lsAt 8 3) (a.wrAt 7 3)
def pv654 (a : Fam F) : FVec F S16x64 .f32 := k2_pay654 (pv587 a) (pv591 a) (pv596 a) (pv601 a) (pv605 a) (pv609 a) (pv612 a) (pv618 a) (pv622 a) (pv626 a) (pv629 a) (pv634 a) (pv639 a) (pv643 a) (pv648 a) (pv649 a) (pv650 a) (pv651 a) (pv652 a) (a.lsAt 8 3) (a.wrAt 7 3)
def pv655 (a : Fam F) : FVec F S16x325x64 .f32 := k2_pay655 (pv653 a) (pv654 a) (Scalar.ofBits .f32 0x43A28000#32) (a.gAt 8) (a.bAt 8)
def pv656 (a : Fam F) : FVec F S325x64 .f32 := k2_pay656 (pv653 a) (pv654 a) (Scalar.ofBits .f32 0x43A28000#32) (a.gAt 8) (a.bAt 8)
def pv657 (a : Fam F) : FVec F S325x64 .f32 := k2_pay657 (pv653 a) (pv654 a) (Scalar.ofBits .f32 0x43A28000#32) (a.gAt 8) (a.bAt 8) (a.lsAt 9 0) (a.wrAt 8 0)
def pv658 (a : Fam F) : FVec F S325x325 .bf16 := k2_pay658 (a.lsAt 9 1)
def pv659 (a : Fam F) : FVec F S325x64 .bf16 := k2_pay659 (pv653 a) (pv654 a) (Scalar.ofBits .f32 0x43A28000#32) (a.gAt 8) (a.bAt 8)
def pv660 (a : Fam F) : FVec F S325x64 .f32 := k2_pay660 (pv656 a) (pv657 a) (pv658 a) (pv659 a) (constant S325x64 .f32 0x00000000#32) (a.wrAt 8 1) (a.lsAt 9 2) (a.wrAt 8 2) (a.lsAt 9 3) (a.wrAt 8 3)
def pv661 (a : Fam F) : FVec F S325x64 .f32 := k2_pay661 (pv655 a)
def pv662 (a : Fam F) : FVec F S325x64 .f32 := k2_pay662 (pv661 a) (a.lsAt 9 0) (a.wrAt 8 0) (a.lsAt 9 1) (a.wrAt 8 1) (a.lsAt 9 2) (a.wrAt 8 2)
def pv663 (a : Fam F) : FVec F S325x64 .f32 := k2_pay663 (pv661 a) (pv662 a) (a.lsAt 9 3) (a.wrAt 8 3)
def pv664 (a : Fam F) : FVec F S325x64 .f32 := k2_pay664 (pv655 a)
def pv665 (a : Fam F) : FVec F S325x64 .f32 := k2_pay665 (pv655 a) (a.lsAt 9 0) (a.wrAt 8 0)
def pv666 (a : Fam F) : FVec F S325x64 .bf16 := k2_pay666 (pv655 a) (a.lsAt 9 1)
def pv667 (a : Fam F) : FVec F S64x64 .bf16 := k2_pay667 (a.wrAt 8 1)
def pv668 (a : Fam F) : FVec F S325x64 .f32 := k2_pay668 (pv664 a) (pv665 a) (pv666 a) (pv667 a) (constant S325x64 .f32 0x00000000#32) (a.lsAt 9 2) (a.wrAt 8 2) (a.lsAt 9 3) (a.wrAt 8 3)
def pv669 (a : Fam F) : FVec F S325x64 .f32 := k2_pay669 (pv655 a)
def pv670 (a : Fam F) : FVec F S325x64 .f32 := k2_pay670 (pv655 a) (a.lsAt 9 0)
def pv671 (a : Fam F) : FVec F S325x64 .f32 := k2_pay671 (pv669 a) (pv670 a) (a.wrAt 8 0) (a.lsAt 9 1) (a.wrAt 8 1) (a.lsAt 9 2) (a.wrAt 8 2)
def pv672 (a : Fam F) : FVec F S325x64 .f32 := k2_pay672 (pv669 a) (a.lsAt 9 3)
def pv673 (a : Fam F) : FVec F S325x64 .f32 := k2_pay673 (pv671 a) (pv672 a) (a.wrAt 8 3)
def pv674 (a : Fam F) : FVec F S325x64 .f32 := k2_pay674 (pv655 a)
def pv675 (a : Fam F) : FVec F S325x64 .f32 := k2_pay675 (pv655 a) (a.lsAt 9 0) (a.wrAt 8 0) (a.lsAt 9 1) (a.wrAt 8 1)
def pv676 (a : Fam F) : FVec F S325x325 .bf16 := k2_pay676 (a.lsAt 9 2)
def pv677 (a : Fam F) : FVec F S325x64 .bf16 := k2_pay677 (pv655 a)
def pv678 (a : Fam F) : FVec F S325x64 .f32 := k2_pay678 (pv674 a) (pv675 a) (pv676 a) (pv677 a) (a.wrAt 8 2) (a.lsAt 9 3) (a.wrAt 8 3)
def pv679 (a : Fam F) : FVec F S325x64 .f32 := k2_pay679 (pv655 a)
def pv680 (a : Fam F) : FVec F S325x64 .f32 := k2_pay680 (pv655 a) (a.lsAt 9 0) (a.wrAt 8 0)
def pv681 (a : Fam F) : FVec F S325x64 .f32 := k2_pay681 (pv679 a) (pv680 a) (a.lsAt 9 1) (a.wrAt 8 1) (a.lsAt 9 2) (a.wrAt 8 2) (a.lsAt 9 3) (a.wrAt 8 3)
def pv682 (a : Fam F) : FVec F S1x325x64 .f32 := k2_pay682 (pv655 a)
def pv683 (a : Fam F) : FVec F S325x64 .f32 := k2_pay683 (pv682 a)
def pv684 (a : Fam F) : FVec F S325x64 .f32 := k2_pay684 (pv682 a) (a.lsAt 9 0) (a.wrAt 8 0) (a.lsAt 9 1) (a.wrAt 8 1)
def pv685 (a : Fam F) : FVec F S325x64 .bf16 := k2_pay685 (pv682 a) (a.lsAt 9 2)
def pv686 (a : Fam F) : FVec F S64x64 .bf16 := k2_pay686 (a.wrAt 8 2)
def pv687 (a : Fam F) : FVec F S325x64 .f32 := k2_pay687 (pv683 a) (pv684 a) (pv685 a) (pv686 a) (a.lsAt 9 3) (a.wrAt 8 3)
def pv688 (a : Fam F) : FVec F S325x64 .f32 := k2_pay688 (pv655 a)
def pv689 (a : Fam F) : FVec F S325x64 .f32 := k2_pay689 (pv655 a) (a.lsAt 9 0) (a.wrAt 8 0)
def pv690 (a : Fam F) : FVec F S325x64 .f32 := k2_pay690 (pv655 a) (a.lsAt 9 1)
def pv691 (a : Fam F) : FVec F S325x64 .f32 := k2_pay691 (pv688 a) (pv689 a) (pv690 a) (a.wrAt 8 1) (a.lsAt 9 2) (a.wrAt 8 2) (a.lsAt 9 3) (a.wrAt 8 3)
def pv692 (a : Fam F) : FVec F S325x64 .f32 := k2_pay692 (pv655 a)
def pv693 (a : Fam F) : FVec F S325x325 .bf16 := k2_pay693 (a.lsAt 9 0)
def pv694 (a : Fam F) : FVec F S325x64 .bf16 := k2_pay694 (pv655 a)
def pv695 (a : Fam F) : FVec F S325x64 .f32 := k2_pay695 (pv692 a) (pv693 a) (pv694 a) (constant S325x64 .f32 0x00000000#32) (a.wrAt 8 0) (a.lsAt 9 1) (a.wrAt 8 1) (a.lsAt 9 2) (a.wrAt 8 2)
def pv696 (a : Fam F) : FVec F S325x325 .bf16 := k2_pay696 (a.lsAt 9 3)
def pv697 (a : Fam F) : FVec F S325x64 .f32 := k2_pay697 (pv692 a) (pv695 a) (pv696 a) (a.wrAt 8 3)
def pv698 (a : Fam F) : FVec F S325x64 .f32 := k2_pay698 (pv655 a)
def pv699 (a : Fam F) : FVec F S325x64 .f32 := k2_pay699 (pv655 a) (a.lsAt 9 0) (a.wrAt 8 0) (a.lsAt 9 1) (a.wrAt 8 1)
def pv700 (a : Fam F) : FVec F S325x64 .f32 := k2_pay700 (pv698 a) (pv699 a) (a.lsAt 9 2) (a.wrAt 8 2) (a.lsAt 9 3) (a.wrAt 8 3)
def pv701 (a : Fam F) : FVec F S325x64 .f32 := k2_pay701 (pv655 a)
def pv702 (a : Fam F) : FVec F S325x64 .bf16 := k2_pay702 (pv655 a) (a.lsAt 9 0)
def pv703 (a : Fam F) : FVec F S64x64 .bf16 := k2_pay703 (a.wrAt 8 0)
def pv704 (a : Fam F) : FVec F S325x64 .f32 := k2_pay704 (pv701 a) (pv702 a) (pv703 a) (constant S325x64 .f32 0x00000000#32) (a.lsAt 9 1) (a.wrAt 8 1) (a.lsAt 9 2) (a.wrAt 8 2)
def pv705 (a : Fam F) : FVec F S64x64 .f32 := k2_pay705 (a.wrAt 8 3)
def pv706 (a : Fam F) : FVec F S325x64 .bf16 := k2_pay706 (pv701 a) (a.lsAt 9 3)
def pv707 (a : Fam F) : FVec F S325x64 .f32 := k2_pay707 (pv704 a) (pv705 a) (pv706 a)
def pv708 (a : Fam F) : FVec F S325x64 .f32 := k2_pay708 (pv655 a)
def pv709 (a : Fam F) : FVec F S325x64 .f32 := k2_pay709 (pv655 a) (a.lsAt 9 0) (a.wrAt 8 0) (a.lsAt 9 1) (a.wrAt 8 1)
def pv710 (a : Fam F) : FVec F S325x64 .f32 := k2_pay710 (pv655 a) (a.lsAt 9 2)
def pv711 (a : Fam F) : FVec F S325x64 .f32 := k2_pay711 (pv708 a) (pv709 a) (pv710 a) (a.wrAt 8 2) (a.lsAt 9 3) (a.wrAt 8 3)
def pv712 (a : Fam F) : FVec F S325x64 .f32 := k2_pay712 (pv655 a)
def pv713 (a : Fam F) : FVec F S325x64 .f32 := k2_pay713 (pv655 a) (a.lsAt 9 0) (a.wrAt 8 0)
def pv714 (a : Fam F) : FVec F S325x325 .bf16 := k2_pay714 (a.lsAt 9 1)
def pv715 (a : Fam F) : FVec F S325x64 .bf16 := k2_pay715 (pv655 a)
def pv716 (a : Fam F) : FVec F S325x64 .f32 := k2_pay716 (pv712 a) (pv713 a) (pv714 a) (pv715 a) (constant S325x64 .f32 0x00000000#32) (a.wrAt 8 1) (a.lsAt 9 2) (a.wrAt 8 2) (a.lsAt 9 3) (a.wrAt 8 3)
def pv717 (a : Fam F) : FVec F S325x64 .f32 := k2_pay717 (pv655 a)
def pv718 (a : Fam F) : FVec F S325x64 .f32 := k2_pay718 (pv717 a) (a.lsAt 9 0) (a.wrAt 8 0) (a.lsAt 9 1) (a.wrAt 8 1) (a.lsAt 9 2) (a.wrAt 8 2)
def pv719 (a : Fam F) : FVec F S325x64 .f32 := k2_pay719 (pv717 a) (pv718 a) (a.lsAt 9 3) (a.wrAt 8 3)
def pv720 (a : Fam F) : FVec F S325x64 .f32 := k2_pay720 (pv655 a)
def pv721 (a : Fam F) : FVec F S325x64 .f32 := k2_pay721 (pv655 a) (a.lsAt 9 0) (a.wrAt 8 0)
def pv722 (a : Fam F) : FVec F S325x64 .bf16 := k2_pay722 (pv655 a) (a.lsAt 9 1)
def pv723 (a : Fam F) : FVec F S64x64 .bf16 := k2_pay723 (a.wrAt 8 1)
def pv724 (a : Fam F) : FVec F S325x64 .f32 := k2_pay724 (pv720 a) (pv721 a) (pv722 a) (pv723 a) (constant S325x64 .f32 0x00000000#32) (a.lsAt 9 2) (a.wrAt 8 2) (a.lsAt 9 3) (a.wrAt 8 3)
def pv725 (a : Fam F) : FVec F S325x64 .f32 := k2_pay725 (pv655 a)
def pv726 (a : Fam F) : FVec F S325x64 .f32 := k2_pay726 (pv655 a) (a.lsAt 9 0)
def pv727 (a : Fam F) : FVec F S325x64 .f32 := k2_pay727 (pv725 a) (pv726 a) (a.wrAt 8 0) (a.lsAt 9 1) (a.wrAt 8 1) (a.lsAt 9 2) (a.wrAt 8 2)
def pv728 (a : Fam F) : FVec F S325x64 .f32 := k2_pay728 (pv725 a) (a.lsAt 9 3)
def pv729 (a : Fam F) : FVec F S16x325x64 .f32 := k2_pay729 (pv660 a) (pv663 a) (pv668 a) (pv673 a) (pv678 a) (pv681 a) (pv687 a) (pv691 a) (pv697 a) (pv700 a) (pv707 a) (pv711 a) (pv716 a) (pv719 a) (pv724 a) (pv727 a) (pv728 a) (a.wrAt 8 3)
def pv730 (a : Fam F) : FVec F S1x1x64 .f32 := k2_pay730 (pv660 a) (pv663 a) (pv668 a) (pv673 a) (pv678 a) (pv681 a) (pv687 a) (pv691 a) (pv697 a) (pv700 a) (pv707 a) (pv711 a) (pv716 a) (pv719 a) (pv724 a) (pv727 a) (pv728 a) (a.wrAt 8 3) (a.gAt 9)
def pv731 (a : Fam F) : FVec F S16x325x64 .f32 := k2_pay731 (pv729 a) (pv730 a) (a.bAt 9)
def pv732 (a : Fam F) : FVec F S325x1 .f32 := k2_pay732 (pv729 a) (pv730 a) (a.bAt 9) a.f1w a.f1b a.f2w a.f2b
def pv733 (a : Fam F) : FVec F S325x512 .f32 := k2_pay733 (pv729 a) (pv730 a) (a.bAt 9) a.f1w a.f1b
def pv734 (a : Fam F) : FVec F S325x1 .f32 := k2_pay734 (pv733 a) a.f2w a.f2b
def pv735 (a : Fam F) : FVec F S325x1 .f32 := k2_pay735 (pv731 a) a.f1w a.f1b a.f2w a.f2b
def pv736 (a : Fam F) : FVec F S325x512 .f32 := k2_pay736 (pv731 a) a.f1w a.f1b
def pv737 (a : Fam F) : FVec F S325x1 .f32 := k2_pay737 (pv736 a) (Scalar.ofBits .f32 0x00000000#32) a.f2w a.f2b
def pv738 (a : Fam F) : FVec F S325x1 .f32 := k2_pay738 (pv731 a) a.f1w a.f1b a.f2w a.f2b
def pv739 (a : Fam F) : FVec F S325x512 .f32 := k2_pay739 (pv731 a) a.f1w
def pv740 (a : Fam F) : FVec F S325x512 .f32 := k2_pay740 a.f1b
def pv741 (a : Fam F) : FVec F S325x1 .f32 := k2_pay741 (pv739 a) (pv740 a) a.f2w a.f2b
def pv742 (a : Fam F) : FVec F S325x1 .f32 := k2_pay742 (pv731 a) a.f1w a.f1b a.f2w a.f2b
def pv743 (a : Fam F) : FVec F S325x512 .f32 := k2_pay743 (pv731 a) a.f1w
def pv744 (a : Fam F) : FVec F S325x1 .f32 := k2_pay744 (pv743 a) a.f1b a.f2w a.f2b
def pv745 (a : Fam F) : FVec F S325x1 .f32 := k2_pay745 (pv731 a) a.f1w a.f1b a.f2w a.f2b
def pv746 (a : Fam F) : FVec F S325x512 .f32 := k2_pay746 (pv731 a) a.f1w
def pv747 (a : Fam F) : FVec F S325x1 .f32 := k2_pay747 (pv746 a) a.f1b a.f2w a.f2b
def pv748 (a : Fam F) : FVec F S325x1 .f32 := k2_pay748 (pv731 a) a.f1w a.f1b a.f2w a.f2b
def pv749 (a : Fam F) : FVec F S325x64 .bf16 := k2_pay749 (pv731 a)
def pv750 (a : Fam F) : FVec F S64x512 .bf16 := k2_pay750 a.f1w
def pv751 (a : Fam F) : FVec F S325x1 .f32 := k2_pay751 (pv749 a) (pv750 a) a.f1b a.f2w a.f2b
def pv752 (a : Fam F) : FVec F S325x1 .f32 := k2_pay752 (pv731 a) a.f1w a.f1b a.f2w a.f2b
def pv753 (a : Fam F) : FVec F S325x64 .f32 := k2_pay753 (pv731 a)
def pv754 (a : Fam F) : FVec F S325x1 .f32 := k2_pay754 (pv753 a) a.f1w a.f1b a.f2w a.f2b
def pv755 (a : Fam F) : FVec F S325x1 .f32 := k2_pay755 (pv731 a) a.f1w a.f1b a.f2w a.f2b
def pv756 (a : Fam F) : FVec F S325x64 .f32 := k2_pay756 (pv731 a)
def pv1 (a : Fam F) : FVec F S325x1 .f32 := k2_pay1 (pv756 a) a.f1w a.f1b a.f2w a.f2b
def pv2 (a : Fam F) : FVec F S16x325x1 .f32 := k2_pay2 (pv732 a) (pv734 a) (pv735 a) (pv737 a) (pv738 a) (pv741 a) (pv742 a) (pv744 a) (pv745 a) (pv747 a) (pv748 a) (pv751 a) (pv752 a) (pv754 a) (pv755 a) (pv1 a)

/-! ## Stage by stage: the chain value is the arranged form -/

theorem pv7_eq (a : Fam F) : pv7 a = yb0 (slice160 0 (cat4 a.x0) (by decide)) (a.lsAt 0) a.w0At := by
  unfold pv7 pv6 pv5 pv4
  rfl
theorem pv11_eq (a : Fam F) : pv11 a = yb0 (slice160 1 (cat4 a.x0) (by decide)) (a.lsAt 0) a.w0At := by
  unfold pv11 pv10 pv9 pv8 pv3
  rfl
theorem pv16_eq (a : Fam F) : pv16 a = yb0 (slice160 2 (cat4 a.x0) (by decide)) (a.lsAt 0) a.w0At := by
  unfold pv16 pv15 pv14 pv13 pv12 pv3
  rfl
theorem pv20_eq (a : Fam F) : pv20 a = yb0 (slice160 3 (cat4 a.x0) (by decide)) (a.lsAt 0) a.w0At := by
  unfold pv20 pv19 pv18 pv17 pv3
  rfl
theorem pv25_eq (a : Fam F) : pv25 a = yb0 (slice160 4 (cat4 a.x0) (by decide)) (a.lsAt 0) a.w0At := by
  unfold pv25 pv24 pv23 pv22 pv21 pv3
  rfl
theorem pv31_eq (a : Fam F) : pv31 a = yb0 (slice160 5 (cat4 a.x0) (by decide)) (a.lsAt 0) a.w0At := by
  unfold pv31 pv30 pv29 pv28 pv27 pv26 pv3
  rfl
theorem pv35_eq (a : Fam F) : pv35 a = yb0 (slice160 6 (cat4 a.x0) (by decide)) (a.lsAt 0) a.w0At := by
  unfold pv35 pv34 pv33 pv32 pv3
  rfl
theorem pv39_eq (a : Fam F) : pv39 a = yb0 (slice160 7 (cat4 a.x0) (by decide)) (a.lsAt 0) a.w0At := by
  unfold pv39 pv38 pv37 pv36 pv3
  rfl
theorem pv42_eq (a : Fam F) : pv42 a = yb0 (slice160 8 (cat4 a.x0) (by decide)) (a.lsAt 0) a.w0At := by
  unfold pv42 pv41 pv40 pv3
  rfl
theorem pv45_eq (a : Fam F) : pv45 a = yb0 (slice160 9 (cat4 a.x0) (by decide)) (a.lsAt 0) a.w0At := by
  unfold pv45 pv44 pv43 pv3
  rfl
theorem pv48_eq (a : Fam F) : pv48 a = yb0 (slice160 10 (cat4 a.x0) (by decide)) (a.lsAt 0) a.w0At := by
  unfold pv48 pv47 pv46 pv3
  rfl
theorem pv51_eq (a : Fam F) : pv51 a = yb0 (slice160 11 (cat4 a.x0) (by decide)) (a.lsAt 0) a.w0At := by
  unfold pv51 pv50 pv49 pv3
  rfl
theorem pv54_eq (a : Fam F) : pv54 a = yb0 (slice160 12 (cat4 a.x0) (by decide)) (a.lsAt 0) a.w0At := by
  unfold pv54 pv53 pv52 pv3
  rfl
theorem pv57_eq (a : Fam F) : pv57 a = yb0 (slice160 13 (cat4 a.x0) (by decide)) (a.lsAt 0) a.w0At := by
  unfold pv57 pv56 pv55 pv3
  rfl
theorem pv61_eq (a : Fam F) : pv61 a = yb0 (slice160 14 (cat4 a.x0) (by decide)) (a.lsAt 0) a.w0At := by
  unfold pv61 pv60 pv59 pv58 pv3
  rfl
theorem pv67_eq (a : Fam F) : pv67 a = bn (stack64 ![up64 (pv7 a), up64 (pv11 a), up64 (pv16 a), up64 (pv20 a), up64 (pv25 a), up64 (pv31 a), up64 (pv35 a), up64 (pv39 a), up64 (pv42 a), up64 (pv45 a), up64 (pv48 a), up64 (pv51 a), up64 (pv54 a), up64 (pv57 a), up64 (pv61 a), up64 (yb0 (slice160 15 (cat4 a.x0) (by decide)) (a.lsAt 0) a.w0At)]) (a.gAt 0) (a.bAt 0) := by
  unfold pv67 pv66 pv65 pv64 pv63 pv62 pv3
  try generalize pv7 a = p7
  try generalize pv11 a = p11
  try generalize pv16 a = p16
  try generalize pv20 a = p20
  try generalize pv25 a = p25
  try generalize pv31 a = p31
  try generalize pv35 a = p35
  try generalize pv39 a = p39
  try generalize pv42 a = p42
  try generalize pv45 a = p45
  try generalize pv48 a = p48
  try generalize pv51 a = p51
  try generalize pv54 a = p54
  try generalize pv57 a = p57
  try generalize pv61 a = p61
  rfl
/-- After layer 0. -/
theorem layer0_eq (a : Fam F) : pv67 a = state a.x0 a.lsAt a.w0At a.wrAt a.gAt a.bAt 0 (by decide) := by
  rw [pv67_eq, pv7_eq, pv11_eq, pv16_eq, pv20_eq, pv25_eq, pv31_eq, pv35_eq, pv39_eq, pv42_eq, pv45_eq, pv48_eq, pv51_eq, pv54_eq, pv57_eq, pv61_eq]
  rfl

theorem pv72_eq (a : Fam F) : pv72 a = ybR (slice64 0 (pv67 a) (by decide)) (a.lsAt 1) (a.wrAt 0) := by
  unfold pv72 pv71 pv70 pv69 pv68
  try unfold pv67
  try generalize pv66 a = p66
  rfl
theorem pv76_eq (a : Fam F) : pv76 a = ybR (slice64 1 (pv67 a) (by decide)) (a.lsAt 1) (a.wrAt 0) := by
  unfold pv76 pv75 pv74 pv73 pv67
  try generalize pv66 a = p66
  rfl
theorem pv79_eq (a : Fam F) : pv79 a = ybR (slice64 2 (pv67 a) (by decide)) (a.lsAt 1) (a.wrAt 0) := by
  unfold pv79 pv78 pv77 pv67
  try generalize pv66 a = p66
  rfl
theorem pv84_eq (a : Fam F) : pv84 a = ybR (slice64 3 (pv67 a) (by decide)) (a.lsAt 1) (a.wrAt 0) := by
  unfold pv84 pv83 pv82 pv81 pv80 pv67
  try generalize pv66 a = p66
  rfl
theorem pv88_eq (a : Fam F) : pv88 a = ybR (slice64 4 (pv67 a) (by decide)) (a.lsAt 1) (a.wrAt 0) := by
  unfold pv88 pv87 pv86 pv85 pv67
  try generalize pv66 a = p66
  rfl
theorem pv94_eq (a : Fam F) : pv94 a = ybR (slice64 5 (pv67 a) (by decide)) (a.lsAt 1) (a.wrAt 0) := by
  unfold pv94 pv93 pv92 pv91 pv90 pv89 pv67
  try generalize pv66 a = p66
  rfl
theorem pv97_eq (a : Fam F) : pv97 a = ybR (slice64 6 (pv67 a) (by decide)) (a.lsAt 1) (a.wrAt 0) := by
  unfold pv97 pv96 pv95 pv67
  try generalize pv66 a = p66
  rfl
theorem pv104_eq (a : Fam F) : pv104 a = ybR (slice64 7 (pv67 a) (by decide)) (a.lsAt 1) (a.wrAt 0) := by
  unfold pv104 pv103 pv102 pv101 pv100 pv99 pv98 pv67
  try generalize pv66 a = p66
  rfl
theorem pv108_eq (a : Fam F) : pv108 a = ybR (slice64 8 (pv67 a) (by decide)) (a.lsAt 1) (a.wrAt 0) := by
  unfold pv108 pv107 pv106 pv105 pv67
  try generalize pv66 a = p66
  rfl
theorem pv113_eq (a : Fam F) : pv113 a = ybR (slice64 9 (pv67 a) (by decide)) (a.lsAt 1) (a.wrAt 0) := by
  unfold pv113 pv112 pv111 pv110 pv109 pv67
  try generalize pv66 a = p66
  rfl
theorem pv116_eq (a : Fam F) : pv116 a = ybR (slice64 10 (pv67 a) (by decide)) (a.lsAt 1) (a.wrAt 0) := by
  unfold pv116 pv115 pv114 pv67
  try generalize pv66 a = p66
  rfl
theorem pv121_eq (a : Fam F) : pv121 a = ybR (slice64 11 (pv67 a) (by decide)) (a.lsAt 1) (a.wrAt 0) := by
  unfold pv121 pv120 pv119 pv118 pv117 pv67
  try generalize pv66 a = p66
  rfl
theorem pv126_eq (a : Fam F) : pv126 a = ybR (slice64 12 (pv67 a) (by decide)) (a.lsAt 1) (a.wrAt 0) := by
  unfold pv126 pv125 pv124 pv123 pv122 pv67
  try generalize pv66 a = p66
  rfl
theorem pv130_eq (a : Fam F) : pv130 a = ybR (slice64 13 (pv67 a) (by decide)) (a.lsAt 1) (a.wrAt 0) := by
  unfold pv130 pv129 pv128 pv127 pv67
  try generalize pv66 a = p66
  rfl
theorem pv133_eq (a : Fam F) : pv133 a = ybR (slice64 14 (pv67 a) (by decide)) (a.lsAt 1) (a.wrAt 0) := by
  unfold pv133 pv132 pv131 pv67
  try generalize pv66 a = p66
  rfl
theorem pv141_eq (a : Fam F) : pv141 a = bn (stack64 ![up64 (pv72 a), up64 (pv76 a), up64 (pv79 a), up64 (pv84 a), up64 (pv88 a), up64 (pv94 a), up64 (pv97 a), up64 (pv104 a), up64 (pv108 a), up64 (pv113 a), up64 (pv116 a), up64 (pv121 a), up64 (pv126 a), up64 (pv130 a), up64 (pv133 a), up64 (ybR (slice64 15 (pv67 a) (by decide)) (a.lsAt 1) (a.wrAt 0))]) (a.gAt 1) (a.bAt 1) := by
  unfold pv141 pv140 pv139 pv138 pv137 pv136 pv135 pv134 pv67
  try generalize pv66 a = p66
  try generalize pv72 a = p72
  try generalize pv76 a = p76
  try generalize pv79 a = p79
  try generalize pv84 a = p84
  try generalize pv88 a = p88
  try generalize pv94 a = p94
  try generalize pv97 a = p97
  try generalize pv104 a = p104
  try generalize pv108 a = p108
  try generalize pv113 a = p113
  try generalize pv116 a = p116
  try generalize pv121 a = p121
  try generalize pv126 a = p126
  try generalize pv130 a = p130
  try generalize pv133 a = p133
  rfl
/-- After layer 1. -/
theorem layer1_eq (a : Fam F) : pv141 a = state a.x0 a.lsAt a.w0At a.wrAt a.gAt a.bAt 1 (by decide) := by
  rw [pv141_eq, pv72_eq, pv76_eq, pv79_eq, pv84_eq, pv88_eq, pv94_eq, pv97_eq, pv104_eq, pv108_eq, pv113_eq, pv116_eq, pv121_eq, pv126_eq, pv130_eq, pv133_eq, layer0_eq]
  rfl

theorem pv145_eq (a : Fam F) : pv145 a = ybR (slice64 0 (pv141 a) (by decide)) (a.lsAt 2) (a.wrAt 1) := by
  unfold pv145 pv144 pv143 pv142
  try unfold pv141
  try generalize pv138 a = p138
  try generalize pv139 a = p139
  try generalize pv140 a = p140
  rfl
theorem pv148_eq (a : Fam F) : pv148 a = ybR (slice64 1 (pv141 a) (by decide)) (a.lsAt 2) (a.wrAt 1) := by
  unfold pv148 pv147 pv146 pv141
  try generalize pv138 a = p138
  try generalize pv139 a = p139
  try generalize pv140 a = p140
  rfl
theorem pv152_eq (a : Fam F) : pv152 a = ybR (slice64 2 (pv141 a) (by decide)) (a.lsAt 2) (a.wrAt 1) := by
  unfold pv152 pv151 pv150 pv149 pv141
  try generalize pv138 a = p138
  try generalize pv139 a = p139
  try generalize pv140 a = p140
  rfl
theorem pv157_eq (a : Fam F) : pv157 a = ybR (slice64 3 (pv141 a) (by decide)) (a.lsAt 2) (a.wrAt 1) := by
  unfold pv157 pv156 pv155 pv154 pv153 pv141
  try generalize pv138 a = p138
  try generalize pv139 a = p139
  try generalize pv140 a = p140
  rfl
theorem pv162_eq (a : Fam F) : pv162 a = ybR (slice64 4 (pv141 a) (by decide)) (a.lsAt 2) (a.wrAt 1) := by
  unfold pv162 pv161 pv160 pv159 pv158 pv141
  try generalize pv138 a = p138
  try generalize pv139 a = p139
  try generalize pv140 a = p140
  rfl
theorem pv165_eq (a : Fam F) : pv165 a = ybR (slice64 5 (pv141 a) (by decide)) (a.lsAt 2) (a.wrAt 1) := by
  unfold pv165 pv164 pv163 pv141
  try generalize pv138 a = p138
  try generalize pv139 a = p139
  try generalize pv140 a = p140
  rfl
theorem pv170_eq (a : Fam F) : pv170 a = ybR (slice64 6 (pv141 a) (by decide)) (a.lsAt 2) (a.wrAt 1) := by
  unfold pv170 pv169 pv168 pv167 pv166 pv141
  try generalize pv138 a = p138
  try generalize pv139 a = p139
  try generalize pv140 a = p140
  rfl
theorem pv174_eq (a : Fam F) : pv174 a = ybR (slice64 7 (pv141 a) (by decide)) (a.lsAt 2) (a.wrAt 1) := by
  unfold pv174 pv173 pv172 pv171 pv141
  try generalize pv138 a = p138
  try generalize pv139 a = p139
  try generalize pv140 a = p140
  rfl
theorem pv180_eq (a : Fam F) : pv180 a = ybR (slice64 8 (pv141 a) (by decide)) (a.lsAt 2) (a.wrAt 1) := by
  unfold pv180 pv179 pv178 pv177 pv176 pv175 pv141
  try generalize pv138 a = p138
  try generalize pv139 a = p139
  try generalize pv140 a = p140
  rfl
theorem pv183_eq (a : Fam F) : pv183 a = ybR (slice64 9 (pv141 a) (by decide)) (a.lsAt 2) (a.wrAt 1) := by
  unfold pv183 pv182 pv181 pv141
  try generalize pv138 a = p138
  try generalize pv139 a = p139
  try generalize pv140 a = p140
  rfl
theorem pv189_eq (a : Fam F) : pv189 a = ybR (slice64 10 (pv141 a) (by decide)) (a.lsAt 2) (a.wrAt 1) := by
  unfold pv189 pv188 pv187 pv186 pv185 pv184 pv141
  try generalize pv138 a = p138
  try generalize pv139 a = p139
  try generalize pv140 a = p140
  rfl
theorem pv193_eq (a : Fam F) : pv193 a = ybR (slice64 11 (pv141 a) (by decide)) (a.lsAt 2) (a.wrAt 1) := by
  unfold pv193 pv192 pv191 pv190 pv141
  try generalize pv138 a = p138
  try generalize pv139 a = p139
  try generalize pv140 a = p140
  rfl
theorem pv197_eq (a : Fam F) : pv197 a = ybR (slice64 12 (pv141 a) (by decide)) (a.lsAt 2) (a.wrAt 1) := by
  unfold pv197 pv196 pv195 pv194 pv141
  try generalize pv138 a = p138
  try generalize pv139 a = p139
  try generalize pv140 a = p140
  rfl
theorem pv200_eq (a : Fam F) : pv200 a = ybR (slice64 13 (pv141 a) (by decide)) (a.lsAt 2) (a.wrAt 1) := by
  unfold pv200 pv199 pv198 pv141
  try generalize pv138 a = p138
  try generalize pv139 a = p139
  try generalize pv140 a = p140
  rfl
theorem pv204_eq (a : Fam F) : pv204 a = ybR (slice64 14 (pv141 a) (by decide)) (a.lsAt 2) (a.wrAt 1) := by
  unfold pv204 pv203 pv202 pv201 pv141
  try generalize pv138 a = p138
  try generalize pv139 a = p139
  try generalize pv140 a = p140
  rfl
theorem pv211_eq (a : Fam F) : pv211 a = bn (stack64 ![up64 (pv145 a), up64 (pv148 a), up64 (pv152 a), up64 (pv157 a), up64 (pv162 a), up64 (pv165 a), up64 (pv170 a), up64 (pv174 a), up64 (pv180 a), up64 (pv183 a), up64 (pv189 a), up64 (pv193 a), up64 (pv197 a), up64 (pv200 a), up64 (pv204 a), up64 (ybR (slice64 15 (pv141 a) (by decide)) (a.lsAt 2) (a.wrAt 1))]) (a.gAt 2) (a.bAt 2) := by
  unfold pv211 pv210 pv209 pv208 pv207 pv206 pv205 pv141
  try generalize pv138 a = p138
  try generalize pv139 a = p139
  try generalize pv140 a = p140
  try generalize pv145 a = p145
  try generalize pv148 a = p148
  try generalize pv152 a = p152
  try generalize pv157 a = p157
  try generalize pv162 a = p162
  try generalize pv165 a = p165
  try generalize pv170 a = p170
  try generalize pv174 a = p174
  try generalize pv180 a = p180
  try generalize pv183 a = p183
  try generalize pv189 a = p189
  try generalize pv193 a = p193
  try generalize pv197 a = p197
  try generalize pv200 a = p200
  try generalize pv204 a = p204
  rfl
/-- After layer 2. -/
theorem layer2_eq (a : Fam F) : pv211 a = state a.x0 a.lsAt a.w0At a.wrAt a.gAt a.bAt 2 (by decide) := by
  rw [pv211_eq, pv145_eq, pv148_eq, pv152_eq, pv157_eq, pv162_eq, pv165_eq, pv170_eq, pv174_eq, pv180_eq, pv183_eq, pv189_eq, pv193_eq, pv197_eq, pv200_eq, pv204_eq, layer1_eq]
  rfl

theorem pv282_eq (a : Fam F) : pv282 a = up64 (ybR (slice64 0 (pv211 a) (by decide)) (a.lsAt 3) (a.wrAt 2)) := by
  unfold pv282 pv215 pv214 pv213 pv212
  try unfold pv211
  try generalize pv209 a = p209
  try generalize pv210 a = p210
  rfl
theorem pv283_eq (a : Fam F) : pv283 a = up64 (ybR (slice64 1 (pv211 a) (by decide)) (a.lsAt 3) (a.wrAt 2)) := by
  unfold pv283 pv220 pv219 pv218 pv217 pv216 pv211
  try generalize pv209 a = p209
  try generalize pv210 a = p210
  rfl
theorem pv284_eq (a : Fam F) : pv284 a = up64 (ybR (slice64 2 (pv211 a) (by decide)) (a.lsAt 3) (a.wrAt 2)) := by
  unfold pv284 pv225 pv224 pv223 pv222 pv221 pv211
  try generalize pv209 a = p209
  try generalize pv210 a = p210
  rfl
theorem pv285_eq (a : Fam F) : pv285 a = up64 (ybR (slice64 3 (pv211 a) (by decide)) (a.lsAt 3) (a.wrAt 2)) := by
  unfold pv285 pv229 pv228 pv227 pv226 pv211
  try generalize pv209 a = p209
  try generalize pv210 a = p210
  rfl
theorem pv286_eq (a : Fam F) : pv286 a = up64 (ybR (slice64 4 (pv211 a) (by decide)) (a.lsAt 3) (a.wrAt 2)) := by
  unfold pv286 pv233 pv232 pv231 pv230 pv211
  try generalize pv209 a = p209
  try generalize pv210 a = p210
  rfl
theorem pv287_eq (a : Fam F) : pv287 a = up64 (ybR (slice64 5 (pv211 a) (by decide)) (a.lsAt 3) (a.wrAt 2)) := by
  unfold pv287 pv236 pv235 pv234 pv211
  try generalize pv209 a = p209
  try generalize pv210 a = p210
  rfl
theorem pv288_eq (a : Fam F) : pv288 a = up64 (ybR (slice64 6 (pv211 a) (by decide)) (a.lsAt 3) (a.wrAt 2)) := by
  unfold pv288 pv242 pv241 pv240 pv239 pv238 pv237 pv211
  try generalize pv209 a = p209
  try generalize pv210 a = p210
  rfl
theorem pv289_eq (a : Fam F) : pv289 a = up64 (ybR (slice64 7 (pv211 a) (by decide)) (a.lsAt 3) (a.wrAt 2)) := by
  unfold pv289 pv246 pv245 pv244 pv243 pv211
  try generalize pv209 a = p209
  try generalize pv210 a = p210
  rfl
theorem pv290_eq (a : Fam F) : pv290 a = up64 (ybR (slice64 8 (pv211 a) (by decide)) (a.lsAt 3) (a.wrAt 2)) := by
  unfold pv290 pv250 pv249 pv248 pv247 pv211
  try generalize pv209 a = p209
  try generalize pv210 a = p210
  rfl
theorem pv253_eq (a : Fam F) : pv253 a = ybR (slice64 9 (pv211 a) (by decide)) (a.lsAt 3) (a.wrAt 2) := by
  unfold pv253 pv252 pv251 pv211
  try generalize pv209 a = p209
  try generalize pv210 a = p210
  rfl
theorem pv258_eq (a : Fam F) : pv258 a = ybR (slice64 10 (pv211 a) (by decide)) (a.lsAt 3) (a.wrAt 2) := by
  unfold pv258 pv257 pv256 pv255 pv254 pv211
  try generalize pv209 a = p209
  try generalize pv210 a = p210
  rfl
theorem pv263_eq (a : Fam F) : pv263 a = ybR (slice64 11 (pv211 a) (by decide)) (a.lsAt 3) (a.wrAt 2) := by
  unfold pv263 pv262 pv261 pv260 pv259 pv211
  try generalize pv209 a = p209
  try generalize pv210 a = p210
  rfl
theorem pv267_eq (a : Fam F) : pv267 a = ybR (slice64 12 (pv211 a) (by decide)) (a.lsAt 3) (a.wrAt 2) := by
  unfold pv267 pv266 pv265 pv264 pv211
  try generalize pv209 a = p209
  try generalize pv210 a = p210
  rfl
theorem pv272_eq (a : Fam F) : pv272 a = ybR (slice64 13 (pv211 a) (by decide)) (a.lsAt 3) (a.wrAt 2) := by
  unfold pv272 pv271 pv270 pv269 pv268 pv211
  try generalize pv209 a = p209
  try generalize pv210 a = p210
  rfl
theorem pv277_eq (a : Fam F) : pv277 a = ybR (slice64 14 (pv211 a) (by decide)) (a.lsAt 3) (a.wrAt 2) := by
  unfold pv277 pv276 pv275 pv274 pv273 pv211
  try generalize pv209 a = p209
  try generalize pv210 a = p210
  rfl
theorem pv281_eq (a : Fam F) : pv281 a = ybR (slice64 15 (pv211 a) (by decide)) (a.lsAt 3) (a.wrAt 2) := by
  unfold pv281 pv280 pv279 pv278 pv211
  try generalize pv209 a = p209
  try generalize pv210 a = p210
  rfl
theorem pv291_eq (a : Fam F) : pv291 a = bn (stack64 ![pv282 a, pv283 a, pv284 a, pv285 a, pv286 a, pv287 a, pv288 a, pv289 a, pv290 a, up64 (pv253 a), up64 (pv258 a), up64 (pv263 a), up64 (pv267 a), up64 (pv272 a), up64 (pv277 a), up64 (pv281 a)]) (a.gAt 3) (a.bAt 3) := by
  unfold pv291
  try unfold pv211
  try generalize pv209 a = p209
  try generalize pv210 a = p210
  try generalize pv253 a = p253
  try generalize pv258 a = p258
  try generalize pv263 a = p263
  try generalize pv267 a = p267
  try generalize pv272 a = p272
  try generalize pv277 a = p277
  try generalize pv281 a = p281
  try generalize pv282 a = p282
  try generalize pv283 a = p283
  try generalize pv284 a = p284
  try generalize pv285 a = p285
  try generalize pv286 a = p286
  try generalize pv287 a = p287
  try generalize pv288 a = p288
  try generalize pv289 a = p289
  try generalize pv290 a = p290
  rfl
/-- After layer 3. -/
theorem layer3_eq (a : Fam F) : pv291 a = state a.x0 a.lsAt a.w0At a.wrAt a.gAt a.bAt 3 (by decide) := by
  rw [pv291_eq, pv282_eq, pv283_eq, pv284_eq, pv285_eq, pv286_eq, pv287_eq, pv288_eq, pv289_eq, pv290_eq, pv253_eq, pv258_eq, pv263_eq, pv267_eq, pv272_eq, pv277_eq, pv281_eq, layer2_eq]
  rfl

theorem pv294_eq (a : Fam F) : pv294 a = ybR (slice64 0 (pv291 a) (by decide)) (a.lsAt 4) (a.wrAt 3) := by
  unfold pv294 pv293 pv292
  try unfold pv291
  try generalize pv253 a = p253
  try generalize pv258 a = p258
  try generalize pv263 a = p263
  try generalize pv267 a = p267
  try generalize pv272 a = p272
  try generalize pv277 a = p277
  try generalize pv281 a = p281
  try generalize pv282 a = p282
  try generalize pv283 a = p283
  try generalize pv284 a = p284
  try generalize pv285 a = p285
  try generalize pv286 a = p286
  try generalize pv287 a = p287
  try generalize pv288 a = p288
  try generalize pv289 a = p289
  try generalize pv290 a = p290
  rfl
theorem pv299_eq (a : Fam F) : pv299 a = ybR (slice64 1 (pv291 a) (by decide)) (a.lsAt 4) (a.wrAt 3) := by
  unfold pv299 pv298 pv297 pv296 pv295 pv291
  try generalize pv253 a = p253
  try generalize pv258 a = p258
  try generalize pv263 a = p263
  try generalize pv267 a = p267
  try generalize pv272 a = p272
  try generalize pv277 a = p277
  try generalize pv281 a = p281
  try generalize pv282 a = p282
  try generalize pv283 a = p283
  try generalize pv284 a = p284
  try generalize pv285 a = p285
  try generalize pv286 a = p286
  try generalize pv287 a = p287
  try generalize pv288 a = p288
  try generalize pv289 a = p289
  try generalize pv290 a = p290
  rfl
theorem pv304_eq (a : Fam F) : pv304 a = ybR (slice64 2 (pv291 a) (by decide)) (a.lsAt 4) (a.wrAt 3) := by
  unfold pv304 pv303 pv302 pv301 pv300 pv291
  try generalize pv253 a = p253
  try generalize pv258 a = p258
  try generalize pv263 a = p263
  try generalize pv267 a = p267
  try generalize pv272 a = p272
  try generalize pv277 a = p277
  try generalize pv281 a = p281
  try generalize pv282 a = p282
  try generalize pv283 a = p283
  try generalize pv284 a = p284
  try generalize pv285 a = p285
  try generalize pv286 a = p286
  try generalize pv287 a = p287
  try generalize pv288 a = p288
  try generalize pv289 a = p289
  try generalize pv290 a = p290
  rfl
theorem pv309_eq (a : Fam F) : pv309 a = ybR (slice64 3 (pv291 a) (by decide)) (a.lsAt 4) (a.wrAt 3) := by
  unfold pv309 pv308 pv307 pv306 pv305 pv291
  try generalize pv253 a = p253
  try generalize pv258 a = p258
  try generalize pv263 a = p263
  try generalize pv267 a = p267
  try generalize pv272 a = p272
  try generalize pv277 a = p277
  try generalize pv281 a = p281
  try generalize pv282 a = p282
  try generalize pv283 a = p283
  try generalize pv284 a = p284
  try generalize pv285 a = p285
  try generalize pv286 a = p286
  try generalize pv287 a = p287
  try generalize pv288 a = p288
  try generalize pv289 a = p289
  try generalize pv290 a = p290
  rfl
theorem pv312_eq (a : Fam F) : pv312 a = ybR (slice64 4 (pv291 a) (by decide)) (a.lsAt 4) (a.wrAt 3) := by
  unfold pv312 pv311 pv310 pv291
  try generalize pv253 a = p253
  try generalize pv258 a = p258
  try generalize pv263 a = p263
  try generalize pv267 a = p267
  try generalize pv272 a = p272
  try generalize pv277 a = p277
  try generalize pv281 a = p281
  try generalize pv282 a = p282
  try generalize pv283 a = p283
  try generalize pv284 a = p284
  try generalize pv285 a = p285
  try generalize pv286 a = p286
  try generalize pv287 a = p287
  try generalize pv288 a = p288
  try generalize pv289 a = p289
  try generalize pv290 a = p290
  rfl
theorem pv318_eq (a : Fam F) : pv318 a = ybR (slice64 5 (pv291 a) (by decide)) (a.lsAt 4) (a.wrAt 3) := by
  unfold pv318 pv317 pv316 pv315 pv314 pv313 pv291
  try generalize pv253 a = p253
  try generalize pv258 a = p258
  try generalize pv263 a = p263
  try generalize pv267 a = p267
  try generalize pv272 a = p272
  try generalize pv277 a = p277
  try generalize pv281 a = p281
  try generalize pv282 a = p282
  try generalize pv283 a = p283
  try generalize pv284 a = p284
  try generalize pv285 a = p285
  try generalize pv286 a = p286
  try generalize pv287 a = p287
  try generalize pv288 a = p288
  try generalize pv289 a = p289
  try generalize pv290 a = p290
  rfl
theorem pv322_eq (a : Fam F) : pv322 a = ybR (slice64 6 (pv291 a) (by decide)) (a.lsAt 4) (a.wrAt 3) := by
  unfold pv322 pv321 pv320 pv319 pv291
  try generalize pv253 a = p253
  try generalize pv258 a = p258
  try generalize pv263 a = p263
  try generalize pv267 a = p267
  try generalize pv272 a = p272
  try generalize pv277 a = p277
  try generalize pv281 a = p281
  try generalize pv282 a = p282
  try generalize pv283 a = p283
  try generalize pv284 a = p284
  try generalize pv285 a = p285
  try generalize pv286 a = p286
  try generalize pv287 a = p287
  try generalize pv288 a = p288
  try generalize pv289 a = p289
  try generalize pv290 a = p290
  rfl
theorem pv328_eq (a : Fam F) : pv328 a = ybR (slice64 7 (pv291 a) (by decide)) (a.lsAt 4) (a.wrAt 3) := by
  unfold pv328 pv327 pv326 pv325 pv324 pv323 pv291
  try generalize pv253 a = p253
  try generalize pv258 a = p258
  try generalize pv263 a = p263
  try generalize pv267 a = p267
  try generalize pv272 a = p272
  try generalize pv277 a = p277
  try generalize pv281 a = p281
  try generalize pv282 a = p282
  try generalize pv283 a = p283
  try generalize pv284 a = p284
  try generalize pv285 a = p285
  try generalize pv286 a = p286
  try generalize pv287 a = p287
  try generalize pv288 a = p288
  try generalize pv289 a = p289
  try generalize pv290 a = p290
  rfl
theorem pv331_eq (a : Fam F) : pv331 a = ybR (slice64 8 (pv291 a) (by decide)) (a.lsAt 4) (a.wrAt 3) := by
  unfold pv331 pv330 pv329 pv291
  try generalize pv253 a = p253
  try generalize pv258 a = p258
  try generalize pv263 a = p263
  try generalize pv267 a = p267
  try generalize pv272 a = p272
  try generalize pv277 a = p277
  try generalize pv281 a = p281
  try generalize pv282 a = p282
  try generalize pv283 a = p283
  try generalize pv284 a = p284
  try generalize pv285 a = p285
  try generalize pv286 a = p286
  try generalize pv287 a = p287
  try generalize pv288 a = p288
  try generalize pv289 a = p289
  try generalize pv290 a = p290
  rfl
theorem pv338_eq (a : Fam F) : pv338 a = ybR (slice64 9 (pv291 a) (by decide)) (a.lsAt 4) (a.wrAt 3) := by
  unfold pv338 pv337 pv336 pv335 pv334 pv333 pv332 pv291
  try generalize pv253 a = p253
  try generalize pv258 a = p258
  try generalize pv263 a = p263
  try generalize pv267 a = p267
  try generalize pv272 a = p272
  try generalize pv277 a = p277
  try generalize pv281 a = p281
  try generalize pv282 a = p282
  try generalize pv283 a = p283
  try generalize pv284 a = p284
  try generalize pv285 a = p285
  try generalize pv286 a = p286
  try generalize pv287 a = p287
  try generalize pv288 a = p288
  try generalize pv289 a = p289
  try generalize pv290 a = p290
  rfl
theorem pv342_eq (a : Fam F) : pv342 a = ybR (slice64 10 (pv291 a) (by decide)) (a.lsAt 4) (a.wrAt 3) := by
  unfold pv342 pv341 pv340 pv339 pv291
  try generalize pv253 a = p253
  try generalize pv258 a = p258
  try generalize pv263 a = p263
  try generalize pv267 a = p267
  try generalize pv272 a = p272
  try generalize pv277 a = p277
  try generalize pv281 a = p281
  try generalize pv282 a = p282
  try generalize pv283 a = p283
  try generalize pv284 a = p284
  try generalize pv285 a = p285
  try generalize pv286 a = p286
  try generalize pv287 a = p287
  try generalize pv288 a = p288
  try generalize pv289 a = p289
  try generalize pv290 a = p290
  rfl
theorem pv347_eq (a : Fam F) : pv347 a = ybR (slice64 11 (pv291 a) (by decide)) (a.lsAt 4) (a.wrAt 3) := by
  unfold pv347 pv346 pv345 pv344 pv343 pv291
  try generalize pv253 a = p253
  try generalize pv258 a = p258
  try generalize pv263 a = p263
  try generalize pv267 a = p267
  try generalize pv272 a = p272
  try generalize pv277 a = p277
  try generalize pv281 a = p281
  try generalize pv282 a = p282
  try generalize pv283 a = p283
  try generalize pv284 a = p284
  try generalize pv285 a = p285
  try generalize pv286 a = p286
  try generalize pv287 a = p287
  try generalize pv288 a = p288
  try generalize pv289 a = p289
  try generalize pv290 a = p290
  rfl
theorem pv350_eq (a : Fam F) : pv350 a = ybR (slice64 12 (pv291 a) (by decide)) (a.lsAt 4) (a.wrAt 3) := by
  unfold pv350 pv349 pv348 pv291
  try generalize pv253 a = p253
  try generalize pv258 a = p258
  try generalize pv263 a = p263
  try generalize pv267 a = p267
  try generalize pv272 a = p272
  try generalize pv277 a = p277
  try generalize pv281 a = p281
  try generalize pv282 a = p282
  try generalize pv283 a = p283
  try generalize pv284 a = p284
  try generalize pv285 a = p285
  try generalize pv286 a = p286
  try generalize pv287 a = p287
  try generalize pv288 a = p288
  try generalize pv289 a = p289
  try generalize pv290 a = p290
  rfl
theorem pv355_eq (a : Fam F) : pv355 a = ybR (slice64 13 (pv291 a) (by decide)) (a.lsAt 4) (a.wrAt 3) := by
  unfold pv355 pv354 pv353 pv352 pv351 pv291
  try generalize pv253 a = p253
  try generalize pv258 a = p258
  try generalize pv263 a = p263
  try generalize pv267 a = p267
  try generalize pv272 a = p272
  try generalize pv277 a = p277
  try generalize pv281 a = p281
  try generalize pv282 a = p282
  try generalize pv283 a = p283
  try generalize pv284 a = p284
  try generalize pv285 a = p285
  try generalize pv286 a = p286
  try generalize pv287 a = p287
  try generalize pv288 a = p288
  try generalize pv289 a = p289
  try generalize pv290 a = p290
  rfl
theorem pv360_eq (a : Fam F) : pv360 a = ybR (slice64 14 (pv291 a) (by decide)) (a.lsAt 4) (a.wrAt 3) := by
  unfold pv360 pv359 pv358 pv357 pv356 pv291
  try generalize pv253 a = p253
  try generalize pv258 a = p258
  try generalize pv263 a = p263
  try generalize pv267 a = p267
  try generalize pv272 a = p272
  try generalize pv277 a = p277
  try generalize pv281 a = p281
  try generalize pv282 a = p282
  try generalize pv283 a = p283
  try generalize pv284 a = p284
  try generalize pv285 a = p285
  try generalize pv286 a = p286
  try generalize pv287 a = p287
  try generalize pv288 a = p288
  try generalize pv289 a = p289
  try generalize pv290 a = p290
  rfl
theorem pv368_eq (a : Fam F) : pv368 a = bn (stack64 ![up64 (pv294 a), up64 (pv299 a), up64 (pv304 a), up64 (pv309 a), up64 (pv312 a), up64 (pv318 a), up64 (pv322 a), up64 (pv328 a), up64 (pv331 a), up64 (pv338 a), up64 (pv342 a), up64 (pv347 a), up64 (pv350 a), up64 (pv355 a), up64 (pv360 a), up64 (ybR (slice64 15 (pv291 a) (by decide)) (a.lsAt 4) (a.wrAt 3))]) (a.gAt 4) (a.bAt 4) := by
  unfold pv368 pv367 pv366 pv365 pv364 pv363 pv362 pv361 pv291
  try generalize pv253 a = p253
  try generalize pv258 a = p258
  try generalize pv263 a = p263
  try generalize pv267 a = p267
  try generalize pv272 a = p272
  try generalize pv277 a = p277
  try generalize pv281 a = p281
  try generalize pv282 a = p282
  try generalize pv283 a = p283
  try generalize pv284 a = p284
  try generalize pv285 a = p285
  try generalize pv286 a = p286
  try generalize pv287 a = p287
  try generalize pv288 a = p288
  try generalize pv289 a = p289
  try generalize pv290 a = p290
  try generalize pv294 a = p294
  try generalize pv299 a = p299
  try generalize pv304 a = p304
  try generalize pv309 a = p309
  try generalize pv312 a = p312
  try generalize pv318 a = p318
  try generalize pv322 a = p322
  try generalize pv328 a = p328
  try generalize pv331 a = p331
  try generalize pv338 a = p338
  try generalize pv342 a = p342
  try generalize pv347 a = p347
  try generalize pv350 a = p350
  try generalize pv355 a = p355
  try generalize pv360 a = p360
  rfl
/-- After layer 4. -/
theorem layer4_eq (a : Fam F) : pv368 a = state a.x0 a.lsAt a.w0At a.wrAt a.gAt a.bAt 4 (by decide) := by
  rw [pv368_eq, pv294_eq, pv299_eq, pv304_eq, pv309_eq, pv312_eq, pv318_eq, pv322_eq, pv328_eq, pv331_eq, pv338_eq, pv342_eq, pv347_eq, pv350_eq, pv355_eq, pv360_eq, layer3_eq]
  rfl

theorem pv374_eq (a : Fam F) : pv374 a = ybR (slice64 0 (pv368 a) (by decide)) (a.lsAt 5) (a.wrAt 4) := by
  unfold pv374 pv373 pv372 pv371 pv370 pv369
  try unfold pv368
  try generalize pv365 a = p365
  try generalize pv366 a = p366
  try generalize pv367 a = p367
  rfl
theorem pv378_eq (a : Fam F) : pv378 a = ybR (slice64 1 (pv368 a) (by decide)) (a.lsAt 5) (a.wrAt 4) := by
  unfold pv378 pv377 pv376 pv375 pv368
  try generalize pv365 a = p365
  try generalize pv366 a = p366
  try generalize pv367 a = p367
  rfl
theorem pv382_eq (a : Fam F) : pv382 a = ybR (slice64 2 (pv368 a) (by decide)) (a.lsAt 5) (a.wrAt 4) := by
  unfold pv382 pv381 pv380 pv379 pv368
  try generalize pv365 a = p365
  try generalize pv366 a = p366
  try generalize pv367 a = p367
  rfl
theorem pv386_eq (a : Fam F) : pv386 a = ybR (slice64 3 (pv368 a) (by decide)) (a.lsAt 5) (a.wrAt 4) := by
  unfold pv386 pv385 pv384 pv383 pv368
  try generalize pv365 a = p365
  try generalize pv366 a = p366
  try generalize pv367 a = p367
  rfl
theorem pv389_eq (a : Fam F) : pv389 a = ybR (slice64 4 (pv368 a) (by decide)) (a.lsAt 5) (a.wrAt 4) := by
  unfold pv389 pv388 pv387 pv368
  try generalize pv365 a = p365
  try generalize pv366 a = p366
  try generalize pv367 a = p367
  rfl
theorem pv395_eq (a : Fam F) : pv395 a = ybR (slice64 5 (pv368 a) (by decide)) (a.lsAt 5) (a.wrAt 4) := by
  unfold pv395 pv394 pv393 pv392 pv391 pv390 pv368
  try generalize pv365 a = p365
  try generalize pv366 a = p366
  try generalize pv367 a = p367
  rfl
theorem pv399_eq (a : Fam F) : pv399 a = ybR (slice64 6 (pv368 a) (by decide)) (a.lsAt 5) (a.wrAt 4) := by
  unfold pv399 pv398 pv397 pv396 pv368
  try generalize pv365 a = p365
  try generalize pv366 a = p366
  try generalize pv367 a = p367
  rfl
theorem pv403_eq (a : Fam F) : pv403 a = ybR (slice64 7 (pv368 a) (by decide)) (a.lsAt 5) (a.wrAt 4) := by
  unfold pv403 pv402 pv401 pv400 pv368
  try generalize pv365 a = p365
  try generalize pv366 a = p366
  try generalize pv367 a = p367
  rfl
theorem pv407_eq (a : Fam F) : pv407 a = ybR (slice64 8 (pv368 a) (by decide)) (a.lsAt 5) (a.wrAt 4) := by
  unfold pv407 pv406 pv405 pv404 pv368
  try generalize pv365 a = p365
  try generalize pv366 a = p366
  try generalize pv367 a = p367
  rfl
theorem pv412_eq (a : Fam F) : pv412 a = ybR (slice64 9 (pv368 a) (by decide)) (a.lsAt 5) (a.wrAt 4) := by
  unfold pv412 pv411 pv410 pv409 pv408 pv368
  try generalize pv365 a = p365
  try generalize pv366 a = p366
  try generalize pv367 a = p367
  rfl
theorem pv418_eq (a : Fam F) : pv418 a = ybR (slice64 10 (pv368 a) (by decide)) (a.lsAt 5) (a.wrAt 4) := by
  unfold pv418 pv417 pv416 pv415 pv414 pv413 pv368
  try generalize pv365 a = p365
  try generalize pv366 a = p366
  try generalize pv367 a = p367
  rfl
theorem pv421_eq (a : Fam F) : pv421 a = ybR (slice64 11 (pv368 a) (by decide)) (a.lsAt 5) (a.wrAt 4) := by
  unfold pv421 pv420 pv419 pv368
  try generalize pv365 a = p365
  try generalize pv366 a = p366
  try generalize pv367 a = p367
  rfl
theorem pv427_eq (a : Fam F) : pv427 a = ybR (slice64 12 (pv368 a) (by decide)) (a.lsAt 5) (a.wrAt 4) := by
  unfold pv427 pv426 pv425 pv424 pv423 pv422 pv368
  try generalize pv365 a = p365
  try generalize pv366 a = p366
  try generalize pv367 a = p367
  rfl
theorem pv431_eq (a : Fam F) : pv431 a = ybR (slice64 13 (pv368 a) (by decide)) (a.lsAt 5) (a.wrAt 4) := by
  unfold pv431 pv430 pv429 pv428 pv368
  try generalize pv365 a = p365
  try generalize pv366 a = p366
  try generalize pv367 a = p367
  rfl
theorem pv435_eq (a : Fam F) : pv435 a = ybR (slice64 14 (pv368 a) (by decide)) (a.lsAt 5) (a.wrAt 4) := by
  unfold pv435 pv434 pv433 pv432 pv368
  try generalize pv365 a = p365
  try generalize pv366 a = p366
  try generalize pv367 a = p367
  rfl
theorem pv441_eq (a : Fam F) : pv441 a = bn (stack64 ![up64 (pv374 a), up64 (pv378 a), up64 (pv382 a), up64 (pv386 a), up64 (pv389 a), up64 (pv395 a), up64 (pv399 a), up64 (pv403 a), up64 (pv407 a), up64 (pv412 a), up64 (pv418 a), up64 (pv421 a), up64 (pv427 a), up64 (pv431 a), up64 (pv435 a), up64 (ybR (slice64 15 (pv368 a) (by decide)) (a.lsAt 5) (a.wrAt 4))]) (a.gAt 5) (a.bAt 5) := by
  unfold pv441 pv440 pv439 pv438 pv437 pv436 pv368
  try generalize pv365 a = p365
  try generalize pv366 a = p366
  try generalize pv367 a = p367
  try generalize pv374 a = p374
  try generalize pv378 a = p378
  try generalize pv382 a = p382
  try generalize pv386 a = p386
  try generalize pv389 a = p389
  try generalize pv395 a = p395
  try generalize pv399 a = p399
  try generalize pv403 a = p403
  try generalize pv407 a = p407
  try generalize pv412 a = p412
  try generalize pv418 a = p418
  try generalize pv421 a = p421
  try generalize pv427 a = p427
  try generalize pv431 a = p431
  try generalize pv435 a = p435
  rfl
/-- After layer 5. -/
theorem layer5_eq (a : Fam F) : pv441 a = state a.x0 a.lsAt a.w0At a.wrAt a.gAt a.bAt 5 (by decide) := by
  rw [pv441_eq, pv374_eq, pv378_eq, pv382_eq, pv386_eq, pv389_eq, pv395_eq, pv399_eq, pv403_eq, pv407_eq, pv412_eq, pv418_eq, pv421_eq, pv427_eq, pv431_eq, pv435_eq, layer4_eq]
  rfl

theorem pv446_eq (a : Fam F) : pv446 a = ybR (slice64 0 (pv441 a) (by decide)) (a.lsAt 6) (a.wrAt 5) := by
  unfold pv446 pv445 pv444 pv443 pv442
  try unfold pv441
  try generalize pv439 a = p439
  try generalize pv440 a = p440
  rfl
theorem pv451_eq (a : Fam F) : pv451 a = ybR (slice64 1 (pv441 a) (by decide)) (a.lsAt 6) (a.wrAt 5) := by
  unfold pv451 pv450 pv449 pv448 pv447 pv441
  try generalize pv439 a = p439
  try generalize pv440 a = p440
  rfl
theorem pv455_eq (a : Fam F) : pv455 a = ybR (slice64 2 (pv441 a) (by decide)) (a.lsAt 6) (a.wrAt 5) := by
  unfold pv455 pv454 pv453 pv452 pv441
  try generalize pv439 a = p439
  try generalize pv440 a = p440
  rfl
theorem pv458_eq (a : Fam F) : pv458 a = ybR (slice64 3 (pv441 a) (by decide)) (a.lsAt 6) (a.wrAt 5) := by
  unfold pv458 pv457 pv456 pv441
  try generalize pv439 a = p439
  try generalize pv440 a = p440
  rfl
theorem pv463_eq (a : Fam F) : pv463 a = ybR (slice64 4 (pv441 a) (by decide)) (a.lsAt 6) (a.wrAt 5) := by
  unfold pv463 pv462 pv461 pv460 pv459 pv441
  try generalize pv439 a = p439
  try generalize pv440 a = p440
  rfl
theorem pv467_eq (a : Fam F) : pv467 a = ybR (slice64 5 (pv441 a) (by decide)) (a.lsAt 6) (a.wrAt 5) := by
  unfold pv467 pv466 pv465 pv464 pv441
  try generalize pv439 a = p439
  try generalize pv440 a = p440
  rfl
theorem pv473_eq (a : Fam F) : pv473 a = ybR (slice64 6 (pv441 a) (by decide)) (a.lsAt 6) (a.wrAt 5) := by
  unfold pv473 pv472 pv471 pv470 pv469 pv468 pv441
  try generalize pv439 a = p439
  try generalize pv440 a = p440
  rfl
theorem pv476_eq (a : Fam F) : pv476 a = ybR (slice64 7 (pv441 a) (by decide)) (a.lsAt 6) (a.wrAt 5) := by
  unfold pv476 pv475 pv474 pv441
  try generalize pv439 a = p439
  try generalize pv440 a = p440
  rfl
theorem pv483_eq (a : Fam F) : pv483 a = ybR (slice64 8 (pv441 a) (by decide)) (a.lsAt 6) (a.wrAt 5) := by
  unfold pv483 pv482 pv481 pv480 pv479 pv478 pv477 pv441
  try generalize pv439 a = p439
  try generalize pv440 a = p440
  rfl
theorem pv487_eq (a : Fam F) : pv487 a = ybR (slice64 9 (pv441 a) (by decide)) (a.lsAt 6) (a.wrAt 5) := by
  unfold pv487 pv486 pv485 pv484 pv441
  try generalize pv439 a = p439
  try generalize pv440 a = p440
  rfl
theorem pv492_eq (a : Fam F) : pv492 a = ybR (slice64 10 (pv441 a) (by decide)) (a.lsAt 6) (a.wrAt 5) := by
  unfold pv492 pv491 pv490 pv489 pv488 pv441
  try generalize pv439 a = p439
  try generalize pv440 a = p440
  rfl
theorem pv495_eq (a : Fam F) : pv495 a = ybR (slice64 11 (pv441 a) (by decide)) (a.lsAt 6) (a.wrAt 5) := by
  unfold pv495 pv494 pv493 pv441
  try generalize pv439 a = p439
  try generalize pv440 a = p440
  rfl
theorem pv500_eq (a : Fam F) : pv500 a = ybR (slice64 12 (pv441 a) (by decide)) (a.lsAt 6) (a.wrAt 5) := by
  unfold pv500 pv499 pv498 pv497 pv496 pv441
  try generalize pv439 a = p439
  try generalize pv440 a = p440
  rfl
theorem pv505_eq (a : Fam F) : pv505 a = ybR (slice64 13 (pv441 a) (by decide)) (a.lsAt 6) (a.wrAt 5) := by
  unfold pv505 pv504 pv503 pv502 pv501 pv441
  try generalize pv439 a = p439
  try generalize pv440 a = p440
  rfl
theorem pv509_eq (a : Fam F) : pv509 a = ybR (slice64 14 (pv441 a) (by decide)) (a.lsAt 6) (a.wrAt 5) := by
  unfold pv509 pv508 pv507 pv506 pv441
  try generalize pv439 a = p439
  try generalize pv440 a = p440
  rfl
theorem pv512_eq (a : Fam F) : pv512 a = ybR (slice64 15 (pv441 a) (by decide)) (a.lsAt 6) (a.wrAt 5) := by
  unfold pv512 pv511 pv510 pv441
  try generalize pv439 a = p439
  try generalize pv440 a = p440
  rfl
theorem pv514_eq (a : Fam F) : pv514 a = bn (stack64 ![up64 (pv446 a), up64 (pv451 a), up64 (pv455 a), up64 (pv458 a), up64 (pv463 a), up64 (pv467 a), up64 (pv473 a), up64 (pv476 a), up64 (pv483 a), up64 (pv487 a), up64 (pv492 a), up64 (pv495 a), up64 (pv500 a), up64 (pv505 a), up64 (pv509 a), up64 (pv512 a)]) (a.gAt 6) (a.bAt 6) := by
  unfold pv514 pv513
  try unfold pv441
  try generalize pv439 a = p439
  try generalize pv440 a = p440
  try generalize pv446 a = p446
  try generalize pv451 a = p451
  try generalize pv455 a = p455
  try generalize pv458 a = p458
  try generalize pv463 a = p463
  try generalize pv467 a = p467
  try generalize pv473 a = p473
  try generalize pv476 a = p476
  try generalize pv483 a = p483
  try generalize pv487 a = p487
  try generalize pv492 a = p492
  try generalize pv495 a = p495
  try generalize pv500 a = p500
  try generalize pv505 a = p505
  try generalize pv509 a = p509
  try generalize pv512 a = p512
  rfl
/-- After layer 6. -/
theorem layer6_eq (a : Fam F) : pv514 a = state a.x0 a.lsAt a.w0At a.wrAt a.gAt a.bAt 6 (by decide) := by
  rw [pv514_eq, pv446_eq, pv451_eq, pv455_eq, pv458_eq, pv463_eq, pv467_eq, pv473_eq, pv476_eq, pv483_eq, pv487_eq, pv492_eq, pv495_eq, pv500_eq, pv505_eq, pv509_eq, pv512_eq, layer5_eq]
  rfl

theorem pv518_eq (a : Fam F) : pv518 a = ybR (slice64 0 (pv514 a) (by decide)) (a.lsAt 7) (a.wrAt 6) := by
  unfold pv518 pv517 pv516 pv515
  try unfold pv514
  try generalize pv513 a = p513
  rfl
theorem pv522_eq (a : Fam F) : pv522 a = ybR (slice64 1 (pv514 a) (by decide)) (a.lsAt 7) (a.wrAt 6) := by
  unfold pv522 pv521 pv520 pv519 pv514
  try generalize pv513 a = p513
  rfl
theorem pv525_eq (a : Fam F) : pv525 a = ybR (slice64 2 (pv514 a) (by decide)) (a.lsAt 7) (a.wrAt 6) := by
  unfold pv525 pv524 pv523 pv514
  try generalize pv513 a = p513
  rfl
theorem pv529_eq (a : Fam F) : pv529 a = ybR (slice64 3 (pv514 a) (by decide)) (a.lsAt 7) (a.wrAt 6) := by
  unfold pv529 pv528 pv527 pv526 pv514
  try generalize pv513 a = p513
  rfl
theorem pv534_eq (a : Fam F) : pv534 a = ybR (slice64 4 (pv514 a) (by decide)) (a.lsAt 7) (a.wrAt 6) := by
  unfold pv534 pv533 pv532 pv531 pv530 pv514
  try generalize pv513 a = p513
  rfl
theorem pv539_eq (a : Fam F) : pv539 a = ybR (slice64 5 (pv514 a) (by decide)) (a.lsAt 7) (a.wrAt 6) := by
  unfold pv539 pv538 pv537 pv536 pv535 pv514
  try generalize pv513 a = p513
  rfl
theorem pv542_eq (a : Fam F) : pv542 a = ybR (slice64 6 (pv514 a) (by decide)) (a.lsAt 7) (a.wrAt 6) := by
  unfold pv542 pv541 pv540 pv514
  try generalize pv513 a = p513
  rfl
theorem pv547_eq (a : Fam F) : pv547 a = ybR (slice64 7 (pv514 a) (by decide)) (a.lsAt 7) (a.wrAt 6) := by
  unfold pv547 pv546 pv545 pv544 pv543 pv514
  try generalize pv513 a = p513
  rfl
theorem pv551_eq (a : Fam F) : pv551 a = ybR (slice64 8 (pv514 a) (by decide)) (a.lsAt 7) (a.wrAt 6) := by
  unfold pv551 pv550 pv549 pv548 pv514
  try generalize pv513 a = p513
  rfl
theorem pv557_eq (a : Fam F) : pv557 a = ybR (slice64 9 (pv514 a) (by decide)) (a.lsAt 7) (a.wrAt 6) := by
  unfold pv557 pv556 pv555 pv554 pv553 pv552 pv514
  try generalize pv513 a = p513
  rfl
theorem pv560_eq (a : Fam F) : pv560 a = ybR (slice64 10 (pv514 a) (by decide)) (a.lsAt 7) (a.wrAt 6) := by
  unfold pv560 pv559 pv558 pv514
  try generalize pv513 a = p513
  rfl
theorem pv566_eq (a : Fam F) : pv566 a = ybR (slice64 11 (pv514 a) (by decide)) (a.lsAt 7) (a.wrAt 6) := by
  unfold pv566 pv565 pv564 pv563 pv562 pv561 pv514
  try generalize pv513 a = p513
  rfl
theorem pv570_eq (a : Fam F) : pv570 a = ybR (slice64 12 (pv514 a) (by decide)) (a.lsAt 7) (a.wrAt 6) := by
  unfold pv570 pv569 pv568 pv567 pv514
  try generalize pv513 a = p513
  rfl
theorem pv574_eq (a : Fam F) : pv574 a = ybR (slice64 13 (pv514 a) (by decide)) (a.lsAt 7) (a.wrAt 6) := by
  unfold pv574 pv573 pv572 pv571 pv514
  try generalize pv513 a = p513
  rfl
theorem pv577_eq (a : Fam F) : pv577 a = ybR (slice64 14 (pv514 a) (by decide)) (a.lsAt 7) (a.wrAt 6) := by
  unfold pv577 pv576 pv575 pv514
  try generalize pv513 a = p513
  rfl
theorem pv582_eq (a : Fam F) : pv582 a = bn (stack64 ![up64 (pv518 a), up64 (pv522 a), up64 (pv525 a), up64 (pv529 a), up64 (pv534 a), up64 (pv539 a), up64 (pv542 a), up64 (pv547 a), up64 (pv551 a), up64 (pv557 a), up64 (pv560 a), up64 (pv566 a), up64 (pv570 a), up64 (pv574 a), up64 (pv577 a), up64 (ybR (slice64 15 (pv514 a) (by decide)) (a.lsAt 7) (a.wrAt 6))]) (a.gAt 7) (a.bAt 7) := by
  unfold pv582 pv581 pv580 pv579 pv578 pv514
  try generalize pv513 a = p513
  try generalize pv518 a = p518
  try generalize pv522 a = p522
  try generalize pv525 a = p525
  try generalize pv529 a = p529
  try generalize pv534 a = p534
  try generalize pv539 a = p539
  try generalize pv542 a = p542
  try generalize pv547 a = p547
  try generalize pv551 a = p551
  try generalize pv557 a = p557
  try generalize pv560 a = p560
  try generalize pv566 a = p566
  try generalize pv570 a = p570
  try generalize pv574 a = p574
  try generalize pv577 a = p577
  rfl
/-- After layer 7. -/
theorem layer7_eq (a : Fam F) : pv582 a = state a.x0 a.lsAt a.w0At a.wrAt a.gAt a.bAt 7 (by decide) := by
  rw [pv582_eq, pv518_eq, pv522_eq, pv525_eq, pv529_eq, pv534_eq, pv539_eq, pv542_eq, pv547_eq, pv551_eq, pv557_eq, pv560_eq, pv566_eq, pv570_eq, pv574_eq, pv577_eq, layer6_eq]
  rfl

theorem pv587_eq (a : Fam F) : pv587 a = ybR (slice64 0 (pv582 a) (by decide)) (a.lsAt 8) (a.wrAt 7) := by
  unfold pv587 pv586 pv585 pv584 pv583
  try unfold pv582
  try generalize pv581 a = p581
  rfl
theorem pv591_eq (a : Fam F) : pv591 a = ybR (slice64 1 (pv582 a) (by decide)) (a.lsAt 8) (a.wrAt 7) := by
  unfold pv591 pv590 pv589 pv588 pv582
  try generalize pv581 a = p581
  rfl
theorem pv596_eq (a : Fam F) : pv596 a = ybR (slice64 2 (pv582 a) (by decide)) (a.lsAt 8) (a.wrAt 7) := by
  unfold pv596 pv595 pv594 pv593 pv592 pv582
  try generalize pv581 a = p581
  rfl
theorem pv601_eq (a : Fam F) : pv601 a = ybR (slice64 3 (pv582 a) (by decide)) (a.lsAt 8) (a.wrAt 7) := by
  unfold pv601 pv600 pv599 pv598 pv597 pv582
  try generalize pv581 a = p581
  rfl
theorem pv605_eq (a : Fam F) : pv605 a = ybR (slice64 4 (pv582 a) (by decide)) (a.lsAt 8) (a.wrAt 7) := by
  unfold pv605 pv604 pv603 pv602 pv582
  try generalize pv581 a = p581
  rfl
theorem pv609_eq (a : Fam F) : pv609 a = ybR (slice64 5 (pv582 a) (by decide)) (a.lsAt 8) (a.wrAt 7) := by
  unfold pv609 pv608 pv607 pv606 pv582
  try generalize pv581 a = p581
  rfl
theorem pv612_eq (a : Fam F) : pv612 a = ybR (slice64 6 (pv582 a) (by decide)) (a.lsAt 8) (a.wrAt 7) := by
  unfold pv612 pv611 pv610 pv582
  try generalize pv581 a = p581
  rfl
theorem pv618_eq (a : Fam F) : pv618 a = ybR (slice64 7 (pv582 a) (by decide)) (a.lsAt 8) (a.wrAt 7) := by
  unfold pv618 pv617 pv616 pv615 pv614 pv613 pv582
  try generalize pv581 a = p581
  rfl
theorem pv622_eq (a : Fam F) : pv622 a = ybR (slice64 8 (pv582 a) (by decide)) (a.lsAt 8) (a.wrAt 7) := by
  unfold pv622 pv621 pv620 pv619 pv582
  try generalize pv581 a = p581
  rfl
theorem pv626_eq (a : Fam F) : pv626 a = ybR (slice64 9 (pv582 a) (by decide)) (a.lsAt 8) (a.wrAt 7) := by
  unfold pv626 pv625 pv624 pv623 pv582
  try generalize pv581 a = p581
  rfl
theorem pv629_eq (a : Fam F) : pv629 a = ybR (slice64 10 (pv582 a) (by decide)) (a.lsAt 8) (a.wrAt 7) := by
  unfold pv629 pv628 pv627 pv582
  try generalize pv581 a = p581
  rfl
theorem pv634_eq (a : Fam F) : pv634 a = ybR (slice64 11 (pv582 a) (by decide)) (a.lsAt 8) (a.wrAt 7) := by
  unfold pv634 pv633 pv632 pv631 pv630 pv582
  try generalize pv581 a = p581
  rfl
theorem pv639_eq (a : Fam F) : pv639 a = ybR (slice64 12 (pv582 a) (by decide)) (a.lsAt 8) (a.wrAt 7) := by
  unfold pv639 pv638 pv637 pv636 pv635 pv582
  try generalize pv581 a = p581
  rfl
theorem pv643_eq (a : Fam F) : pv643 a = ybR (slice64 13 (pv582 a) (by decide)) (a.lsAt 8) (a.wrAt 7) := by
  unfold pv643 pv642 pv641 pv640 pv582
  try generalize pv581 a = p581
  rfl
theorem pv648_eq (a : Fam F) : pv648 a = ybR (slice64 14 (pv582 a) (by decide)) (a.lsAt 8) (a.wrAt 7) := by
  unfold pv648 pv647 pv646 pv645 pv644 pv582
  try generalize pv581 a = p581
  rfl
theorem pv655_eq (a : Fam F) : pv655 a = bn (stack64 ![up64 (pv587 a), up64 (pv591 a), up64 (pv596 a), up64 (pv601 a), up64 (pv605 a), up64 (pv609 a), up64 (pv612 a), up64 (pv618 a), up64 (pv622 a), up64 (pv626 a), up64 (pv629 a), up64 (pv634 a), up64 (pv639 a), up64 (pv643 a), up64 (pv648 a), up64 (ybR (slice64 15 (pv582 a) (by decide)) (a.lsAt 8) (a.wrAt 7))]) (a.gAt 8) (a.bAt 8) := by
  unfold pv655 pv654 pv653 pv652 pv651 pv650 pv649 pv582
  try generalize pv581 a = p581
  try generalize pv587 a = p587
  try generalize pv591 a = p591
  try generalize pv596 a = p596
  try generalize pv601 a = p601
  try generalize pv605 a = p605
  try generalize pv609 a = p609
  try generalize pv612 a = p612
  try generalize pv618 a = p618
  try generalize pv622 a = p622
  try generalize pv626 a = p626
  try generalize pv629 a = p629
  try generalize pv634 a = p634
  try generalize pv639 a = p639
  try generalize pv643 a = p643
  try generalize pv648 a = p648
  rfl
/-- After layer 8. -/
theorem layer8_eq (a : Fam F) : pv655 a = state a.x0 a.lsAt a.w0At a.wrAt a.gAt a.bAt 8 (by decide) := by
  rw [pv655_eq, pv587_eq, pv591_eq, pv596_eq, pv601_eq, pv605_eq, pv609_eq, pv612_eq, pv618_eq, pv622_eq, pv626_eq, pv629_eq, pv634_eq, pv639_eq, pv643_eq, pv648_eq, layer7_eq]
  rfl

theorem pv660_eq (a : Fam F) : pv660 a = ybR (slice64 0 (pv655 a) (by decide)) (a.lsAt 9) (a.wrAt 8) := by
  unfold pv660 pv659 pv658 pv657 pv656
  try unfold pv655
  try generalize pv653 a = p653
  try generalize pv654 a = p654
  rfl
theorem pv663_eq (a : Fam F) : pv663 a = ybR (slice64 1 (pv655 a) (by decide)) (a.lsAt 9) (a.wrAt 8) := by
  unfold pv663 pv662 pv661 pv655
  try generalize pv653 a = p653
  try generalize pv654 a = p654
  rfl
theorem pv668_eq (a : Fam F) : pv668 a = ybR (slice64 2 (pv655 a) (by decide)) (a.lsAt 9) (a.wrAt 8) := by
  unfold pv668 pv667 pv666 pv665 pv664 pv655
  try generalize pv653 a = p653
  try generalize pv654 a = p654
  rfl
theorem pv673_eq (a : Fam F) : pv673 a = ybR (slice64 3 (pv655 a) (by decide)) (a.lsAt 9) (a.wrAt 8) := by
  unfold pv673 pv672 pv671 pv670 pv669 pv655
  try generalize pv653 a = p653
  try generalize pv654 a = p654
  rfl
theorem pv678_eq (a : Fam F) : pv678 a = ybR (slice64 4 (pv655 a) (by decide)) (a.lsAt 9) (a.wrAt 8) := by
  unfold pv678 pv677 pv676 pv675 pv674 pv655
  try generalize pv653 a = p653
  try generalize pv654 a = p654
  rfl
theorem pv681_eq (a : Fam F) : pv681 a = ybR (slice64 5 (pv655 a) (by decide)) (a.lsAt 9) (a.wrAt 8) := by
  unfold pv681 pv680 pv679 pv655
  try generalize pv653 a = p653
  try generalize pv654 a = p654
  rfl
theorem pv687_eq (a : Fam F) : pv687 a = ybR (slice64 6 (pv655 a) (by decide)) (a.lsAt 9) (a.wrAt 8) := by
  unfold pv687 pv686 pv685 pv684 pv683 pv682 pv655
  try generalize pv653 a = p653
  try generalize pv654 a = p654
  rfl
theorem pv691_eq (a : Fam F) : pv691 a = ybR (slice64 7 (pv655 a) (by decide)) (a.lsAt 9) (a.wrAt 8) := by
  unfold pv691 pv690 pv689 pv688 pv655
  try generalize pv653 a = p653
  try generalize pv654 a = p654
  rfl
theorem pv697_eq (a : Fam F) : pv697 a = ybR (slice64 8 (pv655 a) (by decide)) (a.lsAt 9) (a.wrAt 8) := by
  unfold pv697 pv696 pv695 pv694 pv693 pv692 pv655
  try generalize pv653 a = p653
  try generalize pv654 a = p654
  rfl
theorem pv700_eq (a : Fam F) : pv700 a = ybR (slice64 9 (pv655 a) (by decide)) (a.lsAt 9) (a.wrAt 8) := by
  unfold pv700 pv699 pv698 pv655
  try generalize pv653 a = p653
  try generalize pv654 a = p654
  rfl
theorem pv707_eq (a : Fam F) : pv707 a = ybR (slice64 10 (pv655 a) (by decide)) (a.lsAt 9) (a.wrAt 8) := by
  unfold pv707 pv706 pv705 pv704 pv703 pv702 pv701 pv655
  try generalize pv653 a = p653
  try generalize pv654 a = p654
  rfl
theorem pv711_eq (a : Fam F) : pv711 a = ybR (slice64 11 (pv655 a) (by decide)) (a.lsAt 9) (a.wrAt 8) := by
  unfold pv711 pv710 pv709 pv708 pv655
  try generalize pv653 a = p653
  try generalize pv654 a = p654
  rfl
theorem pv716_eq (a : Fam F) : pv716 a = ybR (slice64 12 (pv655 a) (by decide)) (a.lsAt 9) (a.wrAt 8) := by
  unfold pv716 pv715 pv714 pv713 pv712 pv655
  try generalize pv653 a = p653
  try generalize pv654 a = p654
  rfl
theorem pv719_eq (a : Fam F) : pv719 a = ybR (slice64 13 (pv655 a) (by decide)) (a.lsAt 9) (a.wrAt 8) := by
  unfold pv719 pv718 pv717 pv655
  try generalize pv653 a = p653
  try generalize pv654 a = p654
  rfl
theorem pv724_eq (a : Fam F) : pv724 a = ybR (slice64 14 (pv655 a) (by decide)) (a.lsAt 9) (a.wrAt 8) := by
  unfold pv724 pv723 pv722 pv721 pv720 pv655
  try generalize pv653 a = p653
  try generalize pv654 a = p654
  rfl
theorem pv731_eq (a : Fam F) : pv731 a = bn (stack64 ![up64 (pv660 a), up64 (pv663 a), up64 (pv668 a), up64 (pv673 a), up64 (pv678 a), up64 (pv681 a), up64 (pv687 a), up64 (pv691 a), up64 (pv697 a), up64 (pv700 a), up64 (pv707 a), up64 (pv711 a), up64 (pv716 a), up64 (pv719 a), up64 (pv724 a), up64 (ybR (slice64 15 (pv655 a) (by decide)) (a.lsAt 9) (a.wrAt 8))]) (a.gAt 9) (a.bAt 9) := by
  unfold pv731 pv730 pv729 pv728 pv727 pv726 pv725 pv655
  try generalize pv653 a = p653
  try generalize pv654 a = p654
  try generalize pv660 a = p660
  try generalize pv663 a = p663
  try generalize pv668 a = p668
  try generalize pv673 a = p673
  try generalize pv678 a = p678
  try generalize pv681 a = p681
  try generalize pv687 a = p687
  try generalize pv691 a = p691
  try generalize pv697 a = p697
  try generalize pv700 a = p700
  try generalize pv707 a = p707
  try generalize pv711 a = p711
  try generalize pv716 a = p716
  try generalize pv719 a = p719
  try generalize pv724 a = p724
  rfl
/-- After layer 9. -/
theorem layer9_eq (a : Fam F) : pv731 a = state a.x0 a.lsAt a.w0At a.wrAt a.gAt a.bAt 9 (by decide) := by
  rw [pv731_eq, pv660_eq, pv663_eq, pv668_eq, pv673_eq, pv678_eq, pv681_eq, pv687_eq, pv691_eq, pv697_eq, pv700_eq, pv707_eq, pv711_eq, pv716_eq, pv719_eq, pv724_eq, layer8_eq]
  rfl

theorem pv732_eq (a : Fam F) : pv732 a = dense1 (slice64 0 (pv731 a) (by decide)) a.f1w a.f1b a.f2w a.f2b := by
  unfold pv732
  try unfold pv731
  try generalize pv729 a = p729
  try generalize pv730 a = p730
  rfl
theorem pv734_eq (a : Fam F) : pv734 a = dense1 (slice64 1 (pv731 a) (by decide)) a.f1w a.f1b a.f2w a.f2b := by
  unfold pv734 pv733
  try unfold pv731
  try generalize pv729 a = p729
  try generalize pv730 a = p730
  rfl
theorem pv735_eq (a : Fam F) : pv735 a = dense1 (slice64 2 (pv731 a) (by decide)) a.f1w a.f1b a.f2w a.f2b := by
  unfold pv735 pv731
  try generalize pv729 a = p729
  try generalize pv730 a = p730
  rfl
theorem pv737_eq (a : Fam F) : pv737 a = dense1 (slice64 3 (pv731 a) (by decide)) a.f1w a.f1b a.f2w a.f2b := by
  unfold pv737 pv736 pv731
  try generalize pv729 a = p729
  try generalize pv730 a = p730
  rfl
theorem pv738_eq (a : Fam F) : pv738 a = dense1 (slice64 4 (pv731 a) (by decide)) a.f1w a.f1b a.f2w a.f2b := by
  unfold pv738 pv731
  try generalize pv729 a = p729
  try generalize pv730 a = p730
  rfl
theorem pv741_eq (a : Fam F) : pv741 a = dense1 (slice64 5 (pv731 a) (by decide)) a.f1w a.f1b a.f2w a.f2b := by
  unfold pv741 pv740 pv739 pv731
  try generalize pv729 a = p729
  try generalize pv730 a = p730
  rfl
theorem pv742_eq (a : Fam F) : pv742 a = dense1 (slice64 6 (pv731 a) (by decide)) a.f1w a.f1b a.f2w a.f2b := by
  unfold pv742 pv731
  try generalize pv729 a = p729
  try generalize pv730 a = p730
  rfl
theorem pv744_eq (a : Fam F) : pv744 a = dense1 (slice64 7 (pv731 a) (by decide)) a.f1w a.f1b a.f2w a.f2b := by
  unfold pv744 pv743 pv731
  try generalize pv729 a = p729
  try generalize pv730 a = p730
  rfl
theorem pv745_eq (a : Fam F) : pv745 a = dense1 (slice64 8 (pv731 a) (by decide)) a.f1w a.f1b a.f2w a.f2b := by
  unfold pv745 pv731
  try generalize pv729 a = p729
  try generalize pv730 a = p730
  rfl
theorem pv747_eq (a : Fam F) : pv747 a = dense1 (slice64 9 (pv731 a) (by decide)) a.f1w a.f1b a.f2w a.f2b := by
  unfold pv747 pv746 pv731
  try generalize pv729 a = p729
  try generalize pv730 a = p730
  rfl
theorem pv748_eq (a : Fam F) : pv748 a = dense1 (slice64 10 (pv731 a) (by decide)) a.f1w a.f1b a.f2w a.f2b := by
  unfold pv748 pv731
  try generalize pv729 a = p729
  try generalize pv730 a = p730
  rfl
theorem pv751_eq (a : Fam F) : pv751 a = dense1 (slice64 11 (pv731 a) (by decide)) a.f1w a.f1b a.f2w a.f2b := by
  unfold pv751 pv750 pv749 pv731
  try generalize pv729 a = p729
  try generalize pv730 a = p730
  rfl
theorem pv752_eq (a : Fam F) : pv752 a = dense1 (slice64 12 (pv731 a) (by decide)) a.f1w a.f1b a.f2w a.f2b := by
  unfold pv752 pv731
  try generalize pv729 a = p729
  try generalize pv730 a = p730
  rfl
theorem pv754_eq (a : Fam F) : pv754 a = dense1 (slice64 13 (pv731 a) (by decide)) a.f1w a.f1b a.f2w a.f2b := by
  unfold pv754 pv753 pv731
  try generalize pv729 a = p729
  try generalize pv730 a = p730
  rfl
theorem pv755_eq (a : Fam F) : pv755 a = dense1 (slice64 14 (pv731 a) (by decide)) a.f1w a.f1b a.f2w a.f2b := by
  unfold pv755 pv731
  try generalize pv729 a = p729
  try generalize pv730 a = p730
  rfl
theorem pv1_eq (a : Fam F) : pv1 a = dense1 (slice64 15 (pv731 a) (by decide)) a.f1w a.f1b a.f2w a.f2b := by
  unfold pv1 pv756 pv731
  try generalize pv729 a = p729
  try generalize pv730 a = p730
  rfl
/-- The stored block. -/
theorem out_eq (a : Fam F) : pv2 a = composed a.x0 a.lsAt a.w0At a.wrAt a.gAt a.bAt a.f1w a.f1b a.f2w a.f2b := by
  unfold pv2
  rw [pv732_eq, pv734_eq, pv735_eq, pv737_eq, pv738_eq, pv741_eq, pv742_eq, pv744_eq, pv745_eq, pv747_eq, pv748_eq, pv751_eq, pv752_eq, pv754_eq, pv755_eq, pv1_eq, layer9_eq]
  rfl

/-- The region's stored value as the payloads compose it, every load replaced by the family member of its place. -/
def pays (x0 : Vec F S16x325x40 .f32) (lsAt : Fin 10 → Fin 4 → Vec F S1x1x325x325 .f32) (w0At : Fin 4 → Vec F S1x160x64 .f32)
    (wrAt : Fin 9 → Fin 4 → Vec F S1x1x64x64 .f32) (gAt bAt : Fin 10 → Vec F S1x64 .f32) (f1w : Vec F S64x512 .f32) (f1b : Vec F S512 .f32)
    (f2w : Vec F S512x1 .f32) (f2b : Vec F S1x1 .f32) : FVec F S16x325x1 .f32 :=
  pv2 ⟨x0, lsAt, w0At, wrAt, gAt, bAt, f1w, f1b, f2w, f2b⟩

theorem pays_eq_composed (x0 : Vec F S16x325x40 .f32) (lsAt : Fin 10 → Fin 4 → Vec F S1x1x325x325 .f32) (w0At : Fin 4 → Vec F S1x160x64 .f32)
    (wrAt : Fin 9 → Fin 4 → Vec F S1x1x64x64 .f32) (gAt bAt : Fin 10 → Vec F S1x64 .f32) (f1w : Vec F S64x512 .f32) (f1b : Vec F S512 .f32)
    (f2w : Vec F S512x1 .f32) (f2b : Vec F S1x1 .f32) :
    pays x0 lsAt w0At wrAt gAt bAt f1w f1b f2w f2b = composed x0 lsAt w0At wrAt gAt bAt f1w f1b f2w f2b :=
  out_eq ⟨x0, lsAt, w0At, wrAt, gAt, bAt, f1w, f1b, f2w, f2b⟩

end Cert.Proof.K2Val
-- ==== Proof.K2Bridge.lean ====
/-
  The value the second TensorCore region's body leaves in its output block, read back, is the payloads' composition of
  K2ValChain at the blocks the body loads: the run's names are the chain's values, one by one.
-/
import proofs.«211384_g36696200577170_cont_8to1_b_1111_23_alg».proof.Proof.K2Body
import proofs.«211384_g36696200577170_cont_8to1_b_1111_23_alg».proof.Proof.K2ValChain

noncomputable section

namespace Cert.Proof.K2Bridge

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.K2Body (k2Run Bf)

variable {F : FTy → Type} [FloatOps F]
variable {Ix : Type} [DecidableEq Ix] {Name : Type} [DecidableEq Name] {U : Type} [URA U] {Lvl : Type} [Preorder Lvl]

/-! ## Where each load reads -/

theorem inb_ls (i : Fin 10) (j : Fin 4) : ∀ a, (![i.val, j.val, 0, 0] : Fin 4 → Nat) a + S1x1x325x325.size a ≤ S10x4x325x325.size a := by
  have hi := i.isLt; have hj := j.isLt
  intro a
  match a with
  | ⟨0, _⟩ => show i.val + 1 ≤ 10; omega
  | ⟨1, _⟩ => show j.val + 1 ≤ 4; omega
  | ⟨2, _⟩ => show 0 + 325 ≤ 325; omega
  | ⟨3, _⟩ => show 0 + 325 ≤ 325; omega

theorem inb_w0 (j : Fin 4) : ∀ a, (![j.val, 0, 0] : Fin 3 → Nat) a + S1x160x64.size a ≤ S4x160x64.size a := by
  have hj := j.isLt
  intro a
  match a with
  | ⟨0, _⟩ => show j.val + 1 ≤ 4; omega
  | ⟨1, _⟩ => show 0 + 160 ≤ 160; omega
  | ⟨2, _⟩ => show 0 + 64 ≤ 64; omega

theorem inb_wr (i : Fin 9) (j : Fin 4) : ∀ a, (![i.val, j.val, 0, 0] : Fin 4 → Nat) a + S1x1x64x64.size a ≤ S9x4x64x64.size a := by
  have hi := i.isLt; have hj := j.isLt
  intro a
  match a with
  | ⟨0, _⟩ => show i.val + 1 ≤ 9; omega
  | ⟨1, _⟩ => show j.val + 1 ≤ 4; omega
  | ⟨2, _⟩ => show 0 + 64 ≤ 64; omega
  | ⟨3, _⟩ => show 0 + 64 ≤ 64; omega

theorem inb_gb (i : Fin 10) : ∀ a, (![i.val, 0] : Fin 2 → Nat) a + S1x64.size a ≤ S10x64.size a := by
  have hi := i.isLt
  intro a
  match a with
  | ⟨0, _⟩ => show i.val + 1 ≤ 10; omega
  | ⟨1, _⟩ => show 0 + 64 ≤ 64; omega

/-- The blocks the body loads, read off the ten input buffers' contents through their memrefs. -/
def fam (c : Dev nD) (M0 : Memref sig .tc .vmem S16x325x40 .f32) (M1 : Memref sig .tc .vmem S10x4x325x325 .f32) (M2 : Memref sig .tc .vmem S4x160x64 .f32)
    (M3 : Memref sig .tc .vmem S9x4x64x64 .f32) (M4 : Memref sig .tc .vmem S10x64 .f32) (M5 : Memref sig .tc .vmem S10x64 .f32) (M6 : Memref sig .tc .vmem S64x512 .f32)
    (M7 : Memref sig .tc .vmem S512 .f32) (M8 : Memref sig .tc .vmem S512x1 .f32) (M9 : Memref sig .tc .vmem S1x1 .f32)
    (f0 : Bf (F := F) c M0) (f1 : Bf (F := F) c M1) (f2 : Bf (F := F) c M2) (f3 : Bf (F := F) c M3) (f4 : Bf (F := F) c M4) (f5 : Bf (F := F) c M5)
    (f6 : Bf (F := F) c M6) (f7 : Bf (F := F) c M7) (f8 : Bf (F := F) c M8) (f9 : Bf (F := F) c M9) : K2Val.Fam F where
  x0 := M0.view.readAt (Elt F) (Rect.unit (s := S16x325x40) ![0, 0, 0] S16x325x40.size inb_S16x325x40_S16x325x40_0_0_0).toLoadRect f0
  lsAt i j := M1.view.readAt (Elt F) (Rect.unit (s := S10x4x325x325) ![i.val, j.val, 0, 0] S1x1x325x325.size (inb_ls i j)).toLoadRect f1
  w0At j := M2.view.readAt (Elt F) (Rect.unit (s := S4x160x64) ![j.val, 0, 0] S1x160x64.size (inb_w0 j)).toLoadRect f2
  wrAt i j := M3.view.readAt (Elt F) (Rect.unit (s := S9x4x64x64) ![i.val, j.val, 0, 0] S1x1x64x64.size (inb_wr i j)).toLoadRect f3
  gAt i := M4.view.readAt (Elt F) (Rect.unit (s := S10x64) ![i.val, 0] S1x64.size (inb_gb i)).toLoadRect f4
  bAt i := M5.view.readAt (Elt F) (Rect.unit (s := S10x64) ![i.val, 0] S1x64.size (inb_gb i)).toLoadRect f5
  f1w := M6.view.readAt (Elt F) (Rect.unit (s := S64x512) ![0, 0] S64x512.size inb_S64x512_S64x512_0_0).toLoadRect f6
  f1b := M7.view.readAt (Elt F) (Rect.unit (s := S512) ![0] S512.size inb_S512_S512_0).toLoadRect f7
  f2w := M8.view.readAt (Elt F) (Rect.unit (s := S512x1) ![0, 0] S512x1.size inb_S512x1_S512x1_0_0).toLoadRect f8
  f2b := M9.view.readAt (Elt F) (Rect.unit (s := S1x1) ![0, 0] S1x1.size inb_S1x1_S1x1_0_0).toLoadRect f9

/-! ## Name by name: the run's value is the chain's -/

section Names
variable (c : Dev nD) (M0 : Memref sig .tc .vmem S16x325x40 .f32) (M1 : Memref sig .tc .vmem S10x4x325x325 .f32) (M2 : Memref sig .tc .vmem S4x160x64 .f32)
  (M3 : Memref sig .tc .vmem S9x4x64x64 .f32) (M4 : Memref sig .tc .vmem S10x64 .f32) (M5 : Memref sig .tc .vmem S10x64 .f32) (M6 : Memref sig .tc .vmem S64x512 .f32)
  (M7 : Memref sig .tc .vmem S512 .f32) (M8 : Memref sig .tc .vmem S512x1 .f32) (M9 : Memref sig .tc .vmem S1x1 .f32)
  (f0 : Bf (F := F) c M0) (f1 : Bf (F := F) c M1) (f2 : Bf (F := F) c M2) (f3 : Bf (F := F) c M3) (f4 : Bf (F := F) c M4) (f5 : Bf (F := F) c M5)
  (f6 : Bf (F := F) c M6) (f7 : Bf (F := F) c M7) (f8 : Bf (F := F) c M8) (f9 : Bf (F := F) c M9)

theorem e_r_1 : k2Run.sl.r_1 c M0 f0 = K2Val.pv4 (fam c M0 M1 M2 M3 M4 M5 M6 M7 M8 M9 f0 f1 f2 f3 f4 f5 f6 f7 f8 f9) := by
  unfold k2Run.sl.r_1 K2Val.pv4
  all_goals rfl
theorem e_r_2 : k2Run.sl.r_2 c M0 M1 M2 f0 f1 f2 = K2Val.pv5 (fam c M0 M1 M2 M3 M4 M5 M6 M7 M8 M9 f0 f1 f2 f3 f4 f5 f6 f7 f8 f9) := by
  unfold k2Run.sl.r_2 K2Val.pv5
  all_goals rfl
theorem e_r_3 : k2Run.sl.r_3 c M0 M1 f0 f1 = K2Val.pv6 (fam c M0 M1 M2 M3 M4 M5 M6 M7 M8 M9 f0 f1 f2 f3 f4 f5 f6 f7 f8 f9) := by
  unfold k2Run.sl.r_3 K2Val.pv6
  all_goals rfl
theorem e_r_4 : k2Run.sl.r_4 c M0 M1 M2 f0 f1 f2 = K2Val.pv7 (fam c M0 M1 M2 M3 M4 M5 M6 M7 M8 M9 f0 f1 f2 f3 f4 f5 f6 f7 f8 f9) := by
  unfold k2Run.sl.r_4 K2Val.pv7
  rw [e_r_1, e_r_2, e_r_3]
  all_goals rfl
theorem e_r : k2Run.sl.r c M0 f0 = K2Val.pv3 (fam c M0 M1 M2 M3 M4 M5 M6 M7 M8 M9 f0 f1 f2 f3 f4 f5 f6 f7 f8 f9) := by
  unfold k2Run.sl.r K2Val.pv3
  all_goals rfl
theorem e_r_5 : k2Run.sl.r_5 c M0 f0 = K2Val.pv8 (fam c M0 M1 M2 M3 M4 M5 M6 M7 M8 M9 f0 f1 f2 f3 f4 f5 f6 f7 f8 f9) := by
  unfold k2Run.sl.r_5 K2Val.pv8
  rw [e_r]
  all_goals rfl
theorem e_r_6 : k2Run.sl.r_6 c M0 M1 M2 f0 f1 f2 = K2Val.pv9 (fam c M0 M1 M2 M3 M4 M5 M6 M7 M8 M9 f0 f1 f2 f3 f4 f5 f6 f7 f8 f9) := by
  unfold k2Run.sl.r_6 K2Val.pv9
  rw [e_r]
  all_goals rfl
theorem e_r_7 : k2Run.sl.r_7 c M0 M1 f0 f1 = K2Val.pv10 (fam c M0 M1 M2 M3 M4 M5 M6 M7 M8 M9 f0 f1 f2 f3 f4 f5 f6 f7 f8 f9) := by
  unfold k2Run.sl.r_7 K2Val.pv10
  rw [e_r]
  all_goals rfl
theorem e_r_8 : k2Run.sl.r_8 c M0 M1 M2 f0 f1 f2 = K2Val.pv11 (fam c M0 M1 M2 M3 M4 M5 M6 M7 M8 M9 f0 f1 f2 f3 f4 f5 f6 f7 f8 f9) := by
  unfold k2Run.sl.r_8 K2Val.pv11
  rw [e_r_5, e_r_6, e_r_7]
  all_goals rfl
theorem e_r_9 : k2Run.sl.r_9 c M0 f0 = K2Val.pv12 (fam c M0 M1 M2 M3 M4 M5 M6 M7 M8 M9 f0 f1 f2 f3 f4 f5 f6 f7 f8 f9) := by
  unfold k2Run.sl.r_9 K2Val.pv12
  rw [e_r]
  all_goals rfl
theorem e_r_10 : k2Run.sl.r_10 c M0 M1 f0 f1 = K2Val.pv13 (fam c M0 M1 M2 M3 M4 M5 M6 M7 M8 M9 f0 f1 f2 f3 f4 f5 f6 f7 f8 f9) := by
  unfold k2Run.sl.r_10 K2Val.pv13
  rw [e_r]
  all_goals rfl
theorem e_r_11 : k2Run.sl.r_11 c M0 M1 M2 f0 f1 f2 = K2Val.pv14 (fam c M0 M1 M2 M3 M4 M5 M6 M7 M8 M9 f0 f1 f2 f3 f4 f5 f6 f7 f8 f9) := by
  unfold k2Run.sl.r_11 K2Val.pv14
  rw [e_r_9, e_r_10]
  all_goals rfl
theorem e_r_12 : k2Run.sl.r_12 c M0 M1 f0 f1 = K2Val.pv15 (fam c M0 M1 M2 M3 M4 M5 M6 M7 M8 M9 f0 f1 f2 f3 f4 f5 f6 f7 f8 f9) := by
  unfold k2Run.sl.r_12 K2Val.pv15
  rw [e_r_9]
  all_goals rfl
theorem e_r_13 : k2Run.sl.r_13 c M0 M1 M2 f0 f1 f2 = K2Val.pv16 (fam c M0 M1 M2 M3 M4 M5 M6 M7 M8 M9 f0 f1 f2 f3 f4 f5 f6 f7 f8 f9) := by
  unfold k2Run.sl.r_13 K2Val.pv16
  rw [e_r_11, e_r_12]
  all_goals rfl
theorem e_r_14 : k2Run.sl.r_14 c M0 f0 = K2Val.pv17 (fam c M0 M1 M2 M3 M4 M5 M6 M7 M8 M9 f0 f1 f2 f3 f4 f5 f6 f7 f8 f9) := by
  unfold k2Run.sl.r_14 K2Val.pv17
  rw [e_r]
  all_goals rfl
theorem e_r_15 : k2Run.sl.r_15 c M0 M1 M2 f0 f1 f2 = K2Val.pv18 (fam c M0 M1 M2 M3 M4 M5 M6 M7 M8 M9 f0 f1 f2 f3 f4 f5 f6 f7 f8 f9) := by
  unfold k2Run.sl.r_15 K2Val.pv18
  rw [e_r]
  all_goals rfl
theorem e_r_16 : k2Run.sl.r_16 c M0 M1 f0 f1 = K2Val.pv19 (fam c M0 M1 M2 M3 M4 M5 M6 M7 M8 M9 f0 f1 f2 f3 f4 f5 f6 f7 f8 f9) := by
  unfold k2Run.sl.r_16 K2Val.pv19
  rw [e_r]
  all_goals rfl
theorem e_r_17 : k2Run.sl.r_17 c M0 M1 M2 f0 f1 f2 = K2Val.pv20 (fam c M0 M1 M2 M3 M4 M5 M6 M7 M8 M9 f0 f1 f2 f3 f4 f5 f6 f7 f8 f9) := by
  unfold k2Run.sl.r_17 K2Val.pv20
  rw [e_r_14, e_r_15, e_r_16]
  all_goals rfl
theorem e_r_18 : k2Run.sl.r_18 c M0 f0 = K2Val.pv21 (fam c M0 M1 M2 M3 M4 M5 M6 M7 M8 M9 f0 f1 f2 f3 f4 f5 f6 f7 f8 f9) := by
  unfold k2Run.sl.r_18 K2Val.pv21
  rw [e_r]
  all_goals rfl
theorem e_r_19 : k2Run.sl.r_19 c M0 M1 M2 f0 f1 f2 = K2Val.pv22 (fam c M0 M1 M2 M3 M4 M5 M6 M7 M8 M9 f0 f1 f2 f3 f4 f5 f6 f7 f8 f9) := by
  unfold k2Run.sl.r_19 K2Val.pv22
  rw [e_r]
  all_goals rfl
theorem e_r_20 : k2Run.sl.r_20 c M1 f1 = K2Val.pv23 (fam c M0 M1 M2 M3 M4 M5 M6 M7 M8 M9 f0 f1 f2 f3 f4 f5 f6 f7 f8 f9) := by
  unfold k2Run.sl.r_20 K2Val.pv23
  all_goals rfl
theorem e_r_21 : k2Run.sl.r_21 c M0 f0 = K2Val.pv24 (fam c M0 M1 M2 M3 M4 M5 M6 M7 M8 M9 f0 f1 f2 f3 f4 f5 f6 f7 f8 f9) := by
  unfold k2Run.sl.r_21 K2Val.pv24
  rw [e_r]
  all_goals rfl
theorem e_r_22 : k2Run.sl.r_22 c M0 M1 M2 f0 f1 f2 = K2Val.pv25 (fam c M0 M1 M2 M3 M4 M5 M6 M7 M8 M9 f0 f1 f2 f3 f4 f5 f6 f7 f8 f9) := by
  unfold k2Run.sl.r_22 K2Val.pv25
  rw [e_r_18, e_r_19, e_r_20, e_r_21]
  all_goals rfl
theorem e_r_23 : k2Run.sl.r_23 c M0 f0 = K2Val.pv26 (fam c M0 M1 M2 M3 M4 M5 M6 M7 M8 M9 f0 f1 f2 f3 f4 f5 f6 f7 f8 f9) := by
  unfold k2Run.sl.r_23 K2Val.pv26
  rw [e_r]
  all_goals rfl
theorem e_r_24 : k2Run.sl.r_24 c M1 f1 = K2Val.pv27 (fam c M0 M1 M2 M3 M4 M5 M6 M7 M8 M9 f0 f1 f2 f3 f4 f5 f6 f7 f8 f9) := by
  unfold k2Run.sl.r_24 K2Val.pv27
  all_goals rfl
theorem e_r_25 : k2Run.sl.r_25 c M0 M1 M2 f0 f1 f2 = K2Val.pv28 (fam c M0 M1 M2 M3 M4 M5 M6 M7 M8 M9 f0 f1 f2 f3 f4 f5 f6 f7 f8 f9) := by
  unfold k2Run.sl.r_25 K2Val.pv28
  rw [e_r_23, e_r_24]
  all_goals rfl
theorem e_r_26 : k2Run.sl.r_26 c M1 f1 = K2Val.pv29 (fam c M0 M1 M2 M3 M4 M5 M6 M7 M8 M9 f0 f1 f2 f3 f4 f5 f6 f7 f8 f9) := by
  unfold k2Run.sl.r_26 K2Val.pv29
  all_goals rfl
theorem e_r_27 : k2Run.sl.r_27 c M0 f0 = K2Val.pv30 (fam c M0 M1 M2 M3 M4 M5 M6 M7 M8 M9 f0 f1 f2 f3 f4 f5 f6 f7 f8 f9) := by
  unfold k2Run.sl.r_27 K2Val.pv30
  rw [e_r_23]
  all_goals rfl
theorem e_r_28 : k2Run.sl.r_28 c M0 M1 M2 f0 f1 f2 = K2Val.pv31 (fam c M0 M1 M2 M3 M4 M5 M6 M7 M8 M9 f0 f1 f2 f3 f4 f5 f6 f7 f8 f9) := by
  unfold k2Run.sl.r_28 K2Val.pv31
  rw [e_r_25, e_r_26, e_r_27]
  all_goals rfl
theorem e_r_29 : k2Run.sl.r_29 c M0 f0 = K2Val.pv32 (fam c M0 M1 M2 M3 M4 M5 M6 M7 M8 M9 f0 f1 f2 f3 f4 f5 f6 f7 f8 f9) := by
  unfold k2Run.sl.r_29 K2Val.pv32
  rw [e_r]
  all_goals rfl
theorem e_r_30 : k2Run.sl.r_30 c M0 M1 M2 f0 f1 f2 = K2Val.pv33 (fam c M0 M1 M2 M3 M4 M5 M6 M7 M8 M9 f0 f1 f2 f3 f4 f5 f6 f7 f8 f9) := by
  unfold k2Run.sl.r_30 K2Val.pv33
  rw [e_r]
  all_goals rfl
theorem e_r_31 : k2Run.sl.r_31 c M1 f1 = K2Val.pv34 (fam c M0 M1 M2 M3 M4 M5 M6 M7 M8 M9 f0 f1 f2 f3 f4 f5 f6 f7 f8 f9) := by
  unfold k2Run.sl.r_31 K2Val.pv34
  all_goals rfl
theorem e_r_32 : k2Run.sl.r_32 c M0 M1 M2 f0 f1 f2 = K2Val.pv35 (fam c M0 M1 M2 M3 M4 M5 M6 M7 M8 M9 f0 f1 f2 f3 f4 f5 f6 f7 f8 f9) := by
  unfold k2Run.sl.r_32 K2Val.pv35
  rw [e_r_29, e_r_30, e_r_31]
  all_goals rfl
theorem e_r_33 : k2Run.sl.r_33 c M0 f0 = K2Val.pv36 (fam c M0 M1 M2 M3 M4 M5 M6 M7 M8 M9 f0 f1 f2 f3 f4 f5 f6 f7 f8 f9) := by
  unfold k2Run.sl.r_33 K2Val.pv36
  rw [e_r]
  all_goals rfl
theorem e_r_34 : k2Run.sl.r_34 c M0 M1 M2 f0 f1 f2 = K2Val.pv37 (fam c M0 M1 M2 M3 M4 M5 M6 M7 M8 M9 f0 f1 f2 f3 f4 f5 f6 f7 f8 f9) := by
  unfold k2Run.sl.r_34 K2Val.pv37
  rw [e_r]
  all_goals rfl
theorem e_r_35 : k2Run.sl.r_35 c M1 f1 = K2Val.pv38 (fam c M0 M1 M2 M3 M4 M5 M6 M7 M8 M9 f0 f1 f2 f3 f4 f5 f6 f7 f8 f9) := by
  unfold k2Run.sl.r_35 K2Val.pv38
  all_goals rfl
theorem e_r_36 : k2Run.sl.r_36 c M0 M1 M2 f0 f1 f2 = K2Val.pv39 (fam c M0 M1 M2 M3 M4 M5 M6 M7 M8 M9 f0 f1 f2 f3 f4 f5 f6 f7 f8 f9) := by
  unfold k2Run.sl.r_36 K2Val.pv39
  rw [e_r_33, e_r_34, e_r_35]
  all_goals rfl
theorem e_r_37 : k2Run.sl.r_37 c M0 f0 = K2Val.pv40 (fam c M0 M1 M2 M3 M4 M5 M6 M7 M8 M9 f0 f1 f2 f3 f4 f5 f6 f7 f8 f9) := by
  unfold k2Run.sl.r_37 K2Val.pv40
  rw [e_r]
  all_goals rfl
theorem e_r_38 : k2Run.sl.r_38 c M0 M1 M2 f0 f1 f2 = K2Val.pv41 (fam c M0 M1 M2 M3 M4 M5 M6 M7 M8 M9 f0 f1 f2 f3 f4 f5 f6 f7 f8 f9) := by
  unfold k2Run.sl.r_38 K2Val.pv41
  rw [e_r_37]
  all_goals rfl
theorem e_r_40 : k2Run.sl.r_40 c M0 M1 M2 f0 f1 f2 = K2Val.pv42 (fam c M0 M1 M2 M3 M4 M5 M6 M7 M8 M9 f0 f1 f2 f3 f4 f5 f6 f7 f8 f9) := by
  unfold k2Run.sl.r_40 K2Val.pv42
  rw [e_r_37, e_r_38]
  all_goals rfl
theorem e_r_41 : k2Run.sl.r_41 c M0 f0 = K2Val.pv43 (fam c M0 M1 M2 M3 M4 M5 M6 M7 M8 M9 f0 f1 f2 f3 f4 f5 f6 f7 f8 f9) := by
  unfold k2Run.sl.r_41 K2Val.pv43
  rw [e_r]
  all_goals rfl
theorem e_r_42 : k2Run.sl.r_42 c M0 M1 M2 f0 f1 f2 = K2Val.pv44 (fam c M0 M1 M2 M3 M4 M5 M6 M7 M8 M9 f0 f1 f2 f3 f4 f5 f6 f7 f8 f9) := by
  unfold k2Run.sl.r_42 K2Val.pv44
  rw [e_r]
  all_goals rfl
theorem e_r_43 : k2Run.sl.r_43 c M0 M1 M2 f0 f1 f2 = K2Val.pv45 (fam c M0 M1 M2 M3 M4 M5 M6 M7 M8 M9 f0 f1 f2 f3 f4 f5 f6 f7 f8 f9) := by
  unfold k2Run.sl.r_43 K2Val.pv45
  rw [e_r_41, e_r_42]
  all_goals rfl
theorem e_r_44 : k2Run.sl.r_44 c M0 f0 = K2Val.pv46 (fam c M0 M1 M2 M3 M4 M5 M6 M7 M8 M9 f0 f1 f2 f3 f4 f5 f6 f7 f8 f9) := by
  unfold k2Run.sl.r_44 K2Val.pv46
  rw [e_r]
  all_goals rfl
theorem e_r_45 : k2Run.sl.r_45 c M0 M1 M2 f0 f1 f2 = K2Val.pv47 (fam c M0 M1 M2 M3 M4 M5 M6 M7 M8 M9 f0 f1 f2 f3 f4 f5 f6 f7 f8 f9) := by
  unfold k2Run.sl.r_45 K2Val.pv47
  rw [e_r]
  all_goals rfl
theorem e_r_46 : k2Run.sl.r_46 c M0 M1 M2 f0 f1 f2 = K2Val.pv48 (fam c M0 M1 M2 M3 M4 M5 M6 M7 M8 M9 f0 f1 f2 f3 f4 f5 f6 f7 f8 f9) := by
  unfold k2Run.sl.r_46 K2Val.pv48
  rw [e_r_44, e_r_45]
  all_goals rfl
theorem e_r_47 : k2Run.sl.r_47 c M0 f0 = K2Val.pv49 (fam c M0 M1 M2 M3 M4 M5 M6 M7 M8 M9 f0 f1 f2 f3 f4 f5 f6 f7 f8 f9) := by
  unfold k2Run.sl.r_47 K2Val.pv49
  rw [e_r]
  all_goals rfl
theorem e_r_48 : k2Run.sl.r_48 c M0 M1 M2 f0 f1 f2 = K2Val.pv50 (fam c M0 M1 M2 M3 M4 M5 M6 M7 M8 M9 f0 f1 f2 f3 f4 f5 f6 f7 f8 f9) := by
  unfold k2Run.sl.r_48 K2Val.pv50
  rw [e_r_47]
  all_goals rfl
theorem e_r_49 : k2Run.sl.r_49 c M0 M1 M2 f0 f1 f2 = K2Val.pv51 (fam c M0 M1 M2 M3 M4 M5 M6 M7 M8 M9 f0 f1 f2 f3 f4 f5 f6 f7 f8 f9) := by
  unfold k2Run.sl.r_49 K2Val.pv51
  rw [e_r_47, e_r_48]
  all_goals rfl
theorem e_r_50 : k2Run.sl.r_50 c M0 f0 = K2Val.pv52 (fam c M0 M1 M2 M3 M4 M5 M6 M7 M8 M9 f0 f1 f2 f3 f4 f5 f6 f7 f8 f9) := by
  unfold k2Run.sl.r_50 K2Val.pv52
  rw [e_r]
  all_goals rfl
theorem e_r_51 : k2Run.sl.r_51 c M0 M1 M2 f0 f1 f2 = K2Val.pv53 (fam c M0 M1 M2 M3 M4 M5 M6 M7 M8 M9 f0 f1 f2 f3 f4 f5 f6 f7 f8 f9) := by
  unfold k2Run.sl.r_51 K2Val.pv53
  rw [e_r]
  all_goals rfl
theorem e_r_52 : k2Run.sl.r_52 c M0 M1 M2 f0 f1 f2 = K2Val.pv54 (fam c M0 M1 M2 M3 M4 M5 M6 M7 M8 M9 f0 f1 f2 f3 f4 f5 f6 f7 f8 f9) := by
  unfold k2Run.sl.r_52 K2Val.pv54
  rw [e_r_50, e_r_51]
  all_goals rfl
theorem e_r_53 : k2Run.sl.r_53 c M0 f0 = K2Val.pv55 (fam c M0 M1 M2 M3 M4 M5 M6 M7 M8 M9 f0 f1 f2 f3 f4 f5 f6 f7 f8 f9) := by
  unfold k2Run.sl.r_53 K2Val.pv55
  rw [e_r]
  all_goals rfl
theorem e_r_54 : k2Run.sl.r_54 c M0 M1 M2 f0 f1 f2 = K2Val.pv56 (fam c M0 M1 M2 M3 M4 M5 M6 M7 M8 M9 f0 f1 f2 f3 f4 f5 f6 f7 f8 f9) := by
  unfold k2Run.sl.r_54 K2Val.pv56
  rw [e_r]
  all_goals rfl
theorem e_r_55 : k2Run.sl.r_55 c M0 M1 M2 f0 f1 f2 = K2Val.pv57 (fam c M0 M1 M2 M3 M4 M5 M6 M7 M8 M9 f0 f1 f2 f3 f4 f5 f6 f7 f8 f9) := by
  unfold k2Run.sl.r_55 K2Val.pv57
  rw [e_r_53, e_r_54]
  all_goals rfl
theorem e_r_56 : k2Run.sl.r_56 c M0 f0 = K2Val.pv58 (fam c M0 M1 M2 M3 M4 M5 M6 M7 M8 M9 f0 f1 f2 f3 f4 f5 f6 f7 f8 f9) := by
  unfold k2Run.sl.r_56 K2Val.pv58
  rw [e_r]
  all_goals rfl
theorem e_r_57 : k2Run.sl.r_57 c M0 M1 M2 f0 f1 f2 = K2Val.pv59 (fam c M0 M1 M2 M3 M4 M5 M6 M7 M8 M9 f0 f1 f2 f3 f4 f5 f6 f7 f8 f9) := by
  unfold k2Run.sl.r_57 K2Val.pv59
  rw [e_r]
  all_goals rfl
theorem e_r_58 : k2Run.sl.r_58 c M0 M1 M2 f0 f1 f2 = K2Val.pv60 (fam c M0 M1 M2 M3 M4 M5 M6 M7 M8 M9 f0 f1 f2 f3 f4 f5 f6 f7 f8 f9) := by
  unfold k2Run.sl.r_58 K2Val.pv60
  rw [e_r]
  all_goals rfl
theorem e_r_59 : k2Run.sl.r_59 c M0 M1 M2 f0 f1 f2 = K2Val.pv61 (fam c M0 M1 M2 M3 M4 M5 M6 M7 M8 M9 f0 f1 f2 f3 f4 f5 f6 f7 f8 f9) := by
  unfold k2Run.sl.r_59 K2Val.pv61
  rw [e_r_56, e_r_57, e_r_58]
  all_goals rfl
theorem e_r_60 : k2Run.sl.r_60 c M0 f0 = K2Val.pv62 (fam c M0 M1 M2 M3 M4 M5 M6 M7 M8 M9 f0 f1 f2 f3 f4 f5 f6 f7 f8 f9) := by
  unfold k2Run.sl.r_60 K2Val.pv62
  rw [e_r]
  all_goals rfl
theorem e_r_61 : k2Run.sl.r_61 c M0 M1 M2 f0 f1 f2 = K2Val.pv63 (fam c M0 M1 M2 M3 M4 M5 M6 M7 M8 M9 f0 f1 f2 f3 f4 f5 f6 f7 f8 f9) := by
  unfold k2Run.sl.r_61 K2Val.pv63
  rw [e_r]
  all_goals rfl
theorem e_r_62 : k2Run.sl.r_62 c M0 M1 f0 f1 = K2Val.pv64 (fam c M0 M1 M2 M3 M4 M5 M6 M7 M8 M9 f0 f1 f2 f3 f4 f5 f6 f7 f8 f9) := by
  unfold k2Run.sl.r_62 K2Val.pv64
  rw [e_r]
  all_goals rfl
theorem e_r_63 : k2Run.sl.r_63 c M2 f2 = K2Val.pv65 (fam c M0 M1 M2 M3 M4 M5 M6 M7 M8 M9 f0 f1 f2 f3 f4 f5 f6 f7 f8 f9) := by
  unfold k2Run.sl.r_63 K2Val.pv65
  all_goals rfl
theorem e_r_64 : k2Run.sl.r_64 c M0 M1 M2 f0 f1 f2 = K2Val.pv66 (fam c M0 M1 M2 M3 M4 M5 M6 M7 M8 M9 f0 f1 f2 f3 f4 f5 f6 f7 f8 f9) := by
  unfold k2Run.sl.r_64 K2Val.pv66
  rw [e_r_4, e_r_8, e_r_13, e_r_17, e_r_22, e_r_28, e_r_32, e_r_36, e_r_40, e_r_43, e_r_46, e_r_49, e_r_52, e_r_55, e_r_59, e_r_60, e_r_61, e_r_62, e_r_63]
  all_goals rfl
theorem e_r_66 : k2Run.sl.r_66 c M0 M1 M2 M4 M5 f0 f1 f2 f4 f5 = K2Val.pv68 (fam c M0 M1 M2 M3 M4 M5 M6 M7 M8 M9 f0 f1 f2 f3 f4 f5 f6 f7 f8 f9) := by
  unfold k2Run.sl.r_66 K2Val.pv68
  rw [e_r_64]
  all_goals rfl
theorem e_r_67 : k2Run.sl.r_67 c M0 M1 M2 M4 M5 f0 f1 f2 f4 f5 = K2Val.pv69 (fam c M0 M1 M2 M3 M4 M5 M6 M7 M8 M9 f0 f1 f2 f3 f4 f5 f6 f7 f8 f9) := by
  unfold k2Run.sl.r_67 K2Val.pv69
  rw [e_r_64]
  all_goals rfl
theorem e_r_68 : k2Run.sl.r_68 c M0 M1 M2 M3 M4 M5 f0 f1 f2 f3 f4 f5 = K2Val.pv70 (fam c M0 M1 M2 M3 M4 M5 M6 M7 M8 M9 f0 f1 f2 f3 f4 f5 f6 f7 f8 f9) := by
  unfold k2Run.sl.r_68 K2Val.pv70
  rw [e_r_66, e_r_67]
  all_goals rfl
theorem e_r_69 : k2Run.sl.r_69 c M0 M1 M2 M4 M5 f0 f1 f2 f4 f5 = K2Val.pv71 (fam c M0 M1 M2 M3 M4 M5 M6 M7 M8 M9 f0 f1 f2 f3 f4 f5 f6 f7 f8 f9) := by
  unfold k2Run.sl.r_69 K2Val.pv71
  rw [e_r_66]
  all_goals rfl
theorem e_r_70 : k2Run.sl.r_70 c M0 M1 M2 M3 M4 M5 f0 f1 f2 f3 f4 f5 = K2Val.pv72 (fam c M0 M1 M2 M3 M4 M5 M6 M7 M8 M9 f0 f1 f2 f3 f4 f5 f6 f7 f8 f9) := by
  unfold k2Run.sl.r_70 K2Val.pv72
  rw [e_r_68, e_r_69]
  all_goals rfl
theorem e_r_65 : k2Run.sl.r_65 c M0 M1 M2 M4 M5 f0 f1 f2 f4 f5 = K2Val.pv67 (fam c M0 M1 M2 M3 M4 M5 M6 M7 M8 M9 f0 f1 f2 f3 f4 f5 f6 f7 f8 f9) := by
  unfold k2Run.sl.r_65 K2Val.pv67
  rw [e_r_64]
  all_goals rfl
theorem e_r_71 : k2Run.sl.r_71 c M0 M1 M2 M4 M5 f0 f1 f2 f4 f5 = K2Val.pv73 (fam c M0 M1 M2 M3 M4 M5 M6 M7 M8 M9 f0 f1 f2 f3 f4 f5 f6 f7 f8 f9) := by
  unfold k2Run.sl.r_71 K2Val.pv73
  rw [e_r_65]
  all_goals rfl
theorem e_r_72 : k2Run.sl.r_72 c M0 M1 M2 M3 M4 M5 f0 f1 f2 f3 f4 f5 = K2Val.pv74 (fam c M0 M1 M2 M3 M4 M5 M6 M7 M8 M9 f0 f1 f2 f3 f4 f5 f6 f7 f8 f9) := by
  unfold k2Run.sl.r_72 K2Val.pv74
  rw [e_r_65]
  all_goals rfl
theorem e_r_73 : k2Run.sl.r_73 c M1 f1 = K2Val.pv75 (fam c M0 M1 M2 M3 M4 M5 M6 M7 M8 M9 f0 f1 f2 f3 f4 f5 f6 f7 f8 f9) := by
  unfold k2Run.sl.r_73 K2Val.pv75
  all_goals rfl
theorem e_r_74 : k2Run.sl.r_74 c M0 M1 M2 M3 M4 M5 f0 f1 f2 f3 f4 f5 = K2Val.pv76 (fam c M0 M1 M2 M3 M4 M5 M6 M7 M8 M9 f0 f1 f2 f3 f4 f5 f6 f7 f8 f9) := by
  unfold k2Run.sl.r_74 K2Val.pv76
  rw [e_r_71, e_r_72, e_r_73]
  all_goals rfl
theorem e_r_75 : k2Run.sl.r_75 c M0 M1 M2 M4 M5 f0 f1 f2 f4 f5 = K2Val.pv77 (fam c M0 M1 M2 M3 M4 M5 M6 M7 M8 M9 f0 f1 f2 f3 f4 f5 f6 f7 f8 f9) := by
  unfold k2Run.sl.r_75 K2Val.pv77
  rw [e_r_65]
  all_goals rfl
theorem e_r_76 : k2Run.sl.r_76 c M0 M1 M2 M3 M4 M5 f0 f1 f2 f3 f4 f5 = K2Val.pv78 (fam c M0 M1 M2 M3 M4 M5 M6 M7 M8 M9 f0 f1 f2 f3 f4 f5 f6 f7 f8 f9) := by
  unfold k2Run.sl.r_76 K2Val.pv78
  rw [e_r_65]
  all_goals rfl
theorem e_r_77 : k2Run.sl.r_77 c M0 M1 M2 M3 M4 M5 f0 f1 f2 f3 f4 f5 = K2Val.pv79 (fam c M0 M1 M2 M3 M4 M5 M6 M7 M8 M9 f0 f1 f2 f3 f4 f5 f6 f7 f8 f9) := by
  unfold k2Run.sl.r_77 K2Val.pv79
  rw [e_r_75, e_r_76]
  all_goals rfl
theorem e_r_78 : k2Run.sl.r_78 c M0 M1 M2 M4 M5 f0 f1 f2 f4 f5 = K2Val.pv80 (fam c M0 M1 M2 M3 M4 M5 M6 M7 M8 M9 f0 f1 f2 f3 f4 f5 f6 f7 f8 f9) := by
  unfold k2Run.sl.r_78 K2Val.pv80
  rw [e_r_65]
  all_goals rfl
theorem e_r_79 : k2Run.sl.r_79 c M0 M1 M2 M3 M4 M5 f0 f1 f2 f3 f4 f5 = K2Val.pv81 (fam c M0 M1 M2 M3 M4 M5 M6 M7 M8 M9 f0 f1 f2 f3 f4 f5 f6 f7 f8 f9) := by
  unfold k2Run.sl.r_79 K2Val.pv81
  rw [e_r_65]
  all_goals rfl
theorem e_r_80 : k2Run.sl.r_80 c M3 f3 = K2Val.pv82 (fam c M0 M1 M2 M3 M4 M5 M6 M7 M8 M9 f0 f1 f2 f3 f4 f5 f6 f7 f8 f9) := by
  unfold k2Run.sl.r_80 K2Val.pv82
  all_goals rfl
theorem e_r_81 : k2Run.sl.r_81 c M0 M1 M2 M4 M5 f0 f1 f2 f4 f5 = K2Val.pv83 (fam c M0 M1 M2 M3 M4 M5 M6 M7 M8 M9 f0 f1 f2 f3 f4 f5 f6 f7 f8 f9) := by
  unfold k2Run.sl.r_81 K2Val.pv83
  rw [e_r_65]
  all_goals rfl
theorem e_r_82 : k2Run.sl.r_82 c M0 M1 M2 M3 M4 M5 f0 f1 f2 f3 f4 f5 = K2Val.pv84 (fam c M0 M1 M2 M3 M4 M5 M6 M7 M8 M9 f0 f1 f2 f3 f4 f5 f6 f7 f8 f9) := by
  unfold k2Run.sl.r_82 K2Val.pv84
  rw [e_r_78, e_r_79, e_r_80, e_r_81]
  all_goals rfl
theorem e_r_83 : k2Run.sl.r_83 c M0 M1 M2 M4 M5 f0 f1 f2 f4 f5 = K2Val.pv85 (fam c M0 M1 M2 M3 M4 M5 M6 M7 M8 M9 f0 f1 f2 f3 f4 f5 f6 f7 f8 f9) := by
  unfold k2Run.sl.r_83 K2Val.pv85
  rw [e_r_65]
  all_goals rfl
theorem e_r_84 : k2Run.sl.r_84 c M0 M1 M2 M3 M4 M5 f0 f1 f2 f3 f4 f5 = K2Val.pv86 (fam c M0 M1 M2 M3 M4 M5 M6 M7 M8 M9 f0 f1 f2 f3 f4 f5 f6 f7 f8 f9) := by
  unfold k2Run.sl.r_84 K2Val.pv86
  rw [e_r_65]
  all_goals rfl
theorem e_r_85 : k2Run.sl.r_85 c M0 M1 M2 M4 M5 f0 f1 f2 f4 f5 = K2Val.pv87 (fam c M0 M1 M2 M3 M4 M5 M6 M7 M8 M9 f0 f1 f2 f3 f4 f5 f6 f7 f8 f9) := by
  unfold k2Run.sl.r_85 K2Val.pv87
  rw [e_r_65]
  all_goals rfl
theorem e_r_86 : k2Run.sl.r_86 c M0 M1 M2 M3 M4 M5 f0 f1 f2 f3 f4 f5 = K2Val.pv88 (fam c M0 M1 M2 M3 M4 M5 M6 M7 M8 M9 f0 f1 f2 f3 f4 f5 f6 f7 f8 f9) := by
  unfold k2Run.sl.r_86 K2Val.pv88
  rw [e_r_83, e_r_84, e_r_85]
  all_goals rfl
theorem e_r_87 : k2Run.sl.r_87 c M0 M1 M2 M4 M5 f0 f1 f2 f4 f5 = K2Val.pv89 (fam c M0 M1 M2 M3 M4 M5 M6 M7 M8 M9 f0 f1 f2 f3 f4 f5 f6 f7 f8 f9) := by
  unfold k2Run.sl.r_87 K2Val.pv89
  rw [e_r_65]
  all_goals rfl
theorem e_r_88 : k2Run.sl.r_88 c M1 f1 = K2Val.pv90 (fam c M0 M1 M2 M3 M4 M5 M6 M7 M8 M9 f0 f1 f2 f3 f4 f5 f6 f7 f8 f9) := by
  unfold k2Run.sl.r_88 K2Val.pv90
  all_goals rfl
theorem e_r_89 : k2Run.sl.r_89 c M0 M1 M2 M4 M5 f0 f1 f2 f4 f5 = K2Val.pv91 (fam c M0 M1 M2 M3 M4 M5 M6 M7 M8 M9 f0 f1 f2 f3 f4 f5 f6 f7 f8 f9) := by
  unfold k2Run.sl.r_89 K2Val.pv91
  rw [e_r_65]
  all_goals rfl
theorem e_r_90 : k2Run.sl.r_90 c M0 M1 M2 M3 M4 M5 f0 f1 f2 f3 f4 f5 = K2Val.pv92 (fam c M0 M1 M2 M3 M4 M5 M6 M7 M8 M9 f0 f1 f2 f3 f4 f5 f6 f7 f8 f9) := by
  unfold k2Run.sl.r_90 K2Val.pv92
  rw [e_r_87, e_r_88, e_r_89]
  all_goals rfl
theorem e_r_91 : k2Run.sl.r_91 c M1 f1 = K2Val.pv93 (fam c M0 M1 M2 M3 M4 M5 M6 M7 M8 M9 f0 f1 f2 f3 f4 f5 f6 f7 f8 f9) := by
  unfold k2Run.sl.r_91 K2Val.pv93
  all_goals rfl
theorem e_r_92 : k2Run.sl.r_92 c M0 M1 M2 M3 M4 M5 f0 f1 f2 f3 f4 f5 = K2Val.pv94 (fam c M0 M1 M2 M3 M4 M5 M6 M7 M8 M9 f0 f1 f2 f3 f4 f5 f6 f7 f8 f9) := by
  unfold k2Run.sl.r_92 K2Val.pv94
  rw [e_r_87, e_r_90, e_r_91]
  all_goals rfl
theorem e_r_93 : k2Run.sl.r_93 c M0 M1 M2 M4 M5 f0 f1 f2 f4 f5 = K2Val.pv95 (fam c M0 M1 M2 M3 M4 M5 M6 M7 M8 M9 f0 f1 f2 f3 f4 f5 f6 f7 f8 f9) := by
  unfold k2Run.sl.r_93 K2Val.pv95
  rw [e_r_65]
  all_goals rfl
theorem e_r_94 : k2Run.sl.r_94 c M0 M1 M2 M3 M4 M5 f0 f1 f2 f3 f4 f5 = K2Val.pv96 (fam c M0 M1 M2 M3 M4 M5 M6 M7 M8 M9 f0 f1 f2 f3 f4 f5 f6 f7 f8 f9) := by
  unfold k2Run.sl.r_94 K2Val.pv96
  rw [e_r_65]
  all_goals rfl
theorem e_r_95 : k2Run.sl.r_95 c M0 M1 M2 M3 M4 M5 f0 f1 f2 f3 f4 f5 = K2Val.pv97 (fam c M0 M1 M2 M3 M4 M5 M6 M7 M8 M9 f0 f1 f2 f3 f4 f5 f6 f7 f8 f9) := by
  unfold k2Run.sl.r_95 K2Val.pv97
  rw [e_r_93, e_r_94]
  all_goals rfl
theorem e_r_96 : k2Run.sl.r_96 c M0 M1 M2 M4 M5 f0 f1 f2 f4 f5 = K2Val.pv98 (fam c M0 M1 M2 M3 M4 M5 M6 M7 M8 M9 f0 f1 f2 f3 f4 f5 f6 f7 f8 f9) := by
  unfold k2Run.sl.r_96 K2Val.pv98
  rw [e_r_65]
  all_goals rfl
theorem e_r_97 : k2Run.sl.r_97 c M0 M1 M2 M4 M5 f0 f1 f2 f4 f5 = K2Val.pv99 (fam c M0 M1 M2 M3 M4 M5 M6 M7 M8 M9 f0 f1 f2 f3 f4 f5 f6 f7 f8 f9) := by
  unfold k2Run.sl.r_97 K2Val.pv99
  rw [e_r_65]
  all_goals rfl
theorem e_r_98 : k2Run.sl.r_98 c M3 f3 = K2Val.pv100 (fam c M0 M1 M2 M3 M4 M5 M6 M7 M8 M9 f0 f1 f2 f3 f4 f5 f6 f7 f8 f9) := by
  unfold k2Run.sl.r_98 K2Val.pv100
  all_goals rfl
theorem e_r_99 : k2Run.sl.r_99 c M0 M1 M2 M3 M4 M5 f0 f1 f2 f3 f4 f5 = K2Val.pv101 (fam c M0 M1 M2 M3 M4 M5 M6 M7 M8 M9 f0 f1 f2 f3 f4 f5 f6 f7 f8 f9) := by
  unfold k2Run.sl.r_99 K2Val.pv101
  rw [e_r_96, e_r_97, e_r_98]
  all_goals rfl
theorem e_r_100 : k2Run.sl.r_100 c M0 M1 M2 M4 M5 f0 f1 f2 f4 f5 = K2Val.pv102 (fam c M0 M1 M2 M3 M4 M5 M6 M7 M8 M9 f0 f1 f2 f3 f4 f5 f6 f7 f8 f9) := by
  unfold k2Run.sl.r_100 K2Val.pv102
  rw [e_r_96]
  all_goals rfl
theorem e_r_101 : k2Run.sl.r_101 c M3 f3 = K2Val.pv103 (fam c M0 M1 M2 M3 M4 M5 M6 M7 M8 M9 f0 f1 f2 f3 f4 f5 f6 f7 f8 f9) := by
  unfold k2Run.sl.r_101 K2Val.pv103
  all_goals rfl
theorem e_r_102 : k2Run.sl.r_102 c M0 M1 M2 M3 M4 M5 f0 f1 f2 f3 f4 f5 = K2Val.pv104 (fam c M0 M1 M2 M3 M4 M5 M6 M7 M8 M9 f0 f1 f2 f3 f4 f5 f6 f7 f8 f9) := by
  unfold k2Run.sl.r_102 K2Val.pv104
  rw [e_r_99, e_r_100, e_r_101]
  all_goals rfl
theorem e_r_103 : k2Run.sl.r_103 c M0 M1 M2 M4 M5 f0 f1 f2 f4 f5 = K2Val.pv105 (fam c M0 M1 M2 M3 M4 M5 M6 M7 M8 M9 f0 f1 f2 f3 f4 f5 f6 f7 f8 f9) := by
  unfold k2Run.sl.r_103 K2Val.pv105
  rw [e_r_65]
  all_goals rfl
theorem e_r_104 : k2Run.sl.r_104 c M0 M1 M2 M3 M4 M5 f0 f1 f2 f3 f4 f5 = K2Val.pv106 (fam c M0 M1 M2 M3 M4 M5 M6 M7 M8 M9 f0 f1 f2 f3 f4 f5 f6 f7 f8 f9) := by
  unfold k2Run.sl.r_104 K2Val.pv106
  rw [e_r_65]
  all_goals rfl
theorem e_r_105 : k2Run.sl.r_105 c M0 M1 M2 M4 M5 f0 f1 f2 f4 f5 = K2Val.pv107 (fam c M0 M1 M2 M3 M4 M5 M6 M7 M8 M9 f0 f1 f2 f3 f4 f5 f6 f7 f8 f9) := by
  unfold k2Run.sl.r_105 K2Val.pv107
  rw [e_r_65]
  all_goals rfl
theorem e_r_106 : k2Run.sl.r_106 c M0 M1 M2 M3 M4 M5 f0 f1 f2 f3 f4 f5 = K2Val.pv108 (fam c M0 M1 M2 M3 M4 M5 M6 M7 M8 M9 f0 f1 f2 f3 f4 f5 f6 f7 f8 f9) := by
  unfold k2Run.sl.r_106 K2Val.pv108
  rw [e_r_103, e_r_104, e_r_105]
  all_goals rfl
theorem e_r_107 : k2Run.sl.r_107 c M0 M1 M2 M4 M5 f0 f1 f2 f4 f5 = K2Val.pv109 (fam c M0 M1 M2 M3 M4 M5 M6 M7 M8 M9 f0 f1 f2 f3 f4 f5 f6 f7 f8 f9) := by
  unfold k2Run.sl.r_107 K2Val.pv109
  rw [e_r_65]
  all_goals rfl
theorem e_r_108 : k2Run.sl.r_108 c M0 M1 M2 M3 M4 M5 f0 f1 f2 f3 f4 f5 = K2Val.pv110 (fam c M0 M1 M2 M3 M4 M5 M6 M7 M8 M9 f0 f1 f2 f3 f4 f5 f6 f7 f8 f9) := by
  unfold k2Run.sl.r_108 K2Val.pv110
  rw [e_r_65]
  all_goals rfl
theorem e_r_109 : k2Run.sl.r_109 c M1 f1 = K2Val.pv111 (fam c M0 M1 M2 M3 M4 M5 M6 M7 M8 M9 f0 f1 f2 f3 f4 f5 f6 f7 f8 f9) := by
  unfold k2Run.sl.r_109 K2Val.pv111
  all_goals rfl
theorem e_r_110 : k2Run.sl.r_110 c M0 M1 M2 M4 M5 f0 f1 f2 f4 f5 = K2Val.pv112 (fam c M0 M1 M2 M3 M4 M5 M6 M7 M8 M9 f0 f1 f2 f3 f4 f5 f6 f7 f8 f9) := by
  unfold k2Run.sl.r_110 K2Val.pv112
  rw [e_r_65]
  all_goals rfl
theorem e_r_111 : k2Run.sl.r_111 c M0 M1 M2 M3 M4 M5 f0 f1 f2 f3 f4 f5 = K2Val.pv113 (fam c M0 M1 M2 M3 M4 M5 M6 M7 M8 M9 f0 f1 f2 f3 f4 f5 f6 f7 f8 f9) := by
  unfold k2Run.sl.r_111 K2Val.pv113
  rw [e_r_107, e_r_108, e_r_109, e_r_110]
  all_goals rfl
theorem e_r_112 : k2Run.sl.r_112 c M0 M1 M2 M4 M5 f0 f1 f2 f4 f5 = K2Val.pv114 (fam c M0 M1 M2 M3 M4 M5 M6 M7 M8 M9 f0 f1 f2 f3 f4 f5 f6 f7 f8 f9) := by
  unfold k2Run.sl.r_112 K2Val.pv114
  rw [e_r_65]
  all_goals rfl
theorem e_r_113 : k2Run.sl.r_113 c M0 M1 M2 M3 M4 M5 f0 f1 f2 f3 f4 f5 = K2Val.pv115 (fam c M0 M1 M2 M3 M4 M5 M6 M7 M8 M9 f0 f1 f2 f3 f4 f5 f6 f7 f8 f9) := by
  unfold k2Run.sl.r_113 K2Val.pv115
  rw [e_r_112]
  all_goals rfl
theorem e_r_114 : k2Run.sl.r_114 c M0 M1 M2 M3 M4 M5 f0 f1 f2 f3 f4 f5 = K2Val.pv116 (fam c M0 M1 M2 M3 M4 M5 M6 M7 M8 M9 f0 f1 f2 f3 f4 f5 f6 f7 f8 f9) := by
  unfold k2Run.sl.r_114 K2Val.pv116
  rw [e_r_112, e_r_113]
  all_goals rfl
theorem e_r_115 : k2Run.sl.r_115 c M0 M1 M2 M4 M5 f0 f1 f2 f4 f5 = K2Val.pv117 (fam c M0 M1 M2 M3 M4 M5 M6 M7 M8 M9 f0 f1 f2 f3 f4 f5 f6 f7 f8 f9) := by
  unfold k2Run.sl.r_115 K2Val.pv117
  rw [e_r_65]
  all_goals rfl
theorem e_r_116 : k2Run.sl.r_116 c M0 M1 M2 M3 M4 M5 f0 f1 f2 f3 f4 f5 = K2Val.pv118 (fam c M0 M1 M2 M3 M4 M5 M6 M7 M8 M9 f0 f1 f2 f3 f4 f5 f6 f7 f8 f9) := by
  unfold k2Run.sl.r_116 K2Val.pv118
  rw [e_r_65]
  all_goals rfl
theorem e_r_117 : k2Run.sl.r_117 c M0 M1 M2 M4 M5 f0 f1 f2 f4 f5 = K2Val.pv119 (fam c M0 M1 M2 M3 M4 M5 M6 M7 M8 M9 f0 f1 f2 f3 f4 f5 f6 f7 f8 f9) := by
  unfold k2Run.sl.r_117 K2Val.pv119
  rw [e_r_65]
  all_goals rfl
theorem e_r_118 : k2Run.sl.r_118 c M3 f3 = K2Val.pv120 (fam c M0 M1 M2 M3 M4 M5 M6 M7 M8 M9 f0 f1 f2 f3 f4 f5 f6 f7 f8 f9) := by
  unfold k2Run.sl.r_118 K2Val.pv120
  all_goals rfl
theorem e_r_119 : k2Run.sl.r_119 c M0 M1 M2 M3 M4 M5 f0 f1 f2 f3 f4 f5 = K2Val.pv121 (fam c M0 M1 M2 M3 M4 M5 M6 M7 M8 M9 f0 f1 f2 f3 f4 f5 f6 f7 f8 f9) := by
  unfold k2Run.sl.r_119 K2Val.pv121
  rw [e_r_115, e_r_116, e_r_117, e_r_118]
  all_goals rfl
theorem e_r_120 : k2Run.sl.r_120 c M0 M1 M2 M4 M5 f0 f1 f2 f4 f5 = K2Val.pv122 (fam c M0 M1 M2 M3 M4 M5 M6 M7 M8 M9 f0 f1 f2 f3 f4 f5 f6 f7 f8 f9) := by
  unfold k2Run.sl.r_120 K2Val.pv122
  rw [e_r_65]
  all_goals rfl
theorem e_r_121 : k2Run.sl.r_121 c M0 M1 M2 M4 M5 f0 f1 f2 f4 f5 = K2Val.pv123 (fam c M0 M1 M2 M3 M4 M5 M6 M7 M8 M9 f0 f1 f2 f3 f4 f5 f6 f7 f8 f9) := by
  unfold k2Run.sl.r_121 K2Val.pv123
  rw [e_r_65]
  all_goals rfl
theorem e_r_122 : k2Run.sl.r_122 c M0 M1 M2 M3 M4 M5 f0 f1 f2 f3 f4 f5 = K2Val.pv124 (fam c M0 M1 M2 M3 M4 M5 M6 M7 M8 M9 f0 f1 f2 f3 f4 f5 f6 f7 f8 f9) := by
  unfold k2Run.sl.r_122 K2Val.pv124
  rw [e_r_120, e_r_121]
  all_goals rfl
theorem e_r_123 : k2Run.sl.r_123 c M0 M1 M2 M4 M5 f0 f1 f2 f4 f5 = K2Val.pv125 (fam c M0 M1 M2 M3 M4 M5 M6 M7 M8 M9 f0 f1 f2 f3 f4 f5 f6 f7 f8 f9) := by
  unfold k2Run.sl.r_123 K2Val.pv125
  rw [e_r_120]
  all_goals rfl
theorem e_r_124 : k2Run.sl.r_124 c M0 M1 M2 M3 M4 M5 f0 f1 f2 f3 f4 f5 = K2Val.pv126 (fam c M0 M1 M2 M3 M4 M5 M6 M7 M8 M9 f0 f1 f2 f3 f4 f5 f6 f7 f8 f9) := by
  unfold k2Run.sl.r_124 K2Val.pv126
  rw [e_r_122, e_r_123]
  all_goals rfl
theorem e_r_125 : k2Run.sl.r_125 c M0 M1 M2 M4 M5 f0 f1 f2 f4 f5 = K2Val.pv127 (fam c M0 M1 M2 M3 M4 M5 M6 M7 M8 M9 f0 f1 f2 f3 f4 f5 f6 f7 f8 f9) := by
  unfold k2Run.sl.r_125 K2Val.pv127
  rw [e_r_65]
  all_goals rfl
theorem e_r_126 : k2Run.sl.r_126 c M0 M1 M2 M3 M4 M5 f0 f1 f2 f3 f4 f5 = K2Val.pv128 (fam c M0 M1 M2 M3 M4 M5 M6 M7 M8 M9 f0 f1 f2 f3 f4 f5 f6 f7 f8 f9) := by
  unfold k2Run.sl.r_126 K2Val.pv128
  rw [e_r_65]
  all_goals rfl
theorem e_r_127 : k2Run.sl.r_127 c M1 f1 = K2Val.pv129 (fam c M0 M1 M2 M3 M4 M5 M6 M7 M8 M9 f0 f1 f2 f3 f4 f5 f6 f7 f8 f9) := by
  unfold k2Run.sl.r_127 K2Val.pv129
  all_goals rfl
theorem e_r_128 : k2Run.sl.r_128 c M0 M1 M2 M3 M4 M5 f0 f1 f2 f3 f4 f5 = K2Val.pv130 (fam c M0 M1 M2 M3 M4 M5 M6 M7 M8 M9 f0 f1 f2 f3 f4 f5 f6 f7 f8 f9) := by
  unfold k2Run.sl.r_128 K2Val.pv130
  rw [e_r_125, e_r_126, e_r_127]
  all_goals rfl
theorem e_r_129 : k2Run.sl.r_129 c M0 M1 M2 M4 M5 f0 f1 f2 f4 f5 = K2Val.pv131 (fam c M0 M1 M2 M3 M4 M5 M6 M7 M8 M9 f0 f1 f2 f3 f4 f5 f6 f7 f8 f9) := by
  unfold k2Run.sl.r_129 K2Val.pv131
  rw [e_r_65]
  all_goals rfl
theorem e_r_130 : k2Run.sl.r_130 c M0 M1 M2 M3 M4 M5 f0 f1 f2 f3 f4 f5 = K2Val.pv132 (fam c M0 M1 M2 M3 M4 M5 M6 M7 M8 M9 f0 f1 f2 f3 f4 f5 f6 f7 f8 f9) := by
  unfold k2Run.sl.r_130 K2Val.pv132
  rw [e_r_65]
  all_goals rfl
theorem e_r_131 : k2Run.sl.r_131 c M0 M1 M2 M3 M4 M5 f0 f1 f2 f3 f4 f5 = K2Val.pv133 (fam c M0 M1 M2 M3 M4 M5 M6 M7 M8 M9 f0 f1 f2 f3 f4 f5 f6 f7 f8 f9) := by
  unfold k2Run.sl.r_131 K2Val.pv133
  rw [e_r_129, e_r_130]
  all_goals rfl
theorem e_r_132 : k2Run.sl.r_132 c M0 M1 M2 M4 M5 f0 f1 f2 f4 f5 = K2Val.pv134 (fam c M0 M1 M2 M3 M4 M5 M6 M7 M8 M9 f0 f1 f2 f3 f4 f5 f6 f7 f8 f9) := by
  unfold k2Run.sl.r_132 K2Val.pv134
  rw [e_r_65]
  all_goals rfl
theorem e_r_133 : k2Run.sl.r_133 c M0 M1 M2 M3 M4 M5 f0 f1 f2 f3 f4 f5 = K2Val.pv135 (fam c M0 M1 M2 M3 M4 M5 M6 M7 M8 M9 f0 f1 f2 f3 f4 f5 f6 f7 f8 f9) := by
  unfold k2Run.sl.r_133 K2Val.pv135
  rw [e_r_65]
  all_goals rfl
theorem e_r_134 : k2Run.sl.r_134 c M3 f3 = K2Val.pv136 (fam c M0 M1 M2 M3 M4 M5 M6 M7 M8 M9 f0 f1 f2 f3 f4 f5 f6 f7 f8 f9) := by
  unfold k2Run.sl.r_134 K2Val.pv136
  all_goals rfl
theorem e_r_135 : k2Run.sl.r_135 c M0 M1 M2 M4 M5 f0 f1 f2 f4 f5 = K2Val.pv137 (fam c M0 M1 M2 M3 M4 M5 M6 M7 M8 M9 f0 f1 f2 f3 f4 f5 f6 f7 f8 f9) := by
  unfold k2Run.sl.r_135 K2Val.pv137
  rw [e_r_65]
  all_goals rfl
theorem e_r_136 : k2Run.sl.r_136 c M0 M1 M2 M3 M4 M5 f0 f1 f2 f3 f4 f5 = K2Val.pv138 (fam c M0 M1 M2 M3 M4 M5 M6 M7 M8 M9 f0 f1 f2 f3 f4 f5 f6 f7 f8 f9) := by
  unfold k2Run.sl.r_136 K2Val.pv138
  rw [e_r_70, e_r_74, e_r_77, e_r_82, e_r_86, e_r_92, e_r_95, e_r_102, e_r_106, e_r_111, e_r_114, e_r_119, e_r_124, e_r_128, e_r_131, e_r_132, e_r_133, e_r_134, e_r_135]
  all_goals rfl
theorem e_r_137 : k2Run.sl.r_137 c M0 M1 M2 M3 M4 M5 f0 f1 f2 f3 f4 f5 = K2Val.pv139 (fam c M0 M1 M2 M3 M4 M5 M6 M7 M8 M9 f0 f1 f2 f3 f4 f5 f6 f7 f8 f9) := by
  unfold k2Run.sl.r_137 K2Val.pv139
  rw [e_r_70, e_r_74, e_r_77, e_r_82, e_r_86, e_r_92, e_r_95, e_r_102, e_r_106, e_r_111, e_r_114, e_r_119, e_r_124, e_r_128, e_r_131, e_r_132, e_r_133, e_r_134, e_r_135]
  all_goals rfl
theorem e_r_139 : k2Run.sl.r_139 c M0 M1 M2 M3 M4 M5 f0 f1 f2 f3 f4 f5 = K2Val.pv142 (fam c M0 M1 M2 M3 M4 M5 M6 M7 M8 M9 f0 f1 f2 f3 f4 f5 f6 f7 f8 f9) := by
  unfold k2Run.sl.r_139 K2Val.pv142
  rw [e_r_136, e_r_137]
  all_goals rfl
theorem e_r_140 : k2Run.sl.r_140 c M0 M1 M2 M3 M4 M5 f0 f1 f2 f3 f4 f5 = K2Val.pv143 (fam c M0 M1 M2 M3 M4 M5 M6 M7 M8 M9 f0 f1 f2 f3 f4 f5 f6 f7 f8 f9) := by
  unfold k2Run.sl.r_140 K2Val.pv143
  rw [e_r_136, e_r_137]
  all_goals rfl
theorem e_r_141 : k2Run.sl.r_141 c M0 M1 M2 M3 M4 M5 f0 f1 f2 f3 f4 f5 = K2Val.pv144 (fam c M0 M1 M2 M3 M4 M5 M6 M7 M8 M9 f0 f1 f2 f3 f4 f5 f6 f7 f8 f9) := by
  unfold k2Run.sl.r_141 K2Val.pv144
  rw [e_r_136, e_r_137]
  all_goals rfl
theorem e_r_142 : k2Run.sl.r_142 c M0 M1 M2 M3 M4 M5 f0 f1 f2 f3 f4 f5 = K2Val.pv145 (fam c M0 M1 M2 M3 M4 M5 M6 M7 M8 M9 f0 f1 f2 f3 f4 f5 f6 f7 f8 f9) := by
  unfold k2Run.sl.r_142 K2Val.pv145
  rw [e_r_139, e_r_140, e_r_141]
  all_goals rfl
theorem e_r_138 : k2Run.sl.r_138 c M0 M1 M2 M3 M4 M5 f0 f1 f2 f3 f4 f5 = K2Val.pv141 (fam c M0 M1 M2 M3 M4 M5 M6 M7 M8 M9 f0 f1 f2 f3 f4 f5 f6 f7 f8 f9) := by
  unfold k2Run.sl.r_138 K2Val.pv141
  rw [e_r_136, e_r_137]
  all_goals rfl
theorem e_r_143 : k2Run.sl.r_143 c M0 M1 M2 M3 M4 M5 f0 f1 f2 f3 f4 f5 = K2Val.pv146 (fam c M0 M1 M2 M3 M4 M5 M6 M7 M8 M9 f0 f1 f2 f3 f4 f5 f6 f7 f8 f9) := by
  unfold k2Run.sl.r_143 K2Val.pv146
  rw [e_r_138]
  all_goals rfl
theorem e_r_145 : k2Run.sl.r_145 c M0 M1 M2 M3 M4 M5 f0 f1 f2 f3 f4 f5 = K2Val.pv147 (fam c M0 M1 M2 M3 M4 M5 M6 M7 M8 M9 f0 f1 f2 f3 f4 f5 f6 f7 f8 f9) := by
  unfold k2Run.sl.r_145 K2Val.pv147
  rw [e_r_143]
  all_goals rfl
theorem e_r_146 : k2Run.sl.r_146 c M0 M1 M2 M3 M4 M5 f0 f1 f2 f3 f4 f5 = K2Val.pv148 (fam c M0 M1 M2 M3 M4 M5 M6 M7 M8 M9 f0 f1 f2 f3 f4 f5 f6 f7 f8 f9) := by
  unfold k2Run.sl.r_146 K2Val.pv148
  rw [e_r_143, e_r_145]
  all_goals rfl
theorem e_r_147 : k2Run.sl.r_147 c M0 M1 M2 M3 M4 M5 f0 f1 f2 f3 f4 f5 = K2Val.pv149 (fam c M0 M1 M2 M3 M4 M5 M6 M7 M8 M9 f0 f1 f2 f3 f4 f5 f6 f7 f8 f9) := by
  unfold k2Run.sl.r_147 K2Val.pv149
  rw [e_r_138]
  all_goals rfl
theorem e_r_148 : k2Run.sl.r_148 c M0 M1 M2 M3 M4 M5 f0 f1 f2 f3 f4 f5 = K2Val.pv150 (fam c M0 M1 M2 M3 M4 M5 M6 M7 M8 M9 f0 f1 f2 f3 f4 f5 f6 f7 f8 f9) := by
  unfold k2Run.sl.r_148 K2Val.pv150
  rw [e_r_138]
  all_goals rfl
theorem e_r_149 : k2Run.sl.r_149 c M0 M1 M2 M3 M4 M5 f0 f1 f2 f3 f4 f5 = K2Val.pv151 (fam c M0 M1 M2 M3 M4 M5 M6 M7 M8 M9 f0 f1 f2 f3 f4 f5 f6 f7 f8 f9) := by
  unfold k2Run.sl.r_149 K2Val.pv151
  rw [e_r_138]
  all_goals rfl
theorem e_r_150 : k2Run.sl.r_150 c M0 M1 M2 M3 M4 M5 f0 f1 f2 f3 f4 f5 = K2Val.pv152 (fam c M0 M1 M2 M3 M4 M5 M6 M7 M8 M9 f0 f1 f2 f3 f4 f5 f6 f7 f8 f9) := by
  unfold k2Run.sl.r_150 K2Val.pv152
  rw [e_r_147, e_r_148, e_r_149]
  all_goals rfl
theorem e_r_151 : k2Run.sl.r_151 c M0 M1 M2 M3 M4 M5 f0 f1 f2 f3 f4 f5 = K2Val.pv153 (fam c M0 M1 M2 M3 M4 M5 M6 M7 M8 M9 f0 f1 f2 f3 f4 f5 f6 f7 f8 f9) := by
  unfold k2Run.sl.r_151 K2Val.pv153
  rw [e_r_138]
  all_goals rfl
theorem e_r_152 : k2Run.sl.r_152 c M0 M1 M2 M3 M4 M5 f0 f1 f2 f3 f4 f5 = K2Val.pv154 (fam c M0 M1 M2 M3 M4 M5 M6 M7 M8 M9 f0 f1 f2 f3 f4 f5 f6 f7 f8 f9) := by
  unfold k2Run.sl.r_152 K2Val.pv154
  rw [e_r_138]
  all_goals rfl
theorem e_r_154 : k2Run.sl.r_154 c M0 M1 M2 M3 M4 M5 f0 f1 f2 f3 f4 f5 = K2Val.pv155 (fam c M0 M1 M2 M3 M4 M5 M6 M7 M8 M9 f0 f1 f2 f3 f4 f5 f6 f7 f8 f9) := by
  unfold k2Run.sl.r_154 K2Val.pv155
  rw [e_r_151, e_r_152]
  all_goals rfl
theorem e_r_155 : k2Run.sl.r_155 c M0 M1 M2 M3 M4 M5 f0 f1 f2 f3 f4 f5 = K2Val.pv156 (fam c M0 M1 M2 M3 M4 M5 M6 M7 M8 M9 f0 f1 f2 f3 f4 f5 f6 f7 f8 f9) := by
  unfold k2Run.sl.r_155 K2Val.pv156
  rw [e_r_151]
  all_goals rfl
theorem e_r_156 : k2Run.sl.r_156 c M0 M1 M2 M3 M4 M5 f0 f1 f2 f3 f4 f5 = K2Val.pv157 (fam c M0 M1 M2 M3 M4 M5 M6 M7 M8 M9 f0 f1 f2 f3 f4 f5 f6 f7 f8 f9) := by
  unfold k2Run.sl.r_156 K2Val.pv157
  rw [e_r_154, e_r_155]
  all_goals rfl
theorem e_r_157 : k2Run.sl.r_157 c M0 M1 M2 M3 M4 M5 f0 f1 f2 f3 f4 f5 = K2Val.pv158 (fam c M0 M1 M2 M3 M4 M5 M6 M7 M8 M9 f0 f1 f2 f3 f4 f5 f6 f7 f8 f9) := by
  unfold k2Run.sl.r_157 K2Val.pv158
  rw [e_r_138]
  all_goals rfl
theorem e_r_158 : k2Run.sl.r_158 c M0 M1 M2 M3 M4 M5 f0 f1 f2 f3 f4 f5 = K2Val.pv159 (fam c M0 M1 M2 M3 M4 M5 M6 M7 M8 M9 f0 f1 f2 f3 f4 f5 f6 f7 f8 f9) := by
  unfold k2Run.sl.r_158 K2Val.pv159
  rw [e_r_138]
  all_goals rfl
theorem e_r_159 : k2Run.sl.r_159 c M1 f1 = K2Val.pv160 (fam c M0 M1 M2 M3 M4 M5 M6 M7 M8 M9 f0 f1 f2 f3 f4 f5 f6 f7 f8 f9) := by
  unfold k2Run.sl.r_159 K2Val.pv160
  all_goals rfl
theorem e_r_160 : k2Run.sl.r_160 c M0 M1 M2 M3 M4 M5 f0 f1 f2 f3 f4 f5 = K2Val.pv161 (fam c M0 M1 M2 M3 M4 M5 M6 M7 M8 M9 f0 f1 f2 f3 f4 f5 f6 f7 f8 f9) := by
  unfold k2Run.sl.r_160 K2Val.pv161
  rw [e_r_138]
  all_goals rfl
theorem e_r_161 : k2Run.sl.r_161 c M0 M1 M2 M3 M4 M5 f0 f1 f2 f3 f4 f5 = K2Val.pv162 (fam c M0 M1 M2 M3 M4 M5 M6 M7 M8 M9 f0 f1 f2 f3 f4 f5 f6 f7 f8 f9) := by
  unfold k2Run.sl.r_161 K2Val.pv162
  rw [e_r_157, e_r_158, e_r_159, e_r_160]
  all_goals rfl
theorem e_r_162 : k2Run.sl.r_162 c M0 M1 M2 M3 M4 M5 f0 f1 f2 f3 f4 f5 = K2Val.pv163 (fam c M0 M1 M2 M3 M4 M5 M6 M7 M8 M9 f0 f1 f2 f3 f4 f5 f6 f7 f8 f9) := by
  unfold k2Run.sl.r_162 K2Val.pv163
  rw [e_r_138]
  all_goals rfl
theorem e_r_163 : k2Run.sl.r_163 c M0 M1 M2 M3 M4 M5 f0 f1 f2 f3 f4 f5 = K2Val.pv164 (fam c M0 M1 M2 M3 M4 M5 M6 M7 M8 M9 f0 f1 f2 f3 f4 f5 f6 f7 f8 f9) := by
  unfold k2Run.sl.r_163 K2Val.pv164
  rw [e_r_138]
  all_goals rfl
theorem e_r_165 : k2Run.sl.r_165 c M0 M1 M2 M3 M4 M5 f0 f1 f2 f3 f4 f5 = K2Val.pv165 (fam c M0 M1 M2 M3 M4 M5 M6 M7 M8 M9 f0 f1 f2 f3 f4 f5 f6 f7 f8 f9) := by
  unfold k2Run.sl.r_165 K2Val.pv165
  rw [e_r_162, e_r_163]
  all_goals rfl
theorem e_r_166 : k2Run.sl.r_166 c M0 M1 M2 M3 M4 M5 f0 f1 f2 f3 f4 f5 = K2Val.pv166 (fam c M0 M1 M2 M3 M4 M5 M6 M7 M8 M9 f0 f1 f2 f3 f4 f5 f6 f7 f8 f9) := by
  unfold k2Run.sl.r_166 K2Val.pv166
  rw [e_r_138]
  all_goals rfl
theorem e_r_167 : k2Run.sl.r_167 c M0 M1 M2 M3 M4 M5 f0 f1 f2 f3 f4 f5 = K2Val.pv167 (fam c M0 M1 M2 M3 M4 M5 M6 M7 M8 M9 f0 f1 f2 f3 f4 f5 f6 f7 f8 f9) := by
  unfold k2Run.sl.r_167 K2Val.pv167
  rw [e_r_166]
  all_goals rfl
theorem e_r_168 : k2Run.sl.r_168 c M0 M1 M2 M3 M4 M5 f0 f1 f2 f3 f4 f5 = K2Val.pv168 (fam c M0 M1 M2 M3 M4 M5 M6 M7 M8 M9 f0 f1 f2 f3 f4 f5 f6 f7 f8 f9) := by
  unfold k2Run.sl.r_168 K2Val.pv168
  rw [e_r_166]
  all_goals rfl
theorem e_r_169 : k2Run.sl.r_169 c M3 f3 = K2Val.pv169 (fam c M0 M1 M2 M3 M4 M5 M6 M7 M8 M9 f0 f1 f2 f3 f4 f5 f6 f7 f8 f9) := by
  unfold k2Run.sl.r_169 K2Val.pv169
  all_goals rfl
theorem e_r_170 : k2Run.sl.r_170 c M0 M1 M2 M3 M4 M5 f0 f1 f2 f3 f4 f5 = K2Val.pv170 (fam c M0 M1 M2 M3 M4 M5 M6 M7 M8 M9 f0 f1 f2 f3 f4 f5 f6 f7 f8 f9) := by
  unfold k2Run.sl.r_170 K2Val.pv170
  rw [e_r_166, e_r_167, e_r_168, e_r_169]
  all_goals rfl
theorem e_r_171 : k2Run.sl.r_171 c M0 M1 M2 M3 M4 M5 f0 f1 f2 f3 f4 f5 = K2Val.pv171 (fam c M0 M1 M2 M3 M4 M5 M6 M7 M8 M9 f0 f1 f2 f3 f4 f5 f6 f7 f8 f9) := by
  unfold k2Run.sl.r_171 K2Val.pv171
  rw [e_r_138]
  all_goals rfl
theorem e_r_172 : k2Run.sl.r_172 c M0 M1 M2 M3 M4 M5 f0 f1 f2 f3 f4 f5 = K2Val.pv172 (fam c M0 M1 M2 M3 M4 M5 M6 M7 M8 M9 f0 f1 f2 f3 f4 f5 f6 f7 f8 f9) := by
  unfold k2Run.sl.r_172 K2Val.pv172
  rw [e_r_138]
  all_goals rfl
theorem e_r_173 : k2Run.sl.r_173 c M0 M1 M2 M3 M4 M5 f0 f1 f2 f3 f4 f5 = K2Val.pv173 (fam c M0 M1 M2 M3 M4 M5 M6 M7 M8 M9 f0 f1 f2 f3 f4 f5 f6 f7 f8 f9) := by
  unfold k2Run.sl.r_173 K2Val.pv173
  rw [e_r_138]
  all_goals rfl
theorem e_r_175 : k2Run.sl.r_175 c M0 M1 M2 M3 M4 M5 f0 f1 f2 f3 f4 f5 = K2Val.pv174 (fam c M0 M1 M2 M3 M4 M5 M6 M7 M8 M9 f0 f1 f2 f3 f4 f5 f6 f7 f8 f9) := by
  unfold k2Run.sl.r_175 K2Val.pv174
  rw [e_r_171, e_r_172, e_r_173]
  all_goals rfl
theorem e_r_176 : k2Run.sl.r_176 c M0 M1 M2 M3 M4 M5 f0 f1 f2 f3 f4 f5 = K2Val.pv175 (fam c M0 M1 M2 M3 M4 M5 M6 M7 M8 M9 f0 f1 f2 f3 f4 f5 f6 f7 f8 f9) := by
  unfold k2Run.sl.r_176 K2Val.pv175
  rw [e_r_138]
  all_goals rfl
theorem e_r_177 : k2Run.sl.r_177 c M0 M1 M2 M3 M4 M5 f0 f1 f2 f3 f4 f5 = K2Val.pv176 (fam c M0 M1 M2 M3 M4 M5 M6 M7 M8 M9 f0 f1 f2 f3 f4 f5 f6 f7 f8 f9) := by
  unfold k2Run.sl.r_177 K2Val.pv176
  rw [e_r_138]
  all_goals rfl
theorem e_r_178 : k2Run.sl.r_178 c M0 M1 M2 M3 M4 M5 f0 f1 f2 f3 f4 f5 = K2Val.pv177 (fam c M0 M1 M2 M3 M4 M5 M6 M7 M8 M9 f0 f1 f2 f3 f4 f5 f6 f7 f8 f9) := by
  unfold k2Run.sl.r_178 K2Val.pv177
  rw [e_r_176, e_r_177]
  all_goals rfl
theorem e_r_179 : k2Run.sl.r_179 c M1 f1 = K2Val.pv178 (fam c M0 M1 M2 M3 M4 M5 M6 M7 M8 M9 f0 f1 f2 f3 f4 f5 f6 f7 f8 f9) := by
  unfold k2Run.sl.r_179 K2Val.pv178
  all_goals rfl
theorem e_r_180 : k2Run.sl.r_180 c M0 M1 M2 M3 M4 M5 f0 f1 f2 f3 f4 f5 = K2Val.pv179 (fam c M0 M1 M2 M3 M4 M5 M6 M7 M8 M9 f0 f1 f2 f3 f4 f5 f6 f7 f8 f9) := by
  unfold k2Run.sl.r_180 K2Val.pv179
  rw [e_r_176]
  all_goals rfl
theorem e_r_181 : k2Run.sl.r_181 c M0 M1 M2 M3 M4 M5 f0 f1 f2 f3 f4 f5 = K2Val.pv180 (fam c M0 M1 M2 M3 M4 M5 M6 M7 M8 M9 f0 f1 f2 f3 f4 f5 f6 f7 f8 f9) := by
  unfold k2Run.sl.r_181 K2Val.pv180
  rw [e_r_178, e_r_179, e_r_180]
  all_goals rfl
theorem e_r_182 : k2Run.sl.r_182 c M0 M1 M2 M3 M4 M5 f0 f1 f2 f3 f4 f5 = K2Val.pv181 (fam c M0 M1 M2 M3 M4 M5 M6 M7 M8 M9 f0 f1 f2 f3 f4 f5 f6 f7 f8 f9) := by
  unfold k2Run.sl.r_182 K2Val.pv181
  rw [e_r_138]
  all_goals rfl
theorem e_r_183 : k2Run.sl.r_183 c M0 M1 M2 M3 M4 M5 f0 f1 f2 f3 f4 f5 = K2Val.pv182 (fam c M0 M1 M2 M3 M4 M5 M6 M7 M8 M9 f0 f1 f2 f3 f4 f5 f6 f7 f8 f9) := by
  unfold k2Run.sl.r_183 K2Val.pv182
  rw [e_r_138]
  all_goals rfl
theorem e_r_184 : k2Run.sl.r_184 c M0 M1 M2 M3 M4 M5 f0 f1 f2 f3 f4 f5 = K2Val.pv183 (fam c M0 M1 M2 M3 M4 M5 M6 M7 M8 M9 f0 f1 f2 f3 f4 f5 f6 f7 f8 f9) := by
  unfold k2Run.sl.r_184 K2Val.pv183
  rw [e_r_182, e_r_183]
  all_goals rfl
theorem e_r_185 : k2Run.sl.r_185 c M0 M1 M2 M3 M4 M5 f0 f1 f2 f3 f4 f5 = K2Val.pv184 (fam c M0 M1 M2 M3 M4 M5 M6 M7 M8 M9 f0 f1 f2 f3 f4 f5 f6 f7 f8 f9) := by
  unfold k2Run.sl.r_185 K2Val.pv184
  rw [e_r_138]
  all_goals rfl
theorem e_r_186 : k2Run.sl.r_186 c M0 M1 M2 M3 M4 M5 f0 f1 f2 f3 f4 f5 = K2Val.pv185 (fam c M0 M1 M2 M3 M4 M5 M6 M7 M8 M9 f0 f1 f2 f3 f4 f5 f6 f7 f8 f9) := by
  unfold k2Run.sl.r_186 K2Val.pv185
  rw [e_r_138]
  all_goals rfl
theorem e_r_187 : k2Run.sl.r_187 c M0 M1 M2 M3 M4 M5 f0 f1 f2 f3 f4 f5 = K2Val.pv186 (fam c M0 M1 M2 M3 M4 M5 M6 M7 M8 M9 f0 f1 f2 f3 f4 f5 f6 f7 f8 f9) := by
  unfold k2Run.sl.r_187 K2Val.pv186
  rw [e_r_185, e_r_186]
  all_goals rfl
theorem e_r_188 : k2Run.sl.r_188 c M0 M1 M2 M3 M4 M5 f0 f1 f2 f3 f4 f5 = K2Val.pv187 (fam c M0 M1 M2 M3 M4 M5 M6 M7 M8 M9 f0 f1 f2 f3 f4 f5 f6 f7 f8 f9) := by
  unfold k2Run.sl.r_188 K2Val.pv187
  rw [e_r_185]
  all_goals rfl
theorem e_r_189 : k2Run.sl.r_189 c M3 f3 = K2Val.pv188 (fam c M0 M1 M2 M3 M4 M5 M6 M7 M8 M9 f0 f1 f2 f3 f4 f5 f6 f7 f8 f9) := by
  unfold k2Run.sl.r_189 K2Val.pv188
  all_goals rfl
theorem e_r_190 : k2Run.sl.r_190 c M0 M1 M2 M3 M4 M5 f0 f1 f2 f3 f4 f5 = K2Val.pv189 (fam c M0 M1 M2 M3 M4 M5 M6 M7 M8 M9 f0 f1 f2 f3 f4 f5 f6 f7 f8 f9) := by
  unfold k2Run.sl.r_190 K2Val.pv189
  rw [e_r_187, e_r_188, e_r_189]
  all_goals rfl
theorem e_r_191 : k2Run.sl.r_191 c M0 M1 M2 M3 M4 M5 f0 f1 f2 f3 f4 f5 = K2Val.pv190 (fam c M0 M1 M2 M3 M4 M5 M6 M7 M8 M9 f0 f1 f2 f3 f4 f5 f6 f7 f8 f9) := by
  unfold k2Run.sl.r_191 K2Val.pv190
  rw [e_r_138]
  all_goals rfl
theorem e_r_192 : k2Run.sl.r_192 c M0 M1 M2 M3 M4 M5 f0 f1 f2 f3 f4 f5 = K2Val.pv191 (fam c M0 M1 M2 M3 M4 M5 M6 M7 M8 M9 f0 f1 f2 f3 f4 f5 f6 f7 f8 f9) := by
  unfold k2Run.sl.r_192 K2Val.pv191
  rw [e_r_138]
  all_goals rfl
theorem e_r_193 : k2Run.sl.r_193 c M0 M1 M2 M3 M4 M5 f0 f1 f2 f3 f4 f5 = K2Val.pv192 (fam c M0 M1 M2 M3 M4 M5 M6 M7 M8 M9 f0 f1 f2 f3 f4 f5 f6 f7 f8 f9) := by
  unfold k2Run.sl.r_193 K2Val.pv192
  rw [e_r_138]
  all_goals rfl
theorem e_r_194 : k2Run.sl.r_194 c M0 M1 M2 M3 M4 M5 f0 f1 f2 f3 f4 f5 = K2Val.pv193 (fam c M0 M1 M2 M3 M4 M5 M6 M7 M8 M9 f0 f1 f2 f3 f4 f5 f6 f7 f8 f9) := by
  unfold k2Run.sl.r_194 K2Val.pv193
  rw [e_r_191, e_r_192, e_r_193]
  all_goals rfl
theorem e_r_195 : k2Run.sl.r_195 c M0 M1 M2 M3 M4 M5 f0 f1 f2 f3 f4 f5 = K2Val.pv194 (fam c M0 M1 M2 M3 M4 M5 M6 M7 M8 M9 f0 f1 f2 f3 f4 f5 f6 f7 f8 f9) := by
  unfold k2Run.sl.r_195 K2Val.pv194
  rw [e_r_138]
  all_goals rfl
theorem e_r_196 : k2Run.sl.r_196 c M0 M1 M2 M3 M4 M5 f0 f1 f2 f3 f4 f5 = K2Val.pv195 (fam c M0 M1 M2 M3 M4 M5 M6 M7 M8 M9 f0 f1 f2 f3 f4 f5 f6 f7 f8 f9) := by
  unfold k2Run.sl.r_196 K2Val.pv195
  rw [e_r_138]
  all_goals rfl
theorem e_r_197 : k2Run.sl.r_197 c M0 M1 M2 M3 M4 M5 f0 f1 f2 f3 f4 f5 = K2Val.pv196 (fam c M0 M1 M2 M3 M4 M5 M6 M7 M8 M9 f0 f1 f2 f3 f4 f5 f6 f7 f8 f9) := by
  unfold k2Run.sl.r_197 K2Val.pv196
  rw [e_r_138]
  all_goals rfl
theorem e_r_198 : k2Run.sl.r_198 c M0 M1 M2 M3 M4 M5 f0 f1 f2 f3 f4 f5 = K2Val.pv197 (fam c M0 M1 M2 M3 M4 M5 M6 M7 M8 M9 f0 f1 f2 f3 f4 f5 f6 f7 f8 f9) := by
  unfold k2Run.sl.r_198 K2Val.pv197
  rw [e_r_195, e_r_196, e_r_197]
  all_goals rfl
theorem e_r_199 : k2Run.sl.r_199 c M0 M1 M2 M3 M4 M5 f0 f1 f2 f3 f4 f5 = K2Val.pv198 (fam c M0 M1 M2 M3 M4 M5 M6 M7 M8 M9 f0 f1 f2 f3 f4 f5 f6 f7 f8 f9) := by
  unfold k2Run.sl.r_199 K2Val.pv198
  rw [e_r_138]
  all_goals rfl
theorem e_r_200 : k2Run.sl.r_200 c M0 M1 M2 M3 M4 M5 f0 f1 f2 f3 f4 f5 = K2Val.pv199 (fam c M0 M1 M2 M3 M4 M5 M6 M7 M8 M9 f0 f1 f2 f3 f4 f5 f6 f7 f8 f9) := by
  unfold k2Run.sl.r_200 K2Val.pv199
  rw [e_r_199]
  all_goals rfl
theorem e_r_201 : k2Run.sl.r_201 c M0 M1 M2 M3 M4 M5 f0 f1 f2 f3 f4 f5 = K2Val.pv200 (fam c M0 M1 M2 M3 M4 M5 M6 M7 M8 M9 f0 f1 f2 f3 f4 f5 f6 f7 f8 f9) := by
  unfold k2Run.sl.r_201 K2Val.pv200
  rw [e_r_199, e_r_200]
  all_goals rfl
theorem e_r_202 : k2Run.sl.r_202 c M0 M1 M2 M3 M4 M5 f0 f1 f2 f3 f4 f5 = K2Val.pv201 (fam c M0 M1 M2 M3 M4 M5 M6 M7 M8 M9 f0 f1 f2 f3 f4 f5 f6 f7 f8 f9) := by
  unfold k2Run.sl.r_202 K2Val.pv201
  rw [e_r_138]
  all_goals rfl
theorem e_r_203 : k2Run.sl.r_203 c M0 M1 M2 M3 M4 M5 f0 f1 f2 f3 f4 f5 = K2Val.pv202 (fam c M0 M1 M2 M3 M4 M5 M6 M7 M8 M9 f0 f1 f2 f3 f4 f5 f6 f7 f8 f9) := by
  unfold k2Run.sl.r_203 K2Val.pv202
  rw [e_r_138]
  all_goals rfl
theorem e_r_204 : k2Run.sl.r_204 c M0 M1 M2 M3 M4 M5 f0 f1 f2 f3 f4 f5 = K2Val.pv203 (fam c M0 M1 M2 M3 M4 M5 M6 M7 M8 M9 f0 f1 f2 f3 f4 f5 f6 f7 f8 f9) := by
  unfold k2Run.sl.r_204 K2Val.pv203
  rw [e_r_138]
  all_goals rfl
theorem e_r_205 : k2Run.sl.r_205 c M0 M1 M2 M3 M4 M5 f0 f1 f2 f3 f4 f5 = K2Val.pv204 (fam c M0 M1 M2 M3 M4 M5 M6 M7 M8 M9 f0 f1 f2 f3 f4 f5 f6 f7 f8 f9) := by
  unfold k2Run.sl.r_205 K2Val.pv204
  rw [e_r_202, e_r_203, e_r_204]
  all_goals rfl
theorem e_r_206 : k2Run.sl.r_206 c M0 M1 M2 M3 M4 M5 f0 f1 f2 f3 f4 f5 = K2Val.pv205 (fam c M0 M1 M2 M3 M4 M5 M6 M7 M8 M9 f0 f1 f2 f3 f4 f5 f6 f7 f8 f9) := by
  unfold k2Run.sl.r_206 K2Val.pv205
  rw [e_r_138]
  all_goals rfl
theorem e_r_207 : k2Run.sl.r_207 c M0 M1 M2 M3 M4 M5 f0 f1 f2 f3 f4 f5 = K2Val.pv206 (fam c M0 M1 M2 M3 M4 M5 M6 M7 M8 M9 f0 f1 f2 f3 f4 f5 f6 f7 f8 f9) := by
  unfold k2Run.sl.r_207 K2Val.pv206
  rw [e_r_138]
  all_goals rfl
theorem e_r_208 : k2Run.sl.r_208 c M0 M1 M2 M3 M4 M5 f0 f1 f2 f3 f4 f5 = K2Val.pv207 (fam c M0 M1 M2 M3 M4 M5 M6 M7 M8 M9 f0 f1 f2 f3 f4 f5 f6 f7 f8 f9) := by
  unfold k2Run.sl.r_208 K2Val.pv207
  rw [e_r_206, e_r_207]
  all_goals rfl
theorem e_r_209 : k2Run.sl.r_209 c M0 M1 M2 M3 M4 M5 f0 f1 f2 f3 f4 f5 = K2Val.pv208 (fam c M0 M1 M2 M3 M4 M5 M6 M7 M8 M9 f0 f1 f2 f3 f4 f5 f6 f7 f8 f9) := by
  unfold k2Run.sl.r_209 K2Val.pv208
  rw [e_r_206]
  all_goals rfl
theorem e_r_210 : k2Run.sl.r_210 c M0 M1 M2 M3 M4 M5 f0 f1 f2 f3 f4 f5 = K2Val.pv209 (fam c M0 M1 M2 M3 M4 M5 M6 M7 M8 M9 f0 f1 f2 f3 f4 f5 f6 f7 f8 f9) := by
  unfold k2Run.sl.r_210 K2Val.pv209
  rw [e_r_142, e_r_146, e_r_150, e_r_156, e_r_161, e_r_165, e_r_170, e_r_175, e_r_181, e_r_184, e_r_190, e_r_194, e_r_198, e_r_201, e_r_205, e_r_208, e_r_209]
  all_goals rfl
theorem e_r_211 : k2Run.sl.r_211 c M0 M1 M2 M3 M4 M5 f0 f1 f2 f3 f4 f5 = K2Val.pv210 (fam c M0 M1 M2 M3 M4 M5 M6 M7 M8 M9 f0 f1 f2 f3 f4 f5 f6 f7 f8 f9) := by
  unfold k2Run.sl.r_211 K2Val.pv210
  rw [e_r_142, e_r_146, e_r_150, e_r_156, e_r_161, e_r_165, e_r_170, e_r_175, e_r_181, e_r_184, e_r_190, e_r_194, e_r_198, e_r_201, e_r_205, e_r_208, e_r_209]
  all_goals rfl
theorem e_r_212 : k2Run.sl.r_212 c M0 M1 M2 M3 M4 M5 f0 f1 f2 f3 f4 f5 = K2Val.pv211 (fam c M0 M1 M2 M3 M4 M5 M6 M7 M8 M9 f0 f1 f2 f3 f4 f5 f6 f7 f8 f9) := by
  unfold k2Run.sl.r_212 K2Val.pv211
  rw [e_r_210, e_r_211]
  all_goals rfl
theorem e_r_254 : k2Run.sl.r_254 c M0 M1 M2 M3 M4 M5 f0 f1 f2 f3 f4 f5 = K2Val.pv251 (fam c M0 M1 M2 M3 M4 M5 M6 M7 M8 M9 f0 f1 f2 f3 f4 f5 f6 f7 f8 f9) := by
  unfold k2Run.sl.r_254 K2Val.pv251
  rw [e_r_212]
  all_goals rfl
theorem e_r_255 : k2Run.sl.r_255 c M0 M1 M2 M3 M4 M5 f0 f1 f2 f3 f4 f5 = K2Val.pv252 (fam c M0 M1 M2 M3 M4 M5 M6 M7 M8 M9 f0 f1 f2 f3 f4 f5 f6 f7 f8 f9) := by
  unfold k2Run.sl.r_255 K2Val.pv252
  rw [e_r_254]
  all_goals rfl
theorem e_r_256 : k2Run.sl.r_256 c M0 M1 M2 M3 M4 M5 f0 f1 f2 f3 f4 f5 = K2Val.pv253 (fam c M0 M1 M2 M3 M4 M5 M6 M7 M8 M9 f0 f1 f2 f3 f4 f5 f6 f7 f8 f9) := by
  unfold k2Run.sl.r_256 K2Val.pv253
  rw [e_r_254, e_r_255]
  all_goals rfl
theorem e_r_257 : k2Run.sl.r_257 c M0 M1 M2 M3 M4 M5 f0 f1 f2 f3 f4 f5 = K2Val.pv254 (fam c M0 M1 M2 M3 M4 M5 M6 M7 M8 M9 f0 f1 f2 f3 f4 f5 f6 f7 f8 f9) := by
  unfold k2Run.sl.r_257 K2Val.pv254
  rw [e_r_212]
  all_goals rfl
theorem e_r_258 : k2Run.sl.r_258 c M0 M1 M2 M3 M4 M5 f0 f1 f2 f3 f4 f5 = K2Val.pv255 (fam c M0 M1 M2 M3 M4 M5 M6 M7 M8 M9 f0 f1 f2 f3 f4 f5 f6 f7 f8 f9) := by
  unfold k2Run.sl.r_258 K2Val.pv255
  rw [e_r_212]
  all_goals rfl
theorem e_r_259 : k2Run.sl.r_259 c M3 f3 = K2Val.pv256 (fam c M0 M1 M2 M3 M4 M5 M6 M7 M8 M9 f0 f1 f2 f3 f4 f5 f6 f7 f8 f9) := by
  unfold k2Run.sl.r_259 K2Val.pv256
  all_goals rfl
theorem e_r_260 : k2Run.sl.r_260 c M0 M1 M2 M3 M4 M5 f0 f1 f2 f3 f4 f5 = K2Val.pv257 (fam c M0 M1 M2 M3 M4 M5 M6 M7 M8 M9 f0 f1 f2 f3 f4 f5 f6 f7 f8 f9) := by
  unfold k2Run.sl.r_260 K2Val.pv257
  rw [e_r_212]
  all_goals rfl
theorem e_r_261 : k2Run.sl.r_261 c M0 M1 M2 M3 M4 M5 f0 f1 f2 f3 f4 f5 = K2Val.pv258 (fam c M0 M1 M2 M3 M4 M5 M6 M7 M8 M9 f0 f1 f2 f3 f4 f5 f6 f7 f8 f9) := by
  unfold k2Run.sl.r_261 K2Val.pv258
  rw [e_r_257, e_r_258, e_r_259, e_r_260]
  all_goals rfl
theorem e_r_262 : k2Run.sl.r_262 c M0 M1 M2 M3 M4 M5 f0 f1 f2 f3 f4 f5 = K2Val.pv259 (fam c M0 M1 M2 M3 M4 M5 M6 M7 M8 M9 f0 f1 f2 f3 f4 f5 f6 f7 f8 f9) := by
  unfold k2Run.sl.r_262 K2Val.pv259
  rw [e_r_212]
  all_goals rfl
theorem e_r_263 : k2Run.sl.r_263 c M0 M1 M2 M3 M4 M5 f0 f1 f2 f3 f4 f5 = K2Val.pv260 (fam c M0 M1 M2 M3 M4 M5 M6 M7 M8 M9 f0 f1 f2 f3 f4 f5 f6 f7 f8 f9) := by
  unfold k2Run.sl.r_263 K2Val.pv260
  rw [e_r_212]
  all_goals rfl
theorem e_r_264 : k2Run.sl.r_264 c M0 M1 M2 M3 M4 M5 f0 f1 f2 f3 f4 f5 = K2Val.pv261 (fam c M0 M1 M2 M3 M4 M5 M6 M7 M8 M9 f0 f1 f2 f3 f4 f5 f6 f7 f8 f9) := by
  unfold k2Run.sl.r_264 K2Val.pv261
  rw [e_r_262, e_r_263]
  all_goals rfl
theorem e_r_265 : k2Run.sl.r_265 c M0 M1 M2 M3 M4 M5 f0 f1 f2 f3 f4 f5 = K2Val.pv262 (fam c M0 M1 M2 M3 M4 M5 M6 M7 M8 M9 f0 f1 f2 f3 f4 f5 f6 f7 f8 f9) := by
  unfold k2Run.sl.r_265 K2Val.pv262
  rw [e_r_262]
  all_goals rfl
theorem e_r_266 : k2Run.sl.r_266 c M0 M1 M2 M3 M4 M5 f0 f1 f2 f3 f4 f5 = K2Val.pv263 (fam c M0 M1 M2 M3 M4 M5 M6 M7 M8 M9 f0 f1 f2 f3 f4 f5 f6 f7 f8 f9) := by
  unfold k2Run.sl.r_266 K2Val.pv263
  rw [e_r_264, e_r_265]
  all_goals rfl
theorem e_r_267 : k2Run.sl.r_267 c M0 M1 M2 M3 M4 M5 f0 f1 f2 f3 f4 f5 = K2Val.pv264 (fam c M0 M1 M2 M3 M4 M5 M6 M7 M8 M9 f0 f1 f2 f3 f4 f5 f6 f7 f8 f9) := by
  unfold k2Run.sl.r_267 K2Val.pv264
  rw [e_r_212]
  all_goals rfl
theorem e_r_268 : k2Run.sl.r_268 c M0 M1 M2 M3 M4 M5 f0 f1 f2 f3 f4 f5 = K2Val.pv265 (fam c M0 M1 M2 M3 M4 M5 M6 M7 M8 M9 f0 f1 f2 f3 f4 f5 f6 f7 f8 f9) := by
  unfold k2Run.sl.r_268 K2Val.pv265
  rw [e_r_212]
  all_goals rfl
theorem e_r_269 : k2Run.sl.r_269 c M1 f1 = K2Val.pv266 (fam c M0 M1 M2 M3 M4 M5 M6 M7 M8 M9 f0 f1 f2 f3 f4 f5 f6 f7 f8 f9) := by
  unfold k2Run.sl.r_269 K2Val.pv266
  all_goals rfl
theorem e_r_270 : k2Run.sl.r_270 c M0 M1 M2 M3 M4 M5 f0 f1 f2 f3 f4 f5 = K2Val.pv267 (fam c M0 M1 M2 M3 M4 M5 M6 M7 M8 M9 f0 f1 f2 f3 f4 f5 f6 f7 f8 f9) := by
  unfold k2Run.sl.r_270 K2Val.pv267
  rw [e_r_267, e_r_268, e_r_269]
  all_goals rfl
theorem e_r_271 : k2Run.sl.r_271 c M0 M1 M2 M3 M4 M5 f0 f1 f2 f3 f4 f5 = K2Val.pv268 (fam c M0 M1 M2 M3 M4 M5 M6 M7 M8 M9 f0 f1 f2 f3 f4 f5 f6 f7 f8 f9) := by
  unfold k2Run.sl.r_271 K2Val.pv268
  rw [e_r_212]
  all_goals rfl
theorem e_r_272 : k2Run.sl.r_272 c M0 M1 M2 M3 M4 M5 f0 f1 f2 f3 f4 f5 = K2Val.pv269 (fam c M0 M1 M2 M3 M4 M5 M6 M7 M8 M9 f0 f1 f2 f3 f4 f5 f6 f7 f8 f9) := by
  unfold k2Run.sl.r_272 K2Val.pv269
  rw [e_r_212]
  all_goals rfl
theorem e_r_273 : k2Run.sl.r_273 c M0 M1 M2 M3 M4 M5 f0 f1 f2 f3 f4 f5 = K2Val.pv270 (fam c M0 M1 M2 M3 M4 M5 M6 M7 M8 M9 f0 f1 f2 f3 f4 f5 f6 f7 f8 f9) := by
  unfold k2Run.sl.r_273 K2Val.pv270
  rw [e_r_271, e_r_272]
  all_goals rfl
theorem e_r_274 : k2Run.sl.r_274 c M0 M1 M2 M3 M4 M5 f0 f1 f2 f3 f4 f5 = K2Val.pv271 (fam c M0 M1 M2 M3 M4 M5 M6 M7 M8 M9 f0 f1 f2 f3 f4 f5 f6 f7 f8 f9) := by
  unfold k2Run.sl.r_274 K2Val.pv271
  rw [e_r_271]
  all_goals rfl
theorem e_r_275 : k2Run.sl.r_275 c M0 M1 M2 M3 M4 M5 f0 f1 f2 f3 f4 f5 = K2Val.pv272 (fam c M0 M1 M2 M3 M4 M5 M6 M7 M8 M9 f0 f1 f2 f3 f4 f5 f6 f7 f8 f9) := by
  unfold k2Run.sl.r_275 K2Val.pv272
  rw [e_r_273, e_r_274]
  all_goals rfl
theorem e_r_276 : k2Run.sl.r_276 c M0 M1 M2 M3 M4 M5 f0 f1 f2 f3 f4 f5 = K2Val.pv273 (fam c M0 M1 M2 M3 M4 M5 M6 M7 M8 M9 f0 f1 f2 f3 f4 f5 f6 f7 f8 f9) := by
  unfold k2Run.sl.r_276 K2Val.pv273
  rw [e_r_212]
  all_goals rfl
theorem e_r_277 : k2Run.sl.r_277 c M0 M1 M2 M3 M4 M5 f0 f1 f2 f3 f4 f5 = K2Val.pv274 (fam c M0 M1 M2 M3 M4 M5 M6 M7 M8 M9 f0 f1 f2 f3 f4 f5 f6 f7 f8 f9) := by
  unfold k2Run.sl.r_277 K2Val.pv274
  rw [e_r_212]
  all_goals rfl
theorem e_r_278 : k2Run.sl.r_278 c M0 M1 M2 M3 M4 M5 f0 f1 f2 f3 f4 f5 = K2Val.pv275 (fam c M0 M1 M2 M3 M4 M5 M6 M7 M8 M9 f0 f1 f2 f3 f4 f5 f6 f7 f8 f9) := by
  unfold k2Run.sl.r_278 K2Val.pv275
  rw [e_r_212]
  all_goals rfl
theorem e_r_279 : k2Run.sl.r_279 c M3 f3 = K2Val.pv276 (fam c M0 M1 M2 M3 M4 M5 M6 M7 M8 M9 f0 f1 f2 f3 f4 f5 f6 f7 f8 f9) := by
  unfold k2Run.sl.r_279 K2Val.pv276
  all_goals rfl
theorem e_r_280 : k2Run.sl.r_280 c M0 M1 M2 M3 M4 M5 f0 f1 f2 f3 f4 f5 = K2Val.pv277 (fam c M0 M1 M2 M3 M4 M5 M6 M7 M8 M9 f0 f1 f2 f3 f4 f5 f6 f7 f8 f9) := by
  unfold k2Run.sl.r_280 K2Val.pv277
  rw [e_r_276, e_r_277, e_r_278, e_r_279]
  all_goals rfl
theorem e_r_281 : k2Run.sl.r_281 c M0 M1 M2 M3 M4 M5 f0 f1 f2 f3 f4 f5 = K2Val.pv278 (fam c M0 M1 M2 M3 M4 M5 M6 M7 M8 M9 f0 f1 f2 f3 f4 f5 f6 f7 f8 f9) := by
  unfold k2Run.sl.r_281 K2Val.pv278
  rw [e_r_212]
  all_goals rfl
theorem e_r_282 : k2Run.sl.r_282 c M0 M1 M2 M3 M4 M5 f0 f1 f2 f3 f4 f5 = K2Val.pv279 (fam c M0 M1 M2 M3 M4 M5 M6 M7 M8 M9 f0 f1 f2 f3 f4 f5 f6 f7 f8 f9) := by
  unfold k2Run.sl.r_282 K2Val.pv279
  rw [e_r_212]
  all_goals rfl
theorem e_r_283 : k2Run.sl.r_283 c M0 M1 M2 M3 M4 M5 f0 f1 f2 f3 f4 f5 = K2Val.pv280 (fam c M0 M1 M2 M3 M4 M5 M6 M7 M8 M9 f0 f1 f2 f3 f4 f5 f6 f7 f8 f9) := by
  unfold k2Run.sl.r_283 K2Val.pv280
  rw [e_r_212]
  all_goals rfl
theorem e_r_284 : k2Run.sl.r_284 c M0 M1 M2 M3 M4 M5 f0 f1 f2 f3 f4 f5 = K2Val.pv281 (fam c M0 M1 M2 M3 M4 M5 M6 M7 M8 M9 f0 f1 f2 f3 f4 f5 f6 f7 f8 f9) := by
  unfold k2Run.sl.r_284 K2Val.pv281
  rw [e_r_281, e_r_282, e_r_283]
  all_goals rfl
theorem e_r_213 : k2Run.sl.r_213 c M0 M1 M2 M3 M4 M5 f0 f1 f2 f3 f4 f5 = K2Val.pv212 (fam c M0 M1 M2 M3 M4 M5 M6 M7 M8 M9 f0 f1 f2 f3 f4 f5 f6 f7 f8 f9) := by
  unfold k2Run.sl.r_213 K2Val.pv212
  rw [e_r_210, e_r_211]
  all_goals rfl
theorem e_r_214 : k2Run.sl.r_214 c M0 M1 M2 M3 M4 M5 f0 f1 f2 f3 f4 f5 = K2Val.pv213 (fam c M0 M1 M2 M3 M4 M5 M6 M7 M8 M9 f0 f1 f2 f3 f4 f5 f6 f7 f8 f9) := by
  unfold k2Run.sl.r_214 K2Val.pv213
  rw [e_r_210, e_r_211]
  all_goals rfl
theorem e_r_215 : k2Run.sl.r_215 c M1 f1 = K2Val.pv214 (fam c M0 M1 M2 M3 M4 M5 M6 M7 M8 M9 f0 f1 f2 f3 f4 f5 f6 f7 f8 f9) := by
  unfold k2Run.sl.r_215 K2Val.pv214
  all_goals rfl
theorem e_r_216 : k2Run.sl.r_216 c M0 M1 M2 M3 M4 M5 f0 f1 f2 f3 f4 f5 = K2Val.pv215 (fam c M0 M1 M2 M3 M4 M5 M6 M7 M8 M9 f0 f1 f2 f3 f4 f5 f6 f7 f8 f9) := by
  unfold k2Run.sl.r_216 K2Val.pv215
  rw [e_r_213, e_r_214, e_r_215]
  all_goals rfl
theorem e_r_285 : k2Run.sl.r_285 c M0 M1 M2 M3 M4 M5 f0 f1 f2 f3 f4 f5 = K2Val.pv282 (fam c M0 M1 M2 M3 M4 M5 M6 M7 M8 M9 f0 f1 f2 f3 f4 f5 f6 f7 f8 f9) := by
  unfold k2Run.sl.r_285 K2Val.pv282
  rw [e_r_216]
  all_goals rfl
theorem e_r_217 : k2Run.sl.r_217 c M0 M1 M2 M3 M4 M5 f0 f1 f2 f3 f4 f5 = K2Val.pv216 (fam c M0 M1 M2 M3 M4 M5 M6 M7 M8 M9 f0 f1 f2 f3 f4 f5 f6 f7 f8 f9) := by
  unfold k2Run.sl.r_217 K2Val.pv216
  rw [e_r_212]
  all_goals rfl
theorem e_r_218 : k2Run.sl.r_218 c M0 M1 M2 M3 M4 M5 f0 f1 f2 f3 f4 f5 = K2Val.pv217 (fam c M0 M1 M2 M3 M4 M5 M6 M7 M8 M9 f0 f1 f2 f3 f4 f5 f6 f7 f8 f9) := by
  unfold k2Run.sl.r_218 K2Val.pv217
  rw [e_r_212]
  all_goals rfl
theorem e_r_219 : k2Run.sl.r_219 c M0 M1 M2 M3 M4 M5 f0 f1 f2 f3 f4 f5 = K2Val.pv218 (fam c M0 M1 M2 M3 M4 M5 M6 M7 M8 M9 f0 f1 f2 f3 f4 f5 f6 f7 f8 f9) := by
  unfold k2Run.sl.r_219 K2Val.pv218
  rw [e_r_217, e_r_218]
  all_goals rfl
theorem e_r_220 : k2Run.sl.r_220 c M0 M1 M2 M3 M4 M5 f0 f1 f2 f3 f4 f5 = K2Val.pv219 (fam c M0 M1 M2 M3 M4 M5 M6 M7 M8 M9 f0 f1 f2 f3 f4 f5 f6 f7 f8 f9) := by
  unfold k2Run.sl.r_220 K2Val.pv219
  rw [e_r_217]
  all_goals rfl
theorem e_r_221 : k2Run.sl.r_221 c M0 M1 M2 M3 M4 M5 f0 f1 f2 f3 f4 f5 = K2Val.pv220 (fam c M0 M1 M2 M3 M4 M5 M6 M7 M8 M9 f0 f1 f2 f3 f4 f5 f6 f7 f8 f9) := by
  unfold k2Run.sl.r_221 K2Val.pv220
  rw [e_r_219, e_r_220]
  all_goals rfl
theorem e_r_286 : k2Run.sl.r_286 c M0 M1 M2 M3 M4 M5 f0 f1 f2 f3 f4 f5 = K2Val.pv283 (fam c M0 M1 M2 M3 M4 M5 M6 M7 M8 M9 f0 f1 f2 f3 f4 f5 f6 f7 f8 f9) := by
  unfold k2Run.sl.r_286 K2Val.pv283
  rw [e_r_221]
  all_goals rfl
theorem e_r_222 : k2Run.sl.r_222 c M0 M1 M2 M3 M4 M5 f0 f1 f2 f3 f4 f5 = K2Val.pv221 (fam c M0 M1 M2 M3 M4 M5 M6 M7 M8 M9 f0 f1 f2 f3 f4 f5 f6 f7 f8 f9) := by
  unfold k2Run.sl.r_222 K2Val.pv221
  rw [e_r_212]
  all_goals rfl
theorem e_r_223 : k2Run.sl.r_223 c M0 M1 M2 M3 M4 M5 f0 f1 f2 f3 f4 f5 = K2Val.pv222 (fam c M0 M1 M2 M3 M4 M5 M6 M7 M8 M9 f0 f1 f2 f3 f4 f5 f6 f7 f8 f9) := by
  unfold k2Run.sl.r_223 K2Val.pv222
  rw [e_r_212]
  all_goals rfl
theorem e_r_224 : k2Run.sl.r_224 c M0 M1 M2 M3 M4 M5 f0 f1 f2 f3 f4 f5 = K2Val.pv223 (fam c M0 M1 M2 M3 M4 M5 M6 M7 M8 M9 f0 f1 f2 f3 f4 f5 f6 f7 f8 f9) := by
  unfold k2Run.sl.r_224 K2Val.pv223
  rw [e_r_212]
  all_goals rfl
theorem e_r_225 : k2Run.sl.r_225 c M3 f3 = K2Val.pv224 (fam c M0 M1 M2 M3 M4 M5 M6 M7 M8 M9 f0 f1 f2 f3 f4 f5 f6 f7 f8 f9) := by
  unfold k2Run.sl.r_225 K2Val.pv224
  all_goals rfl
theorem e_r_226 : k2Run.sl.r_226 c M0 M1 M2 M3 M4 M5 f0 f1 f2 f3 f4 f5 = K2Val.pv225 (fam c M0 M1 M2 M3 M4 M5 M6 M7 M8 M9 f0 f1 f2 f3 f4 f5 f6 f7 f8 f9) := by
  unfold k2Run.sl.r_226 K2Val.pv225
  rw [e_r_222, e_r_223, e_r_224, e_r_225]
  all_goals rfl
theorem e_r_287 : k2Run.sl.r_287 c M0 M1 M2 M3 M4 M5 f0 f1 f2 f3 f4 f5 = K2Val.pv284 (fam c M0 M1 M2 M3 M4 M5 M6 M7 M8 M9 f0 f1 f2 f3 f4 f5 f6 f7 f8 f9) := by
  unfold k2Run.sl.r_287 K2Val.pv284
  rw [e_r_226]
  all_goals rfl
theorem e_r_227 : k2Run.sl.r_227 c M0 M1 M2 M3 M4 M5 f0 f1 f2 f3 f4 f5 = K2Val.pv226 (fam c M0 M1 M2 M3 M4 M5 M6 M7 M8 M9 f0 f1 f2 f3 f4 f5 f6 f7 f8 f9) := by
  unfold k2Run.sl.r_227 K2Val.pv226
  rw [e_r_212]
  all_goals rfl
theorem e_r_228 : k2Run.sl.r_228 c M0 M1 M2 M3 M4 M5 f0 f1 f2 f3 f4 f5 = K2Val.pv227 (fam c M0 M1 M2 M3 M4 M5 M6 M7 M8 M9 f0 f1 f2 f3 f4 f5 f6 f7 f8 f9) := by
  unfold k2Run.sl.r_228 K2Val.pv227
  rw [e_r_212]
  all_goals rfl
theorem e_r_229 : k2Run.sl.r_229 c M0 M1 M2 M3 M4 M5 f0 f1 f2 f3 f4 f5 = K2Val.pv228 (fam c M0 M1 M2 M3 M4 M5 M6 M7 M8 M9 f0 f1 f2 f3 f4 f5 f6 f7 f8 f9) := by
  unfold k2Run.sl.r_229 K2Val.pv228
  rw [e_r_212]
  all_goals rfl
theorem e_r_230 : k2Run.sl.r_230 c M0 M1 M2 M3 M4 M5 f0 f1 f2 f3 f4 f5 = K2Val.pv229 (fam c M0 M1 M2 M3 M4 M5 M6 M7 M8 M9 f0 f1 f2 f3 f4 f5 f6 f7 f8 f9) := by
  unfold k2Run.sl.r_230 K2Val.pv229
  rw [e_r_227, e_r_228, e_r_229]
  all_goals rfl
theorem e_r_288 : k2Run.sl.r_288 c M0 M1 M2 M3 M4 M5 f0 f1 f2 f3 f4 f5 = K2Val.pv285 (fam c M0 M1 M2 M3 M4 M5 M6 M7 M8 M9 f0 f1 f2 f3 f4 f5 f6 f7 f8 f9) := by
  unfold k2Run.sl.r_288 K2Val.pv285
  rw [e_r_230]
  all_goals rfl
theorem e_r_231 : k2Run.sl.r_231 c M0 M1 M2 M3 M4 M5 f0 f1 f2 f3 f4 f5 = K2Val.pv230 (fam c M0 M1 M2 M3 M4 M5 M6 M7 M8 M9 f0 f1 f2 f3 f4 f5 f6 f7 f8 f9) := by
  unfold k2Run.sl.r_231 K2Val.pv230
  rw [e_r_212]
  all_goals rfl
theorem e_r_232 : k2Run.sl.r_232 c M1 f1 = K2Val.pv231 (fam c M0 M1 M2 M3 M4 M5 M6 M7 M8 M9 f0 f1 f2 f3 f4 f5 f6 f7 f8 f9) := by
  unfold k2Run.sl.r_232 K2Val.pv231
  all_goals rfl
theorem e_r_233 : k2Run.sl.r_233 c M0 M1 M2 M3 M4 M5 f0 f1 f2 f3 f4 f5 = K2Val.pv232 (fam c M0 M1 M2 M3 M4 M5 M6 M7 M8 M9 f0 f1 f2 f3 f4 f5 f6 f7 f8 f9) := by
  unfold k2Run.sl.r_233 K2Val.pv232
  rw [e_r_231, e_r_232]
  all_goals rfl
theorem e_r_235 : k2Run.sl.r_235 c M0 M1 M2 M3 M4 M5 f0 f1 f2 f3 f4 f5 = K2Val.pv233 (fam c M0 M1 M2 M3 M4 M5 M6 M7 M8 M9 f0 f1 f2 f3 f4 f5 f6 f7 f8 f9) := by
  unfold k2Run.sl.r_235 K2Val.pv233
  rw [e_r_231, e_r_233]
  all_goals rfl
theorem e_r_289 : k2Run.sl.r_289 c M0 M1 M2 M3 M4 M5 f0 f1 f2 f3 f4 f5 = K2Val.pv286 (fam c M0 M1 M2 M3 M4 M5 M6 M7 M8 M9 f0 f1 f2 f3 f4 f5 f6 f7 f8 f9) := by
  unfold k2Run.sl.r_289 K2Val.pv286
  rw [e_r_235]
  all_goals rfl
theorem e_r_236 : k2Run.sl.r_236 c M0 M1 M2 M3 M4 M5 f0 f1 f2 f3 f4 f5 = K2Val.pv234 (fam c M0 M1 M2 M3 M4 M5 M6 M7 M8 M9 f0 f1 f2 f3 f4 f5 f6 f7 f8 f9) := by
  unfold k2Run.sl.r_236 K2Val.pv234
  rw [e_r_212]
  all_goals rfl
theorem e_r_237 : k2Run.sl.r_237 c M0 M1 M2 M3 M4 M5 f0 f1 f2 f3 f4 f5 = K2Val.pv235 (fam c M0 M1 M2 M3 M4 M5 M6 M7 M8 M9 f0 f1 f2 f3 f4 f5 f6 f7 f8 f9) := by
  unfold k2Run.sl.r_237 K2Val.pv235
  rw [e_r_212]
  all_goals rfl
theorem e_r_238 : k2Run.sl.r_238 c M0 M1 M2 M3 M4 M5 f0 f1 f2 f3 f4 f5 = K2Val.pv236 (fam c M0 M1 M2 M3 M4 M5 M6 M7 M8 M9 f0 f1 f2 f3 f4 f5 f6 f7 f8 f9) := by
  unfold k2Run.sl.r_238 K2Val.pv236
  rw [e_r_236, e_r_237]
  all_goals rfl
theorem e_r_290 : k2Run.sl.r_290 c M0 M1 M2 M3 M4 M5 f0 f1 f2 f3 f4 f5 = K2Val.pv287 (fam c M0 M1 M2 M3 M4 M5 M6 M7 M8 M9 f0 f1 f2 f3 f4 f5 f6 f7 f8 f9) := by
  unfold k2Run.sl.r_290 K2Val.pv287
  rw [e_r_238]
  all_goals rfl
theorem e_r_239 : k2Run.sl.r_239 c M0 M1 M2 M3 M4 M5 f0 f1 f2 f3 f4 f5 = K2Val.pv237 (fam c M0 M1 M2 M3 M4 M5 M6 M7 M8 M9 f0 f1 f2 f3 f4 f5 f6 f7 f8 f9) := by
  unfold k2Run.sl.r_239 K2Val.pv237
  rw [e_r_212]
  all_goals rfl
theorem e_r_240 : k2Run.sl.r_240 c M3 f3 = K2Val.pv238 (fam c M0 M1 M2 M3 M4 M5 M6 M7 M8 M9 f0 f1 f2 f3 f4 f5 f6 f7 f8 f9) := by
  unfold k2Run.sl.r_240 K2Val.pv238
  all_goals rfl
theorem e_r_241 : k2Run.sl.r_241 c M0 M1 M2 M3 M4 M5 f0 f1 f2 f3 f4 f5 = K2Val.pv239 (fam c M0 M1 M2 M3 M4 M5 M6 M7 M8 M9 f0 f1 f2 f3 f4 f5 f6 f7 f8 f9) := by
  unfold k2Run.sl.r_241 K2Val.pv239
  rw [e_r_212]
  all_goals rfl
theorem e_r_242 : k2Run.sl.r_242 c M0 M1 M2 M3 M4 M5 f0 f1 f2 f3 f4 f5 = K2Val.pv240 (fam c M0 M1 M2 M3 M4 M5 M6 M7 M8 M9 f0 f1 f2 f3 f4 f5 f6 f7 f8 f9) := by
  unfold k2Run.sl.r_242 K2Val.pv240
  rw [e_r_239, e_r_240, e_r_241]
  all_goals rfl
theorem e_r_243 : k2Run.sl.r_243 c M0 M1 M2 M3 M4 M5 f0 f1 f2 f3 f4 f5 = K2Val.pv241 (fam c M0 M1 M2 M3 M4 M5 M6 M7 M8 M9 f0 f1 f2 f3 f4 f5 f6 f7 f8 f9) := by
  unfold k2Run.sl.r_243 K2Val.pv241
  rw [e_r_239]
  all_goals rfl
theorem e_r_245 : k2Run.sl.r_245 c M0 M1 M2 M3 M4 M5 f0 f1 f2 f3 f4 f5 = K2Val.pv242 (fam c M0 M1 M2 M3 M4 M5 M6 M7 M8 M9 f0 f1 f2 f3 f4 f5 f6 f7 f8 f9) := by
  unfold k2Run.sl.r_245 K2Val.pv242
  rw [e_r_242, e_r_243]
  all_goals rfl
theorem e_r_291 : k2Run.sl.r_291 c M0 M1 M2 M3 M4 M5 f0 f1 f2 f3 f4 f5 = K2Val.pv288 (fam c M0 M1 M2 M3 M4 M5 M6 M7 M8 M9 f0 f1 f2 f3 f4 f5 f6 f7 f8 f9) := by
  unfold k2Run.sl.r_291 K2Val.pv288
  rw [e_r_245]
  all_goals rfl
theorem e_r_246 : k2Run.sl.r_246 c M0 M1 M2 M3 M4 M5 f0 f1 f2 f3 f4 f5 = K2Val.pv243 (fam c M0 M1 M2 M3 M4 M5 M6 M7 M8 M9 f0 f1 f2 f3 f4 f5 f6 f7 f8 f9) := by
  unfold k2Run.sl.r_246 K2Val.pv243
  rw [e_r_212]
  all_goals rfl
theorem e_r_247 : k2Run.sl.r_247 c M0 M1 M2 M3 M4 M5 f0 f1 f2 f3 f4 f5 = K2Val.pv244 (fam c M0 M1 M2 M3 M4 M5 M6 M7 M8 M9 f0 f1 f2 f3 f4 f5 f6 f7 f8 f9) := by
  unfold k2Run.sl.r_247 K2Val.pv244
  rw [e_r_212]
  all_goals rfl
theorem e_r_248 : k2Run.sl.r_248 c M0 M1 M2 M3 M4 M5 f0 f1 f2 f3 f4 f5 = K2Val.pv245 (fam c M0 M1 M2 M3 M4 M5 M6 M7 M8 M9 f0 f1 f2 f3 f4 f5 f6 f7 f8 f9) := by
  unfold k2Run.sl.r_248 K2Val.pv245
  rw [e_r_212]
  all_goals rfl
theorem e_r_249 : k2Run.sl.r_249 c M0 M1 M2 M3 M4 M5 f0 f1 f2 f3 f4 f5 = K2Val.pv246 (fam c M0 M1 M2 M3 M4 M5 M6 M7 M8 M9 f0 f1 f2 f3 f4 f5 f6 f7 f8 f9) := by
  unfold k2Run.sl.r_249 K2Val.pv246
  rw [e_r_246, e_r_247, e_r_248]
  all_goals rfl
theorem e_r_292 : k2Run.sl.r_292 c M0 M1 M2 M3 M4 M5 f0 f1 f2 f3 f4 f5 = K2Val.pv289 (fam c M0 M1 M2 M3 M4 M5 M6 M7 M8 M9 f0 f1 f2 f3 f4 f5 f6 f7 f8 f9) := by
  unfold k2Run.sl.r_292 K2Val.pv289
  rw [e_r_249]
  all_goals rfl
theorem e_r_250 : k2Run.sl.r_250 c M0 M1 M2 M3 M4 M5 f0 f1 f2 f3 f4 f5 = K2Val.pv247 (fam c M0 M1 M2 M3 M4 M5 M6 M7 M8 M9 f0 f1 f2 f3 f4 f5 f6 f7 f8 f9) := by
  unfold k2Run.sl.r_250 K2Val.pv247
  rw [e_r_212]
  all_goals rfl
theorem e_r_251 : k2Run.sl.r_251 c M0 M1 M2 M3 M4 M5 f0 f1 f2 f3 f4 f5 = K2Val.pv248 (fam c M0 M1 M2 M3 M4 M5 M6 M7 M8 M9 f0 f1 f2 f3 f4 f5 f6 f7 f8 f9) := by
  unfold k2Run.sl.r_251 K2Val.pv248
  rw [e_r_212]
  all_goals rfl
theorem e_r_252 : k2Run.sl.r_252 c M1 f1 = K2Val.pv249 (fam c M0 M1 M2 M3 M4 M5 M6 M7 M8 M9 f0 f1 f2 f3 f4 f5 f6 f7 f8 f9) := by
  unfold k2Run.sl.r_252 K2Val.pv249
  all_goals rfl
theorem e_r_253 : k2Run.sl.r_253 c M0 M1 M2 M3 M4 M5 f0 f1 f2 f3 f4 f5 = K2Val.pv250 (fam c M0 M1 M2 M3 M4 M5 M6 M7 M8 M9 f0 f1 f2 f3 f4 f5 f6 f7 f8 f9) := by
  unfold k2Run.sl.r_253 K2Val.pv250
  rw [e_r_250, e_r_251, e_r_252]
  all_goals rfl
theorem e_r_293 : k2Run.sl.r_293 c M0 M1 M2 M3 M4 M5 f0 f1 f2 f3 f4 f5 = K2Val.pv290 (fam c M0 M1 M2 M3 M4 M5 M6 M7 M8 M9 f0 f1 f2 f3 f4 f5 f6 f7 f8 f9) := by
  unfold k2Run.sl.r_293 K2Val.pv290
  rw [e_r_253]
  all_goals rfl
theorem e_r_295 : k2Run.sl.r_295 c M0 M1 M2 M3 M4 M5 f0 f1 f2 f3 f4 f5 = K2Val.pv292 (fam c M0 M1 M2 M3 M4 M5 M6 M7 M8 M9 f0 f1 f2 f3 f4 f5 f6 f7 f8 f9) := by
  unfold k2Run.sl.r_295 K2Val.pv292
  rw [e_r_256, e_r_261, e_r_266, e_r_270, e_r_275, e_r_280, e_r_284, e_r_285, e_r_286, e_r_287, e_r_288, e_r_289, e_r_290, e_r_291, e_r_292, e_r_293]
  all_goals rfl
theorem e_r_296 : k2Run.sl.r_296 c M0 M1 M2 M3 M4 M5 f0 f1 f2 f3 f4 f5 = K2Val.pv293 (fam c M0 M1 M2 M3 M4 M5 M6 M7 M8 M9 f0 f1 f2 f3 f4 f5 f6 f7 f8 f9) := by
  unfold k2Run.sl.r_296 K2Val.pv293
  rw [e_r_295]
  all_goals rfl
theorem e_r_297 : k2Run.sl.r_297 c M0 M1 M2 M3 M4 M5 f0 f1 f2 f3 f4 f5 = K2Val.pv294 (fam c M0 M1 M2 M3 M4 M5 M6 M7 M8 M9 f0 f1 f2 f3 f4 f5 f6 f7 f8 f9) := by
  unfold k2Run.sl.r_297 K2Val.pv294
  rw [e_r_295, e_r_296]
  all_goals rfl
theorem e_r_294 : k2Run.sl.r_294 c M0 M1 M2 M3 M4 M5 f0 f1 f2 f3 f4 f5 = K2Val.pv291 (fam c M0 M1 M2 M3 M4 M5 M6 M7 M8 M9 f0 f1 f2 f3 f4 f5 f6 f7 f8 f9) := by
  unfold k2Run.sl.r_294 K2Val.pv291
  rw [e_r_256, e_r_261, e_r_266, e_r_270, e_r_275, e_r_280, e_r_284, e_r_285, e_r_286, e_r_287, e_r_288, e_r_289, e_r_290, e_r_291, e_r_292, e_r_293]
  all_goals rfl
theorem e_r_298 : k2Run.sl.r_298 c M0 M1 M2 M3 M4 M5 f0 f1 f2 f3 f4 f5 = K2Val.pv295 (fam c M0 M1 M2 M3 M4 M5 M6 M7 M8 M9 f0 f1 f2 f3 f4 f5 f6 f7 f8 f9) := by
  unfold k2Run.sl.r_298 K2Val.pv295
  rw [e_r_294]
  all_goals rfl
theorem e_r_299 : k2Run.sl.r_299 c M0 M1 M2 M3 M4 M5 f0 f1 f2 f3 f4 f5 = K2Val.pv296 (fam c M0 M1 M2 M3 M4 M5 M6 M7 M8 M9 f0 f1 f2 f3 f4 f5 f6 f7 f8 f9) := by
  unfold k2Run.sl.r_299 K2Val.pv296
  rw [e_r_294]
  all_goals rfl
theorem e_r_300 : k2Run.sl.r_300 c M0 M1 M2 M3 M4 M5 f0 f1 f2 f3 f4 f5 = K2Val.pv297 (fam c M0 M1 M2 M3 M4 M5 M6 M7 M8 M9 f0 f1 f2 f3 f4 f5 f6 f7 f8 f9) := by
  unfold k2Run.sl.r_300 K2Val.pv297
  rw [e_r_294]
  all_goals rfl
theorem e_r_301 : k2Run.sl.r_301 c M3 f3 = K2Val.pv298 (fam c M0 M1 M2 M3 M4 M5 M6 M7 M8 M9 f0 f1 f2 f3 f4 f5 f6 f7 f8 f9) := by
  unfold k2Run.sl.r_301 K2Val.pv298
  all_goals rfl
theorem e_r_302 : k2Run.sl.r_302 c M0 M1 M2 M3 M4 M5 f0 f1 f2 f3 f4 f5 = K2Val.pv299 (fam c M0 M1 M2 M3 M4 M5 M6 M7 M8 M9 f0 f1 f2 f3 f4 f5 f6 f7 f8 f9) := by
  unfold k2Run.sl.r_302 K2Val.pv299
  rw [e_r_298, e_r_299, e_r_300, e_r_301]
  all_goals rfl
theorem e_r_303 : k2Run.sl.r_303 c M0 M1 M2 M3 M4 M5 f0 f1 f2 f3 f4 f5 = K2Val.pv300 (fam c M0 M1 M2 M3 M4 M5 M6 M7 M8 M9 f0 f1 f2 f3 f4 f5 f6 f7 f8 f9) := by
  unfold k2Run.sl.r_303 K2Val.pv300
  rw [e_r_294]
  all_goals rfl
theorem e_r_304 : k2Run.sl.r_304 c M0 M1 M2 M3 M4 M5 f0 f1 f2 f3 f4 f5 = K2Val.pv301 (fam c M0 M1 M2 M3 M4 M5 M6 M7 M8 M9 f0 f1 f2 f3 f4 f5 f6 f7 f8 f9) := by
  unfold k2Run.sl.r_304 K2Val.pv301
  rw [e_r_294]
  all_goals rfl
theorem e_r_305 : k2Run.sl.r_305 c M0 M1 M2 M3 M4 M5 f0 f1 f2 f3 f4 f5 = K2Val.pv302 (fam c M0 M1 M2 M3 M4 M5 M6 M7 M8 M9 f0 f1 f2 f3 f4 f5 f6 f7 f8 f9) := by
  unfold k2Run.sl.r_305 K2Val.pv302
  rw [e_r_303, e_r_304]
  all_goals rfl
theorem e_r_306 : k2Run.sl.r_306 c M0 M1 M2 M3 M4 M5 f0 f1 f2 f3 f4 f5 = K2Val.pv303 (fam c M0 M1 M2 M3 M4 M5 M6 M7 M8 M9 f0 f1 f2 f3 f4 f5 f6 f7 f8 f9) := by
  unfold k2Run.sl.r_306 K2Val.pv303
  rw [e_r_303]
  all_goals rfl
theorem e_r_307 : k2Run.sl.r_307 c M0 M1 M2 M3 M4 M5 f0 f1 f2 f3 f4 f5 = K2Val.pv304 (fam c M0 M1 M2 M3 M4 M5 M6 M7 M8 M9 f0 f1 f2 f3 f4 f5 f6 f7 f8 f9) := by
  unfold k2Run.sl.r_307 K2Val.pv304
  rw [e_r_305, e_r_306]
  all_goals rfl
theorem e_r_308 : k2Run.sl.r_308 c M0 M1 M2 M3 M4 M5 f0 f1 f2 f3 f4 f5 = K2Val.pv305 (fam c M0 M1 M2 M3 M4 M5 M6 M7 M8 M9 f0 f1 f2 f3 f4 f5 f6 f7 f8 f9) := by
  unfold k2Run.sl.r_308 K2Val.pv305
  rw [e_r_294]
  all_goals rfl
theorem e_r_309 : k2Run.sl.r_309 c M0 M1 M2 M3 M4 M5 f0 f1 f2 f3 f4 f5 = K2Val.pv306 (fam c M0 M1 M2 M3 M4 M5 M6 M7 M8 M9 f0 f1 f2 f3 f4 f5 f6 f7 f8 f9) := by
  unfold k2Run.sl.r_309 K2Val.pv306
  rw [e_r_294]
  all_goals rfl
theorem e_r_310 : k2Run.sl.r_310 c M1 f1 = K2Val.pv307 (fam c M0 M1 M2 M3 M4 M5 M6 M7 M8 M9 f0 f1 f2 f3 f4 f5 f6 f7 f8 f9) := by
  unfold k2Run.sl.r_310 K2Val.pv307
  all_goals rfl
theorem e_r_311 : k2Run.sl.r_311 c M0 M1 M2 M3 M4 M5 f0 f1 f2 f3 f4 f5 = K2Val.pv308 (fam c M0 M1 M2 M3 M4 M5 M6 M7 M8 M9 f0 f1 f2 f3 f4 f5 f6 f7 f8 f9) := by
  unfold k2Run.sl.r_311 K2Val.pv308
  rw [e_r_294]
  all_goals rfl
theorem e_r_312 : k2Run.sl.r_312 c M0 M1 M2 M3 M4 M5 f0 f1 f2 f3 f4 f5 = K2Val.pv309 (fam c M0 M1 M2 M3 M4 M5 M6 M7 M8 M9 f0 f1 f2 f3 f4 f5 f6 f7 f8 f9) := by
  unfold k2Run.sl.r_312 K2Val.pv309
  rw [e_r_308, e_r_309, e_r_310, e_r_311]
  all_goals rfl
theorem e_r_313 : k2Run.sl.r_313 c M0 M1 M2 M3 M4 M5 f0 f1 f2 f3 f4 f5 = K2Val.pv310 (fam c M0 M1 M2 M3 M4 M5 M6 M7 M8 M9 f0 f1 f2 f3 f4 f5 f6 f7 f8 f9) := by
  unfold k2Run.sl.r_313 K2Val.pv310
  rw [e_r_294]
  all_goals rfl
theorem e_r_314 : k2Run.sl.r_314 c M0 M1 M2 M3 M4 M5 f0 f1 f2 f3 f4 f5 = K2Val.pv311 (fam c M0 M1 M2 M3 M4 M5 M6 M7 M8 M9 f0 f1 f2 f3 f4 f5 f6 f7 f8 f9) := by
  unfold k2Run.sl.r_314 K2Val.pv311
  rw [e_r_294]
  all_goals rfl
theorem e_r_315 : k2Run.sl.r_315 c M0 M1 M2 M3 M4 M5 f0 f1 f2 f3 f4 f5 = K2Val.pv312 (fam c M0 M1 M2 M3 M4 M5 M6 M7 M8 M9 f0 f1 f2 f3 f4 f5 f6 f7 f8 f9) := by
  unfold k2Run.sl.r_315 K2Val.pv312
  rw [e_r_313, e_r_314]
  all_goals rfl
theorem e_r_316 : k2Run.sl.r_316 c M0 M1 M2 M3 M4 M5 f0 f1 f2 f3 f4 f5 = K2Val.pv313 (fam c M0 M1 M2 M3 M4 M5 M6 M7 M8 M9 f0 f1 f2 f3 f4 f5 f6 f7 f8 f9) := by
  unfold k2Run.sl.r_316 K2Val.pv313
  rw [e_r_294]
  all_goals rfl
theorem e_r_317 : k2Run.sl.r_317 c M0 M1 M2 M3 M4 M5 f0 f1 f2 f3 f4 f5 = K2Val.pv314 (fam c M0 M1 M2 M3 M4 M5 M6 M7 M8 M9 f0 f1 f2 f3 f4 f5 f6 f7 f8 f9) := by
  unfold k2Run.sl.r_317 K2Val.pv314
  rw [e_r_316]
  all_goals rfl
theorem e_r_318 : k2Run.sl.r_318 c M0 M1 M2 M3 M4 M5 f0 f1 f2 f3 f4 f5 = K2Val.pv315 (fam c M0 M1 M2 M3 M4 M5 M6 M7 M8 M9 f0 f1 f2 f3 f4 f5 f6 f7 f8 f9) := by
  unfold k2Run.sl.r_318 K2Val.pv315
  rw [e_r_316]
  all_goals rfl
theorem e_r_319 : k2Run.sl.r_319 c M0 M1 M2 M3 M4 M5 f0 f1 f2 f3 f4 f5 = K2Val.pv316 (fam c M0 M1 M2 M3 M4 M5 M6 M7 M8 M9 f0 f1 f2 f3 f4 f5 f6 f7 f8 f9) := by
  unfold k2Run.sl.r_319 K2Val.pv316
  rw [e_r_316]
  all_goals rfl
theorem e_r_320 : k2Run.sl.r_320 c M3 f3 = K2Val.pv317 (fam c M0 M1 M2 M3 M4 M5 M6 M7 M8 M9 f0 f1 f2 f3 f4 f5 f6 f7 f8 f9) := by
  unfold k2Run.sl.r_320 K2Val.pv317
  all_goals rfl
theorem e_r_321 : k2Run.sl.r_321 c M0 M1 M2 M3 M4 M5 f0 f1 f2 f3 f4 f5 = K2Val.pv318 (fam c M0 M1 M2 M3 M4 M5 M6 M7 M8 M9 f0 f1 f2 f3 f4 f5 f6 f7 f8 f9) := by
  unfold k2Run.sl.r_321 K2Val.pv318
  rw [e_r_317, e_r_318, e_r_319, e_r_320]
  all_goals rfl
theorem e_r_322 : k2Run.sl.r_322 c M0 M1 M2 M3 M4 M5 f0 f1 f2 f3 f4 f5 = K2Val.pv319 (fam c M0 M1 M2 M3 M4 M5 M6 M7 M8 M9 f0 f1 f2 f3 f4 f5 f6 f7 f8 f9) := by
  unfold k2Run.sl.r_322 K2Val.pv319
  rw [e_r_294]
  all_goals rfl
theorem e_r_323 : k2Run.sl.r_323 c M0 M1 M2 M3 M4 M5 f0 f1 f2 f3 f4 f5 = K2Val.pv320 (fam c M0 M1 M2 M3 M4 M5 M6 M7 M8 M9 f0 f1 f2 f3 f4 f5 f6 f7 f8 f9) := by
  unfold k2Run.sl.r_323 K2Val.pv320
  rw [e_r_294]
  all_goals rfl
theorem e_r_324 : k2Run.sl.r_324 c M0 M1 M2 M3 M4 M5 f0 f1 f2 f3 f4 f5 = K2Val.pv321 (fam c M0 M1 M2 M3 M4 M5 M6 M7 M8 M9 f0 f1 f2 f3 f4 f5 f6 f7 f8 f9) := by
  unfold k2Run.sl.r_324 K2Val.pv321
  rw [e_r_294]
  all_goals rfl
theorem e_r_325 : k2Run.sl.r_325 c M0 M1 M2 M3 M4 M5 f0 f1 f2 f3 f4 f5 = K2Val.pv322 (fam c M0 M1 M2 M3 M4 M5 M6 M7 M8 M9 f0 f1 f2 f3 f4 f5 f6 f7 f8 f9) := by
  unfold k2Run.sl.r_325 K2Val.pv322
  rw [e_r_322, e_r_323, e_r_324]
  all_goals rfl
theorem e_r_326 : k2Run.sl.r_326 c M0 M1 M2 M3 M4 M5 f0 f1 f2 f3 f4 f5 = K2Val.pv323 (fam c M0 M1 M2 M3 M4 M5 M6 M7 M8 M9 f0 f1 f2 f3 f4 f5 f6 f7 f8 f9) := by
  unfold k2Run.sl.r_326 K2Val.pv323
  rw [e_r_294]
  all_goals rfl
theorem e_r_327 : k2Run.sl.r_327 c M1 f1 = K2Val.pv324 (fam c M0 M1 M2 M3 M4 M5 M6 M7 M8 M9 f0 f1 f2 f3 f4 f5 f6 f7 f8 f9) := by
  unfold k2Run.sl.r_327 K2Val.pv324
  all_goals rfl
theorem e_r_328 : k2Run.sl.r_328 c M0 M1 M2 M3 M4 M5 f0 f1 f2 f3 f4 f5 = K2Val.pv325 (fam c M0 M1 M2 M3 M4 M5 M6 M7 M8 M9 f0 f1 f2 f3 f4 f5 f6 f7 f8 f9) := by
  unfold k2Run.sl.r_328 K2Val.pv325
  rw [e_r_294]
  all_goals rfl
theorem e_r_329 : k2Run.sl.r_329 c M0 M1 M2 M3 M4 M5 f0 f1 f2 f3 f4 f5 = K2Val.pv326 (fam c M0 M1 M2 M3 M4 M5 M6 M7 M8 M9 f0 f1 f2 f3 f4 f5 f6 f7 f8 f9) := by
  unfold k2Run.sl.r_329 K2Val.pv326
  rw [e_r_326, e_r_327, e_r_328]
  all_goals rfl
theorem e_r_330 : k2Run.sl.r_330 c M1 f1 = K2Val.pv327 (fam c M0 M1 M2 M3 M4 M5 M6 M7 M8 M9 f0 f1 f2 f3 f4 f5 f6 f7 f8 f9) := by
  unfold k2Run.sl.r_330 K2Val.pv327
  all_goals rfl
theorem e_r_331 : k2Run.sl.r_331 c M0 M1 M2 M3 M4 M5 f0 f1 f2 f3 f4 f5 = K2Val.pv328 (fam c M0 M1 M2 M3 M4 M5 M6 M7 M8 M9 f0 f1 f2 f3 f4 f5 f6 f7 f8 f9) := by
  unfold k2Run.sl.r_331 K2Val.pv328
  rw [e_r_326, e_r_329, e_r_330]
  all_goals rfl
theorem e_r_332 : k2Run.sl.r_332 c M0 M1 M2 M3 M4 M5 f0 f1 f2 f3 f4 f5 = K2Val.pv329 (fam c M0 M1 M2 M3 M4 M5 M6 M7 M8 M9 f0 f1 f2 f3 f4 f5 f6 f7 f8 f9) := by
  unfold k2Run.sl.r_332 K2Val.pv329
  rw [e_r_294]
  all_goals rfl
theorem e_r_333 : k2Run.sl.r_333 c M0 M1 M2 M3 M4 M5 f0 f1 f2 f3 f4 f5 = K2Val.pv330 (fam c M0 M1 M2 M3 M4 M5 M6 M7 M8 M9 f0 f1 f2 f3 f4 f5 f6 f7 f8 f9) := by
  unfold k2Run.sl.r_333 K2Val.pv330
  rw [e_r_294]
  all_goals rfl
theorem e_r_334 : k2Run.sl.r_334 c M0 M1 M2 M3 M4 M5 f0 f1 f2 f3 f4 f5 = K2Val.pv331 (fam c M0 M1 M2 M3 M4 M5 M6 M7 M8 M9 f0 f1 f2 f3 f4 f5 f6 f7 f8 f9) := by
  unfold k2Run.sl.r_334 K2Val.pv331
  rw [e_r_332, e_r_333]
  all_goals rfl
theorem e_r_335 : k2Run.sl.r_335 c M0 M1 M2 M3 M4 M5 f0 f1 f2 f3 f4 f5 = K2Val.pv332 (fam c M0 M1 M2 M3 M4 M5 M6 M7 M8 M9 f0 f1 f2 f3 f4 f5 f6 f7 f8 f9) := by
  unfold k2Run.sl.r_335 K2Val.pv332
  rw [e_r_294]
  all_goals rfl
theorem e_r_336 : k2Run.sl.r_336 c M0 M1 M2 M3 M4 M5 f0 f1 f2 f3 f4 f5 = K2Val.pv333 (fam c M0 M1 M2 M3 M4 M5 M6 M7 M8 M9 f0 f1 f2 f3 f4 f5 f6 f7 f8 f9) := by
  unfold k2Run.sl.r_336 K2Val.pv333
  rw [e_r_294]
  all_goals rfl
theorem e_r_337 : k2Run.sl.r_337 c M3 f3 = K2Val.pv334 (fam c M0 M1 M2 M3 M4 M5 M6 M7 M8 M9 f0 f1 f2 f3 f4 f5 f6 f7 f8 f9) := by
  unfold k2Run.sl.r_337 K2Val.pv334
  all_goals rfl
theorem e_r_338 : k2Run.sl.r_338 c M0 M1 M2 M3 M4 M5 f0 f1 f2 f3 f4 f5 = K2Val.pv335 (fam c M0 M1 M2 M3 M4 M5 M6 M7 M8 M9 f0 f1 f2 f3 f4 f5 f6 f7 f8 f9) := by
  unfold k2Run.sl.r_338 K2Val.pv335
  rw [e_r_335, e_r_336, e_r_337]
  all_goals rfl
theorem e_r_339 : k2Run.sl.r_339 c M3 f3 = K2Val.pv336 (fam c M0 M1 M2 M3 M4 M5 M6 M7 M8 M9 f0 f1 f2 f3 f4 f5 f6 f7 f8 f9) := by
  unfold k2Run.sl.r_339 K2Val.pv336
  all_goals rfl
theorem e_r_340 : k2Run.sl.r_340 c M0 M1 M2 M3 M4 M5 f0 f1 f2 f3 f4 f5 = K2Val.pv337 (fam c M0 M1 M2 M3 M4 M5 M6 M7 M8 M9 f0 f1 f2 f3 f4 f5 f6 f7 f8 f9) := by
  unfold k2Run.sl.r_340 K2Val.pv337
  rw [e_r_335]
  all_goals rfl
theorem e_r_341 : k2Run.sl.r_341 c M0 M1 M2 M3 M4 M5 f0 f1 f2 f3 f4 f5 = K2Val.pv338 (fam c M0 M1 M2 M3 M4 M5 M6 M7 M8 M9 f0 f1 f2 f3 f4 f5 f6 f7 f8 f9) := by
  unfold k2Run.sl.r_341 K2Val.pv338
  rw [e_r_338, e_r_339, e_r_340]
  all_goals rfl
theorem e_r_342 : k2Run.sl.r_342 c M0 M1 M2 M3 M4 M5 f0 f1 f2 f3 f4 f5 = K2Val.pv339 (fam c M0 M1 M2 M3 M4 M5 M6 M7 M8 M9 f0 f1 f2 f3 f4 f5 f6 f7 f8 f9) := by
  unfold k2Run.sl.r_342 K2Val.pv339
  rw [e_r_294]
  all_goals rfl
theorem e_r_343 : k2Run.sl.r_343 c M0 M1 M2 M3 M4 M5 f0 f1 f2 f3 f4 f5 = K2Val.pv340 (fam c M0 M1 M2 M3 M4 M5 M6 M7 M8 M9 f0 f1 f2 f3 f4 f5 f6 f7 f8 f9) := by
  unfold k2Run.sl.r_343 K2Val.pv340
  rw [e_r_294]
  all_goals rfl
theorem e_r_344 : k2Run.sl.r_344 c M0 M1 M2 M3 M4 M5 f0 f1 f2 f3 f4 f5 = K2Val.pv341 (fam c M0 M1 M2 M3 M4 M5 M6 M7 M8 M9 f0 f1 f2 f3 f4 f5 f6 f7 f8 f9) := by
  unfold k2Run.sl.r_344 K2Val.pv341
  rw [e_r_294]
  all_goals rfl
theorem e_r_345 : k2Run.sl.r_345 c M0 M1 M2 M3 M4 M5 f0 f1 f2 f3 f4 f5 = K2Val.pv342 (fam c M0 M1 M2 M3 M4 M5 M6 M7 M8 M9 f0 f1 f2 f3 f4 f5 f6 f7 f8 f9) := by
  unfold k2Run.sl.r_345 K2Val.pv342
  rw [e_r_342, e_r_343, e_r_344]
  all_goals rfl
theorem e_r_346 : k2Run.sl.r_346 c M0 M1 M2 M3 M4 M5 f0 f1 f2 f3 f4 f5 = K2Val.pv343 (fam c M0 M1 M2 M3 M4 M5 M6 M7 M8 M9 f0 f1 f2 f3 f4 f5 f6 f7 f8 f9) := by
  unfold k2Run.sl.r_346 K2Val.pv343
  rw [e_r_294]
  all_goals rfl
theorem e_r_347 : k2Run.sl.r_347 c M0 M1 M2 M3 M4 M5 f0 f1 f2 f3 f4 f5 = K2Val.pv344 (fam c M0 M1 M2 M3 M4 M5 M6 M7 M8 M9 f0 f1 f2 f3 f4 f5 f6 f7 f8 f9) := by
  unfold k2Run.sl.r_347 K2Val.pv344
  rw [e_r_294]
  all_goals rfl
theorem e_r_348 : k2Run.sl.r_348 c M1 f1 = K2Val.pv345 (fam c M0 M1 M2 M3 M4 M5 M6 M7 M8 M9 f0 f1 f2 f3 f4 f5 f6 f7 f8 f9) := by
  unfold k2Run.sl.r_348 K2Val.pv345
  all_goals rfl
theorem e_r_349 : k2Run.sl.r_349 c M0 M1 M2 M3 M4 M5 f0 f1 f2 f3 f4 f5 = K2Val.pv346 (fam c M0 M1 M2 M3 M4 M5 M6 M7 M8 M9 f0 f1 f2 f3 f4 f5 f6 f7 f8 f9) := by
  unfold k2Run.sl.r_349 K2Val.pv346
  rw [e_r_294]
  all_goals rfl
theorem e_r_350 : k2Run.sl.r_350 c M0 M1 M2 M3 M4 M5 f0 f1 f2 f3 f4 f5 = K2Val.pv347 (fam c M0 M1 M2 M3 M4 M5 M6 M7 M8 M9 f0 f1 f2 f3 f4 f5 f6 f7 f8 f9) := by
  unfold k2Run.sl.r_350 K2Val.pv347
  rw [e_r_346, e_r_347, e_r_348, e_r_349]
  all_goals rfl
theorem e_r_351 : k2Run.sl.r_351 c M0 M1 M2 M3 M4 M5 f0 f1 f2 f3 f4 f5 = K2Val.pv348 (fam c M0 M1 M2 M3 M4 M5 M6 M7 M8 M9 f0 f1 f2 f3 f4 f5 f6 f7 f8 f9) := by
  unfold k2Run.sl.r_351 K2Val.pv348
  rw [e_r_294]
  all_goals rfl
theorem e_r_352 : k2Run.sl.r_352 c M0 M1 M2 M3 M4 M5 f0 f1 f2 f3 f4 f5 = K2Val.pv349 (fam c M0 M1 M2 M3 M4 M5 M6 M7 M8 M9 f0 f1 f2 f3 f4 f5 f6 f7 f8 f9) := by
  unfold k2Run.sl.r_352 K2Val.pv349
  rw [e_r_351]
  all_goals rfl
theorem e_r_353 : k2Run.sl.r_353 c M0 M1 M2 M3 M4 M5 f0 f1 f2 f3 f4 f5 = K2Val.pv350 (fam c M0 M1 M2 M3 M4 M5 M6 M7 M8 M9 f0 f1 f2 f3 f4 f5 f6 f7 f8 f9) := by
  unfold k2Run.sl.r_353 K2Val.pv350
  rw [e_r_351, e_r_352]
  all_goals rfl
theorem e_r_354 : k2Run.sl.r_354 c M0 M1 M2 M3 M4 M5 f0 f1 f2 f3 f4 f5 = K2Val.pv351 (fam c M0 M1 M2 M3 M4 M5 M6 M7 M8 M9 f0 f1 f2 f3 f4 f5 f6 f7 f8 f9) := by
  unfold k2Run.sl.r_354 K2Val.pv351
  rw [e_r_294]
  all_goals rfl
theorem e_r_355 : k2Run.sl.r_355 c M0 M1 M2 M3 M4 M5 f0 f1 f2 f3 f4 f5 = K2Val.pv352 (fam c M0 M1 M2 M3 M4 M5 M6 M7 M8 M9 f0 f1 f2 f3 f4 f5 f6 f7 f8 f9) := by
  unfold k2Run.sl.r_355 K2Val.pv352
  rw [e_r_294]
  all_goals rfl
theorem e_r_356 : k2Run.sl.r_356 c M0 M1 M2 M3 M4 M5 f0 f1 f2 f3 f4 f5 = K2Val.pv353 (fam c M0 M1 M2 M3 M4 M5 M6 M7 M8 M9 f0 f1 f2 f3 f4 f5 f6 f7 f8 f9) := by
  unfold k2Run.sl.r_356 K2Val.pv353
  rw [e_r_294]
  all_goals rfl
theorem e_r_357 : k2Run.sl.r_357 c M3 f3 = K2Val.pv354 (fam c M0 M1 M2 M3 M4 M5 M6 M7 M8 M9 f0 f1 f2 f3 f4 f5 f6 f7 f8 f9) := by
  unfold k2Run.sl.r_357 K2Val.pv354
  all_goals rfl
theorem e_r_358 : k2Run.sl.r_358 c M0 M1 M2 M3 M4 M5 f0 f1 f2 f3 f4 f5 = K2Val.pv355 (fam c M0 M1 M2 M3 M4 M5 M6 M7 M8 M9 f0 f1 f2 f3 f4 f5 f6 f7 f8 f9) := by
  unfold k2Run.sl.r_358 K2Val.pv355
  rw [e_r_354, e_r_355, e_r_356, e_r_357]
  all_goals rfl
theorem e_r_359 : k2Run.sl.r_359 c M0 M1 M2 M3 M4 M5 f0 f1 f2 f3 f4 f5 = K2Val.pv356 (fam c M0 M1 M2 M3 M4 M5 M6 M7 M8 M9 f0 f1 f2 f3 f4 f5 f6 f7 f8 f9) := by
  unfold k2Run.sl.r_359 K2Val.pv356
  rw [e_r_294]
  all_goals rfl
theorem e_r_360 : k2Run.sl.r_360 c M0 M1 M2 M3 M4 M5 f0 f1 f2 f3 f4 f5 = K2Val.pv357 (fam c M0 M1 M2 M3 M4 M5 M6 M7 M8 M9 f0 f1 f2 f3 f4 f5 f6 f7 f8 f9) := by
  unfold k2Run.sl.r_360 K2Val.pv357
  rw [e_r_294]
  all_goals rfl
theorem e_r_361 : k2Run.sl.r_361 c M0 M1 M2 M3 M4 M5 f0 f1 f2 f3 f4 f5 = K2Val.pv358 (fam c M0 M1 M2 M3 M4 M5 M6 M7 M8 M9 f0 f1 f2 f3 f4 f5 f6 f7 f8 f9) := by
  unfold k2Run.sl.r_361 K2Val.pv358
  rw [e_r_359, e_r_360]
  all_goals rfl
theorem e_r_362 : k2Run.sl.r_362 c M0 M1 M2 M3 M4 M5 f0 f1 f2 f3 f4 f5 = K2Val.pv359 (fam c M0 M1 M2 M3 M4 M5 M6 M7 M8 M9 f0 f1 f2 f3 f4 f5 f6 f7 f8 f9) := by
  unfold k2Run.sl.r_362 K2Val.pv359
  rw [e_r_359]
  all_goals rfl
theorem e_r_363 : k2Run.sl.r_363 c M0 M1 M2 M3 M4 M5 f0 f1 f2 f3 f4 f5 = K2Val.pv360 (fam c M0 M1 M2 M3 M4 M5 M6 M7 M8 M9 f0 f1 f2 f3 f4 f5 f6 f7 f8 f9) := by
  unfold k2Run.sl.r_363 K2Val.pv360
  rw [e_r_361, e_r_362]
  all_goals rfl
theorem e_r_364 : k2Run.sl.r_364 c M0 M1 M2 M3 M4 M5 f0 f1 f2 f3 f4 f5 = K2Val.pv361 (fam c M0 M1 M2 M3 M4 M5 M6 M7 M8 M9 f0 f1 f2 f3 f4 f5 f6 f7 f8 f9) := by
  unfold k2Run.sl.r_364 K2Val.pv361
  rw [e_r_294]
  all_goals rfl
theorem e_r_365 : k2Run.sl.r_365 c M0 M1 M2 M3 M4 M5 f0 f1 f2 f3 f4 f5 = K2Val.pv362 (fam c M0 M1 M2 M3 M4 M5 M6 M7 M8 M9 f0 f1 f2 f3 f4 f5 f6 f7 f8 f9) := by
  unfold k2Run.sl.r_365 K2Val.pv362
  rw [e_r_294]
  all_goals rfl
theorem e_r_366 : k2Run.sl.r_366 c M1 f1 = K2Val.pv363 (fam c M0 M1 M2 M3 M4 M5 M6 M7 M8 M9 f0 f1 f2 f3 f4 f5 f6 f7 f8 f9) := by
  unfold k2Run.sl.r_366 K2Val.pv363
  all_goals rfl
theorem e_r_367 : k2Run.sl.r_367 c M0 M1 M2 M3 M4 M5 f0 f1 f2 f3 f4 f5 = K2Val.pv364 (fam c M0 M1 M2 M3 M4 M5 M6 M7 M8 M9 f0 f1 f2 f3 f4 f5 f6 f7 f8 f9) := by
  unfold k2Run.sl.r_367 K2Val.pv364
  rw [e_r_294]
  all_goals rfl
theorem e_r_368 : k2Run.sl.r_368 c M0 M1 M2 M3 M4 M5 f0 f1 f2 f3 f4 f5 = K2Val.pv365 (fam c M0 M1 M2 M3 M4 M5 M6 M7 M8 M9 f0 f1 f2 f3 f4 f5 f6 f7 f8 f9) := by
  unfold k2Run.sl.r_368 K2Val.pv365
  rw [e_r_297, e_r_302, e_r_307, e_r_312, e_r_315, e_r_321, e_r_325, e_r_331, e_r_334, e_r_341, e_r_345, e_r_350, e_r_353, e_r_358, e_r_363, e_r_364, e_r_365, e_r_366, e_r_367]
  all_goals rfl
theorem e_r_369 : k2Run.sl.r_369 c M0 M1 M2 M3 M4 M5 f0 f1 f2 f3 f4 f5 = K2Val.pv366 (fam c M0 M1 M2 M3 M4 M5 M6 M7 M8 M9 f0 f1 f2 f3 f4 f5 f6 f7 f8 f9) := by
  unfold k2Run.sl.r_369 K2Val.pv366
  rw [e_r_297, e_r_302, e_r_307, e_r_312, e_r_315, e_r_321, e_r_325, e_r_331, e_r_334, e_r_341, e_r_345, e_r_350, e_r_353, e_r_358, e_r_363, e_r_364, e_r_365, e_r_366, e_r_367]
  all_goals rfl
theorem e_r_370 : k2Run.sl.r_370 c M0 M1 M2 M3 M4 M5 f0 f1 f2 f3 f4 f5 = K2Val.pv368 (fam c M0 M1 M2 M3 M4 M5 M6 M7 M8 M9 f0 f1 f2 f3 f4 f5 f6 f7 f8 f9) := by
  unfold k2Run.sl.r_370 K2Val.pv368
  rw [e_r_368, e_r_369]
  all_goals rfl
theorem e_r_386 : k2Run.sl.r_386 c M0 M1 M2 M3 M4 M5 f0 f1 f2 f3 f4 f5 = K2Val.pv383 (fam c M0 M1 M2 M3 M4 M5 M6 M7 M8 M9 f0 f1 f2 f3 f4 f5 f6 f7 f8 f9) := by
  unfold k2Run.sl.r_386 K2Val.pv383
  rw [e_r_370]
  all_goals rfl
theorem e_r_387 : k2Run.sl.r_387 c M1 f1 = K2Val.pv384 (fam c M0 M1 M2 M3 M4 M5 M6 M7 M8 M9 f0 f1 f2 f3 f4 f5 f6 f7 f8 f9) := by
  unfold k2Run.sl.r_387 K2Val.pv384
  all_goals rfl
theorem e_r_388 : k2Run.sl.r_388 c M0 M1 M2 M3 M4 M5 f0 f1 f2 f3 f4 f5 = K2Val.pv385 (fam c M0 M1 M2 M3 M4 M5 M6 M7 M8 M9 f0 f1 f2 f3 f4 f5 f6 f7 f8 f9) := by
  unfold k2Run.sl.r_388 K2Val.pv385
  rw [e_r_386, e_r_387]
  all_goals rfl
theorem e_r_389 : k2Run.sl.r_389 c M0 M1 M2 M3 M4 M5 f0 f1 f2 f3 f4 f5 = K2Val.pv386 (fam c M0 M1 M2 M3 M4 M5 M6 M7 M8 M9 f0 f1 f2 f3 f4 f5 f6 f7 f8 f9) := by
  unfold k2Run.sl.r_389 K2Val.pv386
  rw [e_r_386, e_r_388]
  all_goals rfl
theorem e_r_371 : k2Run.sl.r_371 c M0 M1 M2 M3 M4 M5 f0 f1 f2 f3 f4 f5 = K2Val.pv369 (fam c M0 M1 M2 M3 M4 M5 M6 M7 M8 M9 f0 f1 f2 f3 f4 f5 f6 f7 f8 f9) := by
  unfold k2Run.sl.r_371 K2Val.pv369
  rw [e_r_368, e_r_369]
  all_goals rfl
theorem e_r_372 : k2Run.sl.r_372 c M0 M1 M2 M3 M4 M5 f0 f1 f2 f3 f4 f5 = K2Val.pv370 (fam c M0 M1 M2 M3 M4 M5 M6 M7 M8 M9 f0 f1 f2 f3 f4 f5 f6 f7 f8 f9) := by
  unfold k2Run.sl.r_372 K2Val.pv370
  rw [e_r_368, e_r_369]
  all_goals rfl
theorem e_r_373 : k2Run.sl.r_373 c M0 M1 M2 M3 M4 M5 f0 f1 f2 f3 f4 f5 = K2Val.pv371 (fam c M0 M1 M2 M3 M4 M5 M6 M7 M8 M9 f0 f1 f2 f3 f4 f5 f6 f7 f8 f9) := by
  unfold k2Run.sl.r_373 K2Val.pv371
  rw [e_r_371, e_r_372]
  all_goals rfl
theorem e_r_374 : k2Run.sl.r_374 c M0 M1 M2 M3 M4 M5 f0 f1 f2 f3 f4 f5 = K2Val.pv372 (fam c M0 M1 M2 M3 M4 M5 M6 M7 M8 M9 f0 f1 f2 f3 f4 f5 f6 f7 f8 f9) := by
  unfold k2Run.sl.r_374 K2Val.pv372
  rw [e_r_371]
  all_goals rfl
theorem e_r_375 : k2Run.sl.r_375 c M3 f3 = K2Val.pv373 (fam c M0 M1 M2 M3 M4 M5 M6 M7 M8 M9 f0 f1 f2 f3 f4 f5 f6 f7 f8 f9) := by
  unfold k2Run.sl.r_375 K2Val.pv373
  all_goals rfl
theorem e_r_376 : k2Run.sl.r_376 c M0 M1 M2 M3 M4 M5 f0 f1 f2 f3 f4 f5 = K2Val.pv374 (fam c M0 M1 M2 M3 M4 M5 M6 M7 M8 M9 f0 f1 f2 f3 f4 f5 f6 f7 f8 f9) := by
  unfold k2Run.sl.r_376 K2Val.pv374
  rw [e_r_373, e_r_374, e_r_375]
  all_goals rfl
theorem e_r_377 : k2Run.sl.r_377 c M0 M1 M2 M3 M4 M5 f0 f1 f2 f3 f4 f5 = K2Val.pv375 (fam c M0 M1 M2 M3 M4 M5 M6 M7 M8 M9 f0 f1 f2 f3 f4 f5 f6 f7 f8 f9) := by
  unfold k2Run.sl.r_377 K2Val.pv375
  rw [e_r_370]
  all_goals rfl
theorem e_r_378 : k2Run.sl.r_378 c M0 M1 M2 M3 M4 M5 f0 f1 f2 f3 f4 f5 = K2Val.pv376 (fam c M0 M1 M2 M3 M4 M5 M6 M7 M8 M9 f0 f1 f2 f3 f4 f5 f6 f7 f8 f9) := by
  unfold k2Run.sl.r_378 K2Val.pv376
  rw [e_r_370]
  all_goals rfl
theorem e_r_379 : k2Run.sl.r_379 c M0 M1 M2 M3 M4 M5 f0 f1 f2 f3 f4 f5 = K2Val.pv377 (fam c M0 M1 M2 M3 M4 M5 M6 M7 M8 M9 f0 f1 f2 f3 f4 f5 f6 f7 f8 f9) := by
  unfold k2Run.sl.r_379 K2Val.pv377
  rw [e_r_370]
  all_goals rfl
theorem e_r_381 : k2Run.sl.r_381 c M0 M1 M2 M3 M4 M5 f0 f1 f2 f3 f4 f5 = K2Val.pv378 (fam c M0 M1 M2 M3 M4 M5 M6 M7 M8 M9 f0 f1 f2 f3 f4 f5 f6 f7 f8 f9) := by
  unfold k2Run.sl.r_381 K2Val.pv378
  rw [e_r_377, e_r_378, e_r_379]
  all_goals rfl
theorem e_r_382 : k2Run.sl.r_382 c M0 M1 M2 M3 M4 M5 f0 f1 f2 f3 f4 f5 = K2Val.pv379 (fam c M0 M1 M2 M3 M4 M5 M6 M7 M8 M9 f0 f1 f2 f3 f4 f5 f6 f7 f8 f9) := by
  unfold k2Run.sl.r_382 K2Val.pv379
  rw [e_r_370]
  all_goals rfl
theorem e_r_383 : k2Run.sl.r_383 c M0 M1 M2 M3 M4 M5 f0 f1 f2 f3 f4 f5 = K2Val.pv380 (fam c M0 M1 M2 M3 M4 M5 M6 M7 M8 M9 f0 f1 f2 f3 f4 f5 f6 f7 f8 f9) := by
  unfold k2Run.sl.r_383 K2Val.pv380
  rw [e_r_370]
  all_goals rfl
theorem e_r_384 : k2Run.sl.r_384 c M0 M1 M2 M3 M4 M5 f0 f1 f2 f3 f4 f5 = K2Val.pv381 (fam c M0 M1 M2 M3 M4 M5 M6 M7 M8 M9 f0 f1 f2 f3 f4 f5 f6 f7 f8 f9) := by
  unfold k2Run.sl.r_384 K2Val.pv381
  rw [e_r_370]
  all_goals rfl
theorem e_r_385 : k2Run.sl.r_385 c M0 M1 M2 M3 M4 M5 f0 f1 f2 f3 f4 f5 = K2Val.pv382 (fam c M0 M1 M2 M3 M4 M5 M6 M7 M8 M9 f0 f1 f2 f3 f4 f5 f6 f7 f8 f9) := by
  unfold k2Run.sl.r_385 K2Val.pv382
  rw [e_r_382, e_r_383, e_r_384]
  all_goals rfl
theorem e_r_390 : k2Run.sl.r_390 c M0 M1 M2 M3 M4 M5 f0 f1 f2 f3 f4 f5 = K2Val.pv387 (fam c M0 M1 M2 M3 M4 M5 M6 M7 M8 M9 f0 f1 f2 f3 f4 f5 f6 f7 f8 f9) := by
  unfold k2Run.sl.r_390 K2Val.pv387
  rw [e_r_370]
  all_goals rfl
theorem e_r_391 : k2Run.sl.r_391 c M0 M1 M2 M3 M4 M5 f0 f1 f2 f3 f4 f5 = K2Val.pv388 (fam c M0 M1 M2 M3 M4 M5 M6 M7 M8 M9 f0 f1 f2 f3 f4 f5 f6 f7 f8 f9) := by
  unfold k2Run.sl.r_391 K2Val.pv388
  rw [e_r_370]
  all_goals rfl
theorem e_r_392 : k2Run.sl.r_392 c M0 M1 M2 M3 M4 M5 f0 f1 f2 f3 f4 f5 = K2Val.pv389 (fam c M0 M1 M2 M3 M4 M5 M6 M7 M8 M9 f0 f1 f2 f3 f4 f5 f6 f7 f8 f9) := by
  unfold k2Run.sl.r_392 K2Val.pv389
  rw [e_r_390, e_r_391]
  all_goals rfl
theorem e_r_393 : k2Run.sl.r_393 c M0 M1 M2 M3 M4 M5 f0 f1 f2 f3 f4 f5 = K2Val.pv390 (fam c M0 M1 M2 M3 M4 M5 M6 M7 M8 M9 f0 f1 f2 f3 f4 f5 f6 f7 f8 f9) := by
  unfold k2Run.sl.r_393 K2Val.pv390
  rw [e_r_370]
  all_goals rfl
theorem e_r_394 : k2Run.sl.r_394 c M0 M1 M2 M3 M4 M5 f0 f1 f2 f3 f4 f5 = K2Val.pv391 (fam c M0 M1 M2 M3 M4 M5 M6 M7 M8 M9 f0 f1 f2 f3 f4 f5 f6 f7 f8 f9) := by
  unfold k2Run.sl.r_394 K2Val.pv391
  rw [e_r_370]
  all_goals rfl
theorem e_r_395 : k2Run.sl.r_395 c M3 f3 = K2Val.pv392 (fam c M0 M1 M2 M3 M4 M5 M6 M7 M8 M9 f0 f1 f2 f3 f4 f5 f6 f7 f8 f9) := by
  unfold k2Run.sl.r_395 K2Val.pv392
  all_goals rfl
theorem e_r_396 : k2Run.sl.r_396 c M0 M1 M2 M3 M4 M5 f0 f1 f2 f3 f4 f5 = K2Val.pv393 (fam c M0 M1 M2 M3 M4 M5 M6 M7 M8 M9 f0 f1 f2 f3 f4 f5 f6 f7 f8 f9) := by
  unfold k2Run.sl.r_396 K2Val.pv393
  rw [e_r_393, e_r_394, e_r_395]
  all_goals rfl
theorem e_r_397 : k2Run.sl.r_397 c M0 M1 M2 M3 M4 M5 f0 f1 f2 f3 f4 f5 = K2Val.pv394 (fam c M0 M1 M2 M3 M4 M5 M6 M7 M8 M9 f0 f1 f2 f3 f4 f5 f6 f7 f8 f9) := by
  unfold k2Run.sl.r_397 K2Val.pv394
  rw [e_r_393]
  all_goals rfl
theorem e_r_398 : k2Run.sl.r_398 c M0 M1 M2 M3 M4 M5 f0 f1 f2 f3 f4 f5 = K2Val.pv395 (fam c M0 M1 M2 M3 M4 M5 M6 M7 M8 M9 f0 f1 f2 f3 f4 f5 f6 f7 f8 f9) := by
  unfold k2Run.sl.r_398 K2Val.pv395
  rw [e_r_396, e_r_397]
  all_goals rfl
theorem e_r_399 : k2Run.sl.r_399 c M0 M1 M2 M3 M4 M5 f0 f1 f2 f3 f4 f5 = K2Val.pv396 (fam c M0 M1 M2 M3 M4 M5 M6 M7 M8 M9 f0 f1 f2 f3 f4 f5 f6 f7 f8 f9) := by
  unfold k2Run.sl.r_399 K2Val.pv396
  rw [e_r_370]
  all_goals rfl
theorem e_r_400 : k2Run.sl.r_400 c M0 M1 M2 M3 M4 M5 f0 f1 f2 f3 f4 f5 = K2Val.pv397 (fam c M0 M1 M2 M3 M4 M5 M6 M7 M8 M9 f0 f1 f2 f3 f4 f5 f6 f7 f8 f9) := by
  unfold k2Run.sl.r_400 K2Val.pv397
  rw [e_r_370]
  all_goals rfl
theorem e_r_401 : k2Run.sl.r_401 c M0 M1 M2 M3 M4 M5 f0 f1 f2 f3 f4 f5 = K2Val.pv398 (fam c M0 M1 M2 M3 M4 M5 M6 M7 M8 M9 f0 f1 f2 f3 f4 f5 f6 f7 f8 f9) := by
  unfold k2Run.sl.r_401 K2Val.pv398
  rw [e_r_370]
  all_goals rfl
theorem e_r_402 : k2Run.sl.r_402 c M0 M1 M2 M3 M4 M5 f0 f1 f2 f3 f4 f5 = K2Val.pv399 (fam c M0 M1 M2 M3 M4 M5 M6 M7 M8 M9 f0 f1 f2 f3 f4 f5 f6 f7 f8 f9) := by
  unfold k2Run.sl.r_402 K2Val.pv399
  rw [e_r_399, e_r_400, e_r_401]
  all_goals rfl
theorem e_r_403 : k2Run.sl.r_403 c M0 M1 M2 M3 M4 M5 f0 f1 f2 f3 f4 f5 = K2Val.pv400 (fam c M0 M1 M2 M3 M4 M5 M6 M7 M8 M9 f0 f1 f2 f3 f4 f5 f6 f7 f8 f9) := by
  unfold k2Run.sl.r_403 K2Val.pv400
  rw [e_r_370]
  all_goals rfl
theorem e_r_404 : k2Run.sl.r_404 c M0 M1 M2 M3 M4 M5 f0 f1 f2 f3 f4 f5 = K2Val.pv401 (fam c M0 M1 M2 M3 M4 M5 M6 M7 M8 M9 f0 f1 f2 f3 f4 f5 f6 f7 f8 f9) := by
  unfold k2Run.sl.r_404 K2Val.pv401
  rw [e_r_370]
  all_goals rfl
theorem e_r_405 : k2Run.sl.r_405 c M1 f1 = K2Val.pv402 (fam c M0 M1 M2 M3 M4 M5 M6 M7 M8 M9 f0 f1 f2 f3 f4 f5 f6 f7 f8 f9) := by
  unfold k2Run.sl.r_405 K2Val.pv402
  all_goals rfl
theorem e_r_406 : k2Run.sl.r_406 c M0 M1 M2 M3 M4 M5 f0 f1 f2 f3 f4 f5 = K2Val.pv403 (fam c M0 M1 M2 M3 M4 M5 M6 M7 M8 M9 f0 f1 f2 f3 f4 f5 f6 f7 f8 f9) := by
  unfold k2Run.sl.r_406 K2Val.pv403
  rw [e_r_403, e_r_404, e_r_405]
  all_goals rfl
theorem e_r_407 : k2Run.sl.r_407 c M0 M1 M2 M3 M4 M5 f0 f1 f2 f3 f4 f5 = K2Val.pv404 (fam c M0 M1 M2 M3 M4 M5 M6 M7 M8 M9 f0 f1 f2 f3 f4 f5 f6 f7 f8 f9) := by
  unfold k2Run.sl.r_407 K2Val.pv404
  rw [e_r_370]
  all_goals rfl
theorem e_r_408 : k2Run.sl.r_408 c M0 M1 M2 M3 M4 M5 f0 f1 f2 f3 f4 f5 = K2Val.pv405 (fam c M0 M1 M2 M3 M4 M5 M6 M7 M8 M9 f0 f1 f2 f3 f4 f5 f6 f7 f8 f9) := by
  unfold k2Run.sl.r_408 K2Val.pv405
  rw [e_r_407]
  all_goals rfl
theorem e_r_409 : k2Run.sl.r_409 c M0 M1 M2 M3 M4 M5 f0 f1 f2 f3 f4 f5 = K2Val.pv406 (fam c M0 M1 M2 M3 M4 M5 M6 M7 M8 M9 f0 f1 f2 f3 f4 f5 f6 f7 f8 f9) := by
  unfold k2Run.sl.r_409 K2Val.pv406
  rw [e_r_407]
  all_goals rfl
theorem e_r_410 : k2Run.sl.r_410 c M0 M1 M2 M3 M4 M5 f0 f1 f2 f3 f4 f5 = K2Val.pv407 (fam c M0 M1 M2 M3 M4 M5 M6 M7 M8 M9 f0 f1 f2 f3 f4 f5 f6 f7 f8 f9) := by
  unfold k2Run.sl.r_410 K2Val.pv407
  rw [e_r_407, e_r_408, e_r_409]
  all_goals rfl
theorem e_r_411 : k2Run.sl.r_411 c M0 M1 M2 M3 M4 M5 f0 f1 f2 f3 f4 f5 = K2Val.pv408 (fam c M0 M1 M2 M3 M4 M5 M6 M7 M8 M9 f0 f1 f2 f3 f4 f5 f6 f7 f8 f9) := by
  unfold k2Run.sl.r_411 K2Val.pv408
  rw [e_r_370]
  all_goals rfl
theorem e_r_412 : k2Run.sl.r_412 c M0 M1 M2 M3 M4 M5 f0 f1 f2 f3 f4 f5 = K2Val.pv409 (fam c M0 M1 M2 M3 M4 M5 M6 M7 M8 M9 f0 f1 f2 f3 f4 f5 f6 f7 f8 f9) := by
  unfold k2Run.sl.r_412 K2Val.pv409
  rw [e_r_370]
  all_goals rfl
theorem e_r_413 : k2Run.sl.r_413 c M0 M1 M2 M3 M4 M5 f0 f1 f2 f3 f4 f5 = K2Val.pv410 (fam c M0 M1 M2 M3 M4 M5 M6 M7 M8 M9 f0 f1 f2 f3 f4 f5 f6 f7 f8 f9) := by
  unfold k2Run.sl.r_413 K2Val.pv410
  rw [e_r_370]
  all_goals rfl
theorem e_r_414 : k2Run.sl.r_414 c M3 f3 = K2Val.pv411 (fam c M0 M1 M2 M3 M4 M5 M6 M7 M8 M9 f0 f1 f2 f3 f4 f5 f6 f7 f8 f9) := by
  unfold k2Run.sl.r_414 K2Val.pv411
  all_goals rfl
theorem e_r_415 : k2Run.sl.r_415 c M0 M1 M2 M3 M4 M5 f0 f1 f2 f3 f4 f5 = K2Val.pv412 (fam c M0 M1 M2 M3 M4 M5 M6 M7 M8 M9 f0 f1 f2 f3 f4 f5 f6 f7 f8 f9) := by
  unfold k2Run.sl.r_415 K2Val.pv412
  rw [e_r_411, e_r_412, e_r_413, e_r_414]
  all_goals rfl
theorem e_r_416 : k2Run.sl.r_416 c M0 M1 M2 M3 M4 M5 f0 f1 f2 f3 f4 f5 = K2Val.pv413 (fam c M0 M1 M2 M3 M4 M5 M6 M7 M8 M9 f0 f1 f2 f3 f4 f5 f6 f7 f8 f9) := by
  unfold k2Run.sl.r_416 K2Val.pv413
  rw [e_r_370]
  all_goals rfl
theorem e_r_417 : k2Run.sl.r_417 c M0 M1 M2 M3 M4 M5 f0 f1 f2 f3 f4 f5 = K2Val.pv414 (fam c M0 M1 M2 M3 M4 M5 M6 M7 M8 M9 f0 f1 f2 f3 f4 f5 f6 f7 f8 f9) := by
  unfold k2Run.sl.r_417 K2Val.pv414
  rw [e_r_370]
  all_goals rfl
theorem e_r_418 : k2Run.sl.r_418 c M0 M1 M2 M3 M4 M5 f0 f1 f2 f3 f4 f5 = K2Val.pv415 (fam c M0 M1 M2 M3 M4 M5 M6 M7 M8 M9 f0 f1 f2 f3 f4 f5 f6 f7 f8 f9) := by
  unfold k2Run.sl.r_418 K2Val.pv415
  rw [e_r_416, e_r_417]
  all_goals rfl
theorem e_r_419 : k2Run.sl.r_419 c M1 f1 = K2Val.pv416 (fam c M0 M1 M2 M3 M4 M5 M6 M7 M8 M9 f0 f1 f2 f3 f4 f5 f6 f7 f8 f9) := by
  unfold k2Run.sl.r_419 K2Val.pv416
  all_goals rfl
theorem e_r_420 : k2Run.sl.r_420 c M0 M1 M2 M3 M4 M5 f0 f1 f2 f3 f4 f5 = K2Val.pv417 (fam c M0 M1 M2 M3 M4 M5 M6 M7 M8 M9 f0 f1 f2 f3 f4 f5 f6 f7 f8 f9) := by
  unfold k2Run.sl.r_420 K2Val.pv417
  rw [e_r_416]
  all_goals rfl
theorem e_r_421 : k2Run.sl.r_421 c M0 M1 M2 M3 M4 M5 f0 f1 f2 f3 f4 f5 = K2Val.pv418 (fam c M0 M1 M2 M3 M4 M5 M6 M7 M8 M9 f0 f1 f2 f3 f4 f5 f6 f7 f8 f9) := by
  unfold k2Run.sl.r_421 K2Val.pv418
  rw [e_r_418, e_r_419, e_r_420]
  all_goals rfl
theorem e_r_422 : k2Run.sl.r_422 c M0 M1 M2 M3 M4 M5 f0 f1 f2 f3 f4 f5 = K2Val.pv419 (fam c M0 M1 M2 M3 M4 M5 M6 M7 M8 M9 f0 f1 f2 f3 f4 f5 f6 f7 f8 f9) := by
  unfold k2Run.sl.r_422 K2Val.pv419
  rw [e_r_370]
  all_goals rfl
theorem e_r_423 : k2Run.sl.r_423 c M0 M1 M2 M3 M4 M5 f0 f1 f2 f3 f4 f5 = K2Val.pv420 (fam c M0 M1 M2 M3 M4 M5 M6 M7 M8 M9 f0 f1 f2 f3 f4 f5 f6 f7 f8 f9) := by
  unfold k2Run.sl.r_423 K2Val.pv420
  rw [e_r_370]
  all_goals rfl
theorem e_r_425 : k2Run.sl.r_425 c M0 M1 M2 M3 M4 M5 f0 f1 f2 f3 f4 f5 = K2Val.pv421 (fam c M0 M1 M2 M3 M4 M5 M6 M7 M8 M9 f0 f1 f2 f3 f4 f5 f6 f7 f8 f9) := by
  unfold k2Run.sl.r_425 K2Val.pv421
  rw [e_r_422, e_r_423]
  all_goals rfl
theorem e_r_426 : k2Run.sl.r_426 c M0 M1 M2 M3 M4 M5 f0 f1 f2 f3 f4 f5 = K2Val.pv422 (fam c M0 M1 M2 M3 M4 M5 M6 M7 M8 M9 f0 f1 f2 f3 f4 f5 f6 f7 f8 f9) := by
  unfold k2Run.sl.r_426 K2Val.pv422
  rw [e_r_370]
  all_goals rfl
theorem e_r_427 : k2Run.sl.r_427 c M0 M1 M2 M3 M4 M5 f0 f1 f2 f3 f4 f5 = K2Val.pv423 (fam c M0 M1 M2 M3 M4 M5 M6 M7 M8 M9 f0 f1 f2 f3 f4 f5 f6 f7 f8 f9) := by
  unfold k2Run.sl.r_427 K2Val.pv423
  rw [e_r_370]
  all_goals rfl
theorem e_r_428 : k2Run.sl.r_428 c M0 M1 M2 M3 M4 M5 f0 f1 f2 f3 f4 f5 = K2Val.pv424 (fam c M0 M1 M2 M3 M4 M5 M6 M7 M8 M9 f0 f1 f2 f3 f4 f5 f6 f7 f8 f9) := by
  unfold k2Run.sl.r_428 K2Val.pv424
  rw [e_r_426, e_r_427]
  all_goals rfl
theorem e_r_429 : k2Run.sl.r_429 c M0 M1 M2 M3 M4 M5 f0 f1 f2 f3 f4 f5 = K2Val.pv425 (fam c M0 M1 M2 M3 M4 M5 M6 M7 M8 M9 f0 f1 f2 f3 f4 f5 f6 f7 f8 f9) := by
  unfold k2Run.sl.r_429 K2Val.pv425
  rw [e_r_426]
  all_goals rfl
theorem e_r_430 : k2Run.sl.r_430 c M3 f3 = K2Val.pv426 (fam c M0 M1 M2 M3 M4 M5 M6 M7 M8 M9 f0 f1 f2 f3 f4 f5 f6 f7 f8 f9) := by
  unfold k2Run.sl.r_430 K2Val.pv426
  all_goals rfl
theorem e_r_431 : k2Run.sl.r_431 c M0 M1 M2 M3 M4 M5 f0 f1 f2 f3 f4 f5 = K2Val.pv427 (fam c M0 M1 M2 M3 M4 M5 M6 M7 M8 M9 f0 f1 f2 f3 f4 f5 f6 f7 f8 f9) := by
  unfold k2Run.sl.r_431 K2Val.pv427
  rw [e_r_428, e_r_429, e_r_430]
  all_goals rfl
theorem e_r_432 : k2Run.sl.r_432 c M0 M1 M2 M3 M4 M5 f0 f1 f2 f3 f4 f5 = K2Val.pv428 (fam c M0 M1 M2 M3 M4 M5 M6 M7 M8 M9 f0 f1 f2 f3 f4 f5 f6 f7 f8 f9) := by
  unfold k2Run.sl.r_432 K2Val.pv428
  rw [e_r_370]
  all_goals rfl
theorem e_r_433 : k2Run.sl.r_433 c M0 M1 M2 M3 M4 M5 f0 f1 f2 f3 f4 f5 = K2Val.pv429 (fam c M0 M1 M2 M3 M4 M5 M6 M7 M8 M9 f0 f1 f2 f3 f4 f5 f6 f7 f8 f9) := by
  unfold k2Run.sl.r_433 K2Val.pv429
  rw [e_r_370]
  all_goals rfl
theorem e_r_434 : k2Run.sl.r_434 c M0 M1 M2 M3 M4 M5 f0 f1 f2 f3 f4 f5 = K2Val.pv430 (fam c M0 M1 M2 M3 M4 M5 M6 M7 M8 M9 f0 f1 f2 f3 f4 f5 f6 f7 f8 f9) := by
  unfold k2Run.sl.r_434 K2Val.pv430
  rw [e_r_370]
  all_goals rfl
theorem e_r_435 : k2Run.sl.r_435 c M0 M1 M2 M3 M4 M5 f0 f1 f2 f3 f4 f5 = K2Val.pv431 (fam c M0 M1 M2 M3 M4 M5 M6 M7 M8 M9 f0 f1 f2 f3 f4 f5 f6 f7 f8 f9) := by
  unfold k2Run.sl.r_435 K2Val.pv431
  rw [e_r_432, e_r_433, e_r_434]
  all_goals rfl
theorem e_r_436 : k2Run.sl.r_436 c M0 M1 M2 M3 M4 M5 f0 f1 f2 f3 f4 f5 = K2Val.pv432 (fam c M0 M1 M2 M3 M4 M5 M6 M7 M8 M9 f0 f1 f2 f3 f4 f5 f6 f7 f8 f9) := by
  unfold k2Run.sl.r_436 K2Val.pv432
  rw [e_r_370]
  all_goals rfl
theorem e_r_437 : k2Run.sl.r_437 c M0 M1 M2 M3 M4 M5 f0 f1 f2 f3 f4 f5 = K2Val.pv433 (fam c M0 M1 M2 M3 M4 M5 M6 M7 M8 M9 f0 f1 f2 f3 f4 f5 f6 f7 f8 f9) := by
  unfold k2Run.sl.r_437 K2Val.pv433
  rw [e_r_370]
  all_goals rfl
theorem e_r_438 : k2Run.sl.r_438 c M0 M1 M2 M3 M4 M5 f0 f1 f2 f3 f4 f5 = K2Val.pv434 (fam c M0 M1 M2 M3 M4 M5 M6 M7 M8 M9 f0 f1 f2 f3 f4 f5 f6 f7 f8 f9) := by
  unfold k2Run.sl.r_438 K2Val.pv434
  rw [e_r_370]
  all_goals rfl
theorem e_r_439 : k2Run.sl.r_439 c M0 M1 M2 M3 M4 M5 f0 f1 f2 f3 f4 f5 = K2Val.pv435 (fam c M0 M1 M2 M3 M4 M5 M6 M7 M8 M9 f0 f1 f2 f3 f4 f5 f6 f7 f8 f9) := by
  unfold k2Run.sl.r_439 K2Val.pv435
  rw [e_r_436, e_r_437, e_r_438]
  all_goals rfl
theorem e_r_440 : k2Run.sl.r_440 c M0 M1 M2 M3 M4 M5 f0 f1 f2 f3 f4 f5 = K2Val.pv436 (fam c M0 M1 M2 M3 M4 M5 M6 M7 M8 M9 f0 f1 f2 f3 f4 f5 f6 f7 f8 f9) := by
  unfold k2Run.sl.r_440 K2Val.pv436
  rw [e_r_370]
  all_goals rfl
theorem e_r_441 : k2Run.sl.r_441 c M1 f1 = K2Val.pv437 (fam c M0 M1 M2 M3 M4 M5 M6 M7 M8 M9 f0 f1 f2 f3 f4 f5 f6 f7 f8 f9) := by
  unfold k2Run.sl.r_441 K2Val.pv437
  all_goals rfl
theorem e_r_442 : k2Run.sl.r_442 c M0 M1 M2 M3 M4 M5 f0 f1 f2 f3 f4 f5 = K2Val.pv438 (fam c M0 M1 M2 M3 M4 M5 M6 M7 M8 M9 f0 f1 f2 f3 f4 f5 f6 f7 f8 f9) := by
  unfold k2Run.sl.r_442 K2Val.pv438
  rw [e_r_440, e_r_441]
  all_goals rfl
theorem e_r_443 : k2Run.sl.r_443 c M0 M1 M2 M3 M4 M5 f0 f1 f2 f3 f4 f5 = K2Val.pv439 (fam c M0 M1 M2 M3 M4 M5 M6 M7 M8 M9 f0 f1 f2 f3 f4 f5 f6 f7 f8 f9) := by
  unfold k2Run.sl.r_443 K2Val.pv439
  rw [e_r_376, e_r_381, e_r_385, e_r_389, e_r_392, e_r_398, e_r_402, e_r_406, e_r_410, e_r_415, e_r_421, e_r_425, e_r_431, e_r_435, e_r_439, e_r_440, e_r_442]
  all_goals rfl
theorem e_r_444 : k2Run.sl.r_444 c M0 M1 M2 M3 M4 M5 f0 f1 f2 f3 f4 f5 = K2Val.pv440 (fam c M0 M1 M2 M3 M4 M5 M6 M7 M8 M9 f0 f1 f2 f3 f4 f5 f6 f7 f8 f9) := by
  unfold k2Run.sl.r_444 K2Val.pv440
  rw [e_r_376, e_r_381, e_r_385, e_r_389, e_r_392, e_r_398, e_r_402, e_r_406, e_r_410, e_r_415, e_r_421, e_r_425, e_r_431, e_r_435, e_r_439, e_r_440, e_r_442]
  all_goals rfl
theorem e_r_446 : k2Run.sl.r_446 c M0 M1 M2 M3 M4 M5 f0 f1 f2 f3 f4 f5 = K2Val.pv442 (fam c M0 M1 M2 M3 M4 M5 M6 M7 M8 M9 f0 f1 f2 f3 f4 f5 f6 f7 f8 f9) := by
  unfold k2Run.sl.r_446 K2Val.pv442
  rw [e_r_443, e_r_444]
  all_goals rfl
theorem e_r_447 : k2Run.sl.r_447 c M0 M1 M2 M3 M4 M5 f0 f1 f2 f3 f4 f5 = K2Val.pv443 (fam c M0 M1 M2 M3 M4 M5 M6 M7 M8 M9 f0 f1 f2 f3 f4 f5 f6 f7 f8 f9) := by
  unfold k2Run.sl.r_447 K2Val.pv443
  rw [e_r_443, e_r_444]
  all_goals rfl
theorem e_r_448 : k2Run.sl.r_448 c M0 M1 M2 M3 M4 M5 f0 f1 f2 f3 f4 f5 = K2Val.pv444 (fam c M0 M1 M2 M3 M4 M5 M6 M7 M8 M9 f0 f1 f2 f3 f4 f5 f6 f7 f8 f9) := by
  unfold k2Run.sl.r_448 K2Val.pv444
  rw [e_r_443, e_r_444]
  all_goals rfl
theorem e_r_449 : k2Run.sl.r_449 c M3 f3 = K2Val.pv445 (fam c M0 M1 M2 M3 M4 M5 M6 M7 M8 M9 f0 f1 f2 f3 f4 f5 f6 f7 f8 f9) := by
  unfold k2Run.sl.r_449 K2Val.pv445
  all_goals rfl
theorem e_r_450 : k2Run.sl.r_450 c M0 M1 M2 M3 M4 M5 f0 f1 f2 f3 f4 f5 = K2Val.pv446 (fam c M0 M1 M2 M3 M4 M5 M6 M7 M8 M9 f0 f1 f2 f3 f4 f5 f6 f7 f8 f9) := by
  unfold k2Run.sl.r_450 K2Val.pv446
  rw [e_r_446, e_r_447, e_r_448, e_r_449]
  all_goals rfl
theorem e_r_445 : k2Run.sl.r_445 c M0 M1 M2 M3 M4 M5 f0 f1 f2 f3 f4 f5 = K2Val.pv441 (fam c M0 M1 M2 M3 M4 M5 M6 M7 M8 M9 f0 f1 f2 f3 f4 f5 f6 f7 f8 f9) := by
  unfold k2Run.sl.r_445 K2Val.pv441
  rw [e_r_443, e_r_444]
  all_goals rfl
theorem e_r_451 : k2Run.sl.r_451 c M0 M1 M2 M3 M4 M5 f0 f1 f2 f3 f4 f5 = K2Val.pv447 (fam c M0 M1 M2 M3 M4 M5 M6 M7 M8 M9 f0 f1 f2 f3 f4 f5 f6 f7 f8 f9) := by
  unfold k2Run.sl.r_451 K2Val.pv447
  rw [e_r_445]
  all_goals rfl
theorem e_r_452 : k2Run.sl.r_452 c M0 M1 M2 M3 M4 M5 f0 f1 f2 f3 f4 f5 = K2Val.pv448 (fam c M0 M1 M2 M3 M4 M5 M6 M7 M8 M9 f0 f1 f2 f3 f4 f5 f6 f7 f8 f9) := by
  unfold k2Run.sl.r_452 K2Val.pv448
  rw [e_r_445]
  all_goals rfl
theorem e_r_453 : k2Run.sl.r_453 c M0 M1 M2 M3 M4 M5 f0 f1 f2 f3 f4 f5 = K2Val.pv449 (fam c M0 M1 M2 M3 M4 M5 M6 M7 M8 M9 f0 f1 f2 f3 f4 f5 f6 f7 f8 f9) := by
  unfold k2Run.sl.r_453 K2Val.pv449
  rw [e_r_451, e_r_452]
  all_goals rfl
theorem e_r_454 : k2Run.sl.r_454 c M0 M1 M2 M3 M4 M5 f0 f1 f2 f3 f4 f5 = K2Val.pv450 (fam c M0 M1 M2 M3 M4 M5 M6 M7 M8 M9 f0 f1 f2 f3 f4 f5 f6 f7 f8 f9) := by
  unfold k2Run.sl.r_454 K2Val.pv450
  rw [e_r_451]
  all_goals rfl
theorem e_r_455 : k2Run.sl.r_455 c M0 M1 M2 M3 M4 M5 f0 f1 f2 f3 f4 f5 = K2Val.pv451 (fam c M0 M1 M2 M3 M4 M5 M6 M7 M8 M9 f0 f1 f2 f3 f4 f5 f6 f7 f8 f9) := by
  unfold k2Run.sl.r_455 K2Val.pv451
  rw [e_r_453, e_r_454]
  all_goals rfl
theorem e_r_456 : k2Run.sl.r_456 c M0 M1 M2 M3 M4 M5 f0 f1 f2 f3 f4 f5 = K2Val.pv452 (fam c M0 M1 M2 M3 M4 M5 M6 M7 M8 M9 f0 f1 f2 f3 f4 f5 f6 f7 f8 f9) := by
  unfold k2Run.sl.r_456 K2Val.pv452
  rw [e_r_445]
  all_goals rfl
theorem e_r_457 : k2Run.sl.r_457 c M0 M1 M2 M3 M4 M5 f0 f1 f2 f3 f4 f5 = K2Val.pv453 (fam c M0 M1 M2 M3 M4 M5 M6 M7 M8 M9 f0 f1 f2 f3 f4 f5 f6 f7 f8 f9) := by
  unfold k2Run.sl.r_457 K2Val.pv453
  rw [e_r_445]
  all_goals rfl
theorem e_r_458 : k2Run.sl.r_458 c M1 f1 = K2Val.pv454 (fam c M0 M1 M2 M3 M4 M5 M6 M7 M8 M9 f0 f1 f2 f3 f4 f5 f6 f7 f8 f9) := by
  unfold k2Run.sl.r_458 K2Val.pv454
  all_goals rfl
theorem e_r_459 : k2Run.sl.r_459 c M0 M1 M2 M3 M4 M5 f0 f1 f2 f3 f4 f5 = K2Val.pv455 (fam c M0 M1 M2 M3 M4 M5 M6 M7 M8 M9 f0 f1 f2 f3 f4 f5 f6 f7 f8 f9) := by
  unfold k2Run.sl.r_459 K2Val.pv455
  rw [e_r_456, e_r_457, e_r_458]
  all_goals rfl
theorem e_r_460 : k2Run.sl.r_460 c M0 M1 M2 M3 M4 M5 f0 f1 f2 f3 f4 f5 = K2Val.pv456 (fam c M0 M1 M2 M3 M4 M5 M6 M7 M8 M9 f0 f1 f2 f3 f4 f5 f6 f7 f8 f9) := by
  unfold k2Run.sl.r_460 K2Val.pv456
  rw [e_r_445]
  all_goals rfl
theorem e_r_461 : k2Run.sl.r_461 c M0 M1 M2 M3 M4 M5 f0 f1 f2 f3 f4 f5 = K2Val.pv457 (fam c M0 M1 M2 M3 M4 M5 M6 M7 M8 M9 f0 f1 f2 f3 f4 f5 f6 f7 f8 f9) := by
  unfold k2Run.sl.r_461 K2Val.pv457
  rw [e_r_445]
  all_goals rfl
theorem e_r_462 : k2Run.sl.r_462 c M0 M1 M2 M3 M4 M5 f0 f1 f2 f3 f4 f5 = K2Val.pv458 (fam c M0 M1 M2 M3 M4 M5 M6 M7 M8 M9 f0 f1 f2 f3 f4 f5 f6 f7 f8 f9) := by
  unfold k2Run.sl.r_462 K2Val.pv458
  rw [e_r_460, e_r_461]
  all_goals rfl
theorem e_r_463 : k2Run.sl.r_463 c M0 M1 M2 M3 M4 M5 f0 f1 f2 f3 f4 f5 = K2Val.pv459 (fam c M0 M1 M2 M3 M4 M5 M6 M7 M8 M9 f0 f1 f2 f3 f4 f5 f6 f7 f8 f9) := by
  unfold k2Run.sl.r_463 K2Val.pv459
  rw [e_r_445]
  all_goals rfl
theorem e_r_464 : k2Run.sl.r_464 c M0 M1 M2 M3 M4 M5 f0 f1 f2 f3 f4 f5 = K2Val.pv460 (fam c M0 M1 M2 M3 M4 M5 M6 M7 M8 M9 f0 f1 f2 f3 f4 f5 f6 f7 f8 f9) := by
  unfold k2Run.sl.r_464 K2Val.pv460
  rw [e_r_445]
  all_goals rfl
theorem e_r_465 : k2Run.sl.r_465 c M3 f3 = K2Val.pv461 (fam c M0 M1 M2 M3 M4 M5 M6 M7 M8 M9 f0 f1 f2 f3 f4 f5 f6 f7 f8 f9) := by
  unfold k2Run.sl.r_465 K2Val.pv461
  all_goals rfl
theorem e_r_466 : k2Run.sl.r_466 c M0 M1 M2 M3 M4 M5 f0 f1 f2 f3 f4 f5 = K2Val.pv462 (fam c M0 M1 M2 M3 M4 M5 M6 M7 M8 M9 f0 f1 f2 f3 f4 f5 f6 f7 f8 f9) := by
  unfold k2Run.sl.r_466 K2Val.pv462
  rw [e_r_445]
  all_goals rfl
theorem e_r_467 : k2Run.sl.r_467 c M0 M1 M2 M3 M4 M5 f0 f1 f2 f3 f4 f5 = K2Val.pv463 (fam c M0 M1 M2 M3 M4 M5 M6 M7 M8 M9 f0 f1 f2 f3 f4 f5 f6 f7 f8 f9) := by
  unfold k2Run.sl.r_467 K2Val.pv463
  rw [e_r_463, e_r_464, e_r_465, e_r_466]
  all_goals rfl
theorem e_r_468 : k2Run.sl.r_468 c M0 M1 M2 M3 M4 M5 f0 f1 f2 f3 f4 f5 = K2Val.pv464 (fam c M0 M1 M2 M3 M4 M5 M6 M7 M8 M9 f0 f1 f2 f3 f4 f5 f6 f7 f8 f9) := by
  unfold k2Run.sl.r_468 K2Val.pv464
  rw [e_r_445]
  all_goals rfl
theorem e_r_469 : k2Run.sl.r_469 c M0 M1 M2 M3 M4 M5 f0 f1 f2 f3 f4 f5 = K2Val.pv465 (fam c M0 M1 M2 M3 M4 M5 M6 M7 M8 M9 f0 f1 f2 f3 f4 f5 f6 f7 f8 f9) := by
  unfold k2Run.sl.r_469 K2Val.pv465
  rw [e_r_445]
  all_goals rfl
theorem e_r_470 : k2Run.sl.r_470 c M0 M1 M2 M3 M4 M5 f0 f1 f2 f3 f4 f5 = K2Val.pv466 (fam c M0 M1 M2 M3 M4 M5 M6 M7 M8 M9 f0 f1 f2 f3 f4 f5 f6 f7 f8 f9) := by
  unfold k2Run.sl.r_470 K2Val.pv466
  rw [e_r_445]
  all_goals rfl
theorem e_r_471 : k2Run.sl.r_471 c M0 M1 M2 M3 M4 M5 f0 f1 f2 f3 f4 f5 = K2Val.pv467 (fam c M0 M1 M2 M3 M4 M5 M6 M7 M8 M9 f0 f1 f2 f3 f4 f5 f6 f7 f8 f9) := by
  unfold k2Run.sl.r_471 K2Val.pv467
  rw [e_r_468, e_r_469, e_r_470]
  all_goals rfl
theorem e_r_472 : k2Run.sl.r_472 c M0 M1 M2 M3 M4 M5 f0 f1 f2 f3 f4 f5 = K2Val.pv468 (fam c M0 M1 M2 M3 M4 M5 M6 M7 M8 M9 f0 f1 f2 f3 f4 f5 f6 f7 f8 f9) := by
  unfold k2Run.sl.r_472 K2Val.pv468
  rw [e_r_445]
  all_goals rfl
theorem e_r_473 : k2Run.sl.r_473 c M1 f1 = K2Val.pv469 (fam c M0 M1 M2 M3 M4 M5 M6 M7 M8 M9 f0 f1 f2 f3 f4 f5 f6 f7 f8 f9) := by
  unfold k2Run.sl.r_473 K2Val.pv469
  all_goals rfl
theorem e_r_474 : k2Run.sl.r_474 c M0 M1 M2 M3 M4 M5 f0 f1 f2 f3 f4 f5 = K2Val.pv470 (fam c M0 M1 M2 M3 M4 M5 M6 M7 M8 M9 f0 f1 f2 f3 f4 f5 f6 f7 f8 f9) := by
  unfold k2Run.sl.r_474 K2Val.pv470
  rw [e_r_445]
  all_goals rfl
theorem e_r_475 : k2Run.sl.r_475 c M0 M1 M2 M3 M4 M5 f0 f1 f2 f3 f4 f5 = K2Val.pv471 (fam c M0 M1 M2 M3 M4 M5 M6 M7 M8 M9 f0 f1 f2 f3 f4 f5 f6 f7 f8 f9) := by
  unfold k2Run.sl.r_475 K2Val.pv471
  rw [e_r_472, e_r_473, e_r_474]
  all_goals rfl
theorem e_r_476 : k2Run.sl.r_476 c M1 f1 = K2Val.pv472 (fam c M0 M1 M2 M3 M4 M5 M6 M7 M8 M9 f0 f1 f2 f3 f4 f5 f6 f7 f8 f9) := by
  unfold k2Run.sl.r_476 K2Val.pv472
  all_goals rfl
theorem e_r_477 : k2Run.sl.r_477 c M0 M1 M2 M3 M4 M5 f0 f1 f2 f3 f4 f5 = K2Val.pv473 (fam c M0 M1 M2 M3 M4 M5 M6 M7 M8 M9 f0 f1 f2 f3 f4 f5 f6 f7 f8 f9) := by
  unfold k2Run.sl.r_477 K2Val.pv473
  rw [e_r_472, e_r_475, e_r_476]
  all_goals rfl
theorem e_r_478 : k2Run.sl.r_478 c M0 M1 M2 M3 M4 M5 f0 f1 f2 f3 f4 f5 = K2Val.pv474 (fam c M0 M1 M2 M3 M4 M5 M6 M7 M8 M9 f0 f1 f2 f3 f4 f5 f6 f7 f8 f9) := by
  unfold k2Run.sl.r_478 K2Val.pv474
  rw [e_r_445]
  all_goals rfl
theorem e_r_479 : k2Run.sl.r_479 c M0 M1 M2 M3 M4 M5 f0 f1 f2 f3 f4 f5 = K2Val.pv475 (fam c M0 M1 M2 M3 M4 M5 M6 M7 M8 M9 f0 f1 f2 f3 f4 f5 f6 f7 f8 f9) := by
  unfold k2Run.sl.r_479 K2Val.pv475
  rw [e_r_445]
  all_goals rfl
theorem e_r_480 : k2Run.sl.r_480 c M0 M1 M2 M3 M4 M5 f0 f1 f2 f3 f4 f5 = K2Val.pv476 (fam c M0 M1 M2 M3 M4 M5 M6 M7 M8 M9 f0 f1 f2 f3 f4 f5 f6 f7 f8 f9) := by
  unfold k2Run.sl.r_480 K2Val.pv476
  rw [e_r_478, e_r_479]
  all_goals rfl
theorem e_r_481 : k2Run.sl.r_481 c M0 M1 M2 M3 M4 M5 f0 f1 f2 f3 f4 f5 = K2Val.pv477 (fam c M0 M1 M2 M3 M4 M5 M6 M7 M8 M9 f0 f1 f2 f3 f4 f5 f6 f7 f8 f9) := by
  unfold k2Run.sl.r_481 K2Val.pv477
  rw [e_r_445]
  all_goals rfl
theorem e_r_482 : k2Run.sl.r_482 c M0 M1 M2 M3 M4 M5 f0 f1 f2 f3 f4 f5 = K2Val.pv478 (fam c M0 M1 M2 M3 M4 M5 M6 M7 M8 M9 f0 f1 f2 f3 f4 f5 f6 f7 f8 f9) := by
  unfold k2Run.sl.r_482 K2Val.pv478
  rw [e_r_445]
  all_goals rfl
theorem e_r_483 : k2Run.sl.r_483 c M3 f3 = K2Val.pv479 (fam c M0 M1 M2 M3 M4 M5 M6 M7 M8 M9 f0 f1 f2 f3 f4 f5 f6 f7 f8 f9) := by
  unfold k2Run.sl.r_483 K2Val.pv479
  all_goals rfl
theorem e_r_484 : k2Run.sl.r_484 c M0 M1 M2 M3 M4 M5 f0 f1 f2 f3 f4 f5 = K2Val.pv480 (fam c M0 M1 M2 M3 M4 M5 M6 M7 M8 M9 f0 f1 f2 f3 f4 f5 f6 f7 f8 f9) := by
  unfold k2Run.sl.r_484 K2Val.pv480
  rw [e_r_481, e_r_482, e_r_483]
  all_goals rfl
theorem e_r_485 : k2Run.sl.r_485 c M0 M1 M2 M3 M4 M5 f0 f1 f2 f3 f4 f5 = K2Val.pv481 (fam c M0 M1 M2 M3 M4 M5 M6 M7 M8 M9 f0 f1 f2 f3 f4 f5 f6 f7 f8 f9) := by
  unfold k2Run.sl.r_485 K2Val.pv481
  rw [e_r_481]
  all_goals rfl
theorem e_r_486 : k2Run.sl.r_486 c M3 f3 = K2Val.pv482 (fam c M0 M1 M2 M3 M4 M5 M6 M7 M8 M9 f0 f1 f2 f3 f4 f5 f6 f7 f8 f9) := by
  unfold k2Run.sl.r_486 K2Val.pv482
  all_goals rfl
theorem e_r_487 : k2Run.sl.r_487 c M0 M1 M2 M3 M4 M5 f0 f1 f2 f3 f4 f5 = K2Val.pv483 (fam c M0 M1 M2 M3 M4 M5 M6 M7 M8 M9 f0 f1 f2 f3 f4 f5 f6 f7 f8 f9) := by
  unfold k2Run.sl.r_487 K2Val.pv483
  rw [e_r_484, e_r_485, e_r_486]
  all_goals rfl
theorem e_r_488 : k2Run.sl.r_488 c M0 M1 M2 M3 M4 M5 f0 f1 f2 f3 f4 f5 = K2Val.pv484 (fam c M0 M1 M2 M3 M4 M5 M6 M7 M8 M9 f0 f1 f2 f3 f4 f5 f6 f7 f8 f9) := by
  unfold k2Run.sl.r_488 K2Val.pv484
  rw [e_r_445]
  all_goals rfl
theorem e_r_489 : k2Run.sl.r_489 c M0 M1 M2 M3 M4 M5 f0 f1 f2 f3 f4 f5 = K2Val.pv485 (fam c M0 M1 M2 M3 M4 M5 M6 M7 M8 M9 f0 f1 f2 f3 f4 f5 f6 f7 f8 f9) := by
  unfold k2Run.sl.r_489 K2Val.pv485
  rw [e_r_445]
  all_goals rfl
theorem e_r_490 : k2Run.sl.r_490 c M0 M1 M2 M3 M4 M5 f0 f1 f2 f3 f4 f5 = K2Val.pv486 (fam c M0 M1 M2 M3 M4 M5 M6 M7 M8 M9 f0 f1 f2 f3 f4 f5 f6 f7 f8 f9) := by
  unfold k2Run.sl.r_490 K2Val.pv486
  rw [e_r_445]
  all_goals rfl
theorem e_r_491 : k2Run.sl.r_491 c M0 M1 M2 M3 M4 M5 f0 f1 f2 f3 f4 f5 = K2Val.pv487 (fam c M0 M1 M2 M3 M4 M5 M6 M7 M8 M9 f0 f1 f2 f3 f4 f5 f6 f7 f8 f9) := by
  unfold k2Run.sl.r_491 K2Val.pv487
  rw [e_r_488, e_r_489, e_r_490]
  all_goals rfl
theorem e_r_492 : k2Run.sl.r_492 c M0 M1 M2 M3 M4 M5 f0 f1 f2 f3 f4 f5 = K2Val.pv488 (fam c M0 M1 M2 M3 M4 M5 M6 M7 M8 M9 f0 f1 f2 f3 f4 f5 f6 f7 f8 f9) := by
  unfold k2Run.sl.r_492 K2Val.pv488
  rw [e_r_445]
  all_goals rfl
theorem e_r_493 : k2Run.sl.r_493 c M0 M1 M2 M3 M4 M5 f0 f1 f2 f3 f4 f5 = K2Val.pv489 (fam c M0 M1 M2 M3 M4 M5 M6 M7 M8 M9 f0 f1 f2 f3 f4 f5 f6 f7 f8 f9) := by
  unfold k2Run.sl.r_493 K2Val.pv489
  rw [e_r_445]
  all_goals rfl
theorem e_r_494 : k2Run.sl.r_494 c M1 f1 = K2Val.pv490 (fam c M0 M1 M2 M3 M4 M5 M6 M7 M8 M9 f0 f1 f2 f3 f4 f5 f6 f7 f8 f9) := by
  unfold k2Run.sl.r_494 K2Val.pv490
  all_goals rfl
theorem e_r_495 : k2Run.sl.r_495 c M0 M1 M2 M3 M4 M5 f0 f1 f2 f3 f4 f5 = K2Val.pv491 (fam c M0 M1 M2 M3 M4 M5 M6 M7 M8 M9 f0 f1 f2 f3 f4 f5 f6 f7 f8 f9) := by
  unfold k2Run.sl.r_495 K2Val.pv491
  rw [e_r_445]
  all_goals rfl
theorem e_r_496 : k2Run.sl.r_496 c M0 M1 M2 M3 M4 M5 f0 f1 f2 f3 f4 f5 = K2Val.pv492 (fam c M0 M1 M2 M3 M4 M5 M6 M7 M8 M9 f0 f1 f2 f3 f4 f5 f6 f7 f8 f9) := by
  unfold k2Run.sl.r_496 K2Val.pv492
  rw [e_r_492, e_r_493, e_r_494, e_r_495]
  all_goals rfl
theorem e_r_497 : k2Run.sl.r_497 c M0 M1 M2 M3 M4 M5 f0 f1 f2 f3 f4 f5 = K2Val.pv493 (fam c M0 M1 M2 M3 M4 M5 M6 M7 M8 M9 f0 f1 f2 f3 f4 f5 f6 f7 f8 f9) := by
  unfold k2Run.sl.r_497 K2Val.pv493
  rw [e_r_445]
  all_goals rfl
theorem e_r_498 : k2Run.sl.r_498 c M0 M1 M2 M3 M4 M5 f0 f1 f2 f3 f4 f5 = K2Val.pv494 (fam c M0 M1 M2 M3 M4 M5 M6 M7 M8 M9 f0 f1 f2 f3 f4 f5 f6 f7 f8 f9) := by
  unfold k2Run.sl.r_498 K2Val.pv494
  rw [e_r_497]
  all_goals rfl
theorem e_r_499 : k2Run.sl.r_499 c M0 M1 M2 M3 M4 M5 f0 f1 f2 f3 f4 f5 = K2Val.pv495 (fam c M0 M1 M2 M3 M4 M5 M6 M7 M8 M9 f0 f1 f2 f3 f4 f5 f6 f7 f8 f9) := by
  unfold k2Run.sl.r_499 K2Val.pv495
  rw [e_r_497, e_r_498]
  all_goals rfl
theorem e_r_500 : k2Run.sl.r_500 c M0 M1 M2 M3 M4 M5 f0 f1 f2 f3 f4 f5 = K2Val.pv496 (fam c M0 M1 M2 M3 M4 M5 M6 M7 M8 M9 f0 f1 f2 f3 f4 f5 f6 f7 f8 f9) := by
  unfold k2Run.sl.r_500 K2Val.pv496
  rw [e_r_445]
  all_goals rfl
theorem e_r_501 : k2Run.sl.r_501 c M0 M1 M2 M3 M4 M5 f0 f1 f2 f3 f4 f5 = K2Val.pv497 (fam c M0 M1 M2 M3 M4 M5 M6 M7 M8 M9 f0 f1 f2 f3 f4 f5 f6 f7 f8 f9) := by
  unfold k2Run.sl.r_501 K2Val.pv497
  rw [e_r_445]
  all_goals rfl
theorem e_r_502 : k2Run.sl.r_502 c M0 M1 M2 M3 M4 M5 f0 f1 f2 f3 f4 f5 = K2Val.pv498 (fam c M0 M1 M2 M3 M4 M5 M6 M7 M8 M9 f0 f1 f2 f3 f4 f5 f6 f7 f8 f9) := by
  unfold k2Run.sl.r_502 K2Val.pv498
  rw [e_r_445]
  all_goals rfl
theorem e_r_503 : k2Run.sl.r_503 c M3 f3 = K2Val.pv499 (fam c M0 M1 M2 M3 M4 M5 M6 M7 M8 M9 f0 f1 f2 f3 f4 f5 f6 f7 f8 f9) := by
  unfold k2Run.sl.r_503 K2Val.pv499
  all_goals rfl
theorem e_r_504 : k2Run.sl.r_504 c M0 M1 M2 M3 M4 M5 f0 f1 f2 f3 f4 f5 = K2Val.pv500 (fam c M0 M1 M2 M3 M4 M5 M6 M7 M8 M9 f0 f1 f2 f3 f4 f5 f6 f7 f8 f9) := by
  unfold k2Run.sl.r_504 K2Val.pv500
  rw [e_r_500, e_r_501, e_r_502, e_r_503]
  all_goals rfl
theorem e_r_505 : k2Run.sl.r_505 c M0 M1 M2 M3 M4 M5 f0 f1 f2 f3 f4 f5 = K2Val.pv501 (fam c M0 M1 M2 M3 M4 M5 M6 M7 M8 M9 f0 f1 f2 f3 f4 f5 f6 f7 f8 f9) := by
  unfold k2Run.sl.r_505 K2Val.pv501
  rw [e_r_445]
  all_goals rfl
theorem e_r_506 : k2Run.sl.r_506 c M0 M1 M2 M3 M4 M5 f0 f1 f2 f3 f4 f5 = K2Val.pv502 (fam c M0 M1 M2 M3 M4 M5 M6 M7 M8 M9 f0 f1 f2 f3 f4 f5 f6 f7 f8 f9) := by
  unfold k2Run.sl.r_506 K2Val.pv502
  rw [e_r_445]
  all_goals rfl
theorem e_r_507 : k2Run.sl.r_507 c M0 M1 M2 M3 M4 M5 f0 f1 f2 f3 f4 f5 = K2Val.pv503 (fam c M0 M1 M2 M3 M4 M5 M6 M7 M8 M9 f0 f1 f2 f3 f4 f5 f6 f7 f8 f9) := by
  unfold k2Run.sl.r_507 K2Val.pv503
  rw [e_r_505, e_r_506]
  all_goals rfl
theorem e_r_508 : k2Run.sl.r_508 c M0 M1 M2 M3 M4 M5 f0 f1 f2 f3 f4 f5 = K2Val.pv504 (fam c M0 M1 M2 M3 M4 M5 M6 M7 M8 M9 f0 f1 f2 f3 f4 f5 f6 f7 f8 f9) := by
  unfold k2Run.sl.r_508 K2Val.pv504
  rw [e_r_505]
  all_goals rfl
theorem e_r_509 : k2Run.sl.r_509 c M0 M1 M2 M3 M4 M5 f0 f1 f2 f3 f4 f5 = K2Val.pv505 (fam c M0 M1 M2 M3 M4 M5 M6 M7 M8 M9 f0 f1 f2 f3 f4 f5 f6 f7 f8 f9) := by
  unfold k2Run.sl.r_509 K2Val.pv505
  rw [e_r_507, e_r_508]
  all_goals rfl
theorem e_r_510 : k2Run.sl.r_510 c M0 M1 M2 M3 M4 M5 f0 f1 f2 f3 f4 f5 = K2Val.pv506 (fam c M0 M1 M2 M3 M4 M5 M6 M7 M8 M9 f0 f1 f2 f3 f4 f5 f6 f7 f8 f9) := by
  unfold k2Run.sl.r_510 K2Val.pv506
  rw [e_r_445]
  all_goals rfl
theorem e_r_511 : k2Run.sl.r_511 c M0 M1 M2 M3 M4 M5 f0 f1 f2 f3 f4 f5 = K2Val.pv507 (fam c M0 M1 M2 M3 M4 M5 M6 M7 M8 M9 f0 f1 f2 f3 f4 f5 f6 f7 f8 f9) := by
  unfold k2Run.sl.r_511 K2Val.pv507
  rw [e_r_445]
  all_goals rfl
theorem e_r_512 : k2Run.sl.r_512 c M1 f1 = K2Val.pv508 (fam c M0 M1 M2 M3 M4 M5 M6 M7 M8 M9 f0 f1 f2 f3 f4 f5 f6 f7 f8 f9) := by
  unfold k2Run.sl.r_512 K2Val.pv508
  all_goals rfl
theorem e_r_513 : k2Run.sl.r_513 c M0 M1 M2 M3 M4 M5 f0 f1 f2 f3 f4 f5 = K2Val.pv509 (fam c M0 M1 M2 M3 M4 M5 M6 M7 M8 M9 f0 f1 f2 f3 f4 f5 f6 f7 f8 f9) := by
  unfold k2Run.sl.r_513 K2Val.pv509
  rw [e_r_510, e_r_511, e_r_512]
  all_goals rfl
theorem e_r_514 : k2Run.sl.r_514 c M0 M1 M2 M3 M4 M5 f0 f1 f2 f3 f4 f5 = K2Val.pv510 (fam c M0 M1 M2 M3 M4 M5 M6 M7 M8 M9 f0 f1 f2 f3 f4 f5 f6 f7 f8 f9) := by
  unfold k2Run.sl.r_514 K2Val.pv510
  rw [e_r_445]
  all_goals rfl
theorem e_r_515 : k2Run.sl.r_515 c M0 M1 M2 M3 M4 M5 f0 f1 f2 f3 f4 f5 = K2Val.pv511 (fam c M0 M1 M2 M3 M4 M5 M6 M7 M8 M9 f0 f1 f2 f3 f4 f5 f6 f7 f8 f9) := by
  unfold k2Run.sl.r_515 K2Val.pv511
  rw [e_r_445]
  all_goals rfl
theorem e_r_516 : k2Run.sl.r_516 c M0 M1 M2 M3 M4 M5 f0 f1 f2 f3 f4 f5 = K2Val.pv512 (fam c M0 M1 M2 M3 M4 M5 M6 M7 M8 M9 f0 f1 f2 f3 f4 f5 f6 f7 f8 f9) := by
  unfold k2Run.sl.r_516 K2Val.pv512
  rw [e_r_514, e_r_515]
  all_goals rfl
theorem e_r_517 : k2Run.sl.r_517 c M0 M1 M2 M3 M4 M5 f0 f1 f2 f3 f4 f5 = K2Val.pv513 (fam c M0 M1 M2 M3 M4 M5 M6 M7 M8 M9 f0 f1 f2 f3 f4 f5 f6 f7 f8 f9) := by
  unfold k2Run.sl.r_517 K2Val.pv513
  rw [e_r_450, e_r_455, e_r_459, e_r_462, e_r_467, e_r_471, e_r_477, e_r_480, e_r_487, e_r_491, e_r_496, e_r_499, e_r_504, e_r_509, e_r_513, e_r_516]
  all_goals rfl
theorem e_r_518 : k2Run.sl.r_518 c M0 M1 M2 M3 M4 M5 f0 f1 f2 f3 f4 f5 = K2Val.pv514 (fam c M0 M1 M2 M3 M4 M5 M6 M7 M8 M9 f0 f1 f2 f3 f4 f5 f6 f7 f8 f9) := by
  unfold k2Run.sl.r_518 K2Val.pv514
  rw [e_r_517]
  all_goals rfl
theorem e_r_547 : k2Run.sl.r_547 c M0 M1 M2 M3 M4 M5 f0 f1 f2 f3 f4 f5 = K2Val.pv541 (fam c M0 M1 M2 M3 M4 M5 M6 M7 M8 M9 f0 f1 f2 f3 f4 f5 f6 f7 f8 f9) := by
  unfold k2Run.sl.r_547 K2Val.pv541
  rw [e_r_518]
  all_goals rfl
theorem e_r_519 : k2Run.sl.r_519 c M0 M1 M2 M3 M4 M5 f0 f1 f2 f3 f4 f5 = K2Val.pv515 (fam c M0 M1 M2 M3 M4 M5 M6 M7 M8 M9 f0 f1 f2 f3 f4 f5 f6 f7 f8 f9) := by
  unfold k2Run.sl.r_519 K2Val.pv515
  rw [e_r_517]
  all_goals rfl
theorem e_r_520 : k2Run.sl.r_520 c M0 M1 M2 M3 M4 M5 f0 f1 f2 f3 f4 f5 = K2Val.pv516 (fam c M0 M1 M2 M3 M4 M5 M6 M7 M8 M9 f0 f1 f2 f3 f4 f5 f6 f7 f8 f9) := by
  unfold k2Run.sl.r_520 K2Val.pv516
  rw [e_r_517]
  all_goals rfl
theorem e_r_521 : k2Run.sl.r_521 c M0 M1 M2 M3 M4 M5 f0 f1 f2 f3 f4 f5 = K2Val.pv517 (fam c M0 M1 M2 M3 M4 M5 M6 M7 M8 M9 f0 f1 f2 f3 f4 f5 f6 f7 f8 f9) := by
  unfold k2Run.sl.r_521 K2Val.pv517
  rw [e_r_517]
  all_goals rfl
theorem e_r_522 : k2Run.sl.r_522 c M0 M1 M2 M3 M4 M5 f0 f1 f2 f3 f4 f5 = K2Val.pv518 (fam c M0 M1 M2 M3 M4 M5 M6 M7 M8 M9 f0 f1 f2 f3 f4 f5 f6 f7 f8 f9) := by
  unfold k2Run.sl.r_522 K2Val.pv518
  rw [e_r_519, e_r_520, e_r_521]
  all_goals rfl
theorem e_r_523 : k2Run.sl.r_523 c M0 M1 M2 M3 M4 M5 f0 f1 f2 f3 f4 f5 = K2Val.pv519 (fam c M0 M1 M2 M3 M4 M5 M6 M7 M8 M9 f0 f1 f2 f3 f4 f5 f6 f7 f8 f9) := by
  unfold k2Run.sl.r_523 K2Val.pv519
  rw [e_r_518]
  all_goals rfl
theorem e_r_524 : k2Run.sl.r_524 c M0 M1 M2 M3 M4 M5 f0 f1 f2 f3 f4 f5 = K2Val.pv520 (fam c M0 M1 M2 M3 M4 M5 M6 M7 M8 M9 f0 f1 f2 f3 f4 f5 f6 f7 f8 f9) := by
  unfold k2Run.sl.r_524 K2Val.pv520
  rw [e_r_518]
  all_goals rfl
theorem e_r_525 : k2Run.sl.r_525 c M0 M1 M2 M3 M4 M5 f0 f1 f2 f3 f4 f5 = K2Val.pv521 (fam c M0 M1 M2 M3 M4 M5 M6 M7 M8 M9 f0 f1 f2 f3 f4 f5 f6 f7 f8 f9) := by
  unfold k2Run.sl.r_525 K2Val.pv521
  rw [e_r_518]
  all_goals rfl
theorem e_r_526 : k2Run.sl.r_526 c M0 M1 M2 M3 M4 M5 f0 f1 f2 f3 f4 f5 = K2Val.pv522 (fam c M0 M1 M2 M3 M4 M5 M6 M7 M8 M9 f0 f1 f2 f3 f4 f5 f6 f7 f8 f9) := by
  unfold k2Run.sl.r_526 K2Val.pv522
  rw [e_r_523, e_r_524, e_r_525]
  all_goals rfl
theorem e_r_527 : k2Run.sl.r_527 c M0 M1 M2 M3 M4 M5 f0 f1 f2 f3 f4 f5 = K2Val.pv523 (fam c M0 M1 M2 M3 M4 M5 M6 M7 M8 M9 f0 f1 f2 f3 f4 f5 f6 f7 f8 f9) := by
  unfold k2Run.sl.r_527 K2Val.pv523
  rw [e_r_518]
  all_goals rfl
theorem e_r_529 : k2Run.sl.r_529 c M0 M1 M2 M3 M4 M5 f0 f1 f2 f3 f4 f5 = K2Val.pv524 (fam c M0 M1 M2 M3 M4 M5 M6 M7 M8 M9 f0 f1 f2 f3 f4 f5 f6 f7 f8 f9) := by
  unfold k2Run.sl.r_529 K2Val.pv524
  rw [e_r_527]
  all_goals rfl
theorem e_r_530 : k2Run.sl.r_530 c M0 M1 M2 M3 M4 M5 f0 f1 f2 f3 f4 f5 = K2Val.pv525 (fam c M0 M1 M2 M3 M4 M5 M6 M7 M8 M9 f0 f1 f2 f3 f4 f5 f6 f7 f8 f9) := by
  unfold k2Run.sl.r_530 K2Val.pv525
  rw [e_r_527, e_r_529]
  all_goals rfl
theorem e_r_531 : k2Run.sl.r_531 c M0 M1 M2 M3 M4 M5 f0 f1 f2 f3 f4 f5 = K2Val.pv526 (fam c M0 M1 M2 M3 M4 M5 M6 M7 M8 M9 f0 f1 f2 f3 f4 f5 f6 f7 f8 f9) := by
  unfold k2Run.sl.r_531 K2Val.pv526
  rw [e_r_518]
  all_goals rfl
theorem e_r_532 : k2Run.sl.r_532 c M0 M1 M2 M3 M4 M5 f0 f1 f2 f3 f4 f5 = K2Val.pv527 (fam c M0 M1 M2 M3 M4 M5 M6 M7 M8 M9 f0 f1 f2 f3 f4 f5 f6 f7 f8 f9) := by
  unfold k2Run.sl.r_532 K2Val.pv527
  rw [e_r_518]
  all_goals rfl
theorem e_r_533 : k2Run.sl.r_533 c M0 M1 M2 M3 M4 M5 f0 f1 f2 f3 f4 f5 = K2Val.pv528 (fam c M0 M1 M2 M3 M4 M5 M6 M7 M8 M9 f0 f1 f2 f3 f4 f5 f6 f7 f8 f9) := by
  unfold k2Run.sl.r_533 K2Val.pv528
  rw [e_r_518]
  all_goals rfl
theorem e_r_534 : k2Run.sl.r_534 c M0 M1 M2 M3 M4 M5 f0 f1 f2 f3 f4 f5 = K2Val.pv529 (fam c M0 M1 M2 M3 M4 M5 M6 M7 M8 M9 f0 f1 f2 f3 f4 f5 f6 f7 f8 f9) := by
  unfold k2Run.sl.r_534 K2Val.pv529
  rw [e_r_531, e_r_532, e_r_533]
  all_goals rfl
theorem e_r_535 : k2Run.sl.r_535 c M0 M1 M2 M3 M4 M5 f0 f1 f2 f3 f4 f5 = K2Val.pv530 (fam c M0 M1 M2 M3 M4 M5 M6 M7 M8 M9 f0 f1 f2 f3 f4 f5 f6 f7 f8 f9) := by
  unfold k2Run.sl.r_535 K2Val.pv530
  rw [e_r_518]
  all_goals rfl
theorem e_r_536 : k2Run.sl.r_536 c M0 M1 M2 M3 M4 M5 f0 f1 f2 f3 f4 f5 = K2Val.pv531 (fam c M0 M1 M2 M3 M4 M5 M6 M7 M8 M9 f0 f1 f2 f3 f4 f5 f6 f7 f8 f9) := by
  unfold k2Run.sl.r_536 K2Val.pv531
  rw [e_r_518]
  all_goals rfl
theorem e_r_538 : k2Run.sl.r_538 c M0 M1 M2 M3 M4 M5 f0 f1 f2 f3 f4 f5 = K2Val.pv532 (fam c M0 M1 M2 M3 M4 M5 M6 M7 M8 M9 f0 f1 f2 f3 f4 f5 f6 f7 f8 f9) := by
  unfold k2Run.sl.r_538 K2Val.pv532
  rw [e_r_535, e_r_536]
  all_goals rfl
theorem e_r_539 : k2Run.sl.r_539 c M0 M1 M2 M3 M4 M5 f0 f1 f2 f3 f4 f5 = K2Val.pv533 (fam c M0 M1 M2 M3 M4 M5 M6 M7 M8 M9 f0 f1 f2 f3 f4 f5 f6 f7 f8 f9) := by
  unfold k2Run.sl.r_539 K2Val.pv533
  rw [e_r_535]
  all_goals rfl
theorem e_r_540 : k2Run.sl.r_540 c M0 M1 M2 M3 M4 M5 f0 f1 f2 f3 f4 f5 = K2Val.pv534 (fam c M0 M1 M2 M3 M4 M5 M6 M7 M8 M9 f0 f1 f2 f3 f4 f5 f6 f7 f8 f9) := by
  unfold k2Run.sl.r_540 K2Val.pv534
  rw [e_r_538, e_r_539]
  all_goals rfl
theorem e_r_541 : k2Run.sl.r_541 c M0 M1 M2 M3 M4 M5 f0 f1 f2 f3 f4 f5 = K2Val.pv535 (fam c M0 M1 M2 M3 M4 M5 M6 M7 M8 M9 f0 f1 f2 f3 f4 f5 f6 f7 f8 f9) := by
  unfold k2Run.sl.r_541 K2Val.pv535
  rw [e_r_518]
  all_goals rfl
theorem e_r_542 : k2Run.sl.r_542 c M0 M1 M2 M3 M4 M5 f0 f1 f2 f3 f4 f5 = K2Val.pv536 (fam c M0 M1 M2 M3 M4 M5 M6 M7 M8 M9 f0 f1 f2 f3 f4 f5 f6 f7 f8 f9) := by
  unfold k2Run.sl.r_542 K2Val.pv536
  rw [e_r_518]
  all_goals rfl
theorem e_r_543 : k2Run.sl.r_543 c M1 f1 = K2Val.pv537 (fam c M0 M1 M2 M3 M4 M5 M6 M7 M8 M9 f0 f1 f2 f3 f4 f5 f6 f7 f8 f9) := by
  unfold k2Run.sl.r_543 K2Val.pv537
  all_goals rfl
theorem e_r_544 : k2Run.sl.r_544 c M0 M1 M2 M3 M4 M5 f0 f1 f2 f3 f4 f5 = K2Val.pv538 (fam c M0 M1 M2 M3 M4 M5 M6 M7 M8 M9 f0 f1 f2 f3 f4 f5 f6 f7 f8 f9) := by
  unfold k2Run.sl.r_544 K2Val.pv538
  rw [e_r_518]
  all_goals rfl
theorem e_r_545 : k2Run.sl.r_545 c M0 M1 M2 M3 M4 M5 f0 f1 f2 f3 f4 f5 = K2Val.pv539 (fam c M0 M1 M2 M3 M4 M5 M6 M7 M8 M9 f0 f1 f2 f3 f4 f5 f6 f7 f8 f9) := by
  unfold k2Run.sl.r_545 K2Val.pv539
  rw [e_r_541, e_r_542, e_r_543, e_r_544]
  all_goals rfl
theorem e_r_546 : k2Run.sl.r_546 c M0 M1 M2 M3 M4 M5 f0 f1 f2 f3 f4 f5 = K2Val.pv540 (fam c M0 M1 M2 M3 M4 M5 M6 M7 M8 M9 f0 f1 f2 f3 f4 f5 f6 f7 f8 f9) := by
  unfold k2Run.sl.r_546 K2Val.pv540
  rw [e_r_518]
  all_goals rfl
theorem e_r_549 : k2Run.sl.r_549 c M0 M1 M2 M3 M4 M5 f0 f1 f2 f3 f4 f5 = K2Val.pv542 (fam c M0 M1 M2 M3 M4 M5 M6 M7 M8 M9 f0 f1 f2 f3 f4 f5 f6 f7 f8 f9) := by
  unfold k2Run.sl.r_549 K2Val.pv542
  rw [e_r_546, e_r_547]
  all_goals rfl
theorem e_r_550 : k2Run.sl.r_550 c M0 M1 M2 M3 M4 M5 f0 f1 f2 f3 f4 f5 = K2Val.pv543 (fam c M0 M1 M2 M3 M4 M5 M6 M7 M8 M9 f0 f1 f2 f3 f4 f5 f6 f7 f8 f9) := by
  unfold k2Run.sl.r_550 K2Val.pv543
  rw [e_r_518]
  all_goals rfl
theorem e_r_551 : k2Run.sl.r_551 c M0 M1 M2 M3 M4 M5 f0 f1 f2 f3 f4 f5 = K2Val.pv544 (fam c M0 M1 M2 M3 M4 M5 M6 M7 M8 M9 f0 f1 f2 f3 f4 f5 f6 f7 f8 f9) := by
  unfold k2Run.sl.r_551 K2Val.pv544
  rw [e_r_550]
  all_goals rfl
theorem e_r_552 : k2Run.sl.r_552 c M0 M1 M2 M3 M4 M5 f0 f1 f2 f3 f4 f5 = K2Val.pv545 (fam c M0 M1 M2 M3 M4 M5 M6 M7 M8 M9 f0 f1 f2 f3 f4 f5 f6 f7 f8 f9) := by
  unfold k2Run.sl.r_552 K2Val.pv545
  rw [e_r_550]
  all_goals rfl
theorem e_r_553 : k2Run.sl.r_553 c M3 f3 = K2Val.pv546 (fam c M0 M1 M2 M3 M4 M5 M6 M7 M8 M9 f0 f1 f2 f3 f4 f5 f6 f7 f8 f9) := by
  unfold k2Run.sl.r_553 K2Val.pv546
  all_goals rfl
theorem e_r_554 : k2Run.sl.r_554 c M0 M1 M2 M3 M4 M5 f0 f1 f2 f3 f4 f5 = K2Val.pv547 (fam c M0 M1 M2 M3 M4 M5 M6 M7 M8 M9 f0 f1 f2 f3 f4 f5 f6 f7 f8 f9) := by
  unfold k2Run.sl.r_554 K2Val.pv547
  rw [e_r_550, e_r_551, e_r_552, e_r_553]
  all_goals rfl
theorem e_r_555 : k2Run.sl.r_555 c M0 M1 M2 M3 M4 M5 f0 f1 f2 f3 f4 f5 = K2Val.pv548 (fam c M0 M1 M2 M3 M4 M5 M6 M7 M8 M9 f0 f1 f2 f3 f4 f5 f6 f7 f8 f9) := by
  unfold k2Run.sl.r_555 K2Val.pv548
  rw [e_r_518]
  all_goals rfl
theorem e_r_556 : k2Run.sl.r_556 c M0 M1 M2 M3 M4 M5 f0 f1 f2 f3 f4 f5 = K2Val.pv549 (fam c M0 M1 M2 M3 M4 M5 M6 M7 M8 M9 f0 f1 f2 f3 f4 f5 f6 f7 f8 f9) := by
  unfold k2Run.sl.r_556 K2Val.pv549
  rw [e_r_518]
  all_goals rfl
theorem e_r_557 : k2Run.sl.r_557 c M0 M1 M2 M3 M4 M5 f0 f1 f2 f3 f4 f5 = K2Val.pv550 (fam c M0 M1 M2 M3 M4 M5 M6 M7 M8 M9 f0 f1 f2 f3 f4 f5 f6 f7 f8 f9) := by
  unfold k2Run.sl.r_557 K2Val.pv550
  rw [e_r_518]
  all_goals rfl
theorem e_r_559 : k2Run.sl.r_559 c M0 M1 M2 M3 M4 M5 f0 f1 f2 f3 f4 f5 = K2Val.pv551 (fam c M0 M1 M2 M3 M4 M5 M6 M7 M8 M9 f0 f1 f2 f3 f4 f5 f6 f7 f8 f9) := by
  unfold k2Run.sl.r_559 K2Val.pv551
  rw [e_r_555, e_r_556, e_r_557]
  all_goals rfl
theorem e_r_560 : k2Run.sl.r_560 c M0 M1 M2 M3 M4 M5 f0 f1 f2 f3 f4 f5 = K2Val.pv552 (fam c M0 M1 M2 M3 M4 M5 M6 M7 M8 M9 f0 f1 f2 f3 f4 f5 f6 f7 f8 f9) := by
  unfold k2Run.sl.r_560 K2Val.pv552
  rw [e_r_518]
  all_goals rfl
theorem e_r_561 : k2Run.sl.r_561 c M0 M1 M2 M3 M4 M5 f0 f1 f2 f3 f4 f5 = K2Val.pv553 (fam c M0 M1 M2 M3 M4 M5 M6 M7 M8 M9 f0 f1 f2 f3 f4 f5 f6 f7 f8 f9) := by
  unfold k2Run.sl.r_561 K2Val.pv553
  rw [e_r_518]
  all_goals rfl
theorem e_r_562 : k2Run.sl.r_562 c M0 M1 M2 M3 M4 M5 f0 f1 f2 f3 f4 f5 = K2Val.pv554 (fam c M0 M1 M2 M3 M4 M5 M6 M7 M8 M9 f0 f1 f2 f3 f4 f5 f6 f7 f8 f9) := by
  unfold k2Run.sl.r_562 K2Val.pv554
  rw [e_r_560, e_r_561]
  all_goals rfl
theorem e_r_563 : k2Run.sl.r_563 c M1 f1 = K2Val.pv555 (fam c M0 M1 M2 M3 M4 M5 M6 M7 M8 M9 f0 f1 f2 f3 f4 f5 f6 f7 f8 f9) := by
  unfold k2Run.sl.r_563 K2Val.pv555
  all_goals rfl
theorem e_r_564 : k2Run.sl.r_564 c M0 M1 M2 M3 M4 M5 f0 f1 f2 f3 f4 f5 = K2Val.pv556 (fam c M0 M1 M2 M3 M4 M5 M6 M7 M8 M9 f0 f1 f2 f3 f4 f5 f6 f7 f8 f9) := by
  unfold k2Run.sl.r_564 K2Val.pv556
  rw [e_r_560]
  all_goals rfl
theorem e_r_565 : k2Run.sl.r_565 c M0 M1 M2 M3 M4 M5 f0 f1 f2 f3 f4 f5 = K2Val.pv557 (fam c M0 M1 M2 M3 M4 M5 M6 M7 M8 M9 f0 f1 f2 f3 f4 f5 f6 f7 f8 f9) := by
  unfold k2Run.sl.r_565 K2Val.pv557
  rw [e_r_562, e_r_563, e_r_564]
  all_goals rfl
theorem e_r_566 : k2Run.sl.r_566 c M0 M1 M2 M3 M4 M5 f0 f1 f2 f3 f4 f5 = K2Val.pv558 (fam c M0 M1 M2 M3 M4 M5 M6 M7 M8 M9 f0 f1 f2 f3 f4 f5 f6 f7 f8 f9) := by
  unfold k2Run.sl.r_566 K2Val.pv558
  rw [e_r_518]
  all_goals rfl
theorem e_r_567 : k2Run.sl.r_567 c M0 M1 M2 M3 M4 M5 f0 f1 f2 f3 f4 f5 = K2Val.pv559 (fam c M0 M1 M2 M3 M4 M5 M6 M7 M8 M9 f0 f1 f2 f3 f4 f5 f6 f7 f8 f9) := by
  unfold k2Run.sl.r_567 K2Val.pv559
  rw [e_r_518]
  all_goals rfl
theorem e_r_568 : k2Run.sl.r_568 c M0 M1 M2 M3 M4 M5 f0 f1 f2 f3 f4 f5 = K2Val.pv560 (fam c M0 M1 M2 M3 M4 M5 M6 M7 M8 M9 f0 f1 f2 f3 f4 f5 f6 f7 f8 f9) := by
  unfold k2Run.sl.r_568 K2Val.pv560
  rw [e_r_566, e_r_567]
  all_goals rfl
theorem e_r_569 : k2Run.sl.r_569 c M0 M1 M2 M3 M4 M5 f0 f1 f2 f3 f4 f5 = K2Val.pv561 (fam c M0 M1 M2 M3 M4 M5 M6 M7 M8 M9 f0 f1 f2 f3 f4 f5 f6 f7 f8 f9) := by
  unfold k2Run.sl.r_569 K2Val.pv561
  rw [e_r_518]
  all_goals rfl
theorem e_r_570 : k2Run.sl.r_570 c M0 M1 M2 M3 M4 M5 f0 f1 f2 f3 f4 f5 = K2Val.pv562 (fam c M0 M1 M2 M3 M4 M5 M6 M7 M8 M9 f0 f1 f2 f3 f4 f5 f6 f7 f8 f9) := by
  unfold k2Run.sl.r_570 K2Val.pv562
  rw [e_r_518]
  all_goals rfl
theorem e_r_571 : k2Run.sl.r_571 c M0 M1 M2 M3 M4 M5 f0 f1 f2 f3 f4 f5 = K2Val.pv563 (fam c M0 M1 M2 M3 M4 M5 M6 M7 M8 M9 f0 f1 f2 f3 f4 f5 f6 f7 f8 f9) := by
  unfold k2Run.sl.r_571 K2Val.pv563
  rw [e_r_569, e_r_570]
  all_goals rfl
theorem e_r_572 : k2Run.sl.r_572 c M0 M1 M2 M3 M4 M5 f0 f1 f2 f3 f4 f5 = K2Val.pv564 (fam c M0 M1 M2 M3 M4 M5 M6 M7 M8 M9 f0 f1 f2 f3 f4 f5 f6 f7 f8 f9) := by
  unfold k2Run.sl.r_572 K2Val.pv564
  rw [e_r_569]
  all_goals rfl
theorem e_r_573 : k2Run.sl.r_573 c M3 f3 = K2Val.pv565 (fam c M0 M1 M2 M3 M4 M5 M6 M7 M8 M9 f0 f1 f2 f3 f4 f5 f6 f7 f8 f9) := by
  unfold k2Run.sl.r_573 K2Val.pv565
  all_goals rfl
theorem e_r_574 : k2Run.sl.r_574 c M0 M1 M2 M3 M4 M5 f0 f1 f2 f3 f4 f5 = K2Val.pv566 (fam c M0 M1 M2 M3 M4 M5 M6 M7 M8 M9 f0 f1 f2 f3 f4 f5 f6 f7 f8 f9) := by
  unfold k2Run.sl.r_574 K2Val.pv566
  rw [e_r_571, e_r_572, e_r_573]
  all_goals rfl
theorem e_r_575 : k2Run.sl.r_575 c M0 M1 M2 M3 M4 M5 f0 f1 f2 f3 f4 f5 = K2Val.pv567 (fam c M0 M1 M2 M3 M4 M5 M6 M7 M8 M9 f0 f1 f2 f3 f4 f5 f6 f7 f8 f9) := by
  unfold k2Run.sl.r_575 K2Val.pv567
  rw [e_r_518]
  all_goals rfl
theorem e_r_576 : k2Run.sl.r_576 c M0 M1 M2 M3 M4 M5 f0 f1 f2 f3 f4 f5 = K2Val.pv568 (fam c M0 M1 M2 M3 M4 M5 M6 M7 M8 M9 f0 f1 f2 f3 f4 f5 f6 f7 f8 f9) := by
  unfold k2Run.sl.r_576 K2Val.pv568
  rw [e_r_518]
  all_goals rfl
theorem e_r_577 : k2Run.sl.r_577 c M0 M1 M2 M3 M4 M5 f0 f1 f2 f3 f4 f5 = K2Val.pv569 (fam c M0 M1 M2 M3 M4 M5 M6 M7 M8 M9 f0 f1 f2 f3 f4 f5 f6 f7 f8 f9) := by
  unfold k2Run.sl.r_577 K2Val.pv569
  rw [e_r_518]
  all_goals rfl
theorem e_r_578 : k2Run.sl.r_578 c M0 M1 M2 M3 M4 M5 f0 f1 f2 f3 f4 f5 = K2Val.pv570 (fam c M0 M1 M2 M3 M4 M5 M6 M7 M8 M9 f0 f1 f2 f3 f4 f5 f6 f7 f8 f9) := by
  unfold k2Run.sl.r_578 K2Val.pv570
  rw [e_r_575, e_r_576, e_r_577]
  all_goals rfl
theorem e_r_579 : k2Run.sl.r_579 c M0 M1 M2 M3 M4 M5 f0 f1 f2 f3 f4 f5 = K2Val.pv571 (fam c M0 M1 M2 M3 M4 M5 M6 M7 M8 M9 f0 f1 f2 f3 f4 f5 f6 f7 f8 f9) := by
  unfold k2Run.sl.r_579 K2Val.pv571
  rw [e_r_518]
  all_goals rfl
theorem e_r_580 : k2Run.sl.r_580 c M0 M1 M2 M3 M4 M5 f0 f1 f2 f3 f4 f5 = K2Val.pv572 (fam c M0 M1 M2 M3 M4 M5 M6 M7 M8 M9 f0 f1 f2 f3 f4 f5 f6 f7 f8 f9) := by
  unfold k2Run.sl.r_580 K2Val.pv572
  rw [e_r_518]
  all_goals rfl
theorem e_r_581 : k2Run.sl.r_581 c M0 M1 M2 M3 M4 M5 f0 f1 f2 f3 f4 f5 = K2Val.pv573 (fam c M0 M1 M2 M3 M4 M5 M6 M7 M8 M9 f0 f1 f2 f3 f4 f5 f6 f7 f8 f9) := by
  unfold k2Run.sl.r_581 K2Val.pv573
  rw [e_r_518]
  all_goals rfl
theorem e_r_582 : k2Run.sl.r_582 c M0 M1 M2 M3 M4 M5 f0 f1 f2 f3 f4 f5 = K2Val.pv574 (fam c M0 M1 M2 M3 M4 M5 M6 M7 M8 M9 f0 f1 f2 f3 f4 f5 f6 f7 f8 f9) := by
  unfold k2Run.sl.r_582 K2Val.pv574
  rw [e_r_579, e_r_580, e_r_581]
  all_goals rfl
theorem e_r_583 : k2Run.sl.r_583 c M0 M1 M2 M3 M4 M5 f0 f1 f2 f3 f4 f5 = K2Val.pv575 (fam c M0 M1 M2 M3 M4 M5 M6 M7 M8 M9 f0 f1 f2 f3 f4 f5 f6 f7 f8 f9) := by
  unfold k2Run.sl.r_583 K2Val.pv575
  rw [e_r_518]
  all_goals rfl
theorem e_r_584 : k2Run.sl.r_584 c M0 M1 M2 M3 M4 M5 f0 f1 f2 f3 f4 f5 = K2Val.pv576 (fam c M0 M1 M2 M3 M4 M5 M6 M7 M8 M9 f0 f1 f2 f3 f4 f5 f6 f7 f8 f9) := by
  unfold k2Run.sl.r_584 K2Val.pv576
  rw [e_r_583]
  all_goals rfl
theorem e_r_585 : k2Run.sl.r_585 c M0 M1 M2 M3 M4 M5 f0 f1 f2 f3 f4 f5 = K2Val.pv577 (fam c M0 M1 M2 M3 M4 M5 M6 M7 M8 M9 f0 f1 f2 f3 f4 f5 f6 f7 f8 f9) := by
  unfold k2Run.sl.r_585 K2Val.pv577
  rw [e_r_583, e_r_584]
  all_goals rfl
theorem e_r_586 : k2Run.sl.r_586 c M0 M1 M2 M3 M4 M5 f0 f1 f2 f3 f4 f5 = K2Val.pv578 (fam c M0 M1 M2 M3 M4 M5 M6 M7 M8 M9 f0 f1 f2 f3 f4 f5 f6 f7 f8 f9) := by
  unfold k2Run.sl.r_586 K2Val.pv578
  rw [e_r_518]
  all_goals rfl
theorem e_r_587 : k2Run.sl.r_587 c M0 M1 M2 M3 M4 M5 f0 f1 f2 f3 f4 f5 = K2Val.pv579 (fam c M0 M1 M2 M3 M4 M5 M6 M7 M8 M9 f0 f1 f2 f3 f4 f5 f6 f7 f8 f9) := by
  unfold k2Run.sl.r_587 K2Val.pv579
  rw [e_r_518]
  all_goals rfl
theorem e_r_588 : k2Run.sl.r_588 c M0 M1 M2 M3 M4 M5 f0 f1 f2 f3 f4 f5 = K2Val.pv580 (fam c M0 M1 M2 M3 M4 M5 M6 M7 M8 M9 f0 f1 f2 f3 f4 f5 f6 f7 f8 f9) := by
  unfold k2Run.sl.r_588 K2Val.pv580
  rw [e_r_518]
  all_goals rfl
theorem e_r_589 : k2Run.sl.r_589 c M0 M1 M2 M3 M4 M5 f0 f1 f2 f3 f4 f5 = K2Val.pv581 (fam c M0 M1 M2 M3 M4 M5 M6 M7 M8 M9 f0 f1 f2 f3 f4 f5 f6 f7 f8 f9) := by
  unfold k2Run.sl.r_589 K2Val.pv581
  rw [e_r_522, e_r_526, e_r_530, e_r_534, e_r_540, e_r_545, e_r_549, e_r_554, e_r_559, e_r_565, e_r_568, e_r_574, e_r_578, e_r_582, e_r_585, e_r_586, e_r_587, e_r_588]
  all_goals rfl
theorem e_r_590 : k2Run.sl.r_590 c M0 M1 M2 M3 M4 M5 f0 f1 f2 f3 f4 f5 = K2Val.pv582 (fam c M0 M1 M2 M3 M4 M5 M6 M7 M8 M9 f0 f1 f2 f3 f4 f5 f6 f7 f8 f9) := by
  unfold k2Run.sl.r_590 K2Val.pv582
  rw [e_r_589]
  all_goals rfl
theorem e_r_660 : k2Run.sl.r_660 c M0 M1 M2 M3 M4 M5 f0 f1 f2 f3 f4 f5 = K2Val.pv650 (fam c M0 M1 M2 M3 M4 M5 M6 M7 M8 M9 f0 f1 f2 f3 f4 f5 f6 f7 f8 f9) := by
  unfold k2Run.sl.r_660 K2Val.pv650
  rw [e_r_590]
  all_goals rfl
theorem e_r_610 : k2Run.sl.r_610 c M0 M1 M2 M3 M4 M5 f0 f1 f2 f3 f4 f5 = K2Val.pv602 (fam c M0 M1 M2 M3 M4 M5 M6 M7 M8 M9 f0 f1 f2 f3 f4 f5 f6 f7 f8 f9) := by
  unfold k2Run.sl.r_610 K2Val.pv602
  rw [e_r_590]
  all_goals rfl
theorem e_r_611 : k2Run.sl.r_611 c M0 M1 M2 M3 M4 M5 f0 f1 f2 f3 f4 f5 = K2Val.pv603 (fam c M0 M1 M2 M3 M4 M5 M6 M7 M8 M9 f0 f1 f2 f3 f4 f5 f6 f7 f8 f9) := by
  unfold k2Run.sl.r_611 K2Val.pv603
  rw [e_r_590]
  all_goals rfl
theorem e_r_612 : k2Run.sl.r_612 c M0 M1 M2 M3 M4 M5 f0 f1 f2 f3 f4 f5 = K2Val.pv604 (fam c M0 M1 M2 M3 M4 M5 M6 M7 M8 M9 f0 f1 f2 f3 f4 f5 f6 f7 f8 f9) := by
  unfold k2Run.sl.r_612 K2Val.pv604
  rw [e_r_590]
  all_goals rfl
theorem e_r_613 : k2Run.sl.r_613 c M0 M1 M2 M3 M4 M5 f0 f1 f2 f3 f4 f5 = K2Val.pv605 (fam c M0 M1 M2 M3 M4 M5 M6 M7 M8 M9 f0 f1 f2 f3 f4 f5 f6 f7 f8 f9) := by
  unfold k2Run.sl.r_613 K2Val.pv605
  rw [e_r_610, e_r_611, e_r_612]
  all_goals rfl
theorem e_r_733 : k2Run.sl.r_733 c M3 f3 = K2Val.pv723 (fam c M0 M1 M2 M3 M4 M5 M6 M7 M8 M9 f0 f1 f2 f3 f4 f5 f6 f7 f8 f9) := by
  unfold k2Run.sl.r_733 K2Val.pv723
  all_goals rfl
theorem e_r_591 : k2Run.sl.r_591 c M0 M1 M2 M3 M4 M5 f0 f1 f2 f3 f4 f5 = K2Val.pv583 (fam c M0 M1 M2 M3 M4 M5 M6 M7 M8 M9 f0 f1 f2 f3 f4 f5 f6 f7 f8 f9) := by
  unfold k2Run.sl.r_591 K2Val.pv583
  rw [e_r_589]
  all_goals rfl
theorem e_r_592 : k2Run.sl.r_592 c M0 M1 M2 M3 M4 M5 f0 f1 f2 f3 f4 f5 = K2Val.pv584 (fam c M0 M1 M2 M3 M4 M5 M6 M7 M8 M9 f0 f1 f2 f3 f4 f5 f6 f7 f8 f9) := by
  unfold k2Run.sl.r_592 K2Val.pv584
  rw [e_r_589]
  all_goals rfl
theorem e_r_593 : k2Run.sl.r_593 c M0 M1 M2 M3 M4 M5 f0 f1 f2 f3 f4 f5 = K2Val.pv585 (fam c M0 M1 M2 M3 M4 M5 M6 M7 M8 M9 f0 f1 f2 f3 f4 f5 f6 f7 f8 f9) := by
  unfold k2Run.sl.r_593 K2Val.pv585
  rw [e_r_591, e_r_592]
  all_goals rfl
theorem e_r_594 : k2Run.sl.r_594 c M0 M1 M2 M3 M4 M5 f0 f1 f2 f3 f4 f5 = K2Val.pv586 (fam c M0 M1 M2 M3 M4 M5 M6 M7 M8 M9 f0 f1 f2 f3 f4 f5 f6 f7 f8 f9) := by
  unfold k2Run.sl.r_594 K2Val.pv586
  rw [e_r_591]
  all_goals rfl
theorem e_r_595 : k2Run.sl.r_595 c M0 M1 M2 M3 M4 M5 f0 f1 f2 f3 f4 f5 = K2Val.pv587 (fam c M0 M1 M2 M3 M4 M5 M6 M7 M8 M9 f0 f1 f2 f3 f4 f5 f6 f7 f8 f9) := by
  unfold k2Run.sl.r_595 K2Val.pv587
  rw [e_r_593, e_r_594]
  all_goals rfl
theorem e_r_596 : k2Run.sl.r_596 c M0 M1 M2 M3 M4 M5 f0 f1 f2 f3 f4 f5 = K2Val.pv588 (fam c M0 M1 M2 M3 M4 M5 M6 M7 M8 M9 f0 f1 f2 f3 f4 f5 f6 f7 f8 f9) := by
  unfold k2Run.sl.r_596 K2Val.pv588
  rw [e_r_590]
  all_goals rfl
theorem e_r_597 : k2Run.sl.r_597 c M0 M1 M2 M3 M4 M5 f0 f1 f2 f3 f4 f5 = K2Val.pv589 (fam c M0 M1 M2 M3 M4 M5 M6 M7 M8 M9 f0 f1 f2 f3 f4 f5 f6 f7 f8 f9) := by
  unfold k2Run.sl.r_597 K2Val.pv589
  rw [e_r_590]
  all_goals rfl
theorem e_r_598 : k2Run.sl.r_598 c M1 f1 = K2Val.pv590 (fam c M0 M1 M2 M3 M4 M5 M6 M7 M8 M9 f0 f1 f2 f3 f4 f5 f6 f7 f8 f9) := by
  unfold k2Run.sl.r_598 K2Val.pv590
  all_goals rfl
theorem e_r_599 : k2Run.sl.r_599 c M0 M1 M2 M3 M4 M5 f0 f1 f2 f3 f4 f5 = K2Val.pv591 (fam c M0 M1 M2 M3 M4 M5 M6 M7 M8 M9 f0 f1 f2 f3 f4 f5 f6 f7 f8 f9) := by
  unfold k2Run.sl.r_599 K2Val.pv591
  rw [e_r_596, e_r_597, e_r_598]
  all_goals rfl
theorem e_r_600 : k2Run.sl.r_600 c M0 M1 M2 M3 M4 M5 f0 f1 f2 f3 f4 f5 = K2Val.pv592 (fam c M0 M1 M2 M3 M4 M5 M6 M7 M8 M9 f0 f1 f2 f3 f4 f5 f6 f7 f8 f9) := by
  unfold k2Run.sl.r_600 K2Val.pv592
  rw [e_r_590]
  all_goals rfl
theorem e_r_601 : k2Run.sl.r_601 c M0 M1 M2 M3 M4 M5 f0 f1 f2 f3 f4 f5 = K2Val.pv593 (fam c M0 M1 M2 M3 M4 M5 M6 M7 M8 M9 f0 f1 f2 f3 f4 f5 f6 f7 f8 f9) := by
  unfold k2Run.sl.r_601 K2Val.pv593
  rw [e_r_590]
  all_goals rfl
theorem e_r_602 : k2Run.sl.r_602 c M0 M1 M2 M3 M4 M5 f0 f1 f2 f3 f4 f5 = K2Val.pv594 (fam c M0 M1 M2 M3 M4 M5 M6 M7 M8 M9 f0 f1 f2 f3 f4 f5 f6 f7 f8 f9) := by
  unfold k2Run.sl.r_602 K2Val.pv594
  rw [e_r_600, e_r_601]
  all_goals rfl
theorem e_r_603 : k2Run.sl.r_603 c M0 M1 M2 M3 M4 M5 f0 f1 f2 f3 f4 f5 = K2Val.pv595 (fam c M0 M1 M2 M3 M4 M5 M6 M7 M8 M9 f0 f1 f2 f3 f4 f5 f6 f7 f8 f9) := by
  unfold k2Run.sl.r_603 K2Val.pv595
  rw [e_r_600]
  all_goals rfl
theorem e_r_604 : k2Run.sl.r_604 c M0 M1 M2 M3 M4 M5 f0 f1 f2 f3 f4 f5 = K2Val.pv596 (fam c M0 M1 M2 M3 M4 M5 M6 M7 M8 M9 f0 f1 f2 f3 f4 f5 f6 f7 f8 f9) := by
  unfold k2Run.sl.r_604 K2Val.pv596
  rw [e_r_602, e_r_603]
  all_goals rfl
theorem e_r_605 : k2Run.sl.r_605 c M0 M1 M2 M3 M4 M5 f0 f1 f2 f3 f4 f5 = K2Val.pv597 (fam c M0 M1 M2 M3 M4 M5 M6 M7 M8 M9 f0 f1 f2 f3 f4 f5 f6 f7 f8 f9) := by
  unfold k2Run.sl.r_605 K2Val.pv597
  rw [e_r_590]
  all_goals rfl
theorem e_r_606 : k2Run.sl.r_606 c M0 M1 M2 M3 M4 M5 f0 f1 f2 f3 f4 f5 = K2Val.pv598 (fam c M0 M1 M2 M3 M4 M5 M6 M7 M8 M9 f0 f1 f2 f3 f4 f5 f6 f7 f8 f9) := by
  unfold k2Run.sl.r_606 K2Val.pv598
  rw [e_r_590]
  all_goals rfl
theorem e_r_607 : k2Run.sl.r_607 c M0 M1 M2 M3 M4 M5 f0 f1 f2 f3 f4 f5 = K2Val.pv599 (fam c M0 M1 M2 M3 M4 M5 M6 M7 M8 M9 f0 f1 f2 f3 f4 f5 f6 f7 f8 f9) := by
  unfold k2Run.sl.r_607 K2Val.pv599
  rw [e_r_590]
  all_goals rfl
theorem e_r_608 : k2Run.sl.r_608 c M3 f3 = K2Val.pv600 (fam c M0 M1 M2 M3 M4 M5 M6 M7 M8 M9 f0 f1 f2 f3 f4 f5 f6 f7 f8 f9) := by
  unfold k2Run.sl.r_608 K2Val.pv600
  all_goals rfl
theorem e_r_609 : k2Run.sl.r_609 c M0 M1 M2 M3 M4 M5 f0 f1 f2 f3 f4 f5 = K2Val.pv601 (fam c M0 M1 M2 M3 M4 M5 M6 M7 M8 M9 f0 f1 f2 f3 f4 f5 f6 f7 f8 f9) := by
  unfold k2Run.sl.r_609 K2Val.pv601
  rw [e_r_605, e_r_606, e_r_607, e_r_608]
  all_goals rfl
theorem e_r_614 : k2Run.sl.r_614 c M0 M1 M2 M3 M4 M5 f0 f1 f2 f3 f4 f5 = K2Val.pv606 (fam c M0 M1 M2 M3 M4 M5 M6 M7 M8 M9 f0 f1 f2 f3 f4 f5 f6 f7 f8 f9) := by
  unfold k2Run.sl.r_614 K2Val.pv606
  rw [e_r_590]
  all_goals rfl
theorem e_r_615 : k2Run.sl.r_615 c M1 f1 = K2Val.pv607 (fam c M0 M1 M2 M3 M4 M5 M6 M7 M8 M9 f0 f1 f2 f3 f4 f5 f6 f7 f8 f9) := by
  unfold k2Run.sl.r_615 K2Val.pv607
  all_goals rfl
theorem e_r_616 : k2Run.sl.r_616 c M0 M1 M2 M3 M4 M5 f0 f1 f2 f3 f4 f5 = K2Val.pv608 (fam c M0 M1 M2 M3 M4 M5 M6 M7 M8 M9 f0 f1 f2 f3 f4 f5 f6 f7 f8 f9) := by
  unfold k2Run.sl.r_616 K2Val.pv608
  rw [e_r_614, e_r_615]
  all_goals rfl
theorem e_r_618 : k2Run.sl.r_618 c M0 M1 M2 M3 M4 M5 f0 f1 f2 f3 f4 f5 = K2Val.pv609 (fam c M0 M1 M2 M3 M4 M5 M6 M7 M8 M9 f0 f1 f2 f3 f4 f5 f6 f7 f8 f9) := by
  unfold k2Run.sl.r_618 K2Val.pv609
  rw [e_r_614, e_r_616]
  all_goals rfl
theorem e_r_619 : k2Run.sl.r_619 c M0 M1 M2 M3 M4 M5 f0 f1 f2 f3 f4 f5 = K2Val.pv610 (fam c M0 M1 M2 M3 M4 M5 M6 M7 M8 M9 f0 f1 f2 f3 f4 f5 f6 f7 f8 f9) := by
  unfold k2Run.sl.r_619 K2Val.pv610
  rw [e_r_590]
  all_goals rfl
theorem e_r_620 : k2Run.sl.r_620 c M0 M1 M2 M3 M4 M5 f0 f1 f2 f3 f4 f5 = K2Val.pv611 (fam c M0 M1 M2 M3 M4 M5 M6 M7 M8 M9 f0 f1 f2 f3 f4 f5 f6 f7 f8 f9) := by
  unfold k2Run.sl.r_620 K2Val.pv611
  rw [e_r_590]
  all_goals rfl
theorem e_r_621 : k2Run.sl.r_621 c M0 M1 M2 M3 M4 M5 f0 f1 f2 f3 f4 f5 = K2Val.pv612 (fam c M0 M1 M2 M3 M4 M5 M6 M7 M8 M9 f0 f1 f2 f3 f4 f5 f6 f7 f8 f9) := by
  unfold k2Run.sl.r_621 K2Val.pv612
  rw [e_r_619, e_r_620]
  all_goals rfl
theorem e_r_622 : k2Run.sl.r_622 c M0 M1 M2 M3 M4 M5 f0 f1 f2 f3 f4 f5 = K2Val.pv613 (fam c M0 M1 M2 M3 M4 M5 M6 M7 M8 M9 f0 f1 f2 f3 f4 f5 f6 f7 f8 f9) := by
  unfold k2Run.sl.r_622 K2Val.pv613
  rw [e_r_590]
  all_goals rfl
theorem e_r_623 : k2Run.sl.r_623 c M3 f3 = K2Val.pv614 (fam c M0 M1 M2 M3 M4 M5 M6 M7 M8 M9 f0 f1 f2 f3 f4 f5 f6 f7 f8 f9) := by
  unfold k2Run.sl.r_623 K2Val.pv614
  all_goals rfl
theorem e_r_624 : k2Run.sl.r_624 c M0 M1 M2 M3 M4 M5 f0 f1 f2 f3 f4 f5 = K2Val.pv615 (fam c M0 M1 M2 M3 M4 M5 M6 M7 M8 M9 f0 f1 f2 f3 f4 f5 f6 f7 f8 f9) := by
  unfold k2Run.sl.r_624 K2Val.pv615
  rw [e_r_590]
  all_goals rfl
theorem e_r_625 : k2Run.sl.r_625 c M0 M1 M2 M3 M4 M5 f0 f1 f2 f3 f4 f5 = K2Val.pv616 (fam c M0 M1 M2 M3 M4 M5 M6 M7 M8 M9 f0 f1 f2 f3 f4 f5 f6 f7 f8 f9) := by
  unfold k2Run.sl.r_625 K2Val.pv616
  rw [e_r_622, e_r_623, e_r_624]
  all_goals rfl
theorem e_r_626 : k2Run.sl.r_626 c M0 M1 M2 M3 M4 M5 f0 f1 f2 f3 f4 f5 = K2Val.pv617 (fam c M0 M1 M2 M3 M4 M5 M6 M7 M8 M9 f0 f1 f2 f3 f4 f5 f6 f7 f8 f9) := by
  unfold k2Run.sl.r_626 K2Val.pv617
  rw [e_r_622]
  all_goals rfl
theorem e_r_628 : k2Run.sl.r_628 c M0 M1 M2 M3 M4 M5 f0 f1 f2 f3 f4 f5 = K2Val.pv618 (fam c M0 M1 M2 M3 M4 M5 M6 M7 M8 M9 f0 f1 f2 f3 f4 f5 f6 f7 f8 f9) := by
  unfold k2Run.sl.r_628 K2Val.pv618
  rw [e_r_625, e_r_626]
  all_goals rfl
theorem e_r_629 : k2Run.sl.r_629 c M0 M1 M2 M3 M4 M5 f0 f1 f2 f3 f4 f5 = K2Val.pv619 (fam c M0 M1 M2 M3 M4 M5 M6 M7 M8 M9 f0 f1 f2 f3 f4 f5 f6 f7 f8 f9) := by
  unfold k2Run.sl.r_629 K2Val.pv619
  rw [e_r_590]
  all_goals rfl
theorem e_r_630 : k2Run.sl.r_630 c M0 M1 M2 M3 M4 M5 f0 f1 f2 f3 f4 f5 = K2Val.pv620 (fam c M0 M1 M2 M3 M4 M5 M6 M7 M8 M9 f0 f1 f2 f3 f4 f5 f6 f7 f8 f9) := by
  unfold k2Run.sl.r_630 K2Val.pv620
  rw [e_r_590]
  all_goals rfl
theorem e_r_631 : k2Run.sl.r_631 c M0 M1 M2 M3 M4 M5 f0 f1 f2 f3 f4 f5 = K2Val.pv621 (fam c M0 M1 M2 M3 M4 M5 M6 M7 M8 M9 f0 f1 f2 f3 f4 f5 f6 f7 f8 f9) := by
  unfold k2Run.sl.r_631 K2Val.pv621
  rw [e_r_590]
  all_goals rfl
theorem e_r_632 : k2Run.sl.r_632 c M0 M1 M2 M3 M4 M5 f0 f1 f2 f3 f4 f5 = K2Val.pv622 (fam c M0 M1 M2 M3 M4 M5 M6 M7 M8 M9 f0 f1 f2 f3 f4 f5 f6 f7 f8 f9) := by
  unfold k2Run.sl.r_632 K2Val.pv622
  rw [e_r_629, e_r_630, e_r_631]
  all_goals rfl
theorem e_r_633 : k2Run.sl.r_633 c M0 M1 M2 M3 M4 M5 f0 f1 f2 f3 f4 f5 = K2Val.pv623 (fam c M0 M1 M2 M3 M4 M5 M6 M7 M8 M9 f0 f1 f2 f3 f4 f5 f6 f7 f8 f9) := by
  unfold k2Run.sl.r_633 K2Val.pv623
  rw [e_r_590]
  all_goals rfl
theorem e_r_634 : k2Run.sl.r_634 c M0 M1 M2 M3 M4 M5 f0 f1 f2 f3 f4 f5 = K2Val.pv624 (fam c M0 M1 M2 M3 M4 M5 M6 M7 M8 M9 f0 f1 f2 f3 f4 f5 f6 f7 f8 f9) := by
  unfold k2Run.sl.r_634 K2Val.pv624
  rw [e_r_590]
  all_goals rfl
theorem e_r_635 : k2Run.sl.r_635 c M1 f1 = K2Val.pv625 (fam c M0 M1 M2 M3 M4 M5 M6 M7 M8 M9 f0 f1 f2 f3 f4 f5 f6 f7 f8 f9) := by
  unfold k2Run.sl.r_635 K2Val.pv625
  all_goals rfl
theorem e_r_636 : k2Run.sl.r_636 c M0 M1 M2 M3 M4 M5 f0 f1 f2 f3 f4 f5 = K2Val.pv626 (fam c M0 M1 M2 M3 M4 M5 M6 M7 M8 M9 f0 f1 f2 f3 f4 f5 f6 f7 f8 f9) := by
  unfold k2Run.sl.r_636 K2Val.pv626
  rw [e_r_633, e_r_634, e_r_635]
  all_goals rfl
theorem e_r_637 : k2Run.sl.r_637 c M0 M1 M2 M3 M4 M5 f0 f1 f2 f3 f4 f5 = K2Val.pv627 (fam c M0 M1 M2 M3 M4 M5 M6 M7 M8 M9 f0 f1 f2 f3 f4 f5 f6 f7 f8 f9) := by
  unfold k2Run.sl.r_637 K2Val.pv627
  rw [e_r_590]
  all_goals rfl
theorem e_r_638 : k2Run.sl.r_638 c M0 M1 M2 M3 M4 M5 f0 f1 f2 f3 f4 f5 = K2Val.pv628 (fam c M0 M1 M2 M3 M4 M5 M6 M7 M8 M9 f0 f1 f2 f3 f4 f5 f6 f7 f8 f9) := by
  unfold k2Run.sl.r_638 K2Val.pv628
  rw [e_r_637]
  all_goals rfl
theorem e_r_639 : k2Run.sl.r_639 c M0 M1 M2 M3 M4 M5 f0 f1 f2 f3 f4 f5 = K2Val.pv629 (fam c M0 M1 M2 M3 M4 M5 M6 M7 M8 M9 f0 f1 f2 f3 f4 f5 f6 f7 f8 f9) := by
  unfold k2Run.sl.r_639 K2Val.pv629
  rw [e_r_637, e_r_638]
  all_goals rfl
theorem e_r_640 : k2Run.sl.r_640 c M0 M1 M2 M3 M4 M5 f0 f1 f2 f3 f4 f5 = K2Val.pv630 (fam c M0 M1 M2 M3 M4 M5 M6 M7 M8 M9 f0 f1 f2 f3 f4 f5 f6 f7 f8 f9) := by
  unfold k2Run.sl.r_640 K2Val.pv630
  rw [e_r_590]
  all_goals rfl
theorem e_r_641 : k2Run.sl.r_641 c M0 M1 M2 M3 M4 M5 f0 f1 f2 f3 f4 f5 = K2Val.pv631 (fam c M0 M1 M2 M3 M4 M5 M6 M7 M8 M9 f0 f1 f2 f3 f4 f5 f6 f7 f8 f9) := by
  unfold k2Run.sl.r_641 K2Val.pv631
  rw [e_r_590]
  all_goals rfl
theorem e_r_642 : k2Run.sl.r_642 c M3 f3 = K2Val.pv632 (fam c M0 M1 M2 M3 M4 M5 M6 M7 M8 M9 f0 f1 f2 f3 f4 f5 f6 f7 f8 f9) := by
  unfold k2Run.sl.r_642 K2Val.pv632
  all_goals rfl
theorem e_r_643 : k2Run.sl.r_643 c M0 M1 M2 M3 M4 M5 f0 f1 f2 f3 f4 f5 = K2Val.pv633 (fam c M0 M1 M2 M3 M4 M5 M6 M7 M8 M9 f0 f1 f2 f3 f4 f5 f6 f7 f8 f9) := by
  unfold k2Run.sl.r_643 K2Val.pv633
  rw [e_r_590]
  all_goals rfl
theorem e_r_644 : k2Run.sl.r_644 c M0 M1 M2 M3 M4 M5 f0 f1 f2 f3 f4 f5 = K2Val.pv634 (fam c M0 M1 M2 M3 M4 M5 M6 M7 M8 M9 f0 f1 f2 f3 f4 f5 f6 f7 f8 f9) := by
  unfold k2Run.sl.r_644 K2Val.pv634
  rw [e_r_640, e_r_641, e_r_642, e_r_643]
  all_goals rfl
theorem e_r_645 : k2Run.sl.r_645 c M0 M1 M2 M3 M4 M5 f0 f1 f2 f3 f4 f5 = K2Val.pv635 (fam c M0 M1 M2 M3 M4 M5 M6 M7 M8 M9 f0 f1 f2 f3 f4 f5 f6 f7 f8 f9) := by
  unfold k2Run.sl.r_645 K2Val.pv635
  rw [e_r_590]
  all_goals rfl
theorem e_r_646 : k2Run.sl.r_646 c M0 M1 M2 M3 M4 M5 f0 f1 f2 f3 f4 f5 = K2Val.pv636 (fam c M0 M1 M2 M3 M4 M5 M6 M7 M8 M9 f0 f1 f2 f3 f4 f5 f6 f7 f8 f9) := by
  unfold k2Run.sl.r_646 K2Val.pv636
  rw [e_r_590]
  all_goals rfl
theorem e_r_647 : k2Run.sl.r_647 c M0 M1 M2 M3 M4 M5 f0 f1 f2 f3 f4 f5 = K2Val.pv637 (fam c M0 M1 M2 M3 M4 M5 M6 M7 M8 M9 f0 f1 f2 f3 f4 f5 f6 f7 f8 f9) := by
  unfold k2Run.sl.r_647 K2Val.pv637
  rw [e_r_645, e_r_646]
  all_goals rfl
theorem e_r_648 : k2Run.sl.r_648 c M0 M1 M2 M3 M4 M5 f0 f1 f2 f3 f4 f5 = K2Val.pv638 (fam c M0 M1 M2 M3 M4 M5 M6 M7 M8 M9 f0 f1 f2 f3 f4 f5 f6 f7 f8 f9) := by
  unfold k2Run.sl.r_648 K2Val.pv638
  rw [e_r_645]
  all_goals rfl
theorem e_r_649 : k2Run.sl.r_649 c M0 M1 M2 M3 M4 M5 f0 f1 f2 f3 f4 f5 = K2Val.pv639 (fam c M0 M1 M2 M3 M4 M5 M6 M7 M8 M9 f0 f1 f2 f3 f4 f5 f6 f7 f8 f9) := by
  unfold k2Run.sl.r_649 K2Val.pv639
  rw [e_r_647, e_r_648]
  all_goals rfl
theorem e_r_650 : k2Run.sl.r_650 c M0 M1 M2 M3 M4 M5 f0 f1 f2 f3 f4 f5 = K2Val.pv640 (fam c M0 M1 M2 M3 M4 M5 M6 M7 M8 M9 f0 f1 f2 f3 f4 f5 f6 f7 f8 f9) := by
  unfold k2Run.sl.r_650 K2Val.pv640
  rw [e_r_590]
  all_goals rfl
theorem e_r_651 : k2Run.sl.r_651 c M0 M1 M2 M3 M4 M5 f0 f1 f2 f3 f4 f5 = K2Val.pv641 (fam c M0 M1 M2 M3 M4 M5 M6 M7 M8 M9 f0 f1 f2 f3 f4 f5 f6 f7 f8 f9) := by
  unfold k2Run.sl.r_651 K2Val.pv641
  rw [e_r_590]
  all_goals rfl
theorem e_r_652 : k2Run.sl.r_652 c M1 f1 = K2Val.pv642 (fam c M0 M1 M2 M3 M4 M5 M6 M7 M8 M9 f0 f1 f2 f3 f4 f5 f6 f7 f8 f9) := by
  unfold k2Run.sl.r_652 K2Val.pv642
  all_goals rfl
theorem e_r_653 : k2Run.sl.r_653 c M0 M1 M2 M3 M4 M5 f0 f1 f2 f3 f4 f5 = K2Val.pv643 (fam c M0 M1 M2 M3 M4 M5 M6 M7 M8 M9 f0 f1 f2 f3 f4 f5 f6 f7 f8 f9) := by
  unfold k2Run.sl.r_653 K2Val.pv643
  rw [e_r_650, e_r_651, e_r_652]
  all_goals rfl
theorem e_r_654 : k2Run.sl.r_654 c M0 M1 M2 M3 M4 M5 f0 f1 f2 f3 f4 f5 = K2Val.pv644 (fam c M0 M1 M2 M3 M4 M5 M6 M7 M8 M9 f0 f1 f2 f3 f4 f5 f6 f7 f8 f9) := by
  unfold k2Run.sl.r_654 K2Val.pv644
  rw [e_r_590]
  all_goals rfl
theorem e_r_655 : k2Run.sl.r_655 c M0 M1 M2 M3 M4 M5 f0 f1 f2 f3 f4 f5 = K2Val.pv645 (fam c M0 M1 M2 M3 M4 M5 M6 M7 M8 M9 f0 f1 f2 f3 f4 f5 f6 f7 f8 f9) := by
  unfold k2Run.sl.r_655 K2Val.pv645
  rw [e_r_590]
  all_goals rfl
theorem e_r_656 : k2Run.sl.r_656 c M0 M1 M2 M3 M4 M5 f0 f1 f2 f3 f4 f5 = K2Val.pv646 (fam c M0 M1 M2 M3 M4 M5 M6 M7 M8 M9 f0 f1 f2 f3 f4 f5 f6 f7 f8 f9) := by
  unfold k2Run.sl.r_656 K2Val.pv646
  rw [e_r_654, e_r_655]
  all_goals rfl
theorem e_r_657 : k2Run.sl.r_657 c M0 M1 M2 M3 M4 M5 f0 f1 f2 f3 f4 f5 = K2Val.pv647 (fam c M0 M1 M2 M3 M4 M5 M6 M7 M8 M9 f0 f1 f2 f3 f4 f5 f6 f7 f8 f9) := by
  unfold k2Run.sl.r_657 K2Val.pv647
  rw [e_r_654]
  all_goals rfl
theorem e_r_658 : k2Run.sl.r_658 c M0 M1 M2 M3 M4 M5 f0 f1 f2 f3 f4 f5 = K2Val.pv648 (fam c M0 M1 M2 M3 M4 M5 M6 M7 M8 M9 f0 f1 f2 f3 f4 f5 f6 f7 f8 f9) := by
  unfold k2Run.sl.r_658 K2Val.pv648
  rw [e_r_656, e_r_657]
  all_goals rfl
theorem e_r_659 : k2Run.sl.r_659 c M0 M1 M2 M3 M4 M5 f0 f1 f2 f3 f4 f5 = K2Val.pv649 (fam c M0 M1 M2 M3 M4 M5 M6 M7 M8 M9 f0 f1 f2 f3 f4 f5 f6 f7 f8 f9) := by
  unfold k2Run.sl.r_659 K2Val.pv649
  rw [e_r_590]
  all_goals rfl
theorem e_r_661 : k2Run.sl.r_661 c M0 M1 M2 M3 M4 M5 f0 f1 f2 f3 f4 f5 = K2Val.pv651 (fam c M0 M1 M2 M3 M4 M5 M6 M7 M8 M9 f0 f1 f2 f3 f4 f5 f6 f7 f8 f9) := by
  unfold k2Run.sl.r_661 K2Val.pv651
  rw [e_r_590]
  all_goals rfl
theorem e_r_662 : k2Run.sl.r_662 c M3 f3 = K2Val.pv652 (fam c M0 M1 M2 M3 M4 M5 M6 M7 M8 M9 f0 f1 f2 f3 f4 f5 f6 f7 f8 f9) := by
  unfold k2Run.sl.r_662 K2Val.pv652
  all_goals rfl
theorem e_r_663 : k2Run.sl.r_663 c M0 M1 M2 M3 M4 M5 f0 f1 f2 f3 f4 f5 = K2Val.pv653 (fam c M0 M1 M2 M3 M4 M5 M6 M7 M8 M9 f0 f1 f2 f3 f4 f5 f6 f7 f8 f9) := by
  unfold k2Run.sl.r_663 K2Val.pv653
  rw [e_r_595, e_r_599, e_r_604, e_r_609, e_r_613, e_r_618, e_r_621, e_r_628, e_r_632, e_r_636, e_r_639, e_r_644, e_r_649, e_r_653, e_r_658, e_r_659, e_r_660, e_r_661, e_r_662]
  all_goals rfl
theorem e_r_664 : k2Run.sl.r_664 c M0 M1 M2 M3 M4 M5 f0 f1 f2 f3 f4 f5 = K2Val.pv654 (fam c M0 M1 M2 M3 M4 M5 M6 M7 M8 M9 f0 f1 f2 f3 f4 f5 f6 f7 f8 f9) := by
  unfold k2Run.sl.r_664 K2Val.pv654
  rw [e_r_595, e_r_599, e_r_604, e_r_609, e_r_613, e_r_618, e_r_621, e_r_628, e_r_632, e_r_636, e_r_639, e_r_644, e_r_649, e_r_653, e_r_658, e_r_659, e_r_660, e_r_661, e_r_662]
  all_goals rfl
theorem e_r_665 : k2Run.sl.r_665 c M0 M1 M2 M3 M4 M5 f0 f1 f2 f3 f4 f5 = K2Val.pv655 (fam c M0 M1 M2 M3 M4 M5 M6 M7 M8 M9 f0 f1 f2 f3 f4 f5 f6 f7 f8 f9) := by
  unfold k2Run.sl.r_665 K2Val.pv655
  rw [e_r_663, e_r_664]
  all_goals rfl
theorem e_r_722 : k2Run.sl.r_722 c M0 M1 M2 M3 M4 M5 f0 f1 f2 f3 f4 f5 = K2Val.pv712 (fam c M0 M1 M2 M3 M4 M5 M6 M7 M8 M9 f0 f1 f2 f3 f4 f5 f6 f7 f8 f9) := by
  unfold k2Run.sl.r_722 K2Val.pv712
  rw [e_r_665]
  all_goals rfl
theorem e_r_723 : k2Run.sl.r_723 c M0 M1 M2 M3 M4 M5 f0 f1 f2 f3 f4 f5 = K2Val.pv713 (fam c M0 M1 M2 M3 M4 M5 M6 M7 M8 M9 f0 f1 f2 f3 f4 f5 f6 f7 f8 f9) := by
  unfold k2Run.sl.r_723 K2Val.pv713
  rw [e_r_665]
  all_goals rfl
theorem e_r_724 : k2Run.sl.r_724 c M1 f1 = K2Val.pv714 (fam c M0 M1 M2 M3 M4 M5 M6 M7 M8 M9 f0 f1 f2 f3 f4 f5 f6 f7 f8 f9) := by
  unfold k2Run.sl.r_724 K2Val.pv714
  all_goals rfl
theorem e_r_725 : k2Run.sl.r_725 c M0 M1 M2 M3 M4 M5 f0 f1 f2 f3 f4 f5 = K2Val.pv715 (fam c M0 M1 M2 M3 M4 M5 M6 M7 M8 M9 f0 f1 f2 f3 f4 f5 f6 f7 f8 f9) := by
  unfold k2Run.sl.r_725 K2Val.pv715
  rw [e_r_665]
  all_goals rfl
theorem e_r_726 : k2Run.sl.r_726 c M0 M1 M2 M3 M4 M5 f0 f1 f2 f3 f4 f5 = K2Val.pv716 (fam c M0 M1 M2 M3 M4 M5 M6 M7 M8 M9 f0 f1 f2 f3 f4 f5 f6 f7 f8 f9) := by
  unfold k2Run.sl.r_726 K2Val.pv716
  rw [e_r_722, e_r_723, e_r_724, e_r_725]
  all_goals rfl
theorem e_r_676 : k2Run.sl.r_676 c M0 M1 M2 M3 M4 M5 f0 f1 f2 f3 f4 f5 = K2Val.pv666 (fam c M0 M1 M2 M3 M4 M5 M6 M7 M8 M9 f0 f1 f2 f3 f4 f5 f6 f7 f8 f9) := by
  unfold k2Run.sl.r_676 K2Val.pv666
  rw [e_r_665]
  all_goals rfl
theorem e_r_666 : k2Run.sl.r_666 c M0 M1 M2 M3 M4 M5 f0 f1 f2 f3 f4 f5 = K2Val.pv656 (fam c M0 M1 M2 M3 M4 M5 M6 M7 M8 M9 f0 f1 f2 f3 f4 f5 f6 f7 f8 f9) := by
  unfold k2Run.sl.r_666 K2Val.pv656
  rw [e_r_663, e_r_664]
  all_goals rfl
theorem e_r_667 : k2Run.sl.r_667 c M0 M1 M2 M3 M4 M5 f0 f1 f2 f3 f4 f5 = K2Val.pv657 (fam c M0 M1 M2 M3 M4 M5 M6 M7 M8 M9 f0 f1 f2 f3 f4 f5 f6 f7 f8 f9) := by
  unfold k2Run.sl.r_667 K2Val.pv657
  rw [e_r_663, e_r_664]
  all_goals rfl
theorem e_r_668 : k2Run.sl.r_668 c M1 f1 = K2Val.pv658 (fam c M0 M1 M2 M3 M4 M5 M6 M7 M8 M9 f0 f1 f2 f3 f4 f5 f6 f7 f8 f9) := by
  unfold k2Run.sl.r_668 K2Val.pv658
  all_goals rfl
theorem e_r_669 : k2Run.sl.r_669 c M0 M1 M2 M3 M4 M5 f0 f1 f2 f3 f4 f5 = K2Val.pv659 (fam c M0 M1 M2 M3 M4 M5 M6 M7 M8 M9 f0 f1 f2 f3 f4 f5 f6 f7 f8 f9) := by
  unfold k2Run.sl.r_669 K2Val.pv659
  rw [e_r_663, e_r_664]
  all_goals rfl
theorem e_r_670 : k2Run.sl.r_670 c M0 M1 M2 M3 M4 M5 f0 f1 f2 f3 f4 f5 = K2Val.pv660 (fam c M0 M1 M2 M3 M4 M5 M6 M7 M8 M9 f0 f1 f2 f3 f4 f5 f6 f7 f8 f9) := by
  unfold k2Run.sl.r_670 K2Val.pv660
  rw [e_r_666, e_r_667, e_r_668, e_r_669]
  all_goals rfl
theorem e_r_671 : k2Run.sl.r_671 c M0 M1 M2 M3 M4 M5 f0 f1 f2 f3 f4 f5 = K2Val.pv661 (fam c M0 M1 M2 M3 M4 M5 M6 M7 M8 M9 f0 f1 f2 f3 f4 f5 f6 f7 f8 f9) := by
  unfold k2Run.sl.r_671 K2Val.pv661
  rw [e_r_665]
  all_goals rfl
theorem e_r_672 : k2Run.sl.r_672 c M0 M1 M2 M3 M4 M5 f0 f1 f2 f3 f4 f5 = K2Val.pv662 (fam c M0 M1 M2 M3 M4 M5 M6 M7 M8 M9 f0 f1 f2 f3 f4 f5 f6 f7 f8 f9) := by
  unfold k2Run.sl.r_672 K2Val.pv662
  rw [e_r_671]
  all_goals rfl
theorem e_r_673 : k2Run.sl.r_673 c M0 M1 M2 M3 M4 M5 f0 f1 f2 f3 f4 f5 = K2Val.pv663 (fam c M0 M1 M2 M3 M4 M5 M6 M7 M8 M9 f0 f1 f2 f3 f4 f5 f6 f7 f8 f9) := by
  unfold k2Run.sl.r_673 K2Val.pv663
  rw [e_r_671, e_r_672]
  all_goals rfl
theorem e_r_674 : k2Run.sl.r_674 c M0 M1 M2 M3 M4 M5 f0 f1 f2 f3 f4 f5 = K2Val.pv664 (fam c M0 M1 M2 M3 M4 M5 M6 M7 M8 M9 f0 f1 f2 f3 f4 f5 f6 f7 f8 f9) := by
  unfold k2Run.sl.r_674 K2Val.pv664
  rw [e_r_665]
  all_goals rfl
theorem e_r_675 : k2Run.sl.r_675 c M0 M1 M2 M3 M4 M5 f0 f1 f2 f3 f4 f5 = K2Val.pv665 (fam c M0 M1 M2 M3 M4 M5 M6 M7 M8 M9 f0 f1 f2 f3 f4 f5 f6 f7 f8 f9) := by
  unfold k2Run.sl.r_675 K2Val.pv665
  rw [e_r_665]
  all_goals rfl
theorem e_r_677 : k2Run.sl.r_677 c M3 f3 = K2Val.pv667 (fam c M0 M1 M2 M3 M4 M5 M6 M7 M8 M9 f0 f1 f2 f3 f4 f5 f6 f7 f8 f9) := by
  unfold k2Run.sl.r_677 K2Val.pv667
  all_goals rfl
theorem e_r_678 : k2Run.sl.r_678 c M0 M1 M2 M3 M4 M5 f0 f1 f2 f3 f4 f5 = K2Val.pv668 (fam c M0 M1 M2 M3 M4 M5 M6 M7 M8 M9 f0 f1 f2 f3 f4 f5 f6 f7 f8 f9) := by
  unfold k2Run.sl.r_678 K2Val.pv668
  rw [e_r_674, e_r_675, e_r_676, e_r_677]
  all_goals rfl
theorem e_r_679 : k2Run.sl.r_679 c M0 M1 M2 M3 M4 M5 f0 f1 f2 f3 f4 f5 = K2Val.pv669 (fam c M0 M1 M2 M3 M4 M5 M6 M7 M8 M9 f0 f1 f2 f3 f4 f5 f6 f7 f8 f9) := by
  unfold k2Run.sl.r_679 K2Val.pv669
  rw [e_r_665]
  all_goals rfl
theorem e_r_680 : k2Run.sl.r_680 c M0 M1 M2 M3 M4 M5 f0 f1 f2 f3 f4 f5 = K2Val.pv670 (fam c M0 M1 M2 M3 M4 M5 M6 M7 M8 M9 f0 f1 f2 f3 f4 f5 f6 f7 f8 f9) := by
  unfold k2Run.sl.r_680 K2Val.pv670
  rw [e_r_665]
  all_goals rfl
theorem e_r_681 : k2Run.sl.r_681 c M0 M1 M2 M3 M4 M5 f0 f1 f2 f3 f4 f5 = K2Val.pv671 (fam c M0 M1 M2 M3 M4 M5 M6 M7 M8 M9 f0 f1 f2 f3 f4 f5 f6 f7 f8 f9) := by
  unfold k2Run.sl.r_681 K2Val.pv671
  rw [e_r_679, e_r_680]
  all_goals rfl
theorem e_r_682 : k2Run.sl.r_682 c M0 M1 M2 M3 M4 M5 f0 f1 f2 f3 f4 f5 = K2Val.pv672 (fam c M0 M1 M2 M3 M4 M5 M6 M7 M8 M9 f0 f1 f2 f3 f4 f5 f6 f7 f8 f9) := by
  unfold k2Run.sl.r_682 K2Val.pv672
  rw [e_r_679]
  all_goals rfl
theorem e_r_683 : k2Run.sl.r_683 c M0 M1 M2 M3 M4 M5 f0 f1 f2 f3 f4 f5 = K2Val.pv673 (fam c M0 M1 M2 M3 M4 M5 M6 M7 M8 M9 f0 f1 f2 f3 f4 f5 f6 f7 f8 f9) := by
  unfold k2Run.sl.r_683 K2Val.pv673
  rw [e_r_681, e_r_682]
  all_goals rfl
theorem e_r_684 : k2Run.sl.r_684 c M0 M1 M2 M3 M4 M5 f0 f1 f2 f3 f4 f5 = K2Val.pv674 (fam c M0 M1 M2 M3 M4 M5 M6 M7 M8 M9 f0 f1 f2 f3 f4 f5 f6 f7 f8 f9) := by
  unfold k2Run.sl.r_684 K2Val.pv674
  rw [e_r_665]
  all_goals rfl
theorem e_r_685 : k2Run.sl.r_685 c M0 M1 M2 M3 M4 M5 f0 f1 f2 f3 f4 f5 = K2Val.pv675 (fam c M0 M1 M2 M3 M4 M5 M6 M7 M8 M9 f0 f1 f2 f3 f4 f5 f6 f7 f8 f9) := by
  unfold k2Run.sl.r_685 K2Val.pv675
  rw [e_r_665]
  all_goals rfl
theorem e_r_686 : k2Run.sl.r_686 c M1 f1 = K2Val.pv676 (fam c M0 M1 M2 M3 M4 M5 M6 M7 M8 M9 f0 f1 f2 f3 f4 f5 f6 f7 f8 f9) := by
  unfold k2Run.sl.r_686 K2Val.pv676
  all_goals rfl
theorem e_r_687 : k2Run.sl.r_687 c M0 M1 M2 M3 M4 M5 f0 f1 f2 f3 f4 f5 = K2Val.pv677 (fam c M0 M1 M2 M3 M4 M5 M6 M7 M8 M9 f0 f1 f2 f3 f4 f5 f6 f7 f8 f9) := by
  unfold k2Run.sl.r_687 K2Val.pv677
  rw [e_r_665]
  all_goals rfl
theorem e_r_688 : k2Run.sl.r_688 c M0 M1 M2 M3 M4 M5 f0 f1 f2 f3 f4 f5 = K2Val.pv678 (fam c M0 M1 M2 M3 M4 M5 M6 M7 M8 M9 f0 f1 f2 f3 f4 f5 f6 f7 f8 f9) := by
  unfold k2Run.sl.r_688 K2Val.pv678
  rw [e_r_684, e_r_685, e_r_686, e_r_687]
  all_goals rfl
theorem e_r_689 : k2Run.sl.r_689 c M0 M1 M2 M3 M4 M5 f0 f1 f2 f3 f4 f5 = K2Val.pv679 (fam c M0 M1 M2 M3 M4 M5 M6 M7 M8 M9 f0 f1 f2 f3 f4 f5 f6 f7 f8 f9) := by
  unfold k2Run.sl.r_689 K2Val.pv679
  rw [e_r_665]
  all_goals rfl
theorem e_r_690 : k2Run.sl.r_690 c M0 M1 M2 M3 M4 M5 f0 f1 f2 f3 f4 f5 = K2Val.pv680 (fam c M0 M1 M2 M3 M4 M5 M6 M7 M8 M9 f0 f1 f2 f3 f4 f5 f6 f7 f8 f9) := by
  unfold k2Run.sl.r_690 K2Val.pv680
  rw [e_r_665]
  all_goals rfl
theorem e_r_691 : k2Run.sl.r_691 c M0 M1 M2 M3 M4 M5 f0 f1 f2 f3 f4 f5 = K2Val.pv681 (fam c M0 M1 M2 M3 M4 M5 M6 M7 M8 M9 f0 f1 f2 f3 f4 f5 f6 f7 f8 f9) := by
  unfold k2Run.sl.r_691 K2Val.pv681
  rw [e_r_689, e_r_690]
  all_goals rfl
theorem e_r_692 : k2Run.sl.r_692 c M0 M1 M2 M3 M4 M5 f0 f1 f2 f3 f4 f5 = K2Val.pv682 (fam c M0 M1 M2 M3 M4 M5 M6 M7 M8 M9 f0 f1 f2 f3 f4 f5 f6 f7 f8 f9) := by
  unfold k2Run.sl.r_692 K2Val.pv682
  rw [e_r_665]
  all_goals rfl
theorem e_r_693 : k2Run.sl.r_693 c M0 M1 M2 M3 M4 M5 f0 f1 f2 f3 f4 f5 = K2Val.pv683 (fam c M0 M1 M2 M3 M4 M5 M6 M7 M8 M9 f0 f1 f2 f3 f4 f5 f6 f7 f8 f9) := by
  unfold k2Run.sl.r_693 K2Val.pv683
  rw [e_r_692]
  all_goals rfl
theorem e_r_694 : k2Run.sl.r_694 c M0 M1 M2 M3 M4 M5 f0 f1 f2 f3 f4 f5 = K2Val.pv684 (fam c M0 M1 M2 M3 M4 M5 M6 M7 M8 M9 f0 f1 f2 f3 f4 f5 f6 f7 f8 f9) := by
  unfold k2Run.sl.r_694 K2Val.pv684
  rw [e_r_692]
  all_goals rfl
theorem e_r_695 : k2Run.sl.r_695 c M0 M1 M2 M3 M4 M5 f0 f1 f2 f3 f4 f5 = K2Val.pv685 (fam c M0 M1 M2 M3 M4 M5 M6 M7 M8 M9 f0 f1 f2 f3 f4 f5 f6 f7 f8 f9) := by
  unfold k2Run.sl.r_695 K2Val.pv685
  rw [e_r_692]
  all_goals rfl
theorem e_r_696 : k2Run.sl.r_696 c M3 f3 = K2Val.pv686 (fam c M0 M1 M2 M3 M4 M5 M6 M7 M8 M9 f0 f1 f2 f3 f4 f5 f6 f7 f8 f9) := by
  unfold k2Run.sl.r_696 K2Val.pv686
  all_goals rfl
theorem e_r_697 : k2Run.sl.r_697 c M0 M1 M2 M3 M4 M5 f0 f1 f2 f3 f4 f5 = K2Val.pv687 (fam c M0 M1 M2 M3 M4 M5 M6 M7 M8 M9 f0 f1 f2 f3 f4 f5 f6 f7 f8 f9) := by
  unfold k2Run.sl.r_697 K2Val.pv687
  rw [e_r_693, e_r_694, e_r_695, e_r_696]
  all_goals rfl
theorem e_r_698 : k2Run.sl.r_698 c M0 M1 M2 M3 M4 M5 f0 f1 f2 f3 f4 f5 = K2Val.pv688 (fam c M0 M1 M2 M3 M4 M5 M6 M7 M8 M9 f0 f1 f2 f3 f4 f5 f6 f7 f8 f9) := by
  unfold k2Run.sl.r_698 K2Val.pv688
  rw [e_r_665]
  all_goals rfl
theorem e_r_699 : k2Run.sl.r_699 c M0 M1 M2 M3 M4 M5 f0 f1 f2 f3 f4 f5 = K2Val.pv689 (fam c M0 M1 M2 M3 M4 M5 M6 M7 M8 M9 f0 f1 f2 f3 f4 f5 f6 f7 f8 f9) := by
  unfold k2Run.sl.r_699 K2Val.pv689
  rw [e_r_665]
  all_goals rfl
theorem e_r_700 : k2Run.sl.r_700 c M0 M1 M2 M3 M4 M5 f0 f1 f2 f3 f4 f5 = K2Val.pv690 (fam c M0 M1 M2 M3 M4 M5 M6 M7 M8 M9 f0 f1 f2 f3 f4 f5 f6 f7 f8 f9) := by
  unfold k2Run.sl.r_700 K2Val.pv690
  rw [e_r_665]
  all_goals rfl
theorem e_r_701 : k2Run.sl.r_701 c M0 M1 M2 M3 M4 M5 f0 f1 f2 f3 f4 f5 = K2Val.pv691 (fam c M0 M1 M2 M3 M4 M5 M6 M7 M8 M9 f0 f1 f2 f3 f4 f5 f6 f7 f8 f9) := by
  unfold k2Run.sl.r_701 K2Val.pv691
  rw [e_r_698, e_r_699, e_r_700]
  all_goals rfl
theorem e_r_702 : k2Run.sl.r_702 c M0 M1 M2 M3 M4 M5 f0 f1 f2 f3 f4 f5 = K2Val.pv692 (fam c M0 M1 M2 M3 M4 M5 M6 M7 M8 M9 f0 f1 f2 f3 f4 f5 f6 f7 f8 f9) := by
  unfold k2Run.sl.r_702 K2Val.pv692
  rw [e_r_665]
  all_goals rfl
theorem e_r_703 : k2Run.sl.r_703 c M1 f1 = K2Val.pv693 (fam c M0 M1 M2 M3 M4 M5 M6 M7 M8 M9 f0 f1 f2 f3 f4 f5 f6 f7 f8 f9) := by
  unfold k2Run.sl.r_703 K2Val.pv693
  all_goals rfl
theorem e_r_704 : k2Run.sl.r_704 c M0 M1 M2 M3 M4 M5 f0 f1 f2 f3 f4 f5 = K2Val.pv694 (fam c M0 M1 M2 M3 M4 M5 M6 M7 M8 M9 f0 f1 f2 f3 f4 f5 f6 f7 f8 f9) := by
  unfold k2Run.sl.r_704 K2Val.pv694
  rw [e_r_665]
  all_goals rfl
theorem e_r_705 : k2Run.sl.r_705 c M0 M1 M2 M3 M4 M5 f0 f1 f2 f3 f4 f5 = K2Val.pv695 (fam c M0 M1 M2 M3 M4 M5 M6 M7 M8 M9 f0 f1 f2 f3 f4 f5 f6 f7 f8 f9) := by
  unfold k2Run.sl.r_705 K2Val.pv695
  rw [e_r_702, e_r_703, e_r_704]
  all_goals rfl
theorem e_r_706 : k2Run.sl.r_706 c M1 f1 = K2Val.pv696 (fam c M0 M1 M2 M3 M4 M5 M6 M7 M8 M9 f0 f1 f2 f3 f4 f5 f6 f7 f8 f9) := by
  unfold k2Run.sl.r_706 K2Val.pv696
  all_goals rfl
theorem e_r_707 : k2Run.sl.r_707 c M0 M1 M2 M3 M4 M5 f0 f1 f2 f3 f4 f5 = K2Val.pv697 (fam c M0 M1 M2 M3 M4 M5 M6 M7 M8 M9 f0 f1 f2 f3 f4 f5 f6 f7 f8 f9) := by
  unfold k2Run.sl.r_707 K2Val.pv697
  rw [e_r_702, e_r_705, e_r_706]
  all_goals rfl
theorem e_r_708 : k2Run.sl.r_708 c M0 M1 M2 M3 M4 M5 f0 f1 f2 f3 f4 f5 = K2Val.pv698 (fam c M0 M1 M2 M3 M4 M5 M6 M7 M8 M9 f0 f1 f2 f3 f4 f5 f6 f7 f8 f9) := by
  unfold k2Run.sl.r_708 K2Val.pv698
  rw [e_r_665]
  all_goals rfl
theorem e_r_709 : k2Run.sl.r_709 c M0 M1 M2 M3 M4 M5 f0 f1 f2 f3 f4 f5 = K2Val.pv699 (fam c M0 M1 M2 M3 M4 M5 M6 M7 M8 M9 f0 f1 f2 f3 f4 f5 f6 f7 f8 f9) := by
  unfold k2Run.sl.r_709 K2Val.pv699
  rw [e_r_665]
  all_goals rfl
theorem e_r_710 : k2Run.sl.r_710 c M0 M1 M2 M3 M4 M5 f0 f1 f2 f3 f4 f5 = K2Val.pv700 (fam c M0 M1 M2 M3 M4 M5 M6 M7 M8 M9 f0 f1 f2 f3 f4 f5 f6 f7 f8 f9) := by
  unfold k2Run.sl.r_710 K2Val.pv700
  rw [e_r_708, e_r_709]
  all_goals rfl
theorem e_r_711 : k2Run.sl.r_711 c M0 M1 M2 M3 M4 M5 f0 f1 f2 f3 f4 f5 = K2Val.pv701 (fam c M0 M1 M2 M3 M4 M5 M6 M7 M8 M9 f0 f1 f2 f3 f4 f5 f6 f7 f8 f9) := by
  unfold k2Run.sl.r_711 K2Val.pv701
  rw [e_r_665]
  all_goals rfl
theorem e_r_712 : k2Run.sl.r_712 c M0 M1 M2 M3 M4 M5 f0 f1 f2 f3 f4 f5 = K2Val.pv702 (fam c M0 M1 M2 M3 M4 M5 M6 M7 M8 M9 f0 f1 f2 f3 f4 f5 f6 f7 f8 f9) := by
  unfold k2Run.sl.r_712 K2Val.pv702
  rw [e_r_665]
  all_goals rfl
theorem e_r_713 : k2Run.sl.r_713 c M3 f3 = K2Val.pv703 (fam c M0 M1 M2 M3 M4 M5 M6 M7 M8 M9 f0 f1 f2 f3 f4 f5 f6 f7 f8 f9) := by
  unfold k2Run.sl.r_713 K2Val.pv703
  all_goals rfl
theorem e_r_714 : k2Run.sl.r_714 c M0 M1 M2 M3 M4 M5 f0 f1 f2 f3 f4 f5 = K2Val.pv704 (fam c M0 M1 M2 M3 M4 M5 M6 M7 M8 M9 f0 f1 f2 f3 f4 f5 f6 f7 f8 f9) := by
  unfold k2Run.sl.r_714 K2Val.pv704
  rw [e_r_711, e_r_712, e_r_713]
  all_goals rfl
theorem e_r_715 : k2Run.sl.r_715 c M3 f3 = K2Val.pv705 (fam c M0 M1 M2 M3 M4 M5 M6 M7 M8 M9 f0 f1 f2 f3 f4 f5 f6 f7 f8 f9) := by
  unfold k2Run.sl.r_715 K2Val.pv705
  all_goals rfl
theorem e_r_716 : k2Run.sl.r_716 c M0 M1 M2 M3 M4 M5 f0 f1 f2 f3 f4 f5 = K2Val.pv706 (fam c M0 M1 M2 M3 M4 M5 M6 M7 M8 M9 f0 f1 f2 f3 f4 f5 f6 f7 f8 f9) := by
  unfold k2Run.sl.r_716 K2Val.pv706
  rw [e_r_711]
  all_goals rfl
theorem e_r_717 : k2Run.sl.r_717 c M0 M1 M2 M3 M4 M5 f0 f1 f2 f3 f4 f5 = K2Val.pv707 (fam c M0 M1 M2 M3 M4 M5 M6 M7 M8 M9 f0 f1 f2 f3 f4 f5 f6 f7 f8 f9) := by
  unfold k2Run.sl.r_717 K2Val.pv707
  rw [e_r_714, e_r_715, e_r_716]
  all_goals rfl
theorem e_r_718 : k2Run.sl.r_718 c M0 M1 M2 M3 M4 M5 f0 f1 f2 f3 f4 f5 = K2Val.pv708 (fam c M0 M1 M2 M3 M4 M5 M6 M7 M8 M9 f0 f1 f2 f3 f4 f5 f6 f7 f8 f9) := by
  unfold k2Run.sl.r_718 K2Val.pv708
  rw [e_r_665]
  all_goals rfl
theorem e_r_719 : k2Run.sl.r_719 c M0 M1 M2 M3 M4 M5 f0 f1 f2 f3 f4 f5 = K2Val.pv709 (fam c M0 M1 M2 M3 M4 M5 M6 M7 M8 M9 f0 f1 f2 f3 f4 f5 f6 f7 f8 f9) := by
  unfold k2Run.sl.r_719 K2Val.pv709
  rw [e_r_665]
  all_goals rfl
theorem e_r_720 : k2Run.sl.r_720 c M0 M1 M2 M3 M4 M5 f0 f1 f2 f3 f4 f5 = K2Val.pv710 (fam c M0 M1 M2 M3 M4 M5 M6 M7 M8 M9 f0 f1 f2 f3 f4 f5 f6 f7 f8 f9) := by
  unfold k2Run.sl.r_720 K2Val.pv710
  rw [e_r_665]
  all_goals rfl
theorem e_r_721 : k2Run.sl.r_721 c M0 M1 M2 M3 M4 M5 f0 f1 f2 f3 f4 f5 = K2Val.pv711 (fam c M0 M1 M2 M3 M4 M5 M6 M7 M8 M9 f0 f1 f2 f3 f4 f5 f6 f7 f8 f9) := by
  unfold k2Run.sl.r_721 K2Val.pv711
  rw [e_r_718, e_r_719, e_r_720]
  all_goals rfl
theorem e_r_727 : k2Run.sl.r_727 c M0 M1 M2 M3 M4 M5 f0 f1 f2 f3 f4 f5 = K2Val.pv717 (fam c M0 M1 M2 M3 M4 M5 M6 M7 M8 M9 f0 f1 f2 f3 f4 f5 f6 f7 f8 f9) := by
  unfold k2Run.sl.r_727 K2Val.pv717
  rw [e_r_665]
  all_goals rfl
theorem e_r_728 : k2Run.sl.r_728 c M0 M1 M2 M3 M4 M5 f0 f1 f2 f3 f4 f5 = K2Val.pv718 (fam c M0 M1 M2 M3 M4 M5 M6 M7 M8 M9 f0 f1 f2 f3 f4 f5 f6 f7 f8 f9) := by
  unfold k2Run.sl.r_728 K2Val.pv718
  rw [e_r_727]
  all_goals rfl
theorem e_r_729 : k2Run.sl.r_729 c M0 M1 M2 M3 M4 M5 f0 f1 f2 f3 f4 f5 = K2Val.pv719 (fam c M0 M1 M2 M3 M4 M5 M6 M7 M8 M9 f0 f1 f2 f3 f4 f5 f6 f7 f8 f9) := by
  unfold k2Run.sl.r_729 K2Val.pv719
  rw [e_r_727, e_r_728]
  all_goals rfl
theorem e_r_730 : k2Run.sl.r_730 c M0 M1 M2 M3 M4 M5 f0 f1 f2 f3 f4 f5 = K2Val.pv720 (fam c M0 M1 M2 M3 M4 M5 M6 M7 M8 M9 f0 f1 f2 f3 f4 f5 f6 f7 f8 f9) := by
  unfold k2Run.sl.r_730 K2Val.pv720
  rw [e_r_665]
  all_goals rfl
theorem e_r_731 : k2Run.sl.r_731 c M0 M1 M2 M3 M4 M5 f0 f1 f2 f3 f4 f5 = K2Val.pv721 (fam c M0 M1 M2 M3 M4 M5 M6 M7 M8 M9 f0 f1 f2 f3 f4 f5 f6 f7 f8 f9) := by
  unfold k2Run.sl.r_731 K2Val.pv721
  rw [e_r_665]
  all_goals rfl
theorem e_r_732 : k2Run.sl.r_732 c M0 M1 M2 M3 M4 M5 f0 f1 f2 f3 f4 f5 = K2Val.pv722 (fam c M0 M1 M2 M3 M4 M5 M6 M7 M8 M9 f0 f1 f2 f3 f4 f5 f6 f7 f8 f9) := by
  unfold k2Run.sl.r_732 K2Val.pv722
  rw [e_r_665]
  all_goals rfl
theorem e_r_734 : k2Run.sl.r_734 c M0 M1 M2 M3 M4 M5 f0 f1 f2 f3 f4 f5 = K2Val.pv724 (fam c M0 M1 M2 M3 M4 M5 M6 M7 M8 M9 f0 f1 f2 f3 f4 f5 f6 f7 f8 f9) := by
  unfold k2Run.sl.r_734 K2Val.pv724
  rw [e_r_730, e_r_731, e_r_732, e_r_733]
  all_goals rfl
theorem e_r_735 : k2Run.sl.r_735 c M0 M1 M2 M3 M4 M5 f0 f1 f2 f3 f4 f5 = K2Val.pv725 (fam c M0 M1 M2 M3 M4 M5 M6 M7 M8 M9 f0 f1 f2 f3 f4 f5 f6 f7 f8 f9) := by
  unfold k2Run.sl.r_735 K2Val.pv725
  rw [e_r_665]
  all_goals rfl
theorem e_r_736 : k2Run.sl.r_736 c M0 M1 M2 M3 M4 M5 f0 f1 f2 f3 f4 f5 = K2Val.pv726 (fam c M0 M1 M2 M3 M4 M5 M6 M7 M8 M9 f0 f1 f2 f3 f4 f5 f6 f7 f8 f9) := by
  unfold k2Run.sl.r_736 K2Val.pv726
  rw [e_r_665]
  all_goals rfl
theorem e_r_737 : k2Run.sl.r_737 c M0 M1 M2 M3 M4 M5 f0 f1 f2 f3 f4 f5 = K2Val.pv727 (fam c M0 M1 M2 M3 M4 M5 M6 M7 M8 M9 f0 f1 f2 f3 f4 f5 f6 f7 f8 f9) := by
  unfold k2Run.sl.r_737 K2Val.pv727
  rw [e_r_735, e_r_736]
  all_goals rfl
theorem e_r_738 : k2Run.sl.r_738 c M0 M1 M2 M3 M4 M5 f0 f1 f2 f3 f4 f5 = K2Val.pv728 (fam c M0 M1 M2 M3 M4 M5 M6 M7 M8 M9 f0 f1 f2 f3 f4 f5 f6 f7 f8 f9) := by
  unfold k2Run.sl.r_738 K2Val.pv728
  rw [e_r_735]
  all_goals rfl
theorem e_r_739 : k2Run.sl.r_739 c M0 M1 M2 M3 M4 M5 f0 f1 f2 f3 f4 f5 = K2Val.pv729 (fam c M0 M1 M2 M3 M4 M5 M6 M7 M8 M9 f0 f1 f2 f3 f4 f5 f6 f7 f8 f9) := by
  unfold k2Run.sl.r_739 K2Val.pv729
  rw [e_r_670, e_r_673, e_r_678, e_r_683, e_r_688, e_r_691, e_r_697, e_r_701, e_r_707, e_r_710, e_r_717, e_r_721, e_r_726, e_r_729, e_r_734, e_r_737, e_r_738]
  all_goals rfl
theorem e_r_740 : k2Run.sl.r_740 c M0 M1 M2 M3 M4 M5 f0 f1 f2 f3 f4 f5 = K2Val.pv730 (fam c M0 M1 M2 M3 M4 M5 M6 M7 M8 M9 f0 f1 f2 f3 f4 f5 f6 f7 f8 f9) := by
  unfold k2Run.sl.r_740 K2Val.pv730
  rw [e_r_670, e_r_673, e_r_678, e_r_683, e_r_688, e_r_691, e_r_697, e_r_701, e_r_707, e_r_710, e_r_717, e_r_721, e_r_726, e_r_729, e_r_734, e_r_737, e_r_738]
  all_goals rfl
theorem e_r_741 : k2Run.sl.r_741 c M0 M1 M2 M3 M4 M5 f0 f1 f2 f3 f4 f5 = K2Val.pv731 (fam c M0 M1 M2 M3 M4 M5 M6 M7 M8 M9 f0 f1 f2 f3 f4 f5 f6 f7 f8 f9) := by
  unfold k2Run.sl.r_741 K2Val.pv731
  rw [e_r_739, e_r_740]
  all_goals rfl
theorem e_r_759 : k2Run.sl.r_759 c M0 M1 M2 M3 M4 M5 M6 M7 M8 M9 f0 f1 f2 f3 f4 f5 f6 f7 f8 f9 = K2Val.pv748 (fam c M0 M1 M2 M3 M4 M5 M6 M7 M8 M9 f0 f1 f2 f3 f4 f5 f6 f7 f8 f9) := by
  unfold k2Run.sl.r_759 K2Val.pv748
  rw [e_r_741]
  all_goals rfl
theorem e_r_760 : k2Run.sl.r_760 c M0 M1 M2 M3 M4 M5 f0 f1 f2 f3 f4 f5 = K2Val.pv749 (fam c M0 M1 M2 M3 M4 M5 M6 M7 M8 M9 f0 f1 f2 f3 f4 f5 f6 f7 f8 f9) := by
  unfold k2Run.sl.r_760 K2Val.pv749
  rw [e_r_741]
  all_goals rfl
theorem e_r_761 : k2Run.sl.r_761 c M6 f6 = K2Val.pv750 (fam c M0 M1 M2 M3 M4 M5 M6 M7 M8 M9 f0 f1 f2 f3 f4 f5 f6 f7 f8 f9) := by
  unfold k2Run.sl.r_761 K2Val.pv750
  all_goals rfl
theorem e_r_745 : k2Run.sl.r_745 c M0 M1 M2 M3 M4 M5 M6 M7 M8 M9 f0 f1 f2 f3 f4 f5 f6 f7 f8 f9 = K2Val.pv735 (fam c M0 M1 M2 M3 M4 M5 M6 M7 M8 M9 f0 f1 f2 f3 f4 f5 f6 f7 f8 f9) := by
  unfold k2Run.sl.r_745 K2Val.pv735
  rw [e_r_741]
  all_goals rfl
theorem e_r_763 : k2Run.sl.r_763 c M0 M1 M2 M3 M4 M5 M6 M7 M8 M9 f0 f1 f2 f3 f4 f5 f6 f7 f8 f9 = K2Val.pv752 (fam c M0 M1 M2 M3 M4 M5 M6 M7 M8 M9 f0 f1 f2 f3 f4 f5 f6 f7 f8 f9) := by
  unfold k2Run.sl.r_763 K2Val.pv752
  rw [e_r_741]
  all_goals rfl
theorem e_r_768 : k2Run.sl.r_768 c M0 M1 M2 M3 M4 M5 f0 f1 f2 f3 f4 f5 = K2Val.pv756 (fam c M0 M1 M2 M3 M4 M5 M6 M7 M8 M9 f0 f1 f2 f3 f4 f5 f6 f7 f8 f9) := by
  unfold k2Run.sl.r_768 K2Val.pv756
  rw [e_r_741]
  all_goals rfl
theorem e_v8028 : k2Run.sl.v8028 c M0 M1 M2 M3 M4 M5 M6 M7 M8 M9 f0 f1 f2 f3 f4 f5 f6 f7 f8 f9 = K2Val.pv1 (fam c M0 M1 M2 M3 M4 M5 M6 M7 M8 M9 f0 f1 f2 f3 f4 f5 f6 f7 f8 f9) := by
  unfold k2Run.sl.v8028 K2Val.pv1
  rw [e_r_768]
  all_goals rfl
theorem e_r_767 : k2Run.sl.r_767 c M0 M1 M2 M3 M4 M5 M6 M7 M8 M9 f0 f1 f2 f3 f4 f5 f6 f7 f8 f9 = K2Val.pv755 (fam c M0 M1 M2 M3 M4 M5 M6 M7 M8 M9 f0 f1 f2 f3 f4 f5 f6 f7 f8 f9) := by
  unfold k2Run.sl.r_767 K2Val.pv755
  rw [e_r_741]
  all_goals rfl
theorem e_r_746 : k2Run.sl.r_746 c M0 M1 M2 M3 M4 M5 M6 M7 f0 f1 f2 f3 f4 f5 f6 f7 = K2Val.pv736 (fam c M0 M1 M2 M3 M4 M5 M6 M7 M8 M9 f0 f1 f2 f3 f4 f5 f6 f7 f8 f9) := by
  unfold k2Run.sl.r_746 K2Val.pv736
  rw [e_r_741]
  all_goals rfl
theorem e_r_747 : k2Run.sl.r_747 c M0 M1 M2 M3 M4 M5 M6 M7 M8 M9 f0 f1 f2 f3 f4 f5 f6 f7 f8 f9 = K2Val.pv737 (fam c M0 M1 M2 M3 M4 M5 M6 M7 M8 M9 f0 f1 f2 f3 f4 f5 f6 f7 f8 f9) := by
  unfold k2Run.sl.r_747 K2Val.pv737
  rw [e_r_746]
  all_goals rfl
theorem e_r_762 : k2Run.sl.r_762 c M0 M1 M2 M3 M4 M5 M6 M7 M8 M9 f0 f1 f2 f3 f4 f5 f6 f7 f8 f9 = K2Val.pv751 (fam c M0 M1 M2 M3 M4 M5 M6 M7 M8 M9 f0 f1 f2 f3 f4 f5 f6 f7 f8 f9) := by
  unfold k2Run.sl.r_762 K2Val.pv751
  rw [e_r_760, e_r_761]
  all_goals rfl
theorem e_r_742 : k2Run.sl.r_742 c M0 M1 M2 M3 M4 M5 M6 M7 M8 M9 f0 f1 f2 f3 f4 f5 f6 f7 f8 f9 = K2Val.pv732 (fam c M0 M1 M2 M3 M4 M5 M6 M7 M8 M9 f0 f1 f2 f3 f4 f5 f6 f7 f8 f9) := by
  unfold k2Run.sl.r_742 K2Val.pv732
  rw [e_r_739, e_r_740]
  all_goals rfl
theorem e_r_743 : k2Run.sl.r_743 c M0 M1 M2 M3 M4 M5 M6 M7 f0 f1 f2 f3 f4 f5 f6 f7 = K2Val.pv733 (fam c M0 M1 M2 M3 M4 M5 M6 M7 M8 M9 f0 f1 f2 f3 f4 f5 f6 f7 f8 f9) := by
  unfold k2Run.sl.r_743 K2Val.pv733
  rw [e_r_739, e_r_740]
  all_goals rfl
theorem e_r_744 : k2Run.sl.r_744 c M0 M1 M2 M3 M4 M5 M6 M7 M8 M9 f0 f1 f2 f3 f4 f5 f6 f7 f8 f9 = K2Val.pv734 (fam c M0 M1 M2 M3 M4 M5 M6 M7 M8 M9 f0 f1 f2 f3 f4 f5 f6 f7 f8 f9) := by
  unfold k2Run.sl.r_744 K2Val.pv734
  rw [e_r_743]
  all_goals rfl
theorem e_r_748 : k2Run.sl.r_748 c M0 M1 M2 M3 M4 M5 M6 M7 M8 M9 f0 f1 f2 f3 f4 f5 f6 f7 f8 f9 = K2Val.pv738 (fam c M0 M1 M2 M3 M4 M5 M6 M7 M8 M9 f0 f1 f2 f3 f4 f5 f6 f7 f8 f9) := by
  unfold k2Run.sl.r_748 K2Val.pv738
  rw [e_r_741]
  all_goals rfl
theorem e_r_749 : k2Run.sl.r_749 c M0 M1 M2 M3 M4 M5 M6 f0 f1 f2 f3 f4 f5 f6 = K2Val.pv739 (fam c M0 M1 M2 M3 M4 M5 M6 M7 M8 M9 f0 f1 f2 f3 f4 f5 f6 f7 f8 f9) := by
  unfold k2Run.sl.r_749 K2Val.pv739
  rw [e_r_741]
  all_goals rfl
theorem e_r_750 : k2Run.sl.r_750 c M7 f7 = K2Val.pv740 (fam c M0 M1 M2 M3 M4 M5 M6 M7 M8 M9 f0 f1 f2 f3 f4 f5 f6 f7 f8 f9) := by
  unfold k2Run.sl.r_750 K2Val.pv740
  all_goals rfl
theorem e_r_751 : k2Run.sl.r_751 c M0 M1 M2 M3 M4 M5 M6 M7 M8 M9 f0 f1 f2 f3 f4 f5 f6 f7 f8 f9 = K2Val.pv741 (fam c M0 M1 M2 M3 M4 M5 M6 M7 M8 M9 f0 f1 f2 f3 f4 f5 f6 f7 f8 f9) := by
  unfold k2Run.sl.r_751 K2Val.pv741
  rw [e_r_749, e_r_750]
  all_goals rfl
theorem e_r_752 : k2Run.sl.r_752 c M0 M1 M2 M3 M4 M5 M6 M7 M8 M9 f0 f1 f2 f3 f4 f5 f6 f7 f8 f9 = K2Val.pv742 (fam c M0 M1 M2 M3 M4 M5 M6 M7 M8 M9 f0 f1 f2 f3 f4 f5 f6 f7 f8 f9) := by
  unfold k2Run.sl.r_752 K2Val.pv742
  rw [e_r_741]
  all_goals rfl
theorem e_r_753 : k2Run.sl.r_753 c M0 M1 M2 M3 M4 M5 M6 f0 f1 f2 f3 f4 f5 f6 = K2Val.pv743 (fam c M0 M1 M2 M3 M4 M5 M6 M7 M8 M9 f0 f1 f2 f3 f4 f5 f6 f7 f8 f9) := by
  unfold k2Run.sl.r_753 K2Val.pv743
  rw [e_r_741]
  all_goals rfl
theorem e_r_755 : k2Run.sl.r_755 c M0 M1 M2 M3 M4 M5 M6 M7 M8 M9 f0 f1 f2 f3 f4 f5 f6 f7 f8 f9 = K2Val.pv744 (fam c M0 M1 M2 M3 M4 M5 M6 M7 M8 M9 f0 f1 f2 f3 f4 f5 f6 f7 f8 f9) := by
  unfold k2Run.sl.r_755 K2Val.pv744
  rw [e_r_753]
  all_goals rfl
theorem e_r_756 : k2Run.sl.r_756 c M0 M1 M2 M3 M4 M5 M6 M7 M8 M9 f0 f1 f2 f3 f4 f5 f6 f7 f8 f9 = K2Val.pv745 (fam c M0 M1 M2 M3 M4 M5 M6 M7 M8 M9 f0 f1 f2 f3 f4 f5 f6 f7 f8 f9) := by
  unfold k2Run.sl.r_756 K2Val.pv745
  rw [e_r_741]
  all_goals rfl
theorem e_r_757 : k2Run.sl.r_757 c M0 M1 M2 M3 M4 M5 M6 f0 f1 f2 f3 f4 f5 f6 = K2Val.pv746 (fam c M0 M1 M2 M3 M4 M5 M6 M7 M8 M9 f0 f1 f2 f3 f4 f5 f6 f7 f8 f9) := by
  unfold k2Run.sl.r_757 K2Val.pv746
  rw [e_r_741]
  all_goals rfl
theorem e_r_758 : k2Run.sl.r_758 c M0 M1 M2 M3 M4 M5 M6 M7 M8 M9 f0 f1 f2 f3 f4 f5 f6 f7 f8 f9 = K2Val.pv747 (fam c M0 M1 M2 M3 M4 M5 M6 M7 M8 M9 f0 f1 f2 f3 f4 f5 f6 f7 f8 f9) := by
  unfold k2Run.sl.r_758 K2Val.pv747
  rw [e_r_757]
  all_goals rfl
theorem e_r_764 : k2Run.sl.r_764 c M0 M1 M2 M3 M4 M5 f0 f1 f2 f3 f4 f5 = K2Val.pv753 (fam c M0 M1 M2 M3 M4 M5 M6 M7 M8 M9 f0 f1 f2 f3 f4 f5 f6 f7 f8 f9) := by
  unfold k2Run.sl.r_764 K2Val.pv753
  rw [e_r_741]
  all_goals rfl
theorem e_r_766 : k2Run.sl.r_766 c M0 M1 M2 M3 M4 M5 M6 M7 M8 M9 f0 f1 f2 f3 f4 f5 f6 f7 f8 f9 = K2Val.pv754 (fam c M0 M1 M2 M3 M4 M5 M6 M7 M8 M9 f0 f1 f2 f3 f4 f5 f6 f7 f8 f9) := by
  unfold k2Run.sl.r_766 K2Val.pv754
  rw [e_r_764]
  all_goals rfl

end Names

/-! ## The block the body leaves -/

/-- What the body's run leaves in the output block, read back through the block's memref, is the chain's last value over the loaded blocks. -/
theorem k2Run_read_chain (c : Dev nD) (M0 : Memref sig .tc .vmem S16x325x40 .f32) (h0 : M0.IsWhole) (M1 : Memref sig .tc .vmem S10x4x325x325 .f32) (h1 : M1.IsWhole) (M2 : Memref sig .tc .vmem S4x160x64 .f32) (h2 : M2.IsWhole) (M3 : Memref sig .tc .vmem S9x4x64x64 .f32) (h3 : M3.IsWhole) (M4 : Memref sig .tc .vmem S10x64 .f32) (h4 : M4.IsWhole) (M5 : Memref sig .tc .vmem S10x64 .f32) (h5 : M5.IsWhole) (M6 : Memref sig .tc .vmem S64x512 .f32) (h6 : M6.IsWhole) (M7 : Memref sig .tc .vmem S512 .f32) (h7 : M7.IsWhole) (M8 : Memref sig .tc .vmem S512x1 .f32) (h8 : M8.IsWhole) (M9 : Memref sig .tc .vmem S1x1 .f32) (h9 : M9.IsWhole) (M10 : Memref sig .tc .vmem S16x325x1 .f32) (h10 : M10.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) :
    M10.view.read (Elt F) (k2Run (Ix := Ix) (Name := Name) (U := U) (Lvl := Lvl) c M0 h0 M1 h1 M2 h2 M3 h3 M4 h4 M5 h5 M6 h6 M7 h7 M8 h8 M9 h9 M10 h10 f0 f1 f2 f3 f4 f5 f6 f7 f8 f9).1 = K2Val.pv2 (fam c M0 M1 M2 M3 M4 M5 M6 M7 M8 M9 f0 f1 f2 f3 f4 f5 f6 f7 f8 f9) := by
  unfold k2Run
  dsimp only
  rw [View.read_writes_junk_eq_canon]
  unfold k2Run.sl.H10_1
  rw [View.canon_unit_zero (funext fun a => by match a with | ⟨0, _⟩ => rfl | ⟨1, _⟩ => rfl | ⟨2, _⟩ => rfl)]
  unfold K2Val.pv2
  rw [e_r_742, e_r_744, e_r_745, e_r_747, e_r_748, e_r_751, e_r_752, e_r_755, e_r_756, e_r_758, e_r_759, e_r_762, e_r_763, e_r_766, e_r_767, e_v8028]
  all_goals rfl

/-- The same over the payloads' composition of K2ValChain, every load at its family member. -/
theorem k2Run_read (c : Dev nD) (M0 : Memref sig .tc .vmem S16x325x40 .f32) (h0 : M0.IsWhole) (M1 : Memref sig .tc .vmem S10x4x325x325 .f32) (h1 : M1.IsWhole) (M2 : Memref sig .tc .vmem S4x160x64 .f32) (h2 : M2.IsWhole) (M3 : Memref sig .tc .vmem S9x4x64x64 .f32) (h3 : M3.IsWhole) (M4 : Memref sig .tc .vmem S10x64 .f32) (h4 : M4.IsWhole) (M5 : Memref sig .tc .vmem S10x64 .f32) (h5 : M5.IsWhole) (M6 : Memref sig .tc .vmem S64x512 .f32) (h6 : M6.IsWhole) (M7 : Memref sig .tc .vmem S512 .f32) (h7 : M7.IsWhole) (M8 : Memref sig .tc .vmem S512x1 .f32) (h8 : M8.IsWhole) (M9 : Memref sig .tc .vmem S1x1 .f32) (h9 : M9.IsWhole) (M10 : Memref sig .tc .vmem S16x325x1 .f32) (h10 : M10.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) :
    M10.view.read (Elt F) (k2Run (Ix := Ix) (Name := Name) (U := U) (Lvl := Lvl) c M0 h0 M1 h1 M2 h2 M3 h3 M4 h4 M5 h5 M6 h6 M7 h7 M8 h8 M9 h9 M10 h10 f0 f1 f2 f3 f4 f5 f6 f7 f8 f9).1
      = K2Val.pays (fam c M0 M1 M2 M3 M4 M5 M6 M7 M8 M9 f0 f1 f2 f3 f4 f5 f6 f7 f8 f9).x0 (fam c M0 M1 M2 M3 M4 M5 M6 M7 M8 M9 f0 f1 f2 f3 f4 f5 f6 f7 f8 f9).lsAt (fam c M0 M1 M2 M3 M4 M5 M6 M7 M8 M9 f0 f1 f2 f3 f4 f5 f6 f7 f8 f9).w0At (fam c M0 M1 M2 M3 M4 M5 M6 M7 M8 M9 f0 f1 f2 f3 f4 f5 f6 f7 f8 f9).wrAt (fam c M0 M1 M2 M3 M4 M5 M6 M7 M8 M9 f0 f1 f2 f3 f4 f5 f6 f7 f8 f9).gAt (fam c M0 M1 M2 M3 M4 M5 M6 M7 M8 M9 f0 f1 f2 f3 f4 f5 f6 f7 f8 f9).bAt
          (fam c M0 M1 M2 M3 M4 M5 M6 M7 M8 M9 f0 f1 f2 f3 f4 f5 f6 f7 f8 f9).f1w (fam c M0 M1 M2 M3 M4 M5 M6 M7 M8 M9 f0 f1 f2 f3 f4 f5 f6 f7 f8 f9).f1b (fam c M0 M1 M2 M3 M4 M5 M6 M7 M8 M9 f0 f1 f2 f3 f4 f5 f6 f7 f8 f9).f2w (fam c M0 M1 M2 M3 M4 M5 M6 M7 M8 M9 f0 f1 f2 f3 f4 f5 f6 f7 f8 f9).f2b :=
  k2Run_read_chain (Ix := Ix) (Name := Name) (U := U) (Lvl := Lvl) c M0 h0 M1 h1 M2 h2 M3 h3 M4 h4 M5 h5 M6 h6 M7 h7 M8 h8 M9 h9 M10 h10 f0 f1 f2 f3 f4 f5 f6 f7 f8 f9

end Cert.Proof.K2Bridge
-- ==== Proof.K2ValSem.lean ====
/-
  The arranged arithmetic of the second TensorCore region read at the extended reals, index by index: each stage is
  the corresponding stage of the network function of K2ValSpec.
-/
import proofs.«211384_g36696200577170_cont_8to1_b_1111_23_alg».proof.Proof.K2ValOps
import proofs.«211384_g36696200577170_cont_8to1_b_1111_23_alg».proof.Proof.K2ValSpec

open scoped BigOperators

namespace Cert.Proof.K2Val

open Idealize.ShloMosaic Idealize.ShloMosaic.ValueIdx Cert.KernelIdeal Cert.KernelIdeal.Gen

/-! ## Products -/

theorem pair0_apply (L : Vec Ideal S1x1x325x325 .f32) (x : FVec Ideal S325x160 .f32) (W : Vec Ideal S1x160x64 .f32)
    (m : Fin 325) (f : Fin 64) :
    pair0 L x W (ix2 m f) = ∑ k : Fin 160, (∑ n : Fin 325, L (ix4 0 0 m n) * x (ix2 n k)) * W (ix3 0 k f) := by
  unfold pair0
  refine (Lib.matmul2_apply dot_S325x160_S160x64_S325x64_1_0_0_1_n_n.wf none _ _ m f).trans ?_
  refine Finset.sum_congr rfl fun k _ => ?_
  refine congrArg₂ (· * ·) ?_ (shapeCast_1ab_ab_apply W _ k f)
  refine (Lib.matmul2_apply dot_S325x325_S325x160_S325x160_1_0_0_1_n_n.wf none _ _ m k).trans ?_
  exact Finset.sum_congr rfl fun n _ => congrArg₂ (· * ·) (Lib.shapeCast_11ab_ab_apply L _ m n) rfl

theorem pairR_apply (L : Vec Ideal S1x1x325x325 .f32) (x : FVec Ideal S325x64 .f32) (W : Vec Ideal S1x1x64x64 .f32)
    (m : Fin 325) (f : Fin 64) :
    pairR L x W (ix2 m f) = ∑ k : Fin 64, (∑ n : Fin 325, L (ix4 0 0 m n) * x (ix2 n k)) * W (ix4 0 0 k f) := by
  unfold pairR
  refine (Lib.matmul2_apply dot_S325x64_S64x64_S325x64_1_0_0_1_n_n.wf none _ _ m f).trans ?_
  refine Finset.sum_congr rfl fun k _ => ?_
  refine congrArg₂ (· * ·) ?_ (Lib.shapeCast_11ab_ab_apply W _ k f)
  refine (Lib.matmul2_apply dot_S325x325_S325x64_S325x64_1_0_0_1_n_n.wf none _ _ m k).trans ?_
  exact Finset.sum_congr rfl fun n _ => congrArg₂ (· * ·) (Lib.shapeCast_11ab_ab_apply L _ m n) rfl

theorem yb0_apply (x : FVec Ideal S325x160 .f32) (L : Fin 4 → Vec Ideal S1x1x325x325 .f32) (W : Fin 4 → Vec Ideal S1x160x64 .f32)
    (m : Fin 325) (f : Fin 64) :
    yb0 x L W (ix2 m f) = ∑ j : Fin 4, ∑ k : Fin 160, (∑ n : Fin 325, L j (ix4 0 0 m n) * x (ix2 n k)) * W j (ix3 0 k f) := by
  rw [Fin.sum_univ_four]
  show pair0 (L 0) x (W 0) (ix2 m f) + pair0 (L 1) x (W 1) (ix2 m f) + pair0 (L 2) x (W 2) (ix2 m f) + pair0 (L 3) x (W 3) (ix2 m f) = _
  rw [pair0_apply, pair0_apply, pair0_apply, pair0_apply]

theorem ybR_apply (x : FVec Ideal S325x64 .f32) (L : Fin 4 → Vec Ideal S1x1x325x325 .f32) (W : Fin 4 → Vec Ideal S1x1x64x64 .f32)
    (m : Fin 325) (f : Fin 64) :
    ybR x L W (ix2 m f) = ∑ j : Fin 4, ∑ k : Fin 64, (∑ n : Fin 325, L j (ix4 0 0 m n) * x (ix2 n k)) * W j (ix4 0 0 k f) := by
  rw [Fin.sum_univ_four]
  show pairR (L 0) x (W 0) (ix2 m f) + pairR (L 1) x (W 1) (ix2 m f) + pairR (L 2) x (W 2) (ix2 m f) + pairR (L 3) x (W 3) (ix2 m f) = _
  rw [pairR_apply, pairR_apply, pairR_apply, pairR_apply]

/-! ## Slices and stacks -/

theorem slice160_apply (b : Fin 16) (x : FVec Ideal S16x325x160 .f32) (h : S16x325x160.Slices ![b.val, 0, 0] S1x325x160)
    (m : Fin 325) (k : Fin 160) : slice160 b.val x h (ix2 m k) = x (ix3 b m k) :=
  (shapeCast_1ab_ab_apply _ _ m k).trans (Lib.slice3_axis0_apply b.val x h b.isLt 0 m k)

theorem slice64_apply (b : Fin 16) (x : FVec Ideal S16x325x64 .f32) (h : S16x325x64.Slices ![b.val, 0, 0] S1x325x64)
    (m : Fin 325) (k : Fin 64) : slice64 b.val x h (ix2 m k) = x (ix3 b m k) :=
  (shapeCast_1ab_ab_apply _ _ m k).trans (Lib.slice3_axis0_apply b.val x h b.isLt 0 m k)

theorem up64_apply (y : FVec Ideal S325x64 .f32) (u : Fin 1) (m : Fin 325) (f : Fin 64) : up64 y (ix3 u m f) = y (ix2 m f) :=
  shapeCast_ab_1ab_apply y _ u m f

theorem stack64_apply (ys : Fin 16 → FVec Ideal S1x325x64 .f32) (b : Fin 16) (m : Fin 325) (f : Fin 64) :
    stack64 ys (ix3 b m f) = ys b (ix3 0 m f) :=
  Lib.stack16_apply ys _ b m f

theorem stack1_apply (ys : Fin 16 → FVec Ideal S1x325x1 .f32) (b : Fin 16) (m : Fin 325) (f : Fin 1) :
    stack1 ys (ix3 b m f) = ys b (ix3 0 m f) :=
  Lib.stack16_apply ys _ b m f

theorem cat4_apply (x0 : Vec Ideal S16x325x40 .f32) (b : Fin 16) (m : Fin 325) (k : Fin 160) :
    cat4 x0 (ix3 b m k) = x0 (ix3 b m ⟨k.val % 40, Nat.mod_lt _ (by decide)⟩) := by
  unfold cat4
  refine (Lib.repeat_apply 4 _ (by decide) _ b m k).trans ?_
  rw [shapeCast_self]

/-! ## The linear part of a layer -/

theorem lin0_eq (x0 : Vec Ideal S16x325x40 .f32) (L : Fin 4 → Vec Ideal S1x1x325x325 .f32) (W : Fin 4 → Vec Ideal S1x160x64 .f32) :
    (fun b m f => lin0 (cat4 x0) L W (ix3 b m f))
      = conv (fun j m n => L j (ix4 0 0 m n)) (xcat fun b m k => x0 (ix3 b m k)) (fun j k f => W j (ix3 0 k f)) := by
  funext b m f
  unfold lin0 conv xcat
  refine (stack64_apply _ b m f).trans ?_
  refine (up64_apply _ 0 m f).trans ?_
  refine (yb0_apply _ _ _ m f).trans ?_
  refine Finset.sum_congr rfl fun j _ => Finset.sum_congr rfl fun k _ => congrArg₂ (· * ·) (Finset.sum_congr rfl fun n _ => congrArg₂ (· * ·) rfl ?_) rfl
  exact (slice160_apply b _ _ n k).trans (cat4_apply x0 b n k)

theorem linR_eq (x : FVec Ideal S16x325x64 .f32) (L : Fin 4 → Vec Ideal S1x1x325x325 .f32) (W : Fin 4 → Vec Ideal S1x1x64x64 .f32) :
    (fun b m f => linR x L W (ix3 b m f))
      = conv (fun j m n => L j (ix4 0 0 m n)) (fun b m k => x (ix3 b m k)) (fun j k f => W j (ix4 0 0 k f)) := by
  funext b m f
  unfold linR conv
  refine (stack64_apply _ b m f).trans ?_
  refine (up64_apply _ 0 m f).trans ?_
  refine (ybR_apply _ _ _ m f).trans ?_
  refine Finset.sum_congr rfl fun j _ => Finset.sum_congr rfl fun k _ => congrArg₂ (· * ·) (Finset.sum_congr rfl fun n _ => congrArg₂ (· * ·) rfl ?_) rfl
  exact slice64_apply b _ _ n k

/-! ## Batch normalisation -/

theorem mean64_apply (y : FVec Ideal S16x325x64 .f32) (f : Fin 64) : mean64 y (ix1 f) = mean2 (fun b m f => y (ix3 b m f)) f := by
  unfold mean64 mean2
  refine congrArg₂ Ideal.div ?_ rfl
  refine (Lib.sum_axis0_apply _ _ _ _ f).trans ?_
  refine Finset.sum_congr rfl fun b _ => congrArg₂ Ideal.div ?_ rfl
  exact Lib.sum_axis1_apply y _ _ _ b f

theorem spread_apply (v : FVec Ideal S64 .f32) (b : Fin 16) (m : Fin 325) (f : Fin 64) : spread v (ix3 b m f) = v (ix1 f) :=
  (Lib.broadcastTo_11c_abc_apply _ _ b m f).trans (Lib.shapeCast_a_11a_apply v _ 0 0 f)

theorem dev_apply (y : FVec Ideal S16x325x64 .f32) (b : Fin 16) (m : Fin 325) (f : Fin 64) :
    subf y (spread (mean64 y)) (ix3 b m f) = dev (fun b m f => y (ix3 b m f)) b m f := by
  show y (ix3 b m f) - spread (mean64 y) (ix3 b m f) = _
  rw [spread_apply, mean64_apply]
  rfl

theorem bn_eq (y : FVec Ideal S16x325x64 .f32) (g be : Vec Ideal S1x64 .f32) :
    (fun b m f => bn y g be (ix3 b m f)) = bnrelu (fun b m f => y (ix3 b m f)) (fun f => g (ix2 0 f)) (fun f => be (ix2 0 f)) := by
  funext b m f
  unfold bn bnrelu
  refine congrArg₂ max ?_ rfl
  refine congrArg₂ (· + ·) (congrArg₂ (· * ·) (dev_apply y b m f) ?_) ?_
  · refine (spread_apply _ b m f).trans ?_
    refine congrArg₂ Ideal.div (shapeCast_1a_a_apply g _ f) (congrArg Ideal.sqrt (congrArg₂ (· + ·) ?_ rfl))
    refine (mean64_apply _ f).trans ?_
    refine congrArg (fun z => mean2 z f) ?_
    funext b' m' f'
    exact congrArg₂ (· * ·) (dev_apply y b' m' f') (dev_apply y b' m' f')
  · exact (spread_apply _ b m f).trans (shapeCast_1a_a_apply be _ f)

/-! ## The dense head -/

theorem dense1_apply (x : FVec Ideal S325x64 .f32) (f1w : Vec Ideal S64x512 .f32) (f1b : Vec Ideal S512 .f32) (f2w : Vec Ideal S512x1 .f32)
    (f2b : Vec Ideal S1x1 .f32) (m : Fin 325) (u : Fin 1) :
    dense1 x f1w f1b f2w f2b (ix2 m u)
      = (∑ h : Fin 512, max ((∑ f : Fin 64, x (ix2 m f) * f1w (ix2 f h)) + f1b (ix1 h)) c0 * f2w (ix2 h 0)) + f2b (ix2 0 0) := by
  have hu : u = 0 := Subsingleton.elim _ _
  subst hu
  unfold dense1
  refine congrArg₂ (· + ·) ?_ ?_
  · refine (Lib.matmul2_apply dot_S325x512_S512x1_S325x1_1_0_0_1_n_n.wf none _ _ m 0).trans ?_
    refine Finset.sum_congr rfl fun h _ => congrArg₂ (· * ·) ?_ rfl
    refine congrArg₂ max (congrArg₂ (· + ·) ?_ ?_) rfl
    · exact Lib.matmul2_apply dot_S325x64_S64x512_S325x512_1_0_0_1_n_n.wf none _ _ m h
    · exact (broadcastTo_1b_ab_apply _ _ m h).trans (shapeCast_a_1a_apply f1b _ 0 h)
  · refine (Lib.broadcastTo_11_a1_apply _ _ m 0).trans ?_
    exact (shapeCast_a_1a_apply _ _ 0 0).trans (shapeCast_1a_a_apply f2b _ 0)

theorem dense_eq (x : FVec Ideal S16x325x64 .f32) (f1w : Vec Ideal S64x512 .f32) (f1b : Vec Ideal S512 .f32) (f2w : Vec Ideal S512x1 .f32)
    (f2b : Vec Ideal S1x1 .f32) (b : Fin 16) (m : Fin 325) :
    dense x f1w f1b f2w f2b (ix3 b m 0)
      = head (fun b m f => x (ix3 b m f)) (fun f h => f1w (ix2 f h)) (fun h => f1b (ix1 h)) (fun h => f2w (ix2 h 0)) (f2b (ix2 0 0)) b m := by
  unfold dense head
  refine (stack1_apply _ b m 0).trans ?_
  refine (shapeCast_ab_1ab_apply _ _ 0 m 0).trans ?_
  refine (dense1_apply _ f1w f1b f2w f2b m 0).trans ?_
  refine congrArg₂ (· + ·) (Finset.sum_congr rfl fun h _ => congrArg₂ (· * ·) (congrArg₂ max (congrArg₂ (· + ·) (Finset.sum_congr rfl fun f _ => congrArg₂ (· * ·) ?_ rfl) rfl) rfl) rfl) rfl
  exact slice64_apply b _ _ m f

/-! ## The whole region -/

section Whole
variable (x0 : Vec Ideal S16x325x40 .f32) (lsAt : Fin 10 → Fin 4 → Vec Ideal S1x1x325x325 .f32) (w0At : Fin 4 → Vec Ideal S1x160x64 .f32)
  (wrAt : Fin 9 → Fin 4 → Vec Ideal S1x1x64x64 .f32) (gAt bAt : Fin 10 → Vec Ideal S1x64 .f32)

theorem state_eq : ∀ (i : Nat) (h : i < 10),
    (fun b m f => state x0 lsAt w0At wrAt gAt bAt i h (ix3 b m f))
      = hidden (fun b m k => x0 (ix3 b m k)) (fun i j m n => lsAt i j (ix4 0 0 m n)) (fun j k f => w0At j (ix3 0 k f))
          (fun i j k f => wrAt i j (ix4 0 0 k f)) (fun i f => gAt i (ix2 0 f)) (fun i f => bAt i (ix2 0 f)) i h
  | 0, h => by
    unfold state hidden
    rw [bn_eq, lin0_eq]
  | i + 1, h => by
    unfold state hidden
    rw [bn_eq, linR_eq, state_eq i (by omega)]

/-- The arranged arithmetic is the network. -/
theorem composed_eq_net (f1w : Vec Ideal S64x512 .f32) (f1b : Vec Ideal S512 .f32) (f2w : Vec Ideal S512x1 .f32) (f2b : Vec Ideal S1x1 .f32)
    (b : Fin 16) (m : Fin 325) :
    composed x0 lsAt w0At wrAt gAt bAt f1w f1b f2w f2b (ix3 b m 0)
      = net (fun b m k => x0 (ix3 b m k)) (fun i j m n => lsAt i j (ix4 0 0 m n)) (fun j k f => w0At j (ix3 0 k f))
          (fun i j k f => wrAt i j (ix4 0 0 k f)) (fun i f => gAt i (ix2 0 f)) (fun i f => bAt i (ix2 0 f))
          (fun f h => f1w (ix2 f h)) (fun h => f1b (ix1 h)) (fun h => f2w (ix2 h 0)) (f2b (ix2 0 0)) b m := by
  unfold composed net
  rw [dense_eq, state_eq]

end Whole

end Cert.Proof.K2Val
-- ==== Proof.K2ValMain.lean ====
/-
  The value the second TensorCore region stores, as its payloads compose it, is the network function of its ten input
  blocks at every batch and node.
-/
import proofs.«211384_g36696200577170_cont_8to1_b_1111_23_alg».proof.Proof.K2ValChain
import proofs.«211384_g36696200577170_cont_8to1_b_1111_23_alg».proof.Proof.K2ValSem

namespace Cert.Proof.K2Val

open Idealize.ShloMosaic Idealize.ShloMosaic.ValueIdx Cert.KernelIdeal Cert.KernelIdeal.Gen

theorem pays_eq_net (x0 : Vec Ideal S16x325x40 .f32) (lsAt : Fin 10 → Fin 4 → Vec Ideal S1x1x325x325 .f32)
    (w0At : Fin 4 → Vec Ideal S1x160x64 .f32) (wrAt : Fin 9 → Fin 4 → Vec Ideal S1x1x64x64 .f32) (gAt bAt : Fin 10 → Vec Ideal S1x64 .f32)
    (f1w : Vec Ideal S64x512 .f32) (f1b : Vec Ideal S512 .f32) (f2w : Vec Ideal S512x1 .f32) (f2b : Vec Ideal S1x1 .f32)
    (b : Fin 16) (m : Fin 325) :
    pays x0 lsAt w0At wrAt gAt bAt f1w f1b f2w f2b (ix3 b m 0)
      = net (fun b m k => x0 (ix3 b m k)) (fun i j m n => lsAt i j (ix4 0 0 m n)) (fun j k f => w0At j (ix3 0 k f))
          (fun i j k f => wrAt i j (ix4 0 0 k f)) (fun i f => gAt i (ix2 0 f)) (fun i f => bAt i (ix2 0 f))
          (fun f h => f1w (ix2 f h)) (fun h => f1b (ix1 h)) (fun h => f2w (ix2 h 0)) (f2b (ix2 0 0)) b m := by
  rw [pays_eq_composed]
  exact composed_eq_net x0 lsAt w0At wrAt gAt bAt f1w f1b f2w f2b b m

end Cert.Proof.K2Val
-- ==== Proof.K2Net.lean ====
/-
  The second TensorCore region's body, end to end at the extended reals: the output block the body's run leaves,
  read back at batch b and node m, is the network function of the ten input blocks as the body finds them.
-/
import proofs.«211384_g36696200577170_cont_8to1_b_1111_23_alg».proof.Proof.K2Bridge
import proofs.«211384_g36696200577170_cont_8to1_b_1111_23_alg».proof.Proof.K2ValMain

noncomputable section

namespace Cert.Proof.K2Bridge

open Cert.KernelIdeal Cert.KernelIdeal.Gen
open Idealize.ShloMosaic Idealize.ShloMosaic.ValueIdx
open Idealize.ShloMosaic.TcCoe
open Idealize.SL Idealize.SL.RA Idealize.SL.BI
open Cert.Proof.K2Body (k2Run Bf)

variable {F : FTy → Type} [FloatOps F]
variable {Ix : Type} [DecidableEq Ix] {Name : Type} [DecidableEq Name] {U : Type} [URA U] {Lvl : Type} [Preorder Lvl]

/-! ## A loaded block at an index is the input block at the shifted index -/

section Reads
variable (c : Dev nD) (M0 : Memref sig .tc .vmem S16x325x40 .f32) (M1 : Memref sig .tc .vmem S10x4x325x325 .f32) (M2 : Memref sig .tc .vmem S4x160x64 .f32)
  (M3 : Memref sig .tc .vmem S9x4x64x64 .f32) (M4 : Memref sig .tc .vmem S10x64 .f32) (M5 : Memref sig .tc .vmem S10x64 .f32) (M6 : Memref sig .tc .vmem S64x512 .f32)
  (M7 : Memref sig .tc .vmem S512 .f32) (M8 : Memref sig .tc .vmem S512x1 .f32) (M9 : Memref sig .tc .vmem S1x1 .f32)
  (f0 : Bf (F := F) c M0) (f1 : Bf (F := F) c M1) (f2 : Bf (F := F) c M2) (f3 : Bf (F := F) c M3) (f4 : Bf (F := F) c M4) (f5 : Bf (F := F) c M5)
  (f6 : Bf (F := F) c M6) (f7 : Bf (F := F) c M7) (f8 : Bf (F := F) c M8) (f9 : Bf (F := F) c M9)

theorem x0_apply (b : Fin 16) (m : Fin 325) (k : Fin 40) :
    (fam c M0 M1 M2 M3 M4 M5 M6 M7 M8 M9 f0 f1 f2 f3 f4 f5 f6 f7 f8 f9).x0 (ix3 b m k) = M0.view.read (Elt F) f0 (ix3 b m k) := by
  refine congrArg (M0.view.read (Elt F) f0) (funext fun a => Fin.ext ?_)
  match a with
  | ⟨0, _⟩ => show 0 + 1 * b.val = b.val; omega
  | ⟨1, _⟩ => show 0 + 1 * m.val = m.val; omega
  | ⟨2, _⟩ => show 0 + 1 * k.val = k.val; omega

theorem ls_apply (i : Fin 10) (j : Fin 4) (u v : Fin 1) (m n : Fin 325) :
    (fam c M0 M1 M2 M3 M4 M5 M6 M7 M8 M9 f0 f1 f2 f3 f4 f5 f6 f7 f8 f9).lsAt i j (ix4 u v m n) = M1.view.read (Elt F) f1 (ix4 i j m n) := by
  have hu := u.isLt; have hv := v.isLt
  refine congrArg (M1.view.read (Elt F) f1) (funext fun a => Fin.ext ?_)
  match a with
  | ⟨0, _⟩ => show i.val + 1 * u.val = i.val; omega
  | ⟨1, _⟩ => show j.val + 1 * v.val = j.val; omega
  | ⟨2, _⟩ => show 0 + 1 * m.val = m.val; omega
  | ⟨3, _⟩ => show 0 + 1 * n.val = n.val; omega

theorem w0_apply (j : Fin 4) (u : Fin 1) (k : Fin 160) (f : Fin 64) :
    (fam c M0 M1 M2 M3 M4 M5 M6 M7 M8 M9 f0 f1 f2 f3 f4 f5 f6 f7 f8 f9).w0At j (ix3 u k f) = M2.view.read (Elt F) f2 (ix3 j k f) := by
  have hu := u.isLt
  refine congrArg (M2.view.read (Elt F) f2) (funext fun a => Fin.ext ?_)
  match a with
  | ⟨0, _⟩ => show j.val + 1 * u.val = j.val; omega
  | ⟨1, _⟩ => show 0 + 1 * k.val = k.val; omega
  | ⟨2, _⟩ => show 0 + 1 * f.val = f.val; omega

theorem wr_apply (i : Fin 9) (j : Fin 4) (u v : Fin 1) (k f : Fin 64) :
    (fam c M0 M1 M2 M3 M4 M5 M6 M7 M8 M9 f0 f1 f2 f3 f4 f5 f6 f7 f8 f9).wrAt i j (ix4 u v k f) = M3.view.read (Elt F) f3 (ix4 i j k f) := by
  have hu := u.isLt; have hv := v.isLt
  refine congrArg (M3.view.read (Elt F) f3) (funext fun a => Fin.ext ?_)
  match a with
  | ⟨0, _⟩ => show i.val + 1 * u.val = i.val; omega
  | ⟨1, _⟩ => show j.val + 1 * v.val = j.val; omega
  | ⟨2, _⟩ => show 0 + 1 * k.val = k.val; omega
  | ⟨3, _⟩ => show 0 + 1 * f.val = f.val; omega

theorem g_apply (i : Fin 10) (u : Fin 1) (f : Fin 64) :
    (fam c M0 M1 M2 M3 M4 M5 M6 M7 M8 M9 f0 f1 f2 f3 f4 f5 f6 f7 f8 f9).gAt i (ix2 u f) = M4.view.read (Elt F) f4 (ix2 i f) := by
  have hu := u.isLt
  refine congrArg (M4.view.read (Elt F) f4) (funext fun a => Fin.ext ?_)
  match a with
  | ⟨0, _⟩ => show i.val + 1 * u.val = i.val; omega
  | ⟨1, _⟩ => show 0 + 1 * f.val = f.val; omega

theorem b_apply (i : Fin 10) (u : Fin 1) (f : Fin 64) :
    (fam c M0 M1 M2 M3 M4 M5 M6 M7 M8 M9 f0 f1 f2 f3 f4 f5 f6 f7 f8 f9).bAt i (ix2 u f) = M5.view.read (Elt F) f5 (ix2 i f) := by
  have hu := u.isLt
  refine congrArg (M5.view.read (Elt F) f5) (funext fun a => Fin.ext ?_)
  match a with
  | ⟨0, _⟩ => show i.val + 1 * u.val = i.val; omega
  | ⟨1, _⟩ => show 0 + 1 * f.val = f.val; omega

theorem f1w_apply (f : Fin 64) (h : Fin 512) :
    (fam c M0 M1 M2 M3 M4 M5 M6 M7 M8 M9 f0 f1 f2 f3 f4 f5 f6 f7 f8 f9).f1w (ix2 f h) = M6.view.read (Elt F) f6 (ix2 f h) := by
  refine congrArg (M6.view.read (Elt F) f6) (funext fun a => Fin.ext ?_)
  match a with
  | ⟨0, _⟩ => show 0 + 1 * f.val = f.val; omega
  | ⟨1, _⟩ => show 0 + 1 * h.val = h.val; omega

theorem f1b_apply (h : Fin 512) :
    (fam c M0 M1 M2 M3 M4 M5 M6 M7 M8 M9 f0 f1 f2 f3 f4 f5 f6 f7 f8 f9).f1b (ix1 h) = M7.view.read (Elt F) f7 (ix1 h) := by
  refine congrArg (M7.view.read (Elt F) f7) (funext fun a => Fin.ext ?_)
  match a with
  | ⟨0, _⟩ => show 0 + 1 * h.val = h.val; omega

theorem f2w_apply (h : Fin 512) (u : Fin 1) :
    (fam c M0 M1 M2 M3 M4 M5 M6 M7 M8 M9 f0 f1 f2 f3 f4 f5 f6 f7 f8 f9).f2w (ix2 h u) = M8.view.read (Elt F) f8 (ix2 h u) := by
  refine congrArg (M8.view.read (Elt F) f8) (funext fun a => Fin.ext ?_)
  match a with
  | ⟨0, _⟩ => show 0 + 1 * h.val = h.val; omega
  | ⟨1, _⟩ => show 0 + 1 * u.val = u.val; omega

theorem f2b_apply (u v : Fin 1) :
    (fam c M0 M1 M2 M3 M4 M5 M6 M7 M8 M9 f0 f1 f2 f3 f4 f5 f6 f7 f8 f9).f2b (ix2 u v) = M9.view.read (Elt F) f9 (ix2 u v) := by
  refine congrArg (M9.view.read (Elt F) f9) (funext fun a => Fin.ext ?_)
  match a with
  | ⟨0, _⟩ => show 0 + 1 * u.val = u.val; omega
  | ⟨1, _⟩ => show 0 + 1 * v.val = v.val; omega

end Reads

/-! ## The body computes the network -/

/-- From the ten input buffers at contents f0 … f9, the block the body leaves in the output buffer reads, at batch b and
    node m, the network of the input blocks read through their memrefs. -/
theorem k2Run_net (c : Dev nD) (M0 : Memref sig .tc .vmem S16x325x40 .f32) (h0 : M0.IsWhole) (M1 : Memref sig .tc .vmem S10x4x325x325 .f32) (h1 : M1.IsWhole) (M2 : Memref sig .tc .vmem S4x160x64 .f32) (h2 : M2.IsWhole) (M3 : Memref sig .tc .vmem S9x4x64x64 .f32) (h3 : M3.IsWhole) (M4 : Memref sig .tc .vmem S10x64 .f32) (h4 : M4.IsWhole) (M5 : Memref sig .tc .vmem S10x64 .f32) (h5 : M5.IsWhole) (M6 : Memref sig .tc .vmem S64x512 .f32) (h6 : M6.IsWhole) (M7 : Memref sig .tc .vmem S512 .f32) (h7 : M7.IsWhole) (M8 : Memref sig .tc .vmem S512x1 .f32) (h8 : M8.IsWhole) (M9 : Memref sig .tc .vmem S1x1 .f32) (h9 : M9.IsWhole) (M10 : Memref sig .tc .vmem S16x325x1 .f32) (h10 : M10.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8) (f9 : Bf (F := Ideal) c M9)
    (b : Fin 16) (m : Fin 325) :
    M10.view.read (Elt Ideal) (k2Run (F := Ideal) (Ix := Ix) (Name := Name) (U := U) (Lvl := Lvl) c M0 h0 M1 h1 M2 h2 M3 h3 M4 h4 M5 h5 M6 h6 M7 h7 M8 h8 M9 h9 M10 h10 f0 f1 f2 f3 f4 f5 f6 f7 f8 f9).1 (ix3 b m 0)
      = K2Val.net (fun b m k => M0.view.read (Elt Ideal) f0 (ix3 b m k)) (fun i j m n => M1.view.read (Elt Ideal) f1 (ix4 i j m n))
          (fun j k f => M2.view.read (Elt Ideal) f2 (ix3 j k f)) (fun i j k f => M3.view.read (Elt Ideal) f3 (ix4 i j k f))
          (fun i f => M4.view.read (Elt Ideal) f4 (ix2 i f)) (fun i f => M5.view.read (Elt Ideal) f5 (ix2 i f))
          (fun f h => M6.view.read (Elt Ideal) f6 (ix2 f h)) (fun h => M7.view.read (Elt Ideal) f7 (ix1 h))
          (fun h => M8.view.read (Elt Ideal) f8 (ix2 h 0)) (M9.view.read (Elt Ideal) f9 (ix2 0 0)) b m := by
  rw [k2Run_read (Ix := Ix) (Name := Name) (U := U) (Lvl := Lvl) c M0 h0 M1 h1 M2 h2 M3 h3 M4 h4 M5 h5 M6 h6 M7 h7 M8 h8 M9 h9 M10 h10 f0 f1 f2 f3 f4 f5 f6 f7 f8 f9]
  rw [K2Val.pays_eq_net]
  simp only [x0_apply, ls_apply, w0_apply, wr_apply, g_apply, b_apply, f1w_apply, f1b_apply, f2w_apply, f2b_apply]

end Cert.Proof.K2Bridge
-- ==== Proof.KI.V41.lean ====
/-
  The second TensorCore region, end to end at the extended reals: after the region the result's array holds, at batch
  b and node m, the network function of the ten input arrays as the region found them.
-/
import proofs.«211384_g36696200577170_cont_8to1_b_1111_23_alg».proof.Proof.K2BodyOut
import proofs.«211384_g36696200577170_cont_8to1_b_1111_23_alg».proof.Proof.K2Net

noncomputable section

namespace Cert.Proof.KI

open Cert.KernelIdeal Cert.KernelIdeal.Gen
open Idealize.ShloMosaic Idealize.ShloMosaic.ValueIdx
open Idealize.ShloMosaic.TcCoe
open Idealize.SL Idealize.SL.RA Idealize.SL.BI

variable {Ix : Type} [DecidableEq Ix] {Name : Type} [DecidableEq Name] {U : Type} [URA U] {Lvl : Type} [Preorder Lvl]
variable {c : Dev nD} (A : K2Body.Arrs (F := Ideal) c) (O₀ : CellTallies nD τ sig Ix) (Rb : Set (SemLoc sig × Ix))

/-- The network at equal blocks. -/
theorem net_congr {X0 X0' : Fin 16 → Fin 325 → Fin 40 → EReal} {L L' : Fin 10 → Fin 4 → Fin 325 → Fin 325 → EReal}
    {W0 W0' : Fin 4 → Fin 160 → Fin 64 → EReal} {WR WR' : Fin 9 → Fin 4 → Fin 64 → Fin 64 → EReal} {G G' B B' : Fin 10 → Fin 64 → EReal}
    {F1W F1W' : Fin 64 → Fin 512 → EReal} {F1B F1B' F2W F2W' : Fin 512 → EReal} {F2B F2B' : EReal}
    (h0 : X0 = X0') (h1 : L = L') (h2 : W0 = W0') (h3 : WR = WR') (h4 : G = G') (h5 : B = B') (h6 : F1W = F1W') (h7 : F1B = F1B')
    (h8 : F2W = F2W') (h9 : F2B = F2B') :
    K2Val.net X0 L W0 WR G B F1W F1B F2W F2B = K2Val.net X0' L' W0' WR' G' B' F1W' F1B' F2W' F2B' := by
  subst h0 h1 h2 h3 h4 h5 h6 h7 h8 h9
  rfl

set_option maxHeartbeats 4000000 in
/-- After the region the result's array holds, at batch b and node mm, the network of the ten input arrays'
    entry contents. -/
theorem arrAt10_net (b : Fin 16) (mm : Fin 325) :
    ((K2Body.dat (Ix := Ix) (Name := Name) (U := U) (Lvl := Lvl) A O₀ Rb).arrAt 10 cfg2.N : FVec Ideal S16x325x1 .f32) (ix3 b mm 0)
      = K2Val.net (fun b m k => (A 0 : FVec Ideal S16x325x40 .f32) (ix3 b m k)) (fun i j m n => (A 1 : FVec Ideal S10x4x325x325 .f32) (ix4 i j m n))
          (fun j k f => (A 2 : FVec Ideal S4x160x64 .f32) (ix3 j k f)) (fun i j k f => (A 3 : FVec Ideal S9x4x64x64 .f32) (ix4 i j k f))
          (fun i f => (A 4 : FVec Ideal S10x64 .f32) (ix2 i f)) (fun i f => (A 5 : FVec Ideal S10x64 .f32) (ix2 i f))
          (fun f h => (A 6 : FVec Ideal S64x512 .f32) (ix2 f h)) (fun h => (A 7 : FVec Ideal S512 .f32) (ix1 h))
          (fun h => (A 8 : FVec Ideal S512x1 .f32) (ix2 h 0)) ((A 9 : FVec Ideal S1x1 .f32) (ix2 0 0)) b mm := by
  have e0 : (fun b m k => (stage2_0 0).view.read (Elt Ideal) (K2Body.blk0 A) (ix3 b m k)) = fun b m k => (A 0 : FVec Ideal S16x325x40 .f32) (ix3 b m k) :=
    funext fun b => funext fun m => funext fun k => K2Body.blk0_apply A (ix3 b m k)
  have e1 : (fun i j m n => (stage2_1 0).view.read (Elt Ideal) (K2Body.blk1 A) (ix4 i j m n)) = fun i j m n => (A 1 : FVec Ideal S10x4x325x325 .f32) (ix4 i j m n) :=
    funext fun i => funext fun j => funext fun m => funext fun n => K2Body.blk1_apply A (ix4 i j m n)
  have e2 : (fun j k f => (stage2_2 0).view.read (Elt Ideal) (K2Body.blk2 A) (ix3 j k f)) = fun j k f => (A 2 : FVec Ideal S4x160x64 .f32) (ix3 j k f) :=
    funext fun j => funext fun k => funext fun f => K2Body.blk2_apply A (ix3 j k f)
  have e3 : (fun i j k f => (stage2_3 0).view.read (Elt Ideal) (K2Body.blk3 A) (ix4 i j k f)) = fun i j k f => (A 3 : FVec Ideal S9x4x64x64 .f32) (ix4 i j k f) :=
    funext fun i => funext fun j => funext fun k => funext fun f => K2Body.blk3_apply A (ix4 i j k f)
  have e4 : (fun i f => (stage2_4 0).view.read (Elt Ideal) (K2Body.blk4 A) (ix2 i f)) = fun i f => (A 4 : FVec Ideal S10x64 .f32) (ix2 i f) :=
    funext fun i => funext fun f => K2Body.blk4_apply A (ix2 i f)
  have e5 : (fun i f => (stage2_5 0).view.read (Elt Ideal) (K2Body.blk5 A) (ix2 i f)) = fun i f => (A 5 : FVec Ideal S10x64 .f32) (ix2 i f) :=
    funext fun i => funext fun f => K2Body.blk5_apply A (ix2 i f)
  have e6 : (fun f h => (stage2_6 0).view.read (Elt Ideal) (K2Body.blk6 A) (ix2 f h)) = fun f h => (A 6 : FVec Ideal S64x512 .f32) (ix2 f h) :=
    funext fun f => funext fun h => K2Body.blk6_apply A (ix2 f h)
  have e7 : (fun h => (stage2_7 0).view.read (Elt Ideal) (K2Body.blk7 A) (ix1 h)) = fun h => (A 7 : FVec Ideal S512 .f32) (ix1 h) :=
    funext fun h => K2Body.blk7_apply A (ix1 h)
  have e8 : (fun h => (stage2_8 0).view.read (Elt Ideal) (K2Body.blk8 A) (ix2 h (0 : Fin 1))) = fun h => (A 8 : FVec Ideal S512x1 .f32) (ix2 h (0 : Fin 1)) :=
    funext fun h => K2Body.blk8_apply A (ix2 h (0 : Fin 1))
  have e9 : (stage2_9 0).view.read (Elt Ideal) (K2Body.blk9 A) (ix2 (0 : Fin 1) (0 : Fin 1)) = (A 9 : FVec Ideal S1x1 .f32) (ix2 (0 : Fin 1) (0 : Fin 1)) :=
    K2Body.blk9_apply A (ix2 (0 : Fin 1) (0 : Fin 1))
  have hcg := congrFun (congrFun (net_congr e0 e1 e2 e3 e4 e5 e6 e7 e8 e9) b) mm
  have hout := K2Body.out_read (Ix := Ix) (Name := Name) (U := U) (Lvl := Lvl) A O₀ Rb (ix3 b mm 0)
  have hnet := K2Bridge.k2Run_net (Ix := Ix) (Name := Name) (U := U) (Lvl := Lvl) c (stage2_0 0) (hstage2_0 0) (stage2_1 0) (hstage2_1 0) (stage2_2 0) (hstage2_2 0) (stage2_3 0) (hstage2_3 0) (stage2_4 0) (hstage2_4 0) (stage2_5 0) (hstage2_5 0) (stage2_6 0) (hstage2_6 0) (stage2_7 0) (hstage2_7 0) (stage2_8 0) (hstage2_8 0) (stage2_9 0) (hstage2_9 0) (stage2_10 0) (hstage2_10 0) (K2Body.blk0 A) (K2Body.blk1 A) (K2Body.blk2 A) (K2Body.blk3 A) (K2Body.blk4 A) (K2Body.blk5 A) (K2Body.blk6 A) (K2Body.blk7 A) (K2Body.blk8 A) (K2Body.blk9 A) b mm
  generalize (K2Body.K (Ix := Ix) (Name := Name) (U := U) (Lvl := Lvl) A).1 = X at hout hnet
  exact hout.trans (hnet.trans hcg)

/-- The same with the entry contents read off a valuation of the core's buffers: window w's array is the buffer the
    pipeline's specification names for it. -/
theorem arrAt10_net_of_valuation (Vl : Valuation τ sig (Elt Ideal)) (b : Fin 16) (mm : Fin 325) :
    ((K2Body.dat (Ix := Ix) (Name := Name) (U := U) (Lvl := Lvl) (c := c) (fun w => Vl (Pipeline.arrRef spec2 w)) O₀ Rb).arrAt 10 cfg2.N : FVec Ideal S16x325x1 .f32) (ix3 b mm 0)
      = K2Val.net (fun b m k => (Vl (Proc.devRef .tc main_v10) : FVec Ideal S16x325x40 .f32) (ix3 b m k))
          (fun i j m n => (Vl (Proc.devRef .tc main_v39) : FVec Ideal S10x4x325x325 .f32) (ix4 i j m n))
          (fun j k f => (Vl (Proc.devRef .tc main_arg9) : FVec Ideal S4x160x64 .f32) (ix3 j k f))
          (fun i j k f => (Vl (Proc.devRef .tc main_arg11) : FVec Ideal S9x4x64x64 .f32) (ix4 i j k f))
          (fun i f => (Vl (Proc.devRef .tc main_arg13) : FVec Ideal S10x64 .f32) (ix2 i f))
          (fun i f => (Vl (Proc.devRef .tc main_arg14) : FVec Ideal S10x64 .f32) (ix2 i f))
          (fun f h => (Vl (Proc.devRef .tc main_arg15) : FVec Ideal S64x512 .f32) (ix2 f h))
          (fun h => (Vl (Proc.devRef .tc main_arg16) : FVec Ideal S512 .f32) (ix1 h))
          (fun h => (Vl (Proc.devRef .tc main_arg17) : FVec Ideal S512x1 .f32) (ix2 h (0 : Fin 1)))
          ((Vl (Proc.devRef .tc main_v40) : FVec Ideal S1x1 .f32) (ix2 (0 : Fin 1) (0 : Fin 1))) b mm :=
  arrAt10_net (Ix := Ix) (Name := Name) (U := U) (Lvl := Lvl) (c := c) (fun w => Vl (Pipeline.arrRef spec2 w)) O₀ Rb b mm

end Cert.Proof.KI
-- ==== Proof.K0Bits.lean ====
/-
  Region k0 (the first TensorCore call, `cc0__a_body` on a grid of 40 points over 5 windows): the pipeline's
  proof data and the body obligation in the form `Pipeline.RegionSeg` consumes, at any float family `F`
  and at any ghost algebra (`Ix`, `Name`, `U`, `Lvl`).

  The body loads the four input windows' staging buffers whole, loads the output's (the value is unused),
  and stores one payload, `k0_pay1` of the four loaded values, over the whole output buffer. So after the
  body at point `t` each input buffer holds its block and the output buffer holds the canon of that one
  store; the invariant (the scoped buffers no window stages) and what the core owes pass through unread.
-/
import proofs.«211384_g36696200577170_cont_8to1_b_1111_23_alg».proof.Proof.Gen.Kernel.Launch
import proofs.«211384_g36696200577170_cont_8to1_b_1111_23_alg».proof.Proof.Gen.Kernel.Skeleton
import proofs.«211384_g36696200577170_cont_8to1_b_1111_23_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Proof.K0Bits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The windows' blocks -/

/-- The entry contents of the five windows' arrays on core `c`. -/
abbrev Arrs (c : Dev nD) : Type := (w : Fin cfg0.W) → Buf (Elt F) ((cfg0.win w).arr.view.loc (c.tc : Thread nD τ))

/-- Window `w`'s block at point `t`, read off its array's entry contents. -/
def iblk {c : Dev nD} (A : Arrs (F := F) c) (w : Fin cfg0.W) (t : Fin cfg0.N) :
    ((cfg0.win w).xblock (cfg0.grid.coords t)).Idx → Elt F (cfg0.win w).elt :=
  ((cfg0.win w).blk t).view.read (Elt F) (A w)

/-! ## The body's accesses: each a whole staging buffer -/

abbrev rX : Rect S5200x5 := Rect.unit (s := S5200x5) ![0, 0] S5200x5.size inb_S5200x5_S5200x5_0_0
abbrev rW : Rect S1x5x256 := Rect.unit (s := S1x5x256) ![0, 0, 0] S1x5x256.size inb_S1x5x256_S1x5x256_0_0_0
abbrev rB : Rect S1x1x256 := Rect.unit (s := S1x1x256) ![0, 0, 0] S1x1x256.size inb_S1x1x256_S1x1x256_0_0_0
abbrev rO : Rect S1x325x16 := Rect.unit (s := S1x325x16) ![0, 0, 0] S1x325x16.size inb_S1x325x16_S1x325x16_0_0_0

/-- The output window's staging buffer after the body, from the four input buffers' contents: its one store. -/
def out4 (x0 : Vec F S5200x5 .f32) (x1 : Vec F S1x5x256 .f32) (x2 : Vec F S1x1x256 .f32) (x3 : Vec F S1x1x256 .f32) :
    Vec F S1x325x16 .f32 :=
  View.canon [⟨rO, k0_pay1 (View.ld x0 rX) (View.ld x1 rW) (View.ld x2 rB) (View.ld x3 rB)⟩]

/-- The one store covers the buffer. -/
theorem cover4 (p0 : Vec F S1x325x16 .f32) (y : S1x325x16.Idx) :
    ∃ pc ∈ ([⟨rO, p0⟩] : List (View.Piece (Elt F) S1x325x16 .f32)), y ∈ pc.1.set :=
  View.cover_of_tiled [⟨rO, p0⟩] S1x325x16.size (by rfl) y

/-! ## The body's triple -/

set_option maxHeartbeats 1000000 in
/-- The body on whole staging memrefs, the inputs' at contents `x0 … x3` and the output's at anything, runs to the
    continuation with the inputs' as they were and the output's at `out4` of the inputs'. -/
theorem sound_kernel (c : Dev nD) (E : Set Name) (i : grid0.Coords)
    (arg1 : Memref sig .tc .vmem S5200x5 .f32) (harg1 : arg1.IsWhole) (arg2 : Memref sig .tc .vmem S1x5x256 .f32) (harg2 : arg2.IsWhole)
    (arg3 : Memref sig .tc .vmem S1x1x256 .f32) (harg3 : arg3.IsWhole) (arg4 : Memref sig .tc .vmem S1x1x256 .f32) (harg4 : arg4.IsWhole)
    (arg5 : Memref sig .tc .vmem S1x325x16 .f32) (harg5 : arg5.IsWhole)
    (x0 : Vec F S5200x5 .f32) (x1 : Vec F S1x5x256 .f32) (x2 : Vec F S1x1x256 .f32) (x3 : Vec F S1x1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E (cc0__a_body i arg1 harg1 arg2 harg2 arg3 harg3 arg4 harg4 arg5 harg5) K := by
  simp only [cc0__a_body_eq_skeleton]; unfold cc0__a_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The pipeline's proof data -/

/-- The proof data of pipeline 0 on core `c`, from the arrays' entry contents `A` and what the core owes throughout
    `O₀`: after the body at point `t` each input's buffer at its block and the output's at `out4` of the input blocks;
    the invariant the scoped buffers no window stages; full shares; the bound on the recorded wait pairs the constant `Rb`
    (the body waits on nothing). -/
def dat0 {c : Dev nD} (A : Arrs (F := F) c) (O₀ : CellTallies nD τ sig Ix) (Rb : Set (SemLoc sig × Ix)) :
    Dat τ (Elt F) Ix Name U Lvl cfg0 c where
  A := A
  after w t := match w with
    | ⟨0, _⟩ => iblk A 0 t
    | ⟨1, _⟩ => iblk A 1 t
    | ⟨2, _⟩ => iblk A 2 t
    | ⟨3, _⟩ => iblk A 3 t
    | ⟨4, _⟩ => out4 (iblk A 0 t) (iblk A 1 t) (iblk A 2 t) (iblk A 3 t)
  Φ _ := Pipeline.scopedRest spec0 c
  q _ := fullShare
  owed _ := O₀
  recorded _ := Rb

section
variable {c : Dev nD} (A : Arrs (F := F) c) (O₀ : CellTallies nD τ sig Ix) (Rb : Set (SemLoc sig × Ix))

local notation "𝔡" => dat0 (Name := Name) (U := U) (Lvl := Lvl) A O₀ Rb

theorem A_eq (w : Fin cfg0.W) : (𝔡).A w = A w := by dsimp only [dat0]
theorem owed_eq (t : Fin (cfg0.N + 1)) : (𝔡).owed t = O₀ := by dsimp only [dat0]
theorem recorded_eq (t : Fin (cfg0.N + 1)) : (𝔡).recorded t = Rb := by dsimp only [dat0]
theorem Φ_eq (t : Fin (cfg0.N + 1)) : (𝔡).Φ t = Pipeline.scopedRest spec0 c := by dsimp only [dat0]
theorem q_eq (w : Fin cfg0.W) : (𝔡).q w = fullShare := by dsimp only [dat0]

theorem after0_0 (t : Fin cfg0.N) : (𝔡).after 0 t = iblk A 0 t := by dsimp only [dat0]
theorem after0_1 (t : Fin cfg0.N) : (𝔡).after 1 t = iblk A 1 t := by dsimp only [dat0]
theorem after0_2 (t : Fin cfg0.N) : (𝔡).after 2 t = iblk A 2 t := by dsimp only [dat0]
theorem after0_3 (t : Fin cfg0.N) : (𝔡).after 3 t = iblk A 3 t := by dsimp only [dat0]
theorem after0_4 (t : Fin cfg0.N) : (𝔡).after 4 t = out4 (iblk A 0 t) (iblk A 1 t) (iblk A 2 t) (iblk A 3 t) := by dsimp only [dat0]

/-- Each input's current staging buffer holds its block at every point, fetched there or not. -/
theorem before0_0 (t : Fin cfg0.N) (d) : (𝔡).before 0 t d = iblk A 0 t :=
  ((𝔡).before_in_eq_fetched 0 rfl (fun _ => rfl) (fun _ _ _ => rfl)
      (fun t => by rw [after0_0 A O₀ Rb]; unfold Dat.blockOf iblk; rw [A_eq A O₀ Rb]; try rfl) t d).trans
    (by unfold Dat.fetched Dat.blockOf iblk; rw [A_eq A O₀ Rb]; try rfl)
theorem before0_1 (t : Fin cfg0.N) (d) : (𝔡).before 1 t d = iblk A 1 t :=
  ((𝔡).before_in_eq_fetched 1 rfl (fun _ => rfl) (fun _ _ _ => rfl)
      (fun t => by rw [after0_1 A O₀ Rb]; unfold Dat.blockOf iblk; rw [A_eq A O₀ Rb]; try rfl) t d).trans
    (by unfold Dat.fetched Dat.blockOf iblk; rw [A_eq A O₀ Rb]; try rfl)
theorem before0_2 (t : Fin cfg0.N) (d) : (𝔡).before 2 t d = iblk A 2 t :=
  ((𝔡).before_in_eq_fetched 2 rfl (fun _ => rfl) (fun _ _ _ => rfl)
      (fun t => by rw [after0_2 A O₀ Rb]; unfold Dat.blockOf iblk; rw [A_eq A O₀ Rb]; try rfl) t d).trans
    (by unfold Dat.fetched Dat.blockOf iblk; rw [A_eq A O₀ Rb]; try rfl)
theorem before0_3 (t : Fin cfg0.N) (d) : (𝔡).before 3 t d = iblk A 3 t :=
  ((𝔡).before_in_eq_fetched 3 rfl (fun _ => rfl) (fun _ _ _ => rfl)
      (fun t => by rw [after0_3 A O₀ Rb]; unfold Dat.blockOf iblk; rw [A_eq A O₀ Rb]; try rfl) t d).trans
    (by unfold Dat.fetched Dat.blockOf iblk; rw [A_eq A O₀ Rb]; try rfl)

/-! ## The body obligation -/

/-- What the body is called with at point `t`: the invariant, what the core owes, and the five windows' current
    staging buffers, each at what it then holds. -/
def bodyPre (ι : Ix) (t : Fin cfg0.N) : sProp 𝕄 :=
  iprop((𝔡).Φ t.castSucc ∗ (𝔡).owesAt ι t.castSucc
    ∗ (∃ d, owns (c : Thread nD τ) (st0_0 t) fullShare ((𝔡).before 0 t d))
    ∗ (∃ d, owns (c : Thread nD τ) (st0_1 t) fullShare ((𝔡).before 1 t d))
    ∗ (∃ d, owns (c : Thread nD τ) (st0_2 t) fullShare ((𝔡).before 2 t d))
    ∗ (∃ d, owns (c : Thread nD τ) (st0_3 t) fullShare ((𝔡).before 3 t d))
    ∗ (∃ d, owns (c : Thread nD τ) (st0_4 t) fullShare ((𝔡).before 4 t d)))

/-- and what it returns. -/
def bodyPost (ι : Ix) (t : Fin cfg0.N) : sProp 𝕄 :=
  iprop((𝔡).Φ t.succ ∗ (𝔡).owesAt ι t.succ
    ∗ owns (c : Thread nD τ) (st0_0 t) fullShare ((𝔡).after 0 t)
    ∗ owns (c : Thread nD τ) (st0_1 t) fullShare ((𝔡).after 1 t)
    ∗ owns (c : Thread nD τ) (st0_2 t) fullShare ((𝔡).after 2 t)
    ∗ owns (c : Thread nD τ) (st0_3 t) fullShare ((𝔡).after 3 t)
    ∗ owns (c : Thread nD τ) (st0_4 t) fullShare ((𝔡).after 4 t))

/-- The body at any point: the inputs' buffers hold their blocks, so the body's triple applies; the invariant and what
    the core owes pass through unread. -/
theorem sound_body (ι : Ix) (t : Fin cfg0.N) :
    bodyPre (Name := Name) (U := U) (Lvl := Lvl) A O₀ Rb ι t
      ⊢ wp frame (wpE (defs₀ (F := F)) Variants.none c none) Set.univ (bodyAt0 t)
          (fun _ => bodyPost (Name := Name) (U := U) (Lvl := Lvl) A O₀ Rb ι t) := by
  unfold bodyPre bodyPost bodyAt0
  simp only [before0_0 A O₀ Rb, before0_1 A O₀ Rb, before0_2 A O₀ Rb, before0_3 A O₀ Rb]
  rw [show (𝔡).Φ t.succ = (𝔡).Φ t.castSucc from rfl,
    show (𝔡).owesAt ι t.succ = (𝔡).owesAt ι t.castSucc from rfl,
    after0_0 A O₀ Rb, after0_1 A O₀ Rb, after0_2 A O₀ Rb, after0_3 A O₀ Rb, after0_4 A O₀ Rb]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _
    (iblk A 0 t) (iblk A 1 t) (iblk A 2 t) (iblk A 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of pipeline 0 at every point, in its exact form, -/
theorem body_obligation0 (ι : Ix) : BodyObligation (𝔡) (defs₀ (F := F)) Variants.none ι Set.univ := fun t => by
  rw [bigSep_W0, bigSep_W0]
  exact sound_body A O₀ Rb ι t

/-- and as the region rule takes it, for every index of the credit tokens. -/
theorem hbody0 (ι : Ix) : BodyObligationLoose (𝔡) (defs₀ (F := F)) Variants.none ι Set.univ :=
  (body_obligation0 A O₀ Rb ι).loose

/-! ## The invariant's two ends, for a kernel with no semaphores of its own -/

/-- The invariant before the first point, from the scoped buffers no window stages (nothing else enters it). -/
theorem hin0 (pre : sProp 𝕄) : iprop(emp ∗ pre ∗ Pipeline.scopedRest spec0 c) ⊢ (𝔡).Φ 0 := by
  rw [Φ_eq]; iintro ⟨-, -, H⟩; iexact H

/-- The invariant after the last point gives the scoped buffers back. -/
theorem hout0 : (𝔡).Φ (Fin.last cfg0.N)
    ⊢ iprop(emp ∗ Pipeline.ownSems0 (fun k : PEmpty => k.elim) c ∗ Pipeline.scopedRest spec0 c) := by
  rw [Φ_eq, Pipeline.ownSems0_none]; iintro H
  isplitr; · iempintro
  isplitr; · iempintro
  iexact H

/-! ## The arrays after the region: the inputs as found, the output block by block -/

theorem hz2 : (![0, 0] : Fin 2 → Nat) = fun _ => 0 := funext fun a => by fin_cases a <;> rfl
theorem hz3 : (![0, 0, 0] : Fin 3 → Nat) = fun _ => 0 := funext fun a => by fin_cases a <;> rfl

/-- One store over the whole buffer leaves its payload, and each load reads its whole buffer. -/
theorem out4_eq (x0 : Vec F S5200x5 .f32) (x1 : Vec F S1x5x256 .f32) (x2 : Vec F S1x1x256 .f32) (x3 : Vec F S1x1x256 .f32) :
    out4 x0 x1 x2 x3 = k0_pay1 x0 x1 x2 x3 := by
  unfold out4
  rw [View.canon_unit_zero hz3]
  simp only [View.ld_unit_zero (S := S5200x5) hz2, View.ld_unit_zero (S := S1x5x256) hz3, View.ld_unit_zero (S := S1x1x256) hz3]

/-- An input window's array is never written back. -/
theorem arrAt_in0 (n : Nat) : (𝔡).arrAt 0 n = A 0 := ((𝔡).arrAt_in 0 rfl n).trans (A_eq A O₀ Rb 0)
theorem arrAt_in1 (n : Nat) : (𝔡).arrAt 1 n = A 1 := ((𝔡).arrAt_in 1 rfl n).trans (A_eq A O₀ Rb 1)
theorem arrAt_in2 (n : Nat) : (𝔡).arrAt 2 n = A 2 := ((𝔡).arrAt_in 2 rfl n).trans (A_eq A O₀ Rb 2)
theorem arrAt_in3 (n : Nat) : (𝔡).arrAt 3 n = A 3 := ((𝔡).arrAt_in 3 rfl n).trans (A_eq A O₀ Rb 3)

/-- What point `t` writes back to the output array: the payload of the four input blocks at `t`. -/
theorem flushed4 (t : Fin cfg0.N) :
    (𝔡).flushed 4 t = (cfg0.win 4).cut (grid0.coords t) (k0_pay1 (iblk A 0 t) (iblk A 1 t) (iblk A 2 t) (iblk A 3 t)) := by
  show (cfg0.win 4).cut (grid0.coords t) ((𝔡).after 4 t) = _
  rw [after0_4 A O₀ Rb, out4_eq]

/-- The output's index map sends distinct grid points to distinct blocks. -/
theorem idx_inj4 : ∀ t t' : Fin cfg0.N, win0_4.index t = win0_4.index t' → t = t' :=
  (by decide +kernel : ∀ t t' : Fin grid0.N, win0_4.index t = win0_4.index t' → t = t')

/-- So two points' output blocks share no index. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- Block `t` of the output array after the region, read back, is what point `t` wrote. -/
theorem blocks4 (t : Fin cfg0.N) :
    ((cfg0.win 4).blk t).view.read (Elt F) ((𝔡).arrAt 4 cfg0.N)
      = (cfg0.win 4).cut (grid0.coords t) (k0_pay1 (iblk A 0 t) (iblk A 1 t) (iblk A 2 t) (iblk A 3 t)) :=
  ((𝔡).read_blk_arrAt_eq_flushed 4 disjoint4 cfg0.N t t.isLt (flush0_4 t)).trans (flushed4 A O₀ Rb t)

/-! ## The same data at the program's pinned configuration -/

/-- The program's pipelines prefetch nothing, so pipeline 0 pinned at any admissible choice is `cfg0`. -/
theorem pin_eq (a : (p : Fin 2) → (pcfgs (F := F) p).Adm) : Pipeline.pin (pcfgs (F := F)) a 0 = cfg0 := rfl

/-- The proof data read at the pinned configuration. -/
abbrev dat0P (a : (p : Fin 2) → (pcfgs (F := F) p).Adm) :
    Dat τ (Elt F) Ix Name U Lvl (Pipeline.pin (pcfgs (F := F)) a 0) c := dat0 A O₀ Rb

/-- The body obligation at the pinned configuration. -/
theorem hbody0P (a : (p : Fin 2) → (pcfgs (F := F) p).Adm) (ι : Ix) :
    BodyObligationLoose (dat0P (Name := Name) (U := U) (Lvl := Lvl) A O₀ Rb a) (defs₀ (F := F)) Variants.none ι Set.univ :=
  hbody0 A O₀ Rb ι

end

end Cert.Proof.K0Bits

end
-- ==== Proof.K2BodyK.lean ====
/-
  Region k2 (the network body, one grid point): the body's run.

  The body is fourteen thousand printed statements in 248 parts (244 of at most sixty statements, four over their
  calls). It only READS its ten input blocks (1,365 loads through 105 literal rectangles) and ends in ONE store that
  fills the output block. So from the eleven staging buffers held whole — the inputs at contents `f0 … f9`, the
  output at anything — it runs to its return with the inputs as they were and the output at a term over
  `f0 … f9` alone: the last payload applied to the earlier ones, down to the loads. That term is the witness of a
  subtype, found by running the body part by part, one theorem per printed part composed along the root sequence.
-/
import proofs.«211384_g36696200577170_cont_8to1_b_1111_23_alg».proof.Proof.Gen.Kernel.Skeleton
import Idealize.ShloMosaic.Lib.Tactic

noncomputable section

namespace Cert.Proof.K2BodyK

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The contents type of memref `M`'s buffer on core `c`. -/
abbrev Bf (c : Dev nD) {sp : Space} {S : Shape} {e : EltTy} (M : Memref sig .tc sp S e) : Type :=
  Buf (Elt F) (M.view.loc (c : Thread nD τ))

/-- Memref `M`'s buffer on core `c` held whole, outright, at contents `f`. -/
abbrev pt (c : Dev nD) {sp : Space} {S : Shape} {e : EltTy} (M : Memref sig .tc sp S e) (f : Bf (F := F) c M) : sProp 𝕄 :=
  M.view.loc (c : Thread nD τ) ↦{fullShare} f

set_option maxHeartbeats 8000000 in
/-- What the body leaves in the output block, as a term over the input blocks' contents, WITH the proof that from
    the eleven buffers held whole the body runs to its return handing the inputs back as they were and the output
    at that term. -/
noncomputable def k2Run (c : Dev nD) (M0 : Memref sig .tc .vmem S16x325x40 .f32) (h0 : M0.IsWhole) (M1 : Memref sig .tc .vmem S10x4x325x325 .f32) (h1 : M1.IsWhole) (M2 : Memref sig .tc .vmem S4x160x64 .f32) (h2 : M2.IsWhole) (M3 : Memref sig .tc .vmem S9x4x64x64 .f32) (h3 : M3.IsWhole) (M4 : Memref sig .tc .vmem S10x64 .f32) (h4 : M4.IsWhole) (M5 : Memref sig .tc .vmem S10x64 .f32) (h5 : M5.IsWhole) (M6 : Memref sig .tc .vmem S64x512 .f32) (h6 : M6.IsWhole) (M7 : Memref sig .tc .vmem S512 .f32) (h7 : M7.IsWhole) (M8 : Memref sig .tc .vmem S512x1 .f32) (h8 : M8.IsWhole) (M9 : Memref sig .tc .vmem S1x1 .f32) (h9 : M9.IsWhole) (M10 : Memref sig .tc .vmem S16x325x1 .f32) (h10 : M10.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) :
    { W : Bf (F := F) c M10 //
      ∀ (f10 : Bf (F := F) c M10) (E : Set Name) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10
          ∗ (iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 W) -∗ Q ⟨⟩))
        ⊢ wp frame (wpE (defs₀ (F := F)) Variants.none c none) E
            (cc2__net_body M0 h0 M1 h1 M2 h2 M3 h3 M4 h4 M5 h5 M6 h6 M7 h7 M8 h8 M9 h9 M10 h10) Q } := by
  refine ⟨?_, fun f10 E Q => ?run⟩
  case run =>
    iintro ⟨H0, H1, H2, H3, H4, H5, H6, H7, H8, H9, H10, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.Proof.K2BodyK

end
-- ==== Proof.K2BodyDatK.lean ====
/-
  Region k2 (the network body, one grid point): the pipeline's proof data and the body obligation.

  The pipeline is gridless — one point — over eleven whole-array windows, ten inputs and the result, each staged in
  one buffer, with no scratch buffer, no semaphore of the kernel's own and no prefetched table. At the point every
  input is fetched, so its staging buffer holds the array itself; the body's run hands the inputs back as they were
  and leaves in the result's buffer the term it finds (`k2Run`'s witness). The invariant between the region's ends
  is the scoped buffers no window of this pipeline stages, each at something; the core owes the same tallies
  throughout (the body pays off nothing and takes on nothing).
-/
import proofs.«211384_g36696200577170_cont_8to1_b_1111_23_alg».proof.Proof.K2BodyK
import proofs.«211384_g36696200577170_cont_8to1_b_1111_23_alg».proof.Proof.Gen.Kernel.Launch
import proofs.«211384_g36696200577170_cont_8to1_b_1111_23_alg».proof.Proof.Gen.Kernel.Points

noncomputable section

namespace Cert.Proof.K2BodyK

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The entry contents of the windows' arrays on core `c`. -/
abbrev Arrs (c : Dev nD) : Type := (w : Fin cfg2.W) → Buf (Elt F) ((cfg2.win w).arr.view.loc (c.tc : Thread nD τ))

variable {c : Dev nD} (A : Arrs (F := F) c) (O₀ : CellTallies nD τ sig Ix) (Rb : Set (SemLoc sig × Ix))

/-- Each input window's block at the one point, read off its array's entry contents: what the fetch puts in its
    staging buffer (the windows are whole: the block is the array). One per window, so that each block's type is the
    window's own. -/
abbrev blk0 (A : Arrs (F := F) c) : (cfg2.win 0).block.Idx → Elt F (cfg2.win 0).elt :=
  ((cfg2.win 0).blk t2_0).view.read (Elt F) (A 0)
abbrev blk1 (A : Arrs (F := F) c) : (cfg2.win 1).block.Idx → Elt F (cfg2.win 1).elt :=
  ((cfg2.win 1).blk t2_0).view.read (Elt F) (A 1)
abbrev blk2 (A : Arrs (F := F) c) : (cfg2.win 2).block.Idx → Elt F (cfg2.win 2).elt :=
  ((cfg2.win 2).blk t2_0).view.read (Elt F) (A 2)
abbrev blk3 (A : Arrs (F := F) c) : (cfg2.win 3).block.Idx → Elt F (cfg2.win 3).elt :=
  ((cfg2.win 3).blk t2_0).view.read (Elt F) (A 3)
abbrev blk4 (A : Arrs (F := F) c) : (cfg2.win 4).block.Idx → Elt F (cfg2.win 4).elt :=
  ((cfg2.win 4).blk t2_0).view.read (Elt F) (A 4)
abbrev blk5 (A : Arrs (F := F) c) : (cfg2.win 5).block.Idx → Elt F (cfg2.win 5).elt :=
  ((cfg2.win 5).blk t2_0).view.read (Elt F) (A 5)
abbrev blk6 (A : Arrs (F := F) c) : (cfg2.win 6).block.Idx → Elt F (cfg2.win 6).elt :=
  ((cfg2.win 6).blk t2_0).view.read (Elt F) (A 6)
abbrev blk7 (A : Arrs (F := F) c) : (cfg2.win 7).block.Idx → Elt F (cfg2.win 7).elt :=
  ((cfg2.win 7).blk t2_0).view.read (Elt F) (A 7)
abbrev blk8 (A : Arrs (F := F) c) : (cfg2.win 8).block.Idx → Elt F (cfg2.win 8).elt :=
  ((cfg2.win 8).blk t2_0).view.read (Elt F) (A 8)
abbrev blk9 (A : Arrs (F := F) c) : (cfg2.win 9).block.Idx → Elt F (cfg2.win 9).elt :=
  ((cfg2.win 9).blk t2_0).view.read (Elt F) (A 9)

/-- The body's run from the input staging buffers at the fetched blocks: its witness is what the body leaves in the
    result's staging buffer. -/
abbrev K (A : Arrs (F := F) c) :=
  k2Run (F := F) (Ix := Ix) (Name := Name) (U := U) (Lvl := Lvl) c (stage2_0 0) (hstage2_0 0) (stage2_1 0) (hstage2_1 0) (stage2_2 0) (hstage2_2 0) (stage2_3 0) (hstage2_3 0) (stage2_4 0) (hstage2_4 0) (stage2_5 0) (hstage2_5 0) (stage2_6 0) (hstage2_6 0) (stage2_7 0) (hstage2_7 0) (stage2_8 0) (hstage2_8 0) (stage2_9 0) (hstage2_9 0) (stage2_10 0) (hstage2_10 0)
    (blk0 A) (blk1 A) (blk2 A) (blk3 A) (blk4 A) (blk5 A) (blk6 A) (blk7 A) (blk8 A) (blk9 A)

/-- The proof data on core `c`: the arrays at their entry contents `A`; after the body each input's staging buffer
    as fetched and the result's at what the run leaves; between the region's ends the scoped buffers this pipeline
    does not stage; the tallies `O₀` owed throughout, the core's recorded wait pairs within `Rb` throughout (the body waits on nothing
    of its own); full shares. -/
def dat (A : Arrs (F := F) c) (O₀ : CellTallies nD τ sig Ix) (Rb : Set (SemLoc sig × Ix)) : Dat τ (Elt F) Ix Name U Lvl cfg2 c where
  A := A
  after w _ := match w with
    | ⟨0, _⟩ => blk0 A
    | ⟨1, _⟩ => blk1 A
    | ⟨2, _⟩ => blk2 A
    | ⟨3, _⟩ => blk3 A
    | ⟨4, _⟩ => blk4 A
    | ⟨5, _⟩ => blk5 A
    | ⟨6, _⟩ => blk6 A
    | ⟨7, _⟩ => blk7 A
    | ⟨8, _⟩ => blk8 A
    | ⟨9, _⟩ => blk9 A
    | ⟨10, _⟩ => (K (Ix := Ix) (Name := Name) (U := U) (Lvl := Lvl) A).1
  Φ _ := Pipeline.scopedRest (Ix := Ix) (Name := Name) (U := U) (Lvl := Lvl) (Val := Elt F) spec2 c
  q _ := fullShare
  owed _ := O₀
  recorded _ := Rb

/-- A fetched window's staging buffer holds the array's block when the body runs: every input is fetched at the one
    point, and an uncut window's fetch fills the whole buffer. -/
theorem before_in0 (d : (cfg2.win 0).block.Idx → Elt F (cfg2.win 0).elt) :
    (dat (Ix := Ix) (Name := Name) (U := U) (Lvl := Lvl) A O₀ Rb).before 0 t2_0 d = blk0 A := by
  unfold Dat.before; rw [if_pos (fetch2_0 t2_0)]; rfl
theorem before_in1 (d : (cfg2.win 1).block.Idx → Elt F (cfg2.win 1).elt) :
    (dat (Ix := Ix) (Name := Name) (U := U) (Lvl := Lvl) A O₀ Rb).before 1 t2_0 d = blk1 A := by
  unfold Dat.before; rw [if_pos (fetch2_1 t2_0)]; rfl
theorem before_in2 (d : (cfg2.win 2).block.Idx → Elt F (cfg2.win 2).elt) :
    (dat (Ix := Ix) (Name := Name) (U := U) (Lvl := Lvl) A O₀ Rb).before 2 t2_0 d = blk2 A := by
  unfold Dat.before; rw [if_pos (fetch2_2 t2_0)]; rfl
theorem before_in3 (d : (cfg2.win 3).block.Idx → Elt F (cfg2.win 3).elt) :
    (dat (Ix := Ix) (Name := Name) (U := U) (Lvl := Lvl) A O₀ Rb).before 3 t2_0 d = blk3 A := by
  unfold Dat.before; rw [if_pos (fetch2_3 t2_0)]; rfl
theorem before_in4 (d : (cfg2.win 4).block.Idx → Elt F (cfg2.win 4).elt) :
    (dat (Ix := Ix) (Name := Name) (U := U) (Lvl := Lvl) A O₀ Rb).before 4 t2_0 d = blk4 A := by
  unfold Dat.before; rw [if_pos (fetch2_4 t2_0)]; rfl
theorem before_in5 (d : (cfg2.win 5).block.Idx → Elt F (cfg2.win 5).elt) :
    (dat (Ix := Ix) (Name := Name) (U := U) (Lvl := Lvl) A O₀ Rb).before 5 t2_0 d = blk5 A := by
  unfold Dat.before; rw [if_pos (fetch2_5 t2_0)]; rfl
theorem before_in6 (d : (cfg2.win 6).block.Idx → Elt F (cfg2.win 6).elt) :
    (dat (Ix := Ix) (Name := Name) (U := U) (Lvl := Lvl) A O₀ Rb).before 6 t2_0 d = blk6 A := by
  unfold Dat.before; rw [if_pos (fetch2_6 t2_0)]; rfl
theorem before_in7 (d : (cfg2.win 7).block.Idx → Elt F (cfg2.win 7).elt) :
    (dat (Ix := Ix) (Name := Name) (U := U) (Lvl := Lvl) A O₀ Rb).before 7 t2_0 d = blk7 A := by
  unfold Dat.before; rw [if_pos (fetch2_7 t2_0)]; rfl
theorem before_in8 (d : (cfg2.win 8).block.Idx → Elt F (cfg2.win 8).elt) :
    (dat (Ix := Ix) (Name := Name) (U := U) (Lvl := Lvl) A O₀ Rb).before 8 t2_0 d = blk8 A := by
  unfold Dat.before; rw [if_pos (fetch2_8 t2_0)]; rfl
theorem before_in9 (d : (cfg2.win 9).block.Idx → Elt F (cfg2.win 9).elt) :
    (dat (Ix := Ix) (Name := Name) (U := U) (Lvl := Lvl) A O₀ Rb).before 9 t2_0 d = blk9 A := by
  unfold Dat.before; rw [if_pos (fetch2_9 t2_0)]; rfl

set_option maxHeartbeats 2000000 in
/-- The body obligation at the one point: the eleven staging buffers taken out of the windows' conjunction, the run
    applied at the inputs' contents, what it returns put back; the invariant and what the core owes pass by. -/
theorem body_obligation (ι : Ix) :
    BodyObligation (dat (Ix := Ix) (Name := Name) (U := U) (Lvl := Lvl) A O₀ Rb) (defs₀ (F := F)) Variants.none ι Set.univ := fun t => by
  obtain rfl := fin_N2 t
  rw [bigSep_W2, bigSep_W2]
  simp only [owns_whole_eq]
  -- the invariant and what the core owes are the same before and after the point
  rw [show (dat (Ix := Ix) (Name := Name) (U := U) (Lvl := Lvl) A O₀ Rb).Φ t2_0.succ = (dat (Ix := Ix) (Name := Name) (U := U) (Lvl := Lvl) A O₀ Rb).Φ t2_0.castSucc from rfl,
    show (dat (Ix := Ix) (Name := Name) (U := U) (Lvl := Lvl) A O₀ Rb).owesAt ι t2_0.succ = (dat (Ix := Ix) (Name := Name) (U := U) (Lvl := Lvl) A O₀ Rb).owesAt ι t2_0.castSucc from rfl]
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, -, H10⟩⟩
  rw [before_in0] at hf0
  rw [before_in1] at hf1
  rw [before_in2] at hf2
  rw [before_in3] at hf3
  rw [before_in4] at hf4
  rw [before_in5] at hf5
  rw [before_in6] at hf6
  rw [before_in7] at hf7
  rw [before_in8] at hf8
  rw [before_in9] at hf9
  subst hf0 hf1 hf2 hf3 hf4 hf5 hf6 hf7 hf8 hf9
  iapply ((K (Ix := Ix) (Name := Name) (U := U) (Lvl := Lvl) A).2 f10 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Ho]; · iexact Ho
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [H6]
  · iexists _; isplitr
    · ipureintro; rfl
    · iexact H6
  isplitl [H7]
  · iexists _; isplitr
    · ipureintro; rfl
    · iexact H7
  isplitl [H8]
  · iexists _; isplitr
    · ipureintro; rfl
    · iexact H8
  isplitl [H9]
  · iexists _; isplitr
    · ipureintro; rfl
    · iexact H9
  iexists _; isplitr
  · ipureintro; rfl
  · iexact H10

/-- The form the region rule takes it in. -/
theorem hbody (ι : Ix) :
    BodyObligationLoose (dat (Ix := Ix) (Name := Name) (U := U) (Lvl := Lvl) A O₀ Rb) (defs₀ (F := F)) Variants.none ι Set.univ :=
  (body_obligation A O₀ Rb ι).loose

/-! ## The region's ends

The kernel has no semaphore of its own and no prefetched table, and takes nothing of the thread state into its
invariant: at entry the invariant is the scoped buffers the pipeline does not stage, and at exit it gives them back. -/

/-- Entering: nothing of the thread state, no table, and the scoped buffers this pipeline does not stage make the
    invariant at the first point. -/
theorem hin (V : (Pipeline.Prefetch.none : Pipeline.Prefetch sig).Contents (Elt F)) :
    iprop((emp : sProp 𝕄) ∗ Pipeline.prefHeld (Pipeline.Prefetch.none : Pipeline.Prefetch sig) c (fun _ => fullShare) V ∗ Pipeline.scopedRest spec2 c)
      ⊢ (dat (Ix := Ix) (Name := Name) (U := U) (Lvl := Lvl) A O₀ Rb).Φ 0 := by
  show _ ⊢ Pipeline.scopedRest spec2 c
  unfold Pipeline.prefHeld
  rw [Finset.univ_eq_empty, BI.bigSep_empty]
  exact emp_sep_elim.trans emp_sep_elim

/-- Leaving: the invariant at the last point is those scoped buffers; the kernel holds no semaphore of its own. -/
theorem hout :
    (dat (Ix := Ix) (Name := Name) (U := U) (Lvl := Lvl) A O₀ Rb).Φ (Fin.last cfg2.N)
      ⊢ iprop((emp : sProp 𝕄) ∗ Pipeline.ownSems0 (fun k : PEmpty => k.elim) c ∗ Pipeline.scopedRest spec2 c) := by
  show Pipeline.scopedRest spec2 c ⊢ _
  rw [Pipeline.ownSems0_none]
  exact emp_sep_intro.trans emp_sep_intro

end Cert.Proof.K2BodyK

end
-- ==== Proof.Claims.lean ====
/-
  The five claims, closed: the kernel program's run (at the ideal values and as printed) given the index list's
  range from the precondition, the three launches' result arrays read as values, and the assembly.
-/
import proofs.«211384_g36696200577170_cont_8to1_b_1111_23_alg».proof.Proof.Assemble
import proofs.«211384_g36696200577170_cont_8to1_b_1111_23_alg».proof.Proof.KI.Main
import proofs.«211384_g36696200577170_cont_8to1_b_1111_23_alg».proof.Proof.KI.Idx
import proofs.«211384_g36696200577170_cont_8to1_b_1111_23_alg».proof.Proof.KI.V35
import proofs.«211384_g36696200577170_cont_8to1_b_1111_23_alg».proof.Proof.KI.V41
import proofs.«211384_g36696200577170_cont_8to1_b_1111_23_alg».proof.Proof.KB.Main
import proofs.«211384_g36696200577170_cont_8to1_b_1111_23_alg».proof.Proof.KB.Idx

noncomputable section

namespace Cert.Proof.Claims

open Idealize.ShloMosaic Idealize.ShloMosaic.ValueIdx Idealize.ShloMosaic.StableHlo Idealize.SL.Sem
open Cert.Proof.Assemble

/-! ## At the ideal values -/

section Ideal

open Cert.KernelIdeal Cert.Proof.KI Cert.Proof.KI.Vals

/-- The kernel program's run under the precondition. -/
theorem runI (m : (ℓ : Loc nD τ sig) → Buf (Elt Ideal) ℓ) (g : Dev nD → PrngReg) (hpre : Cert.Pre_KernelIdeal m) :
    KRun m g (o35 m) (o37 m) (o41 m) :=
  run_main (F := Ideal) m g (fun d k => hidx_of_range m (o35 m) d (hrange_of_pre m hpre d) k)

theorem frame_KI : Cert.frame_KernelIdeal :=
  frame_KI_of (fun m => o35 m) (fun m => o37 m) (fun m => o41 m) runI

theorem algebraic : Cert.algebraic_KernelIdeal_ReferenceIdeal :=
  algebraic_of (fun m => o35 m) (fun m => o37 m) (fun m => o41 m) runI
    (fun m d s n l => Cert.Proof.KI.V35.h35 m (Ot (F := Ideal) 0) (Rb (F := Ideal) 0) d s n l)
    (fun m d => rfl)
    (fun m d b mm => arrAt10_net_of_valuation (c := d) (Ot (F := Ideal) 1 d) (Rb (F := Ideal) 1 d)
      (V5 m (o35 m) (o37 m) d) b mm)

end Ideal

/-! ## As printed -/

section Bits

open Cert.Kernel

theorem frame_K : Cert.frame_Kernel :=
  frame_K_of fun m g hpre =>
    (θ_run (Cert.Kernel.defs (F := Bits)) _ _).mono (fun r h c => (h c).2)
      (Cert.Proof.KB.run_main (F := Bits) m g (fun d k =>
        Cert.Proof.KB.hidx_of_range m (Cert.Proof.KB.o35 m) d
          (fun i => Cert.Proof.LibScat.lidx_range_of_pre (F := Bits) _ _ _ _ _ _ _ _ _ _ _ _ _ _ _ _ _ _ _ (hpre d) i) k))

end Bits

theorem frame_R : Cert.frame_ReferenceIdeal := Assemble.frame_R

theorem preserves : Cert.preserves_Kernel_KernelIdeal := Assemble.preserves

end Cert.Proof.Claims

end
-- ==== Proof.lean ====
/- The proof of Cert.Claim: the printed kernel program and its idealization run and leave their arguments, the
   reference runs and leaves its arguments, the idealization's two rewrites are sound, and at the ideal values the
   kernel program and the reference end with equal results.

   The mathematics. For each of 40 sparse operators the programs score the 16 neighbour slots of each of the 325 nodes
   by a two-layer perceptron on the slot's five map features, take the softmax over the 16 slots, and write the 5200
   weights into a 325 × 325 matrix of zeros at the places an index list names; ten layers then apply four operators
   each to the node features (the input channels joined to embedding rows, repeated four times for the first layer),
   multiply by the layer's weights, sum the four, normalise every feature over the batch and node axes, scale, shift
   and rectify; two dense layers give one number per batch entry and node.

   The two programs differ in five ways, none of which changes the value at the extended reals when every float input
   is a real number, which the precondition says. (1) The reference adds the operator's output bias to all 16 scores of
   a row; a softmax subtracts the row maximum, so a real constant added to the row cancels. (2) The reference adds a
   per-feature bias before the normalisation; the mean over batch and nodes moves by the same constant, the deviations
   and hence the variance do not move, so the bias cancels. (3) The kernel takes the mean over the nodes and then over
   the batch where the reference divides one sum over both axes by 5200 = 16 · 325: the same real number; likewise
   the variance. (4) The kernel multiplies the deviation by scale / √(variance + ε) where the reference divides the
   deviation by √(variance + ε) and multiplies by the scale: the root is a positive real, so both are the product of
   deviation, scale and the root's inverse. (5) The reference's scatter is the left fold over the index list in order,
   a later write to a place replacing an earlier one. The kernel first finds the last writer of every place (it scatters
   the positions' own numbers the same way and compares what comes back with the position), sends every other
   position to one of 128 dump slots beyond place 105624, and then scatters the rows sixteen positions at a time into
   a zeroed buffer of 105856 places; the sixteen positions of one step are then distinct among the places below
   105625 and the steps run in order, so below 105625 the buffer ends as the left fold leaves it, and the slice
   drops the dump slots. The precondition bounds the index list by 0 and 105624, so no index wraps and every word of
   the winner list names a place of the buffer.

   The kernel's matrix products round their operands to bf16 and widen the result; at the ideal values a format change
   is the identity, which is what the two rewrites of the idealization state. The finiteness of every intermediate
   value (sums, products, tanh and exp of reals; a quotient by a positive sum of exponentials; the root of a variance
   plus a positive ε) is what lets every law be an identity of real numbers under the coercion into the extended
   reals. -/
import proofs.«211384_g36696200577170_cont_8to1_b_1111_23_alg».proof.Defs
import proofs.«211384_g36696200577170_cont_8to1_b_1111_23_alg».proof.Proof.Gen.Kernel
import proofs.«211384_g36696200577170_cont_8to1_b_1111_23_alg».proof.Proof.Gen.Kernel.Skeleton
import proofs.«211384_g36696200577170_cont_8to1_b_1111_23_alg».proof.Proof.Gen.Kernel.Launch
import proofs.«211384_g36696200577170_cont_8to1_b_1111_23_alg».proof.Proof.Gen.Kernel.Regions
import proofs.«211384_g36696200577170_cont_8to1_b_1111_23_alg».proof.Proof.Gen.Kernel.Points
import proofs.«211384_g36696200577170_cont_8to1_b_1111_23_alg».proof.Proof.Gen.KernelIdeal
import proofs.«211384_g36696200577170_cont_8to1_b_1111_23_alg».proof.Proof.Gen.KernelIdeal.Skeleton
import proofs.«211384_g36696200577170_cont_8to1_b_1111_23_alg».proof.Proof.Gen.KernelIdeal.Launch
import proofs.«211384_g36696200577170_cont_8to1_b_1111_23_alg».proof.Proof.Gen.KernelIdeal.Regions
import proofs.«211384_g36696200577170_cont_8to1_b_1111_23_alg».proof.Proof.Gen.KernelIdeal.Points
import proofs.«211384_g36696200577170_cont_8to1_b_1111_23_alg».proof.Proof.Gen.ReferenceIdeal
import proofs.«211384_g36696200577170_cont_8to1_b_1111_23_alg».proof.Proof.Gen.Pre_input_domain
import proofs.«211384_g36696200577170_cont_8to1_b_1111_23_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_input_domain.Gen.facts,
    Claims.frame_K, Claims.frame_KI, Claims.frame_R, Claims.preserves, Claims.algebraic⟩

end Cert.Proof

end
